-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S256x220 : Shape := ⟨2, ![256, 220]⟩
abbrev S220 : Shape := ⟨1, ![220]⟩
abbrev S220x150 : Shape := ⟨2, ![220, 150]⟩
abbrev S150 : Shape := ⟨1, ![150]⟩
abbrev S150x100 : Shape := ⟨2, ![150, 100]⟩
abbrev S100 : Shape := ⟨1, ![100]⟩
abbrev S100x60 : Shape := ⟨2, ![100, 60]⟩
abbrev S60 : Shape := ⟨1, ![60]⟩
abbrev S60x17 : Shape := ⟨2, ![60, 17]⟩
abbrev S17 : Shape := ⟨1, ![17]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x220 : S_.BroadcastsInDim S256x220 (![] : Fin 0 → Fin S256x220.rank)
  reducesTo_S256x220_S_d0_1 : S256x220.ReducesTo [0, 1] S_
  bcast_S_S220 : S_.BroadcastsInDim S220 (![] : Fin 0 → Fin S220.rank)
  reducesTo_S220_S_d0 : S220.ReducesTo [0] S_
  bcast_S_S220x150 : S_.BroadcastsInDim S220x150 (![] : Fin 0 → Fin S220x150.rank)
  reducesTo_S220x150_S_d0_1 : S220x150.ReducesTo [0, 1] S_
  bcast_S_S150 : S_.BroadcastsInDim S150 (![] : Fin 0 → Fin S150.rank)
  reducesTo_S150_S_d0 : S150.ReducesTo [0] S_
  bcast_S_S150x100 : S_.BroadcastsInDim S150x100 (![] : Fin 0 → Fin S150x100.rank)
  reducesTo_S150x100_S_d0_1 : S150x100.ReducesTo [0, 1] S_
  bcast_S_S100 : S_.BroadcastsInDim S100 (![] : Fin 0 → Fin S100.rank)
  reducesTo_S100_S_d0 : S100.ReducesTo [0] S_
  bcast_S_S100x60 : S_.BroadcastsInDim S100x60 (![] : Fin 0 → Fin S100x60.rank)
  reducesTo_S100x60_S_d0_1 : S100x60.ReducesTo [0, 1] S_
  bcast_S_S60 : S_.BroadcastsInDim S60 (![] : Fin 0 → Fin S60.rank)
  reducesTo_S60_S_d0 : S60.ReducesTo [0] S_
  bcast_S_S60x17 : S_.BroadcastsInDim S60x17 (![] : Fin 0 → Fin S60x17.rank)
  reducesTo_S60x17_S_d0_1 : S60x17.ReducesTo [0, 1] S_
  bcast_S_S17 : S_.BroadcastsInDim S17 (![] : Fin 0 → Fin S17.rank)
  reducesTo_S17_S_d0 : S17.ReducesTo [0] S_
  bcast_S_S2x320000 : S_.BroadcastsInDim S2x320000 (![] : Fin 0 → Fin S2x320000.rank)
  reducesTo_S2x320000_S_d0_1 : S2x320000.ReducesTo [0, 1] S_

variable [Facts]

def fn_part5 {F : FTy → Type} [FloatOps F] (main_arg1 : IVec S2x320000 32) (main_arg19 : FVec F S60 .f32) (main_v83 : IVec S_ 1) (main_v84 : FVec F S60 .f32) (main_cst_32 : FVec F S_ .f32) : IVec S_ 1 :=
  let main_v85 : FVec F S60 .f32 := broadcastInDim S60 ![] bcast_S_S60 main_cst_32
  let main_v86 : IVec S60 1 := cmpf .olt main_v84 main_v85
  let main_c_33 : IVec S_ 1 := constantI S_ 1 1#1
  let main_v87 : IVec S_ 1 := (fun x v => Host.reduce IntOp.andi x v reducesTo_S60_S_d0 h_S_) main_v86 main_c_33
  let main_v88 : IVec S_ 1 := andi main_v83 main_v87
  let main_v89 : FVec F S60 .f32 := Host.absf main_arg19
  let main_cst_34 : FVec F S_ .f32 := constant S_ .f32 0x7F800000#32
  let main_v90 : FVec F S60 .f32 := broadcastInDim S60 ![] bcast_S_S60 main_cst_34
  let main_v91 : IVec S60 1 := cmpf .olt main_v89 main_v90
  let main_c_35 : IVec S_ 1 := constantI S_ 1 1#1
  let main_v92 : IVec S_ 1 := (fun x v => Host.reduce IntOp.andi x v reducesTo_S60_S_d0 h_S_) main_v91 main_c_35
  let main_v93 : IVec S_ 1 := andi main_v88 main_v92
  let main_c_36 : IVec S_ 32 := constantI S_ 32 0#32
  let main_v94 : IVec S2x320000 32 := broadcastInDim S2x320000 ![] bcast_S_S2x320000 main_c_36
  let main_v95 : IVec S2x320000 1 := cmpi .sge main_arg1 main_v94
  let main_c_37 : IVec S_ 1 := constantI S_ 1 1#1
  let main_v96 : IVec S_ 1 := (fun x v => Host.reduce IntOp.andi x v reducesTo_S2x320000_S_d0_1 h_S_) main_v95 main_c_37
  let main_v97 : IVec S_ 1 := andi main_v93 main_v96
  let main_c_38 : IVec S_ 32 := constantI S_ 32 10000#32
  let main_v98 : IVec S2x320000 32 := broadcastInDim S2x320000 ![] bcast_S_S2x320000 main_c_38
  let main_v99 : IVec S2x320000 1 := cmpi .slt main_arg1 main_v98
  let main_c_39 : IVec S_ 1 := constantI S_ 1 1#1
  let main_v100 : IVec S_ 1 := (fun x v => Host.reduce IntOp.andi x v reducesTo_S2x320000_S_d0_1 h_S_) main_v99 main_c_39
  let main_v101 : IVec S_ 1 := andi main_v97 main_v100
  main_v101

def fn_part4 {F : FTy → Type} [FloatOps F] (main_arg1 : IVec S2x320000 32) (main_arg15 : FVec F S150 .f32) (main_arg16 : FVec F S100 .f32) (main_arg17 : FVec F S100 .f32) (main_arg18 : FVec F S60 .f32) (main_arg19 : FVec F S60 .f32) (main_v63 : IVec S_ 1) (main_v67 : IVec S_ 1) : IVec S_ 1 :=
  let main_v68 : IVec S_ 1 := andi main_v63 main_v67
  let main_v69 : FVec F S150 .f32 := Host.absf main_arg15
  let main_cst_26 : FVec F S_ .f32 := constant S_ .f32 0x7F800000#32
  let main_v70 : FVec F S150 .f32 := broadcastInDim S150 ![] bcast_S_S150 main_cst_26
  let main_v71 : IVec S150 1 := cmpf .olt main_v69 main_v70
  let main_c_27 : IVec S_ 1 := constantI S_ 1 1#1
  let main_v72 : IVec S_ 1 := (fun x v => Host.reduce IntOp.andi x v reducesTo_S150_S_d0 h_S_) main_v71 main_c_27
  let main_v73 : IVec S_ 1 := andi main_v68 main_v72
  let main_v74 : FVec F S100 .f32 := Host.absf main_arg16
  let main_cst_28 : FVec F S_ .f32 := constant S_ .f32 0x7F800000#32
  let main_v75 : FVec F S100 .f32 := broadcastInDim S100 ![] bcast_S_S100 main_cst_28
  let main_v76 : IVec S100 1 := cmpf .olt main_v74 main_v75
  let main_c_29 : IVec S_ 1 := constantI S_ 1 1#1
  let main_v77 : IVec S_ 1 := (fun x v => Host.reduce IntOp.andi x v reducesTo_S100_S_d0 h_S_) main_v76 main_c_29
  let main_v78 : IVec S_ 1 := andi main_v73 main_v77
  let main_v79 : FVec F S100 .f32 := Host.absf main_arg17
  let main_cst_30 : FVec F S_ .f32 := constant S_ .f32 0x7F800000#32
  let main_v80 : FVec F S100 .f32 := broadcastInDim S100 ![] bcast_S_S100 main_cst_30
  let main_v81 : IVec S100 1 := cmpf .olt main_v79 main_v80
  let main_c_31 : IVec S_ 1 := constantI S_ 1 1#1
  let main_v82 : IVec S_ 1 := (fun x v => Host.reduce IntOp.andi x v reducesTo_S100_S_d0 h_S_) main_v81 main_c_31
  let main_v83 : IVec S_ 1 := andi main_v78 main_v82
  let main_v84 : FVec F S60 .f32 := Host.absf main_arg18
  let main_cst_32 : FVec F S_ .f32 := constant S_ .f32 0x7F800000#32
  fn_part5 (F := F) main_arg1 main_arg19 main_v83 main_v84 main_cst_32

def fn_part3 {F : FTy → Type} [FloatOps F] (main_arg1 : IVec S2x320000 32) (main_arg12 : FVec F S220 .f32) (main_arg13 : FVec F S220 .f32) (main_arg14 : FVec F S150 .f32) (main_arg15 : FVec F S150 .f32) (main_arg16 : FVec F S100 .f32) (main_arg17 : FVec F S100 .f32) (main_arg18 : FVec F S60 .f32) (main_arg19 : FVec F S60 .f32) (main_v48 : IVec S_ 1) (main_v49 : FVec F S17 .f32) (main_v50 : FVec F S17 .f32) : IVec S_ 1 :=
  let main_v51 : IVec S17 1 := cmpf .olt main_v49 main_v50
  let main_c_19 : IVec S_ 1 := constantI S_ 1 1#1
  let main_v52 : IVec S_ 1 := (fun x v => Host.reduce IntOp.andi x v reducesTo_S17_S_d0 h_S_) main_v51 main_c_19
  let main_v53 : IVec S_ 1 := andi main_v48 main_v52
  let main_v54 : FVec F S220 .f32 := Host.absf main_arg12
  let main_cst_20 : FVec F S_ .f32 := constant S_ .f32 0x7F800000#32
  let main_v55 : FVec F S220 .f32 := broadcastInDim S220 ![] bcast_S_S220 main_cst_20
  let main_v56 : IVec S220 1 := cmpf .olt main_v54 main_v55
  let main_c_21 : IVec S_ 1 := constantI S_ 1 1#1
  let main_v57 : IVec S_ 1 := (fun x v => Host.reduce IntOp.andi x v reducesTo_S220_S_d0 h_S_) main_v56 main_c_21
  let main_v58 : IVec S_ 1 := andi main_v53 main_v57
  let main_v59 : FVec F S220 .f32 := Host.absf main_arg13
  let main_cst_22 : FVec F S_ .f32 := constant S_ .f32 0x7F800000#32
  let main_v60 : FVec F S220 .f32 := broadcastInDim S220 ![] bcast_S_S220 main_cst_22
  let main_v61 : IVec S220 1 := cmpf .olt main_v59 main_v60
  let main_c_23 : IVec S_ 1 := constantI S_ 1 1#1
  let main_v62 : IVec S_ 1 := (fun x v => Host.reduce IntOp.andi x v reducesTo_S220_S_d0 h_S_) main_v61 main_c_23
  let main_v63 : IVec S_ 1 := andi main_v58 main_v62
  let main_v64 : FVec F S150 .f32 := Host.absf main_arg14
  let main_cst_24 : FVec F S_ .f32 := constant S_ .f32 0x7F800000#32
  let main_v65 : FVec F S150 .f32 := broadcastInDim S150 ![] bcast_S_S150 main_cst_24
  let main_v66 : IVec S150 1 := cmpf .olt main_v64 main_v65
  let main_c_25 : IVec S_ 1 := constantI S_ 1 1#1
  let main_v67 : IVec S_ 1 := (fun x v => Host.reduce IntOp.andi x v reducesTo_S150_S_d0 h_S_) main_v66 main_c_25
  fn_part4 (F := F) main_arg1 main_arg15 main_arg16 main_arg17 main_arg18 main_arg19 main_v63 main_v67

def fn_part2 {F : FTy → Type} [FloatOps F] (main_arg1 : IVec S2x320000 32) (main_arg8 : FVec F S100x60 .f32) (main_arg9 : FVec F S60 .f32) (main_arg10 : FVec F S60x17 .f32) (main_arg11 : FVec F S17 .f32) (main_arg12 : FVec F S220 .f32) (main_arg13 : FVec F S220 .f32) (main_arg14 : FVec F S150 .f32) (main_arg15 : FVec F S150 .f32) (main_arg16 : FVec F S100 .f32) (main_arg17 : FVec F S100 .f32) (main_arg18 : FVec F S60 .f32) (main_arg19 : FVec F S60 .f32) (main_v33 : IVec S_ 1) : IVec S_ 1 :=
  let main_v34 : FVec F S100x60 .f32 := Host.absf main_arg8
  let main_cst_12 : FVec F S_ .f32 := constant S_ .f32 0x7F800000#32
  let main_v35 : FVec F S100x60 .f32 := broadcastInDim S100x60 ![] bcast_S_S100x60 main_cst_12
  let main_v36 : IVec S100x60 1 := cmpf .olt main_v34 main_v35
  let main_c_13 : IVec S_ 1 := constantI S_ 1 1#1
  let main_v37 : IVec S_ 1 := (fun x v => Host.reduce IntOp.andi x v reducesTo_S100x60_S_d0_1 h_S_) main_v36 main_c_13
  let main_v38 : IVec S_ 1 := andi main_v33 main_v37
  let main_v39 : FVec F S60 .f32 := Host.absf main_arg9
  let main_cst_14 : FVec F S_ .f32 := constant S_ .f32 0x7F800000#32
  let main_v40 : FVec F S60 .f32 := broadcastInDim S60 ![] bcast_S_S60 main_cst_14
  let main_v41 : IVec S60 1 := cmpf .olt main_v39 main_v40
  let main_c_15 : IVec S_ 1 := constantI S_ 1 1#1
  let main_v42 : IVec S_ 1 := (fun x v => Host.reduce IntOp.andi x v reducesTo_S60_S_d0 h_S_) main_v41 main_c_15
  let main_v43 : IVec S_ 1 := andi main_v38 main_v42
  let main_v44 : FVec F S60x17 .f32 := Host.absf main_arg10
  let main_cst_16 : FVec F S_ .f32 := constant S_ .f32 0x7F800000#32
  let main_v45 : FVec F S60x17 .f32 := broadcastInDim S60x17 ![] bcast_S_S60x17 main_cst_16
  let main_v46 : IVec S60x17 1 := cmpf .olt main_v44 main_v45
  let main_c_17 : IVec S_ 1 := constantI S_ 1 1#1
  let main_v47 : IVec S_ 1 := (fun x v => Host.reduce IntOp.andi x v reducesTo_S60x17_S_d0_1 h_S_) main_v46 main_c_17
  let main_v48 : IVec S_ 1 := andi main_v43 main_v47
  let main_v49 : FVec F S17 .f32 := Host.absf main_arg11
  let main_cst_18 : FVec F S_ .f32 := constant S_ .f32 0x7F800000#32
  let main_v50 : FVec F S17 .f32 := broadcastInDim S17 ![] bcast_S_S17 main_cst_18
  fn_part3 (F := F) main_arg1 main_arg12 main_arg13 main_arg14 main_arg15 main_arg16 main_arg17 main_arg18 main_arg19 main_v48 main_v49 main_v50

def fn_part1 {F : FTy → Type} [FloatOps F] (main_arg1 : IVec S2x320000 32) (main_arg5 : FVec F S150 .f32) (main_arg6 : FVec F S150x100 .f32) (main_arg7 : FVec F S100 .f32) (main_arg8 : FVec F S100x60 .f32) (main_arg9 : FVec F S60 .f32) (main_arg10 : FVec F S60x17 .f32) (main_arg11 : FVec F S17 .f32) (main_arg12 : FVec F S220 .f32) (main_arg13 : FVec F S220 .f32) (main_arg14 : FVec F S150 .f32) (main_arg15 : FVec F S150 .f32) (main_arg16 : FVec F S100 .f32) (main_arg17 : FVec F S100 .f32) (main_arg18 : FVec F S60 .f32) (main_arg19 : FVec F S60 .f32) (main_v13 : IVec S_ 1) (main_v16 : IVec S220x150 1) : IVec S_ 1 :=
  let main_c_5 : IVec S_ 1 := constantI S_ 1 1#1
  let main_v17 : IVec S_ 1 := (fun x v => Host.reduce IntOp.andi x v reducesTo_S220x150_S_d0_1 h_S_) main_v16 main_c_5
  let main_v18 : IVec S_ 1 := andi main_v13 main_v17
  let main_v19 : FVec F S150 .f32 := Host.absf main_arg5
  let main_cst_6 : FVec F S_ .f32 := constant S_ .f32 0x7F800000#32
  let main_v20 : FVec F S150 .f32 := broadcastInDim S150 ![] bcast_S_S150 main_cst_6
  let main_v21 : IVec S150 1 := cmpf .olt main_v19 main_v20
  let main_c_7 : IVec S_ 1 := constantI S_ 1 1#1
  let main_v22 : IVec S_ 1 := (fun x v => Host.reduce IntOp.andi x v reducesTo_S150_S_d0 h_S_) main_v21 main_c_7
  let main_v23 : IVec S_ 1 := andi main_v18 main_v22
  let main_v24 : FVec F S150x100 .f32 := Host.absf main_arg6
  let main_cst_8 : FVec F S_ .f32 := constant S_ .f32 0x7F800000#32
  let main_v25 : FVec F S150x100 .f32 := broadcastInDim S150x100 ![] bcast_S_S150x100 main_cst_8
  let main_v26 : IVec S150x100 1 := cmpf .olt main_v24 main_v25
  let main_c_9 : IVec S_ 1 := constantI S_ 1 1#1
  let main_v27 : IVec S_ 1 := (fun x v => Host.reduce IntOp.andi x v reducesTo_S150x100_S_d0_1 h_S_) main_v26 main_c_9
  let main_v28 : IVec S_ 1 := andi main_v23 main_v27
  let main_v29 : FVec F S100 .f32 := Host.absf main_arg7
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_v33

def fn {F : FTy → Type} [FloatOps F] (main_arg0 : FVec F S10000x256 .f32) (main_arg1 : IVec S2x320000 32) (main_arg2 : FVec F S256x220 .f32) (main_arg3 : FVec F S220 .f32) (main_arg4 : FVec F S220x150 .f32) (main_arg5 : FVec F S150 .f32) (main_arg6 : FVec F S150x100 .f32) (main_arg7 : FVec F S100 .f32) (main_arg8 : FVec F S100x60 .f32) (main_arg9 : FVec F S60 .f32) (main_arg10 : FVec F S60x17 .f32) (main_arg11 : FVec F S17 .f32) (main_arg12 : FVec F S220 .f32) (main_arg13 : FVec F S220 .f32) (main_arg14 : FVec F S150 .f32) (main_arg15 : FVec F S150 .f32) (main_arg16 : FVec F S100 .f32) (main_arg17 : FVec F S100 .f32) (main_arg18 : FVec F S60 .f32) (main_arg19 : FVec F S60 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x220 .f32 := Host.absf main_arg2
  let main_cst_0 : FVec F S_ .f32 := constant S_ .f32 0x7F800000#32
  let main_v5 : FVec F S256x220 .f32 := broadcastInDim S256x220 ![] bcast_S_S256x220 main_cst_0
  let main_v6 : IVec S256x220 1 := cmpf .olt main_v4 main_v5
  let main_c_1 : IVec S_ 1 := constantI S_ 1 1#1
  let main_v7 : IVec S_ 1 := (fun x v => Host.reduce IntOp.andi x v reducesTo_S256x220_S_d0_1 h_S_) main_v6 main_c_1
  let main_v8 : IVec S_ 1 := andi main_v3 main_v7
  let main_v9 : FVec F S220 .f32 := Host.absf main_arg3
  let main_cst_2 : FVec F S_ .f32 := constant S_ .f32 0x7F800000#32
  let main_v10 : FVec F S220 .f32 := broadcastInDim S220 ![] bcast_S_S220 main_cst_2
  let main_v11 : IVec S220 1 := cmpf .olt main_v9 main_v10
  let main_c_3 : IVec S_ 1 := constantI S_ 1 1#1
  let main_v12 : IVec S_ 1 := (fun x v => Host.reduce IntOp.andi x v reducesTo_S220_S_d0 h_S_) main_v11 main_c_3
  let main_v13 : IVec S_ 1 := andi main_v8 main_v12
  let main_v14 : FVec F S220x150 .f32 := Host.absf main_arg4
  let main_cst_4 : FVec F S_ .f32 := constant S_ .f32 0x7F800000#32
  let main_v15 : FVec F S220x150 .f32 := broadcastInDim S220x150 ![] bcast_S_S220x150 main_cst_4
  let main_v16 : IVec S220x150 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_v13 main_v16
-- ==== Kernel.lean ====
abbrev S10000x256 : Shape := ⟨2, ![10000, 256]⟩
abbrev S2x320000 : Shape := ⟨2, ![2, 320000]⟩
abbrev S256x220 : Shape := ⟨2, ![256, 220]⟩
abbrev S220 : Shape := ⟨1, ![220]⟩
abbrev S220x150 : Shape := ⟨2, ![220, 150]⟩
abbrev S150 : Shape := ⟨1, ![150]⟩
abbrev S150x100 : Shape := ⟨2, ![150, 100]⟩
abbrev S100 : Shape := ⟨1, ![100]⟩
abbrev S100x60 : Shape := ⟨2, ![100, 60]⟩
abbrev S60 : Shape := ⟨1, ![60]⟩
abbrev S60x17 : Shape := ⟨2, ![60, 17]⟩
abbrev S17 : Shape := ⟨1, ![17]⟩
abbrev S1x320000 : Shape := ⟨2, ![1, 320000]⟩
abbrev S320000 : Shape := ⟨1, ![320000]⟩
abbrev S10000 : Shape := ⟨1, ![10000]⟩
abbrev S330000 : Shape := ⟨1, ![330000]⟩
abbrev S_ : Shape := ⟨0, ![]⟩
abbrev S330000x1 : Shape := ⟨2, ![330000, 1]⟩
abbrev S10000x10240 : Shape := ⟨2, ![10000, 10240]⟩
abbrev S330000x2 : Shape := ⟨2, ![330000, 2]⟩
abbrev S10000x220 : Shape := ⟨2, ![10000, 220]⟩
abbrev S1000x256 : Shape := ⟨2, ![1000, 256]⟩
abbrev S1000x220 : Shape := ⟨2, ![1000, 220]⟩
abbrev S10240x220 : Shape := ⟨2, ![10240, 220]⟩
abbrev S2000x1024 : Shape := ⟨2, ![2000, 1024]⟩
abbrev S1024x220 : Shape := ⟨2, ![1024, 220]⟩
abbrev S2000x220 : Shape := ⟨2, ![2000, 220]⟩
abbrev S1x220 : Shape := ⟨2, ![1, 220]⟩
abbrev S10000x150 : Shape := ⟨2, ![10000, 150]⟩
abbrev S1000x150 : Shape := ⟨2, ![1000, 150]⟩
abbrev S10240x150 : Shape := ⟨2, ![10240, 150]⟩
abbrev S1024x150 : Shape := ⟨2, ![1024, 150]⟩
abbrev S2000x150 : Shape := ⟨2, ![2000, 150]⟩
abbrev S1x150 : Shape := ⟨2, ![1, 150]⟩
abbrev S10000x100 : Shape := ⟨2, ![10000, 100]⟩
abbrev S1000x100 : Shape := ⟨2, ![1000, 100]⟩
abbrev S10240x100 : Shape := ⟨2, ![10240, 100]⟩
abbrev S1024x100 : Shape := ⟨2, ![1024, 100]⟩
abbrev S2000x100 : Shape := ⟨2, ![2000, 100]⟩
abbrev S1x100 : Shape := ⟨2, ![1, 100]⟩
abbrev S10000x60 : Shape := ⟨2, ![10000, 60]⟩
abbrev S1000x60 : Shape := ⟨2, ![1000, 60]⟩
abbrev S10240x60 : Shape := ⟨2, ![10240, 60]⟩
abbrev S1024x60 : Shape := ⟨2, ![1024, 60]⟩
abbrev S2000x60 : Shape := ⟨2, ![2000, 60]⟩
abbrev S1x60 : Shape := ⟨2, ![1, 60]⟩
abbrev S10000x17 : Shape := ⟨2, ![10000, 17]⟩
abbrev S1000x17 : Shape := ⟨2, ![1000, 17]⟩
abbrev S10240x17 : Shape := ⟨2, ![10240, 17]⟩
abbrev S1024x17 : Shape := ⟨2, ![1024, 17]⟩
abbrev S2000x17 : Shape := ⟨2, ![2000, 17]⟩
abbrev S1x17 : Shape := ⟨2, ![1, 17]⟩
abbrev S1000 : Shape := ⟨1, ![1000]⟩
abbrev S1000x1 : Shape := ⟨2, ![1000, 1]⟩

abbrev nBuf : Space → Nat
  | .hbm => 193
  | .vmem => 109
  | .smem => 0
  | _ => 0

abbrev hbmTy0_0 (i : Nat) : BufTy := match i % 128 with
  | 0 => ⟨S10000x256, .f32⟩
  | 1 => ⟨S2x320000, .i32⟩
  | 2 => ⟨S256x220, .f32⟩
  | 3 => ⟨S220, .f32⟩
  | 4 => ⟨S220x150, .f32⟩
  | 5 => ⟨S150, .f32⟩
  | 6 => ⟨S150x100, .f32⟩
  | 7 => ⟨S100, .f32⟩
  | 8 => ⟨S100x60, .f32⟩
  | 9 => ⟨S60, .f32⟩
  | 10 => ⟨S60x17, .f32⟩
  | 11 => ⟨S17, .f32⟩
  | 12 => ⟨S220, .f32⟩
  | 13 => ⟨S220, .f32⟩
  | 14 => ⟨S150, .f32⟩
  | 15 => ⟨S150, .f32⟩
  | 16 => ⟨S100, .f32⟩
  | 17 => ⟨S100, .f32⟩
  | 18 => ⟨S60, .f32⟩
  | 19 => ⟨S60, .f32⟩
  | 20 => ⟨S1x320000, .i32⟩
  | 21 => ⟨S320000, .i32⟩
  | 22 => ⟨S10000, .i32⟩
  | 23 => ⟨S330000, .i32⟩
  | 24 => ⟨S1x320000, .i32⟩
  | 25 => ⟨S320000, .i32⟩
  | 26 => ⟨S10000, .i32⟩
  | 27 => ⟨S330000, .i32⟩
  | 28 => ⟨S_, .f32⟩
  | 29 => ⟨S330000, .f32⟩
  | 30 => ⟨S_, .f32⟩
  | 31 => ⟨S10000, .f32⟩
  | 32 => ⟨S330000x1, .i32⟩
  | 33 => ⟨S10000, .f32⟩
  | 34 => ⟨S_, .f32⟩
  | 35 => ⟨S10000, .f32⟩
  | 36 => ⟨S10000, .i1⟩
  | 37 => ⟨S10000, .f32⟩
  | 38 => ⟨S_, .f32⟩
  | 39 => ⟨S_, .f32⟩
  | 40 => ⟨S10000, .f32⟩
  | 41 => ⟨S10000, .f32⟩
  | 42 => ⟨S_, .i32⟩
  | 43 => ⟨S330000, .i32⟩
  | 44 => ⟨S330000, .i1⟩
  | 45 => ⟨S_, .i32⟩
  | 46 => ⟨S330000, .i32⟩
  | 47 => ⟨S330000, .i32⟩
  | 48 => ⟨S330000, .i32⟩
  | 49 => ⟨S330000x1, .i32⟩
  | 50 => ⟨S330000, .f32⟩
  | 51 => ⟨S_, .i32⟩
  | 52 => ⟨S330000, .i32⟩
  | 53 => ⟨S330000, .i1⟩
  | 54 => ⟨S_, .i32⟩
  | 55 => ⟨S330000, .i32⟩
  | 56 => ⟨S330000, .i32⟩
  | 57 => ⟨S330000, .i32⟩
  | 58 => ⟨S330000x1, .i32⟩
  | 59 => ⟨S330000, .f32⟩
  | 60 => ⟨S330000, .f32⟩
  | 61 => ⟨S_, .f32⟩
  | 62 => ⟨S10000x10240, .f32⟩
  | 63 => ⟨S_, .i32⟩
  | 64 => ⟨S330000, .i32⟩
  | 65 => ⟨S330000, .i1⟩
  | 66 => ⟨S_, .i32⟩
  | 67 => ⟨S330000, .i32⟩
  | 68 => ⟨S330000, .i32⟩
  | 69 => ⟨S330000, .i32⟩
  | 70 => ⟨S_, .i32⟩
  | 71 => ⟨S330000, .i32⟩
  | 72 => ⟨S330000, .i1⟩
  | 73 => ⟨S_, .i32⟩
  | 74 => ⟨S330000, .i32⟩
  | 75 => ⟨S330000, .i32⟩
  | 76 => ⟨S330000, .i32⟩
  | 77 => ⟨S330000x1, .i32⟩
  | 78 => ⟨S330000x1, .i32⟩
  | 79 => ⟨S330000x2, .i32⟩
  | 80 => ⟨S10000x10240, .f32⟩
  | 81 => ⟨S10000x10240, .bf16⟩
  | 82 => ⟨S10000x220, .f32⟩
  | 83 => ⟨S_, .i32⟩
  | 84 => ⟨S_, .f32⟩
  | 85 => ⟨S10240x220, .f32⟩
  | 86 => ⟨S10000x220, .f32⟩
  | 87 => ⟨S1x220, .f32⟩
  | 88 => ⟨S10000x220, .f32⟩
  | 89 => ⟨S1x220, .f32⟩
  | 90 => ⟨S1x220, .f32⟩
  | 91 => ⟨S220, .f32⟩
  | 92 => ⟨S_, .f32⟩
  | 93 => ⟨S220, .f32⟩
  | 94 => ⟨S220, .f32⟩
  | 95 => ⟨S220, .f32⟩
  | 96 => ⟨S_, .f32⟩
  | 97 => ⟨S220, .f32⟩
  | 98 => ⟨S220, .f32⟩
  | 99 => ⟨S220, .f32⟩
  | 100 => ⟨S220, .f32⟩
  | 101 => ⟨S_, .f32⟩
  | 102 => ⟨S220, .f32⟩
  | 103 => ⟨S220, .f32⟩
  | 104 => ⟨S1x220, .f32⟩
  | 105 => ⟨S1x220, .f32⟩
  | 106 => ⟨S1x220, .f32⟩
  | 107 => ⟨S1x220, .f32⟩
  | 108 => ⟨S10000x150, .f32⟩
  | 109 => ⟨S_, .i32⟩
  | 110 => ⟨S_, .f32⟩
  | 111 => ⟨S10240x150, .f32⟩
  | 112 => ⟨S10000x150, .f32⟩
  | 113 => ⟨S1x150, .f32⟩
  | 114 => ⟨S10000x150, .f32⟩
  | 115 => ⟨S1x150, .f32⟩
  | 116 => ⟨S1x150, .f32⟩
  | 117 => ⟨S150, .f32⟩
  | 118 => ⟨S_, .f32⟩
  | 119 => ⟨S150, .f32⟩
  | 120 => ⟨S150, .f32⟩
  | 121 => ⟨S150, .f32⟩
  | 122 => ⟨S_, .f32⟩
  | 123 => ⟨S150, .f32⟩
  | 124 => ⟨S150, .f32⟩
  | 125 => ⟨S150, .f32⟩
  | 126 => ⟨S150, .f32⟩
  | 127 => ⟨S_, .f32⟩
  | _ => ⟨S10000x256, .f32⟩

abbrev hbmTy0_1 (i : Nat) : BufTy := match i % 128 with
  | 0 => ⟨S150, .f32⟩
  | 1 => ⟨S150, .f32⟩
  | 2 => ⟨S1x150, .f32⟩
  | 3 => ⟨S1x150, .f32⟩
  | 4 => ⟨S1x150, .f32⟩
  | 5 => ⟨S1x150, .f32⟩
  | 6 => ⟨S10000x100, .f32⟩
  | 7 => ⟨S_, .i32⟩
  | 8 => ⟨S_, .f32⟩
  | 9 => ⟨S10240x100, .f32⟩
  | 10 => ⟨S10000x100, .f32⟩
  | 11 => ⟨S1x100, .f32⟩
  | 12 => ⟨S10000x100, .f32⟩
  | 13 => ⟨S1x100, .f32⟩
  | 14 => ⟨S1x100, .f32⟩
  | 15 => ⟨S100, .f32⟩
  | 16 => ⟨S_, .f32⟩
  | 17 => ⟨S100, .f32⟩
  | 18 => ⟨S100, .f32⟩
  | 19 => ⟨S100, .f32⟩
  | 20 => ⟨S_, .f32⟩
  | 21 => ⟨S100, .f32⟩
  | 22 => ⟨S100, .f32⟩
  | 23 => ⟨S100, .f32⟩
  | 24 => ⟨S100, .f32⟩
  | 25 => ⟨S_, .f32⟩
  | 26 => ⟨S100, .f32⟩
  | 27 => ⟨S100, .f32⟩
  | 28 => ⟨S1x100, .f32⟩
  | 29 => ⟨S1x100, .f32⟩
  | 30 => ⟨S1x100, .f32⟩
  | 31 => ⟨S1x100, .f32⟩
  | 32 => ⟨S10000x60, .f32⟩
  | 33 => ⟨S_, .i32⟩
  | 34 => ⟨S_, .f32⟩
  | 35 => ⟨S10240x60, .f32⟩
  | 36 => ⟨S10000x60, .f32⟩
  | 37 => ⟨S1x60, .f32⟩
  | 38 => ⟨S10000x60, .f32⟩
  | 39 => ⟨S1x60, .f32⟩
  | 40 => ⟨S1x60, .f32⟩
  | 41 => ⟨S60, .f32⟩
  | 42 => ⟨S_, .f32⟩
  | 43 => ⟨S60, .f32⟩
  | 44 => ⟨S60, .f32⟩
  | 45 => ⟨S60, .f32⟩
  | 46 => ⟨S_, .f32⟩
  | 47 => ⟨S60, .f32⟩
  | 48 => ⟨S60, .f32⟩
  | 49 => ⟨S60, .f32⟩
  | 50 => ⟨S60, .f32⟩
  | 51 => ⟨S_, .f32⟩
  | 52 => ⟨S60, .f32⟩
  | 53 => ⟨S60, .f32⟩
  | 54 => ⟨S1x60, .f32⟩
  | 55 => ⟨S1x60, .f32⟩
  | 56 => ⟨S1x60, .f32⟩
  | 57 => ⟨S1x60, .f32⟩
  | 58 => ⟨S10000x17, .f32⟩
  | 59 => ⟨S_, .i32⟩
  | 60 => ⟨S_, .f32⟩
  | 61 => ⟨S10240x17, .f32⟩
  | 62 => ⟨S10000x17, .f32⟩
  | 63 => ⟨S1x17, .f32⟩
  | 64 => ⟨S10000x17, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S256x220, .f32⟩
  | .local _ .vmem, ⟨3, _⟩ => ⟨S1000x220, .f32⟩
  | .local _ .vmem, ⟨4, _⟩ => ⟨S1000x220, .f32⟩
  | .local _ .vmem, ⟨5, _⟩ => ⟨S2000x1024, .bf16⟩
  | .local _ .vmem, ⟨6, _⟩ => ⟨S2000x1024, .bf16⟩
  | .local _ .vmem, ⟨7, _⟩ => ⟨S1024x220, .f32⟩
  | .local _ .vmem, ⟨8, _⟩ => ⟨S1024x220, .f32⟩
  | .local _ .vmem, ⟨9, _⟩ => ⟨S2000x220, .f32⟩
  | .local _ .vmem, ⟨10, _⟩ => ⟨S2000x220, .f32⟩
  | .local _ .vmem, ⟨11, _⟩ => ⟨S2000x220, .f32⟩
  | .local _ .vmem, ⟨12, _⟩ => ⟨S1000x220, .f32⟩
  | .local _ .vmem, ⟨13, _⟩ => ⟨S1000x220, .f32⟩
  | .local _ .vmem, ⟨14, _⟩ => ⟨S1x220, .f32⟩
  | .local _ .vmem, ⟨15, _⟩ => ⟨S1000x220, .f32⟩
  | .local _ .vmem, ⟨16, _⟩ => ⟨S1000x220, .f32⟩
  | .local _ .vmem, ⟨17, _⟩ => ⟨S1x220, .f32⟩
  | .local _ .vmem, ⟨18, _⟩ => ⟨S1x220, .f32⟩
  | .local _ .vmem, ⟨19, _⟩ => ⟨S1000x220, .f32⟩
  | .local _ .vmem, ⟨20, _⟩ => ⟨S1000x220, .f32⟩
  | .local _ .vmem, ⟨21, _⟩ => ⟨S1x220, .f32⟩
  | .local _ .vmem, ⟨22, _⟩ => ⟨S1x220, .f32⟩
  | .local _ .vmem, ⟨23, _⟩ => ⟨S1x220, .f32⟩
  | .local _ .vmem, ⟨24, _⟩ => ⟨S1x220, .f32⟩
  | .local _ .vmem, ⟨25, _⟩ => ⟨S220x150, .f32⟩
  | .local _ .vmem, ⟨26, _⟩ => ⟨S1000x150, .f32⟩
  | .local _ .vmem, ⟨27, _⟩ => ⟨S1000x150, .f32⟩
  | .local _ .vmem, ⟨28, _⟩ => ⟨S2000x1024, .bf16⟩
  | .local _ .vmem, ⟨29, _⟩ => ⟨S2000x1024, .bf16⟩
  | .local _ .vmem, ⟨30, _⟩ => ⟨S1024x150, .f32⟩
  | .local _ .vmem, ⟨31, _⟩ => ⟨S1024x150, .f32⟩
  | .local _ .vmem, ⟨32, _⟩ => ⟨S2000x150, .f32⟩
  | .local _ .vmem, ⟨33, _⟩ => ⟨S2000x150, .f32⟩
  | .local _ .vmem, ⟨34, _⟩ => ⟨S2000x150, .f32⟩
  | .local _ .vmem, ⟨35, _⟩ => ⟨S1000x150, .f32⟩
  | .local _ .vmem, ⟨36, _⟩ => ⟨S1000x150, .f32⟩
  | .local _ .vmem, ⟨37, _⟩ => ⟨S1x150, .f32⟩
  | .local _ .vmem, ⟨38, _⟩ => ⟨S1000x150, .f32⟩
  | .local _ .vmem, ⟨39, _⟩ => ⟨S1000x150, .f32⟩
  | .local _ .vmem, ⟨40, _⟩ => ⟨S1x150, .f32⟩
  | .local _ .vmem, ⟨41, _⟩ => ⟨S1x150, .f32⟩
  | .local _ .vmem, ⟨42, _⟩ => ⟨S1000x150, .f32⟩
  | .local _ .vmem, ⟨43, _⟩ => ⟨S1000x150, .f32⟩
  | .local _ .vmem, ⟨44, _⟩ => ⟨S1x150, .f32⟩
  | .local _ .vmem, ⟨45, _⟩ => ⟨S1x150, .f32⟩
  | .local _ .vmem, ⟨46, _⟩ => ⟨S1x150, .f32⟩
  | .local _ .vmem, ⟨47, _⟩ => ⟨S1x150, .f32⟩
  | .local _ .vmem, ⟨48, _⟩ => ⟨S150x100, .f32⟩
  | .local _ .vmem, ⟨49, _⟩ => ⟨S1000x100, .f32⟩
  | .local _ .vmem, ⟨50, _⟩ => ⟨S1000x100, .f32⟩
  | .local _ .vmem, ⟨51, _⟩ => ⟨S2000x1024, .bf16⟩
  | .local _ .vmem, ⟨52, _⟩ => ⟨S2000x1024, .bf16⟩
  | .local _ .vmem, ⟨53, _⟩ => ⟨S1024x100, .f32⟩
  | .local _ .vmem, ⟨54, _⟩ => ⟨S1024x100, .f32⟩
  | .local _ .vmem, ⟨55, _⟩ => ⟨S2000x100, .f32⟩
  | .local _ .vmem, ⟨56, _⟩ => ⟨S2000x100, .f32⟩
  | .local _ .vmem, ⟨57, _⟩ => ⟨S2000x100, .f32⟩
  | .local _ .vmem, ⟨58, _⟩ => ⟨S1000x100, .f32⟩
  | .local _ .vmem, ⟨59, _⟩ => ⟨S1000x100, .f32⟩
  | .local _ .vmem, ⟨60, _⟩ => ⟨S1x100, .f32⟩
  | .local _ .vmem, ⟨61, _⟩ => ⟨S1000x100, .f32⟩
  | .local _ .vmem, ⟨62, _⟩ => ⟨S1000x100, .f32⟩
  | .local _ .vmem, ⟨63, _⟩ => ⟨S1x100, .f32⟩
  | .local _ .vmem, ⟨64, _⟩ => ⟨S1x100, .f32⟩
  | .local _ .vmem, ⟨65, _⟩ => ⟨S1000x100, .f32⟩
  | .local _ .vmem, ⟨66, _⟩ => ⟨S1000x100, .f32⟩
  | .local _ .vmem, ⟨67, _⟩ => ⟨S1x100, .f32⟩
  | .local _ .vmem, ⟨68, _⟩ => ⟨S1x100, .f32⟩
  | .local _ .vmem, ⟨69, _⟩ => ⟨S1x100, .f32⟩
  | .local _ .vmem, ⟨70, _⟩ => ⟨S1x100, .f32⟩
  | .local _ .vmem, ⟨71, _⟩ => ⟨S100x60, .f32⟩
  | .local _ .vmem, ⟨72, _⟩ => ⟨S1000x60, .f32⟩
  | .local _ .vmem, ⟨73, _⟩ => ⟨S1000x60, .f32⟩
  | .local _ .vmem, ⟨74, _⟩ => ⟨S2000x1024, .bf16⟩
  | .local _ .vmem, ⟨75, _⟩ => ⟨S2000x1024, .bf16⟩
  | .local _ .vmem, ⟨76, _⟩ => ⟨S1024x60, .f32⟩
  | .local _ .vmem, ⟨77, _⟩ => ⟨S1024x60, .f32⟩
  | .local _ .vmem, ⟨78, _⟩ => ⟨S2000x60, .f32⟩
  | .local _ .vmem, ⟨79, _⟩ => ⟨S2000x60, .f32⟩
  | .local _ .vmem, ⟨80, _⟩ => ⟨S2000x60, .f32⟩
  | .local _ .vmem, ⟨81, _⟩ => ⟨S1000x60, .f32⟩
  | .local _ .vmem, ⟨82, _⟩ => ⟨S1000x60, .f32⟩
  | .local _ .vmem, ⟨83, _⟩ => ⟨S1x60, .f32⟩
  | .local _ .vmem, ⟨84, _⟩ => ⟨S1000x60, .f32⟩
  | .local _ .vmem, ⟨85, _⟩ => ⟨S1000x60, .f32⟩
  | .local _ .vmem, ⟨86, _⟩ => ⟨S1x60, .f32⟩
  | .local _ .vmem, ⟨87, _⟩ => ⟨S1x60, .f32⟩
  | .local _ .vmem, ⟨88, _⟩ => ⟨S1000x60, .f32⟩
  | .local _ .vmem, ⟨89, _⟩ => ⟨S1000x60, .f32⟩
  | .local _ .vmem, ⟨90, _⟩ => ⟨S1x60, .f32⟩
  | .local _ .vmem, ⟨91, _⟩ => ⟨S1x60, .f32⟩
  | .local _ .vmem, ⟨92, _⟩ => ⟨S1x60, .f32⟩
  | .local _ .vmem, ⟨93, _⟩ => ⟨S1x60, .f32⟩
  | .local _ .vmem, ⟨94, _⟩ => ⟨S60x17, .f32⟩
  | .local _ .vmem, ⟨95, _⟩ => ⟨S1000x17, .f32⟩
  | .local _ .vmem, ⟨96, _⟩ => ⟨S1000x17, .f32⟩
  | .local _ .vmem, ⟨97, _⟩ => ⟨S2000x1024, .bf16⟩
  | .local _ .vmem, ⟨98, _⟩ => ⟨S2000x1024, .bf16⟩
  | .local _ .vmem, ⟨99, _⟩ => ⟨S1024x17, .f32⟩
  | .local _ .vmem, ⟨100, _⟩ => ⟨S1024x17, .f32⟩
  | .local _ .vmem, ⟨101, _⟩ => ⟨S2000x17, .f32⟩
  | .local _ .vmem, ⟨102, _⟩ => ⟨S2000x17, .f32⟩
  | .local _ .vmem, ⟨103, _⟩ => ⟨S2000x17, .f32⟩
  | .local _ .vmem, ⟨104, _⟩ => ⟨S1000x17, .f32⟩
  | .local _ .vmem, ⟨105, _⟩ => ⟨S1000x17, .f32⟩
  | .local _ .vmem, ⟨106, _⟩ => ⟨S1x17, .f32⟩
  | .local _ .vmem, ⟨107, _⟩ => ⟨S1000x17, .f32⟩
  | .local _ .vmem, ⟨108, _⟩ => ⟨S1000x17, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | _, _ => false

abbrev semScoped : Fin 0 → Bool
  | ⟨_, h⟩ => absurd h (Nat.not_lt_zero _)

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  ofTc nBuf bufTy 0 104 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_v15 : Ref sig .tc := ⟨.hbm, 41, rfl⟩
abbrev main_c : Ref sig .tc := ⟨.hbm, 42, rfl⟩
abbrev main_v16 : Ref sig .tc := ⟨.hbm, 43, rfl⟩
abbrev main_v17 : Ref sig .tc := ⟨.hbm, 44, rfl⟩
abbrev main_c_3 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c_4 : Ref sig .tc := ⟨.hbm, 51, rfl⟩
abbrev main_v23 : Ref sig .tc := ⟨.hbm, 52, rfl⟩
abbrev main_v24 : Ref sig .tc := ⟨.hbm, 53, rfl⟩
abbrev main_c_5 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_6 : Ref sig .tc := ⟨.hbm, 61, rfl⟩
abbrev main_v31 : Ref sig .tc := ⟨.hbm, 62, rfl⟩
abbrev main_c_7 : Ref sig .tc := ⟨.hbm, 63, rfl⟩
abbrev main_v32 : Ref sig .tc := ⟨.hbm, 64, rfl⟩
abbrev main_v33 : Ref sig .tc := ⟨.hbm, 65, rfl⟩
abbrev main_c_8 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c_9 : Ref sig .tc := ⟨.hbm, 70, rfl⟩
abbrev main_v37 : Ref sig .tc := ⟨.hbm, 71, rfl⟩
abbrev main_v38 : Ref sig .tc := ⟨.hbm, 72, rfl⟩
abbrev main_c_10 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_c_11 : Ref sig .tc := ⟨.hbm, 83, rfl⟩
abbrev main_call1_v0 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51_0 : Ref sig .tc := ⟨.hbm, 88, rfl⟩
abbrev main_v51_1 : Ref sig .tc := ⟨.hbm, 89, rfl⟩
abbrev main_v51_2 : Ref sig .tc := ⟨.hbm, 90, rfl⟩
abbrev main_v52 : Ref sig .tc := ⟨.hbm, 91, rfl⟩
abbrev main_cst_12 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_13 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_14 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_c_15 : Ref sig .tc := ⟨.hbm, 109, rfl⟩
abbrev main_call2_v0 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70_0 : Ref sig .tc := ⟨.hbm, 114, rfl⟩
abbrev main_v70_1 : Ref sig .tc := ⟨.hbm, 115, rfl⟩
abbrev main_v70_2 : Ref sig .tc := ⟨.hbm, 116, rfl⟩
abbrev main_v71 : Ref sig .tc := ⟨.hbm, 117, rfl⟩
abbrev main_cst_16 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_17 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_18 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_c_19 : Ref sig .tc := ⟨.hbm, 135, rfl⟩
abbrev main_call3_v0 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89_0 : Ref sig .tc := ⟨.hbm, 140, rfl⟩
abbrev main_v89_1 : Ref sig .tc := ⟨.hbm, 141, rfl⟩
abbrev main_v89_2 : Ref sig .tc := ⟨.hbm, 142, rfl⟩
abbrev main_v90 : Ref sig .tc := ⟨.hbm, 143, rfl⟩
abbrev main_cst_20 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_cst_21 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_22 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_c_23 : Ref sig .tc := ⟨.hbm, 161, rfl⟩
abbrev main_call4_v0 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108_0 : Ref sig .tc := ⟨.hbm, 166, rfl⟩
abbrev main_v108_1 : Ref sig .tc := ⟨.hbm, 167, rfl⟩
abbrev main_v108_2 : Ref sig .tc := ⟨.hbm, 168, rfl⟩
abbrev main_v109 : Ref sig .tc := ⟨.hbm, 169, rfl⟩
abbrev main_cst_24 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_cst_25 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_cst_26 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_c_27 : Ref sig .tc := ⟨.hbm, 187, rfl⟩
abbrev main_call5_v0 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_scratch0 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg4_0 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg6_0 : Ref sig .tc := ⟨.vmem, 49, rfl⟩
abbrev cc6_stg6_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg2_1 : Ref sig .tc := ⟨.vmem, 56, rfl⟩
abbrev cc7_scratch0 : Ref sig .tc := ⟨.vmem, 57, rfl⟩
abbrev cc8_stg0_0 : Ref sig .tc := ⟨.vmem, 58, rfl⟩
abbrev cc8_stg0_1 : Ref sig .tc := ⟨.vmem, 59, rfl⟩
abbrev cc8_stg1_0 : Ref sig .tc := ⟨.vmem, 60, rfl⟩
abbrev cc8_stg2_0 : Ref sig .tc := ⟨.vmem, 61, rfl⟩
abbrev cc8_stg2_1 : Ref sig .tc := ⟨.vmem, 62, rfl⟩
abbrev cc8_stg3_0 : Ref sig .tc := ⟨.vmem, 63, rfl⟩
abbrev cc8_stg4_0 : Ref sig .tc := ⟨.vmem, 64, rfl⟩
abbrev cc9_stg0_0 : Ref sig .tc := ⟨.vmem, 65, rfl⟩
abbrev cc9_stg0_1 : Ref sig .tc := ⟨.vmem, 66, rfl⟩
abbrev cc9_stg1_0 : Ref sig .tc := ⟨.vmem, 67, rfl⟩
abbrev cc9_stg2_0 : Ref sig .tc := ⟨.vmem, 68, rfl⟩
abbrev cc9_stg3_0 : Ref sig .tc := ⟨.vmem, 69, rfl⟩
abbrev cc9_stg4_0 : Ref sig .tc := ⟨.vmem, 70, rfl⟩
abbrev cc9_stg5_0 : Ref sig .tc := ⟨.vmem, 71, rfl⟩
abbrev cc9_stg6_0 : Ref sig .tc := ⟨.vmem, 72, rfl⟩
abbrev cc9_stg6_1 : Ref sig .tc := ⟨.vmem, 73, rfl⟩
abbrev cc10_stg0_0 : Ref sig .tc := ⟨.vmem, 74, rfl⟩
abbrev cc10_stg0_1 : Ref sig .tc := ⟨.vmem, 75, rfl⟩
abbrev cc10_stg1_0 : Ref sig .tc := ⟨.vmem, 76, rfl⟩
abbrev cc10_stg1_1 : Ref sig .tc := ⟨.vmem, 77, rfl⟩
abbrev cc10_stg2_0 : Ref sig .tc := ⟨.vmem, 78, rfl⟩
abbrev cc10_stg2_1 : Ref sig .tc := ⟨.vmem, 79, rfl⟩
abbrev cc10_scratch0 : Ref sig .tc := ⟨.vmem, 80, rfl⟩
abbrev cc11_stg0_0 : Ref sig .tc := ⟨.vmem, 81, rfl⟩
abbrev cc11_stg0_1 : Ref sig .tc := ⟨.vmem, 82, rfl⟩
abbrev cc11_stg1_0 : Ref sig .tc := ⟨.vmem, 83, rfl⟩
abbrev cc11_stg2_0 : Ref sig .tc := ⟨.vmem, 84, rfl⟩
abbrev cc11_stg2_1 : Ref sig .tc := ⟨.vmem, 85, rfl⟩
abbrev cc11_stg3_0 : Ref sig .tc := ⟨.vmem, 86, rfl⟩
abbrev cc11_stg4_0 : Ref sig .tc := ⟨.vmem, 87, rfl⟩
abbrev cc12_stg0_0 : Ref sig .tc := ⟨.vmem, 88, rfl⟩
abbrev cc12_stg0_1 : Ref sig .tc := ⟨.vmem, 89, rfl⟩
abbrev cc12_stg1_0 : Ref sig .tc := ⟨.vmem, 90, rfl⟩
abbrev cc12_stg2_0 : Ref sig .tc := ⟨.vmem, 91, rfl⟩
abbrev cc12_stg3_0 : Ref sig .tc := ⟨.vmem, 92, rfl⟩
abbrev cc12_stg4_0 : Ref sig .tc := ⟨.vmem, 93, rfl⟩
abbrev cc12_stg5_0 : Ref sig .tc := ⟨.vmem, 94, rfl⟩
abbrev cc12_stg6_0 : Ref sig .tc := ⟨.vmem, 95, rfl⟩
abbrev cc12_stg6_1 : Ref sig .tc := ⟨.vmem, 96, rfl⟩
abbrev cc13_stg0_0 : Ref sig .tc := ⟨.vmem, 97, rfl⟩
abbrev cc13_stg0_1 : Ref sig .tc := ⟨.vmem, 98, rfl⟩
abbrev cc13_stg1_0 : Ref sig .tc := ⟨.vmem, 99, rfl⟩
abbrev cc13_stg1_1 : Ref sig .tc := ⟨.vmem, 100, rfl⟩
abbrev cc13_stg2_0 : Ref sig .tc := ⟨.vmem, 101, rfl⟩
abbrev cc13_stg2_1 : Ref sig .tc := ⟨.vmem, 102, rfl⟩
abbrev cc13_scratch0 : Ref sig .tc := ⟨.vmem, 103, rfl⟩
abbrev cc14_stg0_0 : Ref sig .tc := ⟨.vmem, 104, rfl⟩
abbrev cc14_stg0_1 : Ref sig .tc := ⟨.vmem, 105, rfl⟩
abbrev cc14_stg1_0 : Ref sig .tc := ⟨.vmem, 106, rfl⟩
abbrev cc14_stg2_0 : Ref sig .tc := ⟨.vmem, 107, rfl⟩
abbrev cc14_stg2_1 : Ref sig .tc := ⟨.vmem, 108, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem4_0 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem6_0 : DmaSem sig := 25
abbrev cc3_sem6_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc5_sem3_0 : DmaSem sig := 38
abbrev cc5_sem4_0 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem4_0 : DmaSem sig := 45
abbrev cc6_sem5_0 : DmaSem sig := 46
abbrev cc6_sem6_0 : DmaSem sig := 47
abbrev cc6_sem6_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem2_1 : DmaSem sig := 54
abbrev cc8_sem0_0 : DmaSem sig := 55
abbrev cc8_sem0_1 : DmaSem sig := 56
abbrev cc8_sem1_0 : DmaSem sig := 57
abbrev cc8_sem2_0 : DmaSem sig := 58
abbrev cc8_sem2_1 : DmaSem sig := 59
abbrev cc8_sem3_0 : DmaSem sig := 60
abbrev cc8_sem4_0 : DmaSem sig := 61
abbrev cc9_sem0_0 : DmaSem sig := 62
abbrev cc9_sem0_1 : DmaSem sig := 63
abbrev cc9_sem1_0 : DmaSem sig := 64
abbrev cc9_sem2_0 : DmaSem sig := 65
abbrev cc9_sem3_0 : DmaSem sig := 66
abbrev cc9_sem4_0 : DmaSem sig := 67
abbrev cc9_sem5_0 : DmaSem sig := 68
abbrev cc9_sem6_0 : DmaSem sig := 69
abbrev cc9_sem6_1 : DmaSem sig := 70
abbrev cc10_sem0_0 : DmaSem sig := 71
abbrev cc10_sem0_1 : DmaSem sig := 72
abbrev cc10_sem1_0 : DmaSem sig := 73
abbrev cc10_sem1_1 : DmaSem sig := 74
abbrev cc10_sem2_0 : DmaSem sig := 75
abbrev cc10_sem2_1 : DmaSem sig := 76
abbrev cc11_sem0_0 : DmaSem sig := 77
abbrev cc11_sem0_1 : DmaSem sig := 78
abbrev cc11_sem1_0 : DmaSem sig := 79
abbrev cc11_sem2_0 : DmaSem sig := 80
abbrev cc11_sem2_1 : DmaSem sig := 81
abbrev cc11_sem3_0 : DmaSem sig := 82
abbrev cc11_sem4_0 : DmaSem sig := 83
abbrev cc12_sem0_0 : DmaSem sig := 84
abbrev cc12_sem0_1 : DmaSem sig := 85
abbrev cc12_sem1_0 : DmaSem sig := 86
abbrev cc12_sem2_0 : DmaSem sig := 87
abbrev cc12_sem3_0 : DmaSem sig := 88
abbrev cc12_sem4_0 : DmaSem sig := 89
abbrev cc12_sem5_0 : DmaSem sig := 90
abbrev cc12_sem6_0 : DmaSem sig := 91
abbrev cc12_sem6_1 : DmaSem sig := 92
abbrev cc13_sem0_0 : DmaSem sig := 93
abbrev cc13_sem0_1 : DmaSem sig := 94
abbrev cc13_sem1_0 : DmaSem sig := 95
abbrev cc13_sem1_1 : DmaSem sig := 96
abbrev cc13_sem2_0 : DmaSem sig := 97
abbrev cc13_sem2_1 : DmaSem sig := 98
abbrev cc14_sem0_0 : DmaSem sig := 99
abbrev cc14_sem0_1 : DmaSem sig := 100
abbrev cc14_sem1_0 : DmaSem sig := 101
abbrev cc14_sem2_0 : DmaSem sig := 102
abbrev cc14_sem2_1 : DmaSem sig := 103

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x220 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x220 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![5, 10], ![false, false]⟩

def k1_cond2 (i : grid1.Coords) : BitVec 1 :=
  let arg1 : BitVec 32 := BitVec.ofNat 32 (i 1).val
  let c9_i32 : BitVec 32 := 9#32
  let v14 : BitVec 1 := Scalar.cmpi .eq arg1 c9_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2000x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x220 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2000x220 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1000x220 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x220 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x220 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x220 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x220 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x220 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x220 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x220 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x220 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x220 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S220x150 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x150 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨2, ![5, 10], ![false, false]⟩

def k4_cond2 (i : grid4.Coords) : BitVec 1 :=
  let arg1 : BitVec 32 := BitVec.ofNat 32 (i 1).val
  let c9_i32 : BitVec 32 := 9#32
  let v14 : BitVec 1 := Scalar.cmpi .eq arg1 c9_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2000x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x150 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2000x150 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S1000x150 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x150 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1000x150 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x150 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x150 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x150 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x150 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x150 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x150 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x150 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S150x100 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S1000x100 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨2, ![5, 10], ![false, false]⟩

def k7_cond2 (i : grid7.Coords) : BitVec 1 :=
  let arg1 : BitVec 32 := BitVec.ofNat 32 (i 1).val
  let c9_i32 : BitVec 32 := 9#32
  let v14 : BitVec 1 := Scalar.cmpi .eq arg1 c9_i32
  let v15 : BitVec 32 := Scalar.extui v14
  let c0_i32_8 : BitVec 32 := 0#32
  let v16 : BitVec 1 := Scalar.cmpi .ne v15 c0_i32_8
  v16

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S2000x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1024x100 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S2000x100 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S1000x100 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x100 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1000x100 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x100 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x100 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1000x100 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x100 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x100 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x100 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x100 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S100x60 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S1000x60 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨2, ![5, 10], ![false, false]⟩

def k10_cond2 (i : grid10.Coords) : BitVec 1 :=
  let arg1 : BitVec 32 := BitVec.ofNat 32 (i 1).val
  let c9_i32 : BitVec 32 := 9#32
  let v14 : BitVec 1 := Scalar.cmpi .eq arg1 c9_i32
  let v15 : BitVec 32 := Scalar.extui v14
  let c0_i32_8 : BitVec 32 := 0#32
  let v16 : BitVec 1 := Scalar.cmpi .ne v15 c0_i32_8
  v16

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S2000x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S1024x60 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S2000x60 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S1000x60 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x60 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S1000x60 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S1x60 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x60 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S1000x60 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x60 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x60 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x60 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x60 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S60x17 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 2 → Memref sig .tc .vmem S1000x17 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev grid13 : Pipeline.Grid := ⟨2, ![5, 10], ![false, false]⟩

def k13_cond2 (i : grid13.Coords) : BitVec 1 :=
  let arg1 : BitVec 32 := BitVec.ofNat 32 (i 1).val
  let c9_i32 : BitVec 32 := 9#32
  let v14 : BitVec 1 := Scalar.cmpi .eq arg1 c9_i32
  let v15 : BitVec 32 := Scalar.extui v14
  let c0_i32_8 : BitVec 32 := 0#32
  let v16 : BitVec 1 := Scalar.cmpi .ne v15 c0_i32_8
  v16

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage13_0 : Fin 2 → Memref sig .tc .vmem S2000x1024 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, true]

abbrev stage13_1 : Fin 2 → Memref sig .tc .vmem S1024x17 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![false, true]

abbrev stage13_2 : Fin 2 → Memref sig .tc .vmem S2000x17 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true, false]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S1000x17 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x17 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S1000x17 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S_S10000x10240 : S_.BroadcastsInDim S10000x10240 (![] : Fin 0 → Fin S10000x10240.rank)
  concatenates_S330000x1_S330000x1_S330000x2_d1 : Shape.Concatenates [S330000x1, S330000x1] S330000x2 1
  bitsLt_bf16_f32 : FTy.bits .bf16 < FTy.bits .f32
  inb_S1000x256_S1000x256_0_0 : ∀ a, (![0, 0] : Fin 2 → Nat) a + S1000x256.size a ≤ S1000x256.size a
  h_S1000x256 : 0 < S1000x256.numel
  inb_S256x220_S256x220_0_0 : ∀ a, (![0, 0] : Fin 2 → Nat) a + S256x220.size a ≤ S256x220.size a
  h_S256x220 : 0 < S256x220.numel
  inb_S1000x220_S1000x220_0_0 : ∀ a, (![0, 0] : Fin 2 → Nat) a + S1000x220.size a ≤ S1000x220.size a
  h_S1000x220 : 0 < S1000x220.numel
  pads_S10000x220_S10240x220_02400_000 : S10000x220.Pads (![0, 0] : Fin 2 → Nat) ![240, 0] ![0, 0] S10240x220
  h_S_ : 0 < S_.numel
  inb_S2000x220_S2000x220_0_0 : ∀ a, (![0, 0] : Fin 2 → Nat) a + S2000x220.size a ≤ S2000x220.size a
  h_S2000x220 : 0 < S2000x220.numel
  shapeCasts_S2000x220_S2000x220 : S2000x220.ShapeCasts S2000x220
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  inb_S1024x220_S1024x220_0_0 : ∀ a, (![0, 0] : Fin 2 → Nat) a + S1024x220.size a ≤ S1024x220.size a
  h_S1024x220 : 0 < S1024x220.numel
  shapeCasts_S1024x220_S1024x220 : S1024x220.ShapeCasts S1024x220
  shapeCasts_S220_S1x220 : S220.ShapeCasts S1x220
  inb_S1x220_S1x220_0_0 : ∀ a, (![0, 0] : Fin 2 → Nat) a + S1x220.size a ≤ S1x220.size a
  h_S1x220 : 0 < S1x220.numel
  shapeCasts_S1000x220_S1000x220 : S1000x220.ShapeCasts S1000x220
  shapeCasts_S1x220_S1x220 : S1x220.ShapeCasts S1x220
  broadcasts_S1x220_S1000x220 : S1x220.Broadcasts S1000x220
  reduces_S1000x220_S220 : S1000x220.Reduces [0] S220
  shapeCasts_S1x220_S220 : S1x220.ShapeCasts S220
  bcast_S_S220 : S_.BroadcastsInDim S220 (![] : Fin 0 → Fin S220.rank)
  inb_S220x150_S220x150_0_0 : ∀ a, (![0, 0] : Fin 2 → Nat) a + S220x150.size a ≤ S220x150.size a
  h_S220x150 : 0 < S220x150.numel
  inb_S1000x150_S1000x150_0_0 : ∀ a, (![0, 0] : Fin 2 → Nat) a + S1000x150.size a ≤ S1000x150.size a
  h_S1000x150 : 0 < S1000x150.numel
  pads_S10000x150_S10240x150_02400_000 : S10000x150.Pads (![0, 0] : Fin 2 → Nat) ![240, 0] ![0, 0] S10240x150
  inb_S2000x150_S2000x150_0_0 : ∀ a, (![0, 0] : Fin 2 → Nat) a + S2000x150.size a ≤ S2000x150.size a
  h_S2000x150 : 0 < S2000x150.numel
  shapeCasts_S2000x150_S2000x150 : S2000x150.ShapeCasts S2000x150
  inb_S1024x150_S1024x150_0_0 : ∀ a, (![0, 0] : Fin 2 → Nat) a + S1024x150.size a ≤ S1024x150.size a
  h_S1024x150 : 0 < S1024x150.numel
  shapeCasts_S1024x150_S1024x150 : S1024x150.ShapeCasts S1024x150
  shapeCasts_S150_S1x150 : S150.ShapeCasts S1x150
  inb_S1x150_S1x150_0_0 : ∀ a, (![0, 0] : Fin 2 → Nat) a + S1x150.size a ≤ S1x150.size a
  h_S1x150 : 0 < S1x150.numel
  shapeCasts_S1000x150_S1000x150 : S1000x150.ShapeCasts S1000x150
  shapeCasts_S1x150_S1x150 : S1x150.ShapeCasts S1x150
  broadcasts_S1x150_S1000x150 : S1x150.Broadcasts S1000x150
  reduces_S1000x150_S150 : S1000x150.Reduces [0] S150
  shapeCasts_S1x150_S150 : S1x150.ShapeCasts S150
  bcast_S_S150 : S_.BroadcastsInDim S150 (![] : Fin 0 → Fin S150.rank)
  inb_S150x100_S150x100_0_0 : ∀ a, (![0, 0] : Fin 2 → Nat) a + S150x100.size a ≤ S150x100.size a
  h_S150x100 : 0 < S150x100.numel
  inb_S1000x100_S1000x100_0_0 : ∀ a, (![0, 0] : Fin 2 → Nat) a + S1000x100.size a ≤ S1000x100.size a
  h_S1000x100 : 0 < S1000x100.numel
  pads_S10000x100_S10240x100_02400_000 : S10000x100.Pads (![0, 0] : Fin 2 → Nat) ![240, 0] ![0, 0] S10240x100
  inb_S2000x100_S2000x100_0_0 : ∀ a, (![0, 0] : Fin 2 → Nat) a + S2000x100.size a ≤ S2000x100.size a
  h_S2000x100 : 0 < S2000x100.numel
  shapeCasts_S2000x100_S2000x100 : S2000x100.ShapeCasts S2000x100
  inb_S1024x100_S1024x100_0_0 : ∀ a, (![0, 0] : Fin 2 → Nat) a + S1024x100.size a ≤ S1024x100.size a
  h_S1024x100 : 0 < S1024x100.numel
  shapeCasts_S1024x100_S1024x100 : S1024x100.ShapeCasts S1024x100
  shapeCasts_S100_S1x100 : S100.ShapeCasts S1x100
  inb_S1x100_S1x100_0_0 : ∀ a, (![0, 0] : Fin 2 → Nat) a + S1x100.size a ≤ S1x100.size a
  h_S1x100 : 0 < S1x100.numel
  shapeCasts_S1000x100_S1000x100 : S1000x100.ShapeCasts S1000x100
  shapeCasts_S1x100_S1x100 : S1x100.ShapeCasts S1x100
  broadcasts_S1x100_S1000x100 : S1x100.Broadcasts S1000x100
  reduces_S1000x100_S100 : S1000x100.Reduces [0] S100
  shapeCasts_S1x100_S100 : S1x100.ShapeCasts S100
  bcast_S_S100 : S_.BroadcastsInDim S100 (![] : Fin 0 → Fin S100.rank)
  inb_S100x60_S100x60_0_0 : ∀ a, (![0, 0] : Fin 2 → Nat) a + S100x60.size a ≤ S100x60.size a
  h_S100x60 : 0 < S100x60.numel
  inb_S1000x60_S1000x60_0_0 : ∀ a, (![0, 0] : Fin 2 → Nat) a + S1000x60.size a ≤ S1000x60.size a
  h_S1000x60 : 0 < S1000x60.numel
  pads_S10000x60_S10240x60_02400_000 : S10000x60.Pads (![0, 0] : Fin 2 → Nat) ![240, 0] ![0, 0] S10240x60
  inb_S2000x60_S2000x60_0_0 : ∀ a, (![0, 0] : Fin 2 → Nat) a + S2000x60.size a ≤ S2000x60.size a
  h_S2000x60 : 0 < S2000x60.numel
  shapeCasts_S2000x60_S2000x60 : S2000x60.ShapeCasts S2000x60
  inb_S1024x60_S1024x60_0_0 : ∀ a, (![0, 0] : Fin 2 → Nat) a + S1024x60.size a ≤ S1024x60.size a
  h_S1024x60 : 0 < S1024x60.numel
  shapeCasts_S1024x60_S1024x60 : S1024x60.ShapeCasts S1024x60
  shapeCasts_S60_S1x60 : S60.ShapeCasts S1x60
  inb_S1x60_S1x60_0_0 : ∀ a, (![0, 0] : Fin 2 → Nat) a + S1x60.size a ≤ S1x60.size a
  h_S1x60 : 0 < S1x60.numel
  shapeCasts_S1000x60_S1000x60 : S1000x60.ShapeCasts S1000x60
  shapeCasts_S1x60_S1x60 : S1x60.ShapeCasts S1x60
  broadcasts_S1x60_S1000x60 : S1x60.Broadcasts S1000x60
  reduces_S1000x60_S60 : S1000x60.Reduces [0] S60
  shapeCasts_S1x60_S60 : S1x60.ShapeCasts S60
  bcast_S_S60 : S_.BroadcastsInDim S60 (![] : Fin 0 → Fin S60.rank)
  inb_S60x17_S60x17_0_0 : ∀ a, (![0, 0] : Fin 2 → Nat) a + S60x17.size a ≤ S60x17.size a
  h_S60x17 : 0 < S60x17.numel
  inb_S1000x17_S1000x17_0_0 : ∀ a, (![0, 0] : Fin 2 → Nat) a + S1000x17.size a ≤ S1000x17.size a
  h_S1000x17 : 0 < S1000x17.numel
  pads_S10000x17_S10240x17_02400_000 : S10000x17.Pads (![0, 0] : Fin 2 → Nat) ![240, 0] ![0, 0] S10240x17
  inb_S2000x17_S2000x17_0_0 : ∀ a, (![0, 0] : Fin 2 → Nat) a + S2000x17.size a ≤ S2000x17.size a
  h_S2000x17 : 0 < S2000x17.numel
  shapeCasts_S2000x17_S2000x17 : S2000x17.ShapeCasts S2000x17
  inb_S1024x17_S1024x17_0_0 : ∀ a, (![0, 0] : Fin 2 → Nat) a + S1024x17.size a ≤ S1024x17.size a
  h_S1024x17 : 0 < S1024x17.numel
  shapeCasts_S1024x17_S1024x17 : S1024x17.ShapeCasts S1024x17
  shapeCasts_S17_S1x17 : S17.ShapeCasts S1x17
  shapeCasts_S1000x17_S1000x17 : S1000x17.ShapeCasts S1000x17
  inb_S1x17_S1x17_0_0 : ∀ a, (![0, 0] : Fin 2 → Nat) a + S1x17.size a ≤ S1x17.size a
  h_S1x17 : 0 < S1x17.numel
  shapeCasts_S1x17_S1x17 : S1x17.ShapeCasts S1x17
  broadcasts_S1x17_S1000x17 : S1x17.Broadcasts S1000x17
  reduces_S1000x17_S1000 : S1000x17.Reduces [1] S1000
  shapeCasts_S1000_S1000x1 : S1000.ShapeCasts S1000x1
  broadcasts_S1000x1_S1000x17 : S1000x1.Broadcasts S1000x17
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  scatter_S10000x10240_S330000x2_S330000_n_01_01_1_wf : ScatterDims.WF S10000x10240 S330000x2 S330000 [] [0, 1] [0, 1] 1
  dot_S1000x256_S256x220_S1000x220_1_0_0_1_n_n_wf : DotDims.WF S1000x256 S256x220 S1000x220 [1] [0] [0] [1] [] []
  dot_S2000x1024_S1024x220_S2000x220_1_0_0_1_n_n_wf : DotDims.WF S2000x1024 S1024x220 S2000x220 [1] [0] [0] [1] [] []
  dot_S1000x220_S220x150_S1000x150_1_0_0_1_n_n_wf : DotDims.WF S1000x220 S220x150 S1000x150 [1] [0] [0] [1] [] []
  dot_S2000x1024_S1024x150_S2000x150_1_0_0_1_n_n_wf : DotDims.WF S2000x1024 S1024x150 S2000x150 [1] [0] [0] [1] [] []
  dot_S1000x150_S150x100_S1000x100_1_0_0_1_n_n_wf : DotDims.WF S1000x150 S150x100 S1000x100 [1] [0] [0] [1] [] []
  dot_S2000x1024_S1024x100_S2000x100_1_0_0_1_n_n_wf : DotDims.WF S2000x1024 S1024x100 S2000x100 [1] [0] [0] [1] [] []
  dot_S1000x100_S100x60_S1000x60_1_0_0_1_n_n_wf : DotDims.WF S1000x100 S100x60 S1000x60 [1] [0] [0] [1] [] []
  dot_S2000x1024_S1024x60_S2000x60_1_0_0_1_n_n_wf : DotDims.WF S2000x1024 S1024x60 S2000x60 [1] [0] [0] [1] [] []
  dot_S1000x60_S60x17_S1000x17_1_0_0_1_n_n_wf : DotDims.WF S1000x60 S60x17 S1000x17 [1] [0] [0] [1] [] []
  dot_S2000x1024_S1024x17_S2000x17_1_0_0_1_n_n_wf : DotDims.WF S2000x1024 S1024x17 S2000x17 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x220.size a ≤ S256x220.size a
  hwx0_1 : ∀ i : grid0.Coords, EltTy.bits .f32 = 32 ∨ (Rect.block (s := S256x220) S256x220.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x220.size a ≤ S10000x220.size a
  hwx0_2 : ∀ i : grid0.Coords, EltTy.bits .f32 = 32 ∨ (Rect.block (s := S10000x220) S1000x220.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1024.size a ≤ S10000x10240.size a
  hwx1_0 : ∀ i : grid1.Coords, EltTy.bits .bf16 = 32 ∨ (Rect.block (s := S10000x10240) S2000x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x220.size a ≤ S10240x220.size a
  hwx1_1 : ∀ i : grid1.Coords, EltTy.bits .f32 = 32 ∨ (Rect.block (s := S10240x220) S1024x220.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x220.size a ≤ S10000x220.size a
  hwx1_2 : ∀ i : grid1.Coords, EltTy.bits .f32 = 32 ∨ (Rect.block (s := S10000x220) S2000x220.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x220.size a ≤ S10000x220.size a
  hwx2_0 : ∀ i : grid2.Coords, EltTy.bits .f32 = 32 ∨ (Rect.block (s := S10000x220) S1000x220.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x220.size a ≤ S1x220.size a
  hwx2_1 : ∀ i : grid2.Coords, EltTy.bits .f32 = 32 ∨ (Rect.block (s := S1x220) S1x220.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x220.size a ≤ S10000x220.size a
  hwx2_2 : ∀ i : grid2.Coords, EltTy.bits .f32 = 32 ∨ (Rect.block (s := S10000x220) S1000x220.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x220.size a ≤ S1x220.size a
  hwx2_3 : ∀ i : grid2.Coords, EltTy.bits .f32 = 32 ∨ (Rect.block (s := S1x220) S1x220.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x220.size a ≤ S1x220.size a
  hwx2_4 : ∀ i : grid2.Coords, EltTy.bits .f32 = 32 ∨ (Rect.block (s := S1x220) S1x220.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x220.size a ≤ S10000x220.size a
  hwx3_0 : ∀ i : grid3.Coords, EltTy.bits .f32 = 32 ∨ (Rect.block (s := S10000x220) S1000x220.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x220.size a ≤ S1x220.size a
  hwx3_1 : ∀ i : grid3.Coords, EltTy.bits .f32 = 32 ∨ (Rect.block (s := S1x220) S1x220.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x220.size a ≤ S1x220.size a
  hwx3_2 : ∀ i : grid3.Coords, EltTy.bits .f32 = 32 ∨ (Rect.block (s := S1x220) S1x220.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x220.size a ≤ S1x220.size a
  hwx3_3 : ∀ i : grid3.Coords, EltTy.bits .f32 = 32 ∨ (Rect.block (s := S1x220) S1x220.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x220.size a ≤ S1x220.size a
  hwx3_4 : ∀ i : grid3.Coords, EltTy.bits .f32 = 32 ∨ (Rect.block (s := S1x220) S1x220.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S220x150.size a ≤ S220x150.size a
  hwx3_5 : ∀ i : grid3.Coords, EltTy.bits .f32 = 32 ∨ (Rect.block (s := S220x150) S220x150.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x150.size a ≤ S10000x150.size a
  hwx3_6 : ∀ i : grid3.Coords, EltTy.bits .f32 = 32 ∨ (Rect.block (s := S10000x150) S1000x150.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x1024.size a ≤ S10000x10240.size a
  hwx4_0 : ∀ i : grid4.Coords, EltTy.bits .bf16 = 32 ∨ (Rect.block (s := S10000x10240) S2000x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x150.size a ≤ S10240x150.size a
  hwx4_1 : ∀ i : grid4.Coords, EltTy.bits .f32 = 32 ∨ (Rect.block (s := S10240x150) S1024x150.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x150.size a ≤ S10000x150.size a
  hwx4_2 : ∀ i : grid4.Coords, EltTy.bits .f32 = 32 ∨ (Rect.block (s := S10000x150) S2000x150.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x150.size a ≤ S10000x150.size a
  hwx5_0 : ∀ i : grid5.Coords, EltTy.bits .f32 = 32 ∨ (Rect.block (s := S10000x150) S1000x150.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x150.size a ≤ S1x150.size a
  hwx5_1 : ∀ i : grid5.Coords, EltTy.bits .f32 = 32 ∨ (Rect.block (s := S1x150) S1x150.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x150.size a ≤ S10000x150.size a
  hwx5_2 : ∀ i : grid5.Coords, EltTy.bits .f32 = 32 ∨ (Rect.block (s := S10000x150) S1000x150.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x150.size a ≤ S1x150.size a
  hwx5_3 : ∀ i : grid5.Coords, EltTy.bits .f32 = 32 ∨ (Rect.block (s := S1x150) S1x150.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x150.size a ≤ S1x150.size a
  hwx5_4 : ∀ i : grid5.Coords, EltTy.bits .f32 = 32 ∨ (Rect.block (s := S1x150) S1x150.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x150.size a ≤ S10000x150.size a
  hwx6_0 : ∀ i : grid6.Coords, EltTy.bits .f32 = 32 ∨ (Rect.block (s := S10000x150) S1000x150.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x150.size a ≤ S1x150.size a
  hwx6_1 : ∀ i : grid6.Coords, EltTy.bits .f32 = 32 ∨ (Rect.block (s := S1x150) S1x150.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x150.size a ≤ S1x150.size a
  hwx6_2 : ∀ i : grid6.Coords, EltTy.bits .f32 = 32 ∨ (Rect.block (s := S1x150) S1x150.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x150.size a ≤ S1x150.size a
  hwx6_3 : ∀ i : grid6.Coords, EltTy.bits .f32 = 32 ∨ (Rect.block (s := S1x150) S1x150.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x150.size a ≤ S1x150.size a
  hwx6_4 : ∀ i : grid6.Coords, EltTy.bits .f32 = 32 ∨ (Rect.block (s := S1x150) S1x150.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S150x100.size a ≤ S150x100.size a
  hwx6_5 : ∀ i : grid6.Coords, EltTy.bits .f32 = 32 ∨ (Rect.block (s := S150x100) S150x100.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S1000x100.size a ≤ S10000x100.size a
  hwx6_6 : ∀ i : grid6.Coords, EltTy.bits .f32 = 32 ∨ (Rect.block (s := S10000x100) S1000x100.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x1024.size a ≤ S10000x10240.size a
  hwx7_0 : ∀ i : grid7.Coords, EltTy.bits .bf16 = 32 ∨ (Rect.block (s := S10000x10240) S2000x1024.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x100.size a ≤ S10240x100.size a
  hwx7_1 : ∀ i : grid7.Coords, EltTy.bits .f32 = 32 ∨ (Rect.block (s := S10240x100) S1024x100.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x100.size a ≤ S10000x100.size a
  hwx7_2 : ∀ i : grid7.Coords, EltTy.bits .f32 = 32 ∨ (Rect.block (s := S10000x100) S2000x100.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x100.size a ≤ S10000x100.size a
  hwx8_0 : ∀ i : grid8.Coords, EltTy.bits .f32 = 32 ∨ (Rect.block (s := S10000x100) S1000x100.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x100.size a ≤ S1x100.size a
  hwx8_1 : ∀ i : grid8.Coords, EltTy.bits .f32 = 32 ∨ (Rect.block (s := S1x100) S1x100.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1000x100.size a ≤ S10000x100.size a
  hwx8_2 : ∀ i : grid8.Coords, EltTy.bits .f32 = 32 ∨ (Rect.block (s := S10000x100) S1000x100.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x100.size a ≤ S1x100.size a
  hwx8_3 : ∀ i : grid8.Coords, EltTy.bits .f32 = 32 ∨ (Rect.block (s := S1x100) S1x100.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x100.size a ≤ S1x100.size a
  hwx8_4 : ∀ i : grid8.Coords, EltTy.bits .f32 = 32 ∨ (Rect.block (s := S1x100) S1x100.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1000x100.size a ≤ S10000x100.size a
  hwx9_0 : ∀ i : grid9.Coords, EltTy.bits .f32 = 32 ∨ (Rect.block (s := S10000x100) S1000x100.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x100.size a ≤ S1x100.size a
  hwx9_1 : ∀ i : grid9.Coords, EltTy.bits .f32 = 32 ∨ (Rect.block (s := S1x100) S1x100.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x100.size a ≤ S1x100.size a
  hwx9_2 : ∀ i : grid9.Coords, EltTy.bits .f32 = 32 ∨ (Rect.block (s := S1x100) S1x100.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x100.size a ≤ S1x100.size a
  hwx9_3 : ∀ i : grid9.Coords, EltTy.bits .f32 = 32 ∨ (Rect.block (s := S1x100) S1x100.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x100.size a ≤ S1x100.size a
  hwx9_4 : ∀ i : grid9.Coords, EltTy.bits .f32 = 32 ∨ (Rect.block (s := S1x100) S1x100.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S100x60.size a ≤ S100x60.size a
  hwx9_5 : ∀ i : grid9.Coords, EltTy.bits .f32 = 32 ∨ (Rect.block (s := S100x60) S100x60.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S1000x60.size a ≤ S10000x60.size a
  hwx9_6 : ∀ i : grid9.Coords, EltTy.bits .f32 = 32 ∨ (Rect.block (s := S10000x60) S1000x60.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x1024.size a ≤ S10000x10240.size a
  hwx10_0 : ∀ i : grid10.Coords, EltTy.bits .bf16 = 32 ∨ (Rect.block (s := S10000x10240) S2000x1024.size (cc10_transform_0 i) (hinb10_0 i)).WholeWords (EltTy.packing .bf16)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1024x60.size a ≤ S10240x60.size a
  hwx10_1 : ∀ i : grid10.Coords, EltTy.bits .f32 = 32 ∨ (Rect.block (s := S10240x60) S1024x60.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x60.size a ≤ S10000x60.size a
  hwx10_2 : ∀ i : grid10.Coords, EltTy.bits .f32 = 32 ∨ (Rect.block (s := S10000x60) S2000x60.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1000x60.size a ≤ S10000x60.size a
  hwx11_0 : ∀ i : grid11.Coords, EltTy.bits .f32 = 32 ∨ (Rect.block (s := S10000x60) S1000x60.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x60.size a ≤ S1x60.size a
  hwx11_1 : ∀ i : grid11.Coords, EltTy.bits .f32 = 32 ∨ (Rect.block (s := S1x60) S1x60.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1000x60.size a ≤ S10000x60.size a
  hwx11_2 : ∀ i : grid11.Coords, EltTy.bits .f32 = 32 ∨ (Rect.block (s := S10000x60) S1000x60.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x60.size a ≤ S1x60.size a
  hwx11_3 : ∀ i : grid11.Coords, EltTy.bits .f32 = 32 ∨ (Rect.block (s := S1x60) S1x60.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x60.size a ≤ S1x60.size a
  hwx11_4 : ∀ i : grid11.Coords, EltTy.bits .f32 = 32 ∨ (Rect.block (s := S1x60) S1x60.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1000x60.size a ≤ S10000x60.size a
  hwx12_0 : ∀ i : grid12.Coords, EltTy.bits .f32 = 32 ∨ (Rect.block (s := S10000x60) S1000x60.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x60.size a ≤ S1x60.size a
  hwx12_1 : ∀ i : grid12.Coords, EltTy.bits .f32 = 32 ∨ (Rect.block (s := S1x60) S1x60.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x60.size a ≤ S1x60.size a
  hwx12_2 : ∀ i : grid12.Coords, EltTy.bits .f32 = 32 ∨ (Rect.block (s := S1x60) S1x60.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x60.size a ≤ S1x60.size a
  hwx12_3 : ∀ i : grid12.Coords, EltTy.bits .f32 = 32 ∨ (Rect.block (s := S1x60) S1x60.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x60.size a ≤ S1x60.size a
  hwx12_4 : ∀ i : grid12.Coords, EltTy.bits .f32 = 32 ∨ (Rect.block (s := S1x60) S1x60.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S60x17.size a ≤ S60x17.size a
  hwx12_5 : ∀ i : grid12.Coords, EltTy.bits .f32 = 32 ∨ (Rect.block (s := S60x17) S60x17.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S1000x17.size a ≤ S10000x17.size a
  hwx12_6 : ∀ i : grid12.Coords, EltTy.bits .f32 = 32 ∨ (Rect.block (s := S10000x17) S1000x17.size (cc12_transform_6 i) (hinb12_6 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x1024.size a ≤ S10000x10240.size a
  hwx13_0 : ∀ i : grid13.Coords, EltTy.bits .bf16 = 32 ∨ (Rect.block (s := S10000x10240) S2000x1024.size (cc13_transform_0 i) (hinb13_0 i)).WholeWords (EltTy.packing .bf16)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S1024x17.size a ≤ S10240x17.size a
  hwx13_1 : ∀ i : grid13.Coords, EltTy.bits .f32 = 32 ∨ (Rect.block (s := S10240x17) S1024x17.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S2000x17.size a ≤ S10000x17.size a
  hwx13_2 : ∀ i : grid13.Coords, EltTy.bits .f32 = 32 ∨ (Rect.block (s := S10000x17) S2000x17.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S1000x17.size a ≤ S10000x17.size a
  hwx14_0 : ∀ i : grid14.Coords, EltTy.bits .f32 = 32 ∨ (Rect.block (s := S10000x17) S1000x17.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x17.size a ≤ S1x17.size a
  hwx14_1 : ∀ i : grid14.Coords, EltTy.bits .f32 = 32 ∨ (Rect.block (s := S1x17) S1x17.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S1000x17.size a ≤ S10000x17.size a
  hwx14_2 : ∀ i : grid14.Coords, EltTy.bits .f32 = 32 ∨ (Rect.block (s := S10000x17) S1000x17.size (cc14_transform_2 i) (hinb14_2 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def scatter_S10000x10240_S330000x2_S330000_n_01_01_1 : ScatterDims S10000x10240 S330000x2 S330000 where
  updateWindowDims := []
  insertedWindowDims := [0, 1]
  scatterDimsToOperandDims := [0, 1]
  indexVectorDim := 1
  wf := scatter_S10000x10240_S330000x2_S330000_n_01_01_1_wf
def dot_S1000x256_S256x220_S1000x220_1_0_0_1_n_n : DotDims S1000x256 S256x220 S1000x220 where
  lhsContracting := [1]
  rhsContracting := [0]
  lhsNonContracting := [0]
  rhsNonContracting := [1]
  lhsBatch := []
  rhsBatch := []
  wf := dot_S1000x256_S256x220_S1000x220_1_0_0_1_n_n_wf
def dot_S2000x1024_S1024x220_S2000x220_1_0_0_1_n_n : DotDims S2000x1024 S1024x220 S2000x220 where
  lhsContracting := [1]
  rhsContracting := [0]
  lhsNonContracting := [0]
  rhsNonContracting := [1]
  lhsBatch := []
  rhsBatch := []
  wf := dot_S2000x1024_S1024x220_S2000x220_1_0_0_1_n_n_wf
def dot_S1000x220_S220x150_S1000x150_1_0_0_1_n_n : DotDims S1000x220 S220x150 S1000x150 where
  lhsContracting := [1]
  rhsContracting := [0]
  lhsNonContracting := [0]
  rhsNonContracting := [1]
  lhsBatch := []
  rhsBatch := []
  wf := dot_S1000x220_S220x150_S1000x150_1_0_0_1_n_n_wf
def dot_S2000x1024_S1024x150_S2000x150_1_0_0_1_n_n : DotDims S2000x1024 S1024x150 S2000x150 where
  lhsContracting := [1]
  rhsContracting := [0]
  lhsNonContracting := [0]
  rhsNonContracting := [1]
  lhsBatch := []
  rhsBatch := []
  wf := dot_S2000x1024_S1024x150_S2000x150_1_0_0_1_n_n_wf
def dot_S1000x150_S150x100_S1000x100_1_0_0_1_n_n : DotDims S1000x150 S150x100 S1000x100 where
  lhsContracting := [1]
  rhsContracting := [0]
  lhsNonContracting := [0]
  rhsNonContracting := [1]
  lhsBatch := []
  rhsBatch := []
  wf := dot_S1000x150_S150x100_S1000x100_1_0_0_1_n_n_wf
def dot_S2000x1024_S1024x100_S2000x100_1_0_0_1_n_n : DotDims S2000x1024 S1024x100 S2000x100 where
  lhsContracting := [1]
  rhsContracting := [0]
  lhsNonContracting := [0]
  rhsNonContracting := [1]
  lhsBatch := []
  rhsBatch := []
  wf := dot_S2000x1024_S1024x100_S2000x100_1_0_0_1_n_n_wf
def dot_S1000x100_S100x60_S1000x60_1_0_0_1_n_n : DotDims S1000x100 S100x60 S1000x60 where
  lhsContracting := [1]
  rhsContracting := [0]
  lhsNonContracting := [0]
  rhsNonContracting := [1]
  lhsBatch := []
  rhsBatch := []
  wf := dot_S1000x100_S100x60_S1000x60_1_0_0_1_n_n_wf
def dot_S2000x1024_S1024x60_S2000x60_1_0_0_1_n_n : DotDims S2000x1024 S1024x60 S2000x60 where
  lhsContracting := [1]
  rhsContracting := [0]
  lhsNonContracting := [0]
  rhsNonContracting := [1]
  lhsBatch := []
  rhsBatch := []
  wf := dot_S2000x1024_S1024x60_S2000x60_1_0_0_1_n_n_wf
def dot_S1000x60_S60x17_S1000x17_1_0_0_1_n_n : DotDims S1000x60 S60x17 S1000x17 where
  lhsContracting := [1]
  rhsContracting := [0]
  lhsNonContracting := [0]
  rhsNonContracting := [1]
  lhsBatch := []
  rhsBatch := []
  wf := dot_S1000x60_S60x17_S1000x17_1_0_0_1_n_n_wf
def dot_S2000x1024_S1024x17_S2000x17_1_0_0_1_n_n : DotDims S2000x1024 S1024x17 S2000x17 where
  lhsContracting := [1]
  rhsContracting := [0]
  lhsNonContracting := [0]
  rhsNonContracting := [1]
  lhsBatch := []
  rhsBatch := []
  wf := dot_S2000x1024_S1024x17_S2000x17_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x220.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1000x220.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1024x220.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x220.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v49) S1000x220.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x220.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51_0) S1000x220.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v51_1) S1x220.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51_2) S1x220.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v51_0) S1000x220.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x220.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x220.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x220.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S1x220.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg4) S220x150.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66) S1000x150.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v46) S2000x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S1024x150.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v68) S2000x150.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v68) S1000x150.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v69) S1x150.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v70_0) S1000x150.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v70_1) S1x150.size cc5_transform_3 reads5_3 true true 1 stage5_3 sem5_3
    hrank5 hreads5_3 hinb5_3 nbuf5_3 (Memref.isWhole_whole _) hwx5_3 hstage5_3

abbrev win5_4 : Pipeline.Window sig grid5 :=
  Pipeline.Window.ofSpec (Memref.whole main_v70_2) S1x150.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v70_0) S1000x150.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v81) S1x150.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S1x150.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v83) S1x150.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v84) S1x150.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg6) S150x100.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v85) S1000x100.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v46) S2000x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v86) S1024x100.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v87) S2000x100.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v87) S1000x100.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v88) S1x100.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v89_0) S1000x100.size cc8_transform_2 reads8_2 true false 2 stage8_2 sem8_2
    hrank8 hreads8_2 hinb8_2 nbuf8_2 (Memref.isWhole_whole _) hwx8_2 hstage8_2

abbrev win8_3 : Pipeline.Window sig grid8 :=
  Pipeline.Window.ofSpec (Memref.whole main_v89_1) S1x100.size cc8_transform_3 reads8_3 true true 1 stage8_3 sem8_3
    hrank8 hreads8_3 hinb8_3 nbuf8_3 (Memref.isWhole_whole _) hwx8_3 hstage8_3

abbrev win8_4 : Pipeline.Window sig grid8 :=
  Pipeline.Window.ofSpec (Memref.whole main_v89_2) S1x100.size cc8_transform_4 reads8_4 true true 1 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v89_0) S1000x100.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v100) S1x100.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v101) S1x100.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v102) S1x100.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v103) S1x100.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_arg8) S100x60.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v104) S1000x60.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v46) S2000x1024.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v105) S1024x60.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v106) S2000x60.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev idle10 : Fin 3 → grid10.Coords → Bool := fun | 0 => fun _ => false | 1 => fun _ => false | 2 => fun i => !(k10_cond2 i == 1#1) | ⟨_ + 3, h⟩ => absurd h (Nat.not_lt.2 (Nat.le_add_left _ _))

abbrev win11_0 : Pipeline.Window sig grid11 :=
  Pipeline.Window.ofSpec (Memref.whole main_v106) S1000x60.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v107) S1x60.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v108_0) S1000x60.size cc11_transform_2 reads11_2 true false 2 stage11_2 sem11_2
    hrank11 hreads11_2 hinb11_2 nbuf11_2 (Memref.isWhole_whole _) hwx11_2 hstage11_2

abbrev win11_3 : Pipeline.Window sig grid11 :=
  Pipeline.Window.ofSpec (Memref.whole main_v108_1) S1x60.size cc11_transform_3 reads11_3 true true 1 stage11_3 sem11_3
    hrank11 hreads11_3 hinb11_3 nbuf11_3 (Memref.isWhole_whole _) hwx11_3 hstage11_3

abbrev win11_4 : Pipeline.Window sig grid11 :=
  Pipeline.Window.ofSpec (Memref.whole main_v108_2) S1x60.size cc11_transform_4 reads11_4 true true 1 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v108_0) S1000x60.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v119) S1x60.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v120) S1x60.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v121) S1x60.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v122) S1x60.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_arg10) S60x17.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v123) S1000x17.size cc12_transform_6 reads12_6 true false 2 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v46) S2000x1024.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v124) S1024x17.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v125) S2000x17.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev idle13 : Fin 3 → grid13.Coords → Bool := fun | 0 => fun _ => false | 1 => fun _ => false | 2 => fun i => !(k13_cond2 i == 1#1) | ⟨_ + 3, h⟩ => absurd h (Nat.not_lt.2 (Nat.le_add_left _ _))

abbrev win14_0 : Pipeline.Window sig grid14 :=
  Pipeline.Window.ofSpec (Memref.whole main_v125) S1000x17.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v126) S1x17.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v127) S1000x17.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S256x220 : Shape := ⟨2, ![256, 220]⟩
abbrev S220 : Shape := ⟨1, ![220]⟩
abbrev S220x150 : Shape := ⟨2, ![220, 150]⟩
abbrev S150 : Shape := ⟨1, ![150]⟩
abbrev S150x100 : Shape := ⟨2, ![150, 100]⟩
abbrev S100 : Shape := ⟨1, ![100]⟩
abbrev S100x60 : Shape := ⟨2, ![100, 60]⟩
abbrev S60 : Shape := ⟨1, ![60]⟩
abbrev S60x17 : Shape := ⟨2, ![60, 17]⟩
abbrev S17 : Shape := ⟨1, ![17]⟩
abbrev S1x320000 : Shape := ⟨2, ![1, 320000]⟩
abbrev S320000 : Shape := ⟨1, ![320000]⟩
abbrev S10000 : Shape := ⟨1, ![10000]⟩
abbrev S330000 : Shape := ⟨1, ![330000]⟩
abbrev S_ : Shape := ⟨0, ![]⟩
abbrev S330000x1 : Shape := ⟨2, ![330000, 1]⟩
abbrev S10000x220 : Shape := ⟨2, ![10000, 220]⟩
abbrev S330000x220 : Shape := ⟨2, ![330000, 220]⟩
abbrev S1x220 : Shape := ⟨2, ![1, 220]⟩
abbrev S10000x150 : Shape := ⟨2, ![10000, 150]⟩
abbrev S330000x150 : Shape := ⟨2, ![330000, 150]⟩
abbrev S1x150 : Shape := ⟨2, ![1, 150]⟩
abbrev S10000x100 : Shape := ⟨2, ![10000, 100]⟩
abbrev S330000x100 : Shape := ⟨2, ![330000, 100]⟩
abbrev S1x100 : Shape := ⟨2, ![1, 100]⟩
abbrev S10000x60 : Shape := ⟨2, ![10000, 60]⟩
abbrev S330000x60 : Shape := ⟨2, ![330000, 60]⟩
abbrev S1x60 : Shape := ⟨2, ![1, 60]⟩
abbrev S10000x17 : Shape := ⟨2, ![10000, 17]⟩
abbrev S330000x17 : Shape := ⟨2, ![330000, 17]⟩
abbrev S1x17 : Shape := ⟨2, ![1, 17]⟩
abbrev S10000x1 : Shape := ⟨2, ![10000, 1]⟩

abbrev nBuf : Space → Nat
  | .hbm => 308
  | .vmem => 0
  | .smem => 0
  | _ => 0

abbrev hbmTy0_0 (i : Nat) : BufTy := match i % 128 with
  | 0 => ⟨S10000x256, .f32⟩
  | 1 => ⟨S2x320000, .i32⟩
  | 2 => ⟨S256x220, .f32⟩
  | 3 => ⟨S220, .f32⟩
  | 4 => ⟨S220x150, .f32⟩
  | 5 => ⟨S150, .f32⟩
  | 6 => ⟨S150x100, .f32⟩
  | 7 => ⟨S100, .f32⟩
  | 8 => ⟨S100x60, .f32⟩
  | 9 => ⟨S60, .f32⟩
  | 10 => ⟨S60x17, .f32⟩
  | 11 => ⟨S17, .f32⟩
  | 12 => ⟨S220, .f32⟩
  | 13 => ⟨S220, .f32⟩
  | 14 => ⟨S150, .f32⟩
  | 15 => ⟨S150, .f32⟩
  | 16 => ⟨S100, .f32⟩
  | 17 => ⟨S100, .f32⟩
  | 18 => ⟨S60, .f32⟩
  | 19 => ⟨S60, .f32⟩
  | 20 => ⟨S1x320000, .i32⟩
  | 21 => ⟨S320000, .i32⟩
  | 22 => ⟨S10000, .i32⟩
  | 23 => ⟨S330000, .i32⟩
  | 24 => ⟨S1x320000, .i32⟩
  | 25 => ⟨S320000, .i32⟩
  | 26 => ⟨S10000, .i32⟩
  | 27 => ⟨S330000, .i32⟩
  | 28 => ⟨S_, .f32⟩
  | 29 => ⟨S330000, .f32⟩
  | 30 => ⟨S_, .f32⟩
  | 31 => ⟨S10000, .f32⟩
  | 32 => ⟨S330000x1, .i32⟩
  | 33 => ⟨S10000, .f32⟩
  | 34 => ⟨S_, .f32⟩
  | 35 => ⟨S10000, .f32⟩
  | 36 => ⟨S10000, .i1⟩
  | 37 => ⟨S10000, .f32⟩
  | 38 => ⟨S_, .f32⟩
  | 39 => ⟨S_, .f32⟩
  | 40 => ⟨S10000, .f32⟩
  | 41 => ⟨S10000, .f32⟩
  | 42 => ⟨S_, .i32⟩
  | 43 => ⟨S330000, .i32⟩
  | 44 => ⟨S330000, .i1⟩
  | 45 => ⟨S_, .i32⟩
  | 46 => ⟨S330000, .i32⟩
  | 47 => ⟨S330000, .i32⟩
  | 48 => ⟨S330000, .i32⟩
  | 49 => ⟨S330000x1, .i32⟩
  | 50 => ⟨S330000, .f32⟩
  | 51 => ⟨S_, .i32⟩
  | 52 => ⟨S330000, .i32⟩
  | 53 => ⟨S330000, .i1⟩
  | 54 => ⟨S_, .i32⟩
  | 55 => ⟨S330000, .i32⟩
  | 56 => ⟨S330000, .i32⟩
  | 57 => ⟨S330000, .i32⟩
  | 58 => ⟨S330000x1, .i32⟩
  | 59 => ⟨S330000, .f32⟩
  | 60 => ⟨S330000, .f32⟩
  | 61 => ⟨S10000x220, .f32⟩
  | 62 => ⟨S_, .i32⟩
  | 63 => ⟨S330000, .i32⟩
  | 64 => ⟨S330000, .i1⟩
  | 65 => ⟨S_, .i32⟩
  | 66 => ⟨S330000, .i32⟩
  | 67 => ⟨S330000, .i32⟩
  | 68 => ⟨S330000, .i32⟩
  | 69 => ⟨S330000x1, .i32⟩
  | 70 => ⟨S330000x220, .f32⟩
  | 71 => ⟨S330000x1, .f32⟩
  | 72 => ⟨S330000x220, .f32⟩
  | 73 => ⟨S330000x220, .f32⟩
  | 74 => ⟨S_, .f32⟩
  | 75 => ⟨S10000x220, .f32⟩
  | 76 => ⟨S330000x1, .i32⟩
  | 77 => ⟨S10000x220, .f32⟩
  | 78 => ⟨S1x220, .f32⟩
  | 79 => ⟨S10000x220, .f32⟩
  | 80 => ⟨S10000x220, .f32⟩
  | 81 => ⟨S_, .f32⟩
  | 82 => ⟨S10000x220, .f32⟩
  | 83 => ⟨S10000x220, .f32⟩
  | 84 => ⟨S_, .f32⟩
  | 85 => ⟨S220, .f32⟩
  | 86 => ⟨S_, .f32⟩
  | 87 => ⟨S220, .f32⟩
  | 88 => ⟨S220, .f32⟩
  | 89 => ⟨S1x220, .f32⟩
  | 90 => ⟨S10000x220, .f32⟩
  | 91 => ⟨S10000x220, .f32⟩
  | 92 => ⟨S10000x220, .f32⟩
  | 93 => ⟨S_, .f32⟩
  | 94 => ⟨S220, .f32⟩
  | 95 => ⟨S_, .f32⟩
  | 96 => ⟨S220, .f32⟩
  | 97 => ⟨S220, .f32⟩
  | 98 => ⟨S1x220, .f32⟩
  | 99 => ⟨S10000x220, .f32⟩
  | 100 => ⟨S10000x220, .f32⟩
  | 101 => ⟨S_, .f32⟩
  | 102 => ⟨S220, .f32⟩
  | 103 => ⟨S220, .f32⟩
  | 104 => ⟨S220, .f32⟩
  | 105 => ⟨S1x220, .f32⟩
  | 106 => ⟨S10000x220, .f32⟩
  | 107 => ⟨S10000x220, .f32⟩
  | 108 => ⟨S1x220, .f32⟩
  | 109 => ⟨S10000x220, .f32⟩
  | 110 => ⟨S10000x220, .f32⟩
  | 111 => ⟨S1x220, .f32⟩
  | 112 => ⟨S10000x220, .f32⟩
  | 113 => ⟨S10000x220, .f32⟩
  | 114 => ⟨S10000x150, .f32⟩
  | 115 => ⟨S_, .i32⟩
  | 116 => ⟨S330000, .i32⟩
  | 117 => ⟨S330000, .i1⟩
  | 118 => ⟨S_, .i32⟩
  | 119 => ⟨S330000, .i32⟩
  | 120 => ⟨S330000, .i32⟩
  | 121 => ⟨S330000, .i32⟩
  | 122 => ⟨S330000x1, .i32⟩
  | 123 => ⟨S330000x150, .f32⟩
  | 124 => ⟨S330000x1, .f32⟩
  | 125 => ⟨S330000x150, .f32⟩
  | 126 => ⟨S330000x150, .f32⟩
  | 127 => ⟨S_, .f32⟩
  | _ => ⟨S10000x256, .f32⟩

abbrev hbmTy0_1 (i : Nat) : BufTy := match i % 128 with
  | 0 => ⟨S10000x150, .f32⟩
  | 1 => ⟨S330000x1, .i32⟩
  | 2 => ⟨S10000x150, .f32⟩
  | 3 => ⟨S1x150, .f32⟩
  | 4 => ⟨S10000x150, .f32⟩
  | 5 => ⟨S10000x150, .f32⟩
  | 6 => ⟨S_, .f32⟩
  | 7 => ⟨S10000x150, .f32⟩
  | 8 => ⟨S10000x150, .f32⟩
  | 9 => ⟨S_, .f32⟩
  | 10 => ⟨S150, .f32⟩
  | 11 => ⟨S_, .f32⟩
  | 12 => ⟨S150, .f32⟩
  | 13 => ⟨S150, .f32⟩
  | 14 => ⟨S1x150, .f32⟩
  | 15 => ⟨S10000x150, .f32⟩
  | 16 => ⟨S10000x150, .f32⟩
  | 17 => ⟨S10000x150, .f32⟩
  | 18 => ⟨S_, .f32⟩
  | 19 => ⟨S150, .f32⟩
  | 20 => ⟨S_, .f32⟩
  | 21 => ⟨S150, .f32⟩
  | 22 => ⟨S150, .f32⟩
  | 23 => ⟨S1x150, .f32⟩
  | 24 => ⟨S10000x150, .f32⟩
  | 25 => ⟨S10000x150, .f32⟩
  | 26 => ⟨S_, .f32⟩
  | 27 => ⟨S150, .f32⟩
  | 28 => ⟨S150, .f32⟩
  | 29 => ⟨S150, .f32⟩
  | 30 => ⟨S1x150, .f32⟩
  | 31 => ⟨S10000x150, .f32⟩
  | 32 => ⟨S10000x150, .f32⟩
  | 33 => ⟨S1x150, .f32⟩
  | 34 => ⟨S10000x150, .f32⟩
  | 35 => ⟨S10000x150, .f32⟩
  | 36 => ⟨S1x150, .f32⟩
  | 37 => ⟨S10000x150, .f32⟩
  | 38 => ⟨S10000x150, .f32⟩
  | 39 => ⟨S10000x100, .f32⟩
  | 40 => ⟨S_, .i32⟩
  | 41 => ⟨S330000, .i32⟩
  | 42 => ⟨S330000, .i1⟩
  | 43 => ⟨S_, .i32⟩
  | 44 => ⟨S330000, .i32⟩
  | 45 => ⟨S330000, .i32⟩
  | 46 => ⟨S330000, .i32⟩
  | 47 => ⟨S330000x1, .i32⟩
  | 48 => ⟨S330000x100, .f32⟩
  | 49 => ⟨S330000x1, .f32⟩
  | 50 => ⟨S330000x100, .f32⟩
  | 51 => ⟨S330000x100, .f32⟩
  | 52 => ⟨S_, .f32⟩
  | 53 => ⟨S10000x100, .f32⟩
  | 54 => ⟨S330000x1, .i32⟩
  | 55 => ⟨S10000x100, .f32⟩
  | 56 => ⟨S1x100, .f32⟩
  | 57 => ⟨S10000x100, .f32⟩
  | 58 => ⟨S10000x100, .f32⟩
  | 59 => ⟨S_, .f32⟩
  | 60 => ⟨S10000x100, .f32⟩
  | 61 => ⟨S10000x100, .f32⟩
  | 62 => ⟨S_, .f32⟩
  | 63 => ⟨S100, .f32⟩
  | 64 => ⟨S_, .f32⟩
  | 65 => ⟨S100, .f32⟩
  | 66 => ⟨S100, .f32⟩
  | 67 => ⟨S1x100, .f32⟩
  | 68 => ⟨S10000x100, .f32⟩
  | 69 => ⟨S10000x100, .f32⟩
  | 70 => ⟨S10000x100, .f32⟩
  | 71 => ⟨S_, .f32⟩
  | 72 => ⟨S100, .f32⟩
  | 73 => ⟨S_, .f32⟩
  | 74 => ⟨S100, .f32⟩
  | 75 => ⟨S100, .f32⟩
  | 76 => ⟨S1x100, .f32⟩
  | 77 => ⟨S10000x100, .f32⟩
  | 78 => ⟨S10000x100, .f32⟩
  | 79 => ⟨S_, .f32⟩
  | 80 => ⟨S100, .f32⟩
  | 81 => ⟨S100, .f32⟩
  | 82 => ⟨S100, .f32⟩
  | 83 => ⟨S1x100, .f32⟩
  | 84 => ⟨S10000x100, .f32⟩
  | 85 => ⟨S10000x100, .f32⟩
  | 86 => ⟨S1x100, .f32⟩
  | 87 => ⟨S10000x100, .f32⟩
  | 88 => ⟨S10000x100, .f32⟩
  | 89 => ⟨S1x100, .f32⟩
  | 90 => ⟨S10000x100, .f32⟩
  | 91 => ⟨S10000x100, .f32⟩
  | 92 => ⟨S10000x60, .f32⟩
  | 93 => ⟨S_, .i32⟩
  | 94 => ⟨S330000, .i32⟩
  | 95 => ⟨S330000, .i1⟩
  | 96 => ⟨S_, .i32⟩
  | 97 => ⟨S330000, .i32⟩
  | 98 => ⟨S330000, .i32⟩
  | 99 => ⟨S330000, .i32⟩
  | 100 => ⟨S330000x1, .i32⟩
  | 101 => ⟨S330000x60, .f32⟩
  | 102 => ⟨S330000x1, .f32⟩
  | 103 => ⟨S330000x60, .f32⟩
  | 104 => ⟨S330000x60, .f32⟩
  | 105 => ⟨S_, .f32⟩
  | 106 => ⟨S10000x60, .f32⟩
  | 107 => ⟨S330000x1, .i32⟩
  | 108 => ⟨S10000x60, .f32⟩
  | 109 => ⟨S1x60, .f32⟩
  | 110 => ⟨S10000x60, .f32⟩
  | 111 => ⟨S10000x60, .f32⟩
  | 112 => ⟨S_, .f32⟩
  | 113 => ⟨S10000x60, .f32⟩
  | 114 => ⟨S10000x60, .f32⟩
  | 115 => ⟨S_, .f32⟩
  | 116 => ⟨S60, .f32⟩
  | 117 => ⟨S_, .f32⟩
  | 118 => ⟨S60, .f32⟩
  | 119 => ⟨S60, .f32⟩
  | 120 => ⟨S1x60, .f32⟩
  | 121 => ⟨S10000x60, .f32⟩
  | 122 => ⟨S10000x60, .f32⟩
  | 123 => ⟨S10000x60, .f32⟩
  | 124 => ⟨S_, .f32⟩
  | 125 => ⟨S60, .f32⟩
  | 126 => ⟨S_, .f32⟩
  | 127 => ⟨S60, .f32⟩
  | _ => ⟨S10000x256, .f32⟩

abbrev hbmTy0_2 (i : Nat) : BufTy := match i % 128 with
  | 0 => ⟨S60, .f32⟩
  | 1 => ⟨S1x60, .f32⟩
  | 2 => ⟨S10000x60, .f32⟩
  | 3 => ⟨S10000x60, .f32⟩
  | 4 => ⟨S_, .f32⟩
  | 5 => ⟨S60, .f32⟩
  | 6 => ⟨S60, .f32⟩
  | 7 => ⟨S60, .f32⟩
  | 8 => ⟨S1x60, .f32⟩
  | 9 => ⟨S10000x60, .f32⟩
  | 10 => ⟨S10000x60, .f32⟩
  | 11 => ⟨S1x60, .f32⟩
  | 12 => ⟨S10000x60, .f32⟩
  | 13 => ⟨S10000x60, .f32⟩
  | 14 => ⟨S1x60, .f32⟩
  | 15 => ⟨S10000x60, .f32⟩
  | 16 => ⟨S10000x60, .f32⟩
  | 17 => ⟨S10000x17, .f32⟩
  | 18 => ⟨S_, .i32⟩
  | 19 => ⟨S330000, .i32⟩
  | 20 => ⟨S330000, .i1⟩
  | 21 => ⟨S_, .i32⟩
  | 22 => ⟨S330000, .i32⟩
  | 23 => ⟨S330000, .i32⟩
  | 24 => ⟨S330000, .i32⟩
  | 25 => ⟨S330000x1, .i32⟩
  | 26 => ⟨S330000x17, .f32⟩
  | 27 => ⟨S330000x1, .f32⟩
  | 28 => ⟨S330000x17, .f32⟩
  | 29 => ⟨S330000x17, .f32⟩
  | 30 => ⟨S_, .f32⟩
  | 31 => ⟨S10000x17, .f32⟩
  | 32 => ⟨S330000x1, .i32⟩
  | 33 => ⟨S10000x17, .f32⟩
  | 34 => ⟨S1x17, .f32⟩
  | 35 => ⟨S10000x17, .f32⟩
  | 36 => ⟨S10000x17, .f32⟩
  | 37 => ⟨S_, .f32⟩
  | 38 => ⟨S10000, .f32⟩
  | 39 => ⟨S_, .f32⟩
  | 40 => ⟨S10000, .f32⟩
  | 41 => ⟨S10000, .f32⟩
  | 42 => ⟨S10000x1, .f32⟩
  | 43 => ⟨S10000x17, .f32⟩
  | 44 => ⟨S10000x17, .f32⟩
  | 45 => ⟨S10000x17, .f32⟩
  | 46 => ⟨S_, .f32⟩
  | 47 => ⟨S10000, .f32⟩
  | 48 => ⟨S10000x1, .f32⟩
  | 49 => ⟨S10000x1, .f32⟩
  | 50 => ⟨S10000x17, .f32⟩
  | 51 => ⟨S10000x17, .f32⟩
  | _ => ⟨S10000x256, .f32⟩

abbrev hbmTy (i : Nat) : BufTy := match i / 128 with
  | 0 => hbmTy0_0 i
  | 1 => hbmTy0_1 i
  | 2 => hbmTy0_2 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_v15 : Ref sig .tc := ⟨.hbm, 41, rfl⟩
abbrev main_c : Ref sig .tc := ⟨.hbm, 42, rfl⟩
abbrev main_v16 : Ref sig .tc := ⟨.hbm, 43, rfl⟩
abbrev main_v17 : Ref sig .tc := ⟨.hbm, 44, rfl⟩
abbrev main_c_3 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c_4 : Ref sig .tc := ⟨.hbm, 51, rfl⟩
abbrev main_v23 : Ref sig .tc := ⟨.hbm, 52, rfl⟩
abbrev main_v24 : Ref sig .tc := ⟨.hbm, 53, rfl⟩
abbrev main_c_5 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_6 : Ref sig .tc := ⟨.hbm, 62, rfl⟩
abbrev main_v32 : Ref sig .tc := ⟨.hbm, 63, rfl⟩
abbrev main_v33 : Ref sig .tc := ⟨.hbm, 64, rfl⟩
abbrev main_c_7 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_8 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_call1_cst : Ref sig .tc := ⟨.hbm, 81, rfl⟩
abbrev main_call1_v0 : Ref sig .tc := ⟨.hbm, 82, rfl⟩
abbrev main_v48 : Ref sig .tc := ⟨.hbm, 83, rfl⟩
abbrev main_cst_9 : Ref sig .tc := ⟨.hbm, 84, rfl⟩
abbrev main_v49 : Ref sig .tc := ⟨.hbm, 85, rfl⟩
abbrev main_cst_10 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_11 : Ref sig .tc := ⟨.hbm, 93, rfl⟩
abbrev main_v56 : Ref sig .tc := ⟨.hbm, 94, rfl⟩
abbrev main_cst_12 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_13 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_c_14 : Ref sig .tc := ⟨.hbm, 115, rfl⟩
abbrev main_v75 : Ref sig .tc := ⟨.hbm, 116, rfl⟩
abbrev main_v76 : Ref sig .tc := ⟨.hbm, 117, rfl⟩
abbrev main_c_15 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_16 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_call2_cst : Ref sig .tc := ⟨.hbm, 134, rfl⟩
abbrev main_call2_v0 : Ref sig .tc := ⟨.hbm, 135, rfl⟩
abbrev main_v91 : Ref sig .tc := ⟨.hbm, 136, rfl⟩
abbrev main_cst_17 : Ref sig .tc := ⟨.hbm, 137, rfl⟩
abbrev main_v92 : Ref sig .tc := ⟨.hbm, 138, rfl⟩
abbrev main_cst_18 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_cst_19 : Ref sig .tc := ⟨.hbm, 146, rfl⟩
abbrev main_v99 : Ref sig .tc := ⟨.hbm, 147, rfl⟩
abbrev main_cst_20 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_21 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_c_22 : Ref sig .tc := ⟨.hbm, 168, rfl⟩
abbrev main_v118 : Ref sig .tc := ⟨.hbm, 169, rfl⟩
abbrev main_v119 : Ref sig .tc := ⟨.hbm, 170, rfl⟩
abbrev main_c_23 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_cst_24 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_call3_cst : Ref sig .tc := ⟨.hbm, 187, rfl⟩
abbrev main_call3_v0 : Ref sig .tc := ⟨.hbm, 188, rfl⟩
abbrev main_v134 : Ref sig .tc := ⟨.hbm, 189, rfl⟩
abbrev main_cst_25 : Ref sig .tc := ⟨.hbm, 190, rfl⟩
abbrev main_v135 : Ref sig .tc := ⟨.hbm, 191, rfl⟩
abbrev main_cst_26 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_cst_27 : Ref sig .tc := ⟨.hbm, 199, rfl⟩
abbrev main_v142 : Ref sig .tc := ⟨.hbm, 200, rfl⟩
abbrev main_cst_28 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_cst_29 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_c_30 : Ref sig .tc := ⟨.hbm, 221, rfl⟩
abbrev main_v161 : Ref sig .tc := ⟨.hbm, 222, rfl⟩
abbrev main_v162 : Ref sig .tc := ⟨.hbm, 223, rfl⟩
abbrev main_c_31 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_cst_32 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_call4_cst : Ref sig .tc := ⟨.hbm, 240, rfl⟩
abbrev main_call4_v0 : Ref sig .tc := ⟨.hbm, 241, rfl⟩
abbrev main_v177 : Ref sig .tc := ⟨.hbm, 242, rfl⟩
abbrev main_cst_33 : Ref sig .tc := ⟨.hbm, 243, rfl⟩
abbrev main_v178 : Ref sig .tc := ⟨.hbm, 244, rfl⟩
abbrev main_cst_34 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_cst_35 : Ref sig .tc := ⟨.hbm, 252, rfl⟩
abbrev main_v185 : Ref sig .tc := ⟨.hbm, 253, rfl⟩
abbrev main_cst_36 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_cst_37 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_c_38 : Ref sig .tc := ⟨.hbm, 274, rfl⟩
abbrev main_v204 : Ref sig .tc := ⟨.hbm, 275, rfl⟩
abbrev main_v205 : Ref sig .tc := ⟨.hbm, 276, rfl⟩
abbrev main_c_39 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_cst_40 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_call5_cst : Ref sig .tc := ⟨.hbm, 293, rfl⟩
abbrev main_call5_v0 : Ref sig .tc := ⟨.hbm, 294, rfl⟩
abbrev main_call5_cst_0 : Ref sig .tc := ⟨.hbm, 295, rfl⟩
abbrev main_call5_v1 : Ref sig .tc := ⟨.hbm, 296, rfl⟩
abbrev main_call5_v2 : Ref sig .tc := ⟨.hbm, 297, rfl⟩
abbrev main_call5_v3 : Ref sig .tc := ⟨.hbm, 298, rfl⟩
abbrev main_call5_v4 : Ref sig .tc := ⟨.hbm, 299, rfl⟩
abbrev main_call5_v5 : Ref sig .tc := ⟨.hbm, 300, rfl⟩
abbrev main_call5_v6 : Ref sig .tc := ⟨.hbm, 301, rfl⟩
abbrev main_call5_cst_1 : Ref sig .tc := ⟨.hbm, 302, rfl⟩
abbrev main_call5_v7 : Ref sig .tc := ⟨.hbm, 303, rfl⟩
abbrev main_call5_v8 : Ref sig .tc := ⟨.hbm, 304, rfl⟩
abbrev main_call5_v9 : Ref sig .tc := ⟨.hbm, 305, rfl⟩
abbrev main_call5_v10 : Ref sig .tc := ⟨.hbm, 306, rfl⟩
abbrev main_v220 : Ref sig .tc := ⟨.hbm, 307, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x220_0_1 : S330000x1.BroadcastsInDim S330000x220 (![0, 1] : Fin 2 → Fin S330000x220.rank)
  bcast_S_S10000x220 : S_.BroadcastsInDim S10000x220 (![] : Fin 0 → Fin S10000x220.rank)
  bcast_S220_S1x220_1 : S220.BroadcastsInDim S1x220 (![1] : Fin 1 → Fin S1x220.rank)
  bcast_S1x220_S10000x220_0_1 : S1x220.BroadcastsInDim S10000x220 (![0, 1] : Fin 2 → Fin S10000x220.rank)
  reducesTo_S10000x220_S220_d0 : S10000x220.ReducesTo [0] S220
  h_S_ : 0 < S_.numel
  bcast_S_S220 : S_.BroadcastsInDim S220 (![] : Fin 0 → Fin S220.rank)
  bcast_S330000x1_S330000x150_0_1 : S330000x1.BroadcastsInDim S330000x150 (![0, 1] : Fin 2 → Fin S330000x150.rank)
  bcast_S_S10000x150 : S_.BroadcastsInDim S10000x150 (![] : Fin 0 → Fin S10000x150.rank)
  bcast_S150_S1x150_1 : S150.BroadcastsInDim S1x150 (![1] : Fin 1 → Fin S1x150.rank)
  bcast_S1x150_S10000x150_0_1 : S1x150.BroadcastsInDim S10000x150 (![0, 1] : Fin 2 → Fin S10000x150.rank)
  reducesTo_S10000x150_S150_d0 : S10000x150.ReducesTo [0] S150
  bcast_S_S150 : S_.BroadcastsInDim S150 (![] : Fin 0 → Fin S150.rank)
  bcast_S330000x1_S330000x100_0_1 : S330000x1.BroadcastsInDim S330000x100 (![0, 1] : Fin 2 → Fin S330000x100.rank)
  bcast_S_S10000x100 : S_.BroadcastsInDim S10000x100 (![] : Fin 0 → Fin S10000x100.rank)
  bcast_S100_S1x100_1 : S100.BroadcastsInDim S1x100 (![1] : Fin 1 → Fin S1x100.rank)
  bcast_S1x100_S10000x100_0_1 : S1x100.BroadcastsInDim S10000x100 (![0, 1] : Fin 2 → Fin S10000x100.rank)
  reducesTo_S10000x100_S100_d0 : S10000x100.ReducesTo [0] S100
  bcast_S_S100 : S_.BroadcastsInDim S100 (![] : Fin 0 → Fin S100.rank)
  bcast_S330000x1_S330000x60_0_1 : S330000x1.BroadcastsInDim S330000x60 (![0, 1] : Fin 2 → Fin S330000x60.rank)
  bcast_S_S10000x60 : S_.BroadcastsInDim S10000x60 (![] : Fin 0 → Fin S10000x60.rank)
  bcast_S60_S1x60_1 : S60.BroadcastsInDim S1x60 (![1] : Fin 1 → Fin S1x60.rank)
  bcast_S1x60_S10000x60_0_1 : S1x60.BroadcastsInDim S10000x60 (![0, 1] : Fin 2 → Fin S10000x60.rank)
  reducesTo_S10000x60_S60_d0 : S10000x60.ReducesTo [0] S60
  bcast_S_S60 : S_.BroadcastsInDim S60 (![] : Fin 0 → Fin S60.rank)
  bcast_S330000x1_S330000x17_0_1 : S330000x1.BroadcastsInDim S330000x17 (![0, 1] : Fin 2 → Fin S330000x17.rank)
  bcast_S_S10000x17 : S_.BroadcastsInDim S10000x17 (![] : Fin 0 → Fin S10000x17.rank)
  bcast_S17_S1x17_1 : S17.BroadcastsInDim S1x17 (![1] : Fin 1 → Fin S1x17.rank)
  bcast_S1x17_S10000x17_0_1 : S1x17.BroadcastsInDim S10000x17 (![0, 1] : Fin 2 → Fin S10000x17.rank)
  reducesTo_S10000x17_S10000_d1 : S10000x17.ReducesTo [1] S10000
  bcast_S10000_S10000x1_0 : S10000.BroadcastsInDim S10000x1 (![0] : Fin 1 → Fin S10000x1.rank)
  bcast_S10000x1_S10000x17_0_1 : S10000x1.BroadcastsInDim S10000x17 (![0, 1] : Fin 2 → Fin S10000x17.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x256_S256x220_S10000x220_1_0_0_1_n_n_wf : DotDims.WF S10000x256 S256x220 S10000x220 [1] [0] [0] [1] [] []
  gather_S10000x220_S330000x1_S330000x220_1_0_n_n_0_1_1220_wf : GatherDims.WF S10000x220 S330000x1 S330000x220 [1] [0] [] [0] [] 1 ![1, 220]
  scatter_S10000x220_S330000x1_S330000x220_1_0_0_1_wf : ScatterDims.WF S10000x220 S330000x1 S330000x220 [1] [0] [0] 1
  dot_S10000x220_S220x150_S10000x150_1_0_0_1_n_n_wf : DotDims.WF S10000x220 S220x150 S10000x150 [1] [0] [0] [1] [] []
  gather_S10000x150_S330000x1_S330000x150_1_0_n_n_0_1_1150_wf : GatherDims.WF S10000x150 S330000x1 S330000x150 [1] [0] [] [0] [] 1 ![1, 150]
  scatter_S10000x150_S330000x1_S330000x150_1_0_0_1_wf : ScatterDims.WF S10000x150 S330000x1 S330000x150 [1] [0] [0] 1
  dot_S10000x150_S150x100_S10000x100_1_0_0_1_n_n_wf : DotDims.WF S10000x150 S150x100 S10000x100 [1] [0] [0] [1] [] []
  gather_S10000x100_S330000x1_S330000x100_1_0_n_n_0_1_1100_wf : GatherDims.WF S10000x100 S330000x1 S330000x100 [1] [0] [] [0] [] 1 ![1, 100]
  scatter_S10000x100_S330000x1_S330000x100_1_0_0_1_wf : ScatterDims.WF S10000x100 S330000x1 S330000x100 [1] [0] [0] 1
  dot_S10000x100_S100x60_S10000x60_1_0_0_1_n_n_wf : DotDims.WF S10000x100 S100x60 S10000x60 [1] [0] [0] [1] [] []
  gather_S10000x60_S330000x1_S330000x60_1_0_n_n_0_1_160_wf : GatherDims.WF S10000x60 S330000x1 S330000x60 [1] [0] [] [0] [] 1 ![1, 60]
  scatter_S10000x60_S330000x1_S330000x60_1_0_0_1_wf : ScatterDims.WF S10000x60 S330000x1 S330000x60 [1] [0] [0] 1
  dot_S10000x60_S60x17_S10000x17_1_0_0_1_n_n_wf : DotDims.WF S10000x60 S60x17 S10000x17 [1] [0] [0] [1] [] []
  gather_S10000x17_S330000x1_S330000x17_1_0_n_n_0_1_117_wf : GatherDims.WF S10000x17 S330000x1 S330000x17 [1] [0] [] [0] [] 1 ![1, 17]
  scatter_S10000x17_S330000x1_S330000x17_1_0_0_1_wf : ScatterDims.WF S10000x17 S330000x1 S330000x17 [1] [0] [0] 1

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x256_S256x220_S10000x220_1_0_0_1_n_n : DotDims S10000x256 S256x220 S10000x220 where
  lhsContracting := [1]
  rhsContracting := [0]
  lhsNonContracting := [0]
  rhsNonContracting := [1]
  lhsBatch := []
  rhsBatch := []
  wf := dot_S10000x256_S256x220_S10000x220_1_0_0_1_n_n_wf
def gather_S10000x220_S330000x1_S330000x220_1_0_n_n_0_1_1220 : GatherDims S10000x220 S330000x1 S330000x220 where
  offsetDims := [1]
  collapsedSliceDims := [0]
  operandBatchingDims := []
  startIndicesBatchingDims := []
  startIndexMap := [0]
  indexVectorDim := 1
  sliceSizes := ![1, 220]
  wf := gather_S10000x220_S330000x1_S330000x220_1_0_n_n_0_1_1220_wf
def scatter_S10000x220_S330000x1_S330000x220_1_0_0_1 : ScatterDims S10000x220 S330000x1 S330000x220 where
  updateWindowDims := [1]
  insertedWindowDims := [0]
  scatterDimsToOperandDims := [0]
  indexVectorDim := 1
  wf := scatter_S10000x220_S330000x1_S330000x220_1_0_0_1_wf
def dot_S10000x220_S220x150_S10000x150_1_0_0_1_n_n : DotDims S10000x220 S220x150 S10000x150 where
  lhsContracting := [1]
  rhsContracting := [0]
  lhsNonContracting := [0]
  rhsNonContracting := [1]
  lhsBatch := []
  rhsBatch := []
  wf := dot_S10000x220_S220x150_S10000x150_1_0_0_1_n_n_wf
def gather_S10000x150_S330000x1_S330000x150_1_0_n_n_0_1_1150 : GatherDims S10000x150 S330000x1 S330000x150 where
  offsetDims := [1]
  collapsedSliceDims := [0]
  operandBatchingDims := []
  startIndicesBatchingDims := []
  startIndexMap := [0]
  indexVectorDim := 1
  sliceSizes := ![1, 150]
  wf := gather_S10000x150_S330000x1_S330000x150_1_0_n_n_0_1_1150_wf
def scatter_S10000x150_S330000x1_S330000x150_1_0_0_1 : ScatterDims S10000x150 S330000x1 S330000x150 where
  updateWindowDims := [1]
  insertedWindowDims := [0]
  scatterDimsToOperandDims := [0]
  indexVectorDim := 1
  wf := scatter_S10000x150_S330000x1_S330000x150_1_0_0_1_wf
def dot_S10000x150_S150x100_S10000x100_1_0_0_1_n_n : DotDims S10000x150 S150x100 S10000x100 where
  lhsContracting := [1]
  rhsContracting := [0]
  lhsNonContracting := [0]
  rhsNonContracting := [1]
  lhsBatch := []
  rhsBatch := []
  wf := dot_S10000x150_S150x100_S10000x100_1_0_0_1_n_n_wf
def gather_S10000x100_S330000x1_S330000x100_1_0_n_n_0_1_1100 : GatherDims S10000x100 S330000x1 S330000x100 where
  offsetDims := [1]
  collapsedSliceDims := [0]
  operandBatchingDims := []
  startIndicesBatchingDims := []
  startIndexMap := [0]
  indexVectorDim := 1
  sliceSizes := ![1, 100]
  wf := gather_S10000x100_S330000x1_S330000x100_1_0_n_n_0_1_1100_wf
def scatter_S10000x100_S330000x1_S330000x100_1_0_0_1 : ScatterDims S10000x100 S330000x1 S330000x100 where
  updateWindowDims := [1]
  insertedWindowDims := [0]
  scatterDimsToOperandDims := [0]
  indexVectorDim := 1
  wf := scatter_S10000x100_S330000x1_S330000x100_1_0_0_1_wf
def dot_S10000x100_S100x60_S10000x60_1_0_0_1_n_n : DotDims S10000x100 S100x60 S10000x60 where
  lhsContracting := [1]
  rhsContracting := [0]
  lhsNonContracting := [0]
  rhsNonContracting := [1]
  lhsBatch := []
  rhsBatch := []
  wf := dot_S10000x100_S100x60_S10000x60_1_0_0_1_n_n_wf
def gather_S10000x60_S330000x1_S330000x60_1_0_n_n_0_1_160 : GatherDims S10000x60 S330000x1 S330000x60 where
  offsetDims := [1]
  collapsedSliceDims := [0]
  operandBatchingDims := []
  startIndicesBatchingDims := []
  startIndexMap := [0]
  indexVectorDim := 1
  sliceSizes := ![1, 60]
  wf := gather_S10000x60_S330000x1_S330000x60_1_0_n_n_0_1_160_wf
def scatter_S10000x60_S330000x1_S330000x60_1_0_0_1 : ScatterDims S10000x60 S330000x1 S330000x60 where
  updateWindowDims := [1]
  insertedWindowDims := [0]
  scatterDimsToOperandDims := [0]
  indexVectorDim := 1
  wf := scatter_S10000x60_S330000x1_S330000x60_1_0_0_1_wf
def dot_S10000x60_S60x17_S10000x17_1_0_0_1_n_n : DotDims S10000x60 S60x17 S10000x17 where
  lhsContracting := [1]
  rhsContracting := [0]
  lhsNonContracting := [0]
  rhsNonContracting := [1]
  lhsBatch := []
  rhsBatch := []
  wf := dot_S10000x60_S60x17_S10000x17_1_0_0_1_n_n_wf
def gather_S10000x17_S330000x1_S330000x17_1_0_n_n_0_1_117 : GatherDims S10000x17 S330000x1 S330000x17 where
  offsetDims := [1]
  collapsedSliceDims := [0]
  operandBatchingDims := []
  startIndicesBatchingDims := []
  startIndexMap := [0]
  indexVectorDim := 1
  sliceSizes := ![1, 17]
  wf := gather_S10000x17_S330000x1_S330000x17_1_0_n_n_0_1_117_wf
def scatter_S10000x17_S330000x1_S330000x17_1_0_0_1 : ScatterDims S10000x17 S330000x1 S330000x17 where
  updateWindowDims := [1]
  insertedWindowDims := [0]
  scatterDimsToOperandDims := [0]
  indexVectorDim := 1
  wf := scatter_S10000x17_S330000x1_S330000x17_1_0_0_1_wf

class Facts : Prop extends Facts₀ where

variable [Facts]
-- ==== Proof.Spec.lean ====
/-
  The mathematics of the certificate, over the reals, with no program in sight.

  A five-layer graph convolution network on a graph of `n` nodes and `E` directed edges (self loops
  included among them): layer ℓ maps node features `x` to `Â · (x · W) + b`, where `Â` is the symmetrically
  normalised adjacency `Â[d, s] = ∑_{e : s → d} deg(s)^(-1/2) · deg(d)^(-1/2)`; between layers a rectifier and a
  batch normalisation over the nodes; at the end a row-wise log-softmax.

  Two spellings of each step are stated here, and proved equal in `SpecLaws`:
  * the aggregation as a sum over EDGES (`aggS`: gather the source row, scale, add into the destination) and as
    a DENSE matrix product with the adjacency built once (`aggD`);
  * the variance as the mean of squared deviations (`var`) and as `max(E[x²] − E[x]², 0)` (`varK`).
-/
import Idealize.ShloMosaic.PureOps.Ideal

noncomputable section

namespace Cert.Spec

open Finset BigOperators

variable {n a b E : ℕ}

/-- The dense product `x · W`. -/
def lin (X : Fin n → Fin a → ℝ) (W : Fin a → Fin b → ℝ) : Fin n → Fin b → ℝ :=
  fun i j => ∑ k, X i k * W k j

/-- In-degree of node `d`: the number of edges that end at it. -/
def deg (dst : Fin E → Fin n) (d : Fin n) : ℝ := ∑ e, if dst e = d then (1 : ℝ) else 0

/-- The reciprocal square root on the reals (used only at positive arguments). -/
def rsq (r : ℝ) : ℝ := (Real.sqrt r)⁻¹

/-- `deg^(-1/2)`, and `0` at an isolated node. -/
def dinv (dst : Fin E → Fin n) (d : Fin n) : ℝ := if 0 < deg dst d then rsq (deg dst d) else 0

/-- The weight of edge `e`. -/
def nrm (src dst : Fin E → Fin n) (e : Fin E) : ℝ := dinv dst (src e) * dinv dst (dst e)

/-- Aggregation edge by edge: node `d` receives `h[src e] · nrm e` from every edge `e` that ends at it. -/
def aggS (src dst : Fin E → Fin n) (h : Fin n → Fin b → ℝ) : Fin n → Fin b → ℝ :=
  fun d f => ∑ e, if dst e = d then h (src e) f * nrm src dst e else 0

/-- The normalised adjacency as a dense matrix: entry `(d, s)` collects the weights of all edges `s → d`. -/
def adj (src dst : Fin E → Fin n) (d s : Fin n) : ℝ :=
  ∑ e, if dst e = d ∧ src e = s then nrm src dst e else 0

/-- Aggregation as the dense product `Â · h`. -/
def aggD (src dst : Fin E → Fin n) (h : Fin n → Fin b → ℝ) : Fin n → Fin b → ℝ :=
  fun d f => ∑ s, adj src dst d s * h s f

/-- Adding a bias row. -/
def addBias (x : Fin n → Fin b → ℝ) (bias : Fin b → ℝ) : Fin n → Fin b → ℝ := fun i f => x i f + bias f

/-- The rectifier. -/
def relu (x : Fin n → Fin b → ℝ) : Fin n → Fin b → ℝ := fun i f => max (x i f) 0

/-- Column sum, column sum of squares, column mean over the `n` nodes (`cnt` is `n` as a real). -/
def colSum (x : Fin n → Fin b → ℝ) (f : Fin b) : ℝ := ∑ i, x i f
def colSumSq (x : Fin n → Fin b → ℝ) (f : Fin b) : ℝ := ∑ i, x i f * x i f
def mean (cnt : ℝ) (x : Fin n → Fin b → ℝ) (f : Fin b) : ℝ := colSum x f / cnt

/-- Biased variance as the mean of squared deviations. -/
def var (cnt : ℝ) (x : Fin n → Fin b → ℝ) (f : Fin b) : ℝ :=
  (∑ i, (x i f - mean cnt x f) * (x i f - mean cnt x f)) / cnt

/-- Biased variance as `max(E[x²] − E[x]², 0)`. -/
def varK (cnt : ℝ) (x : Fin n → Fin b → ℝ) (f : Fin b) : ℝ :=
  max (colSumSq x f / cnt - mean cnt x f * mean cnt x f) 0

/-- Normalisation with a given mean row `mu` and variance row `v`, then scale `g` and shift `be`. -/
def normalize (eps : ℝ) (x : Fin n → Fin b → ℝ) (mu v g be : Fin b → ℝ) : Fin n → Fin b → ℝ :=
  fun i f => (x i f - mu f) * rsq (v f + eps) * g f + be f

/-- Batch normalisation, the two spellings of the variance. -/
def bn (cnt eps : ℝ) (x : Fin n → Fin b → ℝ) (g be : Fin b → ℝ) : Fin n → Fin b → ℝ :=
  normalize eps x (mean cnt x) (var cnt x) g be
def bnK (cnt eps : ℝ) (x : Fin n → Fin b → ℝ) (g be : Fin b → ℝ) : Fin n → Fin b → ℝ :=
  normalize eps x (mean cnt x) (varK cnt x) g be

/-- One convolution, edge by edge and dense. -/
def conv (src dst : Fin E → Fin n) (X : Fin n → Fin a → ℝ) (W : Fin a → Fin b → ℝ) (bias : Fin b → ℝ) :
    Fin n → Fin b → ℝ := addBias (aggS src dst (lin X W)) bias
def convK (src dst : Fin E → Fin n) (X : Fin n → Fin a → ℝ) (W : Fin a → Fin b → ℝ) (bias : Fin b → ℝ) :
    Fin n → Fin b → ℝ := addBias (aggD src dst (lin X W)) bias

/-- Row-wise log-softmax, shifted by the row maximum. -/
def rowMax (x : Fin n → Fin (b + 1) → ℝ) (i : Fin n) : ℝ := Finset.univ.sup' Finset.univ_nonempty (x i)
def lsm (x : Fin n → Fin (b + 1) → ℝ) : Fin n → Fin (b + 1) → ℝ :=
  fun i f => (x i f - rowMax x i) - Real.log (∑ f', Real.exp (x i f' - rowMax x i))

/-- The weights of the network: five dense layers, four normalisations. -/
structure Params where
  W1 : Fin 256 → Fin 220 → ℝ
  b1 : Fin 220 → ℝ
  W2 : Fin 220 → Fin 150 → ℝ
  b2 : Fin 150 → ℝ
  W3 : Fin 150 → Fin 100 → ℝ
  b3 : Fin 100 → ℝ
  W4 : Fin 100 → Fin 60 → ℝ
  b4 : Fin 60 → ℝ
  W5 : Fin 60 → Fin 17 → ℝ
  b5 : Fin 17 → ℝ
  g1 : Fin 220 → ℝ
  be1 : Fin 220 → ℝ
  g2 : Fin 150 → ℝ
  be2 : Fin 150 → ℝ
  g3 : Fin 100 → ℝ
  be3 : Fin 100 → ℝ
  g4 : Fin 60 → ℝ
  be4 : Fin 60 → ℝ

variable (cnt eps : ℝ) (src dst : Fin E → Fin n) (X : Fin n → Fin 256 → ℝ) (P : Params)

/-- The reference network: edge-by-edge aggregation, variance by deviations. -/
def r1 := relu (conv src dst X P.W1 P.b1)
def r2 := relu (conv src dst (bn cnt eps (r1 src dst X P) P.g1 P.be1) P.W2 P.b2)
def r3 := relu (conv src dst (bn cnt eps (r2 cnt eps src dst X P) P.g2 P.be2) P.W3 P.b3)
def r4 := relu (conv src dst (bn cnt eps (r3 cnt eps src dst X P) P.g3 P.be3) P.W4 P.b4)
def refNet : Fin n → Fin 17 → ℝ :=
  lsm (b := 16) (conv src dst (bn cnt eps (r4 cnt eps src dst X P) P.g4 P.be4) P.W5 P.b5)

/-- The kernel's network: dense aggregation, variance by moments. -/
def k1 := relu (convK src dst X P.W1 P.b1)
def k2 := relu (convK src dst (bnK cnt eps (k1 src dst X P) P.g1 P.be1) P.W2 P.b2)
def k3 := relu (convK src dst (bnK cnt eps (k2 cnt eps src dst X P) P.g2 P.be2) P.W3 P.b3)
def k4 := relu (convK src dst (bnK cnt eps (k3 cnt eps src dst X P) P.g3 P.be3) P.W4 P.b4)
def kerNet : Fin n → Fin 17 → ℝ :=
  lsm (b := 16) (convK src dst (bnK cnt eps (k4 cnt eps src dst X P) P.g4 P.be4) P.W5 P.b5)

end Cert.Spec

end
-- ==== Proof.Inputs.lean ====
/-
  The precondition read as real inputs. The statement's precondition says that every float argument is finite
  (|v| < +∞ at each element, all of them reduced by "and") and that every entry of the edge list is a node index
  (0 ≤ e < 10000, signed). Here that one bit is decoded into: there are real arrays X, P (the eighteen weight arrays)
  and an index array ei whose coercions the twenty argument arrays are, element by element.

  The graph the network runs on has 320000 listed edges followed by one self loop per node: `srcOf` / `dstOf` give the
  source and destination of edge e of those 330000.
-/
import proofs.«408066_j62380105008311_2_alg».proof.Proof.Spec
import proofs.«408066_j62380105008311_2_alg».proof.Pre_finite_inputs
import proofs.«408066_j62380105008311_2_alg».proof.Proof.Gen.Pre_finite_inputs
import Idealize.ShloMosaic.Lib.ReduceAll
import Idealize.ShloMosaic.Lib.ValueIdx
import Idealize.ShloMosaic.Lib.StableHlo.Predicate

noncomputable section

namespace Cert.Inputs

open Idealize.ShloMosaic Idealize.ShloMosaic.ValueIdx
open Cert.Pre_finite_inputs

/-- Source of edge `e`: the listed source for the first 320000 edges, then node `e - 320000` (its self loop). -/
def srcOf (ei : Fin 2 → Fin 320000 → Fin 10000) (e : Fin 330000) : Fin 10000 :=
  if h : e.val < 320000 then ei 0 ⟨e.val, h⟩ else ⟨e.val - 320000, by omega⟩

/-- Destination of edge `e`, likewise. -/
def dstOf (ei : Fin 2 → Fin 320000 → Fin 10000) (e : Fin 330000) : Fin 10000 :=
  if h : e.val < 320000 then ei 1 ⟨e.val, h⟩ else ⟨e.val - 320000, by omega⟩

/-- The inputs as mathematics: node features, the network's weights, the edge list as node indices. -/
structure RealArgs where
  X : Fin 10000 → Fin 256 → ℝ
  P : Cert.Spec.Params
  ei : Fin 2 → Fin 320000 → Fin 10000

/-- The twenty argument arrays are, element by element, the coercions of `R`. -/
structure Reads
    (x : FVec Ideal S10000x256 .f32) (e : IVec S2x320000 32)
    (W1 : FVec Ideal S256x220 .f32) (b1 : FVec Ideal S220 .f32)
    (W2 : FVec Ideal S220x150 .f32) (b2 : FVec Ideal S150 .f32)
    (W3 : FVec Ideal S150x100 .f32) (b3 : FVec Ideal S100 .f32)
    (W4 : FVec Ideal S100x60 .f32) (b4 : FVec Ideal S60 .f32)
    (W5 : FVec Ideal S60x17 .f32) (b5 : FVec Ideal S17 .f32)
    (g1 : FVec Ideal S220 .f32) (be1 : FVec Ideal S220 .f32)
    (g2 : FVec Ideal S150 .f32) (be2 : FVec Ideal S150 .f32)
    (g3 : FVec Ideal S100 .f32) (be3 : FVec Ideal S100 .f32)
    (g4 : FVec Ideal S60 .f32) (be4 : FVec Ideal S60 .f32)
    (R : RealArgs) : Prop where
  hX : ∀ i k, x (ix2 i k) = ((R.X i k : ℝ) : EReal)
  hei : ∀ r j, (e (ix2 r j)).toNat = (R.ei r j).val
  heiInt : ∀ r j, 0 ≤ (e (ix2 r j)).toInt ∧ (e (ix2 r j)).toInt < 10000
  heiIntEq : ∀ r j, (e (ix2 r j)).toInt = ((R.ei r j).val : Int)
  hW1 : ∀ i k, W1 (ix2 i k) = ((R.P.W1 i k : ℝ) : EReal)
  hb1 : ∀ k, b1 (ix1 k) = ((R.P.b1 k : ℝ) : EReal)
  hW2 : ∀ i k, W2 (ix2 i k) = ((R.P.W2 i k : ℝ) : EReal)
  hb2 : ∀ k, b2 (ix1 k) = ((R.P.b2 k : ℝ) : EReal)
  hW3 : ∀ i k, W3 (ix2 i k) = ((R.P.W3 i k : ℝ) : EReal)
  hb3 : ∀ k, b3 (ix1 k) = ((R.P.b3 k : ℝ) : EReal)
  hW4 : ∀ i k, W4 (ix2 i k) = ((R.P.W4 i k : ℝ) : EReal)
  hb4 : ∀ k, b4 (ix1 k) = ((R.P.b4 k : ℝ) : EReal)
  hW5 : ∀ i k, W5 (ix2 i k) = ((R.P.W5 i k : ℝ) : EReal)
  hb5 : ∀ k, b5 (ix1 k) = ((R.P.b5 k : ℝ) : EReal)
  hg1 : ∀ k, g1 (ix1 k) = ((R.P.g1 k : ℝ) : EReal)
  hbe1 : ∀ k, be1 (ix1 k) = ((R.P.be1 k : ℝ) : EReal)
  hg2 : ∀ k, g2 (ix1 k) = ((R.P.g2 k : ℝ) : EReal)
  hbe2 : ∀ k, be2 (ix1 k) = ((R.P.be2 k : ℝ) : EReal)
  hg3 : ∀ k, g3 (ix1 k) = ((R.P.g3 k : ℝ) : EReal)
  hbe3 : ∀ k, be3 (ix1 k) = ((R.P.be3 k : ℝ) : EReal)
  hg4 : ∀ k, g4 (ix1 k) = ((R.P.g4 k : ℝ) : EReal)
  hbe4 : ∀ k, be4 (ix1 k) = ((R.P.be4 k : ℝ) : EReal)

/-! ## The element facts -/

/-- The scalar shape has one index. -/
instance : Subsingleton S_.Idx := ⟨fun a b => funext fun d => d.elim0⟩

/-- The pattern 0x7F800000 is +∞. -/
theorem ofBits_inf : Ideal.ofBits .f32 0x7F800000#32 = (⊤ : EReal) := by
  simp [Ideal.ofBits, Ideal.ieee]

/-- An extended real whose absolute value is below +∞ is a real. -/
theorem real_of_abs_lt_inf (v : EReal)
    (h : FloatOps.cmpf (F := Ideal) (φ := .f32) .olt (FloatOps.hostAbsf (F := Ideal) (φ := .f32) v)
      (FloatOps.ofBits (F := Ideal) .f32 0x7F800000#32) = 1#1) : ∃ r : ℝ, v = (r : EReal) := by
  change BitVec.ofBool (decide (max v (-v) < Ideal.ofBits .f32 0x7F800000#32)) = 1#1 at h
  rw [ofBits_inf, StableHlo.Predicate.ofBool_eq_one_iff, decide_eq_true_eq] at h
  induction v using EReal.rec with
  | bot => simp at h
  | top => simp at h
  | coe r => exact ⟨r, rfl⟩

/-- The conjunction of `|v| < +∞` over all elements of an array, reduced to one bit that is 1: every element is a real. -/
theorem real_of_all {s : Shape} {axes : List (Fin s.rank)} (v : FVec Ideal s .f32) (bc : S_.BroadcastsInDim s (![] : Fin 0 → Fin s.rank))
    (red : s.ReducesTo axes S_) (hS : 0 < S_.numel)
    (h : Host.reduce IntOp.andi (cmpf .olt (Host.absf v) (broadcastInDim s ![] bc (constant S_ .f32 0x7F800000#32)))
      (constantI S_ 1 1#1) red hS ix0 = 1#1) (i : s.Idx) : ∃ r : ℝ, v i = (r : EReal) :=
  real_of_abs_lt_inf (v i) (Host.reduce_andi_all _ _ red hS ix0 h i)

/-- A 32-bit word in [0, 10000) signed: its value as a natural number is below 10000 and is its signed value. -/
theorem word_range (w : BitVec 32) (h0 : IntOp.cmpi .sge w 0#32 = 1#1) (h1 : IntOp.cmpi .slt w 10000#32 = 1#1) :
    w.toNat < 10000 ∧ w.toInt = (w.toNat : Int) := by
  rw [IntOp.cmpi_sge] at h0
  rw [IntOp.cmpi_slt] at h1
  have e0 : (0#32 : BitVec 32).toInt = 0 := by decide
  have e1 : (10000#32 : BitVec 32).toInt = 10000 := by decide
  rw [e0] at h0
  rw [e1] at h1
  have hw := w.isLt
  rw [BitVec.toInt_eq_toNat_cond] at h0 h1 ⊢
  split at h0 <;> omega

/-- THE PRECONDITION DECODED: if the printed predicate of the twenty arrays is all ones, the arrays are the coercions of
    real inputs and of an in-range edge list. -/
theorem reads_of_pre [Cert.Pre_finite_inputs.Facts]
    (x : FVec Ideal S10000x256 .f32) (e : IVec S2x320000 32)
    (W1 : FVec Ideal S256x220 .f32) (b1 : FVec Ideal S220 .f32)
    (W2 : FVec Ideal S220x150 .f32) (b2 : FVec Ideal S150 .f32)
    (W3 : FVec Ideal S150x100 .f32) (b3 : FVec Ideal S100 .f32)
    (W4 : FVec Ideal S100x60 .f32) (b4 : FVec Ideal S60 .f32)
    (W5 : FVec Ideal S60x17 .f32) (b5 : FVec Ideal S17 .f32)
    (g1 : FVec Ideal S220 .f32) (be1 : FVec Ideal S220 .f32)
    (g2 : FVec Ideal S150 .f32) (be2 : FVec Ideal S150 .f32)
    (g3 : FVec Ideal S100 .f32) (be3 : FVec Ideal S100 .f32)
    (g4 : FVec Ideal S60 .f32) (be4 : FVec Ideal S60 .f32)
    (h : Cert.Pre_finite_inputs.fn (F := Ideal) x e W1 b1 W2 b2 W3 b3 W4 b4 W5 b5 g1 be1 g2 be2 g3 be3 g4 be4 = (fun _ => 1#1)) :
    ∃ R : RealArgs, Reads x e W1 b1 W2 b2 W3 b3 W4 b4 W5 b5 g1 be1 g2 be2 g3 be3 g4 be4 R := by
  have h0 := congrFun h ix0
  simp only [fn, fn_part1, fn_part2, fn_part3, fn_part4, fn_part5, andi, IntOp.andi_eq_one] at h0
  obtain ⟨⟨⟨⟨⟨⟨⟨⟨⟨⟨⟨⟨⟨⟨⟨⟨⟨⟨⟨⟨px, pW1⟩, pb1⟩, pW2⟩, pb2⟩, pW3⟩, pb3⟩, pW4⟩, pb4⟩, pW5⟩, pb5⟩, pg1⟩, pbe1⟩, pg2⟩, pbe2⟩, pg3⟩,
    pbe3⟩, pg4⟩, pbe4⟩, pe0⟩, pe1⟩ := h0
  -- the floats: each array's elements are reals; name them
  choose X hX using fun (i : Fin 10000) (k : Fin 256) => real_of_all x _ _ _ px (ix2 i k)
  choose rW1 hW1 using fun (i : Fin 256) (k : Fin 220) => real_of_all W1 _ _ _ pW1 (ix2 i k)
  choose rb1 hb1 using fun (k : Fin 220) => real_of_all b1 _ _ _ pb1 (ix1 k)
  choose rW2 hW2 using fun (i : Fin 220) (k : Fin 150) => real_of_all W2 _ _ _ pW2 (ix2 i k)
  choose rb2 hb2 using fun (k : Fin 150) => real_of_all b2 _ _ _ pb2 (ix1 k)
  choose rW3 hW3 using fun (i : Fin 150) (k : Fin 100) => real_of_all W3 _ _ _ pW3 (ix2 i k)
  choose rb3 hb3 using fun (k : Fin 100) => real_of_all b3 _ _ _ pb3 (ix1 k)
  choose rW4 hW4 using fun (i : Fin 100) (k : Fin 60) => real_of_all W4 _ _ _ pW4 (ix2 i k)
  choose rb4 hb4 using fun (k : Fin 60) => real_of_all b4 _ _ _ pb4 (ix1 k)
  choose rW5 hW5 using fun (i : Fin 60) (k : Fin 17) => real_of_all W5 _ _ _ pW5 (ix2 i k)
  choose rb5 hb5 using fun (k : Fin 17) => real_of_all b5 _ _ _ pb5 (ix1 k)
  choose rg1 hg1 using fun (k : Fin 220) => real_of_all g1 _ _ _ pg1 (ix1 k)
  choose rbe1 hbe1 using fun (k : Fin 220) => real_of_all be1 _ _ _ pbe1 (ix1 k)
  choose rg2 hg2 using fun (k : Fin 150) => real_of_all g2 _ _ _ pg2 (ix1 k)
  choose rbe2 hbe2 using fun (k : Fin 150) => real_of_all be2 _ _ _ pbe2 (ix1 k)
  choose rg3 hg3 using fun (k : Fin 100) => real_of_all g3 _ _ _ pg3 (ix1 k)
  choose rbe3 hbe3 using fun (k : Fin 100) => real_of_all be3 _ _ _ pbe3 (ix1 k)
  choose rg4 hg4 using fun (k : Fin 60) => real_of_all g4 _ _ _ pg4 (ix1 k)
  choose rbe4 hbe4 using fun (k : Fin 60) => real_of_all be4 _ _ _ pbe4 (ix1 k)
  -- the edge list: each word is in [0, 10000) signed, so it names a node
  have he : ∀ (r : Fin 2) (j : Fin 320000), (e (ix2 r j)).toNat < 10000 ∧ (e (ix2 r j)).toInt = ((e (ix2 r j)).toNat : Int) :=
    fun r j => word_range (e (ix2 r j)) (Host.reduce_andi_all _ _ _ _ ix0 pe0 (ix2 r j)) (Host.reduce_andi_all _ _ _ _ ix0 pe1 (ix2 r j))
  refine ⟨⟨X, ⟨rW1, rb1, rW2, rb2, rW3, rb3, rW4, rb4, rW5, rb5, rg1, rbe1, rg2, rbe2, rg3, rbe3, rg4, rbe4⟩,
    fun r j => ⟨(e (ix2 r j)).toNat, (he r j).1⟩⟩, ?_⟩
  exact
    { hX := hX
      hei := fun r j => rfl
      heiInt := fun r j => by have := he r j; omega
      heiIntEq := fun r j => (he r j).2
      hW1 := hW1, hb1 := hb1, hW2 := hW2, hb2 := hb2, hW3 := hW3, hb3 := hb3, hW4 := hW4, hb4 := hb4, hW5 := hW5, hb5 := hb5
      hg1 := hg1, hbe1 := hbe1, hg2 := hg2, hbe2 := hbe2, hg3 := hg3, hbe3 := hbe3, hg4 := hg4, hbe4 := hbe4 }

end Cert.Inputs

end
-- ==== Proof.LibCoe.lean ====
/-
  The extended-real operations of the ideal float instance, read on COERCED REALS.

  Every value of the ideal instance is an extended real. Where an argument is (the coercion of) a real number
  and stays away from an operation's corner (a zero divisor, a non-positive argument of the logarithm or of
  the reciprocal square root), the result is again the coercion of a real: the real operation's value. Each
  lemma below is such an equation, its right side a coerced real, so that a value claim over finite inputs can
  be pushed, operation by operation, from the extended reals down to a statement about real numbers.

  The bit patterns that denote the constants are unfolded here, once.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Sqrt
import Mathlib.Analysis.SpecialFunctions.Log.Basic
import Mathlib.Tactic.NormNum

noncomputable section

namespace Cert.LibCoe

open Idealize.ShloMosaic
open Finset BigOperators

/-! ### Field operations -/

/-- The sum of two coerced reals is the coercion of their sum. -/
theorem add_coe (a b : ℝ) : (a : EReal) + (b : EReal) = ((a + b : ℝ) : EReal) :=
  (EReal.coe_add a b).symm

/-- The difference of two coerced reals is the coercion of their difference. -/
theorem sub_coe (a b : ℝ) : (a : EReal) - (b : EReal) = ((a - b : ℝ) : EReal) :=
  (EReal.coe_sub a b).symm

/-- The product of two coerced reals is the coercion of their product. -/
theorem mul_coe (a b : ℝ) : (a : EReal) * (b : EReal) = ((a * b : ℝ) : EReal) :=
  (EReal.coe_mul a b).symm

/-- The negation of a coerced real is the coercion of its negation. -/
theorem neg_coe (a : ℝ) : -(a : EReal) = ((-a : ℝ) : EReal) :=
  (EReal.coe_neg a).symm

/-- Division of a coerced real by a coerced NON-ZERO real is the coercion of the real quotient: off zero the
    ideal division is the product with the inverse, and the inverse of a coerced real is the coerced inverse. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The maximum of two coerced reals is the coercion of their maximum (the coercion is monotone). -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- A finite sum of coerced reals is the coercion of the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-! ### Transcendental operations -/

/-- The reciprocal square root of a coerced POSITIVE real is the coerced `(√r)⁻¹`. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The exponential of a coerced real is the coerced real exponential. -/
theorem exp_coe (r : ℝ) : Ideal.exp (r : EReal) = ((Real.exp r : ℝ) : EReal) := rfl

/-- The logarithm of a coerced POSITIVE real is the coerced real logarithm. -/
theorem log_coe_pos {r : ℝ} (hr : 0 < r) :
    Ideal.log (r : EReal) = ((Real.log r : ℝ) : EReal) := by
  rw [Ideal.log_coe, if_neg (not_le.mpr hr)]

/-! ### Comparison -/

/-- The ordered comparison "greater than" of two coerced reals is the bit of the real comparison. -/
theorem cmp_ogt_coe (a b : ℝ) :
    Ideal.cmp .ogt (a : EReal) (b : EReal) = BitVec.ofBool (decide (b < a)) := by
  simp only [Ideal.cmp, EReal.coe_lt_coe_iff]

/-- A coerced positive real is "greater than" the coerced zero: the comparison's bit is set. -/
theorem cmp_ogt_coe_zero_of_pos {a : ℝ} (ha : 0 < a) :
    Ideal.cmp .ogt (a : EReal) ((0 : ℝ) : EReal) = 1#1 := by
  rw [cmp_ogt_coe, decide_eq_true ha]; rfl

/-- A coerced non-positive real is not "greater than" the coerced zero: the comparison's bit is clear. -/
theorem cmp_ogt_coe_zero_of_nonpos {a : ℝ} (ha : a ≤ 0) :
    Ideal.cmp .ogt (a : EReal) ((0 : ℝ) : EReal) = 0#1 := by
  rw [cmp_ogt_coe, decide_eq_false (not_lt.mpr ha)]; rfl

/-! ### Constants: what the single-precision patterns denote -/

/-- The pattern of `+0.0` denotes the real `0`. -/
theorem ofBits_zero : Ideal.ofBits .f32 0x00000000#32 = ((0 : ℝ) : EReal) := by
  rw [Ideal.ofBits_zero_f32, EReal.coe_zero]

/-- The pattern of `1.0` (exponent field 127, fraction 0) denotes the real `1`. -/
theorem ofBits_one : Ideal.ofBits .f32 0x3F800000#32 = ((1 : ℝ) : EReal) := by
  simp [Ideal.ofBits, Ideal.ieee, -EReal.coe_mul]; norm_num

/-- The pattern of `10000.0` (exponent field 140, fraction `0x1C4000`): `(2²³ + 1851392) · 2⁻¹⁰ = 10000`. -/
theorem ofBits_10000 : Ideal.ofBits .f32 0x461C4000#32 = ((10000 : ℝ) : EReal) := by
  simp [Ideal.ofBits, Ideal.ieee, -EReal.coe_mul]; norm_num

/-- The single-precision number nearest `10⁻⁵`, exactly: exponent field 110, fraction `0x27C5AC`, that is
    `(2²³ + 2606508) · 2⁻⁴⁰ = 10995116 / 2⁴⁰`. -/
def epsR : ℝ := 10995116 / 1099511627776

/-- That number is positive. -/
theorem epsR_pos : 0 < epsR := by unfold epsR; norm_num

/-- The pattern `0x3727C5AC` denotes `epsR`. -/
theorem ofBits_eps : Ideal.ofBits .f32 0x3727C5AC#32 = ((epsR : ℝ) : EReal) := by
  unfold epsR
  simp [Ideal.ofBits, Ideal.ieee, -EReal.coe_mul]; norm_num

/-- The pattern of `-∞` (sign set, exponent field all ones, fraction 0) denotes `⊥`. -/
theorem ofBits_neg_inf : Ideal.ofBits .f32 0xFF800000#32 = (⊥ : EReal) := by
  simp [Ideal.ofBits, Ideal.ieee]

end Cert.LibCoe

end
-- ==== Proof.SpecLaws.lean ====
/-
  The two spellings of each step of the network agree.

  * Aggregation: the dense product with the adjacency is the edge-by-edge sum. Exchange the sum over source
    nodes with the sum over edges; for a fixed edge the inner sum over `s` has a single non-zero term, `s = src e`.
  * Variance: with `μ = (∑ x) / n`, expanding the square gives `∑ (x - μ)² = ∑ x² - 2 μ ∑ x + n μ²`, so
    `(∑ (x - μ)²) / n = (∑ x²) / n - μ²`. The left side is a mean of squares, hence non-negative, and the maximum
    with `0` does nothing.
  * The networks: rewrite layer by layer with the two laws.
-/
import proofs.«408066_j62380105008311_2_alg».proof.Proof.Spec
import Mathlib.Algebra.BigOperators.Ring.Finset
import Mathlib.Algebra.Order.BigOperators.Ring.Finset
import Mathlib.Tactic.Ring
import Mathlib.Tactic.FieldSimp

noncomputable section

namespace Cert.Spec

open Finset BigOperators

/-- The dense product with the normalised adjacency is the edge-by-edge aggregation. -/
theorem aggD_eq_aggS {n b E : ℕ} (src dst : Fin E → Fin n) (h : Fin n → Fin b → ℝ) :
    aggD src dst h = aggS src dst h := by
  funext d f
  simp only [aggD, aggS, adj, Finset.sum_mul]
  rw [Finset.sum_comm]
  refine Finset.sum_congr rfl fun e _ => ?_
  by_cases hd : dst e = d
  · simp [hd, ite_mul, Finset.sum_ite_eq, mul_comm]
  · simp [hd]

/-- The variance by moments is the variance by deviations (over a non-empty set of nodes). -/
theorem varK_eq_var {n b : ℕ} (hn : 0 < n) (x : Fin n → Fin b → ℝ) :
    varK (n : ℝ) x = var (n : ℝ) x := by
  funext f
  have hn' : (0 : ℝ) < n := Nat.cast_pos.mpr hn
  have hne : (n : ℝ) ≠ 0 := ne_of_gt hn'
  have key : colSumSq x f / n - mean n x f * mean n x f = var n x f := by
    unfold var
    set μ := mean (n : ℝ) x f with hμ
    have hS : colSum x f = μ * n := by
      rw [hμ, mean]; field_simp
    have hexp : ∑ i, (x i f - μ) * (x i f - μ)
        = colSumSq x f - 2 * μ * colSum x f + n * (μ * μ) := by
      have hterm : ∀ i, (x i f - μ) * (x i f - μ) = x i f * x i f - 2 * μ * x i f + μ * μ :=
        fun i => by ring
      simp only [colSumSq, colSum, hterm, Finset.sum_add_distrib, Finset.sum_sub_distrib,
        ← Finset.mul_sum, Finset.sum_const, Finset.card_univ, Fintype.card_fin, nsmul_eq_mul]
      ring
    rw [hexp, hS]
    field_simp
    ring
  have hnn : 0 ≤ var (n : ℝ) x f := by
    unfold var
    exact div_nonneg (Finset.sum_nonneg fun i _ => mul_self_nonneg _) hn'.le
  unfold varK
  rw [key, max_eq_left hnn]

/-- One convolution: dense and edge by edge agree. -/
theorem convK_eq_conv {n a b E : ℕ} (src dst : Fin E → Fin n) (X : Fin n → Fin a → ℝ)
    (W : Fin a → Fin b → ℝ) (bias : Fin b → ℝ) :
    convK src dst X W bias = conv src dst X W bias := by
  simp only [convK, conv, aggD_eq_aggS]

/-- Batch normalisation: the two spellings of the variance agree. -/
theorem bnK_eq_bn {n b : ℕ} (hn : 0 < n) (eps : ℝ) (x : Fin n → Fin b → ℝ) (g be : Fin b → ℝ) :
    bnK (n : ℝ) eps x g be = bn (n : ℝ) eps x g be := by
  simp only [bnK, bn, varK_eq_var hn]

/-- The kernel's network is the reference network. -/
theorem kerNet_eq_refNet {n E : ℕ} (hn : 0 < n) (eps : ℝ) (src dst : Fin E → Fin n)
    (X : Fin n → Fin 256 → ℝ) (P : Params) :
    kerNet (n : ℝ) eps src dst X P = refNet (n : ℝ) eps src dst X P := by
  simp only [kerNet, refNet, k4, k3, k2, k1, r4, r3, r2, r1, convK_eq_conv, bnK_eq_bn hn]

end Cert.Spec

end
-- ==== Proof.Reg0.lean ====
import proofs.«408066_j62380105008311_2_alg».proof.Proof.Gen.KernelIdeal.Launch
import proofs.«408066_j62380105008311_2_alg».proof.Proof.Gen.KernelIdeal.Skeleton
import proofs.«408066_j62380105008311_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# Region 0: one dense layer, the product of x and W, row block by row block

The grid walks the row blocks of x.  At a point the body reads the current row block of x (window 0) and
the whole weight matrix W (window 1, which never moves), and stores their matrix product over the whole
block of the result (window 2).  Nothing is carried from point to point.

Everything is stated at a parameter V: the TensorCore's buffer contents when the region is entered.
-/

-- membership in a rectangle spanning a whole block recurses once per coordinate of its long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x sits in window 0's current buffer at every point: the window is fetched wherever its
    block index moves, and the body leaves the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix sits in window 1's buffer at every point although it is fetched once: its block index
    never moves, so the block fetched at the first point is the block of every later point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S1000x256 := Rect.unit (s := S1000x256) ![0, 0] S1000x256.size inb_S1000x256_S1000x256_0_0
abbrev r0_1 : Rect S256x220 := Rect.unit (s := S256x220) ![0, 0] S256x220.size inb_S256x220_S256x220_0_0
abbrev r0_2 : Rect S1000x220 := Rect.unit (s := S1000x220) ![0, 0] S1000x220.size inb_S1000x220_S1000x220_0_0

/-! ## What the body leaves in the result's buffer -/

/-- The result block after the body, from the row block x0 of x and the weights x1: the one store, whose
    payload is the product of the two loaded blocks. -/
def out0_2 (x0 : Vec F S1000x256 .f32) (x1 : Vec F S256x220 .f32) : Vec F S1000x220 .f32 :=
  View.canon [⟨r0_2, k0_pay1 (View.ld x0 r0_0) (View.ld x1 r0_1)⟩]

/-- The one store spans the whole buffer, so every index of the buffer is written. -/
theorem cover0_2 (p0 : Vec F S1000x220 .f32) (y : S1000x220.Idx) :
    ∃ pc ∈ ([⟨r0_2, p0⟩] : List (View.Piece (Elt F) S1000x220 .f32)), y ∈ pc.1.set :=
  View.cover_of_tiled [⟨r0_2, p0⟩] S1000x220.size (by rfl) y

/-! ## The body's triple -/

set_option maxHeartbeats 1000000 in
/-- The body on whole buffers (the two operands' at read contents x0, x1, the result's at anything) runs to a
    state with the operands' buffers as they were and the result's at out0_2 x0 x1.  The body also loads the
    result's buffer before the store; the value loaded is not used. -/
theorem sound_kernel0 (c : Dev nD) (E : Set ℕ) (i : grid0.Coords)
    (arg1 : Memref sig .tc .vmem S1000x256 .f32) (harg1 : arg1.IsWhole)
    (arg2 : Memref sig .tc .vmem S256x220 .f32) (harg2 : arg2.IsWhole)
    (arg3 : Memref sig .tc .vmem S1000x220 .f32) (harg3 : arg3.IsWhole)
    (x0 : Vec F S1000x256 .f32) (x1 : Vec F S256x220 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core c: the arrays as the region finds them; after the body at point t
    each operand's buffer at its block and the result's at out0_2 of the two; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each operand's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' buffers hold their blocks, so sound_kernel0 applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- Entering: the generator register and the scoped rest are the invariant. -/
theorem hin0 (c : Dev nD) :
    iprop((∃ r, prngReg c r) ∗ Pipeline.scopedRest (Ix := Unit) (Name := ℕ) (U := UR sig nD τ) (Lvl := ℕ) (Val := Elt F) spec0 c)
      ⊢ (dat0 V c).Φ 0 := by
  rw [show (dat0 V c).Φ 0 = Pipeline.ΦA spec0 c from rfl]; unfold Pipeline.ΦA
  iintro ⟨Hp, Hr⟩
  isplitl [Hr]; · iexact Hr
  iexact Hp

/-- Leaving: the invariant gives both back. -/
theorem hout0 (c : Dev nD) :
    (dat0 V c).Φ (Fin.last cfg0.N)
      ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = Pipeline.ΦA spec0 c from rfl]; unfold Pipeline.ΦA
  iintro ⟨Hr, Hp⟩
  isplitl [Hp]; · iexact Hp
  iexact Hr

end Cert.KernelIdeal.Hand

end
-- ==== Proof.Reg1.lean ====
import proofs.«408066_j62380105008311_2_alg».proof.Proof.Gen.KernelIdeal.Launch
import proofs.«408066_j62380105008311_2_alg».proof.Proof.Gen.KernelIdeal.Skeleton
import proofs.«408066_j62380105008311_2_alg».proof.Proof.Gen.KernelIdeal.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

/-! # Region 1: a blocked matrix product accumulated in a scratch buffer

The grid is two-dimensional; along its second axis the body adds one block product into a scratch
accumulator, which it clears at the first step and copies to the output block at the last one.  This
file states, at any float family and at any entry contents `V` of the TensorCore's buffers, what the
accumulator holds after each grid point and proves the body's triple at every point. -/

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of accumulation steps (the extent of the grid's second axis) and the index of the last one:
    the only numerals of this file. -/
local notation "K₁" => 10
local notation "K₁last" => 9

/-! ## The body's two conditions, in closed form over the grid -/

/-- "This is the first accumulation step": the condition under which the body clears the accumulator. -/
abbrev cond1_0 (i : grid1.Coords) : Prop :=
  (Scalar.cmpi .ne (Scalar.extui (Scalar.cmpi .eq (BitVec.ofNat 32 (i 1).val) 0#32)) 0#32) = 1#1
/-- It holds exactly at the points whose position is a multiple of the number of steps. -/
theorem hcond1_0 : ∀ t : Fin cfg1.N, cond1_0 (grid1.coords t) ↔ t.val % K₁ = 0 :=
  (by decide +kernel : ∀ t : Fin grid1.N, cond1_0 (grid1.coords t) ↔ t.val % K₁ = 0)

/-- "This is the last accumulation step": the condition under which the body copies the accumulator out. -/
abbrev cond1_1 (i : grid1.Coords) : Prop := k1_cond2 i = 1#1
/-- It holds exactly at the points whose position is one short of a multiple of the number of steps. -/
theorem hcond1_1 : ∀ t : Fin cfg1.N, cond1_1 (grid1.coords t) ↔ t.val % K₁ = K₁last :=
  (by decide +kernel : ∀ t : Fin grid1.N, cond1_1 (grid1.coords t) ↔ t.val % K₁ = K₁last)

/-! ## Where the windows are idle -/

/-- The two operand windows are live at every point. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- The output window is idle, and not written back, wherever the step is not the last; -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- and live at the last step. -/
theorem liveAt1_2 : ∀ t : Fin cfg1.N, cond1_1 (grid1.coords t) → cfg1.idle 2 (grid1.coords t) = false := by decide +kernel

/-! ## The memrefs the body is called with -/

/-- Each window's current staging memref at point `t`, and its wholeness. -/
abbrev ms1_0 (t : Fin cfg1.N) : Memref sig .tc .vmem S2000x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x220 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x220 .f32 := win1_2.stage (cfg1.slots t 2)
abbrev hs1_2 (t : Fin cfg1.N) : (ms1_2 t).IsWhole := hstage1_2 ((cfg1.slots t 2).cast nbuf1_2)
/-- The accumulator: a whole scoped buffer of the call's own. -/
abbrev scM1 : Memref sig .tc .vmem S2000x220 .f32 := Memref.whole cc1_scratch0
/-- The views through which the accumulator's and the output block's contents are stated. -/
abbrev VS1 : View sig .tc .vmem S2000x220 .f32 := scM1.view
abbrev VO1_2 : View sig .tc .vmem S2000x220 .f32 := (Memref.whole cc1_stg2_0 : Memref sig .tc .vmem S2000x220 .f32).view

/-! ## The body on any whole memrefs, case by case

Three cases of the two conditions occur on the grid: the first step (clear, then accumulate), a middle step
(accumulate), the last step (accumulate, then copy out).  In each the body's stores leave lists of pieces in
the accumulator (and, at the last step, in the output block); the run finds them. -/

set_option maxHeartbeats 1000000 in
/-- FIRST STEP.  The operands' memrefs at their contents, the output's at contents handed back untouched, the
    accumulator at anything: the body runs to the continuation holding the accumulator with its pieces written. -/
noncomputable def run1_A (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : cond1_0 i) (hc1 : ¬cond1_1 i) (x0 : Vec F S2000x1024 .bf16) (x1 : Vec F S1024x220 .f32) :
    { LS : List (View.Piece (Elt F) S2000x220 .f32) //
      ∀ (xi2 : Vec F S2000x220 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc1__spmm_kernel i arg2 harg2 arg3 harg3 arg4 harg4 arg5 harg5) K } := by
  refine ⟨?_, fun xi2 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A MIDDLE STEP.  As the first, but the accumulator at the contents `xs` the step before left. -/
noncomputable def run1_B (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : ¬cond1_0 i) (hc1 : ¬cond1_1 i) (x0 : Vec F S2000x1024 .bf16) (x1 : Vec F S1024x220 .f32) (xs : Vec F S2000x220 .f32) :
    { LS : List (View.Piece (Elt F) S2000x220 .f32) //
      ∀ (xi2 : Vec F S2000x220 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc1__spmm_kernel i arg2 harg2 arg3 harg3 arg4 harg4 arg5 harg5) K } := by
  refine ⟨?_, fun xi2 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- THE LAST STEP.  The accumulator at the contents `xs` the step before left, the output's memref at anything:
    the body leaves pieces in both. -/
noncomputable def run1_C (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : ¬cond1_0 i) (hc1 : cond1_1 i) (x0 : Vec F S2000x1024 .bf16) (x1 : Vec F S1024x220 .f32) (xs : Vec F S2000x220 .f32) :
    Σ' (L2 : List (View.Piece (Elt F) S2000x220 .f32)), { LS : List (View.Piece (Elt F) S2000x220 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc1__spmm_kernel i arg2 harg2 arg3 harg3 arg4 harg4 arg5 harg5) K } := by
  refine ⟨?_, ?_, fun E K => ?run⟩
  case run =>
    simp only [cc1__spmm_kernel_eq_skeleton]; unfold cc1__spmm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What each case leaves, read back -/

/-- The first step's pieces cover the accumulator, -/
theorem scover1_A (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : cond1_0 i) (hc1 : ¬cond1_1 i) (x0 : Vec F S2000x1024 .bf16) (x1 : Vec F S1024x220 .f32) (y : S2000x220.Idx) :
    ∃ pc ∈ (run1_A c i arg2 harg2 arg3 harg3 arg4 harg4 arg5 harg5 hc0 hc1 x0 x1).1, y ∈ pc.1.set :=
  View.cover_of_tiledL (run1_A c i arg2 harg2 arg3 harg3 arg4 harg4 arg5 harg5 hc0 hc1 x0 x1).1 S2000x220.size (by sl_kernel_rfl) y

/-- and this is what they leave in it (read back over contents nothing consults). -/
def sout1_A (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : cond1_0 i) (hc1 : ¬cond1_1 i) (x0 : Vec F S2000x1024 .bf16) (x1 : Vec F S1024x220 .f32) : Vec F S2000x220 .f32 :=
  VS1.read (Elt F) (VS1.writes (Elt F) VS1.junk (run1_A c i arg2 harg2 arg3 harg3 arg4 harg4 arg5 harg5 hc0 hc1 x0 x1).1)

/-- A middle step's pieces cover the accumulator; what they leave. -/
theorem scover1_B (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : ¬cond1_0 i) (hc1 : ¬cond1_1 i) (x0 : Vec F S2000x1024 .bf16) (x1 : Vec F S1024x220 .f32) (xs : Vec F S2000x220 .f32) (y : S2000x220.Idx) :
    ∃ pc ∈ (run1_B c i arg2 harg2 arg3 harg3 arg4 harg4 arg5 harg5 hc0 hc1 x0 x1 xs).1, y ∈ pc.1.set :=
  View.cover_of_tiledL (run1_B c i arg2 harg2 arg3 harg3 arg4 harg4 arg5 harg5 hc0 hc1 x0 x1 xs).1 S2000x220.size (by sl_kernel_rfl) y

def sout1_B (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : ¬cond1_0 i) (hc1 : ¬cond1_1 i) (x0 : Vec F S2000x1024 .bf16) (x1 : Vec F S1024x220 .f32) (xs : Vec F S2000x220 .f32) : Vec F S2000x220 .f32 :=
  VS1.read (Elt F) (VS1.writes (Elt F) VS1.junk (run1_B c i arg2 harg2 arg3 harg3 arg4 harg4 arg5 harg5 hc0 hc1 x0 x1 xs).1)

/-- The last step's pieces cover the output block and the accumulator; what they leave in each. -/
theorem cover1_C (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : ¬cond1_0 i) (hc1 : cond1_1 i) (x0 : Vec F S2000x1024 .bf16) (x1 : Vec F S1024x220 .f32) (xs : Vec F S2000x220 .f32) (y : S2000x220.Idx) :
    ∃ pc ∈ (run1_C c i arg2 harg2 arg3 harg3 arg4 harg4 arg5 harg5 hc0 hc1 x0 x1 xs).1, y ∈ pc.1.set :=
  View.cover_of_tiledL (run1_C c i arg2 harg2 arg3 harg3 arg4 harg4 arg5 harg5 hc0 hc1 x0 x1 xs).1 S2000x220.size (by sl_kernel_rfl) y

def out1_C (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : ¬cond1_0 i) (hc1 : cond1_1 i) (x0 : Vec F S2000x1024 .bf16) (x1 : Vec F S1024x220 .f32) (xs : Vec F S2000x220 .f32) : Vec F S2000x220 .f32 :=
  VO1_2.read (Elt F) (VO1_2.writes (Elt F) VO1_2.junk (run1_C c i arg2 harg2 arg3 harg3 arg4 harg4 arg5 harg5 hc0 hc1 x0 x1 xs).1)

theorem scover1_C (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : ¬cond1_0 i) (hc1 : cond1_1 i) (x0 : Vec F S2000x1024 .bf16) (x1 : Vec F S1024x220 .f32) (xs : Vec F S2000x220 .f32) (y : S2000x220.Idx) :
    ∃ pc ∈ (run1_C c i arg2 harg2 arg3 harg3 arg4 harg4 arg5 harg5 hc0 hc1 x0 x1 xs).2.1, y ∈ pc.1.set :=
  View.cover_of_tiledL (run1_C c i arg2 harg2 arg3 harg3 arg4 harg4 arg5 harg5 hc0 hc1 x0 x1 xs).2.1 S2000x220.size (by sl_kernel_rfl) y

def sout1_C (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : ¬cond1_0 i) (hc1 : cond1_1 i) (x0 : Vec F S2000x1024 .bf16) (x1 : Vec F S1024x220 .f32) (xs : Vec F S2000x220 .f32) : Vec F S2000x220 .f32 :=
  VS1.read (Elt F) (VS1.writes (Elt F) VS1.junk (run1_C c i arg2 harg2 arg3 harg3 arg4 harg4 arg5 harg5 hc0 hc1 x0 x1 xs).2.1)

/-! ## The region at the entry contents `V` -/

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window's current staging buffer holds its block at every point, for any proof data whose array is
    `V`'s and whose body leaves the block in place: the window is uncut and never idle, and where it is not fetched
    its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator after each point -/

/-- THE ACCUMULATION.  What the accumulator holds after the body at position `n`: the case the closed forms select
    there, run at the point's memrefs and operand blocks — at a first step from anything, otherwise from what the
    point before left. -/
def scrAt1 (c : Dev nD) : (n : ℕ) → n < cfg1.N → Vec F S2000x220 .f32
  | 0, hn =>
    sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _)
      ((hcond1_0 ⟨0, hn⟩).mpr (Nat.zero_mod _)) (fun h => (fun e => by (try dsimp only at e); omega) ((hcond1_1 ⟨0, hn⟩).mp h))
      (iblk1 V c 0 ⟨0, hn⟩) (iblk1 V c 1 ⟨0, hn⟩)
  | n + 1, hn =>
    if h0 : (n + 1) % K₁ = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _)
        ((hcond1_0 ⟨n + 1, hn⟩).mpr h0) (fun h => (fun e => by (try dsimp only at e h0); omega) ((hcond1_1 ⟨n + 1, hn⟩).mp h))
        (iblk1 V c 0 ⟨n + 1, hn⟩) (iblk1 V c 1 ⟨n + 1, hn⟩)
    else if h1 : (n + 1) % K₁ = K₁last then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _)
        (fun h => h0 ((hcond1_0 ⟨n + 1, hn⟩).mp h)) ((hcond1_1 ⟨n + 1, hn⟩).mpr h1)
        (iblk1 V c 0 ⟨n + 1, hn⟩) (iblk1 V c 1 ⟨n + 1, hn⟩) (scrAt1 c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _)
        (fun h => h0 ((hcond1_0 ⟨n + 1, hn⟩).mp h)) (fun h => h1 ((hcond1_1 ⟨n + 1, hn⟩).mp h))
        (iblk1 V c 0 ⟨n + 1, hn⟩) (iblk1 V c 1 ⟨n + 1, hn⟩) (scrAt1 c n (Nat.lt_of_succ_lt hn))

/-- The accumulator before a point that is not the first of the grid: what the point before left. -/
abbrev scrBefore1 (c : Dev nD) (t : Fin cfg1.N) : Vec F S2000x220 .f32 :=
  scrAt1 V c (t.val - 1) (Nat.lt_of_le_of_lt (Nat.sub_le _ _) t.isLt)

/-- `scrAt1` at a first step. -/
theorem scrAt1_A (c : Dev nD) (t : Fin cfg1.N) (h0 : t.val % K₁ = 0) (h1 : ¬t.val % K₁ = K₁last) :
    scrAt1 V c t.val t.isLt = sout1_A c (grid1.coords t) (ms1_0 t) (hs1_0 t) (ms1_1 t) (hs1_1 t) (ms1_2 t) (hs1_2 t) scM1 (Memref.isWhole_whole _)
      ((hcond1_0 t).mpr h0) (fun h => h1 ((hcond1_1 t).mp h)) (iblk1 V c 0 t) (iblk1 V c 1 t) := by
  obtain ⟨n, hn⟩ := t
  cases n with
  | zero => exact rfl
  | succ n => exact (dif_pos h0).trans rfl

/-- `scrAt1` at a middle step. -/
theorem scrAt1_B (c : Dev nD) (t : Fin cfg1.N) (h0 : ¬t.val % K₁ = 0) (h1 : ¬t.val % K₁ = K₁last) :
    scrAt1 V c t.val t.isLt = sout1_B c (grid1.coords t) (ms1_0 t) (hs1_0 t) (ms1_1 t) (hs1_1 t) (ms1_2 t) (hs1_2 t) scM1 (Memref.isWhole_whole _)
      (fun h => h0 ((hcond1_0 t).mp h)) (fun h => h1 ((hcond1_1 t).mp h)) (iblk1 V c 0 t) (iblk1 V c 1 t) (scrBefore1 V c t) := by
  obtain ⟨n, hn⟩ := t
  cases n with
  | zero => exact absurd (Nat.zero_mod _) h0
  | succ n => exact (dif_neg h0).trans ((dif_neg h1).trans rfl)

/-- `scrAt1` at a last step. -/
theorem scrAt1_C (c : Dev nD) (t : Fin cfg1.N) (h0 : ¬t.val % K₁ = 0) (h1 : t.val % K₁ = K₁last) :
    scrAt1 V c t.val t.isLt = sout1_C c (grid1.coords t) (ms1_0 t) (hs1_0 t) (ms1_1 t) (hs1_1 t) (ms1_2 t) (hs1_2 t) scM1 (Memref.isWhole_whole _)
      (fun h => h0 ((hcond1_0 t).mp h)) ((hcond1_1 t).mpr h1) (iblk1 V c 0 t) (iblk1 V c 1 t) (scrBefore1 V c t) := by
  obtain ⟨n, hn⟩ := t
  cases n with
  | zero => exact absurd (Nat.zero_mod _) h0
  | succ n => exact (dif_neg h0).trans ((dif_pos h1).trans rfl)

/-- What the output block's staging buffer holds after the body at point `t`: at a last step what that case leaves,
    from the accumulator as the point before left it; elsewhere the window is idle and this is a value nothing consults. -/
def outAt1 (c : Dev nD) (t : Fin cfg1.N) : Vec F S2000x220 .f32 :=
  if h1 : t.val % K₁ = K₁last then
    out1_C c (grid1.coords t) (ms1_0 t) (hs1_0 t) (ms1_1 t) (hs1_1 t) (ms1_2 t) (hs1_2 t) scM1 (Memref.isWhole_whole _)
      (fun h => absurd ((hcond1_0 t).mp h) (by omega)) ((hcond1_1 t).mpr h1) (iblk1 V c 0 t) (iblk1 V c 1 t) (scrBefore1 V c t)
  else VO1_2.read (Elt F) VO1_2.junk

theorem outAt1_C (c : Dev nD) (t : Fin cfg1.N) (h0 : ¬t.val % K₁ = 0) (h1 : t.val % K₁ = K₁last) :
    outAt1 V c t = out1_C c (grid1.coords t) (ms1_0 t) (hs1_0 t) (ms1_1 t) (hs1_1 t) (ms1_2 t) (hs1_2 t) scM1 (Memref.isWhole_whole _)
      (fun h => h0 ((hcond1_0 t).mp h)) ((hcond1_1 t).mpr h1) (iblk1 V c 0 t) (iblk1 V c 1 t) (scrBefore1 V c t) :=
  (dif_pos h1).trans rfl

/-! ## The region's invariant -/

/-- Every scoped buffer of the core that is neither a staging buffer of this call nor its accumulator, at some
    contents each: carried through the region unopened. -/
abbrev rest1 (c : Dev nD) : sProp 𝕄 :=
  Pipeline.scopedRestBut (Ix := Unit) (Name := ℕ) (U := UR sig nD τ) (Lvl := ℕ) (Val := Elt F) spec1 c [cc1_scratch0]

/-- The call's scoped rest, with the accumulator as a whole memref owned at some contents. -/
theorem scopedRest1_eq (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ rest1 (F := F) c) := by
  rw [scopedRest1_split]; simp only [scM1, owns_whole]; try rfl

/-- The invariant before position `n`: before the first point the generator register at some state and the call's
    scoped rest (the accumulator at anything); afterwards the accumulator at what the point before left, the other
    scoped buffers at anything, the generator register at some state. -/
def PhiS1 (c : Dev nD) : (n : ℕ) → n ≤ cfg1.N → sProp 𝕄
  | 0, _ => iprop((∃ r, prngReg c r) ∗ Pipeline.scopedRest (Ix := Unit) (Name := ℕ) (U := UR sig nD τ) (Lvl := ℕ) (Val := Elt F) spec1 c)
  | n + 1, hn => iprop(owns (c : Thread nD τ) scM1 fullShare (scrAt1 V c n hn) ∗ rest1 (F := F) c ∗ (∃ r, prngReg c r))

theorem PhiS1_zero (c : Dev nD) (n : ℕ) (h : n ≤ cfg1.N) (hz : n = 0) :
    PhiS1 V c n h = iprop((∃ r, prngReg c r) ∗ Pipeline.scopedRest (Ix := Unit) (Name := ℕ) (U := UR sig nD τ) (Lvl := ℕ) (Val := Elt F) spec1 c) := by
  subst hz; rfl

theorem PhiS1_succ (c : Dev nD) (n : ℕ) (hn : n < cfg1.N) :
    PhiS1 V c (n + 1) hn = iprop(owns (c : Thread nD τ) scM1 fullShare (scrAt1 V c n hn) ∗ rest1 (F := F) c ∗ (∃ r, prngReg c r)) := rfl

theorem PhiS1_pos (c : Dev nD) (n : ℕ) (h : n ≤ cfg1.N) (hz : n ≠ 0) :
    PhiS1 V c n h = iprop(owns (c : Thread nD τ) scM1 fullShare (scrAt1 V c (n - 1) (by omega)) ∗ rest1 (F := F) c ∗ (∃ r, prngReg c r)) := by
  cases n with
  | zero => exact absurd rfl hz
  | succ n => rfl

/-- At any position the invariant yields the accumulator at SOME contents beside the rest: what a first step needs,
    and what the region gives back. -/
theorem PhiS1_any (c : Dev nD) (n : ℕ) (h : n ≤ cfg1.N) :
    PhiS1 V c n h ⊢ iprop((∃ d, owns (c : Thread nD τ) scM1 fullShare d) ∗ rest1 (F := F) c ∗ (∃ r, prngReg c r)) := by
  cases n with
  | zero =>
    rw [PhiS1_zero V c 0 h rfl, scopedRest1_eq]
    iintro ⟨Hg, HS, HR⟩
    isplitl [HS]; · iexact HS
    isplitl [HR]; · iexact HR
    iexact Hg
  | succ n =>
    rw [PhiS1_succ]
    iintro ⟨HS, HR, Hg⟩
    isplitl [HS]; · iexists _; iexact HS
    isplitl [HR]; · iexact HR
    iexact Hg

/-! ## The pipeline's proof data -/

/-- The proof data of pipeline 1 on core `c`: the arrays as the region finds them; after the body at point `t` each
    operand's buffer at its block and the output's at `outAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]

/-- Each operand's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point.  The operands' memrefs hold their blocks; the closed forms say which step the point is;
    the invariant hands the body the accumulator — at anything at a first step, at what the point before left
    otherwise — and takes it back at this point's contents, since the step's pieces cover it; where the step is not
    the last the output's buffer goes through untouched, at the last its pieces cover it; the core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [PhiS1_castSucc V c t]
  by_cases h0 : t.val % K₁ = 0
  · have h1 : ¬t.val % K₁ = K₁last := by omega
    rw [Dat.leavesExact_idle (dat1 V c) 2 t (idleAt1_2 t (fun h => h1 ((hcond1_1 t).mp h))) (noFlush1_2 t (fun h => h1 ((hcond1_1 t).mp h)))]
    rw [scrAt1_A V c t h0 h1]
    unfold sout1_A
    iintro ⟨HΦ, Ho, ⟨%d0, H0⟩, ⟨%d1, H1⟩, ⟨%d2, H2⟩⟩
    ihave HΦ' := (PhiS1_any V c t.val (Nat.le_of_lt t.isLt)) $$ HΦ
    icases HΦ' with ⟨HS, HR, Hg⟩
    iapply ((run1_A c (grid1.coords t) _ _ _ _ _ _ _ _ ((hcond1_0 t).mpr h0) (fun h => h1 ((hcond1_1 t).mp h)) (iblk1 V c 0 t) (iblk1 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS HR Hg]
    · isplitl [HS]
      · unfold owns; iexists _; isplitr
        swap; · iexact HS
        ipureintro; exact View.read_writes_of_cover _ _ _ _ _ (scover1_A c _ _ _ _ _ _ _ _ _ _ _ _ _)
      isplitl [HR]; · iexact HR
      iexact Hg
    isplitl [Ho]; · iexact Ho
    isplitl [H0]; · iexact H0
    isplitl [H1]; · iexact H1
    iexists _; iexact H2
  · have hz : t.val ≠ 0 := fun e => h0 (by rw [e])
    rw [PhiS1_pos V c _ _ hz]
    by_cases h1 : t.val % K₁ = K₁last
    · rw [show (dat1 V c).leavesExact 2 t = owns (c : Thread nD τ) (ms1_2 t) fullShare ((dat1 V c).after 2 t) from by
        unfold Dat.leavesExact; rw [liveAt1_2 t ((hcond1_1 t).mpr h1)], after1_2]
      rw [scrAt1_C V c t h0 h1, outAt1_C V c t h0 h1]
      unfold sout1_C out1_C
      iintro ⟨⟨HS, HR, Hg⟩, Ho, ⟨%d0, H0⟩, ⟨%d1, H1⟩, ⟨%d2, H2⟩⟩
      iapply ((run1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS]
        · unfold owns; iexists _; isplitr
          swap; · iexact HS
          ipureintro; exact View.read_writes_of_cover _ _ _ _ _ (scover1_C c _ _ _ _ _ _ _ _ _ _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [scrAt1_B V c t h0 h1]
      unfold sout1_B
      iintro ⟨⟨HS, HR, Hg⟩, Ho, ⟨%d0, H0⟩, ⟨%d1, H1⟩, ⟨%d2, H2⟩⟩
      iapply ((run1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (scover1_B c _ _ _ _ _ _ _ _ _ _ _ _ _ _)
        isplitl [HR]; · iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the region -/

/-- What the region is entered with — the generator register at some state and the call's scoped rest — is the
    invariant before the first point. -/
theorem hin1 (c : Dev nD) :
    iprop((∃ r, prngReg c r) ∗ Pipeline.scopedRest (Ix := Unit) (Name := ℕ) (U := UR sig nD τ) (Lvl := ℕ) (Val := Elt F) spec1 c)
      ⊢ (dat1 V c).Φ 0 := by
  rw [show (dat1 V c).Φ 0 = PhiS1 V c 0 (Nat.zero_le _) from rfl, PhiS1_zero V c 0 _ rfl]

/-- After the last point the invariant gives the same back: the accumulator's contents are forgotten. -/
theorem hout1 (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val (Nat.le_of_lt_succ (Fin.last cfg1.N).isLt) from rfl, scopedRest1_eq]
  iintro HΦ
  ihave HΦ' := (PhiS1_any V c _ _) $$ HΦ
  icases HΦ' with ⟨HS, HR, Hg⟩
  isplitl [Hg]; · iexact Hg
  isplitl [HS]; · iexact HS
  iexact HR

end Cert.KernelIdeal.Hand

end
-- ==== Proof.Reg2.lean ====
import proofs.«408066_j62380105008311_2_alg».proof.Proof.Gen.KernelIdeal.Launch
import proofs.«408066_j62380105008311_2_alg».proof.Proof.Gen.KernelIdeal.Skeleton
import proofs.«408066_j62380105008311_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 2: bias, relu, and the running column sums, at the entry contents `V`

The grid is one axis of row blocks. At each point the body adds the bias row to the block of rows, clamps at zero,
stores the result to the first output's block, and adds the block's column sums and column sums of squares into
two one-row outputs whose block never moves; at the first point it zeroes those two rows first. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's branch condition -/

/-- The condition of the body's one conditional, from the grid coordinates. -/
abbrev cond2 (i : grid2.Coords) : Prop := (Scalar.cmpi .ne (Scalar.extui (Scalar.cmpi .eq (BitVec.ofNat 32 (i 0).val) 0#32)) 0#32) = 1#1
/-- It holds at the first point only. -/
theorem hcond2 : ∀ t : Fin cfg2.N, cond2 (grid2.coords t) ↔ t.val = 0 :=
  (by decide +kernel : ∀ t : Fin grid2.N, cond2 (grid2.coords t) ↔ t.val = 0)

/-! ## The body's accesses: each is a whole buffer -/

abbrev rBlk2 : Rect S1000x220 := Rect.unit (s := S1000x220) ![0, 0] S1000x220.size inb_S1000x220_S1000x220_0_0
abbrev rRow2 : Rect S1x220 := Rect.unit (s := S1x220) ![0, 0] S1x220.size inb_S1x220_S1x220_0_0

/-- One whole-buffer store covers the block buffer, -/
theorem coverBlk2 (p : rBlk2.shape.Idx → Elt F .f32) (y : S1000x220.Idx) :
    ∃ pc ∈ ([⟨rBlk2, p⟩] : List (View.Piece (Elt F) S1000x220 .f32)), y ∈ pc.1.set :=
  View.cover_of_tiled [⟨rBlk2, p⟩] S1000x220.size (by rfl) y
/-- and the row buffer. -/
theorem coverRow2 (p : rRow2.shape.Idx → Elt F .f32) (y : S1x220.Idx) :
    ∃ pc ∈ ([⟨rRow2, p⟩] : List (View.Piece (Elt F) S1x220 .f32)), y ∈ pc.1.set :=
  View.cover_of_tiled [⟨rRow2, p⟩] S1x220.size (by rfl) y

/-- Every index of the row buffer lies in the whole-buffer rectangle (read off the cover by one piece). -/
theorem memRow2 (p : rRow2.shape.Idx → Elt F .f32) (y : S1x220.Idx) : y ∈ rRow2.set := by
  obtain ⟨pc, hm, hy⟩ := coverRow2 p y
  rw [List.mem_singleton] at hm; subst hm; exact hy

/-- A store over the whole row buffer hides every earlier store. -/
theorem canon_row2 (p : rRow2.shape.Idx → Elt F .f32) (L : List (View.Piece (Elt F) S1x220 .f32)) :
    View.canon (⟨rRow2, p⟩ :: L) = View.canon [⟨rRow2, p⟩] := by
  funext y
  obtain ⟨x, rfl⟩ : ∃ x, rRow2.emb x = y := rRow2.exists_idx_of_mem (memRow2 p y)
  rw [View.canon_cons_emb, View.canon_cons_emb]

/-! ## What the body leaves in each output window's buffer -/

/-- The first output's buffer after the body: the clamped sum of the row block and the bias row. -/
def out2_2 (x0 : Vec F S1000x220 .f32) (x1 : Vec F S1x220 .f32) : Vec F S1000x220 .f32 :=
  View.canon [⟨rBlk2, k2_pay3 (View.ld x0 rBlk2) (View.ld x1 rRow2)⟩]

/-- The column-sum row as the first point's reset leaves it, -/
def zero2_3 : Vec F S1x220 .f32 := View.canon [⟨rRow2, k2_pay1 (F := F)⟩]
/-- and the column-sum-of-squares row. -/
def zero2_4 : Vec F S1x220 .f32 := View.canon [⟨rRow2, k2_pay2 (F := F)⟩]

/-- The column-sum row after a point's update, from the row it held before (`a`), -/
def step2_3 (x0 : Vec F S1000x220 .f32) (x1 : Vec F S1x220 .f32) (a : Vec F S1x220 .f32) : Vec F S1x220 .f32 :=
  View.canon [⟨rRow2, k2_pay4 (View.ld x0 rBlk2) (View.ld x1 rRow2) (View.ld a rRow2)⟩]
/-- and the column-sum-of-squares row. -/
def step2_4 (x0 : Vec F S1000x220 .f32) (x1 : Vec F S1x220 .f32) (a : Vec F S1x220 .f32) : Vec F S1x220 .f32 :=
  View.canon [⟨rRow2, k2_pay5 (View.ld x0 rBlk2) (View.ld x1 rRow2) (View.ld a rRow2)⟩]

/-! ## The body's triple, at the first point and at a later one -/

set_option maxHeartbeats 1000000 in
/-- At the first point (the conditional taken): on whole staging memrefs, the inputs' at read contents and the
    outputs' at anything, the body runs to the continuation holding the inputs' as they were, the first output's at
    the clamped sum, and the two rows at one update of the reset rows. -/
theorem sound_kernel2_A (c : Dev nD) (E : Set ℕ) (i : grid2.Coords)
    (arg1 : Memref sig .tc .vmem S1000x220 .f32) (harg1 : arg1.IsWhole) (arg2 : Memref sig .tc .vmem S1x220 .f32) (harg2 : arg2.IsWhole)
    (arg3 : Memref sig .tc .vmem S1000x220 .f32) (harg3 : arg3.IsWhole) (arg4 : Memref sig .tc .vmem S1x220 .f32) (harg4 : arg4.IsWhole)
    (arg5 : Memref sig .tc .vmem S1x220 .f32) (harg5 : arg5.IsWhole) (hc : cond2 i)
    (x0 : Vec F S1000x220 .f32) (x1 : Vec F S1x220 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out2_2 x0 x1)
            ∗ owns (c : Thread nD τ) arg4 fullShare (step2_3 x0 x1 zero2_3)
            ∗ owns (c : Thread nD τ) arg5 fullShare (step2_4 x0 x1 zero2_4)) -∗ K ⟨⟩))
      ⊢ wp frame (wpE (defs₀ (F := F)) Variants.none c none) E (cc2__bias_relu_stats_kernel i arg1 harg1 arg2 harg2 arg3 harg3 arg4 harg4 arg5 harg5) K := by
  simp only [cc2__bias_relu_stats_kernel_eq_skeleton]; unfold cc2__bias_relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverBlk2 _)
  isplitl [H3]
  · iexists _; isplitr
    swap; · iexact H3
    ipureintro
    sl_unfold_run_names
    refine (View.read_writes_eq_canon _ _ _ (fun y => ⟨_, List.Mem.head _, memRow2 (k2_pay1 (F := F)) y⟩)).trans ?_
    rw [canon_row2, View.readCov_eq_canon_ld _ _ _ (coverRow2 _)]
    rfl
  iexists _; isplitr
  swap; · iexact H4
  ipureintro
  sl_unfold_run_names
  refine (View.read_writes_eq_canon _ _ _ (fun y => ⟨_, List.Mem.head _, memRow2 (k2_pay2 (F := F)) y⟩)).trans ?_
  rw [canon_row2, View.readCov_eq_canon_ld _ _ _ (coverRow2 _)]
  rfl

set_option maxHeartbeats 1000000 in
/-- At a later point (the conditional not taken): the same, the two rows held at `a3`, `a4` on entry and at one
    update of those on exit. -/
theorem sound_kernel2_B (c : Dev nD) (E : Set ℕ) (i : grid2.Coords)
    (arg1 : Memref sig .tc .vmem S1000x220 .f32) (harg1 : arg1.IsWhole) (arg2 : Memref sig .tc .vmem S1x220 .f32) (harg2 : arg2.IsWhole)
    (arg3 : Memref sig .tc .vmem S1000x220 .f32) (harg3 : arg3.IsWhole) (arg4 : Memref sig .tc .vmem S1x220 .f32) (harg4 : arg4.IsWhole)
    (arg5 : Memref sig .tc .vmem S1x220 .f32) (harg5 : arg5.IsWhole) (hc : ¬cond2 i)
    (x0 : Vec F S1000x220 .f32) (x1 : Vec F S1x220 .f32) (a3 a4 : Vec F S1x220 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare a3 ∗ owns (c : Thread nD τ) arg5 fullShare a4
        ∗ (iprop(owns (c : Thread nD τ) arg1 fullShare x0 ∗ owns (c : Thread nD τ) arg2 fullShare x1
            ∗ owns (c : Thread nD τ) arg3 fullShare (out2_2 x0 x1)
            ∗ owns (c : Thread nD τ) arg4 fullShare (step2_3 x0 x1 a3)
            ∗ owns (c : Thread nD τ) arg5 fullShare (step2_4 x0 x1 a4)) -∗ K ⟨⟩))
      ⊢ wp frame (wpE (defs₀ (F := F)) Variants.none c none) E (cc2__bias_relu_stats_kernel i arg1 harg1 arg2 harg2 arg3 harg3 arg4 harg4 arg5 harg5) K := by
  simp only [cc2__bias_relu_stats_kernel_eq_skeleton]; unfold cc2__bias_relu_stats_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  subst hf0; subst hf1; subst hf3; subst hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverBlk2 _)
  isplitl [H3]
  · iexists _; isplitr
    swap; · iexact H3
    ipureintro
    exact View.read_writes_eq_canon _ _ _ (coverRow2 _)
  iexists _; isplitr
  swap; · iexact H4
  ipureintro
  exact View.read_writes_eq_canon _ _ _ (coverRow2 _)

/-! ## What the two running rows hold after each point -/

/-- The column-sum row after the body at position `n`: one update per point, from the reset row. -/
def acc2_3 (c : Dev nD) : (n : ℕ) → n < cfg2.N → Vec F S1x220 .f32
  | 0, hn => step2_3 (iblk2 V c 0 ⟨0, hn⟩) (iblk2 V c 1 ⟨0, hn⟩) zero2_3
  | n + 1, hn => step2_3 (iblk2 V c 0 ⟨n + 1, hn⟩) (iblk2 V c 1 ⟨n + 1, hn⟩) (acc2_3 c n (Nat.lt_of_succ_lt hn))

/-- The column-sum-of-squares row after the body at position `n`. -/
def acc2_4 (c : Dev nD) : (n : ℕ) → n < cfg2.N → Vec F S1x220 .f32
  | 0, hn => step2_4 (iblk2 V c 0 ⟨0, hn⟩) (iblk2 V c 1 ⟨0, hn⟩) zero2_4
  | n + 1, hn => step2_4 (iblk2 V c 0 ⟨n + 1, hn⟩) (iblk2 V c 1 ⟨n + 1, hn⟩) (acc2_4 c n (Nat.lt_of_succ_lt hn))

/-- At the first point: one update of the reset row. -/
theorem acc2_3_first (c : Dev nD) (t : Fin cfg2.N) (h0 : t.val = 0) :
    acc2_3 V c t.val t.isLt = step2_3 (iblk2 V c 0 t) (iblk2 V c 1 t) zero2_3 := by
  obtain ⟨n, hn⟩ := t
  cases n with
  | zero => exact rfl
  | succ n => exact absurd h0 (Nat.succ_ne_zero n)
theorem acc2_4_first (c : Dev nD) (t : Fin cfg2.N) (h0 : t.val = 0) :
    acc2_4 V c t.val t.isLt = step2_4 (iblk2 V c 0 t) (iblk2 V c 1 t) zero2_4 := by
  obtain ⟨n, hn⟩ := t
  cases n with
  | zero => exact rfl
  | succ n => exact absurd h0 (Nat.succ_ne_zero n)

/-- At a later point: one update of what the point before left. -/
theorem acc2_3_later (c : Dev nD) (t : Fin cfg2.N) (h0 : ¬t.val = 0) :
    acc2_3 V c t.val t.isLt = step2_3 (iblk2 V c 0 t) (iblk2 V c 1 t) (acc2_3 V c (t.val - 1) (Nat.lt_of_le_of_lt (Nat.sub_le _ _) t.isLt)) := by
  obtain ⟨n, hn⟩ := t
  cases n with
  | zero => exact absurd rfl h0
  | succ n => exact rfl
theorem acc2_4_later (c : Dev nD) (t : Fin cfg2.N) (h0 : ¬t.val = 0) :
    acc2_4 V c t.val t.isLt = step2_4 (iblk2 V c 0 t) (iblk2 V c 1 t) (acc2_4 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of pipeline 2 on core `c`: the arrays as the region finds them; after the body at point `t` each
    input's buffer at its block, the first output's at the clamped sum of the input blocks, the two rows at their
    running contents; the invariant is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => acc2_3 V c t.val t.isLt
    | ⟨4, _⟩ => acc2_4 V c t.val t.isLt
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = acc2_3 V c t.val t.isLt := by dsimp only [dat2]
theorem after2_4 (c : Dev nD) (t : Fin cfg2.N) : (dat2 V c).after 4 t = acc2_4 V c t.val t.isLt := by dsimp only [dat2]

/-- Each input's current staging buffer holds its block at every point, fetched there or not: unfetched, the block
    index has not moved and the body left the block in place. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- At a later point each running row's staging buffer holds what the body left at the point before: the buffer is
    written back after the last point only, the window is live and uncut. -/
theorem before2_3_later (c : Dev nD) (t : Fin cfg2.N) (h0 : ¬t.val = 0) (d) :
    (dat2 V c).before 3 t d = acc2_3 V c (t.val - 1) (Nat.lt_of_le_of_lt (Nat.sub_le _ _) t.isLt) := by
  have hN : t.val < _ := lt_of_lt_of_eq t.isLt (N_2 : cfg2.N = _)
  rw [Dat.before_out_kept _ 3 rfl t h0 (Bool.eq_false_iff.mpr fun h => by have := (flush2_3 _).mp h; dsimp only at this; omega)
    (fun _ => rfl) (fun _ _ => rfl)]
  dsimp only [dat2]
theorem before2_4_later (c : Dev nD) (t : Fin cfg2.N) (h0 : ¬t.val = 0) (d) :
    (dat2 V c).before 4 t d = acc2_4 V c (t.val - 1) (Nat.lt_of_le_of_lt (Nat.sub_le _ _) t.isLt) := by
  have hN : t.val < _ := lt_of_lt_of_eq t.isLt (N_2 : cfg2.N = _)
  rw [Dat.before_out_kept _ 4 rfl t h0 (Bool.eq_false_iff.mpr fun h => by have := (flush2_4 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 800000 in
/-- The body at any point: the inputs' memrefs hold their blocks; the point is the first or a later one; at a later
    one each running row holds what the point before left; so the matching triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3, after2_4]
  by_cases h0 : t.val = 0
  · rw [acc2_3_first V c t h0, acc2_4_first V c t h0]
    iintro ⟨HΦ, Ho, ⟨%d0, H0⟩, ⟨%d1, H1⟩, ⟨%d2, H2⟩, ⟨%d3, H3⟩, ⟨%d4, H4⟩⟩
    iapply (sound_kernel2_A c Set.univ (grid2.coords t) _ _ _ _ _ _ _ _ _ _ ((hcond2 t).mpr h0) (iblk2 V c 0 t) (iblk2 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc2_3_later V c t h0, acc2_4_later V c t h0]
    simp only [before2_3_later V c t h0, before2_4_later V c t h0]
    iintro ⟨HΦ, Ho, ⟨%d0, H0⟩, ⟨%d1, H1⟩, ⟨%d2, H2⟩, ⟨%d3, H3⟩, ⟨%d4, H4⟩⟩
    iapply (sound_kernel2_B c Set.univ (grid2.coords t) _ _ _ _ _ _ _ _ _ _ (fun h => h0 ((hcond2 t).mp h)) (iblk2 V c 0 t) (iblk2 V c 1 t) _ _ _)
    isplitl [H0]; · iexact H0
    isplitl [H1]; · iexact H1
    isplitl [H2]; · iexists _; iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's ends -/

/-- Entering: the generator register and the scoped rest make the invariant at the first position. -/
theorem hin2 (c : Dev nD) :
    iprop((∃ r, prngReg c r) ∗ Pipeline.scopedRest (Ix := Unit) (Name := ℕ) (U := UR sig nD τ) (Lvl := ℕ) (Val := Elt F) spec2 c)
      ⊢ (dat2 V c).Φ 0 := by
  rw [show (dat2 V c).Φ 0 = Pipeline.ΦA spec2 c from rfl]; unfold Pipeline.ΦA
  iintro ⟨Hp, Hr⟩
  isplitl [Hr]; · iexact Hr
  iexact Hp

/-- Leaving: the invariant at the last position gives both back. -/
theorem hout2 (c : Dev nD) :
    (dat2 V c).Φ (Fin.last cfg2.N)
      ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = Pipeline.ΦA spec2 c from rfl]; unfold Pipeline.ΦA
  iintro ⟨Hr, Hp⟩
  isplitl [Hp]; · iexact Hp
  iexact Hr

end Cert.KernelIdeal.Hand

end
-- ==== Proof.Reg3.lean ====
import proofs.«408066_j62380105008311_2_alg».proof.Proof.Gen.KernelIdeal.Launch
import proofs.«408066_j62380105008311_2_alg».proof.Proof.Gen.KernelIdeal.Skeleton
import proofs.«408066_j62380105008311_2_alg».proof.Proof.Gen.KernelIdeal.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

/-! # Region 3: the normalise-then-multiply kernel, as a pipeline region entered at arbitrary contents

The kernel reads one row block of the activations, four feature rows (mean, variance, scale, shift) and the
weight matrix, and stores one row block of the product. Every access is a whole-buffer load or store, so the
region is of the simplest class: each input's staging buffer holds its block at every point, and the output's
buffer after the body is the single store's payload. Everything is stated at a parameter `V`, the TensorCore's
buffer contents when the region is entered, and at any float family. -/

-- membership in a rectangle of full extent recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place: where the window is not fetched its block
    index has not moved, so the block kept from the previous point is this point's. Window 0 (the activations). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Window 1 (the mean row). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Window 2 (the variance row). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Window 3 (the scale row). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Window 4 (the shift row). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Window 5 (the weight matrix). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each a whole buffer -/

abbrev r3_0 : Rect S1000x220 := Rect.unit (s := S1000x220) ![0, 0] S1000x220.size inb_S1000x220_S1000x220_0_0
abbrev r3_1 : Rect S1x220 := Rect.unit (s := S1x220) ![0, 0] S1x220.size inb_S1x220_S1x220_0_0
abbrev r3_5 : Rect S220x150 := Rect.unit (s := S220x150) ![0, 0] S220x150.size inb_S220x150_S220x150_0_0
abbrev r3_6 : Rect S1000x150 := Rect.unit (s := S1000x150) ![0, 0] S1000x150.size inb_S1000x150_S1000x150_0_0

/-! ## What the body leaves in the output window's buffer -/

/-- Window 6's staging buffer after the body, from the input windows' blocks (activations, mean, variance, scale,
    shift, weights, in window order): its one store as a piece. The payload takes the variance row before the
    mean row, as the kernel loads them. -/
def out3_6 (x0 : Vec F S1000x220 .f32) (x1 x2 x3 x4 : Vec F S1x220 .f32) (x5 : Vec F S220x150 .f32) : Vec F S1000x150 .f32 :=
  View.canon [⟨r3_6, k3_pay1 (View.ld x0 r3_0) (View.ld x2 r3_1) (View.ld x1 r3_1) (View.ld x3 r3_1) (View.ld x4 r3_1) (View.ld x5 r3_5)⟩]

/-- The store tiles the buffer (by evaluation), so it covers it. -/
theorem cover3_6 (p0 : Vec F S1000x150 .f32) (y : S1000x150.Idx) :
    ∃ pc ∈ ([⟨r3_6, p0⟩] : List (View.Piece (Elt F) S1000x150 .f32)), y ∈ pc.1.set :=
  View.cover_of_tiled [⟨r3_6, p0⟩] S1000x150.size (by rfl) y

/-! ## The body's triple -/

set_option maxHeartbeats 1000000 in
/-- The kernel body on whole staging memrefs, the inputs' at read contents `xW` and the output's at anything, runs
    to the continuation holding the inputs' as they were and the output's at `out3_6` of the inputs'. The grid
    coordinate is not read. -/
theorem sound_kernel3 (c : Dev nD) (E : Set ℕ) (i : grid3.Coords)
    (arg1 : Memref sig .tc .vmem S1000x220 .f32) (harg1 : arg1.IsWhole) (arg2 : Memref sig .tc .vmem S1x220 .f32) (harg2 : arg2.IsWhole)
    (arg3 : Memref sig .tc .vmem S1x220 .f32) (harg3 : arg3.IsWhole) (arg4 : Memref sig .tc .vmem S1x220 .f32) (harg4 : arg4.IsWhole)
    (arg5 : Memref sig .tc .vmem S1x220 .f32) (harg5 : arg5.IsWhole) (arg6 : Memref sig .tc .vmem S220x150 .f32) (harg6 : arg6.IsWhole)
    (arg7 : Memref sig .tc .vmem S1000x150 .f32) (harg7 : arg7.IsWhole)
    (x0 : Vec F S1000x220 .f32) (x1 x2 x3 x4 : Vec F S1x220 .f32) (x5 : Vec F S220x150 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E
          (cc3__normalize_linear_kernel i arg1 harg1 arg2 harg2 arg3 harg3 arg4 harg4 arg5 harg5 arg6 harg6 arg7 harg7) K := by
  simp only [cc3__normalize_linear_kernel_eq_skeleton]; unfold cc3__normalize_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of pipeline 3 on core `c`: the arrays as the region finds them; after the body at point `t` each
    input's buffer at its block and the output's at `out3_6` of the input blocks; as invariant the scoped buffers no
    window stages and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t
    = out3_6 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so the body's triple applies; the invariant and
    the core's tallies pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _
    (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends -/

/-- The invariant at the first point, from the generator register and the scoped buffers no window stages. -/
theorem hin3 (c : Dev nD) :
    iprop((∃ r, prngReg c r) ∗ Pipeline.scopedRest (Ix := Unit) (Name := ℕ) (U := UR sig nD τ) (Lvl := ℕ) (Val := Elt F) spec3 c)
      ⊢ (dat3 V c).Φ 0 := by
  rw [show (dat3 V c).Φ 0 = Pipeline.ΦA spec3 c from rfl]; unfold Pipeline.ΦA
  iintro ⟨Hp, Hr⟩
  isplitl [Hr]; · iexact Hr
  iexact Hp

/-- The invariant at the last point gives both back. -/
theorem hout3 (c : Dev nD) :
    (dat3 V c).Φ (Fin.last cfg3.N)
      ⊢ iprop((∃ r, prngReg c r) ∗ Pipeline.scopedRest (Ix := Unit) (Name := ℕ) (U := UR sig nD τ) (Lvl := ℕ) (Val := Elt F) spec3 c) := by
  rw [show (dat3 V c).Φ (Fin.last cfg3.N) = Pipeline.ΦA spec3 c from rfl]; unfold Pipeline.ΦA
  iintro ⟨Hr, Hp⟩
  isplitl [Hp]; · iexact Hp
  iexact Hr

end Cert.KernelIdeal.Hand

end
-- ==== Proof.Reg4.lean ====
import proofs.«408066_j62380105008311_2_alg».proof.Proof.Gen.KernelIdeal.Launch
import proofs.«408066_j62380105008311_2_alg».proof.Proof.Gen.KernelIdeal.Skeleton
import proofs.«408066_j62380105008311_2_alg».proof.Proof.Gen.KernelIdeal.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

/-! # Region 4: a blocked matrix product accumulated in a scratch buffer

The grid is two-dimensional; along its second axis the body adds one block product into a scratch
accumulator, which it clears at the first step and copies to the output block at the last one.  This
file states, at any float family and at any entry contents `V` of the TensorCore's buffers, what the
accumulator holds after each grid point and proves the body's triple at every point. -/

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of accumulation steps (the extent of the grid's second axis) and the index of the last one:
    the only numerals of this file. -/
local notation "K₄" => 10
local notation "K₄last" => 9

/-! ## The body's two conditions, in closed form over the grid -/

/-- "This is the first accumulation step": the condition under which the body clears the accumulator. -/
abbrev cond4_0 (i : grid4.Coords) : Prop :=
  (Scalar.cmpi .ne (Scalar.extui (Scalar.cmpi .eq (BitVec.ofNat 32 (i 1).val) 0#32)) 0#32) = 1#1
/-- It holds exactly at the points whose position is a multiple of the number of steps. -/
theorem hcond4_0 : ∀ t : Fin cfg4.N, cond4_0 (grid4.coords t) ↔ t.val % K₄ = 0 :=
  (by decide +kernel : ∀ t : Fin grid4.N, cond4_0 (grid4.coords t) ↔ t.val % K₄ = 0)

/-- "This is the last accumulation step": the condition under which the body copies the accumulator out. -/
abbrev cond4_1 (i : grid4.Coords) : Prop := k4_cond2 i = 1#1
/-- It holds exactly at the points whose position is one short of a multiple of the number of steps. -/
theorem hcond4_1 : ∀ t : Fin cfg4.N, cond4_1 (grid4.coords t) ↔ t.val % K₄ = K₄last :=
  (by decide +kernel : ∀ t : Fin grid4.N, cond4_1 (grid4.coords t) ↔ t.val % K₄ = K₄last)

/-! ## Where the windows are idle -/

/-- The two operand windows are live at every point. -/
theorem liveAt4_0 : ∀ t : Fin cfg4.N, cfg4.idle 0 (grid4.coords t) = false := fun _ => rfl
theorem liveAt4_1 : ∀ t : Fin cfg4.N, cfg4.idle 1 (grid4.coords t) = false := fun _ => rfl
/-- The output window is idle, and not written back, wherever the step is not the last; -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
/-- and live at the last step. -/
theorem liveAt4_2 : ∀ t : Fin cfg4.N, cond4_1 (grid4.coords t) → cfg4.idle 2 (grid4.coords t) = false := by decide +kernel

/-! ## The memrefs the body is called with -/

/-- Each window's current staging memref at point `t`, and its wholeness. -/
abbrev ms4_0 (t : Fin cfg4.N) : Memref sig .tc .vmem S2000x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x150 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2000x150 .f32 := win4_2.stage (cfg4.slots t 2)
abbrev hs4_2 (t : Fin cfg4.N) : (ms4_2 t).IsWhole := hstage4_2 ((cfg4.slots t 2).cast nbuf4_2)
/-- The accumulator: a whole scoped buffer of the call's own. -/
abbrev scM4 : Memref sig .tc .vmem S2000x150 .f32 := Memref.whole cc4_scratch0
/-- The views through which the accumulator's and the output block's contents are stated. -/
abbrev VS4 : View sig .tc .vmem S2000x150 .f32 := scM4.view
abbrev VO4_2 : View sig .tc .vmem S2000x150 .f32 := (Memref.whole cc4_stg2_0 : Memref sig .tc .vmem S2000x150 .f32).view

/-! ## The body on any whole memrefs, case by case

Three cases of the two conditions occur on the grid: the first step (clear, then accumulate), a middle step
(accumulate), the last step (accumulate, then copy out).  In each the body's stores leave lists of pieces in
the accumulator (and, at the last step, in the output block); the run finds them. -/

set_option maxHeartbeats 1000000 in
/-- FIRST STEP.  The operands' memrefs at their contents, the output's at contents handed back untouched, the
    accumulator at anything: the body runs to the continuation holding the accumulator with its pieces written. -/
noncomputable def run4_A (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : cond4_0 i) (hc1 : ¬cond4_1 i) (x0 : Vec F S2000x1024 .bf16) (x1 : Vec F S1024x150 .f32) :
    { LS : List (View.Piece (Elt F) S2000x150 .f32) //
      ∀ (xi2 : Vec F S2000x150 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc4__spmm_kernel i arg2 harg2 arg3 harg3 arg4 harg4 arg5 harg5) K } := by
  refine ⟨?_, fun xi2 E K => ?run⟩
  case run =>
    simp only [cc4__spmm_kernel_eq_skeleton]; unfold cc4__spmm_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A MIDDLE STEP.  As the first, but the accumulator at the contents `xs` the step before left. -/
noncomputable def run4_B (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : ¬cond4_0 i) (hc1 : ¬cond4_1 i) (x0 : Vec F S2000x1024 .bf16) (x1 : Vec F S1024x150 .f32) (xs : Vec F S2000x150 .f32) :
    { LS : List (View.Piece (Elt F) S2000x150 .f32) //
      ∀ (xi2 : Vec F S2000x150 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc4__spmm_kernel i arg2 harg2 arg3 harg3 arg4 harg4 arg5 harg5) K } := by
  refine ⟨?_, fun xi2 E K => ?run⟩
  case run =>
    simp only [cc4__spmm_kernel_eq_skeleton]; unfold cc4__spmm_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- THE LAST STEP.  The accumulator at the contents `xs` the step before left, the output's memref at anything:
    the body leaves pieces in both. -/
noncomputable def run4_C (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : ¬cond4_0 i) (hc1 : cond4_1 i) (x0 : Vec F S2000x1024 .bf16) (x1 : Vec F S1024x150 .f32) (xs : Vec F S2000x150 .f32) :
    Σ' (L2 : List (View.Piece (Elt F) S2000x150 .f32)), { LS : List (View.Piece (Elt F) S2000x150 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc4__spmm_kernel i arg2 harg2 arg3 harg3 arg4 harg4 arg5 harg5) K } := by
  refine ⟨?_, ?_, fun E K => ?run⟩
  case run =>
    simp only [cc4__spmm_kernel_eq_skeleton]; unfold cc4__spmm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What each case leaves, read back -/

/-- The first step's pieces cover the accumulator, -/
theorem scover4_A (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : cond4_0 i) (hc1 : ¬cond4_1 i) (x0 : Vec F S2000x1024 .bf16) (x1 : Vec F S1024x150 .f32) (y : S2000x150.Idx) :
    ∃ pc ∈ (run4_A c i arg2 harg2 arg3 harg3 arg4 harg4 arg5 harg5 hc0 hc1 x0 x1).1, y ∈ pc.1.set :=
  View.cover_of_tiledL (run4_A c i arg2 harg2 arg3 harg3 arg4 harg4 arg5 harg5 hc0 hc1 x0 x1).1 S2000x150.size (by sl_kernel_rfl) y

/-- and this is what they leave in it (read back over contents nothing consults). -/
def sout4_A (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : cond4_0 i) (hc1 : ¬cond4_1 i) (x0 : Vec F S2000x1024 .bf16) (x1 : Vec F S1024x150 .f32) : Vec F S2000x150 .f32 :=
  VS4.read (Elt F) (VS4.writes (Elt F) VS4.junk (run4_A c i arg2 harg2 arg3 harg3 arg4 harg4 arg5 harg5 hc0 hc1 x0 x1).1)

/-- A middle step's pieces cover the accumulator; what they leave. -/
theorem scover4_B (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : ¬cond4_0 i) (hc1 : ¬cond4_1 i) (x0 : Vec F S2000x1024 .bf16) (x1 : Vec F S1024x150 .f32) (xs : Vec F S2000x150 .f32) (y : S2000x150.Idx) :
    ∃ pc ∈ (run4_B c i arg2 harg2 arg3 harg3 arg4 harg4 arg5 harg5 hc0 hc1 x0 x1 xs).1, y ∈ pc.1.set :=
  View.cover_of_tiledL (run4_B c i arg2 harg2 arg3 harg3 arg4 harg4 arg5 harg5 hc0 hc1 x0 x1 xs).1 S2000x150.size (by sl_kernel_rfl) y

def sout4_B (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : ¬cond4_0 i) (hc1 : ¬cond4_1 i) (x0 : Vec F S2000x1024 .bf16) (x1 : Vec F S1024x150 .f32) (xs : Vec F S2000x150 .f32) : Vec F S2000x150 .f32 :=
  VS4.read (Elt F) (VS4.writes (Elt F) VS4.junk (run4_B c i arg2 harg2 arg3 harg3 arg4 harg4 arg5 harg5 hc0 hc1 x0 x1 xs).1)

/-- The last step's pieces cover the output block and the accumulator; what they leave in each. -/
theorem cover4_C (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : ¬cond4_0 i) (hc1 : cond4_1 i) (x0 : Vec F S2000x1024 .bf16) (x1 : Vec F S1024x150 .f32) (xs : Vec F S2000x150 .f32) (y : S2000x150.Idx) :
    ∃ pc ∈ (run4_C c i arg2 harg2 arg3 harg3 arg4 harg4 arg5 harg5 hc0 hc1 x0 x1 xs).1, y ∈ pc.1.set :=
  View.cover_of_tiledL (run4_C c i arg2 harg2 arg3 harg3 arg4 harg4 arg5 harg5 hc0 hc1 x0 x1 xs).1 S2000x150.size (by sl_kernel_rfl) y

def out4_C (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : ¬cond4_0 i) (hc1 : cond4_1 i) (x0 : Vec F S2000x1024 .bf16) (x1 : Vec F S1024x150 .f32) (xs : Vec F S2000x150 .f32) : Vec F S2000x150 .f32 :=
  VO4_2.read (Elt F) (VO4_2.writes (Elt F) VO4_2.junk (run4_C c i arg2 harg2 arg3 harg3 arg4 harg4 arg5 harg5 hc0 hc1 x0 x1 xs).1)

theorem scover4_C (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : ¬cond4_0 i) (hc1 : cond4_1 i) (x0 : Vec F S2000x1024 .bf16) (x1 : Vec F S1024x150 .f32) (xs : Vec F S2000x150 .f32) (y : S2000x150.Idx) :
    ∃ pc ∈ (run4_C c i arg2 harg2 arg3 harg3 arg4 harg4 arg5 harg5 hc0 hc1 x0 x1 xs).2.1, y ∈ pc.1.set :=
  View.cover_of_tiledL (run4_C c i arg2 harg2 arg3 harg3 arg4 harg4 arg5 harg5 hc0 hc1 x0 x1 xs).2.1 S2000x150.size (by sl_kernel_rfl) y

def sout4_C (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : ¬cond4_0 i) (hc1 : cond4_1 i) (x0 : Vec F S2000x1024 .bf16) (x1 : Vec F S1024x150 .f32) (xs : Vec F S2000x150 .f32) : Vec F S2000x150 .f32 :=
  VS4.read (Elt F) (VS4.writes (Elt F) VS4.junk (run4_C c i arg2 harg2 arg3 harg3 arg4 harg4 arg5 harg5 hc0 hc1 x0 x1 xs).2.1)

/-! ## The region at the entry contents `V` -/

-- the TensorCore's buffer contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An operand window's current staging buffer holds its block at every point, for any proof data whose array is
    `V`'s and whose body leaves the block in place: the window is uncut and never idle, and where it is not fetched
    its block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The accumulator after each point -/

/-- THE ACCUMULATION.  What the accumulator holds after the body at position `n`: the case the closed forms select
    there, run at the point's memrefs and operand blocks — at a first step from anything, otherwise from what the
    point before left. -/
def scrAt4 (c : Dev nD) : (n : ℕ) → n < cfg4.N → Vec F S2000x150 .f32
  | 0, hn =>
    sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4 (Memref.isWhole_whole _)
      ((hcond4_0 ⟨0, hn⟩).mpr (Nat.zero_mod _)) (fun h => (fun e => by (try dsimp only at e); omega) ((hcond4_1 ⟨0, hn⟩).mp h))
      (iblk4 V c 0 ⟨0, hn⟩) (iblk4 V c 1 ⟨0, hn⟩)
  | n + 1, hn =>
    if h0 : (n + 1) % K₄ = 0 then
      sout4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _)
        ((hcond4_0 ⟨n + 1, hn⟩).mpr h0) (fun h => (fun e => by (try dsimp only at e h0); omega) ((hcond4_1 ⟨n + 1, hn⟩).mp h))
        (iblk4 V c 0 ⟨n + 1, hn⟩) (iblk4 V c 1 ⟨n + 1, hn⟩)
    else if h1 : (n + 1) % K₄ = K₄last then
      sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _)
        (fun h => h0 ((hcond4_0 ⟨n + 1, hn⟩).mp h)) ((hcond4_1 ⟨n + 1, hn⟩).mpr h1)
        (iblk4 V c 0 ⟨n + 1, hn⟩) (iblk4 V c 1 ⟨n + 1, hn⟩) (scrAt4 c n (Nat.lt_of_succ_lt hn))
    else
      sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _)
        (fun h => h0 ((hcond4_0 ⟨n + 1, hn⟩).mp h)) (fun h => h1 ((hcond4_1 ⟨n + 1, hn⟩).mp h))
        (iblk4 V c 0 ⟨n + 1, hn⟩) (iblk4 V c 1 ⟨n + 1, hn⟩) (scrAt4 c n (Nat.lt_of_succ_lt hn))

/-- The accumulator before a point that is not the first of the grid: what the point before left. -/
abbrev scrBefore4 (c : Dev nD) (t : Fin cfg4.N) : Vec F S2000x150 .f32 :=
  scrAt4 V c (t.val - 1) (Nat.lt_of_le_of_lt (Nat.sub_le _ _) t.isLt)

/-- `scrAt4` at a first step. -/
theorem scrAt4_A (c : Dev nD) (t : Fin cfg4.N) (h0 : t.val % K₄ = 0) (h1 : ¬t.val % K₄ = K₄last) :
    scrAt4 V c t.val t.isLt = sout4_A c (grid4.coords t) (ms4_0 t) (hs4_0 t) (ms4_1 t) (hs4_1 t) (ms4_2 t) (hs4_2 t) scM4 (Memref.isWhole_whole _)
      ((hcond4_0 t).mpr h0) (fun h => h1 ((hcond4_1 t).mp h)) (iblk4 V c 0 t) (iblk4 V c 1 t) := by
  obtain ⟨n, hn⟩ := t
  cases n with
  | zero => exact rfl
  | succ n => exact (dif_pos h0).trans rfl

/-- `scrAt4` at a middle step. -/
theorem scrAt4_B (c : Dev nD) (t : Fin cfg4.N) (h0 : ¬t.val % K₄ = 0) (h1 : ¬t.val % K₄ = K₄last) :
    scrAt4 V c t.val t.isLt = sout4_B c (grid4.coords t) (ms4_0 t) (hs4_0 t) (ms4_1 t) (hs4_1 t) (ms4_2 t) (hs4_2 t) scM4 (Memref.isWhole_whole _)
      (fun h => h0 ((hcond4_0 t).mp h)) (fun h => h1 ((hcond4_1 t).mp h)) (iblk4 V c 0 t) (iblk4 V c 1 t) (scrBefore4 V c t) := by
  obtain ⟨n, hn⟩ := t
  cases n with
  | zero => exact absurd (Nat.zero_mod _) h0
  | succ n => exact (dif_neg h0).trans ((dif_neg h1).trans rfl)

/-- `scrAt4` at a last step. -/
theorem scrAt4_C (c : Dev nD) (t : Fin cfg4.N) (h0 : ¬t.val % K₄ = 0) (h1 : t.val % K₄ = K₄last) :
    scrAt4 V c t.val t.isLt = sout4_C c (grid4.coords t) (ms4_0 t) (hs4_0 t) (ms4_1 t) (hs4_1 t) (ms4_2 t) (hs4_2 t) scM4 (Memref.isWhole_whole _)
      (fun h => h0 ((hcond4_0 t).mp h)) ((hcond4_1 t).mpr h1) (iblk4 V c 0 t) (iblk4 V c 1 t) (scrBefore4 V c t) := by
  obtain ⟨n, hn⟩ := t
  cases n with
  | zero => exact absurd (Nat.zero_mod _) h0
  | succ n => exact (dif_neg h0).trans ((dif_pos h1).trans rfl)

/-- What the output block's staging buffer holds after the body at point `t`: at a last step what that case leaves,
    from the accumulator as the point before left it; elsewhere the window is idle and this is a value nothing consults. -/
def outAt4 (c : Dev nD) (t : Fin cfg4.N) : Vec F S2000x150 .f32 :=
  if h1 : t.val % K₄ = K₄last then
    out4_C c (grid4.coords t) (ms4_0 t) (hs4_0 t) (ms4_1 t) (hs4_1 t) (ms4_2 t) (hs4_2 t) scM4 (Memref.isWhole_whole _)
      (fun h => absurd ((hcond4_0 t).mp h) (by omega)) ((hcond4_1 t).mpr h1) (iblk4 V c 0 t) (iblk4 V c 1 t) (scrBefore4 V c t)
  else VO4_2.read (Elt F) VO4_2.junk

theorem outAt4_C (c : Dev nD) (t : Fin cfg4.N) (h0 : ¬t.val % K₄ = 0) (h1 : t.val % K₄ = K₄last) :
    outAt4 V c t = out4_C c (grid4.coords t) (ms4_0 t) (hs4_0 t) (ms4_1 t) (hs4_1 t) (ms4_2 t) (hs4_2 t) scM4 (Memref.isWhole_whole _)
      (fun h => h0 ((hcond4_0 t).mp h)) ((hcond4_1 t).mpr h1) (iblk4 V c 0 t) (iblk4 V c 1 t) (scrBefore4 V c t) :=
  (dif_pos h1).trans rfl

/-! ## The region's invariant -/

/-- Every scoped buffer of the core that is neither a staging buffer of this call nor its accumulator, at some
    contents each: carried through the region unopened. -/
abbrev rest4 (c : Dev nD) : sProp 𝕄 :=
  Pipeline.scopedRestBut (Ix := Unit) (Name := ℕ) (U := UR sig nD τ) (Lvl := ℕ) (Val := Elt F) spec4 c [cc4_scratch0]

/-- The call's scoped rest, with the accumulator as a whole memref owned at some contents. -/
theorem scopedRest4_eq (c : Dev nD) :
    (Pipeline.scopedRest (Ix := Unit) (Name := ℕ) (U := UR sig nD τ) (Lvl := ℕ) (Val := Elt F) spec4 c : sProp 𝕄)
      = iprop((∃ d, owns (c : Thread nD τ) scM4 fullShare d) ∗ rest4 (F := F) c) := by
  rw [scopedRest4_split]; simp only [scM4, owns_whole]; try rfl

/-- The invariant before position `n`: before the first point the generator register at some state and the call's
    scoped rest (the accumulator at anything); afterwards the accumulator at what the point before left, the other
    scoped buffers at anything, the generator register at some state. -/
def PhiS4 (c : Dev nD) : (n : ℕ) → n ≤ cfg4.N → sProp 𝕄
  | 0, _ => iprop((∃ r, prngReg c r) ∗ Pipeline.scopedRest (Ix := Unit) (Name := ℕ) (U := UR sig nD τ) (Lvl := ℕ) (Val := Elt F) spec4 c)
  | n + 1, hn => iprop(owns (c : Thread nD τ) scM4 fullShare (scrAt4 V c n hn) ∗ rest4 (F := F) c ∗ (∃ r, prngReg c r))

theorem PhiS4_zero (c : Dev nD) (n : ℕ) (h : n ≤ cfg4.N) (hz : n = 0) :
    PhiS4 V c n h = iprop((∃ r, prngReg c r) ∗ Pipeline.scopedRest (Ix := Unit) (Name := ℕ) (U := UR sig nD τ) (Lvl := ℕ) (Val := Elt F) spec4 c) := by
  subst hz; rfl

theorem PhiS4_succ (c : Dev nD) (n : ℕ) (hn : n < cfg4.N) :
    PhiS4 V c (n + 1) hn = iprop(owns (c : Thread nD τ) scM4 fullShare (scrAt4 V c n hn) ∗ rest4 (F := F) c ∗ (∃ r, prngReg c r)) := rfl

theorem PhiS4_pos (c : Dev nD) (n : ℕ) (h : n ≤ cfg4.N) (hz : n ≠ 0) :
    PhiS4 V c n h = iprop(owns (c : Thread nD τ) scM4 fullShare (scrAt4 V c (n - 1) (by omega)) ∗ rest4 (F := F) c ∗ (∃ r, prngReg c r)) := by
  cases n with
  | zero => exact absurd rfl hz
  | succ n => rfl

/-- At any position the invariant yields the accumulator at SOME contents beside the rest: what a first step needs,
    and what the region gives back. -/
theorem PhiS4_any (c : Dev nD) (n : ℕ) (h : n ≤ cfg4.N) :
    PhiS4 V c n h ⊢ iprop((∃ d, owns (c : Thread nD τ) scM4 fullShare d) ∗ rest4 (F := F) c ∗ (∃ r, prngReg c r)) := by
  cases n with
  | zero =>
    rw [PhiS4_zero V c 0 h rfl, scopedRest4_eq]
    iintro ⟨Hg, HS, HR⟩
    isplitl [HS]; · iexact HS
    isplitl [HR]; · iexact HR
    iexact Hg
  | succ n =>
    rw [PhiS4_succ]
    iintro ⟨HS, HR, Hg⟩
    isplitl [HS]; · iexists _; iexact HS
    isplitl [HR]; · iexact HR
    iexact Hg

/-! ## The pipeline's proof data -/

/-- The proof data of pipeline 4 on core `c`: the arrays as the region finds them; after the body at point `t` each
    operand's buffer at its block and the output's at `outAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => outAt4 V c t
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = outAt4 V c t := by dsimp only [dat4]

/-- Each operand's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point.  The operands' memrefs hold their blocks; the closed forms say which step the point is;
    the invariant hands the body the accumulator — at anything at a first step, at what the point before left
    otherwise — and takes it back at this point's contents, since the step's pieces cover it; where the step is not
    the last the output's buffer goes through untouched, at the last its pieces cover it; the core owes nothing. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [PhiS4_castSucc V c t]
  by_cases h0 : t.val % K₄ = 0
  · have h1 : ¬t.val % K₄ = K₄last := by omega
    rw [Dat.leavesExact_idle (dat4 V c) 2 t (idleAt4_2 t (fun h => h1 ((hcond4_1 t).mp h))) (noFlush4_2 t (fun h => h1 ((hcond4_1 t).mp h)))]
    rw [scrAt4_A V c t h0 h1]
    unfold sout4_A
    iintro ⟨HΦ, Ho, ⟨%d0, H0⟩, ⟨%d1, H1⟩, ⟨%d2, H2⟩⟩
    ihave HΦ' := (PhiS4_any V c t.val (Nat.le_of_lt t.isLt)) $$ HΦ
    icases HΦ' with ⟨HS, HR, Hg⟩
    iapply ((run4_A c (grid4.coords t) _ _ _ _ _ _ _ _ ((hcond4_0 t).mpr h0) (fun h => h1 ((hcond4_1 t).mp h)) (iblk4 V c 0 t) (iblk4 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS HR Hg]
    · isplitl [HS]
      · unfold owns; iexists _; isplitr
        swap; · iexact HS
        ipureintro; exact View.read_writes_of_cover _ _ _ _ _ (scover4_A c _ _ _ _ _ _ _ _ _ _ _ _ _)
      isplitl [HR]; · iexact HR
      iexact Hg
    isplitl [Ho]; · iexact Ho
    isplitl [H0]; · iexact H0
    isplitl [H1]; · iexact H1
    iexists _; iexact H2
  · have hz : t.val ≠ 0 := fun e => h0 (by rw [e])
    rw [PhiS4_pos V c _ _ hz]
    by_cases h1 : t.val % K₄ = K₄last
    · rw [show (dat4 V c).leavesExact 2 t = owns (c : Thread nD τ) (ms4_2 t) fullShare ((dat4 V c).after 2 t) from by
        unfold Dat.leavesExact; rw [liveAt4_2 t ((hcond4_1 t).mpr h1)], after4_2]
      rw [scrAt4_C V c t h0 h1, outAt4_C V c t h0 h1]
      unfold sout4_C out4_C
      iintro ⟨⟨HS, HR, Hg⟩, Ho, ⟨%d0, H0⟩, ⟨%d1, H1⟩, ⟨%d2, H2⟩⟩
      iapply ((run4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS]
        · unfold owns; iexists _; isplitr
          swap; · iexact HS
          ipureintro; exact View.read_writes_of_cover _ _ _ _ _ (scover4_C c _ _ _ _ _ _ _ _ _ _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C c _ _ _ _ _ _ _ _ _ _ _ _ _ _)
    · rw [Dat.leavesExact_idle (dat4 V c) 2 t (idleAt4_2 t (fun h => h1 ((hcond4_1 t).mp h))) (noFlush4_2 t (fun h => h1 ((hcond4_1 t).mp h)))]
      rw [scrAt4_B V c t h0 h1]
      unfold sout4_B
      iintro ⟨⟨HS, HR, Hg⟩, Ho, ⟨%d0, H0⟩, ⟨%d1, H1⟩, ⟨%d2, H2⟩⟩
      iapply ((run4_B c (grid4.coords t) _ _ _ _ _ _ _ _ (fun h => h0 ((hcond4_0 t).mp h)) (fun h => h1 ((hcond4_1 t).mp h)) (iblk4 V c 0 t) (iblk4 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (scover4_B c _ _ _ _ _ _ _ _ _ _ _ _ _ _)
        isplitl [HR]; · iexact HR
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Entering and leaving the region -/

/-- What the region is entered with — the generator register at some state and the call's scoped rest — is the
    invariant before the first point. -/
theorem hin4 (c : Dev nD) :
    iprop((∃ r, prngReg c r) ∗ Pipeline.scopedRest (Ix := Unit) (Name := ℕ) (U := UR sig nD τ) (Lvl := ℕ) (Val := Elt F) spec4 c)
      ⊢ (dat4 V c).Φ 0 := by
  rw [show (dat4 V c).Φ 0 = PhiS4 V c 0 (Nat.zero_le _) from rfl, PhiS4_zero V c 0 _ rfl]

/-- After the last point the invariant gives the same back: the accumulator's contents are forgotten. -/
theorem hout4 (c : Dev nD) :
    (dat4 V c).Φ (Fin.last cfg4.N)
      ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = PhiS4 V c (Fin.last cfg4.N).val (Nat.le_of_lt_succ (Fin.last cfg4.N).isLt) from rfl, scopedRest4_eq]
  iintro HΦ
  ihave HΦ' := (PhiS4_any V c _ _) $$ HΦ
  icases HΦ' with ⟨HS, HR, Hg⟩
  isplitl [Hg]; · iexact Hg
  isplitl [HS]; · iexact HS
  iexact HR

end Cert.KernelIdeal.Hand

end
-- ==== Proof.Reg5.lean ====
import proofs.«408066_j62380105008311_2_alg».proof.Proof.Gen.KernelIdeal.Launch
import proofs.«408066_j62380105008311_2_alg».proof.Proof.Gen.KernelIdeal.Skeleton
import proofs.«408066_j62380105008311_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 5: bias, relu, and the running column sums, at the entry contents `V`

The grid is one axis of row blocks. At each point the body adds the bias row to the block of rows, clamps at zero,
stores the result to the first output's block, and adds the block's column sums and column sums of squares into
two one-row outputs whose block never moves; at the first point it zeroes those two rows first. -/

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The body's branch condition -/

/-- The condition of the body's one conditional, from the grid coordinates. -/
abbrev cond5 (i : grid5.Coords) : Prop := (Scalar.cmpi .ne (Scalar.extui (Scalar.cmpi .eq (BitVec.ofNat 32 (i 0).val) 0#32)) 0#32) = 1#1
/-- It holds at the first point only. -/
theorem hcond5 : ∀ t : Fin cfg5.N, cond5 (grid5.coords t) ↔ t.val = 0 :=
  (by decide +kernel : ∀ t : Fin grid5.N, cond5 (grid5.coords t) ↔ t.val = 0)

/-! ## The body's accesses: each is a whole buffer -/

abbrev rBlk5 : Rect S1000x150 := Rect.unit (s := S1000x150) ![0, 0] S1000x150.size inb_S1000x150_S1000x150_0_0
abbrev rRow5 : Rect S1x150 := Rect.unit (s := S1x150) ![0, 0] S1x150.size inb_S1x150_S1x150_0_0

/-- One whole-buffer store covers the block buffer, -/
theorem coverBlk5 (p : rBlk5.shape.Idx → Elt F .f32) (y : S1000x150.Idx) :
    ∃ pc ∈ ([⟨rBlk5, p⟩] : List (View.Piece (Elt F) S1000x150 .f32)), y ∈ pc.1.set :=
  View.cover_of_tiled [⟨rBlk5, p⟩] S1000x150.size (by rfl) y
/-- and the row buffer. -/
theorem coverRow5 (p : rRow5.shape.Idx → Elt F .f32) (y : S1x150.Idx) :
    ∃ pc ∈ ([⟨rRow5, p⟩] : List (View.Piece (Elt F) S1x150 .f32)), y ∈ pc.1.set :=
  View.cover_of_tiled [⟨rRow5, p⟩] S1x150.size (by rfl) y

/-- Every index of the row buffer lies in the whole-buffer rectangle (read off the cover by one piece). -/
theorem memRow5 (p : rRow5.shape.Idx → Elt F .f32) (y : S1x150.Idx) : y ∈ rRow5.set := by
  obtain ⟨pc, hm, hy⟩ := coverRow5 p y
  rw [List.mem_singleton] at hm; subst hm; exact hy

/-- A store over the whole row buffer hides every earlier store. -/
theorem canon_row5 (p : rRow5.shape.Idx → Elt F .f32) (L : List (View.Piece (Elt F) S1x150 .f32)) :
    View.canon (⟨rRow5, p⟩ :: L) = View.canon [⟨rRow5, p⟩] := by
  funext y
  obtain ⟨x, rfl⟩ : ∃ x, rRow5.emb x = y := rRow5.exists_idx_of_mem (memRow5 p y)
  rw [View.canon_cons_emb, View.canon_cons_emb]

/-! ## What the body leaves in each output window's buffer -/

/-- The first output's buffer after the body: the clamped sum of the row block and the bias row. -/
def out5_2 (x0 : Vec F S1000x150 .f32) (x1 : Vec F S1x150 .f32) : Vec F S1000x150 .f32 :=
  View.canon [⟨rBlk5, k5_pay3 (View.ld x0 rBlk5) (View.ld x1 rRow5)⟩]

/-- The column-sum row as the first point's reset leaves it, -/
def zero5_3 : Vec F S1x150 .f32 := View.canon [⟨rRow5, k5_pay1 (F := F)⟩]
/-- and the column-sum-of-squares row. -/
def zero5_4 : Vec F S1x150 .f32 := View.canon [⟨rRow5, k5_pay2 (F := F)⟩]

/-- The column-sum row after a point's update, from the row it held before (`a`), -/
def step5_3 (x0 : Vec F S1000x150 .f32) (x1 : Vec F S1x150 .f32) (a : Vec F S1x150 .f32) : Vec F S1x150 .f32 :=
  View.canon [⟨rRow5, k5_pay4 (View.ld x0 rBlk5) (View.ld x1 rRow5) (View.ld a rRow5)⟩]
/-- and the column-sum-of-squares row. -/
def step5_4 (x0 : Vec F S1000x150 .f32) (x1 : Vec F S1x150 .f32) (a : Vec F S1x150 .f32) : Vec F S1x150 .f32 :=
  View.canon [⟨rRow5, k5_pay5 (View.ld x0 rBlk5) (View.ld x1 rRow5) (View.ld a rRow5)⟩]

/-! ## The body's triple, at the first point and at a later one -/

set_option maxHeartbeats 1000000 in
/-- At the first point (the conditional taken): on whole staging memrefs, the inputs' at read contents and the
    outputs' at anything, the body runs to the continuation holding the inputs' as they were, the first output's at
    the clamped sum, and the two rows at one update of the reset rows. -/
theorem sound_kernel5_A (c : Dev nD) (E : Set ℕ) (i : grid5.Coords)
    (arg1 : Memref sig .tc .vmem S1000x150 .f32) (harg1 : arg1.IsWhole) (arg2 : Memref sig .tc .vmem S1x150 .f32) (harg2 : arg2.IsWhole)
    (arg3 : Memref sig .tc .vmem S1000x150 .f32) (harg3 : arg3.IsWhole) (arg4 : Memref sig .tc .vmem S1x150 .f32) (harg4 : arg4.IsWhole)
    (arg5 : Memref sig .tc .vmem S1x150 .f32) (harg5 : arg5.IsWhole) (hc : cond5 i)
    (x0 : Vec F S1000x150 .f32) (x1 : Vec F S1x150 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out5_2 x0 x1)
            ∗ owns (c : Thread nD τ) arg4 fullShare (step5_3 x0 x1 zero5_3)
            ∗ owns (c : Thread nD τ) arg5 fullShare (step5_4 x0 x1 zero5_4)) -∗ K ⟨⟩))
      ⊢ wp frame (wpE (defs₀ (F := F)) Variants.none c none) E (cc5__bias_relu_stats_kernel i arg1 harg1 arg2 harg2 arg3 harg3 arg4 harg4 arg5 harg5) K := by
  simp only [cc5__bias_relu_stats_kernel_eq_skeleton]; unfold cc5__bias_relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverBlk5 _)
  isplitl [H3]
  · iexists _; isplitr
    swap; · iexact H3
    ipureintro
    sl_unfold_run_names
    refine (View.read_writes_eq_canon _ _ _ (fun y => ⟨_, List.Mem.head _, memRow5 (k5_pay1 (F := F)) y⟩)).trans ?_
    rw [canon_row5, View.readCov_eq_canon_ld _ _ _ (coverRow5 _)]
    rfl
  iexists _; isplitr
  swap; · iexact H4
  ipureintro
  sl_unfold_run_names
  refine (View.read_writes_eq_canon _ _ _ (fun y => ⟨_, List.Mem.head _, memRow5 (k5_pay2 (F := F)) y⟩)).trans ?_
  rw [canon_row5, View.readCov_eq_canon_ld _ _ _ (coverRow5 _)]
  rfl

set_option maxHeartbeats 1000000 in
/-- At a later point (the conditional not taken): the same, the two rows held at `a3`, `a4` on entry and at one
    update of those on exit. -/
theorem sound_kernel5_B (c : Dev nD) (E : Set ℕ) (i : grid5.Coords)
    (arg1 : Memref sig .tc .vmem S1000x150 .f32) (harg1 : arg1.IsWhole) (arg2 : Memref sig .tc .vmem S1x150 .f32) (harg2 : arg2.IsWhole)
    (arg3 : Memref sig .tc .vmem S1000x150 .f32) (harg3 : arg3.IsWhole) (arg4 : Memref sig .tc .vmem S1x150 .f32) (harg4 : arg4.IsWhole)
    (arg5 : Memref sig .tc .vmem S1x150 .f32) (harg5 : arg5.IsWhole) (hc : ¬cond5 i)
    (x0 : Vec F S1000x150 .f32) (x1 : Vec F S1x150 .f32) (a3 a4 : Vec F S1x150 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare a3 ∗ owns (c : Thread nD τ) arg5 fullShare a4
        ∗ (iprop(owns (c : Thread nD τ) arg1 fullShare x0 ∗ owns (c : Thread nD τ) arg2 fullShare x1
            ∗ owns (c : Thread nD τ) arg3 fullShare (out5_2 x0 x1)
            ∗ owns (c : Thread nD τ) arg4 fullShare (step5_3 x0 x1 a3)
            ∗ owns (c : Thread nD τ) arg5 fullShare (step5_4 x0 x1 a4)) -∗ K ⟨⟩))
      ⊢ wp frame (wpE (defs₀ (F := F)) Variants.none c none) E (cc5__bias_relu_stats_kernel i arg1 harg1 arg2 harg2 arg3 harg3 arg4 harg4 arg5 harg5) K := by
  simp only [cc5__bias_relu_stats_kernel_eq_skeleton]; unfold cc5__bias_relu_stats_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  subst hf0; subst hf1; subst hf3; subst hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverBlk5 _)
  isplitl [H3]
  · iexists _; isplitr
    swap; · iexact H3
    ipureintro
    exact View.read_writes_eq_canon _ _ _ (coverRow5 _)
  iexists _; isplitr
  swap; · iexact H4
  ipureintro
  exact View.read_writes_eq_canon _ _ _ (coverRow5 _)

/-! ## What the two running rows hold after each point -/

/-- The column-sum row after the body at position `n`: one update per point, from the reset row. -/
def acc5_3 (c : Dev nD) : (n : ℕ) → n < cfg5.N → Vec F S1x150 .f32
  | 0, hn => step5_3 (iblk5 V c 0 ⟨0, hn⟩) (iblk5 V c 1 ⟨0, hn⟩) zero5_3
  | n + 1, hn => step5_3 (iblk5 V c 0 ⟨n + 1, hn⟩) (iblk5 V c 1 ⟨n + 1, hn⟩) (acc5_3 c n (Nat.lt_of_succ_lt hn))

/-- The column-sum-of-squares row after the body at position `n`. -/
def acc5_4 (c : Dev nD) : (n : ℕ) → n < cfg5.N → Vec F S1x150 .f32
  | 0, hn => step5_4 (iblk5 V c 0 ⟨0, hn⟩) (iblk5 V c 1 ⟨0, hn⟩) zero5_4
  | n + 1, hn => step5_4 (iblk5 V c 0 ⟨n + 1, hn⟩) (iblk5 V c 1 ⟨n + 1, hn⟩) (acc5_4 c n (Nat.lt_of_succ_lt hn))

/-- At the first point: one update of the reset row. -/
theorem acc5_3_first (c : Dev nD) (t : Fin cfg5.N) (h0 : t.val = 0) :
    acc5_3 V c t.val t.isLt = step5_3 (iblk5 V c 0 t) (iblk5 V c 1 t) zero5_3 := by
  obtain ⟨n, hn⟩ := t
  cases n with
  | zero => exact rfl
  | succ n => exact absurd h0 (Nat.succ_ne_zero n)
theorem acc5_4_first (c : Dev nD) (t : Fin cfg5.N) (h0 : t.val = 0) :
    acc5_4 V c t.val t.isLt = step5_4 (iblk5 V c 0 t) (iblk5 V c 1 t) zero5_4 := by
  obtain ⟨n, hn⟩ := t
  cases n with
  | zero => exact rfl
  | succ n => exact absurd h0 (Nat.succ_ne_zero n)

/-- At a later point: one update of what the point before left. -/
theorem acc5_3_later (c : Dev nD) (t : Fin cfg5.N) (h0 : ¬t.val = 0) :
    acc5_3 V c t.val t.isLt = step5_3 (iblk5 V c 0 t) (iblk5 V c 1 t) (acc5_3 V c (t.val - 1) (Nat.lt_of_le_of_lt (Nat.sub_le _ _) t.isLt)) := by
  obtain ⟨n, hn⟩ := t
  cases n with
  | zero => exact absurd rfl h0
  | succ n => exact rfl
theorem acc5_4_later (c : Dev nD) (t : Fin cfg5.N) (h0 : ¬t.val = 0) :
    acc5_4 V c t.val t.isLt = step5_4 (iblk5 V c 0 t) (iblk5 V c 1 t) (acc5_4 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of pipeline 5 on core `c`: the arrays as the region finds them; after the body at point `t` each
    input's buffer at its block, the first output's at the clamped sum of the input blocks, the two rows at their
    running contents; the invariant is the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
    | ⟨3, _⟩ => acc5_3 V c t.val t.isLt
    | ⟨4, _⟩ => acc5_4 V c t.val t.isLt
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]
theorem after5_3 (c : Dev nD) (t : Fin cfg5.N) : (dat5 V c).after 3 t = acc5_3 V c t.val t.isLt := by dsimp only [dat5]
theorem after5_4 (c : Dev nD) (t : Fin cfg5.N) : (dat5 V c).after 4 t = acc5_4 V c t.val t.isLt := by dsimp only [dat5]

/-- Each input's current staging buffer holds its block at every point, fetched there or not: unfetched, the block
    index has not moved and the body left the block in place. -/
theorem before5_0 (c : Dev nD) (t : Fin cfg5.N) (d) : (dat5 V c).before 0 t d = iblk5 V c 0 t :=
  ((dat5 V c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)

/-- At a later point each running row's staging buffer holds what the body left at the point before: the buffer is
    written back after the last point only, the window is live and uncut. -/
theorem before5_3_later (c : Dev nD) (t : Fin cfg5.N) (h0 : ¬t.val = 0) (d) :
    (dat5 V c).before 3 t d = acc5_3 V c (t.val - 1) (Nat.lt_of_le_of_lt (Nat.sub_le _ _) t.isLt) := by
  have hN : t.val < _ := lt_of_lt_of_eq t.isLt (N_5 : cfg5.N = _)
  rw [Dat.before_out_kept _ 3 rfl t h0 (Bool.eq_false_iff.mpr fun h => by have := (flush5_3 _).mp h; dsimp only at this; omega)
    (fun _ => rfl) (fun _ _ => rfl)]
  dsimp only [dat5]
theorem before5_4_later (c : Dev nD) (t : Fin cfg5.N) (h0 : ¬t.val = 0) (d) :
    (dat5 V c).before 4 t d = acc5_4 V c (t.val - 1) (Nat.lt_of_le_of_lt (Nat.sub_le _ _) t.isLt) := by
  have hN : t.val < _ := lt_of_lt_of_eq t.isLt (N_5 : cfg5.N = _)
  rw [Dat.before_out_kept _ 4 rfl t h0 (Bool.eq_false_iff.mpr fun h => by have := (flush5_4 _).mp h; dsimp only at this; omega)
    (fun _ => rfl) (fun _ _ => rfl)]
  dsimp only [dat5]

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

set_option maxHeartbeats 800000 in
/-- The body at any point: the inputs' memrefs hold their blocks; the point is the first or a later one; at a later
    one each running row holds what the point before left; so the matching triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2, after5_3, after5_4]
  by_cases h0 : t.val = 0
  · rw [acc5_3_first V c t h0, acc5_4_first V c t h0]
    iintro ⟨HΦ, Ho, ⟨%d0, H0⟩, ⟨%d1, H1⟩, ⟨%d2, H2⟩, ⟨%d3, H3⟩, ⟨%d4, H4⟩⟩
    iapply (sound_kernel5_A c Set.univ (grid5.coords t) _ _ _ _ _ _ _ _ _ _ ((hcond5 t).mpr h0) (iblk5 V c 0 t) (iblk5 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc5_3_later V c t h0, acc5_4_later V c t h0]
    simp only [before5_3_later V c t h0, before5_4_later V c t h0]
    iintro ⟨HΦ, Ho, ⟨%d0, H0⟩, ⟨%d1, H1⟩, ⟨%d2, H2⟩, ⟨%d3, H3⟩, ⟨%d4, H4⟩⟩
    iapply (sound_kernel5_B c Set.univ (grid5.coords t) _ _ _ _ _ _ _ _ _ _ (fun h => h0 ((hcond5 t).mp h)) (iblk5 V c 0 t) (iblk5 V c 1 t) _ _ _)
    isplitl [H0]; · iexact H0
    isplitl [H1]; · iexact H1
    isplitl [H2]; · iexists _; iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the region's ends -/

/-- Entering: the generator register and the scoped rest make the invariant at the first position. -/
theorem hin5 (c : Dev nD) :
    iprop((∃ r, prngReg c r) ∗ Pipeline.scopedRest (Ix := Unit) (Name := ℕ) (U := UR sig nD τ) (Lvl := ℕ) (Val := Elt F) spec5 c)
      ⊢ (dat5 V c).Φ 0 := by
  rw [show (dat5 V c).Φ 0 = Pipeline.ΦA spec5 c from rfl]; unfold Pipeline.ΦA
  iintro ⟨Hp, Hr⟩
  isplitl [Hr]; · iexact Hr
  iexact Hp

/-- Leaving: the invariant at the last position gives both back. -/
theorem hout5 (c : Dev nD) :
    (dat5 V c).Φ (Fin.last cfg5.N)
      ⊢ iprop((∃ r, prngReg c r) ∗ Pipeline.scopedRest (Ix := Unit) (Name := ℕ) (U := UR sig nD τ) (Lvl := ℕ) (Val := Elt F) spec5 c) := by
  rw [show (dat5 V c).Φ (Fin.last cfg5.N) = Pipeline.ΦA spec5 c from rfl]; unfold Pipeline.ΦA
  iintro ⟨Hr, Hp⟩
  isplitl [Hp]; · iexact Hp
  iexact Hr

end Cert.KernelIdeal.Hand

end
-- ==== Proof.Reg6.lean ====
import proofs.«408066_j62380105008311_2_alg».proof.Proof.Gen.KernelIdeal.Launch
import proofs.«408066_j62380105008311_2_alg».proof.Proof.Gen.KernelIdeal.Skeleton
import proofs.«408066_j62380105008311_2_alg».proof.Proof.Gen.KernelIdeal.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

/-! # Region 6: the normalise-then-multiply kernel, as a pipeline region entered at arbitrary contents

The kernel reads one row block of the activations, four feature rows (mean, variance, scale, shift) and the
weight matrix, and stores one row block of the product. Every access is a whole-buffer load or store, so the
region is of the simplest class: each input's staging buffer holds its block at every point, and the output's
buffer after the body is the single store's payload. Everything is stated at a parameter `V`, the TensorCore's
buffer contents when the region is entered, and at any float family. -/

-- membership in a rectangle of full extent recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not, for any proof
    data whose array is `V`'s and whose body leaves the block in place: where the window is not fetched its block
    index has not moved, so the block kept from the previous point is this point's. Window 0 (the activations). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Window 1 (the mean row). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Window 2 (the variance row). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Window 3 (the scale row). -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Window 4 (the shift row). -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Window 5 (the weight matrix). -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each a whole buffer -/

abbrev r6_0 : Rect S1000x150 := Rect.unit (s := S1000x150) ![0, 0] S1000x150.size inb_S1000x150_S1000x150_0_0
abbrev r6_1 : Rect S1x150 := Rect.unit (s := S1x150) ![0, 0] S1x150.size inb_S1x150_S1x150_0_0
abbrev r6_5 : Rect S150x100 := Rect.unit (s := S150x100) ![0, 0] S150x100.size inb_S150x100_S150x100_0_0
abbrev r6_6 : Rect S1000x100 := Rect.unit (s := S1000x100) ![0, 0] S1000x100.size inb_S1000x100_S1000x100_0_0

/-! ## What the body leaves in the output window's buffer -/

/-- Window 6's staging buffer after the body, from the input windows' blocks (activations, mean, variance, scale,
    shift, weights, in window order): its one store as a piece. The payload takes the variance row before the
    mean row, as the kernel loads them. -/
def out6_6 (x0 : Vec F S1000x150 .f32) (x1 x2 x3 x4 : Vec F S1x150 .f32) (x5 : Vec F S150x100 .f32) : Vec F S1000x100 .f32 :=
  View.canon [⟨r6_6, k6_pay1 (View.ld x0 r6_0) (View.ld x2 r6_1) (View.ld x1 r6_1) (View.ld x3 r6_1) (View.ld x4 r6_1) (View.ld x5 r6_5)⟩]

/-- The store tiles the buffer (by evaluation), so it covers it. -/
theorem cover6_6 (p0 : Vec F S1000x100 .f32) (y : S1000x100.Idx) :
    ∃ pc ∈ ([⟨r6_6, p0⟩] : List (View.Piece (Elt F) S1000x100 .f32)), y ∈ pc.1.set :=
  View.cover_of_tiled [⟨r6_6, p0⟩] S1000x100.size (by rfl) y

/-! ## The body's triple -/

set_option maxHeartbeats 1000000 in
/-- The kernel body on whole staging memrefs, the inputs' at read contents `xW` and the output's at anything, runs
    to the continuation holding the inputs' as they were and the output's at `out6_6` of the inputs'. The grid
    coordinate is not read. -/
theorem sound_kernel6 (c : Dev nD) (E : Set ℕ) (i : grid6.Coords)
    (arg1 : Memref sig .tc .vmem S1000x150 .f32) (harg1 : arg1.IsWhole) (arg2 : Memref sig .tc .vmem S1x150 .f32) (harg2 : arg2.IsWhole)
    (arg3 : Memref sig .tc .vmem S1x150 .f32) (harg3 : arg3.IsWhole) (arg4 : Memref sig .tc .vmem S1x150 .f32) (harg4 : arg4.IsWhole)
    (arg5 : Memref sig .tc .vmem S1x150 .f32) (harg5 : arg5.IsWhole) (arg6 : Memref sig .tc .vmem S150x100 .f32) (harg6 : arg6.IsWhole)
    (arg7 : Memref sig .tc .vmem S1000x100 .f32) (harg7 : arg7.IsWhole)
    (x0 : Vec F S1000x150 .f32) (x1 x2 x3 x4 : Vec F S1x150 .f32) (x5 : Vec F S150x100 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6_6 x0 x1 x2 x3 x4 x5)) -∗ K ⟨⟩))
      ⊢ wp frame (wpE (defs₀ (F := F)) Variants.none c none) E
          (cc6__normalize_linear_kernel i arg1 harg1 arg2 harg2 arg3 harg3 arg4 harg4 arg5 harg5 arg6 harg6 arg7 harg7) K := by
  simp only [cc6__normalize_linear_kernel_eq_skeleton]; unfold cc6__normalize_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-! ## The pipeline's proof data -/

/-- The proof data of pipeline 6 on core `c`: the arrays as the region finds them; after the body at point `t` each
    input's buffer at its block and the output's at `out6_6` of the input blocks; as invariant the scoped buffers no
    window stages and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t
    = out6_6 (iblk6 V c 0 t) (iblk6 V c 1 t) (iblk6 V c 2 t) (iblk6 V c 3 t) (iblk6 V c 4 t) (iblk6 V c 5 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' memrefs hold their blocks, so the body's triple applies; the invariant and
    the core's tallies pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _
    (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's ends -/

/-- The invariant at the first point, from the generator register and the scoped buffers no window stages. -/
theorem hin6 (c : Dev nD) :
    iprop((∃ r, prngReg c r) ∗ Pipeline.scopedRest (Ix := Unit) (Name := ℕ) (U := UR sig nD τ) (Lvl := ℕ) (Val := Elt F) spec6 c)
      ⊢ (dat6 V c).Φ 0 := by
  rw [show (dat6 V c).Φ 0 = Pipeline.ΦA spec6 c from rfl]; unfold Pipeline.ΦA
  iintro ⟨Hp, Hr⟩
  isplitl [Hr]; · iexact Hr
  iexact Hp

/-- The invariant at the last point gives both back. -/
theorem hout6 (c : Dev nD) :
    (dat6 V c).Φ (Fin.last cfg6.N)
      ⊢ iprop((∃ r, prngReg c r) ∗ Pipeline.scopedRest (Ix := Unit) (Name := ℕ) (U := UR sig nD τ) (Lvl := ℕ) (Val := Elt F) spec6 c) := by
  rw [show (dat6 V c).Φ (Fin.last cfg6.N) = Pipeline.ΦA spec6 c from rfl]; unfold Pipeline.ΦA
  iintro ⟨Hr, Hp⟩
  isplitl [Hp]; · iexact Hp
  iexact Hr

end Cert.KernelIdeal.Hand

end
-- ==== Proof.Reg7.lean ====
import proofs.«408066_j62380105008311_2_alg».proof.Proof.Gen.KernelIdeal.Launch
import proofs.«408066_j62380105008311_2_alg».proof.Proof.Gen.KernelIdeal.Skeleton
import proofs.«408066_j62380105008311_2_alg».proof.Proof.Gen.KernelIdeal.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

/-! # Region 7: a blocked matrix product accumulated in a scratch buffer

The grid is two-dimensional; along its second axis the body adds one block product into a scratch
accumulator, which it clears at the first step and copies to the output block at the last one.  This
file states, at any float family and at any entry contents `V` of the TensorCore's buffers, what the
accumulator holds after each grid point and proves the body's triple at every point. -/

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of accumulation steps (the extent of the grid's second axis) and the index of the last one:
    the only numerals of this file. -/
local notation "K₇" => 10
local notation "K₇last" => 9

/-! ## The body's two conditions, in closed form over the grid -/

/-- "This is the first accumulation step": the condition under which the body clears the accumulator. -/
abbrev cond7_0 (i : grid7.Coords) : Prop :=
  (Scalar.cmpi .ne (Scalar.extui (Scalar.cmpi .eq (BitVec.ofNat 32 (i 1).val) 0#32)) 0#32) = 1#1
/-- It holds exactly at the points whose position is a multiple of the number of steps. -/
theorem hcond7_0 : ∀ t : Fin cfg7.N, cond7_0 (grid7.coords t) ↔ t.val % K₇ = 0 :=
  (by decide +kernel : ∀ t : Fin grid7.N, cond7_0 (grid7.coords t) ↔ t.val % K₇ = 0)

/-- "This is the last accumulation step": the condition under which the body copies the accumulator out. -/
abbrev cond7_1 (i : grid7.Coords) : Prop := k7_cond2 i = 1#1
/-- It holds exactly at the points whose position is one short of a multiple of the number of steps. -/
theorem hcond7_1 : ∀ t : Fin cfg7.N, cond7_1 (grid7.coords t) ↔ t.val % K₇ = K₇last :=
  (by decide +kernel : ∀ t : Fin grid7.N, cond7_1 (grid7.coords t) ↔ t.val % K₇ = K₇last)

/-! ## Where the windows are idle -/

/-- The two operand windows are live at every point. -/
theorem liveAt7_0 : ∀ t : Fin cfg7.N, cfg7.idle 0 (grid7.coords t) = false := fun _ => rfl
theorem liveAt7_1 : ∀ t : Fin cfg7.N, cfg7.idle 1 (grid7.coords t) = false := fun _ => rfl
/-- The output window is idle, and not written back, wherever the step is not the last; -/
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
/-- and live at the last step. -/
theorem liveAt7_2 : ∀ t : Fin cfg7.N, cond7_1 (grid7.coords t) → cfg7.idle 2 (grid7.coords t) = false := by decide +kernel

/-! ## The memrefs the body is called with -/

/-- Each window's current staging memref at point `t`, and its wholeness. -/
abbrev ms7_0 (t : Fin cfg7.N) : Memref sig .tc .vmem S2000x1024 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1024x100 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2000x100 .f32 := win7_2.stage (cfg7.slots t 2)
abbrev hs7_2 (t : Fin cfg7.N) : (ms7_2 t).IsWhole := hstage7_2 ((cfg7.slots t 2).cast nbuf7_2)
/-- The accumulator: a whole scoped buffer of the call's own. -/
abbrev scM7 : Memref sig .tc .vmem S2000x100 .f32 := Memref.whole cc7_scratch0
/-- The views through which the accumulator's and the output block's contents are stated. -/
abbrev VS7 : View sig .tc .vmem S2000x100 .f32 := scM7.view
abbrev VO7_2 : View sig .tc .vmem S2000x100 .f32 := (Memref.whole cc7_stg2_0 : Memref sig .tc .vmem S2000x100 .f32).view

/-! ## The body on any whole memrefs, case by case

Three cases of the two conditions occur on the grid: the first step (clear, then accumulate), a middle step
(accumulate), the last step (accumulate, then copy out).  In each the body's stores leave lists of pieces in
the accumulator (and, at the last step, in the output block); the run finds them. -/

set_option maxHeartbeats 1000000 in
/-- FIRST STEP.  The operands' memrefs at their contents, the output's at contents handed back untouched, the
    accumulator at anything: the body runs to the continuation holding the accumulator with its pieces written. -/
noncomputable def run7_A (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : cond7_0 i) (hc1 : ¬cond7_1 i) (x0 : Vec F S2000x1024 .bf16) (x1 : Vec F S1024x100 .f32) :
    { LS : List (View.Piece (Elt F) S2000x100 .f32) //
      ∀ (xi2 : Vec F S2000x100 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc7__spmm_kernel i arg2 harg2 arg3 harg3 arg4 harg4 arg5 harg5) K } := by
  refine ⟨?_, fun xi2 E K => ?run⟩
  case run =>
    simp only [cc7__spmm_kernel_eq_skeleton]; unfold cc7__spmm_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A MIDDLE STEP.  As the first, but the accumulator at the contents `xs` the step before left. -/
noncomputable def run7_B (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : ¬cond7_0 i) (hc1 : ¬cond7_1 i) (x0 : Vec F S2000x1024 .bf16) (x1 : Vec F S1024x100 .f32) (xs : Vec F S2000x100 .f32) :
    { LS : List (View.Piece (Elt F) S2000x100 .f32) //
      ∀ (xi2 : Vec F S2000x100 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc7__spmm_kernel i arg2 harg2 arg3 harg3 arg4 harg4 arg5 harg5) K } := by
  refine ⟨?_, fun xi2 E K => ?run⟩
  case run =>
    simp only [cc7__spmm_kernel_eq_skeleton]; unfold cc7__spmm_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- THE LAST STEP.  The accumulator at the contents `xs` the step before left, the output's memref at anything:
    the body leaves pieces in both. -/
noncomputable def run7_C (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : ¬cond7_0 i) (hc1 : cond7_1 i) (x0 : Vec F S2000x1024 .bf16) (x1 : Vec F S1024x100 .f32) (xs : Vec F S2000x100 .f32) :
    Σ' (L2 : List (View.Piece (Elt F) S2000x100 .f32)), { LS : List (View.Piece (Elt F) S2000x100 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc7__spmm_kernel i arg2 harg2 arg3 harg3 arg4 harg4 arg5 harg5) K } := by
  refine ⟨?_, ?_, fun E K => ?run⟩
  case run =>
    simp only [cc7__spmm_kernel_eq_skeleton]; unfold cc7__spmm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What each case leaves, read back -/

/-- The first step's pieces cover the accumulator, -/
theorem scover7_A (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : cond7_0 i) (hc1 : ¬cond7_1 i) (x0 : Vec F S2000x1024 .bf16) (x1 : Vec F S1024x100 .f32) (y : S2000x100.Idx) :
    ∃ pc ∈ (run7_A c i arg2 harg2 arg3 harg3 arg4 harg4 arg5 harg5 hc0 hc1 x0 x1).1, y ∈ pc.1.set :=
  View.cover_of_tiledL (run7_A c i arg2 harg2 arg3 harg3 arg4 harg4 arg5 harg5 hc0 hc1 x0 x1).1 S2000x100.size (by sl_kernel_rfl) y

/-- and this is what they leave in it (read back over contents nothing consults). -/
def sout7_A (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : cond7_0 i) (hc1 : ¬cond7_1 i) (x0 : Vec F S2000x1024 .bf16) (x1 : Vec F S1024x100 .f32) : Vec F S2000x100 .f32 :=
  VS7.read (Elt F) (VS7.writes (Elt F) VS7.junk (run7_A c i arg2 harg2 arg3 harg3 arg4 harg4 arg5 harg5 hc0 hc1 x0 x1).1)

/-- A middle step's pieces cover the accumulator; what they leave. -/
theorem scover7_B (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : ¬cond7_0 i) (hc1 : ¬cond7_1 i) (x0 : Vec F S2000x1024 .bf16) (x1 : Vec F S1024x100 .f32) (xs : Vec F S2000x100 .f32) (y : S2000x100.Idx) :
    ∃ pc ∈ (run7_B c i arg2 harg2 arg3 harg3 arg4 harg4 arg5 harg5 hc0 hc1 x0 x1 xs).1, y ∈ pc.1.set :=
  View.cover_of_tiledL (run7_B c i arg2 harg2 arg3 harg3 arg4 harg4 arg5 harg5 hc0 hc1 x0 x1 xs).1 S2000x100.size (by sl_kernel_rfl) y

def sout7_B (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : ¬cond7_0 i) (hc1 : ¬cond7_1 i) (x0 : Vec F S2000x1024 .bf16) (x1 : Vec F S1024x100 .f32) (xs : Vec F S2000x100 .f32) : Vec F S2000x100 .f32 :=
  VS7.read (Elt F) (VS7.writes (Elt F) VS7.junk (run7_B c i arg2 harg2 arg3 harg3 arg4 harg4 arg5 harg5 hc0 hc1 x0 x1 xs).1)

/-- The last step's pieces cover the output block and the accumulator; what they leave in each. -/
theorem cover7_C (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : ¬cond7_0 i) (hc1 : cond7_1 i) (x0 : Vec F S2000x1024 .bf16) (x1 : Vec F S1024x100 .f32) (xs : Vec F S2000x100 .f32) (y : S2000x100.Idx) :
    ∃ pc ∈ (run7_C c i arg2 harg2 arg3 harg3 arg4 harg4 arg5 harg5 hc0 hc1 x0 x1 xs).1, y ∈ pc.1.set :=
  View.cover_of_tiledL (run7_C c i arg2 harg2 arg3 harg3 arg4 harg4 arg5 harg5 hc0 hc1 x0 x1 xs).1 S2000x100.size (by sl_kernel_rfl) y

def out7_C (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : ¬cond7_0 i) (hc1 : cond7_1 i) (x0 : Vec F S2000x1024 .bf16) (x1 : Vec F S1024x100 .f32) (xs : Vec F S2000x100 .f32) : Vec F S2000x100 .f32 :=
  VO7_2.read (Elt F) (VO7_2.writes (Elt F) VO7_2.junk (run7_C c i arg2 harg2 arg3 harg3 arg4 harg4 arg5 harg5 hc0 hc1 x0 x1 xs).1)

theorem scover7_C (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : ¬cond7_0 i) (hc1 : cond7_1 i) (x0 : Vec F S2000x1024 .bf16) (x1 : Vec F S1024x100 .f32) (xs : Vec F S2000x100 .f32) (y : S2000x100.Idx) :
    ∃ pc ∈ (run7_C c i arg2 harg2 arg3 harg3 arg4 harg4 arg5 harg5 hc0 hc1 x0 x1 xs).2.1, y ∈ pc.1.set :=
  View.cover_of_tiledL (run7_C c i arg2 harg2 arg3 harg3 arg4 harg4 arg5 harg5 hc0 hc1 x0 x1 xs).2.1 S2000x100.size (by sl_kernel_rfl) y

def sout7_C (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : ¬cond7_0 i) (hc1 : cond7_1 i) (x0 : Vec F S2000x1024 .bf16) (x1 : Vec F S1024x100 .f32) (xs : Vec F S2000x100 .f32) : Vec F S2000x100 .f32 :=
  VS7.read (Elt F) (VS7.writes (Elt F) VS7.junk (run7_C c i arg2 harg2 arg3 harg3 arg4 harg4 arg5 harg5 hc0 hc1 x0 x1 xs).2.1)

/-! ## The region at the entry contents `V` -/

-- the TensorCore's buffer contents when the region is entered
variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An operand window's current staging buffer holds its block at every point, for any proof data whose array is
    `V`'s and whose body leaves the block in place: the window is uncut and never idle, and where it is not fetched
    its block index has not moved. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The accumulator after each point -/

/-- THE ACCUMULATION.  What the accumulator holds after the body at position `n`: the case the closed forms select
    there, run at the point's memrefs and operand blocks — at a first step from anything, otherwise from what the
    point before left. -/
def scrAt7 (c : Dev nD) : (n : ℕ) → n < cfg7.N → Vec F S2000x100 .f32
  | 0, hn =>
    sout7_A c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7 (Memref.isWhole_whole _)
      ((hcond7_0 ⟨0, hn⟩).mpr (Nat.zero_mod _)) (fun h => (fun e => by (try dsimp only at e); omega) ((hcond7_1 ⟨0, hn⟩).mp h))
      (iblk7 V c 0 ⟨0, hn⟩) (iblk7 V c 1 ⟨0, hn⟩)
  | n + 1, hn =>
    if h0 : (n + 1) % K₇ = 0 then
      sout7_A c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7 (Memref.isWhole_whole _)
        ((hcond7_0 ⟨n + 1, hn⟩).mpr h0) (fun h => (fun e => by (try dsimp only at e h0); omega) ((hcond7_1 ⟨n + 1, hn⟩).mp h))
        (iblk7 V c 0 ⟨n + 1, hn⟩) (iblk7 V c 1 ⟨n + 1, hn⟩)
    else if h1 : (n + 1) % K₇ = K₇last then
      sout7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7 (Memref.isWhole_whole _)
        (fun h => h0 ((hcond7_0 ⟨n + 1, hn⟩).mp h)) ((hcond7_1 ⟨n + 1, hn⟩).mpr h1)
        (iblk7 V c 0 ⟨n + 1, hn⟩) (iblk7 V c 1 ⟨n + 1, hn⟩) (scrAt7 c n (Nat.lt_of_succ_lt hn))
    else
      sout7_B c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7 (Memref.isWhole_whole _)
        (fun h => h0 ((hcond7_0 ⟨n + 1, hn⟩).mp h)) (fun h => h1 ((hcond7_1 ⟨n + 1, hn⟩).mp h))
        (iblk7 V c 0 ⟨n + 1, hn⟩) (iblk7 V c 1 ⟨n + 1, hn⟩) (scrAt7 c n (Nat.lt_of_succ_lt hn))

/-- The accumulator before a point that is not the first of the grid: what the point before left. -/
abbrev scrBefore7 (c : Dev nD) (t : Fin cfg7.N) : Vec F S2000x100 .f32 :=
  scrAt7 V c (t.val - 1) (Nat.lt_of_le_of_lt (Nat.sub_le _ _) t.isLt)

/-- `scrAt7` at a first step. -/
theorem scrAt7_A (c : Dev nD) (t : Fin cfg7.N) (h0 : t.val % K₇ = 0) (h1 : ¬t.val % K₇ = K₇last) :
    scrAt7 V c t.val t.isLt = sout7_A c (grid7.coords t) (ms7_0 t) (hs7_0 t) (ms7_1 t) (hs7_1 t) (ms7_2 t) (hs7_2 t) scM7 (Memref.isWhole_whole _)
      ((hcond7_0 t).mpr h0) (fun h => h1 ((hcond7_1 t).mp h)) (iblk7 V c 0 t) (iblk7 V c 1 t) := by
  obtain ⟨n, hn⟩ := t
  cases n with
  | zero => exact rfl
  | succ n => exact (dif_pos h0).trans rfl

/-- `scrAt7` at a middle step. -/
theorem scrAt7_B (c : Dev nD) (t : Fin cfg7.N) (h0 : ¬t.val % K₇ = 0) (h1 : ¬t.val % K₇ = K₇last) :
    scrAt7 V c t.val t.isLt = sout7_B c (grid7.coords t) (ms7_0 t) (hs7_0 t) (ms7_1 t) (hs7_1 t) (ms7_2 t) (hs7_2 t) scM7 (Memref.isWhole_whole _)
      (fun h => h0 ((hcond7_0 t).mp h)) (fun h => h1 ((hcond7_1 t).mp h)) (iblk7 V c 0 t) (iblk7 V c 1 t) (scrBefore7 V c t) := by
  obtain ⟨n, hn⟩ := t
  cases n with
  | zero => exact absurd (Nat.zero_mod _) h0
  | succ n => exact (dif_neg h0).trans ((dif_neg h1).trans rfl)

/-- `scrAt7` at a last step. -/
theorem scrAt7_C (c : Dev nD) (t : Fin cfg7.N) (h0 : ¬t.val % K₇ = 0) (h1 : t.val % K₇ = K₇last) :
    scrAt7 V c t.val t.isLt = sout7_C c (grid7.coords t) (ms7_0 t) (hs7_0 t) (ms7_1 t) (hs7_1 t) (ms7_2 t) (hs7_2 t) scM7 (Memref.isWhole_whole _)
      (fun h => h0 ((hcond7_0 t).mp h)) ((hcond7_1 t).mpr h1) (iblk7 V c 0 t) (iblk7 V c 1 t) (scrBefore7 V c t) := by
  obtain ⟨n, hn⟩ := t
  cases n with
  | zero => exact absurd (Nat.zero_mod _) h0
  | succ n => exact (dif_neg h0).trans ((dif_pos h1).trans rfl)

/-- What the output block's staging buffer holds after the body at point `t`: at a last step what that case leaves,
    from the accumulator as the point before left it; elsewhere the window is idle and this is a value nothing consults. -/
def outAt7 (c : Dev nD) (t : Fin cfg7.N) : Vec F S2000x100 .f32 :=
  if h1 : t.val % K₇ = K₇last then
    out7_C c (grid7.coords t) (ms7_0 t) (hs7_0 t) (ms7_1 t) (hs7_1 t) (ms7_2 t) (hs7_2 t) scM7 (Memref.isWhole_whole _)
      (fun h => absurd ((hcond7_0 t).mp h) (by omega)) ((hcond7_1 t).mpr h1) (iblk7 V c 0 t) (iblk7 V c 1 t) (scrBefore7 V c t)
  else VO7_2.read (Elt F) VO7_2.junk

theorem outAt7_C (c : Dev nD) (t : Fin cfg7.N) (h0 : ¬t.val % K₇ = 0) (h1 : t.val % K₇ = K₇last) :
    outAt7 V c t = out7_C c (grid7.coords t) (ms7_0 t) (hs7_0 t) (ms7_1 t) (hs7_1 t) (ms7_2 t) (hs7_2 t) scM7 (Memref.isWhole_whole _)
      (fun h => h0 ((hcond7_0 t).mp h)) ((hcond7_1 t).mpr h1) (iblk7 V c 0 t) (iblk7 V c 1 t) (scrBefore7 V c t) :=
  (dif_pos h1).trans rfl

/-! ## The region's invariant -/

/-- Every scoped buffer of the core that is neither a staging buffer of this call nor its accumulator, at some
    contents each: carried through the region unopened. -/
abbrev rest7 (c : Dev nD) : sProp 𝕄 :=
  Pipeline.scopedRestBut (Ix := Unit) (Name := ℕ) (U := UR sig nD τ) (Lvl := ℕ) (Val := Elt F) spec7 c [cc7_scratch0]

/-- The call's scoped rest, with the accumulator as a whole memref owned at some contents. -/
theorem scopedRest7_eq (c : Dev nD) :
    (Pipeline.scopedRest (Ix := Unit) (Name := ℕ) (U := UR sig nD τ) (Lvl := ℕ) (Val := Elt F) spec7 c : sProp 𝕄)
      = iprop((∃ d, owns (c : Thread nD τ) scM7 fullShare d) ∗ rest7 (F := F) c) := by
  rw [scopedRest7_split]; simp only [scM7, owns_whole]; try rfl

/-- The invariant before position `n`: before the first point the generator register at some state and the call's
    scoped rest (the accumulator at anything); afterwards the accumulator at what the point before left, the other
    scoped buffers at anything, the generator register at some state. -/
def PhiS7 (c : Dev nD) : (n : ℕ) → n ≤ cfg7.N → sProp 𝕄
  | 0, _ => iprop((∃ r, prngReg c r) ∗ Pipeline.scopedRest (Ix := Unit) (Name := ℕ) (U := UR sig nD τ) (Lvl := ℕ) (Val := Elt F) spec7 c)
  | n + 1, hn => iprop(owns (c : Thread nD τ) scM7 fullShare (scrAt7 V c n hn) ∗ rest7 (F := F) c ∗ (∃ r, prngReg c r))

theorem PhiS7_zero (c : Dev nD) (n : ℕ) (h : n ≤ cfg7.N) (hz : n = 0) :
    PhiS7 V c n h = iprop((∃ r, prngReg c r) ∗ Pipeline.scopedRest (Ix := Unit) (Name := ℕ) (U := UR sig nD τ) (Lvl := ℕ) (Val := Elt F) spec7 c) := by
  subst hz; rfl

theorem PhiS7_succ (c : Dev nD) (n : ℕ) (hn : n < cfg7.N) :
    PhiS7 V c (n + 1) hn = iprop(owns (c : Thread nD τ) scM7 fullShare (scrAt7 V c n hn) ∗ rest7 (F := F) c ∗ (∃ r, prngReg c r)) := rfl

theorem PhiS7_pos (c : Dev nD) (n : ℕ) (h : n ≤ cfg7.N) (hz : n ≠ 0) :
    PhiS7 V c n h = iprop(owns (c : Thread nD τ) scM7 fullShare (scrAt7 V c (n - 1) (by omega)) ∗ rest7 (F := F) c ∗ (∃ r, prngReg c r)) := by
  cases n with
  | zero => exact absurd rfl hz
  | succ n => rfl

/-- At any position the invariant yields the accumulator at SOME contents beside the rest: what a first step needs,
    and what the region gives back. -/
theorem PhiS7_any (c : Dev nD) (n : ℕ) (h : n ≤ cfg7.N) :
    PhiS7 V c n h ⊢ iprop((∃ d, owns (c : Thread nD τ) scM7 fullShare d) ∗ rest7 (F := F) c ∗ (∃ r, prngReg c r)) := by
  cases n with
  | zero =>
    rw [PhiS7_zero V c 0 h rfl, scopedRest7_eq]
    iintro ⟨Hg, HS, HR⟩
    isplitl [HS]; · iexact HS
    isplitl [HR]; · iexact HR
    iexact Hg
  | succ n =>
    rw [PhiS7_succ]
    iintro ⟨HS, HR, Hg⟩
    isplitl [HS]; · iexists _; iexact HS
    isplitl [HR]; · iexact HR
    iexact Hg

/-! ## The pipeline's proof data -/

/-- The proof data of pipeline 7 on core `c`: the arrays as the region finds them; after the body at point `t` each
    operand's buffer at its block and the output's at `outAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => outAt7 V c t
  Φ t := PhiS7 V c t.val (Nat.le_of_lt_succ t.isLt)
  q _ := fullShare
  owed _ := 0

/-- The proof data's arrays are the region-entry contents. -/
theorem A_eq7 (c : Dev nD) (w : Fin cfg7.W) : (dat7 V c).A w = V c (Pipeline.arrRef spec7 w) := by
  dsimp only [dat7]

/-- The invariant at a point's start, restated at the point's position. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = outAt7 V c t := by dsimp only [dat7]

/-- Each operand's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point.  The operands' memrefs hold their blocks; the closed forms say which step the point is;
    the invariant hands the body the accumulator — at anything at a first step, at what the point before left
    otherwise — and takes it back at this point's contents, since the step's pieces cover it; where the step is not
    the last the output's buffer goes through untouched, at the last its pieces cover it; the core owes nothing. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [PhiS7_castSucc V c t]
  by_cases h0 : t.val % K₇ = 0
  · have h1 : ¬t.val % K₇ = K₇last := by omega
    rw [Dat.leavesExact_idle (dat7 V c) 2 t (idleAt7_2 t (fun h => h1 ((hcond7_1 t).mp h))) (noFlush7_2 t (fun h => h1 ((hcond7_1 t).mp h)))]
    rw [scrAt7_A V c t h0 h1]
    unfold sout7_A
    iintro ⟨HΦ, Ho, ⟨%d0, H0⟩, ⟨%d1, H1⟩, ⟨%d2, H2⟩⟩
    ihave HΦ' := (PhiS7_any V c t.val (Nat.le_of_lt t.isLt)) $$ HΦ
    icases HΦ' with ⟨HS, HR, Hg⟩
    iapply ((run7_A c (grid7.coords t) _ _ _ _ _ _ _ _ ((hcond7_0 t).mpr h0) (fun h => h1 ((hcond7_1 t).mp h)) (iblk7 V c 0 t) (iblk7 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS HR Hg]
    · isplitl [HS]
      · unfold owns; iexists _; isplitr
        swap; · iexact HS
        ipureintro; exact View.read_writes_of_cover _ _ _ _ _ (scover7_A c _ _ _ _ _ _ _ _ _ _ _ _ _)
      isplitl [HR]; · iexact HR
      iexact Hg
    isplitl [Ho]; · iexact Ho
    isplitl [H0]; · iexact H0
    isplitl [H1]; · iexact H1
    iexists _; iexact H2
  · have hz : t.val ≠ 0 := fun e => h0 (by rw [e])
    rw [PhiS7_pos V c _ _ hz]
    by_cases h1 : t.val % K₇ = K₇last
    · rw [show (dat7 V c).leavesExact 2 t = owns (c : Thread nD τ) (ms7_2 t) fullShare ((dat7 V c).after 2 t) from by
        unfold Dat.leavesExact; rw [liveAt7_2 t ((hcond7_1 t).mpr h1)], after7_2]
      rw [scrAt7_C V c t h0 h1, outAt7_C V c t h0 h1]
      unfold sout7_C out7_C
      iintro ⟨⟨HS, HR, Hg⟩, Ho, ⟨%d0, H0⟩, ⟨%d1, H1⟩, ⟨%d2, H2⟩⟩
      iapply ((run7_C c (grid7.coords t) _ _ _ _ _ _ _ _ (fun h => h0 ((hcond7_0 t).mp h)) ((hcond7_1 t).mpr h1) (iblk7 V c 0 t) (iblk7 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS]
        · unfold owns; iexists _; isplitr
          swap; · iexact HS
          ipureintro; exact View.read_writes_of_cover _ _ _ _ _ (scover7_C c _ _ _ _ _ _ _ _ _ _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover7_C c _ _ _ _ _ _ _ _ _ _ _ _ _ _)
    · rw [Dat.leavesExact_idle (dat7 V c) 2 t (idleAt7_2 t (fun h => h1 ((hcond7_1 t).mp h))) (noFlush7_2 t (fun h => h1 ((hcond7_1 t).mp h)))]
      rw [scrAt7_B V c t h0 h1]
      unfold sout7_B
      iintro ⟨⟨HS, HR, Hg⟩, Ho, ⟨%d0, H0⟩, ⟨%d1, H1⟩, ⟨%d2, H2⟩⟩
      iapply ((run7_B c (grid7.coords t) _ _ _ _ _ _ _ _ (fun h => h0 ((hcond7_0 t).mp h)) (fun h => h1 ((hcond7_1 t).mp h)) (iblk7 V c 0 t) (iblk7 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (scover7_B c _ _ _ _ _ _ _ _ _ _ _ _ _ _)
        isplitl [HR]; · iexact HR
        iexact Hg
      isplitl [Ho]; · iexact Ho
      isplitl [H0]; · iexact H0
      isplitl [H1]; · iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## Entering and leaving the region -/

/-- What the region is entered with — the generator register at some state and the call's scoped rest — is the
    invariant before the first point. -/
theorem hin7 (c : Dev nD) :
    iprop((∃ r, prngReg c r) ∗ Pipeline.scopedRest (Ix := Unit) (Name := ℕ) (U := UR sig nD τ) (Lvl := ℕ) (Val := Elt F) spec7 c)
      ⊢ (dat7 V c).Φ 0 := by
  rw [show (dat7 V c).Φ 0 = PhiS7 V c 0 (Nat.zero_le _) from rfl, PhiS7_zero V c 0 _ rfl]

/-- After the last point the invariant gives the same back: the accumulator's contents are forgotten. -/
theorem hout7 (c : Dev nD) :
    (dat7 V c).Φ (Fin.last cfg7.N)
      ⊢ iprop((∃ r, prngReg c r) ∗ Pipeline.scopedRest (Ix := Unit) (Name := ℕ) (U := UR sig nD τ) (Lvl := ℕ) (Val := Elt F) spec7 c) := by
  rw [show (dat7 V c).Φ (Fin.last cfg7.N) = PhiS7 V c (Fin.last cfg7.N).val (Nat.le_of_lt_succ (Fin.last cfg7.N).isLt) from rfl, scopedRest7_eq]
  iintro HΦ
  ihave HΦ' := (PhiS7_any V c _ _) $$ HΦ
  icases HΦ' with ⟨HS, HR, Hg⟩
  isplitl [Hg]; · iexact Hg
  isplitl [HS]; · iexact HS
  iexact HR

end Cert.KernelIdeal.Hand

end
-- ==== Proof.Reg8.lean ====
import proofs.«408066_j62380105008311_2_alg».proof.Proof.Gen.KernelIdeal.Launch
import proofs.«408066_j62380105008311_2_alg».proof.Proof.Gen.KernelIdeal.Skeleton
import proofs.«408066_j62380105008311_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 8: bias, relu, and the running column sums, at the entry contents `V`

The grid is one axis of row blocks. At each point the body adds the bias row to the block of rows, clamps at zero,
stores the result to the first output's block, and adds the block's column sums and column sums of squares into
two one-row outputs whose block never moves; at the first point it zeroes those two rows first. -/

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The body's branch condition -/

/-- The condition of the body's one conditional, from the grid coordinates. -/
abbrev cond8 (i : grid8.Coords) : Prop := (Scalar.cmpi .ne (Scalar.extui (Scalar.cmpi .eq (BitVec.ofNat 32 (i 0).val) 0#32)) 0#32) = 1#1
/-- It holds at the first point only. -/
theorem hcond8 : ∀ t : Fin cfg8.N, cond8 (grid8.coords t) ↔ t.val = 0 :=
  (by decide +kernel : ∀ t : Fin grid8.N, cond8 (grid8.coords t) ↔ t.val = 0)

/-! ## The body's accesses: each is a whole buffer -/

abbrev rBlk8 : Rect S1000x100 := Rect.unit (s := S1000x100) ![0, 0] S1000x100.size inb_S1000x100_S1000x100_0_0
abbrev rRow8 : Rect S1x100 := Rect.unit (s := S1x100) ![0, 0] S1x100.size inb_S1x100_S1x100_0_0

/-- One whole-buffer store covers the block buffer, -/
theorem coverBlk8 (p : rBlk8.shape.Idx → Elt F .f32) (y : S1000x100.Idx) :
    ∃ pc ∈ ([⟨rBlk8, p⟩] : List (View.Piece (Elt F) S1000x100 .f32)), y ∈ pc.1.set :=
  View.cover_of_tiled [⟨rBlk8, p⟩] S1000x100.size (by rfl) y
/-- and the row buffer. -/
theorem coverRow8 (p : rRow8.shape.Idx → Elt F .f32) (y : S1x100.Idx) :
    ∃ pc ∈ ([⟨rRow8, p⟩] : List (View.Piece (Elt F) S1x100 .f32)), y ∈ pc.1.set :=
  View.cover_of_tiled [⟨rRow8, p⟩] S1x100.size (by rfl) y

/-- Every index of the row buffer lies in the whole-buffer rectangle (read off the cover by one piece). -/
theorem memRow8 (p : rRow8.shape.Idx → Elt F .f32) (y : S1x100.Idx) : y ∈ rRow8.set := by
  obtain ⟨pc, hm, hy⟩ := coverRow8 p y
  rw [List.mem_singleton] at hm; subst hm; exact hy

/-- A store over the whole row buffer hides every earlier store. -/
theorem canon_row8 (p : rRow8.shape.Idx → Elt F .f32) (L : List (View.Piece (Elt F) S1x100 .f32)) :
    View.canon (⟨rRow8, p⟩ :: L) = View.canon [⟨rRow8, p⟩] := by
  funext y
  obtain ⟨x, rfl⟩ : ∃ x, rRow8.emb x = y := rRow8.exists_idx_of_mem (memRow8 p y)
  rw [View.canon_cons_emb, View.canon_cons_emb]

/-! ## What the body leaves in each output window's buffer -/

/-- The first output's buffer after the body: the clamped sum of the row block and the bias row. -/
def out8_2 (x0 : Vec F S1000x100 .f32) (x1 : Vec F S1x100 .f32) : Vec F S1000x100 .f32 :=
  View.canon [⟨rBlk8, k8_pay3 (View.ld x0 rBlk8) (View.ld x1 rRow8)⟩]

/-- The column-sum row as the first point's reset leaves it, -/
def zero8_3 : Vec F S1x100 .f32 := View.canon [⟨rRow8, k8_pay1 (F := F)⟩]
/-- and the column-sum-of-squares row. -/
def zero8_4 : Vec F S1x100 .f32 := View.canon [⟨rRow8, k8_pay2 (F := F)⟩]

/-- The column-sum row after a point's update, from the row it held before (`a`), -/
def step8_3 (x0 : Vec F S1000x100 .f32) (x1 : Vec F S1x100 .f32) (a : Vec F S1x100 .f32) : Vec F S1x100 .f32 :=
  View.canon [⟨rRow8, k8_pay4 (View.ld x0 rBlk8) (View.ld x1 rRow8) (View.ld a rRow8)⟩]
/-- and the column-sum-of-squares row. -/
def step8_4 (x0 : Vec F S1000x100 .f32) (x1 : Vec F S1x100 .f32) (a : Vec F S1x100 .f32) : Vec F S1x100 .f32 :=
  View.canon [⟨rRow8, k8_pay5 (View.ld x0 rBlk8) (View.ld x1 rRow8) (View.ld a rRow8)⟩]

/-! ## The body's triple, at the first point and at a later one -/

set_option maxHeartbeats 1000000 in
/-- At the first point (the conditional taken): on whole staging memrefs, the inputs' at read contents and the
    outputs' at anything, the body runs to the continuation holding the inputs' as they were, the first output's at
    the clamped sum, and the two rows at one update of the reset rows. -/
theorem sound_kernel8_A (c : Dev nD) (E : Set ℕ) (i : grid8.Coords)
    (arg1 : Memref sig .tc .vmem S1000x100 .f32) (harg1 : arg1.IsWhole) (arg2 : Memref sig .tc .vmem S1x100 .f32) (harg2 : arg2.IsWhole)
    (arg3 : Memref sig .tc .vmem S1000x100 .f32) (harg3 : arg3.IsWhole) (arg4 : Memref sig .tc .vmem S1x100 .f32) (harg4 : arg4.IsWhole)
    (arg5 : Memref sig .tc .vmem S1x100 .f32) (harg5 : arg5.IsWhole) (hc : cond8 i)
    (x0 : Vec F S1000x100 .f32) (x1 : Vec F S1x100 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out8_2 x0 x1)
            ∗ owns (c : Thread nD τ) arg4 fullShare (step8_3 x0 x1 zero8_3)
            ∗ owns (c : Thread nD τ) arg5 fullShare (step8_4 x0 x1 zero8_4)) -∗ K ⟨⟩))
      ⊢ wp frame (wpE (defs₀ (F := F)) Variants.none c none) E (cc8__bias_relu_stats_kernel i arg1 harg1 arg2 harg2 arg3 harg3 arg4 harg4 arg5 harg5) K := by
  simp only [cc8__bias_relu_stats_kernel_eq_skeleton]; unfold cc8__bias_relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverBlk8 _)
  isplitl [H3]
  · iexists _; isplitr
    swap; · iexact H3
    ipureintro
    sl_unfold_run_names
    refine (View.read_writes_eq_canon _ _ _ (fun y => ⟨_, List.Mem.head _, memRow8 (k8_pay1 (F := F)) y⟩)).trans ?_
    rw [canon_row8, View.readCov_eq_canon_ld _ _ _ (coverRow8 _)]
    rfl
  iexists _; isplitr
  swap; · iexact H4
  ipureintro
  sl_unfold_run_names
  refine (View.read_writes_eq_canon _ _ _ (fun y => ⟨_, List.Mem.head _, memRow8 (k8_pay2 (F := F)) y⟩)).trans ?_
  rw [canon_row8, View.readCov_eq_canon_ld _ _ _ (coverRow8 _)]
  rfl

set_option maxHeartbeats 1000000 in
/-- At a later point (the conditional not taken): the same, the two rows held at `a3`, `a4` on entry and at one
    update of those on exit. -/
theorem sound_kernel8_B (c : Dev nD) (E : Set ℕ) (i : grid8.Coords)
    (arg1 : Memref sig .tc .vmem S1000x100 .f32) (harg1 : arg1.IsWhole) (arg2 : Memref sig .tc .vmem S1x100 .f32) (harg2 : arg2.IsWhole)
    (arg3 : Memref sig .tc .vmem S1000x100 .f32) (harg3 : arg3.IsWhole) (arg4 : Memref sig .tc .vmem S1x100 .f32) (harg4 : arg4.IsWhole)
    (arg5 : Memref sig .tc .vmem S1x100 .f32) (harg5 : arg5.IsWhole) (hc : ¬cond8 i)
    (x0 : Vec F S1000x100 .f32) (x1 : Vec F S1x100 .f32) (a3 a4 : Vec F S1x100 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare a3 ∗ owns (c : Thread nD τ) arg5 fullShare a4
        ∗ (iprop(owns (c : Thread nD τ) arg1 fullShare x0 ∗ owns (c : Thread nD τ) arg2 fullShare x1
            ∗ owns (c : Thread nD τ) arg3 fullShare (out8_2 x0 x1)
            ∗ owns (c : Thread nD τ) arg4 fullShare (step8_3 x0 x1 a3)
            ∗ owns (c : Thread nD τ) arg5 fullShare (step8_4 x0 x1 a4)) -∗ K ⟨⟩))
      ⊢ wp frame (wpE (defs₀ (F := F)) Variants.none c none) E (cc8__bias_relu_stats_kernel i arg1 harg1 arg2 harg2 arg3 harg3 arg4 harg4 arg5 harg5) K := by
  simp only [cc8__bias_relu_stats_kernel_eq_skeleton]; unfold cc8__bias_relu_stats_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  subst hf0; subst hf1; subst hf3; subst hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverBlk8 _)
  isplitl [H3]
  · iexists _; isplitr
    swap; · iexact H3
    ipureintro
    exact View.read_writes_eq_canon _ _ _ (coverRow8 _)
  iexists _; isplitr
  swap; · iexact H4
  ipureintro
  exact View.read_writes_eq_canon _ _ _ (coverRow8 _)

/-! ## What the two running rows hold after each point -/

/-- The column-sum row after the body at position `n`: one update per point, from the reset row. -/
def acc8_3 (c : Dev nD) : (n : ℕ) → n < cfg8.N → Vec F S1x100 .f32
  | 0, hn => step8_3 (iblk8 V c 0 ⟨0, hn⟩) (iblk8 V c 1 ⟨0, hn⟩) zero8_3
  | n + 1, hn => step8_3 (iblk8 V c 0 ⟨n + 1, hn⟩) (iblk8 V c 1 ⟨n + 1, hn⟩) (acc8_3 c n (Nat.lt_of_succ_lt hn))

/-- The column-sum-of-squares row after the body at position `n`. -/
def acc8_4 (c : Dev nD) : (n : ℕ) → n < cfg8.N → Vec F S1x100 .f32
  | 0, hn => step8_4 (iblk8 V c 0 ⟨0, hn⟩) (iblk8 V c 1 ⟨0, hn⟩) zero8_4
  | n + 1, hn => step8_4 (iblk8 V c 0 ⟨n + 1, hn⟩) (iblk8 V c 1 ⟨n + 1, hn⟩) (acc8_4 c n (Nat.lt_of_succ_lt hn))

/-- At the first point: one update of the reset row. -/
theorem acc8_3_first (c : Dev nD) (t : Fin cfg8.N) (h0 : t.val = 0) :
    acc8_3 V c t.val t.isLt = step8_3 (iblk8 V c 0 t) (iblk8 V c 1 t) zero8_3 := by
  obtain ⟨n, hn⟩ := t
  cases n with
  | zero => exact rfl
  | succ n => exact absurd h0 (Nat.succ_ne_zero n)
theorem acc8_4_first (c : Dev nD) (t : Fin cfg8.N) (h0 : t.val = 0) :
    acc8_4 V c t.val t.isLt = step8_4 (iblk8 V c 0 t) (iblk8 V c 1 t) zero8_4 := by
  obtain ⟨n, hn⟩ := t
  cases n with
  | zero => exact rfl
  | succ n => exact absurd h0 (Nat.succ_ne_zero n)

/-- At a later point: one update of what the point before left. -/
theorem acc8_3_later (c : Dev nD) (t : Fin cfg8.N) (h0 : ¬t.val = 0) :
    acc8_3 V c t.val t.isLt = step8_3 (iblk8 V c 0 t) (iblk8 V c 1 t) (acc8_3 V c (t.val - 1) (Nat.lt_of_le_of_lt (Nat.sub_le _ _) t.isLt)) := by
  obtain ⟨n, hn⟩ := t
  cases n with
  | zero => exact absurd rfl h0
  | succ n => exact rfl
theorem acc8_4_later (c : Dev nD) (t : Fin cfg8.N) (h0 : ¬t.val = 0) :
    acc8_4 V c t.val t.isLt = step8_4 (iblk8 V c 0 t) (iblk8 V c 1 t) (acc8_4 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of pipeline 8 on core `c`: the arrays as the region finds them; after the body at point `t` each
    input's buffer at its block, the first output's at the clamped sum of the input blocks, the two rows at their
    running contents; the invariant is the scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
    | ⟨3, _⟩ => acc8_3 V c t.val t.isLt
    | ⟨4, _⟩ => acc8_4 V c t.val t.isLt
  Φ _ := Pipeline.ΦA spec8 c
  q _ := fullShare
  owed _ := 0

/-- The proof data's arrays are the region-entry contents (the definition projected). -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]
theorem after8_3 (c : Dev nD) (t : Fin cfg8.N) : (dat8 V c).after 3 t = acc8_3 V c t.val t.isLt := by dsimp only [dat8]
theorem after8_4 (c : Dev nD) (t : Fin cfg8.N) : (dat8 V c).after 4 t = acc8_4 V c t.val t.isLt := by dsimp only [dat8]

/-- Each input's current staging buffer holds its block at every point, fetched there or not: unfetched, the block
    index has not moved and the body left the block in place. -/
theorem before8_0 (c : Dev nD) (t : Fin cfg8.N) (d) : (dat8 V c).before 0 t d = iblk8 V c 0 t :=
  ((dat8 V c).before_in_eq_fetched 0 rfl (fun _ => rfl) (fun _ _ _ => rfl)
      (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl)
      (fun t => by rw [after8_1]; unfold Dat.blockOf iblk8; rw [A_eq8]; try rfl) t d).trans
    (by unfold Dat.fetched Dat.blockOf iblk8; rw [A_eq8]; try rfl)

/-- At a later point each running row's staging buffer holds what the body left at the point before: the buffer is
    written back after the last point only, the window is live and uncut. -/
theorem before8_3_later (c : Dev nD) (t : Fin cfg8.N) (h0 : ¬t.val = 0) (d) :
    (dat8 V c).before 3 t d = acc8_3 V c (t.val - 1) (Nat.lt_of_le_of_lt (Nat.sub_le _ _) t.isLt) := by
  have hN : t.val < _ := lt_of_lt_of_eq t.isLt (N_8 : cfg8.N = _)
  rw [Dat.before_out_kept _ 3 rfl t h0 (Bool.eq_false_iff.mpr fun h => by have := (flush8_3 _).mp h; dsimp only at this; omega)
    (fun _ => rfl) (fun _ _ => rfl)]
  dsimp only [dat8]
theorem before8_4_later (c : Dev nD) (t : Fin cfg8.N) (h0 : ¬t.val = 0) (d) :
    (dat8 V c).before 4 t d = acc8_4 V c (t.val - 1) (Nat.lt_of_le_of_lt (Nat.sub_le _ _) t.isLt) := by
  have hN : t.val < _ := lt_of_lt_of_eq t.isLt (N_8 : cfg8.N = _)
  rw [Dat.before_out_kept _ 4 rfl t h0 (Bool.eq_false_iff.mpr fun h => by have := (flush8_4 _).mp h; dsimp only at this; omega)
    (fun _ => rfl) (fun _ _ => rfl)]
  dsimp only [dat8]

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

set_option maxHeartbeats 800000 in
/-- The body at any point: the inputs' memrefs hold their blocks; the point is the first or a later one; at a later
    one each running row holds what the point before left; so the matching triple applies; the invariant and the
    core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2, after8_3, after8_4]
  by_cases h0 : t.val = 0
  · rw [acc8_3_first V c t h0, acc8_4_first V c t h0]
    iintro ⟨HΦ, Ho, ⟨%d0, H0⟩, ⟨%d1, H1⟩, ⟨%d2, H2⟩, ⟨%d3, H3⟩, ⟨%d4, H4⟩⟩
    iapply (sound_kernel8_A c Set.univ (grid8.coords t) _ _ _ _ _ _ _ _ _ _ ((hcond8 t).mpr h0) (iblk8 V c 0 t) (iblk8 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc8_3_later V c t h0, acc8_4_later V c t h0]
    simp only [before8_3_later V c t h0, before8_4_later V c t h0]
    iintro ⟨HΦ, Ho, ⟨%d0, H0⟩, ⟨%d1, H1⟩, ⟨%d2, H2⟩, ⟨%d3, H3⟩, ⟨%d4, H4⟩⟩
    iapply (sound_kernel8_B c Set.univ (grid8.coords t) _ _ _ _ _ _ _ _ _ _ (fun h => h0 ((hcond8 t).mp h)) (iblk8 V c 0 t) (iblk8 V c 1 t) _ _ _)
    isplitl [H0]; · iexact H0
    isplitl [H1]; · iexact H1
    isplitl [H2]; · iexists _; iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## The invariant at the region's ends -/

/-- Entering: the generator register and the scoped rest make the invariant at the first position. -/
theorem hin8 (c : Dev nD) :
    iprop((∃ r, prngReg c r) ∗ Pipeline.scopedRest (Ix := Unit) (Name := ℕ) (U := UR sig nD τ) (Lvl := ℕ) (Val := Elt F) spec8 c)
      ⊢ (dat8 V c).Φ 0 := by
  rw [show (dat8 V c).Φ 0 = Pipeline.ΦA spec8 c from rfl]; unfold Pipeline.ΦA
  iintro ⟨Hp, Hr⟩
  isplitl [Hr]; · iexact Hr
  iexact Hp

/-- Leaving: the invariant at the last position gives both back. -/
theorem hout8 (c : Dev nD) :
    (dat8 V c).Φ (Fin.last cfg8.N)
      ⊢ iprop((∃ r, prngReg c r) ∗ Pipeline.scopedRest (Ix := Unit) (Name := ℕ) (U := UR sig nD τ) (Lvl := ℕ) (Val := Elt F) spec8 c) := by
  rw [show (dat8 V c).Φ (Fin.last cfg8.N) = Pipeline.ΦA spec8 c from rfl]; unfold Pipeline.ΦA
  iintro ⟨Hr, Hp⟩
  isplitl [Hp]; · iexact Hp
  iexact Hr

end Cert.KernelIdeal.Hand

end
-- ==== Proof.Reg9.lean ====
import proofs.«408066_j62380105008311_2_alg».proof.Proof.Gen.KernelIdeal.Launch
import proofs.«408066_j62380105008311_2_alg».proof.Proof.Gen.KernelIdeal.Skeleton
import proofs.«408066_j62380105008311_2_alg».proof.Proof.Gen.KernelIdeal.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

/-! # Region 9: the normalise-then-multiply kernel, as a pipeline region entered at arbitrary contents

The kernel reads one row block of the activations, four feature rows (mean, variance, scale, shift) and the
weight matrix, and stores one row block of the product. Every access is a whole-buffer load or store, so the
region is of the simplest class: each input's staging buffer holds its block at every point, and the output's
buffer after the body is the single store's payload. Everything is stated at a parameter `V`, the TensorCore's
buffer contents when the region is entered, and at any float family. -/

-- membership in a rectangle of full extent recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not, for any proof
    data whose array is `V`'s and whose body leaves the block in place: where the window is not fetched its block
    index has not moved, so the block kept from the previous point is this point's. Window 0 (the activations). -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Window 1 (the mean row). -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Window 2 (the variance row). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Window 3 (the scale row). -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Window 4 (the shift row). -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Window 5 (the weight matrix). -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each a whole buffer -/

abbrev r9_0 : Rect S1000x100 := Rect.unit (s := S1000x100) ![0, 0] S1000x100.size inb_S1000x100_S1000x100_0_0
abbrev r9_1 : Rect S1x100 := Rect.unit (s := S1x100) ![0, 0] S1x100.size inb_S1x100_S1x100_0_0
abbrev r9_5 : Rect S100x60 := Rect.unit (s := S100x60) ![0, 0] S100x60.size inb_S100x60_S100x60_0_0
abbrev r9_6 : Rect S1000x60 := Rect.unit (s := S1000x60) ![0, 0] S1000x60.size inb_S1000x60_S1000x60_0_0

/-! ## What the body leaves in the output window's buffer -/

/-- Window 6's staging buffer after the body, from the input windows' blocks (activations, mean, variance, scale,
    shift, weights, in window order): its one store as a piece. The payload takes the variance row before the
    mean row, as the kernel loads them. -/
def out9_6 (x0 : Vec F S1000x100 .f32) (x1 x2 x3 x4 : Vec F S1x100 .f32) (x5 : Vec F S100x60 .f32) : Vec F S1000x60 .f32 :=
  View.canon [⟨r9_6, k9_pay1 (View.ld x0 r9_0) (View.ld x2 r9_1) (View.ld x1 r9_1) (View.ld x3 r9_1) (View.ld x4 r9_1) (View.ld x5 r9_5)⟩]

/-- The store tiles the buffer (by evaluation), so it covers it. -/
theorem cover9_6 (p0 : Vec F S1000x60 .f32) (y : S1000x60.Idx) :
    ∃ pc ∈ ([⟨r9_6, p0⟩] : List (View.Piece (Elt F) S1000x60 .f32)), y ∈ pc.1.set :=
  View.cover_of_tiled [⟨r9_6, p0⟩] S1000x60.size (by rfl) y

/-! ## The body's triple -/

set_option maxHeartbeats 1000000 in
/-- The kernel body on whole staging memrefs, the inputs' at read contents `xW` and the output's at anything, runs
    to the continuation holding the inputs' as they were and the output's at `out9_6` of the inputs'. The grid
    coordinate is not read. -/
theorem sound_kernel9 (c : Dev nD) (E : Set ℕ) (i : grid9.Coords)
    (arg1 : Memref sig .tc .vmem S1000x100 .f32) (harg1 : arg1.IsWhole) (arg2 : Memref sig .tc .vmem S1x100 .f32) (harg2 : arg2.IsWhole)
    (arg3 : Memref sig .tc .vmem S1x100 .f32) (harg3 : arg3.IsWhole) (arg4 : Memref sig .tc .vmem S1x100 .f32) (harg4 : arg4.IsWhole)
    (arg5 : Memref sig .tc .vmem S1x100 .f32) (harg5 : arg5.IsWhole) (arg6 : Memref sig .tc .vmem S100x60 .f32) (harg6 : arg6.IsWhole)
    (arg7 : Memref sig .tc .vmem S1000x60 .f32) (harg7 : arg7.IsWhole)
    (x0 : Vec F S1000x100 .f32) (x1 x2 x3 x4 : Vec F S1x100 .f32) (x5 : Vec F S100x60 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out9_6 x0 x1 x2 x3 x4 x5)) -∗ K ⟨⟩))
      ⊢ wp frame (wpE (defs₀ (F := F)) Variants.none c none) E
          (cc9__normalize_linear_kernel i arg1 harg1 arg2 harg2 arg3 harg3 arg4 harg4 arg5 harg5 arg6 harg6 arg7 harg7) K := by
  simp only [cc9__normalize_linear_kernel_eq_skeleton]; unfold cc9__normalize_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover9_6 _)

/-! ## The pipeline's proof data -/

/-- The proof data of pipeline 9 on core `c`: the arrays as the region finds them; after the body at point `t` each
    input's buffer at its block and the output's at `out9_6` of the input blocks; as invariant the scoped buffers no
    window stages and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t) (iblk9 V c 5 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t
    = out9_6 (iblk9 V c 0 t) (iblk9 V c 1 t) (iblk9 V c 2 t) (iblk9 V c 3 t) (iblk9 V c 4 t) (iblk9 V c 5 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t))

/-- The body at any point: the inputs' memrefs hold their blocks, so the body's triple applies; the invariant and
    the core's tallies pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel9 c Set.univ _ _ _ _ _ _ _ _ _ _ _ _ _ _ _
    (iblk9 V c 0 t) (iblk9 V c 1 t) (iblk9 V c 2 t) (iblk9 V c 3 t) (iblk9 V c 4 t) (iblk9 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The invariant at the region's ends -/

/-- The invariant at the first point, from the generator register and the scoped buffers no window stages. -/
theorem hin9 (c : Dev nD) :
    iprop((∃ r, prngReg c r) ∗ Pipeline.scopedRest (Ix := Unit) (Name := ℕ) (U := UR sig nD τ) (Lvl := ℕ) (Val := Elt F) spec9 c)
      ⊢ (dat9 V c).Φ 0 := by
  rw [show (dat9 V c).Φ 0 = Pipeline.ΦA spec9 c from rfl]; unfold Pipeline.ΦA
  iintro ⟨Hp, Hr⟩
  isplitl [Hr]; · iexact Hr
  iexact Hp

/-- The invariant at the last point gives both back. -/
theorem hout9 (c : Dev nD) :
    (dat9 V c).Φ (Fin.last cfg9.N)
      ⊢ iprop((∃ r, prngReg c r) ∗ Pipeline.scopedRest (Ix := Unit) (Name := ℕ) (U := UR sig nD τ) (Lvl := ℕ) (Val := Elt F) spec9 c) := by
  rw [show (dat9 V c).Φ (Fin.last cfg9.N) = Pipeline.ΦA spec9 c from rfl]; unfold Pipeline.ΦA
  iintro ⟨Hr, Hp⟩
  isplitl [Hp]; · iexact Hp
  iexact Hr

end Cert.KernelIdeal.Hand

end
-- ==== Proof.Reg10.lean ====
import proofs.«408066_j62380105008311_2_alg».proof.Proof.Gen.KernelIdeal.Launch
import proofs.«408066_j62380105008311_2_alg».proof.Proof.Gen.KernelIdeal.Skeleton
import proofs.«408066_j62380105008311_2_alg».proof.Proof.Gen.KernelIdeal.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

/-! # Region 10: a blocked matrix product accumulated in a scratch buffer

The grid is two-dimensional; along its second axis the body adds one block product into a scratch
accumulator, which it clears at the first step and copies to the output block at the last one.  This
file states, at any float family and at any entry contents `V` of the TensorCore's buffers, what the
accumulator holds after each grid point and proves the body's triple at every point. -/

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of accumulation steps (the extent of the grid's second axis) and the index of the last one:
    the only numerals of this file. -/
local notation "K₁₀" => 10
local notation "K₁₀last" => 9

/-! ## The body's two conditions, in closed form over the grid -/

/-- "This is the first accumulation step": the condition under which the body clears the accumulator. -/
abbrev cond10_0 (i : grid10.Coords) : Prop :=
  (Scalar.cmpi .ne (Scalar.extui (Scalar.cmpi .eq (BitVec.ofNat 32 (i 1).val) 0#32)) 0#32) = 1#1
/-- It holds exactly at the points whose position is a multiple of the number of steps. -/
theorem hcond10_0 : ∀ t : Fin cfg10.N, cond10_0 (grid10.coords t) ↔ t.val % K₁₀ = 0 :=
  (by decide +kernel : ∀ t : Fin grid10.N, cond10_0 (grid10.coords t) ↔ t.val % K₁₀ = 0)

/-- "This is the last accumulation step": the condition under which the body copies the accumulator out. -/
abbrev cond10_1 (i : grid10.Coords) : Prop := k10_cond2 i = 1#1
/-- It holds exactly at the points whose position is one short of a multiple of the number of steps. -/
theorem hcond10_1 : ∀ t : Fin cfg10.N, cond10_1 (grid10.coords t) ↔ t.val % K₁₀ = K₁₀last :=
  (by decide +kernel : ∀ t : Fin grid10.N, cond10_1 (grid10.coords t) ↔ t.val % K₁₀ = K₁₀last)

/-! ## Where the windows are idle -/

/-- The two operand windows are live at every point. -/
theorem liveAt10_0 : ∀ t : Fin cfg10.N, cfg10.idle 0 (grid10.coords t) = false := fun _ => rfl
theorem liveAt10_1 : ∀ t : Fin cfg10.N, cfg10.idle 1 (grid10.coords t) = false := fun _ => rfl
/-- The output window is idle, and not written back, wherever the step is not the last; -/
theorem idleAt10_2 : ∀ t : Fin cfg10.N, ¬cond10_1 (grid10.coords t) → cfg10.idle 2 (grid10.coords t) = true := by decide +kernel
theorem noFlush10_2 : ∀ t : Fin cfg10.N, ¬cond10_1 (grid10.coords t) → (cfg10.win 2).flush t = false := by decide +kernel
/-- and live at the last step. -/
theorem liveAt10_2 : ∀ t : Fin cfg10.N, cond10_1 (grid10.coords t) → cfg10.idle 2 (grid10.coords t) = false := by decide +kernel

/-! ## The memrefs the body is called with -/

/-- Each window's current staging memref at point `t`, and its wholeness. -/
abbrev ms10_0 (t : Fin cfg10.N) : Memref sig .tc .vmem S2000x1024 .bf16 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1024x60 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S2000x60 .f32 := win10_2.stage (cfg10.slots t 2)
abbrev hs10_2 (t : Fin cfg10.N) : (ms10_2 t).IsWhole := hstage10_2 ((cfg10.slots t 2).cast nbuf10_2)
/-- The accumulator: a whole scoped buffer of the call's own. -/
abbrev scM10 : Memref sig .tc .vmem S2000x60 .f32 := Memref.whole cc10_scratch0
/-- The views through which the accumulator's and the output block's contents are stated. -/
abbrev VS10 : View sig .tc .vmem S2000x60 .f32 := scM10.view
abbrev VO10_2 : View sig .tc .vmem S2000x60 .f32 := (Memref.whole cc10_stg2_0 : Memref sig .tc .vmem S2000x60 .f32).view

/-! ## The body on any whole memrefs, case by case

Three cases of the two conditions occur on the grid: the first step (clear, then accumulate), a middle step
(accumulate), the last step (accumulate, then copy out).  In each the body's stores leave lists of pieces in
the accumulator (and, at the last step, in the output block); the run finds them. -/

set_option maxHeartbeats 1000000 in
/-- FIRST STEP.  The operands' memrefs at their contents, the output's at contents handed back untouched, the
    accumulator at anything: the body runs to the continuation holding the accumulator with its pieces written. -/
noncomputable def run10_A (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : cond10_0 i) (hc1 : ¬cond10_1 i) (x0 : Vec F S2000x1024 .bf16) (x1 : Vec F S1024x60 .f32) :
    { LS : List (View.Piece (Elt F) S2000x60 .f32) //
      ∀ (xi2 : Vec F S2000x60 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc10__spmm_kernel i arg2 harg2 arg3 harg3 arg4 harg4 arg5 harg5) K } := by
  refine ⟨?_, fun xi2 E K => ?run⟩
  case run =>
    simp only [cc10__spmm_kernel_eq_skeleton]; unfold cc10__spmm_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A MIDDLE STEP.  As the first, but the accumulator at the contents `xs` the step before left. -/
noncomputable def run10_B (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : ¬cond10_0 i) (hc1 : ¬cond10_1 i) (x0 : Vec F S2000x1024 .bf16) (x1 : Vec F S1024x60 .f32) (xs : Vec F S2000x60 .f32) :
    { LS : List (View.Piece (Elt F) S2000x60 .f32) //
      ∀ (xi2 : Vec F S2000x60 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc10__spmm_kernel i arg2 harg2 arg3 harg3 arg4 harg4 arg5 harg5) K } := by
  refine ⟨?_, fun xi2 E K => ?run⟩
  case run =>
    simp only [cc10__spmm_kernel_eq_skeleton]; unfold cc10__spmm_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- THE LAST STEP.  The accumulator at the contents `xs` the step before left, the output's memref at anything:
    the body leaves pieces in both. -/
noncomputable def run10_C (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : ¬cond10_0 i) (hc1 : cond10_1 i) (x0 : Vec F S2000x1024 .bf16) (x1 : Vec F S1024x60 .f32) (xs : Vec F S2000x60 .f32) :
    Σ' (L2 : List (View.Piece (Elt F) S2000x60 .f32)), { LS : List (View.Piece (Elt F) S2000x60 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc10__spmm_kernel i arg2 harg2 arg3 harg3 arg4 harg4 arg5 harg5) K } := by
  refine ⟨?_, ?_, fun E K => ?run⟩
  case run =>
    simp only [cc10__spmm_kernel_eq_skeleton]; unfold cc10__spmm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What each case leaves, read back -/

/-- The first step's pieces cover the accumulator, -/
theorem scover10_A (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : cond10_0 i) (hc1 : ¬cond10_1 i) (x0 : Vec F S2000x1024 .bf16) (x1 : Vec F S1024x60 .f32) (y : S2000x60.Idx) :
    ∃ pc ∈ (run10_A c i arg2 harg2 arg3 harg3 arg4 harg4 arg5 harg5 hc0 hc1 x0 x1).1, y ∈ pc.1.set :=
  View.cover_of_tiledL (run10_A c i arg2 harg2 arg3 harg3 arg4 harg4 arg5 harg5 hc0 hc1 x0 x1).1 S2000x60.size (by sl_kernel_rfl) y

/-- and this is what they leave in it (read back over contents nothing consults). -/
def sout10_A (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : cond10_0 i) (hc1 : ¬cond10_1 i) (x0 : Vec F S2000x1024 .bf16) (x1 : Vec F S1024x60 .f32) : Vec F S2000x60 .f32 :=
  VS10.read (Elt F) (VS10.writes (Elt F) VS10.junk (run10_A c i arg2 harg2 arg3 harg3 arg4 harg4 arg5 harg5 hc0 hc1 x0 x1).1)

/-- A middle step's pieces cover the accumulator; what they leave. -/
theorem scover10_B (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : ¬cond10_0 i) (hc1 : ¬cond10_1 i) (x0 : Vec F S2000x1024 .bf16) (x1 : Vec F S1024x60 .f32) (xs : Vec F S2000x60 .f32) (y : S2000x60.Idx) :
    ∃ pc ∈ (run10_B c i arg2 harg2 arg3 harg3 arg4 harg4 arg5 harg5 hc0 hc1 x0 x1 xs).1, y ∈ pc.1.set :=
  View.cover_of_tiledL (run10_B c i arg2 harg2 arg3 harg3 arg4 harg4 arg5 harg5 hc0 hc1 x0 x1 xs).1 S2000x60.size (by sl_kernel_rfl) y

def sout10_B (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : ¬cond10_0 i) (hc1 : ¬cond10_1 i) (x0 : Vec F S2000x1024 .bf16) (x1 : Vec F S1024x60 .f32) (xs : Vec F S2000x60 .f32) : Vec F S2000x60 .f32 :=
  VS10.read (Elt F) (VS10.writes (Elt F) VS10.junk (run10_B c i arg2 harg2 arg3 harg3 arg4 harg4 arg5 harg5 hc0 hc1 x0 x1 xs).1)

/-- The last step's pieces cover the output block and the accumulator; what they leave in each. -/
theorem cover10_C (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : ¬cond10_0 i) (hc1 : cond10_1 i) (x0 : Vec F S2000x1024 .bf16) (x1 : Vec F S1024x60 .f32) (xs : Vec F S2000x60 .f32) (y : S2000x60.Idx) :
    ∃ pc ∈ (run10_C c i arg2 harg2 arg3 harg3 arg4 harg4 arg5 harg5 hc0 hc1 x0 x1 xs).1, y ∈ pc.1.set :=
  View.cover_of_tiledL (run10_C c i arg2 harg2 arg3 harg3 arg4 harg4 arg5 harg5 hc0 hc1 x0 x1 xs).1 S2000x60.size (by sl_kernel_rfl) y

def out10_C (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : ¬cond10_0 i) (hc1 : cond10_1 i) (x0 : Vec F S2000x1024 .bf16) (x1 : Vec F S1024x60 .f32) (xs : Vec F S2000x60 .f32) : Vec F S2000x60 .f32 :=
  VO10_2.read (Elt F) (VO10_2.writes (Elt F) VO10_2.junk (run10_C c i arg2 harg2 arg3 harg3 arg4 harg4 arg5 harg5 hc0 hc1 x0 x1 xs).1)

theorem scover10_C (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : ¬cond10_0 i) (hc1 : cond10_1 i) (x0 : Vec F S2000x1024 .bf16) (x1 : Vec F S1024x60 .f32) (xs : Vec F S2000x60 .f32) (y : S2000x60.Idx) :
    ∃ pc ∈ (run10_C c i arg2 harg2 arg3 harg3 arg4 harg4 arg5 harg5 hc0 hc1 x0 x1 xs).2.1, y ∈ pc.1.set :=
  View.cover_of_tiledL (run10_C c i arg2 harg2 arg3 harg3 arg4 harg4 arg5 harg5 hc0 hc1 x0 x1 xs).2.1 S2000x60.size (by sl_kernel_rfl) y

def sout10_C (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : ¬cond10_0 i) (hc1 : cond10_1 i) (x0 : Vec F S2000x1024 .bf16) (x1 : Vec F S1024x60 .f32) (xs : Vec F S2000x60 .f32) : Vec F S2000x60 .f32 :=
  VS10.read (Elt F) (VS10.writes (Elt F) VS10.junk (run10_C c i arg2 harg2 arg3 harg3 arg4 harg4 arg5 harg5 hc0 hc1 x0 x1 xs).2.1)

/-! ## The region at the entry contents `V` -/

-- the TensorCore's buffer contents when the region is entered
variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An operand window's current staging buffer holds its block at every point, for any proof data whose array is
    `V`'s and whose body leaves the block in place: the window is uncut and never idle, and where it is not fetched
    its block index has not moved. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The accumulator after each point -/

/-- THE ACCUMULATION.  What the accumulator holds after the body at position `n`: the case the closed forms select
    there, run at the point's memrefs and operand blocks — at a first step from anything, otherwise from what the
    point before left. -/
def scrAt10 (c : Dev nD) : (n : ℕ) → n < cfg10.N → Vec F S2000x60 .f32
  | 0, hn =>
    sout10_A c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10 (Memref.isWhole_whole _)
      ((hcond10_0 ⟨0, hn⟩).mpr (Nat.zero_mod _)) (fun h => (fun e => by (try dsimp only at e); omega) ((hcond10_1 ⟨0, hn⟩).mp h))
      (iblk10 V c 0 ⟨0, hn⟩) (iblk10 V c 1 ⟨0, hn⟩)
  | n + 1, hn =>
    if h0 : (n + 1) % K₁₀ = 0 then
      sout10_A c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10 (Memref.isWhole_whole _)
        ((hcond10_0 ⟨n + 1, hn⟩).mpr h0) (fun h => (fun e => by (try dsimp only at e h0); omega) ((hcond10_1 ⟨n + 1, hn⟩).mp h))
        (iblk10 V c 0 ⟨n + 1, hn⟩) (iblk10 V c 1 ⟨n + 1, hn⟩)
    else if h1 : (n + 1) % K₁₀ = K₁₀last then
      sout10_C c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10 (Memref.isWhole_whole _)
        (fun h => h0 ((hcond10_0 ⟨n + 1, hn⟩).mp h)) ((hcond10_1 ⟨n + 1, hn⟩).mpr h1)
        (iblk10 V c 0 ⟨n + 1, hn⟩) (iblk10 V c 1 ⟨n + 1, hn⟩) (scrAt10 c n (Nat.lt_of_succ_lt hn))
    else
      sout10_B c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10 (Memref.isWhole_whole _)
        (fun h => h0 ((hcond10_0 ⟨n + 1, hn⟩).mp h)) (fun h => h1 ((hcond10_1 ⟨n + 1, hn⟩).mp h))
        (iblk10 V c 0 ⟨n + 1, hn⟩) (iblk10 V c 1 ⟨n + 1, hn⟩) (scrAt10 c n (Nat.lt_of_succ_lt hn))

/-- The accumulator before a point that is not the first of the grid: what the point before left. -/
abbrev scrBefore10 (c : Dev nD) (t : Fin cfg10.N) : Vec F S2000x60 .f32 :=
  scrAt10 V c (t.val - 1) (Nat.lt_of_le_of_lt (Nat.sub_le _ _) t.isLt)

/-- `scrAt10` at a first step. -/
theorem scrAt10_A (c : Dev nD) (t : Fin cfg10.N) (h0 : t.val % K₁₀ = 0) (h1 : ¬t.val % K₁₀ = K₁₀last) :
    scrAt10 V c t.val t.isLt = sout10_A c (grid10.coords t) (ms10_0 t) (hs10_0 t) (ms10_1 t) (hs10_1 t) (ms10_2 t) (hs10_2 t) scM10 (Memref.isWhole_whole _)
      ((hcond10_0 t).mpr h0) (fun h => h1 ((hcond10_1 t).mp h)) (iblk10 V c 0 t) (iblk10 V c 1 t) := by
  obtain ⟨n, hn⟩ := t
  cases n with
  | zero => exact rfl
  | succ n => exact (dif_pos h0).trans rfl

/-- `scrAt10` at a middle step. -/
theorem scrAt10_B (c : Dev nD) (t : Fin cfg10.N) (h0 : ¬t.val % K₁₀ = 0) (h1 : ¬t.val % K₁₀ = K₁₀last) :
    scrAt10 V c t.val t.isLt = sout10_B c (grid10.coords t) (ms10_0 t) (hs10_0 t) (ms10_1 t) (hs10_1 t) (ms10_2 t) (hs10_2 t) scM10 (Memref.isWhole_whole _)
      (fun h => h0 ((hcond10_0 t).mp h)) (fun h => h1 ((hcond10_1 t).mp h)) (iblk10 V c 0 t) (iblk10 V c 1 t) (scrBefore10 V c t) := by
  obtain ⟨n, hn⟩ := t
  cases n with
  | zero => exact absurd (Nat.zero_mod _) h0
  | succ n => exact (dif_neg h0).trans ((dif_neg h1).trans rfl)

/-- `scrAt10` at a last step. -/
theorem scrAt10_C (c : Dev nD) (t : Fin cfg10.N) (h0 : ¬t.val % K₁₀ = 0) (h1 : t.val % K₁₀ = K₁₀last) :
    scrAt10 V c t.val t.isLt = sout10_C c (grid10.coords t) (ms10_0 t) (hs10_0 t) (ms10_1 t) (hs10_1 t) (ms10_2 t) (hs10_2 t) scM10 (Memref.isWhole_whole _)
      (fun h => h0 ((hcond10_0 t).mp h)) ((hcond10_1 t).mpr h1) (iblk10 V c 0 t) (iblk10 V c 1 t) (scrBefore10 V c t) := by
  obtain ⟨n, hn⟩ := t
  cases n with
  | zero => exact absurd (Nat.zero_mod _) h0
  | succ n => exact (dif_neg h0).trans ((dif_pos h1).trans rfl)

/-- What the output block's staging buffer holds after the body at point `t`: at a last step what that case leaves,
    from the accumulator as the point before left it; elsewhere the window is idle and this is a value nothing consults. -/
def outAt10 (c : Dev nD) (t : Fin cfg10.N) : Vec F S2000x60 .f32 :=
  if h1 : t.val % K₁₀ = K₁₀last then
    out10_C c (grid10.coords t) (ms10_0 t) (hs10_0 t) (ms10_1 t) (hs10_1 t) (ms10_2 t) (hs10_2 t) scM10 (Memref.isWhole_whole _)
      (fun h => absurd ((hcond10_0 t).mp h) (by omega)) ((hcond10_1 t).mpr h1) (iblk10 V c 0 t) (iblk10 V c 1 t) (scrBefore10 V c t)
  else VO10_2.read (Elt F) VO10_2.junk

theorem outAt10_C (c : Dev nD) (t : Fin cfg10.N) (h0 : ¬t.val % K₁₀ = 0) (h1 : t.val % K₁₀ = K₁₀last) :
    outAt10 V c t = out10_C c (grid10.coords t) (ms10_0 t) (hs10_0 t) (ms10_1 t) (hs10_1 t) (ms10_2 t) (hs10_2 t) scM10 (Memref.isWhole_whole _)
      (fun h => h0 ((hcond10_0 t).mp h)) ((hcond10_1 t).mpr h1) (iblk10 V c 0 t) (iblk10 V c 1 t) (scrBefore10 V c t) :=
  (dif_pos h1).trans rfl

/-! ## The region's invariant -/

/-- Every scoped buffer of the core that is neither a staging buffer of this call nor its accumulator, at some
    contents each: carried through the region unopened. -/
abbrev rest10 (c : Dev nD) : sProp 𝕄 :=
  Pipeline.scopedRestBut (Ix := Unit) (Name := ℕ) (U := UR sig nD τ) (Lvl := ℕ) (Val := Elt F) spec10 c [cc10_scratch0]

/-- The call's scoped rest, with the accumulator as a whole memref owned at some contents. -/
theorem scopedRest10_eq (c : Dev nD) :
    (Pipeline.scopedRest (Ix := Unit) (Name := ℕ) (U := UR sig nD τ) (Lvl := ℕ) (Val := Elt F) spec10 c : sProp 𝕄)
      = iprop((∃ d, owns (c : Thread nD τ) scM10 fullShare d) ∗ rest10 (F := F) c) := by
  rw [scopedRest10_split]; simp only [scM10, owns_whole]; try rfl

/-- The invariant before position `n`: before the first point the generator register at some state and the call's
    scoped rest (the accumulator at anything); afterwards the accumulator at what the point before left, the other
    scoped buffers at anything, the generator register at some state. -/
def PhiS10 (c : Dev nD) : (n : ℕ) → n ≤ cfg10.N → sProp 𝕄
  | 0, _ => iprop((∃ r, prngReg c r) ∗ Pipeline.scopedRest (Ix := Unit) (Name := ℕ) (U := UR sig nD τ) (Lvl := ℕ) (Val := Elt F) spec10 c)
  | n + 1, hn => iprop(owns (c : Thread nD τ) scM10 fullShare (scrAt10 V c n hn) ∗ rest10 (F := F) c ∗ (∃ r, prngReg c r))

theorem PhiS10_zero (c : Dev nD) (n : ℕ) (h : n ≤ cfg10.N) (hz : n = 0) :
    PhiS10 V c n h = iprop((∃ r, prngReg c r) ∗ Pipeline.scopedRest (Ix := Unit) (Name := ℕ) (U := UR sig nD τ) (Lvl := ℕ) (Val := Elt F) spec10 c) := by
  subst hz; rfl

theorem PhiS10_succ (c : Dev nD) (n : ℕ) (hn : n < cfg10.N) :
    PhiS10 V c (n + 1) hn = iprop(owns (c : Thread nD τ) scM10 fullShare (scrAt10 V c n hn) ∗ rest10 (F := F) c ∗ (∃ r, prngReg c r)) := rfl

theorem PhiS10_pos (c : Dev nD) (n : ℕ) (h : n ≤ cfg10.N) (hz : n ≠ 0) :
    PhiS10 V c n h = iprop(owns (c : Thread nD τ) scM10 fullShare (scrAt10 V c (n - 1) (by omega)) ∗ rest10 (F := F) c ∗ (∃ r, prngReg c r)) := by
  cases n with
  | zero => exact absurd rfl hz
  | succ n => rfl

/-- At any position the invariant yields the accumulator at SOME contents beside the rest: what a first step needs,
    and what the region gives back. -/
theorem PhiS10_any (c : Dev nD) (n : ℕ) (h : n ≤ cfg10.N) :
    PhiS10 V c n h ⊢ iprop((∃ d, owns (c : Thread nD τ) scM10 fullShare d) ∗ rest10 (F := F) c ∗ (∃ r, prngReg c r)) := by
  cases n with
  | zero =>
    rw [PhiS10_zero V c 0 h rfl, scopedRest10_eq]
    iintro ⟨Hg, HS, HR⟩
    isplitl [HS]; · iexact HS
    isplitl [HR]; · iexact HR
    iexact Hg
  | succ n =>
    rw [PhiS10_succ]
    iintro ⟨HS, HR, Hg⟩
    isplitl [HS]; · iexists _; iexact HS
    isplitl [HR]; · iexact HR
    iexact Hg

/-! ## The pipeline's proof data -/

/-- The proof data of pipeline 10 on core `c`: the arrays as the region finds them; after the body at point `t` each
    operand's buffer at its block and the output's at `outAt10`; the invariant `PhiS10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => outAt10 V c t
  Φ t := PhiS10 V c t.val (Nat.le_of_lt_succ t.isLt)
  q _ := fullShare
  owed _ := 0

/-- The proof data's arrays are the region-entry contents. -/
theorem A_eq10 (c : Dev nD) (w : Fin cfg10.W) : (dat10 V c).A w = V c (Pipeline.arrRef spec10 w) := by
  dsimp only [dat10]

/-- The invariant at a point's start, restated at the point's position. -/
theorem PhiS10_castSucc (c : Dev nD) (t : Fin cfg10.N) :
    (dat10 V c).Φ t.castSucc = PhiS10 V c t.val (Nat.le_of_lt t.isLt) := by
  dsimp only [dat10]; simp only [Fin.coe_castSucc]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = outAt10 V c t := by dsimp only [dat10]

/-- Each operand's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 4800000 in
/-- The body at any point.  The operands' memrefs hold their blocks; the closed forms say which step the point is;
    the invariant hands the body the accumulator — at anything at a first step, at what the point before left
    otherwise — and takes it back at this point's contents, since the step's pieces cover it; where the step is not
    the last the output's buffer goes through untouched, at the last its pieces cover it; the core owes nothing. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  rw [PhiS10_castSucc V c t]
  by_cases h0 : t.val % K₁₀ = 0
  · have h1 : ¬t.val % K₁₀ = K₁₀last := by omega
    rw [Dat.leavesExact_idle (dat10 V c) 2 t (idleAt10_2 t (fun h => h1 ((hcond10_1 t).mp h))) (noFlush10_2 t (fun h => h1 ((hcond10_1 t).mp h)))]
    rw [scrAt10_A V c t h0 h1]
    unfold sout10_A
    iintro ⟨HΦ, Ho, ⟨%d0, H0⟩, ⟨%d1, H1⟩, ⟨%d2, H2⟩⟩
    ihave HΦ' := (PhiS10_any V c t.val (Nat.le_of_lt t.isLt)) $$ HΦ
    icases HΦ' with ⟨HS, HR, Hg⟩
    iapply ((run10_A c (grid10.coords t) _ _ _ _ _ _ _ _ ((hcond10_0 t).mpr h0) (fun h => h1 ((hcond10_1 t).mp h)) (iblk10 V c 0 t) (iblk10 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS HR Hg]
    · isplitl [HS]
      · unfold owns; iexists _; isplitr
        swap; · iexact HS
        ipureintro; exact View.read_writes_of_cover _ _ _ _ _ (scover10_A c _ _ _ _ _ _ _ _ _ _ _ _ _)
      isplitl [HR]; · iexact HR
      iexact Hg
    isplitl [Ho]; · iexact Ho
    isplitl [H0]; · iexact H0
    isplitl [H1]; · iexact H1
    iexists _; iexact H2
  · have hz : t.val ≠ 0 := fun e => h0 (by rw [e])
    rw [PhiS10_pos V c _ _ hz]
    by_cases h1 : t.val % K₁₀ = K₁₀last
    · rw [show (dat10 V c).leavesExact 2 t = owns (c : Thread nD τ) (ms10_2 t) fullShare ((dat10 V c).after 2 t) from by
        unfold Dat.leavesExact; rw [liveAt10_2 t ((hcond10_1 t).mpr h1)], after10_2]
      rw [scrAt10_C V c t h0 h1, outAt10_C V c t h0 h1]
      unfold sout10_C out10_C
      iintro ⟨⟨HS, HR, Hg⟩, Ho, ⟨%d0, H0⟩, ⟨%d1, H1⟩, ⟨%d2, H2⟩⟩
      iapply ((run10_C c (grid10.coords t) _ _ _ _ _ _ _ _ (fun h => h0 ((hcond10_0 t).mp h)) ((hcond10_1 t).mpr h1) (iblk10 V c 0 t) (iblk10 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS]
        · unfold owns; iexists _; isplitr
          swap; · iexact HS
          ipureintro; exact View.read_writes_of_cover _ _ _ _ _ (scover10_C c _ _ _ _ _ _ _ _ _ _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover10_C c _ _ _ _ _ _ _ _ _ _ _ _ _ _)
    · rw [Dat.leavesExact_idle (dat10 V c) 2 t (idleAt10_2 t (fun h => h1 ((hcond10_1 t).mp h))) (noFlush10_2 t (fun h => h1 ((hcond10_1 t).mp h)))]
      rw [scrAt10_B V c t h0 h1]
      unfold sout10_B
      iintro ⟨⟨HS, HR, Hg⟩, Ho, ⟨%d0, H0⟩, ⟨%d1, H1⟩, ⟨%d2, H2⟩⟩
      iapply ((run10_B c (grid10.coords t) _ _ _ _ _ _ _ _ (fun h => h0 ((hcond10_0 t).mp h)) (fun h => h1 ((hcond10_1 t).mp h)) (iblk10 V c 0 t) (iblk10 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (scover10_B c _ _ _ _ _ _ _ _ _ _ _ _ _ _)
        isplitl [HR]; · iexact HR
        iexact Hg
      isplitl [Ho]; · iexact Ho
      isplitl [H0]; · iexact H0
      isplitl [H1]; · iexact H1
      iexists _; iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## Entering and leaving the region -/

/-- What the region is entered with — the generator register at some state and the call's scoped rest — is the
    invariant before the first point. -/
theorem hin10 (c : Dev nD) :
    iprop((∃ r, prngReg c r) ∗ Pipeline.scopedRest (Ix := Unit) (Name := ℕ) (U := UR sig nD τ) (Lvl := ℕ) (Val := Elt F) spec10 c)
      ⊢ (dat10 V c).Φ 0 := by
  rw [show (dat10 V c).Φ 0 = PhiS10 V c 0 (Nat.zero_le _) from rfl, PhiS10_zero V c 0 _ rfl]

/-- After the last point the invariant gives the same back: the accumulator's contents are forgotten. -/
theorem hout10 (c : Dev nD) :
    (dat10 V c).Φ (Fin.last cfg10.N)
      ⊢ iprop((∃ r, prngReg c r) ∗ Pipeline.scopedRest (Ix := Unit) (Name := ℕ) (U := UR sig nD τ) (Lvl := ℕ) (Val := Elt F) spec10 c) := by
  rw [show (dat10 V c).Φ (Fin.last cfg10.N) = PhiS10 V c (Fin.last cfg10.N).val (Nat.le_of_lt_succ (Fin.last cfg10.N).isLt) from rfl, scopedRest10_eq]
  iintro HΦ
  ihave HΦ' := (PhiS10_any V c _ _) $$ HΦ
  icases HΦ' with ⟨HS, HR, Hg⟩
  isplitl [Hg]; · iexact Hg
  isplitl [HS]; · iexact HS
  iexact HR

end Cert.KernelIdeal.Hand

end
-- ==== Proof.Reg11.lean ====
import proofs.«408066_j62380105008311_2_alg».proof.Proof.Gen.KernelIdeal.Launch
import proofs.«408066_j62380105008311_2_alg».proof.Proof.Gen.KernelIdeal.Skeleton
import proofs.«408066_j62380105008311_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 11: bias, relu, and the running column sums, at the entry contents `V`

The grid is one axis of row blocks. At each point the body adds the bias row to the block of rows, clamps at zero,
stores the result to the first output's block, and adds the block's column sums and column sums of squares into
two one-row outputs whose block never moves; at the first point it zeroes those two rows first. -/

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## The body's branch condition -/

/-- The condition of the body's one conditional, from the grid coordinates. -/
abbrev cond11 (i : grid11.Coords) : Prop := (Scalar.cmpi .ne (Scalar.extui (Scalar.cmpi .eq (BitVec.ofNat 32 (i 0).val) 0#32)) 0#32) = 1#1
/-- It holds at the first point only. -/
theorem hcond11 : ∀ t : Fin cfg11.N, cond11 (grid11.coords t) ↔ t.val = 0 :=
  (by decide +kernel : ∀ t : Fin grid11.N, cond11 (grid11.coords t) ↔ t.val = 0)

/-! ## The body's accesses: each is a whole buffer -/

abbrev rBlk11 : Rect S1000x60 := Rect.unit (s := S1000x60) ![0, 0] S1000x60.size inb_S1000x60_S1000x60_0_0
abbrev rRow11 : Rect S1x60 := Rect.unit (s := S1x60) ![0, 0] S1x60.size inb_S1x60_S1x60_0_0

/-- One whole-buffer store covers the block buffer, -/
theorem coverBlk11 (p : rBlk11.shape.Idx → Elt F .f32) (y : S1000x60.Idx) :
    ∃ pc ∈ ([⟨rBlk11, p⟩] : List (View.Piece (Elt F) S1000x60 .f32)), y ∈ pc.1.set :=
  View.cover_of_tiled [⟨rBlk11, p⟩] S1000x60.size (by rfl) y
/-- and the row buffer. -/
theorem coverRow11 (p : rRow11.shape.Idx → Elt F .f32) (y : S1x60.Idx) :
    ∃ pc ∈ ([⟨rRow11, p⟩] : List (View.Piece (Elt F) S1x60 .f32)), y ∈ pc.1.set :=
  View.cover_of_tiled [⟨rRow11, p⟩] S1x60.size (by rfl) y

/-- Every index of the row buffer lies in the whole-buffer rectangle (read off the cover by one piece). -/
theorem memRow11 (p : rRow11.shape.Idx → Elt F .f32) (y : S1x60.Idx) : y ∈ rRow11.set := by
  obtain ⟨pc, hm, hy⟩ := coverRow11 p y
  rw [List.mem_singleton] at hm; subst hm; exact hy

/-- A store over the whole row buffer hides every earlier store. -/
theorem canon_row11 (p : rRow11.shape.Idx → Elt F .f32) (L : List (View.Piece (Elt F) S1x60 .f32)) :
    View.canon (⟨rRow11, p⟩ :: L) = View.canon [⟨rRow11, p⟩] := by
  funext y
  obtain ⟨x, rfl⟩ : ∃ x, rRow11.emb x = y := rRow11.exists_idx_of_mem (memRow11 p y)
  rw [View.canon_cons_emb, View.canon_cons_emb]

/-! ## What the body leaves in each output window's buffer -/

/-- The first output's buffer after the body: the clamped sum of the row block and the bias row. -/
def out11_2 (x0 : Vec F S1000x60 .f32) (x1 : Vec F S1x60 .f32) : Vec F S1000x60 .f32 :=
  View.canon [⟨rBlk11, k11_pay3 (View.ld x0 rBlk11) (View.ld x1 rRow11)⟩]

/-- The column-sum row as the first point's reset leaves it, -/
def zero11_3 : Vec F S1x60 .f32 := View.canon [⟨rRow11, k11_pay1 (F := F)⟩]
/-- and the column-sum-of-squares row. -/
def zero11_4 : Vec F S1x60 .f32 := View.canon [⟨rRow11, k11_pay2 (F := F)⟩]

/-- The column-sum row after a point's update, from the row it held before (`a`), -/
def step11_3 (x0 : Vec F S1000x60 .f32) (x1 : Vec F S1x60 .f32) (a : Vec F S1x60 .f32) : Vec F S1x60 .f32 :=
  View.canon [⟨rRow11, k11_pay4 (View.ld x0 rBlk11) (View.ld x1 rRow11) (View.ld a rRow11)⟩]
/-- and the column-sum-of-squares row. -/
def step11_4 (x0 : Vec F S1000x60 .f32) (x1 : Vec F S1x60 .f32) (a : Vec F S1x60 .f32) : Vec F S1x60 .f32 :=
  View.canon [⟨rRow11, k11_pay5 (View.ld x0 rBlk11) (View.ld x1 rRow11) (View.ld a rRow11)⟩]

/-! ## The body's triple, at the first point and at a later one -/

set_option maxHeartbeats 1000000 in
/-- At the first point (the conditional taken): on whole staging memrefs, the inputs' at read contents and the
    outputs' at anything, the body runs to the continuation holding the inputs' as they were, the first output's at
    the clamped sum, and the two rows at one update of the reset rows. -/
theorem sound_kernel11_A (c : Dev nD) (E : Set ℕ) (i : grid11.Coords)
    (arg1 : Memref sig .tc .vmem S1000x60 .f32) (harg1 : arg1.IsWhole) (arg2 : Memref sig .tc .vmem S1x60 .f32) (harg2 : arg2.IsWhole)
    (arg3 : Memref sig .tc .vmem S1000x60 .f32) (harg3 : arg3.IsWhole) (arg4 : Memref sig .tc .vmem S1x60 .f32) (harg4 : arg4.IsWhole)
    (arg5 : Memref sig .tc .vmem S1x60 .f32) (harg5 : arg5.IsWhole) (hc : cond11 i)
    (x0 : Vec F S1000x60 .f32) (x1 : Vec F S1x60 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out11_2 x0 x1)
            ∗ owns (c : Thread nD τ) arg4 fullShare (step11_3 x0 x1 zero11_3)
            ∗ owns (c : Thread nD τ) arg5 fullShare (step11_4 x0 x1 zero11_4)) -∗ K ⟨⟩))
      ⊢ wp frame (wpE (defs₀ (F := F)) Variants.none c none) E (cc11__bias_relu_stats_kernel i arg1 harg1 arg2 harg2 arg3 harg3 arg4 harg4 arg5 harg5) K := by
  simp only [cc11__bias_relu_stats_kernel_eq_skeleton]; unfold cc11__bias_relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverBlk11 _)
  isplitl [H3]
  · iexists _; isplitr
    swap; · iexact H3
    ipureintro
    sl_unfold_run_names
    refine (View.read_writes_eq_canon _ _ _ (fun y => ⟨_, List.Mem.head _, memRow11 (k11_pay1 (F := F)) y⟩)).trans ?_
    rw [canon_row11, View.readCov_eq_canon_ld _ _ _ (coverRow11 _)]
    rfl
  iexists _; isplitr
  swap; · iexact H4
  ipureintro
  sl_unfold_run_names
  refine (View.read_writes_eq_canon _ _ _ (fun y => ⟨_, List.Mem.head _, memRow11 (k11_pay2 (F := F)) y⟩)).trans ?_
  rw [canon_row11, View.readCov_eq_canon_ld _ _ _ (coverRow11 _)]
  rfl

set_option maxHeartbeats 1000000 in
/-- At a later point (the conditional not taken): the same, the two rows held at `a3`, `a4` on entry and at one
    update of those on exit. -/
theorem sound_kernel11_B (c : Dev nD) (E : Set ℕ) (i : grid11.Coords)
    (arg1 : Memref sig .tc .vmem S1000x60 .f32) (harg1 : arg1.IsWhole) (arg2 : Memref sig .tc .vmem S1x60 .f32) (harg2 : arg2.IsWhole)
    (arg3 : Memref sig .tc .vmem S1000x60 .f32) (harg3 : arg3.IsWhole) (arg4 : Memref sig .tc .vmem S1x60 .f32) (harg4 : arg4.IsWhole)
    (arg5 : Memref sig .tc .vmem S1x60 .f32) (harg5 : arg5.IsWhole) (hc : ¬cond11 i)
    (x0 : Vec F S1000x60 .f32) (x1 : Vec F S1x60 .f32) (a3 a4 : Vec F S1x60 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare a3 ∗ owns (c : Thread nD τ) arg5 fullShare a4
        ∗ (iprop(owns (c : Thread nD τ) arg1 fullShare x0 ∗ owns (c : Thread nD τ) arg2 fullShare x1
            ∗ owns (c : Thread nD τ) arg3 fullShare (out11_2 x0 x1)
            ∗ owns (c : Thread nD τ) arg4 fullShare (step11_3 x0 x1 a3)
            ∗ owns (c : Thread nD τ) arg5 fullShare (step11_4 x0 x1 a4)) -∗ K ⟨⟩))
      ⊢ wp frame (wpE (defs₀ (F := F)) Variants.none c none) E (cc11__bias_relu_stats_kernel i arg1 harg1 arg2 harg2 arg3 harg3 arg4 harg4 arg5 harg5) K := by
  simp only [cc11__bias_relu_stats_kernel_eq_skeleton]; unfold cc11__bias_relu_stats_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  subst hf0; subst hf1; subst hf3; subst hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverBlk11 _)
  isplitl [H3]
  · iexists _; isplitr
    swap; · iexact H3
    ipureintro
    exact View.read_writes_eq_canon _ _ _ (coverRow11 _)
  iexists _; isplitr
  swap; · iexact H4
  ipureintro
  exact View.read_writes_eq_canon _ _ _ (coverRow11 _)

/-! ## What the two running rows hold after each point -/

/-- The column-sum row after the body at position `n`: one update per point, from the reset row. -/
def acc11_3 (c : Dev nD) : (n : ℕ) → n < cfg11.N → Vec F S1x60 .f32
  | 0, hn => step11_3 (iblk11 V c 0 ⟨0, hn⟩) (iblk11 V c 1 ⟨0, hn⟩) zero11_3
  | n + 1, hn => step11_3 (iblk11 V c 0 ⟨n + 1, hn⟩) (iblk11 V c 1 ⟨n + 1, hn⟩) (acc11_3 c n (Nat.lt_of_succ_lt hn))

/-- The column-sum-of-squares row after the body at position `n`. -/
def acc11_4 (c : Dev nD) : (n : ℕ) → n < cfg11.N → Vec F S1x60 .f32
  | 0, hn => step11_4 (iblk11 V c 0 ⟨0, hn⟩) (iblk11 V c 1 ⟨0, hn⟩) zero11_4
  | n + 1, hn => step11_4 (iblk11 V c 0 ⟨n + 1, hn⟩) (iblk11 V c 1 ⟨n + 1, hn⟩) (acc11_4 c n (Nat.lt_of_succ_lt hn))

/-- At the first point: one update of the reset row. -/
theorem acc11_3_first (c : Dev nD) (t : Fin cfg11.N) (h0 : t.val = 0) :
    acc11_3 V c t.val t.isLt = step11_3 (iblk11 V c 0 t) (iblk11 V c 1 t) zero11_3 := by
  obtain ⟨n, hn⟩ := t
  cases n with
  | zero => exact rfl
  | succ n => exact absurd h0 (Nat.succ_ne_zero n)
theorem acc11_4_first (c : Dev nD) (t : Fin cfg11.N) (h0 : t.val = 0) :
    acc11_4 V c t.val t.isLt = step11_4 (iblk11 V c 0 t) (iblk11 V c 1 t) zero11_4 := by
  obtain ⟨n, hn⟩ := t
  cases n with
  | zero => exact rfl
  | succ n => exact absurd h0 (Nat.succ_ne_zero n)

/-- At a later point: one update of what the point before left. -/
theorem acc11_3_later (c : Dev nD) (t : Fin cfg11.N) (h0 : ¬t.val = 0) :
    acc11_3 V c t.val t.isLt = step11_3 (iblk11 V c 0 t) (iblk11 V c 1 t) (acc11_3 V c (t.val - 1) (Nat.lt_of_le_of_lt (Nat.sub_le _ _) t.isLt)) := by
  obtain ⟨n, hn⟩ := t
  cases n with
  | zero => exact absurd rfl h0
  | succ n => exact rfl
theorem acc11_4_later (c : Dev nD) (t : Fin cfg11.N) (h0 : ¬t.val = 0) :
    acc11_4 V c t.val t.isLt = step11_4 (iblk11 V c 0 t) (iblk11 V c 1 t) (acc11_4 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of pipeline 11 on core `c`: the arrays as the region finds them; after the body at point `t` each
    input's buffer at its block, the first output's at the clamped sum of the input blocks, the two rows at their
    running contents; the invariant is the scoped rest and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
    | ⟨3, _⟩ => acc11_3 V c t.val t.isLt
    | ⟨4, _⟩ => acc11_4 V c t.val t.isLt
  Φ _ := Pipeline.ΦA spec11 c
  q _ := fullShare
  owed _ := 0

/-- The proof data's arrays are the region-entry contents (the definition projected). -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11_2 (iblk11 V c 0 t) (iblk11 V c 1 t) := by dsimp only [dat11]
theorem after11_3 (c : Dev nD) (t : Fin cfg11.N) : (dat11 V c).after 3 t = acc11_3 V c t.val t.isLt := by dsimp only [dat11]
theorem after11_4 (c : Dev nD) (t : Fin cfg11.N) : (dat11 V c).after 4 t = acc11_4 V c t.val t.isLt := by dsimp only [dat11]

/-- Each input's current staging buffer holds its block at every point, fetched there or not: unfetched, the block
    index has not moved and the body left the block in place. -/
theorem before11_0 (c : Dev nD) (t : Fin cfg11.N) (d) : (dat11 V c).before 0 t d = iblk11 V c 0 t :=
  ((dat11 V c).before_in_eq_fetched 0 rfl (fun _ => rfl) (fun _ _ _ => rfl)
      (fun t => by rw [after11_0]; unfold Dat.blockOf iblk11; rw [A_eq11]; try rfl) t d).trans
    (by unfold Dat.fetched Dat.blockOf iblk11; rw [A_eq11]; try rfl)
theorem before11_1 (c : Dev nD) (t : Fin cfg11.N) (d) : (dat11 V c).before 1 t d = iblk11 V c 1 t :=
  ((dat11 V c).before_in_eq_fetched 1 rfl (fun _ => rfl) (fun _ _ _ => rfl)
      (fun t => by rw [after11_1]; unfold Dat.blockOf iblk11; rw [A_eq11]; try rfl) t d).trans
    (by unfold Dat.fetched Dat.blockOf iblk11; rw [A_eq11]; try rfl)

/-- At a later point each running row's staging buffer holds what the body left at the point before: the buffer is
    written back after the last point only, the window is live and uncut. -/
theorem before11_3_later (c : Dev nD) (t : Fin cfg11.N) (h0 : ¬t.val = 0) (d) :
    (dat11 V c).before 3 t d = acc11_3 V c (t.val - 1) (Nat.lt_of_le_of_lt (Nat.sub_le _ _) t.isLt) := by
  have hN : t.val < _ := lt_of_lt_of_eq t.isLt (N_11 : cfg11.N = _)
  rw [Dat.before_out_kept _ 3 rfl t h0 (Bool.eq_false_iff.mpr fun h => by have := (flush11_3 _).mp h; dsimp only at this; omega)
    (fun _ => rfl) (fun _ _ => rfl)]
  dsimp only [dat11]
theorem before11_4_later (c : Dev nD) (t : Fin cfg11.N) (h0 : ¬t.val = 0) (d) :
    (dat11 V c).before 4 t d = acc11_4 V c (t.val - 1) (Nat.lt_of_le_of_lt (Nat.sub_le _ _) t.isLt) := by
  have hN : t.val < _ := lt_of_lt_of_eq t.isLt (N_11 : cfg11.N = _)
  rw [Dat.before_out_kept _ 4 rfl t h0 (Bool.eq_false_iff.mpr fun h => by have := (flush11_4 _).mp h; dsimp only at this; omega)
    (fun _ => rfl) (fun _ _ => rfl)]
  dsimp only [dat11]

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

set_option maxHeartbeats 800000 in
/-- The body at any point: the inputs' memrefs hold their blocks; the point is the first or a later one; at a later
    one each running row holds what the point before left; so the matching triple applies; the invariant and the
    core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2, after11_3, after11_4]
  by_cases h0 : t.val = 0
  · rw [acc11_3_first V c t h0, acc11_4_first V c t h0]
    iintro ⟨HΦ, Ho, ⟨%d0, H0⟩, ⟨%d1, H1⟩, ⟨%d2, H2⟩, ⟨%d3, H3⟩, ⟨%d4, H4⟩⟩
    iapply (sound_kernel11_A c Set.univ (grid11.coords t) _ _ _ _ _ _ _ _ _ _ ((hcond11 t).mpr h0) (iblk11 V c 0 t) (iblk11 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc11_3_later V c t h0, acc11_4_later V c t h0]
    simp only [before11_3_later V c t h0, before11_4_later V c t h0]
    iintro ⟨HΦ, Ho, ⟨%d0, H0⟩, ⟨%d1, H1⟩, ⟨%d2, H2⟩, ⟨%d3, H3⟩, ⟨%d4, H4⟩⟩
    iapply (sound_kernel11_B c Set.univ (grid11.coords t) _ _ _ _ _ _ _ _ _ _ (fun h => h0 ((hcond11 t).mp h)) (iblk11 V c 0 t) (iblk11 V c 1 t) _ _ _)
    isplitl [H0]; · iexact H0
    isplitl [H1]; · iexact H1
    isplitl [H2]; · iexists _; iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation11 (c : Dev nD) : BodyObligation (dat11 (F := F) V c) (defs₀ (F := F)) Variants.none () Set.univ := fun t => by
  rw [bigSep_W11, bigSep_W11]
  exact sound_body11 V c t

/-! ## The invariant at the region's ends -/

/-- Entering: the generator register and the scoped rest make the invariant at the first position. -/
theorem hin11 (c : Dev nD) :
    iprop((∃ r, prngReg c r) ∗ Pipeline.scopedRest (Ix := Unit) (Name := ℕ) (U := UR sig nD τ) (Lvl := ℕ) (Val := Elt F) spec11 c)
      ⊢ (dat11 V c).Φ 0 := by
  rw [show (dat11 V c).Φ 0 = Pipeline.ΦA spec11 c from rfl]; unfold Pipeline.ΦA
  iintro ⟨Hp, Hr⟩
  isplitl [Hr]; · iexact Hr
  iexact Hp

/-- Leaving: the invariant at the last position gives both back. -/
theorem hout11 (c : Dev nD) :
    (dat11 V c).Φ (Fin.last cfg11.N)
      ⊢ iprop((∃ r, prngReg c r) ∗ Pipeline.scopedRest (Ix := Unit) (Name := ℕ) (U := UR sig nD τ) (Lvl := ℕ) (Val := Elt F) spec11 c) := by
  rw [show (dat11 V c).Φ (Fin.last cfg11.N) = Pipeline.ΦA spec11 c from rfl]; unfold Pipeline.ΦA
  iintro ⟨Hr, Hp⟩
  isplitl [Hp]; · iexact Hp
  iexact Hr

end Cert.KernelIdeal.Hand

end
-- ==== Proof.Reg12.lean ====
import proofs.«408066_j62380105008311_2_alg».proof.Proof.Gen.KernelIdeal.Launch
import proofs.«408066_j62380105008311_2_alg».proof.Proof.Gen.KernelIdeal.Skeleton
import proofs.«408066_j62380105008311_2_alg».proof.Proof.Gen.KernelIdeal.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

/-! # Region 12: the normalise-then-multiply kernel, as a pipeline region entered at arbitrary contents

The kernel reads one row block of the activations, four feature rows (mean, variance, scale, shift) and the
weight matrix, and stores one row block of the product. Every access is a whole-buffer load or store, so the
region is of the simplest class: each input's staging buffer holds its block at every point, and the output's
buffer after the body is the single store's payload. Everything is stated at a parameter `V`, the TensorCore's
buffer contents when the region is entered, and at any float family. -/

-- membership in a rectangle of full extent recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not, for any proof
    data whose array is `V`'s and whose body leaves the block in place: where the window is not fetched its block
    index has not moved, so the block kept from the previous point is this point's. Window 0 (the activations). -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Window 1 (the mean row). -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Window 2 (the variance row). -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Window 3 (the scale row). -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Window 4 (the shift row). -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-- Window 5 (the weight matrix). -/
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each a whole buffer -/

abbrev r12_0 : Rect S1000x60 := Rect.unit (s := S1000x60) ![0, 0] S1000x60.size inb_S1000x60_S1000x60_0_0
abbrev r12_1 : Rect S1x60 := Rect.unit (s := S1x60) ![0, 0] S1x60.size inb_S1x60_S1x60_0_0
abbrev r12_5 : Rect S60x17 := Rect.unit (s := S60x17) ![0, 0] S60x17.size inb_S60x17_S60x17_0_0
abbrev r12_6 : Rect S1000x17 := Rect.unit (s := S1000x17) ![0, 0] S1000x17.size inb_S1000x17_S1000x17_0_0

/-! ## What the body leaves in the output window's buffer -/

/-- Window 6's staging buffer after the body, from the input windows' blocks (activations, mean, variance, scale,
    shift, weights, in window order): its one store as a piece. The payload takes the variance row before the
    mean row, as the kernel loads them. -/
def out12_6 (x0 : Vec F S1000x60 .f32) (x1 x2 x3 x4 : Vec F S1x60 .f32) (x5 : Vec F S60x17 .f32) : Vec F S1000x17 .f32 :=
  View.canon [⟨r12_6, k12_pay1 (View.ld x0 r12_0) (View.ld x2 r12_1) (View.ld x1 r12_1) (View.ld x3 r12_1) (View.ld x4 r12_1) (View.ld x5 r12_5)⟩]

/-- The store tiles the buffer (by evaluation), so it covers it. -/
theorem cover12_6 (p0 : Vec F S1000x17 .f32) (y : S1000x17.Idx) :
    ∃ pc ∈ ([⟨r12_6, p0⟩] : List (View.Piece (Elt F) S1000x17 .f32)), y ∈ pc.1.set :=
  View.cover_of_tiled [⟨r12_6, p0⟩] S1000x17.size (by rfl) y

/-! ## The body's triple -/

set_option maxHeartbeats 1000000 in
/-- The kernel body on whole staging memrefs, the inputs' at read contents `xW` and the output's at anything, runs
    to the continuation holding the inputs' as they were and the output's at `out12_6` of the inputs'. The grid
    coordinate is not read. -/
theorem sound_kernel12 (c : Dev nD) (E : Set ℕ) (i : grid12.Coords)
    (arg1 : Memref sig .tc .vmem S1000x60 .f32) (harg1 : arg1.IsWhole) (arg2 : Memref sig .tc .vmem S1x60 .f32) (harg2 : arg2.IsWhole)
    (arg3 : Memref sig .tc .vmem S1x60 .f32) (harg3 : arg3.IsWhole) (arg4 : Memref sig .tc .vmem S1x60 .f32) (harg4 : arg4.IsWhole)
    (arg5 : Memref sig .tc .vmem S1x60 .f32) (harg5 : arg5.IsWhole) (arg6 : Memref sig .tc .vmem S60x17 .f32) (harg6 : arg6.IsWhole)
    (arg7 : Memref sig .tc .vmem S1000x17 .f32) (harg7 : arg7.IsWhole)
    (x0 : Vec F S1000x60 .f32) (x1 x2 x3 x4 : Vec F S1x60 .f32) (x5 : Vec F S60x17 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out12_6 x0 x1 x2 x3 x4 x5)) -∗ K ⟨⟩))
      ⊢ wp frame (wpE (defs₀ (F := F)) Variants.none c none) E
          (cc12__normalize_linear_kernel i arg1 harg1 arg2 harg2 arg3 harg3 arg4 harg4 arg5 harg5 arg6 harg6 arg7 harg7) K := by
  simp only [cc12__normalize_linear_kernel_eq_skeleton]; unfold cc12__normalize_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover12_6 _)

/-! ## The pipeline's proof data -/

/-- The proof data of pipeline 12 on core `c`: the arrays as the region finds them; after the body at point `t` each
    input's buffer at its block and the output's at `out12_6` of the input blocks; as invariant the scoped buffers no
    window stages and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => out12_6 (iblk12 V c 0 t) (iblk12 V c 1 t) (iblk12 V c 2 t) (iblk12 V c 3 t) (iblk12 V c 4 t) (iblk12 V c 5 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t
    = out12_6 (iblk12 V c 0 t) (iblk12 V c 1 t) (iblk12 V c 2 t) (iblk12 V c 3 t) (iblk12 V c 4 t) (iblk12 V c 5 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t))

/-- The body at any point: the inputs' memrefs hold their blocks, so the body's triple applies; the invariant and
    the core's tallies pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel12 c Set.univ _ _ _ _ _ _ _ _ _ _ _ _ _ _ _
    (iblk12 V c 0 t) (iblk12 V c 1 t) (iblk12 V c 2 t) (iblk12 V c 3 t) (iblk12 V c 4 t) (iblk12 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation12 (c : Dev nD) : BodyObligation (dat12 (F := F) V c) (defs₀ (F := F)) Variants.none () Set.univ := fun t => by
  rw [bigSep_W12, bigSep_W12]
  exact sound_body12 V c t

/-! ## The invariant at the region's ends -/

/-- The invariant at the first point, from the generator register and the scoped buffers no window stages. -/
theorem hin12 (c : Dev nD) :
    iprop((∃ r, prngReg c r) ∗ Pipeline.scopedRest (Ix := Unit) (Name := ℕ) (U := UR sig nD τ) (Lvl := ℕ) (Val := Elt F) spec12 c)
      ⊢ (dat12 V c).Φ 0 := by
  rw [show (dat12 V c).Φ 0 = Pipeline.ΦA spec12 c from rfl]; unfold Pipeline.ΦA
  iintro ⟨Hp, Hr⟩
  isplitl [Hr]; · iexact Hr
  iexact Hp

/-- The invariant at the last point gives both back. -/
theorem hout12 (c : Dev nD) :
    (dat12 V c).Φ (Fin.last cfg12.N)
      ⊢ iprop((∃ r, prngReg c r) ∗ Pipeline.scopedRest (Ix := Unit) (Name := ℕ) (U := UR sig nD τ) (Lvl := ℕ) (Val := Elt F) spec12 c) := by
  rw [show (dat12 V c).Φ (Fin.last cfg12.N) = Pipeline.ΦA spec12 c from rfl]; unfold Pipeline.ΦA
  iintro ⟨Hr, Hp⟩
  isplitl [Hp]; · iexact Hp
  iexact Hr

end Cert.KernelIdeal.Hand

end
-- ==== Proof.Reg13.lean ====
import proofs.«408066_j62380105008311_2_alg».proof.Proof.Gen.KernelIdeal.Launch
import proofs.«408066_j62380105008311_2_alg».proof.Proof.Gen.KernelIdeal.Skeleton
import proofs.«408066_j62380105008311_2_alg».proof.Proof.Gen.KernelIdeal.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

/-! # Region 13: a blocked matrix product accumulated in a scratch buffer

The grid is two-dimensional; along its second axis the body adds one block product into a scratch
accumulator, which it clears at the first step and copies to the output block at the last one.  This
file states, at any float family and at any entry contents `V` of the TensorCore's buffers, what the
accumulator holds after each grid point and proves the body's triple at every point. -/

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of accumulation steps (the extent of the grid's second axis) and the index of the last one:
    the only numerals of this file. -/
local notation "K₁₃" => 10
local notation "K₁₃last" => 9

/-! ## The body's two conditions, in closed form over the grid -/

/-- "This is the first accumulation step": the condition under which the body clears the accumulator. -/
abbrev cond13_0 (i : grid13.Coords) : Prop :=
  (Scalar.cmpi .ne (Scalar.extui (Scalar.cmpi .eq (BitVec.ofNat 32 (i 1).val) 0#32)) 0#32) = 1#1
/-- It holds exactly at the points whose position is a multiple of the number of steps. -/
theorem hcond13_0 : ∀ t : Fin cfg13.N, cond13_0 (grid13.coords t) ↔ t.val % K₁₃ = 0 :=
  (by decide +kernel : ∀ t : Fin grid13.N, cond13_0 (grid13.coords t) ↔ t.val % K₁₃ = 0)

/-- "This is the last accumulation step": the condition under which the body copies the accumulator out. -/
abbrev cond13_1 (i : grid13.Coords) : Prop := k13_cond2 i = 1#1
/-- It holds exactly at the points whose position is one short of a multiple of the number of steps. -/
theorem hcond13_1 : ∀ t : Fin cfg13.N, cond13_1 (grid13.coords t) ↔ t.val % K₁₃ = K₁₃last :=
  (by decide +kernel : ∀ t : Fin grid13.N, cond13_1 (grid13.coords t) ↔ t.val % K₁₃ = K₁₃last)

/-! ## Where the windows are idle -/

/-- The two operand windows are live at every point. -/
theorem liveAt13_0 : ∀ t : Fin cfg13.N, cfg13.idle 0 (grid13.coords t) = false := fun _ => rfl
theorem liveAt13_1 : ∀ t : Fin cfg13.N, cfg13.idle 1 (grid13.coords t) = false := fun _ => rfl
/-- The output window is idle, and not written back, wherever the step is not the last; -/
theorem idleAt13_2 : ∀ t : Fin cfg13.N, ¬cond13_1 (grid13.coords t) → cfg13.idle 2 (grid13.coords t) = true := by decide +kernel
theorem noFlush13_2 : ∀ t : Fin cfg13.N, ¬cond13_1 (grid13.coords t) → (cfg13.win 2).flush t = false := by decide +kernel
/-- and live at the last step. -/
theorem liveAt13_2 : ∀ t : Fin cfg13.N, cond13_1 (grid13.coords t) → cfg13.idle 2 (grid13.coords t) = false := by decide +kernel

/-! ## The memrefs the body is called with -/

/-- Each window's current staging memref at point `t`, and its wholeness. -/
abbrev ms13_0 (t : Fin cfg13.N) : Memref sig .tc .vmem S2000x1024 .bf16 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S1024x17 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S2000x17 .f32 := win13_2.stage (cfg13.slots t 2)
abbrev hs13_2 (t : Fin cfg13.N) : (ms13_2 t).IsWhole := hstage13_2 ((cfg13.slots t 2).cast nbuf13_2)
/-- The accumulator: a whole scoped buffer of the call's own. -/
abbrev scM13 : Memref sig .tc .vmem S2000x17 .f32 := Memref.whole cc13_scratch0
/-- The views through which the accumulator's and the output block's contents are stated. -/
abbrev VS13 : View sig .tc .vmem S2000x17 .f32 := scM13.view
abbrev VO13_2 : View sig .tc .vmem S2000x17 .f32 := (Memref.whole cc13_stg2_0 : Memref sig .tc .vmem S2000x17 .f32).view

/-! ## The body on any whole memrefs, case by case

Three cases of the two conditions occur on the grid: the first step (clear, then accumulate), a middle step
(accumulate), the last step (accumulate, then copy out).  In each the body's stores leave lists of pieces in
the accumulator (and, at the last step, in the output block); the run finds them. -/

set_option maxHeartbeats 1000000 in
/-- FIRST STEP.  The operands' memrefs at their contents, the output's at contents handed back untouched, the
    accumulator at anything: the body runs to the continuation holding the accumulator with its pieces written. -/
noncomputable def run13_A (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : cond13_0 i) (hc1 : ¬cond13_1 i) (x0 : Vec F S2000x1024 .bf16) (x1 : Vec F S1024x17 .f32) :
    { LS : List (View.Piece (Elt F) S2000x17 .f32) //
      ∀ (xi2 : Vec F S2000x17 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc13__spmm_kernel i arg2 harg2 arg3 harg3 arg4 harg4 arg5 harg5) K } := by
  refine ⟨?_, fun xi2 E K => ?run⟩
  case run =>
    simp only [cc13__spmm_kernel_eq_skeleton]; unfold cc13__spmm_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A MIDDLE STEP.  As the first, but the accumulator at the contents `xs` the step before left. -/
noncomputable def run13_B (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : ¬cond13_0 i) (hc1 : ¬cond13_1 i) (x0 : Vec F S2000x1024 .bf16) (x1 : Vec F S1024x17 .f32) (xs : Vec F S2000x17 .f32) :
    { LS : List (View.Piece (Elt F) S2000x17 .f32) //
      ∀ (xi2 : Vec F S2000x17 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc13__spmm_kernel i arg2 harg2 arg3 harg3 arg4 harg4 arg5 harg5) K } := by
  refine ⟨?_, fun xi2 E K => ?run⟩
  case run =>
    simp only [cc13__spmm_kernel_eq_skeleton]; unfold cc13__spmm_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- THE LAST STEP.  The accumulator at the contents `xs` the step before left, the output's memref at anything:
    the body leaves pieces in both. -/
noncomputable def run13_C (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : ¬cond13_0 i) (hc1 : cond13_1 i) (x0 : Vec F S2000x1024 .bf16) (x1 : Vec F S1024x17 .f32) (xs : Vec F S2000x17 .f32) :
    Σ' (L2 : List (View.Piece (Elt F) S2000x17 .f32)), { LS : List (View.Piece (Elt F) S2000x17 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc13__spmm_kernel i arg2 harg2 arg3 harg3 arg4 harg4 arg5 harg5) K } := by
  refine ⟨?_, ?_, fun E K => ?run⟩
  case run =>
    simp only [cc13__spmm_kernel_eq_skeleton]; unfold cc13__spmm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What each case leaves, read back -/

/-- The first step's pieces cover the accumulator, -/
theorem scover13_A (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : cond13_0 i) (hc1 : ¬cond13_1 i) (x0 : Vec F S2000x1024 .bf16) (x1 : Vec F S1024x17 .f32) (y : S2000x17.Idx) :
    ∃ pc ∈ (run13_A c i arg2 harg2 arg3 harg3 arg4 harg4 arg5 harg5 hc0 hc1 x0 x1).1, y ∈ pc.1.set :=
  View.cover_of_tiledL (run13_A c i arg2 harg2 arg3 harg3 arg4 harg4 arg5 harg5 hc0 hc1 x0 x1).1 S2000x17.size (by sl_kernel_rfl) y

/-- and this is what they leave in it (read back over contents nothing consults). -/
def sout13_A (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : cond13_0 i) (hc1 : ¬cond13_1 i) (x0 : Vec F S2000x1024 .bf16) (x1 : Vec F S1024x17 .f32) : Vec F S2000x17 .f32 :=
  VS13.read (Elt F) (VS13.writes (Elt F) VS13.junk (run13_A c i arg2 harg2 arg3 harg3 arg4 harg4 arg5 harg5 hc0 hc1 x0 x1).1)

/-- A middle step's pieces cover the accumulator; what they leave. -/
theorem scover13_B (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : ¬cond13_0 i) (hc1 : ¬cond13_1 i) (x0 : Vec F S2000x1024 .bf16) (x1 : Vec F S1024x17 .f32) (xs : Vec F S2000x17 .f32) (y : S2000x17.Idx) :
    ∃ pc ∈ (run13_B c i arg2 harg2 arg3 harg3 arg4 harg4 arg5 harg5 hc0 hc1 x0 x1 xs).1, y ∈ pc.1.set :=
  View.cover_of_tiledL (run13_B c i arg2 harg2 arg3 harg3 arg4 harg4 arg5 harg5 hc0 hc1 x0 x1 xs).1 S2000x17.size (by sl_kernel_rfl) y

def sout13_B (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : ¬cond13_0 i) (hc1 : ¬cond13_1 i) (x0 : Vec F S2000x1024 .bf16) (x1 : Vec F S1024x17 .f32) (xs : Vec F S2000x17 .f32) : Vec F S2000x17 .f32 :=
  VS13.read (Elt F) (VS13.writes (Elt F) VS13.junk (run13_B c i arg2 harg2 arg3 harg3 arg4 harg4 arg5 harg5 hc0 hc1 x0 x1 xs).1)

/-- The last step's pieces cover the output block and the accumulator; what they leave in each. -/
theorem cover13_C (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : ¬cond13_0 i) (hc1 : cond13_1 i) (x0 : Vec F S2000x1024 .bf16) (x1 : Vec F S1024x17 .f32) (xs : Vec F S2000x17 .f32) (y : S2000x17.Idx) :
    ∃ pc ∈ (run13_C c i arg2 harg2 arg3 harg3 arg4 harg4 arg5 harg5 hc0 hc1 x0 x1 xs).1, y ∈ pc.1.set :=
  View.cover_of_tiledL (run13_C c i arg2 harg2 arg3 harg3 arg4 harg4 arg5 harg5 hc0 hc1 x0 x1 xs).1 S2000x17.size (by sl_kernel_rfl) y

def out13_C (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : ¬cond13_0 i) (hc1 : cond13_1 i) (x0 : Vec F S2000x1024 .bf16) (x1 : Vec F S1024x17 .f32) (xs : Vec F S2000x17 .f32) : Vec F S2000x17 .f32 :=
  VO13_2.read (Elt F) (VO13_2.writes (Elt F) VO13_2.junk (run13_C c i arg2 harg2 arg3 harg3 arg4 harg4 arg5 harg5 hc0 hc1 x0 x1 xs).1)

theorem scover13_C (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : ¬cond13_0 i) (hc1 : cond13_1 i) (x0 : Vec F S2000x1024 .bf16) (x1 : Vec F S1024x17 .f32) (xs : Vec F S2000x17 .f32) (y : S2000x17.Idx) :
    ∃ pc ∈ (run13_C c i arg2 harg2 arg3 harg3 arg4 harg4 arg5 harg5 hc0 hc1 x0 x1 xs).2.1, y ∈ pc.1.set :=
  View.cover_of_tiledL (run13_C c i arg2 harg2 arg3 harg3 arg4 harg4 arg5 harg5 hc0 hc1 x0 x1 xs).2.1 S2000x17.size (by sl_kernel_rfl) y

def sout13_C (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : ¬cond13_0 i) (hc1 : cond13_1 i) (x0 : Vec F S2000x1024 .bf16) (x1 : Vec F S1024x17 .f32) (xs : Vec F S2000x17 .f32) : Vec F S2000x17 .f32 :=
  VS13.read (Elt F) (VS13.writes (Elt F) VS13.junk (run13_C c i arg2 harg2 arg3 harg3 arg4 harg4 arg5 harg5 hc0 hc1 x0 x1 xs).2.1)

/-! ## The region at the entry contents `V` -/

-- the TensorCore's buffer contents when the region is entered
variable (V : (c : Dev nD) → (b : Ref sig .tc) → Buf (Elt F) ((c : Thread nD τ).loc b))

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An operand window's current staging buffer holds its block at every point, for any proof data whose array is
    `V`'s and whose body leaves the block in place: the window is uncut and never idle, and where it is not fetched
    its block index has not moved. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-! ## The accumulator after each point -/

/-- THE ACCUMULATION.  What the accumulator holds after the body at position `n`: the case the closed forms select
    there, run at the point's memrefs and operand blocks — at a first step from anything, otherwise from what the
    point before left. -/
def scrAt13 (c : Dev nD) : (n : ℕ) → n < cfg13.N → Vec F S2000x17 .f32
  | 0, hn =>
    sout13_A c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) scM13 (Memref.isWhole_whole _)
      ((hcond13_0 ⟨0, hn⟩).mpr (Nat.zero_mod _)) (fun h => (fun e => by (try dsimp only at e); omega) ((hcond13_1 ⟨0, hn⟩).mp h))
      (iblk13 V c 0 ⟨0, hn⟩) (iblk13 V c 1 ⟨0, hn⟩)
  | n + 1, hn =>
    if h0 : (n + 1) % K₁₃ = 0 then
      sout13_A c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) scM13 (Memref.isWhole_whole _)
        ((hcond13_0 ⟨n + 1, hn⟩).mpr h0) (fun h => (fun e => by (try dsimp only at e h0); omega) ((hcond13_1 ⟨n + 1, hn⟩).mp h))
        (iblk13 V c 0 ⟨n + 1, hn⟩) (iblk13 V c 1 ⟨n + 1, hn⟩)
    else if h1 : (n + 1) % K₁₃ = K₁₃last then
      sout13_C c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) scM13 (Memref.isWhole_whole _)
        (fun h => h0 ((hcond13_0 ⟨n + 1, hn⟩).mp h)) ((hcond13_1 ⟨n + 1, hn⟩).mpr h1)
        (iblk13 V c 0 ⟨n + 1, hn⟩) (iblk13 V c 1 ⟨n + 1, hn⟩) (scrAt13 c n (Nat.lt_of_succ_lt hn))
    else
      sout13_B c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) scM13 (Memref.isWhole_whole _)
        (fun h => h0 ((hcond13_0 ⟨n + 1, hn⟩).mp h)) (fun h => h1 ((hcond13_1 ⟨n + 1, hn⟩).mp h))
        (iblk13 V c 0 ⟨n + 1, hn⟩) (iblk13 V c 1 ⟨n + 1, hn⟩) (scrAt13 c n (Nat.lt_of_succ_lt hn))

/-- The accumulator before a point that is not the first of the grid: what the point before left. -/
abbrev scrBefore13 (c : Dev nD) (t : Fin cfg13.N) : Vec F S2000x17 .f32 :=
  scrAt13 V c (t.val - 1) (Nat.lt_of_le_of_lt (Nat.sub_le _ _) t.isLt)

/-- `scrAt13` at a first step. -/
theorem scrAt13_A (c : Dev nD) (t : Fin cfg13.N) (h0 : t.val % K₁₃ = 0) (h1 : ¬t.val % K₁₃ = K₁₃last) :
    scrAt13 V c t.val t.isLt = sout13_A c (grid13.coords t) (ms13_0 t) (hs13_0 t) (ms13_1 t) (hs13_1 t) (ms13_2 t) (hs13_2 t) scM13 (Memref.isWhole_whole _)
      ((hcond13_0 t).mpr h0) (fun h => h1 ((hcond13_1 t).mp h)) (iblk13 V c 0 t) (iblk13 V c 1 t) := by
  obtain ⟨n, hn⟩ := t
  cases n with
  | zero => exact rfl
  | succ n => exact (dif_pos h0).trans rfl

/-- `scrAt13` at a middle step. -/
theorem scrAt13_B (c : Dev nD) (t : Fin cfg13.N) (h0 : ¬t.val % K₁₃ = 0) (h1 : ¬t.val % K₁₃ = K₁₃last) :
    scrAt13 V c t.val t.isLt = sout13_B c (grid13.coords t) (ms13_0 t) (hs13_0 t) (ms13_1 t) (hs13_1 t) (ms13_2 t) (hs13_2 t) scM13 (Memref.isWhole_whole _)
      (fun h => h0 ((hcond13_0 t).mp h)) (fun h => h1 ((hcond13_1 t).mp h)) (iblk13 V c 0 t) (iblk13 V c 1 t) (scrBefore13 V c t) := by
  obtain ⟨n, hn⟩ := t
  cases n with
  | zero => exact absurd (Nat.zero_mod _) h0
  | succ n => exact (dif_neg h0).trans ((dif_neg h1).trans rfl)

/-- `scrAt13` at a last step. -/
theorem scrAt13_C (c : Dev nD) (t : Fin cfg13.N) (h0 : ¬t.val % K₁₃ = 0) (h1 : t.val % K₁₃ = K₁₃last) :
    scrAt13 V c t.val t.isLt = sout13_C c (grid13.coords t) (ms13_0 t) (hs13_0 t) (ms13_1 t) (hs13_1 t) (ms13_2 t) (hs13_2 t) scM13 (Memref.isWhole_whole _)
      (fun h => h0 ((hcond13_0 t).mp h)) ((hcond13_1 t).mpr h1) (iblk13 V c 0 t) (iblk13 V c 1 t) (scrBefore13 V c t) := by
  obtain ⟨n, hn⟩ := t
  cases n with
  | zero => exact absurd (Nat.zero_mod _) h0
  | succ n => exact (dif_neg h0).trans ((dif_pos h1).trans rfl)

/-- What the output block's staging buffer holds after the body at point `t`: at a last step what that case leaves,
    from the accumulator as the point before left it; elsewhere the window is idle and this is a value nothing consults. -/
def outAt13 (c : Dev nD) (t : Fin cfg13.N) : Vec F S2000x17 .f32 :=
  if h1 : t.val % K₁₃ = K₁₃last then
    out13_C c (grid13.coords t) (ms13_0 t) (hs13_0 t) (ms13_1 t) (hs13_1 t) (ms13_2 t) (hs13_2 t) scM13 (Memref.isWhole_whole _)
      (fun h => absurd ((hcond13_0 t).mp h) (by omega)) ((hcond13_1 t).mpr h1) (iblk13 V c 0 t) (iblk13 V c 1 t) (scrBefore13 V c t)
  else VO13_2.read (Elt F) VO13_2.junk

theorem outAt13_C (c : Dev nD) (t : Fin cfg13.N) (h0 : ¬t.val % K₁₃ = 0) (h1 : t.val % K₁₃ = K₁₃last) :
    outAt13 V c t = out13_C c (grid13.coords t) (ms13_0 t) (hs13_0 t) (ms13_1 t) (hs13_1 t) (ms13_2 t) (hs13_2 t) scM13 (Memref.isWhole_whole _)
      (fun h => h0 ((hcond13_0 t).mp h)) ((hcond13_1 t).mpr h1) (iblk13 V c 0 t) (iblk13 V c 1 t) (scrBefore13 V c t) :=
  (dif_pos h1).trans rfl

/-! ## The region's invariant -/

/-- Every scoped buffer of the core that is neither a staging buffer of this call nor its accumulator, at some
    contents each: carried through the region unopened. -/
abbrev rest13 (c : Dev nD) : sProp 𝕄 :=
  Pipeline.scopedRestBut (Ix := Unit) (Name := ℕ) (U := UR sig nD τ) (Lvl := ℕ) (Val := Elt F) spec13 c [cc13_scratch0]

/-- The call's scoped rest, with the accumulator as a whole memref owned at some contents. -/
theorem scopedRest13_eq (c : Dev nD) :
    (Pipeline.scopedRest (Ix := Unit) (Name := ℕ) (U := UR sig nD τ) (Lvl := ℕ) (Val := Elt F) spec13 c : sProp 𝕄)
      = iprop((∃ d, owns (c : Thread nD τ) scM13 fullShare d) ∗ rest13 (F := F) c) := by
  rw [scopedRest13_split]; simp only [scM13, owns_whole]; try rfl

/-- The invariant before position `n`: before the first point the generator register at some state and the call's
    scoped rest (the accumulator at anything); afterwards the accumulator at what the point before left, the other
    scoped buffers at anything, the generator register at some state. -/
def PhiS13 (c : Dev nD) : (n : ℕ) → n ≤ cfg13.N → sProp 𝕄
  | 0, _ => iprop((∃ r, prngReg c r) ∗ Pipeline.scopedRest (Ix := Unit) (Name := ℕ) (U := UR sig nD τ) (Lvl := ℕ) (Val := Elt F) spec13 c)
  | n + 1, hn => iprop(owns (c : Thread nD τ) scM13 fullShare (scrAt13 V c n hn) ∗ rest13 (F := F) c ∗ (∃ r, prngReg c r))

theorem PhiS13_zero (c : Dev nD) (n : ℕ) (h : n ≤ cfg13.N) (hz : n = 0) :
    PhiS13 V c n h = iprop((∃ r, prngReg c r) ∗ Pipeline.scopedRest (Ix := Unit) (Name := ℕ) (U := UR sig nD τ) (Lvl := ℕ) (Val := Elt F) spec13 c) := by
  subst hz; rfl

theorem PhiS13_succ (c : Dev nD) (n : ℕ) (hn : n < cfg13.N) :
    PhiS13 V c (n + 1) hn = iprop(owns (c : Thread nD τ) scM13 fullShare (scrAt13 V c n hn) ∗ rest13 (F := F) c ∗ (∃ r, prngReg c r)) := rfl

theorem PhiS13_pos (c : Dev nD) (n : ℕ) (h : n ≤ cfg13.N) (hz : n ≠ 0) :
    PhiS13 V c n h = iprop(owns (c : Thread nD τ) scM13 fullShare (scrAt13 V c (n - 1) (by omega)) ∗ rest13 (F := F) c ∗ (∃ r, prngReg c r)) := by
  cases n with
  | zero => exact absurd rfl hz
  | succ n => rfl

/-- At any position the invariant yields the accumulator at SOME contents beside the rest: what a first step needs,
    and what the region gives back. -/
theorem PhiS13_any (c : Dev nD) (n : ℕ) (h : n ≤ cfg13.N) :
    PhiS13 V c n h ⊢ iprop((∃ d, owns (c : Thread nD τ) scM13 fullShare d) ∗ rest13 (F := F) c ∗ (∃ r, prngReg c r)) := by
  cases n with
  | zero =>
    rw [PhiS13_zero V c 0 h rfl, scopedRest13_eq]
    iintro ⟨Hg, HS, HR⟩
    isplitl [HS]; · iexact HS
    isplitl [HR]; · iexact HR
    iexact Hg
  | succ n =>
    rw [PhiS13_succ]
    iintro ⟨HS, HR, Hg⟩
    isplitl [HS]; · iexists _; iexact HS
    isplitl [HR]; · iexact HR
    iexact Hg

/-! ## The pipeline's proof data -/

/-- The proof data of pipeline 13 on core `c`: the arrays as the region finds them; after the body at point `t` each
    operand's buffer at its block and the output's at `outAt13`; the invariant `PhiS13`; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => outAt13 V c t
  Φ t := PhiS13 V c t.val (Nat.le_of_lt_succ t.isLt)
  q _ := fullShare
  owed _ := 0

/-- The proof data's arrays are the region-entry contents. -/
theorem A_eq13 (c : Dev nD) (w : Fin cfg13.W) : (dat13 V c).A w = V c (Pipeline.arrRef spec13 w) := by
  dsimp only [dat13]

/-- The invariant at a point's start, restated at the point's position. -/
theorem PhiS13_castSucc (c : Dev nD) (t : Fin cfg13.N) :
    (dat13 V c).Φ t.castSucc = PhiS13 V c t.val (Nat.le_of_lt t.isLt) := by
  dsimp only [dat13]; simp only [Fin.coe_castSucc]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = outAt13 V c t := by dsimp only [dat13]

/-- Each operand's current staging buffer holds its block at every point. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t)

set_option maxHeartbeats 4800000 in
/-- The body at any point.  The operands' memrefs hold their blocks; the closed forms say which step the point is;
    the invariant hands the body the accumulator — at anything at a first step, at what the point before left
    otherwise — and takes it back at this point's contents, since the step's pieces cover it; where the step is not
    the last the output's buffer goes through untouched, at the last its pieces cover it; the core owes nothing. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).owesAt () t.succ = (dat13 V c).owesAt () t.castSucc from rfl]
  rw [show (dat13 V c).Φ t.succ = PhiS13 V c (t.val + 1) t.isLt from rfl, PhiS13_succ]
  rw [show (dat13 V c).leavesExact 0 t = owns (c : Thread nD τ) (ms13_0 t) fullShare ((dat13 V c).after 0 t) from by
    unfold Dat.leavesExact; rw [liveAt13_0 t], after13_0]
  rw [show (dat13 V c).leavesExact 1 t = owns (c : Thread nD τ) (ms13_1 t) fullShare ((dat13 V c).after 1 t) from by
    unfold Dat.leavesExact; rw [liveAt13_1 t], after13_1]
  rw [PhiS13_castSucc V c t]
  by_cases h0 : t.val % K₁₃ = 0
  · have h1 : ¬t.val % K₁₃ = K₁₃last := by omega
    rw [Dat.leavesExact_idle (dat13 V c) 2 t (idleAt13_2 t (fun h => h1 ((hcond13_1 t).mp h))) (noFlush13_2 t (fun h => h1 ((hcond13_1 t).mp h)))]
    rw [scrAt13_A V c t h0 h1]
    unfold sout13_A
    iintro ⟨HΦ, Ho, ⟨%d0, H0⟩, ⟨%d1, H1⟩, ⟨%d2, H2⟩⟩
    ihave HΦ' := (PhiS13_any V c t.val (Nat.le_of_lt t.isLt)) $$ HΦ
    icases HΦ' with ⟨HS, HR, Hg⟩
    iapply ((run13_A c (grid13.coords t) _ _ _ _ _ _ _ _ ((hcond13_0 t).mpr h0) (fun h => h1 ((hcond13_1 t).mp h)) (iblk13 V c 0 t) (iblk13 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS HR Hg]
    · isplitl [HS]
      · unfold owns; iexists _; isplitr
        swap; · iexact HS
        ipureintro; exact View.read_writes_of_cover _ _ _ _ _ (scover13_A c _ _ _ _ _ _ _ _ _ _ _ _ _)
      isplitl [HR]; · iexact HR
      iexact Hg
    isplitl [Ho]; · iexact Ho
    isplitl [H0]; · iexact H0
    isplitl [H1]; · iexact H1
    iexists _; iexact H2
  · have hz : t.val ≠ 0 := fun e => h0 (by rw [e])
    rw [PhiS13_pos V c _ _ hz]
    by_cases h1 : t.val % K₁₃ = K₁₃last
    · rw [show (dat13 V c).leavesExact 2 t = owns (c : Thread nD τ) (ms13_2 t) fullShare ((dat13 V c).after 2 t) from by
        unfold Dat.leavesExact; rw [liveAt13_2 t ((hcond13_1 t).mpr h1)], after13_2]
      rw [scrAt13_C V c t h0 h1, outAt13_C V c t h0 h1]
      unfold sout13_C out13_C
      iintro ⟨⟨HS, HR, Hg⟩, Ho, ⟨%d0, H0⟩, ⟨%d1, H1⟩, ⟨%d2, H2⟩⟩
      iapply ((run13_C c (grid13.coords t) _ _ _ _ _ _ _ _ (fun h => h0 ((hcond13_0 t).mp h)) ((hcond13_1 t).mpr h1) (iblk13 V c 0 t) (iblk13 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS]
        · unfold owns; iexists _; isplitr
          swap; · iexact HS
          ipureintro; exact View.read_writes_of_cover _ _ _ _ _ (scover13_C c _ _ _ _ _ _ _ _ _ _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover13_C c _ _ _ _ _ _ _ _ _ _ _ _ _ _)
    · rw [Dat.leavesExact_idle (dat13 V c) 2 t (idleAt13_2 t (fun h => h1 ((hcond13_1 t).mp h))) (noFlush13_2 t (fun h => h1 ((hcond13_1 t).mp h)))]
      rw [scrAt13_B V c t h0 h1]
      unfold sout13_B
      iintro ⟨⟨HS, HR, Hg⟩, Ho, ⟨%d0, H0⟩, ⟨%d1, H1⟩, ⟨%d2, H2⟩⟩
      iapply ((run13_B c (grid13.coords t) _ _ _ _ _ _ _ _ (fun h => h0 ((hcond13_0 t).mp h)) (fun h => h1 ((hcond13_1 t).mp h)) (iblk13 V c 0 t) (iblk13 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (scover13_B c _ _ _ _ _ _ _ _ _ _ _ _ _ _)
        isplitl [HR]; · iexact HR
        iexact Hg
      isplitl [Ho]; · iexact Ho
      isplitl [H0]; · iexact H0
      isplitl [H1]; · iexact H1
      iexists _; iexact H2

/-- The library's body obligation, at every point. -/
theorem body_obligation13 (c : Dev nD) : BodyObligation (dat13 (F := F) V c) (defs₀ (F := F)) Variants.none () Set.univ := fun t => by
  rw [bigSep_W13, bigSep_W13]
  exact sound_body13 V c t

/-! ## Entering and leaving the region -/

/-- What the region is entered with — the generator register at some state and the call's scoped rest — is the
    invariant before the first point. -/
theorem hin13 (c : Dev nD) :
    iprop((∃ r, prngReg c r) ∗ Pipeline.scopedRest (Ix := Unit) (Name := ℕ) (U := UR sig nD τ) (Lvl := ℕ) (Val := Elt F) spec13 c)
      ⊢ (dat13 V c).Φ 0 := by
  rw [show (dat13 V c).Φ 0 = PhiS13 V c 0 (Nat.zero_le _) from rfl, PhiS13_zero V c 0 _ rfl]

/-- After the last point the invariant gives the same back: the accumulator's contents are forgotten. -/
theorem hout13 (c : Dev nD) :
    (dat13 V c).Φ (Fin.last cfg13.N)
      ⊢ iprop((∃ r, prngReg c r) ∗ Pipeline.scopedRest (Ix := Unit) (Name := ℕ) (U := UR sig nD τ) (Lvl := ℕ) (Val := Elt F) spec13 c) := by
  rw [show (dat13 V c).Φ (Fin.last cfg13.N) = PhiS13 V c (Fin.last cfg13.N).val (Nat.le_of_lt_succ (Fin.last cfg13.N).isLt) from rfl, scopedRest13_eq]
  iintro HΦ
  ihave HΦ' := (PhiS13_any V c _ _) $$ HΦ
  icases HΦ' with ⟨HS, HR, Hg⟩
  isplitl [Hg]; · iexact Hg
  isplitl [HS]; · iexact HS
  iexact HR

end Cert.KernelIdeal.Hand

end
-- ==== Proof.Reg14.lean ====
import proofs.«408066_j62380105008311_2_alg».proof.Proof.Gen.KernelIdeal.Launch
import proofs.«408066_j62380105008311_2_alg».proof.Proof.Gen.KernelIdeal.Skeleton
import proofs.«408066_j62380105008311_2_alg».proof.Proof.Gen.KernelIdeal.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

/-! # Region 14: the bias and log-softmax call

One control case. At every grid point the body loads a whole block of rows and the whole bias row, and stores a
whole block of rows: the bias is added to every row, the row's maximum is taken off, and the logarithm of the
row's sum of exponentials is taken off what is left. Everything is stated at a parameter `V`, the TensorCore's
buffer contents when the region is entered, and at any float family `F`. -/

-- membership in a rectangle of the block's extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The rows' window: its staging buffer holds its block at every point, for any proof data whose array is the
    entry contents and whose body leaves the block in place. The window is fetched at every point, uncut, never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- The bias row's window: fetched once, its block index never moves, so at a point where it is not fetched the
    buffer still holds the same block; the body leaves it in place. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses -/

/-- The whole block of rows, as a rectangle of itself, -/
abbrev r14_0 : Rect S1000x17 := Rect.unit (s := S1000x17) ![0, 0] S1000x17.size inb_S1000x17_S1000x17_0_0
/-- and the whole bias row. -/
abbrev r14_1 : Rect S1x17 := Rect.unit (s := S1x17) ![0, 0] S1x17.size inb_S1x17_S1x17_0_0

/-! ## What the body leaves in the output window's buffer -/

/-- The output's staging buffer after the body, from the two input blocks: its one store, of the payload
    "rows plus bias, less the row maximum, less the logarithm of the row's sum of exponentials". -/
def out14_2 (x0 : Vec F S1000x17 .f32) (x1 : Vec F S1x17 .f32) : Vec F S1000x17 .f32 :=
  View.canon [⟨r14_0, k14_pay1 (View.ld x0 r14_0) (View.ld x1 r14_1)⟩]

/-- The store is of the whole buffer, so it covers it. -/
theorem cover14_2 (p0 : Vec F S1000x17 .f32) (y : S1000x17.Idx) :
    ∃ pc ∈ ([⟨r14_0, p0⟩] : List (View.Piece (Elt F) S1000x17 .f32)), y ∈ pc.1.set :=
  View.cover_of_tiled [⟨r14_0, p0⟩] S1000x17.size (by rfl) y

/-! ## The body's triple -/

set_option maxHeartbeats 1000000 in
/-- The body on whole staging memrefs, the inputs' at read contents `x0`, `x1` and the output's at anything, runs to
    the continuation holding the inputs' as they were and the output's at `out14_2 x0 x1`. -/
theorem sound_kernel14 (c : Dev nD) (E : Set ℕ) (i : grid14.Coords)
    (arg1 : Memref sig .tc .vmem S1000x17 .f32) (harg1 : arg1.IsWhole)
    (arg2 : Memref sig .tc .vmem S1x17 .f32) (harg2 : arg2.IsWhole)
    (arg3 : Memref sig .tc .vmem S1000x17 .f32) (harg3 : arg3.IsWhole)
    (x0 : Vec F S1000x17 .f32) (x1 : Vec F S1x17 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out14_2 x0 x1)) -∗ K ⟨⟩))
      ⊢ wp frame (wpE (defs₀ (F := F)) Variants.none c none) E (cc14__bias_logsoftmax_kernel i arg1 harg1 arg2 harg2 arg3 harg3) K := by
  simp only [cc14__bias_logsoftmax_kernel_eq_skeleton]; unfold cc14__bias_logsoftmax_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover14_2 _)

/-! ## The pipeline's proof data -/

/-- The proof data of the region on core `c`: the arrays as the region finds them; after the body at point `t` each
    input's buffer at its block and the output's at `out14_2` of the two input blocks; the invariant the scoped
    buffers no window stages and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14_2 (iblk14 V c 0 t) (iblk14 V c 1 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) :
    (dat14 V c).after 2 t = out14_2 (iblk14 V c 0 t) (iblk14 V c 1 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t))

/-- The body at any point: the inputs' memrefs hold their blocks, so the body's triple applies; the invariant and the
    core's debts pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).Φ t.succ = (dat14 V c).Φ t.castSucc from rfl,
    show (dat14 V c).owesAt () t.succ = (dat14 V c).owesAt () t.castSucc from rfl,
    after14_0, after14_1, after14_2]
  iintro ⟨HΦ, Ho, ⟨%d0, H0⟩, ⟨%d1, H1⟩, ⟨%d2, H2⟩⟩
  iapply (sound_kernel14 c Set.univ _ _ _ _ _ _ _ (iblk14 V c 0 t) (iblk14 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation14 (c : Dev nD) : BodyObligation (dat14 (F := F) V c) (defs₀ (F := F)) Variants.none () Set.univ := fun t => by
  rw [bigSep_W14, bigSep_W14]
  exact sound_body14 V c t

/-! ## The invariant at the region's two ends -/

/-- The invariant at the first point, from the generator register and the scoped buffers no window stages. -/
theorem hin14 (c : Dev nD) :
    iprop((∃ r, prngReg c r) ∗ Pipeline.scopedRest (Ix := Unit) (Name := ℕ) (U := UR sig nD τ) (Lvl := ℕ) (Val := Elt F) spec14 c)
      ⊢ (dat14 V c).Φ 0 := by
  rw [show (dat14 V c).Φ 0 = Pipeline.ΦA spec14 c from rfl]; unfold Pipeline.ΦA
  iintro ⟨Hp, Hr⟩
  isplitl [Hr]; · iexact Hr
  iexact Hp

/-- The invariant at the last point gives both back. -/
theorem hout14 (c : Dev nD) :
    (dat14 V c).Φ (Fin.last cfg14.N)
      ⊢ iprop((∃ r, prngReg c r) ∗ Pipeline.scopedRest (Ix := Unit) (Name := ℕ) (U := UR sig nD τ) (Lvl := ℕ) (Val := Elt F) spec14 c) := by
  rw [show (dat14 V c).Φ (Fin.last cfg14.N) = Pipeline.ΦA spec14 c from rfl]; unfold Pipeline.ΦA
  iintro ⟨Hr, Hp⟩
  isplitl [Hp]; · iexact Hp
  iexact Hr

end Cert.KernelIdeal.Hand

end
-- ==== Proof.Assembly.lean ====
import proofs.«408066_j62380105008311_2_alg».proof.Proof.KernelIdealRegions
import proofs.«408066_j62380105008311_2_alg».proof.Proof.Reg0
import proofs.«408066_j62380105008311_2_alg».proof.Proof.Reg1
import proofs.«408066_j62380105008311_2_alg».proof.Proof.Reg2
import proofs.«408066_j62380105008311_2_alg».proof.Proof.Reg3
import proofs.«408066_j62380105008311_2_alg».proof.Proof.Reg4
import proofs.«408066_j62380105008311_2_alg».proof.Proof.Reg5
import proofs.«408066_j62380105008311_2_alg».proof.Proof.Reg6
import proofs.«408066_j62380105008311_2_alg».proof.Proof.Reg7
import proofs.«408066_j62380105008311_2_alg».proof.Proof.Reg8
import proofs.«408066_j62380105008311_2_alg».proof.Proof.Reg9
import proofs.«408066_j62380105008311_2_alg».proof.Proof.Reg10
import proofs.«408066_j62380105008311_2_alg».proof.Proof.Reg11
import proofs.«408066_j62380105008311_2_alg».proof.Proof.Reg12
import proofs.«408066_j62380105008311_2_alg».proof.Proof.Reg13
import proofs.«408066_j62380105008311_2_alg».proof.Proof.Reg14
import Idealize.ShloMosaic.Lib.Pipeline.FrameSuffix
import Idealize.ShloMosaic.Lib.Pipeline.RegionsLoop
import Idealize.ShloMosaic.Lib.Pipeline.Regions
import Idealize.ShloMosaic.Lib.Pipeline.Kit
import Idealize.ShloMosaic.Lib.Tactic

/-!
# The run of @main, assembled from its 37 items

@main is 22 stretches of host operations and 15 kernel regions.  Between two items every core holds each of its
unscoped buffers whole, at contents that are a function of the launch memory alone: a fold through the items.  A host
stretch maps the contents by its operations' semantics; a region leaves each of its windows' arrays at what its
write-backs leave (an input's array as entered) and every other buffer as entered.  Each region's kernel is taken
through its interface only: its proof data at the contents the region is entered from, its body obligation, and its
invariant at the two ends.

The theorems: the one-step equations of the fold; run_to, the run at any postcondition that follows from the
final contents of every unscoped buffer; run_all, the same with the final contents stated; each argument array
at the end of the fold is as launched, hence frame; and the result array at the end of the fold is what the last
region's write-backs leave.
-/

-- decided memberships among the program's references, and the chain of its items, recurse past the default depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items: a fold through @main -/

/-- A core's buffers at launch. -/
abbrev W0 : Dev nD → Valuation τ sig (Elt F) := fun c b => m (c, b)
abbrev V0 : (c : Dev nD) → (b : Ref sig .tc) → Buf (Elt F) ((c : Thread nD τ).loc b) := fun c b => W0 m c b

/-- After the host stretch hostOps0 (item 0). -/
abbrev W1 : Dev nD → Valuation τ sig (Elt F) := fun c => StableHlo.after hostOps0 (W0 m c)
theorem W1_eq (c : Dev nD) : W1 m c = StableHlo.after hostOps0 (W0 m c) := rfl
abbrev V1 : (c : Dev nD) → (b : Ref sig .tc) → Buf (Elt F) ((c : Thread nD τ).loc b) := fun c b => W1 m c b
theorem W1_of (c : Dev nD) (r : Ref sig .tc) (h : r ∉ GenP.hostOps0_W) :
    W1 m c (Proc.devRef .tc r) = W0 m c (Proc.devRef .tc r) :=
  StableHlo.after_of_writes_sub hostOps0 _ GenP.hostOps0_writes h

/-- After the host stretch hostOps0_1 (item 1). -/
abbrev W2 : Dev nD → Valuation τ sig (Elt F) := fun c => StableHlo.after hostOps0_1 (W1 m c)
theorem W2_eq (c : Dev nD) : W2 m c = StableHlo.after hostOps0_1 (W1 m c) := rfl
abbrev V2 : (c : Dev nD) → (b : Ref sig .tc) → Buf (Elt F) ((c : Thread nD τ).loc b) := fun c b => W2 m c b
theorem W2_of (c : Dev nD) (r : Ref sig .tc) (h : r ∉ GenP.hostOps0_1_W) :
    W2 m c (Proc.devRef .tc r) = W1 m c (Proc.devRef .tc r) :=
  StableHlo.after_of_writes_sub hostOps0_1 _ GenP.hostOps0_1_writes h

/-- After the host stretch hostOps0_2 (item 2). -/
abbrev W3 : Dev nD → Valuation τ sig (Elt F) := fun c => StableHlo.after hostOps0_2 (W2 m c)
theorem W3_eq (c : Dev nD) : W3 m c = StableHlo.after hostOps0_2 (W2 m c) := rfl
abbrev V3 : (c : Dev nD) → (b : Ref sig .tc) → Buf (Elt F) ((c : Thread nD τ).loc b) := fun c b => W3 m c b
theorem W3_of (c : Dev nD) (r : Ref sig .tc) (h : r ∉ GenP.hostOps0_2_W) :
    W3 m c (Proc.devRef .tc r) = W2 m c (Proc.devRef .tc r) :=
  StableHlo.after_of_writes_sub hostOps0_2 _ GenP.hostOps0_2_writes h

/-- After region 0 (item 3): its arrays at what the pipeline's write-backs leave, every other buffer as entered. -/
def W4 (c : Dev nD) : Valuation τ sig (Elt F) :=
  Pipeline.withArrays spec0 c (W3 m c) fun w => (dat0 (V3 m) c).arrAt w cfg0.N
theorem W4_eq (c : Dev nD) :
    W4 m c = Pipeline.withArrays spec0 c (W3 m c) fun w => (dat0 (V3 m) c).arrAt w cfg0.N := rfl
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- An input window's array is never written: the region leaves it as entered. -/
theorem W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (V3 m) c).arrAt_in w hin _).trans (A_eq0 (V3 m) c w))
/-- Region 0 changes its output arrays only (main_v47). -/
theorem W4_of (c : Dev nD) (r : Ref sig .tc) (h : r ∉ ([main_v47] : List (Ref sig .tc))) :
    W4 m c (Proc.devRef .tc r) = W3 m c (Proc.devRef .tc r) := by
  by_cases hr : ∃ w, Pipeline.arrRef spec0 w = r
  · obtain ⟨w, rfl⟩ := hr
    refine W4_in m c w ?_
    revert h; revert w; decide
  · exact W4_of_ne m c r fun w e => hr ⟨w, e⟩

/-- After the host stretch hostOps1 (item 4). -/
abbrev W5 : Dev nD → Valuation τ sig (Elt F) := fun c => StableHlo.after hostOps1 (W4 m c)
theorem W5_eq (c : Dev nD) : W5 m c = StableHlo.after hostOps1 (W4 m c) := rfl
abbrev V5 : (c : Dev nD) → (b : Ref sig .tc) → Buf (Elt F) ((c : Thread nD τ).loc b) := fun c b => W5 m c b
theorem W5_of (c : Dev nD) (r : Ref sig .tc) (h : r ∉ GenP.hostOps1_W) :
    W5 m c (Proc.devRef .tc r) = W4 m c (Proc.devRef .tc r) :=
  StableHlo.after_of_writes_sub hostOps1 _ GenP.hostOps1_writes h

/-- After the host stretch hostOps1_1 (item 5). -/
abbrev W6 : Dev nD → Valuation τ sig (Elt F) := fun c => StableHlo.after hostOps1_1 (W5 m c)
theorem W6_eq (c : Dev nD) : W6 m c = StableHlo.after hostOps1_1 (W5 m c) := rfl
abbrev V6 : (c : Dev nD) → (b : Ref sig .tc) → Buf (Elt F) ((c : Thread nD τ).loc b) := fun c b => W6 m c b
theorem W6_of (c : Dev nD) (r : Ref sig .tc) (h : r ∉ GenP.hostOps1_1_W) :
    W6 m c (Proc.devRef .tc r) = W5 m c (Proc.devRef .tc r) :=
  StableHlo.after_of_writes_sub hostOps1_1 _ GenP.hostOps1_1_writes h

/-- After region 1 (item 6): its arrays at what the pipeline's write-backs leave, every other buffer as entered. -/
def W7 (c : Dev nD) : Valuation τ sig (Elt F) :=
  Pipeline.withArrays spec1 c (W6 m c) fun w => (dat1 (V6 m) c).arrAt w cfg1.N
theorem W7_eq (c : Dev nD) :
    W7 m c = Pipeline.withArrays spec1 c (W6 m c) fun w => (dat1 (V6 m) c).arrAt w cfg1.N := rfl
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- The same read at the TensorCore's references. -/
abbrev V7 : (c : Dev nD) → (b : Ref sig .tc) → Buf (Elt F) ((c : Thread nD τ).loc b) := fun c b => W7 m c b
theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)
/-- An input window's array is never written: the region leaves it as entered. -/
theorem W7_in (c : Dev nD) (w : Fin cfg1.W) (hin : (cfg1.win w).isOut = false) :
    W7 m c (Proc.devRef .tc (Pipeline.arrRef spec1 w)) = W6 m c (Proc.devRef .tc (Pipeline.arrRef spec1 w)) :=
  (W7_arr m c w).trans (((dat1 (V6 m) c).arrAt_in w hin _).trans (A_eq1 (V6 m) c w))
/-- Region 1 changes its output arrays only (main_v49). -/
theorem W7_of (c : Dev nD) (r : Ref sig .tc) (h : r ∉ ([main_v49] : List (Ref sig .tc))) :
    W7 m c (Proc.devRef .tc r) = W6 m c (Proc.devRef .tc r) := by
  by_cases hr : ∃ w, Pipeline.arrRef spec1 w = r
  · obtain ⟨w, rfl⟩ := hr
    refine W7_in m c w ?_
    revert h; revert w; decide
  · exact W7_of_ne m c r fun w e => hr ⟨w, e⟩

/-- After the host stretch hostOps2 (item 7). -/
abbrev W8 : Dev nD → Valuation τ sig (Elt F) := fun c => StableHlo.after hostOps2 (W7 m c)
theorem W8_eq (c : Dev nD) : W8 m c = StableHlo.after hostOps2 (W7 m c) := rfl
abbrev V8 : (c : Dev nD) → (b : Ref sig .tc) → Buf (Elt F) ((c : Thread nD τ).loc b) := fun c b => W8 m c b
theorem W8_of (c : Dev nD) (r : Ref sig .tc) (h : r ∉ GenP.hostOps2_W) :
    W8 m c (Proc.devRef .tc r) = W7 m c (Proc.devRef .tc r) :=
  StableHlo.after_of_writes_sub hostOps2 _ GenP.hostOps2_writes h

/-- After region 2 (item 8): its arrays at what the pipeline's write-backs leave, every other buffer as entered. -/
def W9 (c : Dev nD) : Valuation τ sig (Elt F) :=
  Pipeline.withArrays spec2 c (W8 m c) fun w => (dat2 (V8 m) c).arrAt w cfg2.N
theorem W9_eq (c : Dev nD) :
    W9 m c = Pipeline.withArrays spec2 c (W8 m c) fun w => (dat2 (V8 m) c).arrAt w cfg2.N := rfl
theorem W9_arr (c : Dev nD) (w : Fin cfg2.W) :
    W9 m c (Proc.devRef .tc (Pipeline.arrRef spec2 w)) = (dat2 (V8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
/-- The same read at the TensorCore's references. -/
abbrev V9 : (c : Dev nD) → (b : Ref sig .tc) → Buf (Elt F) ((c : Thread nD τ).loc b) := fun c b => W9 m c b
theorem hF2 (c : Dev nD) (w : Fin cfg2.W) : (dat2 (V8 m) c).arrAt w cfg2.N = V9 m c (Pipeline.arrRef spec2 w) :=
  (W9_arr m c w).symm
theorem hrest2 (c : Dev nD) : ∀ b, b ∉ Finset.univ.image (Pipeline.arrRef spec2) → V9 m c b = V8 m c b :=
  fun b hb => W9_of_ne m c b fun w e => hb (Finset.mem_image.mpr ⟨w, Finset.mem_univ _, e⟩)
/-- An input window's array is never written: the region leaves it as entered. -/
theorem W9_in (c : Dev nD) (w : Fin cfg2.W) (hin : (cfg2.win w).isOut = false) :
    W9 m c (Proc.devRef .tc (Pipeline.arrRef spec2 w)) = W8 m c (Proc.devRef .tc (Pipeline.arrRef spec2 w)) :=
  (W9_arr m c w).trans (((dat2 (V8 m) c).arrAt_in w hin _).trans (A_eq2 (V8 m) c w))
/-- Region 2 changes its output arrays only (main_v51_0, main_v51_1, main_v51_2). -/
theorem W9_of (c : Dev nD) (r : Ref sig .tc) (h : r ∉ ([main_v51_0, main_v51_1, main_v51_2] : List (Ref sig .tc))) :
    W9 m c (Proc.devRef .tc r) = W8 m c (Proc.devRef .tc r) := by
  by_cases hr : ∃ w, Pipeline.arrRef spec2 w = r
  · obtain ⟨w, rfl⟩ := hr
    refine W9_in m c w ?_
    revert h; revert w; decide
  · exact W9_of_ne m c r fun w e => hr ⟨w, e⟩

/-- After the host stretch hostOps3 (item 9). -/
abbrev W10 : Dev nD → Valuation τ sig (Elt F) := fun c => StableHlo.after hostOps3 (W9 m c)
theorem W10_eq (c : Dev nD) : W10 m c = StableHlo.after hostOps3 (W9 m c) := rfl
abbrev V10 : (c : Dev nD) → (b : Ref sig .tc) → Buf (Elt F) ((c : Thread nD τ).loc b) := fun c b => W10 m c b
theorem W10_of (c : Dev nD) (r : Ref sig .tc) (h : r ∉ GenP.hostOps3_W) :
    W10 m c (Proc.devRef .tc r) = W9 m c (Proc.devRef .tc r) :=
  StableHlo.after_of_writes_sub hostOps3 _ GenP.hostOps3_writes h

/-- After region 3 (item 10): its arrays at what the pipeline's write-backs leave, every other buffer as entered. -/
def W11 (c : Dev nD) : Valuation τ sig (Elt F) :=
  Pipeline.withArrays spec3 c (W10 m c) fun w => (dat3 (V10 m) c).arrAt w cfg3.N
theorem W11_eq (c : Dev nD) :
    W11 m c = Pipeline.withArrays spec3 c (W10 m c) fun w => (dat3 (V10 m) c).arrAt w cfg3.N := rfl
theorem W11_arr (c : Dev nD) (w : Fin cfg3.W) :
    W11 m c (Proc.devRef .tc (Pipeline.arrRef spec3 w)) = (dat3 (V10 m) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m c (Proc.devRef .tc b) = W10 m c (Proc.devRef .tc b) := by
  unfold W11; exact Pipeline.withArrays_of_ne spec3 c _ _ b hb
/-- The same read at the TensorCore's references. -/
abbrev V11 : (c : Dev nD) → (b : Ref sig .tc) → Buf (Elt F) ((c : Thread nD τ).loc b) := fun c b => W11 m c b
theorem hF3 (c : Dev nD) (w : Fin cfg3.W) : (dat3 (V10 m) c).arrAt w cfg3.N = V11 m c (Pipeline.arrRef spec3 w) :=
  (W11_arr m c w).symm
theorem hrest3 (c : Dev nD) : ∀ b, b ∉ Finset.univ.image (Pipeline.arrRef spec3) → V11 m c b = V10 m c b :=
  fun b hb => W11_of_ne m c b fun w e => hb (Finset.mem_image.mpr ⟨w, Finset.mem_univ _, e⟩)
/-- An input window's array is never written: the region leaves it as entered. -/
theorem W11_in (c : Dev nD) (w : Fin cfg3.W) (hin : (cfg3.win w).isOut = false) :
    W11 m c (Proc.devRef .tc (Pipeline.arrRef spec3 w)) = W10 m c (Proc.devRef .tc (Pipeline.arrRef spec3 w)) :=
  (W11_arr m c w).trans (((dat3 (V10 m) c).arrAt_in w hin _).trans (A_eq3 (V10 m) c w))
/-- Region 3 changes its output arrays only (main_v66). -/
theorem W11_of (c : Dev nD) (r : Ref sig .tc) (h : r ∉ ([main_v66] : List (Ref sig .tc))) :
    W11 m c (Proc.devRef .tc r) = W10 m c (Proc.devRef .tc r) := by
  by_cases hr : ∃ w, Pipeline.arrRef spec3 w = r
  · obtain ⟨w, rfl⟩ := hr
    refine W11_in m c w ?_
    revert h; revert w; decide
  · exact W11_of_ne m c r fun w e => hr ⟨w, e⟩

/-- After the host stretch hostOps4 (item 11). -/
abbrev W12 : Dev nD → Valuation τ sig (Elt F) := fun c => StableHlo.after hostOps4 (W11 m c)
theorem W12_eq (c : Dev nD) : W12 m c = StableHlo.after hostOps4 (W11 m c) := rfl
abbrev V12 : (c : Dev nD) → (b : Ref sig .tc) → Buf (Elt F) ((c : Thread nD τ).loc b) := fun c b => W12 m c b
theorem W12_of (c : Dev nD) (r : Ref sig .tc) (h : r ∉ GenP.hostOps4_W) :
    W12 m c (Proc.devRef .tc r) = W11 m c (Proc.devRef .tc r) :=
  StableHlo.after_of_writes_sub hostOps4 _ GenP.hostOps4_writes h

/-- After the host stretch hostOps4_1 (item 12). -/
abbrev W13 : Dev nD → Valuation τ sig (Elt F) := fun c => StableHlo.after hostOps4_1 (W12 m c)
theorem W13_eq (c : Dev nD) : W13 m c = StableHlo.after hostOps4_1 (W12 m c) := rfl
abbrev V13 : (c : Dev nD) → (b : Ref sig .tc) → Buf (Elt F) ((c : Thread nD τ).loc b) := fun c b => W13 m c b
theorem W13_of (c : Dev nD) (r : Ref sig .tc) (h : r ∉ GenP.hostOps4_1_W) :
    W13 m c (Proc.devRef .tc r) = W12 m c (Proc.devRef .tc r) :=
  StableHlo.after_of_writes_sub hostOps4_1 _ GenP.hostOps4_1_writes h

/-- After region 4 (item 13): its arrays at what the pipeline's write-backs leave, every other buffer as entered. -/
def W14 (c : Dev nD) : Valuation τ sig (Elt F) :=
  Pipeline.withArrays spec4 c (W13 m c) fun w => (dat4 (V13 m) c).arrAt w cfg4.N
theorem W14_eq (c : Dev nD) :
    W14 m c = Pipeline.withArrays spec4 c (W13 m c) fun w => (dat4 (V13 m) c).arrAt w cfg4.N := rfl
theorem W14_arr (c : Dev nD) (w : Fin cfg4.W) :
    W14 m c (Proc.devRef .tc (Pipeline.arrRef spec4 w)) = (dat4 (V13 m) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m c (Proc.devRef .tc b) = W13 m c (Proc.devRef .tc b) := by
  unfold W14; exact Pipeline.withArrays_of_ne spec4 c _ _ b hb
/-- The same read at the TensorCore's references. -/
abbrev V14 : (c : Dev nD) → (b : Ref sig .tc) → Buf (Elt F) ((c : Thread nD τ).loc b) := fun c b => W14 m c b
theorem hF4 (c : Dev nD) (w : Fin cfg4.W) : (dat4 (V13 m) c).arrAt w cfg4.N = V14 m c (Pipeline.arrRef spec4 w) :=
  (W14_arr m c w).symm
theorem hrest4 (c : Dev nD) : ∀ b, b ∉ Finset.univ.image (Pipeline.arrRef spec4) → V14 m c b = V13 m c b :=
  fun b hb => W14_of_ne m c b fun w e => hb (Finset.mem_image.mpr ⟨w, Finset.mem_univ _, e⟩)
/-- An input window's array is never written: the region leaves it as entered. -/
theorem W14_in (c : Dev nD) (w : Fin cfg4.W) (hin : (cfg4.win w).isOut = false) :
    W14 m c (Proc.devRef .tc (Pipeline.arrRef spec4 w)) = W13 m c (Proc.devRef .tc (Pipeline.arrRef spec4 w)) :=
  (W14_arr m c w).trans (((dat4 (V13 m) c).arrAt_in w hin _).trans (A_eq4 (V13 m) c w))
/-- Region 4 changes its output arrays only (main_v68). -/
theorem W14_of (c : Dev nD) (r : Ref sig .tc) (h : r ∉ ([main_v68] : List (Ref sig .tc))) :
    W14 m c (Proc.devRef .tc r) = W13 m c (Proc.devRef .tc r) := by
  by_cases hr : ∃ w, Pipeline.arrRef spec4 w = r
  · obtain ⟨w, rfl⟩ := hr
    refine W14_in m c w ?_
    revert h; revert w; decide
  · exact W14_of_ne m c r fun w e => hr ⟨w, e⟩

/-- After the host stretch hostOps5 (item 14). -/
abbrev W15 : Dev nD → Valuation τ sig (Elt F) := fun c => StableHlo.after hostOps5 (W14 m c)
theorem W15_eq (c : Dev nD) : W15 m c = StableHlo.after hostOps5 (W14 m c) := rfl
abbrev V15 : (c : Dev nD) → (b : Ref sig .tc) → Buf (Elt F) ((c : Thread nD τ).loc b) := fun c b => W15 m c b
theorem W15_of (c : Dev nD) (r : Ref sig .tc) (h : r ∉ GenP.hostOps5_W) :
    W15 m c (Proc.devRef .tc r) = W14 m c (Proc.devRef .tc r) :=
  StableHlo.after_of_writes_sub hostOps5 _ GenP.hostOps5_writes h

/-- After region 5 (item 15): its arrays at what the pipeline's write-backs leave, every other buffer as entered. -/
def W16 (c : Dev nD) : Valuation τ sig (Elt F) :=
  Pipeline.withArrays spec5 c (W15 m c) fun w => (dat5 (V15 m) c).arrAt w cfg5.N
theorem W16_eq (c : Dev nD) :
    W16 m c = Pipeline.withArrays spec5 c (W15 m c) fun w => (dat5 (V15 m) c).arrAt w cfg5.N := rfl
theorem W16_arr (c : Dev nD) (w : Fin cfg5.W) :
    W16 m c (Proc.devRef .tc (Pipeline.arrRef spec5 w)) = (dat5 (V15 m) c).arrAt w cfg5.N := by
  unfold W16; exact Pipeline.withArrays_arr spec5 launch5.win.arr_inj c _ _ w
theorem W16_of_ne (c : Dev nD) (b : Ref sig .tc) (hb : ∀ w, Pipeline.arrRef spec5 w ≠ b) :
    W16 m c (Proc.devRef .tc b) = W15 m c (Proc.devRef .tc b) := by
  unfold W16; exact Pipeline.withArrays_of_ne spec5 c _ _ b hb
/-- The same read at the TensorCore's references. -/
abbrev V16 : (c : Dev nD) → (b : Ref sig .tc) → Buf (Elt F) ((c : Thread nD τ).loc b) := fun c b => W16 m c b
theorem hF5 (c : Dev nD) (w : Fin cfg5.W) : (dat5 (V15 m) c).arrAt w cfg5.N = V16 m c (Pipeline.arrRef spec5 w) :=
  (W16_arr m c w).symm
theorem hrest5 (c : Dev nD) : ∀ b, b ∉ Finset.univ.image (Pipeline.arrRef spec5) → V16 m c b = V15 m c b :=
  fun b hb => W16_of_ne m c b fun w e => hb (Finset.mem_image.mpr ⟨w, Finset.mem_univ _, e⟩)
/-- An input window's array is never written: the region leaves it as entered. -/
theorem W16_in (c : Dev nD) (w : Fin cfg5.W) (hin : (cfg5.win w).isOut = false) :
    W16 m c (Proc.devRef .tc (Pipeline.arrRef spec5 w)) = W15 m c (Proc.devRef .tc (Pipeline.arrRef spec5 w)) :=
  (W16_arr m c w).trans (((dat5 (V15 m) c).arrAt_in w hin _).trans (A_eq5 (V15 m) c w))
/-- Region 5 changes its output arrays only (main_v70_0, main_v70_1, main_v70_2). -/
theorem W16_of (c : Dev nD) (r : Ref sig .tc) (h : r ∉ ([main_v70_0, main_v70_1, main_v70_2] : List (Ref sig .tc))) :
    W16 m c (Proc.devRef .tc r) = W15 m c (Proc.devRef .tc r) := by
  by_cases hr : ∃ w, Pipeline.arrRef spec5 w = r
  · obtain ⟨w, rfl⟩ := hr
    refine W16_in m c w ?_
    revert h; revert w; decide
  · exact W16_of_ne m c r fun w e => hr ⟨w, e⟩

/-- After the host stretch hostOps6 (item 16). -/
abbrev W17 : Dev nD → Valuation τ sig (Elt F) := fun c => StableHlo.after hostOps6 (W16 m c)
theorem W17_eq (c : Dev nD) : W17 m c = StableHlo.after hostOps6 (W16 m c) := rfl
abbrev V17 : (c : Dev nD) → (b : Ref sig .tc) → Buf (Elt F) ((c : Thread nD τ).loc b) := fun c b => W17 m c b
theorem W17_of (c : Dev nD) (r : Ref sig .tc) (h : r ∉ GenP.hostOps6_W) :
    W17 m c (Proc.devRef .tc r) = W16 m c (Proc.devRef .tc r) :=
  StableHlo.after_of_writes_sub hostOps6 _ GenP.hostOps6_writes h

/-- After region 6 (item 17): its arrays at what the pipeline's write-backs leave, every other buffer as entered. -/
def W18 (c : Dev nD) : Valuation τ sig (Elt F) :=
  Pipeline.withArrays spec6 c (W17 m c) fun w => (dat6 (V17 m) c).arrAt w cfg6.N
theorem W18_eq (c : Dev nD) :
    W18 m c = Pipeline.withArrays spec6 c (W17 m c) fun w => (dat6 (V17 m) c).arrAt w cfg6.N := rfl
theorem W18_arr (c : Dev nD) (w : Fin cfg6.W) :
    W18 m c (Proc.devRef .tc (Pipeline.arrRef spec6 w)) = (dat6 (V17 m) c).arrAt w cfg6.N := by
  unfold W18; exact Pipeline.withArrays_arr spec6 launch6.win.arr_inj c _ _ w
theorem W18_of_ne (c : Dev nD) (b : Ref sig .tc) (hb : ∀ w, Pipeline.arrRef spec6 w ≠ b) :
    W18 m c (Proc.devRef .tc b) = W17 m c (Proc.devRef .tc b) := by
  unfold W18; exact Pipeline.withArrays_of_ne spec6 c _ _ b hb
/-- The same read at the TensorCore's references. -/
abbrev V18 : (c : Dev nD) → (b : Ref sig .tc) → Buf (Elt F) ((c : Thread nD τ).loc b) := fun c b => W18 m c b
theorem hF6 (c : Dev nD) (w : Fin cfg6.W) : (dat6 (V17 m) c).arrAt w cfg6.N = V18 m c (Pipeline.arrRef spec6 w) :=
  (W18_arr m c w).symm
theorem hrest6 (c : Dev nD) : ∀ b, b ∉ Finset.univ.image (Pipeline.arrRef spec6) → V18 m c b = V17 m c b :=
  fun b hb => W18_of_ne m c b fun w e => hb (Finset.mem_image.mpr ⟨w, Finset.mem_univ _, e⟩)
/-- An input window's array is never written: the region leaves it as entered. -/
theorem W18_in (c : Dev nD) (w : Fin cfg6.W) (hin : (cfg6.win w).isOut = false) :
    W18 m c (Proc.devRef .tc (Pipeline.arrRef spec6 w)) = W17 m c (Proc.devRef .tc (Pipeline.arrRef spec6 w)) :=
  (W18_arr m c w).trans (((dat6 (V17 m) c).arrAt_in w hin _).trans (A_eq6 (V17 m) c w))
/-- Region 6 changes its output arrays only (main_v85). -/
theorem W18_of (c : Dev nD) (r : Ref sig .tc) (h : r ∉ ([main_v85] : List (Ref sig .tc))) :
    W18 m c (Proc.devRef .tc r) = W17 m c (Proc.devRef .tc r) := by
  by_cases hr : ∃ w, Pipeline.arrRef spec6 w = r
  · obtain ⟨w, rfl⟩ := hr
    refine W18_in m c w ?_
    revert h; revert w; decide
  · exact W18_of_ne m c r fun w e => hr ⟨w, e⟩

/-- After the host stretch hostOps7 (item 18). -/
abbrev W19 : Dev nD → Valuation τ sig (Elt F) := fun c => StableHlo.after hostOps7 (W18 m c)
theorem W19_eq (c : Dev nD) : W19 m c = StableHlo.after hostOps7 (W18 m c) := rfl
abbrev V19 : (c : Dev nD) → (b : Ref sig .tc) → Buf (Elt F) ((c : Thread nD τ).loc b) := fun c b => W19 m c b
theorem W19_of (c : Dev nD) (r : Ref sig .tc) (h : r ∉ GenP.hostOps7_W) :
    W19 m c (Proc.devRef .tc r) = W18 m c (Proc.devRef .tc r) :=
  StableHlo.after_of_writes_sub hostOps7 _ GenP.hostOps7_writes h

/-- After the host stretch hostOps7_1 (item 19). -/
abbrev W20 : Dev nD → Valuation τ sig (Elt F) := fun c => StableHlo.after hostOps7_1 (W19 m c)
theorem W20_eq (c : Dev nD) : W20 m c = StableHlo.after hostOps7_1 (W19 m c) := rfl
abbrev V20 : (c : Dev nD) → (b : Ref sig .tc) → Buf (Elt F) ((c : Thread nD τ).loc b) := fun c b => W20 m c b
theorem W20_of (c : Dev nD) (r : Ref sig .tc) (h : r ∉ GenP.hostOps7_1_W) :
    W20 m c (Proc.devRef .tc r) = W19 m c (Proc.devRef .tc r) :=
  StableHlo.after_of_writes_sub hostOps7_1 _ GenP.hostOps7_1_writes h

/-- After region 7 (item 20): its arrays at what the pipeline's write-backs leave, every other buffer as entered. -/
def W21 (c : Dev nD) : Valuation τ sig (Elt F) :=
  Pipeline.withArrays spec7 c (W20 m c) fun w => (dat7 (V20 m) c).arrAt w cfg7.N
theorem W21_eq (c : Dev nD) :
    W21 m c = Pipeline.withArrays spec7 c (W20 m c) fun w => (dat7 (V20 m) c).arrAt w cfg7.N := rfl
theorem W21_arr (c : Dev nD) (w : Fin cfg7.W) :
    W21 m c (Proc.devRef .tc (Pipeline.arrRef spec7 w)) = (dat7 (V20 m) c).arrAt w cfg7.N := by
  unfold W21; exact Pipeline.withArrays_arr spec7 launch7.win.arr_inj c _ _ w
theorem W21_of_ne (c : Dev nD) (b : Ref sig .tc) (hb : ∀ w, Pipeline.arrRef spec7 w ≠ b) :
    W21 m c (Proc.devRef .tc b) = W20 m c (Proc.devRef .tc b) := by
  unfold W21; exact Pipeline.withArrays_of_ne spec7 c _ _ b hb
/-- The same read at the TensorCore's references. -/
abbrev V21 : (c : Dev nD) → (b : Ref sig .tc) → Buf (Elt F) ((c : Thread nD τ).loc b) := fun c b => W21 m c b
theorem hF7 (c : Dev nD) (w : Fin cfg7.W) : (dat7 (V20 m) c).arrAt w cfg7.N = V21 m c (Pipeline.arrRef spec7 w) :=
  (W21_arr m c w).symm
theorem hrest7 (c : Dev nD) : ∀ b, b ∉ Finset.univ.image (Pipeline.arrRef spec7) → V21 m c b = V20 m c b :=
  fun b hb => W21_of_ne m c b fun w e => hb (Finset.mem_image.mpr ⟨w, Finset.mem_univ _, e⟩)
/-- An input window's array is never written: the region leaves it as entered. -/
theorem W21_in (c : Dev nD) (w : Fin cfg7.W) (hin : (cfg7.win w).isOut = false) :
    W21 m c (Proc.devRef .tc (Pipeline.arrRef spec7 w)) = W20 m c (Proc.devRef .tc (Pipeline.arrRef spec7 w)) :=
  (W21_arr m c w).trans (((dat7 (V20 m) c).arrAt_in w hin _).trans (A_eq7 (V20 m) c w))
/-- Region 7 changes its output arrays only (main_v87). -/
theorem W21_of (c : Dev nD) (r : Ref sig .tc) (h : r ∉ ([main_v87] : List (Ref sig .tc))) :
    W21 m c (Proc.devRef .tc r) = W20 m c (Proc.devRef .tc r) := by
  by_cases hr : ∃ w, Pipeline.arrRef spec7 w = r
  · obtain ⟨w, rfl⟩ := hr
    refine W21_in m c w ?_
    revert h; revert w; decide
  · exact W21_of_ne m c r fun w e => hr ⟨w, e⟩

/-- After the host stretch hostOps8 (item 21). -/
abbrev W22 : Dev nD → Valuation τ sig (Elt F) := fun c => StableHlo.after hostOps8 (W21 m c)
theorem W22_eq (c : Dev nD) : W22 m c = StableHlo.after hostOps8 (W21 m c) := rfl
abbrev V22 : (c : Dev nD) → (b : Ref sig .tc) → Buf (Elt F) ((c : Thread nD τ).loc b) := fun c b => W22 m c b
theorem W22_of (c : Dev nD) (r : Ref sig .tc) (h : r ∉ GenP.hostOps8_W) :
    W22 m c (Proc.devRef .tc r) = W21 m c (Proc.devRef .tc r) :=
  StableHlo.after_of_writes_sub hostOps8 _ GenP.hostOps8_writes h

/-- After region 8 (item 22): its arrays at what the pipeline's write-backs leave, every other buffer as entered. -/
def W23 (c : Dev nD) : Valuation τ sig (Elt F) :=
  Pipeline.withArrays spec8 c (W22 m c) fun w => (dat8 (V22 m) c).arrAt w cfg8.N
theorem W23_eq (c : Dev nD) :
    W23 m c = Pipeline.withArrays spec8 c (W22 m c) fun w => (dat8 (V22 m) c).arrAt w cfg8.N := rfl
theorem W23_arr (c : Dev nD) (w : Fin cfg8.W) :
    W23 m c (Proc.devRef .tc (Pipeline.arrRef spec8 w)) = (dat8 (V22 m) c).arrAt w cfg8.N := by
  unfold W23; exact Pipeline.withArrays_arr spec8 launch8.win.arr_inj c _ _ w
theorem W23_of_ne (c : Dev nD) (b : Ref sig .tc) (hb : ∀ w, Pipeline.arrRef spec8 w ≠ b) :
    W23 m c (Proc.devRef .tc b) = W22 m c (Proc.devRef .tc b) := by
  unfold W23; exact Pipeline.withArrays_of_ne spec8 c _ _ b hb
/-- The same read at the TensorCore's references. -/
abbrev V23 : (c : Dev nD) → (b : Ref sig .tc) → Buf (Elt F) ((c : Thread nD τ).loc b) := fun c b => W23 m c b
theorem hF8 (c : Dev nD) (w : Fin cfg8.W) : (dat8 (V22 m) c).arrAt w cfg8.N = V23 m c (Pipeline.arrRef spec8 w) :=
  (W23_arr m c w).symm
theorem hrest8 (c : Dev nD) : ∀ b, b ∉ Finset.univ.image (Pipeline.arrRef spec8) → V23 m c b = V22 m c b :=
  fun b hb => W23_of_ne m c b fun w e => hb (Finset.mem_image.mpr ⟨w, Finset.mem_univ _, e⟩)
/-- An input window's array is never written: the region leaves it as entered. -/
theorem W23_in (c : Dev nD) (w : Fin cfg8.W) (hin : (cfg8.win w).isOut = false) :
    W23 m c (Proc.devRef .tc (Pipeline.arrRef spec8 w)) = W22 m c (Proc.devRef .tc (Pipeline.arrRef spec8 w)) :=
  (W23_arr m c w).trans (((dat8 (V22 m) c).arrAt_in w hin _).trans (A_eq8 (V22 m) c w))
/-- Region 8 changes its output arrays only (main_v89_0, main_v89_1, main_v89_2). -/
theorem W23_of (c : Dev nD) (r : Ref sig .tc) (h : r ∉ ([main_v89_0, main_v89_1, main_v89_2] : List (Ref sig .tc))) :
    W23 m c (Proc.devRef .tc r) = W22 m c (Proc.devRef .tc r) := by
  by_cases hr : ∃ w, Pipeline.arrRef spec8 w = r
  · obtain ⟨w, rfl⟩ := hr
    refine W23_in m c w ?_
    revert h; revert w; decide
  · exact W23_of_ne m c r fun w e => hr ⟨w, e⟩

/-- After the host stretch hostOps9 (item 23). -/
abbrev W24 : Dev nD → Valuation τ sig (Elt F) := fun c => StableHlo.after hostOps9 (W23 m c)
theorem W24_eq (c : Dev nD) : W24 m c = StableHlo.after hostOps9 (W23 m c) := rfl
abbrev V24 : (c : Dev nD) → (b : Ref sig .tc) → Buf (Elt F) ((c : Thread nD τ).loc b) := fun c b => W24 m c b
theorem W24_of (c : Dev nD) (r : Ref sig .tc) (h : r ∉ GenP.hostOps9_W) :
    W24 m c (Proc.devRef .tc r) = W23 m c (Proc.devRef .tc r) :=
  StableHlo.after_of_writes_sub hostOps9 _ GenP.hostOps9_writes h

/-- After region 9 (item 24): its arrays at what the pipeline's write-backs leave, every other buffer as entered. -/
def W25 (c : Dev nD) : Valuation τ sig (Elt F) :=
  Pipeline.withArrays spec9 c (W24 m c) fun w => (dat9 (V24 m) c).arrAt w cfg9.N
theorem W25_eq (c : Dev nD) :
    W25 m c = Pipeline.withArrays spec9 c (W24 m c) fun w => (dat9 (V24 m) c).arrAt w cfg9.N := rfl
theorem W25_arr (c : Dev nD) (w : Fin cfg9.W) :
    W25 m c (Proc.devRef .tc (Pipeline.arrRef spec9 w)) = (dat9 (V24 m) c).arrAt w cfg9.N := by
  unfold W25; exact Pipeline.withArrays_arr spec9 launch9.win.arr_inj c _ _ w
theorem W25_of_ne (c : Dev nD) (b : Ref sig .tc) (hb : ∀ w, Pipeline.arrRef spec9 w ≠ b) :
    W25 m c (Proc.devRef .tc b) = W24 m c (Proc.devRef .tc b) := by
  unfold W25; exact Pipeline.withArrays_of_ne spec9 c _ _ b hb
/-- The same read at the TensorCore's references. -/
abbrev V25 : (c : Dev nD) → (b : Ref sig .tc) → Buf (Elt F) ((c : Thread nD τ).loc b) := fun c b => W25 m c b
theorem hF9 (c : Dev nD) (w : Fin cfg9.W) : (dat9 (V24 m) c).arrAt w cfg9.N = V25 m c (Pipeline.arrRef spec9 w) :=
  (W25_arr m c w).symm
theorem hrest9 (c : Dev nD) : ∀ b, b ∉ Finset.univ.image (Pipeline.arrRef spec9) → V25 m c b = V24 m c b :=
  fun b hb => W25_of_ne m c b fun w e => hb (Finset.mem_image.mpr ⟨w, Finset.mem_univ _, e⟩)
/-- An input window's array is never written: the region leaves it as entered. -/
theorem W25_in (c : Dev nD) (w : Fin cfg9.W) (hin : (cfg9.win w).isOut = false) :
    W25 m c (Proc.devRef .tc (Pipeline.arrRef spec9 w)) = W24 m c (Proc.devRef .tc (Pipeline.arrRef spec9 w)) :=
  (W25_arr m c w).trans (((dat9 (V24 m) c).arrAt_in w hin _).trans (A_eq9 (V24 m) c w))
/-- Region 9 changes its output arrays only (main_v104). -/
theorem W25_of (c : Dev nD) (r : Ref sig .tc) (h : r ∉ ([main_v104] : List (Ref sig .tc))) :
    W25 m c (Proc.devRef .tc r) = W24 m c (Proc.devRef .tc r) := by
  by_cases hr : ∃ w, Pipeline.arrRef spec9 w = r
  · obtain ⟨w, rfl⟩ := hr
    refine W25_in m c w ?_
    revert h; revert w; decide
  · exact W25_of_ne m c r fun w e => hr ⟨w, e⟩

/-- After the host stretch hostOps10 (item 25). -/
abbrev W26 : Dev nD → Valuation τ sig (Elt F) := fun c => StableHlo.after hostOps10 (W25 m c)
theorem W26_eq (c : Dev nD) : W26 m c = StableHlo.after hostOps10 (W25 m c) := rfl
abbrev V26 : (c : Dev nD) → (b : Ref sig .tc) → Buf (Elt F) ((c : Thread nD τ).loc b) := fun c b => W26 m c b
theorem W26_of (c : Dev nD) (r : Ref sig .tc) (h : r ∉ GenP.hostOps10_W) :
    W26 m c (Proc.devRef .tc r) = W25 m c (Proc.devRef .tc r) :=
  StableHlo.after_of_writes_sub hostOps10 _ GenP.hostOps10_writes h

/-- After the host stretch hostOps10_1 (item 26). -/
abbrev W27 : Dev nD → Valuation τ sig (Elt F) := fun c => StableHlo.after hostOps10_1 (W26 m c)
theorem W27_eq (c : Dev nD) : W27 m c = StableHlo.after hostOps10_1 (W26 m c) := rfl
abbrev V27 : (c : Dev nD) → (b : Ref sig .tc) → Buf (Elt F) ((c : Thread nD τ).loc b) := fun c b => W27 m c b
theorem W27_of (c : Dev nD) (r : Ref sig .tc) (h : r ∉ GenP.hostOps10_1_W) :
    W27 m c (Proc.devRef .tc r) = W26 m c (Proc.devRef .tc r) :=
  StableHlo.after_of_writes_sub hostOps10_1 _ GenP.hostOps10_1_writes h

/-- After region 10 (item 27): its arrays at what the pipeline's write-backs leave, every other buffer as entered. -/
def W28 (c : Dev nD) : Valuation τ sig (Elt F) :=
  Pipeline.withArrays spec10 c (W27 m c) fun w => (dat10 (V27 m) c).arrAt w cfg10.N
theorem W28_eq (c : Dev nD) :
    W28 m c = Pipeline.withArrays spec10 c (W27 m c) fun w => (dat10 (V27 m) c).arrAt w cfg10.N := rfl
theorem W28_arr (c : Dev nD) (w : Fin cfg10.W) :
    W28 m c (Proc.devRef .tc (Pipeline.arrRef spec10 w)) = (dat10 (V27 m) c).arrAt w cfg10.N := by
  unfold W28; exact Pipeline.withArrays_arr spec10 launch10.win.arr_inj c _ _ w
theorem W28_of_ne (c : Dev nD) (b : Ref sig .tc) (hb : ∀ w, Pipeline.arrRef spec10 w ≠ b) :
    W28 m c (Proc.devRef .tc b) = W27 m c (Proc.devRef .tc b) := by
  unfold W28; exact Pipeline.withArrays_of_ne spec10 c _ _ b hb
/-- The same read at the TensorCore's references. -/
abbrev V28 : (c : Dev nD) → (b : Ref sig .tc) → Buf (Elt F) ((c : Thread nD τ).loc b) := fun c b => W28 m c b
theorem hF10 (c : Dev nD) (w : Fin cfg10.W) : (dat10 (V27 m) c).arrAt w cfg10.N = V28 m c (Pipeline.arrRef spec10 w) :=
  (W28_arr m c w).symm
theorem hrest10 (c : Dev nD) : ∀ b, b ∉ Finset.univ.image (Pipeline.arrRef spec10) → V28 m c b = V27 m c b :=
  fun b hb => W28_of_ne m c b fun w e => hb (Finset.mem_image.mpr ⟨w, Finset.mem_univ _, e⟩)
/-- An input window's array is never written: the region leaves it as entered. -/
theorem W28_in (c : Dev nD) (w : Fin cfg10.W) (hin : (cfg10.win w).isOut = false) :
    W28 m c (Proc.devRef .tc (Pipeline.arrRef spec10 w)) = W27 m c (Proc.devRef .tc (Pipeline.arrRef spec10 w)) :=
  (W28_arr m c w).trans (((dat10 (V27 m) c).arrAt_in w hin _).trans (A_eq10 (V27 m) c w))
/-- Region 10 changes its output arrays only (main_v106). -/
theorem W28_of (c : Dev nD) (r : Ref sig .tc) (h : r ∉ ([main_v106] : List (Ref sig .tc))) :
    W28 m c (Proc.devRef .tc r) = W27 m c (Proc.devRef .tc r) := by
  by_cases hr : ∃ w, Pipeline.arrRef spec10 w = r
  · obtain ⟨w, rfl⟩ := hr
    refine W28_in m c w ?_
    revert h; revert w; decide
  · exact W28_of_ne m c r fun w e => hr ⟨w, e⟩

/-- After the host stretch hostOps11 (item 28). -/
abbrev W29 : Dev nD → Valuation τ sig (Elt F) := fun c => StableHlo.after hostOps11 (W28 m c)
theorem W29_eq (c : Dev nD) : W29 m c = StableHlo.after hostOps11 (W28 m c) := rfl
abbrev V29 : (c : Dev nD) → (b : Ref sig .tc) → Buf (Elt F) ((c : Thread nD τ).loc b) := fun c b => W29 m c b
theorem W29_of (c : Dev nD) (r : Ref sig .tc) (h : r ∉ GenP.hostOps11_W) :
    W29 m c (Proc.devRef .tc r) = W28 m c (Proc.devRef .tc r) :=
  StableHlo.after_of_writes_sub hostOps11 _ GenP.hostOps11_writes h

/-- After region 11 (item 29): its arrays at what the pipeline's write-backs leave, every other buffer as entered. -/
def W30 (c : Dev nD) : Valuation τ sig (Elt F) :=
  Pipeline.withArrays spec11 c (W29 m c) fun w => (dat11 (V29 m) c).arrAt w cfg11.N
theorem W30_eq (c : Dev nD) :
    W30 m c = Pipeline.withArrays spec11 c (W29 m c) fun w => (dat11 (V29 m) c).arrAt w cfg11.N := rfl
theorem W30_arr (c : Dev nD) (w : Fin cfg11.W) :
    W30 m c (Proc.devRef .tc (Pipeline.arrRef spec11 w)) = (dat11 (V29 m) c).arrAt w cfg11.N := by
  unfold W30; exact Pipeline.withArrays_arr spec11 launch11.win.arr_inj c _ _ w
theorem W30_of_ne (c : Dev nD) (b : Ref sig .tc) (hb : ∀ w, Pipeline.arrRef spec11 w ≠ b) :
    W30 m c (Proc.devRef .tc b) = W29 m c (Proc.devRef .tc b) := by
  unfold W30; exact Pipeline.withArrays_of_ne spec11 c _ _ b hb
/-- The same read at the TensorCore's references. -/
abbrev V30 : (c : Dev nD) → (b : Ref sig .tc) → Buf (Elt F) ((c : Thread nD τ).loc b) := fun c b => W30 m c b
theorem hF11 (c : Dev nD) (w : Fin cfg11.W) : (dat11 (V29 m) c).arrAt w cfg11.N = V30 m c (Pipeline.arrRef spec11 w) :=
  (W30_arr m c w).symm
theorem hrest11 (c : Dev nD) : ∀ b, b ∉ Finset.univ.image (Pipeline.arrRef spec11) → V30 m c b = V29 m c b :=
  fun b hb => W30_of_ne m c b fun w e => hb (Finset.mem_image.mpr ⟨w, Finset.mem_univ _, e⟩)
/-- An input window's array is never written: the region leaves it as entered. -/
theorem W30_in (c : Dev nD) (w : Fin cfg11.W) (hin : (cfg11.win w).isOut = false) :
    W30 m c (Proc.devRef .tc (Pipeline.arrRef spec11 w)) = W29 m c (Proc.devRef .tc (Pipeline.arrRef spec11 w)) :=
  (W30_arr m c w).trans (((dat11 (V29 m) c).arrAt_in w hin _).trans (A_eq11 (V29 m) c w))
/-- Region 11 changes its output arrays only (main_v108_0, main_v108_1, main_v108_2). -/
theorem W30_of (c : Dev nD) (r : Ref sig .tc) (h : r ∉ ([main_v108_0, main_v108_1, main_v108_2] : List (Ref sig .tc))) :
    W30 m c (Proc.devRef .tc r) = W29 m c (Proc.devRef .tc r) := by
  by_cases hr : ∃ w, Pipeline.arrRef spec11 w = r
  · obtain ⟨w, rfl⟩ := hr
    refine W30_in m c w ?_
    revert h; revert w; decide
  · exact W30_of_ne m c r fun w e => hr ⟨w, e⟩

/-- After the host stretch hostOps12 (item 30). -/
abbrev W31 : Dev nD → Valuation τ sig (Elt F) := fun c => StableHlo.after hostOps12 (W30 m c)
theorem W31_eq (c : Dev nD) : W31 m c = StableHlo.after hostOps12 (W30 m c) := rfl
abbrev V31 : (c : Dev nD) → (b : Ref sig .tc) → Buf (Elt F) ((c : Thread nD τ).loc b) := fun c b => W31 m c b
theorem W31_of (c : Dev nD) (r : Ref sig .tc) (h : r ∉ GenP.hostOps12_W) :
    W31 m c (Proc.devRef .tc r) = W30 m c (Proc.devRef .tc r) :=
  StableHlo.after_of_writes_sub hostOps12 _ GenP.hostOps12_writes h

/-- After region 12 (item 31): its arrays at what the pipeline's write-backs leave, every other buffer as entered. -/
def W32 (c : Dev nD) : Valuation τ sig (Elt F) :=
  Pipeline.withArrays spec12 c (W31 m c) fun w => (dat12 (V31 m) c).arrAt w cfg12.N
theorem W32_eq (c : Dev nD) :
    W32 m c = Pipeline.withArrays spec12 c (W31 m c) fun w => (dat12 (V31 m) c).arrAt w cfg12.N := rfl
theorem W32_arr (c : Dev nD) (w : Fin cfg12.W) :
    W32 m c (Proc.devRef .tc (Pipeline.arrRef spec12 w)) = (dat12 (V31 m) c).arrAt w cfg12.N := by
  unfold W32; exact Pipeline.withArrays_arr spec12 launch12.win.arr_inj c _ _ w
theorem W32_of_ne (c : Dev nD) (b : Ref sig .tc) (hb : ∀ w, Pipeline.arrRef spec12 w ≠ b) :
    W32 m c (Proc.devRef .tc b) = W31 m c (Proc.devRef .tc b) := by
  unfold W32; exact Pipeline.withArrays_of_ne spec12 c _ _ b hb
/-- The same read at the TensorCore's references. -/
abbrev V32 : (c : Dev nD) → (b : Ref sig .tc) → Buf (Elt F) ((c : Thread nD τ).loc b) := fun c b => W32 m c b
theorem hF12 (c : Dev nD) (w : Fin cfg12.W) : (dat12 (V31 m) c).arrAt w cfg12.N = V32 m c (Pipeline.arrRef spec12 w) :=
  (W32_arr m c w).symm
theorem hrest12 (c : Dev nD) : ∀ b, b ∉ Finset.univ.image (Pipeline.arrRef spec12) → V32 m c b = V31 m c b :=
  fun b hb => W32_of_ne m c b fun w e => hb (Finset.mem_image.mpr ⟨w, Finset.mem_univ _, e⟩)
/-- An input window's array is never written: the region leaves it as entered. -/
theorem W32_in (c : Dev nD) (w : Fin cfg12.W) (hin : (cfg12.win w).isOut = false) :
    W32 m c (Proc.devRef .tc (Pipeline.arrRef spec12 w)) = W31 m c (Proc.devRef .tc (Pipeline.arrRef spec12 w)) :=
  (W32_arr m c w).trans (((dat12 (V31 m) c).arrAt_in w hin _).trans (A_eq12 (V31 m) c w))
/-- Region 12 changes its output arrays only (main_v123). -/
theorem W32_of (c : Dev nD) (r : Ref sig .tc) (h : r ∉ ([main_v123] : List (Ref sig .tc))) :
    W32 m c (Proc.devRef .tc r) = W31 m c (Proc.devRef .tc r) := by
  by_cases hr : ∃ w, Pipeline.arrRef spec12 w = r
  · obtain ⟨w, rfl⟩ := hr
    refine W32_in m c w ?_
    revert h; revert w; decide
  · exact W32_of_ne m c r fun w e => hr ⟨w, e⟩

/-- After the host stretch hostOps13 (item 32). -/
abbrev W33 : Dev nD → Valuation τ sig (Elt F) := fun c => StableHlo.after hostOps13 (W32 m c)
theorem W33_eq (c : Dev nD) : W33 m c = StableHlo.after hostOps13 (W32 m c) := rfl
abbrev V33 : (c : Dev nD) → (b : Ref sig .tc) → Buf (Elt F) ((c : Thread nD τ).loc b) := fun c b => W33 m c b
theorem W33_of (c : Dev nD) (r : Ref sig .tc) (h : r ∉ GenP.hostOps13_W) :
    W33 m c (Proc.devRef .tc r) = W32 m c (Proc.devRef .tc r) :=
  StableHlo.after_of_writes_sub hostOps13 _ GenP.hostOps13_writes h

/-- After the host stretch hostOps13_1 (item 33). -/
abbrev W34 : Dev nD → Valuation τ sig (Elt F) := fun c => StableHlo.after hostOps13_1 (W33 m c)
theorem W34_eq (c : Dev nD) : W34 m c = StableHlo.after hostOps13_1 (W33 m c) := rfl
abbrev V34 : (c : Dev nD) → (b : Ref sig .tc) → Buf (Elt F) ((c : Thread nD τ).loc b) := fun c b => W34 m c b
theorem W34_of (c : Dev nD) (r : Ref sig .tc) (h : r ∉ GenP.hostOps13_1_W) :
    W34 m c (Proc.devRef .tc r) = W33 m c (Proc.devRef .tc r) :=
  StableHlo.after_of_writes_sub hostOps13_1 _ GenP.hostOps13_1_writes h

/-- After region 13 (item 34): its arrays at what the pipeline's write-backs leave, every other buffer as entered. -/
def W35 (c : Dev nD) : Valuation τ sig (Elt F) :=
  Pipeline.withArrays spec13 c (W34 m c) fun w => (dat13 (V34 m) c).arrAt w cfg13.N
theorem W35_eq (c : Dev nD) :
    W35 m c = Pipeline.withArrays spec13 c (W34 m c) fun w => (dat13 (V34 m) c).arrAt w cfg13.N := rfl
theorem W35_arr (c : Dev nD) (w : Fin cfg13.W) :
    W35 m c (Proc.devRef .tc (Pipeline.arrRef spec13 w)) = (dat13 (V34 m) c).arrAt w cfg13.N := by
  unfold W35; exact Pipeline.withArrays_arr spec13 launch13.win.arr_inj c _ _ w
theorem W35_of_ne (c : Dev nD) (b : Ref sig .tc) (hb : ∀ w, Pipeline.arrRef spec13 w ≠ b) :
    W35 m c (Proc.devRef .tc b) = W34 m c (Proc.devRef .tc b) := by
  unfold W35; exact Pipeline.withArrays_of_ne spec13 c _ _ b hb
/-- The same read at the TensorCore's references. -/
abbrev V35 : (c : Dev nD) → (b : Ref sig .tc) → Buf (Elt F) ((c : Thread nD τ).loc b) := fun c b => W35 m c b
theorem hF13 (c : Dev nD) (w : Fin cfg13.W) : (dat13 (V34 m) c).arrAt w cfg13.N = V35 m c (Pipeline.arrRef spec13 w) :=
  (W35_arr m c w).symm
theorem hrest13 (c : Dev nD) : ∀ b, b ∉ Finset.univ.image (Pipeline.arrRef spec13) → V35 m c b = V34 m c b :=
  fun b hb => W35_of_ne m c b fun w e => hb (Finset.mem_image.mpr ⟨w, Finset.mem_univ _, e⟩)
/-- An input window's array is never written: the region leaves it as entered. -/
theorem W35_in (c : Dev nD) (w : Fin cfg13.W) (hin : (cfg13.win w).isOut = false) :
    W35 m c (Proc.devRef .tc (Pipeline.arrRef spec13 w)) = W34 m c (Proc.devRef .tc (Pipeline.arrRef spec13 w)) :=
  (W35_arr m c w).trans (((dat13 (V34 m) c).arrAt_in w hin _).trans (A_eq13 (V34 m) c w))
/-- Region 13 changes its output arrays only (main_v125). -/
theorem W35_of (c : Dev nD) (r : Ref sig .tc) (h : r ∉ ([main_v125] : List (Ref sig .tc))) :
    W35 m c (Proc.devRef .tc r) = W34 m c (Proc.devRef .tc r) := by
  by_cases hr : ∃ w, Pipeline.arrRef spec13 w = r
  · obtain ⟨w, rfl⟩ := hr
    refine W35_in m c w ?_
    revert h; revert w; decide
  · exact W35_of_ne m c r fun w e => hr ⟨w, e⟩

/-- After the host stretch hostOps14 (item 35). -/
abbrev W36 : Dev nD → Valuation τ sig (Elt F) := fun c => StableHlo.after hostOps14 (W35 m c)
theorem W36_eq (c : Dev nD) : W36 m c = StableHlo.after hostOps14 (W35 m c) := rfl
abbrev V36 : (c : Dev nD) → (b : Ref sig .tc) → Buf (Elt F) ((c : Thread nD τ).loc b) := fun c b => W36 m c b
theorem W36_of (c : Dev nD) (r : Ref sig .tc) (h : r ∉ GenP.hostOps14_W) :
    W36 m c (Proc.devRef .tc r) = W35 m c (Proc.devRef .tc r) :=
  StableHlo.after_of_writes_sub hostOps14 _ GenP.hostOps14_writes h

/-- After region 14 (item 36): its arrays at what the pipeline's write-backs leave, every other buffer as entered. -/
def W37 (c : Dev nD) : Valuation τ sig (Elt F) :=
  Pipeline.withArrays spec14 c (W36 m c) fun w => (dat14 (V36 m) c).arrAt w cfg14.N
theorem W37_eq (c : Dev nD) :
    W37 m c = Pipeline.withArrays spec14 c (W36 m c) fun w => (dat14 (V36 m) c).arrAt w cfg14.N := rfl
theorem W37_arr (c : Dev nD) (w : Fin cfg14.W) :
    W37 m c (Proc.devRef .tc (Pipeline.arrRef spec14 w)) = (dat14 (V36 m) c).arrAt w cfg14.N := by
  unfold W37; exact Pipeline.withArrays_arr spec14 launch14.win.arr_inj c _ _ w
theorem W37_of_ne (c : Dev nD) (b : Ref sig .tc) (hb : ∀ w, Pipeline.arrRef spec14 w ≠ b) :
    W37 m c (Proc.devRef .tc b) = W36 m c (Proc.devRef .tc b) := by
  unfold W37; exact Pipeline.withArrays_of_ne spec14 c _ _ b hb
/-- The same read at the TensorCore's references. -/
abbrev V37 : (c : Dev nD) → (b : Ref sig .tc) → Buf (Elt F) ((c : Thread nD τ).loc b) := fun c b => W37 m c b
theorem hF14 (c : Dev nD) (w : Fin cfg14.W) : (dat14 (V36 m) c).arrAt w cfg14.N = V37 m c (Pipeline.arrRef spec14 w) :=
  (W37_arr m c w).symm
theorem hrest14 (c : Dev nD) : ∀ b, b ∉ Finset.univ.image (Pipeline.arrRef spec14) → V37 m c b = V36 m c b :=
  fun b hb => W37_of_ne m c b fun w e => hb (Finset.mem_image.mpr ⟨w, Finset.mem_univ _, e⟩)
/-- An input window's array is never written: the region leaves it as entered. -/
theorem W37_in (c : Dev nD) (w : Fin cfg14.W) (hin : (cfg14.win w).isOut = false) :
    W37 m c (Proc.devRef .tc (Pipeline.arrRef spec14 w)) = W36 m c (Proc.devRef .tc (Pipeline.arrRef spec14 w)) :=
  (W37_arr m c w).trans (((dat14 (V36 m) c).arrAt_in w hin _).trans (A_eq14 (V36 m) c w))
/-- Region 14 changes its output arrays only (main_v127). -/
theorem W37_of (c : Dev nD) (r : Ref sig .tc) (h : r ∉ ([main_v127] : List (Ref sig .tc))) :
    W37 m c (Proc.devRef .tc r) = W36 m c (Proc.devRef .tc r) := by
  by_cases hr : ∃ w, Pipeline.arrRef spec14 w = r
  · obtain ⟨w, rfl⟩ := hr
    refine W37_in m c w ?_
    revert h; revert w; decide
  · exact W37_of_ne m c r fun w e => hr ⟨w, e⟩

/-! ## No item writes an argument array -/

/-- The argument main_arg0 reaches the end as launched. -/
theorem W37_main_arg0 (c : Dev nD) : W37 m c (Proc.devRef .tc main_arg0) = m ((c : Thread nD τ).loc main_arg0) :=
  (W37_of m c main_arg0 (by decide)).trans <| (W36_of m c main_arg0 (by decide)).trans <| (W35_of m c main_arg0 (by decide)).trans <| (W34_of m c main_arg0 (by decide)).trans <| (W33_of m c main_arg0 (by decide)).trans <| (W32_of m c main_arg0 (by decide)).trans <| (W31_of m c main_arg0 (by decide)).trans <| (W30_of m c main_arg0 (by decide)).trans <| (W29_of m c main_arg0 (by decide)).trans <| (W28_of m c main_arg0 (by decide)).trans <| (W27_of m c main_arg0 (by decide)).trans <| (W26_of m c main_arg0 (by decide)).trans <| (W25_of m c main_arg0 (by decide)).trans <| (W24_of m c main_arg0 (by decide)).trans <| (W23_of m c main_arg0 (by decide)).trans <| (W22_of m c main_arg0 (by decide)).trans <| (W21_of m c main_arg0 (by decide)).trans <| (W20_of m c main_arg0 (by decide)).trans <| (W19_of m c main_arg0 (by decide)).trans <| (W18_of m c main_arg0 (by decide)).trans <| (W17_of m c main_arg0 (by decide)).trans <| (W16_of m c main_arg0 (by decide)).trans <| (W15_of m c main_arg0 (by decide)).trans <| (W14_of m c main_arg0 (by decide)).trans <| (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans rfl
/-- The argument main_arg1 reaches the end as launched. -/
theorem W37_main_arg1 (c : Dev nD) : W37 m c (Proc.devRef .tc main_arg1) = m ((c : Thread nD τ).loc main_arg1) :=
  (W37_of m c main_arg1 (by decide)).trans <| (W36_of m c main_arg1 (by decide)).trans <| (W35_of m c main_arg1 (by decide)).trans <| (W34_of m c main_arg1 (by decide)).trans <| (W33_of m c main_arg1 (by decide)).trans <| (W32_of m c main_arg1 (by decide)).trans <| (W31_of m c main_arg1 (by decide)).trans <| (W30_of m c main_arg1 (by decide)).trans <| (W29_of m c main_arg1 (by decide)).trans <| (W28_of m c main_arg1 (by decide)).trans <| (W27_of m c main_arg1 (by decide)).trans <| (W26_of m c main_arg1 (by decide)).trans <| (W25_of m c main_arg1 (by decide)).trans <| (W24_of m c main_arg1 (by decide)).trans <| (W23_of m c main_arg1 (by decide)).trans <| (W22_of m c main_arg1 (by decide)).trans <| (W21_of m c main_arg1 (by decide)).trans <| (W20_of m c main_arg1 (by decide)).trans <| (W19_of m c main_arg1 (by decide)).trans <| (W18_of m c main_arg1 (by decide)).trans <| (W17_of m c main_arg1 (by decide)).trans <| (W16_of m c main_arg1 (by decide)).trans <| (W15_of m c main_arg1 (by decide)).trans <| (W14_of m c main_arg1 (by decide)).trans <| (W13_of m c main_arg1 (by decide)).trans <| (W12_of m c main_arg1 (by decide)).trans <| (W11_of m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans rfl
/-- The argument main_arg2 reaches the end as launched. -/
theorem W37_main_arg2 (c : Dev nD) : W37 m c (Proc.devRef .tc main_arg2) = m ((c : Thread nD τ).loc main_arg2) :=
  (W37_of m c main_arg2 (by decide)).trans <| (W36_of m c main_arg2 (by decide)).trans <| (W35_of m c main_arg2 (by decide)).trans <| (W34_of m c main_arg2 (by decide)).trans <| (W33_of m c main_arg2 (by decide)).trans <| (W32_of m c main_arg2 (by decide)).trans <| (W31_of m c main_arg2 (by decide)).trans <| (W30_of m c main_arg2 (by decide)).trans <| (W29_of m c main_arg2 (by decide)).trans <| (W28_of m c main_arg2 (by decide)).trans <| (W27_of m c main_arg2 (by decide)).trans <| (W26_of m c main_arg2 (by decide)).trans <| (W25_of m c main_arg2 (by decide)).trans <| (W24_of m c main_arg2 (by decide)).trans <| (W23_of m c main_arg2 (by decide)).trans <| (W22_of m c main_arg2 (by decide)).trans <| (W21_of m c main_arg2 (by decide)).trans <| (W20_of m c main_arg2 (by decide)).trans <| (W19_of m c main_arg2 (by decide)).trans <| (W18_of m c main_arg2 (by decide)).trans <| (W17_of m c main_arg2 (by decide)).trans <| (W16_of m c main_arg2 (by decide)).trans <| (W15_of m c main_arg2 (by decide)).trans <| (W14_of m c main_arg2 (by decide)).trans <| (W13_of m c main_arg2 (by decide)).trans <| (W12_of m c main_arg2 (by decide)).trans <| (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans rfl
/-- The argument main_arg3 reaches the end as launched. -/
theorem W37_main_arg3 (c : Dev nD) : W37 m c (Proc.devRef .tc main_arg3) = m ((c : Thread nD τ).loc main_arg3) :=
  (W37_of m c main_arg3 (by decide)).trans <| (W36_of m c main_arg3 (by decide)).trans <| (W35_of m c main_arg3 (by decide)).trans <| (W34_of m c main_arg3 (by decide)).trans <| (W33_of m c main_arg3 (by decide)).trans <| (W32_of m c main_arg3 (by decide)).trans <| (W31_of m c main_arg3 (by decide)).trans <| (W30_of m c main_arg3 (by decide)).trans <| (W29_of m c main_arg3 (by decide)).trans <| (W28_of m c main_arg3 (by decide)).trans <| (W27_of m c main_arg3 (by decide)).trans <| (W26_of m c main_arg3 (by decide)).trans <| (W25_of m c main_arg3 (by decide)).trans <| (W24_of m c main_arg3 (by decide)).trans <| (W23_of m c main_arg3 (by decide)).trans <| (W22_of m c main_arg3 (by decide)).trans <| (W21_of m c main_arg3 (by decide)).trans <| (W20_of m c main_arg3 (by decide)).trans <| (W19_of m c main_arg3 (by decide)).trans <| (W18_of m c main_arg3 (by decide)).trans <| (W17_of m c main_arg3 (by decide)).trans <| (W16_of m c main_arg3 (by decide)).trans <| (W15_of m c main_arg3 (by decide)).trans <| (W14_of m c main_arg3 (by decide)).trans <| (W13_of m c main_arg3 (by decide)).trans <| (W12_of m c main_arg3 (by decide)).trans <| (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans rfl
/-- The argument main_arg4 reaches the end as launched. -/
theorem W37_main_arg4 (c : Dev nD) : W37 m c (Proc.devRef .tc main_arg4) = m ((c : Thread nD τ).loc main_arg4) :=
  (W37_of m c main_arg4 (by decide)).trans <| (W36_of m c main_arg4 (by decide)).trans <| (W35_of m c main_arg4 (by decide)).trans <| (W34_of m c main_arg4 (by decide)).trans <| (W33_of m c main_arg4 (by decide)).trans <| (W32_of m c main_arg4 (by decide)).trans <| (W31_of m c main_arg4 (by decide)).trans <| (W30_of m c main_arg4 (by decide)).trans <| (W29_of m c main_arg4 (by decide)).trans <| (W28_of m c main_arg4 (by decide)).trans <| (W27_of m c main_arg4 (by decide)).trans <| (W26_of m c main_arg4 (by decide)).trans <| (W25_of m c main_arg4 (by decide)).trans <| (W24_of m c main_arg4 (by decide)).trans <| (W23_of m c main_arg4 (by decide)).trans <| (W22_of m c main_arg4 (by decide)).trans <| (W21_of m c main_arg4 (by decide)).trans <| (W20_of m c main_arg4 (by decide)).trans <| (W19_of m c main_arg4 (by decide)).trans <| (W18_of m c main_arg4 (by decide)).trans <| (W17_of m c main_arg4 (by decide)).trans <| (W16_of m c main_arg4 (by decide)).trans <| (W15_of m c main_arg4 (by decide)).trans <| (W14_of m c main_arg4 (by decide)).trans <| (W13_of m c main_arg4 (by decide)).trans <| (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans rfl
/-- The argument main_arg5 reaches the end as launched. -/
theorem W37_main_arg5 (c : Dev nD) : W37 m c (Proc.devRef .tc main_arg5) = m ((c : Thread nD τ).loc main_arg5) :=
  (W37_of m c main_arg5 (by decide)).trans <| (W36_of m c main_arg5 (by decide)).trans <| (W35_of m c main_arg5 (by decide)).trans <| (W34_of m c main_arg5 (by decide)).trans <| (W33_of m c main_arg5 (by decide)).trans <| (W32_of m c main_arg5 (by decide)).trans <| (W31_of m c main_arg5 (by decide)).trans <| (W30_of m c main_arg5 (by decide)).trans <| (W29_of m c main_arg5 (by decide)).trans <| (W28_of m c main_arg5 (by decide)).trans <| (W27_of m c main_arg5 (by decide)).trans <| (W26_of m c main_arg5 (by decide)).trans <| (W25_of m c main_arg5 (by decide)).trans <| (W24_of m c main_arg5 (by decide)).trans <| (W23_of m c main_arg5 (by decide)).trans <| (W22_of m c main_arg5 (by decide)).trans <| (W21_of m c main_arg5 (by decide)).trans <| (W20_of m c main_arg5 (by decide)).trans <| (W19_of m c main_arg5 (by decide)).trans <| (W18_of m c main_arg5 (by decide)).trans <| (W17_of m c main_arg5 (by decide)).trans <| (W16_of m c main_arg5 (by decide)).trans <| (W15_of m c main_arg5 (by decide)).trans <| (W14_of m c main_arg5 (by decide)).trans <| (W13_of m c main_arg5 (by decide)).trans <| (W12_of m c main_arg5 (by decide)).trans <| (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans rfl
/-- The argument main_arg6 reaches the end as launched. -/
theorem W37_main_arg6 (c : Dev nD) : W37 m c (Proc.devRef .tc main_arg6) = m ((c : Thread nD τ).loc main_arg6) :=
  (W37_of m c main_arg6 (by decide)).trans <| (W36_of m c main_arg6 (by decide)).trans <| (W35_of m c main_arg6 (by decide)).trans <| (W34_of m c main_arg6 (by decide)).trans <| (W33_of m c main_arg6 (by decide)).trans <| (W32_of m c main_arg6 (by decide)).trans <| (W31_of m c main_arg6 (by decide)).trans <| (W30_of m c main_arg6 (by decide)).trans <| (W29_of m c main_arg6 (by decide)).trans <| (W28_of m c main_arg6 (by decide)).trans <| (W27_of m c main_arg6 (by decide)).trans <| (W26_of m c main_arg6 (by decide)).trans <| (W25_of m c main_arg6 (by decide)).trans <| (W24_of m c main_arg6 (by decide)).trans <| (W23_of m c main_arg6 (by decide)).trans <| (W22_of m c main_arg6 (by decide)).trans <| (W21_of m c main_arg6 (by decide)).trans <| (W20_of m c main_arg6 (by decide)).trans <| (W19_of m c main_arg6 (by decide)).trans <| (W18_of m c main_arg6 (by decide)).trans <| (W17_of m c main_arg6 (by decide)).trans <| (W16_of m c main_arg6 (by decide)).trans <| (W15_of m c main_arg6 (by decide)).trans <| (W14_of m c main_arg6 (by decide)).trans <| (W13_of m c main_arg6 (by decide)).trans <| (W12_of m c main_arg6 (by decide)).trans <| (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans rfl
/-- The argument main_arg7 reaches the end as launched. -/
theorem W37_main_arg7 (c : Dev nD) : W37 m c (Proc.devRef .tc main_arg7) = m ((c : Thread nD τ).loc main_arg7) :=
  (W37_of m c main_arg7 (by decide)).trans <| (W36_of m c main_arg7 (by decide)).trans <| (W35_of m c main_arg7 (by decide)).trans <| (W34_of m c main_arg7 (by decide)).trans <| (W33_of m c main_arg7 (by decide)).trans <| (W32_of m c main_arg7 (by decide)).trans <| (W31_of m c main_arg7 (by decide)).trans <| (W30_of m c main_arg7 (by decide)).trans <| (W29_of m c main_arg7 (by decide)).trans <| (W28_of m c main_arg7 (by decide)).trans <| (W27_of m c main_arg7 (by decide)).trans <| (W26_of m c main_arg7 (by decide)).trans <| (W25_of m c main_arg7 (by decide)).trans <| (W24_of m c main_arg7 (by decide)).trans <| (W23_of m c main_arg7 (by decide)).trans <| (W22_of m c main_arg7 (by decide)).trans <| (W21_of m c main_arg7 (by decide)).trans <| (W20_of m c main_arg7 (by decide)).trans <| (W19_of m c main_arg7 (by decide)).trans <| (W18_of m c main_arg7 (by decide)).trans <| (W17_of m c main_arg7 (by decide)).trans <| (W16_of m c main_arg7 (by decide)).trans <| (W15_of m c main_arg7 (by decide)).trans <| (W14_of m c main_arg7 (by decide)).trans <| (W13_of m c main_arg7 (by decide)).trans <| (W12_of m c main_arg7 (by decide)).trans <| (W11_of m c main_arg7 (by decide)).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans rfl
/-- The argument main_arg8 reaches the end as launched. -/
theorem W37_main_arg8 (c : Dev nD) : W37 m c (Proc.devRef .tc main_arg8) = m ((c : Thread nD τ).loc main_arg8) :=
  (W37_of m c main_arg8 (by decide)).trans <| (W36_of m c main_arg8 (by decide)).trans <| (W35_of m c main_arg8 (by decide)).trans <| (W34_of m c main_arg8 (by decide)).trans <| (W33_of m c main_arg8 (by decide)).trans <| (W32_of m c main_arg8 (by decide)).trans <| (W31_of m c main_arg8 (by decide)).trans <| (W30_of m c main_arg8 (by decide)).trans <| (W29_of m c main_arg8 (by decide)).trans <| (W28_of m c main_arg8 (by decide)).trans <| (W27_of m c main_arg8 (by decide)).trans <| (W26_of m c main_arg8 (by decide)).trans <| (W25_of m c main_arg8 (by decide)).trans <| (W24_of m c main_arg8 (by decide)).trans <| (W23_of m c main_arg8 (by decide)).trans <| (W22_of m c main_arg8 (by decide)).trans <| (W21_of m c main_arg8 (by decide)).trans <| (W20_of m c main_arg8 (by decide)).trans <| (W19_of m c main_arg8 (by decide)).trans <| (W18_of m c main_arg8 (by decide)).trans <| (W17_of m c main_arg8 (by decide)).trans <| (W16_of m c main_arg8 (by decide)).trans <| (W15_of m c main_arg8 (by decide)).trans <| (W14_of m c main_arg8 (by decide)).trans <| (W13_of m c main_arg8 (by decide)).trans <| (W12_of m c main_arg8 (by decide)).trans <| (W11_of m c main_arg8 (by decide)).trans <| (W10_of m c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide)).trans rfl
/-- The argument main_arg9 reaches the end as launched. -/
theorem W37_main_arg9 (c : Dev nD) : W37 m c (Proc.devRef .tc main_arg9) = m ((c : Thread nD τ).loc main_arg9) :=
  (W37_of m c main_arg9 (by decide)).trans <| (W36_of m c main_arg9 (by decide)).trans <| (W35_of m c main_arg9 (by decide)).trans <| (W34_of m c main_arg9 (by decide)).trans <| (W33_of m c main_arg9 (by decide)).trans <| (W32_of m c main_arg9 (by decide)).trans <| (W31_of m c main_arg9 (by decide)).trans <| (W30_of m c main_arg9 (by decide)).trans <| (W29_of m c main_arg9 (by decide)).trans <| (W28_of m c main_arg9 (by decide)).trans <| (W27_of m c main_arg9 (by decide)).trans <| (W26_of m c main_arg9 (by decide)).trans <| (W25_of m c main_arg9 (by decide)).trans <| (W24_of m c main_arg9 (by decide)).trans <| (W23_of m c main_arg9 (by decide)).trans <| (W22_of m c main_arg9 (by decide)).trans <| (W21_of m c main_arg9 (by decide)).trans <| (W20_of m c main_arg9 (by decide)).trans <| (W19_of m c main_arg9 (by decide)).trans <| (W18_of m c main_arg9 (by decide)).trans <| (W17_of m c main_arg9 (by decide)).trans <| (W16_of m c main_arg9 (by decide)).trans <| (W15_of m c main_arg9 (by decide)).trans <| (W14_of m c main_arg9 (by decide)).trans <| (W13_of m c main_arg9 (by decide)).trans <| (W12_of m c main_arg9 (by decide)).trans <| (W11_of m c main_arg9 (by decide)).trans <| (W10_of m c main_arg9 (by decide)).trans <| (W9_of m c main_arg9 (by decide)).trans <| (W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide)).trans rfl
/-- The argument main_arg10 reaches the end as launched. -/
theorem W37_main_arg10 (c : Dev nD) : W37 m c (Proc.devRef .tc main_arg10) = m ((c : Thread nD τ).loc main_arg10) :=
  (W37_of m c main_arg10 (by decide)).trans <| (W36_of m c main_arg10 (by decide)).trans <| (W35_of m c main_arg10 (by decide)).trans <| (W34_of m c main_arg10 (by decide)).trans <| (W33_of m c main_arg10 (by decide)).trans <| (W32_of m c main_arg10 (by decide)).trans <| (W31_of m c main_arg10 (by decide)).trans <| (W30_of m c main_arg10 (by decide)).trans <| (W29_of m c main_arg10 (by decide)).trans <| (W28_of m c main_arg10 (by decide)).trans <| (W27_of m c main_arg10 (by decide)).trans <| (W26_of m c main_arg10 (by decide)).trans <| (W25_of m c main_arg10 (by decide)).trans <| (W24_of m c main_arg10 (by decide)).trans <| (W23_of m c main_arg10 (by decide)).trans <| (W22_of m c main_arg10 (by decide)).trans <| (W21_of m c main_arg10 (by decide)).trans <| (W20_of m c main_arg10 (by decide)).trans <| (W19_of m c main_arg10 (by decide)).trans <| (W18_of m c main_arg10 (by decide)).trans <| (W17_of m c main_arg10 (by decide)).trans <| (W16_of m c main_arg10 (by decide)).trans <| (W15_of m c main_arg10 (by decide)).trans <| (W14_of m c main_arg10 (by decide)).trans <| (W13_of m c main_arg10 (by decide)).trans <| (W12_of m c main_arg10 (by decide)).trans <| (W11_of m c main_arg10 (by decide)).trans <| (W10_of m c main_arg10 (by decide)).trans <| (W9_of m c main_arg10 (by decide)).trans <| (W8_of m c main_arg10 (by decide)).trans <| (W7_of m c main_arg10 (by decide)).trans <| (W6_of m c main_arg10 (by decide)).trans <| (W5_of m c main_arg10 (by decide)).trans <| (W4_of m c main_arg10 (by decide)).trans <| (W3_of m c main_arg10 (by decide)).trans <| (W2_of m c main_arg10 (by decide)).trans <| (W1_of m c main_arg10 (by decide)).trans rfl
/-- The argument main_arg11 reaches the end as launched. -/
theorem W37_main_arg11 (c : Dev nD) : W37 m c (Proc.devRef .tc main_arg11) = m ((c : Thread nD τ).loc main_arg11) :=
  (W37_of m c main_arg11 (by decide)).trans <| (W36_of m c main_arg11 (by decide)).trans <| (W35_of m c main_arg11 (by decide)).trans <| (W34_of m c main_arg11 (by decide)).trans <| (W33_of m c main_arg11 (by decide)).trans <| (W32_of m c main_arg11 (by decide)).trans <| (W31_of m c main_arg11 (by decide)).trans <| (W30_of m c main_arg11 (by decide)).trans <| (W29_of m c main_arg11 (by decide)).trans <| (W28_of m c main_arg11 (by decide)).trans <| (W27_of m c main_arg11 (by decide)).trans <| (W26_of m c main_arg11 (by decide)).trans <| (W25_of m c main_arg11 (by decide)).trans <| (W24_of m c main_arg11 (by decide)).trans <| (W23_of m c main_arg11 (by decide)).trans <| (W22_of m c main_arg11 (by decide)).trans <| (W21_of m c main_arg11 (by decide)).trans <| (W20_of m c main_arg11 (by decide)).trans <| (W19_of m c main_arg11 (by decide)).trans <| (W18_of m c main_arg11 (by decide)).trans <| (W17_of m c main_arg11 (by decide)).trans <| (W16_of m c main_arg11 (by decide)).trans <| (W15_of m c main_arg11 (by decide)).trans <| (W14_of m c main_arg11 (by decide)).trans <| (W13_of m c main_arg11 (by decide)).trans <| (W12_of m c main_arg11 (by decide)).trans <| (W11_of m c main_arg11 (by decide)).trans <| (W10_of m c main_arg11 (by decide)).trans <| (W9_of m c main_arg11 (by decide)).trans <| (W8_of m c main_arg11 (by decide)).trans <| (W7_of m c main_arg11 (by decide)).trans <| (W6_of m c main_arg11 (by decide)).trans <| (W5_of m c main_arg11 (by decide)).trans <| (W4_of m c main_arg11 (by decide)).trans <| (W3_of m c main_arg11 (by decide)).trans <| (W2_of m c main_arg11 (by decide)).trans <| (W1_of m c main_arg11 (by decide)).trans rfl
/-- The argument main_arg12 reaches the end as launched. -/
theorem W37_main_arg12 (c : Dev nD) : W37 m c (Proc.devRef .tc main_arg12) = m ((c : Thread nD τ).loc main_arg12) :=
  (W37_of m c main_arg12 (by decide)).trans <| (W36_of m c main_arg12 (by decide)).trans <| (W35_of m c main_arg12 (by decide)).trans <| (W34_of m c main_arg12 (by decide)).trans <| (W33_of m c main_arg12 (by decide)).trans <| (W32_of m c main_arg12 (by decide)).trans <| (W31_of m c main_arg12 (by decide)).trans <| (W30_of m c main_arg12 (by decide)).trans <| (W29_of m c main_arg12 (by decide)).trans <| (W28_of m c main_arg12 (by decide)).trans <| (W27_of m c main_arg12 (by decide)).trans <| (W26_of m c main_arg12 (by decide)).trans <| (W25_of m c main_arg12 (by decide)).trans <| (W24_of m c main_arg12 (by decide)).trans <| (W23_of m c main_arg12 (by decide)).trans <| (W22_of m c main_arg12 (by decide)).trans <| (W21_of m c main_arg12 (by decide)).trans <| (W20_of m c main_arg12 (by decide)).trans <| (W19_of m c main_arg12 (by decide)).trans <| (W18_of m c main_arg12 (by decide)).trans <| (W17_of m c main_arg12 (by decide)).trans <| (W16_of m c main_arg12 (by decide)).trans <| (W15_of m c main_arg12 (by decide)).trans <| (W14_of m c main_arg12 (by decide)).trans <| (W13_of m c main_arg12 (by decide)).trans <| (W12_of m c main_arg12 (by decide)).trans <| (W11_of m c main_arg12 (by decide)).trans <| (W10_of m c main_arg12 (by decide)).trans <| (W9_of m c main_arg12 (by decide)).trans <| (W8_of m c main_arg12 (by decide)).trans <| (W7_of m c main_arg12 (by decide)).trans <| (W6_of m c main_arg12 (by decide)).trans <| (W5_of m c main_arg12 (by decide)).trans <| (W4_of m c main_arg12 (by decide)).trans <| (W3_of m c main_arg12 (by decide)).trans <| (W2_of m c main_arg12 (by decide)).trans <| (W1_of m c main_arg12 (by decide)).trans rfl
/-- The argument main_arg13 reaches the end as launched. -/
theorem W37_main_arg13 (c : Dev nD) : W37 m c (Proc.devRef .tc main_arg13) = m ((c : Thread nD τ).loc main_arg13) :=
  (W37_of m c main_arg13 (by decide)).trans <| (W36_of m c main_arg13 (by decide)).trans <| (W35_of m c main_arg13 (by decide)).trans <| (W34_of m c main_arg13 (by decide)).trans <| (W33_of m c main_arg13 (by decide)).trans <| (W32_of m c main_arg13 (by decide)).trans <| (W31_of m c main_arg13 (by decide)).trans <| (W30_of m c main_arg13 (by decide)).trans <| (W29_of m c main_arg13 (by decide)).trans <| (W28_of m c main_arg13 (by decide)).trans <| (W27_of m c main_arg13 (by decide)).trans <| (W26_of m c main_arg13 (by decide)).trans <| (W25_of m c main_arg13 (by decide)).trans <| (W24_of m c main_arg13 (by decide)).trans <| (W23_of m c main_arg13 (by decide)).trans <| (W22_of m c main_arg13 (by decide)).trans <| (W21_of m c main_arg13 (by decide)).trans <| (W20_of m c main_arg13 (by decide)).trans <| (W19_of m c main_arg13 (by decide)).trans <| (W18_of m c main_arg13 (by decide)).trans <| (W17_of m c main_arg13 (by decide)).trans <| (W16_of m c main_arg13 (by decide)).trans <| (W15_of m c main_arg13 (by decide)).trans <| (W14_of m c main_arg13 (by decide)).trans <| (W13_of m c main_arg13 (by decide)).trans <| (W12_of m c main_arg13 (by decide)).trans <| (W11_of m c main_arg13 (by decide)).trans <| (W10_of m c main_arg13 (by decide)).trans <| (W9_of m c main_arg13 (by decide)).trans <| (W8_of m c main_arg13 (by decide)).trans <| (W7_of m c main_arg13 (by decide)).trans <| (W6_of m c main_arg13 (by decide)).trans <| (W5_of m c main_arg13 (by decide)).trans <| (W4_of m c main_arg13 (by decide)).trans <| (W3_of m c main_arg13 (by decide)).trans <| (W2_of m c main_arg13 (by decide)).trans <| (W1_of m c main_arg13 (by decide)).trans rfl
/-- The argument main_arg14 reaches the end as launched. -/
theorem W37_main_arg14 (c : Dev nD) : W37 m c (Proc.devRef .tc main_arg14) = m ((c : Thread nD τ).loc main_arg14) :=
  (W37_of m c main_arg14 (by decide)).trans <| (W36_of m c main_arg14 (by decide)).trans <| (W35_of m c main_arg14 (by decide)).trans <| (W34_of m c main_arg14 (by decide)).trans <| (W33_of m c main_arg14 (by decide)).trans <| (W32_of m c main_arg14 (by decide)).trans <| (W31_of m c main_arg14 (by decide)).trans <| (W30_of m c main_arg14 (by decide)).trans <| (W29_of m c main_arg14 (by decide)).trans <| (W28_of m c main_arg14 (by decide)).trans <| (W27_of m c main_arg14 (by decide)).trans <| (W26_of m c main_arg14 (by decide)).trans <| (W25_of m c main_arg14 (by decide)).trans <| (W24_of m c main_arg14 (by decide)).trans <| (W23_of m c main_arg14 (by decide)).trans <| (W22_of m c main_arg14 (by decide)).trans <| (W21_of m c main_arg14 (by decide)).trans <| (W20_of m c main_arg14 (by decide)).trans <| (W19_of m c main_arg14 (by decide)).trans <| (W18_of m c main_arg14 (by decide)).trans <| (W17_of m c main_arg14 (by decide)).trans <| (W16_of m c main_arg14 (by decide)).trans <| (W15_of m c main_arg14 (by decide)).trans <| (W14_of m c main_arg14 (by decide)).trans <| (W13_of m c main_arg14 (by decide)).trans <| (W12_of m c main_arg14 (by decide)).trans <| (W11_of m c main_arg14 (by decide)).trans <| (W10_of m c main_arg14 (by decide)).trans <| (W9_of m c main_arg14 (by decide)).trans <| (W8_of m c main_arg14 (by decide)).trans <| (W7_of m c main_arg14 (by decide)).trans <| (W6_of m c main_arg14 (by decide)).trans <| (W5_of m c main_arg14 (by decide)).trans <| (W4_of m c main_arg14 (by decide)).trans <| (W3_of m c main_arg14 (by decide)).trans <| (W2_of m c main_arg14 (by decide)).trans <| (W1_of m c main_arg14 (by decide)).trans rfl
/-- The argument main_arg15 reaches the end as launched. -/
theorem W37_main_arg15 (c : Dev nD) : W37 m c (Proc.devRef .tc main_arg15) = m ((c : Thread nD τ).loc main_arg15) :=
  (W37_of m c main_arg15 (by decide)).trans <| (W36_of m c main_arg15 (by decide)).trans <| (W35_of m c main_arg15 (by decide)).trans <| (W34_of m c main_arg15 (by decide)).trans <| (W33_of m c main_arg15 (by decide)).trans <| (W32_of m c main_arg15 (by decide)).trans <| (W31_of m c main_arg15 (by decide)).trans <| (W30_of m c main_arg15 (by decide)).trans <| (W29_of m c main_arg15 (by decide)).trans <| (W28_of m c main_arg15 (by decide)).trans <| (W27_of m c main_arg15 (by decide)).trans <| (W26_of m c main_arg15 (by decide)).trans <| (W25_of m c main_arg15 (by decide)).trans <| (W24_of m c main_arg15 (by decide)).trans <| (W23_of m c main_arg15 (by decide)).trans <| (W22_of m c main_arg15 (by decide)).trans <| (W21_of m c main_arg15 (by decide)).trans <| (W20_of m c main_arg15 (by decide)).trans <| (W19_of m c main_arg15 (by decide)).trans <| (W18_of m c main_arg15 (by decide)).trans <| (W17_of m c main_arg15 (by decide)).trans <| (W16_of m c main_arg15 (by decide)).trans <| (W15_of m c main_arg15 (by decide)).trans <| (W14_of m c main_arg15 (by decide)).trans <| (W13_of m c main_arg15 (by decide)).trans <| (W12_of m c main_arg15 (by decide)).trans <| (W11_of m c main_arg15 (by decide)).trans <| (W10_of m c main_arg15 (by decide)).trans <| (W9_of m c main_arg15 (by decide)).trans <| (W8_of m c main_arg15 (by decide)).trans <| (W7_of m c main_arg15 (by decide)).trans <| (W6_of m c main_arg15 (by decide)).trans <| (W5_of m c main_arg15 (by decide)).trans <| (W4_of m c main_arg15 (by decide)).trans <| (W3_of m c main_arg15 (by decide)).trans <| (W2_of m c main_arg15 (by decide)).trans <| (W1_of m c main_arg15 (by decide)).trans rfl
/-- The argument main_arg16 reaches the end as launched. -/
theorem W37_main_arg16 (c : Dev nD) : W37 m c (Proc.devRef .tc main_arg16) = m ((c : Thread nD τ).loc main_arg16) :=
  (W37_of m c main_arg16 (by decide)).trans <| (W36_of m c main_arg16 (by decide)).trans <| (W35_of m c main_arg16 (by decide)).trans <| (W34_of m c main_arg16 (by decide)).trans <| (W33_of m c main_arg16 (by decide)).trans <| (W32_of m c main_arg16 (by decide)).trans <| (W31_of m c main_arg16 (by decide)).trans <| (W30_of m c main_arg16 (by decide)).trans <| (W29_of m c main_arg16 (by decide)).trans <| (W28_of m c main_arg16 (by decide)).trans <| (W27_of m c main_arg16 (by decide)).trans <| (W26_of m c main_arg16 (by decide)).trans <| (W25_of m c main_arg16 (by decide)).trans <| (W24_of m c main_arg16 (by decide)).trans <| (W23_of m c main_arg16 (by decide)).trans <| (W22_of m c main_arg16 (by decide)).trans <| (W21_of m c main_arg16 (by decide)).trans <| (W20_of m c main_arg16 (by decide)).trans <| (W19_of m c main_arg16 (by decide)).trans <| (W18_of m c main_arg16 (by decide)).trans <| (W17_of m c main_arg16 (by decide)).trans <| (W16_of m c main_arg16 (by decide)).trans <| (W15_of m c main_arg16 (by decide)).trans <| (W14_of m c main_arg16 (by decide)).trans <| (W13_of m c main_arg16 (by decide)).trans <| (W12_of m c main_arg16 (by decide)).trans <| (W11_of m c main_arg16 (by decide)).trans <| (W10_of m c main_arg16 (by decide)).trans <| (W9_of m c main_arg16 (by decide)).trans <| (W8_of m c main_arg16 (by decide)).trans <| (W7_of m c main_arg16 (by decide)).trans <| (W6_of m c main_arg16 (by decide)).trans <| (W5_of m c main_arg16 (by decide)).trans <| (W4_of m c main_arg16 (by decide)).trans <| (W3_of m c main_arg16 (by decide)).trans <| (W2_of m c main_arg16 (by decide)).trans <| (W1_of m c main_arg16 (by decide)).trans rfl
/-- The argument main_arg17 reaches the end as launched. -/
theorem W37_main_arg17 (c : Dev nD) : W37 m c (Proc.devRef .tc main_arg17) = m ((c : Thread nD τ).loc main_arg17) :=
  (W37_of m c main_arg17 (by decide)).trans <| (W36_of m c main_arg17 (by decide)).trans <| (W35_of m c main_arg17 (by decide)).trans <| (W34_of m c main_arg17 (by decide)).trans <| (W33_of m c main_arg17 (by decide)).trans <| (W32_of m c main_arg17 (by decide)).trans <| (W31_of m c main_arg17 (by decide)).trans <| (W30_of m c main_arg17 (by decide)).trans <| (W29_of m c main_arg17 (by decide)).trans <| (W28_of m c main_arg17 (by decide)).trans <| (W27_of m c main_arg17 (by decide)).trans <| (W26_of m c main_arg17 (by decide)).trans <| (W25_of m c main_arg17 (by decide)).trans <| (W24_of m c main_arg17 (by decide)).trans <| (W23_of m c main_arg17 (by decide)).trans <| (W22_of m c main_arg17 (by decide)).trans <| (W21_of m c main_arg17 (by decide)).trans <| (W20_of m c main_arg17 (by decide)).trans <| (W19_of m c main_arg17 (by decide)).trans <| (W18_of m c main_arg17 (by decide)).trans <| (W17_of m c main_arg17 (by decide)).trans <| (W16_of m c main_arg17 (by decide)).trans <| (W15_of m c main_arg17 (by decide)).trans <| (W14_of m c main_arg17 (by decide)).trans <| (W13_of m c main_arg17 (by decide)).trans <| (W12_of m c main_arg17 (by decide)).trans <| (W11_of m c main_arg17 (by decide)).trans <| (W10_of m c main_arg17 (by decide)).trans <| (W9_of m c main_arg17 (by decide)).trans <| (W8_of m c main_arg17 (by decide)).trans <| (W7_of m c main_arg17 (by decide)).trans <| (W6_of m c main_arg17 (by decide)).trans <| (W5_of m c main_arg17 (by decide)).trans <| (W4_of m c main_arg17 (by decide)).trans <| (W3_of m c main_arg17 (by decide)).trans <| (W2_of m c main_arg17 (by decide)).trans <| (W1_of m c main_arg17 (by decide)).trans rfl
/-- The argument main_arg18 reaches the end as launched. -/
theorem W37_main_arg18 (c : Dev nD) : W37 m c (Proc.devRef .tc main_arg18) = m ((c : Thread nD τ).loc main_arg18) :=
  (W37_of m c main_arg18 (by decide)).trans <| (W36_of m c main_arg18 (by decide)).trans <| (W35_of m c main_arg18 (by decide)).trans <| (W34_of m c main_arg18 (by decide)).trans <| (W33_of m c main_arg18 (by decide)).trans <| (W32_of m c main_arg18 (by decide)).trans <| (W31_of m c main_arg18 (by decide)).trans <| (W30_of m c main_arg18 (by decide)).trans <| (W29_of m c main_arg18 (by decide)).trans <| (W28_of m c main_arg18 (by decide)).trans <| (W27_of m c main_arg18 (by decide)).trans <| (W26_of m c main_arg18 (by decide)).trans <| (W25_of m c main_arg18 (by decide)).trans <| (W24_of m c main_arg18 (by decide)).trans <| (W23_of m c main_arg18 (by decide)).trans <| (W22_of m c main_arg18 (by decide)).trans <| (W21_of m c main_arg18 (by decide)).trans <| (W20_of m c main_arg18 (by decide)).trans <| (W19_of m c main_arg18 (by decide)).trans <| (W18_of m c main_arg18 (by decide)).trans <| (W17_of m c main_arg18 (by decide)).trans <| (W16_of m c main_arg18 (by decide)).trans <| (W15_of m c main_arg18 (by decide)).trans <| (W14_of m c main_arg18 (by decide)).trans <| (W13_of m c main_arg18 (by decide)).trans <| (W12_of m c main_arg18 (by decide)).trans <| (W11_of m c main_arg18 (by decide)).trans <| (W10_of m c main_arg18 (by decide)).trans <| (W9_of m c main_arg18 (by decide)).trans <| (W8_of m c main_arg18 (by decide)).trans <| (W7_of m c main_arg18 (by decide)).trans <| (W6_of m c main_arg18 (by decide)).trans <| (W5_of m c main_arg18 (by decide)).trans <| (W4_of m c main_arg18 (by decide)).trans <| (W3_of m c main_arg18 (by decide)).trans <| (W2_of m c main_arg18 (by decide)).trans <| (W1_of m c main_arg18 (by decide)).trans rfl
/-- The argument main_arg19 reaches the end as launched. -/
theorem W37_main_arg19 (c : Dev nD) : W37 m c (Proc.devRef .tc main_arg19) = m ((c : Thread nD τ).loc main_arg19) :=
  (W37_of m c main_arg19 (by decide)).trans <| (W36_of m c main_arg19 (by decide)).trans <| (W35_of m c main_arg19 (by decide)).trans <| (W34_of m c main_arg19 (by decide)).trans <| (W33_of m c main_arg19 (by decide)).trans <| (W32_of m c main_arg19 (by decide)).trans <| (W31_of m c main_arg19 (by decide)).trans <| (W30_of m c main_arg19 (by decide)).trans <| (W29_of m c main_arg19 (by decide)).trans <| (W28_of m c main_arg19 (by decide)).trans <| (W27_of m c main_arg19 (by decide)).trans <| (W26_of m c main_arg19 (by decide)).trans <| (W25_of m c main_arg19 (by decide)).trans <| (W24_of m c main_arg19 (by decide)).trans <| (W23_of m c main_arg19 (by decide)).trans <| (W22_of m c main_arg19 (by decide)).trans <| (W21_of m c main_arg19 (by decide)).trans <| (W20_of m c main_arg19 (by decide)).trans <| (W19_of m c main_arg19 (by decide)).trans <| (W18_of m c main_arg19 (by decide)).trans <| (W17_of m c main_arg19 (by decide)).trans <| (W16_of m c main_arg19 (by decide)).trans <| (W15_of m c main_arg19 (by decide)).trans <| (W14_of m c main_arg19 (by decide)).trans <| (W13_of m c main_arg19 (by decide)).trans <| (W12_of m c main_arg19 (by decide)).trans <| (W11_of m c main_arg19 (by decide)).trans <| (W10_of m c main_arg19 (by decide)).trans <| (W9_of m c main_arg19 (by decide)).trans <| (W8_of m c main_arg19 (by decide)).trans <| (W7_of m c main_arg19 (by decide)).trans <| (W6_of m c main_arg19 (by decide)).trans <| (W5_of m c main_arg19 (by decide)).trans <| (W4_of m c main_arg19 (by decide)).trans <| (W3_of m c main_arg19 (by decide)).trans <| (W2_of m c main_arg19 (by decide)).trans <| (W1_of m c main_arg19 (by decide)).trans rfl

/-! ## The result array at the end -/

/-- The array main_v127 ends at what region 14's write-backs to its window 2 leave. -/
theorem W37_result (c : Dev nD) : W37 m c (Proc.devRef .tc main_v127) = (dat14 (V36 m) c).arrAt 2 cfg14.N :=
  W37_arr m c 2

/-! ## The proof data family and the thread state -/

/-- The prefetched tables' admissible contents: no region has a table. -/
abbrev adm : (p : Fin 15) → (pcfgs (F := F) p).Adm := fun p => (cfgs p).toPCfg_adm
/-- Every region's proof data, each at the contents its region is entered from. -/
def pdats : (p : Fin 15) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V6 m) c
  | ⟨2, _⟩ => fun c => dat2 (V8 m) c
  | ⟨3, _⟩ => fun c => dat3 (V10 m) c
  | ⟨4, _⟩ => fun c => dat4 (V13 m) c
  | ⟨5, _⟩ => fun c => dat5 (V15 m) c
  | ⟨6, _⟩ => fun c => dat6 (V17 m) c
  | ⟨7, _⟩ => fun c => dat7 (V20 m) c
  | ⟨8, _⟩ => fun c => dat8 (V22 m) c
  | ⟨9, _⟩ => fun c => dat9 (V24 m) c
  | ⟨10, _⟩ => fun c => dat10 (V27 m) c
  | ⟨11, _⟩ => fun c => dat11 (V29 m) c
  | ⟨12, _⟩ => fun c => dat12 (V31 m) c
  | ⟨13, _⟩ => fun c => dat13 (V34 m) c
  | ⟨14, _⟩ => fun c => dat14 (V36 m) c
  | ⟨_ + 15, h⟩ => absurd h (Nat.not_lt.2 (Nat.le_add_left _ _))
abbrev 𝒱₀ : Variants := Variants.none
/-- No core owes another anything: no level is assigned. -/
abbrev Lnone : GSem nD τ sig → Finset Unit := fun _ => ∅
abbrev lv0 : GSem nD τ sig → Unit → ℕ := fun _ _ => 0
/-- What rides beside the buffers through every item: the core's generator register at some state and its debts, none. -/
abbrev Rest (c : Dev nD) : sProp 𝕄 := iprop((∃ r, prngReg c r) ∗ ∃ W, owes (c : Thread nD τ) (0 : CellTallies nD τ sig Unit) W)
/-- A host stretch as a segment over the unscoped references from given contents, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lnone lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register at some state. -/
abbrev Tlast (c : Dev nD) : sProp 𝕄 := iprop(StableHlo.held (c : Thread nD τ) (Pipeline.ucRefs τ sig) (W37 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at W3, left at W4. Its arrays are split
    out of the unscoped buffers and put back at the exit contents; the generator register goes into the region's
    invariant and comes back; nothing is owed; the kernel has no semaphore of its own. -/
def reg0 : Pipeline.RegionSeg (pcfgs (F := F)) adm (pdats m) () defs₀ 𝒱₀ Lnone lv0 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ Lnone lv0 0 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V3 m) c)
    iintro ⟨Hp, -, Hr⟩
    isplitl [Hp]; · iexact Hp
    iexact Hr
  hout c := by
    rw [Pipeline.ownSems0_none]
    refine (hout0 (V3 m) c).trans ?_
    iintro ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at W6, left at W7. Its arrays are split
    out of the unscoped buffers and put back at the exit contents; the generator register goes into the region's
    invariant and comes back; nothing is owed; the kernel has no semaphore of its own. -/
def reg1 : Pipeline.RegionSeg (pcfgs (F := F)) adm (pdats m) () defs₀ 𝒱₀ Lnone lv0 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ Lnone lv0 1 fun _ _ => rfl
  pre c := iprop(StableHlo.held (c : Thread nD τ) (Pipeline.ucRefs τ sig) (W6 m c) ∗ Rest c)
  post c := iprop(StableHlo.held (c : Thread nD τ) (Pipeline.ucRefs τ sig) (W7 m c) ∗ Rest c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V6 m) c)
    iintro ⟨Hp, -, Hr⟩
    isplitl [Hp]; · iexact Hp
    iexact Hr
  hout c := by
    rw [Pipeline.ownSems0_none]
    refine (hout1 (V6 m) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at W8, left at W9. Its arrays are split
    out of the unscoped buffers and put back at the exit contents; the generator register goes into the region's
    invariant and comes back; nothing is owed; the kernel has no semaphore of its own. -/
def reg2 : Pipeline.RegionSeg (pcfgs (F := F)) adm (pdats m) () defs₀ 𝒱₀ Lnone lv0 2 where
  win := launch2.win.to₀
  block_pos := launch2.block_pos
  stage_whole := launch2.stage_whole
  K := PEmpty
  osem k := k.elim
  ho := Pipeline.OwnSemFacts.none _
  hbody c := (body_obligation2 (V8 m) c).loose
  hwaits := Pipeline.hwaits_of_owed_zero _ _ _ _ Lnone lv0 2 fun _ _ => rfl
  pre c := iprop(StableHlo.held (c : Thread nD τ) (Pipeline.ucRefs τ sig) (W8 m c) ∗ Rest c)
  post c := iprop(StableHlo.held (c : Thread nD τ) (Pipeline.ucRefs τ sig) (W9 m c) ∗ Rest c)
  X c := iprop(∃ r, prngReg c r)
  Y c := iprop(∃ r, prngReg c r)
  Z c := Pipeline.unscopedRest (Ix := Unit) (Name := ℕ) (U := UR sig nD τ) (Lvl := ℕ) spec2 c (V8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V8 m) c)
    iintro ⟨Hp, -, Hr⟩
    isplitl [Hp]; · iexact Hp
    iexact Hr
  hout c := by
    rw [Pipeline.ownSems0_none]
    refine (hout2 (V8 m) c).trans ?_
    iintro ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V8 m c) (V9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered from every unscoped buffer at W10, left at W11. Its arrays are split
    out of the unscoped buffers and put back at the exit contents; the generator register goes into the region's
    invariant and comes back; nothing is owed; the kernel has no semaphore of its own. -/
def reg3 : Pipeline.RegionSeg (pcfgs (F := F)) adm (pdats m) () defs₀ 𝒱₀ Lnone lv0 3 where
  win := launch3.win.to₀
  block_pos := launch3.block_pos
  stage_whole := launch3.stage_whole
  K := PEmpty
  osem k := k.elim
  ho := Pipeline.OwnSemFacts.none _
  hbody c := (body_obligation3 (V10 m) c).loose
  hwaits := Pipeline.hwaits_of_owed_zero _ _ _ _ Lnone lv0 3 fun _ _ => rfl
  pre c := iprop(StableHlo.held (c : Thread nD τ) (Pipeline.ucRefs τ sig) (W10 m c) ∗ Rest c)
  post c := iprop(StableHlo.held (c : Thread nD τ) (Pipeline.ucRefs τ sig) (W11 m c) ∗ Rest c)
  X c := iprop(∃ r, prngReg c r)
  Y c := iprop(∃ r, prngReg c r)
  Z c := Pipeline.unscopedRest (Ix := Unit) (Name := ℕ) (U := UR sig nD τ) (Lvl := ℕ) spec3 c (V10 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V10 m) c)
    iintro ⟨Hp, -, Hr⟩
    isplitl [Hp]; · iexact Hp
    iexact Hr
  hout c := by
    rw [Pipeline.ownSems0_none]
    refine (hout3 (V10 m) c).trans ?_
    iintro ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V10 m c) (V11 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 4 over the thread state: entered from every unscoped buffer at W13, left at W14. Its arrays are split
    out of the unscoped buffers and put back at the exit contents; the generator register goes into the region's
    invariant and comes back; nothing is owed; the kernel has no semaphore of its own. -/
def reg4 : Pipeline.RegionSeg (pcfgs (F := F)) adm (pdats m) () defs₀ 𝒱₀ Lnone lv0 4 where
  win := launch4.win.to₀
  block_pos := launch4.block_pos
  stage_whole := launch4.stage_whole
  K := PEmpty
  osem k := k.elim
  ho := Pipeline.OwnSemFacts.none _
  hbody c := (body_obligation4 (V13 m) c).loose
  hwaits := Pipeline.hwaits_of_owed_zero _ _ _ _ Lnone lv0 4 fun _ _ => rfl
  pre c := iprop(StableHlo.held (c : Thread nD τ) (Pipeline.ucRefs τ sig) (W13 m c) ∗ Rest c)
  post c := iprop(StableHlo.held (c : Thread nD τ) (Pipeline.ucRefs τ sig) (W14 m c) ∗ Rest c)
  X c := iprop(∃ r, prngReg c r)
  Y c := iprop(∃ r, prngReg c r)
  Z c := Pipeline.unscopedRest (Ix := Unit) (Name := ℕ) (U := UR sig nD τ) (Lvl := ℕ) spec4 c (V13 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V13 m) c)
    iintro ⟨Hp, -, Hr⟩
    isplitl [Hp]; · iexact Hp
    iexact Hr
  hout c := by
    rw [Pipeline.ownSems0_none]
    refine (hout4 (V13 m) c).trans ?_
    iintro ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V13 m c) (V14 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 5 over the thread state: entered from every unscoped buffer at W15, left at W16. Its arrays are split
    out of the unscoped buffers and put back at the exit contents; the generator register goes into the region's
    invariant and comes back; nothing is owed; the kernel has no semaphore of its own. -/
def reg5 : Pipeline.RegionSeg (pcfgs (F := F)) adm (pdats m) () defs₀ 𝒱₀ Lnone lv0 5 where
  win := launch5.win.to₀
  block_pos := launch5.block_pos
  stage_whole := launch5.stage_whole
  K := PEmpty
  osem k := k.elim
  ho := Pipeline.OwnSemFacts.none _
  hbody c := (body_obligation5 (V15 m) c).loose
  hwaits := Pipeline.hwaits_of_owed_zero _ _ _ _ Lnone lv0 5 fun _ _ => rfl
  pre c := iprop(StableHlo.held (c : Thread nD τ) (Pipeline.ucRefs τ sig) (W15 m c) ∗ Rest c)
  post c := iprop(StableHlo.held (c : Thread nD τ) (Pipeline.ucRefs τ sig) (W16 m c) ∗ Rest c)
  X c := iprop(∃ r, prngReg c r)
  Y c := iprop(∃ r, prngReg c r)
  Z c := Pipeline.unscopedRest (Ix := Unit) (Name := ℕ) (U := UR sig nD τ) (Lvl := ℕ) spec5 c (V15 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (V15 m) c)
    iintro ⟨Hp, -, Hr⟩
    isplitl [Hp]; · iexact Hp
    iexact Hr
  hout c := by
    rw [Pipeline.ownSems0_none]
    refine (hout5 (V15 m) c).trans ?_
    iintro ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V15 m c) (V16 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 6 over the thread state: entered from every unscoped buffer at W17, left at W18. Its arrays are split
    out of the unscoped buffers and put back at the exit contents; the generator register goes into the region's
    invariant and comes back; nothing is owed; the kernel has no semaphore of its own. -/
def reg6 : Pipeline.RegionSeg (pcfgs (F := F)) adm (pdats m) () defs₀ 𝒱₀ Lnone lv0 6 where
  win := launch6.win.to₀
  block_pos := launch6.block_pos
  stage_whole := launch6.stage_whole
  K := PEmpty
  osem k := k.elim
  ho := Pipeline.OwnSemFacts.none _
  hbody c := (body_obligation6 (V17 m) c).loose
  hwaits := Pipeline.hwaits_of_owed_zero _ _ _ _ Lnone lv0 6 fun _ _ => rfl
  pre c := iprop(StableHlo.held (c : Thread nD τ) (Pipeline.ucRefs τ sig) (W17 m c) ∗ Rest c)
  post c := iprop(StableHlo.held (c : Thread nD τ) (Pipeline.ucRefs τ sig) (W18 m c) ∗ Rest c)
  X c := iprop(∃ r, prngReg c r)
  Y c := iprop(∃ r, prngReg c r)
  Z c := Pipeline.unscopedRest (Ix := Unit) (Name := ℕ) (U := UR sig nD τ) (Lvl := ℕ) spec6 c (V17 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (V17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (V17 m) c)
    iintro ⟨Hp, -, Hr⟩
    isplitl [Hp]; · iexact Hp
    iexact Hr
  hout c := by
    rw [Pipeline.ownSems0_none]
    refine (hout6 (V17 m) c).trans ?_
    iintro ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (V17 m c) (V18 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 7 over the thread state: entered from every unscoped buffer at W20, left at W21. Its arrays are split
    out of the unscoped buffers and put back at the exit contents; the generator register goes into the region's
    invariant and comes back; nothing is owed; the kernel has no semaphore of its own. -/
def reg7 : Pipeline.RegionSeg (pcfgs (F := F)) adm (pdats m) () defs₀ 𝒱₀ Lnone lv0 7 where
  win := launch7.win.to₀
  block_pos := launch7.block_pos
  stage_whole := launch7.stage_whole
  K := PEmpty
  osem k := k.elim
  ho := Pipeline.OwnSemFacts.none _
  hbody c := (body_obligation7 (V20 m) c).loose
  hwaits := Pipeline.hwaits_of_owed_zero _ _ _ _ Lnone lv0 7 fun _ _ => rfl
  pre c := iprop(StableHlo.held (c : Thread nD τ) (Pipeline.ucRefs τ sig) (W20 m c) ∗ Rest c)
  post c := iprop(StableHlo.held (c : Thread nD τ) (Pipeline.ucRefs τ sig) (W21 m c) ∗ Rest c)
  X c := iprop(∃ r, prngReg c r)
  Y c := iprop(∃ r, prngReg c r)
  Z c := Pipeline.unscopedRest (Ix := Unit) (Name := ℕ) (U := UR sig nD τ) (Lvl := ℕ) spec7 c (V20 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (V20 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (V20 m) c)
    iintro ⟨Hp, -, Hr⟩
    isplitl [Hp]; · iexact Hp
    iexact Hr
  hout c := by
    rw [Pipeline.ownSems0_none]
    refine (hout7 (V20 m) c).trans ?_
    iintro ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (V20 m c) (V21 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 8 over the thread state: entered from every unscoped buffer at W22, left at W23. Its arrays are split
    out of the unscoped buffers and put back at the exit contents; the generator register goes into the region's
    invariant and comes back; nothing is owed; the kernel has no semaphore of its own. -/
def reg8 : Pipeline.RegionSeg (pcfgs (F := F)) adm (pdats m) () defs₀ 𝒱₀ Lnone lv0 8 where
  win := launch8.win.to₀
  block_pos := launch8.block_pos
  stage_whole := launch8.stage_whole
  K := PEmpty
  osem k := k.elim
  ho := Pipeline.OwnSemFacts.none _
  hbody c := (body_obligation8 (V22 m) c).loose
  hwaits := Pipeline.hwaits_of_owed_zero _ _ _ _ Lnone lv0 8 fun _ _ => rfl
  pre c := iprop(StableHlo.held (c : Thread nD τ) (Pipeline.ucRefs τ sig) (W22 m c) ∗ Rest c)
  post c := iprop(StableHlo.held (c : Thread nD τ) (Pipeline.ucRefs τ sig) (W23 m c) ∗ Rest c)
  X c := iprop(∃ r, prngReg c r)
  Y c := iprop(∃ r, prngReg c r)
  Z c := Pipeline.unscopedRest (Ix := Unit) (Name := ℕ) (U := UR sig nD τ) (Lvl := ℕ) spec8 c (V22 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (V22 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin8 (V22 m) c)
    iintro ⟨Hp, -, Hr⟩
    isplitl [Hp]; · iexact Hp
    iexact Hr
  hout c := by
    rw [Pipeline.ownSems0_none]
    refine (hout8 (V22 m) c).trans ?_
    iintro ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (V22 m c) (V23 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 9 over the thread state: entered from every unscoped buffer at W24, left at W25. Its arrays are split
    out of the unscoped buffers and put back at the exit contents; the generator register goes into the region's
    invariant and comes back; nothing is owed; the kernel has no semaphore of its own. -/
def reg9 : Pipeline.RegionSeg (pcfgs (F := F)) adm (pdats m) () defs₀ 𝒱₀ Lnone lv0 9 where
  win := launch9.win.to₀
  block_pos := launch9.block_pos
  stage_whole := launch9.stage_whole
  K := PEmpty
  osem k := k.elim
  ho := Pipeline.OwnSemFacts.none _
  hbody c := (body_obligation9 (V24 m) c).loose
  hwaits := Pipeline.hwaits_of_owed_zero _ _ _ _ Lnone lv0 9 fun _ _ => rfl
  pre c := iprop(StableHlo.held (c : Thread nD τ) (Pipeline.ucRefs τ sig) (W24 m c) ∗ Rest c)
  post c := iprop(StableHlo.held (c : Thread nD τ) (Pipeline.ucRefs τ sig) (W25 m c) ∗ Rest c)
  X c := iprop(∃ r, prngReg c r)
  Y c := iprop(∃ r, prngReg c r)
  Z c := Pipeline.unscopedRest (Ix := Unit) (Name := ℕ) (U := UR sig nD τ) (Lvl := ℕ) spec9 c (V24 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (V24 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin9 (V24 m) c)
    iintro ⟨Hp, -, Hr⟩
    isplitl [Hp]; · iexact Hp
    iexact Hr
  hout c := by
    rw [Pipeline.ownSems0_none]
    refine (hout9 (V24 m) c).trans ?_
    iintro ⟨Hp, Hr⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (V24 m c) (V25 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 10 over the thread state: entered from every unscoped buffer at W27, left at W28. Its arrays are split
    out of the unscoped buffers and put back at the exit contents; the generator register goes into the region's
    invariant and comes back; nothing is owed; the kernel has no semaphore of its own. -/
def reg10 : Pipeline.RegionSeg (pcfgs (F := F)) adm (pdats m) () defs₀ 𝒱₀ Lnone lv0 10 where
  win := launch10.win.to₀
  block_pos := launch10.block_pos
  stage_whole := launch10.stage_whole
  K := PEmpty
  osem k := k.elim
  ho := Pipeline.OwnSemFacts.none _
  hbody c := (body_obligation10 (V27 m) c).loose
  hwaits := Pipeline.hwaits_of_owed_zero _ _ _ _ Lnone lv0 10 fun _ _ => rfl
  pre c := iprop(StableHlo.held (c : Thread nD τ) (Pipeline.ucRefs τ sig) (W27 m c) ∗ Rest c)
  post c := iprop(StableHlo.held (c : Thread nD τ) (Pipeline.ucRefs τ sig) (W28 m c) ∗ Rest c)
  X c := iprop(∃ r, prngReg c r)
  Y c := iprop(∃ r, prngReg c r)
  Z c := Pipeline.unscopedRest (Ix := Unit) (Name := ℕ) (U := UR sig nD τ) (Lvl := ℕ) spec10 c (V27 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (V27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin10 (V27 m) c)
    iintro ⟨Hp, -, Hr⟩
    isplitl [Hp]; · iexact Hp
    iexact Hr
  hout c := by
    rw [Pipeline.ownSems0_none]
    refine (hout10 (V27 m) c).trans ?_
    iintro ⟨Hp, Hr⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (V27 m c) (V28 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 11 over the thread state: entered from every unscoped buffer at W29, left at W30. Its arrays are split
    out of the unscoped buffers and put back at the exit contents; the generator register goes into the region's
    invariant and comes back; nothing is owed; the kernel has no semaphore of its own. -/
def reg11 : Pipeline.RegionSeg (pcfgs (F := F)) adm (pdats m) () defs₀ 𝒱₀ Lnone lv0 11 where
  win := launch11.win.to₀
  block_pos := launch11.block_pos
  stage_whole := launch11.stage_whole
  K := PEmpty
  osem k := k.elim
  ho := Pipeline.OwnSemFacts.none _
  hbody c := (body_obligation11 (V29 m) c).loose
  hwaits := Pipeline.hwaits_of_owed_zero _ _ _ _ Lnone lv0 11 fun _ _ => rfl
  pre c := iprop(StableHlo.held (c : Thread nD τ) (Pipeline.ucRefs τ sig) (W29 m c) ∗ Rest c)
  post c := iprop(StableHlo.held (c : Thread nD τ) (Pipeline.ucRefs τ sig) (W30 m c) ∗ Rest c)
  X c := iprop(∃ r, prngReg c r)
  Y c := iprop(∃ r, prngReg c r)
  Z c := Pipeline.unscopedRest (Ix := Unit) (Name := ℕ) (U := UR sig nD τ) (Lvl := ℕ) spec11 c (V29 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (V29 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin11 (V29 m) c)
    iintro ⟨Hp, -, Hr⟩
    isplitl [Hp]; · iexact Hp
    iexact Hr
  hout c := by
    rw [Pipeline.ownSems0_none]
    refine (hout11 (V29 m) c).trans ?_
    iintro ⟨Hp, Hr⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (V29 m c) (V30 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 12 over the thread state: entered from every unscoped buffer at W31, left at W32. Its arrays are split
    out of the unscoped buffers and put back at the exit contents; the generator register goes into the region's
    invariant and comes back; nothing is owed; the kernel has no semaphore of its own. -/
def reg12 : Pipeline.RegionSeg (pcfgs (F := F)) adm (pdats m) () defs₀ 𝒱₀ Lnone lv0 12 where
  win := launch12.win.to₀
  block_pos := launch12.block_pos
  stage_whole := launch12.stage_whole
  K := PEmpty
  osem k := k.elim
  ho := Pipeline.OwnSemFacts.none _
  hbody c := (body_obligation12 (V31 m) c).loose
  hwaits := Pipeline.hwaits_of_owed_zero _ _ _ _ Lnone lv0 12 fun _ _ => rfl
  pre c := iprop(StableHlo.held (c : Thread nD τ) (Pipeline.ucRefs τ sig) (W31 m c) ∗ Rest c)
  post c := iprop(StableHlo.held (c : Thread nD τ) (Pipeline.ucRefs τ sig) (W32 m c) ∗ Rest c)
  X c := iprop(∃ r, prngReg c r)
  Y c := iprop(∃ r, prngReg c r)
  Z c := Pipeline.unscopedRest (Ix := Unit) (Name := ℕ) (U := UR sig nD τ) (Lvl := ℕ) spec12 c (V31 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (V31 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin12 (V31 m) c)
    iintro ⟨Hp, -, Hr⟩
    isplitl [Hp]; · iexact Hp
    iexact Hr
  hout c := by
    rw [Pipeline.ownSems0_none]
    refine (hout12 (V31 m) c).trans ?_
    iintro ⟨Hp, Hr⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (V31 m c) (V32 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 13 over the thread state: entered from every unscoped buffer at W34, left at W35. Its arrays are split
    out of the unscoped buffers and put back at the exit contents; the generator register goes into the region's
    invariant and comes back; nothing is owed; the kernel has no semaphore of its own. -/
def reg13 : Pipeline.RegionSeg (pcfgs (F := F)) adm (pdats m) () defs₀ 𝒱₀ Lnone lv0 13 where
  win := launch13.win.to₀
  block_pos := launch13.block_pos
  stage_whole := launch13.stage_whole
  K := PEmpty
  osem k := k.elim
  ho := Pipeline.OwnSemFacts.none _
  hbody c := (body_obligation13 (V34 m) c).loose
  hwaits := Pipeline.hwaits_of_owed_zero _ _ _ _ Lnone lv0 13 fun _ _ => rfl
  pre c := iprop(StableHlo.held (c : Thread nD τ) (Pipeline.ucRefs τ sig) (W34 m c) ∗ Rest c)
  post c := iprop(StableHlo.held (c : Thread nD τ) (Pipeline.ucRefs τ sig) (W35 m c) ∗ Rest c)
  X c := iprop(∃ r, prngReg c r)
  Y c := iprop(∃ r, prngReg c r)
  Z c := Pipeline.unscopedRest (Ix := Unit) (Name := ℕ) (U := UR sig nD τ) (Lvl := ℕ) spec13 c (V34 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (V34 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin13 (V34 m) c)
    iintro ⟨Hp, -, Hr⟩
    isplitl [Hp]; · iexact Hp
    iexact Hr
  hout c := by
    rw [Pipeline.ownSems0_none]
    refine (hout13 (V34 m) c).trans ?_
    iintro ⟨Hp, Hr⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (V34 m c) (V35 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 14 over the thread state: entered from every unscoped buffer at W36, left at W37. Its arrays are split
    out of the unscoped buffers and put back at the exit contents; the generator register goes into the region's
    invariant and comes back; nothing is owed; the kernel has no semaphore of its own. -/
def reg14 : Pipeline.RegionSeg (pcfgs (F := F)) adm (pdats m) () defs₀ 𝒱₀ Lnone lv0 14 where
  win := launch14.win.to₀
  block_pos := launch14.block_pos
  stage_whole := launch14.stage_whole
  K := PEmpty
  osem k := k.elim
  ho := Pipeline.OwnSemFacts.none _
  hbody c := (body_obligation14 (V36 m) c).loose
  hwaits := Pipeline.hwaits_of_owed_zero _ _ _ _ Lnone lv0 14 fun _ _ => rfl
  pre c := iprop(StableHlo.held (c : Thread nD τ) (Pipeline.ucRefs τ sig) (W36 m c) ∗ Rest c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec14 c (V36 m c)
  hentry c := by
    rw [Pipeline.ownSems0_none]
    have hsplit := Pipeline.arrays_of_unscopedBufs (p := 14) (pcfgs (F := F)) adm (pdats m) launch14.win launch14.arr_whole c
      ((pdats m 14 c).share_full fun _ => rfl) (V36 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin14 (V36 m) c)
    iintro ⟨Hp, -, Hr⟩
    isplitl [Hp]; · iexact Hp
    iexact Hr
  hout c := by
    rw [Pipeline.ownSems0_none]
    refine (hout14 (V36 m) c).trans ?_
    iintro ⟨Hp, Hr⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (V36 m c) (V37 m c) ((pdats m 14 c).arrAt · cfg14.N) (hF14 m c) (hrest14 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 37 items in order: a host segment per stretch from its contents, a region per kernel. -/
abbrev segs : List (Pipeline.Seg (pcfgs (F := F)) adm (pdats m) () defs₀ 𝒱₀ Lnone lv0) :=
  [ .host (hseg hostOps0 hostOps0_sub GenP.hostOps0_fresh (W0 m)),
    .host (hseg hostOps0_1 hostOps0_1_sub GenP.hostOps0_1_fresh (W1 m)),
    .host (hseg hostOps0_2 hostOps0_2_sub GenP.hostOps0_2_fresh (W2 m)),
    .region (reg0 m),
    .host (hseg hostOps1 hostOps1_sub GenP.hostOps1_fresh (W4 m)),
    .host (hseg hostOps1_1 hostOps1_1_sub GenP.hostOps1_1_fresh (W5 m)),
    .region (reg1 m),
    .host (hseg hostOps2 hostOps2_sub GenP.hostOps2_fresh (W7 m)),
    .region (reg2 m),
    .host (hseg hostOps3 hostOps3_sub GenP.hostOps3_fresh (W9 m)),
    .region (reg3 m),
    .host (hseg hostOps4 hostOps4_sub GenP.hostOps4_fresh (W11 m)),
    .host (hseg hostOps4_1 hostOps4_1_sub GenP.hostOps4_1_fresh (W12 m)),
    .region (reg4 m),
    .host (hseg hostOps5 hostOps5_sub GenP.hostOps5_fresh (W14 m)),
    .region (reg5 m),
    .host (hseg hostOps6 hostOps6_sub GenP.hostOps6_fresh (W16 m)),
    .region (reg6 m),
    .host (hseg hostOps7 hostOps7_sub GenP.hostOps7_fresh (W18 m)),
    .host (hseg hostOps7_1 hostOps7_1_sub GenP.hostOps7_1_fresh (W19 m)),
    .region (reg7 m),
    .host (hseg hostOps8 hostOps8_sub GenP.hostOps8_fresh (W21 m)),
    .region (reg8 m),
    .host (hseg hostOps9 hostOps9_sub GenP.hostOps9_fresh (W23 m)),
    .region (reg9 m),
    .host (hseg hostOps10 hostOps10_sub GenP.hostOps10_fresh (W25 m)),
    .host (hseg hostOps10_1 hostOps10_1_sub GenP.hostOps10_1_fresh (W26 m)),
    .region (reg10 m),
    .host (hseg hostOps11 hostOps11_sub GenP.hostOps11_fresh (W28 m)),
    .region (reg11 m),
    .host (hseg hostOps12 hostOps12_sub GenP.hostOps12_fresh (W30 m)),
    .region (reg12 m),
    .host (hseg hostOps13 hostOps13_sub GenP.hostOps13_fresh (W32 m)),
    .host (hseg hostOps13_1 hostOps13_1_sub GenP.hostOps13_1_fresh (W33 m)),
    .region (reg13 m),
    .host (hseg hostOps14 hostOps14_sub GenP.hostOps14_fresh (W35 m)),
    .region (reg14 m) ]

/-- The segments' fragments are @main's items. -/
theorem segs_prog : (segs m).map Pipeline.Seg.prog = [
    StableHlo.seq hostOps0,
    StableHlo.seq hostOps0_1,
    StableHlo.seq hostOps0_2,
    Prog.lift (.customCall (Pipeline.entry 0) ()),
    StableHlo.seq hostOps1,
    StableHlo.seq hostOps1_1,
    Prog.lift (.customCall (Pipeline.entry 1) ()),
    StableHlo.seq hostOps2,
    Prog.lift (.customCall (Pipeline.entry 2) ()),
    StableHlo.seq hostOps3,
    Prog.lift (.customCall (Pipeline.entry 3) ()),
    StableHlo.seq hostOps4,
    StableHlo.seq hostOps4_1,
    Prog.lift (.customCall (Pipeline.entry 4) ()),
    StableHlo.seq hostOps5,
    Prog.lift (.customCall (Pipeline.entry 5) ()),
    StableHlo.seq hostOps6,
    Prog.lift (.customCall (Pipeline.entry 6) ()),
    StableHlo.seq hostOps7,
    StableHlo.seq hostOps7_1,
    Prog.lift (.customCall (Pipeline.entry 7) ()),
    StableHlo.seq hostOps8,
    Prog.lift (.customCall (Pipeline.entry 8) ()),
    StableHlo.seq hostOps9,
    Prog.lift (.customCall (Pipeline.entry 9) ()),
    StableHlo.seq hostOps10,
    StableHlo.seq hostOps10_1,
    Prog.lift (.customCall (Pipeline.entry 10) ()),
    StableHlo.seq hostOps11,
    Prog.lift (.customCall (Pipeline.entry 11) ()),
    StableHlo.seq hostOps12,
    Prog.lift (.customCall (Pipeline.entry 12) ()),
    StableHlo.seq hostOps13,
    StableHlo.seq hostOps13_1,
    Prog.lift (.customCall (Pipeline.entry 13) ()),
    StableHlo.seq hostOps14,
    Prog.lift (.customCall (Pipeline.entry 14) ()) ] := rfl

-- the launch theorem's implicit arguments are found by unifying its conclusion with this one, which takes unfolding
-- plain definitions in a metavariable's type
set_option backward.isDefEq.respectTransparency.types false in
/-- THE RUN, at any postcondition that follows from the final contents of every unscoped buffer: from any memory with zero
    counters every weakly fair execution of @main on the TensorCores terminates, nothing faulting, and every final state
    holds each unscoped buffer of each core at the end of the fold. -/
theorem run_to (ρ : Dev nD → PrngReg) {Q : PUnit × MemSt nD τ sig (Elt F) → Prop}
    (hQ : ∀ s : MemSt nD τ sig (Elt F), (∀ c : Dev nD, ∀ b ∈ Pipeline.ucRefs τ sig, s.mem ((c : Thread nD τ).1, b) = W37 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ Lnone lv0 m ρ main (segs m)
    (fun c Q => by
      rewrite [main_chain c, Pipeline.Seg.run_eq_chain, segs_prog m]
      with_reducible exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tlast m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lnone lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W37 m c b)
    (hfin := fun c s' => by
      iintro ⟨⟨Hh, -⟩, HSI⟩
      unfold StableHlo.held
      imodintro
      iapply (pointsTo_read_all (Pipeline.ucRefs τ sig) (fun b => (((c : Thread nD τ)).1, b)) (W37 m c) s')
      isplitl [Hh] <;> iassumption)
    (hQ := hQ)

/-- THE RUN with the final contents stated. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W37 m c b) :=
  run_to m ρ fun s h => h

/-- THE FRAME: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  run_to m ρ fun s h c =>
    ⟨(h c _ (mem_uc main_arg0 (by decide))).trans (W37_main_arg0 m c),
     (h c _ (mem_uc main_arg1 (by decide))).trans (W37_main_arg1 m c),
     (h c _ (mem_uc main_arg2 (by decide))).trans (W37_main_arg2 m c),
     (h c _ (mem_uc main_arg3 (by decide))).trans (W37_main_arg3 m c),
     (h c _ (mem_uc main_arg4 (by decide))).trans (W37_main_arg4 m c),
     (h c _ (mem_uc main_arg5 (by decide))).trans (W37_main_arg5 m c),
     (h c _ (mem_uc main_arg6 (by decide))).trans (W37_main_arg6 m c),
     (h c _ (mem_uc main_arg7 (by decide))).trans (W37_main_arg7 m c),
     (h c _ (mem_uc main_arg8 (by decide))).trans (W37_main_arg8 m c),
     (h c _ (mem_uc main_arg9 (by decide))).trans (W37_main_arg9 m c),
     (h c _ (mem_uc main_arg10 (by decide))).trans (W37_main_arg10 m c),
     (h c _ (mem_uc main_arg11 (by decide))).trans (W37_main_arg11 m c),
     (h c _ (mem_uc main_arg12 (by decide))).trans (W37_main_arg12 m c),
     (h c _ (mem_uc main_arg13 (by decide))).trans (W37_main_arg13 m c),
     (h c _ (mem_uc main_arg14 (by decide))).trans (W37_main_arg14 m c),
     (h c _ (mem_uc main_arg15 (by decide))).trans (W37_main_arg15 m c),
     (h c _ (mem_uc main_arg16 (by decide))).trans (W37_main_arg16 m c),
     (h c _ (mem_uc main_arg17 (by decide))).trans (W37_main_arg17 m c),
     (h c _ (mem_uc main_arg18 (by decide))).trans (W37_main_arg18 m c),
     (h c _ (mem_uc main_arg19 (by decide))).trans (W37_main_arg19 m c)⟩

end Cert.KernelIdeal.Hand

end
-- ==== Proof.BReg0.lean ====
import proofs.«408066_j62380105008311_2_alg».proof.Proof.Gen.Kernel.Launch
import proofs.«408066_j62380105008311_2_alg».proof.Proof.Gen.Kernel.Skeleton
import proofs.«408066_j62380105008311_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# Region 0: one dense layer, the product of x and W, row block by row block

The grid walks the row blocks of x.  At a point the body reads the current row block of x (window 0) and
the whole weight matrix W (window 1, which never moves), and stores their matrix product over the whole
block of the result (window 2).  Nothing is carried from point to point.

Everything is stated at a parameter V: the TensorCore's buffer contents when the region is entered.
-/

-- membership in a rectangle spanning a whole block recurses once per coordinate of its long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x sits in window 0's current buffer at every point: the window is fetched wherever its
    block index moves, and the body leaves the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix sits in window 1's buffer at every point although it is fetched once: its block index
    never moves, so the block fetched at the first point is the block of every later point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S1000x256 := Rect.unit (s := S1000x256) ![0, 0] S1000x256.size inb_S1000x256_S1000x256_0_0
abbrev r0_1 : Rect S256x220 := Rect.unit (s := S256x220) ![0, 0] S256x220.size inb_S256x220_S256x220_0_0
abbrev r0_2 : Rect S1000x220 := Rect.unit (s := S1000x220) ![0, 0] S1000x220.size inb_S1000x220_S1000x220_0_0

/-! ## What the body leaves in the result's buffer -/

/-- The result block after the body, from the row block x0 of x and the weights x1: the one store, whose
    payload is the product of the two loaded blocks. -/
def out0_2 (x0 : Vec F S1000x256 .f32) (x1 : Vec F S256x220 .f32) : Vec F S1000x220 .f32 :=
  View.canon [⟨r0_2, k0_pay1 (View.ld x0 r0_0) (View.ld x1 r0_1)⟩]

/-- The one store spans the whole buffer, so every index of the buffer is written. -/
theorem cover0_2 (p0 : Vec F S1000x220 .f32) (y : S1000x220.Idx) :
    ∃ pc ∈ ([⟨r0_2, p0⟩] : List (View.Piece (Elt F) S1000x220 .f32)), y ∈ pc.1.set :=
  View.cover_of_tiled [⟨r0_2, p0⟩] S1000x220.size (by rfl) y

/-! ## The body's triple -/

set_option maxHeartbeats 1000000 in
/-- The body on whole buffers (the two operands' at read contents x0, x1, the result's at anything) runs to a
    state with the operands' buffers as they were and the result's at out0_2 x0 x1.  The body also loads the
    result's buffer before the store; the value loaded is not used. -/
theorem sound_kernel0 (c : Dev nD) (E : Set ℕ) (i : grid0.Coords)
    (arg1 : Memref sig .tc .vmem S1000x256 .f32) (harg1 : arg1.IsWhole)
    (arg2 : Memref sig .tc .vmem S256x220 .f32) (harg2 : arg2.IsWhole)
    (arg3 : Memref sig .tc .vmem S1000x220 .f32) (harg3 : arg3.IsWhole)
    (x0 : Vec F S1000x256 .f32) (x1 : Vec F S256x220 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core c: the arrays as the region finds them; after the body at point t
    each operand's buffer at its block and the result's at out0_2 of the two; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each operand's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' buffers hold their blocks, so sound_kernel0 applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- Entering: the generator register and the scoped rest are the invariant. -/
theorem hin0 (c : Dev nD) :
    iprop((∃ r, prngReg c r) ∗ Pipeline.scopedRest (Ix := Unit) (Name := ℕ) (U := UR sig nD τ) (Lvl := ℕ) (Val := Elt F) spec0 c)
      ⊢ (dat0 V c).Φ 0 := by
  rw [show (dat0 V c).Φ 0 = Pipeline.ΦA spec0 c from rfl]; unfold Pipeline.ΦA
  iintro ⟨Hp, Hr⟩
  isplitl [Hr]; · iexact Hr
  iexact Hp

/-- Leaving: the invariant gives both back. -/
theorem hout0 (c : Dev nD) :
    (dat0 V c).Φ (Fin.last cfg0.N)
      ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = Pipeline.ΦA spec0 c from rfl]; unfold Pipeline.ΦA
  iintro ⟨Hr, Hp⟩
  isplitl [Hp]; · iexact Hp
  iexact Hr

end Cert.Kernel.Hand

end
-- ==== Proof.BReg1.lean ====
import proofs.«408066_j62380105008311_2_alg».proof.Proof.Gen.Kernel.Launch
import proofs.«408066_j62380105008311_2_alg».proof.Proof.Gen.Kernel.Skeleton
import proofs.«408066_j62380105008311_2_alg».proof.Proof.Gen.Kernel.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

/-! # Region 1: a blocked matrix product accumulated in a scratch buffer

The grid is two-dimensional; along its second axis the body adds one block product into a scratch
accumulator, which it clears at the first step and copies to the output block at the last one.  This
file states, at any float family and at any entry contents `V` of the TensorCore's buffers, what the
accumulator holds after each grid point and proves the body's triple at every point. -/

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of accumulation steps (the extent of the grid's second axis) and the index of the last one:
    the only numerals of this file. -/
local notation "K₁" => 10
local notation "K₁last" => 9

/-! ## The body's two conditions, in closed form over the grid -/

/-- "This is the first accumulation step": the condition under which the body clears the accumulator. -/
abbrev cond1_0 (i : grid1.Coords) : Prop :=
  (Scalar.cmpi .ne (Scalar.extui (Scalar.cmpi .eq (BitVec.ofNat 32 (i 1).val) 0#32)) 0#32) = 1#1
/-- It holds exactly at the points whose position is a multiple of the number of steps. -/
theorem hcond1_0 : ∀ t : Fin cfg1.N, cond1_0 (grid1.coords t) ↔ t.val % K₁ = 0 :=
  (by decide +kernel : ∀ t : Fin grid1.N, cond1_0 (grid1.coords t) ↔ t.val % K₁ = 0)

/-- "This is the last accumulation step": the condition under which the body copies the accumulator out. -/
abbrev cond1_1 (i : grid1.Coords) : Prop := k1_cond2 i = 1#1
/-- It holds exactly at the points whose position is one short of a multiple of the number of steps. -/
theorem hcond1_1 : ∀ t : Fin cfg1.N, cond1_1 (grid1.coords t) ↔ t.val % K₁ = K₁last :=
  (by decide +kernel : ∀ t : Fin grid1.N, cond1_1 (grid1.coords t) ↔ t.val % K₁ = K₁last)

/-! ## Where the windows are idle -/

/-- The two operand windows are live at every point. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- The output window is idle, and not written back, wherever the step is not the last; -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- and live at the last step. -/
theorem liveAt1_2 : ∀ t : Fin cfg1.N, cond1_1 (grid1.coords t) → cfg1.idle 2 (grid1.coords t) = false := by decide +kernel

/-! ## The memrefs the body is called with -/

/-- Each window's current staging memref at point `t`, and its wholeness. -/
abbrev ms1_0 (t : Fin cfg1.N) : Memref sig .tc .vmem S2000x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x220 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x220 .f32 := win1_2.stage (cfg1.slots t 2)
abbrev hs1_2 (t : Fin cfg1.N) : (ms1_2 t).IsWhole := hstage1_2 ((cfg1.slots t 2).cast nbuf1_2)
/-- The accumulator: a whole scoped buffer of the call's own. -/
abbrev scM1 : Memref sig .tc .vmem S2000x220 .f32 := Memref.whole cc1_scratch0
/-- The views through which the accumulator's and the output block's contents are stated. -/
abbrev VS1 : View sig .tc .vmem S2000x220 .f32 := scM1.view
abbrev VO1_2 : View sig .tc .vmem S2000x220 .f32 := (Memref.whole cc1_stg2_0 : Memref sig .tc .vmem S2000x220 .f32).view

/-! ## The body on any whole memrefs, case by case

Three cases of the two conditions occur on the grid: the first step (clear, then accumulate), a middle step
(accumulate), the last step (accumulate, then copy out).  In each the body's stores leave lists of pieces in
the accumulator (and, at the last step, in the output block); the run finds them. -/

set_option maxHeartbeats 1000000 in
/-- FIRST STEP.  The operands' memrefs at their contents, the output's at contents handed back untouched, the
    accumulator at anything: the body runs to the continuation holding the accumulator with its pieces written. -/
noncomputable def run1_A (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : cond1_0 i) (hc1 : ¬cond1_1 i) (x0 : Vec F S2000x1024 .bf16) (x1 : Vec F S1024x220 .f32) :
    { LS : List (View.Piece (Elt F) S2000x220 .f32) //
      ∀ (xi2 : Vec F S2000x220 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc1__spmm_kernel i arg2 harg2 arg3 harg3 arg4 harg4 arg5 harg5) K } := by
  refine ⟨?_, fun xi2 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A MIDDLE STEP.  As the first, but the accumulator at the contents `xs` the step before left. -/
noncomputable def run1_B (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : ¬cond1_0 i) (hc1 : ¬cond1_1 i) (x0 : Vec F S2000x1024 .bf16) (x1 : Vec F S1024x220 .f32) (xs : Vec F S2000x220 .f32) :
    { LS : List (View.Piece (Elt F) S2000x220 .f32) //
      ∀ (xi2 : Vec F S2000x220 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc1__spmm_kernel i arg2 harg2 arg3 harg3 arg4 harg4 arg5 harg5) K } := by
  refine ⟨?_, fun xi2 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- THE LAST STEP.  The accumulator at the contents `xs` the step before left, the output's memref at anything:
    the body leaves pieces in both. -/
noncomputable def run1_C (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : ¬cond1_0 i) (hc1 : cond1_1 i) (x0 : Vec F S2000x1024 .bf16) (x1 : Vec F S1024x220 .f32) (xs : Vec F S2000x220 .f32) :
    Σ' (L2 : List (View.Piece (Elt F) S2000x220 .f32)), { LS : List (View.Piece (Elt F) S2000x220 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc1__spmm_kernel i arg2 harg2 arg3 harg3 arg4 harg4 arg5 harg5) K } := by
  refine ⟨?_, ?_, fun E K => ?run⟩
  case run =>
    simp only [cc1__spmm_kernel_eq_skeleton]; unfold cc1__spmm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What each case leaves, read back -/

/-- The first step's pieces cover the accumulator, -/
theorem scover1_A (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : cond1_0 i) (hc1 : ¬cond1_1 i) (x0 : Vec F S2000x1024 .bf16) (x1 : Vec F S1024x220 .f32) (y : S2000x220.Idx) :
    ∃ pc ∈ (run1_A c i arg2 harg2 arg3 harg3 arg4 harg4 arg5 harg5 hc0 hc1 x0 x1).1, y ∈ pc.1.set :=
  View.cover_of_tiledL (run1_A c i arg2 harg2 arg3 harg3 arg4 harg4 arg5 harg5 hc0 hc1 x0 x1).1 S2000x220.size (by sl_kernel_rfl) y

/-- and this is what they leave in it (read back over contents nothing consults). -/
def sout1_A (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : cond1_0 i) (hc1 : ¬cond1_1 i) (x0 : Vec F S2000x1024 .bf16) (x1 : Vec F S1024x220 .f32) : Vec F S2000x220 .f32 :=
  VS1.read (Elt F) (VS1.writes (Elt F) VS1.junk (run1_A c i arg2 harg2 arg3 harg3 arg4 harg4 arg5 harg5 hc0 hc1 x0 x1).1)

/-- A middle step's pieces cover the accumulator; what they leave. -/
theorem scover1_B (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : ¬cond1_0 i) (hc1 : ¬cond1_1 i) (x0 : Vec F S2000x1024 .bf16) (x1 : Vec F S1024x220 .f32) (xs : Vec F S2000x220 .f32) (y : S2000x220.Idx) :
    ∃ pc ∈ (run1_B c i arg2 harg2 arg3 harg3 arg4 harg4 arg5 harg5 hc0 hc1 x0 x1 xs).1, y ∈ pc.1.set :=
  View.cover_of_tiledL (run1_B c i arg2 harg2 arg3 harg3 arg4 harg4 arg5 harg5 hc0 hc1 x0 x1 xs).1 S2000x220.size (by sl_kernel_rfl) y

def sout1_B (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : ¬cond1_0 i) (hc1 : ¬cond1_1 i) (x0 : Vec F S2000x1024 .bf16) (x1 : Vec F S1024x220 .f32) (xs : Vec F S2000x220 .f32) : Vec F S2000x220 .f32 :=
  VS1.read (Elt F) (VS1.writes (Elt F) VS1.junk (run1_B c i arg2 harg2 arg3 harg3 arg4 harg4 arg5 harg5 hc0 hc1 x0 x1 xs).1)

/-- The last step's pieces cover the output block and the accumulator; what they leave in each. -/
theorem cover1_C (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : ¬cond1_0 i) (hc1 : cond1_1 i) (x0 : Vec F S2000x1024 .bf16) (x1 : Vec F S1024x220 .f32) (xs : Vec F S2000x220 .f32) (y : S2000x220.Idx) :
    ∃ pc ∈ (run1_C c i arg2 harg2 arg3 harg3 arg4 harg4 arg5 harg5 hc0 hc1 x0 x1 xs).1, y ∈ pc.1.set :=
  View.cover_of_tiledL (run1_C c i arg2 harg2 arg3 harg3 arg4 harg4 arg5 harg5 hc0 hc1 x0 x1 xs).1 S2000x220.size (by sl_kernel_rfl) y

def out1_C (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : ¬cond1_0 i) (hc1 : cond1_1 i) (x0 : Vec F S2000x1024 .bf16) (x1 : Vec F S1024x220 .f32) (xs : Vec F S2000x220 .f32) : Vec F S2000x220 .f32 :=
  VO1_2.read (Elt F) (VO1_2.writes (Elt F) VO1_2.junk (run1_C c i arg2 harg2 arg3 harg3 arg4 harg4 arg5 harg5 hc0 hc1 x0 x1 xs).1)

theorem scover1_C (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : ¬cond1_0 i) (hc1 : cond1_1 i) (x0 : Vec F S2000x1024 .bf16) (x1 : Vec F S1024x220 .f32) (xs : Vec F S2000x220 .f32) (y : S2000x220.Idx) :
    ∃ pc ∈ (run1_C c i arg2 harg2 arg3 harg3 arg4 harg4 arg5 harg5 hc0 hc1 x0 x1 xs).2.1, y ∈ pc.1.set :=
  View.cover_of_tiledL (run1_C c i arg2 harg2 arg3 harg3 arg4 harg4 arg5 harg5 hc0 hc1 x0 x1 xs).2.1 S2000x220.size (by sl_kernel_rfl) y

def sout1_C (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : ¬cond1_0 i) (hc1 : cond1_1 i) (x0 : Vec F S2000x1024 .bf16) (x1 : Vec F S1024x220 .f32) (xs : Vec F S2000x220 .f32) : Vec F S2000x220 .f32 :=
  VS1.read (Elt F) (VS1.writes (Elt F) VS1.junk (run1_C c i arg2 harg2 arg3 harg3 arg4 harg4 arg5 harg5 hc0 hc1 x0 x1 xs).2.1)

/-! ## The region at the entry contents `V` -/

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window's current staging buffer holds its block at every point, for any proof data whose array is
    `V`'s and whose body leaves the block in place: the window is uncut and never idle, and where it is not fetched
    its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator after each point -/

/-- THE ACCUMULATION.  What the accumulator holds after the body at position `n`: the case the closed forms select
    there, run at the point's memrefs and operand blocks — at a first step from anything, otherwise from what the
    point before left. -/
def scrAt1 (c : Dev nD) : (n : ℕ) → n < cfg1.N → Vec F S2000x220 .f32
  | 0, hn =>
    sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _)
      ((hcond1_0 ⟨0, hn⟩).mpr (Nat.zero_mod _)) (fun h => (fun e => by (try dsimp only at e); omega) ((hcond1_1 ⟨0, hn⟩).mp h))
      (iblk1 V c 0 ⟨0, hn⟩) (iblk1 V c 1 ⟨0, hn⟩)
  | n + 1, hn =>
    if h0 : (n + 1) % K₁ = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _)
        ((hcond1_0 ⟨n + 1, hn⟩).mpr h0) (fun h => (fun e => by (try dsimp only at e h0); omega) ((hcond1_1 ⟨n + 1, hn⟩).mp h))
        (iblk1 V c 0 ⟨n + 1, hn⟩) (iblk1 V c 1 ⟨n + 1, hn⟩)
    else if h1 : (n + 1) % K₁ = K₁last then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _)
        (fun h => h0 ((hcond1_0 ⟨n + 1, hn⟩).mp h)) ((hcond1_1 ⟨n + 1, hn⟩).mpr h1)
        (iblk1 V c 0 ⟨n + 1, hn⟩) (iblk1 V c 1 ⟨n + 1, hn⟩) (scrAt1 c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _)
        (fun h => h0 ((hcond1_0 ⟨n + 1, hn⟩).mp h)) (fun h => h1 ((hcond1_1 ⟨n + 1, hn⟩).mp h))
        (iblk1 V c 0 ⟨n + 1, hn⟩) (iblk1 V c 1 ⟨n + 1, hn⟩) (scrAt1 c n (Nat.lt_of_succ_lt hn))

/-- The accumulator before a point that is not the first of the grid: what the point before left. -/
abbrev scrBefore1 (c : Dev nD) (t : Fin cfg1.N) : Vec F S2000x220 .f32 :=
  scrAt1 V c (t.val - 1) (Nat.lt_of_le_of_lt (Nat.sub_le _ _) t.isLt)

/-- `scrAt1` at a first step. -/
theorem scrAt1_A (c : Dev nD) (t : Fin cfg1.N) (h0 : t.val % K₁ = 0) (h1 : ¬t.val % K₁ = K₁last) :
    scrAt1 V c t.val t.isLt = sout1_A c (grid1.coords t) (ms1_0 t) (hs1_0 t) (ms1_1 t) (hs1_1 t) (ms1_2 t) (hs1_2 t) scM1 (Memref.isWhole_whole _)
      ((hcond1_0 t).mpr h0) (fun h => h1 ((hcond1_1 t).mp h)) (iblk1 V c 0 t) (iblk1 V c 1 t) := by
  obtain ⟨n, hn⟩ := t
  cases n with
  | zero => exact rfl
  | succ n => exact (dif_pos h0).trans rfl

/-- `scrAt1` at a middle step. -/
theorem scrAt1_B (c : Dev nD) (t : Fin cfg1.N) (h0 : ¬t.val % K₁ = 0) (h1 : ¬t.val % K₁ = K₁last) :
    scrAt1 V c t.val t.isLt = sout1_B c (grid1.coords t) (ms1_0 t) (hs1_0 t) (ms1_1 t) (hs1_1 t) (ms1_2 t) (hs1_2 t) scM1 (Memref.isWhole_whole _)
      (fun h => h0 ((hcond1_0 t).mp h)) (fun h => h1 ((hcond1_1 t).mp h)) (iblk1 V c 0 t) (iblk1 V c 1 t) (scrBefore1 V c t) := by
  obtain ⟨n, hn⟩ := t
  cases n with
  | zero => exact absurd (Nat.zero_mod _) h0
  | succ n => exact (dif_neg h0).trans ((dif_neg h1).trans rfl)

/-- `scrAt1` at a last step. -/
theorem scrAt1_C (c : Dev nD) (t : Fin cfg1.N) (h0 : ¬t.val % K₁ = 0) (h1 : t.val % K₁ = K₁last) :
    scrAt1 V c t.val t.isLt = sout1_C c (grid1.coords t) (ms1_0 t) (hs1_0 t) (ms1_1 t) (hs1_1 t) (ms1_2 t) (hs1_2 t) scM1 (Memref.isWhole_whole _)
      (fun h => h0 ((hcond1_0 t).mp h)) ((hcond1_1 t).mpr h1) (iblk1 V c 0 t) (iblk1 V c 1 t) (scrBefore1 V c t) := by
  obtain ⟨n, hn⟩ := t
  cases n with
  | zero => exact absurd (Nat.zero_mod _) h0
  | succ n => exact (dif_neg h0).trans ((dif_pos h1).trans rfl)

/-- What the output block's staging buffer holds after the body at point `t`: at a last step what that case leaves,
    from the accumulator as the point before left it; elsewhere the window is idle and this is a value nothing consults. -/
def outAt1 (c : Dev nD) (t : Fin cfg1.N) : Vec F S2000x220 .f32 :=
  if h1 : t.val % K₁ = K₁last then
    out1_C c (grid1.coords t) (ms1_0 t) (hs1_0 t) (ms1_1 t) (hs1_1 t) (ms1_2 t) (hs1_2 t) scM1 (Memref.isWhole_whole _)
      (fun h => absurd ((hcond1_0 t).mp h) (by omega)) ((hcond1_1 t).mpr h1) (iblk1 V c 0 t) (iblk1 V c 1 t) (scrBefore1 V c t)
  else VO1_2.read (Elt F) VO1_2.junk

theorem outAt1_C (c : Dev nD) (t : Fin cfg1.N) (h0 : ¬t.val % K₁ = 0) (h1 : t.val % K₁ = K₁last) :
    outAt1 V c t = out1_C c (grid1.coords t) (ms1_0 t) (hs1_0 t) (ms1_1 t) (hs1_1 t) (ms1_2 t) (hs1_2 t) scM1 (Memref.isWhole_whole _)
      (fun h => h0 ((hcond1_0 t).mp h)) ((hcond1_1 t).mpr h1) (iblk1 V c 0 t) (iblk1 V c 1 t) (scrBefore1 V c t) :=
  (dif_pos h1).trans rfl

/-! ## The region's invariant -/

/-- Every scoped buffer of the core that is neither a staging buffer of this call nor its accumulator, at some
    contents each: carried through the region unopened. -/
abbrev rest1 (c : Dev nD) : sProp 𝕄 :=
  Pipeline.scopedRestBut (Ix := Unit) (Name := ℕ) (U := UR sig nD τ) (Lvl := ℕ) (Val := Elt F) spec1 c [cc1_scratch0]

/-- The call's scoped rest, with the accumulator as a whole memref owned at some contents. -/
theorem scopedRest1_eq (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ rest1 (F := F) c) := by
  rw [scopedRest1_split]; simp only [scM1, owns_whole]; try rfl

/-- The invariant before position `n`: before the first point the generator register at some state and the call's
    scoped rest (the accumulator at anything); afterwards the accumulator at what the point before left, the other
    scoped buffers at anything, the generator register at some state. -/
def PhiS1 (c : Dev nD) : (n : ℕ) → n ≤ cfg1.N → sProp 𝕄
  | 0, _ => iprop((∃ r, prngReg c r) ∗ Pipeline.scopedRest (Ix := Unit) (Name := ℕ) (U := UR sig nD τ) (Lvl := ℕ) (Val := Elt F) spec1 c)
  | n + 1, hn => iprop(owns (c : Thread nD τ) scM1 fullShare (scrAt1 V c n hn) ∗ rest1 (F := F) c ∗ (∃ r, prngReg c r))

theorem PhiS1_zero (c : Dev nD) (n : ℕ) (h : n ≤ cfg1.N) (hz : n = 0) :
    PhiS1 V c n h = iprop((∃ r, prngReg c r) ∗ Pipeline.scopedRest (Ix := Unit) (Name := ℕ) (U := UR sig nD τ) (Lvl := ℕ) (Val := Elt F) spec1 c) := by
  subst hz; rfl

theorem PhiS1_succ (c : Dev nD) (n : ℕ) (hn : n < cfg1.N) :
    PhiS1 V c (n + 1) hn = iprop(owns (c : Thread nD τ) scM1 fullShare (scrAt1 V c n hn) ∗ rest1 (F := F) c ∗ (∃ r, prngReg c r)) := rfl

theorem PhiS1_pos (c : Dev nD) (n : ℕ) (h : n ≤ cfg1.N) (hz : n ≠ 0) :
    PhiS1 V c n h = iprop(owns (c : Thread nD τ) scM1 fullShare (scrAt1 V c (n - 1) (by omega)) ∗ rest1 (F := F) c ∗ (∃ r, prngReg c r)) := by
  cases n with
  | zero => exact absurd rfl hz
  | succ n => rfl

/-- At any position the invariant yields the accumulator at SOME contents beside the rest: what a first step needs,
    and what the region gives back. -/
theorem PhiS1_any (c : Dev nD) (n : ℕ) (h : n ≤ cfg1.N) :
    PhiS1 V c n h ⊢ iprop((∃ d, owns (c : Thread nD τ) scM1 fullShare d) ∗ rest1 (F := F) c ∗ (∃ r, prngReg c r)) := by
  cases n with
  | zero =>
    rw [PhiS1_zero V c 0 h rfl, scopedRest1_eq]
    iintro ⟨Hg, HS, HR⟩
    isplitl [HS]; · iexact HS
    isplitl [HR]; · iexact HR
    iexact Hg
  | succ n =>
    rw [PhiS1_succ]
    iintro ⟨HS, HR, Hg⟩
    isplitl [HS]; · iexists _; iexact HS
    isplitl [HR]; · iexact HR
    iexact Hg

/-! ## The pipeline's proof data -/

/-- The proof data of pipeline 1 on core `c`: the arrays as the region finds them; after the body at point `t` each
    operand's buffer at its block and the output's at `outAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]

/-- Each operand's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point.  The operands' memrefs hold their blocks; the closed forms say which step the point is;
    the invariant hands the body the accumulator — at anything at a first step, at what the point before left
    otherwise — and takes it back at this point's contents, since the step's pieces cover it; where the step is not
    the last the output's buffer goes through untouched, at the last its pieces cover it; the core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [PhiS1_castSucc V c t]
  by_cases h0 : t.val % K₁ = 0
  · have h1 : ¬t.val % K₁ = K₁last := by omega
    rw [Dat.leavesExact_idle (dat1 V c) 2 t (idleAt1_2 t (fun h => h1 ((hcond1_1 t).mp h))) (noFlush1_2 t (fun h => h1 ((hcond1_1 t).mp h)))]
    rw [scrAt1_A V c t h0 h1]
    unfold sout1_A
    iintro ⟨HΦ, Ho, ⟨%d0, H0⟩, ⟨%d1, H1⟩, ⟨%d2, H2⟩⟩
    ihave HΦ' := (PhiS1_any V c t.val (Nat.le_of_lt t.isLt)) $$ HΦ
    icases HΦ' with ⟨HS, HR, Hg⟩
    iapply ((run1_A c (grid1.coords t) _ _ _ _ _ _ _ _ ((hcond1_0 t).mpr h0) (fun h => h1 ((hcond1_1 t).mp h)) (iblk1 V c 0 t) (iblk1 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS HR Hg]
    · isplitl [HS]
      · unfold owns; iexists _; isplitr
        swap; · iexact HS
        ipureintro; exact View.read_writes_of_cover _ _ _ _ _ (scover1_A c _ _ _ _ _ _ _ _ _ _ _ _ _)
      isplitl [HR]; · iexact HR
      iexact Hg
    isplitl [Ho]; · iexact Ho
    isplitl [H0]; · iexact H0
    isplitl [H1]; · iexact H1
    iexists _; iexact H2
  · have hz : t.val ≠ 0 := fun e => h0 (by rw [e])
    rw [PhiS1_pos V c _ _ hz]
    by_cases h1 : t.val % K₁ = K₁last
    · rw [show (dat1 V c).leavesExact 2 t = owns (c : Thread nD τ) (ms1_2 t) fullShare ((dat1 V c).after 2 t) from by
        unfold Dat.leavesExact; rw [liveAt1_2 t ((hcond1_1 t).mpr h1)], after1_2]
      rw [scrAt1_C V c t h0 h1, outAt1_C V c t h0 h1]
      unfold sout1_C out1_C
      iintro ⟨⟨HS, HR, Hg⟩, Ho, ⟨%d0, H0⟩, ⟨%d1, H1⟩, ⟨%d2, H2⟩⟩
      iapply ((run1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS]
        · unfold owns; iexists _; isplitr
          swap; · iexact HS
          ipureintro; exact View.read_writes_of_cover _ _ _ _ _ (scover1_C c _ _ _ _ _ _ _ _ _ _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [scrAt1_B V c t h0 h1]
      unfold sout1_B
      iintro ⟨⟨HS, HR, Hg⟩, Ho, ⟨%d0, H0⟩, ⟨%d1, H1⟩, ⟨%d2, H2⟩⟩
      iapply ((run1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (scover1_B c _ _ _ _ _ _ _ _ _ _ _ _ _ _)
        isplitl [HR]; · iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the region -/

/-- What the region is entered with — the generator register at some state and the call's scoped rest — is the
    invariant before the first point. -/
theorem hin1 (c : Dev nD) :
    iprop((∃ r, prngReg c r) ∗ Pipeline.scopedRest (Ix := Unit) (Name := ℕ) (U := UR sig nD τ) (Lvl := ℕ) (Val := Elt F) spec1 c)
      ⊢ (dat1 V c).Φ 0 := by
  rw [show (dat1 V c).Φ 0 = PhiS1 V c 0 (Nat.zero_le _) from rfl, PhiS1_zero V c 0 _ rfl]

/-- After the last point the invariant gives the same back: the accumulator's contents are forgotten. -/
theorem hout1 (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val (Nat.le_of_lt_succ (Fin.last cfg1.N).isLt) from rfl, scopedRest1_eq]
  iintro HΦ
  ihave HΦ' := (PhiS1_any V c _ _) $$ HΦ
  icases HΦ' with ⟨HS, HR, Hg⟩
  isplitl [Hg]; · iexact Hg
  isplitl [HS]; · iexact HS
  iexact HR

end Cert.Kernel.Hand

end
-- ==== Proof.BReg2.lean ====
import proofs.«408066_j62380105008311_2_alg».proof.Proof.Gen.Kernel.Launch
import proofs.«408066_j62380105008311_2_alg».proof.Proof.Gen.Kernel.Skeleton
import proofs.«408066_j62380105008311_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 2: bias, relu, and the running column sums, at the entry contents `V`

The grid is one axis of row blocks. At each point the body adds the bias row to the block of rows, clamps at zero,
stores the result to the first output's block, and adds the block's column sums and column sums of squares into
two one-row outputs whose block never moves; at the first point it zeroes those two rows first. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's branch condition -/

/-- The condition of the body's one conditional, from the grid coordinates. -/
abbrev cond2 (i : grid2.Coords) : Prop := (Scalar.cmpi .ne (Scalar.extui (Scalar.cmpi .eq (BitVec.ofNat 32 (i 0).val) 0#32)) 0#32) = 1#1
/-- It holds at the first point only. -/
theorem hcond2 : ∀ t : Fin cfg2.N, cond2 (grid2.coords t) ↔ t.val = 0 :=
  (by decide +kernel : ∀ t : Fin grid2.N, cond2 (grid2.coords t) ↔ t.val = 0)

/-! ## The body's accesses: each is a whole buffer -/

abbrev rBlk2 : Rect S1000x220 := Rect.unit (s := S1000x220) ![0, 0] S1000x220.size inb_S1000x220_S1000x220_0_0
abbrev rRow2 : Rect S1x220 := Rect.unit (s := S1x220) ![0, 0] S1x220.size inb_S1x220_S1x220_0_0

/-- One whole-buffer store covers the block buffer, -/
theorem coverBlk2 (p : rBlk2.shape.Idx → Elt F .f32) (y : S1000x220.Idx) :
    ∃ pc ∈ ([⟨rBlk2, p⟩] : List (View.Piece (Elt F) S1000x220 .f32)), y ∈ pc.1.set :=
  View.cover_of_tiled [⟨rBlk2, p⟩] S1000x220.size (by rfl) y
/-- and the row buffer. -/
theorem coverRow2 (p : rRow2.shape.Idx → Elt F .f32) (y : S1x220.Idx) :
    ∃ pc ∈ ([⟨rRow2, p⟩] : List (View.Piece (Elt F) S1x220 .f32)), y ∈ pc.1.set :=
  View.cover_of_tiled [⟨rRow2, p⟩] S1x220.size (by rfl) y

/-- Every index of the row buffer lies in the whole-buffer rectangle (read off the cover by one piece). -/
theorem memRow2 (p : rRow2.shape.Idx → Elt F .f32) (y : S1x220.Idx) : y ∈ rRow2.set := by
  obtain ⟨pc, hm, hy⟩ := coverRow2 p y
  rw [List.mem_singleton] at hm; subst hm; exact hy

/-- A store over the whole row buffer hides every earlier store. -/
theorem canon_row2 (p : rRow2.shape.Idx → Elt F .f32) (L : List (View.Piece (Elt F) S1x220 .f32)) :
    View.canon (⟨rRow2, p⟩ :: L) = View.canon [⟨rRow2, p⟩] := by
  funext y
  obtain ⟨x, rfl⟩ : ∃ x, rRow2.emb x = y := rRow2.exists_idx_of_mem (memRow2 p y)
  rw [View.canon_cons_emb, View.canon_cons_emb]

/-! ## What the body leaves in each output window's buffer -/

/-- The first output's buffer after the body: the clamped sum of the row block and the bias row. -/
def out2_2 (x0 : Vec F S1000x220 .f32) (x1 : Vec F S1x220 .f32) : Vec F S1000x220 .f32 :=
  View.canon [⟨rBlk2, k2_pay3 (View.ld x0 rBlk2) (View.ld x1 rRow2)⟩]

/-- The column-sum row as the first point's reset leaves it, -/
def zero2_3 : Vec F S1x220 .f32 := View.canon [⟨rRow2, k2_pay1 (F := F)⟩]
/-- and the column-sum-of-squares row. -/
def zero2_4 : Vec F S1x220 .f32 := View.canon [⟨rRow2, k2_pay2 (F := F)⟩]

/-- The column-sum row after a point's update, from the row it held before (`a`), -/
def step2_3 (x0 : Vec F S1000x220 .f32) (x1 : Vec F S1x220 .f32) (a : Vec F S1x220 .f32) : Vec F S1x220 .f32 :=
  View.canon [⟨rRow2, k2_pay4 (View.ld x0 rBlk2) (View.ld x1 rRow2) (View.ld a rRow2)⟩]
/-- and the column-sum-of-squares row. -/
def step2_4 (x0 : Vec F S1000x220 .f32) (x1 : Vec F S1x220 .f32) (a : Vec F S1x220 .f32) : Vec F S1x220 .f32 :=
  View.canon [⟨rRow2, k2_pay5 (View.ld x0 rBlk2) (View.ld x1 rRow2) (View.ld a rRow2)⟩]

/-! ## The body's triple, at the first point and at a later one -/

set_option maxHeartbeats 1000000 in
/-- At the first point (the conditional taken): on whole staging memrefs, the inputs' at read contents and the
    outputs' at anything, the body runs to the continuation holding the inputs' as they were, the first output's at
    the clamped sum, and the two rows at one update of the reset rows. -/
theorem sound_kernel2_A (c : Dev nD) (E : Set ℕ) (i : grid2.Coords)
    (arg1 : Memref sig .tc .vmem S1000x220 .f32) (harg1 : arg1.IsWhole) (arg2 : Memref sig .tc .vmem S1x220 .f32) (harg2 : arg2.IsWhole)
    (arg3 : Memref sig .tc .vmem S1000x220 .f32) (harg3 : arg3.IsWhole) (arg4 : Memref sig .tc .vmem S1x220 .f32) (harg4 : arg4.IsWhole)
    (arg5 : Memref sig .tc .vmem S1x220 .f32) (harg5 : arg5.IsWhole) (hc : cond2 i)
    (x0 : Vec F S1000x220 .f32) (x1 : Vec F S1x220 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out2_2 x0 x1)
            ∗ owns (c : Thread nD τ) arg4 fullShare (step2_3 x0 x1 zero2_3)
            ∗ owns (c : Thread nD τ) arg5 fullShare (step2_4 x0 x1 zero2_4)) -∗ K ⟨⟩))
      ⊢ wp frame (wpE (defs₀ (F := F)) Variants.none c none) E (cc2__bias_relu_stats_kernel i arg1 harg1 arg2 harg2 arg3 harg3 arg4 harg4 arg5 harg5) K := by
  simp only [cc2__bias_relu_stats_kernel_eq_skeleton]; unfold cc2__bias_relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverBlk2 _)
  isplitl [H3]
  · iexists _; isplitr
    swap; · iexact H3
    ipureintro
    sl_unfold_run_names
    refine (View.read_writes_eq_canon _ _ _ (fun y => ⟨_, List.Mem.head _, memRow2 (k2_pay1 (F := F)) y⟩)).trans ?_
    rw [canon_row2, View.readCov_eq_canon_ld _ _ _ (coverRow2 _)]
    rfl
  iexists _; isplitr
  swap; · iexact H4
  ipureintro
  sl_unfold_run_names
  refine (View.read_writes_eq_canon _ _ _ (fun y => ⟨_, List.Mem.head _, memRow2 (k2_pay2 (F := F)) y⟩)).trans ?_
  rw [canon_row2, View.readCov_eq_canon_ld _ _ _ (coverRow2 _)]
  rfl

set_option maxHeartbeats 1000000 in
/-- At a later point (the conditional not taken): the same, the two rows held at `a3`, `a4` on entry and at one
    update of those on exit. -/
theorem sound_kernel2_B (c : Dev nD) (E : Set ℕ) (i : grid2.Coords)
    (arg1 : Memref sig .tc .vmem S1000x220 .f32) (harg1 : arg1.IsWhole) (arg2 : Memref sig .tc .vmem S1x220 .f32) (harg2 : arg2.IsWhole)
    (arg3 : Memref sig .tc .vmem S1000x220 .f32) (harg3 : arg3.IsWhole) (arg4 : Memref sig .tc .vmem S1x220 .f32) (harg4 : arg4.IsWhole)
    (arg5 : Memref sig .tc .vmem S1x220 .f32) (harg5 : arg5.IsWhole) (hc : ¬cond2 i)
    (x0 : Vec F S1000x220 .f32) (x1 : Vec F S1x220 .f32) (a3 a4 : Vec F S1x220 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare a3 ∗ owns (c : Thread nD τ) arg5 fullShare a4
        ∗ (iprop(owns (c : Thread nD τ) arg1 fullShare x0 ∗ owns (c : Thread nD τ) arg2 fullShare x1
            ∗ owns (c : Thread nD τ) arg3 fullShare (out2_2 x0 x1)
            ∗ owns (c : Thread nD τ) arg4 fullShare (step2_3 x0 x1 a3)
            ∗ owns (c : Thread nD τ) arg5 fullShare (step2_4 x0 x1 a4)) -∗ K ⟨⟩))
      ⊢ wp frame (wpE (defs₀ (F := F)) Variants.none c none) E (cc2__bias_relu_stats_kernel i arg1 harg1 arg2 harg2 arg3 harg3 arg4 harg4 arg5 harg5) K := by
  simp only [cc2__bias_relu_stats_kernel_eq_skeleton]; unfold cc2__bias_relu_stats_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  subst hf0; subst hf1; subst hf3; subst hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverBlk2 _)
  isplitl [H3]
  · iexists _; isplitr
    swap; · iexact H3
    ipureintro
    exact View.read_writes_eq_canon _ _ _ (coverRow2 _)
  iexists _; isplitr
  swap; · iexact H4
  ipureintro
  exact View.read_writes_eq_canon _ _ _ (coverRow2 _)

/-! ## What the two running rows hold after each point -/

/-- The column-sum row after the body at position `n`: one update per point, from the reset row. -/
def acc2_3 (c : Dev nD) : (n : ℕ) → n < cfg2.N → Vec F S1x220 .f32
  | 0, hn => step2_3 (iblk2 V c 0 ⟨0, hn⟩) (iblk2 V c 1 ⟨0, hn⟩) zero2_3
  | n + 1, hn => step2_3 (iblk2 V c 0 ⟨n + 1, hn⟩) (iblk2 V c 1 ⟨n + 1, hn⟩) (acc2_3 c n (Nat.lt_of_succ_lt hn))

/-- The column-sum-of-squares row after the body at position `n`. -/
def acc2_4 (c : Dev nD) : (n : ℕ) → n < cfg2.N → Vec F S1x220 .f32
  | 0, hn => step2_4 (iblk2 V c 0 ⟨0, hn⟩) (iblk2 V c 1 ⟨0, hn⟩) zero2_4
  | n + 1, hn => step2_4 (iblk2 V c 0 ⟨n + 1, hn⟩) (iblk2 V c 1 ⟨n + 1, hn⟩) (acc2_4 c n (Nat.lt_of_succ_lt hn))

/-- At the first point: one update of the reset row. -/
theorem acc2_3_first (c : Dev nD) (t : Fin cfg2.N) (h0 : t.val = 0) :
    acc2_3 V c t.val t.isLt = step2_3 (iblk2 V c 0 t) (iblk2 V c 1 t) zero2_3 := by
  obtain ⟨n, hn⟩ := t
  cases n with
  | zero => exact rfl
  | succ n => exact absurd h0 (Nat.succ_ne_zero n)
theorem acc2_4_first (c : Dev nD) (t : Fin cfg2.N) (h0 : t.val = 0) :
    acc2_4 V c t.val t.isLt = step2_4 (iblk2 V c 0 t) (iblk2 V c 1 t) zero2_4 := by
  obtain ⟨n, hn⟩ := t
  cases n with
  | zero => exact rfl
  | succ n => exact absurd h0 (Nat.succ_ne_zero n)

/-- At a later point: one update of what the point before left. -/
theorem acc2_3_later (c : Dev nD) (t : Fin cfg2.N) (h0 : ¬t.val = 0) :
    acc2_3 V c t.val t.isLt = step2_3 (iblk2 V c 0 t) (iblk2 V c 1 t) (acc2_3 V c (t.val - 1) (Nat.lt_of_le_of_lt (Nat.sub_le _ _) t.isLt)) := by
  obtain ⟨n, hn⟩ := t
  cases n with
  | zero => exact absurd rfl h0
  | succ n => exact rfl
theorem acc2_4_later (c : Dev nD) (t : Fin cfg2.N) (h0 : ¬t.val = 0) :
    acc2_4 V c t.val t.isLt = step2_4 (iblk2 V c 0 t) (iblk2 V c 1 t) (acc2_4 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of pipeline 2 on core `c`: the arrays as the region finds them; after the body at point `t` each
    input's buffer at its block, the first output's at the clamped sum of the input blocks, the two rows at their
    running contents; the invariant is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => acc2_3 V c t.val t.isLt
    | ⟨4, _⟩ => acc2_4 V c t.val t.isLt
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = acc2_3 V c t.val t.isLt := by dsimp only [dat2]
theorem after2_4 (c : Dev nD) (t : Fin cfg2.N) : (dat2 V c).after 4 t = acc2_4 V c t.val t.isLt := by dsimp only [dat2]

/-- Each input's current staging buffer holds its block at every point, fetched there or not: unfetched, the block
    index has not moved and the body left the block in place. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- At a later point each running row's staging buffer holds what the body left at the point before: the buffer is
    written back after the last point only, the window is live and uncut. -/
theorem before2_3_later (c : Dev nD) (t : Fin cfg2.N) (h0 : ¬t.val = 0) (d) :
    (dat2 V c).before 3 t d = acc2_3 V c (t.val - 1) (Nat.lt_of_le_of_lt (Nat.sub_le _ _) t.isLt) := by
  have hN : t.val < _ := lt_of_lt_of_eq t.isLt (N_2 : cfg2.N = _)
  rw [Dat.before_out_kept _ 3 rfl t h0 (Bool.eq_false_iff.mpr fun h => by have := (flush2_3 _).mp h; dsimp only at this; omega)
    (fun _ => rfl) (fun _ _ => rfl)]
  dsimp only [dat2]
theorem before2_4_later (c : Dev nD) (t : Fin cfg2.N) (h0 : ¬t.val = 0) (d) :
    (dat2 V c).before 4 t d = acc2_4 V c (t.val - 1) (Nat.lt_of_le_of_lt (Nat.sub_le _ _) t.isLt) := by
  have hN : t.val < _ := lt_of_lt_of_eq t.isLt (N_2 : cfg2.N = _)
  rw [Dat.before_out_kept _ 4 rfl t h0 (Bool.eq_false_iff.mpr fun h => by have := (flush2_4 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 800000 in
/-- The body at any point: the inputs' memrefs hold their blocks; the point is the first or a later one; at a later
    one each running row holds what the point before left; so the matching triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3, after2_4]
  by_cases h0 : t.val = 0
  · rw [acc2_3_first V c t h0, acc2_4_first V c t h0]
    iintro ⟨HΦ, Ho, ⟨%d0, H0⟩, ⟨%d1, H1⟩, ⟨%d2, H2⟩, ⟨%d3, H3⟩, ⟨%d4, H4⟩⟩
    iapply (sound_kernel2_A c Set.univ (grid2.coords t) _ _ _ _ _ _ _ _ _ _ ((hcond2 t).mpr h0) (iblk2 V c 0 t) (iblk2 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc2_3_later V c t h0, acc2_4_later V c t h0]
    simp only [before2_3_later V c t h0, before2_4_later V c t h0]
    iintro ⟨HΦ, Ho, ⟨%d0, H0⟩, ⟨%d1, H1⟩, ⟨%d2, H2⟩, ⟨%d3, H3⟩, ⟨%d4, H4⟩⟩
    iapply (sound_kernel2_B c Set.univ (grid2.coords t) _ _ _ _ _ _ _ _ _ _ (fun h => h0 ((hcond2 t).mp h)) (iblk2 V c 0 t) (iblk2 V c 1 t) _ _ _)
    isplitl [H0]; · iexact H0
    isplitl [H1]; · iexact H1
    isplitl [H2]; · iexists _; iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's ends -/

/-- Entering: the generator register and the scoped rest make the invariant at the first position. -/
theorem hin2 (c : Dev nD) :
    iprop((∃ r, prngReg c r) ∗ Pipeline.scopedRest (Ix := Unit) (Name := ℕ) (U := UR sig nD τ) (Lvl := ℕ) (Val := Elt F) spec2 c)
      ⊢ (dat2 V c).Φ 0 := by
  rw [show (dat2 V c).Φ 0 = Pipeline.ΦA spec2 c from rfl]; unfold Pipeline.ΦA
  iintro ⟨Hp, Hr⟩
  isplitl [Hr]; · iexact Hr
  iexact Hp

/-- Leaving: the invariant at the last position gives both back. -/
theorem hout2 (c : Dev nD) :
    (dat2 V c).Φ (Fin.last cfg2.N)
      ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = Pipeline.ΦA spec2 c from rfl]; unfold Pipeline.ΦA
  iintro ⟨Hr, Hp⟩
  isplitl [Hp]; · iexact Hp
  iexact Hr

end Cert.Kernel.Hand

end
-- ==== Proof.BReg3.lean ====
import proofs.«408066_j62380105008311_2_alg».proof.Proof.Gen.Kernel.Launch
import proofs.«408066_j62380105008311_2_alg».proof.Proof.Gen.Kernel.Skeleton
import proofs.«408066_j62380105008311_2_alg».proof.Proof.Gen.Kernel.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

/-! # Region 3: the normalise-then-multiply kernel, as a pipeline region entered at arbitrary contents

The kernel reads one row block of the activations, four feature rows (mean, variance, scale, shift) and the
weight matrix, and stores one row block of the product. Every access is a whole-buffer load or store, so the
region is of the simplest class: each input's staging buffer holds its block at every point, and the output's
buffer after the body is the single store's payload. Everything is stated at a parameter `V`, the TensorCore's
buffer contents when the region is entered, and at any float family. -/

-- membership in a rectangle of full extent recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place: where the window is not fetched its block
    index has not moved, so the block kept from the previous point is this point's. Window 0 (the activations). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Window 1 (the mean row). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Window 2 (the variance row). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Window 3 (the scale row). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Window 4 (the shift row). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Window 5 (the weight matrix). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each a whole buffer -/

abbrev r3_0 : Rect S1000x220 := Rect.unit (s := S1000x220) ![0, 0] S1000x220.size inb_S1000x220_S1000x220_0_0
abbrev r3_1 : Rect S1x220 := Rect.unit (s := S1x220) ![0, 0] S1x220.size inb_S1x220_S1x220_0_0
abbrev r3_5 : Rect S220x150 := Rect.unit (s := S220x150) ![0, 0] S220x150.size inb_S220x150_S220x150_0_0
abbrev r3_6 : Rect S1000x150 := Rect.unit (s := S1000x150) ![0, 0] S1000x150.size inb_S1000x150_S1000x150_0_0

/-! ## What the body leaves in the output window's buffer -/

/-- Window 6's staging buffer after the body, from the input windows' blocks (activations, mean, variance, scale,
    shift, weights, in window order): its one store as a piece. The payload takes the variance row before the
    mean row, as the kernel loads them. -/
def out3_6 (x0 : Vec F S1000x220 .f32) (x1 x2 x3 x4 : Vec F S1x220 .f32) (x5 : Vec F S220x150 .f32) : Vec F S1000x150 .f32 :=
  View.canon [⟨r3_6, k3_pay1 (View.ld x0 r3_0) (View.ld x2 r3_1) (View.ld x1 r3_1) (View.ld x3 r3_1) (View.ld x4 r3_1) (View.ld x5 r3_5)⟩]

/-- The store tiles the buffer (by evaluation), so it covers it. -/
theorem cover3_6 (p0 : Vec F S1000x150 .f32) (y : S1000x150.Idx) :
    ∃ pc ∈ ([⟨r3_6, p0⟩] : List (View.Piece (Elt F) S1000x150 .f32)), y ∈ pc.1.set :=
  View.cover_of_tiled [⟨r3_6, p0⟩] S1000x150.size (by rfl) y

/-! ## The body's triple -/

set_option maxHeartbeats 1000000 in
/-- The kernel body on whole staging memrefs, the inputs' at read contents `xW` and the output's at anything, runs
    to the continuation holding the inputs' as they were and the output's at `out3_6` of the inputs'. The grid
    coordinate is not read. -/
theorem sound_kernel3 (c : Dev nD) (E : Set ℕ) (i : grid3.Coords)
    (arg1 : Memref sig .tc .vmem S1000x220 .f32) (harg1 : arg1.IsWhole) (arg2 : Memref sig .tc .vmem S1x220 .f32) (harg2 : arg2.IsWhole)
    (arg3 : Memref sig .tc .vmem S1x220 .f32) (harg3 : arg3.IsWhole) (arg4 : Memref sig .tc .vmem S1x220 .f32) (harg4 : arg4.IsWhole)
    (arg5 : Memref sig .tc .vmem S1x220 .f32) (harg5 : arg5.IsWhole) (arg6 : Memref sig .tc .vmem S220x150 .f32) (harg6 : arg6.IsWhole)
    (arg7 : Memref sig .tc .vmem S1000x150 .f32) (harg7 : arg7.IsWhole)
    (x0 : Vec F S1000x220 .f32) (x1 x2 x3 x4 : Vec F S1x220 .f32) (x5 : Vec F S220x150 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E
          (cc3__normalize_linear_kernel i arg1 harg1 arg2 harg2 arg3 harg3 arg4 harg4 arg5 harg5 arg6 harg6 arg7 harg7) K := by
  simp only [cc3__normalize_linear_kernel_eq_skeleton]; unfold cc3__normalize_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of pipeline 3 on core `c`: the arrays as the region finds them; after the body at point `t` each
    input's buffer at its block and the output's at `out3_6` of the input blocks; as invariant the scoped buffers no
    window stages and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t
    = out3_6 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so the body's triple applies; the invariant and
    the core's tallies pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _
    (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends -/

/-- The invariant at the first point, from the generator register and the scoped buffers no window stages. -/
theorem hin3 (c : Dev nD) :
    iprop((∃ r, prngReg c r) ∗ Pipeline.scopedRest (Ix := Unit) (Name := ℕ) (U := UR sig nD τ) (Lvl := ℕ) (Val := Elt F) spec3 c)
      ⊢ (dat3 V c).Φ 0 := by
  rw [show (dat3 V c).Φ 0 = Pipeline.ΦA spec3 c from rfl]; unfold Pipeline.ΦA
  iintro ⟨Hp, Hr⟩
  isplitl [Hr]; · iexact Hr
  iexact Hp

/-- The invariant at the last point gives both back. -/
theorem hout3 (c : Dev nD) :
    (dat3 V c).Φ (Fin.last cfg3.N)
      ⊢ iprop((∃ r, prngReg c r) ∗ Pipeline.scopedRest (Ix := Unit) (Name := ℕ) (U := UR sig nD τ) (Lvl := ℕ) (Val := Elt F) spec3 c) := by
  rw [show (dat3 V c).Φ (Fin.last cfg3.N) = Pipeline.ΦA spec3 c from rfl]; unfold Pipeline.ΦA
  iintro ⟨Hr, Hp⟩
  isplitl [Hp]; · iexact Hp
  iexact Hr

end Cert.Kernel.Hand

end
-- ==== Proof.BReg4.lean ====
import proofs.«408066_j62380105008311_2_alg».proof.Proof.Gen.Kernel.Launch
import proofs.«408066_j62380105008311_2_alg».proof.Proof.Gen.Kernel.Skeleton
import proofs.«408066_j62380105008311_2_alg».proof.Proof.Gen.Kernel.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

/-! # Region 4: a blocked matrix product accumulated in a scratch buffer

The grid is two-dimensional; along its second axis the body adds one block product into a scratch
accumulator, which it clears at the first step and copies to the output block at the last one.  This
file states, at any float family and at any entry contents `V` of the TensorCore's buffers, what the
accumulator holds after each grid point and proves the body's triple at every point. -/

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of accumulation steps (the extent of the grid's second axis) and the index of the last one:
    the only numerals of this file. -/
local notation "K₄" => 10
local notation "K₄last" => 9

/-! ## The body's two conditions, in closed form over the grid -/

/-- "This is the first accumulation step": the condition under which the body clears the accumulator. -/
abbrev cond4_0 (i : grid4.Coords) : Prop :=
  (Scalar.cmpi .ne (Scalar.extui (Scalar.cmpi .eq (BitVec.ofNat 32 (i 1).val) 0#32)) 0#32) = 1#1
/-- It holds exactly at the points whose position is a multiple of the number of steps. -/
theorem hcond4_0 : ∀ t : Fin cfg4.N, cond4_0 (grid4.coords t) ↔ t.val % K₄ = 0 :=
  (by decide +kernel : ∀ t : Fin grid4.N, cond4_0 (grid4.coords t) ↔ t.val % K₄ = 0)

/-- "This is the last accumulation step": the condition under which the body copies the accumulator out. -/
abbrev cond4_1 (i : grid4.Coords) : Prop := k4_cond2 i = 1#1
/-- It holds exactly at the points whose position is one short of a multiple of the number of steps. -/
theorem hcond4_1 : ∀ t : Fin cfg4.N, cond4_1 (grid4.coords t) ↔ t.val % K₄ = K₄last :=
  (by decide +kernel : ∀ t : Fin grid4.N, cond4_1 (grid4.coords t) ↔ t.val % K₄ = K₄last)

/-! ## Where the windows are idle -/

/-- The two operand windows are live at every point. -/
theorem liveAt4_0 : ∀ t : Fin cfg4.N, cfg4.idle 0 (grid4.coords t) = false := fun _ => rfl
theorem liveAt4_1 : ∀ t : Fin cfg4.N, cfg4.idle 1 (grid4.coords t) = false := fun _ => rfl
/-- The output window is idle, and not written back, wherever the step is not the last; -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
/-- and live at the last step. -/
theorem liveAt4_2 : ∀ t : Fin cfg4.N, cond4_1 (grid4.coords t) → cfg4.idle 2 (grid4.coords t) = false := by decide +kernel

/-! ## The memrefs the body is called with -/

/-- Each window's current staging memref at point `t`, and its wholeness. -/
abbrev ms4_0 (t : Fin cfg4.N) : Memref sig .tc .vmem S2000x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x150 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2000x150 .f32 := win4_2.stage (cfg4.slots t 2)
abbrev hs4_2 (t : Fin cfg4.N) : (ms4_2 t).IsWhole := hstage4_2 ((cfg4.slots t 2).cast nbuf4_2)
/-- The accumulator: a whole scoped buffer of the call's own. -/
abbrev scM4 : Memref sig .tc .vmem S2000x150 .f32 := Memref.whole cc4_scratch0
/-- The views through which the accumulator's and the output block's contents are stated. -/
abbrev VS4 : View sig .tc .vmem S2000x150 .f32 := scM4.view
abbrev VO4_2 : View sig .tc .vmem S2000x150 .f32 := (Memref.whole cc4_stg2_0 : Memref sig .tc .vmem S2000x150 .f32).view

/-! ## The body on any whole memrefs, case by case

Three cases of the two conditions occur on the grid: the first step (clear, then accumulate), a middle step
(accumulate), the last step (accumulate, then copy out).  In each the body's stores leave lists of pieces in
the accumulator (and, at the last step, in the output block); the run finds them. -/

set_option maxHeartbeats 1000000 in
/-- FIRST STEP.  The operands' memrefs at their contents, the output's at contents handed back untouched, the
    accumulator at anything: the body runs to the continuation holding the accumulator with its pieces written. -/
noncomputable def run4_A (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : cond4_0 i) (hc1 : ¬cond4_1 i) (x0 : Vec F S2000x1024 .bf16) (x1 : Vec F S1024x150 .f32) :
    { LS : List (View.Piece (Elt F) S2000x150 .f32) //
      ∀ (xi2 : Vec F S2000x150 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc4__spmm_kernel i arg2 harg2 arg3 harg3 arg4 harg4 arg5 harg5) K } := by
  refine ⟨?_, fun xi2 E K => ?run⟩
  case run =>
    simp only [cc4__spmm_kernel_eq_skeleton]; unfold cc4__spmm_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A MIDDLE STEP.  As the first, but the accumulator at the contents `xs` the step before left. -/
noncomputable def run4_B (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : ¬cond4_0 i) (hc1 : ¬cond4_1 i) (x0 : Vec F S2000x1024 .bf16) (x1 : Vec F S1024x150 .f32) (xs : Vec F S2000x150 .f32) :
    { LS : List (View.Piece (Elt F) S2000x150 .f32) //
      ∀ (xi2 : Vec F S2000x150 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc4__spmm_kernel i arg2 harg2 arg3 harg3 arg4 harg4 arg5 harg5) K } := by
  refine ⟨?_, fun xi2 E K => ?run⟩
  case run =>
    simp only [cc4__spmm_kernel_eq_skeleton]; unfold cc4__spmm_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- THE LAST STEP.  The accumulator at the contents `xs` the step before left, the output's memref at anything:
    the body leaves pieces in both. -/
noncomputable def run4_C (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : ¬cond4_0 i) (hc1 : cond4_1 i) (x0 : Vec F S2000x1024 .bf16) (x1 : Vec F S1024x150 .f32) (xs : Vec F S2000x150 .f32) :
    Σ' (L2 : List (View.Piece (Elt F) S2000x150 .f32)), { LS : List (View.Piece (Elt F) S2000x150 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc4__spmm_kernel i arg2 harg2 arg3 harg3 arg4 harg4 arg5 harg5) K } := by
  refine ⟨?_, ?_, fun E K => ?run⟩
  case run =>
    simp only [cc4__spmm_kernel_eq_skeleton]; unfold cc4__spmm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What each case leaves, read back -/

/-- The first step's pieces cover the accumulator, -/
theorem scover4_A (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : cond4_0 i) (hc1 : ¬cond4_1 i) (x0 : Vec F S2000x1024 .bf16) (x1 : Vec F S1024x150 .f32) (y : S2000x150.Idx) :
    ∃ pc ∈ (run4_A c i arg2 harg2 arg3 harg3 arg4 harg4 arg5 harg5 hc0 hc1 x0 x1).1, y ∈ pc.1.set :=
  View.cover_of_tiledL (run4_A c i arg2 harg2 arg3 harg3 arg4 harg4 arg5 harg5 hc0 hc1 x0 x1).1 S2000x150.size (by sl_kernel_rfl) y

/-- and this is what they leave in it (read back over contents nothing consults). -/
def sout4_A (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : cond4_0 i) (hc1 : ¬cond4_1 i) (x0 : Vec F S2000x1024 .bf16) (x1 : Vec F S1024x150 .f32) : Vec F S2000x150 .f32 :=
  VS4.read (Elt F) (VS4.writes (Elt F) VS4.junk (run4_A c i arg2 harg2 arg3 harg3 arg4 harg4 arg5 harg5 hc0 hc1 x0 x1).1)

/-- A middle step's pieces cover the accumulator; what they leave. -/
theorem scover4_B (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : ¬cond4_0 i) (hc1 : ¬cond4_1 i) (x0 : Vec F S2000x1024 .bf16) (x1 : Vec F S1024x150 .f32) (xs : Vec F S2000x150 .f32) (y : S2000x150.Idx) :
    ∃ pc ∈ (run4_B c i arg2 harg2 arg3 harg3 arg4 harg4 arg5 harg5 hc0 hc1 x0 x1 xs).1, y ∈ pc.1.set :=
  View.cover_of_tiledL (run4_B c i arg2 harg2 arg3 harg3 arg4 harg4 arg5 harg5 hc0 hc1 x0 x1 xs).1 S2000x150.size (by sl_kernel_rfl) y

def sout4_B (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : ¬cond4_0 i) (hc1 : ¬cond4_1 i) (x0 : Vec F S2000x1024 .bf16) (x1 : Vec F S1024x150 .f32) (xs : Vec F S2000x150 .f32) : Vec F S2000x150 .f32 :=
  VS4.read (Elt F) (VS4.writes (Elt F) VS4.junk (run4_B c i arg2 harg2 arg3 harg3 arg4 harg4 arg5 harg5 hc0 hc1 x0 x1 xs).1)

/-- The last step's pieces cover the output block and the accumulator; what they leave in each. -/
theorem cover4_C (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : ¬cond4_0 i) (hc1 : cond4_1 i) (x0 : Vec F S2000x1024 .bf16) (x1 : Vec F S1024x150 .f32) (xs : Vec F S2000x150 .f32) (y : S2000x150.Idx) :
    ∃ pc ∈ (run4_C c i arg2 harg2 arg3 harg3 arg4 harg4 arg5 harg5 hc0 hc1 x0 x1 xs).1, y ∈ pc.1.set :=
  View.cover_of_tiledL (run4_C c i arg2 harg2 arg3 harg3 arg4 harg4 arg5 harg5 hc0 hc1 x0 x1 xs).1 S2000x150.size (by sl_kernel_rfl) y

def out4_C (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : ¬cond4_0 i) (hc1 : cond4_1 i) (x0 : Vec F S2000x1024 .bf16) (x1 : Vec F S1024x150 .f32) (xs : Vec F S2000x150 .f32) : Vec F S2000x150 .f32 :=
  VO4_2.read (Elt F) (VO4_2.writes (Elt F) VO4_2.junk (run4_C c i arg2 harg2 arg3 harg3 arg4 harg4 arg5 harg5 hc0 hc1 x0 x1 xs).1)

theorem scover4_C (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : ¬cond4_0 i) (hc1 : cond4_1 i) (x0 : Vec F S2000x1024 .bf16) (x1 : Vec F S1024x150 .f32) (xs : Vec F S2000x150 .f32) (y : S2000x150.Idx) :
    ∃ pc ∈ (run4_C c i arg2 harg2 arg3 harg3 arg4 harg4 arg5 harg5 hc0 hc1 x0 x1 xs).2.1, y ∈ pc.1.set :=
  View.cover_of_tiledL (run4_C c i arg2 harg2 arg3 harg3 arg4 harg4 arg5 harg5 hc0 hc1 x0 x1 xs).2.1 S2000x150.size (by sl_kernel_rfl) y

def sout4_C (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : ¬cond4_0 i) (hc1 : cond4_1 i) (x0 : Vec F S2000x1024 .bf16) (x1 : Vec F S1024x150 .f32) (xs : Vec F S2000x150 .f32) : Vec F S2000x150 .f32 :=
  VS4.read (Elt F) (VS4.writes (Elt F) VS4.junk (run4_C c i arg2 harg2 arg3 harg3 arg4 harg4 arg5 harg5 hc0 hc1 x0 x1 xs).2.1)

/-! ## The region at the entry contents `V` -/

-- the TensorCore's buffer contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An operand window's current staging buffer holds its block at every point, for any proof data whose array is
    `V`'s and whose body leaves the block in place: the window is uncut and never idle, and where it is not fetched
    its block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The accumulator after each point -/

/-- THE ACCUMULATION.  What the accumulator holds after the body at position `n`: the case the closed forms select
    there, run at the point's memrefs and operand blocks — at a first step from anything, otherwise from what the
    point before left. -/
def scrAt4 (c : Dev nD) : (n : ℕ) → n < cfg4.N → Vec F S2000x150 .f32
  | 0, hn =>
    sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4 (Memref.isWhole_whole _)
      ((hcond4_0 ⟨0, hn⟩).mpr (Nat.zero_mod _)) (fun h => (fun e => by (try dsimp only at e); omega) ((hcond4_1 ⟨0, hn⟩).mp h))
      (iblk4 V c 0 ⟨0, hn⟩) (iblk4 V c 1 ⟨0, hn⟩)
  | n + 1, hn =>
    if h0 : (n + 1) % K₄ = 0 then
      sout4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _)
        ((hcond4_0 ⟨n + 1, hn⟩).mpr h0) (fun h => (fun e => by (try dsimp only at e h0); omega) ((hcond4_1 ⟨n + 1, hn⟩).mp h))
        (iblk4 V c 0 ⟨n + 1, hn⟩) (iblk4 V c 1 ⟨n + 1, hn⟩)
    else if h1 : (n + 1) % K₄ = K₄last then
      sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _)
        (fun h => h0 ((hcond4_0 ⟨n + 1, hn⟩).mp h)) ((hcond4_1 ⟨n + 1, hn⟩).mpr h1)
        (iblk4 V c 0 ⟨n + 1, hn⟩) (iblk4 V c 1 ⟨n + 1, hn⟩) (scrAt4 c n (Nat.lt_of_succ_lt hn))
    else
      sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4 (Memref.isWhole_whole _)
        (fun h => h0 ((hcond4_0 ⟨n + 1, hn⟩).mp h)) (fun h => h1 ((hcond4_1 ⟨n + 1, hn⟩).mp h))
        (iblk4 V c 0 ⟨n + 1, hn⟩) (iblk4 V c 1 ⟨n + 1, hn⟩) (scrAt4 c n (Nat.lt_of_succ_lt hn))

/-- The accumulator before a point that is not the first of the grid: what the point before left. -/
abbrev scrBefore4 (c : Dev nD) (t : Fin cfg4.N) : Vec F S2000x150 .f32 :=
  scrAt4 V c (t.val - 1) (Nat.lt_of_le_of_lt (Nat.sub_le _ _) t.isLt)

/-- `scrAt4` at a first step. -/
theorem scrAt4_A (c : Dev nD) (t : Fin cfg4.N) (h0 : t.val % K₄ = 0) (h1 : ¬t.val % K₄ = K₄last) :
    scrAt4 V c t.val t.isLt = sout4_A c (grid4.coords t) (ms4_0 t) (hs4_0 t) (ms4_1 t) (hs4_1 t) (ms4_2 t) (hs4_2 t) scM4 (Memref.isWhole_whole _)
      ((hcond4_0 t).mpr h0) (fun h => h1 ((hcond4_1 t).mp h)) (iblk4 V c 0 t) (iblk4 V c 1 t) := by
  obtain ⟨n, hn⟩ := t
  cases n with
  | zero => exact rfl
  | succ n => exact (dif_pos h0).trans rfl

/-- `scrAt4` at a middle step. -/
theorem scrAt4_B (c : Dev nD) (t : Fin cfg4.N) (h0 : ¬t.val % K₄ = 0) (h1 : ¬t.val % K₄ = K₄last) :
    scrAt4 V c t.val t.isLt = sout4_B c (grid4.coords t) (ms4_0 t) (hs4_0 t) (ms4_1 t) (hs4_1 t) (ms4_2 t) (hs4_2 t) scM4 (Memref.isWhole_whole _)
      (fun h => h0 ((hcond4_0 t).mp h)) (fun h => h1 ((hcond4_1 t).mp h)) (iblk4 V c 0 t) (iblk4 V c 1 t) (scrBefore4 V c t) := by
  obtain ⟨n, hn⟩ := t
  cases n with
  | zero => exact absurd (Nat.zero_mod _) h0
  | succ n => exact (dif_neg h0).trans ((dif_neg h1).trans rfl)

/-- `scrAt4` at a last step. -/
theorem scrAt4_C (c : Dev nD) (t : Fin cfg4.N) (h0 : ¬t.val % K₄ = 0) (h1 : t.val % K₄ = K₄last) :
    scrAt4 V c t.val t.isLt = sout4_C c (grid4.coords t) (ms4_0 t) (hs4_0 t) (ms4_1 t) (hs4_1 t) (ms4_2 t) (hs4_2 t) scM4 (Memref.isWhole_whole _)
      (fun h => h0 ((hcond4_0 t).mp h)) ((hcond4_1 t).mpr h1) (iblk4 V c 0 t) (iblk4 V c 1 t) (scrBefore4 V c t) := by
  obtain ⟨n, hn⟩ := t
  cases n with
  | zero => exact absurd (Nat.zero_mod _) h0
  | succ n => exact (dif_neg h0).trans ((dif_pos h1).trans rfl)

/-- What the output block's staging buffer holds after the body at point `t`: at a last step what that case leaves,
    from the accumulator as the point before left it; elsewhere the window is idle and this is a value nothing consults. -/
def outAt4 (c : Dev nD) (t : Fin cfg4.N) : Vec F S2000x150 .f32 :=
  if h1 : t.val % K₄ = K₄last then
    out4_C c (grid4.coords t) (ms4_0 t) (hs4_0 t) (ms4_1 t) (hs4_1 t) (ms4_2 t) (hs4_2 t) scM4 (Memref.isWhole_whole _)
      (fun h => absurd ((hcond4_0 t).mp h) (by omega)) ((hcond4_1 t).mpr h1) (iblk4 V c 0 t) (iblk4 V c 1 t) (scrBefore4 V c t)
  else VO4_2.read (Elt F) VO4_2.junk

theorem outAt4_C (c : Dev nD) (t : Fin cfg4.N) (h0 : ¬t.val % K₄ = 0) (h1 : t.val % K₄ = K₄last) :
    outAt4 V c t = out4_C c (grid4.coords t) (ms4_0 t) (hs4_0 t) (ms4_1 t) (hs4_1 t) (ms4_2 t) (hs4_2 t) scM4 (Memref.isWhole_whole _)
      (fun h => h0 ((hcond4_0 t).mp h)) ((hcond4_1 t).mpr h1) (iblk4 V c 0 t) (iblk4 V c 1 t) (scrBefore4 V c t) :=
  (dif_pos h1).trans rfl

/-! ## The region's invariant -/

/-- Every scoped buffer of the core that is neither a staging buffer of this call nor its accumulator, at some
    contents each: carried through the region unopened. -/
abbrev rest4 (c : Dev nD) : sProp 𝕄 :=
  Pipeline.scopedRestBut (Ix := Unit) (Name := ℕ) (U := UR sig nD τ) (Lvl := ℕ) (Val := Elt F) spec4 c [cc4_scratch0]

/-- The call's scoped rest, with the accumulator as a whole memref owned at some contents. -/
theorem scopedRest4_eq (c : Dev nD) :
    (Pipeline.scopedRest (Ix := Unit) (Name := ℕ) (U := UR sig nD τ) (Lvl := ℕ) (Val := Elt F) spec4 c : sProp 𝕄)
      = iprop((∃ d, owns (c : Thread nD τ) scM4 fullShare d) ∗ rest4 (F := F) c) := by
  rw [scopedRest4_split]; simp only [scM4, owns_whole]; try rfl

/-- The invariant before position `n`: before the first point the generator register at some state and the call's
    scoped rest (the accumulator at anything); afterwards the accumulator at what the point before left, the other
    scoped buffers at anything, the generator register at some state. -/
def PhiS4 (c : Dev nD) : (n : ℕ) → n ≤ cfg4.N → sProp 𝕄
  | 0, _ => iprop((∃ r, prngReg c r) ∗ Pipeline.scopedRest (Ix := Unit) (Name := ℕ) (U := UR sig nD τ) (Lvl := ℕ) (Val := Elt F) spec4 c)
  | n + 1, hn => iprop(owns (c : Thread nD τ) scM4 fullShare (scrAt4 V c n hn) ∗ rest4 (F := F) c ∗ (∃ r, prngReg c r))

theorem PhiS4_zero (c : Dev nD) (n : ℕ) (h : n ≤ cfg4.N) (hz : n = 0) :
    PhiS4 V c n h = iprop((∃ r, prngReg c r) ∗ Pipeline.scopedRest (Ix := Unit) (Name := ℕ) (U := UR sig nD τ) (Lvl := ℕ) (Val := Elt F) spec4 c) := by
  subst hz; rfl

theorem PhiS4_succ (c : Dev nD) (n : ℕ) (hn : n < cfg4.N) :
    PhiS4 V c (n + 1) hn = iprop(owns (c : Thread nD τ) scM4 fullShare (scrAt4 V c n hn) ∗ rest4 (F := F) c ∗ (∃ r, prngReg c r)) := rfl

theorem PhiS4_pos (c : Dev nD) (n : ℕ) (h : n ≤ cfg4.N) (hz : n ≠ 0) :
    PhiS4 V c n h = iprop(owns (c : Thread nD τ) scM4 fullShare (scrAt4 V c (n - 1) (by omega)) ∗ rest4 (F := F) c ∗ (∃ r, prngReg c r)) := by
  cases n with
  | zero => exact absurd rfl hz
  | succ n => rfl

/-- At any position the invariant yields the accumulator at SOME contents beside the rest: what a first step needs,
    and what the region gives back. -/
theorem PhiS4_any (c : Dev nD) (n : ℕ) (h : n ≤ cfg4.N) :
    PhiS4 V c n h ⊢ iprop((∃ d, owns (c : Thread nD τ) scM4 fullShare d) ∗ rest4 (F := F) c ∗ (∃ r, prngReg c r)) := by
  cases n with
  | zero =>
    rw [PhiS4_zero V c 0 h rfl, scopedRest4_eq]
    iintro ⟨Hg, HS, HR⟩
    isplitl [HS]; · iexact HS
    isplitl [HR]; · iexact HR
    iexact Hg
  | succ n =>
    rw [PhiS4_succ]
    iintro ⟨HS, HR, Hg⟩
    isplitl [HS]; · iexists _; iexact HS
    isplitl [HR]; · iexact HR
    iexact Hg

/-! ## The pipeline's proof data -/

/-- The proof data of pipeline 4 on core `c`: the arrays as the region finds them; after the body at point `t` each
    operand's buffer at its block and the output's at `outAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => outAt4 V c t
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = outAt4 V c t := by dsimp only [dat4]

/-- Each operand's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point.  The operands' memrefs hold their blocks; the closed forms say which step the point is;
    the invariant hands the body the accumulator — at anything at a first step, at what the point before left
    otherwise — and takes it back at this point's contents, since the step's pieces cover it; where the step is not
    the last the output's buffer goes through untouched, at the last its pieces cover it; the core owes nothing. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [PhiS4_castSucc V c t]
  by_cases h0 : t.val % K₄ = 0
  · have h1 : ¬t.val % K₄ = K₄last := by omega
    rw [Dat.leavesExact_idle (dat4 V c) 2 t (idleAt4_2 t (fun h => h1 ((hcond4_1 t).mp h))) (noFlush4_2 t (fun h => h1 ((hcond4_1 t).mp h)))]
    rw [scrAt4_A V c t h0 h1]
    unfold sout4_A
    iintro ⟨HΦ, Ho, ⟨%d0, H0⟩, ⟨%d1, H1⟩, ⟨%d2, H2⟩⟩
    ihave HΦ' := (PhiS4_any V c t.val (Nat.le_of_lt t.isLt)) $$ HΦ
    icases HΦ' with ⟨HS, HR, Hg⟩
    iapply ((run4_A c (grid4.coords t) _ _ _ _ _ _ _ _ ((hcond4_0 t).mpr h0) (fun h => h1 ((hcond4_1 t).mp h)) (iblk4 V c 0 t) (iblk4 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS HR Hg]
    · isplitl [HS]
      · unfold owns; iexists _; isplitr
        swap; · iexact HS
        ipureintro; exact View.read_writes_of_cover _ _ _ _ _ (scover4_A c _ _ _ _ _ _ _ _ _ _ _ _ _)
      isplitl [HR]; · iexact HR
      iexact Hg
    isplitl [Ho]; · iexact Ho
    isplitl [H0]; · iexact H0
    isplitl [H1]; · iexact H1
    iexists _; iexact H2
  · have hz : t.val ≠ 0 := fun e => h0 (by rw [e])
    rw [PhiS4_pos V c _ _ hz]
    by_cases h1 : t.val % K₄ = K₄last
    · rw [show (dat4 V c).leavesExact 2 t = owns (c : Thread nD τ) (ms4_2 t) fullShare ((dat4 V c).after 2 t) from by
        unfold Dat.leavesExact; rw [liveAt4_2 t ((hcond4_1 t).mpr h1)], after4_2]
      rw [scrAt4_C V c t h0 h1, outAt4_C V c t h0 h1]
      unfold sout4_C out4_C
      iintro ⟨⟨HS, HR, Hg⟩, Ho, ⟨%d0, H0⟩, ⟨%d1, H1⟩, ⟨%d2, H2⟩⟩
      iapply ((run4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS]
        · unfold owns; iexists _; isplitr
          swap; · iexact HS
          ipureintro; exact View.read_writes_of_cover _ _ _ _ _ (scover4_C c _ _ _ _ _ _ _ _ _ _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C c _ _ _ _ _ _ _ _ _ _ _ _ _ _)
    · rw [Dat.leavesExact_idle (dat4 V c) 2 t (idleAt4_2 t (fun h => h1 ((hcond4_1 t).mp h))) (noFlush4_2 t (fun h => h1 ((hcond4_1 t).mp h)))]
      rw [scrAt4_B V c t h0 h1]
      unfold sout4_B
      iintro ⟨⟨HS, HR, Hg⟩, Ho, ⟨%d0, H0⟩, ⟨%d1, H1⟩, ⟨%d2, H2⟩⟩
      iapply ((run4_B c (grid4.coords t) _ _ _ _ _ _ _ _ (fun h => h0 ((hcond4_0 t).mp h)) (fun h => h1 ((hcond4_1 t).mp h)) (iblk4 V c 0 t) (iblk4 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (scover4_B c _ _ _ _ _ _ _ _ _ _ _ _ _ _)
        isplitl [HR]; · iexact HR
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Entering and leaving the region -/

/-- What the region is entered with — the generator register at some state and the call's scoped rest — is the
    invariant before the first point. -/
theorem hin4 (c : Dev nD) :
    iprop((∃ r, prngReg c r) ∗ Pipeline.scopedRest (Ix := Unit) (Name := ℕ) (U := UR sig nD τ) (Lvl := ℕ) (Val := Elt F) spec4 c)
      ⊢ (dat4 V c).Φ 0 := by
  rw [show (dat4 V c).Φ 0 = PhiS4 V c 0 (Nat.zero_le _) from rfl, PhiS4_zero V c 0 _ rfl]

/-- After the last point the invariant gives the same back: the accumulator's contents are forgotten. -/
theorem hout4 (c : Dev nD) :
    (dat4 V c).Φ (Fin.last cfg4.N)
      ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = PhiS4 V c (Fin.last cfg4.N).val (Nat.le_of_lt_succ (Fin.last cfg4.N).isLt) from rfl, scopedRest4_eq]
  iintro HΦ
  ihave HΦ' := (PhiS4_any V c _ _) $$ HΦ
  icases HΦ' with ⟨HS, HR, Hg⟩
  isplitl [Hg]; · iexact Hg
  isplitl [HS]; · iexact HS
  iexact HR

end Cert.Kernel.Hand

end
-- ==== Proof.BReg5.lean ====
import proofs.«408066_j62380105008311_2_alg».proof.Proof.Gen.Kernel.Launch
import proofs.«408066_j62380105008311_2_alg».proof.Proof.Gen.Kernel.Skeleton
import proofs.«408066_j62380105008311_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 5: bias, relu, and the running column sums, at the entry contents `V`

The grid is one axis of row blocks. At each point the body adds the bias row to the block of rows, clamps at zero,
stores the result to the first output's block, and adds the block's column sums and column sums of squares into
two one-row outputs whose block never moves; at the first point it zeroes those two rows first. -/

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The body's branch condition -/

/-- The condition of the body's one conditional, from the grid coordinates. -/
abbrev cond5 (i : grid5.Coords) : Prop := (Scalar.cmpi .ne (Scalar.extui (Scalar.cmpi .eq (BitVec.ofNat 32 (i 0).val) 0#32)) 0#32) = 1#1
/-- It holds at the first point only. -/
theorem hcond5 : ∀ t : Fin cfg5.N, cond5 (grid5.coords t) ↔ t.val = 0 :=
  (by decide +kernel : ∀ t : Fin grid5.N, cond5 (grid5.coords t) ↔ t.val = 0)

/-! ## The body's accesses: each is a whole buffer -/

abbrev rBlk5 : Rect S1000x150 := Rect.unit (s := S1000x150) ![0, 0] S1000x150.size inb_S1000x150_S1000x150_0_0
abbrev rRow5 : Rect S1x150 := Rect.unit (s := S1x150) ![0, 0] S1x150.size inb_S1x150_S1x150_0_0

/-- One whole-buffer store covers the block buffer, -/
theorem coverBlk5 (p : rBlk5.shape.Idx → Elt F .f32) (y : S1000x150.Idx) :
    ∃ pc ∈ ([⟨rBlk5, p⟩] : List (View.Piece (Elt F) S1000x150 .f32)), y ∈ pc.1.set :=
  View.cover_of_tiled [⟨rBlk5, p⟩] S1000x150.size (by rfl) y
/-- and the row buffer. -/
theorem coverRow5 (p : rRow5.shape.Idx → Elt F .f32) (y : S1x150.Idx) :
    ∃ pc ∈ ([⟨rRow5, p⟩] : List (View.Piece (Elt F) S1x150 .f32)), y ∈ pc.1.set :=
  View.cover_of_tiled [⟨rRow5, p⟩] S1x150.size (by rfl) y

/-- Every index of the row buffer lies in the whole-buffer rectangle (read off the cover by one piece). -/
theorem memRow5 (p : rRow5.shape.Idx → Elt F .f32) (y : S1x150.Idx) : y ∈ rRow5.set := by
  obtain ⟨pc, hm, hy⟩ := coverRow5 p y
  rw [List.mem_singleton] at hm; subst hm; exact hy

/-- A store over the whole row buffer hides every earlier store. -/
theorem canon_row5 (p : rRow5.shape.Idx → Elt F .f32) (L : List (View.Piece (Elt F) S1x150 .f32)) :
    View.canon (⟨rRow5, p⟩ :: L) = View.canon [⟨rRow5, p⟩] := by
  funext y
  obtain ⟨x, rfl⟩ : ∃ x, rRow5.emb x = y := rRow5.exists_idx_of_mem (memRow5 p y)
  rw [View.canon_cons_emb, View.canon_cons_emb]

/-! ## What the body leaves in each output window's buffer -/

/-- The first output's buffer after the body: the clamped sum of the row block and the bias row. -/
def out5_2 (x0 : Vec F S1000x150 .f32) (x1 : Vec F S1x150 .f32) : Vec F S1000x150 .f32 :=
  View.canon [⟨rBlk5, k5_pay3 (View.ld x0 rBlk5) (View.ld x1 rRow5)⟩]

/-- The column-sum row as the first point's reset leaves it, -/
def zero5_3 : Vec F S1x150 .f32 := View.canon [⟨rRow5, k5_pay1 (F := F)⟩]
/-- and the column-sum-of-squares row. -/
def zero5_4 : Vec F S1x150 .f32 := View.canon [⟨rRow5, k5_pay2 (F := F)⟩]

/-- The column-sum row after a point's update, from the row it held before (`a`), -/
def step5_3 (x0 : Vec F S1000x150 .f32) (x1 : Vec F S1x150 .f32) (a : Vec F S1x150 .f32) : Vec F S1x150 .f32 :=
  View.canon [⟨rRow5, k5_pay4 (View.ld x0 rBlk5) (View.ld x1 rRow5) (View.ld a rRow5)⟩]
/-- and the column-sum-of-squares row. -/
def step5_4 (x0 : Vec F S1000x150 .f32) (x1 : Vec F S1x150 .f32) (a : Vec F S1x150 .f32) : Vec F S1x150 .f32 :=
  View.canon [⟨rRow5, k5_pay5 (View.ld x0 rBlk5) (View.ld x1 rRow5) (View.ld a rRow5)⟩]

/-! ## The body's triple, at the first point and at a later one -/

set_option maxHeartbeats 1000000 in
/-- At the first point (the conditional taken): on whole staging memrefs, the inputs' at read contents and the
    outputs' at anything, the body runs to the continuation holding the inputs' as they were, the first output's at
    the clamped sum, and the two rows at one update of the reset rows. -/
theorem sound_kernel5_A (c : Dev nD) (E : Set ℕ) (i : grid5.Coords)
    (arg1 : Memref sig .tc .vmem S1000x150 .f32) (harg1 : arg1.IsWhole) (arg2 : Memref sig .tc .vmem S1x150 .f32) (harg2 : arg2.IsWhole)
    (arg3 : Memref sig .tc .vmem S1000x150 .f32) (harg3 : arg3.IsWhole) (arg4 : Memref sig .tc .vmem S1x150 .f32) (harg4 : arg4.IsWhole)
    (arg5 : Memref sig .tc .vmem S1x150 .f32) (harg5 : arg5.IsWhole) (hc : cond5 i)
    (x0 : Vec F S1000x150 .f32) (x1 : Vec F S1x150 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out5_2 x0 x1)
            ∗ owns (c : Thread nD τ) arg4 fullShare (step5_3 x0 x1 zero5_3)
            ∗ owns (c : Thread nD τ) arg5 fullShare (step5_4 x0 x1 zero5_4)) -∗ K ⟨⟩))
      ⊢ wp frame (wpE (defs₀ (F := F)) Variants.none c none) E (cc5__bias_relu_stats_kernel i arg1 harg1 arg2 harg2 arg3 harg3 arg4 harg4 arg5 harg5) K := by
  simp only [cc5__bias_relu_stats_kernel_eq_skeleton]; unfold cc5__bias_relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverBlk5 _)
  isplitl [H3]
  · iexists _; isplitr
    swap; · iexact H3
    ipureintro
    sl_unfold_run_names
    refine (View.read_writes_eq_canon _ _ _ (fun y => ⟨_, List.Mem.head _, memRow5 (k5_pay1 (F := F)) y⟩)).trans ?_
    rw [canon_row5, View.readCov_eq_canon_ld _ _ _ (coverRow5 _)]
    rfl
  iexists _; isplitr
  swap; · iexact H4
  ipureintro
  sl_unfold_run_names
  refine (View.read_writes_eq_canon _ _ _ (fun y => ⟨_, List.Mem.head _, memRow5 (k5_pay2 (F := F)) y⟩)).trans ?_
  rw [canon_row5, View.readCov_eq_canon_ld _ _ _ (coverRow5 _)]
  rfl

set_option maxHeartbeats 1000000 in
/-- At a later point (the conditional not taken): the same, the two rows held at `a3`, `a4` on entry and at one
    update of those on exit. -/
theorem sound_kernel5_B (c : Dev nD) (E : Set ℕ) (i : grid5.Coords)
    (arg1 : Memref sig .tc .vmem S1000x150 .f32) (harg1 : arg1.IsWhole) (arg2 : Memref sig .tc .vmem S1x150 .f32) (harg2 : arg2.IsWhole)
    (arg3 : Memref sig .tc .vmem S1000x150 .f32) (harg3 : arg3.IsWhole) (arg4 : Memref sig .tc .vmem S1x150 .f32) (harg4 : arg4.IsWhole)
    (arg5 : Memref sig .tc .vmem S1x150 .f32) (harg5 : arg5.IsWhole) (hc : ¬cond5 i)
    (x0 : Vec F S1000x150 .f32) (x1 : Vec F S1x150 .f32) (a3 a4 : Vec F S1x150 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare a3 ∗ owns (c : Thread nD τ) arg5 fullShare a4
        ∗ (iprop(owns (c : Thread nD τ) arg1 fullShare x0 ∗ owns (c : Thread nD τ) arg2 fullShare x1
            ∗ owns (c : Thread nD τ) arg3 fullShare (out5_2 x0 x1)
            ∗ owns (c : Thread nD τ) arg4 fullShare (step5_3 x0 x1 a3)
            ∗ owns (c : Thread nD τ) arg5 fullShare (step5_4 x0 x1 a4)) -∗ K ⟨⟩))
      ⊢ wp frame (wpE (defs₀ (F := F)) Variants.none c none) E (cc5__bias_relu_stats_kernel i arg1 harg1 arg2 harg2 arg3 harg3 arg4 harg4 arg5 harg5) K := by
  simp only [cc5__bias_relu_stats_kernel_eq_skeleton]; unfold cc5__bias_relu_stats_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  subst hf0; subst hf1; subst hf3; subst hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverBlk5 _)
  isplitl [H3]
  · iexists _; isplitr
    swap; · iexact H3
    ipureintro
    exact View.read_writes_eq_canon _ _ _ (coverRow5 _)
  iexists _; isplitr
  swap; · iexact H4
  ipureintro
  exact View.read_writes_eq_canon _ _ _ (coverRow5 _)

/-! ## What the two running rows hold after each point -/

/-- The column-sum row after the body at position `n`: one update per point, from the reset row. -/
def acc5_3 (c : Dev nD) : (n : ℕ) → n < cfg5.N → Vec F S1x150 .f32
  | 0, hn => step5_3 (iblk5 V c 0 ⟨0, hn⟩) (iblk5 V c 1 ⟨0, hn⟩) zero5_3
  | n + 1, hn => step5_3 (iblk5 V c 0 ⟨n + 1, hn⟩) (iblk5 V c 1 ⟨n + 1, hn⟩) (acc5_3 c n (Nat.lt_of_succ_lt hn))

/-- The column-sum-of-squares row after the body at position `n`. -/
def acc5_4 (c : Dev nD) : (n : ℕ) → n < cfg5.N → Vec F S1x150 .f32
  | 0, hn => step5_4 (iblk5 V c 0 ⟨0, hn⟩) (iblk5 V c 1 ⟨0, hn⟩) zero5_4
  | n + 1, hn => step5_4 (iblk5 V c 0 ⟨n + 1, hn⟩) (iblk5 V c 1 ⟨n + 1, hn⟩) (acc5_4 c n (Nat.lt_of_succ_lt hn))

/-- At the first point: one update of the reset row. -/
theorem acc5_3_first (c : Dev nD) (t : Fin cfg5.N) (h0 : t.val = 0) :
    acc5_3 V c t.val t.isLt = step5_3 (iblk5 V c 0 t) (iblk5 V c 1 t) zero5_3 := by
  obtain ⟨n, hn⟩ := t
  cases n with
  | zero => exact rfl
  | succ n => exact absurd h0 (Nat.succ_ne_zero n)
theorem acc5_4_first (c : Dev nD) (t : Fin cfg5.N) (h0 : t.val = 0) :
    acc5_4 V c t.val t.isLt = step5_4 (iblk5 V c 0 t) (iblk5 V c 1 t) zero5_4 := by
  obtain ⟨n, hn⟩ := t
  cases n with
  | zero => exact rfl
  | succ n => exact absurd h0 (Nat.succ_ne_zero n)

/-- At a later point: one update of what the point before left. -/
theorem acc5_3_later (c : Dev nD) (t : Fin cfg5.N) (h0 : ¬t.val = 0) :
    acc5_3 V c t.val t.isLt = step5_3 (iblk5 V c 0 t) (iblk5 V c 1 t) (acc5_3 V c (t.val - 1) (Nat.lt_of_le_of_lt (Nat.sub_le _ _) t.isLt)) := by
  obtain ⟨n, hn⟩ := t
  cases n with
  | zero => exact absurd rfl h0
  | succ n => exact rfl
theorem acc5_4_later (c : Dev nD) (t : Fin cfg5.N) (h0 : ¬t.val = 0) :
    acc5_4 V c t.val t.isLt = step5_4 (iblk5 V c 0 t) (iblk5 V c 1 t) (acc5_4 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of pipeline 5 on core `c`: the arrays as the region finds them; after the body at point `t` each
    input's buffer at its block, the first output's at the clamped sum of the input blocks, the two rows at their
    running contents; the invariant is the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
    | ⟨3, _⟩ => acc5_3 V c t.val t.isLt
    | ⟨4, _⟩ => acc5_4 V c t.val t.isLt
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]
theorem after5_3 (c : Dev nD) (t : Fin cfg5.N) : (dat5 V c).after 3 t = acc5_3 V c t.val t.isLt := by dsimp only [dat5]
theorem after5_4 (c : Dev nD) (t : Fin cfg5.N) : (dat5 V c).after 4 t = acc5_4 V c t.val t.isLt := by dsimp only [dat5]

/-- Each input's current staging buffer holds its block at every point, fetched there or not: unfetched, the block
    index has not moved and the body left the block in place. -/
theorem before5_0 (c : Dev nD) (t : Fin cfg5.N) (d) : (dat5 V c).before 0 t d = iblk5 V c 0 t :=
  ((dat5 V c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)

/-- At a later point each running row's staging buffer holds what the body left at the point before: the buffer is
    written back after the last point only, the window is live and uncut. -/
theorem before5_3_later (c : Dev nD) (t : Fin cfg5.N) (h0 : ¬t.val = 0) (d) :
    (dat5 V c).before 3 t d = acc5_3 V c (t.val - 1) (Nat.lt_of_le_of_lt (Nat.sub_le _ _) t.isLt) := by
  have hN : t.val < _ := lt_of_lt_of_eq t.isLt (N_5 : cfg5.N = _)
  rw [Dat.before_out_kept _ 3 rfl t h0 (Bool.eq_false_iff.mpr fun h => by have := (flush5_3 _).mp h; dsimp only at this; omega)
    (fun _ => rfl) (fun _ _ => rfl)]
  dsimp only [dat5]
theorem before5_4_later (c : Dev nD) (t : Fin cfg5.N) (h0 : ¬t.val = 0) (d) :
    (dat5 V c).before 4 t d = acc5_4 V c (t.val - 1) (Nat.lt_of_le_of_lt (Nat.sub_le _ _) t.isLt) := by
  have hN : t.val < _ := lt_of_lt_of_eq t.isLt (N_5 : cfg5.N = _)
  rw [Dat.before_out_kept _ 4 rfl t h0 (Bool.eq_false_iff.mpr fun h => by have := (flush5_4 _).mp h; dsimp only at this; omega)
    (fun _ => rfl) (fun _ _ => rfl)]
  dsimp only [dat5]

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

set_option maxHeartbeats 800000 in
/-- The body at any point: the inputs' memrefs hold their blocks; the point is the first or a later one; at a later
    one each running row holds what the point before left; so the matching triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2, after5_3, after5_4]
  by_cases h0 : t.val = 0
  · rw [acc5_3_first V c t h0, acc5_4_first V c t h0]
    iintro ⟨HΦ, Ho, ⟨%d0, H0⟩, ⟨%d1, H1⟩, ⟨%d2, H2⟩, ⟨%d3, H3⟩, ⟨%d4, H4⟩⟩
    iapply (sound_kernel5_A c Set.univ (grid5.coords t) _ _ _ _ _ _ _ _ _ _ ((hcond5 t).mpr h0) (iblk5 V c 0 t) (iblk5 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc5_3_later V c t h0, acc5_4_later V c t h0]
    simp only [before5_3_later V c t h0, before5_4_later V c t h0]
    iintro ⟨HΦ, Ho, ⟨%d0, H0⟩, ⟨%d1, H1⟩, ⟨%d2, H2⟩, ⟨%d3, H3⟩, ⟨%d4, H4⟩⟩
    iapply (sound_kernel5_B c Set.univ (grid5.coords t) _ _ _ _ _ _ _ _ _ _ (fun h => h0 ((hcond5 t).mp h)) (iblk5 V c 0 t) (iblk5 V c 1 t) _ _ _)
    isplitl [H0]; · iexact H0
    isplitl [H1]; · iexact H1
    isplitl [H2]; · iexists _; iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the region's ends -/

/-- Entering: the generator register and the scoped rest make the invariant at the first position. -/
theorem hin5 (c : Dev nD) :
    iprop((∃ r, prngReg c r) ∗ Pipeline.scopedRest (Ix := Unit) (Name := ℕ) (U := UR sig nD τ) (Lvl := ℕ) (Val := Elt F) spec5 c)
      ⊢ (dat5 V c).Φ 0 := by
  rw [show (dat5 V c).Φ 0 = Pipeline.ΦA spec5 c from rfl]; unfold Pipeline.ΦA
  iintro ⟨Hp, Hr⟩
  isplitl [Hr]; · iexact Hr
  iexact Hp

/-- Leaving: the invariant at the last position gives both back. -/
theorem hout5 (c : Dev nD) :
    (dat5 V c).Φ (Fin.last cfg5.N)
      ⊢ iprop((∃ r, prngReg c r) ∗ Pipeline.scopedRest (Ix := Unit) (Name := ℕ) (U := UR sig nD τ) (Lvl := ℕ) (Val := Elt F) spec5 c) := by
  rw [show (dat5 V c).Φ (Fin.last cfg5.N) = Pipeline.ΦA spec5 c from rfl]; unfold Pipeline.ΦA
  iintro ⟨Hr, Hp⟩
  isplitl [Hp]; · iexact Hp
  iexact Hr

end Cert.Kernel.Hand

end
-- ==== Proof.BReg6.lean ====
import proofs.«408066_j62380105008311_2_alg».proof.Proof.Gen.Kernel.Launch
import proofs.«408066_j62380105008311_2_alg».proof.Proof.Gen.Kernel.Skeleton
import proofs.«408066_j62380105008311_2_alg».proof.Proof.Gen.Kernel.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

/-! # Region 6: the normalise-then-multiply kernel, as a pipeline region entered at arbitrary contents

The kernel reads one row block of the activations, four feature rows (mean, variance, scale, shift) and the
weight matrix, and stores one row block of the product. Every access is a whole-buffer load or store, so the
region is of the simplest class: each input's staging buffer holds its block at every point, and the output's
buffer after the body is the single store's payload. Everything is stated at a parameter `V`, the TensorCore's
buffer contents when the region is entered, and at any float family. -/

-- membership in a rectangle of full extent recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not, for any proof
    data whose array is `V`'s and whose body leaves the block in place: where the window is not fetched its block
    index has not moved, so the block kept from the previous point is this point's. Window 0 (the activations). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Window 1 (the mean row). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Window 2 (the variance row). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Window 3 (the scale row). -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Window 4 (the shift row). -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Window 5 (the weight matrix). -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each a whole buffer -/

abbrev r6_0 : Rect S1000x150 := Rect.unit (s := S1000x150) ![0, 0] S1000x150.size inb_S1000x150_S1000x150_0_0
abbrev r6_1 : Rect S1x150 := Rect.unit (s := S1x150) ![0, 0] S1x150.size inb_S1x150_S1x150_0_0
abbrev r6_5 : Rect S150x100 := Rect.unit (s := S150x100) ![0, 0] S150x100.size inb_S150x100_S150x100_0_0
abbrev r6_6 : Rect S1000x100 := Rect.unit (s := S1000x100) ![0, 0] S1000x100.size inb_S1000x100_S1000x100_0_0

/-! ## What the body leaves in the output window's buffer -/

/-- Window 6's staging buffer after the body, from the input windows' blocks (activations, mean, variance, scale,
    shift, weights, in window order): its one store as a piece. The payload takes the variance row before the
    mean row, as the kernel loads them. -/
def out6_6 (x0 : Vec F S1000x150 .f32) (x1 x2 x3 x4 : Vec F S1x150 .f32) (x5 : Vec F S150x100 .f32) : Vec F S1000x100 .f32 :=
  View.canon [⟨r6_6, k6_pay1 (View.ld x0 r6_0) (View.ld x2 r6_1) (View.ld x1 r6_1) (View.ld x3 r6_1) (View.ld x4 r6_1) (View.ld x5 r6_5)⟩]

/-- The store tiles the buffer (by evaluation), so it covers it. -/
theorem cover6_6 (p0 : Vec F S1000x100 .f32) (y : S1000x100.Idx) :
    ∃ pc ∈ ([⟨r6_6, p0⟩] : List (View.Piece (Elt F) S1000x100 .f32)), y ∈ pc.1.set :=
  View.cover_of_tiled [⟨r6_6, p0⟩] S1000x100.size (by rfl) y

/-! ## The body's triple -/

set_option maxHeartbeats 1000000 in
/-- The kernel body on whole staging memrefs, the inputs' at read contents `xW` and the output's at anything, runs
    to the continuation holding the inputs' as they were and the output's at `out6_6` of the inputs'. The grid
    coordinate is not read. -/
theorem sound_kernel6 (c : Dev nD) (E : Set ℕ) (i : grid6.Coords)
    (arg1 : Memref sig .tc .vmem S1000x150 .f32) (harg1 : arg1.IsWhole) (arg2 : Memref sig .tc .vmem S1x150 .f32) (harg2 : arg2.IsWhole)
    (arg3 : Memref sig .tc .vmem S1x150 .f32) (harg3 : arg3.IsWhole) (arg4 : Memref sig .tc .vmem S1x150 .f32) (harg4 : arg4.IsWhole)
    (arg5 : Memref sig .tc .vmem S1x150 .f32) (harg5 : arg5.IsWhole) (arg6 : Memref sig .tc .vmem S150x100 .f32) (harg6 : arg6.IsWhole)
    (arg7 : Memref sig .tc .vmem S1000x100 .f32) (harg7 : arg7.IsWhole)
    (x0 : Vec F S1000x150 .f32) (x1 x2 x3 x4 : Vec F S1x150 .f32) (x5 : Vec F S150x100 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6_6 x0 x1 x2 x3 x4 x5)) -∗ K ⟨⟩))
      ⊢ wp frame (wpE (defs₀ (F := F)) Variants.none c none) E
          (cc6__normalize_linear_kernel i arg1 harg1 arg2 harg2 arg3 harg3 arg4 harg4 arg5 harg5 arg6 harg6 arg7 harg7) K := by
  simp only [cc6__normalize_linear_kernel_eq_skeleton]; unfold cc6__normalize_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-! ## The pipeline's proof data -/

/-- The proof data of pipeline 6 on core `c`: the arrays as the region finds them; after the body at point `t` each
    input's buffer at its block and the output's at `out6_6` of the input blocks; as invariant the scoped buffers no
    window stages and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t
    = out6_6 (iblk6 V c 0 t) (iblk6 V c 1 t) (iblk6 V c 2 t) (iblk6 V c 3 t) (iblk6 V c 4 t) (iblk6 V c 5 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' memrefs hold their blocks, so the body's triple applies; the invariant and
    the core's tallies pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _
    (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's ends -/

/-- The invariant at the first point, from the generator register and the scoped buffers no window stages. -/
theorem hin6 (c : Dev nD) :
    iprop((∃ r, prngReg c r) ∗ Pipeline.scopedRest (Ix := Unit) (Name := ℕ) (U := UR sig nD τ) (Lvl := ℕ) (Val := Elt F) spec6 c)
      ⊢ (dat6 V c).Φ 0 := by
  rw [show (dat6 V c).Φ 0 = Pipeline.ΦA spec6 c from rfl]; unfold Pipeline.ΦA
  iintro ⟨Hp, Hr⟩
  isplitl [Hr]; · iexact Hr
  iexact Hp

/-- The invariant at the last point gives both back. -/
theorem hout6 (c : Dev nD) :
    (dat6 V c).Φ (Fin.last cfg6.N)
      ⊢ iprop((∃ r, prngReg c r) ∗ Pipeline.scopedRest (Ix := Unit) (Name := ℕ) (U := UR sig nD τ) (Lvl := ℕ) (Val := Elt F) spec6 c) := by
  rw [show (dat6 V c).Φ (Fin.last cfg6.N) = Pipeline.ΦA spec6 c from rfl]; unfold Pipeline.ΦA
  iintro ⟨Hr, Hp⟩
  isplitl [Hp]; · iexact Hp
  iexact Hr

end Cert.Kernel.Hand

end
-- ==== Proof.BReg7.lean ====
import proofs.«408066_j62380105008311_2_alg».proof.Proof.Gen.Kernel.Launch
import proofs.«408066_j62380105008311_2_alg».proof.Proof.Gen.Kernel.Skeleton
import proofs.«408066_j62380105008311_2_alg».proof.Proof.Gen.Kernel.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

/-! # Region 7: a blocked matrix product accumulated in a scratch buffer

The grid is two-dimensional; along its second axis the body adds one block product into a scratch
accumulator, which it clears at the first step and copies to the output block at the last one.  This
file states, at any float family and at any entry contents `V` of the TensorCore's buffers, what the
accumulator holds after each grid point and proves the body's triple at every point. -/

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of accumulation steps (the extent of the grid's second axis) and the index of the last one:
    the only numerals of this file. -/
local notation "K₇" => 10
local notation "K₇last" => 9

/-! ## The body's two conditions, in closed form over the grid -/

/-- "This is the first accumulation step": the condition under which the body clears the accumulator. -/
abbrev cond7_0 (i : grid7.Coords) : Prop :=
  (Scalar.cmpi .ne (Scalar.extui (Scalar.cmpi .eq (BitVec.ofNat 32 (i 1).val) 0#32)) 0#32) = 1#1
/-- It holds exactly at the points whose position is a multiple of the number of steps. -/
theorem hcond7_0 : ∀ t : Fin cfg7.N, cond7_0 (grid7.coords t) ↔ t.val % K₇ = 0 :=
  (by decide +kernel : ∀ t : Fin grid7.N, cond7_0 (grid7.coords t) ↔ t.val % K₇ = 0)

/-- "This is the last accumulation step": the condition under which the body copies the accumulator out. -/
abbrev cond7_1 (i : grid7.Coords) : Prop := k7_cond2 i = 1#1
/-- It holds exactly at the points whose position is one short of a multiple of the number of steps. -/
theorem hcond7_1 : ∀ t : Fin cfg7.N, cond7_1 (grid7.coords t) ↔ t.val % K₇ = K₇last :=
  (by decide +kernel : ∀ t : Fin grid7.N, cond7_1 (grid7.coords t) ↔ t.val % K₇ = K₇last)

/-! ## Where the windows are idle -/

/-- The two operand windows are live at every point. -/
theorem liveAt7_0 : ∀ t : Fin cfg7.N, cfg7.idle 0 (grid7.coords t) = false := fun _ => rfl
theorem liveAt7_1 : ∀ t : Fin cfg7.N, cfg7.idle 1 (grid7.coords t) = false := fun _ => rfl
/-- The output window is idle, and not written back, wherever the step is not the last; -/
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
/-- and live at the last step. -/
theorem liveAt7_2 : ∀ t : Fin cfg7.N, cond7_1 (grid7.coords t) → cfg7.idle 2 (grid7.coords t) = false := by decide +kernel

/-! ## The memrefs the body is called with -/

/-- Each window's current staging memref at point `t`, and its wholeness. -/
abbrev ms7_0 (t : Fin cfg7.N) : Memref sig .tc .vmem S2000x1024 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1024x100 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2000x100 .f32 := win7_2.stage (cfg7.slots t 2)
abbrev hs7_2 (t : Fin cfg7.N) : (ms7_2 t).IsWhole := hstage7_2 ((cfg7.slots t 2).cast nbuf7_2)
/-- The accumulator: a whole scoped buffer of the call's own. -/
abbrev scM7 : Memref sig .tc .vmem S2000x100 .f32 := Memref.whole cc7_scratch0
/-- The views through which the accumulator's and the output block's contents are stated. -/
abbrev VS7 : View sig .tc .vmem S2000x100 .f32 := scM7.view
abbrev VO7_2 : View sig .tc .vmem S2000x100 .f32 := (Memref.whole cc7_stg2_0 : Memref sig .tc .vmem S2000x100 .f32).view

/-! ## The body on any whole memrefs, case by case

Three cases of the two conditions occur on the grid: the first step (clear, then accumulate), a middle step
(accumulate), the last step (accumulate, then copy out).  In each the body's stores leave lists of pieces in
the accumulator (and, at the last step, in the output block); the run finds them. -/

set_option maxHeartbeats 1000000 in
/-- FIRST STEP.  The operands' memrefs at their contents, the output's at contents handed back untouched, the
    accumulator at anything: the body runs to the continuation holding the accumulator with its pieces written. -/
noncomputable def run7_A (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : cond7_0 i) (hc1 : ¬cond7_1 i) (x0 : Vec F S2000x1024 .bf16) (x1 : Vec F S1024x100 .f32) :
    { LS : List (View.Piece (Elt F) S2000x100 .f32) //
      ∀ (xi2 : Vec F S2000x100 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc7__spmm_kernel i arg2 harg2 arg3 harg3 arg4 harg4 arg5 harg5) K } := by
  refine ⟨?_, fun xi2 E K => ?run⟩
  case run =>
    simp only [cc7__spmm_kernel_eq_skeleton]; unfold cc7__spmm_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A MIDDLE STEP.  As the first, but the accumulator at the contents `xs` the step before left. -/
noncomputable def run7_B (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : ¬cond7_0 i) (hc1 : ¬cond7_1 i) (x0 : Vec F S2000x1024 .bf16) (x1 : Vec F S1024x100 .f32) (xs : Vec F S2000x100 .f32) :
    { LS : List (View.Piece (Elt F) S2000x100 .f32) //
      ∀ (xi2 : Vec F S2000x100 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc7__spmm_kernel i arg2 harg2 arg3 harg3 arg4 harg4 arg5 harg5) K } := by
  refine ⟨?_, fun xi2 E K => ?run⟩
  case run =>
    simp only [cc7__spmm_kernel_eq_skeleton]; unfold cc7__spmm_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- THE LAST STEP.  The accumulator at the contents `xs` the step before left, the output's memref at anything:
    the body leaves pieces in both. -/
noncomputable def run7_C (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : ¬cond7_0 i) (hc1 : cond7_1 i) (x0 : Vec F S2000x1024 .bf16) (x1 : Vec F S1024x100 .f32) (xs : Vec F S2000x100 .f32) :
    Σ' (L2 : List (View.Piece (Elt F) S2000x100 .f32)), { LS : List (View.Piece (Elt F) S2000x100 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc7__spmm_kernel i arg2 harg2 arg3 harg3 arg4 harg4 arg5 harg5) K } := by
  refine ⟨?_, ?_, fun E K => ?run⟩
  case run =>
    simp only [cc7__spmm_kernel_eq_skeleton]; unfold cc7__spmm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What each case leaves, read back -/

/-- The first step's pieces cover the accumulator, -/
theorem scover7_A (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : cond7_0 i) (hc1 : ¬cond7_1 i) (x0 : Vec F S2000x1024 .bf16) (x1 : Vec F S1024x100 .f32) (y : S2000x100.Idx) :
    ∃ pc ∈ (run7_A c i arg2 harg2 arg3 harg3 arg4 harg4 arg5 harg5 hc0 hc1 x0 x1).1, y ∈ pc.1.set :=
  View.cover_of_tiledL (run7_A c i arg2 harg2 arg3 harg3 arg4 harg4 arg5 harg5 hc0 hc1 x0 x1).1 S2000x100.size (by sl_kernel_rfl) y

/-- and this is what they leave in it (read back over contents nothing consults). -/
def sout7_A (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : cond7_0 i) (hc1 : ¬cond7_1 i) (x0 : Vec F S2000x1024 .bf16) (x1 : Vec F S1024x100 .f32) : Vec F S2000x100 .f32 :=
  VS7.read (Elt F) (VS7.writes (Elt F) VS7.junk (run7_A c i arg2 harg2 arg3 harg3 arg4 harg4 arg5 harg5 hc0 hc1 x0 x1).1)

/-- A middle step's pieces cover the accumulator; what they leave. -/
theorem scover7_B (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : ¬cond7_0 i) (hc1 : ¬cond7_1 i) (x0 : Vec F S2000x1024 .bf16) (x1 : Vec F S1024x100 .f32) (xs : Vec F S2000x100 .f32) (y : S2000x100.Idx) :
    ∃ pc ∈ (run7_B c i arg2 harg2 arg3 harg3 arg4 harg4 arg5 harg5 hc0 hc1 x0 x1 xs).1, y ∈ pc.1.set :=
  View.cover_of_tiledL (run7_B c i arg2 harg2 arg3 harg3 arg4 harg4 arg5 harg5 hc0 hc1 x0 x1 xs).1 S2000x100.size (by sl_kernel_rfl) y

def sout7_B (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : ¬cond7_0 i) (hc1 : ¬cond7_1 i) (x0 : Vec F S2000x1024 .bf16) (x1 : Vec F S1024x100 .f32) (xs : Vec F S2000x100 .f32) : Vec F S2000x100 .f32 :=
  VS7.read (Elt F) (VS7.writes (Elt F) VS7.junk (run7_B c i arg2 harg2 arg3 harg3 arg4 harg4 arg5 harg5 hc0 hc1 x0 x1 xs).1)

/-- The last step's pieces cover the output block and the accumulator; what they leave in each. -/
theorem cover7_C (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : ¬cond7_0 i) (hc1 : cond7_1 i) (x0 : Vec F S2000x1024 .bf16) (x1 : Vec F S1024x100 .f32) (xs : Vec F S2000x100 .f32) (y : S2000x100.Idx) :
    ∃ pc ∈ (run7_C c i arg2 harg2 arg3 harg3 arg4 harg4 arg5 harg5 hc0 hc1 x0 x1 xs).1, y ∈ pc.1.set :=
  View.cover_of_tiledL (run7_C c i arg2 harg2 arg3 harg3 arg4 harg4 arg5 harg5 hc0 hc1 x0 x1 xs).1 S2000x100.size (by sl_kernel_rfl) y

def out7_C (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : ¬cond7_0 i) (hc1 : cond7_1 i) (x0 : Vec F S2000x1024 .bf16) (x1 : Vec F S1024x100 .f32) (xs : Vec F S2000x100 .f32) : Vec F S2000x100 .f32 :=
  VO7_2.read (Elt F) (VO7_2.writes (Elt F) VO7_2.junk (run7_C c i arg2 harg2 arg3 harg3 arg4 harg4 arg5 harg5 hc0 hc1 x0 x1 xs).1)

theorem scover7_C (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : ¬cond7_0 i) (hc1 : cond7_1 i) (x0 : Vec F S2000x1024 .bf16) (x1 : Vec F S1024x100 .f32) (xs : Vec F S2000x100 .f32) (y : S2000x100.Idx) :
    ∃ pc ∈ (run7_C c i arg2 harg2 arg3 harg3 arg4 harg4 arg5 harg5 hc0 hc1 x0 x1 xs).2.1, y ∈ pc.1.set :=
  View.cover_of_tiledL (run7_C c i arg2 harg2 arg3 harg3 arg4 harg4 arg5 harg5 hc0 hc1 x0 x1 xs).2.1 S2000x100.size (by sl_kernel_rfl) y

def sout7_C (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : ¬cond7_0 i) (hc1 : cond7_1 i) (x0 : Vec F S2000x1024 .bf16) (x1 : Vec F S1024x100 .f32) (xs : Vec F S2000x100 .f32) : Vec F S2000x100 .f32 :=
  VS7.read (Elt F) (VS7.writes (Elt F) VS7.junk (run7_C c i arg2 harg2 arg3 harg3 arg4 harg4 arg5 harg5 hc0 hc1 x0 x1 xs).2.1)

/-! ## The region at the entry contents `V` -/

-- the TensorCore's buffer contents when the region is entered
variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An operand window's current staging buffer holds its block at every point, for any proof data whose array is
    `V`'s and whose body leaves the block in place: the window is uncut and never idle, and where it is not fetched
    its block index has not moved. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The accumulator after each point -/

/-- THE ACCUMULATION.  What the accumulator holds after the body at position `n`: the case the closed forms select
    there, run at the point's memrefs and operand blocks — at a first step from anything, otherwise from what the
    point before left. -/
def scrAt7 (c : Dev nD) : (n : ℕ) → n < cfg7.N → Vec F S2000x100 .f32
  | 0, hn =>
    sout7_A c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7 (Memref.isWhole_whole _)
      ((hcond7_0 ⟨0, hn⟩).mpr (Nat.zero_mod _)) (fun h => (fun e => by (try dsimp only at e); omega) ((hcond7_1 ⟨0, hn⟩).mp h))
      (iblk7 V c 0 ⟨0, hn⟩) (iblk7 V c 1 ⟨0, hn⟩)
  | n + 1, hn =>
    if h0 : (n + 1) % K₇ = 0 then
      sout7_A c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7 (Memref.isWhole_whole _)
        ((hcond7_0 ⟨n + 1, hn⟩).mpr h0) (fun h => (fun e => by (try dsimp only at e h0); omega) ((hcond7_1 ⟨n + 1, hn⟩).mp h))
        (iblk7 V c 0 ⟨n + 1, hn⟩) (iblk7 V c 1 ⟨n + 1, hn⟩)
    else if h1 : (n + 1) % K₇ = K₇last then
      sout7_C c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7 (Memref.isWhole_whole _)
        (fun h => h0 ((hcond7_0 ⟨n + 1, hn⟩).mp h)) ((hcond7_1 ⟨n + 1, hn⟩).mpr h1)
        (iblk7 V c 0 ⟨n + 1, hn⟩) (iblk7 V c 1 ⟨n + 1, hn⟩) (scrAt7 c n (Nat.lt_of_succ_lt hn))
    else
      sout7_B c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7 (Memref.isWhole_whole _)
        (fun h => h0 ((hcond7_0 ⟨n + 1, hn⟩).mp h)) (fun h => h1 ((hcond7_1 ⟨n + 1, hn⟩).mp h))
        (iblk7 V c 0 ⟨n + 1, hn⟩) (iblk7 V c 1 ⟨n + 1, hn⟩) (scrAt7 c n (Nat.lt_of_succ_lt hn))

/-- The accumulator before a point that is not the first of the grid: what the point before left. -/
abbrev scrBefore7 (c : Dev nD) (t : Fin cfg7.N) : Vec F S2000x100 .f32 :=
  scrAt7 V c (t.val - 1) (Nat.lt_of_le_of_lt (Nat.sub_le _ _) t.isLt)

/-- `scrAt7` at a first step. -/
theorem scrAt7_A (c : Dev nD) (t : Fin cfg7.N) (h0 : t.val % K₇ = 0) (h1 : ¬t.val % K₇ = K₇last) :
    scrAt7 V c t.val t.isLt = sout7_A c (grid7.coords t) (ms7_0 t) (hs7_0 t) (ms7_1 t) (hs7_1 t) (ms7_2 t) (hs7_2 t) scM7 (Memref.isWhole_whole _)
      ((hcond7_0 t).mpr h0) (fun h => h1 ((hcond7_1 t).mp h)) (iblk7 V c 0 t) (iblk7 V c 1 t) := by
  obtain ⟨n, hn⟩ := t
  cases n with
  | zero => exact rfl
  | succ n => exact (dif_pos h0).trans rfl

/-- `scrAt7` at a middle step. -/
theorem scrAt7_B (c : Dev nD) (t : Fin cfg7.N) (h0 : ¬t.val % K₇ = 0) (h1 : ¬t.val % K₇ = K₇last) :
    scrAt7 V c t.val t.isLt = sout7_B c (grid7.coords t) (ms7_0 t) (hs7_0 t) (ms7_1 t) (hs7_1 t) (ms7_2 t) (hs7_2 t) scM7 (Memref.isWhole_whole _)
      (fun h => h0 ((hcond7_0 t).mp h)) (fun h => h1 ((hcond7_1 t).mp h)) (iblk7 V c 0 t) (iblk7 V c 1 t) (scrBefore7 V c t) := by
  obtain ⟨n, hn⟩ := t
  cases n with
  | zero => exact absurd (Nat.zero_mod _) h0
  | succ n => exact (dif_neg h0).trans ((dif_neg h1).trans rfl)

/-- `scrAt7` at a last step. -/
theorem scrAt7_C (c : Dev nD) (t : Fin cfg7.N) (h0 : ¬t.val % K₇ = 0) (h1 : t.val % K₇ = K₇last) :
    scrAt7 V c t.val t.isLt = sout7_C c (grid7.coords t) (ms7_0 t) (hs7_0 t) (ms7_1 t) (hs7_1 t) (ms7_2 t) (hs7_2 t) scM7 (Memref.isWhole_whole _)
      (fun h => h0 ((hcond7_0 t).mp h)) ((hcond7_1 t).mpr h1) (iblk7 V c 0 t) (iblk7 V c 1 t) (scrBefore7 V c t) := by
  obtain ⟨n, hn⟩ := t
  cases n with
  | zero => exact absurd (Nat.zero_mod _) h0
  | succ n => exact (dif_neg h0).trans ((dif_pos h1).trans rfl)

/-- What the output block's staging buffer holds after the body at point `t`: at a last step what that case leaves,
    from the accumulator as the point before left it; elsewhere the window is idle and this is a value nothing consults. -/
def outAt7 (c : Dev nD) (t : Fin cfg7.N) : Vec F S2000x100 .f32 :=
  if h1 : t.val % K₇ = K₇last then
    out7_C c (grid7.coords t) (ms7_0 t) (hs7_0 t) (ms7_1 t) (hs7_1 t) (ms7_2 t) (hs7_2 t) scM7 (Memref.isWhole_whole _)
      (fun h => absurd ((hcond7_0 t).mp h) (by omega)) ((hcond7_1 t).mpr h1) (iblk7 V c 0 t) (iblk7 V c 1 t) (scrBefore7 V c t)
  else VO7_2.read (Elt F) VO7_2.junk

theorem outAt7_C (c : Dev nD) (t : Fin cfg7.N) (h0 : ¬t.val % K₇ = 0) (h1 : t.val % K₇ = K₇last) :
    outAt7 V c t = out7_C c (grid7.coords t) (ms7_0 t) (hs7_0 t) (ms7_1 t) (hs7_1 t) (ms7_2 t) (hs7_2 t) scM7 (Memref.isWhole_whole _)
      (fun h => h0 ((hcond7_0 t).mp h)) ((hcond7_1 t).mpr h1) (iblk7 V c 0 t) (iblk7 V c 1 t) (scrBefore7 V c t) :=
  (dif_pos h1).trans rfl

/-! ## The region's invariant -/

/-- Every scoped buffer of the core that is neither a staging buffer of this call nor its accumulator, at some
    contents each: carried through the region unopened. -/
abbrev rest7 (c : Dev nD) : sProp 𝕄 :=
  Pipeline.scopedRestBut (Ix := Unit) (Name := ℕ) (U := UR sig nD τ) (Lvl := ℕ) (Val := Elt F) spec7 c [cc7_scratch0]

/-- The call's scoped rest, with the accumulator as a whole memref owned at some contents. -/
theorem scopedRest7_eq (c : Dev nD) :
    (Pipeline.scopedRest (Ix := Unit) (Name := ℕ) (U := UR sig nD τ) (Lvl := ℕ) (Val := Elt F) spec7 c : sProp 𝕄)
      = iprop((∃ d, owns (c : Thread nD τ) scM7 fullShare d) ∗ rest7 (F := F) c) := by
  rw [scopedRest7_split]; simp only [scM7, owns_whole]; try rfl

/-- The invariant before position `n`: before the first point the generator register at some state and the call's
    scoped rest (the accumulator at anything); afterwards the accumulator at what the point before left, the other
    scoped buffers at anything, the generator register at some state. -/
def PhiS7 (c : Dev nD) : (n : ℕ) → n ≤ cfg7.N → sProp 𝕄
  | 0, _ => iprop((∃ r, prngReg c r) ∗ Pipeline.scopedRest (Ix := Unit) (Name := ℕ) (U := UR sig nD τ) (Lvl := ℕ) (Val := Elt F) spec7 c)
  | n + 1, hn => iprop(owns (c : Thread nD τ) scM7 fullShare (scrAt7 V c n hn) ∗ rest7 (F := F) c ∗ (∃ r, prngReg c r))

theorem PhiS7_zero (c : Dev nD) (n : ℕ) (h : n ≤ cfg7.N) (hz : n = 0) :
    PhiS7 V c n h = iprop((∃ r, prngReg c r) ∗ Pipeline.scopedRest (Ix := Unit) (Name := ℕ) (U := UR sig nD τ) (Lvl := ℕ) (Val := Elt F) spec7 c) := by
  subst hz; rfl

theorem PhiS7_succ (c : Dev nD) (n : ℕ) (hn : n < cfg7.N) :
    PhiS7 V c (n + 1) hn = iprop(owns (c : Thread nD τ) scM7 fullShare (scrAt7 V c n hn) ∗ rest7 (F := F) c ∗ (∃ r, prngReg c r)) := rfl

theorem PhiS7_pos (c : Dev nD) (n : ℕ) (h : n ≤ cfg7.N) (hz : n ≠ 0) :
    PhiS7 V c n h = iprop(owns (c : Thread nD τ) scM7 fullShare (scrAt7 V c (n - 1) (by omega)) ∗ rest7 (F := F) c ∗ (∃ r, prngReg c r)) := by
  cases n with
  | zero => exact absurd rfl hz
  | succ n => rfl

/-- At any position the invariant yields the accumulator at SOME contents beside the rest: what a first step needs,
    and what the region gives back. -/
theorem PhiS7_any (c : Dev nD) (n : ℕ) (h : n ≤ cfg7.N) :
    PhiS7 V c n h ⊢ iprop((∃ d, owns (c : Thread nD τ) scM7 fullShare d) ∗ rest7 (F := F) c ∗ (∃ r, prngReg c r)) := by
  cases n with
  | zero =>
    rw [PhiS7_zero V c 0 h rfl, scopedRest7_eq]
    iintro ⟨Hg, HS, HR⟩
    isplitl [HS]; · iexact HS
    isplitl [HR]; · iexact HR
    iexact Hg
  | succ n =>
    rw [PhiS7_succ]
    iintro ⟨HS, HR, Hg⟩
    isplitl [HS]; · iexists _; iexact HS
    isplitl [HR]; · iexact HR
    iexact Hg

/-! ## The pipeline's proof data -/

/-- The proof data of pipeline 7 on core `c`: the arrays as the region finds them; after the body at point `t` each
    operand's buffer at its block and the output's at `outAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => outAt7 V c t
  Φ t := PhiS7 V c t.val (Nat.le_of_lt_succ t.isLt)
  q _ := fullShare
  owed _ := 0

/-- The proof data's arrays are the region-entry contents. -/
theorem A_eq7 (c : Dev nD) (w : Fin cfg7.W) : (dat7 V c).A w = V c (Pipeline.arrRef spec7 w) := by
  dsimp only [dat7]

/-- The invariant at a point's start, restated at the point's position. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = outAt7 V c t := by dsimp only [dat7]

/-- Each operand's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point.  The operands' memrefs hold their blocks; the closed forms say which step the point is;
    the invariant hands the body the accumulator — at anything at a first step, at what the point before left
    otherwise — and takes it back at this point's contents, since the step's pieces cover it; where the step is not
    the last the output's buffer goes through untouched, at the last its pieces cover it; the core owes nothing. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [PhiS7_castSucc V c t]
  by_cases h0 : t.val % K₇ = 0
  · have h1 : ¬t.val % K₇ = K₇last := by omega
    rw [Dat.leavesExact_idle (dat7 V c) 2 t (idleAt7_2 t (fun h => h1 ((hcond7_1 t).mp h))) (noFlush7_2 t (fun h => h1 ((hcond7_1 t).mp h)))]
    rw [scrAt7_A V c t h0 h1]
    unfold sout7_A
    iintro ⟨HΦ, Ho, ⟨%d0, H0⟩, ⟨%d1, H1⟩, ⟨%d2, H2⟩⟩
    ihave HΦ' := (PhiS7_any V c t.val (Nat.le_of_lt t.isLt)) $$ HΦ
    icases HΦ' with ⟨HS, HR, Hg⟩
    iapply ((run7_A c (grid7.coords t) _ _ _ _ _ _ _ _ ((hcond7_0 t).mpr h0) (fun h => h1 ((hcond7_1 t).mp h)) (iblk7 V c 0 t) (iblk7 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS HR Hg]
    · isplitl [HS]
      · unfold owns; iexists _; isplitr
        swap; · iexact HS
        ipureintro; exact View.read_writes_of_cover _ _ _ _ _ (scover7_A c _ _ _ _ _ _ _ _ _ _ _ _ _)
      isplitl [HR]; · iexact HR
      iexact Hg
    isplitl [Ho]; · iexact Ho
    isplitl [H0]; · iexact H0
    isplitl [H1]; · iexact H1
    iexists _; iexact H2
  · have hz : t.val ≠ 0 := fun e => h0 (by rw [e])
    rw [PhiS7_pos V c _ _ hz]
    by_cases h1 : t.val % K₇ = K₇last
    · rw [show (dat7 V c).leavesExact 2 t = owns (c : Thread nD τ) (ms7_2 t) fullShare ((dat7 V c).after 2 t) from by
        unfold Dat.leavesExact; rw [liveAt7_2 t ((hcond7_1 t).mpr h1)], after7_2]
      rw [scrAt7_C V c t h0 h1, outAt7_C V c t h0 h1]
      unfold sout7_C out7_C
      iintro ⟨⟨HS, HR, Hg⟩, Ho, ⟨%d0, H0⟩, ⟨%d1, H1⟩, ⟨%d2, H2⟩⟩
      iapply ((run7_C c (grid7.coords t) _ _ _ _ _ _ _ _ (fun h => h0 ((hcond7_0 t).mp h)) ((hcond7_1 t).mpr h1) (iblk7 V c 0 t) (iblk7 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS]
        · unfold owns; iexists _; isplitr
          swap; · iexact HS
          ipureintro; exact View.read_writes_of_cover _ _ _ _ _ (scover7_C c _ _ _ _ _ _ _ _ _ _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover7_C c _ _ _ _ _ _ _ _ _ _ _ _ _ _)
    · rw [Dat.leavesExact_idle (dat7 V c) 2 t (idleAt7_2 t (fun h => h1 ((hcond7_1 t).mp h))) (noFlush7_2 t (fun h => h1 ((hcond7_1 t).mp h)))]
      rw [scrAt7_B V c t h0 h1]
      unfold sout7_B
      iintro ⟨⟨HS, HR, Hg⟩, Ho, ⟨%d0, H0⟩, ⟨%d1, H1⟩, ⟨%d2, H2⟩⟩
      iapply ((run7_B c (grid7.coords t) _ _ _ _ _ _ _ _ (fun h => h0 ((hcond7_0 t).mp h)) (fun h => h1 ((hcond7_1 t).mp h)) (iblk7 V c 0 t) (iblk7 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (scover7_B c _ _ _ _ _ _ _ _ _ _ _ _ _ _)
        isplitl [HR]; · iexact HR
        iexact Hg
      isplitl [Ho]; · iexact Ho
      isplitl [H0]; · iexact H0
      isplitl [H1]; · iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## Entering and leaving the region -/

/-- What the region is entered with — the generator register at some state and the call's scoped rest — is the
    invariant before the first point. -/
theorem hin7 (c : Dev nD) :
    iprop((∃ r, prngReg c r) ∗ Pipeline.scopedRest (Ix := Unit) (Name := ℕ) (U := UR sig nD τ) (Lvl := ℕ) (Val := Elt F) spec7 c)
      ⊢ (dat7 V c).Φ 0 := by
  rw [show (dat7 V c).Φ 0 = PhiS7 V c 0 (Nat.zero_le _) from rfl, PhiS7_zero V c 0 _ rfl]

/-- After the last point the invariant gives the same back: the accumulator's contents are forgotten. -/
theorem hout7 (c : Dev nD) :
    (dat7 V c).Φ (Fin.last cfg7.N)
      ⊢ iprop((∃ r, prngReg c r) ∗ Pipeline.scopedRest (Ix := Unit) (Name := ℕ) (U := UR sig nD τ) (Lvl := ℕ) (Val := Elt F) spec7 c) := by
  rw [show (dat7 V c).Φ (Fin.last cfg7.N) = PhiS7 V c (Fin.last cfg7.N).val (Nat.le_of_lt_succ (Fin.last cfg7.N).isLt) from rfl, scopedRest7_eq]
  iintro HΦ
  ihave HΦ' := (PhiS7_any V c _ _) $$ HΦ
  icases HΦ' with ⟨HS, HR, Hg⟩
  isplitl [Hg]; · iexact Hg
  isplitl [HS]; · iexact HS
  iexact HR

end Cert.Kernel.Hand

end
-- ==== Proof.BReg8.lean ====
import proofs.«408066_j62380105008311_2_alg».proof.Proof.Gen.Kernel.Launch
import proofs.«408066_j62380105008311_2_alg».proof.Proof.Gen.Kernel.Skeleton
import proofs.«408066_j62380105008311_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 8: bias, relu, and the running column sums, at the entry contents `V`

The grid is one axis of row blocks. At each point the body adds the bias row to the block of rows, clamps at zero,
stores the result to the first output's block, and adds the block's column sums and column sums of squares into
two one-row outputs whose block never moves; at the first point it zeroes those two rows first. -/

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## The body's branch condition -/

/-- The condition of the body's one conditional, from the grid coordinates. -/
abbrev cond8 (i : grid8.Coords) : Prop := (Scalar.cmpi .ne (Scalar.extui (Scalar.cmpi .eq (BitVec.ofNat 32 (i 0).val) 0#32)) 0#32) = 1#1
/-- It holds at the first point only. -/
theorem hcond8 : ∀ t : Fin cfg8.N, cond8 (grid8.coords t) ↔ t.val = 0 :=
  (by decide +kernel : ∀ t : Fin grid8.N, cond8 (grid8.coords t) ↔ t.val = 0)

/-! ## The body's accesses: each is a whole buffer -/

abbrev rBlk8 : Rect S1000x100 := Rect.unit (s := S1000x100) ![0, 0] S1000x100.size inb_S1000x100_S1000x100_0_0
abbrev rRow8 : Rect S1x100 := Rect.unit (s := S1x100) ![0, 0] S1x100.size inb_S1x100_S1x100_0_0

/-- One whole-buffer store covers the block buffer, -/
theorem coverBlk8 (p : rBlk8.shape.Idx → Elt F .f32) (y : S1000x100.Idx) :
    ∃ pc ∈ ([⟨rBlk8, p⟩] : List (View.Piece (Elt F) S1000x100 .f32)), y ∈ pc.1.set :=
  View.cover_of_tiled [⟨rBlk8, p⟩] S1000x100.size (by rfl) y
/-- and the row buffer. -/
theorem coverRow8 (p : rRow8.shape.Idx → Elt F .f32) (y : S1x100.Idx) :
    ∃ pc ∈ ([⟨rRow8, p⟩] : List (View.Piece (Elt F) S1x100 .f32)), y ∈ pc.1.set :=
  View.cover_of_tiled [⟨rRow8, p⟩] S1x100.size (by rfl) y

/-- Every index of the row buffer lies in the whole-buffer rectangle (read off the cover by one piece). -/
theorem memRow8 (p : rRow8.shape.Idx → Elt F .f32) (y : S1x100.Idx) : y ∈ rRow8.set := by
  obtain ⟨pc, hm, hy⟩ := coverRow8 p y
  rw [List.mem_singleton] at hm; subst hm; exact hy

/-- A store over the whole row buffer hides every earlier store. -/
theorem canon_row8 (p : rRow8.shape.Idx → Elt F .f32) (L : List (View.Piece (Elt F) S1x100 .f32)) :
    View.canon (⟨rRow8, p⟩ :: L) = View.canon [⟨rRow8, p⟩] := by
  funext y
  obtain ⟨x, rfl⟩ : ∃ x, rRow8.emb x = y := rRow8.exists_idx_of_mem (memRow8 p y)
  rw [View.canon_cons_emb, View.canon_cons_emb]

/-! ## What the body leaves in each output window's buffer -/

/-- The first output's buffer after the body: the clamped sum of the row block and the bias row. -/
def out8_2 (x0 : Vec F S1000x100 .f32) (x1 : Vec F S1x100 .f32) : Vec F S1000x100 .f32 :=
  View.canon [⟨rBlk8, k8_pay3 (View.ld x0 rBlk8) (View.ld x1 rRow8)⟩]

/-- The column-sum row as the first point's reset leaves it, -/
def zero8_3 : Vec F S1x100 .f32 := View.canon [⟨rRow8, k8_pay1 (F := F)⟩]
/-- and the column-sum-of-squares row. -/
def zero8_4 : Vec F S1x100 .f32 := View.canon [⟨rRow8, k8_pay2 (F := F)⟩]

/-- The column-sum row after a point's update, from the row it held before (`a`), -/
def step8_3 (x0 : Vec F S1000x100 .f32) (x1 : Vec F S1x100 .f32) (a : Vec F S1x100 .f32) : Vec F S1x100 .f32 :=
  View.canon [⟨rRow8, k8_pay4 (View.ld x0 rBlk8) (View.ld x1 rRow8) (View.ld a rRow8)⟩]
/-- and the column-sum-of-squares row. -/
def step8_4 (x0 : Vec F S1000x100 .f32) (x1 : Vec F S1x100 .f32) (a : Vec F S1x100 .f32) : Vec F S1x100 .f32 :=
  View.canon [⟨rRow8, k8_pay5 (View.ld x0 rBlk8) (View.ld x1 rRow8) (View.ld a rRow8)⟩]

/-! ## The body's triple, at the first point and at a later one -/

set_option maxHeartbeats 1000000 in
/-- At the first point (the conditional taken): on whole staging memrefs, the inputs' at read contents and the
    outputs' at anything, the body runs to the continuation holding the inputs' as they were, the first output's at
    the clamped sum, and the two rows at one update of the reset rows. -/
theorem sound_kernel8_A (c : Dev nD) (E : Set ℕ) (i : grid8.Coords)
    (arg1 : Memref sig .tc .vmem S1000x100 .f32) (harg1 : arg1.IsWhole) (arg2 : Memref sig .tc .vmem S1x100 .f32) (harg2 : arg2.IsWhole)
    (arg3 : Memref sig .tc .vmem S1000x100 .f32) (harg3 : arg3.IsWhole) (arg4 : Memref sig .tc .vmem S1x100 .f32) (harg4 : arg4.IsWhole)
    (arg5 : Memref sig .tc .vmem S1x100 .f32) (harg5 : arg5.IsWhole) (hc : cond8 i)
    (x0 : Vec F S1000x100 .f32) (x1 : Vec F S1x100 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out8_2 x0 x1)
            ∗ owns (c : Thread nD τ) arg4 fullShare (step8_3 x0 x1 zero8_3)
            ∗ owns (c : Thread nD τ) arg5 fullShare (step8_4 x0 x1 zero8_4)) -∗ K ⟨⟩))
      ⊢ wp frame (wpE (defs₀ (F := F)) Variants.none c none) E (cc8__bias_relu_stats_kernel i arg1 harg1 arg2 harg2 arg3 harg3 arg4 harg4 arg5 harg5) K := by
  simp only [cc8__bias_relu_stats_kernel_eq_skeleton]; unfold cc8__bias_relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverBlk8 _)
  isplitl [H3]
  · iexists _; isplitr
    swap; · iexact H3
    ipureintro
    sl_unfold_run_names
    refine (View.read_writes_eq_canon _ _ _ (fun y => ⟨_, List.Mem.head _, memRow8 (k8_pay1 (F := F)) y⟩)).trans ?_
    rw [canon_row8, View.readCov_eq_canon_ld _ _ _ (coverRow8 _)]
    rfl
  iexists _; isplitr
  swap; · iexact H4
  ipureintro
  sl_unfold_run_names
  refine (View.read_writes_eq_canon _ _ _ (fun y => ⟨_, List.Mem.head _, memRow8 (k8_pay2 (F := F)) y⟩)).trans ?_
  rw [canon_row8, View.readCov_eq_canon_ld _ _ _ (coverRow8 _)]
  rfl

set_option maxHeartbeats 1000000 in
/-- At a later point (the conditional not taken): the same, the two rows held at `a3`, `a4` on entry and at one
    update of those on exit. -/
theorem sound_kernel8_B (c : Dev nD) (E : Set ℕ) (i : grid8.Coords)
    (arg1 : Memref sig .tc .vmem S1000x100 .f32) (harg1 : arg1.IsWhole) (arg2 : Memref sig .tc .vmem S1x100 .f32) (harg2 : arg2.IsWhole)
    (arg3 : Memref sig .tc .vmem S1000x100 .f32) (harg3 : arg3.IsWhole) (arg4 : Memref sig .tc .vmem S1x100 .f32) (harg4 : arg4.IsWhole)
    (arg5 : Memref sig .tc .vmem S1x100 .f32) (harg5 : arg5.IsWhole) (hc : ¬cond8 i)
    (x0 : Vec F S1000x100 .f32) (x1 : Vec F S1x100 .f32) (a3 a4 : Vec F S1x100 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare a3 ∗ owns (c : Thread nD τ) arg5 fullShare a4
        ∗ (iprop(owns (c : Thread nD τ) arg1 fullShare x0 ∗ owns (c : Thread nD τ) arg2 fullShare x1
            ∗ owns (c : Thread nD τ) arg3 fullShare (out8_2 x0 x1)
            ∗ owns (c : Thread nD τ) arg4 fullShare (step8_3 x0 x1 a3)
            ∗ owns (c : Thread nD τ) arg5 fullShare (step8_4 x0 x1 a4)) -∗ K ⟨⟩))
      ⊢ wp frame (wpE (defs₀ (F := F)) Variants.none c none) E (cc8__bias_relu_stats_kernel i arg1 harg1 arg2 harg2 arg3 harg3 arg4 harg4 arg5 harg5) K := by
  simp only [cc8__bias_relu_stats_kernel_eq_skeleton]; unfold cc8__bias_relu_stats_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  subst hf0; subst hf1; subst hf3; subst hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverBlk8 _)
  isplitl [H3]
  · iexists _; isplitr
    swap; · iexact H3
    ipureintro
    exact View.read_writes_eq_canon _ _ _ (coverRow8 _)
  iexists _; isplitr
  swap; · iexact H4
  ipureintro
  exact View.read_writes_eq_canon _ _ _ (coverRow8 _)

/-! ## What the two running rows hold after each point -/

/-- The column-sum row after the body at position `n`: one update per point, from the reset row. -/
def acc8_3 (c : Dev nD) : (n : ℕ) → n < cfg8.N → Vec F S1x100 .f32
  | 0, hn => step8_3 (iblk8 V c 0 ⟨0, hn⟩) (iblk8 V c 1 ⟨0, hn⟩) zero8_3
  | n + 1, hn => step8_3 (iblk8 V c 0 ⟨n + 1, hn⟩) (iblk8 V c 1 ⟨n + 1, hn⟩) (acc8_3 c n (Nat.lt_of_succ_lt hn))

/-- The column-sum-of-squares row after the body at position `n`. -/
def acc8_4 (c : Dev nD) : (n : ℕ) → n < cfg8.N → Vec F S1x100 .f32
  | 0, hn => step8_4 (iblk8 V c 0 ⟨0, hn⟩) (iblk8 V c 1 ⟨0, hn⟩) zero8_4
  | n + 1, hn => step8_4 (iblk8 V c 0 ⟨n + 1, hn⟩) (iblk8 V c 1 ⟨n + 1, hn⟩) (acc8_4 c n (Nat.lt_of_succ_lt hn))

/-- At the first point: one update of the reset row. -/
theorem acc8_3_first (c : Dev nD) (t : Fin cfg8.N) (h0 : t.val = 0) :
    acc8_3 V c t.val t.isLt = step8_3 (iblk8 V c 0 t) (iblk8 V c 1 t) zero8_3 := by
  obtain ⟨n, hn⟩ := t
  cases n with
  | zero => exact rfl
  | succ n => exact absurd h0 (Nat.succ_ne_zero n)
theorem acc8_4_first (c : Dev nD) (t : Fin cfg8.N) (h0 : t.val = 0) :
    acc8_4 V c t.val t.isLt = step8_4 (iblk8 V c 0 t) (iblk8 V c 1 t) zero8_4 := by
  obtain ⟨n, hn⟩ := t
  cases n with
  | zero => exact rfl
  | succ n => exact absurd h0 (Nat.succ_ne_zero n)

/-- At a later point: one update of what the point before left. -/
theorem acc8_3_later (c : Dev nD) (t : Fin cfg8.N) (h0 : ¬t.val = 0) :
    acc8_3 V c t.val t.isLt = step8_3 (iblk8 V c 0 t) (iblk8 V c 1 t) (acc8_3 V c (t.val - 1) (Nat.lt_of_le_of_lt (Nat.sub_le _ _) t.isLt)) := by
  obtain ⟨n, hn⟩ := t
  cases n with
  | zero => exact absurd rfl h0
  | succ n => exact rfl
theorem acc8_4_later (c : Dev nD) (t : Fin cfg8.N) (h0 : ¬t.val = 0) :
    acc8_4 V c t.val t.isLt = step8_4 (iblk8 V c 0 t) (iblk8 V c 1 t) (acc8_4 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of pipeline 8 on core `c`: the arrays as the region finds them; after the body at point `t` each
    input's buffer at its block, the first output's at the clamped sum of the input blocks, the two rows at their
    running contents; the invariant is the scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
    | ⟨3, _⟩ => acc8_3 V c t.val t.isLt
    | ⟨4, _⟩ => acc8_4 V c t.val t.isLt
  Φ _ := Pipeline.ΦA spec8 c
  q _ := fullShare
  owed _ := 0

/-- The proof data's arrays are the region-entry contents (the definition projected). -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]
theorem after8_3 (c : Dev nD) (t : Fin cfg8.N) : (dat8 V c).after 3 t = acc8_3 V c t.val t.isLt := by dsimp only [dat8]
theorem after8_4 (c : Dev nD) (t : Fin cfg8.N) : (dat8 V c).after 4 t = acc8_4 V c t.val t.isLt := by dsimp only [dat8]

/-- Each input's current staging buffer holds its block at every point, fetched there or not: unfetched, the block
    index has not moved and the body left the block in place. -/
theorem before8_0 (c : Dev nD) (t : Fin cfg8.N) (d) : (dat8 V c).before 0 t d = iblk8 V c 0 t :=
  ((dat8 V c).before_in_eq_fetched 0 rfl (fun _ => rfl) (fun _ _ _ => rfl)
      (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl)
      (fun t => by rw [after8_1]; unfold Dat.blockOf iblk8; rw [A_eq8]; try rfl) t d).trans
    (by unfold Dat.fetched Dat.blockOf iblk8; rw [A_eq8]; try rfl)

/-- At a later point each running row's staging buffer holds what the body left at the point before: the buffer is
    written back after the last point only, the window is live and uncut. -/
theorem before8_3_later (c : Dev nD) (t : Fin cfg8.N) (h0 : ¬t.val = 0) (d) :
    (dat8 V c).before 3 t d = acc8_3 V c (t.val - 1) (Nat.lt_of_le_of_lt (Nat.sub_le _ _) t.isLt) := by
  have hN : t.val < _ := lt_of_lt_of_eq t.isLt (N_8 : cfg8.N = _)
  rw [Dat.before_out_kept _ 3 rfl t h0 (Bool.eq_false_iff.mpr fun h => by have := (flush8_3 _).mp h; dsimp only at this; omega)
    (fun _ => rfl) (fun _ _ => rfl)]
  dsimp only [dat8]
theorem before8_4_later (c : Dev nD) (t : Fin cfg8.N) (h0 : ¬t.val = 0) (d) :
    (dat8 V c).before 4 t d = acc8_4 V c (t.val - 1) (Nat.lt_of_le_of_lt (Nat.sub_le _ _) t.isLt) := by
  have hN : t.val < _ := lt_of_lt_of_eq t.isLt (N_8 : cfg8.N = _)
  rw [Dat.before_out_kept _ 4 rfl t h0 (Bool.eq_false_iff.mpr fun h => by have := (flush8_4 _).mp h; dsimp only at this; omega)
    (fun _ => rfl) (fun _ _ => rfl)]
  dsimp only [dat8]

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

set_option maxHeartbeats 800000 in
/-- The body at any point: the inputs' memrefs hold their blocks; the point is the first or a later one; at a later
    one each running row holds what the point before left; so the matching triple applies; the invariant and the
    core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2, after8_3, after8_4]
  by_cases h0 : t.val = 0
  · rw [acc8_3_first V c t h0, acc8_4_first V c t h0]
    iintro ⟨HΦ, Ho, ⟨%d0, H0⟩, ⟨%d1, H1⟩, ⟨%d2, H2⟩, ⟨%d3, H3⟩, ⟨%d4, H4⟩⟩
    iapply (sound_kernel8_A c Set.univ (grid8.coords t) _ _ _ _ _ _ _ _ _ _ ((hcond8 t).mpr h0) (iblk8 V c 0 t) (iblk8 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc8_3_later V c t h0, acc8_4_later V c t h0]
    simp only [before8_3_later V c t h0, before8_4_later V c t h0]
    iintro ⟨HΦ, Ho, ⟨%d0, H0⟩, ⟨%d1, H1⟩, ⟨%d2, H2⟩, ⟨%d3, H3⟩, ⟨%d4, H4⟩⟩
    iapply (sound_kernel8_B c Set.univ (grid8.coords t) _ _ _ _ _ _ _ _ _ _ (fun h => h0 ((hcond8 t).mp h)) (iblk8 V c 0 t) (iblk8 V c 1 t) _ _ _)
    isplitl [H0]; · iexact H0
    isplitl [H1]; · iexact H1
    isplitl [H2]; · iexists _; iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## The invariant at the region's ends -/

/-- Entering: the generator register and the scoped rest make the invariant at the first position. -/
theorem hin8 (c : Dev nD) :
    iprop((∃ r, prngReg c r) ∗ Pipeline.scopedRest (Ix := Unit) (Name := ℕ) (U := UR sig nD τ) (Lvl := ℕ) (Val := Elt F) spec8 c)
      ⊢ (dat8 V c).Φ 0 := by
  rw [show (dat8 V c).Φ 0 = Pipeline.ΦA spec8 c from rfl]; unfold Pipeline.ΦA
  iintro ⟨Hp, Hr⟩
  isplitl [Hr]; · iexact Hr
  iexact Hp

/-- Leaving: the invariant at the last position gives both back. -/
theorem hout8 (c : Dev nD) :
    (dat8 V c).Φ (Fin.last cfg8.N)
      ⊢ iprop((∃ r, prngReg c r) ∗ Pipeline.scopedRest (Ix := Unit) (Name := ℕ) (U := UR sig nD τ) (Lvl := ℕ) (Val := Elt F) spec8 c) := by
  rw [show (dat8 V c).Φ (Fin.last cfg8.N) = Pipeline.ΦA spec8 c from rfl]; unfold Pipeline.ΦA
  iintro ⟨Hr, Hp⟩
  isplitl [Hp]; · iexact Hp
  iexact Hr

end Cert.Kernel.Hand

end
-- ==== Proof.BReg9.lean ====
import proofs.«408066_j62380105008311_2_alg».proof.Proof.Gen.Kernel.Launch
import proofs.«408066_j62380105008311_2_alg».proof.Proof.Gen.Kernel.Skeleton
import proofs.«408066_j62380105008311_2_alg».proof.Proof.Gen.Kernel.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

/-! # Region 9: the normalise-then-multiply kernel, as a pipeline region entered at arbitrary contents

The kernel reads one row block of the activations, four feature rows (mean, variance, scale, shift) and the
weight matrix, and stores one row block of the product. Every access is a whole-buffer load or store, so the
region is of the simplest class: each input's staging buffer holds its block at every point, and the output's
buffer after the body is the single store's payload. Everything is stated at a parameter `V`, the TensorCore's
buffer contents when the region is entered, and at any float family. -/

-- membership in a rectangle of full extent recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not, for any proof
    data whose array is `V`'s and whose body leaves the block in place: where the window is not fetched its block
    index has not moved, so the block kept from the previous point is this point's. Window 0 (the activations). -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Window 1 (the mean row). -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Window 2 (the variance row). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Window 3 (the scale row). -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Window 4 (the shift row). -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Window 5 (the weight matrix). -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each a whole buffer -/

abbrev r9_0 : Rect S1000x100 := Rect.unit (s := S1000x100) ![0, 0] S1000x100.size inb_S1000x100_S1000x100_0_0
abbrev r9_1 : Rect S1x100 := Rect.unit (s := S1x100) ![0, 0] S1x100.size inb_S1x100_S1x100_0_0
abbrev r9_5 : Rect S100x60 := Rect.unit (s := S100x60) ![0, 0] S100x60.size inb_S100x60_S100x60_0_0
abbrev r9_6 : Rect S1000x60 := Rect.unit (s := S1000x60) ![0, 0] S1000x60.size inb_S1000x60_S1000x60_0_0

/-! ## What the body leaves in the output window's buffer -/

/-- Window 6's staging buffer after the body, from the input windows' blocks (activations, mean, variance, scale,
    shift, weights, in window order): its one store as a piece. The payload takes the variance row before the
    mean row, as the kernel loads them. -/
def out9_6 (x0 : Vec F S1000x100 .f32) (x1 x2 x3 x4 : Vec F S1x100 .f32) (x5 : Vec F S100x60 .f32) : Vec F S1000x60 .f32 :=
  View.canon [⟨r9_6, k9_pay1 (View.ld x0 r9_0) (View.ld x2 r9_1) (View.ld x1 r9_1) (View.ld x3 r9_1) (View.ld x4 r9_1) (View.ld x5 r9_5)⟩]

/-- The store tiles the buffer (by evaluation), so it covers it. -/
theorem cover9_6 (p0 : Vec F S1000x60 .f32) (y : S1000x60.Idx) :
    ∃ pc ∈ ([⟨r9_6, p0⟩] : List (View.Piece (Elt F) S1000x60 .f32)), y ∈ pc.1.set :=
  View.cover_of_tiled [⟨r9_6, p0⟩] S1000x60.size (by rfl) y

/-! ## The body's triple -/

set_option maxHeartbeats 1000000 in
/-- The kernel body on whole staging memrefs, the inputs' at read contents `xW` and the output's at anything, runs
    to the continuation holding the inputs' as they were and the output's at `out9_6` of the inputs'. The grid
    coordinate is not read. -/
theorem sound_kernel9 (c : Dev nD) (E : Set ℕ) (i : grid9.Coords)
    (arg1 : Memref sig .tc .vmem S1000x100 .f32) (harg1 : arg1.IsWhole) (arg2 : Memref sig .tc .vmem S1x100 .f32) (harg2 : arg2.IsWhole)
    (arg3 : Memref sig .tc .vmem S1x100 .f32) (harg3 : arg3.IsWhole) (arg4 : Memref sig .tc .vmem S1x100 .f32) (harg4 : arg4.IsWhole)
    (arg5 : Memref sig .tc .vmem S1x100 .f32) (harg5 : arg5.IsWhole) (arg6 : Memref sig .tc .vmem S100x60 .f32) (harg6 : arg6.IsWhole)
    (arg7 : Memref sig .tc .vmem S1000x60 .f32) (harg7 : arg7.IsWhole)
    (x0 : Vec F S1000x100 .f32) (x1 x2 x3 x4 : Vec F S1x100 .f32) (x5 : Vec F S100x60 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out9_6 x0 x1 x2 x3 x4 x5)) -∗ K ⟨⟩))
      ⊢ wp frame (wpE (defs₀ (F := F)) Variants.none c none) E
          (cc9__normalize_linear_kernel i arg1 harg1 arg2 harg2 arg3 harg3 arg4 harg4 arg5 harg5 arg6 harg6 arg7 harg7) K := by
  simp only [cc9__normalize_linear_kernel_eq_skeleton]; unfold cc9__normalize_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover9_6 _)

/-! ## The pipeline's proof data -/

/-- The proof data of pipeline 9 on core `c`: the arrays as the region finds them; after the body at point `t` each
    input's buffer at its block and the output's at `out9_6` of the input blocks; as invariant the scoped buffers no
    window stages and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t) (iblk9 V c 5 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t
    = out9_6 (iblk9 V c 0 t) (iblk9 V c 1 t) (iblk9 V c 2 t) (iblk9 V c 3 t) (iblk9 V c 4 t) (iblk9 V c 5 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t))

/-- The body at any point: the inputs' memrefs hold their blocks, so the body's triple applies; the invariant and
    the core's tallies pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel9 c Set.univ _ _ _ _ _ _ _ _ _ _ _ _ _ _ _
    (iblk9 V c 0 t) (iblk9 V c 1 t) (iblk9 V c 2 t) (iblk9 V c 3 t) (iblk9 V c 4 t) (iblk9 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The invariant at the region's ends -/

/-- The invariant at the first point, from the generator register and the scoped buffers no window stages. -/
theorem hin9 (c : Dev nD) :
    iprop((∃ r, prngReg c r) ∗ Pipeline.scopedRest (Ix := Unit) (Name := ℕ) (U := UR sig nD τ) (Lvl := ℕ) (Val := Elt F) spec9 c)
      ⊢ (dat9 V c).Φ 0 := by
  rw [show (dat9 V c).Φ 0 = Pipeline.ΦA spec9 c from rfl]; unfold Pipeline.ΦA
  iintro ⟨Hp, Hr⟩
  isplitl [Hr]; · iexact Hr
  iexact Hp

/-- The invariant at the last point gives both back. -/
theorem hout9 (c : Dev nD) :
    (dat9 V c).Φ (Fin.last cfg9.N)
      ⊢ iprop((∃ r, prngReg c r) ∗ Pipeline.scopedRest (Ix := Unit) (Name := ℕ) (U := UR sig nD τ) (Lvl := ℕ) (Val := Elt F) spec9 c) := by
  rw [show (dat9 V c).Φ (Fin.last cfg9.N) = Pipeline.ΦA spec9 c from rfl]; unfold Pipeline.ΦA
  iintro ⟨Hr, Hp⟩
  isplitl [Hp]; · iexact Hp
  iexact Hr

end Cert.Kernel.Hand

end
-- ==== Proof.BReg10.lean ====
import proofs.«408066_j62380105008311_2_alg».proof.Proof.Gen.Kernel.Launch
import proofs.«408066_j62380105008311_2_alg».proof.Proof.Gen.Kernel.Skeleton
import proofs.«408066_j62380105008311_2_alg».proof.Proof.Gen.Kernel.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

/-! # Region 10: a blocked matrix product accumulated in a scratch buffer

The grid is two-dimensional; along its second axis the body adds one block product into a scratch
accumulator, which it clears at the first step and copies to the output block at the last one.  This
file states, at any float family and at any entry contents `V` of the TensorCore's buffers, what the
accumulator holds after each grid point and proves the body's triple at every point. -/

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of accumulation steps (the extent of the grid's second axis) and the index of the last one:
    the only numerals of this file. -/
local notation "K₁₀" => 10
local notation "K₁₀last" => 9

/-! ## The body's two conditions, in closed form over the grid -/

/-- "This is the first accumulation step": the condition under which the body clears the accumulator. -/
abbrev cond10_0 (i : grid10.Coords) : Prop :=
  (Scalar.cmpi .ne (Scalar.extui (Scalar.cmpi .eq (BitVec.ofNat 32 (i 1).val) 0#32)) 0#32) = 1#1
/-- It holds exactly at the points whose position is a multiple of the number of steps. -/
theorem hcond10_0 : ∀ t : Fin cfg10.N, cond10_0 (grid10.coords t) ↔ t.val % K₁₀ = 0 :=
  (by decide +kernel : ∀ t : Fin grid10.N, cond10_0 (grid10.coords t) ↔ t.val % K₁₀ = 0)

/-- "This is the last accumulation step": the condition under which the body copies the accumulator out. -/
abbrev cond10_1 (i : grid10.Coords) : Prop := k10_cond2 i = 1#1
/-- It holds exactly at the points whose position is one short of a multiple of the number of steps. -/
theorem hcond10_1 : ∀ t : Fin cfg10.N, cond10_1 (grid10.coords t) ↔ t.val % K₁₀ = K₁₀last :=
  (by decide +kernel : ∀ t : Fin grid10.N, cond10_1 (grid10.coords t) ↔ t.val % K₁₀ = K₁₀last)

/-! ## Where the windows are idle -/

/-- The two operand windows are live at every point. -/
theorem liveAt10_0 : ∀ t : Fin cfg10.N, cfg10.idle 0 (grid10.coords t) = false := fun _ => rfl
theorem liveAt10_1 : ∀ t : Fin cfg10.N, cfg10.idle 1 (grid10.coords t) = false := fun _ => rfl
/-- The output window is idle, and not written back, wherever the step is not the last; -/
theorem idleAt10_2 : ∀ t : Fin cfg10.N, ¬cond10_1 (grid10.coords t) → cfg10.idle 2 (grid10.coords t) = true := by decide +kernel
theorem noFlush10_2 : ∀ t : Fin cfg10.N, ¬cond10_1 (grid10.coords t) → (cfg10.win 2).flush t = false := by decide +kernel
/-- and live at the last step. -/
theorem liveAt10_2 : ∀ t : Fin cfg10.N, cond10_1 (grid10.coords t) → cfg10.idle 2 (grid10.coords t) = false := by decide +kernel

/-! ## The memrefs the body is called with -/

/-- Each window's current staging memref at point `t`, and its wholeness. -/
abbrev ms10_0 (t : Fin cfg10.N) : Memref sig .tc .vmem S2000x1024 .bf16 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1024x60 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S2000x60 .f32 := win10_2.stage (cfg10.slots t 2)
abbrev hs10_2 (t : Fin cfg10.N) : (ms10_2 t).IsWhole := hstage10_2 ((cfg10.slots t 2).cast nbuf10_2)
/-- The accumulator: a whole scoped buffer of the call's own. -/
abbrev scM10 : Memref sig .tc .vmem S2000x60 .f32 := Memref.whole cc10_scratch0
/-- The views through which the accumulator's and the output block's contents are stated. -/
abbrev VS10 : View sig .tc .vmem S2000x60 .f32 := scM10.view
abbrev VO10_2 : View sig .tc .vmem S2000x60 .f32 := (Memref.whole cc10_stg2_0 : Memref sig .tc .vmem S2000x60 .f32).view

/-! ## The body on any whole memrefs, case by case

Three cases of the two conditions occur on the grid: the first step (clear, then accumulate), a middle step
(accumulate), the last step (accumulate, then copy out).  In each the body's stores leave lists of pieces in
the accumulator (and, at the last step, in the output block); the run finds them. -/

set_option maxHeartbeats 1000000 in
/-- FIRST STEP.  The operands' memrefs at their contents, the output's at contents handed back untouched, the
    accumulator at anything: the body runs to the continuation holding the accumulator with its pieces written. -/
noncomputable def run10_A (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : cond10_0 i) (hc1 : ¬cond10_1 i) (x0 : Vec F S2000x1024 .bf16) (x1 : Vec F S1024x60 .f32) :
    { LS : List (View.Piece (Elt F) S2000x60 .f32) //
      ∀ (xi2 : Vec F S2000x60 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc10__spmm_kernel i arg2 harg2 arg3 harg3 arg4 harg4 arg5 harg5) K } := by
  refine ⟨?_, fun xi2 E K => ?run⟩
  case run =>
    simp only [cc10__spmm_kernel_eq_skeleton]; unfold cc10__spmm_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A MIDDLE STEP.  As the first, but the accumulator at the contents `xs` the step before left. -/
noncomputable def run10_B (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : ¬cond10_0 i) (hc1 : ¬cond10_1 i) (x0 : Vec F S2000x1024 .bf16) (x1 : Vec F S1024x60 .f32) (xs : Vec F S2000x60 .f32) :
    { LS : List (View.Piece (Elt F) S2000x60 .f32) //
      ∀ (xi2 : Vec F S2000x60 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc10__spmm_kernel i arg2 harg2 arg3 harg3 arg4 harg4 arg5 harg5) K } := by
  refine ⟨?_, fun xi2 E K => ?run⟩
  case run =>
    simp only [cc10__spmm_kernel_eq_skeleton]; unfold cc10__spmm_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- THE LAST STEP.  The accumulator at the contents `xs` the step before left, the output's memref at anything:
    the body leaves pieces in both. -/
noncomputable def run10_C (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : ¬cond10_0 i) (hc1 : cond10_1 i) (x0 : Vec F S2000x1024 .bf16) (x1 : Vec F S1024x60 .f32) (xs : Vec F S2000x60 .f32) :
    Σ' (L2 : List (View.Piece (Elt F) S2000x60 .f32)), { LS : List (View.Piece (Elt F) S2000x60 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc10__spmm_kernel i arg2 harg2 arg3 harg3 arg4 harg4 arg5 harg5) K } := by
  refine ⟨?_, ?_, fun E K => ?run⟩
  case run =>
    simp only [cc10__spmm_kernel_eq_skeleton]; unfold cc10__spmm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What each case leaves, read back -/

/-- The first step's pieces cover the accumulator, -/
theorem scover10_A (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : cond10_0 i) (hc1 : ¬cond10_1 i) (x0 : Vec F S2000x1024 .bf16) (x1 : Vec F S1024x60 .f32) (y : S2000x60.Idx) :
    ∃ pc ∈ (run10_A c i arg2 harg2 arg3 harg3 arg4 harg4 arg5 harg5 hc0 hc1 x0 x1).1, y ∈ pc.1.set :=
  View.cover_of_tiledL (run10_A c i arg2 harg2 arg3 harg3 arg4 harg4 arg5 harg5 hc0 hc1 x0 x1).1 S2000x60.size (by sl_kernel_rfl) y

/-- and this is what they leave in it (read back over contents nothing consults). -/
def sout10_A (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : cond10_0 i) (hc1 : ¬cond10_1 i) (x0 : Vec F S2000x1024 .bf16) (x1 : Vec F S1024x60 .f32) : Vec F S2000x60 .f32 :=
  VS10.read (Elt F) (VS10.writes (Elt F) VS10.junk (run10_A c i arg2 harg2 arg3 harg3 arg4 harg4 arg5 harg5 hc0 hc1 x0 x1).1)

/-- A middle step's pieces cover the accumulator; what they leave. -/
theorem scover10_B (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : ¬cond10_0 i) (hc1 : ¬cond10_1 i) (x0 : Vec F S2000x1024 .bf16) (x1 : Vec F S1024x60 .f32) (xs : Vec F S2000x60 .f32) (y : S2000x60.Idx) :
    ∃ pc ∈ (run10_B c i arg2 harg2 arg3 harg3 arg4 harg4 arg5 harg5 hc0 hc1 x0 x1 xs).1, y ∈ pc.1.set :=
  View.cover_of_tiledL (run10_B c i arg2 harg2 arg3 harg3 arg4 harg4 arg5 harg5 hc0 hc1 x0 x1 xs).1 S2000x60.size (by sl_kernel_rfl) y

def sout10_B (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : ¬cond10_0 i) (hc1 : ¬cond10_1 i) (x0 : Vec F S2000x1024 .bf16) (x1 : Vec F S1024x60 .f32) (xs : Vec F S2000x60 .f32) : Vec F S2000x60 .f32 :=
  VS10.read (Elt F) (VS10.writes (Elt F) VS10.junk (run10_B c i arg2 harg2 arg3 harg3 arg4 harg4 arg5 harg5 hc0 hc1 x0 x1 xs).1)

/-- The last step's pieces cover the output block and the accumulator; what they leave in each. -/
theorem cover10_C (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : ¬cond10_0 i) (hc1 : cond10_1 i) (x0 : Vec F S2000x1024 .bf16) (x1 : Vec F S1024x60 .f32) (xs : Vec F S2000x60 .f32) (y : S2000x60.Idx) :
    ∃ pc ∈ (run10_C c i arg2 harg2 arg3 harg3 arg4 harg4 arg5 harg5 hc0 hc1 x0 x1 xs).1, y ∈ pc.1.set :=
  View.cover_of_tiledL (run10_C c i arg2 harg2 arg3 harg3 arg4 harg4 arg5 harg5 hc0 hc1 x0 x1 xs).1 S2000x60.size (by sl_kernel_rfl) y

def out10_C (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : ¬cond10_0 i) (hc1 : cond10_1 i) (x0 : Vec F S2000x1024 .bf16) (x1 : Vec F S1024x60 .f32) (xs : Vec F S2000x60 .f32) : Vec F S2000x60 .f32 :=
  VO10_2.read (Elt F) (VO10_2.writes (Elt F) VO10_2.junk (run10_C c i arg2 harg2 arg3 harg3 arg4 harg4 arg5 harg5 hc0 hc1 x0 x1 xs).1)

theorem scover10_C (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : ¬cond10_0 i) (hc1 : cond10_1 i) (x0 : Vec F S2000x1024 .bf16) (x1 : Vec F S1024x60 .f32) (xs : Vec F S2000x60 .f32) (y : S2000x60.Idx) :
    ∃ pc ∈ (run10_C c i arg2 harg2 arg3 harg3 arg4 harg4 arg5 harg5 hc0 hc1 x0 x1 xs).2.1, y ∈ pc.1.set :=
  View.cover_of_tiledL (run10_C c i arg2 harg2 arg3 harg3 arg4 harg4 arg5 harg5 hc0 hc1 x0 x1 xs).2.1 S2000x60.size (by sl_kernel_rfl) y

def sout10_C (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : ¬cond10_0 i) (hc1 : cond10_1 i) (x0 : Vec F S2000x1024 .bf16) (x1 : Vec F S1024x60 .f32) (xs : Vec F S2000x60 .f32) : Vec F S2000x60 .f32 :=
  VS10.read (Elt F) (VS10.writes (Elt F) VS10.junk (run10_C c i arg2 harg2 arg3 harg3 arg4 harg4 arg5 harg5 hc0 hc1 x0 x1 xs).2.1)

/-! ## The region at the entry contents `V` -/

-- the TensorCore's buffer contents when the region is entered
variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An operand window's current staging buffer holds its block at every point, for any proof data whose array is
    `V`'s and whose body leaves the block in place: the window is uncut and never idle, and where it is not fetched
    its block index has not moved. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The accumulator after each point -/

/-- THE ACCUMULATION.  What the accumulator holds after the body at position `n`: the case the closed forms select
    there, run at the point's memrefs and operand blocks — at a first step from anything, otherwise from what the
    point before left. -/
def scrAt10 (c : Dev nD) : (n : ℕ) → n < cfg10.N → Vec F S2000x60 .f32
  | 0, hn =>
    sout10_A c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10 (Memref.isWhole_whole _)
      ((hcond10_0 ⟨0, hn⟩).mpr (Nat.zero_mod _)) (fun h => (fun e => by (try dsimp only at e); omega) ((hcond10_1 ⟨0, hn⟩).mp h))
      (iblk10 V c 0 ⟨0, hn⟩) (iblk10 V c 1 ⟨0, hn⟩)
  | n + 1, hn =>
    if h0 : (n + 1) % K₁₀ = 0 then
      sout10_A c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10 (Memref.isWhole_whole _)
        ((hcond10_0 ⟨n + 1, hn⟩).mpr h0) (fun h => (fun e => by (try dsimp only at e h0); omega) ((hcond10_1 ⟨n + 1, hn⟩).mp h))
        (iblk10 V c 0 ⟨n + 1, hn⟩) (iblk10 V c 1 ⟨n + 1, hn⟩)
    else if h1 : (n + 1) % K₁₀ = K₁₀last then
      sout10_C c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10 (Memref.isWhole_whole _)
        (fun h => h0 ((hcond10_0 ⟨n + 1, hn⟩).mp h)) ((hcond10_1 ⟨n + 1, hn⟩).mpr h1)
        (iblk10 V c 0 ⟨n + 1, hn⟩) (iblk10 V c 1 ⟨n + 1, hn⟩) (scrAt10 c n (Nat.lt_of_succ_lt hn))
    else
      sout10_B c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10 (Memref.isWhole_whole _)
        (fun h => h0 ((hcond10_0 ⟨n + 1, hn⟩).mp h)) (fun h => h1 ((hcond10_1 ⟨n + 1, hn⟩).mp h))
        (iblk10 V c 0 ⟨n + 1, hn⟩) (iblk10 V c 1 ⟨n + 1, hn⟩) (scrAt10 c n (Nat.lt_of_succ_lt hn))

/-- The accumulator before a point that is not the first of the grid: what the point before left. -/
abbrev scrBefore10 (c : Dev nD) (t : Fin cfg10.N) : Vec F S2000x60 .f32 :=
  scrAt10 V c (t.val - 1) (Nat.lt_of_le_of_lt (Nat.sub_le _ _) t.isLt)

/-- `scrAt10` at a first step. -/
theorem scrAt10_A (c : Dev nD) (t : Fin cfg10.N) (h0 : t.val % K₁₀ = 0) (h1 : ¬t.val % K₁₀ = K₁₀last) :
    scrAt10 V c t.val t.isLt = sout10_A c (grid10.coords t) (ms10_0 t) (hs10_0 t) (ms10_1 t) (hs10_1 t) (ms10_2 t) (hs10_2 t) scM10 (Memref.isWhole_whole _)
      ((hcond10_0 t).mpr h0) (fun h => h1 ((hcond10_1 t).mp h)) (iblk10 V c 0 t) (iblk10 V c 1 t) := by
  obtain ⟨n, hn⟩ := t
  cases n with
  | zero => exact rfl
  | succ n => exact (dif_pos h0).trans rfl

/-- `scrAt10` at a middle step. -/
theorem scrAt10_B (c : Dev nD) (t : Fin cfg10.N) (h0 : ¬t.val % K₁₀ = 0) (h1 : ¬t.val % K₁₀ = K₁₀last) :
    scrAt10 V c t.val t.isLt = sout10_B c (grid10.coords t) (ms10_0 t) (hs10_0 t) (ms10_1 t) (hs10_1 t) (ms10_2 t) (hs10_2 t) scM10 (Memref.isWhole_whole _)
      (fun h => h0 ((hcond10_0 t).mp h)) (fun h => h1 ((hcond10_1 t).mp h)) (iblk10 V c 0 t) (iblk10 V c 1 t) (scrBefore10 V c t) := by
  obtain ⟨n, hn⟩ := t
  cases n with
  | zero => exact absurd (Nat.zero_mod _) h0
  | succ n => exact (dif_neg h0).trans ((dif_neg h1).trans rfl)

/-- `scrAt10` at a last step. -/
theorem scrAt10_C (c : Dev nD) (t : Fin cfg10.N) (h0 : ¬t.val % K₁₀ = 0) (h1 : t.val % K₁₀ = K₁₀last) :
    scrAt10 V c t.val t.isLt = sout10_C c (grid10.coords t) (ms10_0 t) (hs10_0 t) (ms10_1 t) (hs10_1 t) (ms10_2 t) (hs10_2 t) scM10 (Memref.isWhole_whole _)
      (fun h => h0 ((hcond10_0 t).mp h)) ((hcond10_1 t).mpr h1) (iblk10 V c 0 t) (iblk10 V c 1 t) (scrBefore10 V c t) := by
  obtain ⟨n, hn⟩ := t
  cases n with
  | zero => exact absurd (Nat.zero_mod _) h0
  | succ n => exact (dif_neg h0).trans ((dif_pos h1).trans rfl)

/-- What the output block's staging buffer holds after the body at point `t`: at a last step what that case leaves,
    from the accumulator as the point before left it; elsewhere the window is idle and this is a value nothing consults. -/
def outAt10 (c : Dev nD) (t : Fin cfg10.N) : Vec F S2000x60 .f32 :=
  if h1 : t.val % K₁₀ = K₁₀last then
    out10_C c (grid10.coords t) (ms10_0 t) (hs10_0 t) (ms10_1 t) (hs10_1 t) (ms10_2 t) (hs10_2 t) scM10 (Memref.isWhole_whole _)
      (fun h => absurd ((hcond10_0 t).mp h) (by omega)) ((hcond10_1 t).mpr h1) (iblk10 V c 0 t) (iblk10 V c 1 t) (scrBefore10 V c t)
  else VO10_2.read (Elt F) VO10_2.junk

theorem outAt10_C (c : Dev nD) (t : Fin cfg10.N) (h0 : ¬t.val % K₁₀ = 0) (h1 : t.val % K₁₀ = K₁₀last) :
    outAt10 V c t = out10_C c (grid10.coords t) (ms10_0 t) (hs10_0 t) (ms10_1 t) (hs10_1 t) (ms10_2 t) (hs10_2 t) scM10 (Memref.isWhole_whole _)
      (fun h => h0 ((hcond10_0 t).mp h)) ((hcond10_1 t).mpr h1) (iblk10 V c 0 t) (iblk10 V c 1 t) (scrBefore10 V c t) :=
  (dif_pos h1).trans rfl

/-! ## The region's invariant -/

/-- Every scoped buffer of the core that is neither a staging buffer of this call nor its accumulator, at some
    contents each: carried through the region unopened. -/
abbrev rest10 (c : Dev nD) : sProp 𝕄 :=
  Pipeline.scopedRestBut (Ix := Unit) (Name := ℕ) (U := UR sig nD τ) (Lvl := ℕ) (Val := Elt F) spec10 c [cc10_scratch0]

/-- The call's scoped rest, with the accumulator as a whole memref owned at some contents. -/
theorem scopedRest10_eq (c : Dev nD) :
    (Pipeline.scopedRest (Ix := Unit) (Name := ℕ) (U := UR sig nD τ) (Lvl := ℕ) (Val := Elt F) spec10 c : sProp 𝕄)
      = iprop((∃ d, owns (c : Thread nD τ) scM10 fullShare d) ∗ rest10 (F := F) c) := by
  rw [scopedRest10_split]; simp only [scM10, owns_whole]; try rfl

/-- The invariant before position `n`: before the first point the generator register at some state and the call's
    scoped rest (the accumulator at anything); afterwards the accumulator at what the point before left, the other
    scoped buffers at anything, the generator register at some state. -/
def PhiS10 (c : Dev nD) : (n : ℕ) → n ≤ cfg10.N → sProp 𝕄
  | 0, _ => iprop((∃ r, prngReg c r) ∗ Pipeline.scopedRest (Ix := Unit) (Name := ℕ) (U := UR sig nD τ) (Lvl := ℕ) (Val := Elt F) spec10 c)
  | n + 1, hn => iprop(owns (c : Thread nD τ) scM10 fullShare (scrAt10 V c n hn) ∗ rest10 (F := F) c ∗ (∃ r, prngReg c r))

theorem PhiS10_zero (c : Dev nD) (n : ℕ) (h : n ≤ cfg10.N) (hz : n = 0) :
    PhiS10 V c n h = iprop((∃ r, prngReg c r) ∗ Pipeline.scopedRest (Ix := Unit) (Name := ℕ) (U := UR sig nD τ) (Lvl := ℕ) (Val := Elt F) spec10 c) := by
  subst hz; rfl

theorem PhiS10_succ (c : Dev nD) (n : ℕ) (hn : n < cfg10.N) :
    PhiS10 V c (n + 1) hn = iprop(owns (c : Thread nD τ) scM10 fullShare (scrAt10 V c n hn) ∗ rest10 (F := F) c ∗ (∃ r, prngReg c r)) := rfl

theorem PhiS10_pos (c : Dev nD) (n : ℕ) (h : n ≤ cfg10.N) (hz : n ≠ 0) :
    PhiS10 V c n h = iprop(owns (c : Thread nD τ) scM10 fullShare (scrAt10 V c (n - 1) (by omega)) ∗ rest10 (F := F) c ∗ (∃ r, prngReg c r)) := by
  cases n with
  | zero => exact absurd rfl hz
  | succ n => rfl

/-- At any position the invariant yields the accumulator at SOME contents beside the rest: what a first step needs,
    and what the region gives back. -/
theorem PhiS10_any (c : Dev nD) (n : ℕ) (h : n ≤ cfg10.N) :
    PhiS10 V c n h ⊢ iprop((∃ d, owns (c : Thread nD τ) scM10 fullShare d) ∗ rest10 (F := F) c ∗ (∃ r, prngReg c r)) := by
  cases n with
  | zero =>
    rw [PhiS10_zero V c 0 h rfl, scopedRest10_eq]
    iintro ⟨Hg, HS, HR⟩
    isplitl [HS]; · iexact HS
    isplitl [HR]; · iexact HR
    iexact Hg
  | succ n =>
    rw [PhiS10_succ]
    iintro ⟨HS, HR, Hg⟩
    isplitl [HS]; · iexists _; iexact HS
    isplitl [HR]; · iexact HR
    iexact Hg

/-! ## The pipeline's proof data -/

/-- The proof data of pipeline 10 on core `c`: the arrays as the region finds them; after the body at point `t` each
    operand's buffer at its block and the output's at `outAt10`; the invariant `PhiS10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => outAt10 V c t
  Φ t := PhiS10 V c t.val (Nat.le_of_lt_succ t.isLt)
  q _ := fullShare
  owed _ := 0

/-- The proof data's arrays are the region-entry contents. -/
theorem A_eq10 (c : Dev nD) (w : Fin cfg10.W) : (dat10 V c).A w = V c (Pipeline.arrRef spec10 w) := by
  dsimp only [dat10]

/-- The invariant at a point's start, restated at the point's position. -/
theorem PhiS10_castSucc (c : Dev nD) (t : Fin cfg10.N) :
    (dat10 V c).Φ t.castSucc = PhiS10 V c t.val (Nat.le_of_lt t.isLt) := by
  dsimp only [dat10]; simp only [Fin.coe_castSucc]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = outAt10 V c t := by dsimp only [dat10]

/-- Each operand's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 4800000 in
/-- The body at any point.  The operands' memrefs hold their blocks; the closed forms say which step the point is;
    the invariant hands the body the accumulator — at anything at a first step, at what the point before left
    otherwise — and takes it back at this point's contents, since the step's pieces cover it; where the step is not
    the last the output's buffer goes through untouched, at the last its pieces cover it; the core owes nothing. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  rw [PhiS10_castSucc V c t]
  by_cases h0 : t.val % K₁₀ = 0
  · have h1 : ¬t.val % K₁₀ = K₁₀last := by omega
    rw [Dat.leavesExact_idle (dat10 V c) 2 t (idleAt10_2 t (fun h => h1 ((hcond10_1 t).mp h))) (noFlush10_2 t (fun h => h1 ((hcond10_1 t).mp h)))]
    rw [scrAt10_A V c t h0 h1]
    unfold sout10_A
    iintro ⟨HΦ, Ho, ⟨%d0, H0⟩, ⟨%d1, H1⟩, ⟨%d2, H2⟩⟩
    ihave HΦ' := (PhiS10_any V c t.val (Nat.le_of_lt t.isLt)) $$ HΦ
    icases HΦ' with ⟨HS, HR, Hg⟩
    iapply ((run10_A c (grid10.coords t) _ _ _ _ _ _ _ _ ((hcond10_0 t).mpr h0) (fun h => h1 ((hcond10_1 t).mp h)) (iblk10 V c 0 t) (iblk10 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS HR Hg]
    · isplitl [HS]
      · unfold owns; iexists _; isplitr
        swap; · iexact HS
        ipureintro; exact View.read_writes_of_cover _ _ _ _ _ (scover10_A c _ _ _ _ _ _ _ _ _ _ _ _ _)
      isplitl [HR]; · iexact HR
      iexact Hg
    isplitl [Ho]; · iexact Ho
    isplitl [H0]; · iexact H0
    isplitl [H1]; · iexact H1
    iexists _; iexact H2
  · have hz : t.val ≠ 0 := fun e => h0 (by rw [e])
    rw [PhiS10_pos V c _ _ hz]
    by_cases h1 : t.val % K₁₀ = K₁₀last
    · rw [show (dat10 V c).leavesExact 2 t = owns (c : Thread nD τ) (ms10_2 t) fullShare ((dat10 V c).after 2 t) from by
        unfold Dat.leavesExact; rw [liveAt10_2 t ((hcond10_1 t).mpr h1)], after10_2]
      rw [scrAt10_C V c t h0 h1, outAt10_C V c t h0 h1]
      unfold sout10_C out10_C
      iintro ⟨⟨HS, HR, Hg⟩, Ho, ⟨%d0, H0⟩, ⟨%d1, H1⟩, ⟨%d2, H2⟩⟩
      iapply ((run10_C c (grid10.coords t) _ _ _ _ _ _ _ _ (fun h => h0 ((hcond10_0 t).mp h)) ((hcond10_1 t).mpr h1) (iblk10 V c 0 t) (iblk10 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS]
        · unfold owns; iexists _; isplitr
          swap; · iexact HS
          ipureintro; exact View.read_writes_of_cover _ _ _ _ _ (scover10_C c _ _ _ _ _ _ _ _ _ _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover10_C c _ _ _ _ _ _ _ _ _ _ _ _ _ _)
    · rw [Dat.leavesExact_idle (dat10 V c) 2 t (idleAt10_2 t (fun h => h1 ((hcond10_1 t).mp h))) (noFlush10_2 t (fun h => h1 ((hcond10_1 t).mp h)))]
      rw [scrAt10_B V c t h0 h1]
      unfold sout10_B
      iintro ⟨⟨HS, HR, Hg⟩, Ho, ⟨%d0, H0⟩, ⟨%d1, H1⟩, ⟨%d2, H2⟩⟩
      iapply ((run10_B c (grid10.coords t) _ _ _ _ _ _ _ _ (fun h => h0 ((hcond10_0 t).mp h)) (fun h => h1 ((hcond10_1 t).mp h)) (iblk10 V c 0 t) (iblk10 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (scover10_B c _ _ _ _ _ _ _ _ _ _ _ _ _ _)
        isplitl [HR]; · iexact HR
        iexact Hg
      isplitl [Ho]; · iexact Ho
      isplitl [H0]; · iexact H0
      isplitl [H1]; · iexact H1
      iexists _; iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## Entering and leaving the region -/

/-- What the region is entered with — the generator register at some state and the call's scoped rest — is the
    invariant before the first point. -/
theorem hin10 (c : Dev nD) :
    iprop((∃ r, prngReg c r) ∗ Pipeline.scopedRest (Ix := Unit) (Name := ℕ) (U := UR sig nD τ) (Lvl := ℕ) (Val := Elt F) spec10 c)
      ⊢ (dat10 V c).Φ 0 := by
  rw [show (dat10 V c).Φ 0 = PhiS10 V c 0 (Nat.zero_le _) from rfl, PhiS10_zero V c 0 _ rfl]

/-- After the last point the invariant gives the same back: the accumulator's contents are forgotten. -/
theorem hout10 (c : Dev nD) :
    (dat10 V c).Φ (Fin.last cfg10.N)
      ⊢ iprop((∃ r, prngReg c r) ∗ Pipeline.scopedRest (Ix := Unit) (Name := ℕ) (U := UR sig nD τ) (Lvl := ℕ) (Val := Elt F) spec10 c) := by
  rw [show (dat10 V c).Φ (Fin.last cfg10.N) = PhiS10 V c (Fin.last cfg10.N).val (Nat.le_of_lt_succ (Fin.last cfg10.N).isLt) from rfl, scopedRest10_eq]
  iintro HΦ
  ihave HΦ' := (PhiS10_any V c _ _) $$ HΦ
  icases HΦ' with ⟨HS, HR, Hg⟩
  isplitl [Hg]; · iexact Hg
  isplitl [HS]; · iexact HS
  iexact HR

end Cert.Kernel.Hand

end
-- ==== Proof.BReg11.lean ====
import proofs.«408066_j62380105008311_2_alg».proof.Proof.Gen.Kernel.Launch
import proofs.«408066_j62380105008311_2_alg».proof.Proof.Gen.Kernel.Skeleton
import proofs.«408066_j62380105008311_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Pipeline 11: bias, relu, and the running column sums, at the entry contents `V`

The grid is one axis of row blocks. At each point the body adds the bias row to the block of rows, clamps at zero,
stores the result to the first output's block, and adds the block's column sums and column sums of squares into
two one-row outputs whose block never moves; at the first point it zeroes those two rows first. -/

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## The body's branch condition -/

/-- The condition of the body's one conditional, from the grid coordinates. -/
abbrev cond11 (i : grid11.Coords) : Prop := (Scalar.cmpi .ne (Scalar.extui (Scalar.cmpi .eq (BitVec.ofNat 32 (i 0).val) 0#32)) 0#32) = 1#1
/-- It holds at the first point only. -/
theorem hcond11 : ∀ t : Fin cfg11.N, cond11 (grid11.coords t) ↔ t.val = 0 :=
  (by decide +kernel : ∀ t : Fin grid11.N, cond11 (grid11.coords t) ↔ t.val = 0)

/-! ## The body's accesses: each is a whole buffer -/

abbrev rBlk11 : Rect S1000x60 := Rect.unit (s := S1000x60) ![0, 0] S1000x60.size inb_S1000x60_S1000x60_0_0
abbrev rRow11 : Rect S1x60 := Rect.unit (s := S1x60) ![0, 0] S1x60.size inb_S1x60_S1x60_0_0

/-- One whole-buffer store covers the block buffer, -/
theorem coverBlk11 (p : rBlk11.shape.Idx → Elt F .f32) (y : S1000x60.Idx) :
    ∃ pc ∈ ([⟨rBlk11, p⟩] : List (View.Piece (Elt F) S1000x60 .f32)), y ∈ pc.1.set :=
  View.cover_of_tiled [⟨rBlk11, p⟩] S1000x60.size (by rfl) y
/-- and the row buffer. -/
theorem coverRow11 (p : rRow11.shape.Idx → Elt F .f32) (y : S1x60.Idx) :
    ∃ pc ∈ ([⟨rRow11, p⟩] : List (View.Piece (Elt F) S1x60 .f32)), y ∈ pc.1.set :=
  View.cover_of_tiled [⟨rRow11, p⟩] S1x60.size (by rfl) y

/-- Every index of the row buffer lies in the whole-buffer rectangle (read off the cover by one piece). -/
theorem memRow11 (p : rRow11.shape.Idx → Elt F .f32) (y : S1x60.Idx) : y ∈ rRow11.set := by
  obtain ⟨pc, hm, hy⟩ := coverRow11 p y
  rw [List.mem_singleton] at hm; subst hm; exact hy

/-- A store over the whole row buffer hides every earlier store. -/
theorem canon_row11 (p : rRow11.shape.Idx → Elt F .f32) (L : List (View.Piece (Elt F) S1x60 .f32)) :
    View.canon (⟨rRow11, p⟩ :: L) = View.canon [⟨rRow11, p⟩] := by
  funext y
  obtain ⟨x, rfl⟩ : ∃ x, rRow11.emb x = y := rRow11.exists_idx_of_mem (memRow11 p y)
  rw [View.canon_cons_emb, View.canon_cons_emb]

/-! ## What the body leaves in each output window's buffer -/

/-- The first output's buffer after the body: the clamped sum of the row block and the bias row. -/
def out11_2 (x0 : Vec F S1000x60 .f32) (x1 : Vec F S1x60 .f32) : Vec F S1000x60 .f32 :=
  View.canon [⟨rBlk11, k11_pay3 (View.ld x0 rBlk11) (View.ld x1 rRow11)⟩]

/-- The column-sum row as the first point's reset leaves it, -/
def zero11_3 : Vec F S1x60 .f32 := View.canon [⟨rRow11, k11_pay1 (F := F)⟩]
/-- and the column-sum-of-squares row. -/
def zero11_4 : Vec F S1x60 .f32 := View.canon [⟨rRow11, k11_pay2 (F := F)⟩]

/-- The column-sum row after a point's update, from the row it held before (`a`), -/
def step11_3 (x0 : Vec F S1000x60 .f32) (x1 : Vec F S1x60 .f32) (a : Vec F S1x60 .f32) : Vec F S1x60 .f32 :=
  View.canon [⟨rRow11, k11_pay4 (View.ld x0 rBlk11) (View.ld x1 rRow11) (View.ld a rRow11)⟩]
/-- and the column-sum-of-squares row. -/
def step11_4 (x0 : Vec F S1000x60 .f32) (x1 : Vec F S1x60 .f32) (a : Vec F S1x60 .f32) : Vec F S1x60 .f32 :=
  View.canon [⟨rRow11, k11_pay5 (View.ld x0 rBlk11) (View.ld x1 rRow11) (View.ld a rRow11)⟩]

/-! ## The body's triple, at the first point and at a later one -/

set_option maxHeartbeats 1000000 in
/-- At the first point (the conditional taken): on whole staging memrefs, the inputs' at read contents and the
    outputs' at anything, the body runs to the continuation holding the inputs' as they were, the first output's at
    the clamped sum, and the two rows at one update of the reset rows. -/
theorem sound_kernel11_A (c : Dev nD) (E : Set ℕ) (i : grid11.Coords)
    (arg1 : Memref sig .tc .vmem S1000x60 .f32) (harg1 : arg1.IsWhole) (arg2 : Memref sig .tc .vmem S1x60 .f32) (harg2 : arg2.IsWhole)
    (arg3 : Memref sig .tc .vmem S1000x60 .f32) (harg3 : arg3.IsWhole) (arg4 : Memref sig .tc .vmem S1x60 .f32) (harg4 : arg4.IsWhole)
    (arg5 : Memref sig .tc .vmem S1x60 .f32) (harg5 : arg5.IsWhole) (hc : cond11 i)
    (x0 : Vec F S1000x60 .f32) (x1 : Vec F S1x60 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out11_2 x0 x1)
            ∗ owns (c : Thread nD τ) arg4 fullShare (step11_3 x0 x1 zero11_3)
            ∗ owns (c : Thread nD τ) arg5 fullShare (step11_4 x0 x1 zero11_4)) -∗ K ⟨⟩))
      ⊢ wp frame (wpE (defs₀ (F := F)) Variants.none c none) E (cc11__bias_relu_stats_kernel i arg1 harg1 arg2 harg2 arg3 harg3 arg4 harg4 arg5 harg5) K := by
  simp only [cc11__bias_relu_stats_kernel_eq_skeleton]; unfold cc11__bias_relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverBlk11 _)
  isplitl [H3]
  · iexists _; isplitr
    swap; · iexact H3
    ipureintro
    sl_unfold_run_names
    refine (View.read_writes_eq_canon _ _ _ (fun y => ⟨_, List.Mem.head _, memRow11 (k11_pay1 (F := F)) y⟩)).trans ?_
    rw [canon_row11, View.readCov_eq_canon_ld _ _ _ (coverRow11 _)]
    rfl
  iexists _; isplitr
  swap; · iexact H4
  ipureintro
  sl_unfold_run_names
  refine (View.read_writes_eq_canon _ _ _ (fun y => ⟨_, List.Mem.head _, memRow11 (k11_pay2 (F := F)) y⟩)).trans ?_
  rw [canon_row11, View.readCov_eq_canon_ld _ _ _ (coverRow11 _)]
  rfl

set_option maxHeartbeats 1000000 in
/-- At a later point (the conditional not taken): the same, the two rows held at `a3`, `a4` on entry and at one
    update of those on exit. -/
theorem sound_kernel11_B (c : Dev nD) (E : Set ℕ) (i : grid11.Coords)
    (arg1 : Memref sig .tc .vmem S1000x60 .f32) (harg1 : arg1.IsWhole) (arg2 : Memref sig .tc .vmem S1x60 .f32) (harg2 : arg2.IsWhole)
    (arg3 : Memref sig .tc .vmem S1000x60 .f32) (harg3 : arg3.IsWhole) (arg4 : Memref sig .tc .vmem S1x60 .f32) (harg4 : arg4.IsWhole)
    (arg5 : Memref sig .tc .vmem S1x60 .f32) (harg5 : arg5.IsWhole) (hc : ¬cond11 i)
    (x0 : Vec F S1000x60 .f32) (x1 : Vec F S1x60 .f32) (a3 a4 : Vec F S1x60 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare a3 ∗ owns (c : Thread nD τ) arg5 fullShare a4
        ∗ (iprop(owns (c : Thread nD τ) arg1 fullShare x0 ∗ owns (c : Thread nD τ) arg2 fullShare x1
            ∗ owns (c : Thread nD τ) arg3 fullShare (out11_2 x0 x1)
            ∗ owns (c : Thread nD τ) arg4 fullShare (step11_3 x0 x1 a3)
            ∗ owns (c : Thread nD τ) arg5 fullShare (step11_4 x0 x1 a4)) -∗ K ⟨⟩))
      ⊢ wp frame (wpE (defs₀ (F := F)) Variants.none c none) E (cc11__bias_relu_stats_kernel i arg1 harg1 arg2 harg2 arg3 harg3 arg4 harg4 arg5 harg5) K := by
  simp only [cc11__bias_relu_stats_kernel_eq_skeleton]; unfold cc11__bias_relu_stats_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  subst hf0; subst hf1; subst hf3; subst hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverBlk11 _)
  isplitl [H3]
  · iexists _; isplitr
    swap; · iexact H3
    ipureintro
    exact View.read_writes_eq_canon _ _ _ (coverRow11 _)
  iexists _; isplitr
  swap; · iexact H4
  ipureintro
  exact View.read_writes_eq_canon _ _ _ (coverRow11 _)

/-! ## What the two running rows hold after each point -/

/-- The column-sum row after the body at position `n`: one update per point, from the reset row. -/
def acc11_3 (c : Dev nD) : (n : ℕ) → n < cfg11.N → Vec F S1x60 .f32
  | 0, hn => step11_3 (iblk11 V c 0 ⟨0, hn⟩) (iblk11 V c 1 ⟨0, hn⟩) zero11_3
  | n + 1, hn => step11_3 (iblk11 V c 0 ⟨n + 1, hn⟩) (iblk11 V c 1 ⟨n + 1, hn⟩) (acc11_3 c n (Nat.lt_of_succ_lt hn))

/-- The column-sum-of-squares row after the body at position `n`. -/
def acc11_4 (c : Dev nD) : (n : ℕ) → n < cfg11.N → Vec F S1x60 .f32
  | 0, hn => step11_4 (iblk11 V c 0 ⟨0, hn⟩) (iblk11 V c 1 ⟨0, hn⟩) zero11_4
  | n + 1, hn => step11_4 (iblk11 V c 0 ⟨n + 1, hn⟩) (iblk11 V c 1 ⟨n + 1, hn⟩) (acc11_4 c n (Nat.lt_of_succ_lt hn))

/-- At the first point: one update of the reset row. -/
theorem acc11_3_first (c : Dev nD) (t : Fin cfg11.N) (h0 : t.val = 0) :
    acc11_3 V c t.val t.isLt = step11_3 (iblk11 V c 0 t) (iblk11 V c 1 t) zero11_3 := by
  obtain ⟨n, hn⟩ := t
  cases n with
  | zero => exact rfl
  | succ n => exact absurd h0 (Nat.succ_ne_zero n)
theorem acc11_4_first (c : Dev nD) (t : Fin cfg11.N) (h0 : t.val = 0) :
    acc11_4 V c t.val t.isLt = step11_4 (iblk11 V c 0 t) (iblk11 V c 1 t) zero11_4 := by
  obtain ⟨n, hn⟩ := t
  cases n with
  | zero => exact rfl
  | succ n => exact absurd h0 (Nat.succ_ne_zero n)

/-- At a later point: one update of what the point before left. -/
theorem acc11_3_later (c : Dev nD) (t : Fin cfg11.N) (h0 : ¬t.val = 0) :
    acc11_3 V c t.val t.isLt = step11_3 (iblk11 V c 0 t) (iblk11 V c 1 t) (acc11_3 V c (t.val - 1) (Nat.lt_of_le_of_lt (Nat.sub_le _ _) t.isLt)) := by
  obtain ⟨n, hn⟩ := t
  cases n with
  | zero => exact absurd rfl h0
  | succ n => exact rfl
theorem acc11_4_later (c : Dev nD) (t : Fin cfg11.N) (h0 : ¬t.val = 0) :
    acc11_4 V c t.val t.isLt = step11_4 (iblk11 V c 0 t) (iblk11 V c 1 t) (acc11_4 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of pipeline 11 on core `c`: the arrays as the region finds them; after the body at point `t` each
    input's buffer at its block, the first output's at the clamped sum of the input blocks, the two rows at their
    running contents; the invariant is the scoped rest and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
    | ⟨3, _⟩ => acc11_3 V c t.val t.isLt
    | ⟨4, _⟩ => acc11_4 V c t.val t.isLt
  Φ _ := Pipeline.ΦA spec11 c
  q _ := fullShare
  owed _ := 0

/-- The proof data's arrays are the region-entry contents (the definition projected). -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11_2 (iblk11 V c 0 t) (iblk11 V c 1 t) := by dsimp only [dat11]
theorem after11_3 (c : Dev nD) (t : Fin cfg11.N) : (dat11 V c).after 3 t = acc11_3 V c t.val t.isLt := by dsimp only [dat11]
theorem after11_4 (c : Dev nD) (t : Fin cfg11.N) : (dat11 V c).after 4 t = acc11_4 V c t.val t.isLt := by dsimp only [dat11]

/-- Each input's current staging buffer holds its block at every point, fetched there or not: unfetched, the block
    index has not moved and the body left the block in place. -/
theorem before11_0 (c : Dev nD) (t : Fin cfg11.N) (d) : (dat11 V c).before 0 t d = iblk11 V c 0 t :=
  ((dat11 V c).before_in_eq_fetched 0 rfl (fun _ => rfl) (fun _ _ _ => rfl)
      (fun t => by rw [after11_0]; unfold Dat.blockOf iblk11; rw [A_eq11]; try rfl) t d).trans
    (by unfold Dat.fetched Dat.blockOf iblk11; rw [A_eq11]; try rfl)
theorem before11_1 (c : Dev nD) (t : Fin cfg11.N) (d) : (dat11 V c).before 1 t d = iblk11 V c 1 t :=
  ((dat11 V c).before_in_eq_fetched 1 rfl (fun _ => rfl) (fun _ _ _ => rfl)
      (fun t => by rw [after11_1]; unfold Dat.blockOf iblk11; rw [A_eq11]; try rfl) t d).trans
    (by unfold Dat.fetched Dat.blockOf iblk11; rw [A_eq11]; try rfl)

/-- At a later point each running row's staging buffer holds what the body left at the point before: the buffer is
    written back after the last point only, the window is live and uncut. -/
theorem before11_3_later (c : Dev nD) (t : Fin cfg11.N) (h0 : ¬t.val = 0) (d) :
    (dat11 V c).before 3 t d = acc11_3 V c (t.val - 1) (Nat.lt_of_le_of_lt (Nat.sub_le _ _) t.isLt) := by
  have hN : t.val < _ := lt_of_lt_of_eq t.isLt (N_11 : cfg11.N = _)
  rw [Dat.before_out_kept _ 3 rfl t h0 (Bool.eq_false_iff.mpr fun h => by have := (flush11_3 _).mp h; dsimp only at this; omega)
    (fun _ => rfl) (fun _ _ => rfl)]
  dsimp only [dat11]
theorem before11_4_later (c : Dev nD) (t : Fin cfg11.N) (h0 : ¬t.val = 0) (d) :
    (dat11 V c).before 4 t d = acc11_4 V c (t.val - 1) (Nat.lt_of_le_of_lt (Nat.sub_le _ _) t.isLt) := by
  have hN : t.val < _ := lt_of_lt_of_eq t.isLt (N_11 : cfg11.N = _)
  rw [Dat.before_out_kept _ 4 rfl t h0 (Bool.eq_false_iff.mpr fun h => by have := (flush11_4 _).mp h; dsimp only at this; omega)
    (fun _ => rfl) (fun _ _ => rfl)]
  dsimp only [dat11]

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

set_option maxHeartbeats 800000 in
/-- The body at any point: the inputs' memrefs hold their blocks; the point is the first or a later one; at a later
    one each running row holds what the point before left; so the matching triple applies; the invariant and the
    core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2, after11_3, after11_4]
  by_cases h0 : t.val = 0
  · rw [acc11_3_first V c t h0, acc11_4_first V c t h0]
    iintro ⟨HΦ, Ho, ⟨%d0, H0⟩, ⟨%d1, H1⟩, ⟨%d2, H2⟩, ⟨%d3, H3⟩, ⟨%d4, H4⟩⟩
    iapply (sound_kernel11_A c Set.univ (grid11.coords t) _ _ _ _ _ _ _ _ _ _ ((hcond11 t).mpr h0) (iblk11 V c 0 t) (iblk11 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc11_3_later V c t h0, acc11_4_later V c t h0]
    simp only [before11_3_later V c t h0, before11_4_later V c t h0]
    iintro ⟨HΦ, Ho, ⟨%d0, H0⟩, ⟨%d1, H1⟩, ⟨%d2, H2⟩, ⟨%d3, H3⟩, ⟨%d4, H4⟩⟩
    iapply (sound_kernel11_B c Set.univ (grid11.coords t) _ _ _ _ _ _ _ _ _ _ (fun h => h0 ((hcond11 t).mp h)) (iblk11 V c 0 t) (iblk11 V c 1 t) _ _ _)
    isplitl [H0]; · iexact H0
    isplitl [H1]; · iexact H1
    isplitl [H2]; · iexists _; iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation11 (c : Dev nD) : BodyObligation (dat11 (F := F) V c) (defs₀ (F := F)) Variants.none () Set.univ := fun t => by
  rw [bigSep_W11, bigSep_W11]
  exact sound_body11 V c t

/-! ## The invariant at the region's ends -/

/-- Entering: the generator register and the scoped rest make the invariant at the first position. -/
theorem hin11 (c : Dev nD) :
    iprop((∃ r, prngReg c r) ∗ Pipeline.scopedRest (Ix := Unit) (Name := ℕ) (U := UR sig nD τ) (Lvl := ℕ) (Val := Elt F) spec11 c)
      ⊢ (dat11 V c).Φ 0 := by
  rw [show (dat11 V c).Φ 0 = Pipeline.ΦA spec11 c from rfl]; unfold Pipeline.ΦA
  iintro ⟨Hp, Hr⟩
  isplitl [Hr]; · iexact Hr
  iexact Hp

/-- Leaving: the invariant at the last position gives both back. -/
theorem hout11 (c : Dev nD) :
    (dat11 V c).Φ (Fin.last cfg11.N)
      ⊢ iprop((∃ r, prngReg c r) ∗ Pipeline.scopedRest (Ix := Unit) (Name := ℕ) (U := UR sig nD τ) (Lvl := ℕ) (Val := Elt F) spec11 c) := by
  rw [show (dat11 V c).Φ (Fin.last cfg11.N) = Pipeline.ΦA spec11 c from rfl]; unfold Pipeline.ΦA
  iintro ⟨Hr, Hp⟩
  isplitl [Hp]; · iexact Hp
  iexact Hr

end Cert.Kernel.Hand

end
-- ==== Proof.BReg12.lean ====
import proofs.«408066_j62380105008311_2_alg».proof.Proof.Gen.Kernel.Launch
import proofs.«408066_j62380105008311_2_alg».proof.Proof.Gen.Kernel.Skeleton
import proofs.«408066_j62380105008311_2_alg».proof.Proof.Gen.Kernel.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

/-! # Region 12: the normalise-then-multiply kernel, as a pipeline region entered at arbitrary contents

The kernel reads one row block of the activations, four feature rows (mean, variance, scale, shift) and the
weight matrix, and stores one row block of the product. Every access is a whole-buffer load or store, so the
region is of the simplest class: each input's staging buffer holds its block at every point, and the output's
buffer after the body is the single store's payload. Everything is stated at a parameter `V`, the TensorCore's
buffer contents when the region is entered, and at any float family. -/

-- membership in a rectangle of full extent recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not, for any proof
    data whose array is `V`'s and whose body leaves the block in place: where the window is not fetched its block
    index has not moved, so the block kept from the previous point is this point's. Window 0 (the activations). -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Window 1 (the mean row). -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Window 2 (the variance row). -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Window 3 (the scale row). -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Window 4 (the shift row). -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-- Window 5 (the weight matrix). -/
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each a whole buffer -/

abbrev r12_0 : Rect S1000x60 := Rect.unit (s := S1000x60) ![0, 0] S1000x60.size inb_S1000x60_S1000x60_0_0
abbrev r12_1 : Rect S1x60 := Rect.unit (s := S1x60) ![0, 0] S1x60.size inb_S1x60_S1x60_0_0
abbrev r12_5 : Rect S60x17 := Rect.unit (s := S60x17) ![0, 0] S60x17.size inb_S60x17_S60x17_0_0
abbrev r12_6 : Rect S1000x17 := Rect.unit (s := S1000x17) ![0, 0] S1000x17.size inb_S1000x17_S1000x17_0_0

/-! ## What the body leaves in the output window's buffer -/

/-- Window 6's staging buffer after the body, from the input windows' blocks (activations, mean, variance, scale,
    shift, weights, in window order): its one store as a piece. The payload takes the variance row before the
    mean row, as the kernel loads them. -/
def out12_6 (x0 : Vec F S1000x60 .f32) (x1 x2 x3 x4 : Vec F S1x60 .f32) (x5 : Vec F S60x17 .f32) : Vec F S1000x17 .f32 :=
  View.canon [⟨r12_6, k12_pay1 (View.ld x0 r12_0) (View.ld x2 r12_1) (View.ld x1 r12_1) (View.ld x3 r12_1) (View.ld x4 r12_1) (View.ld x5 r12_5)⟩]

/-- The store tiles the buffer (by evaluation), so it covers it. -/
theorem cover12_6 (p0 : Vec F S1000x17 .f32) (y : S1000x17.Idx) :
    ∃ pc ∈ ([⟨r12_6, p0⟩] : List (View.Piece (Elt F) S1000x17 .f32)), y ∈ pc.1.set :=
  View.cover_of_tiled [⟨r12_6, p0⟩] S1000x17.size (by rfl) y

/-! ## The body's triple -/

set_option maxHeartbeats 1000000 in
/-- The kernel body on whole staging memrefs, the inputs' at read contents `xW` and the output's at anything, runs
    to the continuation holding the inputs' as they were and the output's at `out12_6` of the inputs'. The grid
    coordinate is not read. -/
theorem sound_kernel12 (c : Dev nD) (E : Set ℕ) (i : grid12.Coords)
    (arg1 : Memref sig .tc .vmem S1000x60 .f32) (harg1 : arg1.IsWhole) (arg2 : Memref sig .tc .vmem S1x60 .f32) (harg2 : arg2.IsWhole)
    (arg3 : Memref sig .tc .vmem S1x60 .f32) (harg3 : arg3.IsWhole) (arg4 : Memref sig .tc .vmem S1x60 .f32) (harg4 : arg4.IsWhole)
    (arg5 : Memref sig .tc .vmem S1x60 .f32) (harg5 : arg5.IsWhole) (arg6 : Memref sig .tc .vmem S60x17 .f32) (harg6 : arg6.IsWhole)
    (arg7 : Memref sig .tc .vmem S1000x17 .f32) (harg7 : arg7.IsWhole)
    (x0 : Vec F S1000x60 .f32) (x1 x2 x3 x4 : Vec F S1x60 .f32) (x5 : Vec F S60x17 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out12_6 x0 x1 x2 x3 x4 x5)) -∗ K ⟨⟩))
      ⊢ wp frame (wpE (defs₀ (F := F)) Variants.none c none) E
          (cc12__normalize_linear_kernel i arg1 harg1 arg2 harg2 arg3 harg3 arg4 harg4 arg5 harg5 arg6 harg6 arg7 harg7) K := by
  simp only [cc12__normalize_linear_kernel_eq_skeleton]; unfold cc12__normalize_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover12_6 _)

/-! ## The pipeline's proof data -/

/-- The proof data of pipeline 12 on core `c`: the arrays as the region finds them; after the body at point `t` each
    input's buffer at its block and the output's at `out12_6` of the input blocks; as invariant the scoped buffers no
    window stages and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => out12_6 (iblk12 V c 0 t) (iblk12 V c 1 t) (iblk12 V c 2 t) (iblk12 V c 3 t) (iblk12 V c 4 t) (iblk12 V c 5 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t
    = out12_6 (iblk12 V c 0 t) (iblk12 V c 1 t) (iblk12 V c 2 t) (iblk12 V c 3 t) (iblk12 V c 4 t) (iblk12 V c 5 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t))

/-- The body at any point: the inputs' memrefs hold their blocks, so the body's triple applies; the invariant and
    the core's tallies pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel12 c Set.univ _ _ _ _ _ _ _ _ _ _ _ _ _ _ _
    (iblk12 V c 0 t) (iblk12 V c 1 t) (iblk12 V c 2 t) (iblk12 V c 3 t) (iblk12 V c 4 t) (iblk12 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation12 (c : Dev nD) : BodyObligation (dat12 (F := F) V c) (defs₀ (F := F)) Variants.none () Set.univ := fun t => by
  rw [bigSep_W12, bigSep_W12]
  exact sound_body12 V c t

/-! ## The invariant at the region's ends -/

/-- The invariant at the first point, from the generator register and the scoped buffers no window stages. -/
theorem hin12 (c : Dev nD) :
    iprop((∃ r, prngReg c r) ∗ Pipeline.scopedRest (Ix := Unit) (Name := ℕ) (U := UR sig nD τ) (Lvl := ℕ) (Val := Elt F) spec12 c)
      ⊢ (dat12 V c).Φ 0 := by
  rw [show (dat12 V c).Φ 0 = Pipeline.ΦA spec12 c from rfl]; unfold Pipeline.ΦA
  iintro ⟨Hp, Hr⟩
  isplitl [Hr]; · iexact Hr
  iexact Hp

/-- The invariant at the last point gives both back. -/
theorem hout12 (c : Dev nD) :
    (dat12 V c).Φ (Fin.last cfg12.N)
      ⊢ iprop((∃ r, prngReg c r) ∗ Pipeline.scopedRest (Ix := Unit) (Name := ℕ) (U := UR sig nD τ) (Lvl := ℕ) (Val := Elt F) spec12 c) := by
  rw [show (dat12 V c).Φ (Fin.last cfg12.N) = Pipeline.ΦA spec12 c from rfl]; unfold Pipeline.ΦA
  iintro ⟨Hr, Hp⟩
  isplitl [Hp]; · iexact Hp
  iexact Hr

end Cert.Kernel.Hand

end
-- ==== Proof.BReg13.lean ====
import proofs.«408066_j62380105008311_2_alg».proof.Proof.Gen.Kernel.Launch
import proofs.«408066_j62380105008311_2_alg».proof.Proof.Gen.Kernel.Skeleton
import proofs.«408066_j62380105008311_2_alg».proof.Proof.Gen.Kernel.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

/-! # Region 13: a blocked matrix product accumulated in a scratch buffer

The grid is two-dimensional; along its second axis the body adds one block product into a scratch
accumulator, which it clears at the first step and copies to the output block at the last one.  This
file states, at any float family and at any entry contents `V` of the TensorCore's buffers, what the
accumulator holds after each grid point and proves the body's triple at every point. -/

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of accumulation steps (the extent of the grid's second axis) and the index of the last one:
    the only numerals of this file. -/
local notation "K₁₃" => 10
local notation "K₁₃last" => 9

/-! ## The body's two conditions, in closed form over the grid -/

/-- "This is the first accumulation step": the condition under which the body clears the accumulator. -/
abbrev cond13_0 (i : grid13.Coords) : Prop :=
  (Scalar.cmpi .ne (Scalar.extui (Scalar.cmpi .eq (BitVec.ofNat 32 (i 1).val) 0#32)) 0#32) = 1#1
/-- It holds exactly at the points whose position is a multiple of the number of steps. -/
theorem hcond13_0 : ∀ t : Fin cfg13.N, cond13_0 (grid13.coords t) ↔ t.val % K₁₃ = 0 :=
  (by decide +kernel : ∀ t : Fin grid13.N, cond13_0 (grid13.coords t) ↔ t.val % K₁₃ = 0)

/-- "This is the last accumulation step": the condition under which the body copies the accumulator out. -/
abbrev cond13_1 (i : grid13.Coords) : Prop := k13_cond2 i = 1#1
/-- It holds exactly at the points whose position is one short of a multiple of the number of steps. -/
theorem hcond13_1 : ∀ t : Fin cfg13.N, cond13_1 (grid13.coords t) ↔ t.val % K₁₃ = K₁₃last :=
  (by decide +kernel : ∀ t : Fin grid13.N, cond13_1 (grid13.coords t) ↔ t.val % K₁₃ = K₁₃last)

/-! ## Where the windows are idle -/

/-- The two operand windows are live at every point. -/
theorem liveAt13_0 : ∀ t : Fin cfg13.N, cfg13.idle 0 (grid13.coords t) = false := fun _ => rfl
theorem liveAt13_1 : ∀ t : Fin cfg13.N, cfg13.idle 1 (grid13.coords t) = false := fun _ => rfl
/-- The output window is idle, and not written back, wherever the step is not the last; -/
theorem idleAt13_2 : ∀ t : Fin cfg13.N, ¬cond13_1 (grid13.coords t) → cfg13.idle 2 (grid13.coords t) = true := by decide +kernel
theorem noFlush13_2 : ∀ t : Fin cfg13.N, ¬cond13_1 (grid13.coords t) → (cfg13.win 2).flush t = false := by decide +kernel
/-- and live at the last step. -/
theorem liveAt13_2 : ∀ t : Fin cfg13.N, cond13_1 (grid13.coords t) → cfg13.idle 2 (grid13.coords t) = false := by decide +kernel

/-! ## The memrefs the body is called with -/

/-- Each window's current staging memref at point `t`, and its wholeness. -/
abbrev ms13_0 (t : Fin cfg13.N) : Memref sig .tc .vmem S2000x1024 .bf16 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S1024x17 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S2000x17 .f32 := win13_2.stage (cfg13.slots t 2)
abbrev hs13_2 (t : Fin cfg13.N) : (ms13_2 t).IsWhole := hstage13_2 ((cfg13.slots t 2).cast nbuf13_2)
/-- The accumulator: a whole scoped buffer of the call's own. -/
abbrev scM13 : Memref sig .tc .vmem S2000x17 .f32 := Memref.whole cc13_scratch0
/-- The views through which the accumulator's and the output block's contents are stated. -/
abbrev VS13 : View sig .tc .vmem S2000x17 .f32 := scM13.view
abbrev VO13_2 : View sig .tc .vmem S2000x17 .f32 := (Memref.whole cc13_stg2_0 : Memref sig .tc .vmem S2000x17 .f32).view

/-! ## The body on any whole memrefs, case by case

Three cases of the two conditions occur on the grid: the first step (clear, then accumulate), a middle step
(accumulate), the last step (accumulate, then copy out).  In each the body's stores leave lists of pieces in
the accumulator (and, at the last step, in the output block); the run finds them. -/

set_option maxHeartbeats 1000000 in
/-- FIRST STEP.  The operands' memrefs at their contents, the output's at contents handed back untouched, the
    accumulator at anything: the body runs to the continuation holding the accumulator with its pieces written. -/
noncomputable def run13_A (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : cond13_0 i) (hc1 : ¬cond13_1 i) (x0 : Vec F S2000x1024 .bf16) (x1 : Vec F S1024x17 .f32) :
    { LS : List (View.Piece (Elt F) S2000x17 .f32) //
      ∀ (xi2 : Vec F S2000x17 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc13__spmm_kernel i arg2 harg2 arg3 harg3 arg4 harg4 arg5 harg5) K } := by
  refine ⟨?_, fun xi2 E K => ?run⟩
  case run =>
    simp only [cc13__spmm_kernel_eq_skeleton]; unfold cc13__spmm_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A MIDDLE STEP.  As the first, but the accumulator at the contents `xs` the step before left. -/
noncomputable def run13_B (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : ¬cond13_0 i) (hc1 : ¬cond13_1 i) (x0 : Vec F S2000x1024 .bf16) (x1 : Vec F S1024x17 .f32) (xs : Vec F S2000x17 .f32) :
    { LS : List (View.Piece (Elt F) S2000x17 .f32) //
      ∀ (xi2 : Vec F S2000x17 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc13__spmm_kernel i arg2 harg2 arg3 harg3 arg4 harg4 arg5 harg5) K } := by
  refine ⟨?_, fun xi2 E K => ?run⟩
  case run =>
    simp only [cc13__spmm_kernel_eq_skeleton]; unfold cc13__spmm_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- THE LAST STEP.  The accumulator at the contents `xs` the step before left, the output's memref at anything:
    the body leaves pieces in both. -/
noncomputable def run13_C (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : ¬cond13_0 i) (hc1 : cond13_1 i) (x0 : Vec F S2000x1024 .bf16) (x1 : Vec F S1024x17 .f32) (xs : Vec F S2000x17 .f32) :
    Σ' (L2 : List (View.Piece (Elt F) S2000x17 .f32)), { LS : List (View.Piece (Elt F) S2000x17 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc13__spmm_kernel i arg2 harg2 arg3 harg3 arg4 harg4 arg5 harg5) K } := by
  refine ⟨?_, ?_, fun E K => ?run⟩
  case run =>
    simp only [cc13__spmm_kernel_eq_skeleton]; unfold cc13__spmm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What each case leaves, read back -/

/-- The first step's pieces cover the accumulator, -/
theorem scover13_A (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : cond13_0 i) (hc1 : ¬cond13_1 i) (x0 : Vec F S2000x1024 .bf16) (x1 : Vec F S1024x17 .f32) (y : S2000x17.Idx) :
    ∃ pc ∈ (run13_A c i arg2 harg2 arg3 harg3 arg4 harg4 arg5 harg5 hc0 hc1 x0 x1).1, y ∈ pc.1.set :=
  View.cover_of_tiledL (run13_A c i arg2 harg2 arg3 harg3 arg4 harg4 arg5 harg5 hc0 hc1 x0 x1).1 S2000x17.size (by sl_kernel_rfl) y

/-- and this is what they leave in it (read back over contents nothing consults). -/
def sout13_A (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : cond13_0 i) (hc1 : ¬cond13_1 i) (x0 : Vec F S2000x1024 .bf16) (x1 : Vec F S1024x17 .f32) : Vec F S2000x17 .f32 :=
  VS13.read (Elt F) (VS13.writes (Elt F) VS13.junk (run13_A c i arg2 harg2 arg3 harg3 arg4 harg4 arg5 harg5 hc0 hc1 x0 x1).1)

/-- A middle step's pieces cover the accumulator; what they leave. -/
theorem scover13_B (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : ¬cond13_0 i) (hc1 : ¬cond13_1 i) (x0 : Vec F S2000x1024 .bf16) (x1 : Vec F S1024x17 .f32) (xs : Vec F S2000x17 .f32) (y : S2000x17.Idx) :
    ∃ pc ∈ (run13_B c i arg2 harg2 arg3 harg3 arg4 harg4 arg5 harg5 hc0 hc1 x0 x1 xs).1, y ∈ pc.1.set :=
  View.cover_of_tiledL (run13_B c i arg2 harg2 arg3 harg3 arg4 harg4 arg5 harg5 hc0 hc1 x0 x1 xs).1 S2000x17.size (by sl_kernel_rfl) y

def sout13_B (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : ¬cond13_0 i) (hc1 : ¬cond13_1 i) (x0 : Vec F S2000x1024 .bf16) (x1 : Vec F S1024x17 .f32) (xs : Vec F S2000x17 .f32) : Vec F S2000x17 .f32 :=
  VS13.read (Elt F) (VS13.writes (Elt F) VS13.junk (run13_B c i arg2 harg2 arg3 harg3 arg4 harg4 arg5 harg5 hc0 hc1 x0 x1 xs).1)

/-- The last step's pieces cover the output block and the accumulator; what they leave in each. -/
theorem cover13_C (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : ¬cond13_0 i) (hc1 : cond13_1 i) (x0 : Vec F S2000x1024 .bf16) (x1 : Vec F S1024x17 .f32) (xs : Vec F S2000x17 .f32) (y : S2000x17.Idx) :
    ∃ pc ∈ (run13_C c i arg2 harg2 arg3 harg3 arg4 harg4 arg5 harg5 hc0 hc1 x0 x1 xs).1, y ∈ pc.1.set :=
  View.cover_of_tiledL (run13_C c i arg2 harg2 arg3 harg3 arg4 harg4 arg5 harg5 hc0 hc1 x0 x1 xs).1 S2000x17.size (by sl_kernel_rfl) y

def out13_C (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : ¬cond13_0 i) (hc1 : cond13_1 i) (x0 : Vec F S2000x1024 .bf16) (x1 : Vec F S1024x17 .f32) (xs : Vec F S2000x17 .f32) : Vec F S2000x17 .f32 :=
  VO13_2.read (Elt F) (VO13_2.writes (Elt F) VO13_2.junk (run13_C c i arg2 harg2 arg3 harg3 arg4 harg4 arg5 harg5 hc0 hc1 x0 x1 xs).1)

theorem scover13_C (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : ¬cond13_0 i) (hc1 : cond13_1 i) (x0 : Vec F S2000x1024 .bf16) (x1 : Vec F S1024x17 .f32) (xs : Vec F S2000x17 .f32) (y : S2000x17.Idx) :
    ∃ pc ∈ (run13_C c i arg2 harg2 arg3 harg3 arg4 harg4 arg5 harg5 hc0 hc1 x0 x1 xs).2.1, y ∈ pc.1.set :=
  View.cover_of_tiledL (run13_C c i arg2 harg2 arg3 harg3 arg4 harg4 arg5 harg5 hc0 hc1 x0 x1 xs).2.1 S2000x17.size (by sl_kernel_rfl) y

def sout13_C (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : ¬cond13_0 i) (hc1 : cond13_1 i) (x0 : Vec F S2000x1024 .bf16) (x1 : Vec F S1024x17 .f32) (xs : Vec F S2000x17 .f32) : Vec F S2000x17 .f32 :=
  VS13.read (Elt F) (VS13.writes (Elt F) VS13.junk (run13_C c i arg2 harg2 arg3 harg3 arg4 harg4 arg5 harg5 hc0 hc1 x0 x1 xs).2.1)

/-! ## The region at the entry contents `V` -/

-- the TensorCore's buffer contents when the region is entered
variable (V : (c : Dev nD) → (b : Ref sig .tc) → Buf (Elt F) ((c : Thread nD τ).loc b))

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An operand window's current staging buffer holds its block at every point, for any proof data whose array is
    `V`'s and whose body leaves the block in place: the window is uncut and never idle, and where it is not fetched
    its block index has not moved. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-! ## The accumulator after each point -/

/-- THE ACCUMULATION.  What the accumulator holds after the body at position `n`: the case the closed forms select
    there, run at the point's memrefs and operand blocks — at a first step from anything, otherwise from what the
    point before left. -/
def scrAt13 (c : Dev nD) : (n : ℕ) → n < cfg13.N → Vec F S2000x17 .f32
  | 0, hn =>
    sout13_A c (grid13.coords ⟨0, hn⟩) (ms13_0 ⟨0, hn⟩) (hs13_0 ⟨0, hn⟩) (ms13_1 ⟨0, hn⟩) (hs13_1 ⟨0, hn⟩) (ms13_2 ⟨0, hn⟩) (hs13_2 ⟨0, hn⟩) scM13 (Memref.isWhole_whole _)
      ((hcond13_0 ⟨0, hn⟩).mpr (Nat.zero_mod _)) (fun h => (fun e => by (try dsimp only at e); omega) ((hcond13_1 ⟨0, hn⟩).mp h))
      (iblk13 V c 0 ⟨0, hn⟩) (iblk13 V c 1 ⟨0, hn⟩)
  | n + 1, hn =>
    if h0 : (n + 1) % K₁₃ = 0 then
      sout13_A c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) scM13 (Memref.isWhole_whole _)
        ((hcond13_0 ⟨n + 1, hn⟩).mpr h0) (fun h => (fun e => by (try dsimp only at e h0); omega) ((hcond13_1 ⟨n + 1, hn⟩).mp h))
        (iblk13 V c 0 ⟨n + 1, hn⟩) (iblk13 V c 1 ⟨n + 1, hn⟩)
    else if h1 : (n + 1) % K₁₃ = K₁₃last then
      sout13_C c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) scM13 (Memref.isWhole_whole _)
        (fun h => h0 ((hcond13_0 ⟨n + 1, hn⟩).mp h)) ((hcond13_1 ⟨n + 1, hn⟩).mpr h1)
        (iblk13 V c 0 ⟨n + 1, hn⟩) (iblk13 V c 1 ⟨n + 1, hn⟩) (scrAt13 c n (Nat.lt_of_succ_lt hn))
    else
      sout13_B c (grid13.coords ⟨n + 1, hn⟩) (ms13_0 ⟨n + 1, hn⟩) (hs13_0 ⟨n + 1, hn⟩) (ms13_1 ⟨n + 1, hn⟩) (hs13_1 ⟨n + 1, hn⟩) (ms13_2 ⟨n + 1, hn⟩) (hs13_2 ⟨n + 1, hn⟩) scM13 (Memref.isWhole_whole _)
        (fun h => h0 ((hcond13_0 ⟨n + 1, hn⟩).mp h)) (fun h => h1 ((hcond13_1 ⟨n + 1, hn⟩).mp h))
        (iblk13 V c 0 ⟨n + 1, hn⟩) (iblk13 V c 1 ⟨n + 1, hn⟩) (scrAt13 c n (Nat.lt_of_succ_lt hn))

/-- The accumulator before a point that is not the first of the grid: what the point before left. -/
abbrev scrBefore13 (c : Dev nD) (t : Fin cfg13.N) : Vec F S2000x17 .f32 :=
  scrAt13 V c (t.val - 1) (Nat.lt_of_le_of_lt (Nat.sub_le _ _) t.isLt)

/-- `scrAt13` at a first step. -/
theorem scrAt13_A (c : Dev nD) (t : Fin cfg13.N) (h0 : t.val % K₁₃ = 0) (h1 : ¬t.val % K₁₃ = K₁₃last) :
    scrAt13 V c t.val t.isLt = sout13_A c (grid13.coords t) (ms13_0 t) (hs13_0 t) (ms13_1 t) (hs13_1 t) (ms13_2 t) (hs13_2 t) scM13 (Memref.isWhole_whole _)
      ((hcond13_0 t).mpr h0) (fun h => h1 ((hcond13_1 t).mp h)) (iblk13 V c 0 t) (iblk13 V c 1 t) := by
  obtain ⟨n, hn⟩ := t
  cases n with
  | zero => exact rfl
  | succ n => exact (dif_pos h0).trans rfl

/-- `scrAt13` at a middle step. -/
theorem scrAt13_B (c : Dev nD) (t : Fin cfg13.N) (h0 : ¬t.val % K₁₃ = 0) (h1 : ¬t.val % K₁₃ = K₁₃last) :
    scrAt13 V c t.val t.isLt = sout13_B c (grid13.coords t) (ms13_0 t) (hs13_0 t) (ms13_1 t) (hs13_1 t) (ms13_2 t) (hs13_2 t) scM13 (Memref.isWhole_whole _)
      (fun h => h0 ((hcond13_0 t).mp h)) (fun h => h1 ((hcond13_1 t).mp h)) (iblk13 V c 0 t) (iblk13 V c 1 t) (scrBefore13 V c t) := by
  obtain ⟨n, hn⟩ := t
  cases n with
  | zero => exact absurd (Nat.zero_mod _) h0
  | succ n => exact (dif_neg h0).trans ((dif_neg h1).trans rfl)

/-- `scrAt13` at a last step. -/
theorem scrAt13_C (c : Dev nD) (t : Fin cfg13.N) (h0 : ¬t.val % K₁₃ = 0) (h1 : t.val % K₁₃ = K₁₃last) :
    scrAt13 V c t.val t.isLt = sout13_C c (grid13.coords t) (ms13_0 t) (hs13_0 t) (ms13_1 t) (hs13_1 t) (ms13_2 t) (hs13_2 t) scM13 (Memref.isWhole_whole _)
      (fun h => h0 ((hcond13_0 t).mp h)) ((hcond13_1 t).mpr h1) (iblk13 V c 0 t) (iblk13 V c 1 t) (scrBefore13 V c t) := by
  obtain ⟨n, hn⟩ := t
  cases n with
  | zero => exact absurd (Nat.zero_mod _) h0
  | succ n => exact (dif_neg h0).trans ((dif_pos h1).trans rfl)

/-- What the output block's staging buffer holds after the body at point `t`: at a last step what that case leaves,
    from the accumulator as the point before left it; elsewhere the window is idle and this is a value nothing consults. -/
def outAt13 (c : Dev nD) (t : Fin cfg13.N) : Vec F S2000x17 .f32 :=
  if h1 : t.val % K₁₃ = K₁₃last then
    out13_C c (grid13.coords t) (ms13_0 t) (hs13_0 t) (ms13_1 t) (hs13_1 t) (ms13_2 t) (hs13_2 t) scM13 (Memref.isWhole_whole _)
      (fun h => absurd ((hcond13_0 t).mp h) (by omega)) ((hcond13_1 t).mpr h1) (iblk13 V c 0 t) (iblk13 V c 1 t) (scrBefore13 V c t)
  else VO13_2.read (Elt F) VO13_2.junk

theorem outAt13_C (c : Dev nD) (t : Fin cfg13.N) (h0 : ¬t.val % K₁₃ = 0) (h1 : t.val % K₁₃ = K₁₃last) :
    outAt13 V c t = out13_C c (grid13.coords t) (ms13_0 t) (hs13_0 t) (ms13_1 t) (hs13_1 t) (ms13_2 t) (hs13_2 t) scM13 (Memref.isWhole_whole _)
      (fun h => h0 ((hcond13_0 t).mp h)) ((hcond13_1 t).mpr h1) (iblk13 V c 0 t) (iblk13 V c 1 t) (scrBefore13 V c t) :=
  (dif_pos h1).trans rfl

/-! ## The region's invariant -/

/-- Every scoped buffer of the core that is neither a staging buffer of this call nor its accumulator, at some
    contents each: carried through the region unopened. -/
abbrev rest13 (c : Dev nD) : sProp 𝕄 :=
  Pipeline.scopedRestBut (Ix := Unit) (Name := ℕ) (U := UR sig nD τ) (Lvl := ℕ) (Val := Elt F) spec13 c [cc13_scratch0]

/-- The call's scoped rest, with the accumulator as a whole memref owned at some contents. -/
theorem scopedRest13_eq (c : Dev nD) :
    (Pipeline.scopedRest (Ix := Unit) (Name := ℕ) (U := UR sig nD τ) (Lvl := ℕ) (Val := Elt F) spec13 c : sProp 𝕄)
      = iprop((∃ d, owns (c : Thread nD τ) scM13 fullShare d) ∗ rest13 (F := F) c) := by
  rw [scopedRest13_split]; simp only [scM13, owns_whole]; try rfl

/-- The invariant before position `n`: before the first point the generator register at some state and the call's
    scoped rest (the accumulator at anything); afterwards the accumulator at what the point before left, the other
    scoped buffers at anything, the generator register at some state. -/
def PhiS13 (c : Dev nD) : (n : ℕ) → n ≤ cfg13.N → sProp 𝕄
  | 0, _ => iprop((∃ r, prngReg c r) ∗ Pipeline.scopedRest (Ix := Unit) (Name := ℕ) (U := UR sig nD τ) (Lvl := ℕ) (Val := Elt F) spec13 c)
  | n + 1, hn => iprop(owns (c : Thread nD τ) scM13 fullShare (scrAt13 V c n hn) ∗ rest13 (F := F) c ∗ (∃ r, prngReg c r))

theorem PhiS13_zero (c : Dev nD) (n : ℕ) (h : n ≤ cfg13.N) (hz : n = 0) :
    PhiS13 V c n h = iprop((∃ r, prngReg c r) ∗ Pipeline.scopedRest (Ix := Unit) (Name := ℕ) (U := UR sig nD τ) (Lvl := ℕ) (Val := Elt F) spec13 c) := by
  subst hz; rfl

theorem PhiS13_succ (c : Dev nD) (n : ℕ) (hn : n < cfg13.N) :
    PhiS13 V c (n + 1) hn = iprop(owns (c : Thread nD τ) scM13 fullShare (scrAt13 V c n hn) ∗ rest13 (F := F) c ∗ (∃ r, prngReg c r)) := rfl

theorem PhiS13_pos (c : Dev nD) (n : ℕ) (h : n ≤ cfg13.N) (hz : n ≠ 0) :
    PhiS13 V c n h = iprop(owns (c : Thread nD τ) scM13 fullShare (scrAt13 V c (n - 1) (by omega)) ∗ rest13 (F := F) c ∗ (∃ r, prngReg c r)) := by
  cases n with
  | zero => exact absurd rfl hz
  | succ n => rfl

/-- At any position the invariant yields the accumulator at SOME contents beside the rest: what a first step needs,
    and what the region gives back. -/
theorem PhiS13_any (c : Dev nD) (n : ℕ) (h : n ≤ cfg13.N) :
    PhiS13 V c n h ⊢ iprop((∃ d, owns (c : Thread nD τ) scM13 fullShare d) ∗ rest13 (F := F) c ∗ (∃ r, prngReg c r)) := by
  cases n with
  | zero =>
    rw [PhiS13_zero V c 0 h rfl, scopedRest13_eq]
    iintro ⟨Hg, HS, HR⟩
    isplitl [HS]; · iexact HS
    isplitl [HR]; · iexact HR
    iexact Hg
  | succ n =>
    rw [PhiS13_succ]
    iintro ⟨HS, HR, Hg⟩
    isplitl [HS]; · iexists _; iexact HS
    isplitl [HR]; · iexact HR
    iexact Hg

/-! ## The pipeline's proof data -/

/-- The proof data of pipeline 13 on core `c`: the arrays as the region finds them; after the body at point `t` each
    operand's buffer at its block and the output's at `outAt13`; the invariant `PhiS13`; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => outAt13 V c t
  Φ t := PhiS13 V c t.val (Nat.le_of_lt_succ t.isLt)
  q _ := fullShare
  owed _ := 0

/-- The proof data's arrays are the region-entry contents. -/
theorem A_eq13 (c : Dev nD) (w : Fin cfg13.W) : (dat13 V c).A w = V c (Pipeline.arrRef spec13 w) := by
  dsimp only [dat13]

/-- The invariant at a point's start, restated at the point's position. -/
theorem PhiS13_castSucc (c : Dev nD) (t : Fin cfg13.N) :
    (dat13 V c).Φ t.castSucc = PhiS13 V c t.val (Nat.le_of_lt t.isLt) := by
  dsimp only [dat13]; simp only [Fin.coe_castSucc]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = outAt13 V c t := by dsimp only [dat13]

/-- Each operand's current staging buffer holds its block at every point. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t)

set_option maxHeartbeats 4800000 in
/-- The body at any point.  The operands' memrefs hold their blocks; the closed forms say which step the point is;
    the invariant hands the body the accumulator — at anything at a first step, at what the point before left
    otherwise — and takes it back at this point's contents, since the step's pieces cover it; where the step is not
    the last the output's buffer goes through untouched, at the last its pieces cover it; the core owes nothing. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).owesAt () t.succ = (dat13 V c).owesAt () t.castSucc from rfl]
  rw [show (dat13 V c).Φ t.succ = PhiS13 V c (t.val + 1) t.isLt from rfl, PhiS13_succ]
  rw [show (dat13 V c).leavesExact 0 t = owns (c : Thread nD τ) (ms13_0 t) fullShare ((dat13 V c).after 0 t) from by
    unfold Dat.leavesExact; rw [liveAt13_0 t], after13_0]
  rw [show (dat13 V c).leavesExact 1 t = owns (c : Thread nD τ) (ms13_1 t) fullShare ((dat13 V c).after 1 t) from by
    unfold Dat.leavesExact; rw [liveAt13_1 t], after13_1]
  rw [PhiS13_castSucc V c t]
  by_cases h0 : t.val % K₁₃ = 0
  · have h1 : ¬t.val % K₁₃ = K₁₃last := by omega
    rw [Dat.leavesExact_idle (dat13 V c) 2 t (idleAt13_2 t (fun h => h1 ((hcond13_1 t).mp h))) (noFlush13_2 t (fun h => h1 ((hcond13_1 t).mp h)))]
    rw [scrAt13_A V c t h0 h1]
    unfold sout13_A
    iintro ⟨HΦ, Ho, ⟨%d0, H0⟩, ⟨%d1, H1⟩, ⟨%d2, H2⟩⟩
    ihave HΦ' := (PhiS13_any V c t.val (Nat.le_of_lt t.isLt)) $$ HΦ
    icases HΦ' with ⟨HS, HR, Hg⟩
    iapply ((run13_A c (grid13.coords t) _ _ _ _ _ _ _ _ ((hcond13_0 t).mpr h0) (fun h => h1 ((hcond13_1 t).mp h)) (iblk13 V c 0 t) (iblk13 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS HR Hg]
    · isplitl [HS]
      · unfold owns; iexists _; isplitr
        swap; · iexact HS
        ipureintro; exact View.read_writes_of_cover _ _ _ _ _ (scover13_A c _ _ _ _ _ _ _ _ _ _ _ _ _)
      isplitl [HR]; · iexact HR
      iexact Hg
    isplitl [Ho]; · iexact Ho
    isplitl [H0]; · iexact H0
    isplitl [H1]; · iexact H1
    iexists _; iexact H2
  · have hz : t.val ≠ 0 := fun e => h0 (by rw [e])
    rw [PhiS13_pos V c _ _ hz]
    by_cases h1 : t.val % K₁₃ = K₁₃last
    · rw [show (dat13 V c).leavesExact 2 t = owns (c : Thread nD τ) (ms13_2 t) fullShare ((dat13 V c).after 2 t) from by
        unfold Dat.leavesExact; rw [liveAt13_2 t ((hcond13_1 t).mpr h1)], after13_2]
      rw [scrAt13_C V c t h0 h1, outAt13_C V c t h0 h1]
      unfold sout13_C out13_C
      iintro ⟨⟨HS, HR, Hg⟩, Ho, ⟨%d0, H0⟩, ⟨%d1, H1⟩, ⟨%d2, H2⟩⟩
      iapply ((run13_C c (grid13.coords t) _ _ _ _ _ _ _ _ (fun h => h0 ((hcond13_0 t).mp h)) ((hcond13_1 t).mpr h1) (iblk13 V c 0 t) (iblk13 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS]
        · unfold owns; iexists _; isplitr
          swap; · iexact HS
          ipureintro; exact View.read_writes_of_cover _ _ _ _ _ (scover13_C c _ _ _ _ _ _ _ _ _ _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover13_C c _ _ _ _ _ _ _ _ _ _ _ _ _ _)
    · rw [Dat.leavesExact_idle (dat13 V c) 2 t (idleAt13_2 t (fun h => h1 ((hcond13_1 t).mp h))) (noFlush13_2 t (fun h => h1 ((hcond13_1 t).mp h)))]
      rw [scrAt13_B V c t h0 h1]
      unfold sout13_B
      iintro ⟨⟨HS, HR, Hg⟩, Ho, ⟨%d0, H0⟩, ⟨%d1, H1⟩, ⟨%d2, H2⟩⟩
      iapply ((run13_B c (grid13.coords t) _ _ _ _ _ _ _ _ (fun h => h0 ((hcond13_0 t).mp h)) (fun h => h1 ((hcond13_1 t).mp h)) (iblk13 V c 0 t) (iblk13 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (scover13_B c _ _ _ _ _ _ _ _ _ _ _ _ _ _)
        isplitl [HR]; · iexact HR
        iexact Hg
      isplitl [Ho]; · iexact Ho
      isplitl [H0]; · iexact H0
      isplitl [H1]; · iexact H1
      iexists _; iexact H2

/-- The library's body obligation, at every point. -/
theorem body_obligation13 (c : Dev nD) : BodyObligation (dat13 (F := F) V c) (defs₀ (F := F)) Variants.none () Set.univ := fun t => by
  rw [bigSep_W13, bigSep_W13]
  exact sound_body13 V c t

/-! ## Entering and leaving the region -/

/-- What the region is entered with — the generator register at some state and the call's scoped rest — is the
    invariant before the first point. -/
theorem hin13 (c : Dev nD) :
    iprop((∃ r, prngReg c r) ∗ Pipeline.scopedRest (Ix := Unit) (Name := ℕ) (U := UR sig nD τ) (Lvl := ℕ) (Val := Elt F) spec13 c)
      ⊢ (dat13 V c).Φ 0 := by
  rw [show (dat13 V c).Φ 0 = PhiS13 V c 0 (Nat.zero_le _) from rfl, PhiS13_zero V c 0 _ rfl]

/-- After the last point the invariant gives the same back: the accumulator's contents are forgotten. -/
theorem hout13 (c : Dev nD) :
    (dat13 V c).Φ (Fin.last cfg13.N)
      ⊢ iprop((∃ r, prngReg c r) ∗ Pipeline.scopedRest (Ix := Unit) (Name := ℕ) (U := UR sig nD τ) (Lvl := ℕ) (Val := Elt F) spec13 c) := by
  rw [show (dat13 V c).Φ (Fin.last cfg13.N) = PhiS13 V c (Fin.last cfg13.N).val (Nat.le_of_lt_succ (Fin.last cfg13.N).isLt) from rfl, scopedRest13_eq]
  iintro HΦ
  ihave HΦ' := (PhiS13_any V c _ _) $$ HΦ
  icases HΦ' with ⟨HS, HR, Hg⟩
  isplitl [Hg]; · iexact Hg
  isplitl [HS]; · iexact HS
  iexact HR

end Cert.Kernel.Hand

end
-- ==== Proof.BReg14.lean ====
import proofs.«408066_j62380105008311_2_alg».proof.Proof.Gen.Kernel.Launch
import proofs.«408066_j62380105008311_2_alg».proof.Proof.Gen.Kernel.Skeleton
import proofs.«408066_j62380105008311_2_alg».proof.Proof.Gen.Kernel.Points
import Idealize.ShloMosaic.Lib.Pipeline.FrameBody
import Idealize.ShloMosaic.Lib.Pipeline.Frame
import Idealize.ShloMosaic.Lib.Pipeline.FrameSuffix
import Idealize.ShloMosaic.Lib.Ring
import Idealize.ShloMosaic.Lib.Tactic

/-! # Region 14: the bias and log-softmax call

One control case. At every grid point the body loads a whole block of rows and the whole bias row, and stores a
whole block of rows: the bias is added to every row, the row's maximum is taken off, and the logarithm of the
row's sum of exponentials is taken off what is left. Everything is stated at a parameter `V`, the TensorCore's
buffer contents when the region is entered, and at any float family `F`. -/

-- membership in a rectangle of the block's extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The rows' window: its staging buffer holds its block at every point, for any proof data whose array is the
    entry contents and whose body leaves the block in place. The window is fetched at every point, uncut, never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- The bias row's window: fetched once, its block index never moves, so at a point where it is not fetched the
    buffer still holds the same block; the body leaves it in place. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses -/

/-- The whole block of rows, as a rectangle of itself, -/
abbrev r14_0 : Rect S1000x17 := Rect.unit (s := S1000x17) ![0, 0] S1000x17.size inb_S1000x17_S1000x17_0_0
/-- and the whole bias row. -/
abbrev r14_1 : Rect S1x17 := Rect.unit (s := S1x17) ![0, 0] S1x17.size inb_S1x17_S1x17_0_0

/-! ## What the body leaves in the output window's buffer -/

/-- The output's staging buffer after the body, from the two input blocks: its one store, of the payload
    "rows plus bias, less the row maximum, less the logarithm of the row's sum of exponentials". -/
def out14_2 (x0 : Vec F S1000x17 .f32) (x1 : Vec F S1x17 .f32) : Vec F S1000x17 .f32 :=
  View.canon [⟨r14_0, k14_pay1 (View.ld x0 r14_0) (View.ld x1 r14_1)⟩]

/-- The store is of the whole buffer, so it covers it. -/
theorem cover14_2 (p0 : Vec F S1000x17 .f32) (y : S1000x17.Idx) :
    ∃ pc ∈ ([⟨r14_0, p0⟩] : List (View.Piece (Elt F) S1000x17 .f32)), y ∈ pc.1.set :=
  View.cover_of_tiled [⟨r14_0, p0⟩] S1000x17.size (by rfl) y

/-! ## The body's triple -/

set_option maxHeartbeats 1000000 in
/-- The body on whole staging memrefs, the inputs' at read contents `x0`, `x1` and the output's at anything, runs to
    the continuation holding the inputs' as they were and the output's at `out14_2 x0 x1`. -/
theorem sound_kernel14 (c : Dev nD) (E : Set ℕ) (i : grid14.Coords)
    (arg1 : Memref sig .tc .vmem S1000x17 .f32) (harg1 : arg1.IsWhole)
    (arg2 : Memref sig .tc .vmem S1x17 .f32) (harg2 : arg2.IsWhole)
    (arg3 : Memref sig .tc .vmem S1000x17 .f32) (harg3 : arg3.IsWhole)
    (x0 : Vec F S1000x17 .f32) (x1 : Vec F S1x17 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out14_2 x0 x1)) -∗ K ⟨⟩))
      ⊢ wp frame (wpE (defs₀ (F := F)) Variants.none c none) E (cc14__bias_logsoftmax_kernel i arg1 harg1 arg2 harg2 arg3 harg3) K := by
  simp only [cc14__bias_logsoftmax_kernel_eq_skeleton]; unfold cc14__bias_logsoftmax_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover14_2 _)

/-! ## The pipeline's proof data -/

/-- The proof data of the region on core `c`: the arrays as the region finds them; after the body at point `t` each
    input's buffer at its block and the output's at `out14_2` of the two input blocks; the invariant the scoped
    buffers no window stages and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14_2 (iblk14 V c 0 t) (iblk14 V c 1 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) :
    (dat14 V c).after 2 t = out14_2 (iblk14 V c 0 t) (iblk14 V c 1 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t))

/-- The body at any point: the inputs' memrefs hold their blocks, so the body's triple applies; the invariant and the
    core's debts pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).Φ t.succ = (dat14 V c).Φ t.castSucc from rfl,
    show (dat14 V c).owesAt () t.succ = (dat14 V c).owesAt () t.castSucc from rfl,
    after14_0, after14_1, after14_2]
  iintro ⟨HΦ, Ho, ⟨%d0, H0⟩, ⟨%d1, H1⟩, ⟨%d2, H2⟩⟩
  iapply (sound_kernel14 c Set.univ _ _ _ _ _ _ _ (iblk14 V c 0 t) (iblk14 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation14 (c : Dev nD) : BodyObligation (dat14 (F := F) V c) (defs₀ (F := F)) Variants.none () Set.univ := fun t => by
  rw [bigSep_W14, bigSep_W14]
  exact sound_body14 V c t

/-! ## The invariant at the region's two ends -/

/-- The invariant at the first point, from the generator register and the scoped buffers no window stages. -/
theorem hin14 (c : Dev nD) :
    iprop((∃ r, prngReg c r) ∗ Pipeline.scopedRest (Ix := Unit) (Name := ℕ) (U := UR sig nD τ) (Lvl := ℕ) (Val := Elt F) spec14 c)
      ⊢ (dat14 V c).Φ 0 := by
  rw [show (dat14 V c).Φ 0 = Pipeline.ΦA spec14 c from rfl]; unfold Pipeline.ΦA
  iintro ⟨Hp, Hr⟩
  isplitl [Hr]; · iexact Hr
  iexact Hp

/-- The invariant at the last point gives both back. -/
theorem hout14 (c : Dev nD) :
    (dat14 V c).Φ (Fin.last cfg14.N)
      ⊢ iprop((∃ r, prngReg c r) ∗ Pipeline.scopedRest (Ix := Unit) (Name := ℕ) (U := UR sig nD τ) (Lvl := ℕ) (Val := Elt F) spec14 c) := by
  rw [show (dat14 V c).Φ (Fin.last cfg14.N) = Pipeline.ΦA spec14 c from rfl]; unfold Pipeline.ΦA
  iintro ⟨Hr, Hp⟩
  isplitl [Hp]; · iexact Hp
  iexact Hr

end Cert.Kernel.Hand

end
-- ==== Proof.BAssembly.lean ====
import proofs.«408066_j62380105008311_2_alg».proof.Proof.KernelRegions
import proofs.«408066_j62380105008311_2_alg».proof.Proof.BReg0
import proofs.«408066_j62380105008311_2_alg».proof.Proof.BReg1
import proofs.«408066_j62380105008311_2_alg».proof.Proof.BReg2
import proofs.«408066_j62380105008311_2_alg».proof.Proof.BReg3
import proofs.«408066_j62380105008311_2_alg».proof.Proof.BReg4
import proofs.«408066_j62380105008311_2_alg».proof.Proof.BReg5
import proofs.«408066_j62380105008311_2_alg».proof.Proof.BReg6
import proofs.«408066_j62380105008311_2_alg».proof.Proof.BReg7
import proofs.«408066_j62380105008311_2_alg».proof.Proof.BReg8
import proofs.«408066_j62380105008311_2_alg».proof.Proof.BReg9
import proofs.«408066_j62380105008311_2_alg».proof.Proof.BReg10
import proofs.«408066_j62380105008311_2_alg».proof.Proof.BReg11
import proofs.«408066_j62380105008311_2_alg».proof.Proof.BReg12
import proofs.«408066_j62380105008311_2_alg».proof.Proof.BReg13
import proofs.«408066_j62380105008311_2_alg».proof.Proof.BReg14
import Idealize.ShloMosaic.Lib.Pipeline.FrameSuffix
import Idealize.ShloMosaic.Lib.Pipeline.RegionsLoop
import Idealize.ShloMosaic.Lib.Pipeline.Regions
import Idealize.ShloMosaic.Lib.Pipeline.Kit
import Idealize.ShloMosaic.Lib.Tactic

/-!
# The run of @main, assembled from its 37 items

@main is 22 stretches of host operations and 15 kernel regions.  Between two items every core holds each of its
unscoped buffers whole, at contents that are a function of the launch memory alone: a fold through the items.  A host
stretch maps the contents by its operations' semantics; a region leaves each of its windows' arrays at what its
write-backs leave (an input's array as entered) and every other buffer as entered.  Each region's kernel is taken
through its interface only: its proof data at the contents the region is entered from, its body obligation, and its
invariant at the two ends.

The theorems: the one-step equations of the fold; run_to, the run at any postcondition that follows from the
final contents of every unscoped buffer; run_all, the same with the final contents stated; each argument array
at the end of the fold is as launched, hence frame; and the result array at the end of the fold is what the last
region's write-backs leave.
-/

-- decided memberships among the program's references, and the chain of its items, recurse past the default depth
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items: a fold through @main -/

/-- A core's buffers at launch. -/
abbrev W0 : Dev nD → Valuation τ sig (Elt F) := fun c b => m (c, b)
abbrev V0 : (c : Dev nD) → (b : Ref sig .tc) → Buf (Elt F) ((c : Thread nD τ).loc b) := fun c b => W0 m c b

/-- After the host stretch hostOps0 (item 0). -/
abbrev W1 : Dev nD → Valuation τ sig (Elt F) := fun c => StableHlo.after hostOps0 (W0 m c)
theorem W1_eq (c : Dev nD) : W1 m c = StableHlo.after hostOps0 (W0 m c) := rfl
abbrev V1 : (c : Dev nD) → (b : Ref sig .tc) → Buf (Elt F) ((c : Thread nD τ).loc b) := fun c b => W1 m c b
theorem W1_of (c : Dev nD) (r : Ref sig .tc) (h : r ∉ GenP.hostOps0_W) :
    W1 m c (Proc.devRef .tc r) = W0 m c (Proc.devRef .tc r) :=
  StableHlo.after_of_writes_sub hostOps0 _ GenP.hostOps0_writes h

/-- After the host stretch hostOps0_1 (item 1). -/
abbrev W2 : Dev nD → Valuation τ sig (Elt F) := fun c => StableHlo.after hostOps0_1 (W1 m c)
theorem W2_eq (c : Dev nD) : W2 m c = StableHlo.after hostOps0_1 (W1 m c) := rfl
abbrev V2 : (c : Dev nD) → (b : Ref sig .tc) → Buf (Elt F) ((c : Thread nD τ).loc b) := fun c b => W2 m c b
theorem W2_of (c : Dev nD) (r : Ref sig .tc) (h : r ∉ GenP.hostOps0_1_W) :
    W2 m c (Proc.devRef .tc r) = W1 m c (Proc.devRef .tc r) :=
  StableHlo.after_of_writes_sub hostOps0_1 _ GenP.hostOps0_1_writes h

/-- After the host stretch hostOps0_2 (item 2). -/
abbrev W3 : Dev nD → Valuation τ sig (Elt F) := fun c => StableHlo.after hostOps0_2 (W2 m c)
theorem W3_eq (c : Dev nD) : W3 m c = StableHlo.after hostOps0_2 (W2 m c) := rfl
abbrev V3 : (c : Dev nD) → (b : Ref sig .tc) → Buf (Elt F) ((c : Thread nD τ).loc b) := fun c b => W3 m c b
theorem W3_of (c : Dev nD) (r : Ref sig .tc) (h : r ∉ GenP.hostOps0_2_W) :
    W3 m c (Proc.devRef .tc r) = W2 m c (Proc.devRef .tc r) :=
  StableHlo.after_of_writes_sub hostOps0_2 _ GenP.hostOps0_2_writes h

/-- After region 0 (item 3): its arrays at what the pipeline's write-backs leave, every other buffer as entered. -/
def W4 (c : Dev nD) : Valuation τ sig (Elt F) :=
  Pipeline.withArrays spec0 c (W3 m c) fun w => (dat0 (V3 m) c).arrAt w cfg0.N
theorem W4_eq (c : Dev nD) :
    W4 m c = Pipeline.withArrays spec0 c (W3 m c) fun w => (dat0 (V3 m) c).arrAt w cfg0.N := rfl
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- An input window's array is never written: the region leaves it as entered. -/
theorem W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (V3 m) c).arrAt_in w hin _).trans (A_eq0 (V3 m) c w))
/-- Region 0 changes its output arrays only (main_v47). -/
theorem W4_of (c : Dev nD) (r : Ref sig .tc) (h : r ∉ ([main_v47] : List (Ref sig .tc))) :
    W4 m c (Proc.devRef .tc r) = W3 m c (Proc.devRef .tc r) := by
  by_cases hr : ∃ w, Pipeline.arrRef spec0 w = r
  · obtain ⟨w, rfl⟩ := hr
    refine W4_in m c w ?_
    revert h; revert w; decide
  · exact W4_of_ne m c r fun w e => hr ⟨w, e⟩

/-- After the host stretch hostOps1 (item 4). -/
abbrev W5 : Dev nD → Valuation τ sig (Elt F) := fun c => StableHlo.after hostOps1 (W4 m c)
theorem W5_eq (c : Dev nD) : W5 m c = StableHlo.after hostOps1 (W4 m c) := rfl
abbrev V5 : (c : Dev nD) → (b : Ref sig .tc) → Buf (Elt F) ((c : Thread nD τ).loc b) := fun c b => W5 m c b
theorem W5_of (c : Dev nD) (r : Ref sig .tc) (h : r ∉ GenP.hostOps1_W) :
    W5 m c (Proc.devRef .tc r) = W4 m c (Proc.devRef .tc r) :=
  StableHlo.after_of_writes_sub hostOps1 _ GenP.hostOps1_writes h

/-- After the host stretch hostOps1_1 (item 5). -/
abbrev W6 : Dev nD → Valuation τ sig (Elt F) := fun c => StableHlo.after hostOps1_1 (W5 m c)
theorem W6_eq (c : Dev nD) : W6 m c = StableHlo.after hostOps1_1 (W5 m c) := rfl
abbrev V6 : (c : Dev nD) → (b : Ref sig .tc) → Buf (Elt F) ((c : Thread nD τ).loc b) := fun c b => W6 m c b
theorem W6_of (c : Dev nD) (r : Ref sig .tc) (h : r ∉ GenP.hostOps1_1_W) :
    W6 m c (Proc.devRef .tc r) = W5 m c (Proc.devRef .tc r) :=
  StableHlo.after_of_writes_sub hostOps1_1 _ GenP.hostOps1_1_writes h

/-- After region 1 (item 6): its arrays at what the pipeline's write-backs leave, every other buffer as entered. -/
def W7 (c : Dev nD) : Valuation τ sig (Elt F) :=
  Pipeline.withArrays spec1 c (W6 m c) fun w => (dat1 (V6 m) c).arrAt w cfg1.N
theorem W7_eq (c : Dev nD) :
    W7 m c = Pipeline.withArrays spec1 c (W6 m c) fun w => (dat1 (V6 m) c).arrAt w cfg1.N := rfl
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- The same read at the TensorCore's references. -/
abbrev V7 : (c : Dev nD) → (b : Ref sig .tc) → Buf (Elt F) ((c : Thread nD τ).loc b) := fun c b => W7 m c b
theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)
/-- An input window's array is never written: the region leaves it as entered. -/
theorem W7_in (c : Dev nD) (w : Fin cfg1.W) (hin : (cfg1.win w).isOut = false) :
    W7 m c (Proc.devRef .tc (Pipeline.arrRef spec1 w)) = W6 m c (Proc.devRef .tc (Pipeline.arrRef spec1 w)) :=
  (W7_arr m c w).trans (((dat1 (V6 m) c).arrAt_in w hin _).trans (A_eq1 (V6 m) c w))
/-- Region 1 changes its output arrays only (main_v49). -/
theorem W7_of (c : Dev nD) (r : Ref sig .tc) (h : r ∉ ([main_v49] : List (Ref sig .tc))) :
    W7 m c (Proc.devRef .tc r) = W6 m c (Proc.devRef .tc r) := by
  by_cases hr : ∃ w, Pipeline.arrRef spec1 w = r
  · obtain ⟨w, rfl⟩ := hr
    refine W7_in m c w ?_
    revert h; revert w; decide
  · exact W7_of_ne m c r fun w e => hr ⟨w, e⟩

/-- After the host stretch hostOps2 (item 7). -/
abbrev W8 : Dev nD → Valuation τ sig (Elt F) := fun c => StableHlo.after hostOps2 (W7 m c)
theorem W8_eq (c : Dev nD) : W8 m c = StableHlo.after hostOps2 (W7 m c) := rfl
abbrev V8 : (c : Dev nD) → (b : Ref sig .tc) → Buf (Elt F) ((c : Thread nD τ).loc b) := fun c b => W8 m c b
theorem W8_of (c : Dev nD) (r : Ref sig .tc) (h : r ∉ GenP.hostOps2_W) :
    W8 m c (Proc.devRef .tc r) = W7 m c (Proc.devRef .tc r) :=
  StableHlo.after_of_writes_sub hostOps2 _ GenP.hostOps2_writes h

/-- After region 2 (item 8): its arrays at what the pipeline's write-backs leave, every other buffer as entered. -/
def W9 (c : Dev nD) : Valuation τ sig (Elt F) :=
  Pipeline.withArrays spec2 c (W8 m c) fun w => (dat2 (V8 m) c).arrAt w cfg2.N
theorem W9_eq (c : Dev nD) :
    W9 m c = Pipeline.withArrays spec2 c (W8 m c) fun w => (dat2 (V8 m) c).arrAt w cfg2.N := rfl
theorem W9_arr (c : Dev nD) (w : Fin cfg2.W) :
    W9 m c (Proc.devRef .tc (Pipeline.arrRef spec2 w)) = (dat2 (V8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
/-- The same read at the TensorCore's references. -/
abbrev V9 : (c : Dev nD) → (b : Ref sig .tc) → Buf (Elt F) ((c : Thread nD τ).loc b) := fun c b => W9 m c b
theorem hF2 (c : Dev nD) (w : Fin cfg2.W) : (dat2 (V8 m) c).arrAt w cfg2.N = V9 m c (Pipeline.arrRef spec2 w) :=
  (W9_arr m c w).symm
theorem hrest2 (c : Dev nD) : ∀ b, b ∉ Finset.univ.image (Pipeline.arrRef spec2) → V9 m c b = V8 m c b :=
  fun b hb => W9_of_ne m c b fun w e => hb (Finset.mem_image.mpr ⟨w, Finset.mem_univ _, e⟩)
/-- An input window's array is never written: the region leaves it as entered. -/
theorem W9_in (c : Dev nD) (w : Fin cfg2.W) (hin : (cfg2.win w).isOut = false) :
    W9 m c (Proc.devRef .tc (Pipeline.arrRef spec2 w)) = W8 m c (Proc.devRef .tc (Pipeline.arrRef spec2 w)) :=
  (W9_arr m c w).trans (((dat2 (V8 m) c).arrAt_in w hin _).trans (A_eq2 (V8 m) c w))
/-- Region 2 changes its output arrays only (main_v51_0, main_v51_1, main_v51_2). -/
theorem W9_of (c : Dev nD) (r : Ref sig .tc) (h : r ∉ ([main_v51_0, main_v51_1, main_v51_2] : List (Ref sig .tc))) :
    W9 m c (Proc.devRef .tc r) = W8 m c (Proc.devRef .tc r) := by
  by_cases hr : ∃ w, Pipeline.arrRef spec2 w = r
  · obtain ⟨w, rfl⟩ := hr
    refine W9_in m c w ?_
    revert h; revert w; decide
  · exact W9_of_ne m c r fun w e => hr ⟨w, e⟩

/-- After the host stretch hostOps3 (item 9). -/
abbrev W10 : Dev nD → Valuation τ sig (Elt F) := fun c => StableHlo.after hostOps3 (W9 m c)
theorem W10_eq (c : Dev nD) : W10 m c = StableHlo.after hostOps3 (W9 m c) := rfl
abbrev V10 : (c : Dev nD) → (b : Ref sig .tc) → Buf (Elt F) ((c : Thread nD τ).loc b) := fun c b => W10 m c b
theorem W10_of (c : Dev nD) (r : Ref sig .tc) (h : r ∉ GenP.hostOps3_W) :
    W10 m c (Proc.devRef .tc r) = W9 m c (Proc.devRef .tc r) :=
  StableHlo.after_of_writes_sub hostOps3 _ GenP.hostOps3_writes h

/-- After region 3 (item 10): its arrays at what the pipeline's write-backs leave, every other buffer as entered. -/
def W11 (c : Dev nD) : Valuation τ sig (Elt F) :=
  Pipeline.withArrays spec3 c (W10 m c) fun w => (dat3 (V10 m) c).arrAt w cfg3.N
theorem W11_eq (c : Dev nD) :
    W11 m c = Pipeline.withArrays spec3 c (W10 m c) fun w => (dat3 (V10 m) c).arrAt w cfg3.N := rfl
theorem W11_arr (c : Dev nD) (w : Fin cfg3.W) :
    W11 m c (Proc.devRef .tc (Pipeline.arrRef spec3 w)) = (dat3 (V10 m) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m c (Proc.devRef .tc b) = W10 m c (Proc.devRef .tc b) := by
  unfold W11; exact Pipeline.withArrays_of_ne spec3 c _ _ b hb
/-- The same read at the TensorCore's references. -/
abbrev V11 : (c : Dev nD) → (b : Ref sig .tc) → Buf (Elt F) ((c : Thread nD τ).loc b) := fun c b => W11 m c b
theorem hF3 (c : Dev nD) (w : Fin cfg3.W) : (dat3 (V10 m) c).arrAt w cfg3.N = V11 m c (Pipeline.arrRef spec3 w) :=
  (W11_arr m c w).symm
theorem hrest3 (c : Dev nD) : ∀ b, b ∉ Finset.univ.image (Pipeline.arrRef spec3) → V11 m c b = V10 m c b :=
  fun b hb => W11_of_ne m c b fun w e => hb (Finset.mem_image.mpr ⟨w, Finset.mem_univ _, e⟩)
/-- An input window's array is never written: the region leaves it as entered. -/
theorem W11_in (c : Dev nD) (w : Fin cfg3.W) (hin : (cfg3.win w).isOut = false) :
    W11 m c (Proc.devRef .tc (Pipeline.arrRef spec3 w)) = W10 m c (Proc.devRef .tc (Pipeline.arrRef spec3 w)) :=
  (W11_arr m c w).trans (((dat3 (V10 m) c).arrAt_in w hin _).trans (A_eq3 (V10 m) c w))
/-- Region 3 changes its output arrays only (main_v66). -/
theorem W11_of (c : Dev nD) (r : Ref sig .tc) (h : r ∉ ([main_v66] : List (Ref sig .tc))) :
    W11 m c (Proc.devRef .tc r) = W10 m c (Proc.devRef .tc r) := by
  by_cases hr : ∃ w, Pipeline.arrRef spec3 w = r
  · obtain ⟨w, rfl⟩ := hr
    refine W11_in m c w ?_
    revert h; revert w; decide
  · exact W11_of_ne m c r fun w e => hr ⟨w, e⟩

/-- After the host stretch hostOps4 (item 11). -/
abbrev W12 : Dev nD → Valuation τ sig (Elt F) := fun c => StableHlo.after hostOps4 (W11 m c)
theorem W12_eq (c : Dev nD) : W12 m c = StableHlo.after hostOps4 (W11 m c) := rfl
abbrev V12 : (c : Dev nD) → (b : Ref sig .tc) → Buf (Elt F) ((c : Thread nD τ).loc b) := fun c b => W12 m c b
theorem W12_of (c : Dev nD) (r : Ref sig .tc) (h : r ∉ GenP.hostOps4_W) :
    W12 m c (Proc.devRef .tc r) = W11 m c (Proc.devRef .tc r) :=
  StableHlo.after_of_writes_sub hostOps4 _ GenP.hostOps4_writes h

/-- After the host stretch hostOps4_1 (item 12). -/
abbrev W13 : Dev nD → Valuation τ sig (Elt F) := fun c => StableHlo.after hostOps4_1 (W12 m c)
theorem W13_eq (c : Dev nD) : W13 m c = StableHlo.after hostOps4_1 (W12 m c) := rfl
abbrev V13 : (c : Dev nD) → (b : Ref sig .tc) → Buf (Elt F) ((c : Thread nD τ).loc b) := fun c b => W13 m c b
theorem W13_of (c : Dev nD) (r : Ref sig .tc) (h : r ∉ GenP.hostOps4_1_W) :
    W13 m c (Proc.devRef .tc r) = W12 m c (Proc.devRef .tc r) :=
  StableHlo.after_of_writes_sub hostOps4_1 _ GenP.hostOps4_1_writes h

/-- After region 4 (item 13): its arrays at what the pipeline's write-backs leave, every other buffer as entered. -/
def W14 (c : Dev nD) : Valuation τ sig (Elt F) :=
  Pipeline.withArrays spec4 c (W13 m c) fun w => (dat4 (V13 m) c).arrAt w cfg4.N
theorem W14_eq (c : Dev nD) :
    W14 m c = Pipeline.withArrays spec4 c (W13 m c) fun w => (dat4 (V13 m) c).arrAt w cfg4.N := rfl
theorem W14_arr (c : Dev nD) (w : Fin cfg4.W) :
    W14 m c (Proc.devRef .tc (Pipeline.arrRef spec4 w)) = (dat4 (V13 m) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m c (Proc.devRef .tc b) = W13 m c (Proc.devRef .tc b) := by
  unfold W14; exact Pipeline.withArrays_of_ne spec4 c _ _ b hb
/-- The same read at the TensorCore's references. -/
abbrev V14 : (c : Dev nD) → (b : Ref sig .tc) → Buf (Elt F) ((c : Thread nD τ).loc b) := fun c b => W14 m c b
theorem hF4 (c : Dev nD) (w : Fin cfg4.W) : (dat4 (V13 m) c).arrAt w cfg4.N = V14 m c (Pipeline.arrRef spec4 w) :=
  (W14_arr m c w).symm
theorem hrest4 (c : Dev nD) : ∀ b, b ∉ Finset.univ.image (Pipeline.arrRef spec4) → V14 m c b = V13 m c b :=
  fun b hb => W14_of_ne m c b fun w e => hb (Finset.mem_image.mpr ⟨w, Finset.mem_univ _, e⟩)
/-- An input window's array is never written: the region leaves it as entered. -/
theorem W14_in (c : Dev nD) (w : Fin cfg4.W) (hin : (cfg4.win w).isOut = false) :
    W14 m c (Proc.devRef .tc (Pipeline.arrRef spec4 w)) = W13 m c (Proc.devRef .tc (Pipeline.arrRef spec4 w)) :=
  (W14_arr m c w).trans (((dat4 (V13 m) c).arrAt_in w hin _).trans (A_eq4 (V13 m) c w))
/-- Region 4 changes its output arrays only (main_v68). -/
theorem W14_of (c : Dev nD) (r : Ref sig .tc) (h : r ∉ ([main_v68] : List (Ref sig .tc))) :
    W14 m c (Proc.devRef .tc r) = W13 m c (Proc.devRef .tc r) := by
  by_cases hr : ∃ w, Pipeline.arrRef spec4 w = r
  · obtain ⟨w, rfl⟩ := hr
    refine W14_in m c w ?_
    revert h; revert w; decide
  · exact W14_of_ne m c r fun w e => hr ⟨w, e⟩

/-- After the host stretch hostOps5 (item 14). -/
abbrev W15 : Dev nD → Valuation τ sig (Elt F) := fun c => StableHlo.after hostOps5 (W14 m c)
theorem W15_eq (c : Dev nD) : W15 m c = StableHlo.after hostOps5 (W14 m c) := rfl
abbrev V15 : (c : Dev nD) → (b : Ref sig .tc) → Buf (Elt F) ((c : Thread nD τ).loc b) := fun c b => W15 m c b
theorem W15_of (c : Dev nD) (r : Ref sig .tc) (h : r ∉ GenP.hostOps5_W) :
    W15 m c (Proc.devRef .tc r) = W14 m c (Proc.devRef .tc r) :=
  StableHlo.after_of_writes_sub hostOps5 _ GenP.hostOps5_writes h

/-- After region 5 (item 15): its arrays at what the pipeline's write-backs leave, every other buffer as entered. -/
def W16 (c : Dev nD) : Valuation τ sig (Elt F) :=
  Pipeline.withArrays spec5 c (W15 m c) fun w => (dat5 (V15 m) c).arrAt w cfg5.N
theorem W16_eq (c : Dev nD) :
    W16 m c = Pipeline.withArrays spec5 c (W15 m c) fun w => (dat5 (V15 m) c).arrAt w cfg5.N := rfl
theorem W16_arr (c : Dev nD) (w : Fin cfg5.W) :
    W16 m c (Proc.devRef .tc (Pipeline.arrRef spec5 w)) = (dat5 (V15 m) c).arrAt w cfg5.N := by
  unfold W16; exact Pipeline.withArrays_arr spec5 launch5.win.arr_inj c _ _ w
theorem W16_of_ne (c : Dev nD) (b : Ref sig .tc) (hb : ∀ w, Pipeline.arrRef spec5 w ≠ b) :
    W16 m c (Proc.devRef .tc b) = W15 m c (Proc.devRef .tc b) := by
  unfold W16; exact Pipeline.withArrays_of_ne spec5 c _ _ b hb
/-- The same read at the TensorCore's references. -/
abbrev V16 : (c : Dev nD) → (b : Ref sig .tc) → Buf (Elt F) ((c : Thread nD τ).loc b) := fun c b => W16 m c b
theorem hF5 (c : Dev nD) (w : Fin cfg5.W) : (dat5 (V15 m) c).arrAt w cfg5.N = V16 m c (Pipeline.arrRef spec5 w) :=
  (W16_arr m c w).symm
theorem hrest5 (c : Dev nD) : ∀ b, b ∉ Finset.univ.image (Pipeline.arrRef spec5) → V16 m c b = V15 m c b :=
  fun b hb => W16_of_ne m c b fun w e => hb (Finset.mem_image.mpr ⟨w, Finset.mem_univ _, e⟩)
/-- An input window's array is never written: the region leaves it as entered. -/
theorem W16_in (c : Dev nD) (w : Fin cfg5.W) (hin : (cfg5.win w).isOut = false) :
    W16 m c (Proc.devRef .tc (Pipeline.arrRef spec5 w)) = W15 m c (Proc.devRef .tc (Pipeline.arrRef spec5 w)) :=
  (W16_arr m c w).trans (((dat5 (V15 m) c).arrAt_in w hin _).trans (A_eq5 (V15 m) c w))
/-- Region 5 changes its output arrays only (main_v70_0, main_v70_1, main_v70_2). -/
theorem W16_of (c : Dev nD) (r : Ref sig .tc) (h : r ∉ ([main_v70_0, main_v70_1, main_v70_2] : List (Ref sig .tc))) :
    W16 m c (Proc.devRef .tc r) = W15 m c (Proc.devRef .tc r) := by
  by_cases hr : ∃ w, Pipeline.arrRef spec5 w = r
  · obtain ⟨w, rfl⟩ := hr
    refine W16_in m c w ?_
    revert h; revert w; decide
  · exact W16_of_ne m c r fun w e => hr ⟨w, e⟩

/-- After the host stretch hostOps6 (item 16). -/
abbrev W17 : Dev nD → Valuation τ sig (Elt F) := fun c => StableHlo.after hostOps6 (W16 m c)
theorem W17_eq (c : Dev nD) : W17 m c = StableHlo.after hostOps6 (W16 m c) := rfl
abbrev V17 : (c : Dev nD) → (b : Ref sig .tc) → Buf (Elt F) ((c : Thread nD τ).loc b) := fun c b => W17 m c b
theorem W17_of (c : Dev nD) (r : Ref sig .tc) (h : r ∉ GenP.hostOps6_W) :
    W17 m c (Proc.devRef .tc r) = W16 m c (Proc.devRef .tc r) :=
  StableHlo.after_of_writes_sub hostOps6 _ GenP.hostOps6_writes h

/-- After region 6 (item 17): its arrays at what the pipeline's write-backs leave, every other buffer as entered. -/
def W18 (c : Dev nD) : Valuation τ sig (Elt F) :=
  Pipeline.withArrays spec6 c (W17 m c) fun w => (dat6 (V17 m) c).arrAt w cfg6.N
theorem W18_eq (c : Dev nD) :
    W18 m c = Pipeline.withArrays spec6 c (W17 m c) fun w => (dat6 (V17 m) c).arrAt w cfg6.N := rfl
theorem W18_arr (c : Dev nD) (w : Fin cfg6.W) :
    W18 m c (Proc.devRef .tc (Pipeline.arrRef spec6 w)) = (dat6 (V17 m) c).arrAt w cfg6.N := by
  unfold W18; exact Pipeline.withArrays_arr spec6 launch6.win.arr_inj c _ _ w
theorem W18_of_ne (c : Dev nD) (b : Ref sig .tc) (hb : ∀ w, Pipeline.arrRef spec6 w ≠ b) :
    W18 m c (Proc.devRef .tc b) = W17 m c (Proc.devRef .tc b) := by
  unfold W18; exact Pipeline.withArrays_of_ne spec6 c _ _ b hb
/-- The same read at the TensorCore's references. -/
abbrev V18 : (c : Dev nD) → (b : Ref sig .tc) → Buf (Elt F) ((c : Thread nD τ).loc b) := fun c b => W18 m c b
theorem hF6 (c : Dev nD) (w : Fin cfg6.W) : (dat6 (V17 m) c).arrAt w cfg6.N = V18 m c (Pipeline.arrRef spec6 w) :=
  (W18_arr m c w).symm
theorem hrest6 (c : Dev nD) : ∀ b, b ∉ Finset.univ.image (Pipeline.arrRef spec6) → V18 m c b = V17 m c b :=
  fun b hb => W18_of_ne m c b fun w e => hb (Finset.mem_image.mpr ⟨w, Finset.mem_univ _, e⟩)
/-- An input window's array is never written: the region leaves it as entered. -/
theorem W18_in (c : Dev nD) (w : Fin cfg6.W) (hin : (cfg6.win w).isOut = false) :
    W18 m c (Proc.devRef .tc (Pipeline.arrRef spec6 w)) = W17 m c (Proc.devRef .tc (Pipeline.arrRef spec6 w)) :=
  (W18_arr m c w).trans (((dat6 (V17 m) c).arrAt_in w hin _).trans (A_eq6 (V17 m) c w))
/-- Region 6 changes its output arrays only (main_v85). -/
theorem W18_of (c : Dev nD) (r : Ref sig .tc) (h : r ∉ ([main_v85] : List (Ref sig .tc))) :
    W18 m c (Proc.devRef .tc r) = W17 m c (Proc.devRef .tc r) := by
  by_cases hr : ∃ w, Pipeline.arrRef spec6 w = r
  · obtain ⟨w, rfl⟩ := hr
    refine W18_in m c w ?_
    revert h; revert w; decide
  · exact W18_of_ne m c r fun w e => hr ⟨w, e⟩

/-- After the host stretch hostOps7 (item 18). -/
abbrev W19 : Dev nD → Valuation τ sig (Elt F) := fun c => StableHlo.after hostOps7 (W18 m c)
theorem W19_eq (c : Dev nD) : W19 m c = StableHlo.after hostOps7 (W18 m c) := rfl
abbrev V19 : (c : Dev nD) → (b : Ref sig .tc) → Buf (Elt F) ((c : Thread nD τ).loc b) := fun c b => W19 m c b
theorem W19_of (c : Dev nD) (r : Ref sig .tc) (h : r ∉ GenP.hostOps7_W) :
    W19 m c (Proc.devRef .tc r) = W18 m c (Proc.devRef .tc r) :=
  StableHlo.after_of_writes_sub hostOps7 _ GenP.hostOps7_writes h

/-- After the host stretch hostOps7_1 (item 19). -/
abbrev W20 : Dev nD → Valuation τ sig (Elt F) := fun c => StableHlo.after hostOps7_1 (W19 m c)
theorem W20_eq (c : Dev nD) : W20 m c = StableHlo.after hostOps7_1 (W19 m c) := rfl
abbrev V20 : (c : Dev nD) → (b : Ref sig .tc) → Buf (Elt F) ((c : Thread nD τ).loc b) := fun c b => W20 m c b
theorem W20_of (c : Dev nD) (r : Ref sig .tc) (h : r ∉ GenP.hostOps7_1_W) :
    W20 m c (Proc.devRef .tc r) = W19 m c (Proc.devRef .tc r) :=
  StableHlo.after_of_writes_sub hostOps7_1 _ GenP.hostOps7_1_writes h

/-- After region 7 (item 20): its arrays at what the pipeline's write-backs leave, every other buffer as entered. -/
def W21 (c : Dev nD) : Valuation τ sig (Elt F) :=
  Pipeline.withArrays spec7 c (W20 m c) fun w => (dat7 (V20 m) c).arrAt w cfg7.N
theorem W21_eq (c : Dev nD) :
    W21 m c = Pipeline.withArrays spec7 c (W20 m c) fun w => (dat7 (V20 m) c).arrAt w cfg7.N := rfl
theorem W21_arr (c : Dev nD) (w : Fin cfg7.W) :
    W21 m c (Proc.devRef .tc (Pipeline.arrRef spec7 w)) = (dat7 (V20 m) c).arrAt w cfg7.N := by
  unfold W21; exact Pipeline.withArrays_arr spec7 launch7.win.arr_inj c _ _ w
theorem W21_of_ne (c : Dev nD) (b : Ref sig .tc) (hb : ∀ w, Pipeline.arrRef spec7 w ≠ b) :
    W21 m c (Proc.devRef .tc b) = W20 m c (Proc.devRef .tc b) := by
  unfold W21; exact Pipeline.withArrays_of_ne spec7 c _ _ b hb
/-- The same read at the TensorCore's references. -/
abbrev V21 : (c : Dev nD) → (b : Ref sig .tc) → Buf (Elt F) ((c : Thread nD τ).loc b) := fun c b => W21 m c b
theorem hF7 (c : Dev nD) (w : Fin cfg7.W) : (dat7 (V20 m) c).arrAt w cfg7.N = V21 m c (Pipeline.arrRef spec7 w) :=
  (W21_arr m c w).symm
theorem hrest7 (c : Dev nD) : ∀ b, b ∉ Finset.univ.image (Pipeline.arrRef spec7) → V21 m c b = V20 m c b :=
  fun b hb => W21_of_ne m c b fun w e => hb (Finset.mem_image.mpr ⟨w, Finset.mem_univ _, e⟩)
/-- An input window's array is never written: the region leaves it as entered. -/
theorem W21_in (c : Dev nD) (w : Fin cfg7.W) (hin : (cfg7.win w).isOut = false) :
    W21 m c (Proc.devRef .tc (Pipeline.arrRef spec7 w)) = W20 m c (Proc.devRef .tc (Pipeline.arrRef spec7 w)) :=
  (W21_arr m c w).trans (((dat7 (V20 m) c).arrAt_in w hin _).trans (A_eq7 (V20 m) c w))
/-- Region 7 changes its output arrays only (main_v87). -/
theorem W21_of (c : Dev nD) (r : Ref sig .tc) (h : r ∉ ([main_v87] : List (Ref sig .tc))) :
    W21 m c (Proc.devRef .tc r) = W20 m c (Proc.devRef .tc r) := by
  by_cases hr : ∃ w, Pipeline.arrRef spec7 w = r
  · obtain ⟨w, rfl⟩ := hr
    refine W21_in m c w ?_
    revert h; revert w; decide
  · exact W21_of_ne m c r fun w e => hr ⟨w, e⟩

/-- After the host stretch hostOps8 (item 21). -/
abbrev W22 : Dev nD → Valuation τ sig (Elt F) := fun c => StableHlo.after hostOps8 (W21 m c)
theorem W22_eq (c : Dev nD) : W22 m c = StableHlo.after hostOps8 (W21 m c) := rfl
abbrev V22 : (c : Dev nD) → (b : Ref sig .tc) → Buf (Elt F) ((c : Thread nD τ).loc b) := fun c b => W22 m c b
theorem W22_of (c : Dev nD) (r : Ref sig .tc) (h : r ∉ GenP.hostOps8_W) :
    W22 m c (Proc.devRef .tc r) = W21 m c (Proc.devRef .tc r) :=
  StableHlo.after_of_writes_sub hostOps8 _ GenP.hostOps8_writes h

/-- After region 8 (item 22): its arrays at what the pipeline's write-backs leave, every other buffer as entered. -/
def W23 (c : Dev nD) : Valuation τ sig (Elt F) :=
  Pipeline.withArrays spec8 c (W22 m c) fun w => (dat8 (V22 m) c).arrAt w cfg8.N
theorem W23_eq (c : Dev nD) :
    W23 m c = Pipeline.withArrays spec8 c (W22 m c) fun w => (dat8 (V22 m) c).arrAt w cfg8.N := rfl
theorem W23_arr (c : Dev nD) (w : Fin cfg8.W) :
    W23 m c (Proc.devRef .tc (Pipeline.arrRef spec8 w)) = (dat8 (V22 m) c).arrAt w cfg8.N := by
  unfold W23; exact Pipeline.withArrays_arr spec8 launch8.win.arr_inj c _ _ w
theorem W23_of_ne (c : Dev nD) (b : Ref sig .tc) (hb : ∀ w, Pipeline.arrRef spec8 w ≠ b) :
    W23 m c (Proc.devRef .tc b) = W22 m c (Proc.devRef .tc b) := by
  unfold W23; exact Pipeline.withArrays_of_ne spec8 c _ _ b hb
/-- The same read at the TensorCore's references. -/
abbrev V23 : (c : Dev nD) → (b : Ref sig .tc) → Buf (Elt F) ((c : Thread nD τ).loc b) := fun c b => W23 m c b
theorem hF8 (c : Dev nD) (w : Fin cfg8.W) : (dat8 (V22 m) c).arrAt w cfg8.N = V23 m c (Pipeline.arrRef spec8 w) :=
  (W23_arr m c w).symm
theorem hrest8 (c : Dev nD) : ∀ b, b ∉ Finset.univ.image (Pipeline.arrRef spec8) → V23 m c b = V22 m c b :=
  fun b hb => W23_of_ne m c b fun w e => hb (Finset.mem_image.mpr ⟨w, Finset.mem_univ _, e⟩)
/-- An input window's array is never written: the region leaves it as entered. -/
theorem W23_in (c : Dev nD) (w : Fin cfg8.W) (hin : (cfg8.win w).isOut = false) :
    W23 m c (Proc.devRef .tc (Pipeline.arrRef spec8 w)) = W22 m c (Proc.devRef .tc (Pipeline.arrRef spec8 w)) :=
  (W23_arr m c w).trans (((dat8 (V22 m) c).arrAt_in w hin _).trans (A_eq8 (V22 m) c w))
/-- Region 8 changes its output arrays only (main_v89_0, main_v89_1, main_v89_2). -/
theorem W23_of (c : Dev nD) (r : Ref sig .tc) (h : r ∉ ([main_v89_0, main_v89_1, main_v89_2] : List (Ref sig .tc))) :
    W23 m c (Proc.devRef .tc r) = W22 m c (Proc.devRef .tc r) := by
  by_cases hr : ∃ w, Pipeline.arrRef spec8 w = r
  · obtain ⟨w, rfl⟩ := hr
    refine W23_in m c w ?_
    revert h; revert w; decide
  · exact W23_of_ne m c r fun w e => hr ⟨w, e⟩

/-- After the host stretch hostOps9 (item 23). -/
abbrev W24 : Dev nD → Valuation τ sig (Elt F) := fun c => StableHlo.after hostOps9 (W23 m c)
theorem W24_eq (c : Dev nD) : W24 m c = StableHlo.after hostOps9 (W23 m c) := rfl
abbrev V24 : (c : Dev nD) → (b : Ref sig .tc) → Buf (Elt F) ((c : Thread nD τ).loc b) := fun c b => W24 m c b
theorem W24_of (c : Dev nD) (r : Ref sig .tc) (h : r ∉ GenP.hostOps9_W) :
    W24 m c (Proc.devRef .tc r) = W23 m c (Proc.devRef .tc r) :=
  StableHlo.after_of_writes_sub hostOps9 _ GenP.hostOps9_writes h

/-- After region 9 (item 24): its arrays at what the pipeline's write-backs leave, every other buffer as entered. -/
def W25 (c : Dev nD) : Valuation τ sig (Elt F) :=
  Pipeline.withArrays spec9 c (W24 m c) fun w => (dat9 (V24 m) c).arrAt w cfg9.N
theorem W25_eq (c : Dev nD) :
    W25 m c = Pipeline.withArrays spec9 c (W24 m c) fun w => (dat9 (V24 m) c).arrAt w cfg9.N := rfl
theorem W25_arr (c : Dev nD) (w : Fin cfg9.W) :
    W25 m c (Proc.devRef .tc (Pipeline.arrRef spec9 w)) = (dat9 (V24 m) c).arrAt w cfg9.N := by
  unfold W25; exact Pipeline.withArrays_arr spec9 launch9.win.arr_inj c _ _ w
theorem W25_of_ne (c : Dev nD) (b : Ref sig .tc) (hb : ∀ w, Pipeline.arrRef spec9 w ≠ b) :
    W25 m c (Proc.devRef .tc b) = W24 m c (Proc.devRef .tc b) := by
  unfold W25; exact Pipeline.withArrays_of_ne spec9 c _ _ b hb
/-- The same read at the TensorCore's references. -/
abbrev V25 : (c : Dev nD) → (b : Ref sig .tc) → Buf (Elt F) ((c : Thread nD τ).loc b) := fun c b => W25 m c b
theorem hF9 (c : Dev nD) (w : Fin cfg9.W) : (dat9 (V24 m) c).arrAt w cfg9.N = V25 m c (Pipeline.arrRef spec9 w) :=
  (W25_arr m c w).symm
theorem hrest9 (c : Dev nD) : ∀ b, b ∉ Finset.univ.image (Pipeline.arrRef spec9) → V25 m c b = V24 m c b :=
  fun b hb => W25_of_ne m c b fun w e => hb (Finset.mem_image.mpr ⟨w, Finset.mem_univ _, e⟩)
/-- An input window's array is never written: the region leaves it as entered. -/
theorem W25_in (c : Dev nD) (w : Fin cfg9.W) (hin : (cfg9.win w).isOut = false) :
    W25 m c (Proc.devRef .tc (Pipeline.arrRef spec9 w)) = W24 m c (Proc.devRef .tc (Pipeline.arrRef spec9 w)) :=
  (W25_arr m c w).trans (((dat9 (V24 m) c).arrAt_in w hin _).trans (A_eq9 (V24 m) c w))
/-- Region 9 changes its output arrays only (main_v104). -/
theorem W25_of (c : Dev nD) (r : Ref sig .tc) (h : r ∉ ([main_v104] : List (Ref sig .tc))) :
    W25 m c (Proc.devRef .tc r) = W24 m c (Proc.devRef .tc r) := by
  by_cases hr : ∃ w, Pipeline.arrRef spec9 w = r
  · obtain ⟨w, rfl⟩ := hr
    refine W25_in m c w ?_
    revert h; revert w; decide
  · exact W25_of_ne m c r fun w e => hr ⟨w, e⟩

/-- After the host stretch hostOps10 (item 25). -/
abbrev W26 : Dev nD → Valuation τ sig (Elt F) := fun c => StableHlo.after hostOps10 (W25 m c)
theorem W26_eq (c : Dev nD) : W26 m c = StableHlo.after hostOps10 (W25 m c) := rfl
abbrev V26 : (c : Dev nD) → (b : Ref sig .tc) → Buf (Elt F) ((c : Thread nD τ).loc b) := fun c b => W26 m c b
theorem W26_of (c : Dev nD) (r : Ref sig .tc) (h : r ∉ GenP.hostOps10_W) :
    W26 m c (Proc.devRef .tc r) = W25 m c (Proc.devRef .tc r) :=
  StableHlo.after_of_writes_sub hostOps10 _ GenP.hostOps10_writes h

/-- After the host stretch hostOps10_1 (item 26). -/
abbrev W27 : Dev nD → Valuation τ sig (Elt F) := fun c => StableHlo.after hostOps10_1 (W26 m c)
theorem W27_eq (c : Dev nD) : W27 m c = StableHlo.after hostOps10_1 (W26 m c) := rfl
abbrev V27 : (c : Dev nD) → (b : Ref sig .tc) → Buf (Elt F) ((c : Thread nD τ).loc b) := fun c b => W27 m c b
theorem W27_of (c : Dev nD) (r : Ref sig .tc) (h : r ∉ GenP.hostOps10_1_W) :
    W27 m c (Proc.devRef .tc r) = W26 m c (Proc.devRef .tc r) :=
  StableHlo.after_of_writes_sub hostOps10_1 _ GenP.hostOps10_1_writes h

/-- After region 10 (item 27): its arrays at what the pipeline's write-backs leave, every other buffer as entered. -/
def W28 (c : Dev nD) : Valuation τ sig (Elt F) :=
  Pipeline.withArrays spec10 c (W27 m c) fun w => (dat10 (V27 m) c).arrAt w cfg10.N
theorem W28_eq (c : Dev nD) :
    W28 m c = Pipeline.withArrays spec10 c (W27 m c) fun w => (dat10 (V27 m) c).arrAt w cfg10.N := rfl
theorem W28_arr (c : Dev nD) (w : Fin cfg10.W) :
    W28 m c (Proc.devRef .tc (Pipeline.arrRef spec10 w)) = (dat10 (V27 m) c).arrAt w cfg10.N := by
  unfold W28; exact Pipeline.withArrays_arr spec10 launch10.win.arr_inj c _ _ w
theorem W28_of_ne (c : Dev nD) (b : Ref sig .tc) (hb : ∀ w, Pipeline.arrRef spec10 w ≠ b) :
    W28 m c (Proc.devRef .tc b) = W27 m c (Proc.devRef .tc b) := by
  unfold W28; exact Pipeline.withArrays_of_ne spec10 c _ _ b hb
/-- The same read at the TensorCore's references. -/
abbrev V28 : (c : Dev nD) → (b : Ref sig .tc) → Buf (Elt F) ((c : Thread nD τ).loc b) := fun c b => W28 m c b
theorem hF10 (c : Dev nD) (w : Fin cfg10.W) : (dat10 (V27 m) c).arrAt w cfg10.N = V28 m c (Pipeline.arrRef spec10 w) :=
  (W28_arr m c w).symm
theorem hrest10 (c : Dev nD) : ∀ b, b ∉ Finset.univ.image (Pipeline.arrRef spec10) → V28 m c b = V27 m c b :=
  fun b hb => W28_of_ne m c b fun w e => hb (Finset.mem_image.mpr ⟨w, Finset.mem_univ _, e⟩)
/-- An input window's array is never written: the region leaves it as entered. -/
theorem W28_in (c : Dev nD) (w : Fin cfg10.W) (hin : (cfg10.win w).isOut = false) :
    W28 m c (Proc.devRef .tc (Pipeline.arrRef spec10 w)) = W27 m c (Proc.devRef .tc (Pipeline.arrRef spec10 w)) :=
  (W28_arr m c w).trans (((dat10 (V27 m) c).arrAt_in w hin _).trans (A_eq10 (V27 m) c w))
/-- Region 10 changes its output arrays only (main_v106). -/
theorem W28_of (c : Dev nD) (r : Ref sig .tc) (h : r ∉ ([main_v106] : List (Ref sig .tc))) :
    W28 m c (Proc.devRef .tc r) = W27 m c (Proc.devRef .tc r) := by
  by_cases hr : ∃ w, Pipeline.arrRef spec10 w = r
  · obtain ⟨w, rfl⟩ := hr
    refine W28_in m c w ?_
    revert h; revert w; decide
  · exact W28_of_ne m c r fun w e => hr ⟨w, e⟩

/-- After the host stretch hostOps11 (item 28). -/
abbrev W29 : Dev nD → Valuation τ sig (Elt F) := fun c => StableHlo.after hostOps11 (W28 m c)
theorem W29_eq (c : Dev nD) : W29 m c = StableHlo.after hostOps11 (W28 m c) := rfl
abbrev V29 : (c : Dev nD) → (b : Ref sig .tc) → Buf (Elt F) ((c : Thread nD τ).loc b) := fun c b => W29 m c b
theorem W29_of (c : Dev nD) (r : Ref sig .tc) (h : r ∉ GenP.hostOps11_W) :
    W29 m c (Proc.devRef .tc r) = W28 m c (Proc.devRef .tc r) :=
  StableHlo.after_of_writes_sub hostOps11 _ GenP.hostOps11_writes h

/-- After region 11 (item 29): its arrays at what the pipeline's write-backs leave, every other buffer as entered. -/
def W30 (c : Dev nD) : Valuation τ sig (Elt F) :=
  Pipeline.withArrays spec11 c (W29 m c) fun w => (dat11 (V29 m) c).arrAt w cfg11.N
theorem W30_eq (c : Dev nD) :
    W30 m c = Pipeline.withArrays spec11 c (W29 m c) fun w => (dat11 (V29 m) c).arrAt w cfg11.N := rfl
theorem W30_arr (c : Dev nD) (w : Fin cfg11.W) :
    W30 m c (Proc.devRef .tc (Pipeline.arrRef spec11 w)) = (dat11 (V29 m) c).arrAt w cfg11.N := by
  unfold W30; exact Pipeline.withArrays_arr spec11 launch11.win.arr_inj c _ _ w
theorem W30_of_ne (c : Dev nD) (b : Ref sig .tc) (hb : ∀ w, Pipeline.arrRef spec11 w ≠ b) :
    W30 m c (Proc.devRef .tc b) = W29 m c (Proc.devRef .tc b) := by
  unfold W30; exact Pipeline.withArrays_of_ne spec11 c _ _ b hb
/-- The same read at the TensorCore's references. -/
abbrev V30 : (c : Dev nD) → (b : Ref sig .tc) → Buf (Elt F) ((c : Thread nD τ).loc b) := fun c b => W30 m c b
theorem hF11 (c : Dev nD) (w : Fin cfg11.W) : (dat11 (V29 m) c).arrAt w cfg11.N = V30 m c (Pipeline.arrRef spec11 w) :=
  (W30_arr m c w).symm
theorem hrest11 (c : Dev nD) : ∀ b, b ∉ Finset.univ.image (Pipeline.arrRef spec11) → V30 m c b = V29 m c b :=
  fun b hb => W30_of_ne m c b fun w e => hb (Finset.mem_image.mpr ⟨w, Finset.mem_univ _, e⟩)
/-- An input window's array is never written: the region leaves it as entered. -/
theorem W30_in (c : Dev nD) (w : Fin cfg11.W) (hin : (cfg11.win w).isOut = false) :
    W30 m c (Proc.devRef .tc (Pipeline.arrRef spec11 w)) = W29 m c (Proc.devRef .tc (Pipeline.arrRef spec11 w)) :=
  (W30_arr m c w).trans (((dat11 (V29 m) c).arrAt_in w hin _).trans (A_eq11 (V29 m) c w))
/-- Region 11 changes its output arrays only (main_v108_0, main_v108_1, main_v108_2). -/
theorem W30_of (c : Dev nD) (r : Ref sig .tc) (h : r ∉ ([main_v108_0, main_v108_1, main_v108_2] : List (Ref sig .tc))) :
    W30 m c (Proc.devRef .tc r) = W29 m c (Proc.devRef .tc r) := by
  by_cases hr : ∃ w, Pipeline.arrRef spec11 w = r
  · obtain ⟨w, rfl⟩ := hr
    refine W30_in m c w ?_
    revert h; revert w; decide
  · exact W30_of_ne m c r fun w e => hr ⟨w, e⟩

/-- After the host stretch hostOps12 (item 30). -/
abbrev W31 : Dev nD → Valuation τ sig (Elt F) := fun c => StableHlo.after hostOps12 (W30 m c)
theorem W31_eq (c : Dev nD) : W31 m c = StableHlo.after hostOps12 (W30 m c) := rfl
abbrev V31 : (c : Dev nD) → (b : Ref sig .tc) → Buf (Elt F) ((c : Thread nD τ).loc b) := fun c b => W31 m c b
theorem W31_of (c : Dev nD) (r : Ref sig .tc) (h : r ∉ GenP.hostOps12_W) :
    W31 m c (Proc.devRef .tc r) = W30 m c (Proc.devRef .tc r) :=
  StableHlo.after_of_writes_sub hostOps12 _ GenP.hostOps12_writes h

/-- After region 12 (item 31): its arrays at what the pipeline's write-backs leave, every other buffer as entered. -/
def W32 (c : Dev nD) : Valuation τ sig (Elt F) :=
  Pipeline.withArrays spec12 c (W31 m c) fun w => (dat12 (V31 m) c).arrAt w cfg12.N
theorem W32_eq (c : Dev nD) :
    W32 m c = Pipeline.withArrays spec12 c (W31 m c) fun w => (dat12 (V31 m) c).arrAt w cfg12.N := rfl
theorem W32_arr (c : Dev nD) (w : Fin cfg12.W) :
    W32 m c (Proc.devRef .tc (Pipeline.arrRef spec12 w)) = (dat12 (V31 m) c).arrAt w cfg12.N := by
  unfold W32; exact Pipeline.withArrays_arr spec12 launch12.win.arr_inj c _ _ w
theorem W32_of_ne (c : Dev nD) (b : Ref sig .tc) (hb : ∀ w, Pipeline.arrRef spec12 w ≠ b) :
    W32 m c (Proc.devRef .tc b) = W31 m c (Proc.devRef .tc b) := by
  unfold W32; exact Pipeline.withArrays_of_ne spec12 c _ _ b hb
/-- The same read at the TensorCore's references. -/
abbrev V32 : (c : Dev nD) → (b : Ref sig .tc) → Buf (Elt F) ((c : Thread nD τ).loc b) := fun c b => W32 m c b
theorem hF12 (c : Dev nD) (w : Fin cfg12.W) : (dat12 (V31 m) c).arrAt w cfg12.N = V32 m c (Pipeline.arrRef spec12 w) :=
  (W32_arr m c w).symm
theorem hrest12 (c : Dev nD) : ∀ b, b ∉ Finset.univ.image (Pipeline.arrRef spec12) → V32 m c b = V31 m c b :=
  fun b hb => W32_of_ne m c b fun w e => hb (Finset.mem_image.mpr ⟨w, Finset.mem_univ _, e⟩)
/-- An input window's array is never written: the region leaves it as entered. -/
theorem W32_in (c : Dev nD) (w : Fin cfg12.W) (hin : (cfg12.win w).isOut = false) :
    W32 m c (Proc.devRef .tc (Pipeline.arrRef spec12 w)) = W31 m c (Proc.devRef .tc (Pipeline.arrRef spec12 w)) :=
  (W32_arr m c w).trans (((dat12 (V31 m) c).arrAt_in w hin _).trans (A_eq12 (V31 m) c w))
/-- Region 12 changes its output arrays only (main_v123). -/
theorem W32_of (c : Dev nD) (r : Ref sig .tc) (h : r ∉ ([main_v123] : List (Ref sig .tc))) :
    W32 m c (Proc.devRef .tc r) = W31 m c (Proc.devRef .tc r) := by
  by_cases hr : ∃ w, Pipeline.arrRef spec12 w = r
  · obtain ⟨w, rfl⟩ := hr
    refine W32_in m c w ?_
    revert h; revert w; decide
  · exact W32_of_ne m c r fun w e => hr ⟨w, e⟩

/-- After the host stretch hostOps13 (item 32). -/
abbrev W33 : Dev nD → Valuation τ sig (Elt F) := fun c => StableHlo.after hostOps13 (W32 m c)
theorem W33_eq (c : Dev nD) : W33 m c = StableHlo.after hostOps13 (W32 m c) := rfl
abbrev V33 : (c : Dev nD) → (b : Ref sig .tc) → Buf (Elt F) ((c : Thread nD τ).loc b) := fun c b => W33 m c b
theorem W33_of (c : Dev nD) (r : Ref sig .tc) (h : r ∉ GenP.hostOps13_W) :
    W33 m c (Proc.devRef .tc r) = W32 m c (Proc.devRef .tc r) :=
  StableHlo.after_of_writes_sub hostOps13 _ GenP.hostOps13_writes h

/-- After the host stretch hostOps13_1 (item 33). -/
abbrev W34 : Dev nD → Valuation τ sig (Elt F) := fun c => StableHlo.after hostOps13_1 (W33 m c)
theorem W34_eq (c : Dev nD) : W34 m c = StableHlo.after hostOps13_1 (W33 m c) := rfl
abbrev V34 : (c : Dev nD) → (b : Ref sig .tc) → Buf (Elt F) ((c : Thread nD τ).loc b) := fun c b => W34 m c b
theorem W34_of (c : Dev nD) (r : Ref sig .tc) (h : r ∉ GenP.hostOps13_1_W) :
    W34 m c (Proc.devRef .tc r) = W33 m c (Proc.devRef .tc r) :=
  StableHlo.after_of_writes_sub hostOps13_1 _ GenP.hostOps13_1_writes h

/-- After region 13 (item 34): its arrays at what the pipeline's write-backs leave, every other buffer as entered. -/
def W35 (c : Dev nD) : Valuation τ sig (Elt F) :=
  Pipeline.withArrays spec13 c (W34 m c) fun w => (dat13 (V34 m) c).arrAt w cfg13.N
theorem W35_eq (c : Dev nD) :
    W35 m c = Pipeline.withArrays spec13 c (W34 m c) fun w => (dat13 (V34 m) c).arrAt w cfg13.N := rfl
theorem W35_arr (c : Dev nD) (w : Fin cfg13.W) :
    W35 m c (Proc.devRef .tc (Pipeline.arrRef spec13 w)) = (dat13 (V34 m) c).arrAt w cfg13.N := by
  unfold W35; exact Pipeline.withArrays_arr spec13 launch13.win.arr_inj c _ _ w
theorem W35_of_ne (c : Dev nD) (b : Ref sig .tc) (hb : ∀ w, Pipeline.arrRef spec13 w ≠ b) :
    W35 m c (Proc.devRef .tc b) = W34 m c (Proc.devRef .tc b) := by
  unfold W35; exact Pipeline.withArrays_of_ne spec13 c _ _ b hb
/-- The same read at the TensorCore's references. -/
abbrev V35 : (c : Dev nD) → (b : Ref sig .tc) → Buf (Elt F) ((c : Thread nD τ).loc b) := fun c b => W35 m c b
theorem hF13 (c : Dev nD) (w : Fin cfg13.W) : (dat13 (V34 m) c).arrAt w cfg13.N = V35 m c (Pipeline.arrRef spec13 w) :=
  (W35_arr m c w).symm
theorem hrest13 (c : Dev nD) : ∀ b, b ∉ Finset.univ.image (Pipeline.arrRef spec13) → V35 m c b = V34 m c b :=
  fun b hb => W35_of_ne m c b fun w e => hb (Finset.mem_image.mpr ⟨w, Finset.mem_univ _, e⟩)
/-- An input window's array is never written: the region leaves it as entered. -/
theorem W35_in (c : Dev nD) (w : Fin cfg13.W) (hin : (cfg13.win w).isOut = false) :
    W35 m c (Proc.devRef .tc (Pipeline.arrRef spec13 w)) = W34 m c (Proc.devRef .tc (Pipeline.arrRef spec13 w)) :=
  (W35_arr m c w).trans (((dat13 (V34 m) c).arrAt_in w hin _).trans (A_eq13 (V34 m) c w))
/-- Region 13 changes its output arrays only (main_v125). -/
theorem W35_of (c : Dev nD) (r : Ref sig .tc) (h : r ∉ ([main_v125] : List (Ref sig .tc))) :
    W35 m c (Proc.devRef .tc r) = W34 m c (Proc.devRef .tc r) := by
  by_cases hr : ∃ w, Pipeline.arrRef spec13 w = r
  · obtain ⟨w, rfl⟩ := hr
    refine W35_in m c w ?_
    revert h; revert w; decide
  · exact W35_of_ne m c r fun w e => hr ⟨w, e⟩

/-- After the host stretch hostOps14 (item 35). -/
abbrev W36 : Dev nD → Valuation τ sig (Elt F) := fun c => StableHlo.after hostOps14 (W35 m c)
theorem W36_eq (c : Dev nD) : W36 m c = StableHlo.after hostOps14 (W35 m c) := rfl
abbrev V36 : (c : Dev nD) → (b : Ref sig .tc) → Buf (Elt F) ((c : Thread nD τ).loc b) := fun c b => W36 m c b
theorem W36_of (c : Dev nD) (r : Ref sig .tc) (h : r ∉ GenP.hostOps14_W) :
    W36 m c (Proc.devRef .tc r) = W35 m c (Proc.devRef .tc r) :=
  StableHlo.after_of_writes_sub hostOps14 _ GenP.hostOps14_writes h

/-- After region 14 (item 36): its arrays at what the pipeline's write-backs leave, every other buffer as entered. -/
def W37 (c : Dev nD) : Valuation τ sig (Elt F) :=
  Pipeline.withArrays spec14 c (W36 m c) fun w => (dat14 (V36 m) c).arrAt w cfg14.N
theorem W37_eq (c : Dev nD) :
    W37 m c = Pipeline.withArrays spec14 c (W36 m c) fun w => (dat14 (V36 m) c).arrAt w cfg14.N := rfl
theorem W37_arr (c : Dev nD) (w : Fin cfg14.W) :
    W37 m c (Proc.devRef .tc (Pipeline.arrRef spec14 w)) = (dat14 (V36 m) c).arrAt w cfg14.N := by
  unfold W37; exact Pipeline.withArrays_arr spec14 launch14.win.arr_inj c _ _ w
theorem W37_of_ne (c : Dev nD) (b : Ref sig .tc) (hb : ∀ w, Pipeline.arrRef spec14 w ≠ b) :
    W37 m c (Proc.devRef .tc b) = W36 m c (Proc.devRef .tc b) := by
  unfold W37; exact Pipeline.withArrays_of_ne spec14 c _ _ b hb
/-- The same read at the TensorCore's references. -/
abbrev V37 : (c : Dev nD) → (b : Ref sig .tc) → Buf (Elt F) ((c : Thread nD τ).loc b) := fun c b => W37 m c b
theorem hF14 (c : Dev nD) (w : Fin cfg14.W) : (dat14 (V36 m) c).arrAt w cfg14.N = V37 m c (Pipeline.arrRef spec14 w) :=
  (W37_arr m c w).symm
theorem hrest14 (c : Dev nD) : ∀ b, b ∉ Finset.univ.image (Pipeline.arrRef spec14) → V37 m c b = V36 m c b :=
  fun b hb => W37_of_ne m c b fun w e => hb (Finset.mem_image.mpr ⟨w, Finset.mem_univ _, e⟩)
/-- An input window's array is never written: the region leaves it as entered. -/
theorem W37_in (c : Dev nD) (w : Fin cfg14.W) (hin : (cfg14.win w).isOut = false) :
    W37 m c (Proc.devRef .tc (Pipeline.arrRef spec14 w)) = W36 m c (Proc.devRef .tc (Pipeline.arrRef spec14 w)) :=
  (W37_arr m c w).trans (((dat14 (V36 m) c).arrAt_in w hin _).trans (A_eq14 (V36 m) c w))
/-- Region 14 changes its output arrays only (main_v127). -/
theorem W37_of (c : Dev nD) (r : Ref sig .tc) (h : r ∉ ([main_v127] : List (Ref sig .tc))) :
    W37 m c (Proc.devRef .tc r) = W36 m c (Proc.devRef .tc r) := by
  by_cases hr : ∃ w, Pipeline.arrRef spec14 w = r
  · obtain ⟨w, rfl⟩ := hr
    refine W37_in m c w ?_
    revert h; revert w; decide
  · exact W37_of_ne m c r fun w e => hr ⟨w, e⟩

/-! ## No item writes an argument array -/

/-- The argument main_arg0 reaches the end as launched. -/
theorem W37_main_arg0 (c : Dev nD) : W37 m c (Proc.devRef .tc main_arg0) = m ((c : Thread nD τ).loc main_arg0) :=
  (W37_of m c main_arg0 (by decide)).trans <| (W36_of m c main_arg0 (by decide)).trans <| (W35_of m c main_arg0 (by decide)).trans <| (W34_of m c main_arg0 (by decide)).trans <| (W33_of m c main_arg0 (by decide)).trans <| (W32_of m c main_arg0 (by decide)).trans <| (W31_of m c main_arg0 (by decide)).trans <| (W30_of m c main_arg0 (by decide)).trans <| (W29_of m c main_arg0 (by decide)).trans <| (W28_of m c main_arg0 (by decide)).trans <| (W27_of m c main_arg0 (by decide)).trans <| (W26_of m c main_arg0 (by decide)).trans <| (W25_of m c main_arg0 (by decide)).trans <| (W24_of m c main_arg0 (by decide)).trans <| (W23_of m c main_arg0 (by decide)).trans <| (W22_of m c main_arg0 (by decide)).trans <| (W21_of m c main_arg0 (by decide)).trans <| (W20_of m c main_arg0 (by decide)).trans <| (W19_of m c main_arg0 (by decide)).trans <| (W18_of m c main_arg0 (by decide)).trans <| (W17_of m c main_arg0 (by decide)).trans <| (W16_of m c main_arg0 (by decide)).trans <| (W15_of m c main_arg0 (by decide)).trans <| (W14_of m c main_arg0 (by decide)).trans <| (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans rfl
/-- The argument main_arg1 reaches the end as launched. -/
theorem W37_main_arg1 (c : Dev nD) : W37 m c (Proc.devRef .tc main_arg1) = m ((c : Thread nD τ).loc main_arg1) :=
  (W37_of m c main_arg1 (by decide)).trans <| (W36_of m c main_arg1 (by decide)).trans <| (W35_of m c main_arg1 (by decide)).trans <| (W34_of m c main_arg1 (by decide)).trans <| (W33_of m c main_arg1 (by decide)).trans <| (W32_of m c main_arg1 (by decide)).trans <| (W31_of m c main_arg1 (by decide)).trans <| (W30_of m c main_arg1 (by decide)).trans <| (W29_of m c main_arg1 (by decide)).trans <| (W28_of m c main_arg1 (by decide)).trans <| (W27_of m c main_arg1 (by decide)).trans <| (W26_of m c main_arg1 (by decide)).trans <| (W25_of m c main_arg1 (by decide)).trans <| (W24_of m c main_arg1 (by decide)).trans <| (W23_of m c main_arg1 (by decide)).trans <| (W22_of m c main_arg1 (by decide)).trans <| (W21_of m c main_arg1 (by decide)).trans <| (W20_of m c main_arg1 (by decide)).trans <| (W19_of m c main_arg1 (by decide)).trans <| (W18_of m c main_arg1 (by decide)).trans <| (W17_of m c main_arg1 (by decide)).trans <| (W16_of m c main_arg1 (by decide)).trans <| (W15_of m c main_arg1 (by decide)).trans <| (W14_of m c main_arg1 (by decide)).trans <| (W13_of m c main_arg1 (by decide)).trans <| (W12_of m c main_arg1 (by decide)).trans <| (W11_of m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans rfl
/-- The argument main_arg2 reaches the end as launched. -/
theorem W37_main_arg2 (c : Dev nD) : W37 m c (Proc.devRef .tc main_arg2) = m ((c : Thread nD τ).loc main_arg2) :=
  (W37_of m c main_arg2 (by decide)).trans <| (W36_of m c main_arg2 (by decide)).trans <| (W35_of m c main_arg2 (by decide)).trans <| (W34_of m c main_arg2 (by decide)).trans <| (W33_of m c main_arg2 (by decide)).trans <| (W32_of m c main_arg2 (by decide)).trans <| (W31_of m c main_arg2 (by decide)).trans <| (W30_of m c main_arg2 (by decide)).trans <| (W29_of m c main_arg2 (by decide)).trans <| (W28_of m c main_arg2 (by decide)).trans <| (W27_of m c main_arg2 (by decide)).trans <| (W26_of m c main_arg2 (by decide)).trans <| (W25_of m c main_arg2 (by decide)).trans <| (W24_of m c main_arg2 (by decide)).trans <| (W23_of m c main_arg2 (by decide)).trans <| (W22_of m c main_arg2 (by decide)).trans <| (W21_of m c main_arg2 (by decide)).trans <| (W20_of m c main_arg2 (by decide)).trans <| (W19_of m c main_arg2 (by decide)).trans <| (W18_of m c main_arg2 (by decide)).trans <| (W17_of m c main_arg2 (by decide)).trans <| (W16_of m c main_arg2 (by decide)).trans <| (W15_of m c main_arg2 (by decide)).trans <| (W14_of m c main_arg2 (by decide)).trans <| (W13_of m c main_arg2 (by decide)).trans <| (W12_of m c main_arg2 (by decide)).trans <| (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans rfl
/-- The argument main_arg3 reaches the end as launched. -/
theorem W37_main_arg3 (c : Dev nD) : W37 m c (Proc.devRef .tc main_arg3) = m ((c : Thread nD τ).loc main_arg3) :=
  (W37_of m c main_arg3 (by decide)).trans <| (W36_of m c main_arg3 (by decide)).trans <| (W35_of m c main_arg3 (by decide)).trans <| (W34_of m c main_arg3 (by decide)).trans <| (W33_of m c main_arg3 (by decide)).trans <| (W32_of m c main_arg3 (by decide)).trans <| (W31_of m c main_arg3 (by decide)).trans <| (W30_of m c main_arg3 (by decide)).trans <| (W29_of m c main_arg3 (by decide)).trans <| (W28_of m c main_arg3 (by decide)).trans <| (W27_of m c main_arg3 (by decide)).trans <| (W26_of m c main_arg3 (by decide)).trans <| (W25_of m c main_arg3 (by decide)).trans <| (W24_of m c main_arg3 (by decide)).trans <| (W23_of m c main_arg3 (by decide)).trans <| (W22_of m c main_arg3 (by decide)).trans <| (W21_of m c main_arg3 (by decide)).trans <| (W20_of m c main_arg3 (by decide)).trans <| (W19_of m c main_arg3 (by decide)).trans <| (W18_of m c main_arg3 (by decide)).trans <| (W17_of m c main_arg3 (by decide)).trans <| (W16_of m c main_arg3 (by decide)).trans <| (W15_of m c main_arg3 (by decide)).trans <| (W14_of m c main_arg3 (by decide)).trans <| (W13_of m c main_arg3 (by decide)).trans <| (W12_of m c main_arg3 (by decide)).trans <| (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans rfl
/-- The argument main_arg4 reaches the end as launched. -/
theorem W37_main_arg4 (c : Dev nD) : W37 m c (Proc.devRef .tc main_arg4) = m ((c : Thread nD τ).loc main_arg4) :=
  (W37_of m c main_arg4 (by decide)).trans <| (W36_of m c main_arg4 (by decide)).trans <| (W35_of m c main_arg4 (by decide)).trans <| (W34_of m c main_arg4 (by decide)).trans <| (W33_of m c main_arg4 (by decide)).trans <| (W32_of m c main_arg4 (by decide)).trans <| (W31_of m c main_arg4 (by decide)).trans <| (W30_of m c main_arg4 (by decide)).trans <| (W29_of m c main_arg4 (by decide)).trans <| (W28_of m c main_arg4 (by decide)).trans <| (W27_of m c main_arg4 (by decide)).trans <| (W26_of m c main_arg4 (by decide)).trans <| (W25_of m c main_arg4 (by decide)).trans <| (W24_of m c main_arg4 (by decide)).trans <| (W23_of m c main_arg4 (by decide)).trans <| (W22_of m c main_arg4 (by decide)).trans <| (W21_of m c main_arg4 (by decide)).trans <| (W20_of m c main_arg4 (by decide)).trans <| (W19_of m c main_arg4 (by decide)).trans <| (W18_of m c main_arg4 (by decide)).trans <| (W17_of m c main_arg4 (by decide)).trans <| (W16_of m c main_arg4 (by decide)).trans <| (W15_of m c main_arg4 (by decide)).trans <| (W14_of m c main_arg4 (by decide)).trans <| (W13_of m c main_arg4 (by decide)).trans <| (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans rfl
/-- The argument main_arg5 reaches the end as launched. -/
theorem W37_main_arg5 (c : Dev nD) : W37 m c (Proc.devRef .tc main_arg5) = m ((c : Thread nD τ).loc main_arg5) :=
  (W37_of m c main_arg5 (by decide)).trans <| (W36_of m c main_arg5 (by decide)).trans <| (W35_of m c main_arg5 (by decide)).trans <| (W34_of m c main_arg5 (by decide)).trans <| (W33_of m c main_arg5 (by decide)).trans <| (W32_of m c main_arg5 (by decide)).trans <| (W31_of m c main_arg5 (by decide)).trans <| (W30_of m c main_arg5 (by decide)).trans <| (W29_of m c main_arg5 (by decide)).trans <| (W28_of m c main_arg5 (by decide)).trans <| (W27_of m c main_arg5 (by decide)).trans <| (W26_of m c main_arg5 (by decide)).trans <| (W25_of m c main_arg5 (by decide)).trans <| (W24_of m c main_arg5 (by decide)).trans <| (W23_of m c main_arg5 (by decide)).trans <| (W22_of m c main_arg5 (by decide)).trans <| (W21_of m c main_arg5 (by decide)).trans <| (W20_of m c main_arg5 (by decide)).trans <| (W19_of m c main_arg5 (by decide)).trans <| (W18_of m c main_arg5 (by decide)).trans <| (W17_of m c main_arg5 (by decide)).trans <| (W16_of m c main_arg5 (by decide)).trans <| (W15_of m c main_arg5 (by decide)).trans <| (W14_of m c main_arg5 (by decide)).trans <| (W13_of m c main_arg5 (by decide)).trans <| (W12_of m c main_arg5 (by decide)).trans <| (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans rfl
/-- The argument main_arg6 reaches the end as launched. -/
theorem W37_main_arg6 (c : Dev nD) : W37 m c (Proc.devRef .tc main_arg6) = m ((c : Thread nD τ).loc main_arg6) :=
  (W37_of m c main_arg6 (by decide)).trans <| (W36_of m c main_arg6 (by decide)).trans <| (W35_of m c main_arg6 (by decide)).trans <| (W34_of m c main_arg6 (by decide)).trans <| (W33_of m c main_arg6 (by decide)).trans <| (W32_of m c main_arg6 (by decide)).trans <| (W31_of m c main_arg6 (by decide)).trans <| (W30_of m c main_arg6 (by decide)).trans <| (W29_of m c main_arg6 (by decide)).trans <| (W28_of m c main_arg6 (by decide)).trans <| (W27_of m c main_arg6 (by decide)).trans <| (W26_of m c main_arg6 (by decide)).trans <| (W25_of m c main_arg6 (by decide)).trans <| (W24_of m c main_arg6 (by decide)).trans <| (W23_of m c main_arg6 (by decide)).trans <| (W22_of m c main_arg6 (by decide)).trans <| (W21_of m c main_arg6 (by decide)).trans <| (W20_of m c main_arg6 (by decide)).trans <| (W19_of m c main_arg6 (by decide)).trans <| (W18_of m c main_arg6 (by decide)).trans <| (W17_of m c main_arg6 (by decide)).trans <| (W16_of m c main_arg6 (by decide)).trans <| (W15_of m c main_arg6 (by decide)).trans <| (W14_of m c main_arg6 (by decide)).trans <| (W13_of m c main_arg6 (by decide)).trans <| (W12_of m c main_arg6 (by decide)).trans <| (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans rfl
/-- The argument main_arg7 reaches the end as launched. -/
theorem W37_main_arg7 (c : Dev nD) : W37 m c (Proc.devRef .tc main_arg7) = m ((c : Thread nD τ).loc main_arg7) :=
  (W37_of m c main_arg7 (by decide)).trans <| (W36_of m c main_arg7 (by decide)).trans <| (W35_of m c main_arg7 (by decide)).trans <| (W34_of m c main_arg7 (by decide)).trans <| (W33_of m c main_arg7 (by decide)).trans <| (W32_of m c main_arg7 (by decide)).trans <| (W31_of m c main_arg7 (by decide)).trans <| (W30_of m c main_arg7 (by decide)).trans <| (W29_of m c main_arg7 (by decide)).trans <| (W28_of m c main_arg7 (by decide)).trans <| (W27_of m c main_arg7 (by decide)).trans <| (W26_of m c main_arg7 (by decide)).trans <| (W25_of m c main_arg7 (by decide)).trans <| (W24_of m c main_arg7 (by decide)).trans <| (W23_of m c main_arg7 (by decide)).trans <| (W22_of m c main_arg7 (by decide)).trans <| (W21_of m c main_arg7 (by decide)).trans <| (W20_of m c main_arg7 (by decide)).trans <| (W19_of m c main_arg7 (by decide)).trans <| (W18_of m c main_arg7 (by decide)).trans <| (W17_of m c main_arg7 (by decide)).trans <| (W16_of m c main_arg7 (by decide)).trans <| (W15_of m c main_arg7 (by decide)).trans <| (W14_of m c main_arg7 (by decide)).trans <| (W13_of m c main_arg7 (by decide)).trans <| (W12_of m c main_arg7 (by decide)).trans <| (W11_of m c main_arg7 (by decide)).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans rfl
/-- The argument main_arg8 reaches the end as launched. -/
theorem W37_main_arg8 (c : Dev nD) : W37 m c (Proc.devRef .tc main_arg8) = m ((c : Thread nD τ).loc main_arg8) :=
  (W37_of m c main_arg8 (by decide)).trans <| (W36_of m c main_arg8 (by decide)).trans <| (W35_of m c main_arg8 (by decide)).trans <| (W34_of m c main_arg8 (by decide)).trans <| (W33_of m c main_arg8 (by decide)).trans <| (W32_of m c main_arg8 (by decide)).trans <| (W31_of m c main_arg8 (by decide)).trans <| (W30_of m c main_arg8 (by decide)).trans <| (W29_of m c main_arg8 (by decide)).trans <| (W28_of m c main_arg8 (by decide)).trans <| (W27_of m c main_arg8 (by decide)).trans <| (W26_of m c main_arg8 (by decide)).trans <| (W25_of m c main_arg8 (by decide)).trans <| (W24_of m c main_arg8 (by decide)).trans <| (W23_of m c main_arg8 (by decide)).trans <| (W22_of m c main_arg8 (by decide)).trans <| (W21_of m c main_arg8 (by decide)).trans <| (W20_of m c main_arg8 (by decide)).trans <| (W19_of m c main_arg8 (by decide)).trans <| (W18_of m c main_arg8 (by decide)).trans <| (W17_of m c main_arg8 (by decide)).trans <| (W16_of m c main_arg8 (by decide)).trans <| (W15_of m c main_arg8 (by decide)).trans <| (W14_of m c main_arg8 (by decide)).trans <| (W13_of m c main_arg8 (by decide)).trans <| (W12_of m c main_arg8 (by decide)).trans <| (W11_of m c main_arg8 (by decide)).trans <| (W10_of m c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide)).trans rfl
/-- The argument main_arg9 reaches the end as launched. -/
theorem W37_main_arg9 (c : Dev nD) : W37 m c (Proc.devRef .tc main_arg9) = m ((c : Thread nD τ).loc main_arg9) :=
  (W37_of m c main_arg9 (by decide)).trans <| (W36_of m c main_arg9 (by decide)).trans <| (W35_of m c main_arg9 (by decide)).trans <| (W34_of m c main_arg9 (by decide)).trans <| (W33_of m c main_arg9 (by decide)).trans <| (W32_of m c main_arg9 (by decide)).trans <| (W31_of m c main_arg9 (by decide)).trans <| (W30_of m c main_arg9 (by decide)).trans <| (W29_of m c main_arg9 (by decide)).trans <| (W28_of m c main_arg9 (by decide)).trans <| (W27_of m c main_arg9 (by decide)).trans <| (W26_of m c main_arg9 (by decide)).trans <| (W25_of m c main_arg9 (by decide)).trans <| (W24_of m c main_arg9 (by decide)).trans <| (W23_of m c main_arg9 (by decide)).trans <| (W22_of m c main_arg9 (by decide)).trans <| (W21_of m c main_arg9 (by decide)).trans <| (W20_of m c main_arg9 (by decide)).trans <| (W19_of m c main_arg9 (by decide)).trans <| (W18_of m c main_arg9 (by decide)).trans <| (W17_of m c main_arg9 (by decide)).trans <| (W16_of m c main_arg9 (by decide)).trans <| (W15_of m c main_arg9 (by decide)).trans <| (W14_of m c main_arg9 (by decide)).trans <| (W13_of m c main_arg9 (by decide)).trans <| (W12_of m c main_arg9 (by decide)).trans <| (W11_of m c main_arg9 (by decide)).trans <| (W10_of m c main_arg9 (by decide)).trans <| (W9_of m c main_arg9 (by decide)).trans <| (W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide)).trans rfl
/-- The argument main_arg10 reaches the end as launched. -/
theorem W37_main_arg10 (c : Dev nD) : W37 m c (Proc.devRef .tc main_arg10) = m ((c : Thread nD τ).loc main_arg10) :=
  (W37_of m c main_arg10 (by decide)).trans <| (W36_of m c main_arg10 (by decide)).trans <| (W35_of m c main_arg10 (by decide)).trans <| (W34_of m c main_arg10 (by decide)).trans <| (W33_of m c main_arg10 (by decide)).trans <| (W32_of m c main_arg10 (by decide)).trans <| (W31_of m c main_arg10 (by decide)).trans <| (W30_of m c main_arg10 (by decide)).trans <| (W29_of m c main_arg10 (by decide)).trans <| (W28_of m c main_arg10 (by decide)).trans <| (W27_of m c main_arg10 (by decide)).trans <| (W26_of m c main_arg10 (by decide)).trans <| (W25_of m c main_arg10 (by decide)).trans <| (W24_of m c main_arg10 (by decide)).trans <| (W23_of m c main_arg10 (by decide)).trans <| (W22_of m c main_arg10 (by decide)).trans <| (W21_of m c main_arg10 (by decide)).trans <| (W20_of m c main_arg10 (by decide)).trans <| (W19_of m c main_arg10 (by decide)).trans <| (W18_of m c main_arg10 (by decide)).trans <| (W17_of m c main_arg10 (by decide)).trans <| (W16_of m c main_arg10 (by decide)).trans <| (W15_of m c main_arg10 (by decide)).trans <| (W14_of m c main_arg10 (by decide)).trans <| (W13_of m c main_arg10 (by decide)).trans <| (W12_of m c main_arg10 (by decide)).trans <| (W11_of m c main_arg10 (by decide)).trans <| (W10_of m c main_arg10 (by decide)).trans <| (W9_of m c main_arg10 (by decide)).trans <| (W8_of m c main_arg10 (by decide)).trans <| (W7_of m c main_arg10 (by decide)).trans <| (W6_of m c main_arg10 (by decide)).trans <| (W5_of m c main_arg10 (by decide)).trans <| (W4_of m c main_arg10 (by decide)).trans <| (W3_of m c main_arg10 (by decide)).trans <| (W2_of m c main_arg10 (by decide)).trans <| (W1_of m c main_arg10 (by decide)).trans rfl
/-- The argument main_arg11 reaches the end as launched. -/
theorem W37_main_arg11 (c : Dev nD) : W37 m c (Proc.devRef .tc main_arg11) = m ((c : Thread nD τ).loc main_arg11) :=
  (W37_of m c main_arg11 (by decide)).trans <| (W36_of m c main_arg11 (by decide)).trans <| (W35_of m c main_arg11 (by decide)).trans <| (W34_of m c main_arg11 (by decide)).trans <| (W33_of m c main_arg11 (by decide)).trans <| (W32_of m c main_arg11 (by decide)).trans <| (W31_of m c main_arg11 (by decide)).trans <| (W30_of m c main_arg11 (by decide)).trans <| (W29_of m c main_arg11 (by decide)).trans <| (W28_of m c main_arg11 (by decide)).trans <| (W27_of m c main_arg11 (by decide)).trans <| (W26_of m c main_arg11 (by decide)).trans <| (W25_of m c main_arg11 (by decide)).trans <| (W24_of m c main_arg11 (by decide)).trans <| (W23_of m c main_arg11 (by decide)).trans <| (W22_of m c main_arg11 (by decide)).trans <| (W21_of m c main_arg11 (by decide)).trans <| (W20_of m c main_arg11 (by decide)).trans <| (W19_of m c main_arg11 (by decide)).trans <| (W18_of m c main_arg11 (by decide)).trans <| (W17_of m c main_arg11 (by decide)).trans <| (W16_of m c main_arg11 (by decide)).trans <| (W15_of m c main_arg11 (by decide)).trans <| (W14_of m c main_arg11 (by decide)).trans <| (W13_of m c main_arg11 (by decide)).trans <| (W12_of m c main_arg11 (by decide)).trans <| (W11_of m c main_arg11 (by decide)).trans <| (W10_of m c main_arg11 (by decide)).trans <| (W9_of m c main_arg11 (by decide)).trans <| (W8_of m c main_arg11 (by decide)).trans <| (W7_of m c main_arg11 (by decide)).trans <| (W6_of m c main_arg11 (by decide)).trans <| (W5_of m c main_arg11 (by decide)).trans <| (W4_of m c main_arg11 (by decide)).trans <| (W3_of m c main_arg11 (by decide)).trans <| (W2_of m c main_arg11 (by decide)).trans <| (W1_of m c main_arg11 (by decide)).trans rfl
/-- The argument main_arg12 reaches the end as launched. -/
theorem W37_main_arg12 (c : Dev nD) : W37 m c (Proc.devRef .tc main_arg12) = m ((c : Thread nD τ).loc main_arg12) :=
  (W37_of m c main_arg12 (by decide)).trans <| (W36_of m c main_arg12 (by decide)).trans <| (W35_of m c main_arg12 (by decide)).trans <| (W34_of m c main_arg12 (by decide)).trans <| (W33_of m c main_arg12 (by decide)).trans <| (W32_of m c main_arg12 (by decide)).trans <| (W31_of m c main_arg12 (by decide)).trans <| (W30_of m c main_arg12 (by decide)).trans <| (W29_of m c main_arg12 (by decide)).trans <| (W28_of m c main_arg12 (by decide)).trans <| (W27_of m c main_arg12 (by decide)).trans <| (W26_of m c main_arg12 (by decide)).trans <| (W25_of m c main_arg12 (by decide)).trans <| (W24_of m c main_arg12 (by decide)).trans <| (W23_of m c main_arg12 (by decide)).trans <| (W22_of m c main_arg12 (by decide)).trans <| (W21_of m c main_arg12 (by decide)).trans <| (W20_of m c main_arg12 (by decide)).trans <| (W19_of m c main_arg12 (by decide)).trans <| (W18_of m c main_arg12 (by decide)).trans <| (W17_of m c main_arg12 (by decide)).trans <| (W16_of m c main_arg12 (by decide)).trans <| (W15_of m c main_arg12 (by decide)).trans <| (W14_of m c main_arg12 (by decide)).trans <| (W13_of m c main_arg12 (by decide)).trans <| (W12_of m c main_arg12 (by decide)).trans <| (W11_of m c main_arg12 (by decide)).trans <| (W10_of m c main_arg12 (by decide)).trans <| (W9_of m c main_arg12 (by decide)).trans <| (W8_of m c main_arg12 (by decide)).trans <| (W7_of m c main_arg12 (by decide)).trans <| (W6_of m c main_arg12 (by decide)).trans <| (W5_of m c main_arg12 (by decide)).trans <| (W4_of m c main_arg12 (by decide)).trans <| (W3_of m c main_arg12 (by decide)).trans <| (W2_of m c main_arg12 (by decide)).trans <| (W1_of m c main_arg12 (by decide)).trans rfl
/-- The argument main_arg13 reaches the end as launched. -/
theorem W37_main_arg13 (c : Dev nD) : W37 m c (Proc.devRef .tc main_arg13) = m ((c : Thread nD τ).loc main_arg13) :=
  (W37_of m c main_arg13 (by decide)).trans <| (W36_of m c main_arg13 (by decide)).trans <| (W35_of m c main_arg13 (by decide)).trans <| (W34_of m c main_arg13 (by decide)).trans <| (W33_of m c main_arg13 (by decide)).trans <| (W32_of m c main_arg13 (by decide)).trans <| (W31_of m c main_arg13 (by decide)).trans <| (W30_of m c main_arg13 (by decide)).trans <| (W29_of m c main_arg13 (by decide)).trans <| (W28_of m c main_arg13 (by decide)).trans <| (W27_of m c main_arg13 (by decide)).trans <| (W26_of m c main_arg13 (by decide)).trans <| (W25_of m c main_arg13 (by decide)).trans <| (W24_of m c main_arg13 (by decide)).trans <| (W23_of m c main_arg13 (by decide)).trans <| (W22_of m c main_arg13 (by decide)).trans <| (W21_of m c main_arg13 (by decide)).trans <| (W20_of m c main_arg13 (by decide)).trans <| (W19_of m c main_arg13 (by decide)).trans <| (W18_of m c main_arg13 (by decide)).trans <| (W17_of m c main_arg13 (by decide)).trans <| (W16_of m c main_arg13 (by decide)).trans <| (W15_of m c main_arg13 (by decide)).trans <| (W14_of m c main_arg13 (by decide)).trans <| (W13_of m c main_arg13 (by decide)).trans <| (W12_of m c main_arg13 (by decide)).trans <| (W11_of m c main_arg13 (by decide)).trans <| (W10_of m c main_arg13 (by decide)).trans <| (W9_of m c main_arg13 (by decide)).trans <| (W8_of m c main_arg13 (by decide)).trans <| (W7_of m c main_arg13 (by decide)).trans <| (W6_of m c main_arg13 (by decide)).trans <| (W5_of m c main_arg13 (by decide)).trans <| (W4_of m c main_arg13 (by decide)).trans <| (W3_of m c main_arg13 (by decide)).trans <| (W2_of m c main_arg13 (by decide)).trans <| (W1_of m c main_arg13 (by decide)).trans rfl
/-- The argument main_arg14 reaches the end as launched. -/
theorem W37_main_arg14 (c : Dev nD) : W37 m c (Proc.devRef .tc main_arg14) = m ((c : Thread nD τ).loc main_arg14) :=
  (W37_of m c main_arg14 (by decide)).trans <| (W36_of m c main_arg14 (by decide)).trans <| (W35_of m c main_arg14 (by decide)).trans <| (W34_of m c main_arg14 (by decide)).trans <| (W33_of m c main_arg14 (by decide)).trans <| (W32_of m c main_arg14 (by decide)).trans <| (W31_of m c main_arg14 (by decide)).trans <| (W30_of m c main_arg14 (by decide)).trans <| (W29_of m c main_arg14 (by decide)).trans <| (W28_of m c main_arg14 (by decide)).trans <| (W27_of m c main_arg14 (by decide)).trans <| (W26_of m c main_arg14 (by decide)).trans <| (W25_of m c main_arg14 (by decide)).trans <| (W24_of m c main_arg14 (by decide)).trans <| (W23_of m c main_arg14 (by decide)).trans <| (W22_of m c main_arg14 (by decide)).trans <| (W21_of m c main_arg14 (by decide)).trans <| (W20_of m c main_arg14 (by decide)).trans <| (W19_of m c main_arg14 (by decide)).trans <| (W18_of m c main_arg14 (by decide)).trans <| (W17_of m c main_arg14 (by decide)).trans <| (W16_of m c main_arg14 (by decide)).trans <| (W15_of m c main_arg14 (by decide)).trans <| (W14_of m c main_arg14 (by decide)).trans <| (W13_of m c main_arg14 (by decide)).trans <| (W12_of m c main_arg14 (by decide)).trans <| (W11_of m c main_arg14 (by decide)).trans <| (W10_of m c main_arg14 (by decide)).trans <| (W9_of m c main_arg14 (by decide)).trans <| (W8_of m c main_arg14 (by decide)).trans <| (W7_of m c main_arg14 (by decide)).trans <| (W6_of m c main_arg14 (by decide)).trans <| (W5_of m c main_arg14 (by decide)).trans <| (W4_of m c main_arg14 (by decide)).trans <| (W3_of m c main_arg14 (by decide)).trans <| (W2_of m c main_arg14 (by decide)).trans <| (W1_of m c main_arg14 (by decide)).trans rfl
/-- The argument main_arg15 reaches the end as launched. -/
theorem W37_main_arg15 (c : Dev nD) : W37 m c (Proc.devRef .tc main_arg15) = m ((c : Thread nD τ).loc main_arg15) :=
  (W37_of m c main_arg15 (by decide)).trans <| (W36_of m c main_arg15 (by decide)).trans <| (W35_of m c main_arg15 (by decide)).trans <| (W34_of m c main_arg15 (by decide)).trans <| (W33_of m c main_arg15 (by decide)).trans <| (W32_of m c main_arg15 (by decide)).trans <| (W31_of m c main_arg15 (by decide)).trans <| (W30_of m c main_arg15 (by decide)).trans <| (W29_of m c main_arg15 (by decide)).trans <| (W28_of m c main_arg15 (by decide)).trans <| (W27_of m c main_arg15 (by decide)).trans <| (W26_of m c main_arg15 (by decide)).trans <| (W25_of m c main_arg15 (by decide)).trans <| (W24_of m c main_arg15 (by decide)).trans <| (W23_of m c main_arg15 (by decide)).trans <| (W22_of m c main_arg15 (by decide)).trans <| (W21_of m c main_arg15 (by decide)).trans <| (W20_of m c main_arg15 (by decide)).trans <| (W19_of m c main_arg15 (by decide)).trans <| (W18_of m c main_arg15 (by decide)).trans <| (W17_of m c main_arg15 (by decide)).trans <| (W16_of m c main_arg15 (by decide)).trans <| (W15_of m c main_arg15 (by decide)).trans <| (W14_of m c main_arg15 (by decide)).trans <| (W13_of m c main_arg15 (by decide)).trans <| (W12_of m c main_arg15 (by decide)).trans <| (W11_of m c main_arg15 (by decide)).trans <| (W10_of m c main_arg15 (by decide)).trans <| (W9_of m c main_arg15 (by decide)).trans <| (W8_of m c main_arg15 (by decide)).trans <| (W7_of m c main_arg15 (by decide)).trans <| (W6_of m c main_arg15 (by decide)).trans <| (W5_of m c main_arg15 (by decide)).trans <| (W4_of m c main_arg15 (by decide)).trans <| (W3_of m c main_arg15 (by decide)).trans <| (W2_of m c main_arg15 (by decide)).trans <| (W1_of m c main_arg15 (by decide)).trans rfl
/-- The argument main_arg16 reaches the end as launched. -/
theorem W37_main_arg16 (c : Dev nD) : W37 m c (Proc.devRef .tc main_arg16) = m ((c : Thread nD τ).loc main_arg16) :=
  (W37_of m c main_arg16 (by decide)).trans <| (W36_of m c main_arg16 (by decide)).trans <| (W35_of m c main_arg16 (by decide)).trans <| (W34_of m c main_arg16 (by decide)).trans <| (W33_of m c main_arg16 (by decide)).trans <| (W32_of m c main_arg16 (by decide)).trans <| (W31_of m c main_arg16 (by decide)).trans <| (W30_of m c main_arg16 (by decide)).trans <| (W29_of m c main_arg16 (by decide)).trans <| (W28_of m c main_arg16 (by decide)).trans <| (W27_of m c main_arg16 (by decide)).trans <| (W26_of m c main_arg16 (by decide)).trans <| (W25_of m c main_arg16 (by decide)).trans <| (W24_of m c main_arg16 (by decide)).trans <| (W23_of m c main_arg16 (by decide)).trans <| (W22_of m c main_arg16 (by decide)).trans <| (W21_of m c main_arg16 (by decide)).trans <| (W20_of m c main_arg16 (by decide)).trans <| (W19_of m c main_arg16 (by decide)).trans <| (W18_of m c main_arg16 (by decide)).trans <| (W17_of m c main_arg16 (by decide)).trans <| (W16_of m c main_arg16 (by decide)).trans <| (W15_of m c main_arg16 (by decide)).trans <| (W14_of m c main_arg16 (by decide)).trans <| (W13_of m c main_arg16 (by decide)).trans <| (W12_of m c main_arg16 (by decide)).trans <| (W11_of m c main_arg16 (by decide)).trans <| (W10_of m c main_arg16 (by decide)).trans <| (W9_of m c main_arg16 (by decide)).trans <| (W8_of m c main_arg16 (by decide)).trans <| (W7_of m c main_arg16 (by decide)).trans <| (W6_of m c main_arg16 (by decide)).trans <| (W5_of m c main_arg16 (by decide)).trans <| (W4_of m c main_arg16 (by decide)).trans <| (W3_of m c main_arg16 (by decide)).trans <| (W2_of m c main_arg16 (by decide)).trans <| (W1_of m c main_arg16 (by decide)).trans rfl
/-- The argument main_arg17 reaches the end as launched. -/
theorem W37_main_arg17 (c : Dev nD) : W37 m c (Proc.devRef .tc main_arg17) = m ((c : Thread nD τ).loc main_arg17) :=
  (W37_of m c main_arg17 (by decide)).trans <| (W36_of m c main_arg17 (by decide)).trans <| (W35_of m c main_arg17 (by decide)).trans <| (W34_of m c main_arg17 (by decide)).trans <| (W33_of m c main_arg17 (by decide)).trans <| (W32_of m c main_arg17 (by decide)).trans <| (W31_of m c main_arg17 (by decide)).trans <| (W30_of m c main_arg17 (by decide)).trans <| (W29_of m c main_arg17 (by decide)).trans <| (W28_of m c main_arg17 (by decide)).trans <| (W27_of m c main_arg17 (by decide)).trans <| (W26_of m c main_arg17 (by decide)).trans <| (W25_of m c main_arg17 (by decide)).trans <| (W24_of m c main_arg17 (by decide)).trans <| (W23_of m c main_arg17 (by decide)).trans <| (W22_of m c main_arg17 (by decide)).trans <| (W21_of m c main_arg17 (by decide)).trans <| (W20_of m c main_arg17 (by decide)).trans <| (W19_of m c main_arg17 (by decide)).trans <| (W18_of m c main_arg17 (by decide)).trans <| (W17_of m c main_arg17 (by decide)).trans <| (W16_of m c main_arg17 (by decide)).trans <| (W15_of m c main_arg17 (by decide)).trans <| (W14_of m c main_arg17 (by decide)).trans <| (W13_of m c main_arg17 (by decide)).trans <| (W12_of m c main_arg17 (by decide)).trans <| (W11_of m c main_arg17 (by decide)).trans <| (W10_of m c main_arg17 (by decide)).trans <| (W9_of m c main_arg17 (by decide)).trans <| (W8_of m c main_arg17 (by decide)).trans <| (W7_of m c main_arg17 (by decide)).trans <| (W6_of m c main_arg17 (by decide)).trans <| (W5_of m c main_arg17 (by decide)).trans <| (W4_of m c main_arg17 (by decide)).trans <| (W3_of m c main_arg17 (by decide)).trans <| (W2_of m c main_arg17 (by decide)).trans <| (W1_of m c main_arg17 (by decide)).trans rfl
/-- The argument main_arg18 reaches the end as launched. -/
theorem W37_main_arg18 (c : Dev nD) : W37 m c (Proc.devRef .tc main_arg18) = m ((c : Thread nD τ).loc main_arg18) :=
  (W37_of m c main_arg18 (by decide)).trans <| (W36_of m c main_arg18 (by decide)).trans <| (W35_of m c main_arg18 (by decide)).trans <| (W34_of m c main_arg18 (by decide)).trans <| (W33_of m c main_arg18 (by decide)).trans <| (W32_of m c main_arg18 (by decide)).trans <| (W31_of m c main_arg18 (by decide)).trans <| (W30_of m c main_arg18 (by decide)).trans <| (W29_of m c main_arg18 (by decide)).trans <| (W28_of m c main_arg18 (by decide)).trans <| (W27_of m c main_arg18 (by decide)).trans <| (W26_of m c main_arg18 (by decide)).trans <| (W25_of m c main_arg18 (by decide)).trans <| (W24_of m c main_arg18 (by decide)).trans <| (W23_of m c main_arg18 (by decide)).trans <| (W22_of m c main_arg18 (by decide)).trans <| (W21_of m c main_arg18 (by decide)).trans <| (W20_of m c main_arg18 (by decide)).trans <| (W19_of m c main_arg18 (by decide)).trans <| (W18_of m c main_arg18 (by decide)).trans <| (W17_of m c main_arg18 (by decide)).trans <| (W16_of m c main_arg18 (by decide)).trans <| (W15_of m c main_arg18 (by decide)).trans <| (W14_of m c main_arg18 (by decide)).trans <| (W13_of m c main_arg18 (by decide)).trans <| (W12_of m c main_arg18 (by decide)).trans <| (W11_of m c main_arg18 (by decide)).trans <| (W10_of m c main_arg18 (by decide)).trans <| (W9_of m c main_arg18 (by decide)).trans <| (W8_of m c main_arg18 (by decide)).trans <| (W7_of m c main_arg18 (by decide)).trans <| (W6_of m c main_arg18 (by decide)).trans <| (W5_of m c main_arg18 (by decide)).trans <| (W4_of m c main_arg18 (by decide)).trans <| (W3_of m c main_arg18 (by decide)).trans <| (W2_of m c main_arg18 (by decide)).trans <| (W1_of m c main_arg18 (by decide)).trans rfl
/-- The argument main_arg19 reaches the end as launched. -/
theorem W37_main_arg19 (c : Dev nD) : W37 m c (Proc.devRef .tc main_arg19) = m ((c : Thread nD τ).loc main_arg19) :=
  (W37_of m c main_arg19 (by decide)).trans <| (W36_of m c main_arg19 (by decide)).trans <| (W35_of m c main_arg19 (by decide)).trans <| (W34_of m c main_arg19 (by decide)).trans <| (W33_of m c main_arg19 (by decide)).trans <| (W32_of m c main_arg19 (by decide)).trans <| (W31_of m c main_arg19 (by decide)).trans <| (W30_of m c main_arg19 (by decide)).trans <| (W29_of m c main_arg19 (by decide)).trans <| (W28_of m c main_arg19 (by decide)).trans <| (W27_of m c main_arg19 (by decide)).trans <| (W26_of m c main_arg19 (by decide)).trans <| (W25_of m c main_arg19 (by decide)).trans <| (W24_of m c main_arg19 (by decide)).trans <| (W23_of m c main_arg19 (by decide)).trans <| (W22_of m c main_arg19 (by decide)).trans <| (W21_of m c main_arg19 (by decide)).trans <| (W20_of m c main_arg19 (by decide)).trans <| (W19_of m c main_arg19 (by decide)).trans <| (W18_of m c main_arg19 (by decide)).trans <| (W17_of m c main_arg19 (by decide)).trans <| (W16_of m c main_arg19 (by decide)).trans <| (W15_of m c main_arg19 (by decide)).trans <| (W14_of m c main_arg19 (by decide)).trans <| (W13_of m c main_arg19 (by decide)).trans <| (W12_of m c main_arg19 (by decide)).trans <| (W11_of m c main_arg19 (by decide)).trans <| (W10_of m c main_arg19 (by decide)).trans <| (W9_of m c main_arg19 (by decide)).trans <| (W8_of m c main_arg19 (by decide)).trans <| (W7_of m c main_arg19 (by decide)).trans <| (W6_of m c main_arg19 (by decide)).trans <| (W5_of m c main_arg19 (by decide)).trans <| (W4_of m c main_arg19 (by decide)).trans <| (W3_of m c main_arg19 (by decide)).trans <| (W2_of m c main_arg19 (by decide)).trans <| (W1_of m c main_arg19 (by decide)).trans rfl

/-! ## The result array at the end -/

/-- The array main_v127 ends at what region 14's write-backs to its window 2 leave. -/
theorem W37_result (c : Dev nD) : W37 m c (Proc.devRef .tc main_v127) = (dat14 (V36 m) c).arrAt 2 cfg14.N :=
  W37_arr m c 2

/-! ## The proof data family and the thread state -/

/-- The prefetched tables' admissible contents: no region has a table. -/
abbrev adm : (p : Fin 15) → (pcfgs (F := F) p).Adm := fun p => (cfgs p).toPCfg_adm
/-- Every region's proof data, each at the contents its region is entered from. -/
def pdats : (p : Fin 15) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V6 m) c
  | ⟨2, _⟩ => fun c => dat2 (V8 m) c
  | ⟨3, _⟩ => fun c => dat3 (V10 m) c
  | ⟨4, _⟩ => fun c => dat4 (V13 m) c
  | ⟨5, _⟩ => fun c => dat5 (V15 m) c
  | ⟨6, _⟩ => fun c => dat6 (V17 m) c
  | ⟨7, _⟩ => fun c => dat7 (V20 m) c
  | ⟨8, _⟩ => fun c => dat8 (V22 m) c
  | ⟨9, _⟩ => fun c => dat9 (V24 m) c
  | ⟨10, _⟩ => fun c => dat10 (V27 m) c
  | ⟨11, _⟩ => fun c => dat11 (V29 m) c
  | ⟨12, _⟩ => fun c => dat12 (V31 m) c
  | ⟨13, _⟩ => fun c => dat13 (V34 m) c
  | ⟨14, _⟩ => fun c => dat14 (V36 m) c
  | ⟨_ + 15, h⟩ => absurd h (Nat.not_lt.2 (Nat.le_add_left _ _))
abbrev 𝒱₀ : Variants := Variants.none
/-- No core owes another anything: no level is assigned. -/
abbrev Lnone : GSem nD τ sig → Finset Unit := fun _ => ∅
abbrev lv0 : GSem nD τ sig → Unit → ℕ := fun _ _ => 0
/-- What rides beside the buffers through every item: the core's generator register at some state and its debts, none. -/
abbrev Rest (c : Dev nD) : sProp 𝕄 := iprop((∃ r, prngReg c r) ∗ ∃ W, owes (c : Thread nD τ) (0 : CellTallies nD τ sig Unit) W)
/-- A host stretch as a segment over the unscoped references from given contents, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lnone lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register at some state. -/
abbrev Tlast (c : Dev nD) : sProp 𝕄 := iprop(StableHlo.held (c : Thread nD τ) (Pipeline.ucRefs τ sig) (W37 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at W3, left at W4. Its arrays are split
    out of the unscoped buffers and put back at the exit contents; the generator register goes into the region's
    invariant and comes back; nothing is owed; the kernel has no semaphore of its own. -/
def reg0 : Pipeline.RegionSeg (pcfgs (F := F)) adm (pdats m) () defs₀ 𝒱₀ Lnone lv0 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ Lnone lv0 0 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V3 m) c)
    iintro ⟨Hp, -, Hr⟩
    isplitl [Hp]; · iexact Hp
    iexact Hr
  hout c := by
    rw [Pipeline.ownSems0_none]
    refine (hout0 (V3 m) c).trans ?_
    iintro ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at W6, left at W7. Its arrays are split
    out of the unscoped buffers and put back at the exit contents; the generator register goes into the region's
    invariant and comes back; nothing is owed; the kernel has no semaphore of its own. -/
def reg1 : Pipeline.RegionSeg (pcfgs (F := F)) adm (pdats m) () defs₀ 𝒱₀ Lnone lv0 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ Lnone lv0 1 fun _ _ => rfl
  pre c := iprop(StableHlo.held (c : Thread nD τ) (Pipeline.ucRefs τ sig) (W6 m c) ∗ Rest c)
  post c := iprop(StableHlo.held (c : Thread nD τ) (Pipeline.ucRefs τ sig) (W7 m c) ∗ Rest c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V6 m) c)
    iintro ⟨Hp, -, Hr⟩
    isplitl [Hp]; · iexact Hp
    iexact Hr
  hout c := by
    rw [Pipeline.ownSems0_none]
    refine (hout1 (V6 m) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at W8, left at W9. Its arrays are split
    out of the unscoped buffers and put back at the exit contents; the generator register goes into the region's
    invariant and comes back; nothing is owed; the kernel has no semaphore of its own. -/
def reg2 : Pipeline.RegionSeg (pcfgs (F := F)) adm (pdats m) () defs₀ 𝒱₀ Lnone lv0 2 where
  win := launch2.win.to₀
  block_pos := launch2.block_pos
  stage_whole := launch2.stage_whole
  K := PEmpty
  osem k := k.elim
  ho := Pipeline.OwnSemFacts.none _
  hbody c := (body_obligation2 (V8 m) c).loose
  hwaits := Pipeline.hwaits_of_owed_zero _ _ _ _ Lnone lv0 2 fun _ _ => rfl
  pre c := iprop(StableHlo.held (c : Thread nD τ) (Pipeline.ucRefs τ sig) (W8 m c) ∗ Rest c)
  post c := iprop(StableHlo.held (c : Thread nD τ) (Pipeline.ucRefs τ sig) (W9 m c) ∗ Rest c)
  X c := iprop(∃ r, prngReg c r)
  Y c := iprop(∃ r, prngReg c r)
  Z c := Pipeline.unscopedRest (Ix := Unit) (Name := ℕ) (U := UR sig nD τ) (Lvl := ℕ) spec2 c (V8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V8 m) c)
    iintro ⟨Hp, -, Hr⟩
    isplitl [Hp]; · iexact Hp
    iexact Hr
  hout c := by
    rw [Pipeline.ownSems0_none]
    refine (hout2 (V8 m) c).trans ?_
    iintro ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V8 m c) (V9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered from every unscoped buffer at W10, left at W11. Its arrays are split
    out of the unscoped buffers and put back at the exit contents; the generator register goes into the region's
    invariant and comes back; nothing is owed; the kernel has no semaphore of its own. -/
def reg3 : Pipeline.RegionSeg (pcfgs (F := F)) adm (pdats m) () defs₀ 𝒱₀ Lnone lv0 3 where
  win := launch3.win.to₀
  block_pos := launch3.block_pos
  stage_whole := launch3.stage_whole
  K := PEmpty
  osem k := k.elim
  ho := Pipeline.OwnSemFacts.none _
  hbody c := (body_obligation3 (V10 m) c).loose
  hwaits := Pipeline.hwaits_of_owed_zero _ _ _ _ Lnone lv0 3 fun _ _ => rfl
  pre c := iprop(StableHlo.held (c : Thread nD τ) (Pipeline.ucRefs τ sig) (W10 m c) ∗ Rest c)
  post c := iprop(StableHlo.held (c : Thread nD τ) (Pipeline.ucRefs τ sig) (W11 m c) ∗ Rest c)
  X c := iprop(∃ r, prngReg c r)
  Y c := iprop(∃ r, prngReg c r)
  Z c := Pipeline.unscopedRest (Ix := Unit) (Name := ℕ) (U := UR sig nD τ) (Lvl := ℕ) spec3 c (V10 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V10 m) c)
    iintro ⟨Hp, -, Hr⟩
    isplitl [Hp]; · iexact Hp
    iexact Hr
  hout c := by
    rw [Pipeline.ownSems0_none]
    refine (hout3 (V10 m) c).trans ?_
    iintro ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V10 m c) (V11 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 4 over the thread state: entered from every unscoped buffer at W13, left at W14. Its arrays are split
    out of the unscoped buffers and put back at the exit contents; the generator register goes into the region's
    invariant and comes back; nothing is owed; the kernel has no semaphore of its own. -/
def reg4 : Pipeline.RegionSeg (pcfgs (F := F)) adm (pdats m) () defs₀ 𝒱₀ Lnone lv0 4 where
  win := launch4.win.to₀
  block_pos := launch4.block_pos
  stage_whole := launch4.stage_whole
  K := PEmpty
  osem k := k.elim
  ho := Pipeline.OwnSemFacts.none _
  hbody c := (body_obligation4 (V13 m) c).loose
  hwaits := Pipeline.hwaits_of_owed_zero _ _ _ _ Lnone lv0 4 fun _ _ => rfl
  pre c := iprop(StableHlo.held (c : Thread nD τ) (Pipeline.ucRefs τ sig) (W13 m c) ∗ Rest c)
  post c := iprop(StableHlo.held (c : Thread nD τ) (Pipeline.ucRefs τ sig) (W14 m c) ∗ Rest c)
  X c := iprop(∃ r, prngReg c r)
  Y c := iprop(∃ r, prngReg c r)
  Z c := Pipeline.unscopedRest (Ix := Unit) (Name := ℕ) (U := UR sig nD τ) (Lvl := ℕ) spec4 c (V13 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V13 m) c)
    iintro ⟨Hp, -, Hr⟩
    isplitl [Hp]; · iexact Hp
    iexact Hr
  hout c := by
    rw [Pipeline.ownSems0_none]
    refine (hout4 (V13 m) c).trans ?_
    iintro ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V13 m c) (V14 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 5 over the thread state: entered from every unscoped buffer at W15, left at W16. Its arrays are split
    out of the unscoped buffers and put back at the exit contents; the generator register goes into the region's
    invariant and comes back; nothing is owed; the kernel has no semaphore of its own. -/
def reg5 : Pipeline.RegionSeg (pcfgs (F := F)) adm (pdats m) () defs₀ 𝒱₀ Lnone lv0 5 where
  win := launch5.win.to₀
  block_pos := launch5.block_pos
  stage_whole := launch5.stage_whole
  K := PEmpty
  osem k := k.elim
  ho := Pipeline.OwnSemFacts.none _
  hbody c := (body_obligation5 (V15 m) c).loose
  hwaits := Pipeline.hwaits_of_owed_zero _ _ _ _ Lnone lv0 5 fun _ _ => rfl
  pre c := iprop(StableHlo.held (c : Thread nD τ) (Pipeline.ucRefs τ sig) (W15 m c) ∗ Rest c)
  post c := iprop(StableHlo.held (c : Thread nD τ) (Pipeline.ucRefs τ sig) (W16 m c) ∗ Rest c)
  X c := iprop(∃ r, prngReg c r)
  Y c := iprop(∃ r, prngReg c r)
  Z c := Pipeline.unscopedRest (Ix := Unit) (Name := ℕ) (U := UR sig nD τ) (Lvl := ℕ) spec5 c (V15 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (V15 m) c)
    iintro ⟨Hp, -, Hr⟩
    isplitl [Hp]; · iexact Hp
    iexact Hr
  hout c := by
    rw [Pipeline.ownSems0_none]
    refine (hout5 (V15 m) c).trans ?_
    iintro ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V15 m c) (V16 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 6 over the thread state: entered from every unscoped buffer at W17, left at W18. Its arrays are split
    out of the unscoped buffers and put back at the exit contents; the generator register goes into the region's
    invariant and comes back; nothing is owed; the kernel has no semaphore of its own. -/
def reg6 : Pipeline.RegionSeg (pcfgs (F := F)) adm (pdats m) () defs₀ 𝒱₀ Lnone lv0 6 where
  win := launch6.win.to₀
  block_pos := launch6.block_pos
  stage_whole := launch6.stage_whole
  K := PEmpty
  osem k := k.elim
  ho := Pipeline.OwnSemFacts.none _
  hbody c := (body_obligation6 (V17 m) c).loose
  hwaits := Pipeline.hwaits_of_owed_zero _ _ _ _ Lnone lv0 6 fun _ _ => rfl
  pre c := iprop(StableHlo.held (c : Thread nD τ) (Pipeline.ucRefs τ sig) (W17 m c) ∗ Rest c)
  post c := iprop(StableHlo.held (c : Thread nD τ) (Pipeline.ucRefs τ sig) (W18 m c) ∗ Rest c)
  X c := iprop(∃ r, prngReg c r)
  Y c := iprop(∃ r, prngReg c r)
  Z c := Pipeline.unscopedRest (Ix := Unit) (Name := ℕ) (U := UR sig nD τ) (Lvl := ℕ) spec6 c (V17 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (V17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (V17 m) c)
    iintro ⟨Hp, -, Hr⟩
    isplitl [Hp]; · iexact Hp
    iexact Hr
  hout c := by
    rw [Pipeline.ownSems0_none]
    refine (hout6 (V17 m) c).trans ?_
    iintro ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (V17 m c) (V18 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 7 over the thread state: entered from every unscoped buffer at W20, left at W21. Its arrays are split
    out of the unscoped buffers and put back at the exit contents; the generator register goes into the region's
    invariant and comes back; nothing is owed; the kernel has no semaphore of its own. -/
def reg7 : Pipeline.RegionSeg (pcfgs (F := F)) adm (pdats m) () defs₀ 𝒱₀ Lnone lv0 7 where
  win := launch7.win.to₀
  block_pos := launch7.block_pos
  stage_whole := launch7.stage_whole
  K := PEmpty
  osem k := k.elim
  ho := Pipeline.OwnSemFacts.none _
  hbody c := (body_obligation7 (V20 m) c).loose
  hwaits := Pipeline.hwaits_of_owed_zero _ _ _ _ Lnone lv0 7 fun _ _ => rfl
  pre c := iprop(StableHlo.held (c : Thread nD τ) (Pipeline.ucRefs τ sig) (W20 m c) ∗ Rest c)
  post c := iprop(StableHlo.held (c : Thread nD τ) (Pipeline.ucRefs τ sig) (W21 m c) ∗ Rest c)
  X c := iprop(∃ r, prngReg c r)
  Y c := iprop(∃ r, prngReg c r)
  Z c := Pipeline.unscopedRest (Ix := Unit) (Name := ℕ) (U := UR sig nD τ) (Lvl := ℕ) spec7 c (V20 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (V20 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (V20 m) c)
    iintro ⟨Hp, -, Hr⟩
    isplitl [Hp]; · iexact Hp
    iexact Hr
  hout c := by
    rw [Pipeline.ownSems0_none]
    refine (hout7 (V20 m) c).trans ?_
    iintro ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (V20 m c) (V21 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 8 over the thread state: entered from every unscoped buffer at W22, left at W23. Its arrays are split
    out of the unscoped buffers and put back at the exit contents; the generator register goes into the region's
    invariant and comes back; nothing is owed; the kernel has no semaphore of its own. -/
def reg8 : Pipeline.RegionSeg (pcfgs (F := F)) adm (pdats m) () defs₀ 𝒱₀ Lnone lv0 8 where
  win := launch8.win.to₀
  block_pos := launch8.block_pos
  stage_whole := launch8.stage_whole
  K := PEmpty
  osem k := k.elim
  ho := Pipeline.OwnSemFacts.none _
  hbody c := (body_obligation8 (V22 m) c).loose
  hwaits := Pipeline.hwaits_of_owed_zero _ _ _ _ Lnone lv0 8 fun _ _ => rfl
  pre c := iprop(StableHlo.held (c : Thread nD τ) (Pipeline.ucRefs τ sig) (W22 m c) ∗ Rest c)
  post c := iprop(StableHlo.held (c : Thread nD τ) (Pipeline.ucRefs τ sig) (W23 m c) ∗ Rest c)
  X c := iprop(∃ r, prngReg c r)
  Y c := iprop(∃ r, prngReg c r)
  Z c := Pipeline.unscopedRest (Ix := Unit) (Name := ℕ) (U := UR sig nD τ) (Lvl := ℕ) spec8 c (V22 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (V22 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin8 (V22 m) c)
    iintro ⟨Hp, -, Hr⟩
    isplitl [Hp]; · iexact Hp
    iexact Hr
  hout c := by
    rw [Pipeline.ownSems0_none]
    refine (hout8 (V22 m) c).trans ?_
    iintro ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (V22 m c) (V23 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 9 over the thread state: entered from every unscoped buffer at W24, left at W25. Its arrays are split
    out of the unscoped buffers and put back at the exit contents; the generator register goes into the region's
    invariant and comes back; nothing is owed; the kernel has no semaphore of its own. -/
def reg9 : Pipeline.RegionSeg (pcfgs (F := F)) adm (pdats m) () defs₀ 𝒱₀ Lnone lv0 9 where
  win := launch9.win.to₀
  block_pos := launch9.block_pos
  stage_whole := launch9.stage_whole
  K := PEmpty
  osem k := k.elim
  ho := Pipeline.OwnSemFacts.none _
  hbody c := (body_obligation9 (V24 m) c).loose
  hwaits := Pipeline.hwaits_of_owed_zero _ _ _ _ Lnone lv0 9 fun _ _ => rfl
  pre c := iprop(StableHlo.held (c : Thread nD τ) (Pipeline.ucRefs τ sig) (W24 m c) ∗ Rest c)
  post c := iprop(StableHlo.held (c : Thread nD τ) (Pipeline.ucRefs τ sig) (W25 m c) ∗ Rest c)
  X c := iprop(∃ r, prngReg c r)
  Y c := iprop(∃ r, prngReg c r)
  Z c := Pipeline.unscopedRest (Ix := Unit) (Name := ℕ) (U := UR sig nD τ) (Lvl := ℕ) spec9 c (V24 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (V24 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin9 (V24 m) c)
    iintro ⟨Hp, -, Hr⟩
    isplitl [Hp]; · iexact Hp
    iexact Hr
  hout c := by
    rw [Pipeline.ownSems0_none]
    refine (hout9 (V24 m) c).trans ?_
    iintro ⟨Hp, Hr⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (V24 m c) (V25 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 10 over the thread state: entered from every unscoped buffer at W27, left at W28. Its arrays are split
    out of the unscoped buffers and put back at the exit contents; the generator register goes into the region's
    invariant and comes back; nothing is owed; the kernel has no semaphore of its own. -/
def reg10 : Pipeline.RegionSeg (pcfgs (F := F)) adm (pdats m) () defs₀ 𝒱₀ Lnone lv0 10 where
  win := launch10.win.to₀
  block_pos := launch10.block_pos
  stage_whole := launch10.stage_whole
  K := PEmpty
  osem k := k.elim
  ho := Pipeline.OwnSemFacts.none _
  hbody c := (body_obligation10 (V27 m) c).loose
  hwaits := Pipeline.hwaits_of_owed_zero _ _ _ _ Lnone lv0 10 fun _ _ => rfl
  pre c := iprop(StableHlo.held (c : Thread nD τ) (Pipeline.ucRefs τ sig) (W27 m c) ∗ Rest c)
  post c := iprop(StableHlo.held (c : Thread nD τ) (Pipeline.ucRefs τ sig) (W28 m c) ∗ Rest c)
  X c := iprop(∃ r, prngReg c r)
  Y c := iprop(∃ r, prngReg c r)
  Z c := Pipeline.unscopedRest (Ix := Unit) (Name := ℕ) (U := UR sig nD τ) (Lvl := ℕ) spec10 c (V27 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (V27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin10 (V27 m) c)
    iintro ⟨Hp, -, Hr⟩
    isplitl [Hp]; · iexact Hp
    iexact Hr
  hout c := by
    rw [Pipeline.ownSems0_none]
    refine (hout10 (V27 m) c).trans ?_
    iintro ⟨Hp, Hr⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (V27 m c) (V28 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 11 over the thread state: entered from every unscoped buffer at W29, left at W30. Its arrays are split
    out of the unscoped buffers and put back at the exit contents; the generator register goes into the region's
    invariant and comes back; nothing is owed; the kernel has no semaphore of its own. -/
def reg11 : Pipeline.RegionSeg (pcfgs (F := F)) adm (pdats m) () defs₀ 𝒱₀ Lnone lv0 11 where
  win := launch11.win.to₀
  block_pos := launch11.block_pos
  stage_whole := launch11.stage_whole
  K := PEmpty
  osem k := k.elim
  ho := Pipeline.OwnSemFacts.none _
  hbody c := (body_obligation11 (V29 m) c).loose
  hwaits := Pipeline.hwaits_of_owed_zero _ _ _ _ Lnone lv0 11 fun _ _ => rfl
  pre c := iprop(StableHlo.held (c : Thread nD τ) (Pipeline.ucRefs τ sig) (W29 m c) ∗ Rest c)
  post c := iprop(StableHlo.held (c : Thread nD τ) (Pipeline.ucRefs τ sig) (W30 m c) ∗ Rest c)
  X c := iprop(∃ r, prngReg c r)
  Y c := iprop(∃ r, prngReg c r)
  Z c := Pipeline.unscopedRest (Ix := Unit) (Name := ℕ) (U := UR sig nD τ) (Lvl := ℕ) spec11 c (V29 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (V29 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin11 (V29 m) c)
    iintro ⟨Hp, -, Hr⟩
    isplitl [Hp]; · iexact Hp
    iexact Hr
  hout c := by
    rw [Pipeline.ownSems0_none]
    refine (hout11 (V29 m) c).trans ?_
    iintro ⟨Hp, Hr⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (V29 m c) (V30 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 12 over the thread state: entered from every unscoped buffer at W31, left at W32. Its arrays are split
    out of the unscoped buffers and put back at the exit contents; the generator register goes into the region's
    invariant and comes back; nothing is owed; the kernel has no semaphore of its own. -/
def reg12 : Pipeline.RegionSeg (pcfgs (F := F)) adm (pdats m) () defs₀ 𝒱₀ Lnone lv0 12 where
  win := launch12.win.to₀
  block_pos := launch12.block_pos
  stage_whole := launch12.stage_whole
  K := PEmpty
  osem k := k.elim
  ho := Pipeline.OwnSemFacts.none _
  hbody c := (body_obligation12 (V31 m) c).loose
  hwaits := Pipeline.hwaits_of_owed_zero _ _ _ _ Lnone lv0 12 fun _ _ => rfl
  pre c := iprop(StableHlo.held (c : Thread nD τ) (Pipeline.ucRefs τ sig) (W31 m c) ∗ Rest c)
  post c := iprop(StableHlo.held (c : Thread nD τ) (Pipeline.ucRefs τ sig) (W32 m c) ∗ Rest c)
  X c := iprop(∃ r, prngReg c r)
  Y c := iprop(∃ r, prngReg c r)
  Z c := Pipeline.unscopedRest (Ix := Unit) (Name := ℕ) (U := UR sig nD τ) (Lvl := ℕ) spec12 c (V31 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (V31 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin12 (V31 m) c)
    iintro ⟨Hp, -, Hr⟩
    isplitl [Hp]; · iexact Hp
    iexact Hr
  hout c := by
    rw [Pipeline.ownSems0_none]
    refine (hout12 (V31 m) c).trans ?_
    iintro ⟨Hp, Hr⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (V31 m c) (V32 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 13 over the thread state: entered from every unscoped buffer at W34, left at W35. Its arrays are split
    out of the unscoped buffers and put back at the exit contents; the generator register goes into the region's
    invariant and comes back; nothing is owed; the kernel has no semaphore of its own. -/
def reg13 : Pipeline.RegionSeg (pcfgs (F := F)) adm (pdats m) () defs₀ 𝒱₀ Lnone lv0 13 where
  win := launch13.win.to₀
  block_pos := launch13.block_pos
  stage_whole := launch13.stage_whole
  K := PEmpty
  osem k := k.elim
  ho := Pipeline.OwnSemFacts.none _
  hbody c := (body_obligation13 (V34 m) c).loose
  hwaits := Pipeline.hwaits_of_owed_zero _ _ _ _ Lnone lv0 13 fun _ _ => rfl
  pre c := iprop(StableHlo.held (c : Thread nD τ) (Pipeline.ucRefs τ sig) (W34 m c) ∗ Rest c)
  post c := iprop(StableHlo.held (c : Thread nD τ) (Pipeline.ucRefs τ sig) (W35 m c) ∗ Rest c)
  X c := iprop(∃ r, prngReg c r)
  Y c := iprop(∃ r, prngReg c r)
  Z c := Pipeline.unscopedRest (Ix := Unit) (Name := ℕ) (U := UR sig nD τ) (Lvl := ℕ) spec13 c (V34 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (V34 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin13 (V34 m) c)
    iintro ⟨Hp, -, Hr⟩
    isplitl [Hp]; · iexact Hp
    iexact Hr
  hout c := by
    rw [Pipeline.ownSems0_none]
    refine (hout13 (V34 m) c).trans ?_
    iintro ⟨Hp, Hr⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (V34 m c) (V35 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 14 over the thread state: entered from every unscoped buffer at W36, left at W37. Its arrays are split
    out of the unscoped buffers and put back at the exit contents; the generator register goes into the region's
    invariant and comes back; nothing is owed; the kernel has no semaphore of its own. -/
def reg14 : Pipeline.RegionSeg (pcfgs (F := F)) adm (pdats m) () defs₀ 𝒱₀ Lnone lv0 14 where
  win := launch14.win.to₀
  block_pos := launch14.block_pos
  stage_whole := launch14.stage_whole
  K := PEmpty
  osem k := k.elim
  ho := Pipeline.OwnSemFacts.none _
  hbody c := (body_obligation14 (V36 m) c).loose
  hwaits := Pipeline.hwaits_of_owed_zero _ _ _ _ Lnone lv0 14 fun _ _ => rfl
  pre c := iprop(StableHlo.held (c : Thread nD τ) (Pipeline.ucRefs τ sig) (W36 m c) ∗ Rest c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec14 c (V36 m c)
  hentry c := by
    rw [Pipeline.ownSems0_none]
    have hsplit := Pipeline.arrays_of_unscopedBufs (p := 14) (pcfgs (F := F)) adm (pdats m) launch14.win launch14.arr_whole c
      ((pdats m 14 c).share_full fun _ => rfl) (V36 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin14 (V36 m) c)
    iintro ⟨Hp, -, Hr⟩
    isplitl [Hp]; · iexact Hp
    iexact Hr
  hout c := by
    rw [Pipeline.ownSems0_none]
    refine (hout14 (V36 m) c).trans ?_
    iintro ⟨Hp, Hr⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (V36 m c) (V37 m c) ((pdats m 14 c).arrAt · cfg14.N) (hF14 m c) (hrest14 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 37 items in order: a host segment per stretch from its contents, a region per kernel. -/
abbrev segs : List (Pipeline.Seg (pcfgs (F := F)) adm (pdats m) () defs₀ 𝒱₀ Lnone lv0) :=
  [ .host (hseg hostOps0 hostOps0_sub GenP.hostOps0_fresh (W0 m)),
    .host (hseg hostOps0_1 hostOps0_1_sub GenP.hostOps0_1_fresh (W1 m)),
    .host (hseg hostOps0_2 hostOps0_2_sub GenP.hostOps0_2_fresh (W2 m)),
    .region (reg0 m),
    .host (hseg hostOps1 hostOps1_sub GenP.hostOps1_fresh (W4 m)),
    .host (hseg hostOps1_1 hostOps1_1_sub GenP.hostOps1_1_fresh (W5 m)),
    .region (reg1 m),
    .host (hseg hostOps2 hostOps2_sub GenP.hostOps2_fresh (W7 m)),
    .region (reg2 m),
    .host (hseg hostOps3 hostOps3_sub GenP.hostOps3_fresh (W9 m)),
    .region (reg3 m),
    .host (hseg hostOps4 hostOps4_sub GenP.hostOps4_fresh (W11 m)),
    .host (hseg hostOps4_1 hostOps4_1_sub GenP.hostOps4_1_fresh (W12 m)),
    .region (reg4 m),
    .host (hseg hostOps5 hostOps5_sub GenP.hostOps5_fresh (W14 m)),
    .region (reg5 m),
    .host (hseg hostOps6 hostOps6_sub GenP.hostOps6_fresh (W16 m)),
    .region (reg6 m),
    .host (hseg hostOps7 hostOps7_sub GenP.hostOps7_fresh (W18 m)),
    .host (hseg hostOps7_1 hostOps7_1_sub GenP.hostOps7_1_fresh (W19 m)),
    .region (reg7 m),
    .host (hseg hostOps8 hostOps8_sub GenP.hostOps8_fresh (W21 m)),
    .region (reg8 m),
    .host (hseg hostOps9 hostOps9_sub GenP.hostOps9_fresh (W23 m)),
    .region (reg9 m),
    .host (hseg hostOps10 hostOps10_sub GenP.hostOps10_fresh (W25 m)),
    .host (hseg hostOps10_1 hostOps10_1_sub GenP.hostOps10_1_fresh (W26 m)),
    .region (reg10 m),
    .host (hseg hostOps11 hostOps11_sub GenP.hostOps11_fresh (W28 m)),
    .region (reg11 m),
    .host (hseg hostOps12 hostOps12_sub GenP.hostOps12_fresh (W30 m)),
    .region (reg12 m),
    .host (hseg hostOps13 hostOps13_sub GenP.hostOps13_fresh (W32 m)),
    .host (hseg hostOps13_1 hostOps13_1_sub GenP.hostOps13_1_fresh (W33 m)),
    .region (reg13 m),
    .host (hseg hostOps14 hostOps14_sub GenP.hostOps14_fresh (W35 m)),
    .region (reg14 m) ]

/-- The segments' fragments are @main's items. -/
theorem segs_prog : (segs m).map Pipeline.Seg.prog = [
    StableHlo.seq hostOps0,
    StableHlo.seq hostOps0_1,
    StableHlo.seq hostOps0_2,
    Prog.lift (.customCall (Pipeline.entry 0) ()),
    StableHlo.seq hostOps1,
    StableHlo.seq hostOps1_1,
    Prog.lift (.customCall (Pipeline.entry 1) ()),
    StableHlo.seq hostOps2,
    Prog.lift (.customCall (Pipeline.entry 2) ()),
    StableHlo.seq hostOps3,
    Prog.lift (.customCall (Pipeline.entry 3) ()),
    StableHlo.seq hostOps4,
    StableHlo.seq hostOps4_1,
    Prog.lift (.customCall (Pipeline.entry 4) ()),
    StableHlo.seq hostOps5,
    Prog.lift (.customCall (Pipeline.entry 5) ()),
    StableHlo.seq hostOps6,
    Prog.lift (.customCall (Pipeline.entry 6) ()),
    StableHlo.seq hostOps7,
    StableHlo.seq hostOps7_1,
    Prog.lift (.customCall (Pipeline.entry 7) ()),
    StableHlo.seq hostOps8,
    Prog.lift (.customCall (Pipeline.entry 8) ()),
    StableHlo.seq hostOps9,
    Prog.lift (.customCall (Pipeline.entry 9) ()),
    StableHlo.seq hostOps10,
    StableHlo.seq hostOps10_1,
    Prog.lift (.customCall (Pipeline.entry 10) ()),
    StableHlo.seq hostOps11,
    Prog.lift (.customCall (Pipeline.entry 11) ()),
    StableHlo.seq hostOps12,
    Prog.lift (.customCall (Pipeline.entry 12) ()),
    StableHlo.seq hostOps13,
    StableHlo.seq hostOps13_1,
    Prog.lift (.customCall (Pipeline.entry 13) ()),
    StableHlo.seq hostOps14,
    Prog.lift (.customCall (Pipeline.entry 14) ()) ] := rfl

-- the launch theorem's implicit arguments are found by unifying its conclusion with this one, which takes unfolding
-- plain definitions in a metavariable's type
set_option backward.isDefEq.respectTransparency.types false in
/-- THE RUN, at any postcondition that follows from the final contents of every unscoped buffer: from any memory with zero
    counters every weakly fair execution of @main on the TensorCores terminates, nothing faulting, and every final state
    holds each unscoped buffer of each core at the end of the fold. -/
theorem run_to (ρ : Dev nD → PrngReg) {Q : PUnit × MemSt nD τ sig (Elt F) → Prop}
    (hQ : ∀ s : MemSt nD τ sig (Elt F), (∀ c : Dev nD, ∀ b ∈ Pipeline.ucRefs τ sig, s.mem ((c : Thread nD τ).1, b) = W37 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ Lnone lv0 m ρ main (segs m)
    (fun c Q => by
      rewrite [main_chain c, Pipeline.Seg.run_eq_chain, segs_prog m]
      with_reducible exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tlast m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lnone lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W37 m c b)
    (hfin := fun c s' => by
      iintro ⟨⟨Hh, -⟩, HSI⟩
      unfold StableHlo.held
      imodintro
      iapply (pointsTo_read_all (Pipeline.ucRefs τ sig) (fun b => (((c : Thread nD τ)).1, b)) (W37 m c) s')
      isplitl [Hh] <;> iassumption)
    (hQ := hQ)

/-- THE RUN with the final contents stated. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W37 m c b) :=
  run_to m ρ fun s h => h

/-- THE FRAME: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  run_to m ρ fun s h c =>
    ⟨(h c _ (mem_uc main_arg0 (by decide))).trans (W37_main_arg0 m c),
     (h c _ (mem_uc main_arg1 (by decide))).trans (W37_main_arg1 m c),
     (h c _ (mem_uc main_arg2 (by decide))).trans (W37_main_arg2 m c),
     (h c _ (mem_uc main_arg3 (by decide))).trans (W37_main_arg3 m c),
     (h c _ (mem_uc main_arg4 (by decide))).trans (W37_main_arg4 m c),
     (h c _ (mem_uc main_arg5 (by decide))).trans (W37_main_arg5 m c),
     (h c _ (mem_uc main_arg6 (by decide))).trans (W37_main_arg6 m c),
     (h c _ (mem_uc main_arg7 (by decide))).trans (W37_main_arg7 m c),
     (h c _ (mem_uc main_arg8 (by decide))).trans (W37_main_arg8 m c),
     (h c _ (mem_uc main_arg9 (by decide))).trans (W37_main_arg9 m c),
     (h c _ (mem_uc main_arg10 (by decide))).trans (W37_main_arg10 m c),
     (h c _ (mem_uc main_arg11 (by decide))).trans (W37_main_arg11 m c),
     (h c _ (mem_uc main_arg12 (by decide))).trans (W37_main_arg12 m c),
     (h c _ (mem_uc main_arg13 (by decide))).trans (W37_main_arg13 m c),
     (h c _ (mem_uc main_arg14 (by decide))).trans (W37_main_arg14 m c),
     (h c _ (mem_uc main_arg15 (by decide))).trans (W37_main_arg15 m c),
     (h c _ (mem_uc main_arg16 (by decide))).trans (W37_main_arg16 m c),
     (h c _ (mem_uc main_arg17 (by decide))).trans (W37_main_arg17 m c),
     (h c _ (mem_uc main_arg18 (by decide))).trans (W37_main_arg18 m c),
     (h c _ (mem_uc main_arg19 (by decide))).trans (W37_main_arg19 m c)⟩

end Cert.Kernel.Hand

end
-- ==== Proof.HostSmall5.lean ====
import proofs.«408066_j62380105008311_2_alg».proof.Proof.Gen.KernelIdeal.Launch
import proofs.«408066_j62380105008311_2_alg».proof.Proof.Spec
import proofs.«408066_j62380105008311_2_alg».proof.Proof.LibCoe
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

/-! # The small host stretches of one layer, read as values

Between the kernel regions the program runs a few array operations on the host, the same ones layer after layer. This
module reads one layer's at an index, at the ideal values, from ANY contents `V` of the buffers on entry to the
stretch:

* the PADDING of the node features with zero rows up to a whole number of row blocks: row `s` of the result is row
  `s` of the operand while `s` is a node, and zero after the last node;
* the bias vector written as a one-row matrix.

Each operation is read at an index by its own lemma, outermost first. -/

set_option maxRecDepth 1720

noncomputable section

namespace Cert.KernelIdeal.HandV

open Cert.KernelIdeal Cert.KernelIdeal.Gen
open Idealize.ShloMosaic Idealize.ShloMosaic.TcCoe Idealize.ShloMosaic.ValueIdx
open Idealize.ShloMosaic.StableHlo

/-- The number of nodes, the number of rows after padding, and the number of columns. -/
local notation "NR" => (10000 : ℕ)
local notation "NP" => (10240 : ℕ)
local notation "WD" => (17 : ℕ)

/-! ## The padding -/

/-- The padded features read at row `s`, column `f`: the operand's entry while `s` is a node's row, and zero below
    the last node — given that the word the padding value is converted from is the integer zero. -/
theorem pad5_read (V : Valuation τ sig (Elt Ideal))
    (hc : (V main_c_27 : S_.Idx → BitVec 32) ix0 = 0#32) (s : Fin NP) (f : Fin WD) :
    (StableHlo.after hostOps13_1 V main_v124 : S10240x17.Idx → EReal) (ix2 s f)
      = if hs : s.val < NR then (V main_v123 : S10000x17.Idx → EReal) (ix2 ⟨s.val, hs⟩ f) else (0 : EReal) := by
  dsimp only [hostOps13_1]
  after_results
  simp only [TRef.ofBuf, TRef.toBuf, cast_eq]
  by_cases hs : s.val < NR
  · -- inside the operand: no low padding, no interior padding, so the coordinates are the operand's own
    rw [dif_pos hs]
    exact pad_apply_of_inside _ _ _ _ _ _ _ _ (ix2 ⟨s.val, hs⟩ f) (fun a => match a with
      | ⟨0, _⟩ => by show s.val = 0 + s.val * (0 + 1); omega
      | ⟨1, _⟩ => by show f.val = 0 + f.val * (0 + 1); omega)
  · -- past the operand's last row: the padding value, the integer zero converted
    rw [dif_neg hs]
    refine (pad_apply_of_not_inside _ _ _ _ _ _ _ _ (0 : Fin 2) (fun hin => ?_)).trans ?_
    · have h3 : s.val / 1 < NR := hin.2.2
      rw [Nat.div_one] at h3
      exact hs h3
    · show (Scalar.sitofp .f32 ((V main_c_27 : S_.Idx → BitVec 32) (Shape.Idx.first h_S_)) : Ideal .f32) = 0
      rw [eq_ix0 (Shape.Idx.first h_S_), hc]
      exact sitofp_zero

/-- The same from the contents before the integer zero is written: the one operation in front writes that word and
    leaves the operand alone. -/
theorem pad5_read_from (V : Valuation τ sig (Elt Ideal)) (s : Fin NP) (f : Fin WD) :
    (StableHlo.after hostOps13_1 (StableHlo.after hostOps13 V) main_v124 : S10240x17.Idx → EReal) (ix2 s f)
      = if hs : s.val < NR then (V main_v123 : S10000x17.Idx → EReal) (ix2 ⟨s.val, hs⟩ f) else (0 : EReal) := by
  have hc : (StableHlo.after hostOps13 V main_c_27 : S_.Idx → BitVec 32) ix0 = 0#32 := by
    dsimp only [hostOps13]; after_results; rfl
  have hx : (StableHlo.after hostOps13 V main_v123 : S10000x17.Idx → EReal) = V main_v123 := by
    dsimp only [hostOps13]; after_results
  rw [pad5_read _ hc s f, hx]

/-- In real numbers: if the operand holds the real matrix `h`, the padded array holds `h` on the nodes' rows and `0`
    on the rows after them. -/
theorem pad5_real (V : Valuation τ sig (Elt Ideal)) (hc : (V main_c_27 : S_.Idx → BitVec 32) ix0 = 0#32)
    (h : Fin NR → Fin WD → ℝ)
    (hh : ∀ i f, (V main_v123 : S10000x17.Idx → EReal) (ix2 i f) = ((h i f : ℝ) : EReal)) (s : Fin NP) (f : Fin WD) :
    (StableHlo.after hostOps13_1 V main_v124 : S10240x17.Idx → EReal) (ix2 s f)
      = ((if hs : s.val < NR then h ⟨s.val, hs⟩ f else 0 : ℝ) : EReal) := by
  rw [pad5_read V hc s f]
  by_cases hs : s.val < NR
  · rw [dif_pos hs, dif_pos hs, hh]
  · rw [dif_neg hs, dif_neg hs, EReal.coe_zero]

/-- The real form from the contents before the integer zero is written. -/
theorem pad5_real_from (V : Valuation τ sig (Elt Ideal)) (h : Fin NR → Fin WD → ℝ)
    (hh : ∀ i f, (V main_v123 : S10000x17.Idx → EReal) (ix2 i f) = ((h i f : ℝ) : EReal)) (s : Fin NP) (f : Fin WD) :
    (StableHlo.after hostOps13_1 (StableHlo.after hostOps13 V) main_v124 : S10240x17.Idx → EReal) (ix2 s f)
      = ((if hs : s.val < NR then h ⟨s.val, hs⟩ f else 0 : ℝ) : EReal) := by
  rw [pad5_read_from V s f]
  by_cases hs : s.val < NR
  · rw [dif_pos hs, dif_pos hs, hh]
  · rw [dif_neg hs, dif_neg hs, EReal.coe_zero]

/-! ## The bias as a one-row matrix -/

/-- The bias row read at column `f` is the bias vector's entry `f`. -/
theorem bias5_read (V : Valuation τ sig (Elt Ideal)) (f : Fin WD) :
    (StableHlo.after hostOps14 V main_v126 : S1x17.Idx → EReal) (ix2 0 f)
      = (V main_arg11 : S17.Idx → EReal) (ix1 f) := by
  dsimp only [hostOps14]
  after_results
  exact shapeCast_a_1a_apply _ _ 0 f

end Cert.KernelIdeal.HandV

end
-- ==== Proof.SpecLaws2.lean ====
/-
  Two re-indexings of finite sums that the blocked, padded form of the dense product needs.

  * Padding. A sum over `Fin K` of a summand that is `g s` for `s < n` and `0` from `n` on is the sum of `g` over
    `Fin n` (`n ≤ K`): both are sums over an initial segment of the naturals, and the terms from `n` to `K` vanish.
    Hence the product of an adjacency whose columns from `n` on are zero with features whose rows from `n` on
    are zero is the dense product `aggD`.
  * Blocks. A sum over `Fin (p * q)` is the sum over the `p` blocks of the sum over the `q` positions of a block,
    position `r` of block `t` being the index `t * q + r`: the pair `(t, r) ↦ t * q + r` is a bijection of
    `Fin p × Fin q` with `Fin (p * q)`.
-/
import proofs.«408066_j62380105008311_2_alg».proof.Proof.Spec
import proofs.«408066_j62380105008311_2_alg».proof.Proof.SpecLaws
import Mathlib.Algebra.BigOperators.Fin
import Mathlib.Algebra.BigOperators.Group.Finset.Basic
import Mathlib.Logic.Equiv.Fin.Basic
import Mathlib.Tactic.Ring

noncomputable section

namespace Cert.Spec

open Finset BigOperators

/-! ### Padding -/

/-- A summand extended by zero from `Fin n` to `Fin K` has the same sum. -/
theorem sum_pad {M : Type*} [AddCommMonoid M] {n K : ℕ} (hK : n ≤ K) (g : Fin n → M) :
    ∑ s : Fin K, (if hs : s.val < n then g ⟨s.val, hs⟩ else 0) = ∑ s : Fin n, g s := by
  set g' : ℕ → M := fun i => if hs : i < n then g ⟨i, hs⟩ else 0 with hg'
  have h1 : ∑ s : Fin K, (if hs : s.val < n then g ⟨s.val, hs⟩ else 0) = ∑ i ∈ range K, g' i :=
    Fin.sum_univ_eq_sum_range g' K
  have h2 : ∑ s : Fin n, g s = ∑ i ∈ range n, g' i := by
    rw [← Fin.sum_univ_eq_sum_range g' n]
    refine Finset.sum_congr rfl fun s _ => ?_
    simp only [hg', s.isLt, dite_true]
  rw [h1, h2]
  symm
  refine Finset.sum_subset (Finset.range_subset_range.mpr hK) fun x _ hx => ?_
  have hx' : ¬ x < n := by simpa [Finset.mem_range] using hx
  simp only [hg', hx', dite_false]

/-- The product of two zero-extended factors is the zero-extended product. -/
theorem pad_mul_pad {n : ℕ} (A B : Fin n → ℝ) (s : ℕ) :
    (if hs : s < n then A ⟨s, hs⟩ else 0) * (if hs : s < n then B ⟨s, hs⟩ else 0)
      = if hs : s < n then A ⟨s, hs⟩ * B ⟨s, hs⟩ else 0 := by
  by_cases hs : s < n
  · simp only [hs, dite_true]
  · simp only [hs, dite_false, mul_zero]

/-- The dense product through padded operands: an adjacency row extended by zero columns against features
    extended by zero rows, summed over the `K ≥ n` padded positions, is the dense aggregation. -/
theorem aggD_pad {n b E K : ℕ} (hK : n ≤ K) (src dst : Fin E → Fin n) (h : Fin n → Fin b → ℝ)
    (d : Fin n) (f : Fin b) :
    ∑ s : Fin K, (if hs : s.val < n then adj src dst d ⟨s.val, hs⟩ else 0)
        * (if hs : s.val < n then h ⟨s.val, hs⟩ f else 0)
      = aggD src dst h d f := by
  show _ = ∑ s, adj src dst d s * h s f
  rw [← sum_pad hK (fun s => adj src dst d s * h s f)]
  exact Finset.sum_congr rfl fun s _ => pad_mul_pad (adj src dst d) (fun s => h s f) s.val

/-- The same at the sizes of the network: 10000 nodes padded to 10240. -/
theorem aggD_pad_10240 {b E : ℕ} (src dst : Fin E → Fin 10000) (h : Fin 10000 → Fin b → ℝ)
    (d : Fin 10000) (f : Fin b) :
    ∑ s : Fin 10240, (if hs : s.val < 10000 then adj src dst d ⟨s.val, hs⟩ else 0)
        * (if hs : s.val < 10000 then h ⟨s.val, hs⟩ f else 0)
      = aggD src dst h d f :=
  aggD_pad (by norm_num) src dst h d f

/-! ### Blocks -/

/-- Position `r` of block `t` is an index below `p * q`. -/
theorem blk_lt {p q : ℕ} (t : Fin p) (r : Fin q) : t.val * q + r.val < p * q :=
  calc t.val * q + r.val < t.val * q + q := Nat.add_lt_add_left r.isLt _
    _ = (t.val + 1) * q := (Nat.succ_mul _ _).symm
    _ ≤ p * q := Nat.mul_le_mul_right q t.isLt

/-- A sum over `Fin (p * q)` as `p` blocks of `q` consecutive positions. -/
theorem sum_blocks {M : Type*} [AddCommMonoid M] {p q : ℕ} (f : Fin (p * q) → M) :
    ∑ i, f i = ∑ t : Fin p, ∑ r : Fin q, f ⟨t.val * q + r.val, blk_lt t r⟩ := by
  rw [← Equiv.sum_comp finProdFinEquiv f, Fintype.sum_prod_type]
  refine Finset.sum_congr rfl fun t _ => Finset.sum_congr rfl fun r _ => ?_
  congr 1
  apply Fin.ext
  simp only [finProdFinEquiv_apply_val]
  ring

/-- Ten blocks of a thousand: a sum over the 10000 nodes. -/
theorem sum_blocks_10000 {M : Type*} [AddCommMonoid M] (f : Fin 10000 → M) :
    ∑ i, f i = ∑ t : Fin 10, ∑ r : Fin 1000, f ⟨t.val * 1000 + r.val, blk_lt (p := 10) t r⟩ :=
  sum_blocks (p := 10) (q := 1000) f

/-- Ten blocks of 1024: a sum over the 10240 padded positions. -/
theorem sum_blocks_10240 {M : Type*} [AddCommMonoid M] (f : Fin 10240 → M) :
    ∑ i, f i = ∑ t : Fin 10, ∑ r : Fin 1024, f ⟨t.val * 1024 + r.val, blk_lt (p := 10) t r⟩ :=
  sum_blocks (p := 10) (q := 1024) f

end Cert.Spec

end
-- ==== Proof.Val13.lean ====
import proofs.«408066_j62380105008311_2_alg».proof.Proof.Reg13
import proofs.«408066_j62380105008311_2_alg».proof.Proof.Spec
import proofs.«408066_j62380105008311_2_alg».proof.Proof.SpecLaws2
import proofs.«408066_j62380105008311_2_alg».proof.Proof.LibCoe
import Idealize.ShloMosaic.Lib.Pipeline.Value
import Idealize.ShloMosaic.Lib.ValueIdx
import Idealize.ShloMosaic.Lib.ValueLayout
import Idealize.ShloMosaic.PureOps.Ideal.Laws

/-!
# Region 13 at the ideal values: the result array is the matrix product of the two operand arrays

The grid runs over row blocks of the result and, inside each, over ten runs of the contracted index.  The
accumulator starts each row block at zero, gains one run's partial product per step, and is copied to the result
block at the last step: what is written back is the row block of the full product, the contracted sum cut into its
ten runs.  The row blocks tile the result, so the array the region leaves is the product of the two arrays it found;
and where those hold real numbers, it holds the real matrix product.
-/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic Idealize.SL.Sem Idealize.ShloMosaic.ValueIdx
open Idealize.ShloMosaic.Pipeline (Dat)
open scoped BigOperators

/-! ## What each step leaves in the accumulator, as the body's arithmetic -/

section Pieces
variable {F : FTy → Type} [FloatOps F]

theorem hz13 : (![0, 0] : Fin 2 → Nat) = fun _ => 0 := funext fun a => by fin_cases a <;> rfl

/-- FIRST STEP: the accumulator is cleared, then gains the step's product. -/
theorem sout13_A_eq (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : cond13_0 i) (hc1 : ¬cond13_1 i) (x0 : Vec F S2000x1024 .bf16) (x1 : Vec F S1024x17 .f32) :
    sout13_A c i arg2 harg2 arg3 harg3 arg4 harg4 arg5 harg5 hc0 hc1 x0 x1 = k13_pay2 x0 x1 (k13_pay1 (F := F)) := by
  unfold sout13_A
  rw [View.read_writes_eq_canon _ _ _ (scover13_A c i arg2 harg2 arg3 harg3 arg4 harg4 arg5 harg5 hc0 hc1 x0 x1)]
  unfold run13_A
  dsimp only
  sl_unfold_words
  rw [View.canon_cons_unit_zero (S := S2000x17) hz13]
  simp only [View.readAt_eq_ld, harg2.read_unread, harg3.read_unread, View.ld_unit_zero (S := S2000x1024) hz13,
    View.ld_unit_zero (S := S1024x17) hz13, View.readCov_unit_zero (S := S2000x17) _ hz13]

/-- A MIDDLE STEP: the accumulator gains the step's product. -/
theorem sout13_B_eq (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : ¬cond13_0 i) (hc1 : ¬cond13_1 i) (x0 : Vec F S2000x1024 .bf16) (x1 : Vec F S1024x17 .f32) (xs : Vec F S2000x17 .f32) :
    sout13_B c i arg2 harg2 arg3 harg3 arg4 harg4 arg5 harg5 hc0 hc1 x0 x1 xs = k13_pay2 x0 x1 xs := by
  unfold sout13_B
  rw [View.read_writes_eq_canon _ _ _ (scover13_B c i arg2 harg2 arg3 harg3 arg4 harg4 arg5 harg5 hc0 hc1 x0 x1 xs)]
  unfold run13_B
  dsimp only
  sl_unfold_words
  rw [View.canon_unit_zero (S := S2000x17) hz13]
  simp only [View.readAt_eq_ld, harg2.read_unread, harg3.read_unread, harg5.read_unread, View.ld_unit_zero (S := S2000x1024) hz13,
    View.ld_unit_zero (S := S1024x17) hz13, View.ld_unit_zero (S := S2000x17) hz13]

/-- THE LAST STEP: the accumulator gains the step's product, -/
theorem sout13_C_eq (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : ¬cond13_0 i) (hc1 : cond13_1 i) (x0 : Vec F S2000x1024 .bf16) (x1 : Vec F S1024x17 .f32) (xs : Vec F S2000x17 .f32) :
    sout13_C c i arg2 harg2 arg3 harg3 arg4 harg4 arg5 harg5 hc0 hc1 x0 x1 xs = k13_pay2 x0 x1 xs := by
  unfold sout13_C
  rw [View.read_writes_eq_canon _ _ _ (scover13_C c i arg2 harg2 arg3 harg3 arg4 harg4 arg5 harg5 hc0 hc1 x0 x1 xs)]
  unfold run13_C
  dsimp only
  sl_unfold_words
  rw [View.canon_unit_zero (S := S2000x17) hz13]
  simp only [View.readAt_eq_ld, harg2.read_unread, harg3.read_unread, harg5.read_unread, View.ld_unit_zero (S := S2000x1024) hz13,
    View.ld_unit_zero (S := S1024x17) hz13, View.ld_unit_zero (S := S2000x17) hz13]

/-- and the result block receives the accumulator as the step leaves it. -/
theorem out13_C_eq (c : Dev nD) (i : grid13.Coords)
    (arg2 : Memref sig .tc .vmem S2000x1024 .bf16) (harg2 : arg2.IsWhole) (arg3 : Memref sig .tc .vmem S1024x17 .f32) (harg3 : arg3.IsWhole)
    (arg4 : Memref sig .tc .vmem S2000x17 .f32) (harg4 : arg4.IsWhole) (arg5 : Memref sig .tc .vmem S2000x17 .f32) (harg5 : arg5.IsWhole)
    (hc0 : ¬cond13_0 i) (hc1 : cond13_1 i) (x0 : Vec F S2000x1024 .bf16) (x1 : Vec F S1024x17 .f32) (xs : Vec F S2000x17 .f32) :
    out13_C c i arg2 harg2 arg3 harg3 arg4 harg4 arg5 harg5 hc0 hc1 x0 x1 xs = k13_pay2 x0 x1 xs := by
  unfold out13_C
  rw [View.read_writes_eq_canon _ _ _ (cover13_C c i arg2 harg2 arg3 harg3 arg4 harg4 arg5 harg5 hc0 hc1 x0 x1 xs)]
  unfold run13_C
  dsimp only
  sl_unfold_words
  rw [View.canon_unit_zero (S := S2000x17) hz13]
  simp only [View.readAt_eq_ld, harg2.read_unread, harg3.read_unread, harg5.read_unread, View.ld_unit_zero (S := S2000x1024) hz13,
    View.ld_unit_zero (S := S1024x17) hz13, View.ld_unit_zero (S := S2000x17) hz13, View.readCov_unit_zero (S := S2000x17) _ hz13]

end Pieces

/-! ## The step's arithmetic at the ideal values -/

theorem lhs13_0 (j : S2000x17.Idx) (k : dot_S2000x1024_S1024x17_S2000x17_1_0_0_1_n_n.contr.Idx) :
    (dot_S2000x1024_S1024x17_S2000x17_1_0_0_1_n_n.lhsIdx j k 0).val = (j 0).val := by
  simp [DotDims.lhsIdx, dot_S2000x1024_S1024x17_S2000x17_1_0_0_1_n_n]; rfl

theorem lhs13_1 (j : S2000x17.Idx) (k : dot_S2000x1024_S1024x17_S2000x17_1_0_0_1_n_n.contr.Idx) :
    (dot_S2000x1024_S1024x17_S2000x17_1_0_0_1_n_n.lhsIdx j k 1).val = (k ⟨0, by decide⟩).val :=
  dot_S2000x1024_S1024x17_S2000x17_1_0_0_1_n_n.lhsIdx_val_of_single (cl := 1) rfl j k

theorem rhs13_0 (j : S2000x17.Idx) (k : dot_S2000x1024_S1024x17_S2000x17_1_0_0_1_n_n.contr.Idx) :
    (dot_S2000x1024_S1024x17_S2000x17_1_0_0_1_n_n.rhsIdx j k 0).val = (k ⟨0, by decide⟩).val :=
  dot_S2000x1024_S1024x17_S2000x17_1_0_0_1_n_n.rhsIdx_val_of_single (cr := 0) rfl j k

theorem rhs13_1 (j : S2000x17.Idx) (k : dot_S2000x1024_S1024x17_S2000x17_1_0_0_1_n_n.contr.Idx) :
    (dot_S2000x1024_S1024x17_S2000x17_1_0_0_1_n_n.rhsIdx j k 1).val = (j 1).val := by
  simp [DotDims.rhsIdx, dot_S2000x1024_S1024x17_S2000x17_1_0_0_1_n_n]; rfl

/-- The cleared accumulator is zero everywhere. -/
theorem pay13_1_apply (j : S2000x17.Idx) : k13_pay1 (F := Ideal) j = 0 := by
  unfold k13_pay1
  refine (congrFun (shapeCast_self _ _) j).trans ?_
  exact Ideal.ofBits_zero_f32

/-- One step at an entry (p, q): what the accumulator held there plus the sum over the run's contracted coordinate k
    of x0 (p, k) * x1 (k, q).  The narrowing cast is the identity on extended reals and the product starts from zero. -/
theorem pay13_2_apply (x0 : FVec Ideal S2000x1024 .bf16) (x1 : FVec Ideal S1024x17 .f32) (xs : FVec Ideal S2000x17 .f32)
    (p : Fin 2000) (q : Fin 17) :
    k13_pay2 (F := Ideal) x0 x1 xs (ix2 p q) = xs (ix2 p q) + ∑ k : Fin 1024, x0 (ix2 p k) * x1 (ix2 k q) := by
  have e : k13_pay2 (F := Ideal) x0 x1 xs
      = addf xs (matmul dot_S2000x1024_S1024x17_S2000x17_1_0_0_1_n_n none x0 (truncf .bf16 x1 bitsLt_bf16_f32)
          (constant S2000x17 .f32 0x00000000#32)) := by
    simp only [k13_pay2, shapeCast_self]
  rw [e]
  refine (congrArg (fun z : EReal => xs (ix2 p q) + z)
    (Ideal.matmul_constant_zero_apply dot_S2000x1024_S1024x17_S2000x17_1_0_0_1_n_n none x0 (truncf .bf16 x1 bitsLt_bf16_f32) (ix2 p q))).trans ?_
  refine congrArg (fun z : EReal => xs (ix2 p q) + z) ?_
  rw [← Equiv.sum_comp (contrEquiv1 dot_S2000x1024_S1024x17_S2000x17_1_0_0_1_n_n 1024 rfl rfl).symm]
  refine Finset.sum_congr rfl fun k _ => ?_
  have hk := contrEquiv1_symm_val dot_S2000x1024_S1024x17_S2000x17_1_0_0_1_n_n 1024 rfl rfl k
  have hl : dot_S2000x1024_S1024x17_S2000x17_1_0_0_1_n_n.lhsIdx (ix2 p q)
      ((contrEquiv1 dot_S2000x1024_S1024x17_S2000x17_1_0_0_1_n_n 1024 rfl rfl).symm k) = ix2 p k := by
    funext ax; apply Fin.ext
    match ax with
    | ⟨0, _⟩ => exact lhs13_0 _ _
    | ⟨1, _⟩ => exact (lhs13_1 _ _).trans hk
  have hr : dot_S2000x1024_S1024x17_S2000x17_1_0_0_1_n_n.rhsIdx (ix2 p q)
      ((contrEquiv1 dot_S2000x1024_S1024x17_S2000x17_1_0_0_1_n_n 1024 rfl rfl).symm k) = ix2 k q := by
    funext ax; apply Fin.ext
    match ax with
    | ⟨0, _⟩ => exact (rhs13_0 _ _).trans hk
    | ⟨1, _⟩ => exact rhs13_1 _ _
  show x0 (dot_S2000x1024_S1024x17_S2000x17_1_0_0_1_n_n.lhsIdx (ix2 p q) _) * x1 (dot_S2000x1024_S1024x17_S2000x17_1_0_0_1_n_n.rhsIdx (ix2 p q) _) = _
  rw [hl, hr]

/-! ## The whole-array function -/

/-- The matrix product of a 10000 x 10240 array and a 10240 x 17 array over the extended reals, entry by entry. -/
def G13 (a0 : FVec Ideal S10000x10240 .bf16) (a1 : FVec Ideal S10240x17 .f32) : FVec Ideal S10000x17 .f32 :=
  fun i => ∑ s : Fin 10240, a0 (ix2 (i 0) s) * a1 (ix2 s (i 1))

theorem G13_apply (a0 : FVec Ideal S10000x10240 .bf16) (a1 : FVec Ideal S10240x17 .f32) (i : Fin 10000) (j : Fin 17) :
    G13 a0 a1 (ix2 i j) = ∑ s : Fin 10240, a0 (ix2 i s) * a1 (ix2 s j) := rfl

/-- Run `s` of the contracted index (positions s * 1024 … s * 1024 + 1023) of entry (r, q) of the product; zero off the
    array and past the last run, so that it is a function of naturals. -/
def part13 (a0 : FVec Ideal S10000x10240 .bf16) (a1 : FVec Ideal S10240x17 .f32) (r : ℕ) (q : Fin 17) (s : ℕ) : EReal :=
  if h : r < 10000 ∧ s < 10 then
    ∑ k : Fin 1024, a0 (ix2 (⟨r, h.1⟩ : Fin 10000) (⟨s * 1024 + k.val, by have := k.isLt; omega⟩ : Fin 10240))
      * a1 (ix2 (⟨s * 1024 + k.val, by have := k.isLt; omega⟩ : Fin 10240) q)
  else 0

/-- The ten runs make up the entry of the product. -/
theorem sum_part13 (a0 : FVec Ideal S10000x10240 .bf16) (a1 : FVec Ideal S10240x17 .f32) (r : ℕ) (hr : r < 10000) (q : Fin 17) :
    ∑ s ∈ Finset.range 10, part13 a0 a1 r q s = G13 a0 a1 (ix2 (⟨r, hr⟩ : Fin 10000) q) := by
  rw [G13_apply, Cert.Spec.sum_blocks_10240, Finset.sum_range]
  refine Finset.sum_congr rfl fun s _ => ?_
  unfold part13
  rw [dif_pos ⟨hr, s.isLt⟩]

variable (V : (c : Dev nD) → (b : Ref sig .tc) → Buf (Elt Ideal) ((c : Thread nD τ).loc b))

/-- The two operand arrays as the region finds them, and their blocks at a point. -/
abbrev aarr13 (c : Dev nD) : FVec Ideal S10000x10240 .bf16 := V c (Pipeline.arrRef spec13 0)
abbrev harr13 (c : Dev nD) : FVec Ideal S10240x17 .f32 := V c (Pipeline.arrRef spec13 1)
abbrev ablk13 (c : Dev nD) (t : Fin cfg13.N) : FVec Ideal S2000x1024 .bf16 := iblk13 V c 0 t
abbrev hblk13 (c : Dev nD) (t : Fin cfg13.N) : FVec Ideal S1024x17 .f32 := iblk13 V c 1 t

/-! ## The blocks, read off the arrays -/

/-- The index maps, decided over the grid: the row block of the first operand and of the result is the point's
    number divided by the number of runs, the run is the remainder; the second operand's row block is the run; no
    column block moves. -/
theorem idx_facts13 : ∀ t : Fin cfg13.N, win13_0.index t (0 : Fin 2) = t.val / 10
    ∧ win13_0.index t (1 : Fin 2) = t.val % 10
    ∧ win13_1.index t (0 : Fin 2) = t.val % 10
    ∧ win13_1.index t (1 : Fin 2) = 0
    ∧ win13_2.index t (0 : Fin 2) = t.val / 10
    ∧ win13_2.index t (1 : Fin 2) = 0 :=
  (by decide +kernel : ∀ t : Fin grid13.N, _)

theorem lt_N13 (t : Fin cfg13.N) : t.val < 50 := lt_of_lt_of_eq t.isLt N_13

/-- A run of the first operand's block against the second's is that run of the product's entry. -/
theorem blocks13_apply (c : Dev nD) (t : Fin cfg13.N) (p : Fin 2000) (q : Fin 17) :
    ∑ k : Fin 1024, ablk13 V c t (ix2 p k) * hblk13 V c t (ix2 k q)
      = part13 (aarr13 V c) (harr13 V c) (t.val / 10 * 2000 + p.val) q (t.val % 10) := by
  obtain ⟨e0, e1, e2, e3, e4, e5⟩ := idx_facts13 t
  have hN := lt_N13 t
  have hr : t.val / 10 * 2000 + p.val < 10000 := by have := p.isLt; omega
  have hs : t.val % 10 < 10 := Nat.mod_lt _ (by decide)
  unfold part13
  rw [dif_pos ⟨hr, hs⟩]
  refine Finset.sum_congr rfl fun k _ => ?_
  have h0 : ((cfg13.win 0).blk t).view.emb (ix2 p k)
      = ix2 (⟨t.val / 10 * 2000 + p.val, hr⟩ : Fin 10000) (⟨t.val % 10 * 1024 + k.val, by have := k.isLt; omega⟩ : Fin 10240) := by
    funext a; apply Fin.ext
    match a with
    | ⟨0, _⟩ => show win13_0.index t (0 : Fin 2) * 2000 + 1 * p.val = t.val / 10 * 2000 + p.val; omega
    | ⟨1, _⟩ => show win13_0.index t (1 : Fin 2) * 1024 + 1 * k.val = t.val % 10 * 1024 + k.val; omega
  have h1 : ((cfg13.win 1).blk t).view.emb (ix2 k q)
      = ix2 (⟨t.val % 10 * 1024 + k.val, by have := k.isLt; omega⟩ : Fin 10240) q := by
    funext a; apply Fin.ext
    match a with
    | ⟨0, _⟩ => show win13_1.index t (0 : Fin 2) * 1024 + 1 * k.val = t.val % 10 * 1024 + k.val; omega
    | ⟨1, _⟩ => show win13_1.index t (1 : Fin 2) * 17 + 1 * q.val = q.val; omega
  exact congrArg₂ (fun a b : EReal => a * b) (congrArg (aarr13 V c) h0) (congrArg (harr13 V c) h1)

/-! ## The accumulator after each point -/

/-- THE INVARIANT.  After the body at point `t` the accumulator holds, at entry (p, q), the runs 0 … t % 10 of entry
    (t / 10 * 2000 + p, q) of the product: by induction on the point — a first step starts from zero, every other step
    adds its run to what the point before left, and the point before is in the same row block, one run earlier. -/
theorem scrAt13_apply (c : Dev nD) (t : Fin cfg13.N) (p : Fin 2000) (q : Fin 17) :
    scrAt13 (F := Ideal) V c t.val t.isLt (ix2 p q)
      = ∑ s ∈ Finset.range (t.val % 10 + 1), part13 (aarr13 V c) (harr13 V c) (t.val / 10 * 2000 + p.val) q s := by
  obtain ⟨n, hn⟩ := t
  induction n with
  | zero =>
    have h0 : (⟨0, hn⟩ : Fin cfg13.N).val % 10 = 0 := rfl
    have h1 : ¬(⟨0, hn⟩ : Fin cfg13.N).val % 10 = 9 := by show ¬(0 % 10 = 9); decide
    rw [scrAt13_A V c ⟨0, hn⟩ h0 h1, sout13_A_eq]
    refine (pay13_2_apply (ablk13 V c ⟨0, hn⟩) (hblk13 V c ⟨0, hn⟩) (k13_pay1 (F := Ideal)) p q).trans ?_
    rw [pay13_1_apply, zero_add, blocks13_apply V c ⟨0, hn⟩ p q]
    show _ = ∑ s ∈ Finset.range (0 % 10 + 1), _
    rw [show (0 % 10 + 1 : ℕ) = 1 from rfl, Finset.sum_range_one]
    rfl
  | succ n ih =>
    have hN : n + 1 < 50 := lt_N13 ⟨n + 1, hn⟩
    by_cases h0 : (n + 1) % 10 = 0
    · have h1 : ¬(n + 1) % 10 = 9 := by omega
      rw [scrAt13_A V c ⟨n + 1, hn⟩ h0 h1, sout13_A_eq]
      refine (pay13_2_apply (ablk13 V c ⟨n + 1, hn⟩) (hblk13 V c ⟨n + 1, hn⟩) (k13_pay1 (F := Ideal)) p q).trans ?_
      rw [pay13_1_apply, zero_add, blocks13_apply V c ⟨n + 1, hn⟩ p q]
      show part13 _ _ ((n + 1) / 10 * 2000 + p.val) q ((n + 1) % 10) = ∑ s ∈ Finset.range ((n + 1) % 10 + 1), _
      rw [h0, Finset.sum_range_one]
    · have ihn := ih (Nat.lt_of_succ_lt hn)
      have hd : n / 10 = (n + 1) / 10 := by omega
      have hm : n % 10 + 1 = (n + 1) % 10 := by omega
      have hstep : k13_pay2 (F := Ideal) (ablk13 V c ⟨n + 1, hn⟩) (hblk13 V c ⟨n + 1, hn⟩) (scrBefore13 V c ⟨n + 1, hn⟩) (ix2 p q)
          = ∑ s ∈ Finset.range ((n + 1) % 10 + 1), part13 (aarr13 V c) (harr13 V c) ((n + 1) / 10 * 2000 + p.val) q s := by
        refine (pay13_2_apply (ablk13 V c ⟨n + 1, hn⟩) (hblk13 V c ⟨n + 1, hn⟩) (scrBefore13 V c ⟨n + 1, hn⟩) p q).trans ?_
        rw [blocks13_apply V c ⟨n + 1, hn⟩ p q]
        rw [show scrBefore13 V c ⟨n + 1, hn⟩ (ix2 p q)
            = ∑ s ∈ Finset.range (n % 10 + 1), part13 (aarr13 V c) (harr13 V c) (n / 10 * 2000 + p.val) q s from ihn]
        show _ + part13 _ _ ((n + 1) / 10 * 2000 + p.val) q ((n + 1) % 10) = _
        rw [hd, ← hm, Finset.sum_range_succ _ (n % 10 + 1)]
      by_cases h1 : (n + 1) % 10 = 9
      · rw [scrAt13_C V c ⟨n + 1, hn⟩ h0 h1, sout13_C_eq]
        exact hstep
      · rw [scrAt13_B V c ⟨n + 1, hn⟩ h0 h1, sout13_B_eq]
        exact hstep

/-! ## From blocks to the array -/

/-- What a last step writes back is the accumulator as that step leaves it: block `t` of the product. -/
theorem flushed13_2_eq (c : Dev nD) (t : Fin cfg13.N) (hf : (cfg13.win 2).flush t = true) :
    (dat13 (F := Ideal) V c).flushed 2 t = ((cfg13.win 2).blk t).view.read (Elt Ideal) (G13 (aarr13 V c) (harr13 V c)) := by
  have h1 : t.val % 10 = 9 := (flush13_2 t).mp hf
  have h0 : ¬t.val % 10 = 0 := by omega
  show (cfg13.win 2).cut (grid13.coords t) ((dat13 (F := Ideal) V c).after 2 t) = _
  rw [after13_2, outAt13_C V c t h0 h1, out13_C_eq, ← sout13_C_eq c (grid13.coords t) (ms13_0 t) (hs13_0 t) (ms13_1 t) (hs13_1 t) (ms13_2 t) (hs13_2 t) scM13 (Memref.isWhole_whole _)
    (fun h => h0 ((hcond13_0 t).mp h)) ((hcond13_1 t).mpr h1), ← scrAt13_C V c t h0 h1]
  obtain ⟨e0, e1, e2, e3, e4, e5⟩ := idx_facts13 t
  have hN := lt_N13 t
  funext j
  obtain ⟨p, q, rfl⟩ : ∃ (p : Fin 2000) (q : Fin 17), j = ix2 p q := ⟨j 0, j 1, eq_ix2 j⟩
  have hr : t.val / 10 * 2000 + p.val < 10000 := by have := p.isLt; omega
  show scrAt13 (F := Ideal) V c t.val t.isLt (ix2 p q) = G13 (aarr13 V c) (harr13 V c) (((cfg13.win 2).blk t).view.emb (ix2 p q))
  rw [scrAt13_apply V c t p q, h1, sum_part13 _ _ _ hr]
  refine congrArg (G13 (aarr13 V c) (harr13 V c)) ?_
  funext a; apply Fin.ext
  match a with
  | ⟨0, _⟩ => show t.val / 10 * 2000 + p.val = win13_2.index t (0 : Fin 2) * 2000 + 1 * p.val; omega
  | ⟨1, _⟩ => show q.val = win13_2.index t (1 : Fin 2) * 17 + 1 * q.val; omega

/-- An index of the result is in point t's block iff each coordinate is in the block's range on its axis. -/
theorem mem_blk13_2 (t : Fin cfg13.N) (i : S10000x17.Idx) :
    i ∈ ((cfg13.win 2).blk t).view.set ↔ ∀ a : Fin 2, win13_2.index t a * S2000x17.size a ≤ (i a).val ∧ (i a).val < win13_2.index t a * S2000x17.size a + S2000x17.size a := by
  show i ∈ ((View.whole main_v125).slice (win13_2.rect t)).set ↔ _
  rw [View.set_slice_whole, Rect.mem_set_unit]
  exact Iff.rfl

/-- Every row block of the result is written back by some point (the last step of its row of the grid). -/
theorem idx_onto13 : ∀ q0 : Fin 5, ∃ t : Fin cfg13.N, (cfg13.win 2).flush t = true ∧ win13_2.index t = ![q0.val, 0] :=
  (by decide +kernel : ∀ q0 : Fin 5, ∃ t : Fin grid13.N, win13_2.flush t = true ∧ win13_2.index t = ![q0.val, 0])

/-- The row blocks tile the result: row r lies in the block of row block r / 2000. -/
theorem covered13_2 (i : S10000x17.Idx) :
    ∃ t : Fin cfg13.N, (cfg13.win 2).flush t = true ∧ i ∈ ((cfg13.win 2).blk t).view.set := by
  have hi0 : (i 0).val < 10000 := (i 0).isLt
  have hi1 : (i 1).val < 17 := (i 1).isLt
  obtain ⟨t, hft, ht⟩ := idx_onto13 ⟨(i 0).val / 2000, by omega⟩
  have q0 : win13_2.index t (0 : Fin 2) = (i 0).val / 2000 := congrFun ht 0
  have q1 : win13_2.index t (1 : Fin 2) = 0 := congrFun ht 1
  refine ⟨t, hft, ?_⟩
  rw [mem_blk13_2]
  intro a
  match a with
  | ⟨0, _⟩ => show win13_2.index t (0 : Fin 2) * 2000 ≤ (i 0).val ∧ (i 0).val < win13_2.index t (0 : Fin 2) * 2000 + 2000; omega
  | ⟨1, _⟩ => show win13_2.index t (1 : Fin 2) * 17 ≤ (i 1).val ∧ (i 1).val < win13_2.index t (1 : Fin 2) * 17 + 17; omega

/-- THE ARRAY the region leaves in its result window: the product of the two arrays it found. -/
theorem final13_2 (c : Dev nD) : (dat13 (F := Ideal) V c).arrAt 2 cfg13.N = G13 (aarr13 V c) (harr13 V c) :=
  (dat13 (F := Ideal) V c).arrAt_eq_of_cover 2 (G13 (aarr13 V c) (harr13 V c)) (fun t hf => flushed13_2_eq V c t hf) (covered13_2)

/-! ## Over the reals -/

/-- Where the two arrays hold real numbers, the result holds the real matrix product. -/
theorem final13_real (c : Dev nD) (ar : Fin 10000 → Fin 10240 → ℝ) (hr : Fin 10240 → Fin 17 → ℝ)
    (ha : ∀ i s, (V c (Pipeline.arrRef spec13 0) : S10000x10240.Idx → EReal) (ix2 i s) = ((ar i s : ℝ) : EReal))
    (hh : ∀ s j, (V c (Pipeline.arrRef spec13 1) : S10240x17.Idx → EReal) (ix2 s j) = ((hr s j : ℝ) : EReal))
    (i : Fin 10000) (j : Fin 17) :
    ((dat13 (F := Ideal) V c).arrAt 2 cfg13.N : S10000x17.Idx → EReal) (ix2 i j)
      = ((∑ s : Fin 10240, ar i s * hr s j : ℝ) : EReal) := by
  refine (congrFun (final13_2 V c) (ix2 i j)).trans ?_
  show (∑ s : Fin 10240, aarr13 V c (ix2 i s) * harr13 V c (ix2 s j) : EReal) = _
  rw [← Cert.LibCoe.sum_coe]
  refine Finset.sum_congr rfl fun s _ => ?_
  rw [← Cert.LibCoe.mul_coe]
  exact congrArg₂ (fun a b : EReal => a * b) (ha i s) (hh s j)

end Cert.KernelIdeal.HandV

end
-- ==== Proof.LibCoe2.lean ====
/-
  The row maximum and the log-softmax of a row of COERCED REALS, in the extended reals.

  * The fold of `max` from `⊥` over a non-empty finite family of coerced reals is the coercion of the family's
    greatest member: it is at most that (every member is, and so is `⊥`), and the greatest member is attained,
    so the fold is at least it.
  * With `M` the coerced row maximum, `(x f − M) − log (∑ f', exp (x f' − M))` is computed entirely among coerced
    reals: differences of coerced reals, exponentials of them, a finite sum of them — which is positive, being a
    sum of exponentials over a non-empty index set, so its logarithm is the real logarithm — and a last
    difference. The result is the coerced real log-softmax.
-/
import proofs.«408066_j62380105008311_2_alg».proof.Proof.Spec
import proofs.«408066_j62380105008311_2_alg».proof.Proof.LibCoe
import Mathlib.Data.Finset.Fold
import Mathlib.Data.Finset.Lattice.Fold
import Mathlib.Analysis.SpecialFunctions.Exp
import Mathlib.Algebra.Order.BigOperators.Group.Finset

noncomputable section

namespace Cert.LibCoe

open Idealize.ShloMosaic
open Finset BigOperators

/-! ### The row maximum -/

/-- The fold of `max` from `⊥` over a non-empty finite family of coerced reals is the coerced supremum. -/
theorem fold_max_bot_coe {ι : Type*} (s : Finset ι) (hs : s.Nonempty) (g : ι → ℝ) :
    s.fold max (⊥ : EReal) (fun i => (g i : EReal)) = ((s.sup' hs g : ℝ) : EReal) := by
  apply le_antisymm
  · rw [Finset.fold_max_le]
    exact ⟨bot_le, fun i hi => EReal.coe_le_coe_iff.mpr (Finset.le_sup' g hi)⟩
  · obtain ⟨i, hi, hsup⟩ := Finset.exists_mem_eq_sup' hs g
    rw [Finset.le_fold_max]
    exact Or.inr ⟨i, hi, by rw [hsup]⟩

/-- The same with the family written as a composition with the coercion. -/
theorem fold_max_bot_coe_comp {ι : Type*} (s : Finset ι) (hs : s.Nonempty) (g : ι → ℝ) :
    s.fold max (⊥ : EReal) ((fun r : ℝ => (r : EReal)) ∘ g) = ((s.sup' hs g : ℝ) : EReal) :=
  fold_max_bot_coe s hs g

/-- Over a whole row: the fold of `max` from `⊥` over the entries of row `i`, coerced, is the coerced row
    maximum. -/
theorem fold_max_bot_row {n b : ℕ} (x : Fin n → Fin (b + 1) → ℝ) (i : Fin n) :
    (Finset.univ : Finset (Fin (b + 1))).fold max (⊥ : EReal) (fun f => (x i f : EReal))
      = ((Cert.Spec.rowMax x i : ℝ) : EReal) :=
  fold_max_bot_coe Finset.univ Finset.univ_nonempty (x i)

/-- The maximum of `⊥` and a coerced real is that coerced real (a reduction's result joined once more with its
    start value). -/
theorem max_bot_coe (a : ℝ) : max (⊥ : EReal) (a : EReal) = (a : EReal) := max_eq_right bot_le

/-! ### The log-softmax -/

/-- The sum of the exponentials of a row's entries shifted by any real is positive. -/
theorem sum_exp_pos {b : ℕ} (y : Fin (b + 1) → ℝ) (m : ℝ) : 0 < ∑ f', Real.exp (y f' - m) :=
  Finset.sum_pos (fun _ _ => Real.exp_pos _) Finset.univ_nonempty

/-- One row's log-softmax with ANY coerced real shift `m`, among the extended reals, is the coerced real
    expression. -/
theorem lsm_shift_coe {b : ℕ} (y : Fin (b + 1) → ℝ) (m : ℝ) (f : Fin (b + 1)) :
    ((y f : EReal) - (m : EReal)) - Ideal.log (∑ f', Ideal.exp ((y f' : EReal) - (m : EReal)))
      = (((y f - m) - Real.log (∑ f', Real.exp (y f' - m)) : ℝ) : EReal) := by
  simp only [sub_coe, exp_coe, sum_coe]
  rw [log_coe_pos (sum_exp_pos y m), sub_coe]

/-- The log-softmax of row `i`, shifted by the coerced row maximum, among the extended reals, is the coerced
    real log-softmax. -/
theorem lsm_coe {n b : ℕ} (x : Fin n → Fin (b + 1) → ℝ) (i : Fin n) (f : Fin (b + 1)) :
    ((x i f : EReal) - ((Cert.Spec.rowMax x i : ℝ) : EReal))
        - Ideal.log (∑ f', Ideal.exp ((x i f' : EReal) - ((Cert.Spec.rowMax x i : ℝ) : EReal)))
      = ((Cert.Spec.lsm x i f : ℝ) : EReal) :=
  lsm_shift_coe (x i) (Cert.Spec.rowMax x i) f

end Cert.LibCoe

end
-- ==== Proof.Val14.lean ====
import proofs.«408066_j62380105008311_2_alg».proof.Proof.Reg14
import proofs.«408066_j62380105008311_2_alg».proof.Proof.Spec
import proofs.«408066_j62380105008311_2_alg».proof.Proof.LibCoe
import proofs.«408066_j62380105008311_2_alg».proof.Proof.LibCoe2
import Idealize.ShloMosaic.Lib.Pipeline.Value
import Idealize.ShloMosaic.Lib.ValueIdx
import Idealize.ShloMosaic.Lib.ValueLayout
import Idealize.ShloMosaic.PureOps.Ideal.Laws

/-! # Region 14 at the ideal values: what the bias and log-softmax call leaves in its output array

The output array, as ONE function of the two arrays the region finds: every row is the log-softmax of that row plus the
bias row — the row less its maximum, less the logarithm of the sum of the exponentials of what is left. First as the
body computes it over the extended reals (the maximum a fold of `max` from the literal −∞), then, for arrays that
are real, as the coerced real log-softmax of the specification. -/

noncomputable section

namespace Cert.KernelIdeal.HandV

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx

/-- The extents: rows of a block, columns, rows of the array. -/
abbrev blkRows14 : ℕ := 1000
abbrev cols14 : ℕ := 17
abbrev arrRows14 : ℕ := 10000

/-! ## Two re-indexings the payload meets -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's log-softmax as the body computes it -/

/-- The fold of `max` over a row from the literal the body starts its row maximum at. -/
def rowMaxI {n : ℕ} (z : Fin n → EReal) : EReal := (Finset.univ : Finset (Fin n)).fold max (Ideal.ofBits .f32 0xFF800000#32) z

/-- A row's log-softmax at the ideal values: the entry less the row's maximum, less the logarithm of the sum over the
    row of the exponentials of the entries less the maximum. -/
def rowLsmI {n : ℕ} (z : Fin n → EReal) (f : Fin n) : EReal :=
  (z f - rowMaxI z) - Ideal.log (∑ k, Ideal.exp (z k - rowMaxI z))

/-! ## The body's payload, index by index -/

/-- The reduced index `p` with the coordinate `k` put back on the reduced axis is `(p, k)`. -/
theorem lift14 (p : Fin blkRows14) (k : Fin cols14) : reduces_S1000x17_S1000.lift (ix1 p) k = ix2 p k := by
  funext a
  match a with
  | ⟨0, _⟩ => rfl
  | ⟨1, _⟩ => rfl

/-- A row's maximum as the body takes it: the fold of `max` over the row of "rows plus bias". -/
theorem max14_apply (x0 : FVec Ideal S1000x17 .f32) (x1 : FVec Ideal S1x17 .f32) (hφ : FKind.Formats .f32)
    (hacc : (0xFF800000#32 : BitVec (FTy.bits .f32)) = FKind.maximumf.neutral .f32 hφ) (p : Fin blkRows14) :
    multiReduction (F := Ideal) .maximumf [1] S1000 (addf x0 (broadcastTo S1000x17 x1 broadcasts_S1x17_S1000x17)) 0xFF800000#32
        reduces_S1000x17_S1000 hφ hacc (ix1 p)
      = rowMaxI (fun k : Fin cols14 => x0 (ix2 p k) + x1 (ix2 (0 : Fin 1) k)) := by
  rw [Ideal.multiReduction_maximumf_single]
  unfold rowMaxI
  have hrow : ∀ k : Fin cols14, addf x0 (broadcastTo S1000x17 x1 broadcasts_S1x17_S1000x17) (reduces_S1000x17_S1000.lift (ix1 p) k)
      = x0 (ix2 p k) + x1 (ix2 (0 : Fin 1) k) := by
    intro k; rw [lift14, addf_apply, broadcastTo_1b_ab_apply]
  exact congrArg (fun g : Fin cols14 → EReal => (Finset.univ : Finset (Fin cols14)).fold max (Ideal.ofBits .f32 0xFF800000#32) g) (funext hrow)

/-- The body's payload at row `p`, column `f` of the block: the log-softmax of the row of "rows plus bias". -/
theorem pay14_apply (x0 : Vec Ideal S1000x17 .f32) (x1 : Vec Ideal S1x17 .f32) (p : Fin blkRows14) (f : Fin cols14) :
    k14_pay1 x0 x1 (ix2 p f) = rowLsmI (fun k : Fin cols14 => x0 (ix2 p k) + x1 (ix2 (0 : Fin 1) k)) f := by
  unfold k14_pay1 rowLsmI
  simp only [shapeCast_self]
  rw [subf_apply, subf_apply, addf_apply, broadcastTo_1b_ab_apply, broadcastTo_a1_ab_apply, broadcastTo_a1_ab_apply,
    shapeCast_a_a1_apply]
  erw [max14_apply]
  congr 1
  show Ideal.log (shapeCast S1000x1 _ shapeCasts_S1000_S1000x1 (ix2 p (0 : Fin 1))) = _
  rw [shapeCast_a_a1_apply]
  erw [Ideal.multiReduction_add_single]
  refine congrArg (fun g : Fin cols14 → EReal => Ideal.log (∑ k, g k)) (funext fun k : Fin cols14 => ?_)
  rw [lift14]
  show Ideal.exp (subf (F := Ideal) (φ := .f32) _ _ (ix2 p k)) = _
  rw [subf_apply, addf_apply, broadcastTo_1b_ab_apply, broadcastTo_a1_ab_apply, shapeCast_a_a1_apply]
  erw [max14_apply]

/-! ## From blocks to the array -/

variable (V : (c : Dev nD) → (b : Ref sig .tc) → Buf (Elt Idealize.ShloMosaic.Ideal) ((c : Thread nD τ).loc b))

theorem hz14 : (![0, 0] : Fin 2 → Nat) = fun _ => 0 := funext fun a => by fin_cases a <;> rfl

/-- What the output array ends holding: row by row, the log-softmax of the row of the first array plus the one row of
    the second. -/
def G14 (a : S10000x17.Idx → EReal) (b : S1x17.Idx → EReal) : S10000x17.Idx → EReal :=
  fun i => rowLsmI (fun k : Fin cols14 => a (ix2 (i 0) k) + b (ix2 (0 : Fin 1) k)) (i 1)

/-- The two arrays the region finds, as functions into the extended reals. -/
abbrev a14 (c : Dev nD) : S10000x17.Idx → EReal := V c (Pipeline.arrRef spec14 0)
abbrev b14 (c : Dev nD) : S1x17.Idx → EReal := V c (Pipeline.arrRef spec14 1)

/-- The printed index maps, decided over the grid: the rows' window moves with the output's along the rows, the bias
    row's never moves, and the output's block index along the rows is the point's number. -/
theorem idx_facts14 : ∀ t : Fin cfg14.N,
    win14_0.index t (0 : Fin 2) = win14_2.index t (0 : Fin 2)
    ∧ win14_0.index t (1 : Fin 2) = 0
    ∧ win14_1.index t (0 : Fin 2) = 0
    ∧ win14_1.index t (1 : Fin 2) = 0
    ∧ win14_2.index t (0 : Fin 2) = t.val
    ∧ win14_2.index t (1 : Fin 2) = 0 :=
  (by decide +kernel : ∀ t : Fin grid14.N, _)

/-- What point `t` writes back is block `t` of `G14` of the two arrays as the region finds them. -/
theorem flushed14_2_eq (c : Dev nD) (t : Fin cfg14.N) :
    (dat14 (F := Idealize.ShloMosaic.Ideal) V c).flushed 2 t
      = ((cfg14.win 2).blk t).view.read (Elt Idealize.ShloMosaic.Ideal) (G14 (V c (Pipeline.arrRef spec14 0)) (V c (Pipeline.arrRef spec14 1))) := by
  show (cfg14.win 2).cut (grid14.coords t) ((dat14 V c).after 2 t) = _
  rw [after14_2]
  unfold out14_2
  rw [View.canon_unit_zero hz14]
  simp only [View.ld_unit_zero (S := S1000x17) hz14, View.ld_unit_zero (S := S1x17) hz14]
  obtain ⟨e0, e1, e2, e3, e4, e5⟩ := idx_facts14 t
  funext j
  obtain ⟨p, f, rfl⟩ : ∃ (p : Fin blkRows14) (f : Fin cols14), j = ix2 p f := ⟨j 0, j 1, eq_ix2 j⟩
  show k14_pay1 (iblk14 V c 0 t) (iblk14 V c 1 t) (ix2 p f)
    = G14 (V c (Pipeline.arrRef spec14 0)) (V c (Pipeline.arrRef spec14 1)) (((cfg14.win 2).blk t).view.emb (ix2 p f))
  rw [pay14_apply]
  unfold G14
  have hf : (((cfg14.win 2).blk t).view.emb (ix2 p f)) 1 = f := Fin.ext (by
    show win14_2.index t (1 : Fin 2) * cols14 + 1 * f.val = f.val
    rw [e5, Nat.zero_mul, Nat.zero_add, Nat.one_mul])
  have h0 : ∀ k : Fin cols14, ((cfg14.win 0).blk t).view.emb (ix2 p k) = ix2 ((((cfg14.win 2).blk t).view.emb (ix2 p f)) 0) k := by
    intro k; funext a; apply Fin.ext
    match a with
    | ⟨0, _⟩ =>
      show win14_0.index t (0 : Fin 2) * blkRows14 + 1 * p.val = win14_2.index t (0 : Fin 2) * blkRows14 + 1 * p.val
      rw [e0]
    | ⟨1, _⟩ =>
      show win14_0.index t (1 : Fin 2) * cols14 + 1 * k.val = k.val
      rw [e1, Nat.zero_mul, Nat.zero_add, Nat.one_mul]
  have h1 : ∀ k : Fin cols14, ((cfg14.win 1).blk t).view.emb (ix2 (0 : Fin 1) k) = ix2 (0 : Fin 1) k := by
    intro k; funext a; apply Fin.ext
    match a with
    | ⟨0, _⟩ =>
      show win14_1.index t (0 : Fin 2) * 1 + 1 * 0 = 0
      rw [e2]
    | ⟨1, _⟩ =>
      show win14_1.index t (1 : Fin 2) * cols14 + 1 * k.val = k.val
      rw [e3, Nat.zero_mul, Nat.zero_add, Nat.one_mul]
  rw [hf]
  refine congrArg (fun z : Fin cols14 → EReal => rowLsmI z f) (funext fun k => ?_)
  show a14 V c (((cfg14.win 0).blk t).view.emb (ix2 p k)) + b14 V c (((cfg14.win 1).blk t).view.emb (ix2 (0 : Fin 1) k)) = _
  rw [h0, h1]
  rfl

/-- An index of the array is in point `t`'s block iff each coordinate is in the block's range on its axis. -/
theorem mem_blk14_2 (t : Fin cfg14.N) (i : S10000x17.Idx) :
    i ∈ ((cfg14.win 2).blk t).view.set ↔ ∀ a : Fin 2, win14_2.index t a * S1000x17.size a ≤ (i a).val
      ∧ (i a).val < win14_2.index t a * S1000x17.size a + S1000x17.size a := by
  show i ∈ ((View.whole main_v127).slice (win14_2.rect t)).set ↔ _
  rw [View.set_slice_whole, Rect.mem_set_unit]
  exact Iff.rfl

/-- Every index of the array is in some point's block: row `r` is in the block of point `r / blkRows14`. -/
theorem covered14_2 (i : S10000x17.Idx) :
    ∃ t : Fin cfg14.N, (cfg14.win 2).flush t = true ∧ i ∈ ((cfg14.win 2).blk t).view.set := by
  have hi0 : (i 0).val < arrRows14 := (i 0).isLt
  have hi1 : (i 1).val < cols14 := (i 1).isLt
  have hN : (i 0).val / blkRows14 < grid14.N := by
    rw [N_14]; dsimp only [blkRows14, arrRows14] at *; omega
  obtain ⟨-, -, -, -, e4, e5⟩ := idx_facts14 ⟨(i 0).val / blkRows14, hN⟩
  refine ⟨⟨(i 0).val / blkRows14, hN⟩, flush14_2 _, ?_⟩
  rw [mem_blk14_2]
  intro a
  match a with
  | ⟨0, _⟩ =>
    show win14_2.index ⟨(i 0).val / blkRows14, hN⟩ (0 : Fin 2) * blkRows14 ≤ (i 0).val
      ∧ (i 0).val < win14_2.index ⟨(i 0).val / blkRows14, hN⟩ (0 : Fin 2) * blkRows14 + blkRows14
    rw [e4]; dsimp only [blkRows14]; omega
  | ⟨1, _⟩ =>
    show win14_2.index ⟨(i 0).val / blkRows14, hN⟩ (1 : Fin 2) * cols14 ≤ (i 1).val
      ∧ (i 1).val < win14_2.index ⟨(i 0).val / blkRows14, hN⟩ (1 : Fin 2) * cols14 + cols14
    rw [e5]; omega

/-- THE OUTPUT ARRAY after the region: `G14` of the two arrays the region finds. -/
theorem final14_2 (c : Dev nD) :
    (dat14 (F := Idealize.ShloMosaic.Ideal) V c).arrAt 2 cfg14.N = G14 (V c (Pipeline.arrRef spec14 0)) (V c (Pipeline.arrRef spec14 1)) :=
  (dat14 V c).arrAt_eq_of_cover 2 (G14 (V c (Pipeline.arrRef spec14 0)) (V c (Pipeline.arrRef spec14 1)))
    (fun t _ => flushed14_2_eq V c t) covered14_2

/-! ## Against the specification, on real arrays -/

/-- With the first array the coercion of a real array `ar` and the second's row that of a real row `br`, every entry
    of the output array is the coerced real log-softmax of `ar` plus the bias `br`. -/
theorem final14_real (c : Dev nD) (ar : Fin arrRows14 → Fin cols14 → ℝ) (br : Fin cols14 → ℝ)
    (ha : ∀ i k, (V c (Pipeline.arrRef spec14 0) : _ → EReal) (ix2 i k) = ((ar i k : ℝ) : EReal))
    (hb : ∀ k, (V c (Pipeline.arrRef spec14 1) : _ → EReal) (ix2 (0 : Fin 1) k) = ((br k : ℝ) : EReal))
    (i : Fin arrRows14) (f : Fin cols14) :
    ((dat14 (F := Idealize.ShloMosaic.Ideal) V c).arrAt 2 cfg14.N : _ → EReal) (ix2 i f)
      = ((Cert.Spec.lsm (b := 16) (Cert.Spec.addBias ar br) i f : ℝ) : EReal) := by
  rw [final14_2]
  show rowLsmI (fun k : Fin cols14 => a14 V c (ix2 i k) + b14 V c (ix2 (0 : Fin 1) k)) f = _
  have hrow : (fun k : Fin cols14 => a14 V c (ix2 i k) + b14 V c (ix2 (0 : Fin 1) k))
      = fun k : Fin cols14 => ((Cert.Spec.addBias ar br i k : ℝ) : EReal) := by
    funext k
    have h0 : a14 V c (ix2 i k) = ((ar i k : ℝ) : EReal) := ha i k
    have h1 : b14 V c (ix2 (0 : Fin 1) k) = ((br k : ℝ) : EReal) := hb k
    rw [h0, h1, Cert.LibCoe.add_coe]
    rfl
  rw [hrow]
  have hmx : rowMaxI (fun k : Fin cols14 => ((Cert.Spec.addBias ar br i k : ℝ) : EReal))
      = ((Cert.Spec.rowMax (b := 16) (Cert.Spec.addBias ar br) i : ℝ) : EReal) := by
    unfold rowMaxI
    rw [Cert.LibCoe.ofBits_neg_inf]
    exact Cert.LibCoe.fold_max_bot_row (b := 16) (Cert.Spec.addBias ar br) i
  unfold rowLsmI
  rw [hmx]
  exact Cert.LibCoe.lsm_coe (b := 16) (Cert.Spec.addBias ar br) i f

end Cert.KernelIdeal.HandV

end
-- ==== Proof.KLast.lean ====
/-
  The end of the kernel's chain of values: the fifth convolution and the log-softmax.

  After the fourth "normalise, then multiply by the next weights" region the buffers hold the product `y`
  (10000 × 17) that the last convolution is to aggregate, the dense normalised adjacency (10000 × 10240, its
  columns from 10000 on zero), and the arguments as launched. From there the program
    * pads `y` by 240 zero rows,
    * multiplies the adjacency with the padded `y`: entry `(i, j)` is `∑ s < 10240, Â[i, s] · y'[s, j]`, and since both
      factors vanish from `s = 10000` on this is the dense aggregation `∑ s < 10000, Â[i, s] · y[s, j]`,
    * reshapes the bias,
    * adds the bias to every row and takes the row's log-softmax.
  So the result array holds `lsm (addBias (aggD y) b₅)`, read as coerced reals.
-/
import proofs.«408066_j62380105008311_2_alg».proof.Proof.Assembly
import proofs.«408066_j62380105008311_2_alg».proof.Proof.HostSmall5
import proofs.«408066_j62380105008311_2_alg».proof.Proof.Val13
import proofs.«408066_j62380105008311_2_alg».proof.Proof.Val14
import proofs.«408066_j62380105008311_2_alg».proof.Proof.Spec
import proofs.«408066_j62380105008311_2_alg».proof.Proof.SpecLaws2
import proofs.«408066_j62380105008311_2_alg».proof.Proof.LibCoe
import Idealize.ShloMosaic.Lib.ValueIdx

-- decided non-memberships among the program's references recurse past the default depth
set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.StableHlo
open Idealize.ShloMosaic.Pipeline (Dat)
open Finset BigOperators

/-! ## Zero-extension -/

/-- A coerced real extended by the extended-real zero is the coercion of the real extended by zero. -/
theorem zeroExt_coe {p : Prop} [Decidable p] (a : p → ℝ) :
    (if h : p then ((a h : ℝ) : EReal) else (0 : EReal)) = (((if h : p then a h else 0) : ℝ) : EReal) := by
  by_cases hp : p
  · simp only [hp, dite_true]
  · simp only [hp, dite_false, EReal.coe_zero]

/-- The adjacency's row `d` extended by zero to the padded width, as a real array. -/
def adjPad {E : ℕ} (src dst : Fin E → Fin 10000) (d : Fin 10000) (s : Fin 10240) : ℝ :=
  if h : s.val < 10000 then Cert.Spec.adj src dst d ⟨s.val, h⟩ else 0

/-- Features extended by zero rows to the padded height, as a real array. -/
def rowsPad {b : ℕ} (y : Fin 10000 → Fin b → ℝ) (s : Fin 10240) (f : Fin b) : ℝ :=
  if h : s.val < 10000 then y ⟨s.val, h⟩ f else 0

/-- The padded product is the dense aggregation. -/
theorem sum_adjPad_rowsPad {E b : ℕ} (src dst : Fin E → Fin 10000) (y : Fin 10000 → Fin b → ℝ)
    (d : Fin 10000) (f : Fin b) :
    ∑ s : Fin 10240, adjPad src dst d s * rowsPad y s f = Cert.Spec.aggD src dst y d f :=
  Cert.Spec.aggD_pad_10240 src dst y d f

/-! ## Layer 5 and the result

After the fourth normalisation-and-product region the buffers hold: the product `y` (10000 × 17) that the last
convolution aggregates, the dense adjacency (10000 × 10240, zero from column 10000 on), and the arguments as
launched. What follows in the program: `y` is padded by 240 zero rows; a region multiplies the adjacency with the
padded `y`; the bias row is reshaped; the last region adds the bias and takes each row's log-softmax. -/

section Layer5

variable (m : (ℓ : Loc nD τ sig) → Buf (Elt Idealize.ShloMosaic.Ideal) ℓ) (c : Dev nD)
variable {E : ℕ} (src dst : Fin E → Fin 10000) (y : Fin 10000 → Fin 17 → ℝ) (b5 : Fin 17 → ℝ)

/-- The padded product, after the two host stretches that follow region 12. -/
theorem v124_real
    (h123 : ∀ i j, (W32 m c (Proc.devRef .tc main_v123) : S10000x17.Idx → EReal) (ix2 i j) = ((y i j : ℝ) : EReal))
    (s : Fin 10240) (f : Fin 17) :
    (W34 m c (Proc.devRef .tc main_v124) : S10240x17.Idx → EReal) (ix2 s f) = ((rowsPad y s f : ℝ) : EReal) :=
  pad5_real_from (W32 m c) y h123 s f

/-- The adjacency reaches region 13 as it left the first host stretches. -/
theorem v46_at34
    (hadj : ∀ d s, (W32 m c (Proc.devRef .tc main_v46) : S10000x10240.Idx → EReal) (ix2 d s)
      = ((adjPad src dst d s : ℝ) : EReal))
    (d : Fin 10000) (s : Fin 10240) :
    (W34 m c (Proc.devRef .tc main_v46) : S10000x10240.Idx → EReal) (ix2 d s) = ((adjPad src dst d s : ℝ) : EReal) := by
  rw [W34_of m c main_v46 (by decide), W33_of m c main_v46 (by decide)]
  exact hadj d s

/-- Region 13 leaves the dense aggregation of `y`. -/
theorem v125_real
    (h123 : ∀ i j, (W32 m c (Proc.devRef .tc main_v123) : S10000x17.Idx → EReal) (ix2 i j) = ((y i j : ℝ) : EReal))
    (hadj : ∀ d s, (W32 m c (Proc.devRef .tc main_v46) : S10000x10240.Idx → EReal) (ix2 d s)
      = ((adjPad src dst d s : ℝ) : EReal))
    (i : Fin 10000) (j : Fin 17) :
    (W35 m c (Proc.devRef .tc main_v125) : S10000x17.Idx → EReal) (ix2 i j)
      = ((Cert.Spec.aggD src dst y i j : ℝ) : EReal) := by
  have h := final13_real (V34 m) c (adjPad src dst) (rowsPad y)
    (fun d s => v46_at34 m c src dst hadj d s) (fun s f => v124_real m c y h123 s f) i j
  rw [sum_adjPad_rowsPad] at h
  exact (congrFun (W35_arr m c 2) (ix2 i j)).trans h

/-- The bias row that the last region reads is the argument's. -/
theorem v126_real
    (hb5 : ∀ k, (W32 m c (Proc.devRef .tc main_arg11) : S17.Idx → EReal) (ix1 k) = ((b5 k : ℝ) : EReal))
    (k : Fin 17) :
    (W36 m c (Proc.devRef .tc main_v126) : S1x17.Idx → EReal) (ix2 (0 : Fin 1) k) = ((b5 k : ℝ) : EReal) := by
  have h := bias5_read (W35 m c) k
  rw [W35_of m c main_arg11 (by decide), W34_of m c main_arg11 (by decide), W33_of m c main_arg11 (by decide), hb5 k] at h
  exact h

/-- (K5) The result: each row's log-softmax of the aggregated product plus the bias. The adjacency is given as the
    coerced zero-extended real array. -/
theorem layer5_coe
    (h123 : ∀ i j, (W32 m c (Proc.devRef .tc main_v123) : S10000x17.Idx → EReal) (ix2 i j) = ((y i j : ℝ) : EReal))
    (hadj : ∀ d s, (W32 m c (Proc.devRef .tc main_v46) : S10000x10240.Idx → EReal) (ix2 d s)
      = ((adjPad src dst d s : ℝ) : EReal))
    (hb5 : ∀ k, (W32 m c (Proc.devRef .tc main_arg11) : S17.Idx → EReal) (ix1 k) = ((b5 k : ℝ) : EReal))
    (i : Fin 10000) (f : Fin 17) :
    (W37 m c (Proc.devRef .tc main_v127) : S10000x17.Idx → EReal) (ix2 i f)
      = ((Cert.Spec.lsm (b := 16) (Cert.Spec.addBias (Cert.Spec.aggD src dst y) b5) i f : ℝ) : EReal) := by
  have h := final14_real (V36 m) c (Cert.Spec.aggD src dst y) b5
    (fun i k => (congrFun (W36_of m c main_v125 (by decide)) (ix2 i k)).trans (v125_real m c src dst y h123 hadj i k))
    (fun k => v126_real m c b5 hb5 k) i f
  exact (congrFun (W37_result m c) (ix2 i f)).trans h

/-- (K5) with the adjacency given entry by entry as a coerced real below column 10000 and the extended-real zero
    from there on. -/
theorem layer5
    (h123 : ∀ i j, (W32 m c (Proc.devRef .tc main_v123) : S10000x17.Idx → EReal) (ix2 i j) = ((y i j : ℝ) : EReal))
    (hadj : ∀ d s, (W32 m c (Proc.devRef .tc main_v46) : S10000x10240.Idx → EReal) (ix2 d s)
      = if h : s.val < 10000 then ((Cert.Spec.adj src dst d ⟨s.val, h⟩ : ℝ) : EReal) else (0 : EReal))
    (hb5 : ∀ k, (W32 m c (Proc.devRef .tc main_arg11) : S17.Idx → EReal) (ix1 k) = ((b5 k : ℝ) : EReal))
    (i : Fin 10000) (f : Fin 17) :
    (W37 m c (Proc.devRef .tc main_v127) : S10000x17.Idx → EReal) (ix2 i f)
      = ((Cert.Spec.lsm (b := 16) (Cert.Spec.addBias (Cert.Spec.aggD src dst y) b5) i f : ℝ) : EReal) :=
  layer5_coe m c src dst y b5 h123 (fun d s => (hadj d s).trans (zeroExt_coe _)) hb5 i f

end Layer5

section Layer5Launch

variable (m : (ℓ : Loc nD τ sig) → Buf (Elt Idealize.ShloMosaic.Ideal) ℓ) (c : Dev nD)
variable {E : ℕ} (src dst : Fin E → Fin 10000) (y : Fin 10000 → Fin 17 → ℝ) (b5 : Fin 17 → ℝ)

/-- The last bias argument is, after region 12, still as launched: nothing from there to the end writes it, and at
    the end it is as launched. -/
theorem arg11_at32 : W32 m c (Proc.devRef .tc main_arg11) = m ((c : Thread nD τ).loc main_arg11) := by
  rw [← W33_of m c main_arg11 (by decide), ← W34_of m c main_arg11 (by decide), ← W35_of m c main_arg11 (by decide),
    ← W36_of m c main_arg11 (by decide), ← W37_of m c main_arg11 (by decide)]
  exact W37_main_arg11 m c

/-- (K5), the adjacency coerced and the bias read at the launch memory. -/
theorem layer5_launch
    (h123 : ∀ i j, (W32 m c (Proc.devRef .tc main_v123) : S10000x17.Idx → EReal) (ix2 i j) = ((y i j : ℝ) : EReal))
    (hadj : ∀ d s, (W32 m c (Proc.devRef .tc main_v46) : S10000x10240.Idx → EReal) (ix2 d s)
      = ((adjPad src dst d s : ℝ) : EReal))
    (hb5 : ∀ k, (m ((c : Thread nD τ).loc main_arg11) : S17.Idx → EReal) (ix1 k) = ((b5 k : ℝ) : EReal))
    (i : Fin 10000) (f : Fin 17) :
    (W37 m c (Proc.devRef .tc main_v127) : S10000x17.Idx → EReal) (ix2 i f)
      = ((Cert.Spec.lsm (b := 16) (Cert.Spec.addBias (Cert.Spec.aggD src dst y) b5) i f : ℝ) : EReal) :=
  layer5_coe m c src dst y b5 h123 hadj (fun k => by rw [arg11_at32 m c]; exact hb5 k) i f

end Layer5Launch

end Cert.KernelIdeal.HandV

end
-- ==== Proof.HostOpen0.lean ====
import proofs.«408066_j62380105008311_2_alg».proof.Proof.Gen.KernelIdeal.Launch
import Idealize.ShloMosaic.Lib.StableHlo.Run
import Idealize.ShloMosaic.Lib.Pipeline.Frame
import Idealize.ShloMosaic.Lib.ValueIdx
import Idealize.ShloMosaic.Lib.Pipeline.Value

/-! # The first host stretch, opened

The buffers the first stretch of host operations leaves, as the printed operations applied to the edge list: the
source and destination lists (each a row of the edge list followed by the self loops `0 … n-1`), the in-degrees (ones
scattered and added at the destinations), the test "degree positive" and the reciprocal square root of the degrees.
The list is cut before and after each concatenation and each piece is read on its own, at any entry contents. -/

noncomputable section

namespace Cert.KernelIdeal.HandV

open Cert.KernelIdeal Cert.KernelIdeal.Gen Idealize.ShloMosaic Idealize.ShloMosaic.TcCoe Idealize.SL.Sem Idealize.ShloMosaic.StableHlo

variable {F : FTy → Type} [FloatOps F]

/-! ## The pure terms -/

/-- The source list: row 0 of the edge list, then the self loops. -/
abbrev src0 (e : (⟨S2x320000, .i32⟩ : BufTy).Contents (Elt F)) : (⟨S330000, .i32⟩ : BufTy).Contents (Elt F) :=
  concatenate S330000 0 [⟨S320000, shapeCast S320000 (extractStridedSlice S1x320000 ![0, 0] e slices_S2x320000_S1x320000_0_0) shapeCasts_S1x320000_S320000⟩, ⟨S10000, iotaInDim S10000 32 0⟩] concatenates_S320000_S10000_S330000_d0

/-- The destination list: row 1 of the edge list, then the self loops. -/
abbrev dst0 (e : (⟨S2x320000, .i32⟩ : BufTy).Contents (Elt F)) : (⟨S330000, .i32⟩ : BufTy).Contents (Elt F) :=
  concatenate S330000 0 [⟨S320000, shapeCast S320000 (extractStridedSlice S1x320000 ![1, 0] e slices_S2x320000_S1x320000_1_0) shapeCasts_S1x320000_S320000⟩, ⟨S10000, iotaInDim S10000 32 0⟩] concatenates_S320000_S10000_S330000_d0

/-- The in-degrees, from a destination list: ones scattered and added into zeros at the destinations. -/
abbrev deg0 (d : (⟨S330000, .i32⟩ : BufTy).Contents (Elt F)) : (⟨S10000, .f32⟩ : BufTy).Contents (Elt F) :=
  Host.scatterAdd scatter_S10000_S330000x1_S330000_n_0_0_1
    (broadcastInDim S10000 ![] bcast_S_S10000 (constant S_ .f32 0x00000000#32))
    (broadcastInDim S330000x1 ![0] bcast_S330000_S330000x1_0 d)
    (broadcastInDim S330000 ![] bcast_S_S330000 (constant S_ .f32 0x3F800000#32))

/-- The test "degree positive". -/
abbrev pos0 (d : (⟨S330000, .i32⟩ : BufTy).Contents (Elt F)) : (⟨S10000, .i1⟩ : BufTy).Contents (Elt F) :=
  cmpf .ogt (deg0 d) (broadcastInDim S10000 ![] bcast_S_S10000 (constant S_ .f32 0x00000000#32))

/-- The reciprocal square root of the degrees. -/
abbrev rsq0 (d : (⟨S330000, .i32⟩ : BufTy).Contents (Elt F)) : (⟨S10000, .f32⟩ : BufTy).Contents (Elt F) :=
  Host.rsqrt (deg0 d)

/-! ## The stretch in three pieces -/

/-- Up to the source list. -/
abbrev hostOps0_A : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.nullary main_v2 (iotaInDim S10000 32 0),
    StableHlo.binary main_v1 main_v2 main_v3 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)) ]

/-- Up to the destination list. -/
abbrev hostOps0_B : List (HloOp τ sig (Elt F)) :=
  [ StableHlo.unary main_arg1 main_v4 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v4 main_v5 rfl shapeCasts_S1x320000_S320000,
    StableHlo.nullary main_v6 (iotaInDim S10000 32 0),
    StableHlo.binary main_v5 main_v6 main_v7 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)) ]

/-- The degrees and what is taken of them. -/
abbrev hostOps0_C : List (HloOp τ sig (Elt F)) :=
  [ StableHlo.nullary main_cst (constant S_ .f32 0x3F800000#32),
    StableHlo.unary main_cst main_v8 (broadcastInDim S330000 ![] bcast_S_S330000 : (⟨S_, .f32⟩ : BufTy).Contents (Elt F) → (⟨S330000, .f32⟩ : BufTy).Contents (Elt F)),
    StableHlo.nullary main_cst_0 (constant S_ .f32 0x00000000#32),
    StableHlo.unary main_cst_0 main_v9 (broadcastInDim S10000 ![] bcast_S_S10000 : (⟨S_, .f32⟩ : BufTy).Contents (Elt F) → (⟨S10000, .f32⟩ : BufTy).Contents (Elt F)),
    StableHlo.unary main_v7 main_v10 (broadcastInDim S330000x1 ![0] bcast_S330000_S330000x1_0 : (⟨S330000, .i32⟩ : BufTy).Contents (Elt F) → (⟨S330000x1, .i32⟩ : BufTy).Contents (Elt F)),
    StableHlo.ternary main_v9 main_v10 main_v8 main_v11 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    StableHlo.nullary main_cst_1 (constant S_ .f32 0x00000000#32),
    StableHlo.unary main_cst_1 main_v12 (broadcastInDim S10000 ![] bcast_S_S10000 : (⟨S_, .f32⟩ : BufTy).Contents (Elt F) → (⟨S10000, .f32⟩ : BufTy).Contents (Elt F)),
    StableHlo.binary main_v11 main_v12 main_v13 (cmpf .ogt : (⟨S10000, .f32⟩ : BufTy).Contents (Elt F) → (⟨S10000, .f32⟩ : BufTy).Contents (Elt F) → (⟨S10000, .i1⟩ : BufTy).Contents (Elt F)),
    StableHlo.unary main_v11 main_v14 (Host.rsqrt : (⟨S10000, .f32⟩ : BufTy).Contents (Elt F) → (⟨S10000, .f32⟩ : BufTy).Contents (Elt F)),
    StableHlo.nullary main_cst_2 (constant S_ .f32 0x00000000#32) ]

theorem hostOps0_split : (hostOps0 : List (HloOp τ sig (Elt F))) = hostOps0_A ++ (hostOps0_B ++ hostOps0_C) := rfl

/-! ## Each piece, at any entry contents -/

theorem openA_v3 (W : Valuation τ sig (Elt F)) :
    after hostOps0_A W (Proc.devRef .tc main_v3) = src0 (W (Proc.devRef .tc main_arg1)) := by
  after_results
  rfl

theorem openA_arg1 (W : Valuation τ sig (Elt F)) :
    after hostOps0_A W (Proc.devRef .tc main_arg1) = W (Proc.devRef .tc main_arg1) := by
  after_results

theorem openB_v7 (W : Valuation τ sig (Elt F)) :
    after hostOps0_B W (Proc.devRef .tc main_v7) = dst0 (W (Proc.devRef .tc main_arg1)) := by
  after_results
  rfl

theorem openB_v3 (W : Valuation τ sig (Elt F)) :
    after hostOps0_B W (Proc.devRef .tc main_v3) = W (Proc.devRef .tc main_v3) := by
  after_results

theorem openB_arg1 (W : Valuation τ sig (Elt F)) :
    after hostOps0_B W (Proc.devRef .tc main_arg1) = W (Proc.devRef .tc main_arg1) := by
  after_results

theorem openC_v3 (W : Valuation τ sig (Elt F)) :
    after hostOps0_C W (Proc.devRef .tc main_v3) = W (Proc.devRef .tc main_v3) := by
  after_results_simp

theorem openC_v7 (W : Valuation τ sig (Elt F)) :
    after hostOps0_C W (Proc.devRef .tc main_v7) = W (Proc.devRef .tc main_v7) := by
  after_results_simp

theorem openC_arg1 (W : Valuation τ sig (Elt F)) :
    after hostOps0_C W (Proc.devRef .tc main_arg1) = W (Proc.devRef .tc main_arg1) := by
  after_results_simp

theorem openC_v11 (W : Valuation τ sig (Elt F)) :
    after hostOps0_C W (Proc.devRef .tc main_v11) = deg0 (W (Proc.devRef .tc main_v7)) := by
  after_results_simp

theorem openC_v13 (W : Valuation τ sig (Elt F)) :
    after hostOps0_C W (Proc.devRef .tc main_v13) = pos0 (W (Proc.devRef .tc main_v7)) := by
  after_results_simp

theorem openC_v14 (W : Valuation τ sig (Elt F)) :
    after hostOps0_C W (Proc.devRef .tc main_v14) = rsq0 (W (Proc.devRef .tc main_v7)) := by
  after_results_simp

theorem openC_cst_2 (W : Valuation τ sig (Elt F)) :
    after hostOps0_C W (Proc.devRef .tc main_cst_2) = constant S_ .f32 0x00000000#32 := by
  after_results_simp

/-! ## The whole stretch -/

variable (V0 : Valuation τ sig (Elt F))

/-- The whole stretch is the three pieces in turn. -/
theorem after_hostOps0 : after hostOps0 V0 = after hostOps0_C (after hostOps0_B (after hostOps0_A V0)) := by
  rw [hostOps0_split, StableHlo.after_append, StableHlo.after_append]

theorem hostOps0_v3 : after hostOps0 V0 (Proc.devRef .tc main_v3) = src0 (V0 (Proc.devRef .tc main_arg1)) := by
  rw [after_hostOps0, openC_v3, openB_v3, openA_v3]

theorem hostOps0_v7 : after hostOps0 V0 (Proc.devRef .tc main_v7) = dst0 (V0 (Proc.devRef .tc main_arg1)) := by
  rw [after_hostOps0, openC_v7, openB_v7, openA_arg1]

theorem hostOps0_v11 : after hostOps0 V0 (Proc.devRef .tc main_v11) = deg0 (dst0 (V0 (Proc.devRef .tc main_arg1))) := by
  rw [after_hostOps0, openC_v11, openB_v7, openA_arg1]

theorem hostOps0_v13 : after hostOps0 V0 (Proc.devRef .tc main_v13) = pos0 (dst0 (V0 (Proc.devRef .tc main_arg1))) := by
  rw [after_hostOps0, openC_v13, openB_v7, openA_arg1]

theorem hostOps0_v14 : after hostOps0 V0 (Proc.devRef .tc main_v14) = rsq0 (dst0 (V0 (Proc.devRef .tc main_arg1))) := by
  rw [after_hostOps0, openC_v14, openB_v7, openA_arg1]

theorem hostOps0_cst_2 : after hostOps0 V0 (Proc.devRef .tc main_cst_2) = constant S_ .f32 0x00000000#32 := by
  rw [after_hostOps0, openC_cst_2]

theorem hostOps0_arg1 : after hostOps0 V0 (Proc.devRef .tc main_arg1) = V0 (Proc.devRef .tc main_arg1) := by
  rw [after_hostOps0, openC_arg1, openB_arg1, openA_arg1]

end Cert.KernelIdeal.HandV

end
-- ==== Proof.HostAdj.lean ====
/-
  The dense normalised adjacency the host builds before the first kernel, at the ideal instance.

  The graph has 330000 directed edges: the 320000 listed ones followed by one self loop per node. The host joins each
  row of the edge list with the node numbers 0 … 9999 (sources, destinations), counts the edges ending at each node
  (ones scattered and added at the destinations), takes the reciprocal square root of the positive counts, weighs
  edge e by the product of the two values at its ends, and adds each weight into a 10000 × 10240 matrix of zeros at
  (destination, source); the last 240 columns are padding and stay zero. Every index is first "normalised" (the axis
  size added where it is negative), which changes nothing at a node number.

  Part A: the scatter's result index at one and at two index columns, at any extent. Part B: the operations as one
  term over the edge array, read at an index against the real specification. Part C: the three stretches of host
  operations opened, each cut before its joins, and the buffer's contents identified with that term.
-/
import proofs.«408066_j62380105008311_2_alg».proof.Proof.Gen.KernelIdeal.Launch
import proofs.«408066_j62380105008311_2_alg».proof.Proof.Spec
import proofs.«408066_j62380105008311_2_alg».proof.Proof.Inputs
import proofs.«408066_j62380105008311_2_alg».proof.Proof.LibCoe
import proofs.«408066_j62380105008311_2_alg».proof.Proof.HostOpen0
import Idealize.ShloMosaic.Lib.StableHlo.Run
import Idealize.ShloMosaic.Lib.Pipeline.Frame
import Idealize.ShloMosaic.Lib.StableHlo.Predicate
import Idealize.ShloMosaic.Lib.ValueIdx
import Idealize.ShloMosaic.Lib.Pipeline.Value
import Idealize.ShloMosaic.PureOps.Ideal.Laws

set_option maxRecDepth 1720
noncomputable section
namespace Cert.KernelIdeal.HandV
open Idealize.ShloMosaic Idealize.ShloMosaic.ValueIdx Idealize.ShloMosaic.StableHlo
open Idealize.ShloMosaic.StableHlo.Predicate
open Cert.KernelIdeal Cert.KernelIdeal.Gen
open scoped BigOperators

/-! ## Index words -/

/-- The index normalisation "if negative add the axis size" leaves a word below 2³¹ alone. -/
theorem select_neg_fix (w c : BitVec 32) (hw : w.toNat < 2 ^ 31) :
    Scalar.select (IntOp.cmpi .slt w 0#32) (IntOp.addi w c) w = w := by
  have h0 : IntOp.cmpi .slt w 0#32 = 0#1 := by
    apply eq_zero_of_ne_one
    intro h
    have := (slt_iff_toNat hw (by decide)).mp h
    simp at this
  rw [h0, select_zero]

/-! ## The scatter's result index: one index component -/

/-- An update row lands on element `i` of a vector exactly when its index word, read signed, is `i`. -/
theorem scatter1_some_iff {N n w : Nat} (d : ScatterDims ⟨1, ![N]⟩ ⟨2, ![n, 1]⟩ ⟨1, ![n]⟩)
    (hiw : d.insertedWindowDims = [0]) (hsd : d.scatterDimsToOperandDims = [0])
    (hivd : d.indexVectorDim = 1) (idx : IVec ⟨2, ![n, 1]⟩ w) (e : Fin n) (i : Fin N) :
    d.resultIdx? (Shape.Idx.ofFin e) idx = some (Shape.Idx.ofFin i) ↔ (idx (ixP e)).toInt = (i.val : Int) := by
  have hstart : ∀ a, d.start (Shape.Idx.ofFin e) idx a = (idx (ixP e)).toInt := by
    intro a
    obtain rfl : a = 0 := Subsingleton.elim _ _
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have e' : ∀ X : Fin 1, ((Shape.Idx.ofFin e : (⟨1, ![n]⟩ : Shape).Idx) X).val = e.val := fun X => by
        have hX : X = 0 := Subsingleton.elim _ _
        subst hX; rfl
      exact e' _
    | ⟨1, _⟩ =>
      unfold ScatterDims.siIdx
      rw [dif_pos (by rw [hivd])]
      apply Fin.ext
      show List.idxOf (0 : Fin 1) d.scatterDimsToOperandDims = 0
      rw [hsd]; simp
  have hwin : ∀ a, d.window (Shape.Idx.ofFin e) a = 0 := by
    intro a
    obtain rfl : a = 0 := Subsingleton.elim _ _
    unfold ScatterDims.window
    rw [dif_neg]
    simp [ScatterDims.sKept, Shape.kept, hiw]
  unfold ScatterDims.resultIdx?
  by_cases h : ∀ a, 0 ≤ d.start (Shape.Idx.ofFin e) idx a + d.window (Shape.Idx.ofFin e) a ∧
      d.start (Shape.Idx.ofFin e) idx a + d.window (Shape.Idx.ofFin e) a < (⟨1, ![N]⟩ : Shape).size a
  · rw [dif_pos h]
    have h0 := h 0
    rw [hstart, hwin] at h0
    constructor
    · intro hs
      have := congrArg (fun f : (⟨1, ![N]⟩ : Shape).Idx => (f 0).val) (Option.some.inj hs)
      simp only [hstart, hwin] at this
      have hi : ((Shape.Idx.ofFin i : (⟨1, ![N]⟩ : Shape).Idx) 0).val = i.val := rfl
      rw [hi] at this
      omega
    · intro hs
      congr 1
      funext a
      obtain rfl : a = 0 := Subsingleton.elim _ _
      apply Fin.ext
      show (d.start (Shape.Idx.ofFin e) idx 0 + d.window (Shape.Idx.ofFin e) 0).toNat = i.val
      rw [hstart, hwin, hs]; simp
  · rw [dif_neg h]
    constructor
    · intro hs; exact absurd hs (by simp)
    · intro hs
      exfalso; apply h
      intro a
      obtain rfl : a = 0 := Subsingleton.elim _ _
      rw [hstart, hwin, hs]
      have := i.isLt
      constructor
      · simp
      · show ((i.val : Int) + ((0 : Nat) : Int)) < (N : Int)
        omega

/-! ## The scatter's result index: two index components -/

/-- An update row lands on element `(p, q)` of a matrix exactly when its two index words, read signed, are `p` and `q`. -/
theorem scatter2_some_iff {N0 N1 n w : Nat} (d : ScatterDims ⟨2, ![N0, N1]⟩ ⟨2, ![n, 2]⟩ ⟨1, ![n]⟩)
    (hiw : d.insertedWindowDims = [0, 1]) (hsd : d.scatterDimsToOperandDims = [0, 1])
    (hivd : d.indexVectorDim = 1) (idx : IVec ⟨2, ![n, 2]⟩ w) (e : Fin n) (p : Fin N0) (q : Fin N1) :
    d.resultIdx? (Shape.Idx.ofFin e) idx = some (ix2 p q)
      ↔ (idx (ix2 e (0 : Fin 2))).toInt = (p.val : Int) ∧ (idx (ix2 e (1 : Fin 2))).toInt = (q.val : Int) := by
  have e' : ∀ X : Fin 1, ((Shape.Idx.ofFin e : (⟨1, ![n]⟩ : Shape).Idx) X).val = e.val := fun X => by
    have hX : X = 0 := Subsingleton.elim _ _
    subst hX; rfl
  have hsi : ∀ (k : Fin 2) (c : Fin d.scatterDimsToOperandDims.length), c.val = k.val →
      d.siIdx (Shape.Idx.ofFin e) c = ix2 e k := by
    intro k c hc
    funext b
    match b with
    | ⟨0, _⟩ =>
      unfold ScatterDims.siIdx
      rw [dif_neg (by rw [hivd]; simp)]
      unfold ScatterDims.siCoord
      apply Fin.ext
      simp only [Fin.val_cast]
      exact e' _
    | ⟨1, _⟩ =>
      unfold ScatterDims.siIdx
      rw [dif_pos (by rw [hivd])]
      apply Fin.ext
      exact hc
  have hstart0 : d.start (Shape.Idx.ofFin e) idx 0 = (idx (ix2 e (0 : Fin 2))).toInt := by
    have hm : (0 : Fin 2) ∈ d.scatterDimsToOperandDims := by rw [hsd]; simp
    unfold ScatterDims.start
    rw [dif_pos hm, hsi 0 _ (by show List.idxOf (0 : Fin 2) d.scatterDimsToOperandDims = 0; rw [hsd]; simp)]
  have hstart1 : d.start (Shape.Idx.ofFin e) idx 1 = (idx (ix2 e (1 : Fin 2))).toInt := by
    have hm : (1 : Fin 2) ∈ d.scatterDimsToOperandDims := by rw [hsd]; simp
    unfold ScatterDims.start
    rw [dif_pos hm, hsi 1 _ (by show List.idxOf (1 : Fin 2) d.scatterDimsToOperandDims = 1; rw [hsd]; first | rfl | simp)]
  have hwin : ∀ a, d.window (Shape.Idx.ofFin e) a = 0 := by
    intro a
    unfold ScatterDims.window
    rw [dif_neg]
    match a with
    | ⟨0, _⟩ => simp [ScatterDims.sKept, Shape.kept, hiw]
    | ⟨1, _⟩ => simp [ScatterDims.sKept, Shape.kept, hiw]
  unfold ScatterDims.resultIdx?
  by_cases h : ∀ a, 0 ≤ d.start (Shape.Idx.ofFin e) idx a + d.window (Shape.Idx.ofFin e) a ∧
      d.start (Shape.Idx.ofFin e) idx a + d.window (Shape.Idx.ofFin e) a < (⟨2, ![N0, N1]⟩ : Shape).size a
  · rw [dif_pos h]
    have h0 := h 0
    have h1 := h 1
    rw [hstart0, hwin] at h0
    rw [hstart1, hwin] at h1
    constructor
    · intro hs
      have hs' := Option.some.inj hs
      have k0 := congrArg (fun f : (⟨2, ![N0, N1]⟩ : Shape).Idx => (f 0).val) hs'
      have k1 := congrArg (fun f : (⟨2, ![N0, N1]⟩ : Shape).Idx => (f 1).val) hs'
      simp only [hstart0, hstart1, hwin] at k0 k1
      have hp : ((ix2 p q : (⟨2, ![N0, N1]⟩ : Shape).Idx) 0).val = p.val := rfl
      have hq : ((ix2 p q : (⟨2, ![N0, N1]⟩ : Shape).Idx) 1).val = q.val := rfl
      rw [hp] at k0
      rw [hq] at k1
      constructor <;> omega
    · intro hs
      congr 1
      funext a
      match a with
      | ⟨0, _⟩ =>
        apply Fin.ext
        show (d.start (Shape.Idx.ofFin e) idx 0 + d.window (Shape.Idx.ofFin e) 0).toNat = p.val
        rw [hstart0, hwin, hs.1]; simp
      | ⟨1, _⟩ =>
        apply Fin.ext
        show (d.start (Shape.Idx.ofFin e) idx 1 + d.window (Shape.Idx.ofFin e) 1).toNat = q.val
        rw [hstart1, hwin, hs.2]; simp
  · rw [dif_neg h]
    constructor
    · intro hs; exact absurd hs (by simp)
    · intro hs
      exfalso; apply h
      intro a
      match a with
      | ⟨0, _⟩ =>
        show 0 ≤ d.start (Shape.Idx.ofFin e) idx 0 + d.window (Shape.Idx.ofFin e) 0 ∧
          d.start (Shape.Idx.ofFin e) idx 0 + d.window (Shape.Idx.ofFin e) 0 < (N0 : Int)
        rw [hstart0, hwin, hs.1]
        have := p.isLt
        constructor
        · simp
        · show ((p.val : Int) + ((0 : Nat) : Int)) < (N0 : Int)
          omega
      | ⟨1, _⟩ =>
        show 0 ≤ d.start (Shape.Idx.ofFin e) idx 1 + d.window (Shape.Idx.ofFin e) 1 ∧
          d.start (Shape.Idx.ofFin e) idx 1 + d.window (Shape.Idx.ofFin e) 1 < (N1 : Int)
        rw [hstart1, hwin, hs.2]
        have := q.isLt
        constructor
        · simp
        · show ((q.val : Int) + ((0 : Nat) : Int)) < (N1 : Int)
          omega

/-! ## Sums -/

/-- A sum over a vector's index set is the sum over its positions. -/
theorem sum_ofFin {M : Type} [AddCommMonoid M] {n : Nat} (f : (⟨1, ![n]⟩ : Shape).Idx → M) :
    ∑ j, f j = ∑ e : Fin n, f (Shape.Idx.ofFin e) := by
  let E : Fin n ≃ (⟨1, ![n]⟩ : Shape).Idx :=
    { toFun := Shape.Idx.ofFin
      invFun := fun j => j 0
      left_inv := fun e => Fin.ext rfl
      right_inv := fun j => by
        funext a
        obtain rfl : a = 0 := Subsingleton.elim _ _
        exact Fin.ext rfl }
  exact (Equiv.sum_comp E f).symm

/-- The extended reals' sum of real numbers is the real sum. -/
theorem sum_coe_real {ι : Type} (s : Finset ι) (f : ι → ℝ) : ∑ i ∈ s, ((f i : ℝ) : EReal) = ((∑ i ∈ s, f i : ℝ) : EReal) := by
  classical
  induction s using Finset.induction_on with
  | empty => simp
  | insert x s hx ih => rw [Finset.sum_insert hx, Finset.sum_insert hx, ih, EReal.coe_add]

/-! ## The host stretches as one term over the edge array -/

section Mirror

/-- A vector of 320000 words followed by one of 10000. -/
def catT (u : IVec S320000 32) (v : IVec S10000 32) : IVec S330000 32 :=
  concatenate S330000 0 [⟨S320000, u⟩, ⟨S10000, v⟩] concatenates_S320000_S10000_S330000_d0

/-- Two one-column tables side by side. -/
def cat2T (u v : IVec S330000x1 32) : IVec S330000x2 32 :=
  concatenate S330000x2 1 [⟨S330000x1, u⟩, ⟨S330000x1, v⟩] concatenates_S330000x1_S330000x1_S330000x2_d1

variable (a : IVec S2x320000 32)

/-- Row 0 of the edge array followed by the positions 0 … 9999: the source of every edge, self loops last. -/
def srcT : IVec S330000 32 :=
  catT (shapeCast S320000 (extractStridedSlice S1x320000 ![0, 0] a slices_S2x320000_S1x320000_0_0) shapeCasts_S1x320000_S320000)
    (iotaInDim S10000 32 0)
/-- Row 1 followed by the positions: the destination of every edge. -/
def dstT : IVec S330000 32 :=
  catT (shapeCast S320000 (extractStridedSlice S1x320000 ![1, 0] a slices_S2x320000_S1x320000_1_0) shapeCasts_S1x320000_S320000)
    (iotaInDim S10000 32 0)
/-- An index vector with the axis size `c` added where it is negative. -/
def normT (c : BitVec 32) (x : IVec S330000 32) : IVec S330000 32 :=
  select (cmpi .slt x (broadcastInDim S330000 ![] bcast_S_S330000 (constantI S_ 32 0#32)))
    (addi x (broadcastInDim S330000 ![] bcast_S_S330000 (constantI S_ 32 c))) x
/-- An index vector as a one-column table. -/
def colT (x : IVec S330000 32) : IVec S330000x1 32 := broadcastInDim S330000x1 ![0] bcast_S330000_S330000x1_0 x
/-- Zero at every node. -/
def zerosT : FVec Ideal S10000 .f32 := broadcastInDim S10000 ![] bcast_S_S10000 (constant S_ .f32 0x00000000#32)
/-- In-degrees: one added at the destination of every edge. -/
def degT : FVec Ideal S10000 .f32 :=
  Host.scatterAdd scatter_S10000_S330000x1_S330000_n_0_0_1 zerosT (colT (dstT a))
    (broadcastInDim S330000 ![] bcast_S_S330000 (constant S_ .f32 0x3F800000#32))
/-- The reciprocal square root of the degree where it is positive, zero elsewhere. -/
def dinvT : FVec Ideal S10000 .f32 := select (cmpf .ogt (degT a) zerosT) (Host.rsqrt (degT a)) zerosT
/-- Edge weights: the product of the two end points' factors. -/
def nrmT : FVec Ideal S330000 .f32 :=
  mulf (Host.gather gather_S10000_S330000x1_S330000_n_0_n_n_0_1_1 (dinvT a) (colT (normT 10000#32 (srcT a))))
    (Host.gather gather_S10000_S330000x1_S330000_n_0_n_n_0_1_1 (dinvT a) (colT (normT 10000#32 (dstT a))))
/-- The (destination, source) pairs as a two-column table. -/
def idxT : IVec S330000x2 32 := cat2T (colT (normT 10000#32 (dstT a))) (colT (normT 10240#32 (srcT a)))
/-- The dense adjacency: every edge's weight added at (destination, source). -/
def adjT : FVec Ideal S10000x10240 .bf16 :=
  truncf .bf16 (Host.scatterAdd scatter_S10000x10240_S330000x2_S330000_n_01_01_1
      (broadcastInDim S10000x10240 ![] bcast_S_S10000x10240 (constant S_ .f32 0x00000000#32)) (idxT a) (nrmT a))
    bitsLt_bf16_f32

end Mirror

/-! ## The term read at an index -/

section Value
variable (a : IVec S2x320000 32) (ei : Fin 2 → Fin 320000 → Fin 10000)

/-- A row of the edge array joined with the node numbers, read at edge `e`: the listed end for the first 320000 edges,
    then node `e - 320000`. -/
theorem edgeVec_toNat (r : Fin 2) (off : Fin 2 → Nat) (hoff0 : off 0 = r.val) (hoff1 : off 1 = 0)
    (hs : S2x320000.Slices off S1x320000) (row : Fin 320000 → Fin 10000)
    (hrow : ∀ j, (a (ix2 r j)).toNat = (row j).val) (e : Fin 330000) :
    (catT (shapeCast S320000 (extractStridedSlice S1x320000 off a hs) shapeCasts_S1x320000_S320000) (iotaInDim S10000 32 0)
        (Shape.Idx.ofFin e)).toNat
      = (if h : e.val < 320000 then row ⟨e.val, h⟩ else (⟨e.val - 320000, by have := e.isLt; omega⟩ : Fin 10000)).val := by
  unfold catT
  have he := e.isLt
  by_cases h : e.val < 320000
  · rw [dif_pos h]
    rw [concatenate_pair_apply_left _ _ _ concatenates_S320000_S10000_S330000_d0 (Shape.Idx.ofFin e) rfl
      (Shape.Idx.ofFin ⟨e.val, h⟩) (fun b => by obtain rfl : b = 0 := Subsingleton.elim _ _; rfl)]
    rw [shapeCast_apply _ shapeCasts_S1x320000_S320000 (Shape.Idx.ofFin ⟨e.val, h⟩) (ix2 (0 : Fin 1) (⟨e.val, h⟩ : Fin 320000))
      (by rw [Shape.rowMajor_val_two, Shape.rowMajor_val_one]; show 0 * 320000 + e.val = e.val; omega)]
    rw [extractStridedSlice_apply off a hs (ix2 (0 : Fin 1) (⟨e.val, h⟩ : Fin 320000)) (ix2 r (⟨e.val, h⟩ : Fin 320000))
      (fun b => by
        match b with
        | ⟨0, _⟩ => show r.val = off 0 + 0; omega
        | ⟨1, _⟩ => show e.val = off 1 + e.val; omega)]
    exact hrow ⟨e.val, h⟩
  · rw [dif_neg h]
    rw [concatenate_pair_apply_right _ _ _ concatenates_S320000_S10000_S330000_d0 (Shape.Idx.ofFin e) rfl rfl
      (Shape.Idx.ofFin (⟨e.val - 320000, by omega⟩ : Fin 10000)) (fun b hb => absurd (Subsingleton.elim _ _) hb)
      (by show (e.val - 320000) + 320000 = e.val; omega)]
    show (BitVec.ofNat 32 (e.val - 320000)).toNat = e.val - 320000
    rw [BitVec.toNat_ofNat]
    exact Nat.mod_eq_of_lt (by omega)

variable (ha : ∀ r j, (a (ix2 r j)).toNat = (ei r j).val)
include ha

/-- The source word of edge `e`. -/
theorem srcT_toNat (e : Fin 330000) : (srcT a (Shape.Idx.ofFin e)).toNat = (Cert.Inputs.srcOf ei e).val :=
  edgeVec_toNat a 0 ![0, 0] rfl rfl slices_S2x320000_S1x320000_0_0 (ei 0) (ha 0) e

/-- The destination word of edge `e`. -/
theorem dstT_toNat (e : Fin 330000) : (dstT a (Shape.Idx.ofFin e)).toNat = (Cert.Inputs.dstOf ei e).val :=
  edgeVec_toNat a 1 ![1, 0] rfl rfl slices_S2x320000_S1x320000_1_0 (ei 1) (ha 1) e

omit ha in
/-- Adding the axis size where negative changes nothing at a word below 2³¹. -/
theorem normT_apply (c : BitVec 32) (x : IVec S330000 32) (i : S330000.Idx) (hx : (x i).toNat < 2 ^ 31) :
    normT c x i = x i := select_neg_fix (x i) c hx

omit ha in
/-- The one-column table of a vector reads the vector. -/
theorem colT_apply (x : IVec S330000 32) (e : Fin 330000) : colT x (ixP e) = x (Shape.Idx.ofFin e) :=
  bcast_col1 bcast_S330000_S330000x1_0 x e

omit ha in
/-- A gather of a node vector at a column of node numbers reads the vector at the number. -/
theorem gather_at {α : Type} (v : S10000.Idx → α) (y : IVec S330000 32) (e : Fin 330000) (k : Fin 10000)
    (hk : (y (Shape.Idx.ofFin e)).toNat = k.val) :
    Host.gather gather_S10000_S330000x1_S330000_n_0_n_n_0_1_1 v (colT y) (Shape.Idx.ofFin e) = v (Shape.Idx.ofFin k) := by
  rw [gather_take gather_S10000_S330000x1_S330000_n_0_n_n_0_1_1 rfl rfl rfl rfl v (colT y) e (by omega)]
  refine congrArg v (congrArg Shape.Idx.ofFin (Fin.ext ?_))
  show min ((colT y) (ixP e)).toInt.toNat (10000 - 1) = k.val
  have hk' := k.isLt
  rw [colT_apply, toInt_eq_toNat_of_lt (by rw [hk]; omega), hk]
  omega

omit ha in
/-- The accumulating scatter at an element: the operand's element plus the updates that land on it. -/
theorem scatterAdd_apply {s si u : Shape} {w : Nat} (d : ScatterDims s si u) (x : FVec Ideal s .f32) (idx : IVec si w)
    (upd : FVec Ideal u .f32) (i : s.Idx) :
    Host.scatterAdd d x idx upd i = x i + ∑ j ∈ Finset.univ.filter (fun j => d.resultIdx? j idx = some i), upd j := rfl

omit ha in
theorem zerosT_apply (i : S10000.Idx) : zerosT i = ((0 : ℝ) : EReal) := Cert.LibCoe.ofBits_zero

/-- The degree vector at node `d`: the number of edges that end there. -/
theorem degT_apply (d : Fin 10000) :
    degT a (Shape.Idx.ofFin d) = ((Cert.Spec.deg (Cert.Inputs.dstOf ei) d : ℝ) : EReal) := by
  have hcond : ∀ e : Fin 330000,
      (scatter_S10000_S330000x1_S330000_n_0_0_1.resultIdx? (Shape.Idx.ofFin e) (colT (dstT a)) = some (Shape.Idx.ofFin d))
        ↔ Cert.Inputs.dstOf ei e = d := by
    intro e
    have hlt := (Cert.Inputs.dstOf ei e).isLt
    rw [scatter1_some_iff _ rfl rfl rfl, colT_apply,
      toInt_eq_toNat_of_lt (by rw [dstT_toNat a ei ha]; omega), dstT_toNat a ei ha]
    constructor
    · intro h; exact Fin.ext (by exact_mod_cast h)
    · intro h; rw [h]
  unfold degT
  rw [scatterAdd_apply, Finset.sum_filter, sum_ofFin, zerosT_apply, EReal.coe_zero, zero_add]
  unfold Cert.Spec.deg
  rw [← Cert.LibCoe.sum_coe]
  refine Finset.sum_congr rfl fun e _ => ?_
  by_cases h : Cert.Inputs.dstOf ei e = d
  · rw [if_pos ((hcond e).mpr h), if_pos h]; exact Cert.LibCoe.ofBits_one
  · rw [if_neg (fun h' => h ((hcond e).mp h')), if_neg h]; exact EReal.coe_zero.symm

omit ha in
/-- The host's reciprocal square root at an element. -/
theorem hostRsqrt_apply {s : Shape} (x : FVec Ideal s .f32) (i : s.Idx) : Host.rsqrt x i = Ideal.rsqrt (x i) := rfl

/-- The factor of node `d`. -/
theorem dinvT_apply (d : Fin 10000) :
    dinvT a (Shape.Idx.ofFin d) = ((Cert.Spec.dinv (Cert.Inputs.dstOf ei) d : ℝ) : EReal) := by
  unfold dinvT
  rw [select_apply, cmpf_apply, Ideal.cmpf_def, hostRsqrt_apply, degT_apply a ei ha d, zerosT_apply]
  unfold Cert.Spec.dinv
  by_cases h : 0 < Cert.Spec.deg (Cert.Inputs.dstOf ei) d
  · rw [if_pos h, Cert.LibCoe.cmp_ogt_coe_zero_of_pos h, select_one, Cert.LibCoe.rsqrt_coe_pos h]; rfl
  · rw [if_neg h, Cert.LibCoe.cmp_ogt_coe_zero_of_nonpos (not_lt.mp h), select_zero]

/-- The weight of edge `e`. -/
theorem nrmT_apply (e : Fin 330000) :
    nrmT a (Shape.Idx.ofFin e)
      = ((Cert.Spec.nrm (Cert.Inputs.srcOf ei) (Cert.Inputs.dstOf ei) e : ℝ) : EReal) := by
  have hs := (Cert.Inputs.srcOf ei e).isLt
  have hd := (Cert.Inputs.dstOf ei e).isLt
  show Host.gather gather_S10000_S330000x1_S330000_n_0_n_n_0_1_1 (dinvT a) (colT (normT 10000#32 (srcT a))) (Shape.Idx.ofFin e)
      * Host.gather gather_S10000_S330000x1_S330000_n_0_n_n_0_1_1 (dinvT a) (colT (normT 10000#32 (dstT a))) (Shape.Idx.ofFin e) = _
  rw [gather_at (dinvT a) _ e (Cert.Inputs.srcOf ei e)
        (by rw [normT_apply _ _ _ (by rw [srcT_toNat a ei ha]; omega), srcT_toNat a ei ha]),
      gather_at (dinvT a) _ e (Cert.Inputs.dstOf ei e)
        (by rw [normT_apply _ _ _ (by rw [dstT_toNat a ei ha]; omega), dstT_toNat a ei ha]),
      dinvT_apply a ei ha, dinvT_apply a ei ha, ← EReal.coe_mul]
  rfl

/-- THE ADJACENCY TERM AT (d, s): the specification's entry inside the 10000 columns, zero in the padding columns. -/
theorem adjT_apply (d : Fin 10000) (s : Fin 10240) :
    adjT a (ix2 d s)
      = if h : s.val < 10000 then ((Cert.Spec.adj (Cert.Inputs.srcOf ei) (Cert.Inputs.dstOf ei) d ⟨s.val, h⟩ : ℝ) : EReal) else 0 := by
  have hcond : ∀ e : Fin 330000,
      (scatter_S10000x10240_S330000x2_S330000_n_01_01_1.resultIdx? (Shape.Idx.ofFin e) (idxT a) = some (ix2 d s))
        ↔ (Cert.Inputs.dstOf ei e = d ∧ (Cert.Inputs.srcOf ei e).val = s.val) := by
    intro e
    have hs := (Cert.Inputs.srcOf ei e).isLt
    have hd := (Cert.Inputs.dstOf ei e).isLt
    have h0 : idxT a (ix2 e (0 : Fin 2)) = dstT a (Shape.Idx.ofFin e) := by
      unfold idxT cat2T
      rw [concatenate_pair_apply_left _ _ _ concatenates_S330000x1_S330000x1_S330000x2_d1 (ix2 e (0 : Fin 2)) rfl (ixP e)
        (fun b => by match b with | ⟨0, _⟩ => rfl | ⟨1, _⟩ => rfl)]
      rw [colT_apply, normT_apply _ _ _ (by rw [dstT_toNat a ei ha]; omega)]
    have h1 : idxT a (ix2 e (1 : Fin 2)) = srcT a (Shape.Idx.ofFin e) := by
      unfold idxT cat2T
      rw [concatenate_pair_apply_right _ _ _ concatenates_S330000x1_S330000x1_S330000x2_d1 (ix2 e (1 : Fin 2)) rfl rfl (ixP e)
        (fun b hb => by
          match b, hb with
          | ⟨0, _⟩, _ => rfl
          | ⟨1, _⟩, hb => exact absurd (Fin.ext rfl) hb)
        (by rfl)]
      rw [colT_apply, normT_apply _ _ _ (by rw [srcT_toNat a ei ha]; omega)]
    rw [scatter2_some_iff _ rfl rfl rfl, h0, h1,
      toInt_eq_toNat_of_lt (by rw [dstT_toNat a ei ha]; omega), toInt_eq_toNat_of_lt (by rw [srcT_toNat a ei ha]; omega),
      dstT_toNat a ei ha, srcT_toNat a ei ha]
    constructor
    · rintro ⟨k1, k2⟩; exact ⟨Fin.ext (by exact_mod_cast k1), by exact_mod_cast k2⟩
    · rintro ⟨k1, k2⟩; rw [k1, k2]; exact ⟨rfl, rfl⟩
  show Host.scatterAdd scatter_S10000x10240_S330000x2_S330000_n_01_01_1
      (broadcastInDim S10000x10240 ![] bcast_S_S10000x10240 (constant S_ .f32 0x00000000#32)) (idxT a) (nrmT a) (ix2 d s) = _
  rw [scatterAdd_apply, Finset.sum_filter, sum_ofFin]
  rw [show (broadcastInDim S10000x10240 ![] bcast_S_S10000x10240 (constant (F := Ideal) S_ .f32 0x00000000#32)) (ix2 d s) = (0 : EReal)
    from Ideal.ofBits_zero_f32, zero_add]
  by_cases hs : s.val < 10000
  · rw [dif_pos hs]
    unfold Cert.Spec.adj
    rw [← Cert.LibCoe.sum_coe]
    refine Finset.sum_congr rfl fun e _ => ?_
    by_cases h : Cert.Inputs.dstOf ei e = d ∧ Cert.Inputs.srcOf ei e = ⟨s.val, hs⟩
    · rw [if_pos ((hcond e).mpr ⟨h.1, by rw [h.2]⟩), if_pos h, nrmT_apply a ei ha]
    · rw [if_neg (fun h' => h ⟨((hcond e).mp h').1, Fin.ext ((hcond e).mp h').2⟩), if_neg h]
      exact EReal.coe_zero.symm
  · rw [dif_neg hs]
    refine Finset.sum_eq_zero fun e _ => ?_
    rw [if_neg]
    intro h'
    have h2 := ((hcond e).mp h').2
    have h3 := (Cert.Inputs.srcOf ei e).isLt
    omega

end Value

/-! ## The three stretches opened -/

section Open

section Pieces
variable {F : FTy → Type} [FloatOps F]

/-- The third stretch up to the two index columns: no join among its operations. -/
abbrev hostOps0_2_A : List (HloOp τ sig (Elt F)) :=
  [ StableHlo.nullary main_c (constantI S_ 32 0#32),
    StableHlo.unary main_c main_v16 (broadcastInDim S330000 ![] bcast_S_S330000 : (⟨S_, .i32⟩ : BufTy).Contents (Elt F) → (⟨S330000, .i32⟩ : BufTy).Contents (Elt F)),
    StableHlo.binary main_v3 main_v16 main_v17 (cmpi .slt : (⟨S330000, .i32⟩ : BufTy).Contents (Elt F) → (⟨S330000, .i32⟩ : BufTy).Contents (Elt F) → (⟨S330000, .i1⟩ : BufTy).Contents (Elt F)),
    StableHlo.nullary main_c_3 (constantI S_ 32 10000#32),
    StableHlo.unary main_c_3 main_v18 (broadcastInDim S330000 ![] bcast_S_S330000 : (⟨S_, .i32⟩ : BufTy).Contents (Elt F) → (⟨S330000, .i32⟩ : BufTy).Contents (Elt F)),
    StableHlo.binary main_v3 main_v18 main_v19 (addi : (⟨S330000, .i32⟩ : BufTy).Contents (Elt F) → (⟨S330000, .i32⟩ : BufTy).Contents (Elt F) → (⟨S330000, .i32⟩ : BufTy).Contents (Elt F)),
    StableHlo.ternary main_v17 main_v19 main_v3 main_v20 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v20 main_v21 (broadcastInDim S330000x1 ![0] bcast_S330000_S330000x1_0 : (⟨S330000, .i32⟩ : BufTy).Contents (Elt F) → (⟨S330000x1, .i32⟩ : BufTy).Contents (Elt F)),
    StableHlo.binary main_v15 main_v21 main_v22 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.nullary main_c_4 (constantI S_ 32 0#32),
    StableHlo.unary main_c_4 main_v23 (broadcastInDim S330000 ![] bcast_S_S330000 : (⟨S_, .i32⟩ : BufTy).Contents (Elt F) → (⟨S330000, .i32⟩ : BufTy).Contents (Elt F)),
    StableHlo.binary main_v7 main_v23 main_v24 (cmpi .slt : (⟨S330000, .i32⟩ : BufTy).Contents (Elt F) → (⟨S330000, .i32⟩ : BufTy).Contents (Elt F) → (⟨S330000, .i1⟩ : BufTy).Contents (Elt F)),
    StableHlo.nullary main_c_5 (constantI S_ 32 10000#32),
    StableHlo.unary main_c_5 main_v25 (broadcastInDim S330000 ![] bcast_S_S330000 : (⟨S_, .i32⟩ : BufTy).Contents (Elt F) → (⟨S330000, .i32⟩ : BufTy).Contents (Elt F)),
    StableHlo.binary main_v7 main_v25 main_v26 (addi : (⟨S330000, .i32⟩ : BufTy).Contents (Elt F) → (⟨S330000, .i32⟩ : BufTy).Contents (Elt F) → (⟨S330000, .i32⟩ : BufTy).Contents (Elt F)),
    StableHlo.ternary main_v24 main_v26 main_v7 main_v27 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v27 main_v28 (broadcastInDim S330000x1 ![0] bcast_S330000_S330000x1_0 : (⟨S330000, .i32⟩ : BufTy).Contents (Elt F) → (⟨S330000x1, .i32⟩ : BufTy).Contents (Elt F)),
    StableHlo.binary main_v15 main_v28 main_v29 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.binary main_v22 main_v29 main_v30 (mulf : (⟨S330000, .f32⟩ : BufTy).Contents (Elt F) → (⟨S330000, .f32⟩ : BufTy).Contents (Elt F) → (⟨S330000, .f32⟩ : BufTy).Contents (Elt F)),
    StableHlo.nullary main_cst_6 (constant S_ .f32 0x00000000#32),
    StableHlo.unary main_cst_6 main_v31 (broadcastInDim S10000x10240 ![] bcast_S_S10000x10240 : (⟨S_, .f32⟩ : BufTy).Contents (Elt F) → (⟨S10000x10240, .f32⟩ : BufTy).Contents (Elt F)),
    StableHlo.nullary main_c_7 (constantI S_ 32 0#32),
    StableHlo.unary main_c_7 main_v32 (broadcastInDim S330000 ![] bcast_S_S330000 : (⟨S_, .i32⟩ : BufTy).Contents (Elt F) → (⟨S330000, .i32⟩ : BufTy).Contents (Elt F)),
    StableHlo.binary main_v7 main_v32 main_v33 (cmpi .slt : (⟨S330000, .i32⟩ : BufTy).Contents (Elt F) → (⟨S330000, .i32⟩ : BufTy).Contents (Elt F) → (⟨S330000, .i1⟩ : BufTy).Contents (Elt F)),
    StableHlo.nullary main_c_8 (constantI S_ 32 10000#32),
    StableHlo.unary main_c_8 main_v34 (broadcastInDim S330000 ![] bcast_S_S330000 : (⟨S_, .i32⟩ : BufTy).Contents (Elt F) → (⟨S330000, .i32⟩ : BufTy).Contents (Elt F)),
    StableHlo.binary main_v7 main_v34 main_v35 (addi : (⟨S330000, .i32⟩ : BufTy).Contents (Elt F) → (⟨S330000, .i32⟩ : BufTy).Contents (Elt F) → (⟨S330000, .i32⟩ : BufTy).Contents (Elt F)),
    StableHlo.ternary main_v33 main_v35 main_v7 main_v36 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.nullary main_c_9 (constantI S_ 32 0#32),
    StableHlo.unary main_c_9 main_v37 (broadcastInDim S330000 ![] bcast_S_S330000 : (⟨S_, .i32⟩ : BufTy).Contents (Elt F) → (⟨S330000, .i32⟩ : BufTy).Contents (Elt F)),
    StableHlo.binary main_v3 main_v37 main_v38 (cmpi .slt : (⟨S330000, .i32⟩ : BufTy).Contents (Elt F) → (⟨S330000, .i32⟩ : BufTy).Contents (Elt F) → (⟨S330000, .i1⟩ : BufTy).Contents (Elt F)),
    StableHlo.nullary main_c_10 (constantI S_ 32 10240#32),
    StableHlo.unary main_c_10 main_v39 (broadcastInDim S330000 ![] bcast_S_S330000 : (⟨S_, .i32⟩ : BufTy).Contents (Elt F) → (⟨S330000, .i32⟩ : BufTy).Contents (Elt F)),
    StableHlo.binary main_v3 main_v39 main_v40 (addi : (⟨S330000, .i32⟩ : BufTy).Contents (Elt F) → (⟨S330000, .i32⟩ : BufTy).Contents (Elt F) → (⟨S330000, .i32⟩ : BufTy).Contents (Elt F)),
    StableHlo.ternary main_v38 main_v40 main_v3 main_v41 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v36 main_v42 (broadcastInDim S330000x1 ![0] bcast_S330000_S330000x1_0 : (⟨S330000, .i32⟩ : BufTy).Contents (Elt F) → (⟨S330000x1, .i32⟩ : BufTy).Contents (Elt F)),
    StableHlo.unary main_v41 main_v43 (broadcastInDim S330000x1 ![0] bcast_S330000_S330000x1_0 : (⟨S330000, .i32⟩ : BufTy).Contents (Elt F) → (⟨S330000x1, .i32⟩ : BufTy).Contents (Elt F)) ]

/-- The rest of the third stretch: the two columns joined, the scatter, the change of format. -/
abbrev hostOps0_2_B : List (HloOp τ sig (Elt F)) :=
  [ StableHlo.binary main_v42 main_v43 main_v44 ((fun a b => concatenate S330000x2 1 [⟨S330000x1, a⟩, ⟨S330000x1, b⟩] concatenates_S330000x1_S330000x1_S330000x2_d1) : (⟨S330000x1, .i32⟩ : BufTy).Contents (Elt F) → (⟨S330000x1, .i32⟩ : BufTy).Contents (Elt F) → (⟨S330000x2, .i32⟩ : BufTy).Contents (Elt F)),
    StableHlo.ternary main_v31 main_v44 main_v30 main_v45 ((fun x i u => Host.scatterAdd scatter_S10000x10240_S330000x2_S330000_n_01_01_1 x i u) : (⟨S10000x10240, .f32⟩ : BufTy).Contents (Elt F) → (⟨S330000x2, .i32⟩ : BufTy).Contents (Elt F) → (⟨S330000, .f32⟩ : BufTy).Contents (Elt F) → (⟨S10000x10240, .f32⟩ : BufTy).Contents (Elt F)),
    StableHlo.unary main_v45 main_v46 ((truncf .bf16 · bitsLt_bf16_f32) : (⟨S10000x10240, .f32⟩ : BufTy).Contents (Elt F) → (⟨S10000x10240, .bf16⟩ : BufTy).Contents (Elt F)) ]

theorem hostOps0_2_split : (hostOps0_2 : List (HloOp τ sig (Elt F))) = hostOps0_2_A ++ hostOps0_2_B := rfl

/-- The outlined select, at any entry contents. -/
theorem open1_v15 (W : Valuation τ sig (Elt F)) :
    (after hostOps0_1 W (Proc.devRef .tc main_v15) : FVec F S10000 .f32)
      = select (W (Proc.devRef .tc main_v13) : IVec S10000 1) (W (Proc.devRef .tc main_v14) : FVec F S10000 .f32)
          (broadcastInDim S10000 ![] bcast_S_S10000 (W (Proc.devRef .tc main_cst_2) : FVec F S_ .f32)) := by
  after_results
  rfl

theorem open1_v3 (W : Valuation τ sig (Elt F)) :
    after hostOps0_1 W (Proc.devRef .tc main_v3) = W (Proc.devRef .tc main_v3) := by
  after_results

theorem open1_v7 (W : Valuation τ sig (Elt F)) :
    after hostOps0_1 W (Proc.devRef .tc main_v7) = W (Proc.devRef .tc main_v7) := by
  after_results

set_option maxHeartbeats 1000000 in
/-- The edge weights, from the two index vectors and the node factors at entry. -/
theorem open2A_v30 (W : Valuation τ sig (Elt F)) :
    (after hostOps0_2_A W (Proc.devRef .tc main_v30) : FVec F S330000 .f32)
      = mulf (Host.gather gather_S10000_S330000x1_S330000_n_0_n_n_0_1_1 (W (Proc.devRef .tc main_v15) : FVec F S10000 .f32)
                (colT (normT 10000#32 (W (Proc.devRef .tc main_v3) : IVec S330000 32))))
             (Host.gather gather_S10000_S330000x1_S330000_n_0_n_n_0_1_1 (W (Proc.devRef .tc main_v15) : FVec F S10000 .f32)
                (colT (normT 10000#32 (W (Proc.devRef .tc main_v7) : IVec S330000 32)))) := by
  after_results_simp
  rfl

set_option maxHeartbeats 1000000 in
theorem open2A_v31 (W : Valuation τ sig (Elt F)) :
    (after hostOps0_2_A W (Proc.devRef .tc main_v31) : FVec F S10000x10240 .f32)
      = broadcastInDim S10000x10240 ![] bcast_S_S10000x10240 (constant S_ .f32 0x00000000#32) := by
  after_results_simp

set_option maxHeartbeats 1000000 in
theorem open2A_v42 (W : Valuation τ sig (Elt F)) :
    (after hostOps0_2_A W (Proc.devRef .tc main_v42) : IVec S330000x1 32)
      = colT (normT 10000#32 (W (Proc.devRef .tc main_v7) : IVec S330000 32)) := by
  after_results_simp
  rfl

set_option maxHeartbeats 1000000 in
theorem open2A_v43 (W : Valuation τ sig (Elt F)) :
    (after hostOps0_2_A W (Proc.devRef .tc main_v43) : IVec S330000x1 32)
      = colT (normT 10240#32 (W (Proc.devRef .tc main_v3) : IVec S330000 32)) := by
  after_results_simp
  rfl

/-- The join, the scatter and the change of format, from the four buffers they read. -/
theorem open2B_v46 (W : Valuation τ sig (Elt F)) :
    (after hostOps0_2_B W (Proc.devRef .tc main_v46) : FVec F S10000x10240 .bf16)
      = truncf .bf16 (Host.scatterAdd scatter_S10000x10240_S330000x2_S330000_n_01_01_1
            (W (Proc.devRef .tc main_v31) : FVec F S10000x10240 .f32)
            (cat2T (W (Proc.devRef .tc main_v42) : IVec S330000x1 32) (W (Proc.devRef .tc main_v43) : IVec S330000x1 32))
            (W (Proc.devRef .tc main_v30) : FVec F S330000 .f32)) bitsLt_bf16_f32 := by
  after_results
  rfl

end Pieces

variable (V0 : Valuation τ sig (Elt Ideal))

/-- The buffers after the three host stretches. -/
abbrev V3 : Valuation τ sig (Elt Ideal) :=
  StableHlo.after hostOps0_2 (StableHlo.after hostOps0_1 (StableHlo.after hostOps0 V0))

/-- What the adjacency buffer holds after the three stretches, as a term over the edge array alone. -/
theorem v46_eq : (V3 V0 (Proc.devRef .tc main_v46) : S10000x10240.Idx → EReal) = adjT (V0 (Proc.devRef .tc main_arg1)) := by
  show after hostOps0_2 (after hostOps0_1 (after hostOps0 V0)) (Proc.devRef .tc main_v46) = _
  rw [hostOps0_2_split, StableHlo.after_append, open2B_v46, open2A_v31, open2A_v42, open2A_v43, open2A_v30,
    open1_v15, open1_v3, open1_v7, hostOps0_v3, hostOps0_v7, hostOps0_v13, hostOps0_v14, hostOps0_cst_2]
  rfl

/-- THE DENSE NORMALISED ADJACENCY the host leaves for the kernels: the specification's entry inside the 10000 columns,
    zero in the 240 padding columns. -/
theorem adj_value (ei : Fin 2 → Fin 320000 → Fin 10000)
    (he : ∀ r j, ((V0 (Proc.devRef .tc main_arg1) : S2x320000.Idx → BitVec 32) (ix2 r j)).toNat = (ei r j).val)
    (d : Fin 10000) (s : Fin 10240) :
    (V3 V0 (Proc.devRef .tc main_v46) : S10000x10240.Idx → EReal) (ix2 d s)
      = if h : s.val < 10000 then ((Cert.Spec.adj (Cert.Inputs.srcOf ei) (Cert.Inputs.dstOf ei) d ⟨s.val, h⟩ : ℝ) : EReal) else 0 := by
  rw [v46_eq]
  exact adjT_apply _ ei he d s

end Open

end Cert.KernelIdeal.HandV
end
-- ==== Proof.HostSmall1.lean ====
import proofs.«408066_j62380105008311_2_alg».proof.Proof.Gen.KernelIdeal.Launch
import proofs.«408066_j62380105008311_2_alg».proof.Proof.Spec
import proofs.«408066_j62380105008311_2_alg».proof.Proof.LibCoe
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

/-! # The small host stretches of one layer, read as values

Between the kernel regions the program runs a few array operations on the host, the same ones layer after layer. This
module reads one layer's at an index, at the ideal values, from ANY contents `V` of the buffers on entry to the
stretch:

* the PADDING of the node features with zero rows up to a whole number of row blocks: row `s` of the result is row
  `s` of the operand while `s` is a node, and zero after the last node;
* the bias vector written as a one-row matrix;
* the column STATISTICS: from the row of column sums `S` and the row of column sums of squares `Q` over the `n`
  nodes, the mean `S / n` and the variance `max (Q / n − (S / n)², 0)`, each as a one-row matrix, beside the
  scale and shift vectors written as one-row matrices.

Each operation is read at an index by its own lemma, outermost first.
The statistics' arithmetic on extended reals is brought down to the reals one operation at a time, the operands being
coerced reals and the divisor `n` non-zero. -/

set_option maxRecDepth 1720

noncomputable section

namespace Cert.KernelIdeal.HandV

open Cert.KernelIdeal Cert.KernelIdeal.Gen
open Idealize.ShloMosaic Idealize.ShloMosaic.TcCoe Idealize.ShloMosaic.ValueIdx
open Idealize.ShloMosaic.StableHlo

/-- The number of nodes, the number of rows after padding, and the number of columns. -/
local notation "NR" => (10000 : ℕ)
local notation "NP" => (10240 : ℕ)
local notation "WD" => (220 : ℕ)

/-! ## The padding -/

/-- The padded features read at row `s`, column `f`: the operand's entry while `s` is a node's row, and zero below
    the last node — given that the word the padding value is converted from is the integer zero. -/
theorem pad1_read (V : Valuation τ sig (Elt Ideal))
    (hc : (V main_c_11 : S_.Idx → BitVec 32) ix0 = 0#32) (s : Fin NP) (f : Fin WD) :
    (StableHlo.after hostOps1_1 V main_v48 : S10240x220.Idx → EReal) (ix2 s f)
      = if hs : s.val < NR then (V main_v47 : S10000x220.Idx → EReal) (ix2 ⟨s.val, hs⟩ f) else (0 : EReal) := by
  dsimp only [hostOps1_1]
  after_results
  simp only [TRef.ofBuf, TRef.toBuf, cast_eq]
  by_cases hs : s.val < NR
  · -- inside the operand: no low padding, no interior padding, so the coordinates are the operand's own
    rw [dif_pos hs]
    exact pad_apply_of_inside _ _ _ _ _ _ _ _ (ix2 ⟨s.val, hs⟩ f) (fun a => match a with
      | ⟨0, _⟩ => by show s.val = 0 + s.val * (0 + 1); omega
      | ⟨1, _⟩ => by show f.val = 0 + f.val * (0 + 1); omega)
  · -- past the operand's last row: the padding value, the integer zero converted
    rw [dif_neg hs]
    refine (pad_apply_of_not_inside _ _ _ _ _ _ _ _ (0 : Fin 2) (fun hin => ?_)).trans ?_
    · have h3 : s.val / 1 < NR := hin.2.2
      rw [Nat.div_one] at h3
      exact hs h3
    · show (Scalar.sitofp .f32 ((V main_c_11 : S_.Idx → BitVec 32) (Shape.Idx.first h_S_)) : Ideal .f32) = 0
      rw [eq_ix0 (Shape.Idx.first h_S_), hc]
      exact sitofp_zero

/-- The same from the contents before the integer zero is written: the one operation in front writes that word and
    leaves the operand alone. -/
theorem pad1_read_from (V : Valuation τ sig (Elt Ideal)) (s : Fin NP) (f : Fin WD) :
    (StableHlo.after hostOps1_1 (StableHlo.after hostOps1 V) main_v48 : S10240x220.Idx → EReal) (ix2 s f)
      = if hs : s.val < NR then (V main_v47 : S10000x220.Idx → EReal) (ix2 ⟨s.val, hs⟩ f) else (0 : EReal) := by
  have hc : (StableHlo.after hostOps1 V main_c_11 : S_.Idx → BitVec 32) ix0 = 0#32 := by
    dsimp only [hostOps1]; after_results; rfl
  have hx : (StableHlo.after hostOps1 V main_v47 : S10000x220.Idx → EReal) = V main_v47 := by
    dsimp only [hostOps1]; after_results
  rw [pad1_read _ hc s f, hx]

/-- In real numbers: if the operand holds the real matrix `h`, the padded array holds `h` on the nodes' rows and `0`
    on the rows after them. -/
theorem pad1_real (V : Valuation τ sig (Elt Ideal)) (hc : (V main_c_11 : S_.Idx → BitVec 32) ix0 = 0#32)
    (h : Fin NR → Fin WD → ℝ)
    (hh : ∀ i f, (V main_v47 : S10000x220.Idx → EReal) (ix2 i f) = ((h i f : ℝ) : EReal)) (s : Fin NP) (f : Fin WD) :
    (StableHlo.after hostOps1_1 V main_v48 : S10240x220.Idx → EReal) (ix2 s f)
      = ((if hs : s.val < NR then h ⟨s.val, hs⟩ f else 0 : ℝ) : EReal) := by
  rw [pad1_read V hc s f]
  by_cases hs : s.val < NR
  · rw [dif_pos hs, dif_pos hs, hh]
  · rw [dif_neg hs, dif_neg hs, EReal.coe_zero]

/-- The real form from the contents before the integer zero is written. -/
theorem pad1_real_from (V : Valuation τ sig (Elt Ideal)) (h : Fin NR → Fin WD → ℝ)
    (hh : ∀ i f, (V main_v47 : S10000x220.Idx → EReal) (ix2 i f) = ((h i f : ℝ) : EReal)) (s : Fin NP) (f : Fin WD) :
    (StableHlo.after hostOps1_1 (StableHlo.after hostOps1 V) main_v48 : S10240x220.Idx → EReal) (ix2 s f)
      = ((if hs : s.val < NR then h ⟨s.val, hs⟩ f else 0 : ℝ) : EReal) := by
  rw [pad1_read_from V s f]
  by_cases hs : s.val < NR
  · rw [dif_pos hs, dif_pos hs, hh]
  · rw [dif_neg hs, dif_neg hs, EReal.coe_zero]

/-! ## The bias as a one-row matrix -/

/-- The bias row read at column `f` is the bias vector's entry `f`. -/
theorem bias1_read (V : Valuation τ sig (Elt Ideal)) (f : Fin WD) :
    (StableHlo.after hostOps2 V main_v50 : S1x220.Idx → EReal) (ix2 0 f)
      = (V main_arg3 : S220.Idx → EReal) (ix1 f) := by
  dsimp only [hostOps2]
  after_results
  exact shapeCast_a_1a_apply _ _ 0 f

/-! ## The statistics -/

/-- The node count as a real. -/
local notation "CNT" => (10000 : ℝ)

/-- A one-row matrix of coerced reals, written as a vector and divided entry by entry by the node count (the
    single-precision constant `10000`, broadcast), holds the real quotients. -/
theorem meanVec1_read (x : S1x220.Idx → EReal) (S : Fin WD → ℝ)
    (hx : ∀ f, x (ix2 0 f) = ((S f : ℝ) : EReal)) (f : Fin WD) :
    (Host.divf (shapeCast S220 x shapeCasts_S1x220_S220)
        (broadcastInDim S220 ![] bcast_S_S220 (constant (F := Ideal) S_ .f32 0x461C4000#32))
      : FVec Ideal S220 .f32) (ix1 f) = ((S f / CNT : ℝ) : EReal) := by
  rw [hostDivf_apply, shapeCast_1a_a_apply, hx, broadcastInDim_scalar_apply, constant_apply, Cert.LibCoe.ofBits_10000]
  exact Cert.LibCoe.div_coe_coe _ (by norm_num)

/-- The variance vector: the mean of the squares less the square of the mean, cut off below at zero, in real numbers. -/
theorem varVec1_read (x1 x2 : S1x220.Idx → EReal) (S Q : Fin WD → ℝ)
    (h1 : ∀ f, x1 (ix2 0 f) = ((S f : ℝ) : EReal)) (h2 : ∀ f, x2 (ix2 0 f) = ((Q f : ℝ) : EReal)) (f : Fin WD) :
    (maximumf
        (subf
          (Host.divf (shapeCast S220 x2 shapeCasts_S1x220_S220)
            (broadcastInDim S220 ![] bcast_S_S220 (constant (F := Ideal) S_ .f32 0x461C4000#32)))
          (mulf
            (Host.divf (shapeCast S220 x1 shapeCasts_S1x220_S220)
              (broadcastInDim S220 ![] bcast_S_S220 (constant (F := Ideal) S_ .f32 0x461C4000#32)))
            (Host.divf (shapeCast S220 x1 shapeCasts_S1x220_S220)
              (broadcastInDim S220 ![] bcast_S_S220 (constant (F := Ideal) S_ .f32 0x461C4000#32)))))
        (broadcastInDim S220 ![] bcast_S_S220 (constant (F := Ideal) S_ .f32 0x00000000#32))
      : FVec Ideal S220 .f32) (ix1 f)
      = ((max (Q f / CNT - (S f / CNT) * (S f / CNT)) 0 : ℝ) : EReal) := by
  rw [maximumf_apply, subf_apply, mulf_apply, meanVec1_read x2 Q h2 f, meanVec1_read x1 S h1 f,
    broadcastInDim_scalar_apply, constant_apply, Cert.LibCoe.ofBits_zero, Cert.LibCoe.mul_coe, Cert.LibCoe.sub_coe,
    Cert.LibCoe.max_coe]

/-- The mean row after the statistics stretch: the column sums over the node count. -/
theorem stats1_mean (V : Valuation τ sig (Elt Ideal)) (S : Fin WD → ℝ)
    (hS : ∀ f, (V main_v51_1 : S1x220.Idx → EReal) (ix2 0 f) = ((S f : ℝ) : EReal)) (f : Fin WD) :
    (StableHlo.after hostOps3 V main_v62 : S1x220.Idx → EReal) (ix2 0 f) = ((S f / CNT : ℝ) : EReal) := by
  dsimp only [hostOps3]
  after_results
  exact (shapeCast_a_1a_apply _ _ 0 f).trans (meanVec1_read (V main_v51_1) S hS f)

/-- The variance row after the statistics stretch. -/
theorem stats1_var (V : Valuation τ sig (Elt Ideal)) (S Q : Fin WD → ℝ)
    (hS : ∀ f, (V main_v51_1 : S1x220.Idx → EReal) (ix2 0 f) = ((S f : ℝ) : EReal))
    (hQ : ∀ f, (V main_v51_2 : S1x220.Idx → EReal) (ix2 0 f) = ((Q f : ℝ) : EReal)) (f : Fin WD) :
    (StableHlo.after hostOps3 V main_v63 : S1x220.Idx → EReal) (ix2 0 f)
      = ((max (Q f / CNT - (S f / CNT) * (S f / CNT)) 0 : ℝ) : EReal) := by
  dsimp only [hostOps3]
  after_results
  exact (shapeCast_a_1a_apply _ _ 0 f).trans (varVec1_read (V main_v51_1) (V main_v51_2) S Q hS hQ f)

/-- The scale row after the statistics stretch is the scale vector. -/
theorem stats1_scale (V : Valuation τ sig (Elt Ideal)) (f : Fin WD) :
    (StableHlo.after hostOps3 V main_v64 : S1x220.Idx → EReal) (ix2 0 f)
      = (V main_arg12 : S220.Idx → EReal) (ix1 f) := by
  dsimp only [hostOps3]
  after_results
  exact shapeCast_a_1a_apply _ _ 0 f

/-- The shift row after the statistics stretch is the shift vector. -/
theorem stats1_shift (V : Valuation τ sig (Elt Ideal)) (f : Fin WD) :
    (StableHlo.after hostOps3 V main_v65 : S1x220.Idx → EReal) (ix2 0 f)
      = (V main_arg13 : S220.Idx → EReal) (ix1 f) := by
  dsimp only [hostOps3]
  after_results
  exact shapeCast_a_1a_apply _ _ 0 f

/-- Scale and shift in real numbers. -/
theorem stats1_scale_real (V : Valuation τ sig (Elt Ideal)) (g : Fin WD → ℝ)
    (hg : ∀ f, (V main_arg12 : S220.Idx → EReal) (ix1 f) = ((g f : ℝ) : EReal)) (f : Fin WD) :
    (StableHlo.after hostOps3 V main_v64 : S1x220.Idx → EReal) (ix2 0 f) = ((g f : ℝ) : EReal) := by
  rw [stats1_scale V f, hg]

theorem stats1_shift_real (V : Valuation τ sig (Elt Ideal)) (be : Fin WD → ℝ)
    (hbe : ∀ f, (V main_arg13 : S220.Idx → EReal) (ix1 f) = ((be f : ℝ) : EReal)) (f : Fin WD) :
    (StableHlo.after hostOps3 V main_v65 : S1x220.Idx → EReal) (ix2 0 f) = ((be f : ℝ) : EReal) := by
  rw [stats1_shift V f, hbe]

/-- With the sums taken over the rows of a real matrix `r`, the two rows are the column mean and the variance by
    moments of `r`. -/
theorem stats1_mean_spec (V : Valuation τ sig (Elt Ideal)) (r : Fin NR → Fin WD → ℝ)
    (hS : ∀ f, (V main_v51_1 : S1x220.Idx → EReal) (ix2 0 f) = ((Cert.Spec.colSum r f : ℝ) : EReal)) (f : Fin WD) :
    (StableHlo.after hostOps3 V main_v62 : S1x220.Idx → EReal) (ix2 0 f) = ((Cert.Spec.mean CNT r f : ℝ) : EReal) :=
  stats1_mean V (Cert.Spec.colSum r) hS f

theorem stats1_var_spec (V : Valuation τ sig (Elt Ideal)) (r : Fin NR → Fin WD → ℝ)
    (hS : ∀ f, (V main_v51_1 : S1x220.Idx → EReal) (ix2 0 f) = ((Cert.Spec.colSum r f : ℝ) : EReal))
    (hQ : ∀ f, (V main_v51_2 : S1x220.Idx → EReal) (ix2 0 f) = ((Cert.Spec.colSumSq r f : ℝ) : EReal)) (f : Fin WD) :
    (StableHlo.after hostOps3 V main_v63 : S1x220.Idx → EReal) (ix2 0 f) = ((Cert.Spec.varK CNT r f : ℝ) : EReal) :=
  stats1_var V (Cert.Spec.colSum r) (Cert.Spec.colSumSq r) hS hQ f

end Cert.KernelIdeal.HandV

end
-- ==== Proof.Val0.lean ====
import proofs.«408066_j62380105008311_2_alg».proof.Proof.Reg0
import proofs.«408066_j62380105008311_2_alg».proof.Proof.Spec
import proofs.«408066_j62380105008311_2_alg».proof.Proof.LibCoe
import Idealize.ShloMosaic.Lib.Pipeline.Value
import Idealize.ShloMosaic.Lib.ValueIdx
import Idealize.ShloMosaic.Lib.ValueLayout
import Idealize.ShloMosaic.PureOps.Ideal.Laws

/-!
# Region 0 at the ideal values: the result array is the matrix product of the two operand arrays

Each grid point writes back one row block of the result: the product of the matching row block of x with the
whole of W.  A row block of a product is the product of the row block, the row blocks tile the result, so the
array the region leaves is the product of the two arrays it found, entry by entry; and where the two arrays hold
real numbers, it holds the real matrix product.
-/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## The block product at an entry -/

theorem lhs0_0 (j : S1000x220.Idx) (k : dot_S1000x256_S256x220_S1000x220_1_0_0_1_n_n.contr.Idx) :
    (dot_S1000x256_S256x220_S1000x220_1_0_0_1_n_n.lhsIdx j k 0).val = (j 0).val := by
  simp [DotDims.lhsIdx, dot_S1000x256_S256x220_S1000x220_1_0_0_1_n_n]; rfl

theorem lhs0_1 (j : S1000x220.Idx) (k : dot_S1000x256_S256x220_S1000x220_1_0_0_1_n_n.contr.Idx) :
    (dot_S1000x256_S256x220_S1000x220_1_0_0_1_n_n.lhsIdx j k 1).val = (k ⟨0, by decide⟩).val :=
  dot_S1000x256_S256x220_S1000x220_1_0_0_1_n_n.lhsIdx_val_of_single (cl := 1) rfl j k

theorem rhs0_0 (j : S1000x220.Idx) (k : dot_S1000x256_S256x220_S1000x220_1_0_0_1_n_n.contr.Idx) :
    (dot_S1000x256_S256x220_S1000x220_1_0_0_1_n_n.rhsIdx j k 0).val = (k ⟨0, by decide⟩).val :=
  dot_S1000x256_S256x220_S1000x220_1_0_0_1_n_n.rhsIdx_val_of_single (cr := 0) rfl j k

theorem rhs0_1 (j : S1000x220.Idx) (k : dot_S1000x256_S256x220_S1000x220_1_0_0_1_n_n.contr.Idx) :
    (dot_S1000x256_S256x220_S1000x220_1_0_0_1_n_n.rhsIdx j k 1).val = (j 1).val := by
  simp [DotDims.rhsIdx, dot_S1000x256_S256x220_S1000x220_1_0_0_1_n_n]; rfl

/-- The body's payload at an entry (p, q): the sum over the contracted coordinate k of x0 (p, k) * x1 (k, q).
    The narrowing casts are the identity on extended reals and the accumulator is zero. -/
theorem pay0_apply (x0 : FVec Ideal S1000x256 .f32) (x1 : FVec Ideal S256x220 .f32) (p : Fin 1000) (q : Fin 220) :
    k0_pay1 (F := Ideal) x0 x1 (ix2 p q) = ∑ k : Fin 256, x0 (ix2 p k) * x1 (ix2 k q) := by
  unfold k0_pay1
  refine (Ideal.matmul_constant_zero_apply dot_S1000x256_S256x220_S1000x220_1_0_0_1_n_n none _ _ (ix2 p q)).trans ?_
  rw [← Equiv.sum_comp (contrEquiv1 dot_S1000x256_S256x220_S1000x220_1_0_0_1_n_n 256 rfl rfl).symm]
  refine Finset.sum_congr rfl fun k _ => ?_
  have hk := contrEquiv1_symm_val dot_S1000x256_S256x220_S1000x220_1_0_0_1_n_n 256 rfl rfl k
  have hl : dot_S1000x256_S256x220_S1000x220_1_0_0_1_n_n.lhsIdx (ix2 p q)
      ((contrEquiv1 dot_S1000x256_S256x220_S1000x220_1_0_0_1_n_n 256 rfl rfl).symm k) = ix2 p k := by
    funext ax; apply Fin.ext
    match ax with
    | ⟨0, _⟩ => exact lhs0_0 _ _
    | ⟨1, _⟩ => exact (lhs0_1 _ _).trans hk
  have hr : dot_S1000x256_S256x220_S1000x220_1_0_0_1_n_n.rhsIdx (ix2 p q)
      ((contrEquiv1 dot_S1000x256_S256x220_S1000x220_1_0_0_1_n_n 256 rfl rfl).symm k) = ix2 k q := by
    funext ax; apply Fin.ext
    match ax with
    | ⟨0, _⟩ => exact (rhs0_0 _ _).trans hk
    | ⟨1, _⟩ => exact rhs0_1 _ _
  show x0 (dot_S1000x256_S256x220_S1000x220_1_0_0_1_n_n.lhsIdx (ix2 p q) _) * x1 (dot_S1000x256_S256x220_S1000x220_1_0_0_1_n_n.rhsIdx (ix2 p q) _) = _
  rw [hl, hr]

/-- The same at any index of the block, by its two coordinates. -/
theorem pay0_at (x0 : FVec Ideal S1000x256 .f32) (x1 : FVec Ideal S256x220 .f32) (j : S1000x220.Idx) :
    k0_pay1 (F := Ideal) x0 x1 j = ∑ k : Fin 256, x0 (ix2 (j 0) k) * x1 (ix2 k (j 1)) := by
  obtain ⟨p, q, rfl⟩ : ∃ (p : Fin 1000) (q : Fin 220), j = ix2 p q := ⟨j 0, j 1, eq_ix2 j⟩
  exact pay0_apply x0 x1 p q

/-! ## The whole-array function -/

/-- The matrix product of a 10000 x 256 array and a 256 x 220 array over the extended reals, entry by entry. -/
def G0 (a0 : FVec Ideal S10000x256 .f32) (a1 : FVec Ideal S256x220 .f32) : FVec Ideal S10000x220 .f32 :=
  fun i => ∑ k : Fin 256, a0 (ix2 (i 0) k) * a1 (ix2 k (i 1))

theorem G0_apply (a0 : FVec Ideal S10000x256 .f32) (a1 : FVec Ideal S256x220 .f32) (i : Fin 10000) (j : Fin 220) :
    G0 a0 a1 (ix2 i j) = ∑ k : Fin 256, a0 (ix2 i k) * a1 (ix2 k j) := rfl

variable (V : (c : Dev nD) → (b : Ref sig .tc) → Buf (Elt Ideal) ((c : Thread nD τ).loc b))

/-- The two operand arrays as the region finds them. -/
abbrev xarr0 (c : Dev nD) : FVec Ideal S10000x256 .f32 := V c (Pipeline.arrRef spec0 0)
abbrev warr0 (c : Dev nD) : FVec Ideal S256x220 .f32 := V c (Pipeline.arrRef spec0 1)

/-! ## From blocks to the array -/

theorem hz0 : (![0, 0] : Fin 2 → Nat) = fun _ => 0 := funext fun a => by fin_cases a <;> rfl

/-- The index maps, decided over the grid: x's row block moves with the result's, neither moves along the
    columns, W never moves, and the result's row-block index is the point's number. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block of the result is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- What point t writes back is block t of the product of the two arrays. -/
theorem flushed0_2_eq (c : Dev nD) (t : Fin cfg0.N) :
    (dat0 (F := Ideal) V c).flushed 2 t = ((cfg0.win 2).blk t).view.read (Elt Ideal) (G0 (xarr0 V c) (warr0 V c)) := by
  show (cfg0.win 2).cut (grid0.coords t) ((dat0 (F := Ideal) V c).after 2 t) = _
  rw [after0_2]
  unfold out0_2
  rw [View.canon_unit_zero hz0]
  simp only [View.ld_unit_zero (S := S1000x256) hz0, View.ld_unit_zero (S := S256x220) hz0]
  obtain ⟨e0, e1, e2, e3, e4, e5⟩ := idx_facts0 t
  funext j
  show k0_pay1 (F := Ideal) (iblk0 V c 0 t) (iblk0 V c 1 t) j = G0 (xarr0 V c) (warr0 V c) (((cfg0.win 2).blk t).view.emb j)
  refine (pay0_at _ _ j).trans ?_
  unfold G0
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 256 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 256 + 1 * k.val = k.val; omega
    | ⟨1, _⟩ => show win0_1.index t (1 : Fin 2) * 220 + 1 * (j 1).val = win0_2.index t (1 : Fin 2) * 220 + 1 * (j 1).val; omega
  exact congrArg₂ (fun a b : EReal => a * b) (congrArg (xarr0 V c) h0) (congrArg (warr0 V c) h1)

/-- An index of the result is in point t's block iff each coordinate is in the block's range on its axis. -/
theorem mem_blk0_2 (t : Fin cfg0.N) (i : S10000x220.Idx) :
    i ∈ ((cfg0.win 2).blk t).view.set ↔ ∀ a : Fin 2, win0_2.index t a * S1000x220.size a ≤ (i a).val ∧ (i a).val < win0_2.index t a * S1000x220.size a + S1000x220.size a := by
  show i ∈ ((View.whole main_v47).slice (win0_2.rect t)).set ↔ _
  rw [View.set_slice_whole, Rect.mem_set_unit]
  exact Iff.rfl

/-- The row blocks tile the result: row r lies in the block of point r / 1000. -/
theorem covered0_2 (i : S10000x220.Idx) :
    ∃ t : Fin cfg0.N, (cfg0.win 2).flush t = true ∧ i ∈ ((cfg0.win 2).blk t).view.set := by
  have hi0 : (i 0).val < 10000 := (i 0).isLt
  have hi1 : (i 1).val < 220 := (i 1).isLt
  obtain ⟨t, ht⟩ := idx_onto0 ⟨(i 0).val / 1000, by omega⟩
  have q0 : win0_2.index t (0 : Fin 2) = (i 0).val / 1000 := congrFun ht 0
  have q1 : win0_2.index t (1 : Fin 2) = 0 := congrFun ht 1
  refine ⟨t, flush0_2 t, ?_⟩
  rw [mem_blk0_2]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 220 ≤ (i 1).val ∧ (i 1).val < win0_2.index t (1 : Fin 2) * 220 + 220; omega

/-- THE ARRAY the region leaves in its result window: the product of the two arrays it found. -/
theorem final0_2 (c : Dev nD) : (dat0 (F := Ideal) V c).arrAt 2 cfg0.N = G0 (xarr0 V c) (warr0 V c) :=
  (dat0 (F := Ideal) V c).arrAt_eq_of_cover 2 (G0 (xarr0 V c) (warr0 V c)) (fun t _ => flushed0_2_eq V c t) (covered0_2)

/-! ## Over the reals -/

/-- Where the two arrays hold real numbers, the result holds the real matrix product. -/
theorem final0_real (c : Dev nD) (xr : Fin 10000 → Fin 256 → ℝ) (wr : Fin 256 → Fin 220 → ℝ)
    (hx : ∀ i k, (V c (Pipeline.arrRef spec0 0) : S10000x256.Idx → EReal) (ix2 i k) = ((xr i k : ℝ) : EReal))
    (hw : ∀ k j, (V c (Pipeline.arrRef spec0 1) : S256x220.Idx → EReal) (ix2 k j) = ((wr k j : ℝ) : EReal)) :
    ∀ i j, ((dat0 (F := Ideal) V c).arrAt 2 cfg0.N : S10000x220.Idx → EReal) (ix2 i j) = ((Cert.Spec.lin xr wr i j : ℝ) : EReal) := by
  intro i j
  refine (congrFun (final0_2 V c) (ix2 i j)).trans ?_
  show (∑ k : Fin 256, xarr0 V c (ix2 i k) * warr0 V c (ix2 k j) : EReal) = ((∑ k : Fin 256, xr i k * wr k j : ℝ) : EReal)
  rw [← Cert.LibCoe.sum_coe]
  refine Finset.sum_congr rfl fun k _ => ?_
  rw [← Cert.LibCoe.mul_coe]
  exact congrArg₂ (fun a b : EReal => a * b) (hx i k) (hw k j)

end Cert.KernelIdeal.HandV

end
-- ==== Proof.Val1.lean ====
import proofs.«408066_j62380105008311_2_alg».proof.Proof.Reg1
import proofs.«408066_j62380105008311_2_alg».proof.Proof.Spec
import proofs.«408066_j62380105008311_2_alg».proof.Proof.SpecLaws2
import proofs.«408066_j62380105008311_2_alg».proof.Proof.LibCoe
import Idealize.ShloMosaic.Lib.Pipeline.Value
import Idealize.ShloMosaic.Lib.ValueIdx
import Idealize.ShloMosaic.Lib.ValueLayout
import Idealize.ShloMosaic.PureOps.Ideal.Laws

/-!
# Region 1 at the ideal values: the result array is the matrix product of the two operand arrays

The grid runs over row blocks of the result and, inside each, over ten runs of the contracted index.  The
accumulator starts each row block at zero, gains one run's partial product per step, and is copied to the result
block at the last step: what is written back is the row block of the full product, the contracted sum cut into its
ten runs.  The row blocks tile the result, so the array the region leaves is the product of the two arrays it found;
and where those hold real numbers, it holds the real matrix product.
-/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic Idealize.SL.Sem Idealize.ShloMosaic.ValueIdx
open Idealize.ShloMosaic.Pipeline (Dat)
open scoped BigOperators

/-! ## What each step leaves in the accumulator, as the body's arithmetic -/

section Pieces
variable {F : FTy → Type} [FloatOps F]

theorem hz1 : (![0, 0] : Fin 2 → Nat) = fun _ => 0 := funext fun a => by fin_cases a <;> rfl

/-- FIRST STEP: the accumulator is cleared, then gains the step's product. -/
theorem sout1_A_eq (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : cond1_0 i) (hc1 : ¬cond1_1 i) (x0 : Vec F S2000x1024 .bf16) (x1 : Vec F S1024x220 .f32) :
    sout1_A c i arg2 harg2 arg3 harg3 arg4 harg4 arg5 harg5 hc0 hc1 x0 x1 = k1_pay2 x0 x1 (k1_pay1 (F := F)) := by
  unfold sout1_A
  rw [View.read_writes_eq_canon _ _ _ (scover1_A c i arg2 harg2 arg3 harg3 arg4 harg4 arg5 harg5 hc0 hc1 x0 x1)]
  unfold run1_A
  dsimp only
  sl_unfold_words
  rw [View.canon_cons_unit_zero (S := S2000x220) hz1]
  simp only [View.readAt_eq_ld, harg2.read_unread, harg3.read_unread, View.ld_unit_zero (S := S2000x1024) hz1,
    View.ld_unit_zero (S := S1024x220) hz1, View.readCov_unit_zero (S := S2000x220) _ hz1]

/-- A MIDDLE STEP: the accumulator gains the step's product. -/
theorem sout1_B_eq (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : ¬cond1_0 i) (hc1 : ¬cond1_1 i) (x0 : Vec F S2000x1024 .bf16) (x1 : Vec F S1024x220 .f32) (xs : Vec F S2000x220 .f32) :
    sout1_B c i arg2 harg2 arg3 harg3 arg4 harg4 arg5 harg5 hc0 hc1 x0 x1 xs = k1_pay2 x0 x1 xs := by
  unfold sout1_B
  rw [View.read_writes_eq_canon _ _ _ (scover1_B c i arg2 harg2 arg3 harg3 arg4 harg4 arg5 harg5 hc0 hc1 x0 x1 xs)]
  unfold run1_B
  dsimp only
  sl_unfold_words
  rw [View.canon_unit_zero (S := S2000x220) hz1]
  simp only [View.readAt_eq_ld, harg2.read_unread, harg3.read_unread, harg5.read_unread, View.ld_unit_zero (S := S2000x1024) hz1,
    View.ld_unit_zero (S := S1024x220) hz1, View.ld_unit_zero (S := S2000x220) hz1]

/-- THE LAST STEP: the accumulator gains the step's product, -/
theorem sout1_C_eq (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : ¬cond1_0 i) (hc1 : cond1_1 i) (x0 : Vec F S2000x1024 .bf16) (x1 : Vec F S1024x220 .f32) (xs : Vec F S2000x220 .f32) :
    sout1_C c i arg2 harg2 arg3 harg3 arg4 harg4 arg5 harg5 hc0 hc1 x0 x1 xs = k1_pay2 x0 x1 xs := by
  unfold sout1_C
  rw [View.read_writes_eq_canon _ _ _ (scover1_C c i arg2 harg2 arg3 harg3 arg4 harg4 arg5 harg5 hc0 hc1 x0 x1 xs)]
  unfold run1_C
  dsimp only
  sl_unfold_words
  rw [View.canon_unit_zero (S := S2000x220) hz1]
  simp only [View.readAt_eq_ld, harg2.read_unread, harg3.read_unread, harg5.read_unread, View.ld_unit_zero (S := S2000x1024) hz1,
    View.ld_unit_zero (S := S1024x220) hz1, View.ld_unit_zero (S := S2000x220) hz1]

/-- and the result block receives the accumulator as the step leaves it. -/
theorem out1_C_eq (c : Dev nD) (i : grid1.Coords)
    (arg2 : Memref sig .tc .vmem S2000x1024 .bf16) (harg2 : arg2.IsWhole) (arg3 : Memref sig .tc .vmem S1024x220 .f32) (harg3 : arg3.IsWhole)
    (arg4 : Memref sig .tc .vmem S2000x220 .f32) (harg4 : arg4.IsWhole) (arg5 : Memref sig .tc .vmem S2000x220 .f32) (harg5 : arg5.IsWhole)
    (hc0 : ¬cond1_0 i) (hc1 : cond1_1 i) (x0 : Vec F S2000x1024 .bf16) (x1 : Vec F S1024x220 .f32) (xs : Vec F S2000x220 .f32) :
    out1_C c i arg2 harg2 arg3 harg3 arg4 harg4 arg5 harg5 hc0 hc1 x0 x1 xs = k1_pay2 x0 x1 xs := by
  unfold out1_C
  rw [View.read_writes_eq_canon _ _ _ (cover1_C c i arg2 harg2 arg3 harg3 arg4 harg4 arg5 harg5 hc0 hc1 x0 x1 xs)]
  unfold run1_C
  dsimp only
  sl_unfold_words
  rw [View.canon_unit_zero (S := S2000x220) hz1]
  simp only [View.readAt_eq_ld, harg2.read_unread, harg3.read_unread, harg5.read_unread, View.ld_unit_zero (S := S2000x1024) hz1,
    View.ld_unit_zero (S := S1024x220) hz1, View.ld_unit_zero (S := S2000x220) hz1, View.readCov_unit_zero (S := S2000x220) _ hz1]

end Pieces

/-! ## The step's arithmetic at the ideal values -/

theorem lhs1_0 (j : S2000x220.Idx) (k : dot_S2000x1024_S1024x220_S2000x220_1_0_0_1_n_n.contr.Idx) :
    (dot_S2000x1024_S1024x220_S2000x220_1_0_0_1_n_n.lhsIdx j k 0).val = (j 0).val := by
  simp [DotDims.lhsIdx, dot_S2000x1024_S1024x220_S2000x220_1_0_0_1_n_n]; rfl

theorem lhs1_1 (j : S2000x220.Idx) (k : dot_S2000x1024_S1024x220_S2000x220_1_0_0_1_n_n.contr.Idx) :
    (dot_S2000x1024_S1024x220_S2000x220_1_0_0_1_n_n.lhsIdx j k 1).val = (k ⟨0, by decide⟩).val :=
  dot_S2000x1024_S1024x220_S2000x220_1_0_0_1_n_n.lhsIdx_val_of_single (cl := 1) rfl j k

theorem rhs1_0 (j : S2000x220.Idx) (k : dot_S2000x1024_S1024x220_S2000x220_1_0_0_1_n_n.contr.Idx) :
    (dot_S2000x1024_S1024x220_S2000x220_1_0_0_1_n_n.rhsIdx j k 0).val = (k ⟨0, by decide⟩).val :=
  dot_S2000x1024_S1024x220_S2000x220_1_0_0_1_n_n.rhsIdx_val_of_single (cr := 0) rfl j k

theorem rhs1_1 (j : S2000x220.Idx) (k : dot_S2000x1024_S1024x220_S2000x220_1_0_0_1_n_n.contr.Idx) :
    (dot_S2000x1024_S1024x220_S2000x220_1_0_0_1_n_n.rhsIdx j k 1).val = (j 1).val := by
  simp [DotDims.rhsIdx, dot_S2000x1024_S1024x220_S2000x220_1_0_0_1_n_n]; rfl

/-- The cleared accumulator is zero everywhere. -/
theorem pay1_1_apply (j : S2000x220.Idx) : k1_pay1 (F := Ideal) j = 0 := by
  unfold k1_pay1
  refine (congrFun (shapeCast_self _ _) j).trans ?_
  exact Ideal.ofBits_zero_f32

/-- One step at an entry (p, q): what the accumulator held there plus the sum over the run's contracted coordinate k
    of x0 (p, k) * x1 (k, q).  The narrowing cast is the identity on extended reals and the product starts from zero. -/
theorem pay1_2_apply (x0 : FVec Ideal S2000x1024 .bf16) (x1 : FVec Ideal S1024x220 .f32) (xs : FVec Ideal S2000x220 .f32)
    (p : Fin 2000) (q : Fin 220) :
    k1_pay2 (F := Ideal) x0 x1 xs (ix2 p q) = xs (ix2 p q) + ∑ k : Fin 1024, x0 (ix2 p k) * x1 (ix2 k q) := by
  have e : k1_pay2 (F := Ideal) x0 x1 xs
      = addf xs (matmul dot_S2000x1024_S1024x220_S2000x220_1_0_0_1_n_n none x0 (truncf .bf16 x1 bitsLt_bf16_f32)
          (constant S2000x220 .f32 0x00000000#32)) := by
    simp only [k1_pay2, shapeCast_self]
  rw [e]
  refine (congrArg (fun z : EReal => xs (ix2 p q) + z)
    (Ideal.matmul_constant_zero_apply dot_S2000x1024_S1024x220_S2000x220_1_0_0_1_n_n none x0 (truncf .bf16 x1 bitsLt_bf16_f32) (ix2 p q))).trans ?_
  refine congrArg (fun z : EReal => xs (ix2 p q) + z) ?_
  rw [← Equiv.sum_comp (contrEquiv1 dot_S2000x1024_S1024x220_S2000x220_1_0_0_1_n_n 1024 rfl rfl).symm]
  refine Finset.sum_congr rfl fun k _ => ?_
  have hk := contrEquiv1_symm_val dot_S2000x1024_S1024x220_S2000x220_1_0_0_1_n_n 1024 rfl rfl k
  have hl : dot_S2000x1024_S1024x220_S2000x220_1_0_0_1_n_n.lhsIdx (ix2 p q)
      ((contrEquiv1 dot_S2000x1024_S1024x220_S2000x220_1_0_0_1_n_n 1024 rfl rfl).symm k) = ix2 p k := by
    funext ax; apply Fin.ext
    match ax with
    | ⟨0, _⟩ => exact lhs1_0 _ _
    | ⟨1, _⟩ => exact (lhs1_1 _ _).trans hk
  have hr : dot_S2000x1024_S1024x220_S2000x220_1_0_0_1_n_n.rhsIdx (ix2 p q)
      ((contrEquiv1 dot_S2000x1024_S1024x220_S2000x220_1_0_0_1_n_n 1024 rfl rfl).symm k) = ix2 k q := by
    funext ax; apply Fin.ext
    match ax with
    | ⟨0, _⟩ => exact (rhs1_0 _ _).trans hk
    | ⟨1, _⟩ => exact rhs1_1 _ _
  show x0 (dot_S2000x1024_S1024x220_S2000x220_1_0_0_1_n_n.lhsIdx (ix2 p q) _) * x1 (dot_S2000x1024_S1024x220_S2000x220_1_0_0_1_n_n.rhsIdx (ix2 p q) _) = _
  rw [hl, hr]

/-! ## The whole-array function -/

/-- The matrix product of a 10000 x 10240 array and a 10240 x 220 array over the extended reals, entry by entry. -/
def G1 (a0 : FVec Ideal S10000x10240 .bf16) (a1 : FVec Ideal S10240x220 .f32) : FVec Ideal S10000x220 .f32 :=
  fun i => ∑ s : Fin 10240, a0 (ix2 (i 0) s) * a1 (ix2 s (i 1))

theorem G1_apply (a0 : FVec Ideal S10000x10240 .bf16) (a1 : FVec Ideal S10240x220 .f32) (i : Fin 10000) (j : Fin 220) :
    G1 a0 a1 (ix2 i j) = ∑ s : Fin 10240, a0 (ix2 i s) * a1 (ix2 s j) := rfl

/-- Run `s` of the contracted index (positions s * 1024 … s * 1024 + 1023) of entry (r, q) of the product; zero off the
    array and past the last run, so that it is a function of naturals. -/
def part1 (a0 : FVec Ideal S10000x10240 .bf16) (a1 : FVec Ideal S10240x220 .f32) (r : ℕ) (q : Fin 220) (s : ℕ) : EReal :=
  if h : r < 10000 ∧ s < 10 then
    ∑ k : Fin 1024, a0 (ix2 (⟨r, h.1⟩ : Fin 10000) (⟨s * 1024 + k.val, by have := k.isLt; omega⟩ : Fin 10240))
      * a1 (ix2 (⟨s * 1024 + k.val, by have := k.isLt; omega⟩ : Fin 10240) q)
  else 0

/-- The ten runs make up the entry of the product. -/
theorem sum_part1 (a0 : FVec Ideal S10000x10240 .bf16) (a1 : FVec Ideal S10240x220 .f32) (r : ℕ) (hr : r < 10000) (q : Fin 220) :
    ∑ s ∈ Finset.range 10, part1 a0 a1 r q s = G1 a0 a1 (ix2 (⟨r, hr⟩ : Fin 10000) q) := by
  rw [G1_apply, Cert.Spec.sum_blocks_10240, Finset.sum_range]
  refine Finset.sum_congr rfl fun s _ => ?_
  unfold part1
  rw [dif_pos ⟨hr, s.isLt⟩]

variable (V : (c : Dev nD) → (b : Ref sig .tc) → Buf (Elt Ideal) ((c : Thread nD τ).loc b))

/-- The two operand arrays as the region finds them, and their blocks at a point. -/
abbrev aarr1 (c : Dev nD) : FVec Ideal S10000x10240 .bf16 := V c (Pipeline.arrRef spec1 0)
abbrev harr1 (c : Dev nD) : FVec Ideal S10240x220 .f32 := V c (Pipeline.arrRef spec1 1)
abbrev ablk1 (c : Dev nD) (t : Fin cfg1.N) : FVec Ideal S2000x1024 .bf16 := iblk1 V c 0 t
abbrev hblk1 (c : Dev nD) (t : Fin cfg1.N) : FVec Ideal S1024x220 .f32 := iblk1 V c 1 t

/-! ## The blocks, read off the arrays -/

/-- The index maps, decided over the grid: the row block of the first operand and of the result is the point's
    number divided by the number of runs, the run is the remainder; the second operand's row block is the run; no
    column block moves. -/
theorem idx_facts1 : ∀ t : Fin cfg1.N, win1_0.index t (0 : Fin 2) = t.val / 10
    ∧ win1_0.index t (1 : Fin 2) = t.val % 10
    ∧ win1_1.index t (0 : Fin 2) = t.val % 10
    ∧ win1_1.index t (1 : Fin 2) = 0
    ∧ win1_2.index t (0 : Fin 2) = t.val / 10
    ∧ win1_2.index t (1 : Fin 2) = 0 :=
  (by decide +kernel : ∀ t : Fin grid1.N, _)

theorem lt_N1 (t : Fin cfg1.N) : t.val < 50 := lt_of_lt_of_eq t.isLt N_1

/-- A run of the first operand's block against the second's is that run of the product's entry. -/
theorem blocks1_apply (c : Dev nD) (t : Fin cfg1.N) (p : Fin 2000) (q : Fin 220) :
    ∑ k : Fin 1024, ablk1 V c t (ix2 p k) * hblk1 V c t (ix2 k q)
      = part1 (aarr1 V c) (harr1 V c) (t.val / 10 * 2000 + p.val) q (t.val % 10) := by
  obtain ⟨e0, e1, e2, e3, e4, e5⟩ := idx_facts1 t
  have hN := lt_N1 t
  have hr : t.val / 10 * 2000 + p.val < 10000 := by have := p.isLt; omega
  have hs : t.val % 10 < 10 := Nat.mod_lt _ (by decide)
  unfold part1
  rw [dif_pos ⟨hr, hs⟩]
  refine Finset.sum_congr rfl fun k _ => ?_
  have h0 : ((cfg1.win 0).blk t).view.emb (ix2 p k)
      = ix2 (⟨t.val / 10 * 2000 + p.val, hr⟩ : Fin 10000) (⟨t.val % 10 * 1024 + k.val, by have := k.isLt; omega⟩ : Fin 10240) := by
    funext a; apply Fin.ext
    match a with
    | ⟨0, _⟩ => show win1_0.index t (0 : Fin 2) * 2000 + 1 * p.val = t.val / 10 * 2000 + p.val; omega
    | ⟨1, _⟩ => show win1_0.index t (1 : Fin 2) * 1024 + 1 * k.val = t.val % 10 * 1024 + k.val; omega
  have h1 : ((cfg1.win 1).blk t).view.emb (ix2 k q)
      = ix2 (⟨t.val % 10 * 1024 + k.val, by have := k.isLt; omega⟩ : Fin 10240) q := by
    funext a; apply Fin.ext
    match a with
    | ⟨0, _⟩ => show win1_1.index t (0 : Fin 2) * 1024 + 1 * k.val = t.val % 10 * 1024 + k.val; omega
    | ⟨1, _⟩ => show win1_1.index t (1 : Fin 2) * 220 + 1 * q.val = q.val; omega
  exact congrArg₂ (fun a b : EReal => a * b) (congrArg (aarr1 V c) h0) (congrArg (harr1 V c) h1)

/-! ## The accumulator after each point -/

/-- THE INVARIANT.  After the body at point `t` the accumulator holds, at entry (p, q), the runs 0 … t % 10 of entry
    (t / 10 * 2000 + p, q) of the product: by induction on the point — a first step starts from zero, every other step
    adds its run to what the point before left, and the point before is in the same row block, one run earlier. -/
theorem scrAt1_apply (c : Dev nD) (t : Fin cfg1.N) (p : Fin 2000) (q : Fin 220) :
    scrAt1 (F := Ideal) V c t.val t.isLt (ix2 p q)
      = ∑ s ∈ Finset.range (t.val % 10 + 1), part1 (aarr1 V c) (harr1 V c) (t.val / 10 * 2000 + p.val) q s := by
  obtain ⟨n, hn⟩ := t
  induction n with
  | zero =>
    have h0 : (⟨0, hn⟩ : Fin cfg1.N).val % 10 = 0 := rfl
    have h1 : ¬(⟨0, hn⟩ : Fin cfg1.N).val % 10 = 9 := by show ¬(0 % 10 = 9); decide
    rw [scrAt1_A V c ⟨0, hn⟩ h0 h1, sout1_A_eq]
    refine (pay1_2_apply (ablk1 V c ⟨0, hn⟩) (hblk1 V c ⟨0, hn⟩) (k1_pay1 (F := Ideal)) p q).trans ?_
    rw [pay1_1_apply, zero_add, blocks1_apply V c ⟨0, hn⟩ p q]
    show _ = ∑ s ∈ Finset.range (0 % 10 + 1), _
    rw [show (0 % 10 + 1 : ℕ) = 1 from rfl, Finset.sum_range_one]
    rfl
  | succ n ih =>
    have hN : n + 1 < 50 := lt_N1 ⟨n + 1, hn⟩
    by_cases h0 : (n + 1) % 10 = 0
    · have h1 : ¬(n + 1) % 10 = 9 := by omega
      rw [scrAt1_A V c ⟨n + 1, hn⟩ h0 h1, sout1_A_eq]
      refine (pay1_2_apply (ablk1 V c ⟨n + 1, hn⟩) (hblk1 V c ⟨n + 1, hn⟩) (k1_pay1 (F := Ideal)) p q).trans ?_
      rw [pay1_1_apply, zero_add, blocks1_apply V c ⟨n + 1, hn⟩ p q]
      show part1 _ _ ((n + 1) / 10 * 2000 + p.val) q ((n + 1) % 10) = ∑ s ∈ Finset.range ((n + 1) % 10 + 1), _
      rw [h0, Finset.sum_range_one]
    · have ihn := ih (Nat.lt_of_succ_lt hn)
      have hd : n / 10 = (n + 1) / 10 := by omega
      have hm : n % 10 + 1 = (n + 1) % 10 := by omega
      have hstep : k1_pay2 (F := Ideal) (ablk1 V c ⟨n + 1, hn⟩) (hblk1 V c ⟨n + 1, hn⟩) (scrBefore1 V c ⟨n + 1, hn⟩) (ix2 p q)
          = ∑ s ∈ Finset.range ((n + 1) % 10 + 1), part1 (aarr1 V c) (harr1 V c) ((n + 1) / 10 * 2000 + p.val) q s := by
        refine (pay1_2_apply (ablk1 V c ⟨n + 1, hn⟩) (hblk1 V c ⟨n + 1, hn⟩) (scrBefore1 V c ⟨n + 1, hn⟩) p q).trans ?_
        rw [blocks1_apply V c ⟨n + 1, hn⟩ p q]
        rw [show scrBefore1 V c ⟨n + 1, hn⟩ (ix2 p q)
            = ∑ s ∈ Finset.range (n % 10 + 1), part1 (aarr1 V c) (harr1 V c) (n / 10 * 2000 + p.val) q s from ihn]
        show _ + part1 _ _ ((n + 1) / 10 * 2000 + p.val) q ((n + 1) % 10) = _
        rw [hd, ← hm, Finset.sum_range_succ _ (n % 10 + 1)]
      by_cases h1 : (n + 1) % 10 = 9
      · rw [scrAt1_C V c ⟨n + 1, hn⟩ h0 h1, sout1_C_eq]
        exact hstep
      · rw [scrAt1_B V c ⟨n + 1, hn⟩ h0 h1, sout1_B_eq]
        exact hstep

/-! ## From blocks to the array -/

/-- What a last step writes back is the accumulator as that step leaves it: block `t` of the product. -/
theorem flushed1_2_eq (c : Dev nD) (t : Fin cfg1.N) (hf : (cfg1.win 2).flush t = true) :
    (dat1 (F := Ideal) V c).flushed 2 t = ((cfg1.win 2).blk t).view.read (Elt Ideal) (G1 (aarr1 V c) (harr1 V c)) := by
  have h1 : t.val % 10 = 9 := (flush1_2 t).mp hf
  have h0 : ¬t.val % 10 = 0 := by omega
  show (cfg1.win 2).cut (grid1.coords t) ((dat1 (F := Ideal) V c).after 2 t) = _
  rw [after1_2, outAt1_C V c t h0 h1, out1_C_eq, ← sout1_C_eq c (grid1.coords t) (ms1_0 t) (hs1_0 t) (ms1_1 t) (hs1_1 t) (ms1_2 t) (hs1_2 t) scM1 (Memref.isWhole_whole _)
    (fun h => h0 ((hcond1_0 t).mp h)) ((hcond1_1 t).mpr h1), ← scrAt1_C V c t h0 h1]
  obtain ⟨e0, e1, e2, e3, e4, e5⟩ := idx_facts1 t
  have hN := lt_N1 t
  funext j
  obtain ⟨p, q, rfl⟩ : ∃ (p : Fin 2000) (q : Fin 220), j = ix2 p q := ⟨j 0, j 1, eq_ix2 j⟩
  have hr : t.val / 10 * 2000 + p.val < 10000 := by have := p.isLt; omega
  show scrAt1 (F := Ideal) V c t.val t.isLt (ix2 p q) = G1 (aarr1 V c) (harr1 V c) (((cfg1.win 2).blk t).view.emb (ix2 p q))
  rw [scrAt1_apply V c t p q, h1, sum_part1 _ _ _ hr]
  refine congrArg (G1 (aarr1 V c) (harr1 V c)) ?_
  funext a; apply Fin.ext
  match a with
  | ⟨0, _⟩ => show t.val / 10 * 2000 + p.val = win1_2.index t (0 : Fin 2) * 2000 + 1 * p.val; omega
  | ⟨1, _⟩ => show q.val = win1_2.index t (1 : Fin 2) * 220 + 1 * q.val; omega

/-- An index of the result is in point t's block iff each coordinate is in the block's range on its axis. -/
theorem mem_blk1_2 (t : Fin cfg1.N) (i : S10000x220.Idx) :
    i ∈ ((cfg1.win 2).blk t).view.set ↔ ∀ a : Fin 2, win1_2.index t a * S2000x220.size a ≤ (i a).val ∧ (i a).val < win1_2.index t a * S2000x220.size a + S2000x220.size a := by
  show i ∈ ((View.whole main_v49).slice (win1_2.rect t)).set ↔ _
  rw [View.set_slice_whole, Rect.mem_set_unit]
  exact Iff.rfl

/-- Every row block of the result is written back by some point (the last step of its row of the grid). -/
theorem idx_onto1 : ∀ q0 : Fin 5, ∃ t : Fin cfg1.N, (cfg1.win 2).flush t = true ∧ win1_2.index t = ![q0.val, 0] :=
  (by decide +kernel : ∀ q0 : Fin 5, ∃ t : Fin grid1.N, win1_2.flush t = true ∧ win1_2.index t = ![q0.val, 0])

/-- The row blocks tile the result: row r lies in the block of row block r / 2000. -/
theorem covered1_2 (i : S10000x220.Idx) :
    ∃ t : Fin cfg1.N, (cfg1.win 2).flush t = true ∧ i ∈ ((cfg1.win 2).blk t).view.set := by
  have hi0 : (i 0).val < 10000 := (i 0).isLt
  have hi1 : (i 1).val < 220 := (i 1).isLt
  obtain ⟨t, hft, ht⟩ := idx_onto1 ⟨(i 0).val / 2000, by omega⟩
  have q0 : win1_2.index t (0 : Fin 2) = (i 0).val / 2000 := congrFun ht 0
  have q1 : win1_2.index t (1 : Fin 2) = 0 := congrFun ht 1
  refine ⟨t, hft, ?_⟩
  rw [mem_blk1_2]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 220 ≤ (i 1).val ∧ (i 1).val < win1_2.index t (1 : Fin 2) * 220 + 220; omega

/-- THE ARRAY the region leaves in its result window: the product of the two arrays it found. -/
theorem final1_2 (c : Dev nD) : (dat1 (F := Ideal) V c).arrAt 2 cfg1.N = G1 (aarr1 V c) (harr1 V c) :=
  (dat1 (F := Ideal) V c).arrAt_eq_of_cover 2 (G1 (aarr1 V c) (harr1 V c)) (fun t hf => flushed1_2_eq V c t hf) (covered1_2)

/-! ## Over the reals -/

/-- Where the two arrays hold real numbers, the result holds the real matrix product. -/
theorem final1_real (c : Dev nD) (ar : Fin 10000 → Fin 10240 → ℝ) (hr : Fin 10240 → Fin 220 → ℝ)
    (ha : ∀ i s, (V c (Pipeline.arrRef spec1 0) : S10000x10240.Idx → EReal) (ix2 i s) = ((ar i s : ℝ) : EReal))
    (hh : ∀ s j, (V c (Pipeline.arrRef spec1 1) : S10240x220.Idx → EReal) (ix2 s j) = ((hr s j : ℝ) : EReal))
    (i : Fin 10000) (j : Fin 220) :
    ((dat1 (F := Ideal) V c).arrAt 2 cfg1.N : S10000x220.Idx → EReal) (ix2 i j)
      = ((∑ s : Fin 10240, ar i s * hr s j : ℝ) : EReal) := by
  refine (congrFun (final1_2 V c) (ix2 i j)).trans ?_
  show (∑ s : Fin 10240, aarr1 V c (ix2 i s) * harr1 V c (ix2 s j) : EReal) = _
  rw [← Cert.LibCoe.sum_coe]
  refine Finset.sum_congr rfl fun s _ => ?_
  rw [← Cert.LibCoe.mul_coe]
  exact congrArg₂ (fun a b : EReal => a * b) (ha i s) (hh s j)

end Cert.KernelIdeal.HandV

end
-- ==== Proof.Val2.lean ====
import proofs.«408066_j62380105008311_2_alg».proof.Proof.Reg2
import proofs.«408066_j62380105008311_2_alg».proof.Proof.Spec
import proofs.«408066_j62380105008311_2_alg».proof.Proof.LibCoe
import proofs.«408066_j62380105008311_2_alg».proof.Proof.SpecLaws2
import Idealize.ShloMosaic.Lib.Pipeline.Value
import Idealize.ShloMosaic.Lib.ValueIdx
import Idealize.ShloMosaic.Lib.ValueLayout
import Idealize.ShloMosaic.PureOps.Ideal.Laws

/-!
# Pipeline 2 at the ideal values: the clamped biased rows, their column sums and column sums of squares

Each grid point writes back one row block of the first result: the bias row added to the matching row block and
clamped at zero. The row blocks tile the result, so the array the region leaves is that function of the two arrays it
found, entry by entry. The two one-row results are written back once, after the last point: each holds, per column,
the sum over the points of the block's column sum (of squares), from a zero start; the blocks partition the rows, so
that is the sum over all rows. Where the two arrays hold real numbers the three results hold the real clamped sum,
its column sums and its column sums of squares.
-/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## The three whole-array functions -/

/-- The rows plus the bias row, clamped at zero, entry by entry. -/
def relu2 (a0 : FVec Ideal S10000x220 .f32) (a1 : FVec Ideal S1x220 .f32) : FVec Ideal S10000x220 .f32 :=
  fun i => max (a0 i + a1 (ix2 (0 : Fin 1) (i 1))) (Ideal.ofBits .f32 0x00000000#32)

/-- Its column sums, as one row. -/
def colsum2 (a0 : FVec Ideal S10000x220 .f32) (a1 : FVec Ideal S1x220 .f32) : FVec Ideal S1x220 .f32 :=
  fun j => ∑ i : Fin 10000, relu2 a0 a1 (ix2 i (j 1))

/-- Its column sums of squares, as one row. -/
def colsumsq2 (a0 : FVec Ideal S10000x220 .f32) (a1 : FVec Ideal S1x220 .f32) : FVec Ideal S1x220 .f32 :=
  fun j => ∑ i : Fin 10000, relu2 a0 a1 (ix2 i (j 1)) * relu2 a0 a1 (ix2 i (j 1))

/-! ## The payloads at an entry -/

theorem hz2 : (![0, 0] : Fin 2 → Nat) = fun _ => 0 := funext fun a => by fin_cases a <;> rfl

/-- An index of a one-row array has row coordinate zero. -/
theorem row_idx2 (j : S1x220.Idx) : j = ix2 (0 : Fin 1) (j 1) := by
  funext a
  match a with
  | ⟨0, _⟩ => exact Fin.ext (by have h : (j 0).val < 1 := (j 0).isLt; show (j 0).val = 0; omega)
  | ⟨1, _⟩ => rfl

/-- The body's first payload at an entry of a block: the entry plus the bias at its column, clamped at zero. -/
theorem pay2_3_at (x0 : FVec Ideal S1000x220 .f32) (x1 : FVec Ideal S1x220 .f32) (j : S1000x220.Idx) :
    k2_pay3 (F := Ideal) x0 x1 j = max (x0 j + x1 (ix2 (0 : Fin 1) (j 1))) (Ideal.ofBits .f32 0x00000000#32) := by
  unfold k2_pay3
  simp only [shapeCast_self]
  rw [maximumf_apply, addf_apply, broadcast_apply,
    broadcastTo_apply x1 _ j (ix2 (0 : Fin 1) (j 1)) (fun ax => by
      match ax with
      | ⟨0, _⟩ => rfl
      | ⟨1, _⟩ => rfl)]
  rfl

/-- One update of the column-sum row at a column: what it held plus the block's column sum. -/
theorem pay2_4_at (x0 : FVec Ideal S1000x220 .f32) (x1 : FVec Ideal S1x220 .f32) (a : FVec Ideal S1x220 .f32) (q : Fin 220) :
    k2_pay4 (F := Ideal) x0 x1 a (ix2 (0 : Fin 1) q)
      = a (ix2 (0 : Fin 1) q) + ∑ p : Fin 1000, k2_pay3 (F := Ideal) x0 x1 (ix2 p q) := by
  unfold k2_pay4
  simp only [shapeCast_self]
  rw [addf_apply, shapeCast_a_1a_apply]
  refine congrArg (fun z : EReal => a (ix2 (0 : Fin 1) q) + z) ?_
  refine (Ideal.multiReduction_add_single (k2_pay3 (F := Ideal) x0 x1) 0x00000000#32 reduces_S1000x220_S220 _ _ (ix1 q)).trans ?_
  refine Finset.sum_congr rfl fun p _ => ?_
  refine congrArg (k2_pay3 (F := Ideal) x0 x1) ?_
  funext d; apply Fin.ext
  match d with
  | ⟨0, _⟩ => rfl
  | ⟨1, _⟩ => rfl

/-- One update of the column-sum-of-squares row at a column. -/
theorem pay2_5_at (x0 : FVec Ideal S1000x220 .f32) (x1 : FVec Ideal S1x220 .f32) (a : FVec Ideal S1x220 .f32) (q : Fin 220) :
    k2_pay5 (F := Ideal) x0 x1 a (ix2 (0 : Fin 1) q)
      = a (ix2 (0 : Fin 1) q) + ∑ p : Fin 1000, k2_pay3 (F := Ideal) x0 x1 (ix2 p q) * k2_pay3 (F := Ideal) x0 x1 (ix2 p q) := by
  unfold k2_pay5
  simp only [shapeCast_self]
  rw [addf_apply, shapeCast_a_1a_apply]
  refine congrArg (fun z : EReal => a (ix2 (0 : Fin 1) q) + z) ?_
  refine (Ideal.multiReduction_add_single (mulf (k2_pay3 (F := Ideal) x0 x1) (k2_pay3 (F := Ideal) x0 x1)) 0x00000000#32 reduces_S1000x220_S220 _ _ (ix1 q)).trans ?_
  refine Finset.sum_congr rfl fun p _ => ?_
  have e : reduces_S1000x220_S220.lift (ix1 q) p = ix2 p q := by
    funext d; apply Fin.ext
    match d with
    | ⟨0, _⟩ => rfl
    | ⟨1, _⟩ => rfl
  rw [mulf_apply, e]
  rfl

/-- The reset rows hold zero. -/
theorem zero2_3_at (j : S1x220.Idx) : zero2_3 (F := Ideal) j = 0 := by
  unfold zero2_3
  rw [View.canon_unit_zero hz2]
  exact Cert.LibCoe.ofBits_zero.trans EReal.coe_zero
theorem zero2_4_at (j : S1x220.Idx) : zero2_4 (F := Ideal) j = 0 := by
  unfold zero2_4
  rw [View.canon_unit_zero hz2]
  exact Cert.LibCoe.ofBits_zero.trans EReal.coe_zero

/-- A point's update of each running row, at a column. -/
theorem step2_3_at (x0 : FVec Ideal S1000x220 .f32) (x1 : FVec Ideal S1x220 .f32) (a : FVec Ideal S1x220 .f32) (q : Fin 220) :
    step2_3 (F := Ideal) x0 x1 a (ix2 (0 : Fin 1) q)
      = a (ix2 (0 : Fin 1) q) + ∑ p : Fin 1000, k2_pay3 (F := Ideal) x0 x1 (ix2 p q) := by
  unfold step2_3
  rw [View.canon_unit_zero hz2]
  simp only [View.ld_unit_zero (S := S1000x220) hz2, View.ld_unit_zero (S := S1x220) hz2]
  exact pay2_4_at x0 x1 a q
theorem step2_4_at (x0 : FVec Ideal S1000x220 .f32) (x1 : FVec Ideal S1x220 .f32) (a : FVec Ideal S1x220 .f32) (q : Fin 220) :
    step2_4 (F := Ideal) x0 x1 a (ix2 (0 : Fin 1) q)
      = a (ix2 (0 : Fin 1) q) + ∑ p : Fin 1000, k2_pay3 (F := Ideal) x0 x1 (ix2 p q) * k2_pay3 (F := Ideal) x0 x1 (ix2 p q) := by
  unfold step2_4
  rw [View.canon_unit_zero hz2]
  simp only [View.ld_unit_zero (S := S1000x220) hz2, View.ld_unit_zero (S := S1x220) hz2]
  exact pay2_5_at x0 x1 a q
variable (V : (c : Dev nD) → (b : Ref sig .tc) → Buf (Elt Ideal) ((c : Thread nD τ).loc b))

/-- The two operand arrays as the region finds them. -/
abbrev xarr2 (c : Dev nD) : FVec Ideal S10000x220 .f32 := V c (Pipeline.arrRef spec2 0)
abbrev barr2 (c : Dev nD) : FVec Ideal S1x220 .f32 := V c (Pipeline.arrRef spec2 1)

/-! ## From blocks to the arrays -/

/-- The index maps, decided over the grid: the rows' block and the first result's block are the point's, nothing
    moves along the columns, and the bias row and the two one-row results never move. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0 :=
  (by decide +kernel : ∀ t : Fin grid2.N, _)

/-- Row `p` of point `t`'s block is row `t · 1000 + p` of the array. -/
def row2 (t : Fin cfg2.N) (p : Fin 1000) : Fin 10000 :=
  ⟨t.val * 1000 + p.val, by have h : t.val < 10 := lt_of_lt_of_eq t.isLt N_2; have := p.isLt; omega⟩

theorem blk2_0_emb (t : Fin cfg2.N) (p : Fin 1000) (q : Fin 220) :
    ((cfg2.win 0).blk t).view.emb (ix2 p q) = ix2 (row2 t p) q := by
  obtain ⟨e0, e1, -⟩ := idx_facts2 t
  funext a; apply Fin.ext
  match a with
  | ⟨0, _⟩ => show win2_0.index t (0 : Fin 2) * 1000 + 1 * p.val = t.val * 1000 + p.val; omega
  | ⟨1, _⟩ => show win2_0.index t (1 : Fin 2) * 220 + 1 * q.val = q.val; omega

theorem blk2_1_emb (t : Fin cfg2.N) (q : Fin 220) :
    ((cfg2.win 1).blk t).view.emb (ix2 (0 : Fin 1) q) = ix2 (0 : Fin 1) q := by
  obtain ⟨-, -, e2, e3, -⟩ := idx_facts2 t
  funext a; apply Fin.ext
  match a with
  | ⟨0, _⟩ => show win2_1.index t (0 : Fin 2) * 1 + 1 * 0 = 0; omega
  | ⟨1, _⟩ => show win2_1.index t (1 : Fin 2) * 220 + 1 * q.val = q.val; omega

/-- The body's first payload on point `t`'s blocks, at `(p, q)`: the whole-array function at row `t · 1000 + p`. -/
theorem block2_at (c : Dev nD) (t : Fin cfg2.N) (p : Fin 1000) (q : Fin 220) :
    k2_pay3 (F := Ideal) (iblk2 V c 0 t) (iblk2 V c 1 t) (ix2 p q) = relu2 (xarr2 V c) (barr2 V c) (ix2 (row2 t p) q) := by
  refine (pay2_3_at _ _ (ix2 p q)).trans ?_
  exact congrArg₂ (fun a b : EReal => max (a + b) (Ideal.ofBits .f32 0x00000000#32))
    (congrArg (xarr2 V c) (blk2_0_emb t p q)) (congrArg (barr2 V c) (blk2_1_emb t q))

/-! ### The first result: its row blocks tile it -/

/-- What point `t` writes back is block `t` of the clamped sum of the two arrays. -/
theorem flushed2_2_eq (c : Dev nD) (t : Fin cfg2.N) :
    (dat2 (F := Ideal) V c).flushed 2 t = ((cfg2.win 2).blk t).view.read (Elt Ideal) (relu2 (xarr2 V c) (barr2 V c)) := by
  show (cfg2.win 2).cut (grid2.coords t) ((dat2 (F := Ideal) V c).after 2 t) = _
  rw [after2_2]
  unfold out2_2
  rw [View.canon_unit_zero hz2]
  simp only [View.ld_unit_zero (S := S1000x220) hz2, View.ld_unit_zero (S := S1x220) hz2]
  obtain ⟨e0, e1, e2, e3, e4, e5, -⟩ := idx_facts2 t
  funext j
  show k2_pay3 (F := Ideal) (iblk2 V c 0 t) (iblk2 V c 1 t) j = relu2 (xarr2 V c) (barr2 V c) (((cfg2.win 2).blk t).view.emb j)
  refine (pay2_3_at _ _ j).trans ?_
  have h0 : ((cfg2.win 0).blk t).view.emb j = ((cfg2.win 2).blk t).view.emb j := by
    funext a; apply Fin.ext
    match a with
    | ⟨0, _⟩ => show win2_0.index t (0 : Fin 2) * 1000 + 1 * (j 0).val = win2_2.index t (0 : Fin 2) * 1000 + 1 * (j 0).val; omega
    | ⟨1, _⟩ => show win2_0.index t (1 : Fin 2) * 220 + 1 * (j 1).val = win2_2.index t (1 : Fin 2) * 220 + 1 * (j 1).val; omega
  have h1 : ((cfg2.win 1).blk t).view.emb (ix2 (0 : Fin 1) (j 1)) = ix2 (0 : Fin 1) ((((cfg2.win 2).blk t).view.emb j) 1) := by
    funext a; apply Fin.ext
    match a with
    | ⟨0, _⟩ => show win2_1.index t (0 : Fin 2) * 1 + 1 * 0 = 0; omega
    | ⟨1, _⟩ => show win2_1.index t (1 : Fin 2) * 220 + 1 * (j 1).val = win2_2.index t (1 : Fin 2) * 220 + 1 * (j 1).val; omega
  exact congrArg₂ (fun a b : EReal => max (a + b) (Ideal.ofBits .f32 0x00000000#32))
    (congrArg (xarr2 V c) h0) (congrArg (barr2 V c) h1)

/-- An index of the first result is in point `t`'s block iff each coordinate is in the block's range on its axis. -/
theorem mem_blk2_2 (t : Fin cfg2.N) (i : S10000x220.Idx) :
    i ∈ ((cfg2.win 2).blk t).view.set ↔ ∀ a : Fin 2, win2_2.index t a * S1000x220.size a ≤ (i a).val ∧ (i a).val < win2_2.index t a * S1000x220.size a + S1000x220.size a := by
  show i ∈ ((View.whole (Pipeline.arrRef spec2 2)).slice (win2_2.rect t)).set ↔ _
  rw [View.set_slice_whole, Rect.mem_set_unit]
  exact Iff.rfl

/-- Every row block of the first result is some point's. -/
theorem idx_onto2 : ∀ q0 : Fin 10, ∃ t : Fin cfg2.N, win2_2.index t = ![q0.val, 0] :=
  (by decide +kernel : ∀ q0 : Fin 10, ∃ t : Fin grid2.N, win2_2.index t = ![q0.val, 0])

/-- The row blocks tile the first result: row `r` lies in the block of point `r / 1000`. -/
theorem covered2_2 (i : S10000x220.Idx) :
    ∃ t : Fin cfg2.N, (cfg2.win 2).flush t = true ∧ i ∈ ((cfg2.win 2).blk t).view.set := by
  have hi0 : (i 0).val < 10000 := (i 0).isLt
  have hi1 : (i 1).val < 220 := (i 1).isLt
  obtain ⟨t, ht⟩ := idx_onto2 ⟨(i 0).val / 1000, by omega⟩
  have q0 : win2_2.index t (0 : Fin 2) = (i 0).val / 1000 := congrFun ht 0
  have q1 : win2_2.index t (1 : Fin 2) = 0 := congrFun ht 1
  refine ⟨t, flush2_2 t, ?_⟩
  rw [mem_blk2_2]
  intro a
  match a with
  | ⟨0, _⟩ => show win2_2.index t (0 : Fin 2) * 1000 ≤ (i 0).val ∧ (i 0).val < win2_2.index t (0 : Fin 2) * 1000 + 1000; omega
  | ⟨1, _⟩ => show win2_2.index t (1 : Fin 2) * 220 ≤ (i 1).val ∧ (i 1).val < win2_2.index t (1 : Fin 2) * 220 + 220; omega

/-- THE ARRAY the region leaves in its first result window. -/
theorem final2_2 (c : Dev nD) : (dat2 (F := Ideal) V c).arrAt 2 cfg2.N = relu2 (xarr2 V c) (barr2 V c) :=
  (dat2 (F := Ideal) V c).arrAt_eq_of_cover 2 (relu2 (xarr2 V c) (barr2 V c)) (fun t _ => flushed2_2_eq V c t) covered2_2

/-! ### The two running rows: a sum over the points -/

/-- Point `s`'s addend to the column sums at column `q`: its block's column sum (zero past the grid), -/
def add2_3 (a0 : FVec Ideal S10000x220 .f32) (a1 : FVec Ideal S1x220 .f32) (s : ℕ) (q : Fin 220) : EReal :=
  if h : s < 10 then ∑ p : Fin 1000, relu2 a0 a1 (ix2 (⟨s * 1000 + p.val, by have := p.isLt; omega⟩ : Fin 10000) q) else 0
/-- and to the column sums of squares. -/
def add2_4 (a0 : FVec Ideal S10000x220 .f32) (a1 : FVec Ideal S1x220 .f32) (s : ℕ) (q : Fin 220) : EReal :=
  if h : s < 10 then ∑ p : Fin 1000, relu2 a0 a1 (ix2 (⟨s * 1000 + p.val, by have := p.isLt; omega⟩ : Fin 10000) q)
      * relu2 a0 a1 (ix2 (⟨s * 1000 + p.val, by have := p.isLt; omega⟩ : Fin 10000) q) else 0

/-- The column sum of point `t`'s clamped block is its addend. -/
theorem point2_3 (c : Dev nD) (t : Fin cfg2.N) (q : Fin 220) :
    ∑ p : Fin 1000, k2_pay3 (F := Ideal) (iblk2 V c 0 t) (iblk2 V c 1 t) (ix2 p q) = add2_3 (xarr2 V c) (barr2 V c) t.val q := by
  unfold add2_3
  rw [dif_pos (lt_of_lt_of_eq t.isLt N_2)]
  exact Finset.sum_congr rfl fun p _ => block2_at V c t p q
theorem point2_4 (c : Dev nD) (t : Fin cfg2.N) (q : Fin 220) :
    ∑ p : Fin 1000, k2_pay3 (F := Ideal) (iblk2 V c 0 t) (iblk2 V c 1 t) (ix2 p q) * k2_pay3 (F := Ideal) (iblk2 V c 0 t) (iblk2 V c 1 t) (ix2 p q)
      = add2_4 (xarr2 V c) (barr2 V c) t.val q := by
  unfold add2_4
  rw [dif_pos (lt_of_lt_of_eq t.isLt N_2)]
  exact Finset.sum_congr rfl fun p _ => congrArg₂ (fun a b : EReal => a * b) (block2_at V c t p q) (block2_at V c t p q)

/-- After the body at position `n` each running row holds the sum of the addends of points `0 … n`. -/
theorem acc2_3_eq (c : Dev nD) : ∀ (n : ℕ) (hn : n < cfg2.N) (q : Fin 220),
    acc2_3 (F := Ideal) V c n hn (ix2 (0 : Fin 1) q) = ∑ s ∈ Finset.range (n + 1), add2_3 (xarr2 V c) (barr2 V c) s q
  | 0, hn, q => by
    refine (step2_3_at _ _ _ q).trans ?_
    rw [zero2_3_at, zero_add, Finset.sum_range_one]
    exact point2_3 V c ⟨0, hn⟩ q
  | n + 1, hn, q => by
    refine (step2_3_at _ _ _ q).trans ?_
    rw [Finset.sum_range_succ]
    exact congrArg₂ (fun a b : EReal => a + b) (acc2_3_eq c n (Nat.lt_of_succ_lt hn) q) (point2_3 V c ⟨n + 1, hn⟩ q)
theorem acc2_4_eq (c : Dev nD) : ∀ (n : ℕ) (hn : n < cfg2.N) (q : Fin 220),
    acc2_4 (F := Ideal) V c n hn (ix2 (0 : Fin 1) q) = ∑ s ∈ Finset.range (n + 1), add2_4 (xarr2 V c) (barr2 V c) s q
  | 0, hn, q => by
    refine (step2_4_at _ _ _ q).trans ?_
    rw [zero2_4_at, zero_add, Finset.sum_range_one]
    exact point2_4 V c ⟨0, hn⟩ q
  | n + 1, hn, q => by
    refine (step2_4_at _ _ _ q).trans ?_
    rw [Finset.sum_range_succ]
    exact congrArg₂ (fun a b : EReal => a + b) (acc2_4_eq c n (Nat.lt_of_succ_lt hn) q) (point2_4 V c ⟨n + 1, hn⟩ q)

/-- The addends of all the points make the sum over all the rows: the blocks partition the rows. -/
theorem sum_add2_3 (a0 : FVec Ideal S10000x220 .f32) (a1 : FVec Ideal S1x220 .f32) (q : Fin 220) :
    ∑ s ∈ Finset.range 10, add2_3 a0 a1 s q = ∑ i : Fin 10000, relu2 a0 a1 (ix2 i q) := by
  rw [Finset.sum_range, Cert.Spec.sum_blocks_10000 (fun i => relu2 a0 a1 (ix2 i q))]
  refine Finset.sum_congr rfl fun u _ => ?_
  unfold add2_3
  rw [dif_pos u.isLt]
theorem sum_add2_4 (a0 : FVec Ideal S10000x220 .f32) (a1 : FVec Ideal S1x220 .f32) (q : Fin 220) :
    ∑ s ∈ Finset.range 10, add2_4 a0 a1 s q = ∑ i : Fin 10000, relu2 a0 a1 (ix2 i q) * relu2 a0 a1 (ix2 i q) := by
  rw [Finset.sum_range, Cert.Spec.sum_blocks_10000 (fun i => relu2 a0 a1 (ix2 i q) * relu2 a0 a1 (ix2 i q))]
  refine Finset.sum_congr rfl fun u _ => ?_
  unfold add2_4
  rw [dif_pos u.isLt]

/-- What the last point writes back of the column-sum row is the column sums of the clamped sum of the two arrays. -/
theorem flushed2_3_eq (c : Dev nD) (t : Fin cfg2.N) (hf : (cfg2.win 3).flush t = true) :
    (dat2 (F := Ideal) V c).flushed 3 t = ((cfg2.win 3).blk t).view.read (Elt Ideal) (colsum2 (xarr2 V c) (barr2 V c)) := by
  have h9 : t.val % 10 = 9 := (flush2_3 t).mp hf
  have hN : t.val < 10 := lt_of_lt_of_eq t.isLt N_2
  obtain ⟨-, -, -, -, -, -, e6, e7, -⟩ := idx_facts2 t
  show (cfg2.win 3).cut (grid2.coords t) ((dat2 (F := Ideal) V c).after 3 t) = _
  rw [after2_3]
  funext j
  show acc2_3 (F := Ideal) V c t.val t.isLt j = colsum2 (xarr2 V c) (barr2 V c) (((cfg2.win 3).blk t).view.emb j)
  have e1 : ((((cfg2.win 3).blk t).view.emb j) 1 : Fin 220) = j 1 :=
    Fin.ext (by show win2_3.index t (1 : Fin 2) * 220 + 1 * (j 1).val = (j 1).val; omega)
  calc acc2_3 (F := Ideal) V c t.val t.isLt j
      = acc2_3 (F := Ideal) V c t.val t.isLt (ix2 (0 : Fin 1) (j 1)) := congrArg _ (row_idx2 j)
    _ = ∑ s ∈ Finset.range (t.val + 1), add2_3 (xarr2 V c) (barr2 V c) s (j 1) := acc2_3_eq V c t.val t.isLt (j 1)
    _ = ∑ s ∈ Finset.range 10, add2_3 (xarr2 V c) (barr2 V c) s (j 1) := by rw [show t.val + 1 = 10 by omega]
    _ = ∑ i : Fin 10000, relu2 (xarr2 V c) (barr2 V c) (ix2 i (j 1)) := sum_add2_3 _ _ _
    _ = colsum2 (xarr2 V c) (barr2 V c) (((cfg2.win 3).blk t).view.emb j) := by unfold colsum2; rw [e1]
theorem flushed2_4_eq (c : Dev nD) (t : Fin cfg2.N) (hf : (cfg2.win 4).flush t = true) :
    (dat2 (F := Ideal) V c).flushed 4 t = ((cfg2.win 4).blk t).view.read (Elt Ideal) (colsumsq2 (xarr2 V c) (barr2 V c)) := by
  have h9 : t.val % 10 = 9 := (flush2_4 t).mp hf
  have hN : t.val < 10 := lt_of_lt_of_eq t.isLt N_2
  obtain ⟨-, -, -, -, -, -, -, -, e8, e9⟩ := idx_facts2 t
  show (cfg2.win 4).cut (grid2.coords t) ((dat2 (F := Ideal) V c).after 4 t) = _
  rw [after2_4]
  funext j
  show acc2_4 (F := Ideal) V c t.val t.isLt j = colsumsq2 (xarr2 V c) (barr2 V c) (((cfg2.win 4).blk t).view.emb j)
  have e1 : ((((cfg2.win 4).blk t).view.emb j) 1 : Fin 220) = j 1 :=
    Fin.ext (by show win2_4.index t (1 : Fin 2) * 220 + 1 * (j 1).val = (j 1).val; omega)
  calc acc2_4 (F := Ideal) V c t.val t.isLt j
      = acc2_4 (F := Ideal) V c t.val t.isLt (ix2 (0 : Fin 1) (j 1)) := congrArg _ (row_idx2 j)
    _ = ∑ s ∈ Finset.range (t.val + 1), add2_4 (xarr2 V c) (barr2 V c) s (j 1) := acc2_4_eq V c t.val t.isLt (j 1)
    _ = ∑ s ∈ Finset.range 10, add2_4 (xarr2 V c) (barr2 V c) s (j 1) := by rw [show t.val + 1 = 10 by omega]
    _ = ∑ i : Fin 10000, relu2 (xarr2 V c) (barr2 V c) (ix2 i (j 1)) * relu2 (xarr2 V c) (barr2 V c) (ix2 i (j 1)) := sum_add2_4 _ _ _
    _ = colsumsq2 (xarr2 V c) (barr2 V c) (((cfg2.win 4).blk t).view.emb j) := by unfold colsumsq2; rw [e1]

/-- An index of a one-row result is in a point's block iff each coordinate is in the block's range on its axis. -/
theorem mem_blk2_3 (t : Fin cfg2.N) (i : S1x220.Idx) :
    i ∈ ((cfg2.win 3).blk t).view.set ↔ ∀ a : Fin 2, win2_3.index t a * S1x220.size a ≤ (i a).val ∧ (i a).val < win2_3.index t a * S1x220.size a + S1x220.size a := by
  show i ∈ ((View.whole (Pipeline.arrRef spec2 3)).slice (win2_3.rect t)).set ↔ _
  rw [View.set_slice_whole, Rect.mem_set_unit]
  exact Iff.rfl
theorem mem_blk2_4 (t : Fin cfg2.N) (i : S1x220.Idx) :
    i ∈ ((cfg2.win 4).blk t).view.set ↔ ∀ a : Fin 2, win2_4.index t a * S1x220.size a ≤ (i a).val ∧ (i a).val < win2_4.index t a * S1x220.size a + S1x220.size a := by
  show i ∈ ((View.whole (Pipeline.arrRef spec2 4)).slice (win2_4.rect t)).set ↔ _
  rw [View.set_slice_whole, Rect.mem_set_unit]
  exact Iff.rfl

/-- The last point's block is the whole row, and it is written back. -/
theorem covered2_3 (i : S1x220.Idx) :
    ∃ t : Fin cfg2.N, (cfg2.win 3).flush t = true ∧ i ∈ ((cfg2.win 3).blk t).view.set := by
  have hi0 : (i 0).val < 1 := (i 0).isLt
  have hi1 : (i 1).val < 220 := (i 1).isLt
  obtain ⟨-, -, -, -, -, -, e6, e7, -⟩ := idx_facts2 t2_9
  refine ⟨t2_9, (flush2_3 t2_9).mpr rfl, ?_⟩
  rw [mem_blk2_3]
  intro a
  match a with
  | ⟨0, _⟩ => show win2_3.index t2_9 (0 : Fin 2) * 1 ≤ (i 0).val ∧ (i 0).val < win2_3.index t2_9 (0 : Fin 2) * 1 + 1; omega
  | ⟨1, _⟩ => show win2_3.index t2_9 (1 : Fin 2) * 220 ≤ (i 1).val ∧ (i 1).val < win2_3.index t2_9 (1 : Fin 2) * 220 + 220; omega
theorem covered2_4 (i : S1x220.Idx) :
    ∃ t : Fin cfg2.N, (cfg2.win 4).flush t = true ∧ i ∈ ((cfg2.win 4).blk t).view.set := by
  have hi0 : (i 0).val < 1 := (i 0).isLt
  have hi1 : (i 1).val < 220 := (i 1).isLt
  obtain ⟨-, -, -, -, -, -, -, -, e8, e9⟩ := idx_facts2 t2_9
  refine ⟨t2_9, (flush2_4 t2_9).mpr rfl, ?_⟩
  rw [mem_blk2_4]
  intro a
  match a with
  | ⟨0, _⟩ => show win2_4.index t2_9 (0 : Fin 2) * 1 ≤ (i 0).val ∧ (i 0).val < win2_4.index t2_9 (0 : Fin 2) * 1 + 1; omega
  | ⟨1, _⟩ => show win2_4.index t2_9 (1 : Fin 2) * 220 ≤ (i 1).val ∧ (i 1).val < win2_4.index t2_9 (1 : Fin 2) * 220 + 220; omega

/-- THE ROW the region leaves in its second result window: the column sums. -/
theorem final2_3 (c : Dev nD) : (dat2 (F := Ideal) V c).arrAt 3 cfg2.N = colsum2 (xarr2 V c) (barr2 V c) :=
  (dat2 (F := Ideal) V c).arrAt_eq_of_cover 3 (colsum2 (xarr2 V c) (barr2 V c)) (fun t hf => flushed2_3_eq V c t hf) covered2_3

/-- THE ROW it leaves in its third result window: the column sums of squares. -/
theorem final2_4 (c : Dev nD) : (dat2 (F := Ideal) V c).arrAt 4 cfg2.N = colsumsq2 (xarr2 V c) (barr2 V c) :=
  (dat2 (F := Ideal) V c).arrAt_eq_of_cover 4 (colsumsq2 (xarr2 V c) (barr2 V c)) (fun t hf => flushed2_4_eq V c t hf) covered2_4

/-! ## Over the reals -/

/-- Where the two arrays hold real numbers, the clamped sum is the real one at every entry. -/
theorem relu2_real (c : Dev nD) (ar : Fin 10000 → Fin 220 → ℝ) (br : Fin 220 → ℝ)
    (hx : ∀ i k, (V c (Pipeline.arrRef spec2 0) : S10000x220.Idx → EReal) (ix2 i k) = ((ar i k : ℝ) : EReal))
    (hb : ∀ k, (V c (Pipeline.arrRef spec2 1) : S1x220.Idx → EReal) (ix2 (0 : Fin 1) k) = ((br k : ℝ) : EReal))
    (i : Fin 10000) (f : Fin 220) :
    relu2 (xarr2 V c) (barr2 V c) (ix2 i f) = ((Cert.Spec.relu (Cert.Spec.addBias ar br) i f : ℝ) : EReal) := by
  show max (xarr2 V c (ix2 i f) + barr2 V c (ix2 (0 : Fin 1) f)) (Ideal.ofBits .f32 0x00000000#32) = ((max (ar i f + br f) 0 : ℝ) : EReal)
  rw [← Cert.LibCoe.max_coe, ← Cert.LibCoe.add_coe, Cert.LibCoe.ofBits_zero]
  exact congrArg₂ (fun a b : EReal => max (a + b) ((0 : ℝ) : EReal)) (hx i f) (hb f)

/-- Where the two arrays hold real numbers, the first result holds the real clamped sum, -/
theorem final2_real_2 (c : Dev nD) (ar : Fin 10000 → Fin 220 → ℝ) (br : Fin 220 → ℝ)
    (hx : ∀ i k, (V c (Pipeline.arrRef spec2 0) : S10000x220.Idx → EReal) (ix2 i k) = ((ar i k : ℝ) : EReal))
    (hb : ∀ k, (V c (Pipeline.arrRef spec2 1) : S1x220.Idx → EReal) (ix2 (0 : Fin 1) k) = ((br k : ℝ) : EReal)) :
    ∀ i f, ((dat2 (F := Ideal) V c).arrAt 2 cfg2.N : S10000x220.Idx → EReal) (ix2 i f)
      = ((Cert.Spec.relu (Cert.Spec.addBias ar br) i f : ℝ) : EReal) := by
  intro i f
  exact (congrFun (final2_2 V c) (ix2 i f)).trans (relu2_real V c ar br hx hb i f)

/-- the second its column sums, -/
theorem final2_real_3 (c : Dev nD) (ar : Fin 10000 → Fin 220 → ℝ) (br : Fin 220 → ℝ)
    (hx : ∀ i k, (V c (Pipeline.arrRef spec2 0) : S10000x220.Idx → EReal) (ix2 i k) = ((ar i k : ℝ) : EReal))
    (hb : ∀ k, (V c (Pipeline.arrRef spec2 1) : S1x220.Idx → EReal) (ix2 (0 : Fin 1) k) = ((br k : ℝ) : EReal)) :
    ∀ f, ((dat2 (F := Ideal) V c).arrAt 3 cfg2.N : S1x220.Idx → EReal) (ix2 (0 : Fin 1) f)
      = ((Cert.Spec.colSum (Cert.Spec.relu (Cert.Spec.addBias ar br)) f : ℝ) : EReal) := by
  intro f
  refine (congrFun (final2_3 V c) (ix2 (0 : Fin 1) f)).trans ?_
  show (∑ i : Fin 10000, relu2 (xarr2 V c) (barr2 V c) (ix2 i f) : EReal)
    = ((∑ i : Fin 10000, Cert.Spec.relu (Cert.Spec.addBias ar br) i f : ℝ) : EReal)
  rw [← Cert.LibCoe.sum_coe]
  exact Finset.sum_congr rfl fun i _ => relu2_real V c ar br hx hb i f

/-- the third its column sums of squares. -/
theorem final2_real_4 (c : Dev nD) (ar : Fin 10000 → Fin 220 → ℝ) (br : Fin 220 → ℝ)
    (hx : ∀ i k, (V c (Pipeline.arrRef spec2 0) : S10000x220.Idx → EReal) (ix2 i k) = ((ar i k : ℝ) : EReal))
    (hb : ∀ k, (V c (Pipeline.arrRef spec2 1) : S1x220.Idx → EReal) (ix2 (0 : Fin 1) k) = ((br k : ℝ) : EReal)) :
    ∀ f, ((dat2 (F := Ideal) V c).arrAt 4 cfg2.N : S1x220.Idx → EReal) (ix2 (0 : Fin 1) f)
      = ((Cert.Spec.colSumSq (Cert.Spec.relu (Cert.Spec.addBias ar br)) f : ℝ) : EReal) := by
  intro f
  refine (congrFun (final2_4 V c) (ix2 (0 : Fin 1) f)).trans ?_
  show (∑ i : Fin 10000, relu2 (xarr2 V c) (barr2 V c) (ix2 i f) * relu2 (xarr2 V c) (barr2 V c) (ix2 i f) : EReal)
    = ((∑ i : Fin 10000, Cert.Spec.relu (Cert.Spec.addBias ar br) i f * Cert.Spec.relu (Cert.Spec.addBias ar br) i f : ℝ) : EReal)
  rw [← Cert.LibCoe.sum_coe]
  refine Finset.sum_congr rfl fun i _ => ?_
  rw [← Cert.LibCoe.mul_coe]
  exact congrArg₂ (fun a b : EReal => a * b) (relu2_real V c ar br hx hb i f) (relu2_real V c ar br hx hb i f)

/-- The three together. -/
theorem final2_real (c : Dev nD) (ar : Fin 10000 → Fin 220 → ℝ) (br : Fin 220 → ℝ)
    (hx : ∀ i k, (V c (Pipeline.arrRef spec2 0) : S10000x220.Idx → EReal) (ix2 i k) = ((ar i k : ℝ) : EReal))
    (hb : ∀ k, (V c (Pipeline.arrRef spec2 1) : S1x220.Idx → EReal) (ix2 (0 : Fin 1) k) = ((br k : ℝ) : EReal)) :
    (∀ i f, ((dat2 (F := Ideal) V c).arrAt 2 cfg2.N : S10000x220.Idx → EReal) (ix2 i f)
        = ((Cert.Spec.relu (Cert.Spec.addBias ar br) i f : ℝ) : EReal))
    ∧ (∀ f, ((dat2 (F := Ideal) V c).arrAt 3 cfg2.N : S1x220.Idx → EReal) (ix2 (0 : Fin 1) f)
        = ((Cert.Spec.colSum (Cert.Spec.relu (Cert.Spec.addBias ar br)) f : ℝ) : EReal))
    ∧ (∀ f, ((dat2 (F := Ideal) V c).arrAt 4 cfg2.N : S1x220.Idx → EReal) (ix2 (0 : Fin 1) f)
        = ((Cert.Spec.colSumSq (Cert.Spec.relu (Cert.Spec.addBias ar br)) f : ℝ) : EReal)) :=
  ⟨final2_real_2 V c ar br hx hb, final2_real_3 V c ar br hx hb, final2_real_4 V c ar br hx hb⟩

end Cert.KernelIdeal.HandV

end
-- ==== Proof.Val3.lean ====
import proofs.«408066_j62380105008311_2_alg».proof.Proof.Reg3
import proofs.«408066_j62380105008311_2_alg».proof.Proof.Spec
import proofs.«408066_j62380105008311_2_alg».proof.Proof.LibCoe
import Idealize.ShloMosaic.Lib.Pipeline.Value
import Idealize.ShloMosaic.Lib.ValueIdx
import Idealize.ShloMosaic.Lib.ValueLayout
import Idealize.ShloMosaic.PureOps.Ideal.Laws

/-! # Region 3 at the ideal instance: what the region leaves in its output array

Each grid point writes back one block of rows: rows of the normalised activations — (x − mean) · rsqrt(variance + ε)
· scale + shift, the four feature rows broadcast along the rows — times the whole weight matrix. Row `i` of the
output therefore depends on row `i` of the activations alone, the blocks are the restrictions of ONE whole-array
function, and they tile the array. Over real entry arrays with every variance + ε positive, that function is the
real dense product of the normalised activations with the weights. -/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-- The sizes: rows of the whole arrays, rows of a block, the input and the output feature widths. -/
abbrev nRows3 : ℕ := 10000
abbrev bRows3 : ℕ := 1000
abbrev wIn3 : ℕ := 220
abbrev wOut3 : ℕ := 150

/-! ## The block product at an index -/

/-- The matrix product's operand indices, axis by axis: the left operand is read at the output's row and the
    contraction position, the right operand at the contraction position and the output's column. -/
theorem lhs3_0 (j : S1000x150.Idx) (k : dot_S1000x220_S220x150_S1000x150_1_0_0_1_n_n.contr.Idx) :
    (dot_S1000x220_S220x150_S1000x150_1_0_0_1_n_n.lhsIdx j k 0).val = (j 0).val := by
  unfold DotDims.lhsIdx
  rw [dif_neg (show ¬(0 : Fin S1000x220.rank) ∈ dot_S1000x220_S220x150_S1000x150_1_0_0_1_n_n.lhsBatch by decide),
    dif_pos (show (0 : Fin S1000x220.rank) ∈ dot_S1000x220_S220x150_S1000x150_1_0_0_1_n_n.lhsNonContracting by decide)]
  rfl

theorem lhs3_1 (j : S1000x150.Idx) (k : dot_S1000x220_S220x150_S1000x150_1_0_0_1_n_n.contr.Idx) :
    (dot_S1000x220_S220x150_S1000x150_1_0_0_1_n_n.lhsIdx j k 1).val = (k ⟨0, by decide⟩).val :=
  dot_S1000x220_S220x150_S1000x150_1_0_0_1_n_n.lhsIdx_val_of_single rfl j k

theorem rhs3_0 (j : S1000x150.Idx) (k : dot_S1000x220_S220x150_S1000x150_1_0_0_1_n_n.contr.Idx) :
    (dot_S1000x220_S220x150_S1000x150_1_0_0_1_n_n.rhsIdx j k 0).val = (k ⟨0, by decide⟩).val :=
  dot_S1000x220_S220x150_S1000x150_1_0_0_1_n_n.rhsIdx_val_of_single rfl j k

theorem rhs3_1 (j : S1000x150.Idx) (k : dot_S1000x220_S220x150_S1000x150_1_0_0_1_n_n.contr.Idx) :
    (dot_S1000x220_S220x150_S1000x150_1_0_0_1_n_n.rhsIdx j k 1).val = (j 1).val := by
  unfold DotDims.rhsIdx
  rw [dif_neg (show ¬(1 : Fin S220x150.rank) ∈ dot_S1000x220_S220x150_S1000x150_1_0_0_1_n_n.rhsBatch by decide),
    dif_pos (show (1 : Fin S220x150.rank) ∈ dot_S1000x220_S220x150_S1000x150_1_0_0_1_n_n.rhsNonContracting by decide)]
  rfl

/-- One entry of the normalised activations: (x − mean) · rsqrt(variance + ε) · scale + shift. -/
def nrm3 (x mu v g be : EReal) : EReal := (x - mu) * Ideal.rsqrt (v + Ideal.ofBits .f32 0x3727C5AC#32) * g + be

theorem bcast3 (r : S1x220.Idx → EReal) (p : Fin bRows3) (k : Fin wIn3) :
    broadcastTo S1000x220 r broadcasts_S1x220_S1000x220 (ix2 p k) = r (ix2 0 k) :=
  broadcastTo_apply r _ (ix2 p k) (ix2 0 k) (fun a => by match a with | ⟨0, _⟩ => rfl | ⟨1, _⟩ => rfl)

theorem pay3_apply (x0 : Vec Ideal S1000x220 .f32) (x1 x2 x3 x4 : Vec Ideal S1x220 .f32) (x5 : Vec Ideal S220x150 .f32)
    (p : Fin bRows3) (q : Fin wOut3) :
    k3_pay1 x0 x2 x1 x3 x4 x5 (ix2 p q)
      = ∑ k : Fin wIn3, nrm3 (x0 (ix2 p k)) (x1 (ix2 0 k)) (x2 (ix2 0 k)) (x3 (ix2 0 k)) (x4 (ix2 0 k)) * x5 (ix2 k q) := by
  unfold k3_pay1
  simp only [matmul]
  refine (Ideal.matmul_constant_zero_apply dot_S1000x220_S220x150_S1000x150_1_0_0_1_n_n none _ _ (ix2 p q)).trans ?_
  rw [← Equiv.sum_comp (contrEquiv1 dot_S1000x220_S220x150_S1000x150_1_0_0_1_n_n wIn3 rfl rfl).symm]
  refine Finset.sum_congr rfl fun k _ => ?_
  have hl : dot_S1000x220_S220x150_S1000x150_1_0_0_1_n_n.lhsIdx (ix2 p q)
      ((contrEquiv1 dot_S1000x220_S220x150_S1000x150_1_0_0_1_n_n wIn3 rfl rfl).symm k) = ix2 p k := by
    funext a; apply Fin.ext
    match a with
    | ⟨0, _⟩ => exact lhs3_0 _ _
    | ⟨1, _⟩ => exact (lhs3_1 _ _).trans (contrEquiv1_symm_val dot_S1000x220_S220x150_S1000x150_1_0_0_1_n_n wIn3 rfl rfl k)
  have hr : dot_S1000x220_S220x150_S1000x150_1_0_0_1_n_n.rhsIdx (ix2 p q)
      ((contrEquiv1 dot_S1000x220_S220x150_S1000x150_1_0_0_1_n_n wIn3 rfl rfl).symm k) = ix2 k q := by
    funext a; apply Fin.ext
    match a with
    | ⟨0, _⟩ => exact (rhs3_0 _ _).trans (contrEquiv1_symm_val dot_S1000x220_S220x150_S1000x150_1_0_0_1_n_n wIn3 rfl rfl k)
    | ⟨1, _⟩ => exact rhs3_1 _ _
  rw [hl, hr]
  simp only [shapeCast_self]
  show ((x0 (ix2 p k) - broadcastTo S1000x220 x1 broadcasts_S1x220_S1000x220 (ix2 p k))
        * broadcastTo S1000x220 (rsqrt (F := Ideal) (addf (F := Ideal) x2 (broadcast S1x220 (FloatOps.ofBits (F := Ideal) FTy.f32 0x3727C5AC#32)))) broadcasts_S1x220_S1000x220 (ix2 p k)
        * broadcastTo S1000x220 x3 broadcasts_S1x220_S1000x220 (ix2 p k)
        + broadcastTo S1000x220 x4 broadcasts_S1x220_S1000x220 (ix2 p k)) * x5 (ix2 k q) = _
  rw [bcast3, bcast3, bcast3, bcast3]
  rfl

/-! ## The whole-array function -/

/-- The output array as one function of the entry arrays (activations, mean, variance, scale, shift, weights): entry
    `(i, j)` is row `i` of the normalised activations against column `j` of the weights. -/
def G3 (a0 : S10000x220.Idx → EReal) (a1 a2 a3 a4 : S1x220.Idx → EReal) (a5 : S220x150.Idx → EReal) : S10000x150.Idx → EReal :=
  fun i => ∑ k : Fin wIn3, nrm3 (a0 (ix2 (n0 := nRows3) (i 0) k)) (a1 (ix2 0 k)) (a2 (ix2 0 k)) (a3 (ix2 0 k)) (a4 (ix2 0 k))
    * a5 (ix2 (n1 := wOut3) k (i 1))

variable (V : (c : Dev nD) → (b : Ref sig .tc) → Buf (Elt Ideal) ((c : Thread nD τ).loc b))

theorem hz3 : (![0, 0] : Fin 2 → Nat) = fun _ => 0 := funext fun a => by match a with | ⟨0, _⟩ => rfl | ⟨1, _⟩ => rfl

/-- The index maps, decided over the grid: the activations' and the output's row blocks move together with the point,
    and every other block index is zero (the feature rows and the weights are whole arrays). -/
theorem idx_facts3 : ∀ t : Fin cfg3.N,
    win3_0.index t (0 : Fin 2) = win3_6.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The activations' block at point `t`, read at row `p` of the block: the array at the row the output's block has
    there. -/
theorem blk3_0 (c : Dev nD) (t : Fin cfg3.N) (p : Fin bRows3) (q : Fin wOut3) (k : Fin wIn3) :
    iblk3 V c 0 t (ix2 p k)
      = (V c (Pipeline.arrRef spec3 0) : S10000x220.Idx → EReal) (ix2 (n0 := nRows3) ((((cfg3.win 6).blk t).view.emb (ix2 p q)) 0) k) := by
  obtain ⟨e0, e1, -⟩ := idx_facts3 t
  show (V c (Pipeline.arrRef spec3 0) : S10000x220.Idx → EReal) (((cfg3.win 0).blk t).view.emb (ix2 p k)) = _
  refine congrArg _ (funext fun a => Fin.ext ?_)
  match a with
  | ⟨0, _⟩ =>
    show win3_0.index t (0 : Fin 2) * S1000x220.size 0 + 1 * p.val = win3_6.index t (0 : Fin 2) * S1000x150.size 0 + 1 * p.val
    rw [e0]; rfl
  | ⟨1, _⟩ =>
    show win3_0.index t (1 : Fin 2) * S1000x220.size 1 + 1 * k.val = k.val
    rw [e1, Nat.zero_mul, Nat.zero_add, Nat.one_mul]

/-- A feature row's block is the whole row: read at feature `k` it is the array there. The mean row, -/
theorem blk3_1 (c : Dev nD) (t : Fin cfg3.N) (k : Fin wIn3) :
    iblk3 V c 1 t (ix2 0 k) = (V c (Pipeline.arrRef spec3 1) : S1x220.Idx → EReal) (ix2 0 k) := by
  obtain ⟨-, -, e0, e1, -⟩ := idx_facts3 t
  show (V c (Pipeline.arrRef spec3 1) : S1x220.Idx → EReal) (((cfg3.win 1).blk t).view.emb (ix2 0 k)) = _
  refine congrArg _ (funext fun a => Fin.ext ?_)
  match a with
  | ⟨0, _⟩ =>
    show win3_1.index t (0 : Fin 2) * S1x220.size 0 + 1 * 0 = 0
    rw [e0, Nat.zero_mul, Nat.zero_add, Nat.mul_zero]
  | ⟨1, _⟩ =>
    show win3_1.index t (1 : Fin 2) * S1x220.size 1 + 1 * k.val = k.val
    rw [e1, Nat.zero_mul, Nat.zero_add, Nat.one_mul]

/-- the variance row, -/
theorem blk3_2 (c : Dev nD) (t : Fin cfg3.N) (k : Fin wIn3) :
    iblk3 V c 2 t (ix2 0 k) = (V c (Pipeline.arrRef spec3 2) : S1x220.Idx → EReal) (ix2 0 k) := by
  obtain ⟨-, -, -, -, e0, e1, -⟩ := idx_facts3 t
  show (V c (Pipeline.arrRef spec3 2) : S1x220.Idx → EReal) (((cfg3.win 2).blk t).view.emb (ix2 0 k)) = _
  refine congrArg _ (funext fun a => Fin.ext ?_)
  match a with
  | ⟨0, _⟩ =>
    show win3_2.index t (0 : Fin 2) * S1x220.size 0 + 1 * 0 = 0
    rw [e0, Nat.zero_mul, Nat.zero_add, Nat.mul_zero]
  | ⟨1, _⟩ =>
    show win3_2.index t (1 : Fin 2) * S1x220.size 1 + 1 * k.val = k.val
    rw [e1, Nat.zero_mul, Nat.zero_add, Nat.one_mul]

/-- the scale row, -/
theorem blk3_3 (c : Dev nD) (t : Fin cfg3.N) (k : Fin wIn3) :
    iblk3 V c 3 t (ix2 0 k) = (V c (Pipeline.arrRef spec3 3) : S1x220.Idx → EReal) (ix2 0 k) := by
  obtain ⟨-, -, -, -, -, -, e0, e1, -⟩ := idx_facts3 t
  show (V c (Pipeline.arrRef spec3 3) : S1x220.Idx → EReal) (((cfg3.win 3).blk t).view.emb (ix2 0 k)) = _
  refine congrArg _ (funext fun a => Fin.ext ?_)
  match a with
  | ⟨0, _⟩ =>
    show win3_3.index t (0 : Fin 2) * S1x220.size 0 + 1 * 0 = 0
    rw [e0, Nat.zero_mul, Nat.zero_add, Nat.mul_zero]
  | ⟨1, _⟩ =>
    show win3_3.index t (1 : Fin 2) * S1x220.size 1 + 1 * k.val = k.val
    rw [e1, Nat.zero_mul, Nat.zero_add, Nat.one_mul]

/-- the shift row. -/
theorem blk3_4 (c : Dev nD) (t : Fin cfg3.N) (k : Fin wIn3) :
    iblk3 V c 4 t (ix2 0 k) = (V c (Pipeline.arrRef spec3 4) : S1x220.Idx → EReal) (ix2 0 k) := by
  obtain ⟨-, -, -, -, -, -, -, -, e0, e1, -⟩ := idx_facts3 t
  show (V c (Pipeline.arrRef spec3 4) : S1x220.Idx → EReal) (((cfg3.win 4).blk t).view.emb (ix2 0 k)) = _
  refine congrArg _ (funext fun a => Fin.ext ?_)
  match a with
  | ⟨0, _⟩ =>
    show win3_4.index t (0 : Fin 2) * S1x220.size 0 + 1 * 0 = 0
    rw [e0, Nat.zero_mul, Nat.zero_add, Nat.mul_zero]
  | ⟨1, _⟩ =>
    show win3_4.index t (1 : Fin 2) * S1x220.size 1 + 1 * k.val = k.val
    rw [e1, Nat.zero_mul, Nat.zero_add, Nat.one_mul]

/-- The weights' block is the whole matrix: read at `(k, q)` it is the array at row `k` and the column the output's
    block has there. -/
theorem blk3_5 (c : Dev nD) (t : Fin cfg3.N) (p : Fin bRows3) (q : Fin wOut3) (k : Fin wIn3) :
    iblk3 V c 5 t (ix2 k q)
      = (V c (Pipeline.arrRef spec3 5) : S220x150.Idx → EReal) (ix2 (n1 := wOut3) k ((((cfg3.win 6).blk t).view.emb (ix2 p q)) 1)) := by
  obtain ⟨-, -, -, -, -, -, -, -, -, -, e0, e1, -, e3⟩ := idx_facts3 t
  show (V c (Pipeline.arrRef spec3 5) : S220x150.Idx → EReal) (((cfg3.win 5).blk t).view.emb (ix2 k q)) = _
  refine congrArg _ (funext fun a => Fin.ext ?_)
  match a with
  | ⟨0, _⟩ =>
    show win3_5.index t (0 : Fin 2) * S220x150.size 0 + 1 * k.val = k.val
    rw [e0, Nat.zero_mul, Nat.zero_add, Nat.one_mul]
  | ⟨1, _⟩ =>
    show win3_5.index t (1 : Fin 2) * S220x150.size 1 + 1 * q.val = win3_6.index t (1 : Fin 2) * S1000x150.size 1 + 1 * q.val
    rw [e1, e3]; rfl

/-! ## From blocks to the array -/

/-- The output's blocks are never cut at the array's end: the part of a staging buffer a write-back moves is all of it. -/
theorem cut3_6 (t : Fin cfg3.N) (X : Vec Ideal S1000x150 .f32) : (cfg3.win 6).cut (grid3.coords t) X = X := rfl

/-- The block product of blocks that are restrictions of the arrays — the activations' block the rows of `a0` from
    row `i 0` on, the feature rows and the weights whole — is `G3` of the arrays at `i`, for any index `i` whose row
    is row `p` of that block and whose column is `q`. -/
theorem G3_of_blocks (x0 : Vec Ideal S1000x220 .f32) (x1 x2 x3 x4 : Vec Ideal S1x220 .f32) (x5 : Vec Ideal S220x150 .f32)
    (a0 : S10000x220.Idx → EReal) (a1 a2 a3 a4 : S1x220.Idx → EReal) (a5 : S220x150.Idx → EReal)
    (p : Fin bRows3) (q : Fin wOut3) (i : S10000x150.Idx)
    (h0 : ∀ k : Fin wIn3, x0 (ix2 p k) = a0 (ix2 (n0 := nRows3) (i 0) k))
    (h1 : ∀ k : Fin wIn3, x1 (ix2 0 k) = a1 (ix2 0 k)) (h2 : ∀ k : Fin wIn3, x2 (ix2 0 k) = a2 (ix2 0 k))
    (h3 : ∀ k : Fin wIn3, x3 (ix2 0 k) = a3 (ix2 0 k)) (h4 : ∀ k : Fin wIn3, x4 (ix2 0 k) = a4 (ix2 0 k))
    (h5 : ∀ k : Fin wIn3, x5 (ix2 k q) = a5 (ix2 (n1 := wOut3) k (i 1))) :
    k3_pay1 x0 x2 x1 x3 x4 x5 (ix2 p q) = G3 a0 a1 a2 a3 a4 a5 i := by
  rw [pay3_apply]
  unfold G3
  exact Finset.sum_congr rfl fun k _ => by rw [h0 k, h1 k, h2 k, h3 k, h4 k, h5 k]

set_option maxHeartbeats 1000000 in
/-- What point `t` writes back is block `t` of `G3` of the entry arrays. -/
theorem flushed3_6_eq (c : Dev nD) (t : Fin cfg3.N) :
    (dat3 V c).flushed 6 t = ((cfg3.win 6).blk t).view.read (Elt Ideal)
      (G3 (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) := by
  show (cfg3.win 6).cut (grid3.coords t) ((dat3 V c).after 6 t) = _
  rw [after3_6, cut3_6]
  unfold out3_6
  rw [View.canon_unit_zero hz3]
  simp only [View.ld_unit_zero (S := S1000x220) hz3, View.ld_unit_zero (S := S1x220) hz3, View.ld_unit_zero (S := S220x150) hz3]
  funext j
  obtain ⟨p, q, rfl⟩ : ∃ (p : Fin bRows3) (q : Fin wOut3), j = ix2 p q := ⟨j 0, j 1, eq_ix2 j⟩
  exact G3_of_blocks (iblk3 V c 0 t) (iblk3 V c 1 t) (iblk3 V c 2 t) (iblk3 V c 3 t) (iblk3 V c 4 t) (iblk3 V c 5 t)
    (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    p q (((cfg3.win 6).blk t).view.emb (ix2 p q))
    (fun k => blk3_0 V c t p q k) (fun k => blk3_1 V c t k) (fun k => blk3_2 V c t k)
    (fun k => blk3_3 V c t k) (fun k => blk3_4 V c t k) (fun k => blk3_5 V c t p q k)

/-- An index of the output array is in point `t`'s block iff each coordinate is in the block's range on its axis. -/
theorem mem_blk3_6 (t : Fin cfg3.N) (i : S10000x150.Idx) :
    i ∈ ((cfg3.win 6).blk t).view.set ↔ ∀ a : Fin 2, win3_6.index t a * S1000x150.size a ≤ (i a).val
      ∧ (i a).val < win3_6.index t a * S1000x150.size a + S1000x150.size a := by
  show i ∈ ((View.whole (Pipeline.arrRef spec3 6)).slice (win3_6.rect t)).set ↔ _
  rw [View.set_slice_whole, Rect.mem_set_unit]
  exact Iff.rfl

/-- Every index of the output array is in the block of the point its row falls to: the row blocks tile the rows and
    each spans every column. -/
theorem cover3_6_arr (i : S10000x150.Idx) :
    ∃ t : Fin cfg3.N, (cfg3.win 6).flush t = true ∧ i ∈ ((cfg3.win 6).blk t).view.set := by
  have hi0 : (i 0).val < nRows3 := (i 0).isLt
  have hi1 : (i 1).val < wOut3 := (i 1).isLt
  have hN : (i 0).val / bRows3 < cfg3.N := by
    show (i 0).val / bRows3 < grid3.N
    rw [N_3]; unfold nRows3 at hi0; unfold bRows3; omega
  refine ⟨⟨(i 0).val / bRows3, hN⟩, flush3_6 _, ?_⟩
  rw [mem_blk3_6]
  obtain ⟨-, -, -, -, -, -, -, -, -, -, -, -, e2, e3⟩ := idx_facts3 ⟨(i 0).val / bRows3, hN⟩
  intro a
  match a with
  | ⟨0, _⟩ =>
    show win3_6.index ⟨(i 0).val / bRows3, hN⟩ (0 : Fin 2) * bRows3 ≤ (i 0).val
      ∧ (i 0).val < win3_6.index ⟨(i 0).val / bRows3, hN⟩ (0 : Fin 2) * bRows3 + bRows3
    rw [e2]
    show (i 0).val / bRows3 * bRows3 ≤ (i 0).val ∧ (i 0).val < (i 0).val / bRows3 * bRows3 + bRows3
    unfold bRows3; omega
  | ⟨1, _⟩ =>
    show win3_6.index ⟨(i 0).val / bRows3, hN⟩ (1 : Fin 2) * wOut3 ≤ (i 1).val
      ∧ (i 1).val < win3_6.index ⟨(i 0).val / bRows3, hN⟩ (1 : Fin 2) * wOut3 + wOut3
    rw [e3, Nat.zero_mul, Nat.zero_add]
    exact ⟨Nat.zero_le _, hi1⟩

/-- THE OUTPUT ARRAY after the region: `G3` of the entry arrays, everywhere. -/
theorem final3_6 (c : Dev nD) : (dat3 (F := Ideal) V c).arrAt 6 cfg3.N
    = G3 (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) :=
  (dat3 V c).arrAt_eq_of_cover 6 _ (fun t _ => flushed3_6_eq V c t) cover3_6_arr

/-! ## Over the reals -/

/-- On real arrays with every variance + ε positive, `G3` is the real dense product of the normalised activations
    with the weights: each operation of a term is the real one, and a finite sum of reals is the real sum. -/
theorem G3_real (rr : Fin nRows3 → Fin wIn3 → ℝ) (mu vr g be : Fin wIn3 → ℝ) (wr : Fin wIn3 → Fin wOut3 → ℝ)
    (a0 : S10000x220.Idx → EReal) (a1 a2 a3 a4 : S1x220.Idx → EReal) (a5 : S220x150.Idx → EReal)
    (hx : ∀ i k, a0 (ix2 i k) = ((rr i k : ℝ) : EReal)) (hmu : ∀ k, a1 (ix2 0 k) = ((mu k : ℝ) : EReal))
    (hvar : ∀ k, a2 (ix2 0 k) = ((vr k : ℝ) : EReal)) (hg : ∀ k, a3 (ix2 0 k) = ((g k : ℝ) : EReal))
    (hbe : ∀ k, a4 (ix2 0 k) = ((be k : ℝ) : EReal)) (hw : ∀ k j, a5 (ix2 k j) = ((wr k j : ℝ) : EReal))
    (hv : ∀ f, 0 < vr f + Cert.LibCoe.epsR) (i : Fin nRows3) (j : Fin wOut3) :
    G3 a0 a1 a2 a3 a4 a5 (ix2 i j)
      = ((Cert.Spec.lin (Cert.Spec.normalize Cert.LibCoe.epsR rr mu vr g be) wr i j : ℝ) : EReal) := by
  unfold G3 Cert.Spec.lin
  rw [← Cert.LibCoe.sum_coe]
  refine Finset.sum_congr rfl fun k _ => ?_
  show nrm3 (a0 (ix2 i k)) (a1 (ix2 0 k)) (a2 (ix2 0 k)) (a3 (ix2 0 k)) (a4 (ix2 0 k)) * a5 (ix2 k j) = _
  rw [hx, hmu, hvar, hg, hbe, hw]
  unfold nrm3 Cert.Spec.normalize Cert.Spec.rsq
  rw [Cert.LibCoe.ofBits_eps, Cert.LibCoe.sub_coe, Cert.LibCoe.add_coe, Cert.LibCoe.rsqrt_coe_pos (hv k),
    Cert.LibCoe.mul_coe, Cert.LibCoe.mul_coe, Cert.LibCoe.add_coe, Cert.LibCoe.mul_coe]

/-- THE OUTPUT ARRAY after the region, over the reals: entry `(i, j)` is the dense product of the normalised
    activations with the weights there. -/
theorem final3_real (c : Dev nD) (rr : Fin nRows3 → Fin wIn3 → ℝ) (mu vr g be : Fin wIn3 → ℝ) (wr : Fin wIn3 → Fin wOut3 → ℝ)
    (hx : ∀ i k, (V c (Pipeline.arrRef spec3 0) : S10000x220.Idx → EReal) (ix2 i k) = ((rr i k : ℝ) : EReal))
    (hmu : ∀ k, (V c (Pipeline.arrRef spec3 1) : S1x220.Idx → EReal) (ix2 0 k) = ((mu k : ℝ) : EReal))
    (hvar : ∀ k, (V c (Pipeline.arrRef spec3 2) : S1x220.Idx → EReal) (ix2 0 k) = ((vr k : ℝ) : EReal))
    (hg : ∀ k, (V c (Pipeline.arrRef spec3 3) : S1x220.Idx → EReal) (ix2 0 k) = ((g k : ℝ) : EReal))
    (hbe : ∀ k, (V c (Pipeline.arrRef spec3 4) : S1x220.Idx → EReal) (ix2 0 k) = ((be k : ℝ) : EReal))
    (hw : ∀ k j, (V c (Pipeline.arrRef spec3 5) : S220x150.Idx → EReal) (ix2 k j) = ((wr k j : ℝ) : EReal))
    (hv : ∀ f, 0 < vr f + Cert.LibCoe.epsR) (i : Fin nRows3) (j : Fin wOut3) :
    ((dat3 (F := Ideal) V c).arrAt 6 cfg3.N : S10000x150.Idx → EReal) (ix2 i j)
      = ((Cert.Spec.lin (Cert.Spec.normalize Cert.LibCoe.epsR rr mu vr g be) wr i j : ℝ) : EReal) := by
  rw [final3_6]
  exact G3_real rr mu vr g be wr _ _ _ _ _ _ hx hmu hvar hg hbe hw hv i j

end Cert.KernelIdeal.HandV

end
-- ==== Proof.KLayer1.lean ====
import proofs.«408066_j62380105008311_2_alg».proof.Proof.Assembly
import proofs.«408066_j62380105008311_2_alg».proof.Proof.Inputs
import proofs.«408066_j62380105008311_2_alg».proof.Proof.LibCoe
import proofs.«408066_j62380105008311_2_alg».proof.Proof.SpecLaws2
import proofs.«408066_j62380105008311_2_alg».proof.Proof.HostAdj
import proofs.«408066_j62380105008311_2_alg».proof.Proof.HostSmall1
import proofs.«408066_j62380105008311_2_alg».proof.Proof.Val0
import proofs.«408066_j62380105008311_2_alg».proof.Proof.Val1
import proofs.«408066_j62380105008311_2_alg».proof.Proof.Val2
import proofs.«408066_j62380105008311_2_alg».proof.Proof.Val3

/-!
# Layer 1 of the kernel's network, read off the fold of buffer contents

The fold of buffer contents through the program's items (W0, W1, …) is followed from the launch memory to the end
of the first layer.  Under the reading of the launch memory as real inputs R:

* the dense product of the node features with the first weight matrix (region 0);
* one layer's UNIT, from features h held in the unit's input array: pad h with zero rows, multiply by the padded
  normalised adjacency (which is the dense aggregation of h), add the bias and rectify while summing each column
  and its squares, turn the sums into mean and variance, normalise and multiply by the next weight matrix;
* what every later layer needs carried along: the padded adjacency and the twenty argument arrays, unchanged.
-/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Cert.Inputs (srcOf dstOf RealArgs)
open Cert.LibCoe (epsR)

variable (m : (ℓ : Loc nD τ sig) → Buf (Elt Ideal) ℓ)

/-! ## What is carried from item to item -/

/-- The twenty argument arrays. -/
abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18, main_arg19]

/-- The launch memory of core c is, entry by entry, the coercion of the real inputs R. -/
abbrev ReadsAt (c : Dev nD) (R : RealArgs) : Prop :=
  Cert.Inputs.Reads (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))
    (m ((c : Thread nD τ).loc main_arg10)) (m ((c : Thread nD τ).loc main_arg11))
    (m ((c : Thread nD τ).loc main_arg12)) (m ((c : Thread nD τ).loc main_arg13))
    (m ((c : Thread nD τ).loc main_arg14)) (m ((c : Thread nD τ).loc main_arg15))
    (m ((c : Thread nD τ).loc main_arg16)) (m ((c : Thread nD τ).loc main_arg17))
    (m ((c : Thread nD τ).loc main_arg18)) (m ((c : Thread nD τ).loc main_arg19)) R

/-- What every layer finds and leaves in the buffers beside its own features: the normalised adjacency, padded with
    zero columns, and the argument arrays as launched. -/
structure Carried (c : Dev nD) (R : RealArgs) (W : Valuation τ sig (Elt Ideal)) : Prop where
  adj : ∀ (d : Fin 10000) (s : Fin 10240), (W (Proc.devRef .tc main_v46) : S10000x10240.Idx → EReal) (ix2 d s)
      = ((if hs : s.val < 10000 then Cert.Spec.adj (srcOf R.ei) (dstOf R.ei) d ⟨s.val, hs⟩ else 0 : ℝ) : EReal)
  args : ∀ r ∈ argRefs, W (Proc.devRef .tc r) = m ((c : Thread nD τ).loc r)

/-- A choice between a coerced real and zero is the coercion of the choice. -/
theorem dite_coe_zero {p : Prop} [Decidable p] (a : p → ℝ) :
    (if hp : p then ((a hp : ℝ) : EReal) else 0) = ((if hp : p then a hp else 0 : ℝ) : EReal) := by
  by_cases hp : p
  · rw [dif_pos hp, dif_pos hp]
  · rw [dif_neg hp, dif_neg hp, EReal.coe_zero]

/-- An item that writes neither the adjacency nor an argument carries them on. -/
theorem Carried.step {c : Dev nD} {R : RealArgs} {W W' : Valuation τ sig (Elt Ideal)} (L : List (Ref sig .tc))
    (hof : ∀ r : Ref sig .tc, r ∉ L → W' (Proc.devRef .tc r) = W (Proc.devRef .tc r))
    (hadj : main_v46 ∉ L) (hargs : ∀ r ∈ argRefs, r ∉ L) (h : Carried m c R W) : Carried m c R W' :=
  ⟨fun d s => (congrFun (hof _ hadj) (ix2 d s)).trans (h.adj d s),
   fun r hr => (hof r (hargs r hr)).trans (h.args r hr)⟩

/-! ## The first dense product (items 0 to 3) -/

/-- The first three host stretches write no argument array. -/
theorem args_W3 (c : Dev nD) : ∀ r ∈ argRefs, W3 m c (Proc.devRef .tc r) = m ((c : Thread nD τ).loc r) := fun r hr =>
  (W3_of m c r ((by decide : ∀ r ∈ argRefs, r ∉ GenP.hostOps0_2_W) r hr)).trans <|
  (W2_of m c r ((by decide : ∀ r ∈ argRefs, r ∉ GenP.hostOps0_1_W) r hr)).trans <|
  (W1_of m c r ((by decide : ∀ r ∈ argRefs, r ∉ GenP.hostOps0_W) r hr))

/-- Entering region 0 the adjacency has been built and the arguments are as launched. -/
theorem carried_W3 (c : Dev nD) (R : RealArgs) (hR : ReadsAt m c R) : Carried m c R (W3 m c) :=
  ⟨fun d s => (adj_value (W0 m c) R.ei hR.hei d s).trans (dite_coe_zero _), args_W3 m c⟩

/-- Region 0 writes only its result: what the first layer's unit is entered with beside its features. -/
theorem carried0_W4 (c : Dev nD) (R : RealArgs) (hR : ReadsAt m c R) : Carried m c R (W4 m c) :=
  (carried_W3 m c R hR).step m [main_v47] (W4_of m c) (by decide) (by decide)

/-- After region 0 its result array holds the product of the features with the first weight matrix. -/
theorem lin1_W4 (c : Dev nD) (R : RealArgs) (hR : ReadsAt m c R) (i : Fin 10000) (j : Fin 220) :
    (W4 m c (Proc.devRef .tc main_v47) : S10000x220.Idx → EReal) (ix2 i j)
      = ((Cert.Spec.lin R.X R.P.W1 i j : ℝ) : EReal) := by
  have hx : ∀ i k, (Hand.V3 m c (Pipeline.arrRef spec0 0) : S10000x256.Idx → EReal) (ix2 i k) = ((R.X i k : ℝ) : EReal) :=
    fun i k => (congrFun (args_W3 m c main_arg0 (by decide)) (ix2 i k)).trans (hR.hX i k)
  have hw : ∀ k j, (Hand.V3 m c (Pipeline.arrRef spec0 1) : S256x220.Idx → EReal) (ix2 k j) = ((R.P.W1 k j : ℝ) : EReal) :=
    fun k j => (congrFun (args_W3 m c main_arg2 (by decide)) (ix2 k j)).trans (hR.hW1 k j)
  exact (congrFun (W4_arr m c 2) (ix2 i j)).trans (final0_real (Hand.V3 m) c R.X R.P.W1 hx hw i j)

/-! ## The layer's unit: seven items, from features h in the unit's input array -/

/-- What the unit is entered with: real features h in its input array, and the carried buffers. -/
structure Entry1 (c : Dev nD) (R : RealArgs) (h : Fin 10000 → Fin 220 → ℝ) : Prop where
  feat : ∀ i f, (W4 m c (Proc.devRef .tc main_v47) : S10000x220.Idx → EReal) (ix2 i f) = ((h i f : ℝ) : EReal)
  car : Carried m c R (W4 m c)

section Unit
variable {m}
variable {c : Dev nD} {R : RealArgs} {h : Fin 10000 → Fin 220 → ℝ}

/-- The layer's activations from its input features: aggregate, add the bias, rectify. -/
abbrev act1 (R : RealArgs) (h : Fin 10000 → Fin 220 → ℝ) : Fin 10000 → Fin 220 → ℝ :=
  Cert.Spec.relu (Cert.Spec.addBias (Cert.Spec.aggD (srcOf R.ei) (dstOf R.ei) h) R.P.b1)

/-- The features padded with zero rows (the unit's first two items, host operations). -/
theorem pad_W6 (hE : Entry1 m c R h) (s : Fin 10240) (f : Fin 220) :
    (W6 m c (Proc.devRef .tc main_v48) : S10240x220.Idx → EReal) (ix2 s f)
      = ((if hs : s.val < 10000 then h ⟨s.val, hs⟩ f else 0 : ℝ) : EReal) :=
  pad1_real_from (W4 m c) h hE.feat s f

theorem carried_W6 (hE : Entry1 m c R h) : Carried m c R (W6 m c) :=
  (hE.car.step m GenP.hostOps1_W (W5_of m c) (by decide) (by decide)).step m GenP.hostOps1_1_W (W6_of m c) (by decide) (by decide)

/-- The aggregation kernel: the padded adjacency times the padded features is the dense aggregation of h. -/
theorem agg_W7 (hE : Entry1 m c R h) (i : Fin 10000) (f : Fin 220) :
    (W7 m c (Proc.devRef .tc main_v49) : S10000x220.Idx → EReal) (ix2 i f)
      = ((Cert.Spec.aggD (srcOf R.ei) (dstOf R.ei) h i f : ℝ) : EReal) := by
  refine (congrFun (W7_arr m c 2) (ix2 i f)).trans ?_
  refine (final1_real (Hand.V6 m) c
    (fun d s => if hs : s.val < 10000 then Cert.Spec.adj (srcOf R.ei) (dstOf R.ei) d ⟨s.val, hs⟩ else 0)
    (fun s f => if hs : s.val < 10000 then h ⟨s.val, hs⟩ f else 0)
    (carried_W6 hE).adj (pad_W6 hE) i f).trans ?_
  exact congrArg (fun x : ℝ => (x : EReal)) (Cert.Spec.aggD_pad_10240 (srcOf R.ei) (dstOf R.ei) h i f)

theorem carried_W7 (hE : Entry1 m c R h) : Carried m c R (W7 m c) :=
  (carried_W6 hE).step m [main_v49] (W7_of m c) (by decide) (by decide)

/-- The bias as a one-row matrix (host operations); the aggregation is still there. -/
theorem bias_W8 (hE : Entry1 m c R h) (hR : ReadsAt m c R) (f : Fin 220) :
    (W8 m c (Proc.devRef .tc main_v50) : S1x220.Idx → EReal) (ix2 0 f) = ((R.P.b1 f : ℝ) : EReal) :=
  (bias1_read (W7 m c) f).trans ((congrFun ((carried_W7 hE).args main_arg3 (by decide)) (ix1 f)).trans (hR.hb1 f))

theorem agg_W8 (hE : Entry1 m c R h) (i : Fin 10000) (f : Fin 220) :
    (W8 m c (Proc.devRef .tc main_v49) : S10000x220.Idx → EReal) (ix2 i f)
      = ((Cert.Spec.aggD (srcOf R.ei) (dstOf R.ei) h i f : ℝ) : EReal) :=
  (congrFun (W8_of m c main_v49 (by decide)) (ix2 i f)).trans (agg_W7 hE i f)

theorem carried_W8 (hE : Entry1 m c R h) : Carried m c R (W8 m c) :=
  (carried_W7 hE).step m GenP.hostOps2_W (W8_of m c) (by decide) (by decide)

/-- The activation kernel: the activations, and each column's sum and sum of squares. -/
theorem act_W9 (hE : Entry1 m c R h) (hR : ReadsAt m c R) (i : Fin 10000) (f : Fin 220) :
    (W9 m c (Proc.devRef .tc main_v51_0) : S10000x220.Idx → EReal) (ix2 i f) = ((act1 R h i f : ℝ) : EReal) :=
  (congrFun (W9_arr m c 2) (ix2 i f)).trans
    (final2_real_2 (Hand.V8 m) c (Cert.Spec.aggD (srcOf R.ei) (dstOf R.ei) h) R.P.b1 (agg_W8 hE) (bias_W8 hE hR) i f)

theorem sum_W9 (hE : Entry1 m c R h) (hR : ReadsAt m c R) (f : Fin 220) :
    (W9 m c (Proc.devRef .tc main_v51_1) : S1x220.Idx → EReal) (ix2 0 f)
      = ((Cert.Spec.colSum (act1 R h) f : ℝ) : EReal) :=
  (congrFun (W9_arr m c 3) (ix2 0 f)).trans
    (final2_real_3 (Hand.V8 m) c (Cert.Spec.aggD (srcOf R.ei) (dstOf R.ei) h) R.P.b1 (agg_W8 hE) (bias_W8 hE hR) f)

theorem sumSq_W9 (hE : Entry1 m c R h) (hR : ReadsAt m c R) (f : Fin 220) :
    (W9 m c (Proc.devRef .tc main_v51_2) : S1x220.Idx → EReal) (ix2 0 f)
      = ((Cert.Spec.colSumSq (act1 R h) f : ℝ) : EReal) :=
  (congrFun (W9_arr m c 4) (ix2 0 f)).trans
    (final2_real_4 (Hand.V8 m) c (Cert.Spec.aggD (srcOf R.ei) (dstOf R.ei) h) R.P.b1 (agg_W8 hE) (bias_W8 hE hR) f)

theorem carried_W9 (hE : Entry1 m c R h) : Carried m c R (W9 m c) :=
  (carried_W8 hE).step m [main_v51_0, main_v51_1, main_v51_2] (W9_of m c) (by decide) (by decide)

/-- The statistics rows (host operations); the activations are still there. -/
theorem mean_W10 (hE : Entry1 m c R h) (hR : ReadsAt m c R) (f : Fin 220) :
    (W10 m c (Proc.devRef .tc main_v62) : S1x220.Idx → EReal) (ix2 0 f)
      = ((Cert.Spec.mean 10000 (act1 R h) f : ℝ) : EReal) :=
  stats1_mean_spec (W9 m c) (act1 R h) (sum_W9 hE hR) f

theorem var_W10 (hE : Entry1 m c R h) (hR : ReadsAt m c R) (f : Fin 220) :
    (W10 m c (Proc.devRef .tc main_v63) : S1x220.Idx → EReal) (ix2 0 f)
      = ((Cert.Spec.varK 10000 (act1 R h) f : ℝ) : EReal) :=
  stats1_var_spec (W9 m c) (act1 R h) (sum_W9 hE hR) (sumSq_W9 hE hR) f

theorem scale_W10 (hE : Entry1 m c R h) (hR : ReadsAt m c R) (f : Fin 220) :
    (W10 m c (Proc.devRef .tc main_v64) : S1x220.Idx → EReal) (ix2 0 f) = ((R.P.g1 f : ℝ) : EReal) :=
  stats1_scale_real (W9 m c) R.P.g1
    (fun f => (congrFun ((carried_W9 hE).args main_arg12 (by decide)) (ix1 f)).trans (hR.hg1 f)) f

theorem shift_W10 (hE : Entry1 m c R h) (hR : ReadsAt m c R) (f : Fin 220) :
    (W10 m c (Proc.devRef .tc main_v65) : S1x220.Idx → EReal) (ix2 0 f) = ((R.P.be1 f : ℝ) : EReal) :=
  stats1_shift_real (W9 m c) R.P.be1
    (fun f => (congrFun ((carried_W9 hE).args main_arg13 (by decide)) (ix1 f)).trans (hR.hbe1 f)) f

theorem act_W10 (hE : Entry1 m c R h) (hR : ReadsAt m c R) (i : Fin 10000) (f : Fin 220) :
    (W10 m c (Proc.devRef .tc main_v51_0) : S10000x220.Idx → EReal) (ix2 i f) = ((act1 R h i f : ℝ) : EReal) :=
  (congrFun (W10_of m c main_v51_0 (by decide)) (ix2 i f)).trans (act_W9 hE hR i f)

theorem carried_W10 (hE : Entry1 m c R h) : Carried m c R (W10 m c) :=
  (carried_W9 hE).step m GenP.hostOps3_W (W10_of m c) (by decide) (by decide)

/-- The normalisation kernel: the normalised activations times the next weight matrix. -/
theorem out_W11 (hE : Entry1 m c R h) (hR : ReadsAt m c R) (i : Fin 10000) (j : Fin 150) :
    (W11 m c (Proc.devRef .tc main_v66) : S10000x150.Idx → EReal) (ix2 i j)
      = ((Cert.Spec.lin (Cert.Spec.bnK 10000 epsR (act1 R h) R.P.g1 R.P.be1) R.P.W2 i j : ℝ) : EReal) :=
  (congrFun (W11_arr m c 6) (ix2 i j)).trans
    (final3_real (Hand.V10 m) c (act1 R h) (Cert.Spec.mean 10000 (act1 R h)) (Cert.Spec.varK 10000 (act1 R h)) R.P.g1 R.P.be1 R.P.W2
      (act_W10 hE hR) (mean_W10 hE hR) (var_W10 hE hR) (scale_W10 hE hR) (shift_W10 hE hR)
      (fun k j => (congrFun ((carried_W10 hE).args main_arg4 (by decide)) (ix2 k j)).trans (hR.hW2 k j))
      (fun f => add_pos_of_nonneg_of_pos (le_max_right _ _) Cert.LibCoe.epsR_pos) i j)

theorem carried_W11 (hE : Entry1 m c R h) : Carried m c R (W11 m c) :=
  (carried_W10 hE).step m [main_v66] (W11_of m c) (by decide) (by decide)

end Unit

/-! ## The layer -/

/-- The unit is entered from the array the layer's input features were left in. -/
theorem entry1 (c : Dev nD) (R : RealArgs) (hR : ReadsAt m c R) : Entry1 m c R (Cert.Spec.lin R.X R.P.W1) :=
  ⟨lin1_W4 m c R hR, carried0_W4 m c R hR⟩

/-- After the activation kernel its first result array holds the layer's activations. -/
theorem k1_W9 (c : Dev nD) (R : RealArgs) (hR : ReadsAt m c R) (i : Fin 10000) (f : Fin 220) :
    (W9 m c (Proc.devRef .tc main_v51_0) : S10000x220.Idx → EReal) (ix2 i f)
      = ((Cert.Spec.k1 (srcOf R.ei) (dstOf R.ei) R.X R.P i f : ℝ) : EReal) :=
  act_W9 (entry1 m c R hR) hR i f

/-- After the normalisation kernel its result array holds the next layer's input features. -/
theorem lin2_W11 (c : Dev nD) (R : RealArgs) (hR : ReadsAt m c R) (i : Fin 10000) (j : Fin 150) :
    (W11 m c (Proc.devRef .tc main_v66) : S10000x150.Idx → EReal) (ix2 i j)
      = ((Cert.Spec.lin (Cert.Spec.bnK 10000 epsR (Cert.Spec.k1 (srcOf R.ei) (dstOf R.ei) R.X R.P) R.P.g1 R.P.be1) R.P.W2 i j : ℝ) : EReal) :=
  out_W11 (entry1 m c R hR) hR i j

/-- What the next layer is entered with beside its features. -/
theorem carried1_W11 (c : Dev nD) (R : RealArgs) (hR : ReadsAt m c R) : Carried m c R (W11 m c) :=
  carried_W11 (entry1 m c R hR)

end Cert.KernelIdeal.HandV

end
-- ==== Proof.HostSmall2.lean ====
import proofs.«408066_j62380105008311_2_alg».proof.Proof.Gen.KernelIdeal.Launch
import proofs.«408066_j62380105008311_2_alg».proof.Proof.Spec
import proofs.«408066_j62380105008311_2_alg».proof.Proof.LibCoe
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

/-! # The small host stretches of one layer, read as values

Between the kernel regions the program runs a few array operations on the host, the same ones layer after layer. This
module reads one layer's at an index, at the ideal values, from ANY contents `V` of the buffers on entry to the
stretch:

* the PADDING of the node features with zero rows up to a whole number of row blocks: row `s` of the result is row
  `s` of the operand while `s` is a node, and zero after the last node;
* the bias vector written as a one-row matrix;
* the column STATISTICS: from the row of column sums `S` and the row of column sums of squares `Q` over the `n`
  nodes, the mean `S / n` and the variance `max (Q / n − (S / n)², 0)`, each as a one-row matrix, beside the
  scale and shift vectors written as one-row matrices.

Each operation is read at an index by its own lemma, outermost first.
The statistics' arithmetic on extended reals is brought down to the reals one operation at a time, the operands being
coerced reals and the divisor `n` non-zero. -/

set_option maxRecDepth 1720

noncomputable section

namespace Cert.KernelIdeal.HandV

open Cert.KernelIdeal Cert.KernelIdeal.Gen
open Idealize.ShloMosaic Idealize.ShloMosaic.TcCoe Idealize.ShloMosaic.ValueIdx
open Idealize.ShloMosaic.StableHlo

/-- The number of nodes, the number of rows after padding, and the number of columns. -/
local notation "NR" => (10000 : ℕ)
local notation "NP" => (10240 : ℕ)
local notation "WD" => (150 : ℕ)

/-! ## The padding -/

/-- The padded features read at row `s`, column `f`: the operand's entry while `s` is a node's row, and zero below
    the last node — given that the word the padding value is converted from is the integer zero. -/
theorem pad2_read (V : Valuation τ sig (Elt Ideal))
    (hc : (V main_c_15 : S_.Idx → BitVec 32) ix0 = 0#32) (s : Fin NP) (f : Fin WD) :
    (StableHlo.after hostOps4_1 V main_v67 : S10240x150.Idx → EReal) (ix2 s f)
      = if hs : s.val < NR then (V main_v66 : S10000x150.Idx → EReal) (ix2 ⟨s.val, hs⟩ f) else (0 : EReal) := by
  dsimp only [hostOps4_1]
  after_results
  simp only [TRef.ofBuf, TRef.toBuf, cast_eq]
  by_cases hs : s.val < NR
  · -- inside the operand: no low padding, no interior padding, so the coordinates are the operand's own
    rw [dif_pos hs]
    exact pad_apply_of_inside _ _ _ _ _ _ _ _ (ix2 ⟨s.val, hs⟩ f) (fun a => match a with
      | ⟨0, _⟩ => by show s.val = 0 + s.val * (0 + 1); omega
      | ⟨1, _⟩ => by show f.val = 0 + f.val * (0 + 1); omega)
  · -- past the operand's last row: the padding value, the integer zero converted
    rw [dif_neg hs]
    refine (pad_apply_of_not_inside _ _ _ _ _ _ _ _ (0 : Fin 2) (fun hin => ?_)).trans ?_
    · have h3 : s.val / 1 < NR := hin.2.2
      rw [Nat.div_one] at h3
      exact hs h3
    · show (Scalar.sitofp .f32 ((V main_c_15 : S_.Idx → BitVec 32) (Shape.Idx.first h_S_)) : Ideal .f32) = 0
      rw [eq_ix0 (Shape.Idx.first h_S_), hc]
      exact sitofp_zero

/-- The same from the contents before the integer zero is written: the one operation in front writes that word and
    leaves the operand alone. -/
theorem pad2_read_from (V : Valuation τ sig (Elt Ideal)) (s : Fin NP) (f : Fin WD) :
    (StableHlo.after hostOps4_1 (StableHlo.after hostOps4 V) main_v67 : S10240x150.Idx → EReal) (ix2 s f)
      = if hs : s.val < NR then (V main_v66 : S10000x150.Idx → EReal) (ix2 ⟨s.val, hs⟩ f) else (0 : EReal) := by
  have hc : (StableHlo.after hostOps4 V main_c_15 : S_.Idx → BitVec 32) ix0 = 0#32 := by
    dsimp only [hostOps4]; after_results; rfl
  have hx : (StableHlo.after hostOps4 V main_v66 : S10000x150.Idx → EReal) = V main_v66 := by
    dsimp only [hostOps4]; after_results
  rw [pad2_read _ hc s f, hx]

/-- In real numbers: if the operand holds the real matrix `h`, the padded array holds `h` on the nodes' rows and `0`
    on the rows after them. -/
theorem pad2_real (V : Valuation τ sig (Elt Ideal)) (hc : (V main_c_15 : S_.Idx → BitVec 32) ix0 = 0#32)
    (h : Fin NR → Fin WD → ℝ)
    (hh : ∀ i f, (V main_v66 : S10000x150.Idx → EReal) (ix2 i f) = ((h i f : ℝ) : EReal)) (s : Fin NP) (f : Fin WD) :
    (StableHlo.after hostOps4_1 V main_v67 : S10240x150.Idx → EReal) (ix2 s f)
      = ((if hs : s.val < NR then h ⟨s.val, hs⟩ f else 0 : ℝ) : EReal) := by
  rw [pad2_read V hc s f]
  by_cases hs : s.val < NR
  · rw [dif_pos hs, dif_pos hs, hh]
  · rw [dif_neg hs, dif_neg hs, EReal.coe_zero]

/-- The real form from the contents before the integer zero is written. -/
theorem pad2_real_from (V : Valuation τ sig (Elt Ideal)) (h : Fin NR → Fin WD → ℝ)
    (hh : ∀ i f, (V main_v66 : S10000x150.Idx → EReal) (ix2 i f) = ((h i f : ℝ) : EReal)) (s : Fin NP) (f : Fin WD) :
    (StableHlo.after hostOps4_1 (StableHlo.after hostOps4 V) main_v67 : S10240x150.Idx → EReal) (ix2 s f)
      = ((if hs : s.val < NR then h ⟨s.val, hs⟩ f else 0 : ℝ) : EReal) := by
  rw [pad2_read_from V s f]
  by_cases hs : s.val < NR
  · rw [dif_pos hs, dif_pos hs, hh]
  · rw [dif_neg hs, dif_neg hs, EReal.coe_zero]

/-! ## The bias as a one-row matrix -/

/-- The bias row read at column `f` is the bias vector's entry `f`. -/
theorem bias2_read (V : Valuation τ sig (Elt Ideal)) (f : Fin WD) :
    (StableHlo.after hostOps5 V main_v69 : S1x150.Idx → EReal) (ix2 0 f)
      = (V main_arg5 : S150.Idx → EReal) (ix1 f) := by
  dsimp only [hostOps5]
  after_results
  exact shapeCast_a_1a_apply _ _ 0 f

/-! ## The statistics -/

/-- The node count as a real. -/
local notation "CNT" => (10000 : ℝ)

/-- A one-row matrix of coerced reals, written as a vector and divided entry by entry by the node count (the
    single-precision constant `10000`, broadcast), holds the real quotients. -/
theorem meanVec2_read (x : S1x150.Idx → EReal) (S : Fin WD → ℝ)
    (hx : ∀ f, x (ix2 0 f) = ((S f : ℝ) : EReal)) (f : Fin WD) :
    (Host.divf (shapeCast S150 x shapeCasts_S1x150_S150)
        (broadcastInDim S150 ![] bcast_S_S150 (constant (F := Ideal) S_ .f32 0x461C4000#32))
      : FVec Ideal S150 .f32) (ix1 f) = ((S f / CNT : ℝ) : EReal) := by
  rw [hostDivf_apply, shapeCast_1a_a_apply, hx, broadcastInDim_scalar_apply, constant_apply, Cert.LibCoe.ofBits_10000]
  exact Cert.LibCoe.div_coe_coe _ (by norm_num)

/-- The variance vector: the mean of the squares less the square of the mean, cut off below at zero, in real numbers. -/
theorem varVec2_read (x1 x2 : S1x150.Idx → EReal) (S Q : Fin WD → ℝ)
    (h1 : ∀ f, x1 (ix2 0 f) = ((S f : ℝ) : EReal)) (h2 : ∀ f, x2 (ix2 0 f) = ((Q f : ℝ) : EReal)) (f : Fin WD) :
    (maximumf
        (subf
          (Host.divf (shapeCast S150 x2 shapeCasts_S1x150_S150)
            (broadcastInDim S150 ![] bcast_S_S150 (constant (F := Ideal) S_ .f32 0x461C4000#32)))
          (mulf
            (Host.divf (shapeCast S150 x1 shapeCasts_S1x150_S150)
              (broadcastInDim S150 ![] bcast_S_S150 (constant (F := Ideal) S_ .f32 0x461C4000#32)))
            (Host.divf (shapeCast S150 x1 shapeCasts_S1x150_S150)
              (broadcastInDim S150 ![] bcast_S_S150 (constant (F := Ideal) S_ .f32 0x461C4000#32)))))
        (broadcastInDim S150 ![] bcast_S_S150 (constant (F := Ideal) S_ .f32 0x00000000#32))
      : FVec Ideal S150 .f32) (ix1 f)
      = ((max (Q f / CNT - (S f / CNT) * (S f / CNT)) 0 : ℝ) : EReal) := by
  rw [maximumf_apply, subf_apply, mulf_apply, meanVec2_read x2 Q h2 f, meanVec2_read x1 S h1 f,
    broadcastInDim_scalar_apply, constant_apply, Cert.LibCoe.ofBits_zero, Cert.LibCoe.mul_coe, Cert.LibCoe.sub_coe,
    Cert.LibCoe.max_coe]

/-- The mean row after the statistics stretch: the column sums over the node count. -/
theorem stats2_mean (V : Valuation τ sig (Elt Ideal)) (S : Fin WD → ℝ)
    (hS : ∀ f, (V main_v70_1 : S1x150.Idx → EReal) (ix2 0 f) = ((S f : ℝ) : EReal)) (f : Fin WD) :
    (StableHlo.after hostOps6 V main_v81 : S1x150.Idx → EReal) (ix2 0 f) = ((S f / CNT : ℝ) : EReal) := by
  dsimp only [hostOps6]
  after_results
  exact (shapeCast_a_1a_apply _ _ 0 f).trans (meanVec2_read (V main_v70_1) S hS f)

/-- The variance row after the statistics stretch. -/
theorem stats2_var (V : Valuation τ sig (Elt Ideal)) (S Q : Fin WD → ℝ)
    (hS : ∀ f, (V main_v70_1 : S1x150.Idx → EReal) (ix2 0 f) = ((S f : ℝ) : EReal))
    (hQ : ∀ f, (V main_v70_2 : S1x150.Idx → EReal) (ix2 0 f) = ((Q f : ℝ) : EReal)) (f : Fin WD) :
    (StableHlo.after hostOps6 V main_v82 : S1x150.Idx → EReal) (ix2 0 f)
      = ((max (Q f / CNT - (S f / CNT) * (S f / CNT)) 0 : ℝ) : EReal) := by
  dsimp only [hostOps6]
  after_results
  exact (shapeCast_a_1a_apply _ _ 0 f).trans (varVec2_read (V main_v70_1) (V main_v70_2) S Q hS hQ f)

/-- The scale row after the statistics stretch is the scale vector. -/
theorem stats2_scale (V : Valuation τ sig (Elt Ideal)) (f : Fin WD) :
    (StableHlo.after hostOps6 V main_v83 : S1x150.Idx → EReal) (ix2 0 f)
      = (V main_arg14 : S150.Idx → EReal) (ix1 f) := by
  dsimp only [hostOps6]
  after_results
  exact shapeCast_a_1a_apply _ _ 0 f

/-- The shift row after the statistics stretch is the shift vector. -/
theorem stats2_shift (V : Valuation τ sig (Elt Ideal)) (f : Fin WD) :
    (StableHlo.after hostOps6 V main_v84 : S1x150.Idx → EReal) (ix2 0 f)
      = (V main_arg15 : S150.Idx → EReal) (ix1 f) := by
  dsimp only [hostOps6]
  after_results
  exact shapeCast_a_1a_apply _ _ 0 f

/-- Scale and shift in real numbers. -/
theorem stats2_scale_real (V : Valuation τ sig (Elt Ideal)) (g : Fin WD → ℝ)
    (hg : ∀ f, (V main_arg14 : S150.Idx → EReal) (ix1 f) = ((g f : ℝ) : EReal)) (f : Fin WD) :
    (StableHlo.after hostOps6 V main_v83 : S1x150.Idx → EReal) (ix2 0 f) = ((g f : ℝ) : EReal) := by
  rw [stats2_scale V f, hg]

theorem stats2_shift_real (V : Valuation τ sig (Elt Ideal)) (be : Fin WD → ℝ)
    (hbe : ∀ f, (V main_arg15 : S150.Idx → EReal) (ix1 f) = ((be f : ℝ) : EReal)) (f : Fin WD) :
    (StableHlo.after hostOps6 V main_v84 : S1x150.Idx → EReal) (ix2 0 f) = ((be f : ℝ) : EReal) := by
  rw [stats2_shift V f, hbe]

/-- With the sums taken over the rows of a real matrix `r`, the two rows are the column mean and the variance by
    moments of `r`. -/
theorem stats2_mean_spec (V : Valuation τ sig (Elt Ideal)) (r : Fin NR → Fin WD → ℝ)
    (hS : ∀ f, (V main_v70_1 : S1x150.Idx → EReal) (ix2 0 f) = ((Cert.Spec.colSum r f : ℝ) : EReal)) (f : Fin WD) :
    (StableHlo.after hostOps6 V main_v81 : S1x150.Idx → EReal) (ix2 0 f) = ((Cert.Spec.mean CNT r f : ℝ) : EReal) :=
  stats2_mean V (Cert.Spec.colSum r) hS f

theorem stats2_var_spec (V : Valuation τ sig (Elt Ideal)) (r : Fin NR → Fin WD → ℝ)
    (hS : ∀ f, (V main_v70_1 : S1x150.Idx → EReal) (ix2 0 f) = ((Cert.Spec.colSum r f : ℝ) : EReal))
    (hQ : ∀ f, (V main_v70_2 : S1x150.Idx → EReal) (ix2 0 f) = ((Cert.Spec.colSumSq r f : ℝ) : EReal)) (f : Fin WD) :
    (StableHlo.after hostOps6 V main_v82 : S1x150.Idx → EReal) (ix2 0 f) = ((Cert.Spec.varK CNT r f : ℝ) : EReal) :=
  stats2_var V (Cert.Spec.colSum r) (Cert.Spec.colSumSq r) hS hQ f

end Cert.KernelIdeal.HandV

end
-- ==== Proof.Val4.lean ====
import proofs.«408066_j62380105008311_2_alg».proof.Proof.Reg4
import proofs.«408066_j62380105008311_2_alg».proof.Proof.Spec
import proofs.«408066_j62380105008311_2_alg».proof.Proof.SpecLaws2
import proofs.«408066_j62380105008311_2_alg».proof.Proof.LibCoe
import Idealize.ShloMosaic.Lib.Pipeline.Value
import Idealize.ShloMosaic.Lib.ValueIdx
import Idealize.ShloMosaic.Lib.ValueLayout
import Idealize.ShloMosaic.PureOps.Ideal.Laws

/-!
# Region 4 at the ideal values: the result array is the matrix product of the two operand arrays

The grid runs over row blocks of the result and, inside each, over ten runs of the contracted index.  The
accumulator starts each row block at zero, gains one run's partial product per step, and is copied to the result
block at the last step: what is written back is the row block of the full product, the contracted sum cut into its
ten runs.  The row blocks tile the result, so the array the region leaves is the product of the two arrays it found;
and where those hold real numbers, it holds the real matrix product.
-/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic Idealize.SL.Sem Idealize.ShloMosaic.ValueIdx
open Idealize.ShloMosaic.Pipeline (Dat)
open scoped BigOperators

/-! ## What each step leaves in the accumulator, as the body's arithmetic -/

section Pieces
variable {F : FTy → Type} [FloatOps F]

theorem hz4 : (![0, 0] : Fin 2 → Nat) = fun _ => 0 := funext fun a => by fin_cases a <;> rfl

/-- FIRST STEP: the accumulator is cleared, then gains the step's product. -/
theorem sout4_A_eq (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : cond4_0 i) (hc1 : ¬cond4_1 i) (x0 : Vec F S2000x1024 .bf16) (x1 : Vec F S1024x150 .f32) :
    sout4_A c i arg2 harg2 arg3 harg3 arg4 harg4 arg5 harg5 hc0 hc1 x0 x1 = k4_pay2 x0 x1 (k4_pay1 (F := F)) := by
  unfold sout4_A
  rw [View.read_writes_eq_canon _ _ _ (scover4_A c i arg2 harg2 arg3 harg3 arg4 harg4 arg5 harg5 hc0 hc1 x0 x1)]
  unfold run4_A
  dsimp only
  sl_unfold_words
  rw [View.canon_cons_unit_zero (S := S2000x150) hz4]
  simp only [View.readAt_eq_ld, harg2.read_unread, harg3.read_unread, View.ld_unit_zero (S := S2000x1024) hz4,
    View.ld_unit_zero (S := S1024x150) hz4, View.readCov_unit_zero (S := S2000x150) _ hz4]

/-- A MIDDLE STEP: the accumulator gains the step's product. -/
theorem sout4_B_eq (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : ¬cond4_0 i) (hc1 : ¬cond4_1 i) (x0 : Vec F S2000x1024 .bf16) (x1 : Vec F S1024x150 .f32) (xs : Vec F S2000x150 .f32) :
    sout4_B c i arg2 harg2 arg3 harg3 arg4 harg4 arg5 harg5 hc0 hc1 x0 x1 xs = k4_pay2 x0 x1 xs := by
  unfold sout4_B
  rw [View.read_writes_eq_canon _ _ _ (scover4_B c i arg2 harg2 arg3 harg3 arg4 harg4 arg5 harg5 hc0 hc1 x0 x1 xs)]
  unfold run4_B
  dsimp only
  sl_unfold_words
  rw [View.canon_unit_zero (S := S2000x150) hz4]
  simp only [View.readAt_eq_ld, harg2.read_unread, harg3.read_unread, harg5.read_unread, View.ld_unit_zero (S := S2000x1024) hz4,
    View.ld_unit_zero (S := S1024x150) hz4, View.ld_unit_zero (S := S2000x150) hz4]

/-- THE LAST STEP: the accumulator gains the step's product, -/
theorem sout4_C_eq (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : ¬cond4_0 i) (hc1 : cond4_1 i) (x0 : Vec F S2000x1024 .bf16) (x1 : Vec F S1024x150 .f32) (xs : Vec F S2000x150 .f32) :
    sout4_C c i arg2 harg2 arg3 harg3 arg4 harg4 arg5 harg5 hc0 hc1 x0 x1 xs = k4_pay2 x0 x1 xs := by
  unfold sout4_C
  rw [View.read_writes_eq_canon _ _ _ (scover4_C c i arg2 harg2 arg3 harg3 arg4 harg4 arg5 harg5 hc0 hc1 x0 x1 xs)]
  unfold run4_C
  dsimp only
  sl_unfold_words
  rw [View.canon_unit_zero (S := S2000x150) hz4]
  simp only [View.readAt_eq_ld, harg2.read_unread, harg3.read_unread, harg5.read_unread, View.ld_unit_zero (S := S2000x1024) hz4,
    View.ld_unit_zero (S := S1024x150) hz4, View.ld_unit_zero (S := S2000x150) hz4]

/-- and the result block receives the accumulator as the step leaves it. -/
theorem out4_C_eq (c : Dev nD) (i : grid4.Coords)
    (arg2 : Memref sig .tc .vmem S2000x1024 .bf16) (harg2 : arg2.IsWhole) (arg3 : Memref sig .tc .vmem S1024x150 .f32) (harg3 : arg3.IsWhole)
    (arg4 : Memref sig .tc .vmem S2000x150 .f32) (harg4 : arg4.IsWhole) (arg5 : Memref sig .tc .vmem S2000x150 .f32) (harg5 : arg5.IsWhole)
    (hc0 : ¬cond4_0 i) (hc1 : cond4_1 i) (x0 : Vec F S2000x1024 .bf16) (x1 : Vec F S1024x150 .f32) (xs : Vec F S2000x150 .f32) :
    out4_C c i arg2 harg2 arg3 harg3 arg4 harg4 arg5 harg5 hc0 hc1 x0 x1 xs = k4_pay2 x0 x1 xs := by
  unfold out4_C
  rw [View.read_writes_eq_canon _ _ _ (cover4_C c i arg2 harg2 arg3 harg3 arg4 harg4 arg5 harg5 hc0 hc1 x0 x1 xs)]
  unfold run4_C
  dsimp only
  sl_unfold_words
  rw [View.canon_unit_zero (S := S2000x150) hz4]
  simp only [View.readAt_eq_ld, harg2.read_unread, harg3.read_unread, harg5.read_unread, View.ld_unit_zero (S := S2000x1024) hz4,
    View.ld_unit_zero (S := S1024x150) hz4, View.ld_unit_zero (S := S2000x150) hz4, View.readCov_unit_zero (S := S2000x150) _ hz4]

end Pieces

/-! ## The step's arithmetic at the ideal values -/

theorem lhs4_0 (j : S2000x150.Idx) (k : dot_S2000x1024_S1024x150_S2000x150_1_0_0_1_n_n.contr.Idx) :
    (dot_S2000x1024_S1024x150_S2000x150_1_0_0_1_n_n.lhsIdx j k 0).val = (j 0).val := by
  simp [DotDims.lhsIdx, dot_S2000x1024_S1024x150_S2000x150_1_0_0_1_n_n]; rfl

theorem lhs4_1 (j : S2000x150.Idx) (k : dot_S2000x1024_S1024x150_S2000x150_1_0_0_1_n_n.contr.Idx) :
    (dot_S2000x1024_S1024x150_S2000x150_1_0_0_1_n_n.lhsIdx j k 1).val = (k ⟨0, by decide⟩).val :=
  dot_S2000x1024_S1024x150_S2000x150_1_0_0_1_n_n.lhsIdx_val_of_single (cl := 1) rfl j k

theorem rhs4_0 (j : S2000x150.Idx) (k : dot_S2000x1024_S1024x150_S2000x150_1_0_0_1_n_n.contr.Idx) :
    (dot_S2000x1024_S1024x150_S2000x150_1_0_0_1_n_n.rhsIdx j k 0).val = (k ⟨0, by decide⟩).val :=
  dot_S2000x1024_S1024x150_S2000x150_1_0_0_1_n_n.rhsIdx_val_of_single (cr := 0) rfl j k

theorem rhs4_1 (j : S2000x150.Idx) (k : dot_S2000x1024_S1024x150_S2000x150_1_0_0_1_n_n.contr.Idx) :
    (dot_S2000x1024_S1024x150_S2000x150_1_0_0_1_n_n.rhsIdx j k 1).val = (j 1).val := by
  simp [DotDims.rhsIdx, dot_S2000x1024_S1024x150_S2000x150_1_0_0_1_n_n]; rfl

/-- The cleared accumulator is zero everywhere. -/
theorem pay4_1_apply (j : S2000x150.Idx) : k4_pay1 (F := Ideal) j = 0 := by
  unfold k4_pay1
  refine (congrFun (shapeCast_self _ _) j).trans ?_
  exact Ideal.ofBits_zero_f32

/-- One step at an entry (p, q): what the accumulator held there plus the sum over the run's contracted coordinate k
    of x0 (p, k) * x1 (k, q).  The narrowing cast is the identity on extended reals and the product starts from zero. -/
theorem pay4_2_apply (x0 : FVec Ideal S2000x1024 .bf16) (x1 : FVec Ideal S1024x150 .f32) (xs : FVec Ideal S2000x150 .f32)
    (p : Fin 2000) (q : Fin 150) :
    k4_pay2 (F := Ideal) x0 x1 xs (ix2 p q) = xs (ix2 p q) + ∑ k : Fin 1024, x0 (ix2 p k) * x1 (ix2 k q) := by
  have e : k4_pay2 (F := Ideal) x0 x1 xs
      = addf xs (matmul dot_S2000x1024_S1024x150_S2000x150_1_0_0_1_n_n none x0 (truncf .bf16 x1 bitsLt_bf16_f32)
          (constant S2000x150 .f32 0x00000000#32)) := by
    simp only [k4_pay2, shapeCast_self]
  rw [e]
  refine (congrArg (fun z : EReal => xs (ix2 p q) + z)
    (Ideal.matmul_constant_zero_apply dot_S2000x1024_S1024x150_S2000x150_1_0_0_1_n_n none x0 (truncf .bf16 x1 bitsLt_bf16_f32) (ix2 p q))).trans ?_
  refine congrArg (fun z : EReal => xs (ix2 p q) + z) ?_
  rw [← Equiv.sum_comp (contrEquiv1 dot_S2000x1024_S1024x150_S2000x150_1_0_0_1_n_n 1024 rfl rfl).symm]
  refine Finset.sum_congr rfl fun k _ => ?_
  have hk := contrEquiv1_symm_val dot_S2000x1024_S1024x150_S2000x150_1_0_0_1_n_n 1024 rfl rfl k
  have hl : dot_S2000x1024_S1024x150_S2000x150_1_0_0_1_n_n.lhsIdx (ix2 p q)
      ((contrEquiv1 dot_S2000x1024_S1024x150_S2000x150_1_0_0_1_n_n 1024 rfl rfl).symm k) = ix2 p k := by
    funext ax; apply Fin.ext
    match ax with
    | ⟨0, _⟩ => exact lhs4_0 _ _
    | ⟨1, _⟩ => exact (lhs4_1 _ _).trans hk
  have hr : dot_S2000x1024_S1024x150_S2000x150_1_0_0_1_n_n.rhsIdx (ix2 p q)
      ((contrEquiv1 dot_S2000x1024_S1024x150_S2000x150_1_0_0_1_n_n 1024 rfl rfl).symm k) = ix2 k q := by
    funext ax; apply Fin.ext
    match ax with
    | ⟨0, _⟩ => exact (rhs4_0 _ _).trans hk
    | ⟨1, _⟩ => exact rhs4_1 _ _
  show x0 (dot_S2000x1024_S1024x150_S2000x150_1_0_0_1_n_n.lhsIdx (ix2 p q) _) * x1 (dot_S2000x1024_S1024x150_S2000x150_1_0_0_1_n_n.rhsIdx (ix2 p q) _) = _
  rw [hl, hr]

/-! ## The whole-array function -/

/-- The matrix product of a 10000 x 10240 array and a 10240 x 150 array over the extended reals, entry by entry. -/
def G4 (a0 : FVec Ideal S10000x10240 .bf16) (a1 : FVec Ideal S10240x150 .f32) : FVec Ideal S10000x150 .f32 :=
  fun i => ∑ s : Fin 10240, a0 (ix2 (i 0) s) * a1 (ix2 s (i 1))

theorem G4_apply (a0 : FVec Ideal S10000x10240 .bf16) (a1 : FVec Ideal S10240x150 .f32) (i : Fin 10000) (j : Fin 150) :
    G4 a0 a1 (ix2 i j) = ∑ s : Fin 10240, a0 (ix2 i s) * a1 (ix2 s j) := rfl

/-- Run `s` of the contracted index (positions s * 1024 … s * 1024 + 1023) of entry (r, q) of the product; zero off the
    array and past the last run, so that it is a function of naturals. -/
def part4 (a0 : FVec Ideal S10000x10240 .bf16) (a1 : FVec Ideal S10240x150 .f32) (r : ℕ) (q : Fin 150) (s : ℕ) : EReal :=
  if h : r < 10000 ∧ s < 10 then
    ∑ k : Fin 1024, a0 (ix2 (⟨r, h.1⟩ : Fin 10000) (⟨s * 1024 + k.val, by have := k.isLt; omega⟩ : Fin 10240))
      * a1 (ix2 (⟨s * 1024 + k.val, by have := k.isLt; omega⟩ : Fin 10240) q)
  else 0

/-- The ten runs make up the entry of the product. -/
theorem sum_part4 (a0 : FVec Ideal S10000x10240 .bf16) (a1 : FVec Ideal S10240x150 .f32) (r : ℕ) (hr : r < 10000) (q : Fin 150) :
    ∑ s ∈ Finset.range 10, part4 a0 a1 r q s = G4 a0 a1 (ix2 (⟨r, hr⟩ : Fin 10000) q) := by
  rw [G4_apply, Cert.Spec.sum_blocks_10240, Finset.sum_range]
  refine Finset.sum_congr rfl fun s _ => ?_
  unfold part4
  rw [dif_pos ⟨hr, s.isLt⟩]

variable (V : (c : Dev nD) → (b : Ref sig .tc) → Buf (Elt Ideal) ((c : Thread nD τ).loc b))

/-- The two operand arrays as the region finds them, and their blocks at a point. -/
abbrev aarr4 (c : Dev nD) : FVec Ideal S10000x10240 .bf16 := V c (Pipeline.arrRef spec4 0)
abbrev harr4 (c : Dev nD) : FVec Ideal S10240x150 .f32 := V c (Pipeline.arrRef spec4 1)
abbrev ablk4 (c : Dev nD) (t : Fin cfg4.N) : FVec Ideal S2000x1024 .bf16 := iblk4 V c 0 t
abbrev hblk4 (c : Dev nD) (t : Fin cfg4.N) : FVec Ideal S1024x150 .f32 := iblk4 V c 1 t

/-! ## The blocks, read off the arrays -/

/-- The index maps, decided over the grid: the row block of the first operand and of the result is the point's
    number divided by the number of runs, the run is the remainder; the second operand's row block is the run; no
    column block moves. -/
theorem idx_facts4 : ∀ t : Fin cfg4.N, win4_0.index t (0 : Fin 2) = t.val / 10
    ∧ win4_0.index t (1 : Fin 2) = t.val % 10
    ∧ win4_1.index t (0 : Fin 2) = t.val % 10
    ∧ win4_1.index t (1 : Fin 2) = 0
    ∧ win4_2.index t (0 : Fin 2) = t.val / 10
    ∧ win4_2.index t (1 : Fin 2) = 0 :=
  (by decide +kernel : ∀ t : Fin grid4.N, _)

theorem lt_N4 (t : Fin cfg4.N) : t.val < 50 := lt_of_lt_of_eq t.isLt N_4

/-- A run of the first operand's block against the second's is that run of the product's entry. -/
theorem blocks4_apply (c : Dev nD) (t : Fin cfg4.N) (p : Fin 2000) (q : Fin 150) :
    ∑ k : Fin 1024, ablk4 V c t (ix2 p k) * hblk4 V c t (ix2 k q)
      = part4 (aarr4 V c) (harr4 V c) (t.val / 10 * 2000 + p.val) q (t.val % 10) := by
  obtain ⟨e0, e1, e2, e3, e4, e5⟩ := idx_facts4 t
  have hN := lt_N4 t
  have hr : t.val / 10 * 2000 + p.val < 10000 := by have := p.isLt; omega
  have hs : t.val % 10 < 10 := Nat.mod_lt _ (by decide)
  unfold part4
  rw [dif_pos ⟨hr, hs⟩]
  refine Finset.sum_congr rfl fun k _ => ?_
  have h0 : ((cfg4.win 0).blk t).view.emb (ix2 p k)
      = ix2 (⟨t.val / 10 * 2000 + p.val, hr⟩ : Fin 10000) (⟨t.val % 10 * 1024 + k.val, by have := k.isLt; omega⟩ : Fin 10240) := by
    funext a; apply Fin.ext
    match a with
    | ⟨0, _⟩ => show win4_0.index t (0 : Fin 2) * 2000 + 1 * p.val = t.val / 10 * 2000 + p.val; omega
    | ⟨1, _⟩ => show win4_0.index t (1 : Fin 2) * 1024 + 1 * k.val = t.val % 10 * 1024 + k.val; omega
  have h1 : ((cfg4.win 1).blk t).view.emb (ix2 k q)
      = ix2 (⟨t.val % 10 * 1024 + k.val, by have := k.isLt; omega⟩ : Fin 10240) q := by
    funext a; apply Fin.ext
    match a with
    | ⟨0, _⟩ => show win4_1.index t (0 : Fin 2) * 1024 + 1 * k.val = t.val % 10 * 1024 + k.val; omega
    | ⟨1, _⟩ => show win4_1.index t (1 : Fin 2) * 150 + 1 * q.val = q.val; omega
  exact congrArg₂ (fun a b : EReal => a * b) (congrArg (aarr4 V c) h0) (congrArg (harr4 V c) h1)

/-! ## The accumulator after each point -/

/-- THE INVARIANT.  After the body at point `t` the accumulator holds, at entry (p, q), the runs 0 … t % 10 of entry
    (t / 10 * 2000 + p, q) of the product: by induction on the point — a first step starts from zero, every other step
    adds its run to what the point before left, and the point before is in the same row block, one run earlier. -/
theorem scrAt4_apply (c : Dev nD) (t : Fin cfg4.N) (p : Fin 2000) (q : Fin 150) :
    scrAt4 (F := Ideal) V c t.val t.isLt (ix2 p q)
      = ∑ s ∈ Finset.range (t.val % 10 + 1), part4 (aarr4 V c) (harr4 V c) (t.val / 10 * 2000 + p.val) q s := by
  obtain ⟨n, hn⟩ := t
  induction n with
  | zero =>
    have h0 : (⟨0, hn⟩ : Fin cfg4.N).val % 10 = 0 := rfl
    have h1 : ¬(⟨0, hn⟩ : Fin cfg4.N).val % 10 = 9 := by show ¬(0 % 10 = 9); decide
    rw [scrAt4_A V c ⟨0, hn⟩ h0 h1, sout4_A_eq]
    refine (pay4_2_apply (ablk4 V c ⟨0, hn⟩) (hblk4 V c ⟨0, hn⟩) (k4_pay1 (F := Ideal)) p q).trans ?_
    rw [pay4_1_apply, zero_add, blocks4_apply V c ⟨0, hn⟩ p q]
    show _ = ∑ s ∈ Finset.range (0 % 10 + 1), _
    rw [show (0 % 10 + 1 : ℕ) = 1 from rfl, Finset.sum_range_one]
    rfl
  | succ n ih =>
    have hN : n + 1 < 50 := lt_N4 ⟨n + 1, hn⟩
    by_cases h0 : (n + 1) % 10 = 0
    · have h1 : ¬(n + 1) % 10 = 9 := by omega
      rw [scrAt4_A V c ⟨n + 1, hn⟩ h0 h1, sout4_A_eq]
      refine (pay4_2_apply (ablk4 V c ⟨n + 1, hn⟩) (hblk4 V c ⟨n + 1, hn⟩) (k4_pay1 (F := Ideal)) p q).trans ?_
      rw [pay4_1_apply, zero_add, blocks4_apply V c ⟨n + 1, hn⟩ p q]
      show part4 _ _ ((n + 1) / 10 * 2000 + p.val) q ((n + 1) % 10) = ∑ s ∈ Finset.range ((n + 1) % 10 + 1), _
      rw [h0, Finset.sum_range_one]
    · have ihn := ih (Nat.lt_of_succ_lt hn)
      have hd : n / 10 = (n + 1) / 10 := by omega
      have hm : n % 10 + 1 = (n + 1) % 10 := by omega
      have hstep : k4_pay2 (F := Ideal) (ablk4 V c ⟨n + 1, hn⟩) (hblk4 V c ⟨n + 1, hn⟩) (scrBefore4 V c ⟨n + 1, hn⟩) (ix2 p q)
          = ∑ s ∈ Finset.range ((n + 1) % 10 + 1), part4 (aarr4 V c) (harr4 V c) ((n + 1) / 10 * 2000 + p.val) q s := by
        refine (pay4_2_apply (ablk4 V c ⟨n + 1, hn⟩) (hblk4 V c ⟨n + 1, hn⟩) (scrBefore4 V c ⟨n + 1, hn⟩) p q).trans ?_
        rw [blocks4_apply V c ⟨n + 1, hn⟩ p q]
        rw [show scrBefore4 V c ⟨n + 1, hn⟩ (ix2 p q)
            = ∑ s ∈ Finset.range (n % 10 + 1), part4 (aarr4 V c) (harr4 V c) (n / 10 * 2000 + p.val) q s from ihn]
        show _ + part4 _ _ ((n + 1) / 10 * 2000 + p.val) q ((n + 1) % 10) = _
        rw [hd, ← hm, Finset.sum_range_succ _ (n % 10 + 1)]
      by_cases h1 : (n + 1) % 10 = 9
      · rw [scrAt4_C V c ⟨n + 1, hn⟩ h0 h1, sout4_C_eq]
        exact hstep
      · rw [scrAt4_B V c ⟨n + 1, hn⟩ h0 h1, sout4_B_eq]
        exact hstep

/-! ## From blocks to the array -/

/-- What a last step writes back is the accumulator as that step leaves it: block `t` of the product. -/
theorem flushed4_2_eq (c : Dev nD) (t : Fin cfg4.N) (hf : (cfg4.win 2).flush t = true) :
    (dat4 (F := Ideal) V c).flushed 2 t = ((cfg4.win 2).blk t).view.read (Elt Ideal) (G4 (aarr4 V c) (harr4 V c)) := by
  have h1 : t.val % 10 = 9 := (flush4_2 t).mp hf
  have h0 : ¬t.val % 10 = 0 := by omega
  show (cfg4.win 2).cut (grid4.coords t) ((dat4 (F := Ideal) V c).after 2 t) = _
  rw [after4_2, outAt4_C V c t h0 h1, out4_C_eq, ← sout4_C_eq c (grid4.coords t) (ms4_0 t) (hs4_0 t) (ms4_1 t) (hs4_1 t) (ms4_2 t) (hs4_2 t) scM4 (Memref.isWhole_whole _)
    (fun h => h0 ((hcond4_0 t).mp h)) ((hcond4_1 t).mpr h1), ← scrAt4_C V c t h0 h1]
  obtain ⟨e0, e1, e2, e3, e4, e5⟩ := idx_facts4 t
  have hN := lt_N4 t
  funext j
  obtain ⟨p, q, rfl⟩ : ∃ (p : Fin 2000) (q : Fin 150), j = ix2 p q := ⟨j 0, j 1, eq_ix2 j⟩
  have hr : t.val / 10 * 2000 + p.val < 10000 := by have := p.isLt; omega
  show scrAt4 (F := Ideal) V c t.val t.isLt (ix2 p q) = G4 (aarr4 V c) (harr4 V c) (((cfg4.win 2).blk t).view.emb (ix2 p q))
  rw [scrAt4_apply V c t p q, h1, sum_part4 _ _ _ hr]
  refine congrArg (G4 (aarr4 V c) (harr4 V c)) ?_
  funext a; apply Fin.ext
  match a with
  | ⟨0, _⟩ => show t.val / 10 * 2000 + p.val = win4_2.index t (0 : Fin 2) * 2000 + 1 * p.val; omega
  | ⟨1, _⟩ => show q.val = win4_2.index t (1 : Fin 2) * 150 + 1 * q.val; omega

/-- An index of the result is in point t's block iff each coordinate is in the block's range on its axis. -/
theorem mem_blk4_2 (t : Fin cfg4.N) (i : S10000x150.Idx) :
    i ∈ ((cfg4.win 2).blk t).view.set ↔ ∀ a : Fin 2, win4_2.index t a * S2000x150.size a ≤ (i a).val ∧ (i a).val < win4_2.index t a * S2000x150.size a + S2000x150.size a := by
  show i ∈ ((View.whole main_v68).slice (win4_2.rect t)).set ↔ _
  rw [View.set_slice_whole, Rect.mem_set_unit]
  exact Iff.rfl

/-- Every row block of the result is written back by some point (the last step of its row of the grid). -/
theorem idx_onto4 : ∀ q0 : Fin 5, ∃ t : Fin cfg4.N, (cfg4.win 2).flush t = true ∧ win4_2.index t = ![q0.val, 0] :=
  (by decide +kernel : ∀ q0 : Fin 5, ∃ t : Fin grid4.N, win4_2.flush t = true ∧ win4_2.index t = ![q0.val, 0])

/-- The row blocks tile the result: row r lies in the block of row block r / 2000. -/
theorem covered4_2 (i : S10000x150.Idx) :
    ∃ t : Fin cfg4.N, (cfg4.win 2).flush t = true ∧ i ∈ ((cfg4.win 2).blk t).view.set := by
  have hi0 : (i 0).val < 10000 := (i 0).isLt
  have hi1 : (i 1).val < 150 := (i 1).isLt
  obtain ⟨t, hft, ht⟩ := idx_onto4 ⟨(i 0).val / 2000, by omega⟩
  have q0 : win4_2.index t (0 : Fin 2) = (i 0).val / 2000 := congrFun ht 0
  have q1 : win4_2.index t (1 : Fin 2) = 0 := congrFun ht 1
  refine ⟨t, hft, ?_⟩
  rw [mem_blk4_2]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 150 ≤ (i 1).val ∧ (i 1).val < win4_2.index t (1 : Fin 2) * 150 + 150; omega

/-- THE ARRAY the region leaves in its result window: the product of the two arrays it found. -/
theorem final4_2 (c : Dev nD) : (dat4 (F := Ideal) V c).arrAt 2 cfg4.N = G4 (aarr4 V c) (harr4 V c) :=
  (dat4 (F := Ideal) V c).arrAt_eq_of_cover 2 (G4 (aarr4 V c) (harr4 V c)) (fun t hf => flushed4_2_eq V c t hf) (covered4_2)

/-! ## Over the reals -/

/-- Where the two arrays hold real numbers, the result holds the real matrix product. -/
theorem final4_real (c : Dev nD) (ar : Fin 10000 → Fin 10240 → ℝ) (hr : Fin 10240 → Fin 150 → ℝ)
    (ha : ∀ i s, (V c (Pipeline.arrRef spec4 0) : S10000x10240.Idx → EReal) (ix2 i s) = ((ar i s : ℝ) : EReal))
    (hh : ∀ s j, (V c (Pipeline.arrRef spec4 1) : S10240x150.Idx → EReal) (ix2 s j) = ((hr s j : ℝ) : EReal))
    (i : Fin 10000) (j : Fin 150) :
    ((dat4 (F := Ideal) V c).arrAt 2 cfg4.N : S10000x150.Idx → EReal) (ix2 i j)
      = ((∑ s : Fin 10240, ar i s * hr s j : ℝ) : EReal) := by
  refine (congrFun (final4_2 V c) (ix2 i j)).trans ?_
  show (∑ s : Fin 10240, aarr4 V c (ix2 i s) * harr4 V c (ix2 s j) : EReal) = _
  rw [← Cert.LibCoe.sum_coe]
  refine Finset.sum_congr rfl fun s _ => ?_
  rw [← Cert.LibCoe.mul_coe]
  exact congrArg₂ (fun a b : EReal => a * b) (ha i s) (hh s j)

end Cert.KernelIdeal.HandV

end
-- ==== Proof.Val5.lean ====
import proofs.«408066_j62380105008311_2_alg».proof.Proof.Reg5
import proofs.«408066_j62380105008311_2_alg».proof.Proof.Spec
import proofs.«408066_j62380105008311_2_alg».proof.Proof.LibCoe
import proofs.«408066_j62380105008311_2_alg».proof.Proof.SpecLaws2
import Idealize.ShloMosaic.Lib.Pipeline.Value
import Idealize.ShloMosaic.Lib.ValueIdx
import Idealize.ShloMosaic.Lib.ValueLayout
import Idealize.ShloMosaic.PureOps.Ideal.Laws

/-!
# Pipeline 5 at the ideal values: the clamped biased rows, their column sums and column sums of squares

Each grid point writes back one row block of the first result: the bias row added to the matching row block and
clamped at zero. The row blocks tile the result, so the array the region leaves is that function of the two arrays it
found, entry by entry. The two one-row results are written back once, after the last point: each holds, per column,
the sum over the points of the block's column sum (of squares), from a zero start; the blocks partition the rows, so
that is the sum over all rows. Where the two arrays hold real numbers the three results hold the real clamped sum,
its column sums and its column sums of squares.
-/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## The three whole-array functions -/

/-- The rows plus the bias row, clamped at zero, entry by entry. -/
def relu5 (a0 : FVec Ideal S10000x150 .f32) (a1 : FVec Ideal S1x150 .f32) : FVec Ideal S10000x150 .f32 :=
  fun i => max (a0 i + a1 (ix2 (0 : Fin 1) (i 1))) (Ideal.ofBits .f32 0x00000000#32)

/-- Its column sums, as one row. -/
def colsum5 (a0 : FVec Ideal S10000x150 .f32) (a1 : FVec Ideal S1x150 .f32) : FVec Ideal S1x150 .f32 :=
  fun j => ∑ i : Fin 10000, relu5 a0 a1 (ix2 i (j 1))

/-- Its column sums of squares, as one row. -/
def colsumsq5 (a0 : FVec Ideal S10000x150 .f32) (a1 : FVec Ideal S1x150 .f32) : FVec Ideal S1x150 .f32 :=
  fun j => ∑ i : Fin 10000, relu5 a0 a1 (ix2 i (j 1)) * relu5 a0 a1 (ix2 i (j 1))

/-! ## The payloads at an entry -/

theorem hz5 : (![0, 0] : Fin 2 → Nat) = fun _ => 0 := funext fun a => by fin_cases a <;> rfl

/-- An index of a one-row array has row coordinate zero. -/
theorem row_idx5 (j : S1x150.Idx) : j = ix2 (0 : Fin 1) (j 1) := by
  funext a
  match a with
  | ⟨0, _⟩ => exact Fin.ext (by have h : (j 0).val < 1 := (j 0).isLt; show (j 0).val = 0; omega)
  | ⟨1, _⟩ => rfl

/-- The body's first payload at an entry of a block: the entry plus the bias at its column, clamped at zero. -/
theorem pay5_3_at (x0 : FVec Ideal S1000x150 .f32) (x1 : FVec Ideal S1x150 .f32) (j : S1000x150.Idx) :
    k5_pay3 (F := Ideal) x0 x1 j = max (x0 j + x1 (ix2 (0 : Fin 1) (j 1))) (Ideal.ofBits .f32 0x00000000#32) := by
  unfold k5_pay3
  simp only [shapeCast_self]
  rw [maximumf_apply, addf_apply, broadcast_apply,
    broadcastTo_apply x1 _ j (ix2 (0 : Fin 1) (j 1)) (fun ax => by
      match ax with
      | ⟨0, _⟩ => rfl
      | ⟨1, _⟩ => rfl)]
  rfl

/-- One update of the column-sum row at a column: what it held plus the block's column sum. -/
theorem pay5_4_at (x0 : FVec Ideal S1000x150 .f32) (x1 : FVec Ideal S1x150 .f32) (a : FVec Ideal S1x150 .f32) (q : Fin 150) :
    k5_pay4 (F := Ideal) x0 x1 a (ix2 (0 : Fin 1) q)
      = a (ix2 (0 : Fin 1) q) + ∑ p : Fin 1000, k5_pay3 (F := Ideal) x0 x1 (ix2 p q) := by
  unfold k5_pay4
  simp only [shapeCast_self]
  rw [addf_apply, shapeCast_a_1a_apply]
  refine congrArg (fun z : EReal => a (ix2 (0 : Fin 1) q) + z) ?_
  refine (Ideal.multiReduction_add_single (k5_pay3 (F := Ideal) x0 x1) 0x00000000#32 reduces_S1000x150_S150 _ _ (ix1 q)).trans ?_
  refine Finset.sum_congr rfl fun p _ => ?_
  refine congrArg (k5_pay3 (F := Ideal) x0 x1) ?_
  funext d; apply Fin.ext
  match d with
  | ⟨0, _⟩ => rfl
  | ⟨1, _⟩ => rfl

/-- One update of the column-sum-of-squares row at a column. -/
theorem pay5_5_at (x0 : FVec Ideal S1000x150 .f32) (x1 : FVec Ideal S1x150 .f32) (a : FVec Ideal S1x150 .f32) (q : Fin 150) :
    k5_pay5 (F := Ideal) x0 x1 a (ix2 (0 : Fin 1) q)
      = a (ix2 (0 : Fin 1) q) + ∑ p : Fin 1000, k5_pay3 (F := Ideal) x0 x1 (ix2 p q) * k5_pay3 (F := Ideal) x0 x1 (ix2 p q) := by
  unfold k5_pay5
  simp only [shapeCast_self]
  rw [addf_apply, shapeCast_a_1a_apply]
  refine congrArg (fun z : EReal => a (ix2 (0 : Fin 1) q) + z) ?_
  refine (Ideal.multiReduction_add_single (mulf (k5_pay3 (F := Ideal) x0 x1) (k5_pay3 (F := Ideal) x0 x1)) 0x00000000#32 reduces_S1000x150_S150 _ _ (ix1 q)).trans ?_
  refine Finset.sum_congr rfl fun p _ => ?_
  have e : reduces_S1000x150_S150.lift (ix1 q) p = ix2 p q := by
    funext d; apply Fin.ext
    match d with
    | ⟨0, _⟩ => rfl
    | ⟨1, _⟩ => rfl
  rw [mulf_apply, e]
  rfl

/-- The reset rows hold zero. -/
theorem zero5_3_at (j : S1x150.Idx) : zero5_3 (F := Ideal) j = 0 := by
  unfold zero5_3
  rw [View.canon_unit_zero hz5]
  exact Cert.LibCoe.ofBits_zero.trans EReal.coe_zero
theorem zero5_4_at (j : S1x150.Idx) : zero5_4 (F := Ideal) j = 0 := by
  unfold zero5_4
  rw [View.canon_unit_zero hz5]
  exact Cert.LibCoe.ofBits_zero.trans EReal.coe_zero

/-- A point's update of each running row, at a column. -/
theorem step5_3_at (x0 : FVec Ideal S1000x150 .f32) (x1 : FVec Ideal S1x150 .f32) (a : FVec Ideal S1x150 .f32) (q : Fin 150) :
    step5_3 (F := Ideal) x0 x1 a (ix2 (0 : Fin 1) q)
      = a (ix2 (0 : Fin 1) q) + ∑ p : Fin 1000, k5_pay3 (F := Ideal) x0 x1 (ix2 p q) := by
  unfold step5_3
  rw [View.canon_unit_zero hz5]
  simp only [View.ld_unit_zero (S := S1000x150) hz5, View.ld_unit_zero (S := S1x150) hz5]
  exact pay5_4_at x0 x1 a q
theorem step5_4_at (x0 : FVec Ideal S1000x150 .f32) (x1 : FVec Ideal S1x150 .f32) (a : FVec Ideal S1x150 .f32) (q : Fin 150) :
    step5_4 (F := Ideal) x0 x1 a (ix2 (0 : Fin 1) q)
      = a (ix2 (0 : Fin 1) q) + ∑ p : Fin 1000, k5_pay3 (F := Ideal) x0 x1 (ix2 p q) * k5_pay3 (F := Ideal) x0 x1 (ix2 p q) := by
  unfold step5_4
  rw [View.canon_unit_zero hz5]
  simp only [View.ld_unit_zero (S := S1000x150) hz5, View.ld_unit_zero (S := S1x150) hz5]
  exact pay5_5_at x0 x1 a q
variable (V : (c : Dev nD) → (b : Ref sig .tc) → Buf (Elt Ideal) ((c : Thread nD τ).loc b))

/-- The two operand arrays as the region finds them. -/
abbrev xarr5 (c : Dev nD) : FVec Ideal S10000x150 .f32 := V c (Pipeline.arrRef spec5 0)
abbrev barr5 (c : Dev nD) : FVec Ideal S1x150 .f32 := V c (Pipeline.arrRef spec5 1)

/-! ## From blocks to the arrays -/

/-- The index maps, decided over the grid: the rows' block and the first result's block are the point's, nothing
    moves along the columns, and the bias row and the two one-row results never move. -/
theorem idx_facts5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0 :=
  (by decide +kernel : ∀ t : Fin grid5.N, _)

/-- Row `p` of point `t`'s block is row `t · 1000 + p` of the array. -/
def row5 (t : Fin cfg5.N) (p : Fin 1000) : Fin 10000 :=
  ⟨t.val * 1000 + p.val, by have h : t.val < 10 := lt_of_lt_of_eq t.isLt N_5; have := p.isLt; omega⟩

theorem blk5_0_emb (t : Fin cfg5.N) (p : Fin 1000) (q : Fin 150) :
    ((cfg5.win 0).blk t).view.emb (ix2 p q) = ix2 (row5 t p) q := by
  obtain ⟨e0, e1, -⟩ := idx_facts5 t
  funext a; apply Fin.ext
  match a with
  | ⟨0, _⟩ => show win5_0.index t (0 : Fin 2) * 1000 + 1 * p.val = t.val * 1000 + p.val; omega
  | ⟨1, _⟩ => show win5_0.index t (1 : Fin 2) * 150 + 1 * q.val = q.val; omega

theorem blk5_1_emb (t : Fin cfg5.N) (q : Fin 150) :
    ((cfg5.win 1).blk t).view.emb (ix2 (0 : Fin 1) q) = ix2 (0 : Fin 1) q := by
  obtain ⟨-, -, e2, e3, -⟩ := idx_facts5 t
  funext a; apply Fin.ext
  match a with
  | ⟨0, _⟩ => show win5_1.index t (0 : Fin 2) * 1 + 1 * 0 = 0; omega
  | ⟨1, _⟩ => show win5_1.index t (1 : Fin 2) * 150 + 1 * q.val = q.val; omega

/-- The body's first payload on point `t`'s blocks, at `(p, q)`: the whole-array function at row `t · 1000 + p`. -/
theorem block5_at (c : Dev nD) (t : Fin cfg5.N) (p : Fin 1000) (q : Fin 150) :
    k5_pay3 (F := Ideal) (iblk5 V c 0 t) (iblk5 V c 1 t) (ix2 p q) = relu5 (xarr5 V c) (barr5 V c) (ix2 (row5 t p) q) := by
  refine (pay5_3_at _ _ (ix2 p q)).trans ?_
  exact congrArg₂ (fun a b : EReal => max (a + b) (Ideal.ofBits .f32 0x00000000#32))
    (congrArg (xarr5 V c) (blk5_0_emb t p q)) (congrArg (barr5 V c) (blk5_1_emb t q))

/-! ### The first result: its row blocks tile it -/

/-- What point `t` writes back is block `t` of the clamped sum of the two arrays. -/
theorem flushed5_2_eq (c : Dev nD) (t : Fin cfg5.N) :
    (dat5 (F := Ideal) V c).flushed 2 t = ((cfg5.win 2).blk t).view.read (Elt Ideal) (relu5 (xarr5 V c) (barr5 V c)) := by
  show (cfg5.win 2).cut (grid5.coords t) ((dat5 (F := Ideal) V c).after 2 t) = _
  rw [after5_2]
  unfold out5_2
  rw [View.canon_unit_zero hz5]
  simp only [View.ld_unit_zero (S := S1000x150) hz5, View.ld_unit_zero (S := S1x150) hz5]
  obtain ⟨e0, e1, e2, e3, e4, e5, -⟩ := idx_facts5 t
  funext j
  show k5_pay3 (F := Ideal) (iblk5 V c 0 t) (iblk5 V c 1 t) j = relu5 (xarr5 V c) (barr5 V c) (((cfg5.win 2).blk t).view.emb j)
  refine (pay5_3_at _ _ j).trans ?_
  have h0 : ((cfg5.win 0).blk t).view.emb j = ((cfg5.win 2).blk t).view.emb j := by
    funext a; apply Fin.ext
    match a with
    | ⟨0, _⟩ => show win5_0.index t (0 : Fin 2) * 1000 + 1 * (j 0).val = win5_2.index t (0 : Fin 2) * 1000 + 1 * (j 0).val; omega
    | ⟨1, _⟩ => show win5_0.index t (1 : Fin 2) * 150 + 1 * (j 1).val = win5_2.index t (1 : Fin 2) * 150 + 1 * (j 1).val; omega
  have h1 : ((cfg5.win 1).blk t).view.emb (ix2 (0 : Fin 1) (j 1)) = ix2 (0 : Fin 1) ((((cfg5.win 2).blk t).view.emb j) 1) := by
    funext a; apply Fin.ext
    match a with
    | ⟨0, _⟩ => show win5_1.index t (0 : Fin 2) * 1 + 1 * 0 = 0; omega
    | ⟨1, _⟩ => show win5_1.index t (1 : Fin 2) * 150 + 1 * (j 1).val = win5_2.index t (1 : Fin 2) * 150 + 1 * (j 1).val; omega
  exact congrArg₂ (fun a b : EReal => max (a + b) (Ideal.ofBits .f32 0x00000000#32))
    (congrArg (xarr5 V c) h0) (congrArg (barr5 V c) h1)

/-- An index of the first result is in point `t`'s block iff each coordinate is in the block's range on its axis. -/
theorem mem_blk5_2 (t : Fin cfg5.N) (i : S10000x150.Idx) :
    i ∈ ((cfg5.win 2).blk t).view.set ↔ ∀ a : Fin 2, win5_2.index t a * S1000x150.size a ≤ (i a).val ∧ (i a).val < win5_2.index t a * S1000x150.size a + S1000x150.size a := by
  show i ∈ ((View.whole (Pipeline.arrRef spec5 2)).slice (win5_2.rect t)).set ↔ _
  rw [View.set_slice_whole, Rect.mem_set_unit]
  exact Iff.rfl

/-- Every row block of the first result is some point's. -/
theorem idx_onto5 : ∀ q0 : Fin 10, ∃ t : Fin cfg5.N, win5_2.index t = ![q0.val, 0] :=
  (by decide +kernel : ∀ q0 : Fin 10, ∃ t : Fin grid5.N, win5_2.index t = ![q0.val, 0])

/-- The row blocks tile the first result: row `r` lies in the block of point `r / 1000`. -/
theorem covered5_2 (i : S10000x150.Idx) :
    ∃ t : Fin cfg5.N, (cfg5.win 2).flush t = true ∧ i ∈ ((cfg5.win 2).blk t).view.set := by
  have hi0 : (i 0).val < 10000 := (i 0).isLt
  have hi1 : (i 1).val < 150 := (i 1).isLt
  obtain ⟨t, ht⟩ := idx_onto5 ⟨(i 0).val / 1000, by omega⟩
  have q0 : win5_2.index t (0 : Fin 2) = (i 0).val / 1000 := congrFun ht 0
  have q1 : win5_2.index t (1 : Fin 2) = 0 := congrFun ht 1
  refine ⟨t, flush5_2 t, ?_⟩
  rw [mem_blk5_2]
  intro a
  match a with
  | ⟨0, _⟩ => show win5_2.index t (0 : Fin 2) * 1000 ≤ (i 0).val ∧ (i 0).val < win5_2.index t (0 : Fin 2) * 1000 + 1000; omega
  | ⟨1, _⟩ => show win5_2.index t (1 : Fin 2) * 150 ≤ (i 1).val ∧ (i 1).val < win5_2.index t (1 : Fin 2) * 150 + 150; omega

/-- THE ARRAY the region leaves in its first result window. -/
theorem final5_2 (c : Dev nD) : (dat5 (F := Ideal) V c).arrAt 2 cfg5.N = relu5 (xarr5 V c) (barr5 V c) :=
  (dat5 (F := Ideal) V c).arrAt_eq_of_cover 2 (relu5 (xarr5 V c) (barr5 V c)) (fun t _ => flushed5_2_eq V c t) covered5_2

/-! ### The two running rows: a sum over the points -/

/-- Point `s`'s addend to the column sums at column `q`: its block's column sum (zero past the grid), -/
def add5_3 (a0 : FVec Ideal S10000x150 .f32) (a1 : FVec Ideal S1x150 .f32) (s : ℕ) (q : Fin 150) : EReal :=
  if h : s < 10 then ∑ p : Fin 1000, relu5 a0 a1 (ix2 (⟨s * 1000 + p.val, by have := p.isLt; omega⟩ : Fin 10000) q) else 0
/-- and to the column sums of squares. -/
def add5_4 (a0 : FVec Ideal S10000x150 .f32) (a1 : FVec Ideal S1x150 .f32) (s : ℕ) (q : Fin 150) : EReal :=
  if h : s < 10 then ∑ p : Fin 1000, relu5 a0 a1 (ix2 (⟨s * 1000 + p.val, by have := p.isLt; omega⟩ : Fin 10000) q)
      * relu5 a0 a1 (ix2 (⟨s * 1000 + p.val, by have := p.isLt; omega⟩ : Fin 10000) q) else 0

/-- The column sum of point `t`'s clamped block is its addend. -/
theorem point5_3 (c : Dev nD) (t : Fin cfg5.N) (q : Fin 150) :
    ∑ p : Fin 1000, k5_pay3 (F := Ideal) (iblk5 V c 0 t) (iblk5 V c 1 t) (ix2 p q) = add5_3 (xarr5 V c) (barr5 V c) t.val q := by
  unfold add5_3
  rw [dif_pos (lt_of_lt_of_eq t.isLt N_5)]
  exact Finset.sum_congr rfl fun p _ => block5_at V c t p q
theorem point5_4 (c : Dev nD) (t : Fin cfg5.N) (q : Fin 150) :
    ∑ p : Fin 1000, k5_pay3 (F := Ideal) (iblk5 V c 0 t) (iblk5 V c 1 t) (ix2 p q) * k5_pay3 (F := Ideal) (iblk5 V c 0 t) (iblk5 V c 1 t) (ix2 p q)
      = add5_4 (xarr5 V c) (barr5 V c) t.val q := by
  unfold add5_4
  rw [dif_pos (lt_of_lt_of_eq t.isLt N_5)]
  exact Finset.sum_congr rfl fun p _ => congrArg₂ (fun a b : EReal => a * b) (block5_at V c t p q) (block5_at V c t p q)

/-- After the body at position `n` each running row holds the sum of the addends of points `0 … n`. -/
theorem acc5_3_eq (c : Dev nD) : ∀ (n : ℕ) (hn : n < cfg5.N) (q : Fin 150),
    acc5_3 (F := Ideal) V c n hn (ix2 (0 : Fin 1) q) = ∑ s ∈ Finset.range (n + 1), add5_3 (xarr5 V c) (barr5 V c) s q
  | 0, hn, q => by
    refine (step5_3_at _ _ _ q).trans ?_
    rw [zero5_3_at, zero_add, Finset.sum_range_one]
    exact point5_3 V c ⟨0, hn⟩ q
  | n + 1, hn, q => by
    refine (step5_3_at _ _ _ q).trans ?_
    rw [Finset.sum_range_succ]
    exact congrArg₂ (fun a b : EReal => a + b) (acc5_3_eq c n (Nat.lt_of_succ_lt hn) q) (point5_3 V c ⟨n + 1, hn⟩ q)
theorem acc5_4_eq (c : Dev nD) : ∀ (n : ℕ) (hn : n < cfg5.N) (q : Fin 150),
    acc5_4 (F := Ideal) V c n hn (ix2 (0 : Fin 1) q) = ∑ s ∈ Finset.range (n + 1), add5_4 (xarr5 V c) (barr5 V c) s q
  | 0, hn, q => by
    refine (step5_4_at _ _ _ q).trans ?_
    rw [zero5_4_at, zero_add, Finset.sum_range_one]
    exact point5_4 V c ⟨0, hn⟩ q
  | n + 1, hn, q => by
    refine (step5_4_at _ _ _ q).trans ?_
    rw [Finset.sum_range_succ]
    exact congrArg₂ (fun a b : EReal => a + b) (acc5_4_eq c n (Nat.lt_of_succ_lt hn) q) (point5_4 V c ⟨n + 1, hn⟩ q)

/-- The addends of all the points make the sum over all the rows: the blocks partition the rows. -/
theorem sum_add5_3 (a0 : FVec Ideal S10000x150 .f32) (a1 : FVec Ideal S1x150 .f32) (q : Fin 150) :
    ∑ s ∈ Finset.range 10, add5_3 a0 a1 s q = ∑ i : Fin 10000, relu5 a0 a1 (ix2 i q) := by
  rw [Finset.sum_range, Cert.Spec.sum_blocks_10000 (fun i => relu5 a0 a1 (ix2 i q))]
  refine Finset.sum_congr rfl fun u _ => ?_
  unfold add5_3
  rw [dif_pos u.isLt]
theorem sum_add5_4 (a0 : FVec Ideal S10000x150 .f32) (a1 : FVec Ideal S1x150 .f32) (q : Fin 150) :
    ∑ s ∈ Finset.range 10, add5_4 a0 a1 s q = ∑ i : Fin 10000, relu5 a0 a1 (ix2 i q) * relu5 a0 a1 (ix2 i q) := by
  rw [Finset.sum_range, Cert.Spec.sum_blocks_10000 (fun i => relu5 a0 a1 (ix2 i q) * relu5 a0 a1 (ix2 i q))]
  refine Finset.sum_congr rfl fun u _ => ?_
  unfold add5_4
  rw [dif_pos u.isLt]

/-- What the last point writes back of the column-sum row is the column sums of the clamped sum of the two arrays. -/
theorem flushed5_3_eq (c : Dev nD) (t : Fin cfg5.N) (hf : (cfg5.win 3).flush t = true) :
    (dat5 (F := Ideal) V c).flushed 3 t = ((cfg5.win 3).blk t).view.read (Elt Ideal) (colsum5 (xarr5 V c) (barr5 V c)) := by
  have h9 : t.val % 10 = 9 := (flush5_3 t).mp hf
  have hN : t.val < 10 := lt_of_lt_of_eq t.isLt N_5
  obtain ⟨-, -, -, -, -, -, e6, e7, -⟩ := idx_facts5 t
  show (cfg5.win 3).cut (grid5.coords t) ((dat5 (F := Ideal) V c).after 3 t) = _
  rw [after5_3]
  funext j
  show acc5_3 (F := Ideal) V c t.val t.isLt j = colsum5 (xarr5 V c) (barr5 V c) (((cfg5.win 3).blk t).view.emb j)
  have e1 : ((((cfg5.win 3).blk t).view.emb j) 1 : Fin 150) = j 1 :=
    Fin.ext (by show win5_3.index t (1 : Fin 2) * 150 + 1 * (j 1).val = (j 1).val; omega)
  calc acc5_3 (F := Ideal) V c t.val t.isLt j
      = acc5_3 (F := Ideal) V c t.val t.isLt (ix2 (0 : Fin 1) (j 1)) := congrArg _ (row_idx5 j)
    _ = ∑ s ∈ Finset.range (t.val + 1), add5_3 (xarr5 V c) (barr5 V c) s (j 1) := acc5_3_eq V c t.val t.isLt (j 1)
    _ = ∑ s ∈ Finset.range 10, add5_3 (xarr5 V c) (barr5 V c) s (j 1) := by rw [show t.val + 1 = 10 by omega]
    _ = ∑ i : Fin 10000, relu5 (xarr5 V c) (barr5 V c) (ix2 i (j 1)) := sum_add5_3 _ _ _
    _ = colsum5 (xarr5 V c) (barr5 V c) (((cfg5.win 3).blk t).view.emb j) := by unfold colsum5; rw [e1]
theorem flushed5_4_eq (c : Dev nD) (t : Fin cfg5.N) (hf : (cfg5.win 4).flush t = true) :
    (dat5 (F := Ideal) V c).flushed 4 t = ((cfg5.win 4).blk t).view.read (Elt Ideal) (colsumsq5 (xarr5 V c) (barr5 V c)) := by
  have h9 : t.val % 10 = 9 := (flush5_4 t).mp hf
  have hN : t.val < 10 := lt_of_lt_of_eq t.isLt N_5
  obtain ⟨-, -, -, -, -, -, -, -, e8, e9⟩ := idx_facts5 t
  show (cfg5.win 4).cut (grid5.coords t) ((dat5 (F := Ideal) V c).after 4 t) = _
  rw [after5_4]
  funext j
  show acc5_4 (F := Ideal) V c t.val t.isLt j = colsumsq5 (xarr5 V c) (barr5 V c) (((cfg5.win 4).blk t).view.emb j)
  have e1 : ((((cfg5.win 4).blk t).view.emb j) 1 : Fin 150) = j 1 :=
    Fin.ext (by show win5_4.index t (1 : Fin 2) * 150 + 1 * (j 1).val = (j 1).val; omega)
  calc acc5_4 (F := Ideal) V c t.val t.isLt j
      = acc5_4 (F := Ideal) V c t.val t.isLt (ix2 (0 : Fin 1) (j 1)) := congrArg _ (row_idx5 j)
    _ = ∑ s ∈ Finset.range (t.val + 1), add5_4 (xarr5 V c) (barr5 V c) s (j 1) := acc5_4_eq V c t.val t.isLt (j 1)
    _ = ∑ s ∈ Finset.range 10, add5_4 (xarr5 V c) (barr5 V c) s (j 1) := by rw [show t.val + 1 = 10 by omega]
    _ = ∑ i : Fin 10000, relu5 (xarr5 V c) (barr5 V c) (ix2 i (j 1)) * relu5 (xarr5 V c) (barr5 V c) (ix2 i (j 1)) := sum_add5_4 _ _ _
    _ = colsumsq5 (xarr5 V c) (barr5 V c) (((cfg5.win 4).blk t).view.emb j) := by unfold colsumsq5; rw [e1]

/-- An index of a one-row result is in a point's block iff each coordinate is in the block's range on its axis. -/
theorem mem_blk5_3 (t : Fin cfg5.N) (i : S1x150.Idx) :
    i ∈ ((cfg5.win 3).blk t).view.set ↔ ∀ a : Fin 2, win5_3.index t a * S1x150.size a ≤ (i a).val ∧ (i a).val < win5_3.index t a * S1x150.size a + S1x150.size a := by
  show i ∈ ((View.whole (Pipeline.arrRef spec5 3)).slice (win5_3.rect t)).set ↔ _
  rw [View.set_slice_whole, Rect.mem_set_unit]
  exact Iff.rfl
theorem mem_blk5_4 (t : Fin cfg5.N) (i : S1x150.Idx) :
    i ∈ ((cfg5.win 4).blk t).view.set ↔ ∀ a : Fin 2, win5_4.index t a * S1x150.size a ≤ (i a).val ∧ (i a).val < win5_4.index t a * S1x150.size a + S1x150.size a := by
  show i ∈ ((View.whole (Pipeline.arrRef spec5 4)).slice (win5_4.rect t)).set ↔ _
  rw [View.set_slice_whole, Rect.mem_set_unit]
  exact Iff.rfl

/-- The last point's block is the whole row, and it is written back. -/
theorem covered5_3 (i : S1x150.Idx) :
    ∃ t : Fin cfg5.N, (cfg5.win 3).flush t = true ∧ i ∈ ((cfg5.win 3).blk t).view.set := by
  have hi0 : (i 0).val < 1 := (i 0).isLt
  have hi1 : (i 1).val < 150 := (i 1).isLt
  obtain ⟨-, -, -, -, -, -, e6, e7, -⟩ := idx_facts5 t5_9
  refine ⟨t5_9, (flush5_3 t5_9).mpr rfl, ?_⟩
  rw [mem_blk5_3]
  intro a
  match a with
  | ⟨0, _⟩ => show win5_3.index t5_9 (0 : Fin 2) * 1 ≤ (i 0).val ∧ (i 0).val < win5_3.index t5_9 (0 : Fin 2) * 1 + 1; omega
  | ⟨1, _⟩ => show win5_3.index t5_9 (1 : Fin 2) * 150 ≤ (i 1).val ∧ (i 1).val < win5_3.index t5_9 (1 : Fin 2) * 150 + 150; omega
theorem covered5_4 (i : S1x150.Idx) :
    ∃ t : Fin cfg5.N, (cfg5.win 4).flush t = true ∧ i ∈ ((cfg5.win 4).blk t).view.set := by
  have hi0 : (i 0).val < 1 := (i 0).isLt
  have hi1 : (i 1).val < 150 := (i 1).isLt
  obtain ⟨-, -, -, -, -, -, -, -, e8, e9⟩ := idx_facts5 t5_9
  refine ⟨t5_9, (flush5_4 t5_9).mpr rfl, ?_⟩
  rw [mem_blk5_4]
  intro a
  match a with
  | ⟨0, _⟩ => show win5_4.index t5_9 (0 : Fin 2) * 1 ≤ (i 0).val ∧ (i 0).val < win5_4.index t5_9 (0 : Fin 2) * 1 + 1; omega
  | ⟨1, _⟩ => show win5_4.index t5_9 (1 : Fin 2) * 150 ≤ (i 1).val ∧ (i 1).val < win5_4.index t5_9 (1 : Fin 2) * 150 + 150; omega

/-- THE ROW the region leaves in its second result window: the column sums. -/
theorem final5_3 (c : Dev nD) : (dat5 (F := Ideal) V c).arrAt 3 cfg5.N = colsum5 (xarr5 V c) (barr5 V c) :=
  (dat5 (F := Ideal) V c).arrAt_eq_of_cover 3 (colsum5 (xarr5 V c) (barr5 V c)) (fun t hf => flushed5_3_eq V c t hf) covered5_3

/-- THE ROW it leaves in its third result window: the column sums of squares. -/
theorem final5_4 (c : Dev nD) : (dat5 (F := Ideal) V c).arrAt 4 cfg5.N = colsumsq5 (xarr5 V c) (barr5 V c) :=
  (dat5 (F := Ideal) V c).arrAt_eq_of_cover 4 (colsumsq5 (xarr5 V c) (barr5 V c)) (fun t hf => flushed5_4_eq V c t hf) covered5_4

/-! ## Over the reals -/

/-- Where the two arrays hold real numbers, the clamped sum is the real one at every entry. -/
theorem relu5_real (c : Dev nD) (ar : Fin 10000 → Fin 150 → ℝ) (br : Fin 150 → ℝ)
    (hx : ∀ i k, (V c (Pipeline.arrRef spec5 0) : S10000x150.Idx → EReal) (ix2 i k) = ((ar i k : ℝ) : EReal))
    (hb : ∀ k, (V c (Pipeline.arrRef spec5 1) : S1x150.Idx → EReal) (ix2 (0 : Fin 1) k) = ((br k : ℝ) : EReal))
    (i : Fin 10000) (f : Fin 150) :
    relu5 (xarr5 V c) (barr5 V c) (ix2 i f) = ((Cert.Spec.relu (Cert.Spec.addBias ar br) i f : ℝ) : EReal) := by
  show max (xarr5 V c (ix2 i f) + barr5 V c (ix2 (0 : Fin 1) f)) (Ideal.ofBits .f32 0x00000000#32) = ((max (ar i f + br f) 0 : ℝ) : EReal)
  rw [← Cert.LibCoe.max_coe, ← Cert.LibCoe.add_coe, Cert.LibCoe.ofBits_zero]
  exact congrArg₂ (fun a b : EReal => max (a + b) ((0 : ℝ) : EReal)) (hx i f) (hb f)

/-- Where the two arrays hold real numbers, the first result holds the real clamped sum, -/
theorem final5_real_2 (c : Dev nD) (ar : Fin 10000 → Fin 150 → ℝ) (br : Fin 150 → ℝ)
    (hx : ∀ i k, (V c (Pipeline.arrRef spec5 0) : S10000x150.Idx → EReal) (ix2 i k) = ((ar i k : ℝ) : EReal))
    (hb : ∀ k, (V c (Pipeline.arrRef spec5 1) : S1x150.Idx → EReal) (ix2 (0 : Fin 1) k) = ((br k : ℝ) : EReal)) :
    ∀ i f, ((dat5 (F := Ideal) V c).arrAt 2 cfg5.N : S10000x150.Idx → EReal) (ix2 i f)
      = ((Cert.Spec.relu (Cert.Spec.addBias ar br) i f : ℝ) : EReal) := by
  intro i f
  exact (congrFun (final5_2 V c) (ix2 i f)).trans (relu5_real V c ar br hx hb i f)

/-- the second its column sums, -/
theorem final5_real_3 (c : Dev nD) (ar : Fin 10000 → Fin 150 → ℝ) (br : Fin 150 → ℝ)
    (hx : ∀ i k, (V c (Pipeline.arrRef spec5 0) : S10000x150.Idx → EReal) (ix2 i k) = ((ar i k : ℝ) : EReal))
    (hb : ∀ k, (V c (Pipeline.arrRef spec5 1) : S1x150.Idx → EReal) (ix2 (0 : Fin 1) k) = ((br k : ℝ) : EReal)) :
    ∀ f, ((dat5 (F := Ideal) V c).arrAt 3 cfg5.N : S1x150.Idx → EReal) (ix2 (0 : Fin 1) f)
      = ((Cert.Spec.colSum (Cert.Spec.relu (Cert.Spec.addBias ar br)) f : ℝ) : EReal) := by
  intro f
  refine (congrFun (final5_3 V c) (ix2 (0 : Fin 1) f)).trans ?_
  show (∑ i : Fin 10000, relu5 (xarr5 V c) (barr5 V c) (ix2 i f) : EReal)
    = ((∑ i : Fin 10000, Cert.Spec.relu (Cert.Spec.addBias ar br) i f : ℝ) : EReal)
  rw [← Cert.LibCoe.sum_coe]
  exact Finset.sum_congr rfl fun i _ => relu5_real V c ar br hx hb i f

/-- the third its column sums of squares. -/
theorem final5_real_4 (c : Dev nD) (ar : Fin 10000 → Fin 150 → ℝ) (br : Fin 150 → ℝ)
    (hx : ∀ i k, (V c (Pipeline.arrRef spec5 0) : S10000x150.Idx → EReal) (ix2 i k) = ((ar i k : ℝ) : EReal))
    (hb : ∀ k, (V c (Pipeline.arrRef spec5 1) : S1x150.Idx → EReal) (ix2 (0 : Fin 1) k) = ((br k : ℝ) : EReal)) :
    ∀ f, ((dat5 (F := Ideal) V c).arrAt 4 cfg5.N : S1x150.Idx → EReal) (ix2 (0 : Fin 1) f)
      = ((Cert.Spec.colSumSq (Cert.Spec.relu (Cert.Spec.addBias ar br)) f : ℝ) : EReal) := by
  intro f
  refine (congrFun (final5_4 V c) (ix2 (0 : Fin 1) f)).trans ?_
  show (∑ i : Fin 10000, relu5 (xarr5 V c) (barr5 V c) (ix2 i f) * relu5 (xarr5 V c) (barr5 V c) (ix2 i f) : EReal)
    = ((∑ i : Fin 10000, Cert.Spec.relu (Cert.Spec.addBias ar br) i f * Cert.Spec.relu (Cert.Spec.addBias ar br) i f : ℝ) : EReal)
  rw [← Cert.LibCoe.sum_coe]
  refine Finset.sum_congr rfl fun i _ => ?_
  rw [← Cert.LibCoe.mul_coe]
  exact congrArg₂ (fun a b : EReal => a * b) (relu5_real V c ar br hx hb i f) (relu5_real V c ar br hx hb i f)

/-- The three together. -/
theorem final5_real (c : Dev nD) (ar : Fin 10000 → Fin 150 → ℝ) (br : Fin 150 → ℝ)
    (hx : ∀ i k, (V c (Pipeline.arrRef spec5 0) : S10000x150.Idx → EReal) (ix2 i k) = ((ar i k : ℝ) : EReal))
    (hb : ∀ k, (V c (Pipeline.arrRef spec5 1) : S1x150.Idx → EReal) (ix2 (0 : Fin 1) k) = ((br k : ℝ) : EReal)) :
    (∀ i f, ((dat5 (F := Ideal) V c).arrAt 2 cfg5.N : S10000x150.Idx → EReal) (ix2 i f)
        = ((Cert.Spec.relu (Cert.Spec.addBias ar br) i f : ℝ) : EReal))
    ∧ (∀ f, ((dat5 (F := Ideal) V c).arrAt 3 cfg5.N : S1x150.Idx → EReal) (ix2 (0 : Fin 1) f)
        = ((Cert.Spec.colSum (Cert.Spec.relu (Cert.Spec.addBias ar br)) f : ℝ) : EReal))
    ∧ (∀ f, ((dat5 (F := Ideal) V c).arrAt 4 cfg5.N : S1x150.Idx → EReal) (ix2 (0 : Fin 1) f)
        = ((Cert.Spec.colSumSq (Cert.Spec.relu (Cert.Spec.addBias ar br)) f : ℝ) : EReal)) :=
  ⟨final5_real_2 V c ar br hx hb, final5_real_3 V c ar br hx hb, final5_real_4 V c ar br hx hb⟩

end Cert.KernelIdeal.HandV

end
-- ==== Proof.Val6.lean ====
import proofs.«408066_j62380105008311_2_alg».proof.Proof.Reg6
import proofs.«408066_j62380105008311_2_alg».proof.Proof.Spec
import proofs.«408066_j62380105008311_2_alg».proof.Proof.LibCoe
import Idealize.ShloMosaic.Lib.Pipeline.Value
import Idealize.ShloMosaic.Lib.ValueIdx
import Idealize.ShloMosaic.Lib.ValueLayout
import Idealize.ShloMosaic.PureOps.Ideal.Laws

/-! # Region 6 at the ideal instance: what the region leaves in its output array

Each grid point writes back one block of rows: rows of the normalised activations — (x − mean) · rsqrt(variance + ε)
· scale + shift, the four feature rows broadcast along the rows — times the whole weight matrix. Row `i` of the
output therefore depends on row `i` of the activations alone, the blocks are the restrictions of ONE whole-array
function, and they tile the array. Over real entry arrays with every variance + ε positive, that function is the
real dense product of the normalised activations with the weights. -/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-- The sizes: rows of the whole arrays, rows of a block, the input and the output feature widths. -/
abbrev nRows6 : ℕ := 10000
abbrev bRows6 : ℕ := 1000
abbrev wIn6 : ℕ := 150
abbrev wOut6 : ℕ := 100

/-! ## The block product at an index -/

/-- The matrix product's operand indices, axis by axis: the left operand is read at the output's row and the
    contraction position, the right operand at the contraction position and the output's column. -/
theorem lhs6_0 (j : S1000x100.Idx) (k : dot_S1000x150_S150x100_S1000x100_1_0_0_1_n_n.contr.Idx) :
    (dot_S1000x150_S150x100_S1000x100_1_0_0_1_n_n.lhsIdx j k 0).val = (j 0).val := by
  unfold DotDims.lhsIdx
  rw [dif_neg (show ¬(0 : Fin S1000x150.rank) ∈ dot_S1000x150_S150x100_S1000x100_1_0_0_1_n_n.lhsBatch by decide),
    dif_pos (show (0 : Fin S1000x150.rank) ∈ dot_S1000x150_S150x100_S1000x100_1_0_0_1_n_n.lhsNonContracting by decide)]
  rfl

theorem lhs6_1 (j : S1000x100.Idx) (k : dot_S1000x150_S150x100_S1000x100_1_0_0_1_n_n.contr.Idx) :
    (dot_S1000x150_S150x100_S1000x100_1_0_0_1_n_n.lhsIdx j k 1).val = (k ⟨0, by decide⟩).val :=
  dot_S1000x150_S150x100_S1000x100_1_0_0_1_n_n.lhsIdx_val_of_single rfl j k

theorem rhs6_0 (j : S1000x100.Idx) (k : dot_S1000x150_S150x100_S1000x100_1_0_0_1_n_n.contr.Idx) :
    (dot_S1000x150_S150x100_S1000x100_1_0_0_1_n_n.rhsIdx j k 0).val = (k ⟨0, by decide⟩).val :=
  dot_S1000x150_S150x100_S1000x100_1_0_0_1_n_n.rhsIdx_val_of_single rfl j k

theorem rhs6_1 (j : S1000x100.Idx) (k : dot_S1000x150_S150x100_S1000x100_1_0_0_1_n_n.contr.Idx) :
    (dot_S1000x150_S150x100_S1000x100_1_0_0_1_n_n.rhsIdx j k 1).val = (j 1).val := by
  unfold DotDims.rhsIdx
  rw [dif_neg (show ¬(1 : Fin S150x100.rank) ∈ dot_S1000x150_S150x100_S1000x100_1_0_0_1_n_n.rhsBatch by decide),
    dif_pos (show (1 : Fin S150x100.rank) ∈ dot_S1000x150_S150x100_S1000x100_1_0_0_1_n_n.rhsNonContracting by decide)]
  rfl

/-- One entry of the normalised activations: (x − mean) · rsqrt(variance + ε) · scale + shift. -/
def nrm6 (x mu v g be : EReal) : EReal := (x - mu) * Ideal.rsqrt (v + Ideal.ofBits .f32 0x3727C5AC#32) * g + be

theorem bcast6 (r : S1x150.Idx → EReal) (p : Fin bRows6) (k : Fin wIn6) :
    broadcastTo S1000x150 r broadcasts_S1x150_S1000x150 (ix2 p k) = r (ix2 0 k) :=
  broadcastTo_apply r _ (ix2 p k) (ix2 0 k) (fun a => by match a with | ⟨0, _⟩ => rfl | ⟨1, _⟩ => rfl)

theorem pay6_apply (x0 : Vec Ideal S1000x150 .f32) (x1 x2 x3 x4 : Vec Ideal S1x150 .f32) (x5 : Vec Ideal S150x100 .f32)
    (p : Fin bRows6) (q : Fin wOut6) :
    k6_pay1 x0 x2 x1 x3 x4 x5 (ix2 p q)
      = ∑ k : Fin wIn6, nrm6 (x0 (ix2 p k)) (x1 (ix2 0 k)) (x2 (ix2 0 k)) (x3 (ix2 0 k)) (x4 (ix2 0 k)) * x5 (ix2 k q) := by
  unfold k6_pay1
  simp only [matmul]
  refine (Ideal.matmul_constant_zero_apply dot_S1000x150_S150x100_S1000x100_1_0_0_1_n_n none _ _ (ix2 p q)).trans ?_
  rw [← Equiv.sum_comp (contrEquiv1 dot_S1000x150_S150x100_S1000x100_1_0_0_1_n_n wIn6 rfl rfl).symm]
  refine Finset.sum_congr rfl fun k _ => ?_
  have hl : dot_S1000x150_S150x100_S1000x100_1_0_0_1_n_n.lhsIdx (ix2 p q)
      ((contrEquiv1 dot_S1000x150_S150x100_S1000x100_1_0_0_1_n_n wIn6 rfl rfl).symm k) = ix2 p k := by
    funext a; apply Fin.ext
    match a with
    | ⟨0, _⟩ => exact lhs6_0 _ _
    | ⟨1, _⟩ => exact (lhs6_1 _ _).trans (contrEquiv1_symm_val dot_S1000x150_S150x100_S1000x100_1_0_0_1_n_n wIn6 rfl rfl k)
  have hr : dot_S1000x150_S150x100_S1000x100_1_0_0_1_n_n.rhsIdx (ix2 p q)
      ((contrEquiv1 dot_S1000x150_S150x100_S1000x100_1_0_0_1_n_n wIn6 rfl rfl).symm k) = ix2 k q := by
    funext a; apply Fin.ext
    match a with
    | ⟨0, _⟩ => exact (rhs6_0 _ _).trans (contrEquiv1_symm_val dot_S1000x150_S150x100_S1000x100_1_0_0_1_n_n wIn6 rfl rfl k)
    | ⟨1, _⟩ => exact rhs6_1 _ _
  rw [hl, hr]
  simp only [shapeCast_self]
  show ((x0 (ix2 p k) - broadcastTo S1000x150 x1 broadcasts_S1x150_S1000x150 (ix2 p k))
        * broadcastTo S1000x150 (rsqrt (F := Ideal) (addf (F := Ideal) x2 (broadcast S1x150 (FloatOps.ofBits (F := Ideal) FTy.f32 0x3727C5AC#32)))) broadcasts_S1x150_S1000x150 (ix2 p k)
        * broadcastTo S1000x150 x3 broadcasts_S1x150_S1000x150 (ix2 p k)
        + broadcastTo S1000x150 x4 broadcasts_S1x150_S1000x150 (ix2 p k)) * x5 (ix2 k q) = _
  rw [bcast6, bcast6, bcast6, bcast6]
  rfl

/-! ## The whole-array function -/

/-- The output array as one function of the entry arrays (activations, mean, variance, scale, shift, weights): entry
    `(i, j)` is row `i` of the normalised activations against column `j` of the weights. -/
def G6 (a0 : S10000x150.Idx → EReal) (a1 a2 a3 a4 : S1x150.Idx → EReal) (a5 : S150x100.Idx → EReal) : S10000x100.Idx → EReal :=
  fun i => ∑ k : Fin wIn6, nrm6 (a0 (ix2 (n0 := nRows6) (i 0) k)) (a1 (ix2 0 k)) (a2 (ix2 0 k)) (a3 (ix2 0 k)) (a4 (ix2 0 k))
    * a5 (ix2 (n1 := wOut6) k (i 1))

variable (V : (c : Dev nD) → (b : Ref sig .tc) → Buf (Elt Ideal) ((c : Thread nD τ).loc b))

theorem hz6 : (![0, 0] : Fin 2 → Nat) = fun _ => 0 := funext fun a => by match a with | ⟨0, _⟩ => rfl | ⟨1, _⟩ => rfl

/-- The index maps, decided over the grid: the activations' and the output's row blocks move together with the point,
    and every other block index is zero (the feature rows and the weights are whole arrays). -/
theorem idx_facts6 : ∀ t : Fin cfg6.N,
    win6_0.index t (0 : Fin 2) = win6_6.index t (0 : Fin 2) ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- The activations' block at point `t`, read at row `p` of the block: the array at the row the output's block has
    there. -/
theorem blk6_0 (c : Dev nD) (t : Fin cfg6.N) (p : Fin bRows6) (q : Fin wOut6) (k : Fin wIn6) :
    iblk6 V c 0 t (ix2 p k)
      = (V c (Pipeline.arrRef spec6 0) : S10000x150.Idx → EReal) (ix2 (n0 := nRows6) ((((cfg6.win 6).blk t).view.emb (ix2 p q)) 0) k) := by
  obtain ⟨e0, e1, -⟩ := idx_facts6 t
  show (V c (Pipeline.arrRef spec6 0) : S10000x150.Idx → EReal) (((cfg6.win 0).blk t).view.emb (ix2 p k)) = _
  refine congrArg _ (funext fun a => Fin.ext ?_)
  match a with
  | ⟨0, _⟩ =>
    show win6_0.index t (0 : Fin 2) * S1000x150.size 0 + 1 * p.val = win6_6.index t (0 : Fin 2) * S1000x100.size 0 + 1 * p.val
    rw [e0]; rfl
  | ⟨1, _⟩ =>
    show win6_0.index t (1 : Fin 2) * S1000x150.size 1 + 1 * k.val = k.val
    rw [e1, Nat.zero_mul, Nat.zero_add, Nat.one_mul]

/-- A feature row's block is the whole row: read at feature `k` it is the array there. The mean row, -/
theorem blk6_1 (c : Dev nD) (t : Fin cfg6.N) (k : Fin wIn6) :
    iblk6 V c 1 t (ix2 0 k) = (V c (Pipeline.arrRef spec6 1) : S1x150.Idx → EReal) (ix2 0 k) := by
  obtain ⟨-, -, e0, e1, -⟩ := idx_facts6 t
  show (V c (Pipeline.arrRef spec6 1) : S1x150.Idx → EReal) (((cfg6.win 1).blk t).view.emb (ix2 0 k)) = _
  refine congrArg _ (funext fun a => Fin.ext ?_)
  match a with
  | ⟨0, _⟩ =>
    show win6_1.index t (0 : Fin 2) * S1x150.size 0 + 1 * 0 = 0
    rw [e0, Nat.zero_mul, Nat.zero_add, Nat.mul_zero]
  | ⟨1, _⟩ =>
    show win6_1.index t (1 : Fin 2) * S1x150.size 1 + 1 * k.val = k.val
    rw [e1, Nat.zero_mul, Nat.zero_add, Nat.one_mul]

/-- the variance row, -/
theorem blk6_2 (c : Dev nD) (t : Fin cfg6.N) (k : Fin wIn6) :
    iblk6 V c 2 t (ix2 0 k) = (V c (Pipeline.arrRef spec6 2) : S1x150.Idx → EReal) (ix2 0 k) := by
  obtain ⟨-, -, -, -, e0, e1, -⟩ := idx_facts6 t
  show (V c (Pipeline.arrRef spec6 2) : S1x150.Idx → EReal) (((cfg6.win 2).blk t).view.emb (ix2 0 k)) = _
  refine congrArg _ (funext fun a => Fin.ext ?_)
  match a with
  | ⟨0, _⟩ =>
    show win6_2.index t (0 : Fin 2) * S1x150.size 0 + 1 * 0 = 0
    rw [e0, Nat.zero_mul, Nat.zero_add, Nat.mul_zero]
  | ⟨1, _⟩ =>
    show win6_2.index t (1 : Fin 2) * S1x150.size 1 + 1 * k.val = k.val
    rw [e1, Nat.zero_mul, Nat.zero_add, Nat.one_mul]

/-- the scale row, -/
theorem blk6_3 (c : Dev nD) (t : Fin cfg6.N) (k : Fin wIn6) :
    iblk6 V c 3 t (ix2 0 k) = (V c (Pipeline.arrRef spec6 3) : S1x150.Idx → EReal) (ix2 0 k) := by
  obtain ⟨-, -, -, -, -, -, e0, e1, -⟩ := idx_facts6 t
  show (V c (Pipeline.arrRef spec6 3) : S1x150.Idx → EReal) (((cfg6.win 3).blk t).view.emb (ix2 0 k)) = _
  refine congrArg _ (funext fun a => Fin.ext ?_)
  match a with
  | ⟨0, _⟩ =>
    show win6_3.index t (0 : Fin 2) * S1x150.size 0 + 1 * 0 = 0
    rw [e0, Nat.zero_mul, Nat.zero_add, Nat.mul_zero]
  | ⟨1, _⟩ =>
    show win6_3.index t (1 : Fin 2) * S1x150.size 1 + 1 * k.val = k.val
    rw [e1, Nat.zero_mul, Nat.zero_add, Nat.one_mul]

/-- the shift row. -/
theorem blk6_4 (c : Dev nD) (t : Fin cfg6.N) (k : Fin wIn6) :
    iblk6 V c 4 t (ix2 0 k) = (V c (Pipeline.arrRef spec6 4) : S1x150.Idx → EReal) (ix2 0 k) := by
  obtain ⟨-, -, -, -, -, -, -, -, e0, e1, -⟩ := idx_facts6 t
  show (V c (Pipeline.arrRef spec6 4) : S1x150.Idx → EReal) (((cfg6.win 4).blk t).view.emb (ix2 0 k)) = _
  refine congrArg _ (funext fun a => Fin.ext ?_)
  match a with
  | ⟨0, _⟩ =>
    show win6_4.index t (0 : Fin 2) * S1x150.size 0 + 1 * 0 = 0
    rw [e0, Nat.zero_mul, Nat.zero_add, Nat.mul_zero]
  | ⟨1, _⟩ =>
    show win6_4.index t (1 : Fin 2) * S1x150.size 1 + 1 * k.val = k.val
    rw [e1, Nat.zero_mul, Nat.zero_add, Nat.one_mul]

/-- The weights' block is the whole matrix: read at `(k, q)` it is the array at row `k` and the column the output's
    block has there. -/
theorem blk6_5 (c : Dev nD) (t : Fin cfg6.N) (p : Fin bRows6) (q : Fin wOut6) (k : Fin wIn6) :
    iblk6 V c 5 t (ix2 k q)
      = (V c (Pipeline.arrRef spec6 5) : S150x100.Idx → EReal) (ix2 (n1 := wOut6) k ((((cfg6.win 6).blk t).view.emb (ix2 p q)) 1)) := by
  obtain ⟨-, -, -, -, -, -, -, -, -, -, e0, e1, -, e3⟩ := idx_facts6 t
  show (V c (Pipeline.arrRef spec6 5) : S150x100.Idx → EReal) (((cfg6.win 5).blk t).view.emb (ix2 k q)) = _
  refine congrArg _ (funext fun a => Fin.ext ?_)
  match a with
  | ⟨0, _⟩ =>
    show win6_5.index t (0 : Fin 2) * S150x100.size 0 + 1 * k.val = k.val
    rw [e0, Nat.zero_mul, Nat.zero_add, Nat.one_mul]
  | ⟨1, _⟩ =>
    show win6_5.index t (1 : Fin 2) * S150x100.size 1 + 1 * q.val = win6_6.index t (1 : Fin 2) * S1000x100.size 1 + 1 * q.val
    rw [e1, e3]; rfl

/-! ## From blocks to the array -/

/-- The output's blocks are never cut at the array's end: the part of a staging buffer a write-back moves is all of it. -/
theorem cut6_6 (t : Fin cfg6.N) (X : Vec Ideal S1000x100 .f32) : (cfg6.win 6).cut (grid6.coords t) X = X := rfl

/-- The block product of blocks that are restrictions of the arrays — the activations' block the rows of `a0` from
    row `i 0` on, the feature rows and the weights whole — is `G6` of the arrays at `i`, for any index `i` whose row
    is row `p` of that block and whose column is `q`. -/
theorem G6_of_blocks (x0 : Vec Ideal S1000x150 .f32) (x1 x2 x3 x4 : Vec Ideal S1x150 .f32) (x5 : Vec Ideal S150x100 .f32)
    (a0 : S10000x150.Idx → EReal) (a1 a2 a3 a4 : S1x150.Idx → EReal) (a5 : S150x100.Idx → EReal)
    (p : Fin bRows6) (q : Fin wOut6) (i : S10000x100.Idx)
    (h0 : ∀ k : Fin wIn6, x0 (ix2 p k) = a0 (ix2 (n0 := nRows6) (i 0) k))
    (h1 : ∀ k : Fin wIn6, x1 (ix2 0 k) = a1 (ix2 0 k)) (h2 : ∀ k : Fin wIn6, x2 (ix2 0 k) = a2 (ix2 0 k))
    (h3 : ∀ k : Fin wIn6, x3 (ix2 0 k) = a3 (ix2 0 k)) (h4 : ∀ k : Fin wIn6, x4 (ix2 0 k) = a4 (ix2 0 k))
    (h5 : ∀ k : Fin wIn6, x5 (ix2 k q) = a5 (ix2 (n1 := wOut6) k (i 1))) :
    k6_pay1 x0 x2 x1 x3 x4 x5 (ix2 p q) = G6 a0 a1 a2 a3 a4 a5 i := by
  rw [pay6_apply]
  unfold G6
  exact Finset.sum_congr rfl fun k _ => by rw [h0 k, h1 k, h2 k, h3 k, h4 k, h5 k]

set_option maxHeartbeats 1000000 in
/-- What point `t` writes back is block `t` of `G6` of the entry arrays. -/
theorem flushed6_6_eq (c : Dev nD) (t : Fin cfg6.N) :
    (dat6 V c).flushed 6 t = ((cfg6.win 6).blk t).view.read (Elt Ideal)
      (G6 (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5))) := by
  show (cfg6.win 6).cut (grid6.coords t) ((dat6 V c).after 6 t) = _
  rw [after6_6, cut6_6]
  unfold out6_6
  rw [View.canon_unit_zero hz6]
  simp only [View.ld_unit_zero (S := S1000x150) hz6, View.ld_unit_zero (S := S1x150) hz6, View.ld_unit_zero (S := S150x100) hz6]
  funext j
  obtain ⟨p, q, rfl⟩ : ∃ (p : Fin bRows6) (q : Fin wOut6), j = ix2 p q := ⟨j 0, j 1, eq_ix2 j⟩
  exact G6_of_blocks (iblk6 V c 0 t) (iblk6 V c 1 t) (iblk6 V c 2 t) (iblk6 V c 3 t) (iblk6 V c 4 t) (iblk6 V c 5 t)
    (V c (Pipeline.arrRef spec6 0)) (V c (Pipeline.arrRef spec6 1)) (V c (Pipeline.arrRef spec6 2))
    (V c (Pipeline.arrRef spec6 3)) (V c (Pipeline.arrRef spec6 4)) (V c (Pipeline.arrRef spec6 5))
    p q (((cfg6.win 6).blk t).view.emb (ix2 p q))
    (fun k => blk6_0 V c t p q k) (fun k => blk6_1 V c t k) (fun k => blk6_2 V c t k)
    (fun k => blk6_3 V c t k) (fun k => blk6_4 V c t k) (fun k => blk6_5 V c t p q k)

/-- An index of the output array is in point `t`'s block iff each coordinate is in the block's range on its axis. -/
theorem mem_blk6_6 (t : Fin cfg6.N) (i : S10000x100.Idx) :
    i ∈ ((cfg6.win 6).blk t).view.set ↔ ∀ a : Fin 2, win6_6.index t a * S1000x100.size a ≤ (i a).val
      ∧ (i a).val < win6_6.index t a * S1000x100.size a + S1000x100.size a := by
  show i ∈ ((View.whole (Pipeline.arrRef spec6 6)).slice (win6_6.rect t)).set ↔ _
  rw [View.set_slice_whole, Rect.mem_set_unit]
  exact Iff.rfl

/-- Every index of the output array is in the block of the point its row falls to: the row blocks tile the rows and
    each spans every column. -/
theorem cover6_6_arr (i : S10000x100.Idx) :
    ∃ t : Fin cfg6.N, (cfg6.win 6).flush t = true ∧ i ∈ ((cfg6.win 6).blk t).view.set := by
  have hi0 : (i 0).val < nRows6 := (i 0).isLt
  have hi1 : (i 1).val < wOut6 := (i 1).isLt
  have hN : (i 0).val / bRows6 < cfg6.N := by
    show (i 0).val / bRows6 < grid6.N
    rw [N_6]; unfold nRows6 at hi0; unfold bRows6; omega
  refine ⟨⟨(i 0).val / bRows6, hN⟩, flush6_6 _, ?_⟩
  rw [mem_blk6_6]
  obtain ⟨-, -, -, -, -, -, -, -, -, -, -, -, e2, e3⟩ := idx_facts6 ⟨(i 0).val / bRows6, hN⟩
  intro a
  match a with
  | ⟨0, _⟩ =>
    show win6_6.index ⟨(i 0).val / bRows6, hN⟩ (0 : Fin 2) * bRows6 ≤ (i 0).val
      ∧ (i 0).val < win6_6.index ⟨(i 0).val / bRows6, hN⟩ (0 : Fin 2) * bRows6 + bRows6
    rw [e2]
    show (i 0).val / bRows6 * bRows6 ≤ (i 0).val ∧ (i 0).val < (i 0).val / bRows6 * bRows6 + bRows6
    unfold bRows6; omega
  | ⟨1, _⟩ =>
    show win6_6.index ⟨(i 0).val / bRows6, hN⟩ (1 : Fin 2) * wOut6 ≤ (i 1).val
      ∧ (i 1).val < win6_6.index ⟨(i 0).val / bRows6, hN⟩ (1 : Fin 2) * wOut6 + wOut6
    rw [e3, Nat.zero_mul, Nat.zero_add]
    exact ⟨Nat.zero_le _, hi1⟩

/-- THE OUTPUT ARRAY after the region: `G6` of the entry arrays, everywhere. -/
theorem final6_6 (c : Dev nD) : (dat6 (F := Ideal) V c).arrAt 6 cfg6.N
    = G6 (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5)) :=
  (dat6 V c).arrAt_eq_of_cover 6 _ (fun t _ => flushed6_6_eq V c t) cover6_6_arr

/-! ## Over the reals -/

/-- On real arrays with every variance + ε positive, `G6` is the real dense product of the normalised activations
    with the weights: each operation of a term is the real one, and a finite sum of reals is the real sum. -/
theorem G6_real (rr : Fin nRows6 → Fin wIn6 → ℝ) (mu vr g be : Fin wIn6 → ℝ) (wr : Fin wIn6 → Fin wOut6 → ℝ)
    (a0 : S10000x150.Idx → EReal) (a1 a2 a3 a4 : S1x150.Idx → EReal) (a5 : S150x100.Idx → EReal)
    (hx : ∀ i k, a0 (ix2 i k) = ((rr i k : ℝ) : EReal)) (hmu : ∀ k, a1 (ix2 0 k) = ((mu k : ℝ) : EReal))
    (hvar : ∀ k, a2 (ix2 0 k) = ((vr k : ℝ) : EReal)) (hg : ∀ k, a3 (ix2 0 k) = ((g k : ℝ) : EReal))
    (hbe : ∀ k, a4 (ix2 0 k) = ((be k : ℝ) : EReal)) (hw : ∀ k j, a5 (ix2 k j) = ((wr k j : ℝ) : EReal))
    (hv : ∀ f, 0 < vr f + Cert.LibCoe.epsR) (i : Fin nRows6) (j : Fin wOut6) :
    G6 a0 a1 a2 a3 a4 a5 (ix2 i j)
      = ((Cert.Spec.lin (Cert.Spec.normalize Cert.LibCoe.epsR rr mu vr g be) wr i j : ℝ) : EReal) := by
  unfold G6 Cert.Spec.lin
  rw [← Cert.LibCoe.sum_coe]
  refine Finset.sum_congr rfl fun k _ => ?_
  show nrm6 (a0 (ix2 i k)) (a1 (ix2 0 k)) (a2 (ix2 0 k)) (a3 (ix2 0 k)) (a4 (ix2 0 k)) * a5 (ix2 k j) = _
  rw [hx, hmu, hvar, hg, hbe, hw]
  unfold nrm6 Cert.Spec.normalize Cert.Spec.rsq
  rw [Cert.LibCoe.ofBits_eps, Cert.LibCoe.sub_coe, Cert.LibCoe.add_coe, Cert.LibCoe.rsqrt_coe_pos (hv k),
    Cert.LibCoe.mul_coe, Cert.LibCoe.mul_coe, Cert.LibCoe.add_coe, Cert.LibCoe.mul_coe]

/-- THE OUTPUT ARRAY after the region, over the reals: entry `(i, j)` is the dense product of the normalised
    activations with the weights there. -/
theorem final6_real (c : Dev nD) (rr : Fin nRows6 → Fin wIn6 → ℝ) (mu vr g be : Fin wIn6 → ℝ) (wr : Fin wIn6 → Fin wOut6 → ℝ)
    (hx : ∀ i k, (V c (Pipeline.arrRef spec6 0) : S10000x150.Idx → EReal) (ix2 i k) = ((rr i k : ℝ) : EReal))
    (hmu : ∀ k, (V c (Pipeline.arrRef spec6 1) : S1x150.Idx → EReal) (ix2 0 k) = ((mu k : ℝ) : EReal))
    (hvar : ∀ k, (V c (Pipeline.arrRef spec6 2) : S1x150.Idx → EReal) (ix2 0 k) = ((vr k : ℝ) : EReal))
    (hg : ∀ k, (V c (Pipeline.arrRef spec6 3) : S1x150.Idx → EReal) (ix2 0 k) = ((g k : ℝ) : EReal))
    (hbe : ∀ k, (V c (Pipeline.arrRef spec6 4) : S1x150.Idx → EReal) (ix2 0 k) = ((be k : ℝ) : EReal))
    (hw : ∀ k j, (V c (Pipeline.arrRef spec6 5) : S150x100.Idx → EReal) (ix2 k j) = ((wr k j : ℝ) : EReal))
    (hv : ∀ f, 0 < vr f + Cert.LibCoe.epsR) (i : Fin nRows6) (j : Fin wOut6) :
    ((dat6 (F := Ideal) V c).arrAt 6 cfg6.N : S10000x100.Idx → EReal) (ix2 i j)
      = ((Cert.Spec.lin (Cert.Spec.normalize Cert.LibCoe.epsR rr mu vr g be) wr i j : ℝ) : EReal) := by
  rw [final6_6]
  exact G6_real rr mu vr g be wr _ _ _ _ _ _ hx hmu hvar hg hbe hw hv i j

end Cert.KernelIdeal.HandV

end
-- ==== Proof.KLayer2.lean ====
import proofs.«408066_j62380105008311_2_alg».proof.Proof.KLayer1
import proofs.«408066_j62380105008311_2_alg».proof.Proof.HostSmall2
import proofs.«408066_j62380105008311_2_alg».proof.Proof.Val4
import proofs.«408066_j62380105008311_2_alg».proof.Proof.Val5
import proofs.«408066_j62380105008311_2_alg».proof.Proof.Val6

/-!
# Layer 2 of the kernel's network, read off the fold of buffer contents

The layer's unit, from the features the previous layer left: pad them with zero rows, multiply by the padded
normalised adjacency (the dense aggregation), add the bias and rectify while summing each column and its squares,
turn the sums into mean and variance, normalise and multiply by the next weight matrix; and the carried buffers
(the padded adjacency, the argument arrays), unchanged.
-/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Cert.Inputs (srcOf dstOf RealArgs)
open Cert.LibCoe (epsR)

variable (m : (ℓ : Loc nD τ sig) → Buf (Elt Ideal) ℓ)

/-! ## The layer's unit: seven items, from features h in the unit's input array -/

/-- What the unit is entered with: real features h in its input array, and the carried buffers. -/
structure Entry2 (c : Dev nD) (R : RealArgs) (h : Fin 10000 → Fin 150 → ℝ) : Prop where
  feat : ∀ i f, (W11 m c (Proc.devRef .tc main_v66) : S10000x150.Idx → EReal) (ix2 i f) = ((h i f : ℝ) : EReal)
  car : Carried m c R (W11 m c)

section Unit
variable {m}
variable {c : Dev nD} {R : RealArgs} {h : Fin 10000 → Fin 150 → ℝ}

/-- The layer's activations from its input features: aggregate, add the bias, rectify. -/
abbrev act2 (R : RealArgs) (h : Fin 10000 → Fin 150 → ℝ) : Fin 10000 → Fin 150 → ℝ :=
  Cert.Spec.relu (Cert.Spec.addBias (Cert.Spec.aggD (srcOf R.ei) (dstOf R.ei) h) R.P.b2)

/-- The features padded with zero rows (the unit's first two items, host operations). -/
theorem pad_W13 (hE : Entry2 m c R h) (s : Fin 10240) (f : Fin 150) :
    (W13 m c (Proc.devRef .tc main_v67) : S10240x150.Idx → EReal) (ix2 s f)
      = ((if hs : s.val < 10000 then h ⟨s.val, hs⟩ f else 0 : ℝ) : EReal) :=
  pad2_real_from (W11 m c) h hE.feat s f

theorem carried_W13 (hE : Entry2 m c R h) : Carried m c R (W13 m c) :=
  (hE.car.step m GenP.hostOps4_W (W12_of m c) (by decide) (by decide)).step m GenP.hostOps4_1_W (W13_of m c) (by decide) (by decide)

/-- The aggregation kernel: the padded adjacency times the padded features is the dense aggregation of h. -/
theorem agg_W14 (hE : Entry2 m c R h) (i : Fin 10000) (f : Fin 150) :
    (W14 m c (Proc.devRef .tc main_v68) : S10000x150.Idx → EReal) (ix2 i f)
      = ((Cert.Spec.aggD (srcOf R.ei) (dstOf R.ei) h i f : ℝ) : EReal) := by
  refine (congrFun (W14_arr m c 2) (ix2 i f)).trans ?_
  refine (final4_real (Hand.V13 m) c
    (fun d s => if hs : s.val < 10000 then Cert.Spec.adj (srcOf R.ei) (dstOf R.ei) d ⟨s.val, hs⟩ else 0)
    (fun s f => if hs : s.val < 10000 then h ⟨s.val, hs⟩ f else 0)
    (carried_W13 hE).adj (pad_W13 hE) i f).trans ?_
  exact congrArg (fun x : ℝ => (x : EReal)) (Cert.Spec.aggD_pad_10240 (srcOf R.ei) (dstOf R.ei) h i f)

theorem carried_W14 (hE : Entry2 m c R h) : Carried m c R (W14 m c) :=
  (carried_W13 hE).step m [main_v68] (W14_of m c) (by decide) (by decide)

/-- The bias as a one-row matrix (host operations); the aggregation is still there. -/
theorem bias_W15 (hE : Entry2 m c R h) (hR : ReadsAt m c R) (f : Fin 150) :
    (W15 m c (Proc.devRef .tc main_v69) : S1x150.Idx → EReal) (ix2 0 f) = ((R.P.b2 f : ℝ) : EReal) :=
  (bias2_read (W14 m c) f).trans ((congrFun ((carried_W14 hE).args main_arg5 (by decide)) (ix1 f)).trans (hR.hb2 f))

theorem agg_W15 (hE : Entry2 m c R h) (i : Fin 10000) (f : Fin 150) :
    (W15 m c (Proc.devRef .tc main_v68) : S10000x150.Idx → EReal) (ix2 i f)
      = ((Cert.Spec.aggD (srcOf R.ei) (dstOf R.ei) h i f : ℝ) : EReal) :=
  (congrFun (W15_of m c main_v68 (by decide)) (ix2 i f)).trans (agg_W14 hE i f)

theorem carried_W15 (hE : Entry2 m c R h) : Carried m c R (W15 m c) :=
  (carried_W14 hE).step m GenP.hostOps5_W (W15_of m c) (by decide) (by decide)

/-- The activation kernel: the activations, and each column's sum and sum of squares. -/
theorem act_W16 (hE : Entry2 m c R h) (hR : ReadsAt m c R) (i : Fin 10000) (f : Fin 150) :
    (W16 m c (Proc.devRef .tc main_v70_0) : S10000x150.Idx → EReal) (ix2 i f) = ((act2 R h i f : ℝ) : EReal) :=
  (congrFun (W16_arr m c 2) (ix2 i f)).trans
    (final5_real_2 (Hand.V15 m) c (Cert.Spec.aggD (srcOf R.ei) (dstOf R.ei) h) R.P.b2 (agg_W15 hE) (bias_W15 hE hR) i f)

theorem sum_W16 (hE : Entry2 m c R h) (hR : ReadsAt m c R) (f : Fin 150) :
    (W16 m c (Proc.devRef .tc main_v70_1) : S1x150.Idx → EReal) (ix2 0 f)
      = ((Cert.Spec.colSum (act2 R h) f : ℝ) : EReal) :=
  (congrFun (W16_arr m c 3) (ix2 0 f)).trans
    (final5_real_3 (Hand.V15 m) c (Cert.Spec.aggD (srcOf R.ei) (dstOf R.ei) h) R.P.b2 (agg_W15 hE) (bias_W15 hE hR) f)

theorem sumSq_W16 (hE : Entry2 m c R h) (hR : ReadsAt m c R) (f : Fin 150) :
    (W16 m c (Proc.devRef .tc main_v70_2) : S1x150.Idx → EReal) (ix2 0 f)
      = ((Cert.Spec.colSumSq (act2 R h) f : ℝ) : EReal) :=
  (congrFun (W16_arr m c 4) (ix2 0 f)).trans
    (final5_real_4 (Hand.V15 m) c (Cert.Spec.aggD (srcOf R.ei) (dstOf R.ei) h) R.P.b2 (agg_W15 hE) (bias_W15 hE hR) f)

theorem carried_W16 (hE : Entry2 m c R h) : Carried m c R (W16 m c) :=
  (carried_W15 hE).step m [main_v70_0, main_v70_1, main_v70_2] (W16_of m c) (by decide) (by decide)

/-- The statistics rows (host operations); the activations are still there. -/
theorem mean_W17 (hE : Entry2 m c R h) (hR : ReadsAt m c R) (f : Fin 150) :
    (W17 m c (Proc.devRef .tc main_v81) : S1x150.Idx → EReal) (ix2 0 f)
      = ((Cert.Spec.mean 10000 (act2 R h) f : ℝ) : EReal) :=
  stats2_mean_spec (W16 m c) (act2 R h) (sum_W16 hE hR) f

theorem var_W17 (hE : Entry2 m c R h) (hR : ReadsAt m c R) (f : Fin 150) :
    (W17 m c (Proc.devRef .tc main_v82) : S1x150.Idx → EReal) (ix2 0 f)
      = ((Cert.Spec.varK 10000 (act2 R h) f : ℝ) : EReal) :=
  stats2_var_spec (W16 m c) (act2 R h) (sum_W16 hE hR) (sumSq_W16 hE hR) f

theorem scale_W17 (hE : Entry2 m c R h) (hR : ReadsAt m c R) (f : Fin 150) :
    (W17 m c (Proc.devRef .tc main_v83) : S1x150.Idx → EReal) (ix2 0 f) = ((R.P.g2 f : ℝ) : EReal) :=
  stats2_scale_real (W16 m c) R.P.g2
    (fun f => (congrFun ((carried_W16 hE).args main_arg14 (by decide)) (ix1 f)).trans (hR.hg2 f)) f

theorem shift_W17 (hE : Entry2 m c R h) (hR : ReadsAt m c R) (f : Fin 150) :
    (W17 m c (Proc.devRef .tc main_v84) : S1x150.Idx → EReal) (ix2 0 f) = ((R.P.be2 f : ℝ) : EReal) :=
  stats2_shift_real (W16 m c) R.P.be2
    (fun f => (congrFun ((carried_W16 hE).args main_arg15 (by decide)) (ix1 f)).trans (hR.hbe2 f)) f

theorem act_W17 (hE : Entry2 m c R h) (hR : ReadsAt m c R) (i : Fin 10000) (f : Fin 150) :
    (W17 m c (Proc.devRef .tc main_v70_0) : S10000x150.Idx → EReal) (ix2 i f) = ((act2 R h i f : ℝ) : EReal) :=
  (congrFun (W17_of m c main_v70_0 (by decide)) (ix2 i f)).trans (act_W16 hE hR i f)

theorem carried_W17 (hE : Entry2 m c R h) : Carried m c R (W17 m c) :=
  (carried_W16 hE).step m GenP.hostOps6_W (W17_of m c) (by decide) (by decide)

/-- The normalisation kernel: the normalised activations times the next weight matrix. -/
theorem out_W18 (hE : Entry2 m c R h) (hR : ReadsAt m c R) (i : Fin 10000) (j : Fin 100) :
    (W18 m c (Proc.devRef .tc main_v85) : S10000x100.Idx → EReal) (ix2 i j)
      = ((Cert.Spec.lin (Cert.Spec.bnK 10000 epsR (act2 R h) R.P.g2 R.P.be2) R.P.W3 i j : ℝ) : EReal) :=
  (congrFun (W18_arr m c 6) (ix2 i j)).trans
    (final6_real (Hand.V17 m) c (act2 R h) (Cert.Spec.mean 10000 (act2 R h)) (Cert.Spec.varK 10000 (act2 R h)) R.P.g2 R.P.be2 R.P.W3
      (act_W17 hE hR) (mean_W17 hE hR) (var_W17 hE hR) (scale_W17 hE hR) (shift_W17 hE hR)
      (fun k j => (congrFun ((carried_W17 hE).args main_arg6 (by decide)) (ix2 k j)).trans (hR.hW3 k j))
      (fun f => add_pos_of_nonneg_of_pos (le_max_right _ _) Cert.LibCoe.epsR_pos) i j)

theorem carried_W18 (hE : Entry2 m c R h) : Carried m c R (W18 m c) :=
  (carried_W17 hE).step m [main_v85] (W18_of m c) (by decide) (by decide)

end Unit

/-! ## The layer -/

/-- The unit is entered from the array the layer's input features were left in. -/
theorem entry2 (c : Dev nD) (R : RealArgs) (hR : ReadsAt m c R) : Entry2 m c R (Cert.Spec.lin (Cert.Spec.bnK 10000 epsR (Cert.Spec.k1 (srcOf R.ei) (dstOf R.ei) R.X R.P) R.P.g1 R.P.be1) R.P.W2) :=
  ⟨lin2_W11 m c R hR, carried1_W11 m c R hR⟩

/-- After the activation kernel its first result array holds the layer's activations. -/
theorem k2_W16 (c : Dev nD) (R : RealArgs) (hR : ReadsAt m c R) (i : Fin 10000) (f : Fin 150) :
    (W16 m c (Proc.devRef .tc main_v70_0) : S10000x150.Idx → EReal) (ix2 i f)
      = ((Cert.Spec.k2 10000 epsR (srcOf R.ei) (dstOf R.ei) R.X R.P i f : ℝ) : EReal) :=
  act_W16 (entry2 m c R hR) hR i f

/-- After the normalisation kernel its result array holds the next layer's input features. -/
theorem lin3_W18 (c : Dev nD) (R : RealArgs) (hR : ReadsAt m c R) (i : Fin 10000) (j : Fin 100) :
    (W18 m c (Proc.devRef .tc main_v85) : S10000x100.Idx → EReal) (ix2 i j)
      = ((Cert.Spec.lin (Cert.Spec.bnK 10000 epsR (Cert.Spec.k2 10000 epsR (srcOf R.ei) (dstOf R.ei) R.X R.P) R.P.g2 R.P.be2) R.P.W3 i j : ℝ) : EReal) :=
  out_W18 (entry2 m c R hR) hR i j

/-- What the next layer is entered with beside its features. -/
theorem carried2_W18 (c : Dev nD) (R : RealArgs) (hR : ReadsAt m c R) : Carried m c R (W18 m c) :=
  carried_W18 (entry2 m c R hR)

end Cert.KernelIdeal.HandV

end
-- ==== Proof.HostSmall3.lean ====
import proofs.«408066_j62380105008311_2_alg».proof.Proof.Gen.KernelIdeal.Launch
import proofs.«408066_j62380105008311_2_alg».proof.Proof.Spec
import proofs.«408066_j62380105008311_2_alg».proof.Proof.LibCoe
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

/-! # The small host stretches of one layer, read as values

Between the kernel regions the program runs a few array operations on the host, the same ones layer after layer. This
module reads one layer's at an index, at the ideal values, from ANY contents `V` of the buffers on entry to the
stretch:

* the PADDING of the node features with zero rows up to a whole number of row blocks: row `s` of the result is row
  `s` of the operand while `s` is a node, and zero after the last node;
* the bias vector written as a one-row matrix;
* the column STATISTICS: from the row of column sums `S` and the row of column sums of squares `Q` over the `n`
  nodes, the mean `S / n` and the variance `max (Q / n − (S / n)², 0)`, each as a one-row matrix, beside the
  scale and shift vectors written as one-row matrices.

Each operation is read at an index by its own lemma, outermost first.
The statistics' arithmetic on extended reals is brought down to the reals one operation at a time, the operands being
coerced reals and the divisor `n` non-zero. -/

set_option maxRecDepth 1720

noncomputable section

namespace Cert.KernelIdeal.HandV

open Cert.KernelIdeal Cert.KernelIdeal.Gen
open Idealize.ShloMosaic Idealize.ShloMosaic.TcCoe Idealize.ShloMosaic.ValueIdx
open Idealize.ShloMosaic.StableHlo

/-- The number of nodes, the number of rows after padding, and the number of columns. -/
local notation "NR" => (10000 : ℕ)
local notation "NP" => (10240 : ℕ)
local notation "WD" => (100 : ℕ)

/-! ## The padding -/

/-- The padded features read at row `s`, column `f`: the operand's entry while `s` is a node's row, and zero below
    the last node — given that the word the padding value is converted from is the integer zero. -/
theorem pad3_read (V : Valuation τ sig (Elt Ideal))
    (hc : (V main_c_19 : S_.Idx → BitVec 32) ix0 = 0#32) (s : Fin NP) (f : Fin WD) :
    (StableHlo.after hostOps7_1 V main_v86 : S10240x100.Idx → EReal) (ix2 s f)
      = if hs : s.val < NR then (V main_v85 : S10000x100.Idx → EReal) (ix2 ⟨s.val, hs⟩ f) else (0 : EReal) := by
  dsimp only [hostOps7_1]
  after_results
  simp only [TRef.ofBuf, TRef.toBuf, cast_eq]
  by_cases hs : s.val < NR
  · -- inside the operand: no low padding, no interior padding, so the coordinates are the operand's own
    rw [dif_pos hs]
    exact pad_apply_of_inside _ _ _ _ _ _ _ _ (ix2 ⟨s.val, hs⟩ f) (fun a => match a with
      | ⟨0, _⟩ => by show s.val = 0 + s.val * (0 + 1); omega
      | ⟨1, _⟩ => by show f.val = 0 + f.val * (0 + 1); omega)
  · -- past the operand's last row: the padding value, the integer zero converted
    rw [dif_neg hs]
    refine (pad_apply_of_not_inside _ _ _ _ _ _ _ _ (0 : Fin 2) (fun hin => ?_)).trans ?_
    · have h3 : s.val / 1 < NR := hin.2.2
      rw [Nat.div_one] at h3
      exact hs h3
    · show (Scalar.sitofp .f32 ((V main_c_19 : S_.Idx → BitVec 32) (Shape.Idx.first h_S_)) : Ideal .f32) = 0
      rw [eq_ix0 (Shape.Idx.first h_S_), hc]
      exact sitofp_zero

/-- The same from the contents before the integer zero is written: the one operation in front writes that word and
    leaves the operand alone. -/
theorem pad3_read_from (V : Valuation τ sig (Elt Ideal)) (s : Fin NP) (f : Fin WD) :
    (StableHlo.after hostOps7_1 (StableHlo.after hostOps7 V) main_v86 : S10240x100.Idx → EReal) (ix2 s f)
      = if hs : s.val < NR then (V main_v85 : S10000x100.Idx → EReal) (ix2 ⟨s.val, hs⟩ f) else (0 : EReal) := by
  have hc : (StableHlo.after hostOps7 V main_c_19 : S_.Idx → BitVec 32) ix0 = 0#32 := by
    dsimp only [hostOps7]; after_results; rfl
  have hx : (StableHlo.after hostOps7 V main_v85 : S10000x100.Idx → EReal) = V main_v85 := by
    dsimp only [hostOps7]; after_results
  rw [pad3_read _ hc s f, hx]

/-- In real numbers: if the operand holds the real matrix `h`, the padded array holds `h` on the nodes' rows and `0`
    on the rows after them. -/
theorem pad3_real (V : Valuation τ sig (Elt Ideal)) (hc : (V main_c_19 : S_.Idx → BitVec 32) ix0 = 0#32)
    (h : Fin NR → Fin WD → ℝ)
    (hh : ∀ i f, (V main_v85 : S10000x100.Idx → EReal) (ix2 i f) = ((h i f : ℝ) : EReal)) (s : Fin NP) (f : Fin WD) :
    (StableHlo.after hostOps7_1 V main_v86 : S10240x100.Idx → EReal) (ix2 s f)
      = ((if hs : s.val < NR then h ⟨s.val, hs⟩ f else 0 : ℝ) : EReal) := by
  rw [pad3_read V hc s f]
  by_cases hs : s.val < NR
  · rw [dif_pos hs, dif_pos hs, hh]
  · rw [dif_neg hs, dif_neg hs, EReal.coe_zero]

/-- The real form from the contents before the integer zero is written. -/
theorem pad3_real_from (V : Valuation τ sig (Elt Ideal)) (h : Fin NR → Fin WD → ℝ)
    (hh : ∀ i f, (V main_v85 : S10000x100.Idx → EReal) (ix2 i f) = ((h i f : ℝ) : EReal)) (s : Fin NP) (f : Fin WD) :
    (StableHlo.after hostOps7_1 (StableHlo.after hostOps7 V) main_v86 : S10240x100.Idx → EReal) (ix2 s f)
      = ((if hs : s.val < NR then h ⟨s.val, hs⟩ f else 0 : ℝ) : EReal) := by
  rw [pad3_read_from V s f]
  by_cases hs : s.val < NR
  · rw [dif_pos hs, dif_pos hs, hh]
  · rw [dif_neg hs, dif_neg hs, EReal.coe_zero]

/-! ## The bias as a one-row matrix -/

/-- The bias row read at column `f` is the bias vector's entry `f`. -/
theorem bias3_read (V : Valuation τ sig (Elt Ideal)) (f : Fin WD) :
    (StableHlo.after hostOps8 V main_v88 : S1x100.Idx → EReal) (ix2 0 f)
      = (V main_arg7 : S100.Idx → EReal) (ix1 f) := by
  dsimp only [hostOps8]
  after_results
  exact shapeCast_a_1a_apply _ _ 0 f

/-! ## The statistics -/

/-- The node count as a real. -/
local notation "CNT" => (10000 : ℝ)

/-- A one-row matrix of coerced reals, written as a vector and divided entry by entry by the node count (the
    single-precision constant `10000`, broadcast), holds the real quotients. -/
theorem meanVec3_read (x : S1x100.Idx → EReal) (S : Fin WD → ℝ)
    (hx : ∀ f, x (ix2 0 f) = ((S f : ℝ) : EReal)) (f : Fin WD) :
    (Host.divf (shapeCast S100 x shapeCasts_S1x100_S100)
        (broadcastInDim S100 ![] bcast_S_S100 (constant (F := Ideal) S_ .f32 0x461C4000#32))
      : FVec Ideal S100 .f32) (ix1 f) = ((S f / CNT : ℝ) : EReal) := by
  rw [hostDivf_apply, shapeCast_1a_a_apply, hx, broadcastInDim_scalar_apply, constant_apply, Cert.LibCoe.ofBits_10000]
  exact Cert.LibCoe.div_coe_coe _ (by norm_num)

/-- The variance vector: the mean of the squares less the square of the mean, cut off below at zero, in real numbers. -/
theorem varVec3_read (x1 x2 : S1x100.Idx → EReal) (S Q : Fin WD → ℝ)
    (h1 : ∀ f, x1 (ix2 0 f) = ((S f : ℝ) : EReal)) (h2 : ∀ f, x2 (ix2 0 f) = ((Q f : ℝ) : EReal)) (f : Fin WD) :
    (maximumf
        (subf
          (Host.divf (shapeCast S100 x2 shapeCasts_S1x100_S100)
            (broadcastInDim S100 ![] bcast_S_S100 (constant (F := Ideal) S_ .f32 0x461C4000#32)))
          (mulf
            (Host.divf (shapeCast S100 x1 shapeCasts_S1x100_S100)
              (broadcastInDim S100 ![] bcast_S_S100 (constant (F := Ideal) S_ .f32 0x461C4000#32)))
            (Host.divf (shapeCast S100 x1 shapeCasts_S1x100_S100)
              (broadcastInDim S100 ![] bcast_S_S100 (constant (F := Ideal) S_ .f32 0x461C4000#32)))))
        (broadcastInDim S100 ![] bcast_S_S100 (constant (F := Ideal) S_ .f32 0x00000000#32))
      : FVec Ideal S100 .f32) (ix1 f)
      = ((max (Q f / CNT - (S f / CNT) * (S f / CNT)) 0 : ℝ) : EReal) := by
  rw [maximumf_apply, subf_apply, mulf_apply, meanVec3_read x2 Q h2 f, meanVec3_read x1 S h1 f,
    broadcastInDim_scalar_apply, constant_apply, Cert.LibCoe.ofBits_zero, Cert.LibCoe.mul_coe, Cert.LibCoe.sub_coe,
    Cert.LibCoe.max_coe]

/-- The mean row after the statistics stretch: the column sums over the node count. -/
theorem stats3_mean (V : Valuation τ sig (Elt Ideal)) (S : Fin WD → ℝ)
    (hS : ∀ f, (V main_v89_1 : S1x100.Idx → EReal) (ix2 0 f) = ((S f : ℝ) : EReal)) (f : Fin WD) :
    (StableHlo.after hostOps9 V main_v100 : S1x100.Idx → EReal) (ix2 0 f) = ((S f / CNT : ℝ) : EReal) := by
  dsimp only [hostOps9]
  after_results
  exact (shapeCast_a_1a_apply _ _ 0 f).trans (meanVec3_read (V main_v89_1) S hS f)

/-- The variance row after the statistics stretch. -/
theorem stats3_var (V : Valuation τ sig (Elt Ideal)) (S Q : Fin WD → ℝ)
    (hS : ∀ f, (V main_v89_1 : S1x100.Idx → EReal) (ix2 0 f) = ((S f : ℝ) : EReal))
    (hQ : ∀ f, (V main_v89_2 : S1x100.Idx → EReal) (ix2 0 f) = ((Q f : ℝ) : EReal)) (f : Fin WD) :
    (StableHlo.after hostOps9 V main_v101 : S1x100.Idx → EReal) (ix2 0 f)
      = ((max (Q f / CNT - (S f / CNT) * (S f / CNT)) 0 : ℝ) : EReal) := by
  dsimp only [hostOps9]
  after_results
  exact (shapeCast_a_1a_apply _ _ 0 f).trans (varVec3_read (V main_v89_1) (V main_v89_2) S Q hS hQ f)

/-- The scale row after the statistics stretch is the scale vector. -/
theorem stats3_scale (V : Valuation τ sig (Elt Ideal)) (f : Fin WD) :
    (StableHlo.after hostOps9 V main_v102 : S1x100.Idx → EReal) (ix2 0 f)
      = (V main_arg16 : S100.Idx → EReal) (ix1 f) := by
  dsimp only [hostOps9]
  after_results
  exact shapeCast_a_1a_apply _ _ 0 f

/-- The shift row after the statistics stretch is the shift vector. -/
theorem stats3_shift (V : Valuation τ sig (Elt Ideal)) (f : Fin WD) :
    (StableHlo.after hostOps9 V main_v103 : S1x100.Idx → EReal) (ix2 0 f)
      = (V main_arg17 : S100.Idx → EReal) (ix1 f) := by
  dsimp only [hostOps9]
  after_results
  exact shapeCast_a_1a_apply _ _ 0 f

/-- Scale and shift in real numbers. -/
theorem stats3_scale_real (V : Valuation τ sig (Elt Ideal)) (g : Fin WD → ℝ)
    (hg : ∀ f, (V main_arg16 : S100.Idx → EReal) (ix1 f) = ((g f : ℝ) : EReal)) (f : Fin WD) :
    (StableHlo.after hostOps9 V main_v102 : S1x100.Idx → EReal) (ix2 0 f) = ((g f : ℝ) : EReal) := by
  rw [stats3_scale V f, hg]

theorem stats3_shift_real (V : Valuation τ sig (Elt Ideal)) (be : Fin WD → ℝ)
    (hbe : ∀ f, (V main_arg17 : S100.Idx → EReal) (ix1 f) = ((be f : ℝ) : EReal)) (f : Fin WD) :
    (StableHlo.after hostOps9 V main_v103 : S1x100.Idx → EReal) (ix2 0 f) = ((be f : ℝ) : EReal) := by
  rw [stats3_shift V f, hbe]

/-- With the sums taken over the rows of a real matrix `r`, the two rows are the column mean and the variance by
    moments of `r`. -/
theorem stats3_mean_spec (V : Valuation τ sig (Elt Ideal)) (r : Fin NR → Fin WD → ℝ)
    (hS : ∀ f, (V main_v89_1 : S1x100.Idx → EReal) (ix2 0 f) = ((Cert.Spec.colSum r f : ℝ) : EReal)) (f : Fin WD) :
    (StableHlo.after hostOps9 V main_v100 : S1x100.Idx → EReal) (ix2 0 f) = ((Cert.Spec.mean CNT r f : ℝ) : EReal) :=
  stats3_mean V (Cert.Spec.colSum r) hS f

theorem stats3_var_spec (V : Valuation τ sig (Elt Ideal)) (r : Fin NR → Fin WD → ℝ)
    (hS : ∀ f, (V main_v89_1 : S1x100.Idx → EReal) (ix2 0 f) = ((Cert.Spec.colSum r f : ℝ) : EReal))
    (hQ : ∀ f, (V main_v89_2 : S1x100.Idx → EReal) (ix2 0 f) = ((Cert.Spec.colSumSq r f : ℝ) : EReal)) (f : Fin WD) :
    (StableHlo.after hostOps9 V main_v101 : S1x100.Idx → EReal) (ix2 0 f) = ((Cert.Spec.varK CNT r f : ℝ) : EReal) :=
  stats3_var V (Cert.Spec.colSum r) (Cert.Spec.colSumSq r) hS hQ f

end Cert.KernelIdeal.HandV

end
-- ==== Proof.Val7.lean ====
import proofs.«408066_j62380105008311_2_alg».proof.Proof.Reg7
import proofs.«408066_j62380105008311_2_alg».proof.Proof.Spec
import proofs.«408066_j62380105008311_2_alg».proof.Proof.SpecLaws2
import proofs.«408066_j62380105008311_2_alg».proof.Proof.LibCoe
import Idealize.ShloMosaic.Lib.Pipeline.Value
import Idealize.ShloMosaic.Lib.ValueIdx
import Idealize.ShloMosaic.Lib.ValueLayout
import Idealize.ShloMosaic.PureOps.Ideal.Laws

/-!
# Region 7 at the ideal values: the result array is the matrix product of the two operand arrays

The grid runs over row blocks of the result and, inside each, over ten runs of the contracted index.  The
accumulator starts each row block at zero, gains one run's partial product per step, and is copied to the result
block at the last step: what is written back is the row block of the full product, the contracted sum cut into its
ten runs.  The row blocks tile the result, so the array the region leaves is the product of the two arrays it found;
and where those hold real numbers, it holds the real matrix product.
-/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic Idealize.SL.Sem Idealize.ShloMosaic.ValueIdx
open Idealize.ShloMosaic.Pipeline (Dat)
open scoped BigOperators

/-! ## What each step leaves in the accumulator, as the body's arithmetic -/

section Pieces
variable {F : FTy → Type} [FloatOps F]

theorem hz7 : (![0, 0] : Fin 2 → Nat) = fun _ => 0 := funext fun a => by fin_cases a <;> rfl

/-- FIRST STEP: the accumulator is cleared, then gains the step's product. -/
theorem sout7_A_eq (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : cond7_0 i) (hc1 : ¬cond7_1 i) (x0 : Vec F S2000x1024 .bf16) (x1 : Vec F S1024x100 .f32) :
    sout7_A c i arg2 harg2 arg3 harg3 arg4 harg4 arg5 harg5 hc0 hc1 x0 x1 = k7_pay2 x0 x1 (k7_pay1 (F := F)) := by
  unfold sout7_A
  rw [View.read_writes_eq_canon _ _ _ (scover7_A c i arg2 harg2 arg3 harg3 arg4 harg4 arg5 harg5 hc0 hc1 x0 x1)]
  unfold run7_A
  dsimp only
  sl_unfold_words
  rw [View.canon_cons_unit_zero (S := S2000x100) hz7]
  simp only [View.readAt_eq_ld, harg2.read_unread, harg3.read_unread, View.ld_unit_zero (S := S2000x1024) hz7,
    View.ld_unit_zero (S := S1024x100) hz7, View.readCov_unit_zero (S := S2000x100) _ hz7]

/-- A MIDDLE STEP: the accumulator gains the step's product. -/
theorem sout7_B_eq (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : ¬cond7_0 i) (hc1 : ¬cond7_1 i) (x0 : Vec F S2000x1024 .bf16) (x1 : Vec F S1024x100 .f32) (xs : Vec F S2000x100 .f32) :
    sout7_B c i arg2 harg2 arg3 harg3 arg4 harg4 arg5 harg5 hc0 hc1 x0 x1 xs = k7_pay2 x0 x1 xs := by
  unfold sout7_B
  rw [View.read_writes_eq_canon _ _ _ (scover7_B c i arg2 harg2 arg3 harg3 arg4 harg4 arg5 harg5 hc0 hc1 x0 x1 xs)]
  unfold run7_B
  dsimp only
  sl_unfold_words
  rw [View.canon_unit_zero (S := S2000x100) hz7]
  simp only [View.readAt_eq_ld, harg2.read_unread, harg3.read_unread, harg5.read_unread, View.ld_unit_zero (S := S2000x1024) hz7,
    View.ld_unit_zero (S := S1024x100) hz7, View.ld_unit_zero (S := S2000x100) hz7]

/-- THE LAST STEP: the accumulator gains the step's product, -/
theorem sout7_C_eq (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : ¬cond7_0 i) (hc1 : cond7_1 i) (x0 : Vec F S2000x1024 .bf16) (x1 : Vec F S1024x100 .f32) (xs : Vec F S2000x100 .f32) :
    sout7_C c i arg2 harg2 arg3 harg3 arg4 harg4 arg5 harg5 hc0 hc1 x0 x1 xs = k7_pay2 x0 x1 xs := by
  unfold sout7_C
  rw [View.read_writes_eq_canon _ _ _ (scover7_C c i arg2 harg2 arg3 harg3 arg4 harg4 arg5 harg5 hc0 hc1 x0 x1 xs)]
  unfold run7_C
  dsimp only
  sl_unfold_words
  rw [View.canon_unit_zero (S := S2000x100) hz7]
  simp only [View.readAt_eq_ld, harg2.read_unread, harg3.read_unread, harg5.read_unread, View.ld_unit_zero (S := S2000x1024) hz7,
    View.ld_unit_zero (S := S1024x100) hz7, View.ld_unit_zero (S := S2000x100) hz7]

/-- and the result block receives the accumulator as the step leaves it. -/
theorem out7_C_eq (c : Dev nD) (i : grid7.Coords)
    (arg2 : Memref sig .tc .vmem S2000x1024 .bf16) (harg2 : arg2.IsWhole) (arg3 : Memref sig .tc .vmem S1024x100 .f32) (harg3 : arg3.IsWhole)
    (arg4 : Memref sig .tc .vmem S2000x100 .f32) (harg4 : arg4.IsWhole) (arg5 : Memref sig .tc .vmem S2000x100 .f32) (harg5 : arg5.IsWhole)
    (hc0 : ¬cond7_0 i) (hc1 : cond7_1 i) (x0 : Vec F S2000x1024 .bf16) (x1 : Vec F S1024x100 .f32) (xs : Vec F S2000x100 .f32) :
    out7_C c i arg2 harg2 arg3 harg3 arg4 harg4 arg5 harg5 hc0 hc1 x0 x1 xs = k7_pay2 x0 x1 xs := by
  unfold out7_C
  rw [View.read_writes_eq_canon _ _ _ (cover7_C c i arg2 harg2 arg3 harg3 arg4 harg4 arg5 harg5 hc0 hc1 x0 x1 xs)]
  unfold run7_C
  dsimp only
  sl_unfold_words
  rw [View.canon_unit_zero (S := S2000x100) hz7]
  simp only [View.readAt_eq_ld, harg2.read_unread, harg3.read_unread, harg5.read_unread, View.ld_unit_zero (S := S2000x1024) hz7,
    View.ld_unit_zero (S := S1024x100) hz7, View.ld_unit_zero (S := S2000x100) hz7, View.readCov_unit_zero (S := S2000x100) _ hz7]

end Pieces

/-! ## The step's arithmetic at the ideal values -/

theorem lhs7_0 (j : S2000x100.Idx) (k : dot_S2000x1024_S1024x100_S2000x100_1_0_0_1_n_n.contr.Idx) :
    (dot_S2000x1024_S1024x100_S2000x100_1_0_0_1_n_n.lhsIdx j k 0).val = (j 0).val := by
  simp [DotDims.lhsIdx, dot_S2000x1024_S1024x100_S2000x100_1_0_0_1_n_n]; rfl

theorem lhs7_1 (j : S2000x100.Idx) (k : dot_S2000x1024_S1024x100_S2000x100_1_0_0_1_n_n.contr.Idx) :
    (dot_S2000x1024_S1024x100_S2000x100_1_0_0_1_n_n.lhsIdx j k 1).val = (k ⟨0, by decide⟩).val :=
  dot_S2000x1024_S1024x100_S2000x100_1_0_0_1_n_n.lhsIdx_val_of_single (cl := 1) rfl j k

theorem rhs7_0 (j : S2000x100.Idx) (k : dot_S2000x1024_S1024x100_S2000x100_1_0_0_1_n_n.contr.Idx) :
    (dot_S2000x1024_S1024x100_S2000x100_1_0_0_1_n_n.rhsIdx j k 0).val = (k ⟨0, by decide⟩).val :=
  dot_S2000x1024_S1024x100_S2000x100_1_0_0_1_n_n.rhsIdx_val_of_single (cr := 0) rfl j k

theorem rhs7_1 (j : S2000x100.Idx) (k : dot_S2000x1024_S1024x100_S2000x100_1_0_0_1_n_n.contr.Idx) :
    (dot_S2000x1024_S1024x100_S2000x100_1_0_0_1_n_n.rhsIdx j k 1).val = (j 1).val := by
  simp [DotDims.rhsIdx, dot_S2000x1024_S1024x100_S2000x100_1_0_0_1_n_n]; rfl

/-- The cleared accumulator is zero everywhere. -/
theorem pay7_1_apply (j : S2000x100.Idx) : k7_pay1 (F := Ideal) j = 0 := by
  unfold k7_pay1
  refine (congrFun (shapeCast_self _ _) j).trans ?_
  exact Ideal.ofBits_zero_f32

/-- One step at an entry (p, q): what the accumulator held there plus the sum over the run's contracted coordinate k
    of x0 (p, k) * x1 (k, q).  The narrowing cast is the identity on extended reals and the product starts from zero. -/
theorem pay7_2_apply (x0 : FVec Ideal S2000x1024 .bf16) (x1 : FVec Ideal S1024x100 .f32) (xs : FVec Ideal S2000x100 .f32)
    (p : Fin 2000) (q : Fin 100) :
    k7_pay2 (F := Ideal) x0 x1 xs (ix2 p q) = xs (ix2 p q) + ∑ k : Fin 1024, x0 (ix2 p k) * x1 (ix2 k q) := by
  have e : k7_pay2 (F := Ideal) x0 x1 xs
      = addf xs (matmul dot_S2000x1024_S1024x100_S2000x100_1_0_0_1_n_n none x0 (truncf .bf16 x1 bitsLt_bf16_f32)
          (constant S2000x100 .f32 0x00000000#32)) := by
    simp only [k7_pay2, shapeCast_self]
  rw [e]
  refine (congrArg (fun z : EReal => xs (ix2 p q) + z)
    (Ideal.matmul_constant_zero_apply dot_S2000x1024_S1024x100_S2000x100_1_0_0_1_n_n none x0 (truncf .bf16 x1 bitsLt_bf16_f32) (ix2 p q))).trans ?_
  refine congrArg (fun z : EReal => xs (ix2 p q) + z) ?_
  rw [← Equiv.sum_comp (contrEquiv1 dot_S2000x1024_S1024x100_S2000x100_1_0_0_1_n_n 1024 rfl rfl).symm]
  refine Finset.sum_congr rfl fun k _ => ?_
  have hk := contrEquiv1_symm_val dot_S2000x1024_S1024x100_S2000x100_1_0_0_1_n_n 1024 rfl rfl k
  have hl : dot_S2000x1024_S1024x100_S2000x100_1_0_0_1_n_n.lhsIdx (ix2 p q)
      ((contrEquiv1 dot_S2000x1024_S1024x100_S2000x100_1_0_0_1_n_n 1024 rfl rfl).symm k) = ix2 p k := by
    funext ax; apply Fin.ext
    match ax with
    | ⟨0, _⟩ => exact lhs7_0 _ _
    | ⟨1, _⟩ => exact (lhs7_1 _ _).trans hk
  have hr : dot_S2000x1024_S1024x100_S2000x100_1_0_0_1_n_n.rhsIdx (ix2 p q)
      ((contrEquiv1 dot_S2000x1024_S1024x100_S2000x100_1_0_0_1_n_n 1024 rfl rfl).symm k) = ix2 k q := by
    funext ax; apply Fin.ext
    match ax with
    | ⟨0, _⟩ => exact (rhs7_0 _ _).trans hk
    | ⟨1, _⟩ => exact rhs7_1 _ _
  show x0 (dot_S2000x1024_S1024x100_S2000x100_1_0_0_1_n_n.lhsIdx (ix2 p q) _) * x1 (dot_S2000x1024_S1024x100_S2000x100_1_0_0_1_n_n.rhsIdx (ix2 p q) _) = _
  rw [hl, hr]

/-! ## The whole-array function -/

/-- The matrix product of a 10000 x 10240 array and a 10240 x 100 array over the extended reals, entry by entry. -/
def G7 (a0 : FVec Ideal S10000x10240 .bf16) (a1 : FVec Ideal S10240x100 .f32) : FVec Ideal S10000x100 .f32 :=
  fun i => ∑ s : Fin 10240, a0 (ix2 (i 0) s) * a1 (ix2 s (i 1))

theorem G7_apply (a0 : FVec Ideal S10000x10240 .bf16) (a1 : FVec Ideal S10240x100 .f32) (i : Fin 10000) (j : Fin 100) :
    G7 a0 a1 (ix2 i j) = ∑ s : Fin 10240, a0 (ix2 i s) * a1 (ix2 s j) := rfl

/-- Run `s` of the contracted index (positions s * 1024 … s * 1024 + 1023) of entry (r, q) of the product; zero off the
    array and past the last run, so that it is a function of naturals. -/
def part7 (a0 : FVec Ideal S10000x10240 .bf16) (a1 : FVec Ideal S10240x100 .f32) (r : ℕ) (q : Fin 100) (s : ℕ) : EReal :=
  if h : r < 10000 ∧ s < 10 then
    ∑ k : Fin 1024, a0 (ix2 (⟨r, h.1⟩ : Fin 10000) (⟨s * 1024 + k.val, by have := k.isLt; omega⟩ : Fin 10240))
      * a1 (ix2 (⟨s * 1024 + k.val, by have := k.isLt; omega⟩ : Fin 10240) q)
  else 0

/-- The ten runs make up the entry of the product. -/
theorem sum_part7 (a0 : FVec Ideal S10000x10240 .bf16) (a1 : FVec Ideal S10240x100 .f32) (r : ℕ) (hr : r < 10000) (q : Fin 100) :
    ∑ s ∈ Finset.range 10, part7 a0 a1 r q s = G7 a0 a1 (ix2 (⟨r, hr⟩ : Fin 10000) q) := by
  rw [G7_apply, Cert.Spec.sum_blocks_10240, Finset.sum_range]
  refine Finset.sum_congr rfl fun s _ => ?_
  unfold part7
  rw [dif_pos ⟨hr, s.isLt⟩]

variable (V : (c : Dev nD) → (b : Ref sig .tc) → Buf (Elt Ideal) ((c : Thread nD τ).loc b))

/-- The two operand arrays as the region finds them, and their blocks at a point. -/
abbrev aarr7 (c : Dev nD) : FVec Ideal S10000x10240 .bf16 := V c (Pipeline.arrRef spec7 0)
abbrev harr7 (c : Dev nD) : FVec Ideal S10240x100 .f32 := V c (Pipeline.arrRef spec7 1)
abbrev ablk7 (c : Dev nD) (t : Fin cfg7.N) : FVec Ideal S2000x1024 .bf16 := iblk7 V c 0 t
abbrev hblk7 (c : Dev nD) (t : Fin cfg7.N) : FVec Ideal S1024x100 .f32 := iblk7 V c 1 t

/-! ## The blocks, read off the arrays -/

/-- The index maps, decided over the grid: the row block of the first operand and of the result is the point's
    number divided by the number of runs, the run is the remainder; the second operand's row block is the run; no
    column block moves. -/
theorem idx_facts7 : ∀ t : Fin cfg7.N, win7_0.index t (0 : Fin 2) = t.val / 10
    ∧ win7_0.index t (1 : Fin 2) = t.val % 10
    ∧ win7_1.index t (0 : Fin 2) = t.val % 10
    ∧ win7_1.index t (1 : Fin 2) = 0
    ∧ win7_2.index t (0 : Fin 2) = t.val / 10
    ∧ win7_2.index t (1 : Fin 2) = 0 :=
  (by decide +kernel : ∀ t : Fin grid7.N, _)

theorem lt_N7 (t : Fin cfg7.N) : t.val < 50 := lt_of_lt_of_eq t.isLt N_7

/-- A run of the first operand's block against the second's is that run of the product's entry. -/
theorem blocks7_apply (c : Dev nD) (t : Fin cfg7.N) (p : Fin 2000) (q : Fin 100) :
    ∑ k : Fin 1024, ablk7 V c t (ix2 p k) * hblk7 V c t (ix2 k q)
      = part7 (aarr7 V c) (harr7 V c) (t.val / 10 * 2000 + p.val) q (t.val % 10) := by
  obtain ⟨e0, e1, e2, e3, e4, e5⟩ := idx_facts7 t
  have hN := lt_N7 t
  have hr : t.val / 10 * 2000 + p.val < 10000 := by have := p.isLt; omega
  have hs : t.val % 10 < 10 := Nat.mod_lt _ (by decide)
  unfold part7
  rw [dif_pos ⟨hr, hs⟩]
  refine Finset.sum_congr rfl fun k _ => ?_
  have h0 : ((cfg7.win 0).blk t).view.emb (ix2 p k)
      = ix2 (⟨t.val / 10 * 2000 + p.val, hr⟩ : Fin 10000) (⟨t.val % 10 * 1024 + k.val, by have := k.isLt; omega⟩ : Fin 10240) := by
    funext a; apply Fin.ext
    match a with
    | ⟨0, _⟩ => show win7_0.index t (0 : Fin 2) * 2000 + 1 * p.val = t.val / 10 * 2000 + p.val; omega
    | ⟨1, _⟩ => show win7_0.index t (1 : Fin 2) * 1024 + 1 * k.val = t.val % 10 * 1024 + k.val; omega
  have h1 : ((cfg7.win 1).blk t).view.emb (ix2 k q)
      = ix2 (⟨t.val % 10 * 1024 + k.val, by have := k.isLt; omega⟩ : Fin 10240) q := by
    funext a; apply Fin.ext
    match a with
    | ⟨0, _⟩ => show win7_1.index t (0 : Fin 2) * 1024 + 1 * k.val = t.val % 10 * 1024 + k.val; omega
    | ⟨1, _⟩ => show win7_1.index t (1 : Fin 2) * 100 + 1 * q.val = q.val; omega
  exact congrArg₂ (fun a b : EReal => a * b) (congrArg (aarr7 V c) h0) (congrArg (harr7 V c) h1)

/-! ## The accumulator after each point -/

/-- THE INVARIANT.  After the body at point `t` the accumulator holds, at entry (p, q), the runs 0 … t % 10 of entry
    (t / 10 * 2000 + p, q) of the product: by induction on the point — a first step starts from zero, every other step
    adds its run to what the point before left, and the point before is in the same row block, one run earlier. -/
theorem scrAt7_apply (c : Dev nD) (t : Fin cfg7.N) (p : Fin 2000) (q : Fin 100) :
    scrAt7 (F := Ideal) V c t.val t.isLt (ix2 p q)
      = ∑ s ∈ Finset.range (t.val % 10 + 1), part7 (aarr7 V c) (harr7 V c) (t.val / 10 * 2000 + p.val) q s := by
  obtain ⟨n, hn⟩ := t
  induction n with
  | zero =>
    have h0 : (⟨0, hn⟩ : Fin cfg7.N).val % 10 = 0 := rfl
    have h1 : ¬(⟨0, hn⟩ : Fin cfg7.N).val % 10 = 9 := by show ¬(0 % 10 = 9); decide
    rw [scrAt7_A V c ⟨0, hn⟩ h0 h1, sout7_A_eq]
    refine (pay7_2_apply (ablk7 V c ⟨0, hn⟩) (hblk7 V c ⟨0, hn⟩) (k7_pay1 (F := Ideal)) p q).trans ?_
    rw [pay7_1_apply, zero_add, blocks7_apply V c ⟨0, hn⟩ p q]
    show _ = ∑ s ∈ Finset.range (0 % 10 + 1), _
    rw [show (0 % 10 + 1 : ℕ) = 1 from rfl, Finset.sum_range_one]
    rfl
  | succ n ih =>
    have hN : n + 1 < 50 := lt_N7 ⟨n + 1, hn⟩
    by_cases h0 : (n + 1) % 10 = 0
    · have h1 : ¬(n + 1) % 10 = 9 := by omega
      rw [scrAt7_A V c ⟨n + 1, hn⟩ h0 h1, sout7_A_eq]
      refine (pay7_2_apply (ablk7 V c ⟨n + 1, hn⟩) (hblk7 V c ⟨n + 1, hn⟩) (k7_pay1 (F := Ideal)) p q).trans ?_
      rw [pay7_1_apply, zero_add, blocks7_apply V c ⟨n + 1, hn⟩ p q]
      show part7 _ _ ((n + 1) / 10 * 2000 + p.val) q ((n + 1) % 10) = ∑ s ∈ Finset.range ((n + 1) % 10 + 1), _
      rw [h0, Finset.sum_range_one]
    · have ihn := ih (Nat.lt_of_succ_lt hn)
      have hd : n / 10 = (n + 1) / 10 := by omega
      have hm : n % 10 + 1 = (n + 1) % 10 := by omega
      have hstep : k7_pay2 (F := Ideal) (ablk7 V c ⟨n + 1, hn⟩) (hblk7 V c ⟨n + 1, hn⟩) (scrBefore7 V c ⟨n + 1, hn⟩) (ix2 p q)
          = ∑ s ∈ Finset.range ((n + 1) % 10 + 1), part7 (aarr7 V c) (harr7 V c) ((n + 1) / 10 * 2000 + p.val) q s := by
        refine (pay7_2_apply (ablk7 V c ⟨n + 1, hn⟩) (hblk7 V c ⟨n + 1, hn⟩) (scrBefore7 V c ⟨n + 1, hn⟩) p q).trans ?_
        rw [blocks7_apply V c ⟨n + 1, hn⟩ p q]
        rw [show scrBefore7 V c ⟨n + 1, hn⟩ (ix2 p q)
            = ∑ s ∈ Finset.range (n % 10 + 1), part7 (aarr7 V c) (harr7 V c) (n / 10 * 2000 + p.val) q s from ihn]
        show _ + part7 _ _ ((n + 1) / 10 * 2000 + p.val) q ((n + 1) % 10) = _
        rw [hd, ← hm, Finset.sum_range_succ _ (n % 10 + 1)]
      by_cases h1 : (n + 1) % 10 = 9
      · rw [scrAt7_C V c ⟨n + 1, hn⟩ h0 h1, sout7_C_eq]
        exact hstep
      · rw [scrAt7_B V c ⟨n + 1, hn⟩ h0 h1, sout7_B_eq]
        exact hstep

/-! ## From blocks to the array -/

/-- What a last step writes back is the accumulator as that step leaves it: block `t` of the product. -/
theorem flushed7_2_eq (c : Dev nD) (t : Fin cfg7.N) (hf : (cfg7.win 2).flush t = true) :
    (dat7 (F := Ideal) V c).flushed 2 t = ((cfg7.win 2).blk t).view.read (Elt Ideal) (G7 (aarr7 V c) (harr7 V c)) := by
  have h1 : t.val % 10 = 9 := (flush7_2 t).mp hf
  have h0 : ¬t.val % 10 = 0 := by omega
  show (cfg7.win 2).cut (grid7.coords t) ((dat7 (F := Ideal) V c).after 2 t) = _
  rw [after7_2, outAt7_C V c t h0 h1, out7_C_eq, ← sout7_C_eq c (grid7.coords t) (ms7_0 t) (hs7_0 t) (ms7_1 t) (hs7_1 t) (ms7_2 t) (hs7_2 t) scM7 (Memref.isWhole_whole _)
    (fun h => h0 ((hcond7_0 t).mp h)) ((hcond7_1 t).mpr h1), ← scrAt7_C V c t h0 h1]
  obtain ⟨e0, e1, e2, e3, e4, e5⟩ := idx_facts7 t
  have hN := lt_N7 t
  funext j
  obtain ⟨p, q, rfl⟩ : ∃ (p : Fin 2000) (q : Fin 100), j = ix2 p q := ⟨j 0, j 1, eq_ix2 j⟩
  have hr : t.val / 10 * 2000 + p.val < 10000 := by have := p.isLt; omega
  show scrAt7 (F := Ideal) V c t.val t.isLt (ix2 p q) = G7 (aarr7 V c) (harr7 V c) (((cfg7.win 2).blk t).view.emb (ix2 p q))
  rw [scrAt7_apply V c t p q, h1, sum_part7 _ _ _ hr]
  refine congrArg (G7 (aarr7 V c) (harr7 V c)) ?_
  funext a; apply Fin.ext
  match a with
  | ⟨0, _⟩ => show t.val / 10 * 2000 + p.val = win7_2.index t (0 : Fin 2) * 2000 + 1 * p.val; omega
  | ⟨1, _⟩ => show q.val = win7_2.index t (1 : Fin 2) * 100 + 1 * q.val; omega

/-- An index of the result is in point t's block iff each coordinate is in the block's range on its axis. -/
theorem mem_blk7_2 (t : Fin cfg7.N) (i : S10000x100.Idx) :
    i ∈ ((cfg7.win 2).blk t).view.set ↔ ∀ a : Fin 2, win7_2.index t a * S2000x100.size a ≤ (i a).val ∧ (i a).val < win7_2.index t a * S2000x100.size a + S2000x100.size a := by
  show i ∈ ((View.whole main_v87).slice (win7_2.rect t)).set ↔ _
  rw [View.set_slice_whole, Rect.mem_set_unit]
  exact Iff.rfl

/-- Every row block of the result is written back by some point (the last step of its row of the grid). -/
theorem idx_onto7 : ∀ q0 : Fin 5, ∃ t : Fin cfg7.N, (cfg7.win 2).flush t = true ∧ win7_2.index t = ![q0.val, 0] :=
  (by decide +kernel : ∀ q0 : Fin 5, ∃ t : Fin grid7.N, win7_2.flush t = true ∧ win7_2.index t = ![q0.val, 0])

/-- The row blocks tile the result: row r lies in the block of row block r / 2000. -/
theorem covered7_2 (i : S10000x100.Idx) :
    ∃ t : Fin cfg7.N, (cfg7.win 2).flush t = true ∧ i ∈ ((cfg7.win 2).blk t).view.set := by
  have hi0 : (i 0).val < 10000 := (i 0).isLt
  have hi1 : (i 1).val < 100 := (i 1).isLt
  obtain ⟨t, hft, ht⟩ := idx_onto7 ⟨(i 0).val / 2000, by omega⟩
  have q0 : win7_2.index t (0 : Fin 2) = (i 0).val / 2000 := congrFun ht 0
  have q1 : win7_2.index t (1 : Fin 2) = 0 := congrFun ht 1
  refine ⟨t, hft, ?_⟩
  rw [mem_blk7_2]
  intro a
  match a with
  | ⟨0, _⟩ => show win7_2.index t (0 : Fin 2) * 2000 ≤ (i 0).val ∧ (i 0).val < win7_2.index t (0 : Fin 2) * 2000 + 2000; omega
  | ⟨1, _⟩ => show win7_2.index t (1 : Fin 2) * 100 ≤ (i 1).val ∧ (i 1).val < win7_2.index t (1 : Fin 2) * 100 + 100; omega

/-- THE ARRAY the region leaves in its result window: the product of the two arrays it found. -/
theorem final7_2 (c : Dev nD) : (dat7 (F := Ideal) V c).arrAt 2 cfg7.N = G7 (aarr7 V c) (harr7 V c) :=
  (dat7 (F := Ideal) V c).arrAt_eq_of_cover 2 (G7 (aarr7 V c) (harr7 V c)) (fun t hf => flushed7_2_eq V c t hf) (covered7_2)

/-! ## Over the reals -/

/-- Where the two arrays hold real numbers, the result holds the real matrix product. -/
theorem final7_real (c : Dev nD) (ar : Fin 10000 → Fin 10240 → ℝ) (hr : Fin 10240 → Fin 100 → ℝ)
    (ha : ∀ i s, (V c (Pipeline.arrRef spec7 0) : S10000x10240.Idx → EReal) (ix2 i s) = ((ar i s : ℝ) : EReal))
    (hh : ∀ s j, (V c (Pipeline.arrRef spec7 1) : S10240x100.Idx → EReal) (ix2 s j) = ((hr s j : ℝ) : EReal))
    (i : Fin 10000) (j : Fin 100) :
    ((dat7 (F := Ideal) V c).arrAt 2 cfg7.N : S10000x100.Idx → EReal) (ix2 i j)
      = ((∑ s : Fin 10240, ar i s * hr s j : ℝ) : EReal) := by
  refine (congrFun (final7_2 V c) (ix2 i j)).trans ?_
  show (∑ s : Fin 10240, aarr7 V c (ix2 i s) * harr7 V c (ix2 s j) : EReal) = _
  rw [← Cert.LibCoe.sum_coe]
  refine Finset.sum_congr rfl fun s _ => ?_
  rw [← Cert.LibCoe.mul_coe]
  exact congrArg₂ (fun a b : EReal => a * b) (ha i s) (hh s j)

end Cert.KernelIdeal.HandV

end
-- ==== Proof.Val8.lean ====
import proofs.«408066_j62380105008311_2_alg».proof.Proof.Reg8
import proofs.«408066_j62380105008311_2_alg».proof.Proof.Spec
import proofs.«408066_j62380105008311_2_alg».proof.Proof.LibCoe
import proofs.«408066_j62380105008311_2_alg».proof.Proof.SpecLaws2
import Idealize.ShloMosaic.Lib.Pipeline.Value
import Idealize.ShloMosaic.Lib.ValueIdx
import Idealize.ShloMosaic.Lib.ValueLayout
import Idealize.ShloMosaic.PureOps.Ideal.Laws

/-!
# Pipeline 8 at the ideal values: the clamped biased rows, their column sums and column sums of squares

Each grid point writes back one row block of the first result: the bias row added to the matching row block and
clamped at zero. The row blocks tile the result, so the array the region leaves is that function of the two arrays it
found, entry by entry. The two one-row results are written back once, after the last point: each holds, per column,
the sum over the points of the block's column sum (of squares), from a zero start; the blocks partition the rows, so
that is the sum over all rows. Where the two arrays hold real numbers the three results hold the real clamped sum,
its column sums and its column sums of squares.
-/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## The three whole-array functions -/

/-- The rows plus the bias row, clamped at zero, entry by entry. -/
def relu8 (a0 : FVec Ideal S10000x100 .f32) (a1 : FVec Ideal S1x100 .f32) : FVec Ideal S10000x100 .f32 :=
  fun i => max (a0 i + a1 (ix2 (0 : Fin 1) (i 1))) (Ideal.ofBits .f32 0x00000000#32)

/-- Its column sums, as one row. -/
def colsum8 (a0 : FVec Ideal S10000x100 .f32) (a1 : FVec Ideal S1x100 .f32) : FVec Ideal S1x100 .f32 :=
  fun j => ∑ i : Fin 10000, relu8 a0 a1 (ix2 i (j 1))

/-- Its column sums of squares, as one row. -/
def colsumsq8 (a0 : FVec Ideal S10000x100 .f32) (a1 : FVec Ideal S1x100 .f32) : FVec Ideal S1x100 .f32 :=
  fun j => ∑ i : Fin 10000, relu8 a0 a1 (ix2 i (j 1)) * relu8 a0 a1 (ix2 i (j 1))

/-! ## The payloads at an entry -/

theorem hz8 : (![0, 0] : Fin 2 → Nat) = fun _ => 0 := funext fun a => by fin_cases a <;> rfl

/-- An index of a one-row array has row coordinate zero. -/
theorem row_idx8 (j : S1x100.Idx) : j = ix2 (0 : Fin 1) (j 1) := by
  funext a
  match a with
  | ⟨0, _⟩ => exact Fin.ext (by have h : (j 0).val < 1 := (j 0).isLt; show (j 0).val = 0; omega)
  | ⟨1, _⟩ => rfl

/-- The body's first payload at an entry of a block: the entry plus the bias at its column, clamped at zero. -/
theorem pay8_3_at (x0 : FVec Ideal S1000x100 .f32) (x1 : FVec Ideal S1x100 .f32) (j : S1000x100.Idx) :
    k8_pay3 (F := Ideal) x0 x1 j = max (x0 j + x1 (ix2 (0 : Fin 1) (j 1))) (Ideal.ofBits .f32 0x00000000#32) := by
  unfold k8_pay3
  simp only [shapeCast_self]
  rw [maximumf_apply, addf_apply, broadcast_apply,
    broadcastTo_apply x1 _ j (ix2 (0 : Fin 1) (j 1)) (fun ax => by
      match ax with
      | ⟨0, _⟩ => rfl
      | ⟨1, _⟩ => rfl)]
  rfl

/-- One update of the column-sum row at a column: what it held plus the block's column sum. -/
theorem pay8_4_at (x0 : FVec Ideal S1000x100 .f32) (x1 : FVec Ideal S1x100 .f32) (a : FVec Ideal S1x100 .f32) (q : Fin 100) :
    k8_pay4 (F := Ideal) x0 x1 a (ix2 (0 : Fin 1) q)
      = a (ix2 (0 : Fin 1) q) + ∑ p : Fin 1000, k8_pay3 (F := Ideal) x0 x1 (ix2 p q) := by
  unfold k8_pay4
  simp only [shapeCast_self]
  rw [addf_apply, shapeCast_a_1a_apply]
  refine congrArg (fun z : EReal => a (ix2 (0 : Fin 1) q) + z) ?_
  refine (Ideal.multiReduction_add_single (k8_pay3 (F := Ideal) x0 x1) 0x00000000#32 reduces_S1000x100_S100 _ _ (ix1 q)).trans ?_
  refine Finset.sum_congr rfl fun p _ => ?_
  refine congrArg (k8_pay3 (F := Ideal) x0 x1) ?_
  funext d; apply Fin.ext
  match d with
  | ⟨0, _⟩ => rfl
  | ⟨1, _⟩ => rfl

/-- One update of the column-sum-of-squares row at a column. -/
theorem pay8_5_at (x0 : FVec Ideal S1000x100 .f32) (x1 : FVec Ideal S1x100 .f32) (a : FVec Ideal S1x100 .f32) (q : Fin 100) :
    k8_pay5 (F := Ideal) x0 x1 a (ix2 (0 : Fin 1) q)
      = a (ix2 (0 : Fin 1) q) + ∑ p : Fin 1000, k8_pay3 (F := Ideal) x0 x1 (ix2 p q) * k8_pay3 (F := Ideal) x0 x1 (ix2 p q) := by
  unfold k8_pay5
  simp only [shapeCast_self]
  rw [addf_apply, shapeCast_a_1a_apply]
  refine congrArg (fun z : EReal => a (ix2 (0 : Fin 1) q) + z) ?_
  refine (Ideal.multiReduction_add_single (mulf (k8_pay3 (F := Ideal) x0 x1) (k8_pay3 (F := Ideal) x0 x1)) 0x00000000#32 reduces_S1000x100_S100 _ _ (ix1 q)).trans ?_
  refine Finset.sum_congr rfl fun p _ => ?_
  have e : reduces_S1000x100_S100.lift (ix1 q) p = ix2 p q := by
    funext d; apply Fin.ext
    match d with
    | ⟨0, _⟩ => rfl
    | ⟨1, _⟩ => rfl
  rw [mulf_apply, e]
  rfl

/-- The reset rows hold zero. -/
theorem zero8_3_at (j : S1x100.Idx) : zero8_3 (F := Ideal) j = 0 := by
  unfold zero8_3
  rw [View.canon_unit_zero hz8]
  exact Cert.LibCoe.ofBits_zero.trans EReal.coe_zero
theorem zero8_4_at (j : S1x100.Idx) : zero8_4 (F := Ideal) j = 0 := by
  unfold zero8_4
  rw [View.canon_unit_zero hz8]
  exact Cert.LibCoe.ofBits_zero.trans EReal.coe_zero

/-- A point's update of each running row, at a column. -/
theorem step8_3_at (x0 : FVec Ideal S1000x100 .f32) (x1 : FVec Ideal S1x100 .f32) (a : FVec Ideal S1x100 .f32) (q : Fin 100) :
    step8_3 (F := Ideal) x0 x1 a (ix2 (0 : Fin 1) q)
      = a (ix2 (0 : Fin 1) q) + ∑ p : Fin 1000, k8_pay3 (F := Ideal) x0 x1 (ix2 p q) := by
  unfold step8_3
  rw [View.canon_unit_zero hz8]
  simp only [View.ld_unit_zero (S := S1000x100) hz8, View.ld_unit_zero (S := S1x100) hz8]
  exact pay8_4_at x0 x1 a q
theorem step8_4_at (x0 : FVec Ideal S1000x100 .f32) (x1 : FVec Ideal S1x100 .f32) (a : FVec Ideal S1x100 .f32) (q : Fin 100) :
    step8_4 (F := Ideal) x0 x1 a (ix2 (0 : Fin 1) q)
      = a (ix2 (0 : Fin 1) q) + ∑ p : Fin 1000, k8_pay3 (F := Ideal) x0 x1 (ix2 p q) * k8_pay3 (F := Ideal) x0 x1 (ix2 p q) := by
  unfold step8_4
  rw [View.canon_unit_zero hz8]
  simp only [View.ld_unit_zero (S := S1000x100) hz8, View.ld_unit_zero (S := S1x100) hz8]
  exact pay8_5_at x0 x1 a q
variable (V : (c : Dev nD) → (b : Ref sig .tc) → Buf (Elt Ideal) ((c : Thread nD τ).loc b))

/-- The two operand arrays as the region finds them. -/
abbrev xarr8 (c : Dev nD) : FVec Ideal S10000x100 .f32 := V c (Pipeline.arrRef spec8 0)
abbrev barr8 (c : Dev nD) : FVec Ideal S1x100 .f32 := V c (Pipeline.arrRef spec8 1)

/-! ## From blocks to the arrays -/

/-- The index maps, decided over the grid: the rows' block and the first result's block are the point's, nothing
    moves along the columns, and the bias row and the two one-row results never move. -/
theorem idx_facts8 : ∀ t : Fin cfg8.N, win8_0.index t (0 : Fin 2) = t.val
    ∧ win8_0.index t (1 : Fin 2) = 0
    ∧ win8_1.index t (0 : Fin 2) = 0
    ∧ win8_1.index t (1 : Fin 2) = 0
    ∧ win8_2.index t (0 : Fin 2) = t.val
    ∧ win8_2.index t (1 : Fin 2) = 0
    ∧ win8_3.index t (0 : Fin 2) = 0
    ∧ win8_3.index t (1 : Fin 2) = 0
    ∧ win8_4.index t (0 : Fin 2) = 0
    ∧ win8_4.index t (1 : Fin 2) = 0 :=
  (by decide +kernel : ∀ t : Fin grid8.N, _)

/-- Row `p` of point `t`'s block is row `t · 1000 + p` of the array. -/
def row8 (t : Fin cfg8.N) (p : Fin 1000) : Fin 10000 :=
  ⟨t.val * 1000 + p.val, by have h : t.val < 10 := lt_of_lt_of_eq t.isLt N_8; have := p.isLt; omega⟩

theorem blk8_0_emb (t : Fin cfg8.N) (p : Fin 1000) (q : Fin 100) :
    ((cfg8.win 0).blk t).view.emb (ix2 p q) = ix2 (row8 t p) q := by
  obtain ⟨e0, e1, -⟩ := idx_facts8 t
  funext a; apply Fin.ext
  match a with
  | ⟨0, _⟩ => show win8_0.index t (0 : Fin 2) * 1000 + 1 * p.val = t.val * 1000 + p.val; omega
  | ⟨1, _⟩ => show win8_0.index t (1 : Fin 2) * 100 + 1 * q.val = q.val; omega

theorem blk8_1_emb (t : Fin cfg8.N) (q : Fin 100) :
    ((cfg8.win 1).blk t).view.emb (ix2 (0 : Fin 1) q) = ix2 (0 : Fin 1) q := by
  obtain ⟨-, -, e2, e3, -⟩ := idx_facts8 t
  funext a; apply Fin.ext
  match a with
  | ⟨0, _⟩ => show win8_1.index t (0 : Fin 2) * 1 + 1 * 0 = 0; omega
  | ⟨1, _⟩ => show win8_1.index t (1 : Fin 2) * 100 + 1 * q.val = q.val; omega

/-- The body's first payload on point `t`'s blocks, at `(p, q)`: the whole-array function at row `t · 1000 + p`. -/
theorem block8_at (c : Dev nD) (t : Fin cfg8.N) (p : Fin 1000) (q : Fin 100) :
    k8_pay3 (F := Ideal) (iblk8 V c 0 t) (iblk8 V c 1 t) (ix2 p q) = relu8 (xarr8 V c) (barr8 V c) (ix2 (row8 t p) q) := by
  refine (pay8_3_at _ _ (ix2 p q)).trans ?_
  exact congrArg₂ (fun a b : EReal => max (a + b) (Ideal.ofBits .f32 0x00000000#32))
    (congrArg (xarr8 V c) (blk8_0_emb t p q)) (congrArg (barr8 V c) (blk8_1_emb t q))

/-! ### The first result: its row blocks tile it -/

/-- What point `t` writes back is block `t` of the clamped sum of the two arrays. -/
theorem flushed8_2_eq (c : Dev nD) (t : Fin cfg8.N) :
    (dat8 (F := Ideal) V c).flushed 2 t = ((cfg8.win 2).blk t).view.read (Elt Ideal) (relu8 (xarr8 V c) (barr8 V c)) := by
  show (cfg8.win 2).cut (grid8.coords t) ((dat8 (F := Ideal) V c).after 2 t) = _
  rw [after8_2]
  unfold out8_2
  rw [View.canon_unit_zero hz8]
  simp only [View.ld_unit_zero (S := S1000x100) hz8, View.ld_unit_zero (S := S1x100) hz8]
  obtain ⟨e0, e1, e2, e3, e4, e5, -⟩ := idx_facts8 t
  funext j
  show k8_pay3 (F := Ideal) (iblk8 V c 0 t) (iblk8 V c 1 t) j = relu8 (xarr8 V c) (barr8 V c) (((cfg8.win 2).blk t).view.emb j)
  refine (pay8_3_at _ _ j).trans ?_
  have h0 : ((cfg8.win 0).blk t).view.emb j = ((cfg8.win 2).blk t).view.emb j := by
    funext a; apply Fin.ext
    match a with
    | ⟨0, _⟩ => show win8_0.index t (0 : Fin 2) * 1000 + 1 * (j 0).val = win8_2.index t (0 : Fin 2) * 1000 + 1 * (j 0).val; omega
    | ⟨1, _⟩ => show win8_0.index t (1 : Fin 2) * 100 + 1 * (j 1).val = win8_2.index t (1 : Fin 2) * 100 + 1 * (j 1).val; omega
  have h1 : ((cfg8.win 1).blk t).view.emb (ix2 (0 : Fin 1) (j 1)) = ix2 (0 : Fin 1) ((((cfg8.win 2).blk t).view.emb j) 1) := by
    funext a; apply Fin.ext
    match a with
    | ⟨0, _⟩ => show win8_1.index t (0 : Fin 2) * 1 + 1 * 0 = 0; omega
    | ⟨1, _⟩ => show win8_1.index t (1 : Fin 2) * 100 + 1 * (j 1).val = win8_2.index t (1 : Fin 2) * 100 + 1 * (j 1).val; omega
  exact congrArg₂ (fun a b : EReal => max (a + b) (Ideal.ofBits .f32 0x00000000#32))
    (congrArg (xarr8 V c) h0) (congrArg (barr8 V c) h1)

/-- An index of the first result is in point `t`'s block iff each coordinate is in the block's range on its axis. -/
theorem mem_blk8_2 (t : Fin cfg8.N) (i : S10000x100.Idx) :
    i ∈ ((cfg8.win 2).blk t).view.set ↔ ∀ a : Fin 2, win8_2.index t a * S1000x100.size a ≤ (i a).val ∧ (i a).val < win8_2.index t a * S1000x100.size a + S1000x100.size a := by
  show i ∈ ((View.whole (Pipeline.arrRef spec8 2)).slice (win8_2.rect t)).set ↔ _
  rw [View.set_slice_whole, Rect.mem_set_unit]
  exact Iff.rfl

/-- Every row block of the first result is some point's. -/
theorem idx_onto8 : ∀ q0 : Fin 10, ∃ t : Fin cfg8.N, win8_2.index t = ![q0.val, 0] :=
  (by decide +kernel : ∀ q0 : Fin 10, ∃ t : Fin grid8.N, win8_2.index t = ![q0.val, 0])

/-- The row blocks tile the first result: row `r` lies in the block of point `r / 1000`. -/
theorem covered8_2 (i : S10000x100.Idx) :
    ∃ t : Fin cfg8.N, (cfg8.win 2).flush t = true ∧ i ∈ ((cfg8.win 2).blk t).view.set := by
  have hi0 : (i 0).val < 10000 := (i 0).isLt
  have hi1 : (i 1).val < 100 := (i 1).isLt
  obtain ⟨t, ht⟩ := idx_onto8 ⟨(i 0).val / 1000, by omega⟩
  have q0 : win8_2.index t (0 : Fin 2) = (i 0).val / 1000 := congrFun ht 0
  have q1 : win8_2.index t (1 : Fin 2) = 0 := congrFun ht 1
  refine ⟨t, flush8_2 t, ?_⟩
  rw [mem_blk8_2]
  intro a
  match a with
  | ⟨0, _⟩ => show win8_2.index t (0 : Fin 2) * 1000 ≤ (i 0).val ∧ (i 0).val < win8_2.index t (0 : Fin 2) * 1000 + 1000; omega
  | ⟨1, _⟩ => show win8_2.index t (1 : Fin 2) * 100 ≤ (i 1).val ∧ (i 1).val < win8_2.index t (1 : Fin 2) * 100 + 100; omega

/-- THE ARRAY the region leaves in its first result window. -/
theorem final8_2 (c : Dev nD) : (dat8 (F := Ideal) V c).arrAt 2 cfg8.N = relu8 (xarr8 V c) (barr8 V c) :=
  (dat8 (F := Ideal) V c).arrAt_eq_of_cover 2 (relu8 (xarr8 V c) (barr8 V c)) (fun t _ => flushed8_2_eq V c t) covered8_2

/-! ### The two running rows: a sum over the points -/

/-- Point `s`'s addend to the column sums at column `q`: its block's column sum (zero past the grid), -/
def add8_3 (a0 : FVec Ideal S10000x100 .f32) (a1 : FVec Ideal S1x100 .f32) (s : ℕ) (q : Fin 100) : EReal :=
  if h : s < 10 then ∑ p : Fin 1000, relu8 a0 a1 (ix2 (⟨s * 1000 + p.val, by have := p.isLt; omega⟩ : Fin 10000) q) else 0
/-- and to the column sums of squares. -/
def add8_4 (a0 : FVec Ideal S10000x100 .f32) (a1 : FVec Ideal S1x100 .f32) (s : ℕ) (q : Fin 100) : EReal :=
  if h : s < 10 then ∑ p : Fin 1000, relu8 a0 a1 (ix2 (⟨s * 1000 + p.val, by have := p.isLt; omega⟩ : Fin 10000) q)
      * relu8 a0 a1 (ix2 (⟨s * 1000 + p.val, by have := p.isLt; omega⟩ : Fin 10000) q) else 0

/-- The column sum of point `t`'s clamped block is its addend. -/
theorem point8_3 (c : Dev nD) (t : Fin cfg8.N) (q : Fin 100) :
    ∑ p : Fin 1000, k8_pay3 (F := Ideal) (iblk8 V c 0 t) (iblk8 V c 1 t) (ix2 p q) = add8_3 (xarr8 V c) (barr8 V c) t.val q := by
  unfold add8_3
  rw [dif_pos (lt_of_lt_of_eq t.isLt N_8)]
  exact Finset.sum_congr rfl fun p _ => block8_at V c t p q
theorem point8_4 (c : Dev nD) (t : Fin cfg8.N) (q : Fin 100) :
    ∑ p : Fin 1000, k8_pay3 (F := Ideal) (iblk8 V c 0 t) (iblk8 V c 1 t) (ix2 p q) * k8_pay3 (F := Ideal) (iblk8 V c 0 t) (iblk8 V c 1 t) (ix2 p q)
      = add8_4 (xarr8 V c) (barr8 V c) t.val q := by
  unfold add8_4
  rw [dif_pos (lt_of_lt_of_eq t.isLt N_8)]
  exact Finset.sum_congr rfl fun p _ => congrArg₂ (fun a b : EReal => a * b) (block8_at V c t p q) (block8_at V c t p q)

/-- After the body at position `n` each running row holds the sum of the addends of points `0 … n`. -/
theorem acc8_3_eq (c : Dev nD) : ∀ (n : ℕ) (hn : n < cfg8.N) (q : Fin 100),
    acc8_3 (F := Ideal) V c n hn (ix2 (0 : Fin 1) q) = ∑ s ∈ Finset.range (n + 1), add8_3 (xarr8 V c) (barr8 V c) s q
  | 0, hn, q => by
    refine (step8_3_at _ _ _ q).trans ?_
    rw [zero8_3_at, zero_add, Finset.sum_range_one]
    exact point8_3 V c ⟨0, hn⟩ q
  | n + 1, hn, q => by
    refine (step8_3_at _ _ _ q).trans ?_
    rw [Finset.sum_range_succ]
    exact congrArg₂ (fun a b : EReal => a + b) (acc8_3_eq c n (Nat.lt_of_succ_lt hn) q) (point8_3 V c ⟨n + 1, hn⟩ q)
theorem acc8_4_eq (c : Dev nD) : ∀ (n : ℕ) (hn : n < cfg8.N) (q : Fin 100),
    acc8_4 (F := Ideal) V c n hn (ix2 (0 : Fin 1) q) = ∑ s ∈ Finset.range (n + 1), add8_4 (xarr8 V c) (barr8 V c) s q
  | 0, hn, q => by
    refine (step8_4_at _ _ _ q).trans ?_
    rw [zero8_4_at, zero_add, Finset.sum_range_one]
    exact point8_4 V c ⟨0, hn⟩ q
  | n + 1, hn, q => by
    refine (step8_4_at _ _ _ q).trans ?_
    rw [Finset.sum_range_succ]
    exact congrArg₂ (fun a b : EReal => a + b) (acc8_4_eq c n (Nat.lt_of_succ_lt hn) q) (point8_4 V c ⟨n + 1, hn⟩ q)

/-- The addends of all the points make the sum over all the rows: the blocks partition the rows. -/
theorem sum_add8_3 (a0 : FVec Ideal S10000x100 .f32) (a1 : FVec Ideal S1x100 .f32) (q : Fin 100) :
    ∑ s ∈ Finset.range 10, add8_3 a0 a1 s q = ∑ i : Fin 10000, relu8 a0 a1 (ix2 i q) := by
  rw [Finset.sum_range, Cert.Spec.sum_blocks_10000 (fun i => relu8 a0 a1 (ix2 i q))]
  refine Finset.sum_congr rfl fun u _ => ?_
  unfold add8_3
  rw [dif_pos u.isLt]
theorem sum_add8_4 (a0 : FVec Ideal S10000x100 .f32) (a1 : FVec Ideal S1x100 .f32) (q : Fin 100) :
    ∑ s ∈ Finset.range 10, add8_4 a0 a1 s q = ∑ i : Fin 10000, relu8 a0 a1 (ix2 i q) * relu8 a0 a1 (ix2 i q) := by
  rw [Finset.sum_range, Cert.Spec.sum_blocks_10000 (fun i => relu8 a0 a1 (ix2 i q) * relu8 a0 a1 (ix2 i q))]
  refine Finset.sum_congr rfl fun u _ => ?_
  unfold add8_4
  rw [dif_pos u.isLt]

/-- What the last point writes back of the column-sum row is the column sums of the clamped sum of the two arrays. -/
theorem flushed8_3_eq (c : Dev nD) (t : Fin cfg8.N) (hf : (cfg8.win 3).flush t = true) :
    (dat8 (F := Ideal) V c).flushed 3 t = ((cfg8.win 3).blk t).view.read (Elt Ideal) (colsum8 (xarr8 V c) (barr8 V c)) := by
  have h9 : t.val % 10 = 9 := (flush8_3 t).mp hf
  have hN : t.val < 10 := lt_of_lt_of_eq t.isLt N_8
  obtain ⟨-, -, -, -, -, -, e6, e7, -⟩ := idx_facts8 t
  show (cfg8.win 3).cut (grid8.coords t) ((dat8 (F := Ideal) V c).after 3 t) = _
  rw [after8_3]
  funext j
  show acc8_3 (F := Ideal) V c t.val t.isLt j = colsum8 (xarr8 V c) (barr8 V c) (((cfg8.win 3).blk t).view.emb j)
  have e1 : ((((cfg8.win 3).blk t).view.emb j) 1 : Fin 100) = j 1 :=
    Fin.ext (by show win8_3.index t (1 : Fin 2) * 100 + 1 * (j 1).val = (j 1).val; omega)
  calc acc8_3 (F := Ideal) V c t.val t.isLt j
      = acc8_3 (F := Ideal) V c t.val t.isLt (ix2 (0 : Fin 1) (j 1)) := congrArg _ (row_idx8 j)
    _ = ∑ s ∈ Finset.range (t.val + 1), add8_3 (xarr8 V c) (barr8 V c) s (j 1) := acc8_3_eq V c t.val t.isLt (j 1)
    _ = ∑ s ∈ Finset.range 10, add8_3 (xarr8 V c) (barr8 V c) s (j 1) := by rw [show t.val + 1 = 10 by omega]
    _ = ∑ i : Fin 10000, relu8 (xarr8 V c) (barr8 V c) (ix2 i (j 1)) := sum_add8_3 _ _ _
    _ = colsum8 (xarr8 V c) (barr8 V c) (((cfg8.win 3).blk t).view.emb j) := by unfold colsum8; rw [e1]
theorem flushed8_4_eq (c : Dev nD) (t : Fin cfg8.N) (hf : (cfg8.win 4).flush t = true) :
    (dat8 (F := Ideal) V c).flushed 4 t = ((cfg8.win 4).blk t).view.read (Elt Ideal) (colsumsq8 (xarr8 V c) (barr8 V c)) := by
  have h9 : t.val % 10 = 9 := (flush8_4 t).mp hf
  have hN : t.val < 10 := lt_of_lt_of_eq t.isLt N_8
  obtain ⟨-, -, -, -, -, -, -, -, e8, e9⟩ := idx_facts8 t
  show (cfg8.win 4).cut (grid8.coords t) ((dat8 (F := Ideal) V c).after 4 t) = _
  rw [after8_4]
  funext j
  show acc8_4 (F := Ideal) V c t.val t.isLt j = colsumsq8 (xarr8 V c) (barr8 V c) (((cfg8.win 4).blk t).view.emb j)
  have e1 : ((((cfg8.win 4).blk t).view.emb j) 1 : Fin 100) = j 1 :=
    Fin.ext (by show win8_4.index t (1 : Fin 2) * 100 + 1 * (j 1).val = (j 1).val; omega)
  calc acc8_4 (F := Ideal) V c t.val t.isLt j
      = acc8_4 (F := Ideal) V c t.val t.isLt (ix2 (0 : Fin 1) (j 1)) := congrArg _ (row_idx8 j)
    _ = ∑ s ∈ Finset.range (t.val + 1), add8_4 (xarr8 V c) (barr8 V c) s (j 1) := acc8_4_eq V c t.val t.isLt (j 1)
    _ = ∑ s ∈ Finset.range 10, add8_4 (xarr8 V c) (barr8 V c) s (j 1) := by rw [show t.val + 1 = 10 by omega]
    _ = ∑ i : Fin 10000, relu8 (xarr8 V c) (barr8 V c) (ix2 i (j 1)) * relu8 (xarr8 V c) (barr8 V c) (ix2 i (j 1)) := sum_add8_4 _ _ _
    _ = colsumsq8 (xarr8 V c) (barr8 V c) (((cfg8.win 4).blk t).view.emb j) := by unfold colsumsq8; rw [e1]

/-- An index of a one-row result is in a point's block iff each coordinate is in the block's range on its axis. -/
theorem mem_blk8_3 (t : Fin cfg8.N) (i : S1x100.Idx) :
    i ∈ ((cfg8.win 3).blk t).view.set ↔ ∀ a : Fin 2, win8_3.index t a * S1x100.size a ≤ (i a).val ∧ (i a).val < win8_3.index t a * S1x100.size a + S1x100.size a := by
  show i ∈ ((View.whole (Pipeline.arrRef spec8 3)).slice (win8_3.rect t)).set ↔ _
  rw [View.set_slice_whole, Rect.mem_set_unit]
  exact Iff.rfl
theorem mem_blk8_4 (t : Fin cfg8.N) (i : S1x100.Idx) :
    i ∈ ((cfg8.win 4).blk t).view.set ↔ ∀ a : Fin 2, win8_4.index t a * S1x100.size a ≤ (i a).val ∧ (i a).val < win8_4.index t a * S1x100.size a + S1x100.size a := by
  show i ∈ ((View.whole (Pipeline.arrRef spec8 4)).slice (win8_4.rect t)).set ↔ _
  rw [View.set_slice_whole, Rect.mem_set_unit]
  exact Iff.rfl

/-- The last point's block is the whole row, and it is written back. -/
theorem covered8_3 (i : S1x100.Idx) :
    ∃ t : Fin cfg8.N, (cfg8.win 3).flush t = true ∧ i ∈ ((cfg8.win 3).blk t).view.set := by
  have hi0 : (i 0).val < 1 := (i 0).isLt
  have hi1 : (i 1).val < 100 := (i 1).isLt
  obtain ⟨-, -, -, -, -, -, e6, e7, -⟩ := idx_facts8 t8_9
  refine ⟨t8_9, (flush8_3 t8_9).mpr rfl, ?_⟩
  rw [mem_blk8_3]
  intro a
  match a with
  | ⟨0, _⟩ => show win8_3.index t8_9 (0 : Fin 2) * 1 ≤ (i 0).val ∧ (i 0).val < win8_3.index t8_9 (0 : Fin 2) * 1 + 1; omega
  | ⟨1, _⟩ => show win8_3.index t8_9 (1 : Fin 2) * 100 ≤ (i 1).val ∧ (i 1).val < win8_3.index t8_9 (1 : Fin 2) * 100 + 100; omega
theorem covered8_4 (i : S1x100.Idx) :
    ∃ t : Fin cfg8.N, (cfg8.win 4).flush t = true ∧ i ∈ ((cfg8.win 4).blk t).view.set := by
  have hi0 : (i 0).val < 1 := (i 0).isLt
  have hi1 : (i 1).val < 100 := (i 1).isLt
  obtain ⟨-, -, -, -, -, -, -, -, e8, e9⟩ := idx_facts8 t8_9
  refine ⟨t8_9, (flush8_4 t8_9).mpr rfl, ?_⟩
  rw [mem_blk8_4]
  intro a
  match a with
  | ⟨0, _⟩ => show win8_4.index t8_9 (0 : Fin 2) * 1 ≤ (i 0).val ∧ (i 0).val < win8_4.index t8_9 (0 : Fin 2) * 1 + 1; omega
  | ⟨1, _⟩ => show win8_4.index t8_9 (1 : Fin 2) * 100 ≤ (i 1).val ∧ (i 1).val < win8_4.index t8_9 (1 : Fin 2) * 100 + 100; omega

/-- THE ROW the region leaves in its second result window: the column sums. -/
theorem final8_3 (c : Dev nD) : (dat8 (F := Ideal) V c).arrAt 3 cfg8.N = colsum8 (xarr8 V c) (barr8 V c) :=
  (dat8 (F := Ideal) V c).arrAt_eq_of_cover 3 (colsum8 (xarr8 V c) (barr8 V c)) (fun t hf => flushed8_3_eq V c t hf) covered8_3

/-- THE ROW it leaves in its third result window: the column sums of squares. -/
theorem final8_4 (c : Dev nD) : (dat8 (F := Ideal) V c).arrAt 4 cfg8.N = colsumsq8 (xarr8 V c) (barr8 V c) :=
  (dat8 (F := Ideal) V c).arrAt_eq_of_cover 4 (colsumsq8 (xarr8 V c) (barr8 V c)) (fun t hf => flushed8_4_eq V c t hf) covered8_4

/-! ## Over the reals -/

/-- Where the two arrays hold real numbers, the clamped sum is the real one at every entry. -/
theorem relu8_real (c : Dev nD) (ar : Fin 10000 → Fin 100 → ℝ) (br : Fin 100 → ℝ)
    (hx : ∀ i k, (V c (Pipeline.arrRef spec8 0) : S10000x100.Idx → EReal) (ix2 i k) = ((ar i k : ℝ) : EReal))
    (hb : ∀ k, (V c (Pipeline.arrRef spec8 1) : S1x100.Idx → EReal) (ix2 (0 : Fin 1) k) = ((br k : ℝ) : EReal))
    (i : Fin 10000) (f : Fin 100) :
    relu8 (xarr8 V c) (barr8 V c) (ix2 i f) = ((Cert.Spec.relu (Cert.Spec.addBias ar br) i f : ℝ) : EReal) := by
  show max (xarr8 V c (ix2 i f) + barr8 V c (ix2 (0 : Fin 1) f)) (Ideal.ofBits .f32 0x00000000#32) = ((max (ar i f + br f) 0 : ℝ) : EReal)
  rw [← Cert.LibCoe.max_coe, ← Cert.LibCoe.add_coe, Cert.LibCoe.ofBits_zero]
  exact congrArg₂ (fun a b : EReal => max (a + b) ((0 : ℝ) : EReal)) (hx i f) (hb f)

/-- Where the two arrays hold real numbers, the first result holds the real clamped sum, -/
theorem final8_real_2 (c : Dev nD) (ar : Fin 10000 → Fin 100 → ℝ) (br : Fin 100 → ℝ)
    (hx : ∀ i k, (V c (Pipeline.arrRef spec8 0) : S10000x100.Idx → EReal) (ix2 i k) = ((ar i k : ℝ) : EReal))
    (hb : ∀ k, (V c (Pipeline.arrRef spec8 1) : S1x100.Idx → EReal) (ix2 (0 : Fin 1) k) = ((br k : ℝ) : EReal)) :
    ∀ i f, ((dat8 (F := Ideal) V c).arrAt 2 cfg8.N : S10000x100.Idx → EReal) (ix2 i f)
      = ((Cert.Spec.relu (Cert.Spec.addBias ar br) i f : ℝ) : EReal) := by
  intro i f
  exact (congrFun (final8_2 V c) (ix2 i f)).trans (relu8_real V c ar br hx hb i f)

/-- the second its column sums, -/
theorem final8_real_3 (c : Dev nD) (ar : Fin 10000 → Fin 100 → ℝ) (br : Fin 100 → ℝ)
    (hx : ∀ i k, (V c (Pipeline.arrRef spec8 0) : S10000x100.Idx → EReal) (ix2 i k) = ((ar i k : ℝ) : EReal))
    (hb : ∀ k, (V c (Pipeline.arrRef spec8 1) : S1x100.Idx → EReal) (ix2 (0 : Fin 1) k) = ((br k : ℝ) : EReal)) :
    ∀ f, ((dat8 (F := Ideal) V c).arrAt 3 cfg8.N : S1x100.Idx → EReal) (ix2 (0 : Fin 1) f)
      = ((Cert.Spec.colSum (Cert.Spec.relu (Cert.Spec.addBias ar br)) f : ℝ) : EReal) := by
  intro f
  refine (congrFun (final8_3 V c) (ix2 (0 : Fin 1) f)).trans ?_
  show (∑ i : Fin 10000, relu8 (xarr8 V c) (barr8 V c) (ix2 i f) : EReal)
    = ((∑ i : Fin 10000, Cert.Spec.relu (Cert.Spec.addBias ar br) i f : ℝ) : EReal)
  rw [← Cert.LibCoe.sum_coe]
  exact Finset.sum_congr rfl fun i _ => relu8_real V c ar br hx hb i f

/-- the third its column sums of squares. -/
theorem final8_real_4 (c : Dev nD) (ar : Fin 10000 → Fin 100 → ℝ) (br : Fin 100 → ℝ)
    (hx : ∀ i k, (V c (Pipeline.arrRef spec8 0) : S10000x100.Idx → EReal) (ix2 i k) = ((ar i k : ℝ) : EReal))
    (hb : ∀ k, (V c (Pipeline.arrRef spec8 1) : S1x100.Idx → EReal) (ix2 (0 : Fin 1) k) = ((br k : ℝ) : EReal)) :
    ∀ f, ((dat8 (F := Ideal) V c).arrAt 4 cfg8.N : S1x100.Idx → EReal) (ix2 (0 : Fin 1) f)
      = ((Cert.Spec.colSumSq (Cert.Spec.relu (Cert.Spec.addBias ar br)) f : ℝ) : EReal) := by
  intro f
  refine (congrFun (final8_4 V c) (ix2 (0 : Fin 1) f)).trans ?_
  show (∑ i : Fin 10000, relu8 (xarr8 V c) (barr8 V c) (ix2 i f) * relu8 (xarr8 V c) (barr8 V c) (ix2 i f) : EReal)
    = ((∑ i : Fin 10000, Cert.Spec.relu (Cert.Spec.addBias ar br) i f * Cert.Spec.relu (Cert.Spec.addBias ar br) i f : ℝ) : EReal)
  rw [← Cert.LibCoe.sum_coe]
  refine Finset.sum_congr rfl fun i _ => ?_
  rw [← Cert.LibCoe.mul_coe]
  exact congrArg₂ (fun a b : EReal => a * b) (relu8_real V c ar br hx hb i f) (relu8_real V c ar br hx hb i f)

/-- The three together. -/
theorem final8_real (c : Dev nD) (ar : Fin 10000 → Fin 100 → ℝ) (br : Fin 100 → ℝ)
    (hx : ∀ i k, (V c (Pipeline.arrRef spec8 0) : S10000x100.Idx → EReal) (ix2 i k) = ((ar i k : ℝ) : EReal))
    (hb : ∀ k, (V c (Pipeline.arrRef spec8 1) : S1x100.Idx → EReal) (ix2 (0 : Fin 1) k) = ((br k : ℝ) : EReal)) :
    (∀ i f, ((dat8 (F := Ideal) V c).arrAt 2 cfg8.N : S10000x100.Idx → EReal) (ix2 i f)
        = ((Cert.Spec.relu (Cert.Spec.addBias ar br) i f : ℝ) : EReal))
    ∧ (∀ f, ((dat8 (F := Ideal) V c).arrAt 3 cfg8.N : S1x100.Idx → EReal) (ix2 (0 : Fin 1) f)
        = ((Cert.Spec.colSum (Cert.Spec.relu (Cert.Spec.addBias ar br)) f : ℝ) : EReal))
    ∧ (∀ f, ((dat8 (F := Ideal) V c).arrAt 4 cfg8.N : S1x100.Idx → EReal) (ix2 (0 : Fin 1) f)
        = ((Cert.Spec.colSumSq (Cert.Spec.relu (Cert.Spec.addBias ar br)) f : ℝ) : EReal)) :=
  ⟨final8_real_2 V c ar br hx hb, final8_real_3 V c ar br hx hb, final8_real_4 V c ar br hx hb⟩

end Cert.KernelIdeal.HandV

end
-- ==== Proof.Val9.lean ====
import proofs.«408066_j62380105008311_2_alg».proof.Proof.Reg9
import proofs.«408066_j62380105008311_2_alg».proof.Proof.Spec
import proofs.«408066_j62380105008311_2_alg».proof.Proof.LibCoe
import Idealize.ShloMosaic.Lib.Pipeline.Value
import Idealize.ShloMosaic.Lib.ValueIdx
import Idealize.ShloMosaic.Lib.ValueLayout
import Idealize.ShloMosaic.PureOps.Ideal.Laws

/-! # Region 9 at the ideal instance: what the region leaves in its output array

Each grid point writes back one block of rows: rows of the normalised activations — (x − mean) · rsqrt(variance + ε)
· scale + shift, the four feature rows broadcast along the rows — times the whole weight matrix. Row `i` of the
output therefore depends on row `i` of the activations alone, the blocks are the restrictions of ONE whole-array
function, and they tile the array. Over real entry arrays with every variance + ε positive, that function is the
real dense product of the normalised activations with the weights. -/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-- The sizes: rows of the whole arrays, rows of a block, the input and the output feature widths. -/
abbrev nRows9 : ℕ := 10000
abbrev bRows9 : ℕ := 1000
abbrev wIn9 : ℕ := 100
abbrev wOut9 : ℕ := 60

/-! ## The block product at an index -/

/-- The matrix product's operand indices, axis by axis: the left operand is read at the output's row and the
    contraction position, the right operand at the contraction position and the output's column. -/
theorem lhs9_0 (j : S1000x60.Idx) (k : dot_S1000x100_S100x60_S1000x60_1_0_0_1_n_n.contr.Idx) :
    (dot_S1000x100_S100x60_S1000x60_1_0_0_1_n_n.lhsIdx j k 0).val = (j 0).val := by
  unfold DotDims.lhsIdx
  rw [dif_neg (show ¬(0 : Fin S1000x100.rank) ∈ dot_S1000x100_S100x60_S1000x60_1_0_0_1_n_n.lhsBatch by decide),
    dif_pos (show (0 : Fin S1000x100.rank) ∈ dot_S1000x100_S100x60_S1000x60_1_0_0_1_n_n.lhsNonContracting by decide)]
  rfl

theorem lhs9_1 (j : S1000x60.Idx) (k : dot_S1000x100_S100x60_S1000x60_1_0_0_1_n_n.contr.Idx) :
    (dot_S1000x100_S100x60_S1000x60_1_0_0_1_n_n.lhsIdx j k 1).val = (k ⟨0, by decide⟩).val :=
  dot_S1000x100_S100x60_S1000x60_1_0_0_1_n_n.lhsIdx_val_of_single rfl j k

theorem rhs9_0 (j : S1000x60.Idx) (k : dot_S1000x100_S100x60_S1000x60_1_0_0_1_n_n.contr.Idx) :
    (dot_S1000x100_S100x60_S1000x60_1_0_0_1_n_n.rhsIdx j k 0).val = (k ⟨0, by decide⟩).val :=
  dot_S1000x100_S100x60_S1000x60_1_0_0_1_n_n.rhsIdx_val_of_single rfl j k

theorem rhs9_1 (j : S1000x60.Idx) (k : dot_S1000x100_S100x60_S1000x60_1_0_0_1_n_n.contr.Idx) :
    (dot_S1000x100_S100x60_S1000x60_1_0_0_1_n_n.rhsIdx j k 1).val = (j 1).val := by
  unfold DotDims.rhsIdx
  rw [dif_neg (show ¬(1 : Fin S100x60.rank) ∈ dot_S1000x100_S100x60_S1000x60_1_0_0_1_n_n.rhsBatch by decide),
    dif_pos (show (1 : Fin S100x60.rank) ∈ dot_S1000x100_S100x60_S1000x60_1_0_0_1_n_n.rhsNonContracting by decide)]
  rfl

/-- One entry of the normalised activations: (x − mean) · rsqrt(variance + ε) · scale + shift. -/
def nrm9 (x mu v g be : EReal) : EReal := (x - mu) * Ideal.rsqrt (v + Ideal.ofBits .f32 0x3727C5AC#32) * g + be

theorem bcast9 (r : S1x100.Idx → EReal) (p : Fin bRows9) (k : Fin wIn9) :
    broadcastTo S1000x100 r broadcasts_S1x100_S1000x100 (ix2 p k) = r (ix2 0 k) :=
  broadcastTo_apply r _ (ix2 p k) (ix2 0 k) (fun a => by match a with | ⟨0, _⟩ => rfl | ⟨1, _⟩ => rfl)

theorem pay9_apply (x0 : Vec Ideal S1000x100 .f32) (x1 x2 x3 x4 : Vec Ideal S1x100 .f32) (x5 : Vec Ideal S100x60 .f32)
    (p : Fin bRows9) (q : Fin wOut9) :
    k9_pay1 x0 x2 x1 x3 x4 x5 (ix2 p q)
      = ∑ k : Fin wIn9, nrm9 (x0 (ix2 p k)) (x1 (ix2 0 k)) (x2 (ix2 0 k)) (x3 (ix2 0 k)) (x4 (ix2 0 k)) * x5 (ix2 k q) := by
  unfold k9_pay1
  simp only [matmul]
  refine (Ideal.matmul_constant_zero_apply dot_S1000x100_S100x60_S1000x60_1_0_0_1_n_n none _ _ (ix2 p q)).trans ?_
  rw [← Equiv.sum_comp (contrEquiv1 dot_S1000x100_S100x60_S1000x60_1_0_0_1_n_n wIn9 rfl rfl).symm]
  refine Finset.sum_congr rfl fun k _ => ?_
  have hl : dot_S1000x100_S100x60_S1000x60_1_0_0_1_n_n.lhsIdx (ix2 p q)
      ((contrEquiv1 dot_S1000x100_S100x60_S1000x60_1_0_0_1_n_n wIn9 rfl rfl).symm k) = ix2 p k := by
    funext a; apply Fin.ext
    match a with
    | ⟨0, _⟩ => exact lhs9_0 _ _
    | ⟨1, _⟩ => exact (lhs9_1 _ _).trans (contrEquiv1_symm_val dot_S1000x100_S100x60_S1000x60_1_0_0_1_n_n wIn9 rfl rfl k)
  have hr : dot_S1000x100_S100x60_S1000x60_1_0_0_1_n_n.rhsIdx (ix2 p q)
      ((contrEquiv1 dot_S1000x100_S100x60_S1000x60_1_0_0_1_n_n wIn9 rfl rfl).symm k) = ix2 k q := by
    funext a; apply Fin.ext
    match a with
    | ⟨0, _⟩ => exact (rhs9_0 _ _).trans (contrEquiv1_symm_val dot_S1000x100_S100x60_S1000x60_1_0_0_1_n_n wIn9 rfl rfl k)
    | ⟨1, _⟩ => exact rhs9_1 _ _
  rw [hl, hr]
  simp only [shapeCast_self]
  show ((x0 (ix2 p k) - broadcastTo S1000x100 x1 broadcasts_S1x100_S1000x100 (ix2 p k))
        * broadcastTo S1000x100 (rsqrt (F := Ideal) (addf (F := Ideal) x2 (broadcast S1x100 (FloatOps.ofBits (F := Ideal) FTy.f32 0x3727C5AC#32)))) broadcasts_S1x100_S1000x100 (ix2 p k)
        * broadcastTo S1000x100 x3 broadcasts_S1x100_S1000x100 (ix2 p k)
        + broadcastTo S1000x100 x4 broadcasts_S1x100_S1000x100 (ix2 p k)) * x5 (ix2 k q) = _
  rw [bcast9, bcast9, bcast9, bcast9]
  rfl

/-! ## The whole-array function -/

/-- The output array as one function of the entry arrays (activations, mean, variance, scale, shift, weights): entry
    `(i, j)` is row `i` of the normalised activations against column `j` of the weights. -/
def G9 (a0 : S10000x100.Idx → EReal) (a1 a2 a3 a4 : S1x100.Idx → EReal) (a5 : S100x60.Idx → EReal) : S10000x60.Idx → EReal :=
  fun i => ∑ k : Fin wIn9, nrm9 (a0 (ix2 (n0 := nRows9) (i 0) k)) (a1 (ix2 0 k)) (a2 (ix2 0 k)) (a3 (ix2 0 k)) (a4 (ix2 0 k))
    * a5 (ix2 (n1 := wOut9) k (i 1))

variable (V : (c : Dev nD) → (b : Ref sig .tc) → Buf (Elt Ideal) ((c : Thread nD τ).loc b))

theorem hz9 : (![0, 0] : Fin 2 → Nat) = fun _ => 0 := funext fun a => by match a with | ⟨0, _⟩ => rfl | ⟨1, _⟩ => rfl

/-- The index maps, decided over the grid: the activations' and the output's row blocks move together with the point,
    and every other block index is zero (the feature rows and the weights are whole arrays). -/
theorem idx_facts9 : ∀ t : Fin cfg9.N,
    win9_0.index t (0 : Fin 2) = win9_6.index t (0 : Fin 2) ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = t.val ∧ win9_6.index t (1 : Fin 2) = 0 :=
  (by decide +kernel : ∀ t : Fin grid9.N, _)

/-- The activations' block at point `t`, read at row `p` of the block: the array at the row the output's block has
    there. -/
theorem blk9_0 (c : Dev nD) (t : Fin cfg9.N) (p : Fin bRows9) (q : Fin wOut9) (k : Fin wIn9) :
    iblk9 V c 0 t (ix2 p k)
      = (V c (Pipeline.arrRef spec9 0) : S10000x100.Idx → EReal) (ix2 (n0 := nRows9) ((((cfg9.win 6).blk t).view.emb (ix2 p q)) 0) k) := by
  obtain ⟨e0, e1, -⟩ := idx_facts9 t
  show (V c (Pipeline.arrRef spec9 0) : S10000x100.Idx → EReal) (((cfg9.win 0).blk t).view.emb (ix2 p k)) = _
  refine congrArg _ (funext fun a => Fin.ext ?_)
  match a with
  | ⟨0, _⟩ =>
    show win9_0.index t (0 : Fin 2) * S1000x100.size 0 + 1 * p.val = win9_6.index t (0 : Fin 2) * S1000x60.size 0 + 1 * p.val
    rw [e0]; rfl
  | ⟨1, _⟩ =>
    show win9_0.index t (1 : Fin 2) * S1000x100.size 1 + 1 * k.val = k.val
    rw [e1, Nat.zero_mul, Nat.zero_add, Nat.one_mul]

/-- A feature row's block is the whole row: read at feature `k` it is the array there. The mean row, -/
theorem blk9_1 (c : Dev nD) (t : Fin cfg9.N) (k : Fin wIn9) :
    iblk9 V c 1 t (ix2 0 k) = (V c (Pipeline.arrRef spec9 1) : S1x100.Idx → EReal) (ix2 0 k) := by
  obtain ⟨-, -, e0, e1, -⟩ := idx_facts9 t
  show (V c (Pipeline.arrRef spec9 1) : S1x100.Idx → EReal) (((cfg9.win 1).blk t).view.emb (ix2 0 k)) = _
  refine congrArg _ (funext fun a => Fin.ext ?_)
  match a with
  | ⟨0, _⟩ =>
    show win9_1.index t (0 : Fin 2) * S1x100.size 0 + 1 * 0 = 0
    rw [e0, Nat.zero_mul, Nat.zero_add, Nat.mul_zero]
  | ⟨1, _⟩ =>
    show win9_1.index t (1 : Fin 2) * S1x100.size 1 + 1 * k.val = k.val
    rw [e1, Nat.zero_mul, Nat.zero_add, Nat.one_mul]

/-- the variance row, -/
theorem blk9_2 (c : Dev nD) (t : Fin cfg9.N) (k : Fin wIn9) :
    iblk9 V c 2 t (ix2 0 k) = (V c (Pipeline.arrRef spec9 2) : S1x100.Idx → EReal) (ix2 0 k) := by
  obtain ⟨-, -, -, -, e0, e1, -⟩ := idx_facts9 t
  show (V c (Pipeline.arrRef spec9 2) : S1x100.Idx → EReal) (((cfg9.win 2).blk t).view.emb (ix2 0 k)) = _
  refine congrArg _ (funext fun a => Fin.ext ?_)
  match a with
  | ⟨0, _⟩ =>
    show win9_2.index t (0 : Fin 2) * S1x100.size 0 + 1 * 0 = 0
    rw [e0, Nat.zero_mul, Nat.zero_add, Nat.mul_zero]
  | ⟨1, _⟩ =>
    show win9_2.index t (1 : Fin 2) * S1x100.size 1 + 1 * k.val = k.val
    rw [e1, Nat.zero_mul, Nat.zero_add, Nat.one_mul]

/-- the scale row, -/
theorem blk9_3 (c : Dev nD) (t : Fin cfg9.N) (k : Fin wIn9) :
    iblk9 V c 3 t (ix2 0 k) = (V c (Pipeline.arrRef spec9 3) : S1x100.Idx → EReal) (ix2 0 k) := by
  obtain ⟨-, -, -, -, -, -, e0, e1, -⟩ := idx_facts9 t
  show (V c (Pipeline.arrRef spec9 3) : S1x100.Idx → EReal) (((cfg9.win 3).blk t).view.emb (ix2 0 k)) = _
  refine congrArg _ (funext fun a => Fin.ext ?_)
  match a with
  | ⟨0, _⟩ =>
    show win9_3.index t (0 : Fin 2) * S1x100.size 0 + 1 * 0 = 0
    rw [e0, Nat.zero_mul, Nat.zero_add, Nat.mul_zero]
  | ⟨1, _⟩ =>
    show win9_3.index t (1 : Fin 2) * S1x100.size 1 + 1 * k.val = k.val
    rw [e1, Nat.zero_mul, Nat.zero_add, Nat.one_mul]

/-- the shift row. -/
theorem blk9_4 (c : Dev nD) (t : Fin cfg9.N) (k : Fin wIn9) :
    iblk9 V c 4 t (ix2 0 k) = (V c (Pipeline.arrRef spec9 4) : S1x100.Idx → EReal) (ix2 0 k) := by
  obtain ⟨-, -, -, -, -, -, -, -, e0, e1, -⟩ := idx_facts9 t
  show (V c (Pipeline.arrRef spec9 4) : S1x100.Idx → EReal) (((cfg9.win 4).blk t).view.emb (ix2 0 k)) = _
  refine congrArg _ (funext fun a => Fin.ext ?_)
  match a with
  | ⟨0, _⟩ =>
    show win9_4.index t (0 : Fin 2) * S1x100.size 0 + 1 * 0 = 0
    rw [e0, Nat.zero_mul, Nat.zero_add, Nat.mul_zero]
  | ⟨1, _⟩ =>
    show win9_4.index t (1 : Fin 2) * S1x100.size 1 + 1 * k.val = k.val
    rw [e1, Nat.zero_mul, Nat.zero_add, Nat.one_mul]

/-- The weights' block is the whole matrix: read at `(k, q)` it is the array at row `k` and the column the output's
    block has there. -/
theorem blk9_5 (c : Dev nD) (t : Fin cfg9.N) (p : Fin bRows9) (q : Fin wOut9) (k : Fin wIn9) :
    iblk9 V c 5 t (ix2 k q)
      = (V c (Pipeline.arrRef spec9 5) : S100x60.Idx → EReal) (ix2 (n1 := wOut9) k ((((cfg9.win 6).blk t).view.emb (ix2 p q)) 1)) := by
  obtain ⟨-, -, -, -, -, -, -, -, -, -, e0, e1, -, e3⟩ := idx_facts9 t
  show (V c (Pipeline.arrRef spec9 5) : S100x60.Idx → EReal) (((cfg9.win 5).blk t).view.emb (ix2 k q)) = _
  refine congrArg _ (funext fun a => Fin.ext ?_)
  match a with
  | ⟨0, _⟩ =>
    show win9_5.index t (0 : Fin 2) * S100x60.size 0 + 1 * k.val = k.val
    rw [e0, Nat.zero_mul, Nat.zero_add, Nat.one_mul]
  | ⟨1, _⟩ =>
    show win9_5.index t (1 : Fin 2) * S100x60.size 1 + 1 * q.val = win9_6.index t (1 : Fin 2) * S1000x60.size 1 + 1 * q.val
    rw [e1, e3]; rfl

/-! ## From blocks to the array -/

/-- The output's blocks are never cut at the array's end: the part of a staging buffer a write-back moves is all of it. -/
theorem cut9_6 (t : Fin cfg9.N) (X : Vec Ideal S1000x60 .f32) : (cfg9.win 6).cut (grid9.coords t) X = X := rfl

/-- The block product of blocks that are restrictions of the arrays — the activations' block the rows of `a0` from
    row `i 0` on, the feature rows and the weights whole — is `G9` of the arrays at `i`, for any index `i` whose row
    is row `p` of that block and whose column is `q`. -/
theorem G9_of_blocks (x0 : Vec Ideal S1000x100 .f32) (x1 x2 x3 x4 : Vec Ideal S1x100 .f32) (x5 : Vec Ideal S100x60 .f32)
    (a0 : S10000x100.Idx → EReal) (a1 a2 a3 a4 : S1x100.Idx → EReal) (a5 : S100x60.Idx → EReal)
    (p : Fin bRows9) (q : Fin wOut9) (i : S10000x60.Idx)
    (h0 : ∀ k : Fin wIn9, x0 (ix2 p k) = a0 (ix2 (n0 := nRows9) (i 0) k))
    (h1 : ∀ k : Fin wIn9, x1 (ix2 0 k) = a1 (ix2 0 k)) (h2 : ∀ k : Fin wIn9, x2 (ix2 0 k) = a2 (ix2 0 k))
    (h3 : ∀ k : Fin wIn9, x3 (ix2 0 k) = a3 (ix2 0 k)) (h4 : ∀ k : Fin wIn9, x4 (ix2 0 k) = a4 (ix2 0 k))
    (h5 : ∀ k : Fin wIn9, x5 (ix2 k q) = a5 (ix2 (n1 := wOut9) k (i 1))) :
    k9_pay1 x0 x2 x1 x3 x4 x5 (ix2 p q) = G9 a0 a1 a2 a3 a4 a5 i := by
  rw [pay9_apply]
  unfold G9
  exact Finset.sum_congr rfl fun k _ => by rw [h0 k, h1 k, h2 k, h3 k, h4 k, h5 k]

set_option maxHeartbeats 1000000 in
/-- What point `t` writes back is block `t` of `G9` of the entry arrays. -/
theorem flushed9_6_eq (c : Dev nD) (t : Fin cfg9.N) :
    (dat9 V c).flushed 6 t = ((cfg9.win 6).blk t).view.read (Elt Ideal)
      (G9 (V c (Pipeline.arrRef spec9 0)) (V c (Pipeline.arrRef spec9 1)) (V c (Pipeline.arrRef spec9 2))
        (V c (Pipeline.arrRef spec9 3)) (V c (Pipeline.arrRef spec9 4)) (V c (Pipeline.arrRef spec9 5))) := by
  show (cfg9.win 6).cut (grid9.coords t) ((dat9 V c).after 6 t) = _
  rw [after9_6, cut9_6]
  unfold out9_6
  rw [View.canon_unit_zero hz9]
  simp only [View.ld_unit_zero (S := S1000x100) hz9, View.ld_unit_zero (S := S1x100) hz9, View.ld_unit_zero (S := S100x60) hz9]
  funext j
  obtain ⟨p, q, rfl⟩ : ∃ (p : Fin bRows9) (q : Fin wOut9), j = ix2 p q := ⟨j 0, j 1, eq_ix2 j⟩
  exact G9_of_blocks (iblk9 V c 0 t) (iblk9 V c 1 t) (iblk9 V c 2 t) (iblk9 V c 3 t) (iblk9 V c 4 t) (iblk9 V c 5 t)
    (V c (Pipeline.arrRef spec9 0)) (V c (Pipeline.arrRef spec9 1)) (V c (Pipeline.arrRef spec9 2))
    (V c (Pipeline.arrRef spec9 3)) (V c (Pipeline.arrRef spec9 4)) (V c (Pipeline.arrRef spec9 5))
    p q (((cfg9.win 6).blk t).view.emb (ix2 p q))
    (fun k => blk9_0 V c t p q k) (fun k => blk9_1 V c t k) (fun k => blk9_2 V c t k)
    (fun k => blk9_3 V c t k) (fun k => blk9_4 V c t k) (fun k => blk9_5 V c t p q k)

/-- An index of the output array is in point `t`'s block iff each coordinate is in the block's range on its axis. -/
theorem mem_blk9_6 (t : Fin cfg9.N) (i : S10000x60.Idx) :
    i ∈ ((cfg9.win 6).blk t).view.set ↔ ∀ a : Fin 2, win9_6.index t a * S1000x60.size a ≤ (i a).val
      ∧ (i a).val < win9_6.index t a * S1000x60.size a + S1000x60.size a := by
  show i ∈ ((View.whole (Pipeline.arrRef spec9 6)).slice (win9_6.rect t)).set ↔ _
  rw [View.set_slice_whole, Rect.mem_set_unit]
  exact Iff.rfl

/-- Every index of the output array is in the block of the point its row falls to: the row blocks tile the rows and
    each spans every column. -/
theorem cover9_6_arr (i : S10000x60.Idx) :
    ∃ t : Fin cfg9.N, (cfg9.win 6).flush t = true ∧ i ∈ ((cfg9.win 6).blk t).view.set := by
  have hi0 : (i 0).val < nRows9 := (i 0).isLt
  have hi1 : (i 1).val < wOut9 := (i 1).isLt
  have hN : (i 0).val / bRows9 < cfg9.N := by
    show (i 0).val / bRows9 < grid9.N
    rw [N_9]; unfold nRows9 at hi0; unfold bRows9; omega
  refine ⟨⟨(i 0).val / bRows9, hN⟩, flush9_6 _, ?_⟩
  rw [mem_blk9_6]
  obtain ⟨-, -, -, -, -, -, -, -, -, -, -, -, e2, e3⟩ := idx_facts9 ⟨(i 0).val / bRows9, hN⟩
  intro a
  match a with
  | ⟨0, _⟩ =>
    show win9_6.index ⟨(i 0).val / bRows9, hN⟩ (0 : Fin 2) * bRows9 ≤ (i 0).val
      ∧ (i 0).val < win9_6.index ⟨(i 0).val / bRows9, hN⟩ (0 : Fin 2) * bRows9 + bRows9
    rw [e2]
    show (i 0).val / bRows9 * bRows9 ≤ (i 0).val ∧ (i 0).val < (i 0).val / bRows9 * bRows9 + bRows9
    unfold bRows9; omega
  | ⟨1, _⟩ =>
    show win9_6.index ⟨(i 0).val / bRows9, hN⟩ (1 : Fin 2) * wOut9 ≤ (i 1).val
      ∧ (i 1).val < win9_6.index ⟨(i 0).val / bRows9, hN⟩ (1 : Fin 2) * wOut9 + wOut9
    rw [e3, Nat.zero_mul, Nat.zero_add]
    exact ⟨Nat.zero_le _, hi1⟩

/-- THE OUTPUT ARRAY after the region: `G9` of the entry arrays, everywhere. -/
theorem final9_6 (c : Dev nD) : (dat9 (F := Ideal) V c).arrAt 6 cfg9.N
    = G9 (V c (Pipeline.arrRef spec9 0)) (V c (Pipeline.arrRef spec9 1)) (V c (Pipeline.arrRef spec9 2))
        (V c (Pipeline.arrRef spec9 3)) (V c (Pipeline.arrRef spec9 4)) (V c (Pipeline.arrRef spec9 5)) :=
  (dat9 V c).arrAt_eq_of_cover 6 _ (fun t _ => flushed9_6_eq V c t) cover9_6_arr

/-! ## Over the reals -/

/-- On real arrays with every variance + ε positive, `G9` is the real dense product of the normalised activations
    with the weights: each operation of a term is the real one, and a finite sum of reals is the real sum. -/
theorem G9_real (rr : Fin nRows9 → Fin wIn9 → ℝ) (mu vr g be : Fin wIn9 → ℝ) (wr : Fin wIn9 → Fin wOut9 → ℝ)
    (a0 : S10000x100.Idx → EReal) (a1 a2 a3 a4 : S1x100.Idx → EReal) (a5 : S100x60.Idx → EReal)
    (hx : ∀ i k, a0 (ix2 i k) = ((rr i k : ℝ) : EReal)) (hmu : ∀ k, a1 (ix2 0 k) = ((mu k : ℝ) : EReal))
    (hvar : ∀ k, a2 (ix2 0 k) = ((vr k : ℝ) : EReal)) (hg : ∀ k, a3 (ix2 0 k) = ((g k : ℝ) : EReal))
    (hbe : ∀ k, a4 (ix2 0 k) = ((be k : ℝ) : EReal)) (hw : ∀ k j, a5 (ix2 k j) = ((wr k j : ℝ) : EReal))
    (hv : ∀ f, 0 < vr f + Cert.LibCoe.epsR) (i : Fin nRows9) (j : Fin wOut9) :
    G9 a0 a1 a2 a3 a4 a5 (ix2 i j)
      = ((Cert.Spec.lin (Cert.Spec.normalize Cert.LibCoe.epsR rr mu vr g be) wr i j : ℝ) : EReal) := by
  unfold G9 Cert.Spec.lin
  rw [← Cert.LibCoe.sum_coe]
  refine Finset.sum_congr rfl fun k _ => ?_
  show nrm9 (a0 (ix2 i k)) (a1 (ix2 0 k)) (a2 (ix2 0 k)) (a3 (ix2 0 k)) (a4 (ix2 0 k)) * a5 (ix2 k j) = _
  rw [hx, hmu, hvar, hg, hbe, hw]
  unfold nrm9 Cert.Spec.normalize Cert.Spec.rsq
  rw [Cert.LibCoe.ofBits_eps, Cert.LibCoe.sub_coe, Cert.LibCoe.add_coe, Cert.LibCoe.rsqrt_coe_pos (hv k),
    Cert.LibCoe.mul_coe, Cert.LibCoe.mul_coe, Cert.LibCoe.add_coe, Cert.LibCoe.mul_coe]

/-- THE OUTPUT ARRAY after the region, over the reals: entry `(i, j)` is the dense product of the normalised
    activations with the weights there. -/
theorem final9_real (c : Dev nD) (rr : Fin nRows9 → Fin wIn9 → ℝ) (mu vr g be : Fin wIn9 → ℝ) (wr : Fin wIn9 → Fin wOut9 → ℝ)
    (hx : ∀ i k, (V c (Pipeline.arrRef spec9 0) : S10000x100.Idx → EReal) (ix2 i k) = ((rr i k : ℝ) : EReal))
    (hmu : ∀ k, (V c (Pipeline.arrRef spec9 1) : S1x100.Idx → EReal) (ix2 0 k) = ((mu k : ℝ) : EReal))
    (hvar : ∀ k, (V c (Pipeline.arrRef spec9 2) : S1x100.Idx → EReal) (ix2 0 k) = ((vr k : ℝ) : EReal))
    (hg : ∀ k, (V c (Pipeline.arrRef spec9 3) : S1x100.Idx → EReal) (ix2 0 k) = ((g k : ℝ) : EReal))
    (hbe : ∀ k, (V c (Pipeline.arrRef spec9 4) : S1x100.Idx → EReal) (ix2 0 k) = ((be k : ℝ) : EReal))
    (hw : ∀ k j, (V c (Pipeline.arrRef spec9 5) : S100x60.Idx → EReal) (ix2 k j) = ((wr k j : ℝ) : EReal))
    (hv : ∀ f, 0 < vr f + Cert.LibCoe.epsR) (i : Fin nRows9) (j : Fin wOut9) :
    ((dat9 (F := Ideal) V c).arrAt 6 cfg9.N : S10000x60.Idx → EReal) (ix2 i j)
      = ((Cert.Spec.lin (Cert.Spec.normalize Cert.LibCoe.epsR rr mu vr g be) wr i j : ℝ) : EReal) := by
  rw [final9_6]
  exact G9_real rr mu vr g be wr _ _ _ _ _ _ hx hmu hvar hg hbe hw hv i j

end Cert.KernelIdeal.HandV

end
-- ==== Proof.KLayer3.lean ====
import proofs.«408066_j62380105008311_2_alg».proof.Proof.KLayer2
import proofs.«408066_j62380105008311_2_alg».proof.Proof.HostSmall3
import proofs.«408066_j62380105008311_2_alg».proof.Proof.Val7
import proofs.«408066_j62380105008311_2_alg».proof.Proof.Val8
import proofs.«408066_j62380105008311_2_alg».proof.Proof.Val9

/-!
# Layer 3 of the kernel's network, read off the fold of buffer contents

The layer's unit, from the features the previous layer left: pad them with zero rows, multiply by the padded
normalised adjacency (the dense aggregation), add the bias and rectify while summing each column and its squares,
turn the sums into mean and variance, normalise and multiply by the next weight matrix; and the carried buffers
(the padded adjacency, the argument arrays), unchanged.
-/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Cert.Inputs (srcOf dstOf RealArgs)
open Cert.LibCoe (epsR)

variable (m : (ℓ : Loc nD τ sig) → Buf (Elt Ideal) ℓ)

/-! ## The layer's unit: seven items, from features h in the unit's input array -/

/-- What the unit is entered with: real features h in its input array, and the carried buffers. -/
structure Entry3 (c : Dev nD) (R : RealArgs) (h : Fin 10000 → Fin 100 → ℝ) : Prop where
  feat : ∀ i f, (W18 m c (Proc.devRef .tc main_v85) : S10000x100.Idx → EReal) (ix2 i f) = ((h i f : ℝ) : EReal)
  car : Carried m c R (W18 m c)

section Unit
variable {m}
variable {c : Dev nD} {R : RealArgs} {h : Fin 10000 → Fin 100 → ℝ}

/-- The layer's activations from its input features: aggregate, add the bias, rectify. -/
abbrev act3 (R : RealArgs) (h : Fin 10000 → Fin 100 → ℝ) : Fin 10000 → Fin 100 → ℝ :=
  Cert.Spec.relu (Cert.Spec.addBias (Cert.Spec.aggD (srcOf R.ei) (dstOf R.ei) h) R.P.b3)

/-- The features padded with zero rows (the unit's first two items, host operations). -/
theorem pad_W20 (hE : Entry3 m c R h) (s : Fin 10240) (f : Fin 100) :
    (W20 m c (Proc.devRef .tc main_v86) : S10240x100.Idx → EReal) (ix2 s f)
      = ((if hs : s.val < 10000 then h ⟨s.val, hs⟩ f else 0 : ℝ) : EReal) :=
  pad3_real_from (W18 m c) h hE.feat s f

theorem carried_W20 (hE : Entry3 m c R h) : Carried m c R (W20 m c) :=
  (hE.car.step m GenP.hostOps7_W (W19_of m c) (by decide) (by decide)).step m GenP.hostOps7_1_W (W20_of m c) (by decide) (by decide)

/-- The aggregation kernel: the padded adjacency times the padded features is the dense aggregation of h. -/
theorem agg_W21 (hE : Entry3 m c R h) (i : Fin 10000) (f : Fin 100) :
    (W21 m c (Proc.devRef .tc main_v87) : S10000x100.Idx → EReal) (ix2 i f)
      = ((Cert.Spec.aggD (srcOf R.ei) (dstOf R.ei) h i f : ℝ) : EReal) := by
  refine (congrFun (W21_arr m c 2) (ix2 i f)).trans ?_
  refine (final7_real (Hand.V20 m) c
    (fun d s => if hs : s.val < 10000 then Cert.Spec.adj (srcOf R.ei) (dstOf R.ei) d ⟨s.val, hs⟩ else 0)
    (fun s f => if hs : s.val < 10000 then h ⟨s.val, hs⟩ f else 0)
    (carried_W20 hE).adj (pad_W20 hE) i f).trans ?_
  exact congrArg (fun x : ℝ => (x : EReal)) (Cert.Spec.aggD_pad_10240 (srcOf R.ei) (dstOf R.ei) h i f)

theorem carried_W21 (hE : Entry3 m c R h) : Carried m c R (W21 m c) :=
  (carried_W20 hE).step m [main_v87] (W21_of m c) (by decide) (by decide)

/-- The bias as a one-row matrix (host operations); the aggregation is still there. -/
theorem bias_W22 (hE : Entry3 m c R h) (hR : ReadsAt m c R) (f : Fin 100) :
    (W22 m c (Proc.devRef .tc main_v88) : S1x100.Idx → EReal) (ix2 0 f) = ((R.P.b3 f : ℝ) : EReal) :=
  (bias3_read (W21 m c) f).trans ((congrFun ((carried_W21 hE).args main_arg7 (by decide)) (ix1 f)).trans (hR.hb3 f))

theorem agg_W22 (hE : Entry3 m c R h) (i : Fin 10000) (f : Fin 100) :
    (W22 m c (Proc.devRef .tc main_v87) : S10000x100.Idx → EReal) (ix2 i f)
      = ((Cert.Spec.aggD (srcOf R.ei) (dstOf R.ei) h i f : ℝ) : EReal) :=
  (congrFun (W22_of m c main_v87 (by decide)) (ix2 i f)).trans (agg_W21 hE i f)

theorem carried_W22 (hE : Entry3 m c R h) : Carried m c R (W22 m c) :=
  (carried_W21 hE).step m GenP.hostOps8_W (W22_of m c) (by decide) (by decide)

/-- The activation kernel: the activations, and each column's sum and sum of squares. -/
theorem act_W23 (hE : Entry3 m c R h) (hR : ReadsAt m c R) (i : Fin 10000) (f : Fin 100) :
    (W23 m c (Proc.devRef .tc main_v89_0) : S10000x100.Idx → EReal) (ix2 i f) = ((act3 R h i f : ℝ) : EReal) :=
  (congrFun (W23_arr m c 2) (ix2 i f)).trans
    (final8_real_2 (Hand.V22 m) c (Cert.Spec.aggD (srcOf R.ei) (dstOf R.ei) h) R.P.b3 (agg_W22 hE) (bias_W22 hE hR) i f)

theorem sum_W23 (hE : Entry3 m c R h) (hR : ReadsAt m c R) (f : Fin 100) :
    (W23 m c (Proc.devRef .tc main_v89_1) : S1x100.Idx → EReal) (ix2 0 f)
      = ((Cert.Spec.colSum (act3 R h) f : ℝ) : EReal) :=
  (congrFun (W23_arr m c 3) (ix2 0 f)).trans
    (final8_real_3 (Hand.V22 m) c (Cert.Spec.aggD (srcOf R.ei) (dstOf R.ei) h) R.P.b3 (agg_W22 hE) (bias_W22 hE hR) f)

theorem sumSq_W23 (hE : Entry3 m c R h) (hR : ReadsAt m c R) (f : Fin 100) :
    (W23 m c (Proc.devRef .tc main_v89_2) : S1x100.Idx → EReal) (ix2 0 f)
      = ((Cert.Spec.colSumSq (act3 R h) f : ℝ) : EReal) :=
  (congrFun (W23_arr m c 4) (ix2 0 f)).trans
    (final8_real_4 (Hand.V22 m) c (Cert.Spec.aggD (srcOf R.ei) (dstOf R.ei) h) R.P.b3 (agg_W22 hE) (bias_W22 hE hR) f)

theorem carried_W23 (hE : Entry3 m c R h) : Carried m c R (W23 m c) :=
  (carried_W22 hE).step m [main_v89_0, main_v89_1, main_v89_2] (W23_of m c) (by decide) (by decide)

/-- The statistics rows (host operations); the activations are still there. -/
theorem mean_W24 (hE : Entry3 m c R h) (hR : ReadsAt m c R) (f : Fin 100) :
    (W24 m c (Proc.devRef .tc main_v100) : S1x100.Idx → EReal) (ix2 0 f)
      = ((Cert.Spec.mean 10000 (act3 R h) f : ℝ) : EReal) :=
  stats3_mean_spec (W23 m c) (act3 R h) (sum_W23 hE hR) f

theorem var_W24 (hE : Entry3 m c R h) (hR : ReadsAt m c R) (f : Fin 100) :
    (W24 m c (Proc.devRef .tc main_v101) : S1x100.Idx → EReal) (ix2 0 f)
      = ((Cert.Spec.varK 10000 (act3 R h) f : ℝ) : EReal) :=
  stats3_var_spec (W23 m c) (act3 R h) (sum_W23 hE hR) (sumSq_W23 hE hR) f

theorem scale_W24 (hE : Entry3 m c R h) (hR : ReadsAt m c R) (f : Fin 100) :
    (W24 m c (Proc.devRef .tc main_v102) : S1x100.Idx → EReal) (ix2 0 f) = ((R.P.g3 f : ℝ) : EReal) :=
  stats3_scale_real (W23 m c) R.P.g3
    (fun f => (congrFun ((carried_W23 hE).args main_arg16 (by decide)) (ix1 f)).trans (hR.hg3 f)) f

theorem shift_W24 (hE : Entry3 m c R h) (hR : ReadsAt m c R) (f : Fin 100) :
    (W24 m c (Proc.devRef .tc main_v103) : S1x100.Idx → EReal) (ix2 0 f) = ((R.P.be3 f : ℝ) : EReal) :=
  stats3_shift_real (W23 m c) R.P.be3
    (fun f => (congrFun ((carried_W23 hE).args main_arg17 (by decide)) (ix1 f)).trans (hR.hbe3 f)) f

theorem act_W24 (hE : Entry3 m c R h) (hR : ReadsAt m c R) (i : Fin 10000) (f : Fin 100) :
    (W24 m c (Proc.devRef .tc main_v89_0) : S10000x100.Idx → EReal) (ix2 i f) = ((act3 R h i f : ℝ) : EReal) :=
  (congrFun (W24_of m c main_v89_0 (by decide)) (ix2 i f)).trans (act_W23 hE hR i f)

theorem carried_W24 (hE : Entry3 m c R h) : Carried m c R (W24 m c) :=
  (carried_W23 hE).step m GenP.hostOps9_W (W24_of m c) (by decide) (by decide)

/-- The normalisation kernel: the normalised activations times the next weight matrix. -/
theorem out_W25 (hE : Entry3 m c R h) (hR : ReadsAt m c R) (i : Fin 10000) (j : Fin 60) :
    (W25 m c (Proc.devRef .tc main_v104) : S10000x60.Idx → EReal) (ix2 i j)
      = ((Cert.Spec.lin (Cert.Spec.bnK 10000 epsR (act3 R h) R.P.g3 R.P.be3) R.P.W4 i j : ℝ) : EReal) :=
  (congrFun (W25_arr m c 6) (ix2 i j)).trans
    (final9_real (Hand.V24 m) c (act3 R h) (Cert.Spec.mean 10000 (act3 R h)) (Cert.Spec.varK 10000 (act3 R h)) R.P.g3 R.P.be3 R.P.W4
      (act_W24 hE hR) (mean_W24 hE hR) (var_W24 hE hR) (scale_W24 hE hR) (shift_W24 hE hR)
      (fun k j => (congrFun ((carried_W24 hE).args main_arg8 (by decide)) (ix2 k j)).trans (hR.hW4 k j))
      (fun f => add_pos_of_nonneg_of_pos (le_max_right _ _) Cert.LibCoe.epsR_pos) i j)

theorem carried_W25 (hE : Entry3 m c R h) : Carried m c R (W25 m c) :=
  (carried_W24 hE).step m [main_v104] (W25_of m c) (by decide) (by decide)

end Unit

/-! ## The layer -/

/-- The unit is entered from the array the layer's input features were left in. -/
theorem entry3 (c : Dev nD) (R : RealArgs) (hR : ReadsAt m c R) : Entry3 m c R (Cert.Spec.lin (Cert.Spec.bnK 10000 epsR (Cert.Spec.k2 10000 epsR (srcOf R.ei) (dstOf R.ei) R.X R.P) R.P.g2 R.P.be2) R.P.W3) :=
  ⟨lin3_W18 m c R hR, carried2_W18 m c R hR⟩

/-- After the activation kernel its first result array holds the layer's activations. -/
theorem k3_W23 (c : Dev nD) (R : RealArgs) (hR : ReadsAt m c R) (i : Fin 10000) (f : Fin 100) :
    (W23 m c (Proc.devRef .tc main_v89_0) : S10000x100.Idx → EReal) (ix2 i f)
      = ((Cert.Spec.k3 10000 epsR (srcOf R.ei) (dstOf R.ei) R.X R.P i f : ℝ) : EReal) :=
  act_W23 (entry3 m c R hR) hR i f

/-- After the normalisation kernel its result array holds the next layer's input features. -/
theorem lin4_W25 (c : Dev nD) (R : RealArgs) (hR : ReadsAt m c R) (i : Fin 10000) (j : Fin 60) :
    (W25 m c (Proc.devRef .tc main_v104) : S10000x60.Idx → EReal) (ix2 i j)
      = ((Cert.Spec.lin (Cert.Spec.bnK 10000 epsR (Cert.Spec.k3 10000 epsR (srcOf R.ei) (dstOf R.ei) R.X R.P) R.P.g3 R.P.be3) R.P.W4 i j : ℝ) : EReal) :=
  out_W25 (entry3 m c R hR) hR i j

/-- What the next layer is entered with beside its features. -/
theorem carried3_W25 (c : Dev nD) (R : RealArgs) (hR : ReadsAt m c R) : Carried m c R (W25 m c) :=
  carried_W25 (entry3 m c R hR)

end Cert.KernelIdeal.HandV

end
-- ==== Proof.HostSmall4.lean ====
import proofs.«408066_j62380105008311_2_alg».proof.Proof.Gen.KernelIdeal.Launch
import proofs.«408066_j62380105008311_2_alg».proof.Proof.Spec
import proofs.«408066_j62380105008311_2_alg».proof.Proof.LibCoe
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

/-! # The small host stretches of one layer, read as values

Between the kernel regions the program runs a few array operations on the host, the same ones layer after layer. This
module reads one layer's at an index, at the ideal values, from ANY contents `V` of the buffers on entry to the
stretch:

* the PADDING of the node features with zero rows up to a whole number of row blocks: row `s` of the result is row
  `s` of the operand while `s` is a node, and zero after the last node;
* the bias vector written as a one-row matrix;
* the column STATISTICS: from the row of column sums `S` and the row of column sums of squares `Q` over the `n`
  nodes, the mean `S / n` and the variance `max (Q / n − (S / n)², 0)`, each as a one-row matrix, beside the
  scale and shift vectors written as one-row matrices.

Each operation is read at an index by its own lemma, outermost first.
The statistics' arithmetic on extended reals is brought down to the reals one operation at a time, the operands being
coerced reals and the divisor `n` non-zero. -/

set_option maxRecDepth 1720

noncomputable section

namespace Cert.KernelIdeal.HandV

open Cert.KernelIdeal Cert.KernelIdeal.Gen
open Idealize.ShloMosaic Idealize.ShloMosaic.TcCoe Idealize.ShloMosaic.ValueIdx
open Idealize.ShloMosaic.StableHlo

/-- The number of nodes, the number of rows after padding, and the number of columns. -/
local notation "NR" => (10000 : ℕ)
local notation "NP" => (10240 : ℕ)
local notation "WD" => (60 : ℕ)

/-! ## The padding -/

/-- The padded features read at row `s`, column `f`: the operand's entry while `s` is a node's row, and zero below
    the last node — given that the word the padding value is converted from is the integer zero. -/
theorem pad4_read (V : Valuation τ sig (Elt Ideal))
    (hc : (V main_c_23 : S_.Idx → BitVec 32) ix0 = 0#32) (s : Fin NP) (f : Fin WD) :
    (StableHlo.after hostOps10_1 V main_v105 : S10240x60.Idx → EReal) (ix2 s f)
      = if hs : s.val < NR then (V main_v104 : S10000x60.Idx → EReal) (ix2 ⟨s.val, hs⟩ f) else (0 : EReal) := by
  dsimp only [hostOps10_1]
  after_results
  simp only [TRef.ofBuf, TRef.toBuf, cast_eq]
  by_cases hs : s.val < NR
  · -- inside the operand: no low padding, no interior padding, so the coordinates are the operand's own
    rw [dif_pos hs]
    exact pad_apply_of_inside _ _ _ _ _ _ _ _ (ix2 ⟨s.val, hs⟩ f) (fun a => match a with
      | ⟨0, _⟩ => by show s.val = 0 + s.val * (0 + 1); omega
      | ⟨1, _⟩ => by show f.val = 0 + f.val * (0 + 1); omega)
  · -- past the operand's last row: the padding value, the integer zero converted
    rw [dif_neg hs]
    refine (pad_apply_of_not_inside _ _ _ _ _ _ _ _ (0 : Fin 2) (fun hin => ?_)).trans ?_
    · have h3 : s.val / 1 < NR := hin.2.2
      rw [Nat.div_one] at h3
      exact hs h3
    · show (Scalar.sitofp .f32 ((V main_c_23 : S_.Idx → BitVec 32) (Shape.Idx.first h_S_)) : Ideal .f32) = 0
      rw [eq_ix0 (Shape.Idx.first h_S_), hc]
      exact sitofp_zero

/-- The same from the contents before the integer zero is written: the one operation in front writes that word and
    leaves the operand alone. -/
theorem pad4_read_from (V : Valuation τ sig (Elt Ideal)) (s : Fin NP) (f : Fin WD) :
    (StableHlo.after hostOps10_1 (StableHlo.after hostOps10 V) main_v105 : S10240x60.Idx → EReal) (ix2 s f)
      = if hs : s.val < NR then (V main_v104 : S10000x60.Idx → EReal) (ix2 ⟨s.val, hs⟩ f) else (0 : EReal) := by
  have hc : (StableHlo.after hostOps10 V main_c_23 : S_.Idx → BitVec 32) ix0 = 0#32 := by
    dsimp only [hostOps10]; after_results; rfl
  have hx : (StableHlo.after hostOps10 V main_v104 : S10000x60.Idx → EReal) = V main_v104 := by
    dsimp only [hostOps10]; after_results
  rw [pad4_read _ hc s f, hx]

/-- In real numbers: if the operand holds the real matrix `h`, the padded array holds `h` on the nodes' rows and `0`
    on the rows after them. -/
theorem pad4_real (V : Valuation τ sig (Elt Ideal)) (hc : (V main_c_23 : S_.Idx → BitVec 32) ix0 = 0#32)
    (h : Fin NR → Fin WD → ℝ)
    (hh : ∀ i f, (V main_v104 : S10000x60.Idx → EReal) (ix2 i f) = ((h i f : ℝ) : EReal)) (s : Fin NP) (f : Fin WD) :
    (StableHlo.after hostOps10_1 V main_v105 : S10240x60.Idx → EReal) (ix2 s f)
      = ((if hs : s.val < NR then h ⟨s.val, hs⟩ f else 0 : ℝ) : EReal) := by
  rw [pad4_read V hc s f]
  by_cases hs : s.val < NR
  · rw [dif_pos hs, dif_pos hs, hh]
  · rw [dif_neg hs, dif_neg hs, EReal.coe_zero]

/-- The real form from the contents before the integer zero is written. -/
theorem pad4_real_from (V : Valuation τ sig (Elt Ideal)) (h : Fin NR → Fin WD → ℝ)
    (hh : ∀ i f, (V main_v104 : S10000x60.Idx → EReal) (ix2 i f) = ((h i f : ℝ) : EReal)) (s : Fin NP) (f : Fin WD) :
    (StableHlo.after hostOps10_1 (StableHlo.after hostOps10 V) main_v105 : S10240x60.Idx → EReal) (ix2 s f)
      = ((if hs : s.val < NR then h ⟨s.val, hs⟩ f else 0 : ℝ) : EReal) := by
  rw [pad4_read_from V s f]
  by_cases hs : s.val < NR
  · rw [dif_pos hs, dif_pos hs, hh]
  · rw [dif_neg hs, dif_neg hs, EReal.coe_zero]

/-! ## The bias as a one-row matrix -/

/-- The bias row read at column `f` is the bias vector's entry `f`. -/
theorem bias4_read (V : Valuation τ sig (Elt Ideal)) (f : Fin WD) :
    (StableHlo.after hostOps11 V main_v107 : S1x60.Idx → EReal) (ix2 0 f)
      = (V main_arg9 : S60.Idx → EReal) (ix1 f) := by
  dsimp only [hostOps11]
  after_results
  exact shapeCast_a_1a_apply _ _ 0 f

/-! ## The statistics -/

/-- The node count as a real. -/
local notation "CNT" => (10000 : ℝ)

/-- A one-row matrix of coerced reals, written as a vector and divided entry by entry by the node count (the
    single-precision constant `10000`, broadcast), holds the real quotients. -/
theorem meanVec4_read (x : S1x60.Idx → EReal) (S : Fin WD → ℝ)
    (hx : ∀ f, x (ix2 0 f) = ((S f : ℝ) : EReal)) (f : Fin WD) :
    (Host.divf (shapeCast S60 x shapeCasts_S1x60_S60)
        (broadcastInDim S60 ![] bcast_S_S60 (constant (F := Ideal) S_ .f32 0x461C4000#32))
      : FVec Ideal S60 .f32) (ix1 f) = ((S f / CNT : ℝ) : EReal) := by
  rw [hostDivf_apply, shapeCast_1a_a_apply, hx, broadcastInDim_scalar_apply, constant_apply, Cert.LibCoe.ofBits_10000]
  exact Cert.LibCoe.div_coe_coe _ (by norm_num)

/-- The variance vector: the mean of the squares less the square of the mean, cut off below at zero, in real numbers. -/
theorem varVec4_read (x1 x2 : S1x60.Idx → EReal) (S Q : Fin WD → ℝ)
    (h1 : ∀ f, x1 (ix2 0 f) = ((S f : ℝ) : EReal)) (h2 : ∀ f, x2 (ix2 0 f) = ((Q f : ℝ) : EReal)) (f : Fin WD) :
    (maximumf
        (subf
          (Host.divf (shapeCast S60 x2 shapeCasts_S1x60_S60)
            (broadcastInDim S60 ![] bcast_S_S60 (constant (F := Ideal) S_ .f32 0x461C4000#32)))
          (mulf
            (Host.divf (shapeCast S60 x1 shapeCasts_S1x60_S60)
              (broadcastInDim S60 ![] bcast_S_S60 (constant (F := Ideal) S_ .f32 0x461C4000#32)))
            (Host.divf (shapeCast S60 x1 shapeCasts_S1x60_S60)
              (broadcastInDim S60 ![] bcast_S_S60 (constant (F := Ideal) S_ .f32 0x461C4000#32)))))
        (broadcastInDim S60 ![] bcast_S_S60 (constant (F := Ideal) S_ .f32 0x00000000#32))
      : FVec Ideal S60 .f32) (ix1 f)
      = ((max (Q f / CNT - (S f / CNT) * (S f / CNT)) 0 : ℝ) : EReal) := by
  rw [maximumf_apply, subf_apply, mulf_apply, meanVec4_read x2 Q h2 f, meanVec4_read x1 S h1 f,
    broadcastInDim_scalar_apply, constant_apply, Cert.LibCoe.ofBits_zero, Cert.LibCoe.mul_coe, Cert.LibCoe.sub_coe,
    Cert.LibCoe.max_coe]

/-- The mean row after the statistics stretch: the column sums over the node count. -/
theorem stats4_mean (V : Valuation τ sig (Elt Ideal)) (S : Fin WD → ℝ)
    (hS : ∀ f, (V main_v108_1 : S1x60.Idx → EReal) (ix2 0 f) = ((S f : ℝ) : EReal)) (f : Fin WD) :
    (StableHlo.after hostOps12 V main_v119 : S1x60.Idx → EReal) (ix2 0 f) = ((S f / CNT : ℝ) : EReal) := by
  dsimp only [hostOps12]
  after_results
  exact (shapeCast_a_1a_apply _ _ 0 f).trans (meanVec4_read (V main_v108_1) S hS f)

/-- The variance row after the statistics stretch. -/
theorem stats4_var (V : Valuation τ sig (Elt Ideal)) (S Q : Fin WD → ℝ)
    (hS : ∀ f, (V main_v108_1 : S1x60.Idx → EReal) (ix2 0 f) = ((S f : ℝ) : EReal))
    (hQ : ∀ f, (V main_v108_2 : S1x60.Idx → EReal) (ix2 0 f) = ((Q f : ℝ) : EReal)) (f : Fin WD) :
    (StableHlo.after hostOps12 V main_v120 : S1x60.Idx → EReal) (ix2 0 f)
      = ((max (Q f / CNT - (S f / CNT) * (S f / CNT)) 0 : ℝ) : EReal) := by
  dsimp only [hostOps12]
  after_results
  exact (shapeCast_a_1a_apply _ _ 0 f).trans (varVec4_read (V main_v108_1) (V main_v108_2) S Q hS hQ f)

/-- The scale row after the statistics stretch is the scale vector. -/
theorem stats4_scale (V : Valuation τ sig (Elt Ideal)) (f : Fin WD) :
    (StableHlo.after hostOps12 V main_v121 : S1x60.Idx → EReal) (ix2 0 f)
      = (V main_arg18 : S60.Idx → EReal) (ix1 f) := by
  dsimp only [hostOps12]
  after_results
  exact shapeCast_a_1a_apply _ _ 0 f

/-- The shift row after the statistics stretch is the shift vector. -/
theorem stats4_shift (V : Valuation τ sig (Elt Ideal)) (f : Fin WD) :
    (StableHlo.after hostOps12 V main_v122 : S1x60.Idx → EReal) (ix2 0 f)
      = (V main_arg19 : S60.Idx → EReal) (ix1 f) := by
  dsimp only [hostOps12]
  after_results
  exact shapeCast_a_1a_apply _ _ 0 f

/-- Scale and shift in real numbers. -/
theorem stats4_scale_real (V : Valuation τ sig (Elt Ideal)) (g : Fin WD → ℝ)
    (hg : ∀ f, (V main_arg18 : S60.Idx → EReal) (ix1 f) = ((g f : ℝ) : EReal)) (f : Fin WD) :
    (StableHlo.after hostOps12 V main_v121 : S1x60.Idx → EReal) (ix2 0 f) = ((g f : ℝ) : EReal) := by
  rw [stats4_scale V f, hg]

theorem stats4_shift_real (V : Valuation τ sig (Elt Ideal)) (be : Fin WD → ℝ)
    (hbe : ∀ f, (V main_arg19 : S60.Idx → EReal) (ix1 f) = ((be f : ℝ) : EReal)) (f : Fin WD) :
    (StableHlo.after hostOps12 V main_v122 : S1x60.Idx → EReal) (ix2 0 f) = ((be f : ℝ) : EReal) := by
  rw [stats4_shift V f, hbe]

/-- With the sums taken over the rows of a real matrix `r`, the two rows are the column mean and the variance by
    moments of `r`. -/
theorem stats4_mean_spec (V : Valuation τ sig (Elt Ideal)) (r : Fin NR → Fin WD → ℝ)
    (hS : ∀ f, (V main_v108_1 : S1x60.Idx → EReal) (ix2 0 f) = ((Cert.Spec.colSum r f : ℝ) : EReal)) (f : Fin WD) :
    (StableHlo.after hostOps12 V main_v119 : S1x60.Idx → EReal) (ix2 0 f) = ((Cert.Spec.mean CNT r f : ℝ) : EReal) :=
  stats4_mean V (Cert.Spec.colSum r) hS f

theorem stats4_var_spec (V : Valuation τ sig (Elt Ideal)) (r : Fin NR → Fin WD → ℝ)
    (hS : ∀ f, (V main_v108_1 : S1x60.Idx → EReal) (ix2 0 f) = ((Cert.Spec.colSum r f : ℝ) : EReal))
    (hQ : ∀ f, (V main_v108_2 : S1x60.Idx → EReal) (ix2 0 f) = ((Cert.Spec.colSumSq r f : ℝ) : EReal)) (f : Fin WD) :
    (StableHlo.after hostOps12 V main_v120 : S1x60.Idx → EReal) (ix2 0 f) = ((Cert.Spec.varK CNT r f : ℝ) : EReal) :=
  stats4_var V (Cert.Spec.colSum r) (Cert.Spec.colSumSq r) hS hQ f

end Cert.KernelIdeal.HandV

end
-- ==== Proof.Val10.lean ====
import proofs.«408066_j62380105008311_2_alg».proof.Proof.Reg10
import proofs.«408066_j62380105008311_2_alg».proof.Proof.Spec
import proofs.«408066_j62380105008311_2_alg».proof.Proof.SpecLaws2
import proofs.«408066_j62380105008311_2_alg».proof.Proof.LibCoe
import Idealize.ShloMosaic.Lib.Pipeline.Value
import Idealize.ShloMosaic.Lib.ValueIdx
import Idealize.ShloMosaic.Lib.ValueLayout
import Idealize.ShloMosaic.PureOps.Ideal.Laws

/-!
# Region 10 at the ideal values: the result array is the matrix product of the two operand arrays

The grid runs over row blocks of the result and, inside each, over ten runs of the contracted index.  The
accumulator starts each row block at zero, gains one run's partial product per step, and is copied to the result
block at the last step: what is written back is the row block of the full product, the contracted sum cut into its
ten runs.  The row blocks tile the result, so the array the region leaves is the product of the two arrays it found;
and where those hold real numbers, it holds the real matrix product.
-/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.Tactic Idealize.SL.Sem Idealize.ShloMosaic.ValueIdx
open Idealize.ShloMosaic.Pipeline (Dat)
open scoped BigOperators

/-! ## What each step leaves in the accumulator, as the body's arithmetic -/

section Pieces
variable {F : FTy → Type} [FloatOps F]

theorem hz10 : (![0, 0] : Fin 2 → Nat) = fun _ => 0 := funext fun a => by fin_cases a <;> rfl

/-- FIRST STEP: the accumulator is cleared, then gains the step's product. -/
theorem sout10_A_eq (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : cond10_0 i) (hc1 : ¬cond10_1 i) (x0 : Vec F S2000x1024 .bf16) (x1 : Vec F S1024x60 .f32) :
    sout10_A c i arg2 harg2 arg3 harg3 arg4 harg4 arg5 harg5 hc0 hc1 x0 x1 = k10_pay2 x0 x1 (k10_pay1 (F := F)) := by
  unfold sout10_A
  rw [View.read_writes_eq_canon _ _ _ (scover10_A c i arg2 harg2 arg3 harg3 arg4 harg4 arg5 harg5 hc0 hc1 x0 x1)]
  unfold run10_A
  dsimp only
  sl_unfold_words
  rw [View.canon_cons_unit_zero (S := S2000x60) hz10]
  simp only [View.readAt_eq_ld, harg2.read_unread, harg3.read_unread, View.ld_unit_zero (S := S2000x1024) hz10,
    View.ld_unit_zero (S := S1024x60) hz10, View.readCov_unit_zero (S := S2000x60) _ hz10]

/-- A MIDDLE STEP: the accumulator gains the step's product. -/
theorem sout10_B_eq (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : ¬cond10_0 i) (hc1 : ¬cond10_1 i) (x0 : Vec F S2000x1024 .bf16) (x1 : Vec F S1024x60 .f32) (xs : Vec F S2000x60 .f32) :
    sout10_B c i arg2 harg2 arg3 harg3 arg4 harg4 arg5 harg5 hc0 hc1 x0 x1 xs = k10_pay2 x0 x1 xs := by
  unfold sout10_B
  rw [View.read_writes_eq_canon _ _ _ (scover10_B c i arg2 harg2 arg3 harg3 arg4 harg4 arg5 harg5 hc0 hc1 x0 x1 xs)]
  unfold run10_B
  dsimp only
  sl_unfold_words
  rw [View.canon_unit_zero (S := S2000x60) hz10]
  simp only [View.readAt_eq_ld, harg2.read_unread, harg3.read_unread, harg5.read_unread, View.ld_unit_zero (S := S2000x1024) hz10,
    View.ld_unit_zero (S := S1024x60) hz10, View.ld_unit_zero (S := S2000x60) hz10]

/-- THE LAST STEP: the accumulator gains the step's product, -/
theorem sout10_C_eq (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : ¬cond10_0 i) (hc1 : cond10_1 i) (x0 : Vec F S2000x1024 .bf16) (x1 : Vec F S1024x60 .f32) (xs : Vec F S2000x60 .f32) :
    sout10_C c i arg2 harg2 arg3 harg3 arg4 harg4 arg5 harg5 hc0 hc1 x0 x1 xs = k10_pay2 x0 x1 xs := by
  unfold sout10_C
  rw [View.read_writes_eq_canon _ _ _ (scover10_C c i arg2 harg2 arg3 harg3 arg4 harg4 arg5 harg5 hc0 hc1 x0 x1 xs)]
  unfold run10_C
  dsimp only
  sl_unfold_words
  rw [View.canon_unit_zero (S := S2000x60) hz10]
  simp only [View.readAt_eq_ld, harg2.read_unread, harg3.read_unread, harg5.read_unread, View.ld_unit_zero (S := S2000x1024) hz10,
    View.ld_unit_zero (S := S1024x60) hz10, View.ld_unit_zero (S := S2000x60) hz10]

/-- and the result block receives the accumulator as the step leaves it. -/
theorem out10_C_eq (c : Dev nD) (i : grid10.Coords)
    (arg2 : Memref sig .tc .vmem S2000x1024 .bf16) (harg2 : arg2.IsWhole) (arg3 : Memref sig .tc .vmem S1024x60 .f32) (harg3 : arg3.IsWhole)
    (arg4 : Memref sig .tc .vmem S2000x60 .f32) (harg4 : arg4.IsWhole) (arg5 : Memref sig .tc .vmem S2000x60 .f32) (harg5 : arg5.IsWhole)
    (hc0 : ¬cond10_0 i) (hc1 : cond10_1 i) (x0 : Vec F S2000x1024 .bf16) (x1 : Vec F S1024x60 .f32) (xs : Vec F S2000x60 .f32) :
    out10_C c i arg2 harg2 arg3 harg3 arg4 harg4 arg5 harg5 hc0 hc1 x0 x1 xs = k10_pay2 x0 x1 xs := by
  unfold out10_C
  rw [View.read_writes_eq_canon _ _ _ (cover10_C c i arg2 harg2 arg3 harg3 arg4 harg4 arg5 harg5 hc0 hc1 x0 x1 xs)]
  unfold run10_C
  dsimp only
  sl_unfold_words
  rw [View.canon_unit_zero (S := S2000x60) hz10]
  simp only [View.readAt_eq_ld, harg2.read_unread, harg3.read_unread, harg5.read_unread, View.ld_unit_zero (S := S2000x1024) hz10,
    View.ld_unit_zero (S := S1024x60) hz10, View.ld_unit_zero (S := S2000x60) hz10, View.readCov_unit_zero (S := S2000x60) _ hz10]

end Pieces

/-! ## The step's arithmetic at the ideal values -/

theorem lhs10_0 (j : S2000x60.Idx) (k : dot_S2000x1024_S1024x60_S2000x60_1_0_0_1_n_n.contr.Idx) :
    (dot_S2000x1024_S1024x60_S2000x60_1_0_0_1_n_n.lhsIdx j k 0).val = (j 0).val := by
  simp [DotDims.lhsIdx, dot_S2000x1024_S1024x60_S2000x60_1_0_0_1_n_n]; rfl

theorem lhs10_1 (j : S2000x60.Idx) (k : dot_S2000x1024_S1024x60_S2000x60_1_0_0_1_n_n.contr.Idx) :
    (dot_S2000x1024_S1024x60_S2000x60_1_0_0_1_n_n.lhsIdx j k 1).val = (k ⟨0, by decide⟩).val :=
  dot_S2000x1024_S1024x60_S2000x60_1_0_0_1_n_n.lhsIdx_val_of_single (cl := 1) rfl j k

theorem rhs10_0 (j : S2000x60.Idx) (k : dot_S2000x1024_S1024x60_S2000x60_1_0_0_1_n_n.contr.Idx) :
    (dot_S2000x1024_S1024x60_S2000x60_1_0_0_1_n_n.rhsIdx j k 0).val = (k ⟨0, by decide⟩).val :=
  dot_S2000x1024_S1024x60_S2000x60_1_0_0_1_n_n.rhsIdx_val_of_single (cr := 0) rfl j k

theorem rhs10_1 (j : S2000x60.Idx) (k : dot_S2000x1024_S1024x60_S2000x60_1_0_0_1_n_n.contr.Idx) :
    (dot_S2000x1024_S1024x60_S2000x60_1_0_0_1_n_n.rhsIdx j k 1).val = (j 1).val := by
  simp [DotDims.rhsIdx, dot_S2000x1024_S1024x60_S2000x60_1_0_0_1_n_n]; rfl

/-- The cleared accumulator is zero everywhere. -/
theorem pay10_1_apply (j : S2000x60.Idx) : k10_pay1 (F := Ideal) j = 0 := by
  unfold k10_pay1
  refine (congrFun (shapeCast_self _ _) j).trans ?_
  exact Ideal.ofBits_zero_f32

/-- One step at an entry (p, q): what the accumulator held there plus the sum over the run's contracted coordinate k
    of x0 (p, k) * x1 (k, q).  The narrowing cast is the identity on extended reals and the product starts from zero. -/
theorem pay10_2_apply (x0 : FVec Ideal S2000x1024 .bf16) (x1 : FVec Ideal S1024x60 .f32) (xs : FVec Ideal S2000x60 .f32)
    (p : Fin 2000) (q : Fin 60) :
    k10_pay2 (F := Ideal) x0 x1 xs (ix2 p q) = xs (ix2 p q) + ∑ k : Fin 1024, x0 (ix2 p k) * x1 (ix2 k q) := by
  have e : k10_pay2 (F := Ideal) x0 x1 xs
      = addf xs (matmul dot_S2000x1024_S1024x60_S2000x60_1_0_0_1_n_n none x0 (truncf .bf16 x1 bitsLt_bf16_f32)
          (constant S2000x60 .f32 0x00000000#32)) := by
    simp only [k10_pay2, shapeCast_self]
  rw [e]
  refine (congrArg (fun z : EReal => xs (ix2 p q) + z)
    (Ideal.matmul_constant_zero_apply dot_S2000x1024_S1024x60_S2000x60_1_0_0_1_n_n none x0 (truncf .bf16 x1 bitsLt_bf16_f32) (ix2 p q))).trans ?_
  refine congrArg (fun z : EReal => xs (ix2 p q) + z) ?_
  rw [← Equiv.sum_comp (contrEquiv1 dot_S2000x1024_S1024x60_S2000x60_1_0_0_1_n_n 1024 rfl rfl).symm]
  refine Finset.sum_congr rfl fun k _ => ?_
  have hk := contrEquiv1_symm_val dot_S2000x1024_S1024x60_S2000x60_1_0_0_1_n_n 1024 rfl rfl k
  have hl : dot_S2000x1024_S1024x60_S2000x60_1_0_0_1_n_n.lhsIdx (ix2 p q)
      ((contrEquiv1 dot_S2000x1024_S1024x60_S2000x60_1_0_0_1_n_n 1024 rfl rfl).symm k) = ix2 p k := by
    funext ax; apply Fin.ext
    match ax with
    | ⟨0, _⟩ => exact lhs10_0 _ _
    | ⟨1, _⟩ => exact (lhs10_1 _ _).trans hk
  have hr : dot_S2000x1024_S1024x60_S2000x60_1_0_0_1_n_n.rhsIdx (ix2 p q)
      ((contrEquiv1 dot_S2000x1024_S1024x60_S2000x60_1_0_0_1_n_n 1024 rfl rfl).symm k) = ix2 k q := by
    funext ax; apply Fin.ext
    match ax with
    | ⟨0, _⟩ => exact (rhs10_0 _ _).trans hk
    | ⟨1, _⟩ => exact rhs10_1 _ _
  show x0 (dot_S2000x1024_S1024x60_S2000x60_1_0_0_1_n_n.lhsIdx (ix2 p q) _) * x1 (dot_S2000x1024_S1024x60_S2000x60_1_0_0_1_n_n.rhsIdx (ix2 p q) _) = _
  rw [hl, hr]

/-! ## The whole-array function -/

/-- The matrix product of a 10000 x 10240 array and a 10240 x 60 array over the extended reals, entry by entry. -/
def G10 (a0 : FVec Ideal S10000x10240 .bf16) (a1 : FVec Ideal S10240x60 .f32) : FVec Ideal S10000x60 .f32 :=
  fun i => ∑ s : Fin 10240, a0 (ix2 (i 0) s) * a1 (ix2 s (i 1))

theorem G10_apply (a0 : FVec Ideal S10000x10240 .bf16) (a1 : FVec Ideal S10240x60 .f32) (i : Fin 10000) (j : Fin 60) :
    G10 a0 a1 (ix2 i j) = ∑ s : Fin 10240, a0 (ix2 i s) * a1 (ix2 s j) := rfl

/-- Run `s` of the contracted index (positions s * 1024 … s * 1024 + 1023) of entry (r, q) of the product; zero off the
    array and past the last run, so that it is a function of naturals. -/
def part10 (a0 : FVec Ideal S10000x10240 .bf16) (a1 : FVec Ideal S10240x60 .f32) (r : ℕ) (q : Fin 60) (s : ℕ) : EReal :=
  if h : r < 10000 ∧ s < 10 then
    ∑ k : Fin 1024, a0 (ix2 (⟨r, h.1⟩ : Fin 10000) (⟨s * 1024 + k.val, by have := k.isLt; omega⟩ : Fin 10240))
      * a1 (ix2 (⟨s * 1024 + k.val, by have := k.isLt; omega⟩ : Fin 10240) q)
  else 0

/-- The ten runs make up the entry of the product. -/
theorem sum_part10 (a0 : FVec Ideal S10000x10240 .bf16) (a1 : FVec Ideal S10240x60 .f32) (r : ℕ) (hr : r < 10000) (q : Fin 60) :
    ∑ s ∈ Finset.range 10, part10 a0 a1 r q s = G10 a0 a1 (ix2 (⟨r, hr⟩ : Fin 10000) q) := by
  rw [G10_apply, Cert.Spec.sum_blocks_10240, Finset.sum_range]
  refine Finset.sum_congr rfl fun s _ => ?_
  unfold part10
  rw [dif_pos ⟨hr, s.isLt⟩]

variable (V : (c : Dev nD) → (b : Ref sig .tc) → Buf (Elt Ideal) ((c : Thread nD τ).loc b))

/-- The two operand arrays as the region finds them, and their blocks at a point. -/
abbrev aarr10 (c : Dev nD) : FVec Ideal S10000x10240 .bf16 := V c (Pipeline.arrRef spec10 0)
abbrev harr10 (c : Dev nD) : FVec Ideal S10240x60 .f32 := V c (Pipeline.arrRef spec10 1)
abbrev ablk10 (c : Dev nD) (t : Fin cfg10.N) : FVec Ideal S2000x1024 .bf16 := iblk10 V c 0 t
abbrev hblk10 (c : Dev nD) (t : Fin cfg10.N) : FVec Ideal S1024x60 .f32 := iblk10 V c 1 t

/-! ## The blocks, read off the arrays -/

/-- The index maps, decided over the grid: the row block of the first operand and of the result is the point's
    number divided by the number of runs, the run is the remainder; the second operand's row block is the run; no
    column block moves. -/
theorem idx_facts10 : ∀ t : Fin cfg10.N, win10_0.index t (0 : Fin 2) = t.val / 10
    ∧ win10_0.index t (1 : Fin 2) = t.val % 10
    ∧ win10_1.index t (0 : Fin 2) = t.val % 10
    ∧ win10_1.index t (1 : Fin 2) = 0
    ∧ win10_2.index t (0 : Fin 2) = t.val / 10
    ∧ win10_2.index t (1 : Fin 2) = 0 :=
  (by decide +kernel : ∀ t : Fin grid10.N, _)

theorem lt_N10 (t : Fin cfg10.N) : t.val < 50 := lt_of_lt_of_eq t.isLt N_10

/-- A run of the first operand's block against the second's is that run of the product's entry. -/
theorem blocks10_apply (c : Dev nD) (t : Fin cfg10.N) (p : Fin 2000) (q : Fin 60) :
    ∑ k : Fin 1024, ablk10 V c t (ix2 p k) * hblk10 V c t (ix2 k q)
      = part10 (aarr10 V c) (harr10 V c) (t.val / 10 * 2000 + p.val) q (t.val % 10) := by
  obtain ⟨e0, e1, e2, e3, e4, e5⟩ := idx_facts10 t
  have hN := lt_N10 t
  have hr : t.val / 10 * 2000 + p.val < 10000 := by have := p.isLt; omega
  have hs : t.val % 10 < 10 := Nat.mod_lt _ (by decide)
  unfold part10
  rw [dif_pos ⟨hr, hs⟩]
  refine Finset.sum_congr rfl fun k _ => ?_
  have h0 : ((cfg10.win 0).blk t).view.emb (ix2 p k)
      = ix2 (⟨t.val / 10 * 2000 + p.val, hr⟩ : Fin 10000) (⟨t.val % 10 * 1024 + k.val, by have := k.isLt; omega⟩ : Fin 10240) := by
    funext a; apply Fin.ext
    match a with
    | ⟨0, _⟩ => show win10_0.index t (0 : Fin 2) * 2000 + 1 * p.val = t.val / 10 * 2000 + p.val; omega
    | ⟨1, _⟩ => show win10_0.index t (1 : Fin 2) * 1024 + 1 * k.val = t.val % 10 * 1024 + k.val; omega
  have h1 : ((cfg10.win 1).blk t).view.emb (ix2 k q)
      = ix2 (⟨t.val % 10 * 1024 + k.val, by have := k.isLt; omega⟩ : Fin 10240) q := by
    funext a; apply Fin.ext
    match a with
    | ⟨0, _⟩ => show win10_1.index t (0 : Fin 2) * 1024 + 1 * k.val = t.val % 10 * 1024 + k.val; omega
    | ⟨1, _⟩ => show win10_1.index t (1 : Fin 2) * 60 + 1 * q.val = q.val; omega
  exact congrArg₂ (fun a b : EReal => a * b) (congrArg (aarr10 V c) h0) (congrArg (harr10 V c) h1)

/-! ## The accumulator after each point -/

/-- THE INVARIANT.  After the body at point `t` the accumulator holds, at entry (p, q), the runs 0 … t % 10 of entry
    (t / 10 * 2000 + p, q) of the product: by induction on the point — a first step starts from zero, every other step
    adds its run to what the point before left, and the point before is in the same row block, one run earlier. -/
theorem scrAt10_apply (c : Dev nD) (t : Fin cfg10.N) (p : Fin 2000) (q : Fin 60) :
    scrAt10 (F := Ideal) V c t.val t.isLt (ix2 p q)
      = ∑ s ∈ Finset.range (t.val % 10 + 1), part10 (aarr10 V c) (harr10 V c) (t.val / 10 * 2000 + p.val) q s := by
  obtain ⟨n, hn⟩ := t
  induction n with
  | zero =>
    have h0 : (⟨0, hn⟩ : Fin cfg10.N).val % 10 = 0 := rfl
    have h1 : ¬(⟨0, hn⟩ : Fin cfg10.N).val % 10 = 9 := by show ¬(0 % 10 = 9); decide
    rw [scrAt10_A V c ⟨0, hn⟩ h0 h1, sout10_A_eq]
    refine (pay10_2_apply (ablk10 V c ⟨0, hn⟩) (hblk10 V c ⟨0, hn⟩) (k10_pay1 (F := Ideal)) p q).trans ?_
    rw [pay10_1_apply, zero_add, blocks10_apply V c ⟨0, hn⟩ p q]
    show _ = ∑ s ∈ Finset.range (0 % 10 + 1), _
    rw [show (0 % 10 + 1 : ℕ) = 1 from rfl, Finset.sum_range_one]
    rfl
  | succ n ih =>
    have hN : n + 1 < 50 := lt_N10 ⟨n + 1, hn⟩
    by_cases h0 : (n + 1) % 10 = 0
    · have h1 : ¬(n + 1) % 10 = 9 := by omega
      rw [scrAt10_A V c ⟨n + 1, hn⟩ h0 h1, sout10_A_eq]
      refine (pay10_2_apply (ablk10 V c ⟨n + 1, hn⟩) (hblk10 V c ⟨n + 1, hn⟩) (k10_pay1 (F := Ideal)) p q).trans ?_
      rw [pay10_1_apply, zero_add, blocks10_apply V c ⟨n + 1, hn⟩ p q]
      show part10 _ _ ((n + 1) / 10 * 2000 + p.val) q ((n + 1) % 10) = ∑ s ∈ Finset.range ((n + 1) % 10 + 1), _
      rw [h0, Finset.sum_range_one]
    · have ihn := ih (Nat.lt_of_succ_lt hn)
      have hd : n / 10 = (n + 1) / 10 := by omega
      have hm : n % 10 + 1 = (n + 1) % 10 := by omega
      have hstep : k10_pay2 (F := Ideal) (ablk10 V c ⟨n + 1, hn⟩) (hblk10 V c ⟨n + 1, hn⟩) (scrBefore10 V c ⟨n + 1, hn⟩) (ix2 p q)
          = ∑ s ∈ Finset.range ((n + 1) % 10 + 1), part10 (aarr10 V c) (harr10 V c) ((n + 1) / 10 * 2000 + p.val) q s := by
        refine (pay10_2_apply (ablk10 V c ⟨n + 1, hn⟩) (hblk10 V c ⟨n + 1, hn⟩) (scrBefore10 V c ⟨n + 1, hn⟩) p q).trans ?_
        rw [blocks10_apply V c ⟨n + 1, hn⟩ p q]
        rw [show scrBefore10 V c ⟨n + 1, hn⟩ (ix2 p q)
            = ∑ s ∈ Finset.range (n % 10 + 1), part10 (aarr10 V c) (harr10 V c) (n / 10 * 2000 + p.val) q s from ihn]
        show _ + part10 _ _ ((n + 1) / 10 * 2000 + p.val) q ((n + 1) % 10) = _
        rw [hd, ← hm, Finset.sum_range_succ _ (n % 10 + 1)]
      by_cases h1 : (n + 1) % 10 = 9
      · rw [scrAt10_C V c ⟨n + 1, hn⟩ h0 h1, sout10_C_eq]
        exact hstep
      · rw [scrAt10_B V c ⟨n + 1, hn⟩ h0 h1, sout10_B_eq]
        exact hstep

/-! ## From blocks to the array -/

/-- What a last step writes back is the accumulator as that step leaves it: block `t` of the product. -/
theorem flushed10_2_eq (c : Dev nD) (t : Fin cfg10.N) (hf : (cfg10.win 2).flush t = true) :
    (dat10 (F := Ideal) V c).flushed 2 t = ((cfg10.win 2).blk t).view.read (Elt Ideal) (G10 (aarr10 V c) (harr10 V c)) := by
  have h1 : t.val % 10 = 9 := (flush10_2 t).mp hf
  have h0 : ¬t.val % 10 = 0 := by omega
  show (cfg10.win 2).cut (grid10.coords t) ((dat10 (F := Ideal) V c).after 2 t) = _
  rw [after10_2, outAt10_C V c t h0 h1, out10_C_eq, ← sout10_C_eq c (grid10.coords t) (ms10_0 t) (hs10_0 t) (ms10_1 t) (hs10_1 t) (ms10_2 t) (hs10_2 t) scM10 (Memref.isWhole_whole _)
    (fun h => h0 ((hcond10_0 t).mp h)) ((hcond10_1 t).mpr h1), ← scrAt10_C V c t h0 h1]
  obtain ⟨e0, e1, e2, e3, e4, e5⟩ := idx_facts10 t
  have hN := lt_N10 t
  funext j
  obtain ⟨p, q, rfl⟩ : ∃ (p : Fin 2000) (q : Fin 60), j = ix2 p q := ⟨j 0, j 1, eq_ix2 j⟩
  have hr : t.val / 10 * 2000 + p.val < 10000 := by have := p.isLt; omega
  show scrAt10 (F := Ideal) V c t.val t.isLt (ix2 p q) = G10 (aarr10 V c) (harr10 V c) (((cfg10.win 2).blk t).view.emb (ix2 p q))
  rw [scrAt10_apply V c t p q, h1, sum_part10 _ _ _ hr]
  refine congrArg (G10 (aarr10 V c) (harr10 V c)) ?_
  funext a; apply Fin.ext
  match a with
  | ⟨0, _⟩ => show t.val / 10 * 2000 + p.val = win10_2.index t (0 : Fin 2) * 2000 + 1 * p.val; omega
  | ⟨1, _⟩ => show q.val = win10_2.index t (1 : Fin 2) * 60 + 1 * q.val; omega

/-- An index of the result is in point t's block iff each coordinate is in the block's range on its axis. -/
theorem mem_blk10_2 (t : Fin cfg10.N) (i : S10000x60.Idx) :
    i ∈ ((cfg10.win 2).blk t).view.set ↔ ∀ a : Fin 2, win10_2.index t a * S2000x60.size a ≤ (i a).val ∧ (i a).val < win10_2.index t a * S2000x60.size a + S2000x60.size a := by
  show i ∈ ((View.whole main_v106).slice (win10_2.rect t)).set ↔ _
  rw [View.set_slice_whole, Rect.mem_set_unit]
  exact Iff.rfl

/-- Every row block of the result is written back by some point (the last step of its row of the grid). -/
theorem idx_onto10 : ∀ q0 : Fin 5, ∃ t : Fin cfg10.N, (cfg10.win 2).flush t = true ∧ win10_2.index t = ![q0.val, 0] :=
  (by decide +kernel : ∀ q0 : Fin 5, ∃ t : Fin grid10.N, win10_2.flush t = true ∧ win10_2.index t = ![q0.val, 0])

/-- The row blocks tile the result: row r lies in the block of row block r / 2000. -/
theorem covered10_2 (i : S10000x60.Idx) :
    ∃ t : Fin cfg10.N, (cfg10.win 2).flush t = true ∧ i ∈ ((cfg10.win 2).blk t).view.set := by
  have hi0 : (i 0).val < 10000 := (i 0).isLt
  have hi1 : (i 1).val < 60 := (i 1).isLt
  obtain ⟨t, hft, ht⟩ := idx_onto10 ⟨(i 0).val / 2000, by omega⟩
  have q0 : win10_2.index t (0 : Fin 2) = (i 0).val / 2000 := congrFun ht 0
  have q1 : win10_2.index t (1 : Fin 2) = 0 := congrFun ht 1
  refine ⟨t, hft, ?_⟩
  rw [mem_blk10_2]
  intro a
  match a with
  | ⟨0, _⟩ => show win10_2.index t (0 : Fin 2) * 2000 ≤ (i 0).val ∧ (i 0).val < win10_2.index t (0 : Fin 2) * 2000 + 2000; omega
  | ⟨1, _⟩ => show win10_2.index t (1 : Fin 2) * 60 ≤ (i 1).val ∧ (i 1).val < win10_2.index t (1 : Fin 2) * 60 + 60; omega

/-- THE ARRAY the region leaves in its result window: the product of the two arrays it found. -/
theorem final10_2 (c : Dev nD) : (dat10 (F := Ideal) V c).arrAt 2 cfg10.N = G10 (aarr10 V c) (harr10 V c) :=
  (dat10 (F := Ideal) V c).arrAt_eq_of_cover 2 (G10 (aarr10 V c) (harr10 V c)) (fun t hf => flushed10_2_eq V c t hf) (covered10_2)

/-! ## Over the reals -/

/-- Where the two arrays hold real numbers, the result holds the real matrix product. -/
theorem final10_real (c : Dev nD) (ar : Fin 10000 → Fin 10240 → ℝ) (hr : Fin 10240 → Fin 60 → ℝ)
    (ha : ∀ i s, (V c (Pipeline.arrRef spec10 0) : S10000x10240.Idx → EReal) (ix2 i s) = ((ar i s : ℝ) : EReal))
    (hh : ∀ s j, (V c (Pipeline.arrRef spec10 1) : S10240x60.Idx → EReal) (ix2 s j) = ((hr s j : ℝ) : EReal))
    (i : Fin 10000) (j : Fin 60) :
    ((dat10 (F := Ideal) V c).arrAt 2 cfg10.N : S10000x60.Idx → EReal) (ix2 i j)
      = ((∑ s : Fin 10240, ar i s * hr s j : ℝ) : EReal) := by
  refine (congrFun (final10_2 V c) (ix2 i j)).trans ?_
  show (∑ s : Fin 10240, aarr10 V c (ix2 i s) * harr10 V c (ix2 s j) : EReal) = _
  rw [← Cert.LibCoe.sum_coe]
  refine Finset.sum_congr rfl fun s _ => ?_
  rw [← Cert.LibCoe.mul_coe]
  exact congrArg₂ (fun a b : EReal => a * b) (ha i s) (hh s j)

end Cert.KernelIdeal.HandV

end
-- ==== Proof.Val11.lean ====
import proofs.«408066_j62380105008311_2_alg».proof.Proof.Reg11
import proofs.«408066_j62380105008311_2_alg».proof.Proof.Spec
import proofs.«408066_j62380105008311_2_alg».proof.Proof.LibCoe
import proofs.«408066_j62380105008311_2_alg».proof.Proof.SpecLaws2
import Idealize.ShloMosaic.Lib.Pipeline.Value
import Idealize.ShloMosaic.Lib.ValueIdx
import Idealize.ShloMosaic.Lib.ValueLayout
import Idealize.ShloMosaic.PureOps.Ideal.Laws

/-!
# Pipeline 11 at the ideal values: the clamped biased rows, their column sums and column sums of squares

Each grid point writes back one row block of the first result: the bias row added to the matching row block and
clamped at zero. The row blocks tile the result, so the array the region leaves is that function of the two arrays it
found, entry by entry. The two one-row results are written back once, after the last point: each holds, per column,
the sum over the points of the block's column sum (of squares), from a zero start; the blocks partition the rows, so
that is the sum over all rows. Where the two arrays hold real numbers the three results hold the real clamped sum,
its column sums and its column sums of squares.
-/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## The three whole-array functions -/

/-- The rows plus the bias row, clamped at zero, entry by entry. -/
def relu11 (a0 : FVec Ideal S10000x60 .f32) (a1 : FVec Ideal S1x60 .f32) : FVec Ideal S10000x60 .f32 :=
  fun i => max (a0 i + a1 (ix2 (0 : Fin 1) (i 1))) (Ideal.ofBits .f32 0x00000000#32)

/-- Its column sums, as one row. -/
def colsum11 (a0 : FVec Ideal S10000x60 .f32) (a1 : FVec Ideal S1x60 .f32) : FVec Ideal S1x60 .f32 :=
  fun j => ∑ i : Fin 10000, relu11 a0 a1 (ix2 i (j 1))

/-- Its column sums of squares, as one row. -/
def colsumsq11 (a0 : FVec Ideal S10000x60 .f32) (a1 : FVec Ideal S1x60 .f32) : FVec Ideal S1x60 .f32 :=
  fun j => ∑ i : Fin 10000, relu11 a0 a1 (ix2 i (j 1)) * relu11 a0 a1 (ix2 i (j 1))

/-! ## The payloads at an entry -/

theorem hz11 : (![0, 0] : Fin 2 → Nat) = fun _ => 0 := funext fun a => by fin_cases a <;> rfl

/-- An index of a one-row array has row coordinate zero. -/
theorem row_idx11 (j : S1x60.Idx) : j = ix2 (0 : Fin 1) (j 1) := by
  funext a
  match a with
  | ⟨0, _⟩ => exact Fin.ext (by have h : (j 0).val < 1 := (j 0).isLt; show (j 0).val = 0; omega)
  | ⟨1, _⟩ => rfl

/-- The body's first payload at an entry of a block: the entry plus the bias at its column, clamped at zero. -/
theorem pay11_3_at (x0 : FVec Ideal S1000x60 .f32) (x1 : FVec Ideal S1x60 .f32) (j : S1000x60.Idx) :
    k11_pay3 (F := Ideal) x0 x1 j = max (x0 j + x1 (ix2 (0 : Fin 1) (j 1))) (Ideal.ofBits .f32 0x00000000#32) := by
  unfold k11_pay3
  simp only [shapeCast_self]
  rw [maximumf_apply, addf_apply, broadcast_apply,
    broadcastTo_apply x1 _ j (ix2 (0 : Fin 1) (j 1)) (fun ax => by
      match ax with
      | ⟨0, _⟩ => rfl
      | ⟨1, _⟩ => rfl)]
  rfl

/-- One update of the column-sum row at a column: what it held plus the block's column sum. -/
theorem pay11_4_at (x0 : FVec Ideal S1000x60 .f32) (x1 : FVec Ideal S1x60 .f32) (a : FVec Ideal S1x60 .f32) (q : Fin 60) :
    k11_pay4 (F := Ideal) x0 x1 a (ix2 (0 : Fin 1) q)
      = a (ix2 (0 : Fin 1) q) + ∑ p : Fin 1000, k11_pay3 (F := Ideal) x0 x1 (ix2 p q) := by
  unfold k11_pay4
  simp only [shapeCast_self]
  rw [addf_apply, shapeCast_a_1a_apply]
  refine congrArg (fun z : EReal => a (ix2 (0 : Fin 1) q) + z) ?_
  refine (Ideal.multiReduction_add_single (k11_pay3 (F := Ideal) x0 x1) 0x00000000#32 reduces_S1000x60_S60 _ _ (ix1 q)).trans ?_
  refine Finset.sum_congr rfl fun p _ => ?_
  refine congrArg (k11_pay3 (F := Ideal) x0 x1) ?_
  funext d; apply Fin.ext
  match d with
  | ⟨0, _⟩ => rfl
  | ⟨1, _⟩ => rfl

/-- One update of the column-sum-of-squares row at a column. -/
theorem pay11_5_at (x0 : FVec Ideal S1000x60 .f32) (x1 : FVec Ideal S1x60 .f32) (a : FVec Ideal S1x60 .f32) (q : Fin 60) :
    k11_pay5 (F := Ideal) x0 x1 a (ix2 (0 : Fin 1) q)
      = a (ix2 (0 : Fin 1) q) + ∑ p : Fin 1000, k11_pay3 (F := Ideal) x0 x1 (ix2 p q) * k11_pay3 (F := Ideal) x0 x1 (ix2 p q) := by
  unfold k11_pay5
  simp only [shapeCast_self]
  rw [addf_apply, shapeCast_a_1a_apply]
  refine congrArg (fun z : EReal => a (ix2 (0 : Fin 1) q) + z) ?_
  refine (Ideal.multiReduction_add_single (mulf (k11_pay3 (F := Ideal) x0 x1) (k11_pay3 (F := Ideal) x0 x1)) 0x00000000#32 reduces_S1000x60_S60 _ _ (ix1 q)).trans ?_
  refine Finset.sum_congr rfl fun p _ => ?_
  have e : reduces_S1000x60_S60.lift (ix1 q) p = ix2 p q := by
    funext d; apply Fin.ext
    match d with
    | ⟨0, _⟩ => rfl
    | ⟨1, _⟩ => rfl
  rw [mulf_apply, e]
  rfl

/-- The reset rows hold zero. -/
theorem zero11_3_at (j : S1x60.Idx) : zero11_3 (F := Ideal) j = 0 := by
  unfold zero11_3
  rw [View.canon_unit_zero hz11]
  exact Cert.LibCoe.ofBits_zero.trans EReal.coe_zero
theorem zero11_4_at (j : S1x60.Idx) : zero11_4 (F := Ideal) j = 0 := by
  unfold zero11_4
  rw [View.canon_unit_zero hz11]
  exact Cert.LibCoe.ofBits_zero.trans EReal.coe_zero

/-- A point's update of each running row, at a column. -/
theorem step11_3_at (x0 : FVec Ideal S1000x60 .f32) (x1 : FVec Ideal S1x60 .f32) (a : FVec Ideal S1x60 .f32) (q : Fin 60) :
    step11_3 (F := Ideal) x0 x1 a (ix2 (0 : Fin 1) q)
      = a (ix2 (0 : Fin 1) q) + ∑ p : Fin 1000, k11_pay3 (F := Ideal) x0 x1 (ix2 p q) := by
  unfold step11_3
  rw [View.canon_unit_zero hz11]
  simp only [View.ld_unit_zero (S := S1000x60) hz11, View.ld_unit_zero (S := S1x60) hz11]
  exact pay11_4_at x0 x1 a q
theorem step11_4_at (x0 : FVec Ideal S1000x60 .f32) (x1 : FVec Ideal S1x60 .f32) (a : FVec Ideal S1x60 .f32) (q : Fin 60) :
    step11_4 (F := Ideal) x0 x1 a (ix2 (0 : Fin 1) q)
      = a (ix2 (0 : Fin 1) q) + ∑ p : Fin 1000, k11_pay3 (F := Ideal) x0 x1 (ix2 p q) * k11_pay3 (F := Ideal) x0 x1 (ix2 p q) := by
  unfold step11_4
  rw [View.canon_unit_zero hz11]
  simp only [View.ld_unit_zero (S := S1000x60) hz11, View.ld_unit_zero (S := S1x60) hz11]
  exact pay11_5_at x0 x1 a q
variable (V : (c : Dev nD) → (b : Ref sig .tc) → Buf (Elt Ideal) ((c : Thread nD τ).loc b))

/-- The two operand arrays as the region finds them. -/
abbrev xarr11 (c : Dev nD) : FVec Ideal S10000x60 .f32 := V c (Pipeline.arrRef spec11 0)
abbrev barr11 (c : Dev nD) : FVec Ideal S1x60 .f32 := V c (Pipeline.arrRef spec11 1)

/-! ## From blocks to the arrays -/

/-- The index maps, decided over the grid: the rows' block and the first result's block are the point's, nothing
    moves along the columns, and the bias row and the two one-row results never move. -/
theorem idx_facts11 : ∀ t : Fin cfg11.N, win11_0.index t (0 : Fin 2) = t.val
    ∧ win11_0.index t (1 : Fin 2) = 0
    ∧ win11_1.index t (0 : Fin 2) = 0
    ∧ win11_1.index t (1 : Fin 2) = 0
    ∧ win11_2.index t (0 : Fin 2) = t.val
    ∧ win11_2.index t (1 : Fin 2) = 0
    ∧ win11_3.index t (0 : Fin 2) = 0
    ∧ win11_3.index t (1 : Fin 2) = 0
    ∧ win11_4.index t (0 : Fin 2) = 0
    ∧ win11_4.index t (1 : Fin 2) = 0 :=
  (by decide +kernel : ∀ t : Fin grid11.N, _)

/-- Row `p` of point `t`'s block is row `t · 1000 + p` of the array. -/
def row11 (t : Fin cfg11.N) (p : Fin 1000) : Fin 10000 :=
  ⟨t.val * 1000 + p.val, by have h : t.val < 10 := lt_of_lt_of_eq t.isLt N_11; have := p.isLt; omega⟩

theorem blk11_0_emb (t : Fin cfg11.N) (p : Fin 1000) (q : Fin 60) :
    ((cfg11.win 0).blk t).view.emb (ix2 p q) = ix2 (row11 t p) q := by
  obtain ⟨e0, e1, -⟩ := idx_facts11 t
  funext a; apply Fin.ext
  match a with
  | ⟨0, _⟩ => show win11_0.index t (0 : Fin 2) * 1000 + 1 * p.val = t.val * 1000 + p.val; omega
  | ⟨1, _⟩ => show win11_0.index t (1 : Fin 2) * 60 + 1 * q.val = q.val; omega

theorem blk11_1_emb (t : Fin cfg11.N) (q : Fin 60) :
    ((cfg11.win 1).blk t).view.emb (ix2 (0 : Fin 1) q) = ix2 (0 : Fin 1) q := by
  obtain ⟨-, -, e2, e3, -⟩ := idx_facts11 t
  funext a; apply Fin.ext
  match a with
  | ⟨0, _⟩ => show win11_1.index t (0 : Fin 2) * 1 + 1 * 0 = 0; omega
  | ⟨1, _⟩ => show win11_1.index t (1 : Fin 2) * 60 + 1 * q.val = q.val; omega

/-- The body's first payload on point `t`'s blocks, at `(p, q)`: the whole-array function at row `t · 1000 + p`. -/
theorem block11_at (c : Dev nD) (t : Fin cfg11.N) (p : Fin 1000) (q : Fin 60) :
    k11_pay3 (F := Ideal) (iblk11 V c 0 t) (iblk11 V c 1 t) (ix2 p q) = relu11 (xarr11 V c) (barr11 V c) (ix2 (row11 t p) q) := by
  refine (pay11_3_at _ _ (ix2 p q)).trans ?_
  exact congrArg₂ (fun a b : EReal => max (a + b) (Ideal.ofBits .f32 0x00000000#32))
    (congrArg (xarr11 V c) (blk11_0_emb t p q)) (congrArg (barr11 V c) (blk11_1_emb t q))

/-! ### The first result: its row blocks tile it -/

/-- What point `t` writes back is block `t` of the clamped sum of the two arrays. -/
theorem flushed11_2_eq (c : Dev nD) (t : Fin cfg11.N) :
    (dat11 (F := Ideal) V c).flushed 2 t = ((cfg11.win 2).blk t).view.read (Elt Ideal) (relu11 (xarr11 V c) (barr11 V c)) := by
  show (cfg11.win 2).cut (grid11.coords t) ((dat11 (F := Ideal) V c).after 2 t) = _
  rw [after11_2]
  unfold out11_2
  rw [View.canon_unit_zero hz11]
  simp only [View.ld_unit_zero (S := S1000x60) hz11, View.ld_unit_zero (S := S1x60) hz11]
  obtain ⟨e0, e1, e2, e3, e4, e5, -⟩ := idx_facts11 t
  funext j
  show k11_pay3 (F := Ideal) (iblk11 V c 0 t) (iblk11 V c 1 t) j = relu11 (xarr11 V c) (barr11 V c) (((cfg11.win 2).blk t).view.emb j)
  refine (pay11_3_at _ _ j).trans ?_
  have h0 : ((cfg11.win 0).blk t).view.emb j = ((cfg11.win 2).blk t).view.emb j := by
    funext a; apply Fin.ext
    match a with
    | ⟨0, _⟩ => show win11_0.index t (0 : Fin 2) * 1000 + 1 * (j 0).val = win11_2.index t (0 : Fin 2) * 1000 + 1 * (j 0).val; omega
    | ⟨1, _⟩ => show win11_0.index t (1 : Fin 2) * 60 + 1 * (j 1).val = win11_2.index t (1 : Fin 2) * 60 + 1 * (j 1).val; omega
  have h1 : ((cfg11.win 1).blk t).view.emb (ix2 (0 : Fin 1) (j 1)) = ix2 (0 : Fin 1) ((((cfg11.win 2).blk t).view.emb j) 1) := by
    funext a; apply Fin.ext
    match a with
    | ⟨0, _⟩ => show win11_1.index t (0 : Fin 2) * 1 + 1 * 0 = 0; omega
    | ⟨1, _⟩ => show win11_1.index t (1 : Fin 2) * 60 + 1 * (j 1).val = win11_2.index t (1 : Fin 2) * 60 + 1 * (j 1).val; omega
  exact congrArg₂ (fun a b : EReal => max (a + b) (Ideal.ofBits .f32 0x00000000#32))
    (congrArg (xarr11 V c) h0) (congrArg (barr11 V c) h1)

/-- An index of the first result is in point `t`'s block iff each coordinate is in the block's range on its axis. -/
theorem mem_blk11_2 (t : Fin cfg11.N) (i : S10000x60.Idx) :
    i ∈ ((cfg11.win 2).blk t).view.set ↔ ∀ a : Fin 2, win11_2.index t a * S1000x60.size a ≤ (i a).val ∧ (i a).val < win11_2.index t a * S1000x60.size a + S1000x60.size a := by
  show i ∈ ((View.whole (Pipeline.arrRef spec11 2)).slice (win11_2.rect t)).set ↔ _
  rw [View.set_slice_whole, Rect.mem_set_unit]
  exact Iff.rfl

/-- Every row block of the first result is some point's. -/
theorem idx_onto11 : ∀ q0 : Fin 10, ∃ t : Fin cfg11.N, win11_2.index t = ![q0.val, 0] :=
  (by decide +kernel : ∀ q0 : Fin 10, ∃ t : Fin grid11.N, win11_2.index t = ![q0.val, 0])

/-- The row blocks tile the first result: row `r` lies in the block of point `r / 1000`. -/
theorem covered11_2 (i : S10000x60.Idx) :
    ∃ t : Fin cfg11.N, (cfg11.win 2).flush t = true ∧ i ∈ ((cfg11.win 2).blk t).view.set := by
  have hi0 : (i 0).val < 10000 := (i 0).isLt
  have hi1 : (i 1).val < 60 := (i 1).isLt
  obtain ⟨t, ht⟩ := idx_onto11 ⟨(i 0).val / 1000, by omega⟩
  have q0 : win11_2.index t (0 : Fin 2) = (i 0).val / 1000 := congrFun ht 0
  have q1 : win11_2.index t (1 : Fin 2) = 0 := congrFun ht 1
  refine ⟨t, flush11_2 t, ?_⟩
  rw [mem_blk11_2]
  intro a
  match a with
  | ⟨0, _⟩ => show win11_2.index t (0 : Fin 2) * 1000 ≤ (i 0).val ∧ (i 0).val < win11_2.index t (0 : Fin 2) * 1000 + 1000; omega
  | ⟨1, _⟩ => show win11_2.index t (1 : Fin 2) * 60 ≤ (i 1).val ∧ (i 1).val < win11_2.index t (1 : Fin 2) * 60 + 60; omega

/-- THE ARRAY the region leaves in its first result window. -/
theorem final11_2 (c : Dev nD) : (dat11 (F := Ideal) V c).arrAt 2 cfg11.N = relu11 (xarr11 V c) (barr11 V c) :=
  (dat11 (F := Ideal) V c).arrAt_eq_of_cover 2 (relu11 (xarr11 V c) (barr11 V c)) (fun t _ => flushed11_2_eq V c t) covered11_2

/-! ### The two running rows: a sum over the points -/

/-- Point `s`'s addend to the column sums at column `q`: its block's column sum (zero past the grid), -/
def add11_3 (a0 : FVec Ideal S10000x60 .f32) (a1 : FVec Ideal S1x60 .f32) (s : ℕ) (q : Fin 60) : EReal :=
  if h : s < 10 then ∑ p : Fin 1000, relu11 a0 a1 (ix2 (⟨s * 1000 + p.val, by have := p.isLt; omega⟩ : Fin 10000) q) else 0
/-- and to the column sums of squares. -/
def add11_4 (a0 : FVec Ideal S10000x60 .f32) (a1 : FVec Ideal S1x60 .f32) (s : ℕ) (q : Fin 60) : EReal :=
  if h : s < 10 then ∑ p : Fin 1000, relu11 a0 a1 (ix2 (⟨s * 1000 + p.val, by have := p.isLt; omega⟩ : Fin 10000) q)
      * relu11 a0 a1 (ix2 (⟨s * 1000 + p.val, by have := p.isLt; omega⟩ : Fin 10000) q) else 0

/-- The column sum of point `t`'s clamped block is its addend. -/
theorem point11_3 (c : Dev nD) (t : Fin cfg11.N) (q : Fin 60) :
    ∑ p : Fin 1000, k11_pay3 (F := Ideal) (iblk11 V c 0 t) (iblk11 V c 1 t) (ix2 p q) = add11_3 (xarr11 V c) (barr11 V c) t.val q := by
  unfold add11_3
  rw [dif_pos (lt_of_lt_of_eq t.isLt N_11)]
  exact Finset.sum_congr rfl fun p _ => block11_at V c t p q
theorem point11_4 (c : Dev nD) (t : Fin cfg11.N) (q : Fin 60) :
    ∑ p : Fin 1000, k11_pay3 (F := Ideal) (iblk11 V c 0 t) (iblk11 V c 1 t) (ix2 p q) * k11_pay3 (F := Ideal) (iblk11 V c 0 t) (iblk11 V c 1 t) (ix2 p q)
      = add11_4 (xarr11 V c) (barr11 V c) t.val q := by
  unfold add11_4
  rw [dif_pos (lt_of_lt_of_eq t.isLt N_11)]
  exact Finset.sum_congr rfl fun p _ => congrArg₂ (fun a b : EReal => a * b) (block11_at V c t p q) (block11_at V c t p q)

/-- After the body at position `n` each running row holds the sum of the addends of points `0 … n`. -/
theorem acc11_3_eq (c : Dev nD) : ∀ (n : ℕ) (hn : n < cfg11.N) (q : Fin 60),
    acc11_3 (F := Ideal) V c n hn (ix2 (0 : Fin 1) q) = ∑ s ∈ Finset.range (n + 1), add11_3 (xarr11 V c) (barr11 V c) s q
  | 0, hn, q => by
    refine (step11_3_at _ _ _ q).trans ?_
    rw [zero11_3_at, zero_add, Finset.sum_range_one]
    exact point11_3 V c ⟨0, hn⟩ q
  | n + 1, hn, q => by
    refine (step11_3_at _ _ _ q).trans ?_
    rw [Finset.sum_range_succ]
    exact congrArg₂ (fun a b : EReal => a + b) (acc11_3_eq c n (Nat.lt_of_succ_lt hn) q) (point11_3 V c ⟨n + 1, hn⟩ q)
theorem acc11_4_eq (c : Dev nD) : ∀ (n : ℕ) (hn : n < cfg11.N) (q : Fin 60),
    acc11_4 (F := Ideal) V c n hn (ix2 (0 : Fin 1) q) = ∑ s ∈ Finset.range (n + 1), add11_4 (xarr11 V c) (barr11 V c) s q
  | 0, hn, q => by
    refine (step11_4_at _ _ _ q).trans ?_
    rw [zero11_4_at, zero_add, Finset.sum_range_one]
    exact point11_4 V c ⟨0, hn⟩ q
  | n + 1, hn, q => by
    refine (step11_4_at _ _ _ q).trans ?_
    rw [Finset.sum_range_succ]
    exact congrArg₂ (fun a b : EReal => a + b) (acc11_4_eq c n (Nat.lt_of_succ_lt hn) q) (point11_4 V c ⟨n + 1, hn⟩ q)

/-- The addends of all the points make the sum over all the rows: the blocks partition the rows. -/
theorem sum_add11_3 (a0 : FVec Ideal S10000x60 .f32) (a1 : FVec Ideal S1x60 .f32) (q : Fin 60) :
    ∑ s ∈ Finset.range 10, add11_3 a0 a1 s q = ∑ i : Fin 10000, relu11 a0 a1 (ix2 i q) := by
  rw [Finset.sum_range, Cert.Spec.sum_blocks_10000 (fun i => relu11 a0 a1 (ix2 i q))]
  refine Finset.sum_congr rfl fun u _ => ?_
  unfold add11_3
  rw [dif_pos u.isLt]
theorem sum_add11_4 (a0 : FVec Ideal S10000x60 .f32) (a1 : FVec Ideal S1x60 .f32) (q : Fin 60) :
    ∑ s ∈ Finset.range 10, add11_4 a0 a1 s q = ∑ i : Fin 10000, relu11 a0 a1 (ix2 i q) * relu11 a0 a1 (ix2 i q) := by
  rw [Finset.sum_range, Cert.Spec.sum_blocks_10000 (fun i => relu11 a0 a1 (ix2 i q) * relu11 a0 a1 (ix2 i q))]
  refine Finset.sum_congr rfl fun u _ => ?_
  unfold add11_4
  rw [dif_pos u.isLt]

/-- What the last point writes back of the column-sum row is the column sums of the clamped sum of the two arrays. -/
theorem flushed11_3_eq (c : Dev nD) (t : Fin cfg11.N) (hf : (cfg11.win 3).flush t = true) :
    (dat11 (F := Ideal) V c).flushed 3 t = ((cfg11.win 3).blk t).view.read (Elt Ideal) (colsum11 (xarr11 V c) (barr11 V c)) := by
  have h9 : t.val % 10 = 9 := (flush11_3 t).mp hf
  have hN : t.val < 10 := lt_of_lt_of_eq t.isLt N_11
  obtain ⟨-, -, -, -, -, -, e6, e7, -⟩ := idx_facts11 t
  show (cfg11.win 3).cut (grid11.coords t) ((dat11 (F := Ideal) V c).after 3 t) = _
  rw [after11_3]
  funext j
  show acc11_3 (F := Ideal) V c t.val t.isLt j = colsum11 (xarr11 V c) (barr11 V c) (((cfg11.win 3).blk t).view.emb j)
  have e1 : ((((cfg11.win 3).blk t).view.emb j) 1 : Fin 60) = j 1 :=
    Fin.ext (by show win11_3.index t (1 : Fin 2) * 60 + 1 * (j 1).val = (j 1).val; omega)
  calc acc11_3 (F := Ideal) V c t.val t.isLt j
      = acc11_3 (F := Ideal) V c t.val t.isLt (ix2 (0 : Fin 1) (j 1)) := congrArg _ (row_idx11 j)
    _ = ∑ s ∈ Finset.range (t.val + 1), add11_3 (xarr11 V c) (barr11 V c) s (j 1) := acc11_3_eq V c t.val t.isLt (j 1)
    _ = ∑ s ∈ Finset.range 10, add11_3 (xarr11 V c) (barr11 V c) s (j 1) := by rw [show t.val + 1 = 10 by omega]
    _ = ∑ i : Fin 10000, relu11 (xarr11 V c) (barr11 V c) (ix2 i (j 1)) := sum_add11_3 _ _ _
    _ = colsum11 (xarr11 V c) (barr11 V c) (((cfg11.win 3).blk t).view.emb j) := by unfold colsum11; rw [e1]
theorem flushed11_4_eq (c : Dev nD) (t : Fin cfg11.N) (hf : (cfg11.win 4).flush t = true) :
    (dat11 (F := Ideal) V c).flushed 4 t = ((cfg11.win 4).blk t).view.read (Elt Ideal) (colsumsq11 (xarr11 V c) (barr11 V c)) := by
  have h9 : t.val % 10 = 9 := (flush11_4 t).mp hf
  have hN : t.val < 10 := lt_of_lt_of_eq t.isLt N_11
  obtain ⟨-, -, -, -, -, -, -, -, e8, e9⟩ := idx_facts11 t
  show (cfg11.win 4).cut (grid11.coords t) ((dat11 (F := Ideal) V c).after 4 t) = _
  rw [after11_4]
  funext j
  show acc11_4 (F := Ideal) V c t.val t.isLt j = colsumsq11 (xarr11 V c) (barr11 V c) (((cfg11.win 4).blk t).view.emb j)
  have e1 : ((((cfg11.win 4).blk t).view.emb j) 1 : Fin 60) = j 1 :=
    Fin.ext (by show win11_4.index t (1 : Fin 2) * 60 + 1 * (j 1).val = (j 1).val; omega)
  calc acc11_4 (F := Ideal) V c t.val t.isLt j
      = acc11_4 (F := Ideal) V c t.val t.isLt (ix2 (0 : Fin 1) (j 1)) := congrArg _ (row_idx11 j)
    _ = ∑ s ∈ Finset.range (t.val + 1), add11_4 (xarr11 V c) (barr11 V c) s (j 1) := acc11_4_eq V c t.val t.isLt (j 1)
    _ = ∑ s ∈ Finset.range 10, add11_4 (xarr11 V c) (barr11 V c) s (j 1) := by rw [show t.val + 1 = 10 by omega]
    _ = ∑ i : Fin 10000, relu11 (xarr11 V c) (barr11 V c) (ix2 i (j 1)) * relu11 (xarr11 V c) (barr11 V c) (ix2 i (j 1)) := sum_add11_4 _ _ _
    _ = colsumsq11 (xarr11 V c) (barr11 V c) (((cfg11.win 4).blk t).view.emb j) := by unfold colsumsq11; rw [e1]

/-- An index of a one-row result is in a point's block iff each coordinate is in the block's range on its axis. -/
theorem mem_blk11_3 (t : Fin cfg11.N) (i : S1x60.Idx) :
    i ∈ ((cfg11.win 3).blk t).view.set ↔ ∀ a : Fin 2, win11_3.index t a * S1x60.size a ≤ (i a).val ∧ (i a).val < win11_3.index t a * S1x60.size a + S1x60.size a := by
  show i ∈ ((View.whole (Pipeline.arrRef spec11 3)).slice (win11_3.rect t)).set ↔ _
  rw [View.set_slice_whole, Rect.mem_set_unit]
  exact Iff.rfl
theorem mem_blk11_4 (t : Fin cfg11.N) (i : S1x60.Idx) :
    i ∈ ((cfg11.win 4).blk t).view.set ↔ ∀ a : Fin 2, win11_4.index t a * S1x60.size a ≤ (i a).val ∧ (i a).val < win11_4.index t a * S1x60.size a + S1x60.size a := by
  show i ∈ ((View.whole (Pipeline.arrRef spec11 4)).slice (win11_4.rect t)).set ↔ _
  rw [View.set_slice_whole, Rect.mem_set_unit]
  exact Iff.rfl

/-- The last point's block is the whole row, and it is written back. -/
theorem covered11_3 (i : S1x60.Idx) :
    ∃ t : Fin cfg11.N, (cfg11.win 3).flush t = true ∧ i ∈ ((cfg11.win 3).blk t).view.set := by
  have hi0 : (i 0).val < 1 := (i 0).isLt
  have hi1 : (i 1).val < 60 := (i 1).isLt
  obtain ⟨-, -, -, -, -, -, e6, e7, -⟩ := idx_facts11 t11_9
  refine ⟨t11_9, (flush11_3 t11_9).mpr rfl, ?_⟩
  rw [mem_blk11_3]
  intro a
  match a with
  | ⟨0, _⟩ => show win11_3.index t11_9 (0 : Fin 2) * 1 ≤ (i 0).val ∧ (i 0).val < win11_3.index t11_9 (0 : Fin 2) * 1 + 1; omega
  | ⟨1, _⟩ => show win11_3.index t11_9 (1 : Fin 2) * 60 ≤ (i 1).val ∧ (i 1).val < win11_3.index t11_9 (1 : Fin 2) * 60 + 60; omega
theorem covered11_4 (i : S1x60.Idx) :
    ∃ t : Fin cfg11.N, (cfg11.win 4).flush t = true ∧ i ∈ ((cfg11.win 4).blk t).view.set := by
  have hi0 : (i 0).val < 1 := (i 0).isLt
  have hi1 : (i 1).val < 60 := (i 1).isLt
  obtain ⟨-, -, -, -, -, -, -, -, e8, e9⟩ := idx_facts11 t11_9
  refine ⟨t11_9, (flush11_4 t11_9).mpr rfl, ?_⟩
  rw [mem_blk11_4]
  intro a
  match a with
  | ⟨0, _⟩ => show win11_4.index t11_9 (0 : Fin 2) * 1 ≤ (i 0).val ∧ (i 0).val < win11_4.index t11_9 (0 : Fin 2) * 1 + 1; omega
  | ⟨1, _⟩ => show win11_4.index t11_9 (1 : Fin 2) * 60 ≤ (i 1).val ∧ (i 1).val < win11_4.index t11_9 (1 : Fin 2) * 60 + 60; omega

/-- THE ROW the region leaves in its second result window: the column sums. -/
theorem final11_3 (c : Dev nD) : (dat11 (F := Ideal) V c).arrAt 3 cfg11.N = colsum11 (xarr11 V c) (barr11 V c) :=
  (dat11 (F := Ideal) V c).arrAt_eq_of_cover 3 (colsum11 (xarr11 V c) (barr11 V c)) (fun t hf => flushed11_3_eq V c t hf) covered11_3

/-- THE ROW it leaves in its third result window: the column sums of squares. -/
theorem final11_4 (c : Dev nD) : (dat11 (F := Ideal) V c).arrAt 4 cfg11.N = colsumsq11 (xarr11 V c) (barr11 V c) :=
  (dat11 (F := Ideal) V c).arrAt_eq_of_cover 4 (colsumsq11 (xarr11 V c) (barr11 V c)) (fun t hf => flushed11_4_eq V c t hf) covered11_4

/-! ## Over the reals -/

/-- Where the two arrays hold real numbers, the clamped sum is the real one at every entry. -/
theorem relu11_real (c : Dev nD) (ar : Fin 10000 → Fin 60 → ℝ) (br : Fin 60 → ℝ)
    (hx : ∀ i k, (V c (Pipeline.arrRef spec11 0) : S10000x60.Idx → EReal) (ix2 i k) = ((ar i k : ℝ) : EReal))
    (hb : ∀ k, (V c (Pipeline.arrRef spec11 1) : S1x60.Idx → EReal) (ix2 (0 : Fin 1) k) = ((br k : ℝ) : EReal))
    (i : Fin 10000) (f : Fin 60) :
    relu11 (xarr11 V c) (barr11 V c) (ix2 i f) = ((Cert.Spec.relu (Cert.Spec.addBias ar br) i f : ℝ) : EReal) := by
  show max (xarr11 V c (ix2 i f) + barr11 V c (ix2 (0 : Fin 1) f)) (Ideal.ofBits .f32 0x00000000#32) = ((max (ar i f + br f) 0 : ℝ) : EReal)
  rw [← Cert.LibCoe.max_coe, ← Cert.LibCoe.add_coe, Cert.LibCoe.ofBits_zero]
  exact congrArg₂ (fun a b : EReal => max (a + b) ((0 : ℝ) : EReal)) (hx i f) (hb f)

/-- Where the two arrays hold real numbers, the first result holds the real clamped sum, -/
theorem final11_real_2 (c : Dev nD) (ar : Fin 10000 → Fin 60 → ℝ) (br : Fin 60 → ℝ)
    (hx : ∀ i k, (V c (Pipeline.arrRef spec11 0) : S10000x60.Idx → EReal) (ix2 i k) = ((ar i k : ℝ) : EReal))
    (hb : ∀ k, (V c (Pipeline.arrRef spec11 1) : S1x60.Idx → EReal) (ix2 (0 : Fin 1) k) = ((br k : ℝ) : EReal)) :
    ∀ i f, ((dat11 (F := Ideal) V c).arrAt 2 cfg11.N : S10000x60.Idx → EReal) (ix2 i f)
      = ((Cert.Spec.relu (Cert.Spec.addBias ar br) i f : ℝ) : EReal) := by
  intro i f
  exact (congrFun (final11_2 V c) (ix2 i f)).trans (relu11_real V c ar br hx hb i f)

/-- the second its column sums, -/
theorem final11_real_3 (c : Dev nD) (ar : Fin 10000 → Fin 60 → ℝ) (br : Fin 60 → ℝ)
    (hx : ∀ i k, (V c (Pipeline.arrRef spec11 0) : S10000x60.Idx → EReal) (ix2 i k) = ((ar i k : ℝ) : EReal))
    (hb : ∀ k, (V c (Pipeline.arrRef spec11 1) : S1x60.Idx → EReal) (ix2 (0 : Fin 1) k) = ((br k : ℝ) : EReal)) :
    ∀ f, ((dat11 (F := Ideal) V c).arrAt 3 cfg11.N : S1x60.Idx → EReal) (ix2 (0 : Fin 1) f)
      = ((Cert.Spec.colSum (Cert.Spec.relu (Cert.Spec.addBias ar br)) f : ℝ) : EReal) := by
  intro f
  refine (congrFun (final11_3 V c) (ix2 (0 : Fin 1) f)).trans ?_
  show (∑ i : Fin 10000, relu11 (xarr11 V c) (barr11 V c) (ix2 i f) : EReal)
    = ((∑ i : Fin 10000, Cert.Spec.relu (Cert.Spec.addBias ar br) i f : ℝ) : EReal)
  rw [← Cert.LibCoe.sum_coe]
  exact Finset.sum_congr rfl fun i _ => relu11_real V c ar br hx hb i f

/-- the third its column sums of squares. -/
theorem final11_real_4 (c : Dev nD) (ar : Fin 10000 → Fin 60 → ℝ) (br : Fin 60 → ℝ)
    (hx : ∀ i k, (V c (Pipeline.arrRef spec11 0) : S10000x60.Idx → EReal) (ix2 i k) = ((ar i k : ℝ) : EReal))
    (hb : ∀ k, (V c (Pipeline.arrRef spec11 1) : S1x60.Idx → EReal) (ix2 (0 : Fin 1) k) = ((br k : ℝ) : EReal)) :
    ∀ f, ((dat11 (F := Ideal) V c).arrAt 4 cfg11.N : S1x60.Idx → EReal) (ix2 (0 : Fin 1) f)
      = ((Cert.Spec.colSumSq (Cert.Spec.relu (Cert.Spec.addBias ar br)) f : ℝ) : EReal) := by
  intro f
  refine (congrFun (final11_4 V c) (ix2 (0 : Fin 1) f)).trans ?_
  show (∑ i : Fin 10000, relu11 (xarr11 V c) (barr11 V c) (ix2 i f) * relu11 (xarr11 V c) (barr11 V c) (ix2 i f) : EReal)
    = ((∑ i : Fin 10000, Cert.Spec.relu (Cert.Spec.addBias ar br) i f * Cert.Spec.relu (Cert.Spec.addBias ar br) i f : ℝ) : EReal)
  rw [← Cert.LibCoe.sum_coe]
  refine Finset.sum_congr rfl fun i _ => ?_
  rw [← Cert.LibCoe.mul_coe]
  exact congrArg₂ (fun a b : EReal => a * b) (relu11_real V c ar br hx hb i f) (relu11_real V c ar br hx hb i f)

/-- The three together. -/
theorem final11_real (c : Dev nD) (ar : Fin 10000 → Fin 60 → ℝ) (br : Fin 60 → ℝ)
    (hx : ∀ i k, (V c (Pipeline.arrRef spec11 0) : S10000x60.Idx → EReal) (ix2 i k) = ((ar i k : ℝ) : EReal))
    (hb : ∀ k, (V c (Pipeline.arrRef spec11 1) : S1x60.Idx → EReal) (ix2 (0 : Fin 1) k) = ((br k : ℝ) : EReal)) :
    (∀ i f, ((dat11 (F := Ideal) V c).arrAt 2 cfg11.N : S10000x60.Idx → EReal) (ix2 i f)
        = ((Cert.Spec.relu (Cert.Spec.addBias ar br) i f : ℝ) : EReal))
    ∧ (∀ f, ((dat11 (F := Ideal) V c).arrAt 3 cfg11.N : S1x60.Idx → EReal) (ix2 (0 : Fin 1) f)
        = ((Cert.Spec.colSum (Cert.Spec.relu (Cert.Spec.addBias ar br)) f : ℝ) : EReal))
    ∧ (∀ f, ((dat11 (F := Ideal) V c).arrAt 4 cfg11.N : S1x60.Idx → EReal) (ix2 (0 : Fin 1) f)
        = ((Cert.Spec.colSumSq (Cert.Spec.relu (Cert.Spec.addBias ar br)) f : ℝ) : EReal)) :=
  ⟨final11_real_2 V c ar br hx hb, final11_real_3 V c ar br hx hb, final11_real_4 V c ar br hx hb⟩

end Cert.KernelIdeal.HandV

end
-- ==== Proof.Val12.lean ====
import proofs.«408066_j62380105008311_2_alg».proof.Proof.Reg12
import proofs.«408066_j62380105008311_2_alg».proof.Proof.Spec
import proofs.«408066_j62380105008311_2_alg».proof.Proof.LibCoe
import Idealize.ShloMosaic.Lib.Pipeline.Value
import Idealize.ShloMosaic.Lib.ValueIdx
import Idealize.ShloMosaic.Lib.ValueLayout
import Idealize.ShloMosaic.PureOps.Ideal.Laws

/-! # Region 12 at the ideal instance: what the region leaves in its output array

Each grid point writes back one block of rows: rows of the normalised activations — (x − mean) · rsqrt(variance + ε)
· scale + shift, the four feature rows broadcast along the rows — times the whole weight matrix. Row `i` of the
output therefore depends on row `i` of the activations alone, the blocks are the restrictions of ONE whole-array
function, and they tile the array. Over real entry arrays with every variance + ε positive, that function is the
real dense product of the normalised activations with the weights. -/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-- The sizes: rows of the whole arrays, rows of a block, the input and the output feature widths. -/
abbrev nRows12 : ℕ := 10000
abbrev bRows12 : ℕ := 1000
abbrev wIn12 : ℕ := 60
abbrev wOut12 : ℕ := 17

/-! ## The block product at an index -/

/-- The matrix product's operand indices, axis by axis: the left operand is read at the output's row and the
    contraction position, the right operand at the contraction position and the output's column. -/
theorem lhs12_0 (j : S1000x17.Idx) (k : dot_S1000x60_S60x17_S1000x17_1_0_0_1_n_n.contr.Idx) :
    (dot_S1000x60_S60x17_S1000x17_1_0_0_1_n_n.lhsIdx j k 0).val = (j 0).val := by
  unfold DotDims.lhsIdx
  rw [dif_neg (show ¬(0 : Fin S1000x60.rank) ∈ dot_S1000x60_S60x17_S1000x17_1_0_0_1_n_n.lhsBatch by decide),
    dif_pos (show (0 : Fin S1000x60.rank) ∈ dot_S1000x60_S60x17_S1000x17_1_0_0_1_n_n.lhsNonContracting by decide)]
  rfl

theorem lhs12_1 (j : S1000x17.Idx) (k : dot_S1000x60_S60x17_S1000x17_1_0_0_1_n_n.contr.Idx) :
    (dot_S1000x60_S60x17_S1000x17_1_0_0_1_n_n.lhsIdx j k 1).val = (k ⟨0, by decide⟩).val :=
  dot_S1000x60_S60x17_S1000x17_1_0_0_1_n_n.lhsIdx_val_of_single rfl j k

theorem rhs12_0 (j : S1000x17.Idx) (k : dot_S1000x60_S60x17_S1000x17_1_0_0_1_n_n.contr.Idx) :
    (dot_S1000x60_S60x17_S1000x17_1_0_0_1_n_n.rhsIdx j k 0).val = (k ⟨0, by decide⟩).val :=
  dot_S1000x60_S60x17_S1000x17_1_0_0_1_n_n.rhsIdx_val_of_single rfl j k

theorem rhs12_1 (j : S1000x17.Idx) (k : dot_S1000x60_S60x17_S1000x17_1_0_0_1_n_n.contr.Idx) :
    (dot_S1000x60_S60x17_S1000x17_1_0_0_1_n_n.rhsIdx j k 1).val = (j 1).val := by
  unfold DotDims.rhsIdx
  rw [dif_neg (show ¬(1 : Fin S60x17.rank) ∈ dot_S1000x60_S60x17_S1000x17_1_0_0_1_n_n.rhsBatch by decide),
    dif_pos (show (1 : Fin S60x17.rank) ∈ dot_S1000x60_S60x17_S1000x17_1_0_0_1_n_n.rhsNonContracting by decide)]
  rfl

/-- One entry of the normalised activations: (x − mean) · rsqrt(variance + ε) · scale + shift. -/
def nrm12 (x mu v g be : EReal) : EReal := (x - mu) * Ideal.rsqrt (v + Ideal.ofBits .f32 0x3727C5AC#32) * g + be

theorem bcast12 (r : S1x60.Idx → EReal) (p : Fin bRows12) (k : Fin wIn12) :
    broadcastTo S1000x60 r broadcasts_S1x60_S1000x60 (ix2 p k) = r (ix2 0 k) :=
  broadcastTo_apply r _ (ix2 p k) (ix2 0 k) (fun a => by match a with | ⟨0, _⟩ => rfl | ⟨1, _⟩ => rfl)

theorem pay12_apply (x0 : Vec Ideal S1000x60 .f32) (x1 x2 x3 x4 : Vec Ideal S1x60 .f32) (x5 : Vec Ideal S60x17 .f32)
    (p : Fin bRows12) (q : Fin wOut12) :
    k12_pay1 x0 x2 x1 x3 x4 x5 (ix2 p q)
      = ∑ k : Fin wIn12, nrm12 (x0 (ix2 p k)) (x1 (ix2 0 k)) (x2 (ix2 0 k)) (x3 (ix2 0 k)) (x4 (ix2 0 k)) * x5 (ix2 k q) := by
  unfold k12_pay1
  simp only [matmul]
  refine (Ideal.matmul_constant_zero_apply dot_S1000x60_S60x17_S1000x17_1_0_0_1_n_n none _ _ (ix2 p q)).trans ?_
  rw [← Equiv.sum_comp (contrEquiv1 dot_S1000x60_S60x17_S1000x17_1_0_0_1_n_n wIn12 rfl rfl).symm]
  refine Finset.sum_congr rfl fun k _ => ?_
  have hl : dot_S1000x60_S60x17_S1000x17_1_0_0_1_n_n.lhsIdx (ix2 p q)
      ((contrEquiv1 dot_S1000x60_S60x17_S1000x17_1_0_0_1_n_n wIn12 rfl rfl).symm k) = ix2 p k := by
    funext a; apply Fin.ext
    match a with
    | ⟨0, _⟩ => exact lhs12_0 _ _
    | ⟨1, _⟩ => exact (lhs12_1 _ _).trans (contrEquiv1_symm_val dot_S1000x60_S60x17_S1000x17_1_0_0_1_n_n wIn12 rfl rfl k)
  have hr : dot_S1000x60_S60x17_S1000x17_1_0_0_1_n_n.rhsIdx (ix2 p q)
      ((contrEquiv1 dot_S1000x60_S60x17_S1000x17_1_0_0_1_n_n wIn12 rfl rfl).symm k) = ix2 k q := by
    funext a; apply Fin.ext
    match a with
    | ⟨0, _⟩ => exact (rhs12_0 _ _).trans (contrEquiv1_symm_val dot_S1000x60_S60x17_S1000x17_1_0_0_1_n_n wIn12 rfl rfl k)
    | ⟨1, _⟩ => exact rhs12_1 _ _
  rw [hl, hr]
  simp only [shapeCast_self]
  show ((x0 (ix2 p k) - broadcastTo S1000x60 x1 broadcasts_S1x60_S1000x60 (ix2 p k))
        * broadcastTo S1000x60 (rsqrt (F := Ideal) (addf (F := Ideal) x2 (broadcast S1x60 (FloatOps.ofBits (F := Ideal) FTy.f32 0x3727C5AC#32)))) broadcasts_S1x60_S1000x60 (ix2 p k)
        * broadcastTo S1000x60 x3 broadcasts_S1x60_S1000x60 (ix2 p k)
        + broadcastTo S1000x60 x4 broadcasts_S1x60_S1000x60 (ix2 p k)) * x5 (ix2 k q) = _
  rw [bcast12, bcast12, bcast12, bcast12]
  rfl

/-! ## The whole-array function -/

/-- The output array as one function of the entry arrays (activations, mean, variance, scale, shift, weights): entry
    `(i, j)` is row `i` of the normalised activations against column `j` of the weights. -/
def G12 (a0 : S10000x60.Idx → EReal) (a1 a2 a3 a4 : S1x60.Idx → EReal) (a5 : S60x17.Idx → EReal) : S10000x17.Idx → EReal :=
  fun i => ∑ k : Fin wIn12, nrm12 (a0 (ix2 (n0 := nRows12) (i 0) k)) (a1 (ix2 0 k)) (a2 (ix2 0 k)) (a3 (ix2 0 k)) (a4 (ix2 0 k))
    * a5 (ix2 (n1 := wOut12) k (i 1))

variable (V : (c : Dev nD) → (b : Ref sig .tc) → Buf (Elt Ideal) ((c : Thread nD τ).loc b))

theorem hz12 : (![0, 0] : Fin 2 → Nat) = fun _ => 0 := funext fun a => by match a with | ⟨0, _⟩ => rfl | ⟨1, _⟩ => rfl

/-- The index maps, decided over the grid: the activations' and the output's row blocks move together with the point,
    and every other block index is zero (the feature rows and the weights are whole arrays). -/
theorem idx_facts12 : ∀ t : Fin cfg12.N,
    win12_0.index t (0 : Fin 2) = win12_6.index t (0 : Fin 2) ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0
    ∧ win12_6.index t (0 : Fin 2) = t.val ∧ win12_6.index t (1 : Fin 2) = 0 :=
  (by decide +kernel : ∀ t : Fin grid12.N, _)

/-- The activations' block at point `t`, read at row `p` of the block: the array at the row the output's block has
    there. -/
theorem blk12_0 (c : Dev nD) (t : Fin cfg12.N) (p : Fin bRows12) (q : Fin wOut12) (k : Fin wIn12) :
    iblk12 V c 0 t (ix2 p k)
      = (V c (Pipeline.arrRef spec12 0) : S10000x60.Idx → EReal) (ix2 (n0 := nRows12) ((((cfg12.win 6).blk t).view.emb (ix2 p q)) 0) k) := by
  obtain ⟨e0, e1, -⟩ := idx_facts12 t
  show (V c (Pipeline.arrRef spec12 0) : S10000x60.Idx → EReal) (((cfg12.win 0).blk t).view.emb (ix2 p k)) = _
  refine congrArg _ (funext fun a => Fin.ext ?_)
  match a with
  | ⟨0, _⟩ =>
    show win12_0.index t (0 : Fin 2) * S1000x60.size 0 + 1 * p.val = win12_6.index t (0 : Fin 2) * S1000x17.size 0 + 1 * p.val
    rw [e0]; rfl
  | ⟨1, _⟩ =>
    show win12_0.index t (1 : Fin 2) * S1000x60.size 1 + 1 * k.val = k.val
    rw [e1, Nat.zero_mul, Nat.zero_add, Nat.one_mul]

/-- A feature row's block is the whole row: read at feature `k` it is the array there. The mean row, -/
theorem blk12_1 (c : Dev nD) (t : Fin cfg12.N) (k : Fin wIn12) :
    iblk12 V c 1 t (ix2 0 k) = (V c (Pipeline.arrRef spec12 1) : S1x60.Idx → EReal) (ix2 0 k) := by
  obtain ⟨-, -, e0, e1, -⟩ := idx_facts12 t
  show (V c (Pipeline.arrRef spec12 1) : S1x60.Idx → EReal) (((cfg12.win 1).blk t).view.emb (ix2 0 k)) = _
  refine congrArg _ (funext fun a => Fin.ext ?_)
  match a with
  | ⟨0, _⟩ =>
    show win12_1.index t (0 : Fin 2) * S1x60.size 0 + 1 * 0 = 0
    rw [e0, Nat.zero_mul, Nat.zero_add, Nat.mul_zero]
  | ⟨1, _⟩ =>
    show win12_1.index t (1 : Fin 2) * S1x60.size 1 + 1 * k.val = k.val
    rw [e1, Nat.zero_mul, Nat.zero_add, Nat.one_mul]

/-- the variance row, -/
theorem blk12_2 (c : Dev nD) (t : Fin cfg12.N) (k : Fin wIn12) :
    iblk12 V c 2 t (ix2 0 k) = (V c (Pipeline.arrRef spec12 2) : S1x60.Idx → EReal) (ix2 0 k) := by
  obtain ⟨-, -, -, -, e0, e1, -⟩ := idx_facts12 t
  show (V c (Pipeline.arrRef spec12 2) : S1x60.Idx → EReal) (((cfg12.win 2).blk t).view.emb (ix2 0 k)) = _
  refine congrArg _ (funext fun a => Fin.ext ?_)
  match a with
  | ⟨0, _⟩ =>
    show win12_2.index t (0 : Fin 2) * S1x60.size 0 + 1 * 0 = 0
    rw [e0, Nat.zero_mul, Nat.zero_add, Nat.mul_zero]
  | ⟨1, _⟩ =>
    show win12_2.index t (1 : Fin 2) * S1x60.size 1 + 1 * k.val = k.val
    rw [e1, Nat.zero_mul, Nat.zero_add, Nat.one_mul]

/-- the scale row, -/
theorem blk12_3 (c : Dev nD) (t : Fin cfg12.N) (k : Fin wIn12) :
    iblk12 V c 3 t (ix2 0 k) = (V c (Pipeline.arrRef spec12 3) : S1x60.Idx → EReal) (ix2 0 k) := by
  obtain ⟨-, -, -, -, -, -, e0, e1, -⟩ := idx_facts12 t
  show (V c (Pipeline.arrRef spec12 3) : S1x60.Idx → EReal) (((cfg12.win 3).blk t).view.emb (ix2 0 k)) = _
  refine congrArg _ (funext fun a => Fin.ext ?_)
  match a with
  | ⟨0, _⟩ =>
    show win12_3.index t (0 : Fin 2) * S1x60.size 0 + 1 * 0 = 0
    rw [e0, Nat.zero_mul, Nat.zero_add, Nat.mul_zero]
  | ⟨1, _⟩ =>
    show win12_3.index t (1 : Fin 2) * S1x60.size 1 + 1 * k.val = k.val
    rw [e1, Nat.zero_mul, Nat.zero_add, Nat.one_mul]

/-- the shift row. -/
theorem blk12_4 (c : Dev nD) (t : Fin cfg12.N) (k : Fin wIn12) :
    iblk12 V c 4 t (ix2 0 k) = (V c (Pipeline.arrRef spec12 4) : S1x60.Idx → EReal) (ix2 0 k) := by
  obtain ⟨-, -, -, -, -, -, -, -, e0, e1, -⟩ := idx_facts12 t
  show (V c (Pipeline.arrRef spec12 4) : S1x60.Idx → EReal) (((cfg12.win 4).blk t).view.emb (ix2 0 k)) = _
  refine congrArg _ (funext fun a => Fin.ext ?_)
  match a with
  | ⟨0, _⟩ =>
    show win12_4.index t (0 : Fin 2) * S1x60.size 0 + 1 * 0 = 0
    rw [e0, Nat.zero_mul, Nat.zero_add, Nat.mul_zero]
  | ⟨1, _⟩ =>
    show win12_4.index t (1 : Fin 2) * S1x60.size 1 + 1 * k.val = k.val
    rw [e1, Nat.zero_mul, Nat.zero_add, Nat.one_mul]

/-- The weights' block is the whole matrix: read at `(k, q)` it is the array at row `k` and the column the output's
    block has there. -/
theorem blk12_5 (c : Dev nD) (t : Fin cfg12.N) (p : Fin bRows12) (q : Fin wOut12) (k : Fin wIn12) :
    iblk12 V c 5 t (ix2 k q)
      = (V c (Pipeline.arrRef spec12 5) : S60x17.Idx → EReal) (ix2 (n1 := wOut12) k ((((cfg12.win 6).blk t).view.emb (ix2 p q)) 1)) := by
  obtain ⟨-, -, -, -, -, -, -, -, -, -, e0, e1, -, e3⟩ := idx_facts12 t
  show (V c (Pipeline.arrRef spec12 5) : S60x17.Idx → EReal) (((cfg12.win 5).blk t).view.emb (ix2 k q)) = _
  refine congrArg _ (funext fun a => Fin.ext ?_)
  match a with
  | ⟨0, _⟩ =>
    show win12_5.index t (0 : Fin 2) * S60x17.size 0 + 1 * k.val = k.val
    rw [e0, Nat.zero_mul, Nat.zero_add, Nat.one_mul]
  | ⟨1, _⟩ =>
    show win12_5.index t (1 : Fin 2) * S60x17.size 1 + 1 * q.val = win12_6.index t (1 : Fin 2) * S1000x17.size 1 + 1 * q.val
    rw [e1, e3]; rfl

/-! ## From blocks to the array -/

/-- The output's blocks are never cut at the array's end: the part of a staging buffer a write-back moves is all of it. -/
theorem cut12_6 (t : Fin cfg12.N) (X : Vec Ideal S1000x17 .f32) : (cfg12.win 6).cut (grid12.coords t) X = X := rfl

/-- The block product of blocks that are restrictions of the arrays — the activations' block the rows of `a0` from
    row `i 0` on, the feature rows and the weights whole — is `G12` of the arrays at `i`, for any index `i` whose row
    is row `p` of that block and whose column is `q`. -/
theorem G12_of_blocks (x0 : Vec Ideal S1000x60 .f32) (x1 x2 x3 x4 : Vec Ideal S1x60 .f32) (x5 : Vec Ideal S60x17 .f32)
    (a0 : S10000x60.Idx → EReal) (a1 a2 a3 a4 : S1x60.Idx → EReal) (a5 : S60x17.Idx → EReal)
    (p : Fin bRows12) (q : Fin wOut12) (i : S10000x17.Idx)
    (h0 : ∀ k : Fin wIn12, x0 (ix2 p k) = a0 (ix2 (n0 := nRows12) (i 0) k))
    (h1 : ∀ k : Fin wIn12, x1 (ix2 0 k) = a1 (ix2 0 k)) (h2 : ∀ k : Fin wIn12, x2 (ix2 0 k) = a2 (ix2 0 k))
    (h3 : ∀ k : Fin wIn12, x3 (ix2 0 k) = a3 (ix2 0 k)) (h4 : ∀ k : Fin wIn12, x4 (ix2 0 k) = a4 (ix2 0 k))
    (h5 : ∀ k : Fin wIn12, x5 (ix2 k q) = a5 (ix2 (n1 := wOut12) k (i 1))) :
    k12_pay1 x0 x2 x1 x3 x4 x5 (ix2 p q) = G12 a0 a1 a2 a3 a4 a5 i := by
  rw [pay12_apply]
  unfold G12
  exact Finset.sum_congr rfl fun k _ => by rw [h0 k, h1 k, h2 k, h3 k, h4 k, h5 k]

set_option maxHeartbeats 1000000 in
/-- What point `t` writes back is block `t` of `G12` of the entry arrays. -/
theorem flushed12_6_eq (c : Dev nD) (t : Fin cfg12.N) :
    (dat12 V c).flushed 6 t = ((cfg12.win 6).blk t).view.read (Elt Ideal)
      (G12 (V c (Pipeline.arrRef spec12 0)) (V c (Pipeline.arrRef spec12 1)) (V c (Pipeline.arrRef spec12 2))
        (V c (Pipeline.arrRef spec12 3)) (V c (Pipeline.arrRef spec12 4)) (V c (Pipeline.arrRef spec12 5))) := by
  show (cfg12.win 6).cut (grid12.coords t) ((dat12 V c).after 6 t) = _
  rw [after12_6, cut12_6]
  unfold out12_6
  rw [View.canon_unit_zero hz12]
  simp only [View.ld_unit_zero (S := S1000x60) hz12, View.ld_unit_zero (S := S1x60) hz12, View.ld_unit_zero (S := S60x17) hz12]
  funext j
  obtain ⟨p, q, rfl⟩ : ∃ (p : Fin bRows12) (q : Fin wOut12), j = ix2 p q := ⟨j 0, j 1, eq_ix2 j⟩
  exact G12_of_blocks (iblk12 V c 0 t) (iblk12 V c 1 t) (iblk12 V c 2 t) (iblk12 V c 3 t) (iblk12 V c 4 t) (iblk12 V c 5 t)
    (V c (Pipeline.arrRef spec12 0)) (V c (Pipeline.arrRef spec12 1)) (V c (Pipeline.arrRef spec12 2))
    (V c (Pipeline.arrRef spec12 3)) (V c (Pipeline.arrRef spec12 4)) (V c (Pipeline.arrRef spec12 5))
    p q (((cfg12.win 6).blk t).view.emb (ix2 p q))
    (fun k => blk12_0 V c t p q k) (fun k => blk12_1 V c t k) (fun k => blk12_2 V c t k)
    (fun k => blk12_3 V c t k) (fun k => blk12_4 V c t k) (fun k => blk12_5 V c t p q k)

/-- An index of the output array is in point `t`'s block iff each coordinate is in the block's range on its axis. -/
theorem mem_blk12_6 (t : Fin cfg12.N) (i : S10000x17.Idx) :
    i ∈ ((cfg12.win 6).blk t).view.set ↔ ∀ a : Fin 2, win12_6.index t a * S1000x17.size a ≤ (i a).val
      ∧ (i a).val < win12_6.index t a * S1000x17.size a + S1000x17.size a := by
  show i ∈ ((View.whole (Pipeline.arrRef spec12 6)).slice (win12_6.rect t)).set ↔ _
  rw [View.set_slice_whole, Rect.mem_set_unit]
  exact Iff.rfl

/-- Every index of the output array is in the block of the point its row falls to: the row blocks tile the rows and
    each spans every column. -/
theorem cover12_6_arr (i : S10000x17.Idx) :
    ∃ t : Fin cfg12.N, (cfg12.win 6).flush t = true ∧ i ∈ ((cfg12.win 6).blk t).view.set := by
  have hi0 : (i 0).val < nRows12 := (i 0).isLt
  have hi1 : (i 1).val < wOut12 := (i 1).isLt
  have hN : (i 0).val / bRows12 < cfg12.N := by
    show (i 0).val / bRows12 < grid12.N
    rw [N_12]; unfold nRows12 at hi0; unfold bRows12; omega
  refine ⟨⟨(i 0).val / bRows12, hN⟩, flush12_6 _, ?_⟩
  rw [mem_blk12_6]
  obtain ⟨-, -, -, -, -, -, -, -, -, -, -, -, e2, e3⟩ := idx_facts12 ⟨(i 0).val / bRows12, hN⟩
  intro a
  match a with
  | ⟨0, _⟩ =>
    show win12_6.index ⟨(i 0).val / bRows12, hN⟩ (0 : Fin 2) * bRows12 ≤ (i 0).val
      ∧ (i 0).val < win12_6.index ⟨(i 0).val / bRows12, hN⟩ (0 : Fin 2) * bRows12 + bRows12
    rw [e2]
    show (i 0).val / bRows12 * bRows12 ≤ (i 0).val ∧ (i 0).val < (i 0).val / bRows12 * bRows12 + bRows12
    unfold bRows12; omega
  | ⟨1, _⟩ =>
    show win12_6.index ⟨(i 0).val / bRows12, hN⟩ (1 : Fin 2) * wOut12 ≤ (i 1).val
      ∧ (i 1).val < win12_6.index ⟨(i 0).val / bRows12, hN⟩ (1 : Fin 2) * wOut12 + wOut12
    rw [e3, Nat.zero_mul, Nat.zero_add]
    exact ⟨Nat.zero_le _, hi1⟩

/-- THE OUTPUT ARRAY after the region: `G12` of the entry arrays, everywhere. -/
theorem final12_6 (c : Dev nD) : (dat12 (F := Ideal) V c).arrAt 6 cfg12.N
    = G12 (V c (Pipeline.arrRef spec12 0)) (V c (Pipeline.arrRef spec12 1)) (V c (Pipeline.arrRef spec12 2))
        (V c (Pipeline.arrRef spec12 3)) (V c (Pipeline.arrRef spec12 4)) (V c (Pipeline.arrRef spec12 5)) :=
  (dat12 V c).arrAt_eq_of_cover 6 _ (fun t _ => flushed12_6_eq V c t) cover12_6_arr

/-! ## Over the reals -/

/-- On real arrays with every variance + ε positive, `G12` is the real dense product of the normalised activations
    with the weights: each operation of a term is the real one, and a finite sum of reals is the real sum. -/
theorem G12_real (rr : Fin nRows12 → Fin wIn12 → ℝ) (mu vr g be : Fin wIn12 → ℝ) (wr : Fin wIn12 → Fin wOut12 → ℝ)
    (a0 : S10000x60.Idx → EReal) (a1 a2 a3 a4 : S1x60.Idx → EReal) (a5 : S60x17.Idx → EReal)
    (hx : ∀ i k, a0 (ix2 i k) = ((rr i k : ℝ) : EReal)) (hmu : ∀ k, a1 (ix2 0 k) = ((mu k : ℝ) : EReal))
    (hvar : ∀ k, a2 (ix2 0 k) = ((vr k : ℝ) : EReal)) (hg : ∀ k, a3 (ix2 0 k) = ((g k : ℝ) : EReal))
    (hbe : ∀ k, a4 (ix2 0 k) = ((be k : ℝ) : EReal)) (hw : ∀ k j, a5 (ix2 k j) = ((wr k j : ℝ) : EReal))
    (hv : ∀ f, 0 < vr f + Cert.LibCoe.epsR) (i : Fin nRows12) (j : Fin wOut12) :
    G12 a0 a1 a2 a3 a4 a5 (ix2 i j)
      = ((Cert.Spec.lin (Cert.Spec.normalize Cert.LibCoe.epsR rr mu vr g be) wr i j : ℝ) : EReal) := by
  unfold G12 Cert.Spec.lin
  rw [← Cert.LibCoe.sum_coe]
  refine Finset.sum_congr rfl fun k _ => ?_
  show nrm12 (a0 (ix2 i k)) (a1 (ix2 0 k)) (a2 (ix2 0 k)) (a3 (ix2 0 k)) (a4 (ix2 0 k)) * a5 (ix2 k j) = _
  rw [hx, hmu, hvar, hg, hbe, hw]
  unfold nrm12 Cert.Spec.normalize Cert.Spec.rsq
  rw [Cert.LibCoe.ofBits_eps, Cert.LibCoe.sub_coe, Cert.LibCoe.add_coe, Cert.LibCoe.rsqrt_coe_pos (hv k),
    Cert.LibCoe.mul_coe, Cert.LibCoe.mul_coe, Cert.LibCoe.add_coe, Cert.LibCoe.mul_coe]

/-- THE OUTPUT ARRAY after the region, over the reals: entry `(i, j)` is the dense product of the normalised
    activations with the weights there. -/
theorem final12_real (c : Dev nD) (rr : Fin nRows12 → Fin wIn12 → ℝ) (mu vr g be : Fin wIn12 → ℝ) (wr : Fin wIn12 → Fin wOut12 → ℝ)
    (hx : ∀ i k, (V c (Pipeline.arrRef spec12 0) : S10000x60.Idx → EReal) (ix2 i k) = ((rr i k : ℝ) : EReal))
    (hmu : ∀ k, (V c (Pipeline.arrRef spec12 1) : S1x60.Idx → EReal) (ix2 0 k) = ((mu k : ℝ) : EReal))
    (hvar : ∀ k, (V c (Pipeline.arrRef spec12 2) : S1x60.Idx → EReal) (ix2 0 k) = ((vr k : ℝ) : EReal))
    (hg : ∀ k, (V c (Pipeline.arrRef spec12 3) : S1x60.Idx → EReal) (ix2 0 k) = ((g k : ℝ) : EReal))
    (hbe : ∀ k, (V c (Pipeline.arrRef spec12 4) : S1x60.Idx → EReal) (ix2 0 k) = ((be k : ℝ) : EReal))
    (hw : ∀ k j, (V c (Pipeline.arrRef spec12 5) : S60x17.Idx → EReal) (ix2 k j) = ((wr k j : ℝ) : EReal))
    (hv : ∀ f, 0 < vr f + Cert.LibCoe.epsR) (i : Fin nRows12) (j : Fin wOut12) :
    ((dat12 (F := Ideal) V c).arrAt 6 cfg12.N : S10000x17.Idx → EReal) (ix2 i j)
      = ((Cert.Spec.lin (Cert.Spec.normalize Cert.LibCoe.epsR rr mu vr g be) wr i j : ℝ) : EReal) := by
  rw [final12_6]
  exact G12_real rr mu vr g be wr _ _ _ _ _ _ hx hmu hvar hg hbe hw hv i j

end Cert.KernelIdeal.HandV

end
-- ==== Proof.KLayer4.lean ====
import proofs.«408066_j62380105008311_2_alg».proof.Proof.KLayer3
import proofs.«408066_j62380105008311_2_alg».proof.Proof.HostSmall4
import proofs.«408066_j62380105008311_2_alg».proof.Proof.Val10
import proofs.«408066_j62380105008311_2_alg».proof.Proof.Val11
import proofs.«408066_j62380105008311_2_alg».proof.Proof.Val12

/-!
# Layer 4 of the kernel's network, read off the fold of buffer contents

The layer's unit, from the features the previous layer left: pad them with zero rows, multiply by the padded
normalised adjacency (the dense aggregation), add the bias and rectify while summing each column and its squares,
turn the sums into mean and variance, normalise and multiply by the next weight matrix; and the carried buffers
(the padded adjacency, the argument arrays), unchanged.
-/

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Cert.Inputs (srcOf dstOf RealArgs)
open Cert.LibCoe (epsR)

variable (m : (ℓ : Loc nD τ sig) → Buf (Elt Ideal) ℓ)

/-! ## The layer's unit: seven items, from features h in the unit's input array -/

/-- What the unit is entered with: real features h in its input array, and the carried buffers. -/
structure Entry4 (c : Dev nD) (R : RealArgs) (h : Fin 10000 → Fin 60 → ℝ) : Prop where
  feat : ∀ i f, (W25 m c (Proc.devRef .tc main_v104) : S10000x60.Idx → EReal) (ix2 i f) = ((h i f : ℝ) : EReal)
  car : Carried m c R (W25 m c)

section Unit
variable {m}
variable {c : Dev nD} {R : RealArgs} {h : Fin 10000 → Fin 60 → ℝ}

/-- The layer's activations from its input features: aggregate, add the bias, rectify. -/
abbrev act4 (R : RealArgs) (h : Fin 10000 → Fin 60 → ℝ) : Fin 10000 → Fin 60 → ℝ :=
  Cert.Spec.relu (Cert.Spec.addBias (Cert.Spec.aggD (srcOf R.ei) (dstOf R.ei) h) R.P.b4)

/-- The features padded with zero rows (the unit's first two items, host operations). -/
theorem pad_W27 (hE : Entry4 m c R h) (s : Fin 10240) (f : Fin 60) :
    (W27 m c (Proc.devRef .tc main_v105) : S10240x60.Idx → EReal) (ix2 s f)
      = ((if hs : s.val < 10000 then h ⟨s.val, hs⟩ f else 0 : ℝ) : EReal) :=
  pad4_real_from (W25 m c) h hE.feat s f

theorem carried_W27 (hE : Entry4 m c R h) : Carried m c R (W27 m c) :=
  (hE.car.step m GenP.hostOps10_W (W26_of m c) (by decide) (by decide)).step m GenP.hostOps10_1_W (W27_of m c) (by decide) (by decide)

/-- The aggregation kernel: the padded adjacency times the padded features is the dense aggregation of h. -/
theorem agg_W28 (hE : Entry4 m c R h) (i : Fin 10000) (f : Fin 60) :
    (W28 m c (Proc.devRef .tc main_v106) : S10000x60.Idx → EReal) (ix2 i f)
      = ((Cert.Spec.aggD (srcOf R.ei) (dstOf R.ei) h i f : ℝ) : EReal) := by
  refine (congrFun (W28_arr m c 2) (ix2 i f)).trans ?_
  refine (final10_real (Hand.V27 m) c
    (fun d s => if hs : s.val < 10000 then Cert.Spec.adj (srcOf R.ei) (dstOf R.ei) d ⟨s.val, hs⟩ else 0)
    (fun s f => if hs : s.val < 10000 then h ⟨s.val, hs⟩ f else 0)
    (carried_W27 hE).adj (pad_W27 hE) i f).trans ?_
  exact congrArg (fun x : ℝ => (x : EReal)) (Cert.Spec.aggD_pad_10240 (srcOf R.ei) (dstOf R.ei) h i f)

theorem carried_W28 (hE : Entry4 m c R h) : Carried m c R (W28 m c) :=
  (carried_W27 hE).step m [main_v106] (W28_of m c) (by decide) (by decide)

/-- The bias as a one-row matrix (host operations); the aggregation is still there. -/
theorem bias_W29 (hE : Entry4 m c R h) (hR : ReadsAt m c R) (f : Fin 60) :
    (W29 m c (Proc.devRef .tc main_v107) : S1x60.Idx → EReal) (ix2 0 f) = ((R.P.b4 f : ℝ) : EReal) :=
  (bias4_read (W28 m c) f).trans ((congrFun ((carried_W28 hE).args main_arg9 (by decide)) (ix1 f)).trans (hR.hb4 f))

theorem agg_W29 (hE : Entry4 m c R h) (i : Fin 10000) (f : Fin 60) :
    (W29 m c (Proc.devRef .tc main_v106) : S10000x60.Idx → EReal) (ix2 i f)
      = ((Cert.Spec.aggD (srcOf R.ei) (dstOf R.ei) h i f : ℝ) : EReal) :=
  (congrFun (W29_of m c main_v106 (by decide)) (ix2 i f)).trans (agg_W28 hE i f)

theorem carried_W29 (hE : Entry4 m c R h) : Carried m c R (W29 m c) :=
  (carried_W28 hE).step m GenP.hostOps11_W (W29_of m c) (by decide) (by decide)

/-- The activation kernel: the activations, and each column's sum and sum of squares. -/
theorem act_W30 (hE : Entry4 m c R h) (hR : ReadsAt m c R) (i : Fin 10000) (f : Fin 60) :
    (W30 m c (Proc.devRef .tc main_v108_0) : S10000x60.Idx → EReal) (ix2 i f) = ((act4 R h i f : ℝ) : EReal) :=
  (congrFun (W30_arr m c 2) (ix2 i f)).trans
    (final11_real_2 (Hand.V29 m) c (Cert.Spec.aggD (srcOf R.ei) (dstOf R.ei) h) R.P.b4 (agg_W29 hE) (bias_W29 hE hR) i f)

theorem sum_W30 (hE : Entry4 m c R h) (hR : ReadsAt m c R) (f : Fin 60) :
    (W30 m c (Proc.devRef .tc main_v108_1) : S1x60.Idx → EReal) (ix2 0 f)
      = ((Cert.Spec.colSum (act4 R h) f : ℝ) : EReal) :=
  (congrFun (W30_arr m c 3) (ix2 0 f)).trans
    (final11_real_3 (Hand.V29 m) c (Cert.Spec.aggD (srcOf R.ei) (dstOf R.ei) h) R.P.b4 (agg_W29 hE) (bias_W29 hE hR) f)

theorem sumSq_W30 (hE : Entry4 m c R h) (hR : ReadsAt m c R) (f : Fin 60) :
    (W30 m c (Proc.devRef .tc main_v108_2) : S1x60.Idx → EReal) (ix2 0 f)
      = ((Cert.Spec.colSumSq (act4 R h) f : ℝ) : EReal) :=
  (congrFun (W30_arr m c 4) (ix2 0 f)).trans
    (final11_real_4 (Hand.V29 m) c (Cert.Spec.aggD (srcOf R.ei) (dstOf R.ei) h) R.P.b4 (agg_W29 hE) (bias_W29 hE hR) f)

theorem carried_W30 (hE : Entry4 m c R h) : Carried m c R (W30 m c) :=
  (carried_W29 hE).step m [main_v108_0, main_v108_1, main_v108_2] (W30_of m c) (by decide) (by decide)

/-- The statistics rows (host operations); the activations are still there. -/
theorem mean_W31 (hE : Entry4 m c R h) (hR : ReadsAt m c R) (f : Fin 60) :
    (W31 m c (Proc.devRef .tc main_v119) : S1x60.Idx → EReal) (ix2 0 f)
      = ((Cert.Spec.mean 10000 (act4 R h) f : ℝ) : EReal) :=
  stats4_mean_spec (W30 m c) (act4 R h) (sum_W30 hE hR) f

theorem var_W31 (hE : Entry4 m c R h) (hR : ReadsAt m c R) (f : Fin 60) :
    (W31 m c (Proc.devRef .tc main_v120) : S1x60.Idx → EReal) (ix2 0 f)
      = ((Cert.Spec.varK 10000 (act4 R h) f : ℝ) : EReal) :=
  stats4_var_spec (W30 m c) (act4 R h) (sum_W30 hE hR) (sumSq_W30 hE hR) f

theorem scale_W31 (hE : Entry4 m c R h) (hR : ReadsAt m c R) (f : Fin 60) :
    (W31 m c (Proc.devRef .tc main_v121) : S1x60.Idx → EReal) (ix2 0 f) = ((R.P.g4 f : ℝ) : EReal) :=
  stats4_scale_real (W30 m c) R.P.g4
    (fun f => (congrFun ((carried_W30 hE).args main_arg18 (by decide)) (ix1 f)).trans (hR.hg4 f)) f

theorem shift_W31 (hE : Entry4 m c R h) (hR : ReadsAt m c R) (f : Fin 60) :
    (W31 m c (Proc.devRef .tc main_v122) : S1x60.Idx → EReal) (ix2 0 f) = ((R.P.be4 f : ℝ) : EReal) :=
  stats4_shift_real (W30 m c) R.P.be4
    (fun f => (congrFun ((carried_W30 hE).args main_arg19 (by decide)) (ix1 f)).trans (hR.hbe4 f)) f

theorem act_W31 (hE : Entry4 m c R h) (hR : ReadsAt m c R) (i : Fin 10000) (f : Fin 60) :
    (W31 m c (Proc.devRef .tc main_v108_0) : S10000x60.Idx → EReal) (ix2 i f) = ((act4 R h i f : ℝ) : EReal) :=
  (congrFun (W31_of m c main_v108_0 (by decide)) (ix2 i f)).trans (act_W30 hE hR i f)

theorem carried_W31 (hE : Entry4 m c R h) : Carried m c R (W31 m c) :=
  (carried_W30 hE).step m GenP.hostOps12_W (W31_of m c) (by decide) (by decide)

/-- The normalisation kernel: the normalised activations times the next weight matrix. -/
theorem out_W32 (hE : Entry4 m c R h) (hR : ReadsAt m c R) (i : Fin 10000) (j : Fin 17) :
    (W32 m c (Proc.devRef .tc main_v123) : S10000x17.Idx → EReal) (ix2 i j)
      = ((Cert.Spec.lin (Cert.Spec.bnK 10000 epsR (act4 R h) R.P.g4 R.P.be4) R.P.W5 i j : ℝ) : EReal) :=
  (congrFun (W32_arr m c 6) (ix2 i j)).trans
    (final12_real (Hand.V31 m) c (act4 R h) (Cert.Spec.mean 10000 (act4 R h)) (Cert.Spec.varK 10000 (act4 R h)) R.P.g4 R.P.be4 R.P.W5
      (act_W31 hE hR) (mean_W31 hE hR) (var_W31 hE hR) (scale_W31 hE hR) (shift_W31 hE hR)
      (fun k j => (congrFun ((carried_W31 hE).args main_arg10 (by decide)) (ix2 k j)).trans (hR.hW5 k j))
      (fun f => add_pos_of_nonneg_of_pos (le_max_right _ _) Cert.LibCoe.epsR_pos) i j)

theorem carried_W32 (hE : Entry4 m c R h) : Carried m c R (W32 m c) :=
  (carried_W31 hE).step m [main_v123] (W32_of m c) (by decide) (by decide)

end Unit

/-! ## The layer -/

/-- The unit is entered from the array the layer's input features were left in. -/
theorem entry4 (c : Dev nD) (R : RealArgs) (hR : ReadsAt m c R) : Entry4 m c R (Cert.Spec.lin (Cert.Spec.bnK 10000 epsR (Cert.Spec.k3 10000 epsR (srcOf R.ei) (dstOf R.ei) R.X R.P) R.P.g3 R.P.be3) R.P.W4) :=
  ⟨lin4_W25 m c R hR, carried3_W25 m c R hR⟩

/-- After the activation kernel its first result array holds the layer's activations. -/
theorem k4_W30 (c : Dev nD) (R : RealArgs) (hR : ReadsAt m c R) (i : Fin 10000) (f : Fin 60) :
    (W30 m c (Proc.devRef .tc main_v108_0) : S10000x60.Idx → EReal) (ix2 i f)
      = ((Cert.Spec.k4 10000 epsR (srcOf R.ei) (dstOf R.ei) R.X R.P i f : ℝ) : EReal) :=
  act_W30 (entry4 m c R hR) hR i f

/-- After the normalisation kernel its result array holds the next layer's input features. -/
theorem lin5_W32 (c : Dev nD) (R : RealArgs) (hR : ReadsAt m c R) (i : Fin 10000) (j : Fin 17) :
    (W32 m c (Proc.devRef .tc main_v123) : S10000x17.Idx → EReal) (ix2 i j)
      = ((Cert.Spec.lin (Cert.Spec.bnK 10000 epsR (Cert.Spec.k4 10000 epsR (srcOf R.ei) (dstOf R.ei) R.X R.P) R.P.g4 R.P.be4) R.P.W5 i j : ℝ) : EReal) :=
  out_W32 (entry4 m c R hR) hR i j

/-- What the next layer is entered with beside its features. -/
theorem carried4_W32 (c : Dev nD) (R : RealArgs) (hR : ReadsAt m c R) : Carried m c R (W32 m c) :=
  carried_W32 (entry4 m c R hR)

end Cert.KernelIdeal.HandV

end
-- ==== Proof.KernelValue.lean ====
/-
  The kernel's value, end to end: on inputs that are coerced reals, the idealized kernel program leaves in its result
  array the coerced value of the network `kerNet` — dense aggregation, variance by moments.

  The chain: the first four layers leave, after the fourth "normalise, then multiply" region, the product
  `y = lin (bnK (k₄ …) g₄ β₄) W₅` and carry the dense adjacency and the arguments along; the fifth convolution and
  the log-softmax turn that into `lsm (addBias (aggD y) b₅)`, which is `kerNet` by its definition.
-/
import proofs.«408066_j62380105008311_2_alg».proof.Proof.KLast
import proofs.«408066_j62380105008311_2_alg».proof.Proof.KLayer4
import proofs.«408066_j62380105008311_2_alg».proof.Proof.Inputs

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx

/-- THE KERNEL'S VALUE: on inputs that are coerced reals, the result array of the idealized kernel program holds,
    entry by entry, the coerced value of the network `kerNet` on those reals. -/
theorem kernel_value (m : (ℓ : Loc nD τ sig) → Buf (Elt Idealize.ShloMosaic.Ideal) ℓ) (c : Dev nD) (R : Cert.Inputs.RealArgs)
    (hR : Cert.Inputs.Reads
      (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      (m ((c : Thread nD τ).loc main_arg6)) (m ((c : Thread nD τ).loc main_arg7))
      (m ((c : Thread nD τ).loc main_arg8)) (m ((c : Thread nD τ).loc main_arg9))
      (m ((c : Thread nD τ).loc main_arg10)) (m ((c : Thread nD τ).loc main_arg11))
      (m ((c : Thread nD τ).loc main_arg12)) (m ((c : Thread nD τ).loc main_arg13))
      (m ((c : Thread nD τ).loc main_arg14)) (m ((c : Thread nD τ).loc main_arg15))
      (m ((c : Thread nD τ).loc main_arg16)) (m ((c : Thread nD τ).loc main_arg17))
      (m ((c : Thread nD τ).loc main_arg18)) (m ((c : Thread nD τ).loc main_arg19)) R) :
    ∀ (i : Fin 10000) (f : Fin 17),
      (W37 m c (Proc.devRef .tc main_v127) : S10000x17.Idx → EReal) (ix2 i f)
        = ((Cert.Spec.kerNet (10000 : ℝ) Cert.LibCoe.epsR (Cert.Inputs.srcOf R.ei) (Cert.Inputs.dstOf R.ei) R.X R.P i f : ℝ) : EReal) :=
  fun i f =>
    layer5_launch m c (Cert.Inputs.srcOf R.ei) (Cert.Inputs.dstOf R.ei) _ R.P.b5
      (lin5_W32 m c R hR) (carried4_W32 m c R hR).adj hR.hb5 i f

end Cert.KernelIdeal.HandV

end
-- ==== Proof.RefStages1.lean ====
/- The reference program's operations as consecutive short lists, and what each list leaves in the buffers it writes:
   from contents W in which every buffer a list reads holds its stage's value (ReadP.val_…) of the launch arguments
   x0 …, the buffer of each stage the list computes ends at that stage's value. Only the buffers a later list (or the
   result) reads are stated. A list is opened once per stated buffer (the fold's result lemmas), the facts about what it
   reads are rewritten in, and the stage's definition closes the rest by unfolding one level per operation. -/
import proofs.«408066_j62380105008311_2_alg».proof.Proof.RefRead
import Idealize.ShloMosaic.Lib.StableHlo.Run

noncomputable section

namespace Cert.ReferenceIdeal.HandR

open Cert.ReferenceIdeal Cert.ReferenceIdeal.Gen Idealize.ShloMosaic Idealize.ShloMosaic.TcCoe Idealize.SL.Sem Idealize.ShloMosaic.StableHlo

variable {F : FTy → Type} [FloatOps F]

/-! ### Operations 0 … 2 of @main -/

/-- Operations 0 … 2 of @main, in order. -/
def chunk1 : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    nullary main_v2 (iotaInDim S10000 32 0) ]

/-- The buffers they write. -/
def writes1 : List (Ref sig .tc) := [main_v0, main_v1, main_v2]

theorem chunk1_writes : (chunk1 (F := F)).Forall fun op => op.writes ⊆ ((writes1.map (Proc.devRef (τ := τ) .tc)).toFinset) := by
  unfold chunk1
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk1_frame (W : Valuation τ sig (Elt F)) {r : Ref sig .tc} (hr : r ∉ writes1) :
    after (chunk1 (F := F)) W (Proc.devRef .tc r) = W (Proc.devRef .tc r) :=
  after_of_writes_sub _ W chunk1_writes hr

theorem c1_main_v1 (W : Valuation τ sig (Elt F)) (x1 : (⟨S2x320000, .i32⟩ : BufTy).Contents (Elt F))
    (h_main_arg1 : W (Proc.devRef .tc main_arg1) = x1)
    : after (chunk1 (F := F)) W (Proc.devRef .tc main_v1) = ReadP.val_main_v1 (F := F) x1 := by
  unfold chunk1
  after_results_simp
  rw [h_main_arg1]
  rfl

theorem c1_main_v2 (W : Valuation τ sig (Elt F))
    : after (chunk1 (F := F)) W (Proc.devRef .tc main_v2) = ReadP.val_main_v2 (F := F) := by
  unfold chunk1
  after_results_simp
  rfl

/-! ### Operations 3 … 6 of @main -/

/-- Operations 3 … 6 of @main, in order. -/
def chunk2 : List (HloOp τ sig (Elt F)) :=
  [ binary main_v1 main_v2 main_v3 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    unary main_arg1 main_v4 ((extractStridedSlice S1x320000 ![1, 0] · slices_S2x320000_S1x320000_1_0) : (⟨S2x320000, .i32⟩ : BufTy).Contents (Elt F) → (⟨S1x320000, .i32⟩ : BufTy).Contents (Elt F)),
    reshape main_v4 main_v5 rfl shapeCasts_S1x320000_S320000,
    nullary main_v6 (iotaInDim S10000 32 0) ]

/-- The buffers they write. -/
def writes2 : List (Ref sig .tc) := [main_v3, main_v4, main_v5, main_v6]

theorem chunk2_writes : (chunk2 (F := F)).Forall fun op => op.writes ⊆ ((writes2.map (Proc.devRef (τ := τ) .tc)).toFinset) := by
  unfold chunk2
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk2_frame (W : Valuation τ sig (Elt F)) {r : Ref sig .tc} (hr : r ∉ writes2) :
    after (chunk2 (F := F)) W (Proc.devRef .tc r) = W (Proc.devRef .tc r) :=
  after_of_writes_sub _ W chunk2_writes hr

theorem c2_main_v3 (W : Valuation τ sig (Elt F)) (x1 : (⟨S2x320000, .i32⟩ : BufTy).Contents (Elt F))
    (h_main_v1 : W (Proc.devRef .tc main_v1) = ReadP.val_main_v1 (F := F) x1)
    (h_main_v2 : W (Proc.devRef .tc main_v2) = ReadP.val_main_v2 (F := F))
    : after (chunk2 (F := F)) W (Proc.devRef .tc main_v3) = ReadP.val_main_v3 (F := F) x1 := by
  unfold chunk2
  after_results_simp
  rw [h_main_v1, h_main_v2]
  rfl

theorem c2_main_v5 (W : Valuation τ sig (Elt F)) (x1 : (⟨S2x320000, .i32⟩ : BufTy).Contents (Elt F))
    (h_main_arg1 : W (Proc.devRef .tc main_arg1) = x1)
    : after (chunk2 (F := F)) W (Proc.devRef .tc main_v5) = ReadP.val_main_v5 (F := F) x1 := by
  unfold chunk2
  after_results_simp
  rw [h_main_arg1]
  rfl

theorem c2_main_v6 (W : Valuation τ sig (Elt F))
    : after (chunk2 (F := F)) W (Proc.devRef .tc main_v6) = ReadP.val_main_v6 (F := F) := by
  unfold chunk2
  after_results_simp
  rfl

/-! ### Operations 7 … 18 of @main -/

/-- Operations 7 … 18 of @main, in order. -/
def chunk3 : List (HloOp τ sig (Elt F)) :=
  [ binary main_v5 main_v6 main_v7 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    nullary main_cst (constant S_ .f32 0x3F800000#32),
    unary main_cst main_v8 (broadcastInDim S330000 ![] bcast_S_S330000 : (⟨S_, .f32⟩ : BufTy).Contents (Elt F) → (⟨S330000, .f32⟩ : BufTy).Contents (Elt F)),
    nullary main_cst_0 (constant S_ .f32 0x00000000#32),
    unary main_cst_0 main_v9 (broadcastInDim S10000 ![] bcast_S_S10000 : (⟨S_, .f32⟩ : BufTy).Contents (Elt F) → (⟨S10000, .f32⟩ : BufTy).Contents (Elt F)),
    unary main_v7 main_v10 (broadcastInDim S330000x1 ![0] bcast_S330000_S330000x1_0 : (⟨S330000, .i32⟩ : BufTy).Contents (Elt F) → (⟨S330000x1, .i32⟩ : BufTy).Contents (Elt F)),
    ternary main_v9 main_v10 main_v8 main_v11 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_1 (constant S_ .f32 0x00000000#32),
    unary main_cst_1 main_v12 (broadcastInDim S10000 ![] bcast_S_S10000 : (⟨S_, .f32⟩ : BufTy).Contents (Elt F) → (⟨S10000, .f32⟩ : BufTy).Contents (Elt F)),
    binary main_v11 main_v12 main_v13 (cmpf .ogt : (⟨S10000, .f32⟩ : BufTy).Contents (Elt F) → (⟨S10000, .f32⟩ : BufTy).Contents (Elt F) → (⟨S10000, .i1⟩ : BufTy).Contents (Elt F)),
    unary main_v11 main_v14 (Host.rsqrt : (⟨S10000, .f32⟩ : BufTy).Contents (Elt F) → (⟨S10000, .f32⟩ : BufTy).Contents (Elt F)),
    nullary main_cst_2 (constant S_ .f32 0x00000000#32) ]

/-- The buffers they write. -/
def writes3 : List (Ref sig .tc) := [main_v7, main_cst, main_v8, main_cst_0, main_v9, main_v10, main_v11, main_cst_1, main_v12, main_v13, main_v14, main_cst_2]

theorem chunk3_writes : (chunk3 (F := F)).Forall fun op => op.writes ⊆ ((writes3.map (Proc.devRef (τ := τ) .tc)).toFinset) := by
  unfold chunk3
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk3_frame (W : Valuation τ sig (Elt F)) {r : Ref sig .tc} (hr : r ∉ writes3) :
    after (chunk3 (F := F)) W (Proc.devRef .tc r) = W (Proc.devRef .tc r) :=
  after_of_writes_sub _ W chunk3_writes hr

theorem c3_main_v7 (W : Valuation τ sig (Elt F)) (x1 : (⟨S2x320000, .i32⟩ : BufTy).Contents (Elt F))
    (h_main_v5 : W (Proc.devRef .tc main_v5) = ReadP.val_main_v5 (F := F) x1)
    (h_main_v6 : W (Proc.devRef .tc main_v6) = ReadP.val_main_v6 (F := F))
    : after (chunk3 (F := F)) W (Proc.devRef .tc main_v7) = ReadP.val_main_v7 (F := F) x1 := by
  unfold chunk3
  after_results_simp
  rw [h_main_v5, h_main_v6]
  rfl

theorem c3_main_v13 (W : Valuation τ sig (Elt F)) (x1 : (⟨S2x320000, .i32⟩ : BufTy).Contents (Elt F))
    (h_main_v5 : W (Proc.devRef .tc main_v5) = ReadP.val_main_v5 (F := F) x1)
    (h_main_v6 : W (Proc.devRef .tc main_v6) = ReadP.val_main_v6 (F := F))
    : after (chunk3 (F := F)) W (Proc.devRef .tc main_v13) = ReadP.val_main_v13 (F := F) x1 := by
  unfold chunk3
  after_results_simp
  rw [h_main_v5, h_main_v6]
  rfl

theorem c3_main_v14 (W : Valuation τ sig (Elt F)) (x1 : (⟨S2x320000, .i32⟩ : BufTy).Contents (Elt F))
    (h_main_v5 : W (Proc.devRef .tc main_v5) = ReadP.val_main_v5 (F := F) x1)
    (h_main_v6 : W (Proc.devRef .tc main_v6) = ReadP.val_main_v6 (F := F))
    : after (chunk3 (F := F)) W (Proc.devRef .tc main_v14) = ReadP.val_main_v14 (F := F) x1 := by
  unfold chunk3
  after_results_simp
  rw [h_main_v5, h_main_v6]
  rfl

theorem c3_main_cst_2 (W : Valuation τ sig (Elt F))
    : after (chunk3 (F := F)) W (Proc.devRef .tc main_cst_2) = ReadP.val_main_cst_2 (F := F) := by
  unfold chunk3
  after_results_simp
  rfl

/-! ### Operations 19 … 30 of @main -/

/-- Operations 19 … 30 of @main, in order. -/
def chunk4 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v13) (TRef.of (T := ⟨S10000, .f32⟩) main_v14) (TRef.of (T := ⟨S10000, .f32⟩) main_call0_v1) (TRef.of (T := ⟨S10000, .f32⟩) main_v15) select,
    nullary main_c (constantI S_ 32 0#32),
    unary main_c main_v16 (broadcastInDim S330000 ![] bcast_S_S330000 : (⟨S_, .i32⟩ : BufTy).Contents (Elt F) → (⟨S330000, .i32⟩ : BufTy).Contents (Elt F)),
    binary main_v3 main_v16 main_v17 (cmpi .slt : (⟨S330000, .i32⟩ : BufTy).Contents (Elt F) → (⟨S330000, .i32⟩ : BufTy).Contents (Elt F) → (⟨S330000, .i1⟩ : BufTy).Contents (Elt F)),
    nullary main_c_3 (constantI S_ 32 10000#32),
    unary main_c_3 main_v18 (broadcastInDim S330000 ![] bcast_S_S330000 : (⟨S_, .i32⟩ : BufTy).Contents (Elt F) → (⟨S330000, .i32⟩ : BufTy).Contents (Elt F)),
    binary main_v3 main_v18 main_v19 (addi : (⟨S330000, .i32⟩ : BufTy).Contents (Elt F) → (⟨S330000, .i32⟩ : BufTy).Contents (Elt F) → (⟨S330000, .i32⟩ : BufTy).Contents (Elt F)),
    ternary main_v17 main_v19 main_v3 main_v20 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v20 main_v21 (broadcastInDim S330000x1 ![0] bcast_S330000_S330000x1_0 : (⟨S330000, .i32⟩ : BufTy).Contents (Elt F) → (⟨S330000x1, .i32⟩ : BufTy).Contents (Elt F)),
    binary main_v15 main_v21 main_v22 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)) ]

/-- The buffers they write. -/
def writes4 : List (Ref sig .tc) := [main_call0_v0, main_call0_v1, main_v15, main_c, main_v16, main_v17, main_c_3, main_v18, main_v19, main_v20, main_v21, main_v22]

theorem chunk4_writes : (chunk4 (F := F)).Forall fun op => op.writes ⊆ ((writes4.map (Proc.devRef (τ := τ) .tc)).toFinset) := by
  unfold chunk4
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk4_frame (W : Valuation τ sig (Elt F)) {r : Ref sig .tc} (hr : r ∉ writes4) :
    after (chunk4 (F := F)) W (Proc.devRef .tc r) = W (Proc.devRef .tc r) :=
  after_of_writes_sub _ W chunk4_writes hr

theorem c4_main_v15 (W : Valuation τ sig (Elt F)) (x1 : (⟨S2x320000, .i32⟩ : BufTy).Contents (Elt F))
    (h_main_v13 : W (Proc.devRef .tc main_v13) = ReadP.val_main_v13 (F := F) x1)
    (h_main_v14 : W (Proc.devRef .tc main_v14) = ReadP.val_main_v14 (F := F) x1)
    (h_main_cst_2 : W (Proc.devRef .tc main_cst_2) = ReadP.val_main_cst_2 (F := F))
    : after (chunk4 (F := F)) W (Proc.devRef .tc main_v15) = ReadP.val_main_v15 (F := F) x1 := by
  unfold chunk4
  after_results_simp
  rw [h_main_v13, h_main_v14, h_main_cst_2]
  rfl

theorem c4_main_v22 (W : Valuation τ sig (Elt F)) (x1 : (⟨S2x320000, .i32⟩ : BufTy).Contents (Elt F))
    (h_main_v13 : W (Proc.devRef .tc main_v13) = ReadP.val_main_v13 (F := F) x1)
    (h_main_v14 : W (Proc.devRef .tc main_v14) = ReadP.val_main_v14 (F := F) x1)
    (h_main_cst_2 : W (Proc.devRef .tc main_cst_2) = ReadP.val_main_cst_2 (F := F))
    (h_main_v3 : W (Proc.devRef .tc main_v3) = ReadP.val_main_v3 (F := F) x1)
    : after (chunk4 (F := F)) W (Proc.devRef .tc main_v22) = ReadP.val_main_v22 (F := F) x1 := by
  unfold chunk4
  after_results_simp
  rw [h_main_v13, h_main_v14, h_main_cst_2, h_main_v3]
  rfl

end Cert.ReferenceIdeal.HandR

end
-- ==== Proof.RefStages2.lean ====
/- The reference program's operations as consecutive short lists, and what each list leaves in the buffers it writes:
   from contents W in which every buffer a list reads holds its stage's value (ReadP.val_…) of the launch arguments
   x0 …, the buffer of each stage the list computes ends at that stage's value. Only the buffers a later list (or the
   result) reads are stated. A list is opened once per stated buffer (the fold's result lemmas), the facts about what it
   reads are rewritten in, and the stage's definition closes the rest by unfolding one level per operation. -/
import proofs.«408066_j62380105008311_2_alg».proof.Proof.RefRead
import Idealize.ShloMosaic.Lib.StableHlo.Run

noncomputable section

namespace Cert.ReferenceIdeal.HandR

open Cert.ReferenceIdeal Cert.ReferenceIdeal.Gen Idealize.ShloMosaic Idealize.ShloMosaic.TcCoe Idealize.SL.Sem Idealize.ShloMosaic.StableHlo

variable {F : FTy → Type} [FloatOps F]

/-! ### Operations 31 … 42 of @main -/

/-- Operations 31 … 42 of @main, in order. -/
def chunk5 : List (HloOp τ sig (Elt F)) :=
  [ nullary main_c_4 (constantI S_ 32 0#32),
    unary main_c_4 main_v23 (broadcastInDim S330000 ![] bcast_S_S330000 : (⟨S_, .i32⟩ : BufTy).Contents (Elt F) → (⟨S330000, .i32⟩ : BufTy).Contents (Elt F)),
    binary main_v7 main_v23 main_v24 (cmpi .slt : (⟨S330000, .i32⟩ : BufTy).Contents (Elt F) → (⟨S330000, .i32⟩ : BufTy).Contents (Elt F) → (⟨S330000, .i1⟩ : BufTy).Contents (Elt F)),
    nullary main_c_5 (constantI S_ 32 10000#32),
    unary main_c_5 main_v25 (broadcastInDim S330000 ![] bcast_S_S330000 : (⟨S_, .i32⟩ : BufTy).Contents (Elt F) → (⟨S330000, .i32⟩ : BufTy).Contents (Elt F)),
    binary main_v7 main_v25 main_v26 (addi : (⟨S330000, .i32⟩ : BufTy).Contents (Elt F) → (⟨S330000, .i32⟩ : BufTy).Contents (Elt F) → (⟨S330000, .i32⟩ : BufTy).Contents (Elt F)),
    ternary main_v24 main_v26 main_v7 main_v27 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v27 main_v28 (broadcastInDim S330000x1 ![0] bcast_S330000_S330000x1_0 : (⟨S330000, .i32⟩ : BufTy).Contents (Elt F) → (⟨S330000x1, .i32⟩ : BufTy).Contents (Elt F)),
    binary main_v15 main_v28 main_v29 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    binary main_v22 main_v29 main_v30 (mulf : (⟨S330000, .f32⟩ : BufTy).Contents (Elt F) → (⟨S330000, .f32⟩ : BufTy).Contents (Elt F) → (⟨S330000, .f32⟩ : BufTy).Contents (Elt F)),
    binary main_arg0 main_arg2 main_v31 ((fun l r => Host.dotGeneral dot_S10000x256_S256x220_S10000x220_1_0_0_1_n_n none l r) : (⟨S10000x256, .f32⟩ : BufTy).Contents (Elt F) → (⟨S256x220, .f32⟩ : BufTy).Contents (Elt F) → (⟨S10000x220, .f32⟩ : BufTy).Contents (Elt F)),
    nullary main_c_6 (constantI S_ 32 0#32) ]

/-- The buffers they write. -/
def writes5 : List (Ref sig .tc) := [main_c_4, main_v23, main_v24, main_c_5, main_v25, main_v26, main_v27, main_v28, main_v29, main_v30, main_v31, main_c_6]

theorem chunk5_writes : (chunk5 (F := F)).Forall fun op => op.writes ⊆ ((writes5.map (Proc.devRef (τ := τ) .tc)).toFinset) := by
  unfold chunk5
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk5_frame (W : Valuation τ sig (Elt F)) {r : Ref sig .tc} (hr : r ∉ writes5) :
    after (chunk5 (F := F)) W (Proc.devRef .tc r) = W (Proc.devRef .tc r) :=
  after_of_writes_sub _ W chunk5_writes hr

theorem c5_main_v30 (W : Valuation τ sig (Elt F)) (x1 : (⟨S2x320000, .i32⟩ : BufTy).Contents (Elt F))
    (h_main_v22 : W (Proc.devRef .tc main_v22) = ReadP.val_main_v22 (F := F) x1)
    (h_main_v15 : W (Proc.devRef .tc main_v15) = ReadP.val_main_v15 (F := F) x1)
    (h_main_v7 : W (Proc.devRef .tc main_v7) = ReadP.val_main_v7 (F := F) x1)
    : after (chunk5 (F := F)) W (Proc.devRef .tc main_v30) = ReadP.val_main_v30 (F := F) x1 := by
  unfold chunk5
  after_results_simp
  rw [h_main_v22, h_main_v15, h_main_v7]
  rfl

theorem c5_main_v31 (W : Valuation τ sig (Elt F)) (x0 : (⟨S10000x256, .f32⟩ : BufTy).Contents (Elt F)) (x2 : (⟨S256x220, .f32⟩ : BufTy).Contents (Elt F))
    (h_main_arg0 : W (Proc.devRef .tc main_arg0) = x0)
    (h_main_arg2 : W (Proc.devRef .tc main_arg2) = x2)
    : after (chunk5 (F := F)) W (Proc.devRef .tc main_v31) = ReadP.val_main_v31 (F := F) x0 x2 := by
  unfold chunk5
  after_results_simp
  rw [h_main_arg0, h_main_arg2]
  rfl

theorem c5_main_c_6 (W : Valuation τ sig (Elt F))
    : after (chunk5 (F := F)) W (Proc.devRef .tc main_c_6) = ReadP.val_main_c_6 (F := F) := by
  unfold chunk5
  after_results_simp
  rfl

/-! ### Operations 43 … 54 of @main -/

/-- Operations 43 … 54 of @main, in order. -/
def chunk6 : List (HloOp τ sig (Elt F)) :=
  [ unary main_c_6 main_v32 (broadcastInDim S330000 ![] bcast_S_S330000 : (⟨S_, .i32⟩ : BufTy).Contents (Elt F) → (⟨S330000, .i32⟩ : BufTy).Contents (Elt F)),
    binary main_v3 main_v32 main_v33 (cmpi .slt : (⟨S330000, .i32⟩ : BufTy).Contents (Elt F) → (⟨S330000, .i32⟩ : BufTy).Contents (Elt F) → (⟨S330000, .i1⟩ : BufTy).Contents (Elt F)),
    nullary main_c_7 (constantI S_ 32 10000#32),
    unary main_c_7 main_v34 (broadcastInDim S330000 ![] bcast_S_S330000 : (⟨S_, .i32⟩ : BufTy).Contents (Elt F) → (⟨S330000, .i32⟩ : BufTy).Contents (Elt F)),
    binary main_v3 main_v34 main_v35 (addi : (⟨S330000, .i32⟩ : BufTy).Contents (Elt F) → (⟨S330000, .i32⟩ : BufTy).Contents (Elt F) → (⟨S330000, .i32⟩ : BufTy).Contents (Elt F)),
    ternary main_v33 main_v35 main_v3 main_v36 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v36 main_v37 (broadcastInDim S330000x1 ![0] bcast_S330000_S330000x1_0 : (⟨S330000, .i32⟩ : BufTy).Contents (Elt F) → (⟨S330000x1, .i32⟩ : BufTy).Contents (Elt F)),
    binary main_v31 main_v37 main_v38 ((fun x i => Host.gather gather_S10000x220_S330000x1_S330000x220_1_0_n_n_0_1_1220 x i) : (⟨S10000x220, .f32⟩ : BufTy).Contents (Elt F) → (⟨S330000x1, .i32⟩ : BufTy).Contents (Elt F) → (⟨S330000x220, .f32⟩ : BufTy).Contents (Elt F)),
    unary main_v30 main_v39 (broadcastInDim S330000x1 ![0] bcast_S330000_S330000x1_0 : (⟨S330000, .f32⟩ : BufTy).Contents (Elt F) → (⟨S330000x1, .f32⟩ : BufTy).Contents (Elt F)),
    unary main_v39 main_v40 (broadcastInDim S330000x220 ![0, 1] bcast_S330000x1_S330000x220_0_1 : (⟨S330000x1, .f32⟩ : BufTy).Contents (Elt F) → (⟨S330000x220, .f32⟩ : BufTy).Contents (Elt F)),
    binary main_v38 main_v40 main_v41 (mulf : (⟨S330000x220, .f32⟩ : BufTy).Contents (Elt F) → (⟨S330000x220, .f32⟩ : BufTy).Contents (Elt F) → (⟨S330000x220, .f32⟩ : BufTy).Contents (Elt F)),
    nullary main_cst_8 (constant S_ .f32 0x00000000#32) ]

/-- The buffers they write. -/
def writes6 : List (Ref sig .tc) := [main_v32, main_v33, main_c_7, main_v34, main_v35, main_v36, main_v37, main_v38, main_v39, main_v40, main_v41, main_cst_8]

theorem chunk6_writes : (chunk6 (F := F)).Forall fun op => op.writes ⊆ ((writes6.map (Proc.devRef (τ := τ) .tc)).toFinset) := by
  unfold chunk6
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk6_frame (W : Valuation τ sig (Elt F)) {r : Ref sig .tc} (hr : r ∉ writes6) :
    after (chunk6 (F := F)) W (Proc.devRef .tc r) = W (Proc.devRef .tc r) :=
  after_of_writes_sub _ W chunk6_writes hr

theorem c6_main_v41 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F))
    (h_main_v31 : W (Proc.devRef .tc main_v31) = ReadP.val_main_v31 (F := F) x0 x2)
    (h_main_v3 : W (Proc.devRef .tc main_v3) = ReadP.val_main_v3 (F := F) x1)
    (h_main_c_6 : W (Proc.devRef .tc main_c_6) = ReadP.val_main_c_6 (F := F))
    (h_main_v30 : W (Proc.devRef .tc main_v30) = ReadP.val_main_v30 (F := F) x1)
    : after (chunk6 (F := F)) W (Proc.devRef .tc main_v41) = ReadP.val_main_v41 (F := F) x0 x1 x2 := by
  unfold chunk6
  after_results_simp
  rw [h_main_v31, h_main_v3, h_main_c_6, h_main_v30]
  rfl

theorem c6_main_cst_8 (W : Valuation τ sig (Elt F))
    : after (chunk6 (F := F)) W (Proc.devRef .tc main_cst_8) = ReadP.val_main_cst_8 (F := F) := by
  unfold chunk6
  after_results_simp
  rfl

/-! ### Operations 55 … 66 of @main -/

/-- Operations 55 … 66 of @main, in order. -/
def chunk7 : List (HloOp τ sig (Elt F)) :=
  [ unary main_cst_8 main_v42 (broadcastInDim S10000x220 ![] bcast_S_S10000x220 : (⟨S_, .f32⟩ : BufTy).Contents (Elt F) → (⟨S10000x220, .f32⟩ : BufTy).Contents (Elt F)),
    unary main_v7 main_v43 (broadcastInDim S330000x1 ![0] bcast_S330000_S330000x1_0 : (⟨S330000, .i32⟩ : BufTy).Contents (Elt F) → (⟨S330000x1, .i32⟩ : BufTy).Contents (Elt F)),
    ternary main_v42 main_v43 main_v41 main_v44 ((fun x i u => Host.scatterAdd scatter_S10000x220_S330000x1_S330000x220_1_0_0_1 x i u) : (⟨S10000x220, .f32⟩ : BufTy).Contents (Elt F) → (⟨S330000x1, .i32⟩ : BufTy).Contents (Elt F) → (⟨S330000x220, .f32⟩ : BufTy).Contents (Elt F) → (⟨S10000x220, .f32⟩ : BufTy).Contents (Elt F)),
    unary main_arg3 main_v45 (broadcastInDim S1x220 ![1] bcast_S220_S1x220_1 : (⟨S220, .f32⟩ : BufTy).Contents (Elt F) → (⟨S1x220, .f32⟩ : BufTy).Contents (Elt F)),
    unary main_v45 main_v46 (broadcastInDim S10000x220 ![0, 1] bcast_S1x220_S10000x220_0_1 : (⟨S1x220, .f32⟩ : BufTy).Contents (Elt F) → (⟨S10000x220, .f32⟩ : BufTy).Contents (Elt F)),
    binary main_v44 main_v46 main_v47 (addf : (⟨S10000x220, .f32⟩ : BufTy).Contents (Elt F) → (⟨S10000x220, .f32⟩ : BufTy).Contents (Elt F) → (⟨S10000x220, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x220, .f32⟩) main_call1_v0) (broadcastInDim S10000x220 ![] bcast_S_S10000x220),
    TRef.binary (TRef.of (T := ⟨S10000x220, .f32⟩) main_v47) (TRef.of (T := ⟨S10000x220, .f32⟩) main_call1_v0) (TRef.of (T := ⟨S10000x220, .f32⟩) main_v48) maximumf,
    nullary main_cst_9 (constant S_ .f32 0x00000000#32),
    binary main_v48 main_cst_9 main_v49 ((fun x v => Host.reduceAdd x v reducesTo_S10000x220_S220_d0 h_S_) : (⟨S10000x220, .f32⟩ : BufTy).Contents (Elt F) → (⟨S_, .f32⟩ : BufTy).Contents (Elt F) → (⟨S220, .f32⟩ : BufTy).Contents (Elt F)),
    nullary main_cst_10 (constant S_ .f32 0x461C4000#32) ]

/-- The buffers they write. -/
def writes7 : List (Ref sig .tc) := [main_v42, main_v43, main_v44, main_v45, main_v46, main_v47, main_call1_cst, main_call1_v0, main_v48, main_cst_9, main_v49, main_cst_10]

theorem chunk7_writes : (chunk7 (F := F)).Forall fun op => op.writes ⊆ ((writes7.map (Proc.devRef (τ := τ) .tc)).toFinset) := by
  unfold chunk7
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk7_frame (W : Valuation τ sig (Elt F)) {r : Ref sig .tc} (hr : r ∉ writes7) :
    after (chunk7 (F := F)) W (Proc.devRef .tc r) = W (Proc.devRef .tc r) :=
  after_of_writes_sub _ W chunk7_writes hr

theorem c7_main_v48 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F))
    (h_main_cst_8 : W (Proc.devRef .tc main_cst_8) = ReadP.val_main_cst_8 (F := F))
    (h_main_v7 : W (Proc.devRef .tc main_v7) = ReadP.val_main_v7 (F := F) x1)
    (h_main_v41 : W (Proc.devRef .tc main_v41) = ReadP.val_main_v41 (F := F) x0 x1 x2)
    (h_main_arg3 : W (Proc.devRef .tc main_arg3) = x3)
    : after (chunk7 (F := F)) W (Proc.devRef .tc main_v48) = ReadP.val_main_v48 (F := F) x0 x1 x2 x3 := by
  unfold chunk7
  after_results_simp
  rw [h_main_cst_8, h_main_v7, h_main_v41, h_main_arg3]
  rfl

theorem c7_main_v49 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F))
    (h_main_cst_8 : W (Proc.devRef .tc main_cst_8) = ReadP.val_main_cst_8 (F := F))
    (h_main_v7 : W (Proc.devRef .tc main_v7) = ReadP.val_main_v7 (F := F) x1)
    (h_main_v41 : W (Proc.devRef .tc main_v41) = ReadP.val_main_v41 (F := F) x0 x1 x2)
    (h_main_arg3 : W (Proc.devRef .tc main_arg3) = x3)
    : after (chunk7 (F := F)) W (Proc.devRef .tc main_v49) = ReadP.val_main_v49 (F := F) x0 x1 x2 x3 := by
  unfold chunk7
  after_results_simp
  rw [h_main_cst_8, h_main_v7, h_main_v41, h_main_arg3]
  rfl

theorem c7_main_cst_10 (W : Valuation τ sig (Elt F))
    : after (chunk7 (F := F)) W (Proc.devRef .tc main_cst_10) = ReadP.val_main_cst_10 (F := F) := by
  unfold chunk7
  after_results_simp
  rfl

/-! ### Operations 67 … 78 of @main -/

/-- Operations 67 … 78 of @main, in order. -/
def chunk8 : List (HloOp τ sig (Elt F)) :=
  [ unary main_cst_10 main_v50 (broadcastInDim S220 ![] bcast_S_S220 : (⟨S_, .f32⟩ : BufTy).Contents (Elt F) → (⟨S220, .f32⟩ : BufTy).Contents (Elt F)),
    binary main_v49 main_v50 main_v51 (Host.divf : (⟨S220, .f32⟩ : BufTy).Contents (Elt F) → (⟨S220, .f32⟩ : BufTy).Contents (Elt F) → (⟨S220, .f32⟩ : BufTy).Contents (Elt F)),
    unary main_v51 main_v52 (broadcastInDim S1x220 ![1] bcast_S220_S1x220_1 : (⟨S220, .f32⟩ : BufTy).Contents (Elt F) → (⟨S1x220, .f32⟩ : BufTy).Contents (Elt F)),
    unary main_v52 main_v53 (broadcastInDim S10000x220 ![0, 1] bcast_S1x220_S10000x220_0_1 : (⟨S1x220, .f32⟩ : BufTy).Contents (Elt F) → (⟨S10000x220, .f32⟩ : BufTy).Contents (Elt F)),
    binary main_v48 main_v53 main_v54 (subf : (⟨S10000x220, .f32⟩ : BufTy).Contents (Elt F) → (⟨S10000x220, .f32⟩ : BufTy).Contents (Elt F) → (⟨S10000x220, .f32⟩ : BufTy).Contents (Elt F)),
    binary main_v54 main_v54 main_v55 (mulf : (⟨S10000x220, .f32⟩ : BufTy).Contents (Elt F) → (⟨S10000x220, .f32⟩ : BufTy).Contents (Elt F) → (⟨S10000x220, .f32⟩ : BufTy).Contents (Elt F)),
    nullary main_cst_11 (constant S_ .f32 0x00000000#32),
    binary main_v55 main_cst_11 main_v56 ((fun x v => Host.reduceAdd x v reducesTo_S10000x220_S220_d0 h_S_) : (⟨S10000x220, .f32⟩ : BufTy).Contents (Elt F) → (⟨S_, .f32⟩ : BufTy).Contents (Elt F) → (⟨S220, .f32⟩ : BufTy).Contents (Elt F)),
    nullary main_cst_12 (constant S_ .f32 0x461C4000#32),
    unary main_cst_12 main_v57 (broadcastInDim S220 ![] bcast_S_S220 : (⟨S_, .f32⟩ : BufTy).Contents (Elt F) → (⟨S220, .f32⟩ : BufTy).Contents (Elt F)),
    binary main_v56 main_v57 main_v58 (Host.divf : (⟨S220, .f32⟩ : BufTy).Contents (Elt F) → (⟨S220, .f32⟩ : BufTy).Contents (Elt F) → (⟨S220, .f32⟩ : BufTy).Contents (Elt F)),
    unary main_v51 main_v59 (broadcastInDim S1x220 ![1] bcast_S220_S1x220_1 : (⟨S220, .f32⟩ : BufTy).Contents (Elt F) → (⟨S1x220, .f32⟩ : BufTy).Contents (Elt F)) ]

/-- The buffers they write. -/
def writes8 : List (Ref sig .tc) := [main_v50, main_v51, main_v52, main_v53, main_v54, main_v55, main_cst_11, main_v56, main_cst_12, main_v57, main_v58, main_v59]

theorem chunk8_writes : (chunk8 (F := F)).Forall fun op => op.writes ⊆ ((writes8.map (Proc.devRef (τ := τ) .tc)).toFinset) := by
  unfold chunk8
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk8_frame (W : Valuation τ sig (Elt F)) {r : Ref sig .tc} (hr : r ∉ writes8) :
    after (chunk8 (F := F)) W (Proc.devRef .tc r) = W (Proc.devRef .tc r) :=
  after_of_writes_sub _ W chunk8_writes hr

theorem c8_main_v58 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F))
    (h_main_v48 : W (Proc.devRef .tc main_v48) = ReadP.val_main_v48 (F := F) x0 x1 x2 x3)
    (h_main_v49 : W (Proc.devRef .tc main_v49) = ReadP.val_main_v49 (F := F) x0 x1 x2 x3)
    (h_main_cst_10 : W (Proc.devRef .tc main_cst_10) = ReadP.val_main_cst_10 (F := F))
    : after (chunk8 (F := F)) W (Proc.devRef .tc main_v58) = ReadP.val_main_v58 (F := F) x0 x1 x2 x3 := by
  unfold chunk8
  after_results_simp
  rw [h_main_v48, h_main_v49, h_main_cst_10]
  rfl

theorem c8_main_v59 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F))
    (h_main_v49 : W (Proc.devRef .tc main_v49) = ReadP.val_main_v49 (F := F) x0 x1 x2 x3)
    (h_main_cst_10 : W (Proc.devRef .tc main_cst_10) = ReadP.val_main_cst_10 (F := F))
    : after (chunk8 (F := F)) W (Proc.devRef .tc main_v59) = ReadP.val_main_v59 (F := F) x0 x1 x2 x3 := by
  unfold chunk8
  after_results_simp
  rw [h_main_v49, h_main_cst_10]
  rfl

end Cert.ReferenceIdeal.HandR

end
-- ==== Proof.RefStages3.lean ====
/- The reference program's operations as consecutive short lists, and what each list leaves in the buffers it writes:
   from contents W in which every buffer a list reads holds its stage's value (ReadP.val_…) of the launch arguments
   x0 …, the buffer of each stage the list computes ends at that stage's value. Only the buffers a later list (or the
   result) reads are stated. A list is opened once per stated buffer (the fold's result lemmas), the facts about what it
   reads are rewritten in, and the stage's definition closes the rest by unfolding one level per operation. -/
import proofs.«408066_j62380105008311_2_alg».proof.Proof.RefRead
import Idealize.ShloMosaic.Lib.StableHlo.Run

noncomputable section

namespace Cert.ReferenceIdeal.HandR

open Cert.ReferenceIdeal Cert.ReferenceIdeal.Gen Idealize.ShloMosaic Idealize.ShloMosaic.TcCoe Idealize.SL.Sem Idealize.ShloMosaic.StableHlo

variable {F : FTy → Type} [FloatOps F]

/-! ### Operations 79 … 90 of @main -/

/-- Operations 79 … 90 of @main, in order. -/
def chunk9 : List (HloOp τ sig (Elt F)) :=
  [ unary main_v59 main_v60 (broadcastInDim S10000x220 ![0, 1] bcast_S1x220_S10000x220_0_1 : (⟨S1x220, .f32⟩ : BufTy).Contents (Elt F) → (⟨S10000x220, .f32⟩ : BufTy).Contents (Elt F)),
    binary main_v48 main_v60 main_v61 (subf : (⟨S10000x220, .f32⟩ : BufTy).Contents (Elt F) → (⟨S10000x220, .f32⟩ : BufTy).Contents (Elt F) → (⟨S10000x220, .f32⟩ : BufTy).Contents (Elt F)),
    nullary main_cst_13 (constant S_ .f32 0x3727C5AC#32),
    unary main_cst_13 main_v62 (broadcastInDim S220 ![] bcast_S_S220 : (⟨S_, .f32⟩ : BufTy).Contents (Elt F) → (⟨S220, .f32⟩ : BufTy).Contents (Elt F)),
    binary main_v58 main_v62 main_v63 (addf : (⟨S220, .f32⟩ : BufTy).Contents (Elt F) → (⟨S220, .f32⟩ : BufTy).Contents (Elt F) → (⟨S220, .f32⟩ : BufTy).Contents (Elt F)),
    unary main_v63 main_v64 (Host.rsqrt : (⟨S220, .f32⟩ : BufTy).Contents (Elt F) → (⟨S220, .f32⟩ : BufTy).Contents (Elt F)),
    unary main_v64 main_v65 (broadcastInDim S1x220 ![1] bcast_S220_S1x220_1 : (⟨S220, .f32⟩ : BufTy).Contents (Elt F) → (⟨S1x220, .f32⟩ : BufTy).Contents (Elt F)),
    unary main_v65 main_v66 (broadcastInDim S10000x220 ![0, 1] bcast_S1x220_S10000x220_0_1 : (⟨S1x220, .f32⟩ : BufTy).Contents (Elt F) → (⟨S10000x220, .f32⟩ : BufTy).Contents (Elt F)),
    binary main_v61 main_v66 main_v67 (mulf : (⟨S10000x220, .f32⟩ : BufTy).Contents (Elt F) → (⟨S10000x220, .f32⟩ : BufTy).Contents (Elt F) → (⟨S10000x220, .f32⟩ : BufTy).Contents (Elt F)),
    unary main_arg12 main_v68 (broadcastInDim S1x220 ![1] bcast_S220_S1x220_1 : (⟨S220, .f32⟩ : BufTy).Contents (Elt F) → (⟨S1x220, .f32⟩ : BufTy).Contents (Elt F)),
    unary main_v68 main_v69 (broadcastInDim S10000x220 ![0, 1] bcast_S1x220_S10000x220_0_1 : (⟨S1x220, .f32⟩ : BufTy).Contents (Elt F) → (⟨S10000x220, .f32⟩ : BufTy).Contents (Elt F)),
    binary main_v67 main_v69 main_v70 (mulf : (⟨S10000x220, .f32⟩ : BufTy).Contents (Elt F) → (⟨S10000x220, .f32⟩ : BufTy).Contents (Elt F) → (⟨S10000x220, .f32⟩ : BufTy).Contents (Elt F)) ]

/-- The buffers they write. -/
def writes9 : List (Ref sig .tc) := [main_v60, main_v61, main_cst_13, main_v62, main_v63, main_v64, main_v65, main_v66, main_v67, main_v68, main_v69, main_v70]

theorem chunk9_writes : (chunk9 (F := F)).Forall fun op => op.writes ⊆ ((writes9.map (Proc.devRef (τ := τ) .tc)).toFinset) := by
  unfold chunk9
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk9_frame (W : Valuation τ sig (Elt F)) {r : Ref sig .tc} (hr : r ∉ writes9) :
    after (chunk9 (F := F)) W (Proc.devRef .tc r) = W (Proc.devRef .tc r) :=
  after_of_writes_sub _ W chunk9_writes hr

theorem c9_main_v70 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x12 : (⟨S220, .f32⟩ : BufTy).Contents (Elt F))
    (h_main_v48 : W (Proc.devRef .tc main_v48) = ReadP.val_main_v48 (F := F) x0 x1 x2 x3)
    (h_main_v59 : W (Proc.devRef .tc main_v59) = ReadP.val_main_v59 (F := F) x0 x1 x2 x3)
    (h_main_v58 : W (Proc.devRef .tc main_v58) = ReadP.val_main_v58 (F := F) x0 x1 x2 x3)
    (h_main_arg12 : W (Proc.devRef .tc main_arg12) = x12)
    : after (chunk9 (F := F)) W (Proc.devRef .tc main_v70) = ReadP.val_main_v70 (F := F) x0 x1 x2 x3 x12 := by
  unfold chunk9
  after_results_simp
  rw [h_main_v48, h_main_v59, h_main_v58, h_main_arg12]
  rfl

/-! ### Operations 91 … 102 of @main -/

/-- Operations 91 … 102 of @main, in order. -/
def chunk10 : List (HloOp τ sig (Elt F)) :=
  [ unary main_arg13 main_v71 (broadcastInDim S1x220 ![1] bcast_S220_S1x220_1 : (⟨S220, .f32⟩ : BufTy).Contents (Elt F) → (⟨S1x220, .f32⟩ : BufTy).Contents (Elt F)),
    unary main_v71 main_v72 (broadcastInDim S10000x220 ![0, 1] bcast_S1x220_S10000x220_0_1 : (⟨S1x220, .f32⟩ : BufTy).Contents (Elt F) → (⟨S10000x220, .f32⟩ : BufTy).Contents (Elt F)),
    binary main_v70 main_v72 main_v73 (addf : (⟨S10000x220, .f32⟩ : BufTy).Contents (Elt F) → (⟨S10000x220, .f32⟩ : BufTy).Contents (Elt F) → (⟨S10000x220, .f32⟩ : BufTy).Contents (Elt F)),
    binary main_v73 main_arg4 main_v74 ((fun l r => Host.dotGeneral dot_S10000x220_S220x150_S10000x150_1_0_0_1_n_n none l r) : (⟨S10000x220, .f32⟩ : BufTy).Contents (Elt F) → (⟨S220x150, .f32⟩ : BufTy).Contents (Elt F) → (⟨S10000x150, .f32⟩ : BufTy).Contents (Elt F)),
    nullary main_c_14 (constantI S_ 32 0#32),
    unary main_c_14 main_v75 (broadcastInDim S330000 ![] bcast_S_S330000 : (⟨S_, .i32⟩ : BufTy).Contents (Elt F) → (⟨S330000, .i32⟩ : BufTy).Contents (Elt F)),
    binary main_v3 main_v75 main_v76 (cmpi .slt : (⟨S330000, .i32⟩ : BufTy).Contents (Elt F) → (⟨S330000, .i32⟩ : BufTy).Contents (Elt F) → (⟨S330000, .i1⟩ : BufTy).Contents (Elt F)),
    nullary main_c_15 (constantI S_ 32 10000#32),
    unary main_c_15 main_v77 (broadcastInDim S330000 ![] bcast_S_S330000 : (⟨S_, .i32⟩ : BufTy).Contents (Elt F) → (⟨S330000, .i32⟩ : BufTy).Contents (Elt F)),
    binary main_v3 main_v77 main_v78 (addi : (⟨S330000, .i32⟩ : BufTy).Contents (Elt F) → (⟨S330000, .i32⟩ : BufTy).Contents (Elt F) → (⟨S330000, .i32⟩ : BufTy).Contents (Elt F)),
    ternary main_v76 main_v78 main_v3 main_v79 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v79 main_v80 (broadcastInDim S330000x1 ![0] bcast_S330000_S330000x1_0 : (⟨S330000, .i32⟩ : BufTy).Contents (Elt F) → (⟨S330000x1, .i32⟩ : BufTy).Contents (Elt F)) ]

/-- The buffers they write. -/
def writes10 : List (Ref sig .tc) := [main_v71, main_v72, main_v73, main_v74, main_c_14, main_v75, main_v76, main_c_15, main_v77, main_v78, main_v79, main_v80]

theorem chunk10_writes : (chunk10 (F := F)).Forall fun op => op.writes ⊆ ((writes10.map (Proc.devRef (τ := τ) .tc)).toFinset) := by
  unfold chunk10
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk10_frame (W : Valuation τ sig (Elt F)) {r : Ref sig .tc} (hr : r ∉ writes10) :
    after (chunk10 (F := F)) W (Proc.devRef .tc r) = W (Proc.devRef .tc r) :=
  after_of_writes_sub _ W chunk10_writes hr

theorem c10_main_v74 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x12 : (⟨S220, .f32⟩ : BufTy).Contents (Elt F)) (x13 : (⟨S220, .f32⟩ : BufTy).Contents (Elt F))
    (h_main_v70 : W (Proc.devRef .tc main_v70) = ReadP.val_main_v70 (F := F) x0 x1 x2 x3 x12)
    (h_main_arg13 : W (Proc.devRef .tc main_arg13) = x13)
    (h_main_arg4 : W (Proc.devRef .tc main_arg4) = x4)
    : after (chunk10 (F := F)) W (Proc.devRef .tc main_v74) = ReadP.val_main_v74 (F := F) x0 x1 x2 x3 x4 x12 x13 := by
  unfold chunk10
  after_results_simp
  rw [h_main_v70, h_main_arg13, h_main_arg4]
  rfl

theorem c10_main_v80 (W : Valuation τ sig (Elt F)) (x1 : (⟨S2x320000, .i32⟩ : BufTy).Contents (Elt F))
    (h_main_v3 : W (Proc.devRef .tc main_v3) = ReadP.val_main_v3 (F := F) x1)
    : after (chunk10 (F := F)) W (Proc.devRef .tc main_v80) = ReadP.val_main_v80 (F := F) x1 := by
  unfold chunk10
  after_results_simp
  rw [h_main_v3]
  rfl

/-! ### Operations 103 … 114 of @main -/

/-- Operations 103 … 114 of @main, in order. -/
def chunk11 : List (HloOp τ sig (Elt F)) :=
  [ binary main_v74 main_v80 main_v81 ((fun x i => Host.gather gather_S10000x150_S330000x1_S330000x150_1_0_n_n_0_1_1150 x i) : (⟨S10000x150, .f32⟩ : BufTy).Contents (Elt F) → (⟨S330000x1, .i32⟩ : BufTy).Contents (Elt F) → (⟨S330000x150, .f32⟩ : BufTy).Contents (Elt F)),
    unary main_v30 main_v82 (broadcastInDim S330000x1 ![0] bcast_S330000_S330000x1_0 : (⟨S330000, .f32⟩ : BufTy).Contents (Elt F) → (⟨S330000x1, .f32⟩ : BufTy).Contents (Elt F)),
    unary main_v82 main_v83 (broadcastInDim S330000x150 ![0, 1] bcast_S330000x1_S330000x150_0_1 : (⟨S330000x1, .f32⟩ : BufTy).Contents (Elt F) → (⟨S330000x150, .f32⟩ : BufTy).Contents (Elt F)),
    binary main_v81 main_v83 main_v84 (mulf : (⟨S330000x150, .f32⟩ : BufTy).Contents (Elt F) → (⟨S330000x150, .f32⟩ : BufTy).Contents (Elt F) → (⟨S330000x150, .f32⟩ : BufTy).Contents (Elt F)),
    nullary main_cst_16 (constant S_ .f32 0x00000000#32),
    unary main_cst_16 main_v85 (broadcastInDim S10000x150 ![] bcast_S_S10000x150 : (⟨S_, .f32⟩ : BufTy).Contents (Elt F) → (⟨S10000x150, .f32⟩ : BufTy).Contents (Elt F)),
    unary main_v7 main_v86 (broadcastInDim S330000x1 ![0] bcast_S330000_S330000x1_0 : (⟨S330000, .i32⟩ : BufTy).Contents (Elt F) → (⟨S330000x1, .i32⟩ : BufTy).Contents (Elt F)),
    ternary main_v85 main_v86 main_v84 main_v87 ((fun x i u => Host.scatterAdd scatter_S10000x150_S330000x1_S330000x150_1_0_0_1 x i u) : (⟨S10000x150, .f32⟩ : BufTy).Contents (Elt F) → (⟨S330000x1, .i32⟩ : BufTy).Contents (Elt F) → (⟨S330000x150, .f32⟩ : BufTy).Contents (Elt F) → (⟨S10000x150, .f32⟩ : BufTy).Contents (Elt F)),
    unary main_arg5 main_v88 (broadcastInDim S1x150 ![1] bcast_S150_S1x150_1 : (⟨S150, .f32⟩ : BufTy).Contents (Elt F) → (⟨S1x150, .f32⟩ : BufTy).Contents (Elt F)),
    unary main_v88 main_v89 (broadcastInDim S10000x150 ![0, 1] bcast_S1x150_S10000x150_0_1 : (⟨S1x150, .f32⟩ : BufTy).Contents (Elt F) → (⟨S10000x150, .f32⟩ : BufTy).Contents (Elt F)),
    binary main_v87 main_v89 main_v90 (addf : (⟨S10000x150, .f32⟩ : BufTy).Contents (Elt F) → (⟨S10000x150, .f32⟩ : BufTy).Contents (Elt F) → (⟨S10000x150, .f32⟩ : BufTy).Contents (Elt F)),
    TRef.nullary (TRef.of (T := ⟨S_, .f32⟩) main_call2_cst) (constant S_ .f32 0x00000000#32) ]

/-- The buffers they write. -/
def writes11 : List (Ref sig .tc) := [main_v81, main_v82, main_v83, main_v84, main_cst_16, main_v85, main_v86, main_v87, main_v88, main_v89, main_v90, main_call2_cst]

theorem chunk11_writes : (chunk11 (F := F)).Forall fun op => op.writes ⊆ ((writes11.map (Proc.devRef (τ := τ) .tc)).toFinset) := by
  unfold chunk11
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk11_frame (W : Valuation τ sig (Elt F)) {r : Ref sig .tc} (hr : r ∉ writes11) :
    after (chunk11 (F := F)) W (Proc.devRef .tc r) = W (Proc.devRef .tc r) :=
  after_of_writes_sub _ W chunk11_writes hr

theorem c11_main_v90 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x12 : (⟨S220, .f32⟩ : BufTy).Contents (Elt F)) (x13 : (⟨S220, .f32⟩ : BufTy).Contents (Elt F))
    (h_main_v7 : W (Proc.devRef .tc main_v7) = ReadP.val_main_v7 (F := F) x1)
    (h_main_v74 : W (Proc.devRef .tc main_v74) = ReadP.val_main_v74 (F := F) x0 x1 x2 x3 x4 x12 x13)
    (h_main_v80 : W (Proc.devRef .tc main_v80) = ReadP.val_main_v80 (F := F) x1)
    (h_main_v30 : W (Proc.devRef .tc main_v30) = ReadP.val_main_v30 (F := F) x1)
    (h_main_arg5 : W (Proc.devRef .tc main_arg5) = x5)
    : after (chunk11 (F := F)) W (Proc.devRef .tc main_v90) = ReadP.val_main_v90 (F := F) x0 x1 x2 x3 x4 x5 x12 x13 := by
  unfold chunk11
  after_results_simp
  rw [h_main_v7, h_main_v74, h_main_v80, h_main_v30, h_main_arg5]
  rfl

theorem c11_main_call2_cst (W : Valuation τ sig (Elt F))
    : after (chunk11 (F := F)) W (Proc.devRef .tc main_call2_cst) = ReadP.val_main_call2_cst (F := F) := by
  unfold chunk11
  after_results_simp
  rfl

/-! ### Operations 115 … 126 of @main -/

/-- Operations 115 … 126 of @main, in order. -/
def chunk12 : List (HloOp τ sig (Elt F)) :=
  [ TRef.unary (TRef.of (T := ⟨S_, .f32⟩) main_call2_cst) (TRef.of (T := ⟨S10000x150, .f32⟩) main_call2_v0) (broadcastInDim S10000x150 ![] bcast_S_S10000x150),
    TRef.binary (TRef.of (T := ⟨S10000x150, .f32⟩) main_v90) (TRef.of (T := ⟨S10000x150, .f32⟩) main_call2_v0) (TRef.of (T := ⟨S10000x150, .f32⟩) main_v91) maximumf,
    nullary main_cst_17 (constant S_ .f32 0x00000000#32),
    binary main_v91 main_cst_17 main_v92 ((fun x v => Host.reduceAdd x v reducesTo_S10000x150_S150_d0 h_S_) : (⟨S10000x150, .f32⟩ : BufTy).Contents (Elt F) → (⟨S_, .f32⟩ : BufTy).Contents (Elt F) → (⟨S150, .f32⟩ : BufTy).Contents (Elt F)),
    nullary main_cst_18 (constant S_ .f32 0x461C4000#32),
    unary main_cst_18 main_v93 (broadcastInDim S150 ![] bcast_S_S150 : (⟨S_, .f32⟩ : BufTy).Contents (Elt F) → (⟨S150, .f32⟩ : BufTy).Contents (Elt F)),
    binary main_v92 main_v93 main_v94 (Host.divf : (⟨S150, .f32⟩ : BufTy).Contents (Elt F) → (⟨S150, .f32⟩ : BufTy).Contents (Elt F) → (⟨S150, .f32⟩ : BufTy).Contents (Elt F)),
    unary main_v94 main_v95 (broadcastInDim S1x150 ![1] bcast_S150_S1x150_1 : (⟨S150, .f32⟩ : BufTy).Contents (Elt F) → (⟨S1x150, .f32⟩ : BufTy).Contents (Elt F)),
    unary main_v95 main_v96 (broadcastInDim S10000x150 ![0, 1] bcast_S1x150_S10000x150_0_1 : (⟨S1x150, .f32⟩ : BufTy).Contents (Elt F) → (⟨S10000x150, .f32⟩ : BufTy).Contents (Elt F)),
    binary main_v91 main_v96 main_v97 (subf : (⟨S10000x150, .f32⟩ : BufTy).Contents (Elt F) → (⟨S10000x150, .f32⟩ : BufTy).Contents (Elt F) → (⟨S10000x150, .f32⟩ : BufTy).Contents (Elt F)),
    binary main_v97 main_v97 main_v98 (mulf : (⟨S10000x150, .f32⟩ : BufTy).Contents (Elt F) → (⟨S10000x150, .f32⟩ : BufTy).Contents (Elt F) → (⟨S10000x150, .f32⟩ : BufTy).Contents (Elt F)),
    nullary main_cst_19 (constant S_ .f32 0x00000000#32) ]

/-- The buffers they write. -/
def writes12 : List (Ref sig .tc) := [main_call2_v0, main_v91, main_cst_17, main_v92, main_cst_18, main_v93, main_v94, main_v95, main_v96, main_v97, main_v98, main_cst_19]

theorem chunk12_writes : (chunk12 (F := F)).Forall fun op => op.writes ⊆ ((writes12.map (Proc.devRef (τ := τ) .tc)).toFinset) := by
  unfold chunk12
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk12_frame (W : Valuation τ sig (Elt F)) {r : Ref sig .tc} (hr : r ∉ writes12) :
    after (chunk12 (F := F)) W (Proc.devRef .tc r) = W (Proc.devRef .tc r) :=
  after_of_writes_sub _ W chunk12_writes hr

theorem c12_main_v91 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x12 : (⟨S220, .f32⟩ : BufTy).Contents (Elt F)) (x13 : (⟨S220, .f32⟩ : BufTy).Contents (Elt F))
    (h_main_v90 : W (Proc.devRef .tc main_v90) = ReadP.val_main_v90 (F := F) x0 x1 x2 x3 x4 x5 x12 x13)
    (h_main_call2_cst : W (Proc.devRef .tc main_call2_cst) = ReadP.val_main_call2_cst (F := F))
    : after (chunk12 (F := F)) W (Proc.devRef .tc main_v91) = ReadP.val_main_v91 (F := F) x0 x1 x2 x3 x4 x5 x12 x13 := by
  unfold chunk12
  after_results_simp
  rw [h_main_v90, h_main_call2_cst]
  rfl

theorem c12_main_v94 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x12 : (⟨S220, .f32⟩ : BufTy).Contents (Elt F)) (x13 : (⟨S220, .f32⟩ : BufTy).Contents (Elt F))
    (h_main_v90 : W (Proc.devRef .tc main_v90) = ReadP.val_main_v90 (F := F) x0 x1 x2 x3 x4 x5 x12 x13)
    (h_main_call2_cst : W (Proc.devRef .tc main_call2_cst) = ReadP.val_main_call2_cst (F := F))
    : after (chunk12 (F := F)) W (Proc.devRef .tc main_v94) = ReadP.val_main_v94 (F := F) x0 x1 x2 x3 x4 x5 x12 x13 := by
  unfold chunk12
  after_results_simp
  rw [h_main_v90, h_main_call2_cst]
  rfl

theorem c12_main_v98 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x12 : (⟨S220, .f32⟩ : BufTy).Contents (Elt F)) (x13 : (⟨S220, .f32⟩ : BufTy).Contents (Elt F))
    (h_main_v90 : W (Proc.devRef .tc main_v90) = ReadP.val_main_v90 (F := F) x0 x1 x2 x3 x4 x5 x12 x13)
    (h_main_call2_cst : W (Proc.devRef .tc main_call2_cst) = ReadP.val_main_call2_cst (F := F))
    : after (chunk12 (F := F)) W (Proc.devRef .tc main_v98) = ReadP.val_main_v98 (F := F) x0 x1 x2 x3 x4 x5 x12 x13 := by
  unfold chunk12
  after_results_simp
  rw [h_main_v90, h_main_call2_cst]
  rfl

theorem c12_main_cst_19 (W : Valuation τ sig (Elt F))
    : after (chunk12 (F := F)) W (Proc.devRef .tc main_cst_19) = ReadP.val_main_cst_19 (F := F) := by
  unfold chunk12
  after_results_simp
  rfl

end Cert.ReferenceIdeal.HandR

end
-- ==== Proof.RefStages4.lean ====
/- The reference program's operations as consecutive short lists, and what each list leaves in the buffers it writes:
   from contents W in which every buffer a list reads holds its stage's value (ReadP.val_…) of the launch arguments
   x0 …, the buffer of each stage the list computes ends at that stage's value. Only the buffers a later list (or the
   result) reads are stated. A list is opened once per stated buffer (the fold's result lemmas), the facts about what it
   reads are rewritten in, and the stage's definition closes the rest by unfolding one level per operation. -/
import proofs.«408066_j62380105008311_2_alg».proof.Proof.RefRead
import Idealize.ShloMosaic.Lib.StableHlo.Run

noncomputable section

namespace Cert.ReferenceIdeal.HandR

open Cert.ReferenceIdeal Cert.ReferenceIdeal.Gen Idealize.ShloMosaic Idealize.ShloMosaic.TcCoe Idealize.SL.Sem Idealize.ShloMosaic.StableHlo

variable {F : FTy → Type} [FloatOps F]

/-! ### Operations 127 … 138 of @main -/

/-- Operations 127 … 138 of @main, in order. -/
def chunk13 : List (HloOp τ sig (Elt F)) :=
  [ binary main_v98 main_cst_19 main_v99 ((fun x v => Host.reduceAdd x v reducesTo_S10000x150_S150_d0 h_S_) : (⟨S10000x150, .f32⟩ : BufTy).Contents (Elt F) → (⟨S_, .f32⟩ : BufTy).Contents (Elt F) → (⟨S150, .f32⟩ : BufTy).Contents (Elt F)),
    nullary main_cst_20 (constant S_ .f32 0x461C4000#32),
    unary main_cst_20 main_v100 (broadcastInDim S150 ![] bcast_S_S150 : (⟨S_, .f32⟩ : BufTy).Contents (Elt F) → (⟨S150, .f32⟩ : BufTy).Contents (Elt F)),
    binary main_v99 main_v100 main_v101 (Host.divf : (⟨S150, .f32⟩ : BufTy).Contents (Elt F) → (⟨S150, .f32⟩ : BufTy).Contents (Elt F) → (⟨S150, .f32⟩ : BufTy).Contents (Elt F)),
    unary main_v94 main_v102 (broadcastInDim S1x150 ![1] bcast_S150_S1x150_1 : (⟨S150, .f32⟩ : BufTy).Contents (Elt F) → (⟨S1x150, .f32⟩ : BufTy).Contents (Elt F)),
    unary main_v102 main_v103 (broadcastInDim S10000x150 ![0, 1] bcast_S1x150_S10000x150_0_1 : (⟨S1x150, .f32⟩ : BufTy).Contents (Elt F) → (⟨S10000x150, .f32⟩ : BufTy).Contents (Elt F)),
    binary main_v91 main_v103 main_v104 (subf : (⟨S10000x150, .f32⟩ : BufTy).Contents (Elt F) → (⟨S10000x150, .f32⟩ : BufTy).Contents (Elt F) → (⟨S10000x150, .f32⟩ : BufTy).Contents (Elt F)),
    nullary main_cst_21 (constant S_ .f32 0x3727C5AC#32),
    unary main_cst_21 main_v105 (broadcastInDim S150 ![] bcast_S_S150 : (⟨S_, .f32⟩ : BufTy).Contents (Elt F) → (⟨S150, .f32⟩ : BufTy).Contents (Elt F)),
    binary main_v101 main_v105 main_v106 (addf : (⟨S150, .f32⟩ : BufTy).Contents (Elt F) → (⟨S150, .f32⟩ : BufTy).Contents (Elt F) → (⟨S150, .f32⟩ : BufTy).Contents (Elt F)),
    unary main_v106 main_v107 (Host.rsqrt : (⟨S150, .f32⟩ : BufTy).Contents (Elt F) → (⟨S150, .f32⟩ : BufTy).Contents (Elt F)),
    unary main_v107 main_v108 (broadcastInDim S1x150 ![1] bcast_S150_S1x150_1 : (⟨S150, .f32⟩ : BufTy).Contents (Elt F) → (⟨S1x150, .f32⟩ : BufTy).Contents (Elt F)) ]

/-- The buffers they write. -/
def writes13 : List (Ref sig .tc) := [main_v99, main_cst_20, main_v100, main_v101, main_v102, main_v103, main_v104, main_cst_21, main_v105, main_v106, main_v107, main_v108]

theorem chunk13_writes : (chunk13 (F := F)).Forall fun op => op.writes ⊆ ((writes13.map (Proc.devRef (τ := τ) .tc)).toFinset) := by
  unfold chunk13
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk13_frame (W : Valuation τ sig (Elt F)) {r : Ref sig .tc} (hr : r ∉ writes13) :
    after (chunk13 (F := F)) W (Proc.devRef .tc r) = W (Proc.devRef .tc r) :=
  after_of_writes_sub _ W chunk13_writes hr

theorem c13_main_v104 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x12 : (⟨S220, .f32⟩ : BufTy).Contents (Elt F)) (x13 : (⟨S220, .f32⟩ : BufTy).Contents (Elt F))
    (h_main_v91 : W (Proc.devRef .tc main_v91) = ReadP.val_main_v91 (F := F) x0 x1 x2 x3 x4 x5 x12 x13)
    (h_main_v94 : W (Proc.devRef .tc main_v94) = ReadP.val_main_v94 (F := F) x0 x1 x2 x3 x4 x5 x12 x13)
    : after (chunk13 (F := F)) W (Proc.devRef .tc main_v104) = ReadP.val_main_v104 (F := F) x0 x1 x2 x3 x4 x5 x12 x13 := by
  unfold chunk13
  after_results_simp
  rw [h_main_v91, h_main_v94]
  rfl

theorem c13_main_v108 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x12 : (⟨S220, .f32⟩ : BufTy).Contents (Elt F)) (x13 : (⟨S220, .f32⟩ : BufTy).Contents (Elt F))
    (h_main_v98 : W (Proc.devRef .tc main_v98) = ReadP.val_main_v98 (F := F) x0 x1 x2 x3 x4 x5 x12 x13)
    (h_main_cst_19 : W (Proc.devRef .tc main_cst_19) = ReadP.val_main_cst_19 (F := F))
    : after (chunk13 (F := F)) W (Proc.devRef .tc main_v108) = ReadP.val_main_v108 (F := F) x0 x1 x2 x3 x4 x5 x12 x13 := by
  unfold chunk13
  after_results_simp
  rw [h_main_v98, h_main_cst_19]
  rfl

/-! ### Operations 139 … 150 of @main -/

/-- Operations 139 … 150 of @main, in order. -/
def chunk14 : List (HloOp τ sig (Elt F)) :=
  [ unary main_v108 main_v109 (broadcastInDim S10000x150 ![0, 1] bcast_S1x150_S10000x150_0_1 : (⟨S1x150, .f32⟩ : BufTy).Contents (Elt F) → (⟨S10000x150, .f32⟩ : BufTy).Contents (Elt F)),
    binary main_v104 main_v109 main_v110 (mulf : (⟨S10000x150, .f32⟩ : BufTy).Contents (Elt F) → (⟨S10000x150, .f32⟩ : BufTy).Contents (Elt F) → (⟨S10000x150, .f32⟩ : BufTy).Contents (Elt F)),
    unary main_arg14 main_v111 (broadcastInDim S1x150 ![1] bcast_S150_S1x150_1 : (⟨S150, .f32⟩ : BufTy).Contents (Elt F) → (⟨S1x150, .f32⟩ : BufTy).Contents (Elt F)),
    unary main_v111 main_v112 (broadcastInDim S10000x150 ![0, 1] bcast_S1x150_S10000x150_0_1 : (⟨S1x150, .f32⟩ : BufTy).Contents (Elt F) → (⟨S10000x150, .f32⟩ : BufTy).Contents (Elt F)),
    binary main_v110 main_v112 main_v113 (mulf : (⟨S10000x150, .f32⟩ : BufTy).Contents (Elt F) → (⟨S10000x150, .f32⟩ : BufTy).Contents (Elt F) → (⟨S10000x150, .f32⟩ : BufTy).Contents (Elt F)),
    unary main_arg15 main_v114 (broadcastInDim S1x150 ![1] bcast_S150_S1x150_1 : (⟨S150, .f32⟩ : BufTy).Contents (Elt F) → (⟨S1x150, .f32⟩ : BufTy).Contents (Elt F)),
    unary main_v114 main_v115 (broadcastInDim S10000x150 ![0, 1] bcast_S1x150_S10000x150_0_1 : (⟨S1x150, .f32⟩ : BufTy).Contents (Elt F) → (⟨S10000x150, .f32⟩ : BufTy).Contents (Elt F)),
    binary main_v113 main_v115 main_v116 (addf : (⟨S10000x150, .f32⟩ : BufTy).Contents (Elt F) → (⟨S10000x150, .f32⟩ : BufTy).Contents (Elt F) → (⟨S10000x150, .f32⟩ : BufTy).Contents (Elt F)),
    binary main_v116 main_arg6 main_v117 ((fun l r => Host.dotGeneral dot_S10000x150_S150x100_S10000x100_1_0_0_1_n_n none l r) : (⟨S10000x150, .f32⟩ : BufTy).Contents (Elt F) → (⟨S150x100, .f32⟩ : BufTy).Contents (Elt F) → (⟨S10000x100, .f32⟩ : BufTy).Contents (Elt F)),
    nullary main_c_22 (constantI S_ 32 0#32),
    unary main_c_22 main_v118 (broadcastInDim S330000 ![] bcast_S_S330000 : (⟨S_, .i32⟩ : BufTy).Contents (Elt F) → (⟨S330000, .i32⟩ : BufTy).Contents (Elt F)),
    binary main_v3 main_v118 main_v119 (cmpi .slt : (⟨S330000, .i32⟩ : BufTy).Contents (Elt F) → (⟨S330000, .i32⟩ : BufTy).Contents (Elt F) → (⟨S330000, .i1⟩ : BufTy).Contents (Elt F)) ]

/-- The buffers they write. -/
def writes14 : List (Ref sig .tc) := [main_v109, main_v110, main_v111, main_v112, main_v113, main_v114, main_v115, main_v116, main_v117, main_c_22, main_v118, main_v119]

theorem chunk14_writes : (chunk14 (F := F)).Forall fun op => op.writes ⊆ ((writes14.map (Proc.devRef (τ := τ) .tc)).toFinset) := by
  unfold chunk14
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk14_frame (W : Valuation τ sig (Elt F)) {r : Ref sig .tc} (hr : r ∉ writes14) :
    after (chunk14 (F := F)) W (Proc.devRef .tc r) = W (Proc.devRef .tc r) :=
  after_of_writes_sub _ W chunk14_writes hr

theorem c14_main_v117 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x6 : (⟨S150x100, .f32⟩ : BufTy).Contents (Elt F)) (x12 : (⟨S220, .f32⟩ : BufTy).Contents (Elt F)) (x13 : (⟨S220, .f32⟩ : BufTy).Contents (Elt F)) (x14 : (⟨S150, .f32⟩ : BufTy).Contents (Elt F)) (x15 : (⟨S150, .f32⟩ : BufTy).Contents (Elt F))
    (h_main_v104 : W (Proc.devRef .tc main_v104) = ReadP.val_main_v104 (F := F) x0 x1 x2 x3 x4 x5 x12 x13)
    (h_main_v108 : W (Proc.devRef .tc main_v108) = ReadP.val_main_v108 (F := F) x0 x1 x2 x3 x4 x5 x12 x13)
    (h_main_arg14 : W (Proc.devRef .tc main_arg14) = x14)
    (h_main_arg15 : W (Proc.devRef .tc main_arg15) = x15)
    (h_main_arg6 : W (Proc.devRef .tc main_arg6) = x6)
    : after (chunk14 (F := F)) W (Proc.devRef .tc main_v117) = ReadP.val_main_v117 (F := F) x0 x1 x2 x3 x4 x5 x6 x12 x13 x14 x15 := by
  unfold chunk14
  after_results_simp
  rw [h_main_v104, h_main_v108, h_main_arg14, h_main_arg15, h_main_arg6]
  rfl

theorem c14_main_v119 (W : Valuation τ sig (Elt F)) (x1 : (⟨S2x320000, .i32⟩ : BufTy).Contents (Elt F))
    (h_main_v3 : W (Proc.devRef .tc main_v3) = ReadP.val_main_v3 (F := F) x1)
    : after (chunk14 (F := F)) W (Proc.devRef .tc main_v119) = ReadP.val_main_v119 (F := F) x1 := by
  unfold chunk14
  after_results_simp
  rw [h_main_v3]
  rfl

/-! ### Operations 151 … 162 of @main -/

/-- Operations 151 … 162 of @main, in order. -/
def chunk15 : List (HloOp τ sig (Elt F)) :=
  [ nullary main_c_23 (constantI S_ 32 10000#32),
    unary main_c_23 main_v120 (broadcastInDim S330000 ![] bcast_S_S330000 : (⟨S_, .i32⟩ : BufTy).Contents (Elt F) → (⟨S330000, .i32⟩ : BufTy).Contents (Elt F)),
    binary main_v3 main_v120 main_v121 (addi : (⟨S330000, .i32⟩ : BufTy).Contents (Elt F) → (⟨S330000, .i32⟩ : BufTy).Contents (Elt F) → (⟨S330000, .i32⟩ : BufTy).Contents (Elt F)),
    ternary main_v119 main_v121 main_v3 main_v122 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v122 main_v123 (broadcastInDim S330000x1 ![0] bcast_S330000_S330000x1_0 : (⟨S330000, .i32⟩ : BufTy).Contents (Elt F) → (⟨S330000x1, .i32⟩ : BufTy).Contents (Elt F)),
    binary main_v117 main_v123 main_v124 ((fun x i => Host.gather gather_S10000x100_S330000x1_S330000x100_1_0_n_n_0_1_1100 x i) : (⟨S10000x100, .f32⟩ : BufTy).Contents (Elt F) → (⟨S330000x1, .i32⟩ : BufTy).Contents (Elt F) → (⟨S330000x100, .f32⟩ : BufTy).Contents (Elt F)),
    unary main_v30 main_v125 (broadcastInDim S330000x1 ![0] bcast_S330000_S330000x1_0 : (⟨S330000, .f32⟩ : BufTy).Contents (Elt F) → (⟨S330000x1, .f32⟩ : BufTy).Contents (Elt F)),
    unary main_v125 main_v126 (broadcastInDim S330000x100 ![0, 1] bcast_S330000x1_S330000x100_0_1 : (⟨S330000x1, .f32⟩ : BufTy).Contents (Elt F) → (⟨S330000x100, .f32⟩ : BufTy).Contents (Elt F)),
    binary main_v124 main_v126 main_v127 (mulf : (⟨S330000x100, .f32⟩ : BufTy).Contents (Elt F) → (⟨S330000x100, .f32⟩ : BufTy).Contents (Elt F) → (⟨S330000x100, .f32⟩ : BufTy).Contents (Elt F)),
    nullary main_cst_24 (constant S_ .f32 0x00000000#32),
    unary main_cst_24 main_v128 (broadcastInDim S10000x100 ![] bcast_S_S10000x100 : (⟨S_, .f32⟩ : BufTy).Contents (Elt F) → (⟨S10000x100, .f32⟩ : BufTy).Contents (Elt F)),
    unary main_v7 main_v129 (broadcastInDim S330000x1 ![0] bcast_S330000_S330000x1_0 : (⟨S330000, .i32⟩ : BufTy).Contents (Elt F) → (⟨S330000x1, .i32⟩ : BufTy).Contents (Elt F)) ]

/-- The buffers they write. -/
def writes15 : List (Ref sig .tc) := [main_c_23, main_v120, main_v121, main_v122, main_v123, main_v124, main_v125, main_v126, main_v127, main_cst_24, main_v128, main_v129]

theorem chunk15_writes : (chunk15 (F := F)).Forall fun op => op.writes ⊆ ((writes15.map (Proc.devRef (τ := τ) .tc)).toFinset) := by
  unfold chunk15
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk15_frame (W : Valuation τ sig (Elt F)) {r : Ref sig .tc} (hr : r ∉ writes15) :
    after (chunk15 (F := F)) W (Proc.devRef .tc r) = W (Proc.devRef .tc r) :=
  after_of_writes_sub _ W chunk15_writes hr

theorem c15_main_v127 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x6 : (⟨S150x100, .f32⟩ : BufTy).Contents (Elt F)) (x12 : (⟨S220, .f32⟩ : BufTy).Contents (Elt F)) (x13 : (⟨S220, .f32⟩ : BufTy).Contents (Elt F)) (x14 : (⟨S150, .f32⟩ : BufTy).Contents (Elt F)) (x15 : (⟨S150, .f32⟩ : BufTy).Contents (Elt F))
    (h_main_v117 : W (Proc.devRef .tc main_v117) = ReadP.val_main_v117 (F := F) x0 x1 x2 x3 x4 x5 x6 x12 x13 x14 x15)
    (h_main_v119 : W (Proc.devRef .tc main_v119) = ReadP.val_main_v119 (F := F) x1)
    (h_main_v3 : W (Proc.devRef .tc main_v3) = ReadP.val_main_v3 (F := F) x1)
    (h_main_v30 : W (Proc.devRef .tc main_v30) = ReadP.val_main_v30 (F := F) x1)
    : after (chunk15 (F := F)) W (Proc.devRef .tc main_v127) = ReadP.val_main_v127 (F := F) x0 x1 x2 x3 x4 x5 x6 x12 x13 x14 x15 := by
  unfold chunk15
  after_results_simp
  rw [h_main_v117, h_main_v119, h_main_v3, h_main_v30]
  rfl

theorem c15_main_v128 (W : Valuation τ sig (Elt F))
    : after (chunk15 (F := F)) W (Proc.devRef .tc main_v128) = ReadP.val_main_v128 (F := F) := by
  unfold chunk15
  after_results_simp
  rfl

theorem c15_main_v129 (W : Valuation τ sig (Elt F)) (x1 : (⟨S2x320000, .i32⟩ : BufTy).Contents (Elt F))
    (h_main_v7 : W (Proc.devRef .tc main_v7) = ReadP.val_main_v7 (F := F) x1)
    : after (chunk15 (F := F)) W (Proc.devRef .tc main_v129) = ReadP.val_main_v129 (F := F) x1 := by
  unfold chunk15
  after_results_simp
  rw [h_main_v7]
  rfl

/-! ### Operations 163 … 174 of @main -/

/-- Operations 163 … 174 of @main, in order. -/
def chunk16 : List (HloOp τ sig (Elt F)) :=
  [ ternary main_v128 main_v129 main_v127 main_v130 ((fun x i u => Host.scatterAdd scatter_S10000x100_S330000x1_S330000x100_1_0_0_1 x i u) : (⟨S10000x100, .f32⟩ : BufTy).Contents (Elt F) → (⟨S330000x1, .i32⟩ : BufTy).Contents (Elt F) → (⟨S330000x100, .f32⟩ : BufTy).Contents (Elt F) → (⟨S10000x100, .f32⟩ : BufTy).Contents (Elt F)),
    unary main_arg7 main_v131 (broadcastInDim S1x100 ![1] bcast_S100_S1x100_1 : (⟨S100, .f32⟩ : BufTy).Contents (Elt F) → (⟨S1x100, .f32⟩ : BufTy).Contents (Elt F)),
    unary main_v131 main_v132 (broadcastInDim S10000x100 ![0, 1] bcast_S1x100_S10000x100_0_1 : (⟨S1x100, .f32⟩ : BufTy).Contents (Elt F) → (⟨S10000x100, .f32⟩ : BufTy).Contents (Elt F)),
    binary main_v130 main_v132 main_v133 (addf : (⟨S10000x100, .f32⟩ : BufTy).Contents (Elt F) → (⟨S10000x100, .f32⟩ : BufTy).Contents (Elt F) → (⟨S10000x100, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S10000x100, .f32⟩) main_call3_v0) (broadcastInDim S10000x100 ![] bcast_S_S10000x100),
    TRef.binary (TRef.of (T := ⟨S10000x100, .f32⟩) main_v133) (TRef.of (T := ⟨S10000x100, .f32⟩) main_call3_v0) (TRef.of (T := ⟨S10000x100, .f32⟩) main_v134) maximumf,
    nullary main_cst_25 (constant S_ .f32 0x00000000#32),
    binary main_v134 main_cst_25 main_v135 ((fun x v => Host.reduceAdd x v reducesTo_S10000x100_S100_d0 h_S_) : (⟨S10000x100, .f32⟩ : BufTy).Contents (Elt F) → (⟨S_, .f32⟩ : BufTy).Contents (Elt F) → (⟨S100, .f32⟩ : BufTy).Contents (Elt F)),
    nullary main_cst_26 (constant S_ .f32 0x461C4000#32),
    unary main_cst_26 main_v136 (broadcastInDim S100 ![] bcast_S_S100 : (⟨S_, .f32⟩ : BufTy).Contents (Elt F) → (⟨S100, .f32⟩ : BufTy).Contents (Elt F)),
    binary main_v135 main_v136 main_v137 (Host.divf : (⟨S100, .f32⟩ : BufTy).Contents (Elt F) → (⟨S100, .f32⟩ : BufTy).Contents (Elt F) → (⟨S100, .f32⟩ : BufTy).Contents (Elt F)) ]

/-- The buffers they write. -/
def writes16 : List (Ref sig .tc) := [main_v130, main_v131, main_v132, main_v133, main_call3_cst, main_call3_v0, main_v134, main_cst_25, main_v135, main_cst_26, main_v136, main_v137]

theorem chunk16_writes : (chunk16 (F := F)).Forall fun op => op.writes ⊆ ((writes16.map (Proc.devRef (τ := τ) .tc)).toFinset) := by
  unfold chunk16
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk16_frame (W : Valuation τ sig (Elt F)) {r : Ref sig .tc} (hr : r ∉ writes16) :
    after (chunk16 (F := F)) W (Proc.devRef .tc r) = W (Proc.devRef .tc r) :=
  after_of_writes_sub _ W chunk16_writes hr

theorem c16_main_v134 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x6 : (⟨S150x100, .f32⟩ : BufTy).Contents (Elt F)) (x7 : (⟨S100, .f32⟩ : BufTy).Contents (Elt F)) (x12 : (⟨S220, .f32⟩ : BufTy).Contents (Elt F)) (x13 : (⟨S220, .f32⟩ : BufTy).Contents (Elt F)) (x14 : (⟨S150, .f32⟩ : BufTy).Contents (Elt F)) (x15 : (⟨S150, .f32⟩ : BufTy).Contents (Elt F))
    (h_main_v128 : W (Proc.devRef .tc main_v128) = ReadP.val_main_v128 (F := F))
    (h_main_v129 : W (Proc.devRef .tc main_v129) = ReadP.val_main_v129 (F := F) x1)
    (h_main_v127 : W (Proc.devRef .tc main_v127) = ReadP.val_main_v127 (F := F) x0 x1 x2 x3 x4 x5 x6 x12 x13 x14 x15)
    (h_main_arg7 : W (Proc.devRef .tc main_arg7) = x7)
    : after (chunk16 (F := F)) W (Proc.devRef .tc main_v134) = ReadP.val_main_v134 (F := F) x0 x1 x2 x3 x4 x5 x6 x7 x12 x13 x14 x15 := by
  unfold chunk16
  after_results_simp
  rw [h_main_v128, h_main_v129, h_main_v127, h_main_arg7]
  rfl

theorem c16_main_v137 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x6 : (⟨S150x100, .f32⟩ : BufTy).Contents (Elt F)) (x7 : (⟨S100, .f32⟩ : BufTy).Contents (Elt F)) (x12 : (⟨S220, .f32⟩ : BufTy).Contents (Elt F)) (x13 : (⟨S220, .f32⟩ : BufTy).Contents (Elt F)) (x14 : (⟨S150, .f32⟩ : BufTy).Contents (Elt F)) (x15 : (⟨S150, .f32⟩ : BufTy).Contents (Elt F))
    (h_main_v128 : W (Proc.devRef .tc main_v128) = ReadP.val_main_v128 (F := F))
    (h_main_v129 : W (Proc.devRef .tc main_v129) = ReadP.val_main_v129 (F := F) x1)
    (h_main_v127 : W (Proc.devRef .tc main_v127) = ReadP.val_main_v127 (F := F) x0 x1 x2 x3 x4 x5 x6 x12 x13 x14 x15)
    (h_main_arg7 : W (Proc.devRef .tc main_arg7) = x7)
    : after (chunk16 (F := F)) W (Proc.devRef .tc main_v137) = ReadP.val_main_v137 (F := F) x0 x1 x2 x3 x4 x5 x6 x7 x12 x13 x14 x15 := by
  unfold chunk16
  after_results_simp
  rw [h_main_v128, h_main_v129, h_main_v127, h_main_arg7]
  rfl

end Cert.ReferenceIdeal.HandR

end
-- ==== Proof.RefStages5.lean ====
/- The reference program's operations as consecutive short lists, and what each list leaves in the buffers it writes:
   from contents W in which every buffer a list reads holds its stage's value (ReadP.val_…) of the launch arguments
   x0 …, the buffer of each stage the list computes ends at that stage's value. Only the buffers a later list (or the
   result) reads are stated. A list is opened once per stated buffer (the fold's result lemmas), the facts about what it
   reads are rewritten in, and the stage's definition closes the rest by unfolding one level per operation. -/
import proofs.«408066_j62380105008311_2_alg».proof.Proof.RefRead
import Idealize.ShloMosaic.Lib.StableHlo.Run

noncomputable section

namespace Cert.ReferenceIdeal.HandR

open Cert.ReferenceIdeal Cert.ReferenceIdeal.Gen Idealize.ShloMosaic Idealize.ShloMosaic.TcCoe Idealize.SL.Sem Idealize.ShloMosaic.StableHlo

variable {F : FTy → Type} [FloatOps F]

/-! ### Operations 175 … 186 of @main -/

/-- Operations 175 … 186 of @main, in order. -/
def chunk17 : List (HloOp τ sig (Elt F)) :=
  [ unary main_v137 main_v138 (broadcastInDim S1x100 ![1] bcast_S100_S1x100_1 : (⟨S100, .f32⟩ : BufTy).Contents (Elt F) → (⟨S1x100, .f32⟩ : BufTy).Contents (Elt F)),
    unary main_v138 main_v139 (broadcastInDim S10000x100 ![0, 1] bcast_S1x100_S10000x100_0_1 : (⟨S1x100, .f32⟩ : BufTy).Contents (Elt F) → (⟨S10000x100, .f32⟩ : BufTy).Contents (Elt F)),
    binary main_v134 main_v139 main_v140 (subf : (⟨S10000x100, .f32⟩ : BufTy).Contents (Elt F) → (⟨S10000x100, .f32⟩ : BufTy).Contents (Elt F) → (⟨S10000x100, .f32⟩ : BufTy).Contents (Elt F)),
    binary main_v140 main_v140 main_v141 (mulf : (⟨S10000x100, .f32⟩ : BufTy).Contents (Elt F) → (⟨S10000x100, .f32⟩ : BufTy).Contents (Elt F) → (⟨S10000x100, .f32⟩ : BufTy).Contents (Elt F)),
    nullary main_cst_27 (constant S_ .f32 0x00000000#32),
    binary main_v141 main_cst_27 main_v142 ((fun x v => Host.reduceAdd x v reducesTo_S10000x100_S100_d0 h_S_) : (⟨S10000x100, .f32⟩ : BufTy).Contents (Elt F) → (⟨S_, .f32⟩ : BufTy).Contents (Elt F) → (⟨S100, .f32⟩ : BufTy).Contents (Elt F)),
    nullary main_cst_28 (constant S_ .f32 0x461C4000#32),
    unary main_cst_28 main_v143 (broadcastInDim S100 ![] bcast_S_S100 : (⟨S_, .f32⟩ : BufTy).Contents (Elt F) → (⟨S100, .f32⟩ : BufTy).Contents (Elt F)),
    binary main_v142 main_v143 main_v144 (Host.divf : (⟨S100, .f32⟩ : BufTy).Contents (Elt F) → (⟨S100, .f32⟩ : BufTy).Contents (Elt F) → (⟨S100, .f32⟩ : BufTy).Contents (Elt F)),
    unary main_v137 main_v145 (broadcastInDim S1x100 ![1] bcast_S100_S1x100_1 : (⟨S100, .f32⟩ : BufTy).Contents (Elt F) → (⟨S1x100, .f32⟩ : BufTy).Contents (Elt F)),
    unary main_v145 main_v146 (broadcastInDim S10000x100 ![0, 1] bcast_S1x100_S10000x100_0_1 : (⟨S1x100, .f32⟩ : BufTy).Contents (Elt F) → (⟨S10000x100, .f32⟩ : BufTy).Contents (Elt F)),
    binary main_v134 main_v146 main_v147 (subf : (⟨S10000x100, .f32⟩ : BufTy).Contents (Elt F) → (⟨S10000x100, .f32⟩ : BufTy).Contents (Elt F) → (⟨S10000x100, .f32⟩ : BufTy).Contents (Elt F)) ]

/-- The buffers they write. -/
def writes17 : List (Ref sig .tc) := [main_v138, main_v139, main_v140, main_v141, main_cst_27, main_v142, main_cst_28, main_v143, main_v144, main_v145, main_v146, main_v147]

theorem chunk17_writes : (chunk17 (F := F)).Forall fun op => op.writes ⊆ ((writes17.map (Proc.devRef (τ := τ) .tc)).toFinset) := by
  unfold chunk17
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk17_frame (W : Valuation τ sig (Elt F)) {r : Ref sig .tc} (hr : r ∉ writes17) :
    after (chunk17 (F := F)) W (Proc.devRef .tc r) = W (Proc.devRef .tc r) :=
  after_of_writes_sub _ W chunk17_writes hr

theorem c17_main_v144 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x6 : (⟨S150x100, .f32⟩ : BufTy).Contents (Elt F)) (x7 : (⟨S100, .f32⟩ : BufTy).Contents (Elt F)) (x12 : (⟨S220, .f32⟩ : BufTy).Contents (Elt F)) (x13 : (⟨S220, .f32⟩ : BufTy).Contents (Elt F)) (x14 : (⟨S150, .f32⟩ : BufTy).Contents (Elt F)) (x15 : (⟨S150, .f32⟩ : BufTy).Contents (Elt F))
    (h_main_v134 : W (Proc.devRef .tc main_v134) = ReadP.val_main_v134 (F := F) x0 x1 x2 x3 x4 x5 x6 x7 x12 x13 x14 x15)
    (h_main_v137 : W (Proc.devRef .tc main_v137) = ReadP.val_main_v137 (F := F) x0 x1 x2 x3 x4 x5 x6 x7 x12 x13 x14 x15)
    : after (chunk17 (F := F)) W (Proc.devRef .tc main_v144) = ReadP.val_main_v144 (F := F) x0 x1 x2 x3 x4 x5 x6 x7 x12 x13 x14 x15 := by
  unfold chunk17
  after_results_simp
  rw [h_main_v134, h_main_v137]
  rfl

theorem c17_main_v147 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x6 : (⟨S150x100, .f32⟩ : BufTy).Contents (Elt F)) (x7 : (⟨S100, .f32⟩ : BufTy).Contents (Elt F)) (x12 : (⟨S220, .f32⟩ : BufTy).Contents (Elt F)) (x13 : (⟨S220, .f32⟩ : BufTy).Contents (Elt F)) (x14 : (⟨S150, .f32⟩ : BufTy).Contents (Elt F)) (x15 : (⟨S150, .f32⟩ : BufTy).Contents (Elt F))
    (h_main_v134 : W (Proc.devRef .tc main_v134) = ReadP.val_main_v134 (F := F) x0 x1 x2 x3 x4 x5 x6 x7 x12 x13 x14 x15)
    (h_main_v137 : W (Proc.devRef .tc main_v137) = ReadP.val_main_v137 (F := F) x0 x1 x2 x3 x4 x5 x6 x7 x12 x13 x14 x15)
    : after (chunk17 (F := F)) W (Proc.devRef .tc main_v147) = ReadP.val_main_v147 (F := F) x0 x1 x2 x3 x4 x5 x6 x7 x12 x13 x14 x15 := by
  unfold chunk17
  after_results_simp
  rw [h_main_v134, h_main_v137]
  rfl

/-! ### Operations 187 … 198 of @main -/

/-- Operations 187 … 198 of @main, in order. -/
def chunk18 : List (HloOp τ sig (Elt F)) :=
  [ nullary main_cst_29 (constant S_ .f32 0x3727C5AC#32),
    unary main_cst_29 main_v148 (broadcastInDim S100 ![] bcast_S_S100 : (⟨S_, .f32⟩ : BufTy).Contents (Elt F) → (⟨S100, .f32⟩ : BufTy).Contents (Elt F)),
    binary main_v144 main_v148 main_v149 (addf : (⟨S100, .f32⟩ : BufTy).Contents (Elt F) → (⟨S100, .f32⟩ : BufTy).Contents (Elt F) → (⟨S100, .f32⟩ : BufTy).Contents (Elt F)),
    unary main_v149 main_v150 (Host.rsqrt : (⟨S100, .f32⟩ : BufTy).Contents (Elt F) → (⟨S100, .f32⟩ : BufTy).Contents (Elt F)),
    unary main_v150 main_v151 (broadcastInDim S1x100 ![1] bcast_S100_S1x100_1 : (⟨S100, .f32⟩ : BufTy).Contents (Elt F) → (⟨S1x100, .f32⟩ : BufTy).Contents (Elt F)),
    unary main_v151 main_v152 (broadcastInDim S10000x100 ![0, 1] bcast_S1x100_S10000x100_0_1 : (⟨S1x100, .f32⟩ : BufTy).Contents (Elt F) → (⟨S10000x100, .f32⟩ : BufTy).Contents (Elt F)),
    binary main_v147 main_v152 main_v153 (mulf : (⟨S10000x100, .f32⟩ : BufTy).Contents (Elt F) → (⟨S10000x100, .f32⟩ : BufTy).Contents (Elt F) → (⟨S10000x100, .f32⟩ : BufTy).Contents (Elt F)),
    unary main_arg16 main_v154 (broadcastInDim S1x100 ![1] bcast_S100_S1x100_1 : (⟨S100, .f32⟩ : BufTy).Contents (Elt F) → (⟨S1x100, .f32⟩ : BufTy).Contents (Elt F)),
    unary main_v154 main_v155 (broadcastInDim S10000x100 ![0, 1] bcast_S1x100_S10000x100_0_1 : (⟨S1x100, .f32⟩ : BufTy).Contents (Elt F) → (⟨S10000x100, .f32⟩ : BufTy).Contents (Elt F)),
    binary main_v153 main_v155 main_v156 (mulf : (⟨S10000x100, .f32⟩ : BufTy).Contents (Elt F) → (⟨S10000x100, .f32⟩ : BufTy).Contents (Elt F) → (⟨S10000x100, .f32⟩ : BufTy).Contents (Elt F)),
    unary main_arg17 main_v157 (broadcastInDim S1x100 ![1] bcast_S100_S1x100_1 : (⟨S100, .f32⟩ : BufTy).Contents (Elt F) → (⟨S1x100, .f32⟩ : BufTy).Contents (Elt F)),
    unary main_v157 main_v158 (broadcastInDim S10000x100 ![0, 1] bcast_S1x100_S10000x100_0_1 : (⟨S1x100, .f32⟩ : BufTy).Contents (Elt F) → (⟨S10000x100, .f32⟩ : BufTy).Contents (Elt F)) ]

/-- The buffers they write. -/
def writes18 : List (Ref sig .tc) := [main_cst_29, main_v148, main_v149, main_v150, main_v151, main_v152, main_v153, main_v154, main_v155, main_v156, main_v157, main_v158]

theorem chunk18_writes : (chunk18 (F := F)).Forall fun op => op.writes ⊆ ((writes18.map (Proc.devRef (τ := τ) .tc)).toFinset) := by
  unfold chunk18
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk18_frame (W : Valuation τ sig (Elt F)) {r : Ref sig .tc} (hr : r ∉ writes18) :
    after (chunk18 (F := F)) W (Proc.devRef .tc r) = W (Proc.devRef .tc r) :=
  after_of_writes_sub _ W chunk18_writes hr

theorem c18_main_v156 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x6 : (⟨S150x100, .f32⟩ : BufTy).Contents (Elt F)) (x7 : (⟨S100, .f32⟩ : BufTy).Contents (Elt F)) (x12 : (⟨S220, .f32⟩ : BufTy).Contents (Elt F)) (x13 : (⟨S220, .f32⟩ : BufTy).Contents (Elt F)) (x14 : (⟨S150, .f32⟩ : BufTy).Contents (Elt F)) (x15 : (⟨S150, .f32⟩ : BufTy).Contents (Elt F)) (x16 : (⟨S100, .f32⟩ : BufTy).Contents (Elt F))
    (h_main_v147 : W (Proc.devRef .tc main_v147) = ReadP.val_main_v147 (F := F) x0 x1 x2 x3 x4 x5 x6 x7 x12 x13 x14 x15)
    (h_main_v144 : W (Proc.devRef .tc main_v144) = ReadP.val_main_v144 (F := F) x0 x1 x2 x3 x4 x5 x6 x7 x12 x13 x14 x15)
    (h_main_arg16 : W (Proc.devRef .tc main_arg16) = x16)
    : after (chunk18 (F := F)) W (Proc.devRef .tc main_v156) = ReadP.val_main_v156 (F := F) x0 x1 x2 x3 x4 x5 x6 x7 x12 x13 x14 x15 x16 := by
  unfold chunk18
  after_results_simp
  rw [h_main_v147, h_main_v144, h_main_arg16]
  rfl

theorem c18_main_v158 (W : Valuation τ sig (Elt F)) (x17 : (⟨S100, .f32⟩ : BufTy).Contents (Elt F))
    (h_main_arg17 : W (Proc.devRef .tc main_arg17) = x17)
    : after (chunk18 (F := F)) W (Proc.devRef .tc main_v158) = ReadP.val_main_v158 (F := F) x17 := by
  unfold chunk18
  after_results_simp
  rw [h_main_arg17]
  rfl

/-! ### Operations 199 … 210 of @main -/

/-- Operations 199 … 210 of @main, in order. -/
def chunk19 : List (HloOp τ sig (Elt F)) :=
  [ binary main_v156 main_v158 main_v159 (addf : (⟨S10000x100, .f32⟩ : BufTy).Contents (Elt F) → (⟨S10000x100, .f32⟩ : BufTy).Contents (Elt F) → (⟨S10000x100, .f32⟩ : BufTy).Contents (Elt F)),
    binary main_v159 main_arg8 main_v160 ((fun l r => Host.dotGeneral dot_S10000x100_S100x60_S10000x60_1_0_0_1_n_n none l r) : (⟨S10000x100, .f32⟩ : BufTy).Contents (Elt F) → (⟨S100x60, .f32⟩ : BufTy).Contents (Elt F) → (⟨S10000x60, .f32⟩ : BufTy).Contents (Elt F)),
    nullary main_c_30 (constantI S_ 32 0#32),
    unary main_c_30 main_v161 (broadcastInDim S330000 ![] bcast_S_S330000 : (⟨S_, .i32⟩ : BufTy).Contents (Elt F) → (⟨S330000, .i32⟩ : BufTy).Contents (Elt F)),
    binary main_v3 main_v161 main_v162 (cmpi .slt : (⟨S330000, .i32⟩ : BufTy).Contents (Elt F) → (⟨S330000, .i32⟩ : BufTy).Contents (Elt F) → (⟨S330000, .i1⟩ : BufTy).Contents (Elt F)),
    nullary main_c_31 (constantI S_ 32 10000#32),
    unary main_c_31 main_v163 (broadcastInDim S330000 ![] bcast_S_S330000 : (⟨S_, .i32⟩ : BufTy).Contents (Elt F) → (⟨S330000, .i32⟩ : BufTy).Contents (Elt F)),
    binary main_v3 main_v163 main_v164 (addi : (⟨S330000, .i32⟩ : BufTy).Contents (Elt F) → (⟨S330000, .i32⟩ : BufTy).Contents (Elt F) → (⟨S330000, .i32⟩ : BufTy).Contents (Elt F)),
    ternary main_v162 main_v164 main_v3 main_v165 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v165 main_v166 (broadcastInDim S330000x1 ![0] bcast_S330000_S330000x1_0 : (⟨S330000, .i32⟩ : BufTy).Contents (Elt F) → (⟨S330000x1, .i32⟩ : BufTy).Contents (Elt F)),
    binary main_v160 main_v166 main_v167 ((fun x i => Host.gather gather_S10000x60_S330000x1_S330000x60_1_0_n_n_0_1_160 x i) : (⟨S10000x60, .f32⟩ : BufTy).Contents (Elt F) → (⟨S330000x1, .i32⟩ : BufTy).Contents (Elt F) → (⟨S330000x60, .f32⟩ : BufTy).Contents (Elt F)),
    unary main_v30 main_v168 (broadcastInDim S330000x1 ![0] bcast_S330000_S330000x1_0 : (⟨S330000, .f32⟩ : BufTy).Contents (Elt F) → (⟨S330000x1, .f32⟩ : BufTy).Contents (Elt F)) ]

/-- The buffers they write. -/
def writes19 : List (Ref sig .tc) := [main_v159, main_v160, main_c_30, main_v161, main_v162, main_c_31, main_v163, main_v164, main_v165, main_v166, main_v167, main_v168]

theorem chunk19_writes : (chunk19 (F := F)).Forall fun op => op.writes ⊆ ((writes19.map (Proc.devRef (τ := τ) .tc)).toFinset) := by
  unfold chunk19
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk19_frame (W : Valuation τ sig (Elt F)) {r : Ref sig .tc} (hr : r ∉ writes19) :
    after (chunk19 (F := F)) W (Proc.devRef .tc r) = W (Proc.devRef .tc r) :=
  after_of_writes_sub _ W chunk19_writes hr

theorem c19_main_v167 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x6 : (⟨S150x100, .f32⟩ : BufTy).Contents (Elt F)) (x7 : (⟨S100, .f32⟩ : BufTy).Contents (Elt F)) (x8 : (⟨S100x60, .f32⟩ : BufTy).Contents (Elt F)) (x12 : (⟨S220, .f32⟩ : BufTy).Contents (Elt F)) (x13 : (⟨S220, .f32⟩ : BufTy).Contents (Elt F)) (x14 : (⟨S150, .f32⟩ : BufTy).Contents (Elt F)) (x15 : (⟨S150, .f32⟩ : BufTy).Contents (Elt F)) (x16 : (⟨S100, .f32⟩ : BufTy).Contents (Elt F)) (x17 : (⟨S100, .f32⟩ : BufTy).Contents (Elt F))
    (h_main_v156 : W (Proc.devRef .tc main_v156) = ReadP.val_main_v156 (F := F) x0 x1 x2 x3 x4 x5 x6 x7 x12 x13 x14 x15 x16)
    (h_main_v158 : W (Proc.devRef .tc main_v158) = ReadP.val_main_v158 (F := F) x17)
    (h_main_arg8 : W (Proc.devRef .tc main_arg8) = x8)
    (h_main_v3 : W (Proc.devRef .tc main_v3) = ReadP.val_main_v3 (F := F) x1)
    : after (chunk19 (F := F)) W (Proc.devRef .tc main_v167) = ReadP.val_main_v167 (F := F) x0 x1 x2 x3 x4 x5 x6 x7 x8 x12 x13 x14 x15 x16 x17 := by
  unfold chunk19
  after_results_simp
  rw [h_main_v156, h_main_v158, h_main_arg8, h_main_v3]
  rfl

theorem c19_main_v168 (W : Valuation τ sig (Elt F)) (x1 : (⟨S2x320000, .i32⟩ : BufTy).Contents (Elt F))
    (h_main_v30 : W (Proc.devRef .tc main_v30) = ReadP.val_main_v30 (F := F) x1)
    : after (chunk19 (F := F)) W (Proc.devRef .tc main_v168) = ReadP.val_main_v168 (F := F) x1 := by
  unfold chunk19
  after_results_simp
  rw [h_main_v30]
  rfl

/-! ### Operations 211 … 222 of @main -/

/-- Operations 211 … 222 of @main, in order. -/
def chunk20 : List (HloOp τ sig (Elt F)) :=
  [ unary main_v168 main_v169 (broadcastInDim S330000x60 ![0, 1] bcast_S330000x1_S330000x60_0_1 : (⟨S330000x1, .f32⟩ : BufTy).Contents (Elt F) → (⟨S330000x60, .f32⟩ : BufTy).Contents (Elt F)),
    binary main_v167 main_v169 main_v170 (mulf : (⟨S330000x60, .f32⟩ : BufTy).Contents (Elt F) → (⟨S330000x60, .f32⟩ : BufTy).Contents (Elt F) → (⟨S330000x60, .f32⟩ : BufTy).Contents (Elt F)),
    nullary main_cst_32 (constant S_ .f32 0x00000000#32),
    unary main_cst_32 main_v171 (broadcastInDim S10000x60 ![] bcast_S_S10000x60 : (⟨S_, .f32⟩ : BufTy).Contents (Elt F) → (⟨S10000x60, .f32⟩ : BufTy).Contents (Elt F)),
    unary main_v7 main_v172 (broadcastInDim S330000x1 ![0] bcast_S330000_S330000x1_0 : (⟨S330000, .i32⟩ : BufTy).Contents (Elt F) → (⟨S330000x1, .i32⟩ : BufTy).Contents (Elt F)),
    ternary main_v171 main_v172 main_v170 main_v173 ((fun x i u => Host.scatterAdd scatter_S10000x60_S330000x1_S330000x60_1_0_0_1 x i u) : (⟨S10000x60, .f32⟩ : BufTy).Contents (Elt F) → (⟨S330000x1, .i32⟩ : BufTy).Contents (Elt F) → (⟨S330000x60, .f32⟩ : BufTy).Contents (Elt F) → (⟨S10000x60, .f32⟩ : BufTy).Contents (Elt F)),
    unary main_arg9 main_v174 (broadcastInDim S1x60 ![1] bcast_S60_S1x60_1 : (⟨S60, .f32⟩ : BufTy).Contents (Elt F) → (⟨S1x60, .f32⟩ : BufTy).Contents (Elt F)),
    unary main_v174 main_v175 (broadcastInDim S10000x60 ![0, 1] bcast_S1x60_S10000x60_0_1 : (⟨S1x60, .f32⟩ : BufTy).Contents (Elt F) → (⟨S10000x60, .f32⟩ : BufTy).Contents (Elt F)),
    binary main_v173 main_v175 main_v176 (addf : (⟨S10000x60, .f32⟩ : BufTy).Contents (Elt F) → (⟨S10000x60, .f32⟩ : BufTy).Contents (Elt F) → (⟨S10000x60, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S10000x60, .f32⟩) main_call4_v0) (broadcastInDim S10000x60 ![] bcast_S_S10000x60),
    TRef.binary (TRef.of (T := ⟨S10000x60, .f32⟩) main_v176) (TRef.of (T := ⟨S10000x60, .f32⟩) main_call4_v0) (TRef.of (T := ⟨S10000x60, .f32⟩) main_v177) maximumf ]

/-- The buffers they write. -/
def writes20 : List (Ref sig .tc) := [main_v169, main_v170, main_cst_32, main_v171, main_v172, main_v173, main_v174, main_v175, main_v176, main_call4_cst, main_call4_v0, main_v177]

theorem chunk20_writes : (chunk20 (F := F)).Forall fun op => op.writes ⊆ ((writes20.map (Proc.devRef (τ := τ) .tc)).toFinset) := by
  unfold chunk20
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk20_frame (W : Valuation τ sig (Elt F)) {r : Ref sig .tc} (hr : r ∉ writes20) :
    after (chunk20 (F := F)) W (Proc.devRef .tc r) = W (Proc.devRef .tc r) :=
  after_of_writes_sub _ W chunk20_writes hr

theorem c20_main_v177 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x6 : (⟨S150x100, .f32⟩ : BufTy).Contents (Elt F)) (x7 : (⟨S100, .f32⟩ : BufTy).Contents (Elt F)) (x8 : (⟨S100x60, .f32⟩ : BufTy).Contents (Elt F)) (x9 : (⟨S60, .f32⟩ : BufTy).Contents (Elt F)) (x12 : (⟨S220, .f32⟩ : BufTy).Contents (Elt F)) (x13 : (⟨S220, .f32⟩ : BufTy).Contents (Elt F)) (x14 : (⟨S150, .f32⟩ : BufTy).Contents (Elt F)) (x15 : (⟨S150, .f32⟩ : BufTy).Contents (Elt F)) (x16 : (⟨S100, .f32⟩ : BufTy).Contents (Elt F)) (x17 : (⟨S100, .f32⟩ : BufTy).Contents (Elt F))
    (h_main_v7 : W (Proc.devRef .tc main_v7) = ReadP.val_main_v7 (F := F) x1)
    (h_main_v167 : W (Proc.devRef .tc main_v167) = ReadP.val_main_v167 (F := F) x0 x1 x2 x3 x4 x5 x6 x7 x8 x12 x13 x14 x15 x16 x17)
    (h_main_v168 : W (Proc.devRef .tc main_v168) = ReadP.val_main_v168 (F := F) x1)
    (h_main_arg9 : W (Proc.devRef .tc main_arg9) = x9)
    : after (chunk20 (F := F)) W (Proc.devRef .tc main_v177) = ReadP.val_main_v177 (F := F) x0 x1 x2 x3 x4 x5 x6 x7 x8 x9 x12 x13 x14 x15 x16 x17 := by
  unfold chunk20
  after_results_simp
  rw [h_main_v7, h_main_v167, h_main_v168, h_main_arg9]
  rfl

end Cert.ReferenceIdeal.HandR

end
-- ==== Proof.RefStages6.lean ====
/- The reference program's operations as consecutive short lists, and what each list leaves in the buffers it writes:
   from contents W in which every buffer a list reads holds its stage's value (ReadP.val_…) of the launch arguments
   x0 …, the buffer of each stage the list computes ends at that stage's value. Only the buffers a later list (or the
   result) reads are stated. A list is opened once per stated buffer (the fold's result lemmas), the facts about what it
   reads are rewritten in, and the stage's definition closes the rest by unfolding one level per operation. -/
import proofs.«408066_j62380105008311_2_alg».proof.Proof.RefRead
import Idealize.ShloMosaic.Lib.StableHlo.Run

noncomputable section

namespace Cert.ReferenceIdeal.HandR

open Cert.ReferenceIdeal Cert.ReferenceIdeal.Gen Idealize.ShloMosaic Idealize.ShloMosaic.TcCoe Idealize.SL.Sem Idealize.ShloMosaic.StableHlo

variable {F : FTy → Type} [FloatOps F]

/-! ### Operations 223 … 234 of @main -/

/-- Operations 223 … 234 of @main, in order. -/
def chunk21 : List (HloOp τ sig (Elt F)) :=
  [ nullary main_cst_33 (constant S_ .f32 0x00000000#32),
    binary main_v177 main_cst_33 main_v178 ((fun x v => Host.reduceAdd x v reducesTo_S10000x60_S60_d0 h_S_) : (⟨S10000x60, .f32⟩ : BufTy).Contents (Elt F) → (⟨S_, .f32⟩ : BufTy).Contents (Elt F) → (⟨S60, .f32⟩ : BufTy).Contents (Elt F)),
    nullary main_cst_34 (constant S_ .f32 0x461C4000#32),
    unary main_cst_34 main_v179 (broadcastInDim S60 ![] bcast_S_S60 : (⟨S_, .f32⟩ : BufTy).Contents (Elt F) → (⟨S60, .f32⟩ : BufTy).Contents (Elt F)),
    binary main_v178 main_v179 main_v180 (Host.divf : (⟨S60, .f32⟩ : BufTy).Contents (Elt F) → (⟨S60, .f32⟩ : BufTy).Contents (Elt F) → (⟨S60, .f32⟩ : BufTy).Contents (Elt F)),
    unary main_v180 main_v181 (broadcastInDim S1x60 ![1] bcast_S60_S1x60_1 : (⟨S60, .f32⟩ : BufTy).Contents (Elt F) → (⟨S1x60, .f32⟩ : BufTy).Contents (Elt F)),
    unary main_v181 main_v182 (broadcastInDim S10000x60 ![0, 1] bcast_S1x60_S10000x60_0_1 : (⟨S1x60, .f32⟩ : BufTy).Contents (Elt F) → (⟨S10000x60, .f32⟩ : BufTy).Contents (Elt F)),
    binary main_v177 main_v182 main_v183 (subf : (⟨S10000x60, .f32⟩ : BufTy).Contents (Elt F) → (⟨S10000x60, .f32⟩ : BufTy).Contents (Elt F) → (⟨S10000x60, .f32⟩ : BufTy).Contents (Elt F)),
    binary main_v183 main_v183 main_v184 (mulf : (⟨S10000x60, .f32⟩ : BufTy).Contents (Elt F) → (⟨S10000x60, .f32⟩ : BufTy).Contents (Elt F) → (⟨S10000x60, .f32⟩ : BufTy).Contents (Elt F)),
    nullary main_cst_35 (constant S_ .f32 0x00000000#32),
    binary main_v184 main_cst_35 main_v185 ((fun x v => Host.reduceAdd x v reducesTo_S10000x60_S60_d0 h_S_) : (⟨S10000x60, .f32⟩ : BufTy).Contents (Elt F) → (⟨S_, .f32⟩ : BufTy).Contents (Elt F) → (⟨S60, .f32⟩ : BufTy).Contents (Elt F)),
    nullary main_cst_36 (constant S_ .f32 0x461C4000#32) ]

/-- The buffers they write. -/
def writes21 : List (Ref sig .tc) := [main_cst_33, main_v178, main_cst_34, main_v179, main_v180, main_v181, main_v182, main_v183, main_v184, main_cst_35, main_v185, main_cst_36]

theorem chunk21_writes : (chunk21 (F := F)).Forall fun op => op.writes ⊆ ((writes21.map (Proc.devRef (τ := τ) .tc)).toFinset) := by
  unfold chunk21
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk21_frame (W : Valuation τ sig (Elt F)) {r : Ref sig .tc} (hr : r ∉ writes21) :
    after (chunk21 (F := F)) W (Proc.devRef .tc r) = W (Proc.devRef .tc r) :=
  after_of_writes_sub _ W chunk21_writes hr

theorem c21_main_v180 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x6 : (⟨S150x100, .f32⟩ : BufTy).Contents (Elt F)) (x7 : (⟨S100, .f32⟩ : BufTy).Contents (Elt F)) (x8 : (⟨S100x60, .f32⟩ : BufTy).Contents (Elt F)) (x9 : (⟨S60, .f32⟩ : BufTy).Contents (Elt F)) (x12 : (⟨S220, .f32⟩ : BufTy).Contents (Elt F)) (x13 : (⟨S220, .f32⟩ : BufTy).Contents (Elt F)) (x14 : (⟨S150, .f32⟩ : BufTy).Contents (Elt F)) (x15 : (⟨S150, .f32⟩ : BufTy).Contents (Elt F)) (x16 : (⟨S100, .f32⟩ : BufTy).Contents (Elt F)) (x17 : (⟨S100, .f32⟩ : BufTy).Contents (Elt F))
    (h_main_v177 : W (Proc.devRef .tc main_v177) = ReadP.val_main_v177 (F := F) x0 x1 x2 x3 x4 x5 x6 x7 x8 x9 x12 x13 x14 x15 x16 x17)
    : after (chunk21 (F := F)) W (Proc.devRef .tc main_v180) = ReadP.val_main_v180 (F := F) x0 x1 x2 x3 x4 x5 x6 x7 x8 x9 x12 x13 x14 x15 x16 x17 := by
  unfold chunk21
  after_results_simp
  rw [h_main_v177]
  rfl

theorem c21_main_v185 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x6 : (⟨S150x100, .f32⟩ : BufTy).Contents (Elt F)) (x7 : (⟨S100, .f32⟩ : BufTy).Contents (Elt F)) (x8 : (⟨S100x60, .f32⟩ : BufTy).Contents (Elt F)) (x9 : (⟨S60, .f32⟩ : BufTy).Contents (Elt F)) (x12 : (⟨S220, .f32⟩ : BufTy).Contents (Elt F)) (x13 : (⟨S220, .f32⟩ : BufTy).Contents (Elt F)) (x14 : (⟨S150, .f32⟩ : BufTy).Contents (Elt F)) (x15 : (⟨S150, .f32⟩ : BufTy).Contents (Elt F)) (x16 : (⟨S100, .f32⟩ : BufTy).Contents (Elt F)) (x17 : (⟨S100, .f32⟩ : BufTy).Contents (Elt F))
    (h_main_v177 : W (Proc.devRef .tc main_v177) = ReadP.val_main_v177 (F := F) x0 x1 x2 x3 x4 x5 x6 x7 x8 x9 x12 x13 x14 x15 x16 x17)
    : after (chunk21 (F := F)) W (Proc.devRef .tc main_v185) = ReadP.val_main_v185 (F := F) x0 x1 x2 x3 x4 x5 x6 x7 x8 x9 x12 x13 x14 x15 x16 x17 := by
  unfold chunk21
  after_results_simp
  rw [h_main_v177]
  rfl

theorem c21_main_cst_36 (W : Valuation τ sig (Elt F))
    : after (chunk21 (F := F)) W (Proc.devRef .tc main_cst_36) = ReadP.val_main_cst_36 (F := F) := by
  unfold chunk21
  after_results_simp
  rfl

/-! ### Operations 235 … 246 of @main -/

/-- Operations 235 … 246 of @main, in order. -/
def chunk22 : List (HloOp τ sig (Elt F)) :=
  [ unary main_cst_36 main_v186 (broadcastInDim S60 ![] bcast_S_S60 : (⟨S_, .f32⟩ : BufTy).Contents (Elt F) → (⟨S60, .f32⟩ : BufTy).Contents (Elt F)),
    binary main_v185 main_v186 main_v187 (Host.divf : (⟨S60, .f32⟩ : BufTy).Contents (Elt F) → (⟨S60, .f32⟩ : BufTy).Contents (Elt F) → (⟨S60, .f32⟩ : BufTy).Contents (Elt F)),
    unary main_v180 main_v188 (broadcastInDim S1x60 ![1] bcast_S60_S1x60_1 : (⟨S60, .f32⟩ : BufTy).Contents (Elt F) → (⟨S1x60, .f32⟩ : BufTy).Contents (Elt F)),
    unary main_v188 main_v189 (broadcastInDim S10000x60 ![0, 1] bcast_S1x60_S10000x60_0_1 : (⟨S1x60, .f32⟩ : BufTy).Contents (Elt F) → (⟨S10000x60, .f32⟩ : BufTy).Contents (Elt F)),
    binary main_v177 main_v189 main_v190 (subf : (⟨S10000x60, .f32⟩ : BufTy).Contents (Elt F) → (⟨S10000x60, .f32⟩ : BufTy).Contents (Elt F) → (⟨S10000x60, .f32⟩ : BufTy).Contents (Elt F)),
    nullary main_cst_37 (constant S_ .f32 0x3727C5AC#32),
    unary main_cst_37 main_v191 (broadcastInDim S60 ![] bcast_S_S60 : (⟨S_, .f32⟩ : BufTy).Contents (Elt F) → (⟨S60, .f32⟩ : BufTy).Contents (Elt F)),
    binary main_v187 main_v191 main_v192 (addf : (⟨S60, .f32⟩ : BufTy).Contents (Elt F) → (⟨S60, .f32⟩ : BufTy).Contents (Elt F) → (⟨S60, .f32⟩ : BufTy).Contents (Elt F)),
    unary main_v192 main_v193 (Host.rsqrt : (⟨S60, .f32⟩ : BufTy).Contents (Elt F) → (⟨S60, .f32⟩ : BufTy).Contents (Elt F)),
    unary main_v193 main_v194 (broadcastInDim S1x60 ![1] bcast_S60_S1x60_1 : (⟨S60, .f32⟩ : BufTy).Contents (Elt F) → (⟨S1x60, .f32⟩ : BufTy).Contents (Elt F)),
    unary main_v194 main_v195 (broadcastInDim S10000x60 ![0, 1] bcast_S1x60_S10000x60_0_1 : (⟨S1x60, .f32⟩ : BufTy).Contents (Elt F) → (⟨S10000x60, .f32⟩ : BufTy).Contents (Elt F)),
    binary main_v190 main_v195 main_v196 (mulf : (⟨S10000x60, .f32⟩ : BufTy).Contents (Elt F) → (⟨S10000x60, .f32⟩ : BufTy).Contents (Elt F) → (⟨S10000x60, .f32⟩ : BufTy).Contents (Elt F)) ]

/-- The buffers they write. -/
def writes22 : List (Ref sig .tc) := [main_v186, main_v187, main_v188, main_v189, main_v190, main_cst_37, main_v191, main_v192, main_v193, main_v194, main_v195, main_v196]

theorem chunk22_writes : (chunk22 (F := F)).Forall fun op => op.writes ⊆ ((writes22.map (Proc.devRef (τ := τ) .tc)).toFinset) := by
  unfold chunk22
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk22_frame (W : Valuation τ sig (Elt F)) {r : Ref sig .tc} (hr : r ∉ writes22) :
    after (chunk22 (F := F)) W (Proc.devRef .tc r) = W (Proc.devRef .tc r) :=
  after_of_writes_sub _ W chunk22_writes hr

theorem c22_main_v196 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x6 : (⟨S150x100, .f32⟩ : BufTy).Contents (Elt F)) (x7 : (⟨S100, .f32⟩ : BufTy).Contents (Elt F)) (x8 : (⟨S100x60, .f32⟩ : BufTy).Contents (Elt F)) (x9 : (⟨S60, .f32⟩ : BufTy).Contents (Elt F)) (x12 : (⟨S220, .f32⟩ : BufTy).Contents (Elt F)) (x13 : (⟨S220, .f32⟩ : BufTy).Contents (Elt F)) (x14 : (⟨S150, .f32⟩ : BufTy).Contents (Elt F)) (x15 : (⟨S150, .f32⟩ : BufTy).Contents (Elt F)) (x16 : (⟨S100, .f32⟩ : BufTy).Contents (Elt F)) (x17 : (⟨S100, .f32⟩ : BufTy).Contents (Elt F))
    (h_main_v177 : W (Proc.devRef .tc main_v177) = ReadP.val_main_v177 (F := F) x0 x1 x2 x3 x4 x5 x6 x7 x8 x9 x12 x13 x14 x15 x16 x17)
    (h_main_v180 : W (Proc.devRef .tc main_v180) = ReadP.val_main_v180 (F := F) x0 x1 x2 x3 x4 x5 x6 x7 x8 x9 x12 x13 x14 x15 x16 x17)
    (h_main_v185 : W (Proc.devRef .tc main_v185) = ReadP.val_main_v185 (F := F) x0 x1 x2 x3 x4 x5 x6 x7 x8 x9 x12 x13 x14 x15 x16 x17)
    (h_main_cst_36 : W (Proc.devRef .tc main_cst_36) = ReadP.val_main_cst_36 (F := F))
    : after (chunk22 (F := F)) W (Proc.devRef .tc main_v196) = ReadP.val_main_v196 (F := F) x0 x1 x2 x3 x4 x5 x6 x7 x8 x9 x12 x13 x14 x15 x16 x17 := by
  unfold chunk22
  after_results_simp
  rw [h_main_v177, h_main_v180, h_main_v185, h_main_cst_36]
  rfl

/-! ### Operations 247 … 258 of @main -/

/-- Operations 247 … 258 of @main, in order. -/
def chunk23 : List (HloOp τ sig (Elt F)) :=
  [ unary main_arg18 main_v197 (broadcastInDim S1x60 ![1] bcast_S60_S1x60_1 : (⟨S60, .f32⟩ : BufTy).Contents (Elt F) → (⟨S1x60, .f32⟩ : BufTy).Contents (Elt F)),
    unary main_v197 main_v198 (broadcastInDim S10000x60 ![0, 1] bcast_S1x60_S10000x60_0_1 : (⟨S1x60, .f32⟩ : BufTy).Contents (Elt F) → (⟨S10000x60, .f32⟩ : BufTy).Contents (Elt F)),
    binary main_v196 main_v198 main_v199 (mulf : (⟨S10000x60, .f32⟩ : BufTy).Contents (Elt F) → (⟨S10000x60, .f32⟩ : BufTy).Contents (Elt F) → (⟨S10000x60, .f32⟩ : BufTy).Contents (Elt F)),
    unary main_arg19 main_v200 (broadcastInDim S1x60 ![1] bcast_S60_S1x60_1 : (⟨S60, .f32⟩ : BufTy).Contents (Elt F) → (⟨S1x60, .f32⟩ : BufTy).Contents (Elt F)),
    unary main_v200 main_v201 (broadcastInDim S10000x60 ![0, 1] bcast_S1x60_S10000x60_0_1 : (⟨S1x60, .f32⟩ : BufTy).Contents (Elt F) → (⟨S10000x60, .f32⟩ : BufTy).Contents (Elt F)),
    binary main_v199 main_v201 main_v202 (addf : (⟨S10000x60, .f32⟩ : BufTy).Contents (Elt F) → (⟨S10000x60, .f32⟩ : BufTy).Contents (Elt F) → (⟨S10000x60, .f32⟩ : BufTy).Contents (Elt F)),
    binary main_v202 main_arg10 main_v203 ((fun l r => Host.dotGeneral dot_S10000x60_S60x17_S10000x17_1_0_0_1_n_n none l r) : (⟨S10000x60, .f32⟩ : BufTy).Contents (Elt F) → (⟨S60x17, .f32⟩ : BufTy).Contents (Elt F) → (⟨S10000x17, .f32⟩ : BufTy).Contents (Elt F)),
    nullary main_c_38 (constantI S_ 32 0#32),
    unary main_c_38 main_v204 (broadcastInDim S330000 ![] bcast_S_S330000 : (⟨S_, .i32⟩ : BufTy).Contents (Elt F) → (⟨S330000, .i32⟩ : BufTy).Contents (Elt F)),
    binary main_v3 main_v204 main_v205 (cmpi .slt : (⟨S330000, .i32⟩ : BufTy).Contents (Elt F) → (⟨S330000, .i32⟩ : BufTy).Contents (Elt F) → (⟨S330000, .i1⟩ : BufTy).Contents (Elt F)),
    nullary main_c_39 (constantI S_ 32 10000#32),
    unary main_c_39 main_v206 (broadcastInDim S330000 ![] bcast_S_S330000 : (⟨S_, .i32⟩ : BufTy).Contents (Elt F) → (⟨S330000, .i32⟩ : BufTy).Contents (Elt F)) ]

/-- The buffers they write. -/
def writes23 : List (Ref sig .tc) := [main_v197, main_v198, main_v199, main_v200, main_v201, main_v202, main_v203, main_c_38, main_v204, main_v205, main_c_39, main_v206]

theorem chunk23_writes : (chunk23 (F := F)).Forall fun op => op.writes ⊆ ((writes23.map (Proc.devRef (τ := τ) .tc)).toFinset) := by
  unfold chunk23
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk23_frame (W : Valuation τ sig (Elt F)) {r : Ref sig .tc} (hr : r ∉ writes23) :
    after (chunk23 (F := F)) W (Proc.devRef .tc r) = W (Proc.devRef .tc r) :=
  after_of_writes_sub _ W chunk23_writes hr

theorem c23_main_v203 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x6 : (⟨S150x100, .f32⟩ : BufTy).Contents (Elt F)) (x7 : (⟨S100, .f32⟩ : BufTy).Contents (Elt F)) (x8 : (⟨S100x60, .f32⟩ : BufTy).Contents (Elt F)) (x9 : (⟨S60, .f32⟩ : BufTy).Contents (Elt F)) (x10 : (⟨S60x17, .f32⟩ : BufTy).Contents (Elt F)) (x12 : (⟨S220, .f32⟩ : BufTy).Contents (Elt F)) (x13 : (⟨S220, .f32⟩ : BufTy).Contents (Elt F)) (x14 : (⟨S150, .f32⟩ : BufTy).Contents (Elt F)) (x15 : (⟨S150, .f32⟩ : BufTy).Contents (Elt F)) (x16 : (⟨S100, .f32⟩ : BufTy).Contents (Elt F)) (x17 : (⟨S100, .f32⟩ : BufTy).Contents (Elt F)) (x18 : (⟨S60, .f32⟩ : BufTy).Contents (Elt F)) (x19 : (⟨S60, .f32⟩ : BufTy).Contents (Elt F))
    (h_main_v196 : W (Proc.devRef .tc main_v196) = ReadP.val_main_v196 (F := F) x0 x1 x2 x3 x4 x5 x6 x7 x8 x9 x12 x13 x14 x15 x16 x17)
    (h_main_arg18 : W (Proc.devRef .tc main_arg18) = x18)
    (h_main_arg19 : W (Proc.devRef .tc main_arg19) = x19)
    (h_main_arg10 : W (Proc.devRef .tc main_arg10) = x10)
    : after (chunk23 (F := F)) W (Proc.devRef .tc main_v203) = ReadP.val_main_v203 (F := F) x0 x1 x2 x3 x4 x5 x6 x7 x8 x9 x10 x12 x13 x14 x15 x16 x17 x18 x19 := by
  unfold chunk23
  after_results_simp
  rw [h_main_v196, h_main_arg18, h_main_arg19, h_main_arg10]
  rfl

theorem c23_main_v205 (W : Valuation τ sig (Elt F)) (x1 : (⟨S2x320000, .i32⟩ : BufTy).Contents (Elt F))
    (h_main_v3 : W (Proc.devRef .tc main_v3) = ReadP.val_main_v3 (F := F) x1)
    : after (chunk23 (F := F)) W (Proc.devRef .tc main_v205) = ReadP.val_main_v205 (F := F) x1 := by
  unfold chunk23
  after_results_simp
  rw [h_main_v3]
  rfl

theorem c23_main_v206 (W : Valuation τ sig (Elt F))
    : after (chunk23 (F := F)) W (Proc.devRef .tc main_v206) = ReadP.val_main_v206 (F := F) := by
  unfold chunk23
  after_results_simp
  rfl

/-! ### Operations 259 … 270 of @main -/

/-- Operations 259 … 270 of @main, in order. -/
def chunk24 : List (HloOp τ sig (Elt F)) :=
  [ binary main_v3 main_v206 main_v207 (addi : (⟨S330000, .i32⟩ : BufTy).Contents (Elt F) → (⟨S330000, .i32⟩ : BufTy).Contents (Elt F) → (⟨S330000, .i32⟩ : BufTy).Contents (Elt F)),
    ternary main_v205 main_v207 main_v3 main_v208 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v208 main_v209 (broadcastInDim S330000x1 ![0] bcast_S330000_S330000x1_0 : (⟨S330000, .i32⟩ : BufTy).Contents (Elt F) → (⟨S330000x1, .i32⟩ : BufTy).Contents (Elt F)),
    binary main_v203 main_v209 main_v210 ((fun x i => Host.gather gather_S10000x17_S330000x1_S330000x17_1_0_n_n_0_1_117 x i) : (⟨S10000x17, .f32⟩ : BufTy).Contents (Elt F) → (⟨S330000x1, .i32⟩ : BufTy).Contents (Elt F) → (⟨S330000x17, .f32⟩ : BufTy).Contents (Elt F)),
    unary main_v30 main_v211 (broadcastInDim S330000x1 ![0] bcast_S330000_S330000x1_0 : (⟨S330000, .f32⟩ : BufTy).Contents (Elt F) → (⟨S330000x1, .f32⟩ : BufTy).Contents (Elt F)),
    unary main_v211 main_v212 (broadcastInDim S330000x17 ![0, 1] bcast_S330000x1_S330000x17_0_1 : (⟨S330000x1, .f32⟩ : BufTy).Contents (Elt F) → (⟨S330000x17, .f32⟩ : BufTy).Contents (Elt F)),
    binary main_v210 main_v212 main_v213 (mulf : (⟨S330000x17, .f32⟩ : BufTy).Contents (Elt F) → (⟨S330000x17, .f32⟩ : BufTy).Contents (Elt F) → (⟨S330000x17, .f32⟩ : BufTy).Contents (Elt F)),
    nullary main_cst_40 (constant S_ .f32 0x00000000#32),
    unary main_cst_40 main_v214 (broadcastInDim S10000x17 ![] bcast_S_S10000x17 : (⟨S_, .f32⟩ : BufTy).Contents (Elt F) → (⟨S10000x17, .f32⟩ : BufTy).Contents (Elt F)),
    unary main_v7 main_v215 (broadcastInDim S330000x1 ![0] bcast_S330000_S330000x1_0 : (⟨S330000, .i32⟩ : BufTy).Contents (Elt F) → (⟨S330000x1, .i32⟩ : BufTy).Contents (Elt F)),
    ternary main_v214 main_v215 main_v213 main_v216 ((fun x i u => Host.scatterAdd scatter_S10000x17_S330000x1_S330000x17_1_0_0_1 x i u) : (⟨S10000x17, .f32⟩ : BufTy).Contents (Elt F) → (⟨S330000x1, .i32⟩ : BufTy).Contents (Elt F) → (⟨S330000x17, .f32⟩ : BufTy).Contents (Elt F) → (⟨S10000x17, .f32⟩ : BufTy).Contents (Elt F)),
    unary main_arg11 main_v217 (broadcastInDim S1x17 ![1] bcast_S17_S1x17_1 : (⟨S17, .f32⟩ : BufTy).Contents (Elt F) → (⟨S1x17, .f32⟩ : BufTy).Contents (Elt F)) ]

/-- The buffers they write. -/
def writes24 : List (Ref sig .tc) := [main_v207, main_v208, main_v209, main_v210, main_v211, main_v212, main_v213, main_cst_40, main_v214, main_v215, main_v216, main_v217]

theorem chunk24_writes : (chunk24 (F := F)).Forall fun op => op.writes ⊆ ((writes24.map (Proc.devRef (τ := τ) .tc)).toFinset) := by
  unfold chunk24
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk24_frame (W : Valuation τ sig (Elt F)) {r : Ref sig .tc} (hr : r ∉ writes24) :
    after (chunk24 (F := F)) W (Proc.devRef .tc r) = W (Proc.devRef .tc r) :=
  after_of_writes_sub _ W chunk24_writes hr

theorem c24_main_v216 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x6 : (⟨S150x100, .f32⟩ : BufTy).Contents (Elt F)) (x7 : (⟨S100, .f32⟩ : BufTy).Contents (Elt F)) (x8 : (⟨S100x60, .f32⟩ : BufTy).Contents (Elt F)) (x9 : (⟨S60, .f32⟩ : BufTy).Contents (Elt F)) (x10 : (⟨S60x17, .f32⟩ : BufTy).Contents (Elt F)) (x12 : (⟨S220, .f32⟩ : BufTy).Contents (Elt F)) (x13 : (⟨S220, .f32⟩ : BufTy).Contents (Elt F)) (x14 : (⟨S150, .f32⟩ : BufTy).Contents (Elt F)) (x15 : (⟨S150, .f32⟩ : BufTy).Contents (Elt F)) (x16 : (⟨S100, .f32⟩ : BufTy).Contents (Elt F)) (x17 : (⟨S100, .f32⟩ : BufTy).Contents (Elt F)) (x18 : (⟨S60, .f32⟩ : BufTy).Contents (Elt F)) (x19 : (⟨S60, .f32⟩ : BufTy).Contents (Elt F))
    (h_main_v7 : W (Proc.devRef .tc main_v7) = ReadP.val_main_v7 (F := F) x1)
    (h_main_v203 : W (Proc.devRef .tc main_v203) = ReadP.val_main_v203 (F := F) x0 x1 x2 x3 x4 x5 x6 x7 x8 x9 x10 x12 x13 x14 x15 x16 x17 x18 x19)
    (h_main_v205 : W (Proc.devRef .tc main_v205) = ReadP.val_main_v205 (F := F) x1)
    (h_main_v3 : W (Proc.devRef .tc main_v3) = ReadP.val_main_v3 (F := F) x1)
    (h_main_v206 : W (Proc.devRef .tc main_v206) = ReadP.val_main_v206 (F := F))
    (h_main_v30 : W (Proc.devRef .tc main_v30) = ReadP.val_main_v30 (F := F) x1)
    : after (chunk24 (F := F)) W (Proc.devRef .tc main_v216) = ReadP.val_main_v216 (F := F) x0 x1 x2 x3 x4 x5 x6 x7 x8 x9 x10 x12 x13 x14 x15 x16 x17 x18 x19 := by
  unfold chunk24
  after_results_simp
  rw [h_main_v7, h_main_v203, h_main_v205, h_main_v3, h_main_v206, h_main_v30]
  rfl

theorem c24_main_v217 (W : Valuation τ sig (Elt F)) (x11 : (⟨S17, .f32⟩ : BufTy).Contents (Elt F))
    (h_main_arg11 : W (Proc.devRef .tc main_arg11) = x11)
    : after (chunk24 (F := F)) W (Proc.devRef .tc main_v217) = ReadP.val_main_v217 (F := F) x11 := by
  unfold chunk24
  after_results_simp
  rw [h_main_arg11]
  rfl

end Cert.ReferenceIdeal.HandR

end
-- ==== Proof.RefStages7.lean ====
/- The reference program's operations as consecutive short lists, and what each list leaves in the buffers it writes:
   from contents W in which every buffer a list reads holds its stage's value (ReadP.val_…) of the launch arguments
   x0 …, the buffer of each stage the list computes ends at that stage's value. Only the buffers a later list (or the
   result) reads are stated. A list is opened once per stated buffer (the fold's result lemmas), the facts about what it
   reads are rewritten in, and the stage's definition closes the rest by unfolding one level per operation. -/
import proofs.«408066_j62380105008311_2_alg».proof.Proof.RefRead
import Idealize.ShloMosaic.Lib.StableHlo.Run

noncomputable section

namespace Cert.ReferenceIdeal.HandR

open Cert.ReferenceIdeal Cert.ReferenceIdeal.Gen Idealize.ShloMosaic Idealize.ShloMosaic.TcCoe Idealize.SL.Sem Idealize.ShloMosaic.StableHlo

variable {F : FTy → Type} [FloatOps F]

/-! ### Operations 271 … 282 of @main -/

/-- Operations 271 … 282 of @main, in order. -/
def chunk25 : List (HloOp τ sig (Elt F)) :=
  [ unary main_v217 main_v218 (broadcastInDim S10000x17 ![0, 1] bcast_S1x17_S10000x17_0_1 : (⟨S1x17, .f32⟩ : BufTy).Contents (Elt F) → (⟨S10000x17, .f32⟩ : BufTy).Contents (Elt F)),
    binary main_v216 main_v218 main_v219 (addf : (⟨S10000x17, .f32⟩ : BufTy).Contents (Elt F) → (⟨S10000x17, .f32⟩ : BufTy).Contents (Elt F) → (⟨S10000x17, .f32⟩ : BufTy).Contents (Elt F)),
    TRef.nullary (TRef.of (T := ⟨S_, .f32⟩) main_call5_cst) (constant S_ .f32 0xFF800000#32),
    TRef.binary (TRef.of (T := ⟨S10000x17, .f32⟩) main_v219) (TRef.of (T := ⟨S_, .f32⟩) main_call5_cst) (TRef.of (T := ⟨S10000, .f32⟩) main_call5_v0) (fun x v => Host.reduce FloatOps.maximumf x v reducesTo_S10000x17_S10000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S10000, .f32⟩) main_call5_v1) (broadcastInDim S10000 ![] bcast_S_S10000),
    TRef.binary (TRef.of (T := ⟨S10000, .f32⟩) main_call5_v1) (TRef.of (T := ⟨S10000, .f32⟩) main_call5_v0) (TRef.of (T := ⟨S10000, .f32⟩) main_call5_v2) maximumf,
    TRef.unary (TRef.of (T := ⟨S10000, .f32⟩) main_call5_v2) (TRef.of (T := ⟨S10000x1, .f32⟩) main_call5_v3) (broadcastInDim S10000x1 ![0] bcast_S10000_S10000x1_0),
    TRef.unary (TRef.of (T := ⟨S10000x1, .f32⟩) main_call5_v3) (TRef.of (T := ⟨S10000x17, .f32⟩) main_call5_v4) (broadcastInDim S10000x17 ![0, 1] bcast_S10000x1_S10000x17_0_1),
    TRef.binary (TRef.of (T := ⟨S10000x17, .f32⟩) main_v219) (TRef.of (T := ⟨S10000x17, .f32⟩) main_call5_v4) (TRef.of (T := ⟨S10000x17, .f32⟩) main_call5_v5) subf,
    TRef.unary (TRef.of (T := ⟨S10000x17, .f32⟩) main_call5_v5) (TRef.of (T := ⟨S10000x17, .f32⟩) main_call5_v6) Host.exp,
    TRef.nullary (TRef.of (T := ⟨S_, .f32⟩) main_call5_cst_1) (constant S_ .f32 0x00000000#32) ]

/-- The buffers they write. -/
def writes25 : List (Ref sig .tc) := [main_v218, main_v219, main_call5_cst, main_call5_v0, main_call5_cst_0, main_call5_v1, main_call5_v2, main_call5_v3, main_call5_v4, main_call5_v5, main_call5_v6, main_call5_cst_1]

theorem chunk25_writes : (chunk25 (F := F)).Forall fun op => op.writes ⊆ ((writes25.map (Proc.devRef (τ := τ) .tc)).toFinset) := by
  unfold chunk25
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk25_frame (W : Valuation τ sig (Elt F)) {r : Ref sig .tc} (hr : r ∉ writes25) :
    after (chunk25 (F := F)) W (Proc.devRef .tc r) = W (Proc.devRef .tc r) :=
  after_of_writes_sub _ W chunk25_writes hr

theorem c25_main_call5_v5 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x6 : (⟨S150x100, .f32⟩ : BufTy).Contents (Elt F)) (x7 : (⟨S100, .f32⟩ : BufTy).Contents (Elt F)) (x8 : (⟨S100x60, .f32⟩ : BufTy).Contents (Elt F)) (x9 : (⟨S60, .f32⟩ : BufTy).Contents (Elt F)) (x10 : (⟨S60x17, .f32⟩ : BufTy).Contents (Elt F)) (x11 : (⟨S17, .f32⟩ : BufTy).Contents (Elt F)) (x12 : (⟨S220, .f32⟩ : BufTy).Contents (Elt F)) (x13 : (⟨S220, .f32⟩ : BufTy).Contents (Elt F)) (x14 : (⟨S150, .f32⟩ : BufTy).Contents (Elt F)) (x15 : (⟨S150, .f32⟩ : BufTy).Contents (Elt F)) (x16 : (⟨S100, .f32⟩ : BufTy).Contents (Elt F)) (x17 : (⟨S100, .f32⟩ : BufTy).Contents (Elt F)) (x18 : (⟨S60, .f32⟩ : BufTy).Contents (Elt F)) (x19 : (⟨S60, .f32⟩ : BufTy).Contents (Elt F))
    (h_main_v216 : W (Proc.devRef .tc main_v216) = ReadP.val_main_v216 (F := F) x0 x1 x2 x3 x4 x5 x6 x7 x8 x9 x10 x12 x13 x14 x15 x16 x17 x18 x19)
    (h_main_v217 : W (Proc.devRef .tc main_v217) = ReadP.val_main_v217 (F := F) x11)
    : after (chunk25 (F := F)) W (Proc.devRef .tc main_call5_v5) = ReadP.val_main_call5_v5 (F := F) x0 x1 x2 x3 x4 x5 x6 x7 x8 x9 x10 x11 x12 x13 x14 x15 x16 x17 x18 x19 := by
  unfold chunk25
  after_results_simp
  try simp only [TRef.ofBuf, TRef.toBuf, cast_eq]
  rw [h_main_v216, h_main_v217]
  rfl

theorem c25_main_call5_v6 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x6 : (⟨S150x100, .f32⟩ : BufTy).Contents (Elt F)) (x7 : (⟨S100, .f32⟩ : BufTy).Contents (Elt F)) (x8 : (⟨S100x60, .f32⟩ : BufTy).Contents (Elt F)) (x9 : (⟨S60, .f32⟩ : BufTy).Contents (Elt F)) (x10 : (⟨S60x17, .f32⟩ : BufTy).Contents (Elt F)) (x11 : (⟨S17, .f32⟩ : BufTy).Contents (Elt F)) (x12 : (⟨S220, .f32⟩ : BufTy).Contents (Elt F)) (x13 : (⟨S220, .f32⟩ : BufTy).Contents (Elt F)) (x14 : (⟨S150, .f32⟩ : BufTy).Contents (Elt F)) (x15 : (⟨S150, .f32⟩ : BufTy).Contents (Elt F)) (x16 : (⟨S100, .f32⟩ : BufTy).Contents (Elt F)) (x17 : (⟨S100, .f32⟩ : BufTy).Contents (Elt F)) (x18 : (⟨S60, .f32⟩ : BufTy).Contents (Elt F)) (x19 : (⟨S60, .f32⟩ : BufTy).Contents (Elt F))
    (h_main_v216 : W (Proc.devRef .tc main_v216) = ReadP.val_main_v216 (F := F) x0 x1 x2 x3 x4 x5 x6 x7 x8 x9 x10 x12 x13 x14 x15 x16 x17 x18 x19)
    (h_main_v217 : W (Proc.devRef .tc main_v217) = ReadP.val_main_v217 (F := F) x11)
    : after (chunk25 (F := F)) W (Proc.devRef .tc main_call5_v6) = ReadP.val_main_call5_v6 (F := F) x0 x1 x2 x3 x4 x5 x6 x7 x8 x9 x10 x11 x12 x13 x14 x15 x16 x17 x18 x19 := by
  unfold chunk25
  after_results_simp
  try simp only [TRef.ofBuf, TRef.toBuf, cast_eq]
  rw [h_main_v216, h_main_v217]
  rfl

theorem c25_main_call5_cst_1 (W : Valuation τ sig (Elt F))
    : after (chunk25 (F := F)) W (Proc.devRef .tc main_call5_cst_1) = ReadP.val_main_call5_cst_1 (F := F) := by
  unfold chunk25
  after_results_simp
  try simp only [TRef.ofBuf, TRef.toBuf, cast_eq]
  rfl

/-! ### Operations 283 … 287 of @main -/

/-- Operations 283 … 287 of @main, in order. -/
def chunk26 : List (HloOp τ sig (Elt F)) :=
  [ TRef.binary (TRef.of (T := ⟨S10000x17, .f32⟩) main_call5_v6) (TRef.of (T := ⟨S_, .f32⟩) main_call5_cst_1) (TRef.of (T := ⟨S10000, .f32⟩) main_call5_v7) (fun x v => Host.reduceAdd x v reducesTo_S10000x17_S10000_d1 h_S_),
    TRef.unary (TRef.of (T := ⟨S10000, .f32⟩) main_call5_v7) (TRef.of (T := ⟨S10000x1, .f32⟩) main_call5_v8) (broadcastInDim S10000x1 ![0] bcast_S10000_S10000x1_0),
    TRef.unary (TRef.of (T := ⟨S10000x1, .f32⟩) main_call5_v8) (TRef.of (T := ⟨S10000x1, .f32⟩) main_call5_v9) Host.log,
    TRef.unary (TRef.of (T := ⟨S10000x1, .f32⟩) main_call5_v9) (TRef.of (T := ⟨S10000x17, .f32⟩) main_call5_v10) (broadcastInDim S10000x17 ![0, 1] bcast_S10000x1_S10000x17_0_1),
    TRef.binary (TRef.of (T := ⟨S10000x17, .f32⟩) main_call5_v5) (TRef.of (T := ⟨S10000x17, .f32⟩) main_call5_v10) (TRef.of (T := ⟨S10000x17, .f32⟩) main_v220) subf ]

/-- The buffers they write. -/
def writes26 : List (Ref sig .tc) := [main_call5_v7, main_call5_v8, main_call5_v9, main_call5_v10, main_v220]

theorem chunk26_writes : (chunk26 (F := F)).Forall fun op => op.writes ⊆ ((writes26.map (Proc.devRef (τ := τ) .tc)).toFinset) := by
  unfold chunk26
  simp only [List.Forall, nullary_writes, unary_writes, binary_writes, ternary_writes, reshape_writes, Finset.singleton_subset_iff, List.mem_toFinset]
  repeat' apply And.intro
  all_goals exact List.mem_map_of_mem (by decide)

/-- A buffer none of them writes keeps its contents. -/
theorem chunk26_frame (W : Valuation τ sig (Elt F)) {r : Ref sig .tc} (hr : r ∉ writes26) :
    after (chunk26 (F := F)) W (Proc.devRef .tc r) = W (Proc.devRef .tc r) :=
  after_of_writes_sub _ W chunk26_writes hr

theorem c26_main_v220 (W : Valuation τ sig (Elt F)) (x0 : (⟨S10000x256, .f32⟩ : BufTy).Contents (Elt F)) (x1 : (⟨S2x320000, .i32⟩ : BufTy).Contents (Elt F)) (x2 : (⟨S256x220, .f32⟩ : BufTy).Contents (Elt F)) (x3 : (⟨S220, .f32⟩ : BufTy).Contents (Elt F)) (x4 : (⟨S220x150, .f32⟩ : BufTy).Contents (Elt F)) (x5 : (⟨S150, .f32⟩ : BufTy).Contents (Elt F)) (x6 : (⟨S150x100, .f32⟩ : BufTy).Contents (Elt F)) (x7 : (⟨S100, .f32⟩ : BufTy).Contents (Elt F)) (x8 : (⟨S100x60, .f32⟩ : BufTy).Contents (Elt F)) (x9 : (⟨S60, .f32⟩ : BufTy).Contents (Elt F)) (x10 : (⟨S60x17, .f32⟩ : BufTy).Contents (Elt F)) (x11 : (⟨S17, .f32⟩ : BufTy).Contents (Elt F)) (x12 : (⟨S220, .f32⟩ : BufTy).Contents (Elt F)) (x13 : (⟨S220, .f32⟩ : BufTy).Contents (Elt F)) (x14 : (⟨S150, .f32⟩ : BufTy).Contents (Elt F)) (x15 : (⟨S150, .f32⟩ : BufTy).Contents (Elt F)) (x16 : (⟨S100, .f32⟩ : BufTy).Contents (Elt F)) (x17 : (⟨S100, .f32⟩ : BufTy).Contents (Elt F)) (x18 : (⟨S60, .f32⟩ : BufTy).Contents (Elt F)) (x19 : (⟨S60, .f32⟩ : BufTy).Contents (Elt F))
    (h_main_call5_v5 : W (Proc.devRef .tc main_call5_v5) = ReadP.val_main_call5_v5 (F := F) x0 x1 x2 x3 x4 x5 x6 x7 x8 x9 x10 x11 x12 x13 x14 x15 x16 x17 x18 x19)
    (h_main_call5_v6 : W (Proc.devRef .tc main_call5_v6) = ReadP.val_main_call5_v6 (F := F) x0 x1 x2 x3 x4 x5 x6 x7 x8 x9 x10 x11 x12 x13 x14 x15 x16 x17 x18 x19)
    (h_main_call5_cst_1 : W (Proc.devRef .tc main_call5_cst_1) = ReadP.val_main_call5_cst_1 (F := F))
    : after (chunk26 (F := F)) W (Proc.devRef .tc main_v220) = ReadP.val_main_v220 (F := F) x0 x1 x2 x3 x4 x5 x6 x7 x8 x9 x10 x11 x12 x13 x14 x15 x16 x17 x18 x19 := by
  unfold chunk26
  after_results_simp
  rw [h_main_call5_v5, h_main_call5_v6, h_main_call5_cst_1]
  rfl

end Cert.ReferenceIdeal.HandR

end
-- ==== Proof.RefStages.lean ====
/- The reference program's run, stage by stage. @main's operation list is the short lists of the modules below in a
   row; the contents after the first K lists (VK) hold, in every buffer still to be read, its stage's value of the launch
   arguments, and every argument's buffer holds what it held at launch (no operation writes an argument). So after all
   operations the result's buffer holds the last stage's value, and the run theorem follows from the fold's. -/
import proofs.«408066_j62380105008311_2_alg».proof.Proof.RefStages1
import proofs.«408066_j62380105008311_2_alg».proof.Proof.RefStages2
import proofs.«408066_j62380105008311_2_alg».proof.Proof.RefStages3
import proofs.«408066_j62380105008311_2_alg».proof.Proof.RefStages4
import proofs.«408066_j62380105008311_2_alg».proof.Proof.RefStages5
import proofs.«408066_j62380105008311_2_alg».proof.Proof.RefStages6
import proofs.«408066_j62380105008311_2_alg».proof.Proof.RefStages7
import Idealize.ShloMosaic.Lib.Pipeline.Frame

noncomputable section

namespace Cert.ReferenceIdeal.HandR

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- @main's operations are the short lists in a row. -/
theorem ops_eq : ValueP.ops (F := F) = chunk1 ++ (chunk2 ++ (chunk3 ++ (chunk4 ++ (chunk5 ++ (chunk6 ++ (chunk7 ++ (chunk8 ++ (chunk9 ++ (chunk10 ++ (chunk11 ++ (chunk12 ++ (chunk13 ++ (chunk14 ++ (chunk15 ++ (chunk16 ++ (chunk17 ++ (chunk18 ++ (chunk19 ++ (chunk20 ++ (chunk21 ++ (chunk22 ++ (chunk23 ++ (chunk24 ++ (chunk25 ++ (chunk26))))))))))))))))))))))))) := rfl

/-! ### The contents after the first K lists -/

/-- The contents after the first 1 lists, from contents V. -/
def V1 (V : Valuation τ sig (Elt F)) : Valuation τ sig (Elt F) := after (chunk1 (F := F)) V

/-- The contents after the first 2 lists, from contents V. -/
def V2 (V : Valuation τ sig (Elt F)) : Valuation τ sig (Elt F) := after (chunk2 (F := F)) (V1 V)

/-- The contents after the first 3 lists, from contents V. -/
def V3 (V : Valuation τ sig (Elt F)) : Valuation τ sig (Elt F) := after (chunk3 (F := F)) (V2 V)

/-- The contents after the first 4 lists, from contents V. -/
def V4 (V : Valuation τ sig (Elt F)) : Valuation τ sig (Elt F) := after (chunk4 (F := F)) (V3 V)

/-- The contents after the first 5 lists, from contents V. -/
def V5 (V : Valuation τ sig (Elt F)) : Valuation τ sig (Elt F) := after (chunk5 (F := F)) (V4 V)

/-- The contents after the first 6 lists, from contents V. -/
def V6 (V : Valuation τ sig (Elt F)) : Valuation τ sig (Elt F) := after (chunk6 (F := F)) (V5 V)

/-- The contents after the first 7 lists, from contents V. -/
def V7 (V : Valuation τ sig (Elt F)) : Valuation τ sig (Elt F) := after (chunk7 (F := F)) (V6 V)

/-- The contents after the first 8 lists, from contents V. -/
def V8 (V : Valuation τ sig (Elt F)) : Valuation τ sig (Elt F) := after (chunk8 (F := F)) (V7 V)

/-- The contents after the first 9 lists, from contents V. -/
def V9 (V : Valuation τ sig (Elt F)) : Valuation τ sig (Elt F) := after (chunk9 (F := F)) (V8 V)

/-- The contents after the first 10 lists, from contents V. -/
def V10 (V : Valuation τ sig (Elt F)) : Valuation τ sig (Elt F) := after (chunk10 (F := F)) (V9 V)

/-- The contents after the first 11 lists, from contents V. -/
def V11 (V : Valuation τ sig (Elt F)) : Valuation τ sig (Elt F) := after (chunk11 (F := F)) (V10 V)

/-- The contents after the first 12 lists, from contents V. -/
def V12 (V : Valuation τ sig (Elt F)) : Valuation τ sig (Elt F) := after (chunk12 (F := F)) (V11 V)

/-- The contents after the first 13 lists, from contents V. -/
def V13 (V : Valuation τ sig (Elt F)) : Valuation τ sig (Elt F) := after (chunk13 (F := F)) (V12 V)

/-- The contents after the first 14 lists, from contents V. -/
def V14 (V : Valuation τ sig (Elt F)) : Valuation τ sig (Elt F) := after (chunk14 (F := F)) (V13 V)

/-- The contents after the first 15 lists, from contents V. -/
def V15 (V : Valuation τ sig (Elt F)) : Valuation τ sig (Elt F) := after (chunk15 (F := F)) (V14 V)

/-- The contents after the first 16 lists, from contents V. -/
def V16 (V : Valuation τ sig (Elt F)) : Valuation τ sig (Elt F) := after (chunk16 (F := F)) (V15 V)

/-- The contents after the first 17 lists, from contents V. -/
def V17 (V : Valuation τ sig (Elt F)) : Valuation τ sig (Elt F) := after (chunk17 (F := F)) (V16 V)

/-- The contents after the first 18 lists, from contents V. -/
def V18 (V : Valuation τ sig (Elt F)) : Valuation τ sig (Elt F) := after (chunk18 (F := F)) (V17 V)

/-- The contents after the first 19 lists, from contents V. -/
def V19 (V : Valuation τ sig (Elt F)) : Valuation τ sig (Elt F) := after (chunk19 (F := F)) (V18 V)

/-- The contents after the first 20 lists, from contents V. -/
def V20 (V : Valuation τ sig (Elt F)) : Valuation τ sig (Elt F) := after (chunk20 (F := F)) (V19 V)

/-- The contents after the first 21 lists, from contents V. -/
def V21 (V : Valuation τ sig (Elt F)) : Valuation τ sig (Elt F) := after (chunk21 (F := F)) (V20 V)

/-- The contents after the first 22 lists, from contents V. -/
def V22 (V : Valuation τ sig (Elt F)) : Valuation τ sig (Elt F) := after (chunk22 (F := F)) (V21 V)

/-- The contents after the first 23 lists, from contents V. -/
def V23 (V : Valuation τ sig (Elt F)) : Valuation τ sig (Elt F) := after (chunk23 (F := F)) (V22 V)

/-- The contents after the first 24 lists, from contents V. -/
def V24 (V : Valuation τ sig (Elt F)) : Valuation τ sig (Elt F) := after (chunk24 (F := F)) (V23 V)

/-- The contents after the first 25 lists, from contents V. -/
def V25 (V : Valuation τ sig (Elt F)) : Valuation τ sig (Elt F) := after (chunk25 (F := F)) (V24 V)

/-- The contents after the first 26 lists, from contents V. -/
def V26 (V : Valuation τ sig (Elt F)) : Valuation τ sig (Elt F) := after (chunk26 (F := F)) (V25 V)

theorem after_ops (V : Valuation τ sig (Elt F)) : after (ValueP.ops (F := F)) V = V26 V := by
  rw [ops_eq]
  simp only [StableHlo.after_append]
  rfl

/-! ### After list 1 -/

theorem V1_main_arg0 (V : Valuation τ sig (Elt F)) : V1 V (Proc.devRef .tc main_arg0) = V (Proc.devRef .tc main_arg0) :=
  chunk1_frame (r := main_arg0) V (by decide)
theorem V1_main_arg1 (V : Valuation τ sig (Elt F)) : V1 V (Proc.devRef .tc main_arg1) = V (Proc.devRef .tc main_arg1) :=
  chunk1_frame (r := main_arg1) V (by decide)
theorem V1_main_arg2 (V : Valuation τ sig (Elt F)) : V1 V (Proc.devRef .tc main_arg2) = V (Proc.devRef .tc main_arg2) :=
  chunk1_frame (r := main_arg2) V (by decide)
theorem V1_main_arg3 (V : Valuation τ sig (Elt F)) : V1 V (Proc.devRef .tc main_arg3) = V (Proc.devRef .tc main_arg3) :=
  chunk1_frame (r := main_arg3) V (by decide)
theorem V1_main_arg4 (V : Valuation τ sig (Elt F)) : V1 V (Proc.devRef .tc main_arg4) = V (Proc.devRef .tc main_arg4) :=
  chunk1_frame (r := main_arg4) V (by decide)
theorem V1_main_arg5 (V : Valuation τ sig (Elt F)) : V1 V (Proc.devRef .tc main_arg5) = V (Proc.devRef .tc main_arg5) :=
  chunk1_frame (r := main_arg5) V (by decide)
theorem V1_main_arg6 (V : Valuation τ sig (Elt F)) : V1 V (Proc.devRef .tc main_arg6) = V (Proc.devRef .tc main_arg6) :=
  chunk1_frame (r := main_arg6) V (by decide)
theorem V1_main_arg7 (V : Valuation τ sig (Elt F)) : V1 V (Proc.devRef .tc main_arg7) = V (Proc.devRef .tc main_arg7) :=
  chunk1_frame (r := main_arg7) V (by decide)
theorem V1_main_arg8 (V : Valuation τ sig (Elt F)) : V1 V (Proc.devRef .tc main_arg8) = V (Proc.devRef .tc main_arg8) :=
  chunk1_frame (r := main_arg8) V (by decide)
theorem V1_main_arg9 (V : Valuation τ sig (Elt F)) : V1 V (Proc.devRef .tc main_arg9) = V (Proc.devRef .tc main_arg9) :=
  chunk1_frame (r := main_arg9) V (by decide)
theorem V1_main_arg10 (V : Valuation τ sig (Elt F)) : V1 V (Proc.devRef .tc main_arg10) = V (Proc.devRef .tc main_arg10) :=
  chunk1_frame (r := main_arg10) V (by decide)
theorem V1_main_arg11 (V : Valuation τ sig (Elt F)) : V1 V (Proc.devRef .tc main_arg11) = V (Proc.devRef .tc main_arg11) :=
  chunk1_frame (r := main_arg11) V (by decide)
theorem V1_main_arg12 (V : Valuation τ sig (Elt F)) : V1 V (Proc.devRef .tc main_arg12) = V (Proc.devRef .tc main_arg12) :=
  chunk1_frame (r := main_arg12) V (by decide)
theorem V1_main_arg13 (V : Valuation τ sig (Elt F)) : V1 V (Proc.devRef .tc main_arg13) = V (Proc.devRef .tc main_arg13) :=
  chunk1_frame (r := main_arg13) V (by decide)
theorem V1_main_arg14 (V : Valuation τ sig (Elt F)) : V1 V (Proc.devRef .tc main_arg14) = V (Proc.devRef .tc main_arg14) :=
  chunk1_frame (r := main_arg14) V (by decide)
theorem V1_main_arg15 (V : Valuation τ sig (Elt F)) : V1 V (Proc.devRef .tc main_arg15) = V (Proc.devRef .tc main_arg15) :=
  chunk1_frame (r := main_arg15) V (by decide)
theorem V1_main_arg16 (V : Valuation τ sig (Elt F)) : V1 V (Proc.devRef .tc main_arg16) = V (Proc.devRef .tc main_arg16) :=
  chunk1_frame (r := main_arg16) V (by decide)
theorem V1_main_arg17 (V : Valuation τ sig (Elt F)) : V1 V (Proc.devRef .tc main_arg17) = V (Proc.devRef .tc main_arg17) :=
  chunk1_frame (r := main_arg17) V (by decide)
theorem V1_main_arg18 (V : Valuation τ sig (Elt F)) : V1 V (Proc.devRef .tc main_arg18) = V (Proc.devRef .tc main_arg18) :=
  chunk1_frame (r := main_arg18) V (by decide)
theorem V1_main_arg19 (V : Valuation τ sig (Elt F)) : V1 V (Proc.devRef .tc main_arg19) = V (Proc.devRef .tc main_arg19) :=
  chunk1_frame (r := main_arg19) V (by decide)
theorem V1_main_v1 (V : Valuation τ sig (Elt F)) : V1 V (Proc.devRef .tc main_v1) = ReadP.val_main_v1 (F := F) (V (Proc.devRef .tc main_arg1)) :=
  c1_main_v1 V (V (Proc.devRef .tc main_arg1)) rfl
theorem V1_main_v2 (V : Valuation τ sig (Elt F)) : V1 V (Proc.devRef .tc main_v2) = ReadP.val_main_v2 (F := F) :=
  c1_main_v2 V

/-! ### After list 2 -/

theorem V2_main_arg0 (V : Valuation τ sig (Elt F)) : V2 V (Proc.devRef .tc main_arg0) = V (Proc.devRef .tc main_arg0) :=
  (chunk2_frame (r := main_arg0) (V1 V) (by decide)).trans (V1_main_arg0 V)
theorem V2_main_arg1 (V : Valuation τ sig (Elt F)) : V2 V (Proc.devRef .tc main_arg1) = V (Proc.devRef .tc main_arg1) :=
  (chunk2_frame (r := main_arg1) (V1 V) (by decide)).trans (V1_main_arg1 V)
theorem V2_main_arg2 (V : Valuation τ sig (Elt F)) : V2 V (Proc.devRef .tc main_arg2) = V (Proc.devRef .tc main_arg2) :=
  (chunk2_frame (r := main_arg2) (V1 V) (by decide)).trans (V1_main_arg2 V)
theorem V2_main_arg3 (V : Valuation τ sig (Elt F)) : V2 V (Proc.devRef .tc main_arg3) = V (Proc.devRef .tc main_arg3) :=
  (chunk2_frame (r := main_arg3) (V1 V) (by decide)).trans (V1_main_arg3 V)
theorem V2_main_arg4 (V : Valuation τ sig (Elt F)) : V2 V (Proc.devRef .tc main_arg4) = V (Proc.devRef .tc main_arg4) :=
  (chunk2_frame (r := main_arg4) (V1 V) (by decide)).trans (V1_main_arg4 V)
theorem V2_main_arg5 (V : Valuation τ sig (Elt F)) : V2 V (Proc.devRef .tc main_arg5) = V (Proc.devRef .tc main_arg5) :=
  (chunk2_frame (r := main_arg5) (V1 V) (by decide)).trans (V1_main_arg5 V)
theorem V2_main_arg6 (V : Valuation τ sig (Elt F)) : V2 V (Proc.devRef .tc main_arg6) = V (Proc.devRef .tc main_arg6) :=
  (chunk2_frame (r := main_arg6) (V1 V) (by decide)).trans (V1_main_arg6 V)
theorem V2_main_arg7 (V : Valuation τ sig (Elt F)) : V2 V (Proc.devRef .tc main_arg7) = V (Proc.devRef .tc main_arg7) :=
  (chunk2_frame (r := main_arg7) (V1 V) (by decide)).trans (V1_main_arg7 V)
theorem V2_main_arg8 (V : Valuation τ sig (Elt F)) : V2 V (Proc.devRef .tc main_arg8) = V (Proc.devRef .tc main_arg8) :=
  (chunk2_frame (r := main_arg8) (V1 V) (by decide)).trans (V1_main_arg8 V)
theorem V2_main_arg9 (V : Valuation τ sig (Elt F)) : V2 V (Proc.devRef .tc main_arg9) = V (Proc.devRef .tc main_arg9) :=
  (chunk2_frame (r := main_arg9) (V1 V) (by decide)).trans (V1_main_arg9 V)
theorem V2_main_arg10 (V : Valuation τ sig (Elt F)) : V2 V (Proc.devRef .tc main_arg10) = V (Proc.devRef .tc main_arg10) :=
  (chunk2_frame (r := main_arg10) (V1 V) (by decide)).trans (V1_main_arg10 V)
theorem V2_main_arg11 (V : Valuation τ sig (Elt F)) : V2 V (Proc.devRef .tc main_arg11) = V (Proc.devRef .tc main_arg11) :=
  (chunk2_frame (r := main_arg11) (V1 V) (by decide)).trans (V1_main_arg11 V)
theorem V2_main_arg12 (V : Valuation τ sig (Elt F)) : V2 V (Proc.devRef .tc main_arg12) = V (Proc.devRef .tc main_arg12) :=
  (chunk2_frame (r := main_arg12) (V1 V) (by decide)).trans (V1_main_arg12 V)
theorem V2_main_arg13 (V : Valuation τ sig (Elt F)) : V2 V (Proc.devRef .tc main_arg13) = V (Proc.devRef .tc main_arg13) :=
  (chunk2_frame (r := main_arg13) (V1 V) (by decide)).trans (V1_main_arg13 V)
theorem V2_main_arg14 (V : Valuation τ sig (Elt F)) : V2 V (Proc.devRef .tc main_arg14) = V (Proc.devRef .tc main_arg14) :=
  (chunk2_frame (r := main_arg14) (V1 V) (by decide)).trans (V1_main_arg14 V)
theorem V2_main_arg15 (V : Valuation τ sig (Elt F)) : V2 V (Proc.devRef .tc main_arg15) = V (Proc.devRef .tc main_arg15) :=
  (chunk2_frame (r := main_arg15) (V1 V) (by decide)).trans (V1_main_arg15 V)
theorem V2_main_arg16 (V : Valuation τ sig (Elt F)) : V2 V (Proc.devRef .tc main_arg16) = V (Proc.devRef .tc main_arg16) :=
  (chunk2_frame (r := main_arg16) (V1 V) (by decide)).trans (V1_main_arg16 V)
theorem V2_main_arg17 (V : Valuation τ sig (Elt F)) : V2 V (Proc.devRef .tc main_arg17) = V (Proc.devRef .tc main_arg17) :=
  (chunk2_frame (r := main_arg17) (V1 V) (by decide)).trans (V1_main_arg17 V)
theorem V2_main_arg18 (V : Valuation τ sig (Elt F)) : V2 V (Proc.devRef .tc main_arg18) = V (Proc.devRef .tc main_arg18) :=
  (chunk2_frame (r := main_arg18) (V1 V) (by decide)).trans (V1_main_arg18 V)
theorem V2_main_arg19 (V : Valuation τ sig (Elt F)) : V2 V (Proc.devRef .tc main_arg19) = V (Proc.devRef .tc main_arg19) :=
  (chunk2_frame (r := main_arg19) (V1 V) (by decide)).trans (V1_main_arg19 V)
theorem V2_main_v3 (V : Valuation τ sig (Elt F)) : V2 V (Proc.devRef .tc main_v3) = ReadP.val_main_v3 (F := F) (V (Proc.devRef .tc main_arg1)) :=
  c2_main_v3 (V1 V) (V (Proc.devRef .tc main_arg1)) (V1_main_v1 V) (V1_main_v2 V)
theorem V2_main_v5 (V : Valuation τ sig (Elt F)) : V2 V (Proc.devRef .tc main_v5) = ReadP.val_main_v5 (F := F) (V (Proc.devRef .tc main_arg1)) :=
  c2_main_v5 (V1 V) (V (Proc.devRef .tc main_arg1)) (V1_main_arg1 V)
theorem V2_main_v6 (V : Valuation τ sig (Elt F)) : V2 V (Proc.devRef .tc main_v6) = ReadP.val_main_v6 (F := F) :=
  c2_main_v6 (V1 V)

/-! ### After list 3 -/

theorem V3_main_arg0 (V : Valuation τ sig (Elt F)) : V3 V (Proc.devRef .tc main_arg0) = V (Proc.devRef .tc main_arg0) :=
  (chunk3_frame (r := main_arg0) (V2 V) (by decide)).trans (V2_main_arg0 V)
theorem V3_main_arg1 (V : Valuation τ sig (Elt F)) : V3 V (Proc.devRef .tc main_arg1) = V (Proc.devRef .tc main_arg1) :=
  (chunk3_frame (r := main_arg1) (V2 V) (by decide)).trans (V2_main_arg1 V)
theorem V3_main_arg2 (V : Valuation τ sig (Elt F)) : V3 V (Proc.devRef .tc main_arg2) = V (Proc.devRef .tc main_arg2) :=
  (chunk3_frame (r := main_arg2) (V2 V) (by decide)).trans (V2_main_arg2 V)
theorem V3_main_arg3 (V : Valuation τ sig (Elt F)) : V3 V (Proc.devRef .tc main_arg3) = V (Proc.devRef .tc main_arg3) :=
  (chunk3_frame (r := main_arg3) (V2 V) (by decide)).trans (V2_main_arg3 V)
theorem V3_main_arg4 (V : Valuation τ sig (Elt F)) : V3 V (Proc.devRef .tc main_arg4) = V (Proc.devRef .tc main_arg4) :=
  (chunk3_frame (r := main_arg4) (V2 V) (by decide)).trans (V2_main_arg4 V)
theorem V3_main_arg5 (V : Valuation τ sig (Elt F)) : V3 V (Proc.devRef .tc main_arg5) = V (Proc.devRef .tc main_arg5) :=
  (chunk3_frame (r := main_arg5) (V2 V) (by decide)).trans (V2_main_arg5 V)
theorem V3_main_arg6 (V : Valuation τ sig (Elt F)) : V3 V (Proc.devRef .tc main_arg6) = V (Proc.devRef .tc main_arg6) :=
  (chunk3_frame (r := main_arg6) (V2 V) (by decide)).trans (V2_main_arg6 V)
theorem V3_main_arg7 (V : Valuation τ sig (Elt F)) : V3 V (Proc.devRef .tc main_arg7) = V (Proc.devRef .tc main_arg7) :=
  (chunk3_frame (r := main_arg7) (V2 V) (by decide)).trans (V2_main_arg7 V)
theorem V3_main_arg8 (V : Valuation τ sig (Elt F)) : V3 V (Proc.devRef .tc main_arg8) = V (Proc.devRef .tc main_arg8) :=
  (chunk3_frame (r := main_arg8) (V2 V) (by decide)).trans (V2_main_arg8 V)
theorem V3_main_arg9 (V : Valuation τ sig (Elt F)) : V3 V (Proc.devRef .tc main_arg9) = V (Proc.devRef .tc main_arg9) :=
  (chunk3_frame (r := main_arg9) (V2 V) (by decide)).trans (V2_main_arg9 V)
theorem V3_main_arg10 (V : Valuation τ sig (Elt F)) : V3 V (Proc.devRef .tc main_arg10) = V (Proc.devRef .tc main_arg10) :=
  (chunk3_frame (r := main_arg10) (V2 V) (by decide)).trans (V2_main_arg10 V)
theorem V3_main_arg11 (V : Valuation τ sig (Elt F)) : V3 V (Proc.devRef .tc main_arg11) = V (Proc.devRef .tc main_arg11) :=
  (chunk3_frame (r := main_arg11) (V2 V) (by decide)).trans (V2_main_arg11 V)
theorem V3_main_arg12 (V : Valuation τ sig (Elt F)) : V3 V (Proc.devRef .tc main_arg12) = V (Proc.devRef .tc main_arg12) :=
  (chunk3_frame (r := main_arg12) (V2 V) (by decide)).trans (V2_main_arg12 V)
theorem V3_main_arg13 (V : Valuation τ sig (Elt F)) : V3 V (Proc.devRef .tc main_arg13) = V (Proc.devRef .tc main_arg13) :=
  (chunk3_frame (r := main_arg13) (V2 V) (by decide)).trans (V2_main_arg13 V)
theorem V3_main_arg14 (V : Valuation τ sig (Elt F)) : V3 V (Proc.devRef .tc main_arg14) = V (Proc.devRef .tc main_arg14) :=
  (chunk3_frame (r := main_arg14) (V2 V) (by decide)).trans (V2_main_arg14 V)
theorem V3_main_arg15 (V : Valuation τ sig (Elt F)) : V3 V (Proc.devRef .tc main_arg15) = V (Proc.devRef .tc main_arg15) :=
  (chunk3_frame (r := main_arg15) (V2 V) (by decide)).trans (V2_main_arg15 V)
theorem V3_main_arg16 (V : Valuation τ sig (Elt F)) : V3 V (Proc.devRef .tc main_arg16) = V (Proc.devRef .tc main_arg16) :=
  (chunk3_frame (r := main_arg16) (V2 V) (by decide)).trans (V2_main_arg16 V)
theorem V3_main_arg17 (V : Valuation τ sig (Elt F)) : V3 V (Proc.devRef .tc main_arg17) = V (Proc.devRef .tc main_arg17) :=
  (chunk3_frame (r := main_arg17) (V2 V) (by decide)).trans (V2_main_arg17 V)
theorem V3_main_arg18 (V : Valuation τ sig (Elt F)) : V3 V (Proc.devRef .tc main_arg18) = V (Proc.devRef .tc main_arg18) :=
  (chunk3_frame (r := main_arg18) (V2 V) (by decide)).trans (V2_main_arg18 V)
theorem V3_main_arg19 (V : Valuation τ sig (Elt F)) : V3 V (Proc.devRef .tc main_arg19) = V (Proc.devRef .tc main_arg19) :=
  (chunk3_frame (r := main_arg19) (V2 V) (by decide)).trans (V2_main_arg19 V)
theorem V3_main_v3 (V : Valuation τ sig (Elt F)) : V3 V (Proc.devRef .tc main_v3) = ReadP.val_main_v3 (F := F) (V (Proc.devRef .tc main_arg1)) :=
  (chunk3_frame (r := main_v3) (V2 V) (by decide)).trans (V2_main_v3 V)
theorem V3_main_v7 (V : Valuation τ sig (Elt F)) : V3 V (Proc.devRef .tc main_v7) = ReadP.val_main_v7 (F := F) (V (Proc.devRef .tc main_arg1)) :=
  c3_main_v7 (V2 V) (V (Proc.devRef .tc main_arg1)) (V2_main_v5 V) (V2_main_v6 V)
theorem V3_main_v13 (V : Valuation τ sig (Elt F)) : V3 V (Proc.devRef .tc main_v13) = ReadP.val_main_v13 (F := F) (V (Proc.devRef .tc main_arg1)) :=
  c3_main_v13 (V2 V) (V (Proc.devRef .tc main_arg1)) (V2_main_v5 V) (V2_main_v6 V)
theorem V3_main_v14 (V : Valuation τ sig (Elt F)) : V3 V (Proc.devRef .tc main_v14) = ReadP.val_main_v14 (F := F) (V (Proc.devRef .tc main_arg1)) :=
  c3_main_v14 (V2 V) (V (Proc.devRef .tc main_arg1)) (V2_main_v5 V) (V2_main_v6 V)
theorem V3_main_cst_2 (V : Valuation τ sig (Elt F)) : V3 V (Proc.devRef .tc main_cst_2) = ReadP.val_main_cst_2 (F := F) :=
  c3_main_cst_2 (V2 V)

/-! ### After list 4 -/

theorem V4_main_arg0 (V : Valuation τ sig (Elt F)) : V4 V (Proc.devRef .tc main_arg0) = V (Proc.devRef .tc main_arg0) :=
  (chunk4_frame (r := main_arg0) (V3 V) (by decide)).trans (V3_main_arg0 V)
theorem V4_main_arg1 (V : Valuation τ sig (Elt F)) : V4 V (Proc.devRef .tc main_arg1) = V (Proc.devRef .tc main_arg1) :=
  (chunk4_frame (r := main_arg1) (V3 V) (by decide)).trans (V3_main_arg1 V)
theorem V4_main_arg2 (V : Valuation τ sig (Elt F)) : V4 V (Proc.devRef .tc main_arg2) = V (Proc.devRef .tc main_arg2) :=
  (chunk4_frame (r := main_arg2) (V3 V) (by decide)).trans (V3_main_arg2 V)
theorem V4_main_arg3 (V : Valuation τ sig (Elt F)) : V4 V (Proc.devRef .tc main_arg3) = V (Proc.devRef .tc main_arg3) :=
  (chunk4_frame (r := main_arg3) (V3 V) (by decide)).trans (V3_main_arg3 V)
theorem V4_main_arg4 (V : Valuation τ sig (Elt F)) : V4 V (Proc.devRef .tc main_arg4) = V (Proc.devRef .tc main_arg4) :=
  (chunk4_frame (r := main_arg4) (V3 V) (by decide)).trans (V3_main_arg4 V)
theorem V4_main_arg5 (V : Valuation τ sig (Elt F)) : V4 V (Proc.devRef .tc main_arg5) = V (Proc.devRef .tc main_arg5) :=
  (chunk4_frame (r := main_arg5) (V3 V) (by decide)).trans (V3_main_arg5 V)
theorem V4_main_arg6 (V : Valuation τ sig (Elt F)) : V4 V (Proc.devRef .tc main_arg6) = V (Proc.devRef .tc main_arg6) :=
  (chunk4_frame (r := main_arg6) (V3 V) (by decide)).trans (V3_main_arg6 V)
theorem V4_main_arg7 (V : Valuation τ sig (Elt F)) : V4 V (Proc.devRef .tc main_arg7) = V (Proc.devRef .tc main_arg7) :=
  (chunk4_frame (r := main_arg7) (V3 V) (by decide)).trans (V3_main_arg7 V)
theorem V4_main_arg8 (V : Valuation τ sig (Elt F)) : V4 V (Proc.devRef .tc main_arg8) = V (Proc.devRef .tc main_arg8) :=
  (chunk4_frame (r := main_arg8) (V3 V) (by decide)).trans (V3_main_arg8 V)
theorem V4_main_arg9 (V : Valuation τ sig (Elt F)) : V4 V (Proc.devRef .tc main_arg9) = V (Proc.devRef .tc main_arg9) :=
  (chunk4_frame (r := main_arg9) (V3 V) (by decide)).trans (V3_main_arg9 V)
theorem V4_main_arg10 (V : Valuation τ sig (Elt F)) : V4 V (Proc.devRef .tc main_arg10) = V (Proc.devRef .tc main_arg10) :=
  (chunk4_frame (r := main_arg10) (V3 V) (by decide)).trans (V3_main_arg10 V)
theorem V4_main_arg11 (V : Valuation τ sig (Elt F)) : V4 V (Proc.devRef .tc main_arg11) = V (Proc.devRef .tc main_arg11) :=
  (chunk4_frame (r := main_arg11) (V3 V) (by decide)).trans (V3_main_arg11 V)
theorem V4_main_arg12 (V : Valuation τ sig (Elt F)) : V4 V (Proc.devRef .tc main_arg12) = V (Proc.devRef .tc main_arg12) :=
  (chunk4_frame (r := main_arg12) (V3 V) (by decide)).trans (V3_main_arg12 V)
theorem V4_main_arg13 (V : Valuation τ sig (Elt F)) : V4 V (Proc.devRef .tc main_arg13) = V (Proc.devRef .tc main_arg13) :=
  (chunk4_frame (r := main_arg13) (V3 V) (by decide)).trans (V3_main_arg13 V)
theorem V4_main_arg14 (V : Valuation τ sig (Elt F)) : V4 V (Proc.devRef .tc main_arg14) = V (Proc.devRef .tc main_arg14) :=
  (chunk4_frame (r := main_arg14) (V3 V) (by decide)).trans (V3_main_arg14 V)
theorem V4_main_arg15 (V : Valuation τ sig (Elt F)) : V4 V (Proc.devRef .tc main_arg15) = V (Proc.devRef .tc main_arg15) :=
  (chunk4_frame (r := main_arg15) (V3 V) (by decide)).trans (V3_main_arg15 V)
theorem V4_main_arg16 (V : Valuation τ sig (Elt F)) : V4 V (Proc.devRef .tc main_arg16) = V (Proc.devRef .tc main_arg16) :=
  (chunk4_frame (r := main_arg16) (V3 V) (by decide)).trans (V3_main_arg16 V)
theorem V4_main_arg17 (V : Valuation τ sig (Elt F)) : V4 V (Proc.devRef .tc main_arg17) = V (Proc.devRef .tc main_arg17) :=
  (chunk4_frame (r := main_arg17) (V3 V) (by decide)).trans (V3_main_arg17 V)
theorem V4_main_arg18 (V : Valuation τ sig (Elt F)) : V4 V (Proc.devRef .tc main_arg18) = V (Proc.devRef .tc main_arg18) :=
  (chunk4_frame (r := main_arg18) (V3 V) (by decide)).trans (V3_main_arg18 V)
theorem V4_main_arg19 (V : Valuation τ sig (Elt F)) : V4 V (Proc.devRef .tc main_arg19) = V (Proc.devRef .tc main_arg19) :=
  (chunk4_frame (r := main_arg19) (V3 V) (by decide)).trans (V3_main_arg19 V)
theorem V4_main_v3 (V : Valuation τ sig (Elt F)) : V4 V (Proc.devRef .tc main_v3) = ReadP.val_main_v3 (F := F) (V (Proc.devRef .tc main_arg1)) :=
  (chunk4_frame (r := main_v3) (V3 V) (by decide)).trans (V3_main_v3 V)
theorem V4_main_v7 (V : Valuation τ sig (Elt F)) : V4 V (Proc.devRef .tc main_v7) = ReadP.val_main_v7 (F := F) (V (Proc.devRef .tc main_arg1)) :=
  (chunk4_frame (r := main_v7) (V3 V) (by decide)).trans (V3_main_v7 V)
theorem V4_main_v15 (V : Valuation τ sig (Elt F)) : V4 V (Proc.devRef .tc main_v15) = ReadP.val_main_v15 (F := F) (V (Proc.devRef .tc main_arg1)) :=
  c4_main_v15 (V3 V) (V (Proc.devRef .tc main_arg1)) (V3_main_v13 V) (V3_main_v14 V) (V3_main_cst_2 V)
theorem V4_main_v22 (V : Valuation τ sig (Elt F)) : V4 V (Proc.devRef .tc main_v22) = ReadP.val_main_v22 (F := F) (V (Proc.devRef .tc main_arg1)) :=
  c4_main_v22 (V3 V) (V (Proc.devRef .tc main_arg1)) (V3_main_v13 V) (V3_main_v14 V) (V3_main_cst_2 V) (V3_main_v3 V)

/-! ### After list 5 -/

theorem V5_main_arg0 (V : Valuation τ sig (Elt F)) : V5 V (Proc.devRef .tc main_arg0) = V (Proc.devRef .tc main_arg0) :=
  (chunk5_frame (r := main_arg0) (V4 V) (by decide)).trans (V4_main_arg0 V)
theorem V5_main_arg1 (V : Valuation τ sig (Elt F)) : V5 V (Proc.devRef .tc main_arg1) = V (Proc.devRef .tc main_arg1) :=
  (chunk5_frame (r := main_arg1) (V4 V) (by decide)).trans (V4_main_arg1 V)
theorem V5_main_arg2 (V : Valuation τ sig (Elt F)) : V5 V (Proc.devRef .tc main_arg2) = V (Proc.devRef .tc main_arg2) :=
  (chunk5_frame (r := main_arg2) (V4 V) (by decide)).trans (V4_main_arg2 V)
theorem V5_main_arg3 (V : Valuation τ sig (Elt F)) : V5 V (Proc.devRef .tc main_arg3) = V (Proc.devRef .tc main_arg3) :=
  (chunk5_frame (r := main_arg3) (V4 V) (by decide)).trans (V4_main_arg3 V)
theorem V5_main_arg4 (V : Valuation τ sig (Elt F)) : V5 V (Proc.devRef .tc main_arg4) = V (Proc.devRef .tc main_arg4) :=
  (chunk5_frame (r := main_arg4) (V4 V) (by decide)).trans (V4_main_arg4 V)
theorem V5_main_arg5 (V : Valuation τ sig (Elt F)) : V5 V (Proc.devRef .tc main_arg5) = V (Proc.devRef .tc main_arg5) :=
  (chunk5_frame (r := main_arg5) (V4 V) (by decide)).trans (V4_main_arg5 V)
theorem V5_main_arg6 (V : Valuation τ sig (Elt F)) : V5 V (Proc.devRef .tc main_arg6) = V (Proc.devRef .tc main_arg6) :=
  (chunk5_frame (r := main_arg6) (V4 V) (by decide)).trans (V4_main_arg6 V)
theorem V5_main_arg7 (V : Valuation τ sig (Elt F)) : V5 V (Proc.devRef .tc main_arg7) = V (Proc.devRef .tc main_arg7) :=
  (chunk5_frame (r := main_arg7) (V4 V) (by decide)).trans (V4_main_arg7 V)
theorem V5_main_arg8 (V : Valuation τ sig (Elt F)) : V5 V (Proc.devRef .tc main_arg8) = V (Proc.devRef .tc main_arg8) :=
  (chunk5_frame (r := main_arg8) (V4 V) (by decide)).trans (V4_main_arg8 V)
theorem V5_main_arg9 (V : Valuation τ sig (Elt F)) : V5 V (Proc.devRef .tc main_arg9) = V (Proc.devRef .tc main_arg9) :=
  (chunk5_frame (r := main_arg9) (V4 V) (by decide)).trans (V4_main_arg9 V)
theorem V5_main_arg10 (V : Valuation τ sig (Elt F)) : V5 V (Proc.devRef .tc main_arg10) = V (Proc.devRef .tc main_arg10) :=
  (chunk5_frame (r := main_arg10) (V4 V) (by decide)).trans (V4_main_arg10 V)
theorem V5_main_arg11 (V : Valuation τ sig (Elt F)) : V5 V (Proc.devRef .tc main_arg11) = V (Proc.devRef .tc main_arg11) :=
  (chunk5_frame (r := main_arg11) (V4 V) (by decide)).trans (V4_main_arg11 V)
theorem V5_main_arg12 (V : Valuation τ sig (Elt F)) : V5 V (Proc.devRef .tc main_arg12) = V (Proc.devRef .tc main_arg12) :=
  (chunk5_frame (r := main_arg12) (V4 V) (by decide)).trans (V4_main_arg12 V)
theorem V5_main_arg13 (V : Valuation τ sig (Elt F)) : V5 V (Proc.devRef .tc main_arg13) = V (Proc.devRef .tc main_arg13) :=
  (chunk5_frame (r := main_arg13) (V4 V) (by decide)).trans (V4_main_arg13 V)
theorem V5_main_arg14 (V : Valuation τ sig (Elt F)) : V5 V (Proc.devRef .tc main_arg14) = V (Proc.devRef .tc main_arg14) :=
  (chunk5_frame (r := main_arg14) (V4 V) (by decide)).trans (V4_main_arg14 V)
theorem V5_main_arg15 (V : Valuation τ sig (Elt F)) : V5 V (Proc.devRef .tc main_arg15) = V (Proc.devRef .tc main_arg15) :=
  (chunk5_frame (r := main_arg15) (V4 V) (by decide)).trans (V4_main_arg15 V)
theorem V5_main_arg16 (V : Valuation τ sig (Elt F)) : V5 V (Proc.devRef .tc main_arg16) = V (Proc.devRef .tc main_arg16) :=
  (chunk5_frame (r := main_arg16) (V4 V) (by decide)).trans (V4_main_arg16 V)
theorem V5_main_arg17 (V : Valuation τ sig (Elt F)) : V5 V (Proc.devRef .tc main_arg17) = V (Proc.devRef .tc main_arg17) :=
  (chunk5_frame (r := main_arg17) (V4 V) (by decide)).trans (V4_main_arg17 V)
theorem V5_main_arg18 (V : Valuation τ sig (Elt F)) : V5 V (Proc.devRef .tc main_arg18) = V (Proc.devRef .tc main_arg18) :=
  (chunk5_frame (r := main_arg18) (V4 V) (by decide)).trans (V4_main_arg18 V)
theorem V5_main_arg19 (V : Valuation τ sig (Elt F)) : V5 V (Proc.devRef .tc main_arg19) = V (Proc.devRef .tc main_arg19) :=
  (chunk5_frame (r := main_arg19) (V4 V) (by decide)).trans (V4_main_arg19 V)
theorem V5_main_v3 (V : Valuation τ sig (Elt F)) : V5 V (Proc.devRef .tc main_v3) = ReadP.val_main_v3 (F := F) (V (Proc.devRef .tc main_arg1)) :=
  (chunk5_frame (r := main_v3) (V4 V) (by decide)).trans (V4_main_v3 V)
theorem V5_main_v7 (V : Valuation τ sig (Elt F)) : V5 V (Proc.devRef .tc main_v7) = ReadP.val_main_v7 (F := F) (V (Proc.devRef .tc main_arg1)) :=
  (chunk5_frame (r := main_v7) (V4 V) (by decide)).trans (V4_main_v7 V)
theorem V5_main_v30 (V : Valuation τ sig (Elt F)) : V5 V (Proc.devRef .tc main_v30) = ReadP.val_main_v30 (F := F) (V (Proc.devRef .tc main_arg1)) :=
  c5_main_v30 (V4 V) (V (Proc.devRef .tc main_arg1)) (V4_main_v22 V) (V4_main_v15 V) (V4_main_v7 V)
theorem V5_main_v31 (V : Valuation τ sig (Elt F)) : V5 V (Proc.devRef .tc main_v31) = ReadP.val_main_v31 (F := F) (V (Proc.devRef .tc main_arg0)) (V (Proc.devRef .tc main_arg2)) :=
  c5_main_v31 (V4 V) (V (Proc.devRef .tc main_arg0)) (V (Proc.devRef .tc main_arg2)) (V4_main_arg0 V) (V4_main_arg2 V)
theorem V5_main_c_6 (V : Valuation τ sig (Elt F)) : V5 V (Proc.devRef .tc main_c_6) = ReadP.val_main_c_6 (F := F) :=
  c5_main_c_6 (V4 V)

/-! ### After list 6 -/

theorem V6_main_arg0 (V : Valuation τ sig (Elt F)) : V6 V (Proc.devRef .tc main_arg0) = V (Proc.devRef .tc main_arg0) :=
  (chunk6_frame (r := main_arg0) (V5 V) (by decide)).trans (V5_main_arg0 V)
theorem V6_main_arg1 (V : Valuation τ sig (Elt F)) : V6 V (Proc.devRef .tc main_arg1) = V (Proc.devRef .tc main_arg1) :=
  (chunk6_frame (r := main_arg1) (V5 V) (by decide)).trans (V5_main_arg1 V)
theorem V6_main_arg2 (V : Valuation τ sig (Elt F)) : V6 V (Proc.devRef .tc main_arg2) = V (Proc.devRef .tc main_arg2) :=
  (chunk6_frame (r := main_arg2) (V5 V) (by decide)).trans (V5_main_arg2 V)
theorem V6_main_arg3 (V : Valuation τ sig (Elt F)) : V6 V (Proc.devRef .tc main_arg3) = V (Proc.devRef .tc main_arg3) :=
  (chunk6_frame (r := main_arg3) (V5 V) (by decide)).trans (V5_main_arg3 V)
theorem V6_main_arg4 (V : Valuation τ sig (Elt F)) : V6 V (Proc.devRef .tc main_arg4) = V (Proc.devRef .tc main_arg4) :=
  (chunk6_frame (r := main_arg4) (V5 V) (by decide)).trans (V5_main_arg4 V)
theorem V6_main_arg5 (V : Valuation τ sig (Elt F)) : V6 V (Proc.devRef .tc main_arg5) = V (Proc.devRef .tc main_arg5) :=
  (chunk6_frame (r := main_arg5) (V5 V) (by decide)).trans (V5_main_arg5 V)
theorem V6_main_arg6 (V : Valuation τ sig (Elt F)) : V6 V (Proc.devRef .tc main_arg6) = V (Proc.devRef .tc main_arg6) :=
  (chunk6_frame (r := main_arg6) (V5 V) (by decide)).trans (V5_main_arg6 V)
theorem V6_main_arg7 (V : Valuation τ sig (Elt F)) : V6 V (Proc.devRef .tc main_arg7) = V (Proc.devRef .tc main_arg7) :=
  (chunk6_frame (r := main_arg7) (V5 V) (by decide)).trans (V5_main_arg7 V)
theorem V6_main_arg8 (V : Valuation τ sig (Elt F)) : V6 V (Proc.devRef .tc main_arg8) = V (Proc.devRef .tc main_arg8) :=
  (chunk6_frame (r := main_arg8) (V5 V) (by decide)).trans (V5_main_arg8 V)
theorem V6_main_arg9 (V : Valuation τ sig (Elt F)) : V6 V (Proc.devRef .tc main_arg9) = V (Proc.devRef .tc main_arg9) :=
  (chunk6_frame (r := main_arg9) (V5 V) (by decide)).trans (V5_main_arg9 V)
theorem V6_main_arg10 (V : Valuation τ sig (Elt F)) : V6 V (Proc.devRef .tc main_arg10) = V (Proc.devRef .tc main_arg10) :=
  (chunk6_frame (r := main_arg10) (V5 V) (by decide)).trans (V5_main_arg10 V)
theorem V6_main_arg11 (V : Valuation τ sig (Elt F)) : V6 V (Proc.devRef .tc main_arg11) = V (Proc.devRef .tc main_arg11) :=
  (chunk6_frame (r := main_arg11) (V5 V) (by decide)).trans (V5_main_arg11 V)
theorem V6_main_arg12 (V : Valuation τ sig (Elt F)) : V6 V (Proc.devRef .tc main_arg12) = V (Proc.devRef .tc main_arg12) :=
  (chunk6_frame (r := main_arg12) (V5 V) (by decide)).trans (V5_main_arg12 V)
theorem V6_main_arg13 (V : Valuation τ sig (Elt F)) : V6 V (Proc.devRef .tc main_arg13) = V (Proc.devRef .tc main_arg13) :=
  (chunk6_frame (r := main_arg13) (V5 V) (by decide)).trans (V5_main_arg13 V)
theorem V6_main_arg14 (V : Valuation τ sig (Elt F)) : V6 V (Proc.devRef .tc main_arg14) = V (Proc.devRef .tc main_arg14) :=
  (chunk6_frame (r := main_arg14) (V5 V) (by decide)).trans (V5_main_arg14 V)
theorem V6_main_arg15 (V : Valuation τ sig (Elt F)) : V6 V (Proc.devRef .tc main_arg15) = V (Proc.devRef .tc main_arg15) :=
  (chunk6_frame (r := main_arg15) (V5 V) (by decide)).trans (V5_main_arg15 V)
theorem V6_main_arg16 (V : Valuation τ sig (Elt F)) : V6 V (Proc.devRef .tc main_arg16) = V (Proc.devRef .tc main_arg16) :=
  (chunk6_frame (r := main_arg16) (V5 V) (by decide)).trans (V5_main_arg16 V)
theorem V6_main_arg17 (V : Valuation τ sig (Elt F)) : V6 V (Proc.devRef .tc main_arg17) = V (Proc.devRef .tc main_arg17) :=
  (chunk6_frame (r := main_arg17) (V5 V) (by decide)).trans (V5_main_arg17 V)
theorem V6_main_arg18 (V : Valuation τ sig (Elt F)) : V6 V (Proc.devRef .tc main_arg18) = V (Proc.devRef .tc main_arg18) :=
  (chunk6_frame (r := main_arg18) (V5 V) (by decide)).trans (V5_main_arg18 V)
theorem V6_main_arg19 (V : Valuation τ sig (Elt F)) : V6 V (Proc.devRef .tc main_arg19) = V (Proc.devRef .tc main_arg19) :=
  (chunk6_frame (r := main_arg19) (V5 V) (by decide)).trans (V5_main_arg19 V)
theorem V6_main_v3 (V : Valuation τ sig (Elt F)) : V6 V (Proc.devRef .tc main_v3) = ReadP.val_main_v3 (F := F) (V (Proc.devRef .tc main_arg1)) :=
  (chunk6_frame (r := main_v3) (V5 V) (by decide)).trans (V5_main_v3 V)
theorem V6_main_v7 (V : Valuation τ sig (Elt F)) : V6 V (Proc.devRef .tc main_v7) = ReadP.val_main_v7 (F := F) (V (Proc.devRef .tc main_arg1)) :=
  (chunk6_frame (r := main_v7) (V5 V) (by decide)).trans (V5_main_v7 V)
theorem V6_main_v30 (V : Valuation τ sig (Elt F)) : V6 V (Proc.devRef .tc main_v30) = ReadP.val_main_v30 (F := F) (V (Proc.devRef .tc main_arg1)) :=
  (chunk6_frame (r := main_v30) (V5 V) (by decide)).trans (V5_main_v30 V)
theorem V6_main_v41 (V : Valuation τ sig (Elt F)) : V6 V (Proc.devRef .tc main_v41) = ReadP.val_main_v41 (F := F) (V (Proc.devRef .tc main_arg0)) (V (Proc.devRef .tc main_arg1)) (V (Proc.devRef .tc main_arg2)) :=
  c6_main_v41 (V5 V) (V (Proc.devRef .tc main_arg0)) (V (Proc.devRef .tc main_arg1)) (V (Proc.devRef .tc main_arg2)) (V5_main_v31 V) (V5_main_v3 V) (V5_main_c_6 V) (V5_main_v30 V)
theorem V6_main_cst_8 (V : Valuation τ sig (Elt F)) : V6 V (Proc.devRef .tc main_cst_8) = ReadP.val_main_cst_8 (F := F) :=
  c6_main_cst_8 (V5 V)

/-! ### After list 7 -/

theorem V7_main_arg0 (V : Valuation τ sig (Elt F)) : V7 V (Proc.devRef .tc main_arg0) = V (Proc.devRef .tc main_arg0) :=
  (chunk7_frame (r := main_arg0) (V6 V) (by decide)).trans (V6_main_arg0 V)
theorem V7_main_arg1 (V : Valuation τ sig (Elt F)) : V7 V (Proc.devRef .tc main_arg1) = V (Proc.devRef .tc main_arg1) :=
  (chunk7_frame (r := main_arg1) (V6 V) (by decide)).trans (V6_main_arg1 V)
theorem V7_main_arg2 (V : Valuation τ sig (Elt F)) : V7 V (Proc.devRef .tc main_arg2) = V (Proc.devRef .tc main_arg2) :=
  (chunk7_frame (r := main_arg2) (V6 V) (by decide)).trans (V6_main_arg2 V)
theorem V7_main_arg3 (V : Valuation τ sig (Elt F)) : V7 V (Proc.devRef .tc main_arg3) = V (Proc.devRef .tc main_arg3) :=
  (chunk7_frame (r := main_arg3) (V6 V) (by decide)).trans (V6_main_arg3 V)
theorem V7_main_arg4 (V : Valuation τ sig (Elt F)) : V7 V (Proc.devRef .tc main_arg4) = V (Proc.devRef .tc main_arg4) :=
  (chunk7_frame (r := main_arg4) (V6 V) (by decide)).trans (V6_main_arg4 V)
theorem V7_main_arg5 (V : Valuation τ sig (Elt F)) : V7 V (Proc.devRef .tc main_arg5) = V (Proc.devRef .tc main_arg5) :=
  (chunk7_frame (r := main_arg5) (V6 V) (by decide)).trans (V6_main_arg5 V)
theorem V7_main_arg6 (V : Valuation τ sig (Elt F)) : V7 V (Proc.devRef .tc main_arg6) = V (Proc.devRef .tc main_arg6) :=
  (chunk7_frame (r := main_arg6) (V6 V) (by decide)).trans (V6_main_arg6 V)
theorem V7_main_arg7 (V : Valuation τ sig (Elt F)) : V7 V (Proc.devRef .tc main_arg7) = V (Proc.devRef .tc main_arg7) :=
  (chunk7_frame (r := main_arg7) (V6 V) (by decide)).trans (V6_main_arg7 V)
theorem V7_main_arg8 (V : Valuation τ sig (Elt F)) : V7 V (Proc.devRef .tc main_arg8) = V (Proc.devRef .tc main_arg8) :=
  (chunk7_frame (r := main_arg8) (V6 V) (by decide)).trans (V6_main_arg8 V)
theorem V7_main_arg9 (V : Valuation τ sig (Elt F)) : V7 V (Proc.devRef .tc main_arg9) = V (Proc.devRef .tc main_arg9) :=
  (chunk7_frame (r := main_arg9) (V6 V) (by decide)).trans (V6_main_arg9 V)
theorem V7_main_arg10 (V : Valuation τ sig (Elt F)) : V7 V (Proc.devRef .tc main_arg10) = V (Proc.devRef .tc main_arg10) :=
  (chunk7_frame (r := main_arg10) (V6 V) (by decide)).trans (V6_main_arg10 V)
theorem V7_main_arg11 (V : Valuation τ sig (Elt F)) : V7 V (Proc.devRef .tc main_arg11) = V (Proc.devRef .tc main_arg11) :=
  (chunk7_frame (r := main_arg11) (V6 V) (by decide)).trans (V6_main_arg11 V)
theorem V7_main_arg12 (V : Valuation τ sig (Elt F)) : V7 V (Proc.devRef .tc main_arg12) = V (Proc.devRef .tc main_arg12) :=
  (chunk7_frame (r := main_arg12) (V6 V) (by decide)).trans (V6_main_arg12 V)
theorem V7_main_arg13 (V : Valuation τ sig (Elt F)) : V7 V (Proc.devRef .tc main_arg13) = V (Proc.devRef .tc main_arg13) :=
  (chunk7_frame (r := main_arg13) (V6 V) (by decide)).trans (V6_main_arg13 V)
theorem V7_main_arg14 (V : Valuation τ sig (Elt F)) : V7 V (Proc.devRef .tc main_arg14) = V (Proc.devRef .tc main_arg14) :=
  (chunk7_frame (r := main_arg14) (V6 V) (by decide)).trans (V6_main_arg14 V)
theorem V7_main_arg15 (V : Valuation τ sig (Elt F)) : V7 V (Proc.devRef .tc main_arg15) = V (Proc.devRef .tc main_arg15) :=
  (chunk7_frame (r := main_arg15) (V6 V) (by decide)).trans (V6_main_arg15 V)
theorem V7_main_arg16 (V : Valuation τ sig (Elt F)) : V7 V (Proc.devRef .tc main_arg16) = V (Proc.devRef .tc main_arg16) :=
  (chunk7_frame (r := main_arg16) (V6 V) (by decide)).trans (V6_main_arg16 V)
theorem V7_main_arg17 (V : Valuation τ sig (Elt F)) : V7 V (Proc.devRef .tc main_arg17) = V (Proc.devRef .tc main_arg17) :=
  (chunk7_frame (r := main_arg17) (V6 V) (by decide)).trans (V6_main_arg17 V)
theorem V7_main_arg18 (V : Valuation τ sig (Elt F)) : V7 V (Proc.devRef .tc main_arg18) = V (Proc.devRef .tc main_arg18) :=
  (chunk7_frame (r := main_arg18) (V6 V) (by decide)).trans (V6_main_arg18 V)
theorem V7_main_arg19 (V : Valuation τ sig (Elt F)) : V7 V (Proc.devRef .tc main_arg19) = V (Proc.devRef .tc main_arg19) :=
  (chunk7_frame (r := main_arg19) (V6 V) (by decide)).trans (V6_main_arg19 V)
theorem V7_main_v3 (V : Valuation τ sig (Elt F)) : V7 V (Proc.devRef .tc main_v3) = ReadP.val_main_v3 (F := F) (V (Proc.devRef .tc main_arg1)) :=
  (chunk7_frame (r := main_v3) (V6 V) (by decide)).trans (V6_main_v3 V)
theorem V7_main_v7 (V : Valuation τ sig (Elt F)) : V7 V (Proc.devRef .tc main_v7) = ReadP.val_main_v7 (F := F) (V (Proc.devRef .tc main_arg1)) :=
  (chunk7_frame (r := main_v7) (V6 V) (by decide)).trans (V6_main_v7 V)
theorem V7_main_v30 (V : Valuation τ sig (Elt F)) : V7 V (Proc.devRef .tc main_v30) = ReadP.val_main_v30 (F := F) (V (Proc.devRef .tc main_arg1)) :=
  (chunk7_frame (r := main_v30) (V6 V) (by decide)).trans (V6_main_v30 V)
theorem V7_main_v48 (V : Valuation τ sig (Elt F)) : V7 V (Proc.devRef .tc main_v48) = ReadP.val_main_v48 (F := F) (V (Proc.devRef .tc main_arg0)) (V (Proc.devRef .tc main_arg1)) (V (Proc.devRef .tc main_arg2)) (V (Proc.devRef .tc main_arg3)) :=
  c7_main_v48 (V6 V) (V (Proc.devRef .tc main_arg0)) (V (Proc.devRef .tc main_arg1)) (V (Proc.devRef .tc main_arg2)) (V (Proc.devRef .tc main_arg3)) (V6_main_cst_8 V) (V6_main_v7 V) (V6_main_v41 V) (V6_main_arg3 V)
theorem V7_main_v49 (V : Valuation τ sig (Elt F)) : V7 V (Proc.devRef .tc main_v49) = ReadP.val_main_v49 (F := F) (V (Proc.devRef .tc main_arg0)) (V (Proc.devRef .tc main_arg1)) (V (Proc.devRef .tc main_arg2)) (V (Proc.devRef .tc main_arg3)) :=
  c7_main_v49 (V6 V) (V (Proc.devRef .tc main_arg0)) (V (Proc.devRef .tc main_arg1)) (V (Proc.devRef .tc main_arg2)) (V (Proc.devRef .tc main_arg3)) (V6_main_cst_8 V) (V6_main_v7 V) (V6_main_v41 V) (V6_main_arg3 V)
theorem V7_main_cst_10 (V : Valuation τ sig (Elt F)) : V7 V (Proc.devRef .tc main_cst_10) = ReadP.val_main_cst_10 (F := F) :=
  c7_main_cst_10 (V6 V)

/-! ### After list 8 -/

theorem V8_main_arg0 (V : Valuation τ sig (Elt F)) : V8 V (Proc.devRef .tc main_arg0) = V (Proc.devRef .tc main_arg0) :=
  (chunk8_frame (r := main_arg0) (V7 V) (by decide)).trans (V7_main_arg0 V)
theorem V8_main_arg1 (V : Valuation τ sig (Elt F)) : V8 V (Proc.devRef .tc main_arg1) = V (Proc.devRef .tc main_arg1) :=
  (chunk8_frame (r := main_arg1) (V7 V) (by decide)).trans (V7_main_arg1 V)
theorem V8_main_arg2 (V : Valuation τ sig (Elt F)) : V8 V (Proc.devRef .tc main_arg2) = V (Proc.devRef .tc main_arg2) :=
  (chunk8_frame (r := main_arg2) (V7 V) (by decide)).trans (V7_main_arg2 V)
theorem V8_main_arg3 (V : Valuation τ sig (Elt F)) : V8 V (Proc.devRef .tc main_arg3) = V (Proc.devRef .tc main_arg3) :=
  (chunk8_frame (r := main_arg3) (V7 V) (by decide)).trans (V7_main_arg3 V)
theorem V8_main_arg4 (V : Valuation τ sig (Elt F)) : V8 V (Proc.devRef .tc main_arg4) = V (Proc.devRef .tc main_arg4) :=
  (chunk8_frame (r := main_arg4) (V7 V) (by decide)).trans (V7_main_arg4 V)
theorem V8_main_arg5 (V : Valuation τ sig (Elt F)) : V8 V (Proc.devRef .tc main_arg5) = V (Proc.devRef .tc main_arg5) :=
  (chunk8_frame (r := main_arg5) (V7 V) (by decide)).trans (V7_main_arg5 V)
theorem V8_main_arg6 (V : Valuation τ sig (Elt F)) : V8 V (Proc.devRef .tc main_arg6) = V (Proc.devRef .tc main_arg6) :=
  (chunk8_frame (r := main_arg6) (V7 V) (by decide)).trans (V7_main_arg6 V)
theorem V8_main_arg7 (V : Valuation τ sig (Elt F)) : V8 V (Proc.devRef .tc main_arg7) = V (Proc.devRef .tc main_arg7) :=
  (chunk8_frame (r := main_arg7) (V7 V) (by decide)).trans (V7_main_arg7 V)
theorem V8_main_arg8 (V : Valuation τ sig (Elt F)) : V8 V (Proc.devRef .tc main_arg8) = V (Proc.devRef .tc main_arg8) :=
  (chunk8_frame (r := main_arg8) (V7 V) (by decide)).trans (V7_main_arg8 V)
theorem V8_main_arg9 (V : Valuation τ sig (Elt F)) : V8 V (Proc.devRef .tc main_arg9) = V (Proc.devRef .tc main_arg9) :=
  (chunk8_frame (r := main_arg9) (V7 V) (by decide)).trans (V7_main_arg9 V)
theorem V8_main_arg10 (V : Valuation τ sig (Elt F)) : V8 V (Proc.devRef .tc main_arg10) = V (Proc.devRef .tc main_arg10) :=
  (chunk8_frame (r := main_arg10) (V7 V) (by decide)).trans (V7_main_arg10 V)
theorem V8_main_arg11 (V : Valuation τ sig (Elt F)) : V8 V (Proc.devRef .tc main_arg11) = V (Proc.devRef .tc main_arg11) :=
  (chunk8_frame (r := main_arg11) (V7 V) (by decide)).trans (V7_main_arg11 V)
theorem V8_main_arg12 (V : Valuation τ sig (Elt F)) : V8 V (Proc.devRef .tc main_arg12) = V (Proc.devRef .tc main_arg12) :=
  (chunk8_frame (r := main_arg12) (V7 V) (by decide)).trans (V7_main_arg12 V)
theorem V8_main_arg13 (V : Valuation τ sig (Elt F)) : V8 V (Proc.devRef .tc main_arg13) = V (Proc.devRef .tc main_arg13) :=
  (chunk8_frame (r := main_arg13) (V7 V) (by decide)).trans (V7_main_arg13 V)
theorem V8_main_arg14 (V : Valuation τ sig (Elt F)) : V8 V (Proc.devRef .tc main_arg14) = V (Proc.devRef .tc main_arg14) :=
  (chunk8_frame (r := main_arg14) (V7 V) (by decide)).trans (V7_main_arg14 V)
theorem V8_main_arg15 (V : Valuation τ sig (Elt F)) : V8 V (Proc.devRef .tc main_arg15) = V (Proc.devRef .tc main_arg15) :=
  (chunk8_frame (r := main_arg15) (V7 V) (by decide)).trans (V7_main_arg15 V)
theorem V8_main_arg16 (V : Valuation τ sig (Elt F)) : V8 V (Proc.devRef .tc main_arg16) = V (Proc.devRef .tc main_arg16) :=
  (chunk8_frame (r := main_arg16) (V7 V) (by decide)).trans (V7_main_arg16 V)
theorem V8_main_arg17 (V : Valuation τ sig (Elt F)) : V8 V (Proc.devRef .tc main_arg17) = V (Proc.devRef .tc main_arg17) :=
  (chunk8_frame (r := main_arg17) (V7 V) (by decide)).trans (V7_main_arg17 V)
theorem V8_main_arg18 (V : Valuation τ sig (Elt F)) : V8 V (Proc.devRef .tc main_arg18) = V (Proc.devRef .tc main_arg18) :=
  (chunk8_frame (r := main_arg18) (V7 V) (by decide)).trans (V7_main_arg18 V)
theorem V8_main_arg19 (V : Valuation τ sig (Elt F)) : V8 V (Proc.devRef .tc main_arg19) = V (Proc.devRef .tc main_arg19) :=
  (chunk8_frame (r := main_arg19) (V7 V) (by decide)).trans (V7_main_arg19 V)
theorem V8_main_v3 (V : Valuation τ sig (Elt F)) : V8 V (Proc.devRef .tc main_v3) = ReadP.val_main_v3 (F := F) (V (Proc.devRef .tc main_arg1)) :=
  (chunk8_frame (r := main_v3) (V7 V) (by decide)).trans (V7_main_v3 V)
theorem V8_main_v7 (V : Valuation τ sig (Elt F)) : V8 V (Proc.devRef .tc main_v7) = ReadP.val_main_v7 (F := F) (V (Proc.devRef .tc main_arg1)) :=
  (chunk8_frame (r := main_v7) (V7 V) (by decide)).trans (V7_main_v7 V)
theorem V8_main_v30 (V : Valuation τ sig (Elt F)) : V8 V (Proc.devRef .tc main_v30) = ReadP.val_main_v30 (F := F) (V (Proc.devRef .tc main_arg1)) :=
  (chunk8_frame (r := main_v30) (V7 V) (by decide)).trans (V7_main_v30 V)
theorem V8_main_v48 (V : Valuation τ sig (Elt F)) : V8 V (Proc.devRef .tc main_v48) = ReadP.val_main_v48 (F := F) (V (Proc.devRef .tc main_arg0)) (V (Proc.devRef .tc main_arg1)) (V (Proc.devRef .tc main_arg2)) (V (Proc.devRef .tc main_arg3)) :=
  (chunk8_frame (r := main_v48) (V7 V) (by decide)).trans (V7_main_v48 V)
theorem V8_main_v58 (V : Valuation τ sig (Elt F)) : V8 V (Proc.devRef .tc main_v58) = ReadP.val_main_v58 (F := F) (V (Proc.devRef .tc main_arg0)) (V (Proc.devRef .tc main_arg1)) (V (Proc.devRef .tc main_arg2)) (V (Proc.devRef .tc main_arg3)) :=
  c8_main_v58 (V7 V) (V (Proc.devRef .tc main_arg0)) (V (Proc.devRef .tc main_arg1)) (V (Proc.devRef .tc main_arg2)) (V (Proc.devRef .tc main_arg3)) (V7_main_v48 V) (V7_main_v49 V) (V7_main_cst_10 V)
theorem V8_main_v59 (V : Valuation τ sig (Elt F)) : V8 V (Proc.devRef .tc main_v59) = ReadP.val_main_v59 (F := F) (V (Proc.devRef .tc main_arg0)) (V (Proc.devRef .tc main_arg1)) (V (Proc.devRef .tc main_arg2)) (V (Proc.devRef .tc main_arg3)) :=
  c8_main_v59 (V7 V) (V (Proc.devRef .tc main_arg0)) (V (Proc.devRef .tc main_arg1)) (V (Proc.devRef .tc main_arg2)) (V (Proc.devRef .tc main_arg3)) (V7_main_v49 V) (V7_main_cst_10 V)

/-! ### After list 9 -/

theorem V9_main_arg0 (V : Valuation τ sig (Elt F)) : V9 V (Proc.devRef .tc main_arg0) = V (Proc.devRef .tc main_arg0) :=
  (chunk9_frame (r := main_arg0) (V8 V) (by decide)).trans (V8_main_arg0 V)
theorem V9_main_arg1 (V : Valuation τ sig (Elt F)) : V9 V (Proc.devRef .tc main_arg1) = V (Proc.devRef .tc main_arg1) :=
  (chunk9_frame (r := main_arg1) (V8 V) (by decide)).trans (V8_main_arg1 V)
theorem V9_main_arg2 (V : Valuation τ sig (Elt F)) : V9 V (Proc.devRef .tc main_arg2) = V (Proc.devRef .tc main_arg2) :=
  (chunk9_frame (r := main_arg2) (V8 V) (by decide)).trans (V8_main_arg2 V)
theorem V9_main_arg3 (V : Valuation τ sig (Elt F)) : V9 V (Proc.devRef .tc main_arg3) = V (Proc.devRef .tc main_arg3) :=
  (chunk9_frame (r := main_arg3) (V8 V) (by decide)).trans (V8_main_arg3 V)
theorem V9_main_arg4 (V : Valuation τ sig (Elt F)) : V9 V (Proc.devRef .tc main_arg4) = V (Proc.devRef .tc main_arg4) :=
  (chunk9_frame (r := main_arg4) (V8 V) (by decide)).trans (V8_main_arg4 V)
theorem V9_main_arg5 (V : Valuation τ sig (Elt F)) : V9 V (Proc.devRef .tc main_arg5) = V (Proc.devRef .tc main_arg5) :=
  (chunk9_frame (r := main_arg5) (V8 V) (by decide)).trans (V8_main_arg5 V)
theorem V9_main_arg6 (V : Valuation τ sig (Elt F)) : V9 V (Proc.devRef .tc main_arg6) = V (Proc.devRef .tc main_arg6) :=
  (chunk9_frame (r := main_arg6) (V8 V) (by decide)).trans (V8_main_arg6 V)
theorem V9_main_arg7 (V : Valuation τ sig (Elt F)) : V9 V (Proc.devRef .tc main_arg7) = V (Proc.devRef .tc main_arg7) :=
  (chunk9_frame (r := main_arg7) (V8 V) (by decide)).trans (V8_main_arg7 V)
theorem V9_main_arg8 (V : Valuation τ sig (Elt F)) : V9 V (Proc.devRef .tc main_arg8) = V (Proc.devRef .tc main_arg8) :=
  (chunk9_frame (r := main_arg8) (V8 V) (by decide)).trans (V8_main_arg8 V)
theorem V9_main_arg9 (V : Valuation τ sig (Elt F)) : V9 V (Proc.devRef .tc main_arg9) = V (Proc.devRef .tc main_arg9) :=
  (chunk9_frame (r := main_arg9) (V8 V) (by decide)).trans (V8_main_arg9 V)
theorem V9_main_arg10 (V : Valuation τ sig (Elt F)) : V9 V (Proc.devRef .tc main_arg10) = V (Proc.devRef .tc main_arg10) :=
  (chunk9_frame (r := main_arg10) (V8 V) (by decide)).trans (V8_main_arg10 V)
theorem V9_main_arg11 (V : Valuation τ sig (Elt F)) : V9 V (Proc.devRef .tc main_arg11) = V (Proc.devRef .tc main_arg11) :=
  (chunk9_frame (r := main_arg11) (V8 V) (by decide)).trans (V8_main_arg11 V)
theorem V9_main_arg12 (V : Valuation τ sig (Elt F)) : V9 V (Proc.devRef .tc main_arg12) = V (Proc.devRef .tc main_arg12) :=
  (chunk9_frame (r := main_arg12) (V8 V) (by decide)).trans (V8_main_arg12 V)
theorem V9_main_arg13 (V : Valuation τ sig (Elt F)) : V9 V (Proc.devRef .tc main_arg13) = V (Proc.devRef .tc main_arg13) :=
  (chunk9_frame (r := main_arg13) (V8 V) (by decide)).trans (V8_main_arg13 V)
theorem V9_main_arg14 (V : Valuation τ sig (Elt F)) : V9 V (Proc.devRef .tc main_arg14) = V (Proc.devRef .tc main_arg14) :=
  (chunk9_frame (r := main_arg14) (V8 V) (by decide)).trans (V8_main_arg14 V)
theorem V9_main_arg15 (V : Valuation τ sig (Elt F)) : V9 V (Proc.devRef .tc main_arg15) = V (Proc.devRef .tc main_arg15) :=
  (chunk9_frame (r := main_arg15) (V8 V) (by decide)).trans (V8_main_arg15 V)
theorem V9_main_arg16 (V : Valuation τ sig (Elt F)) : V9 V (Proc.devRef .tc main_arg16) = V (Proc.devRef .tc main_arg16) :=
  (chunk9_frame (r := main_arg16) (V8 V) (by decide)).trans (V8_main_arg16 V)
theorem V9_main_arg17 (V : Valuation τ sig (Elt F)) : V9 V (Proc.devRef .tc main_arg17) = V (Proc.devRef .tc main_arg17) :=
  (chunk9_frame (r := main_arg17) (V8 V) (by decide)).trans (V8_main_arg17 V)
theorem V9_main_arg18 (V : Valuation τ sig (Elt F)) : V9 V (Proc.devRef .tc main_arg18) = V (Proc.devRef .tc main_arg18) :=
  (chunk9_frame (r := main_arg18) (V8 V) (by decide)).trans (V8_main_arg18 V)
theorem V9_main_arg19 (V : Valuation τ sig (Elt F)) : V9 V (Proc.devRef .tc main_arg19) = V (Proc.devRef .tc main_arg19) :=
  (chunk9_frame (r := main_arg19) (V8 V) (by decide)).trans (V8_main_arg19 V)
theorem V9_main_v3 (V : Valuation τ sig (Elt F)) : V9 V (Proc.devRef .tc main_v3) = ReadP.val_main_v3 (F := F) (V (Proc.devRef .tc main_arg1)) :=
  (chunk9_frame (r := main_v3) (V8 V) (by decide)).trans (V8_main_v3 V)
theorem V9_main_v7 (V : Valuation τ sig (Elt F)) : V9 V (Proc.devRef .tc main_v7) = ReadP.val_main_v7 (F := F) (V (Proc.devRef .tc main_arg1)) :=
  (chunk9_frame (r := main_v7) (V8 V) (by decide)).trans (V8_main_v7 V)
theorem V9_main_v30 (V : Valuation τ sig (Elt F)) : V9 V (Proc.devRef .tc main_v30) = ReadP.val_main_v30 (F := F) (V (Proc.devRef .tc main_arg1)) :=
  (chunk9_frame (r := main_v30) (V8 V) (by decide)).trans (V8_main_v30 V)
theorem V9_main_v70 (V : Valuation τ sig (Elt F)) : V9 V (Proc.devRef .tc main_v70) = ReadP.val_main_v70 (F := F) (V (Proc.devRef .tc main_arg0)) (V (Proc.devRef .tc main_arg1)) (V (Proc.devRef .tc main_arg2)) (V (Proc.devRef .tc main_arg3)) (V (Proc.devRef .tc main_arg12)) :=
  c9_main_v70 (V8 V) (V (Proc.devRef .tc main_arg0)) (V (Proc.devRef .tc main_arg1)) (V (Proc.devRef .tc main_arg2)) (V (Proc.devRef .tc main_arg3)) (V (Proc.devRef .tc main_arg12)) (V8_main_v48 V) (V8_main_v59 V) (V8_main_v58 V) (V8_main_arg12 V)

/-! ### After list 10 -/

theorem V10_main_arg0 (V : Valuation τ sig (Elt F)) : V10 V (Proc.devRef .tc main_arg0) = V (Proc.devRef .tc main_arg0) :=
  (chunk10_frame (r := main_arg0) (V9 V) (by decide)).trans (V9_main_arg0 V)
theorem V10_main_arg1 (V : Valuation τ sig (Elt F)) : V10 V (Proc.devRef .tc main_arg1) = V (Proc.devRef .tc main_arg1) :=
  (chunk10_frame (r := main_arg1) (V9 V) (by decide)).trans (V9_main_arg1 V)
theorem V10_main_arg2 (V : Valuation τ sig (Elt F)) : V10 V (Proc.devRef .tc main_arg2) = V (Proc.devRef .tc main_arg2) :=
  (chunk10_frame (r := main_arg2) (V9 V) (by decide)).trans (V9_main_arg2 V)
theorem V10_main_arg3 (V : Valuation τ sig (Elt F)) : V10 V (Proc.devRef .tc main_arg3) = V (Proc.devRef .tc main_arg3) :=
  (chunk10_frame (r := main_arg3) (V9 V) (by decide)).trans (V9_main_arg3 V)
theorem V10_main_arg4 (V : Valuation τ sig (Elt F)) : V10 V (Proc.devRef .tc main_arg4) = V (Proc.devRef .tc main_arg4) :=
  (chunk10_frame (r := main_arg4) (V9 V) (by decide)).trans (V9_main_arg4 V)
theorem V10_main_arg5 (V : Valuation τ sig (Elt F)) : V10 V (Proc.devRef .tc main_arg5) = V (Proc.devRef .tc main_arg5) :=
  (chunk10_frame (r := main_arg5) (V9 V) (by decide)).trans (V9_main_arg5 V)
theorem V10_main_arg6 (V : Valuation τ sig (Elt F)) : V10 V (Proc.devRef .tc main_arg6) = V (Proc.devRef .tc main_arg6) :=
  (chunk10_frame (r := main_arg6) (V9 V) (by decide)).trans (V9_main_arg6 V)
theorem V10_main_arg7 (V : Valuation τ sig (Elt F)) : V10 V (Proc.devRef .tc main_arg7) = V (Proc.devRef .tc main_arg7) :=
  (chunk10_frame (r := main_arg7) (V9 V) (by decide)).trans (V9_main_arg7 V)
theorem V10_main_arg8 (V : Valuation τ sig (Elt F)) : V10 V (Proc.devRef .tc main_arg8) = V (Proc.devRef .tc main_arg8) :=
  (chunk10_frame (r := main_arg8) (V9 V) (by decide)).trans (V9_main_arg8 V)
theorem V10_main_arg9 (V : Valuation τ sig (Elt F)) : V10 V (Proc.devRef .tc main_arg9) = V (Proc.devRef .tc main_arg9) :=
  (chunk10_frame (r := main_arg9) (V9 V) (by decide)).trans (V9_main_arg9 V)
theorem V10_main_arg10 (V : Valuation τ sig (Elt F)) : V10 V (Proc.devRef .tc main_arg10) = V (Proc.devRef .tc main_arg10) :=
  (chunk10_frame (r := main_arg10) (V9 V) (by decide)).trans (V9_main_arg10 V)
theorem V10_main_arg11 (V : Valuation τ sig (Elt F)) : V10 V (Proc.devRef .tc main_arg11) = V (Proc.devRef .tc main_arg11) :=
  (chunk10_frame (r := main_arg11) (V9 V) (by decide)).trans (V9_main_arg11 V)
theorem V10_main_arg12 (V : Valuation τ sig (Elt F)) : V10 V (Proc.devRef .tc main_arg12) = V (Proc.devRef .tc main_arg12) :=
  (chunk10_frame (r := main_arg12) (V9 V) (by decide)).trans (V9_main_arg12 V)
theorem V10_main_arg13 (V : Valuation τ sig (Elt F)) : V10 V (Proc.devRef .tc main_arg13) = V (Proc.devRef .tc main_arg13) :=
  (chunk10_frame (r := main_arg13) (V9 V) (by decide)).trans (V9_main_arg13 V)
theorem V10_main_arg14 (V : Valuation τ sig (Elt F)) : V10 V (Proc.devRef .tc main_arg14) = V (Proc.devRef .tc main_arg14) :=
  (chunk10_frame (r := main_arg14) (V9 V) (by decide)).trans (V9_main_arg14 V)
theorem V10_main_arg15 (V : Valuation τ sig (Elt F)) : V10 V (Proc.devRef .tc main_arg15) = V (Proc.devRef .tc main_arg15) :=
  (chunk10_frame (r := main_arg15) (V9 V) (by decide)).trans (V9_main_arg15 V)
theorem V10_main_arg16 (V : Valuation τ sig (Elt F)) : V10 V (Proc.devRef .tc main_arg16) = V (Proc.devRef .tc main_arg16) :=
  (chunk10_frame (r := main_arg16) (V9 V) (by decide)).trans (V9_main_arg16 V)
theorem V10_main_arg17 (V : Valuation τ sig (Elt F)) : V10 V (Proc.devRef .tc main_arg17) = V (Proc.devRef .tc main_arg17) :=
  (chunk10_frame (r := main_arg17) (V9 V) (by decide)).trans (V9_main_arg17 V)
theorem V10_main_arg18 (V : Valuation τ sig (Elt F)) : V10 V (Proc.devRef .tc main_arg18) = V (Proc.devRef .tc main_arg18) :=
  (chunk10_frame (r := main_arg18) (V9 V) (by decide)).trans (V9_main_arg18 V)
theorem V10_main_arg19 (V : Valuation τ sig (Elt F)) : V10 V (Proc.devRef .tc main_arg19) = V (Proc.devRef .tc main_arg19) :=
  (chunk10_frame (r := main_arg19) (V9 V) (by decide)).trans (V9_main_arg19 V)
theorem V10_main_v3 (V : Valuation τ sig (Elt F)) : V10 V (Proc.devRef .tc main_v3) = ReadP.val_main_v3 (F := F) (V (Proc.devRef .tc main_arg1)) :=
  (chunk10_frame (r := main_v3) (V9 V) (by decide)).trans (V9_main_v3 V)
theorem V10_main_v7 (V : Valuation τ sig (Elt F)) : V10 V (Proc.devRef .tc main_v7) = ReadP.val_main_v7 (F := F) (V (Proc.devRef .tc main_arg1)) :=
  (chunk10_frame (r := main_v7) (V9 V) (by decide)).trans (V9_main_v7 V)
theorem V10_main_v30 (V : Valuation τ sig (Elt F)) : V10 V (Proc.devRef .tc main_v30) = ReadP.val_main_v30 (F := F) (V (Proc.devRef .tc main_arg1)) :=
  (chunk10_frame (r := main_v30) (V9 V) (by decide)).trans (V9_main_v30 V)
theorem V10_main_v74 (V : Valuation τ sig (Elt F)) : V10 V (Proc.devRef .tc main_v74) = ReadP.val_main_v74 (F := F) (V (Proc.devRef .tc main_arg0)) (V (Proc.devRef .tc main_arg1)) (V (Proc.devRef .tc main_arg2)) (V (Proc.devRef .tc main_arg3)) (V (Proc.devRef .tc main_arg4)) (V (Proc.devRef .tc main_arg12)) (V (Proc.devRef .tc main_arg13)) :=
  c10_main_v74 (V9 V) (V (Proc.devRef .tc main_arg0)) (V (Proc.devRef .tc main_arg1)) (V (Proc.devRef .tc main_arg2)) (V (Proc.devRef .tc main_arg3)) (V (Proc.devRef .tc main_arg4)) (V (Proc.devRef .tc main_arg12)) (V (Proc.devRef .tc main_arg13)) (V9_main_v70 V) (V9_main_arg13 V) (V9_main_arg4 V)
theorem V10_main_v80 (V : Valuation τ sig (Elt F)) : V10 V (Proc.devRef .tc main_v80) = ReadP.val_main_v80 (F := F) (V (Proc.devRef .tc main_arg1)) :=
  c10_main_v80 (V9 V) (V (Proc.devRef .tc main_arg1)) (V9_main_v3 V)

/-! ### After list 11 -/

theorem V11_main_arg0 (V : Valuation τ sig (Elt F)) : V11 V (Proc.devRef .tc main_arg0) = V (Proc.devRef .tc main_arg0) :=
  (chunk11_frame (r := main_arg0) (V10 V) (by decide)).trans (V10_main_arg0 V)
theorem V11_main_arg1 (V : Valuation τ sig (Elt F)) : V11 V (Proc.devRef .tc main_arg1) = V (Proc.devRef .tc main_arg1) :=
  (chunk11_frame (r := main_arg1) (V10 V) (by decide)).trans (V10_main_arg1 V)
theorem V11_main_arg2 (V : Valuation τ sig (Elt F)) : V11 V (Proc.devRef .tc main_arg2) = V (Proc.devRef .tc main_arg2) :=
  (chunk11_frame (r := main_arg2) (V10 V) (by decide)).trans (V10_main_arg2 V)
theorem V11_main_arg3 (V : Valuation τ sig (Elt F)) : V11 V (Proc.devRef .tc main_arg3) = V (Proc.devRef .tc main_arg3) :=
  (chunk11_frame (r := main_arg3) (V10 V) (by decide)).trans (V10_main_arg3 V)
theorem V11_main_arg4 (V : Valuation τ sig (Elt F)) : V11 V (Proc.devRef .tc main_arg4) = V (Proc.devRef .tc main_arg4) :=
  (chunk11_frame (r := main_arg4) (V10 V) (by decide)).trans (V10_main_arg4 V)
theorem V11_main_arg5 (V : Valuation τ sig (Elt F)) : V11 V (Proc.devRef .tc main_arg5) = V (Proc.devRef .tc main_arg5) :=
  (chunk11_frame (r := main_arg5) (V10 V) (by decide)).trans (V10_main_arg5 V)
theorem V11_main_arg6 (V : Valuation τ sig (Elt F)) : V11 V (Proc.devRef .tc main_arg6) = V (Proc.devRef .tc main_arg6) :=
  (chunk11_frame (r := main_arg6) (V10 V) (by decide)).trans (V10_main_arg6 V)
theorem V11_main_arg7 (V : Valuation τ sig (Elt F)) : V11 V (Proc.devRef .tc main_arg7) = V (Proc.devRef .tc main_arg7) :=
  (chunk11_frame (r := main_arg7) (V10 V) (by decide)).trans (V10_main_arg7 V)
theorem V11_main_arg8 (V : Valuation τ sig (Elt F)) : V11 V (Proc.devRef .tc main_arg8) = V (Proc.devRef .tc main_arg8) :=
  (chunk11_frame (r := main_arg8) (V10 V) (by decide)).trans (V10_main_arg8 V)
theorem V11_main_arg9 (V : Valuation τ sig (Elt F)) : V11 V (Proc.devRef .tc main_arg9) = V (Proc.devRef .tc main_arg9) :=
  (chunk11_frame (r := main_arg9) (V10 V) (by decide)).trans (V10_main_arg9 V)
theorem V11_main_arg10 (V : Valuation τ sig (Elt F)) : V11 V (Proc.devRef .tc main_arg10) = V (Proc.devRef .tc main_arg10) :=
  (chunk11_frame (r := main_arg10) (V10 V) (by decide)).trans (V10_main_arg10 V)
theorem V11_main_arg11 (V : Valuation τ sig (Elt F)) : V11 V (Proc.devRef .tc main_arg11) = V (Proc.devRef .tc main_arg11) :=
  (chunk11_frame (r := main_arg11) (V10 V) (by decide)).trans (V10_main_arg11 V)
theorem V11_main_arg12 (V : Valuation τ sig (Elt F)) : V11 V (Proc.devRef .tc main_arg12) = V (Proc.devRef .tc main_arg12) :=
  (chunk11_frame (r := main_arg12) (V10 V) (by decide)).trans (V10_main_arg12 V)
theorem V11_main_arg13 (V : Valuation τ sig (Elt F)) : V11 V (Proc.devRef .tc main_arg13) = V (Proc.devRef .tc main_arg13) :=
  (chunk11_frame (r := main_arg13) (V10 V) (by decide)).trans (V10_main_arg13 V)
theorem V11_main_arg14 (V : Valuation τ sig (Elt F)) : V11 V (Proc.devRef .tc main_arg14) = V (Proc.devRef .tc main_arg14) :=
  (chunk11_frame (r := main_arg14) (V10 V) (by decide)).trans (V10_main_arg14 V)
theorem V11_main_arg15 (V : Valuation τ sig (Elt F)) : V11 V (Proc.devRef .tc main_arg15) = V (Proc.devRef .tc main_arg15) :=
  (chunk11_frame (r := main_arg15) (V10 V) (by decide)).trans (V10_main_arg15 V)
theorem V11_main_arg16 (V : Valuation τ sig (Elt F)) : V11 V (Proc.devRef .tc main_arg16) = V (Proc.devRef .tc main_arg16) :=
  (chunk11_frame (r := main_arg16) (V10 V) (by decide)).trans (V10_main_arg16 V)
theorem V11_main_arg17 (V : Valuation τ sig (Elt F)) : V11 V (Proc.devRef .tc main_arg17) = V (Proc.devRef .tc main_arg17) :=
  (chunk11_frame (r := main_arg17) (V10 V) (by decide)).trans (V10_main_arg17 V)
theorem V11_main_arg18 (V : Valuation τ sig (Elt F)) : V11 V (Proc.devRef .tc main_arg18) = V (Proc.devRef .tc main_arg18) :=
  (chunk11_frame (r := main_arg18) (V10 V) (by decide)).trans (V10_main_arg18 V)
theorem V11_main_arg19 (V : Valuation τ sig (Elt F)) : V11 V (Proc.devRef .tc main_arg19) = V (Proc.devRef .tc main_arg19) :=
  (chunk11_frame (r := main_arg19) (V10 V) (by decide)).trans (V10_main_arg19 V)
theorem V11_main_v3 (V : Valuation τ sig (Elt F)) : V11 V (Proc.devRef .tc main_v3) = ReadP.val_main_v3 (F := F) (V (Proc.devRef .tc main_arg1)) :=
  (chunk11_frame (r := main_v3) (V10 V) (by decide)).trans (V10_main_v3 V)
theorem V11_main_v7 (V : Valuation τ sig (Elt F)) : V11 V (Proc.devRef .tc main_v7) = ReadP.val_main_v7 (F := F) (V (Proc.devRef .tc main_arg1)) :=
  (chunk11_frame (r := main_v7) (V10 V) (by decide)).trans (V10_main_v7 V)
theorem V11_main_v30 (V : Valuation τ sig (Elt F)) : V11 V (Proc.devRef .tc main_v30) = ReadP.val_main_v30 (F := F) (V (Proc.devRef .tc main_arg1)) :=
  (chunk11_frame (r := main_v30) (V10 V) (by decide)).trans (V10_main_v30 V)
theorem V11_main_v90 (V : Valuation τ sig (Elt F)) : V11 V (Proc.devRef .tc main_v90) = ReadP.val_main_v90 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg12)) (V (Proc.devRef .tc main_arg13)) :=
  c11_main_v90 (V10 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg12)) (V (Proc.devRef .tc main_arg13)) (V10_main_v7 V) (V10_main_v74 V) (V10_main_v80 V) (V10_main_v30 V) (V10_main_arg5 V)
theorem V11_main_call2_cst (V : Valuation τ sig (Elt F)) : V11 V (Proc.devRef .tc main_call2_cst) = ReadP.val_main_call2_cst (F := F) :=
  c11_main_call2_cst (V10 V)

/-! ### After list 12 -/

theorem V12_main_arg0 (V : Valuation τ sig (Elt F)) : V12 V (Proc.devRef .tc main_arg0) = V (Proc.devRef .tc main_arg0) :=
  (chunk12_frame (r := main_arg0) (V11 V) (by decide)).trans (V11_main_arg0 V)
theorem V12_main_arg1 (V : Valuation τ sig (Elt F)) : V12 V (Proc.devRef .tc main_arg1) = V (Proc.devRef .tc main_arg1) :=
  (chunk12_frame (r := main_arg1) (V11 V) (by decide)).trans (V11_main_arg1 V)
theorem V12_main_arg2 (V : Valuation τ sig (Elt F)) : V12 V (Proc.devRef .tc main_arg2) = V (Proc.devRef .tc main_arg2) :=
  (chunk12_frame (r := main_arg2) (V11 V) (by decide)).trans (V11_main_arg2 V)
theorem V12_main_arg3 (V : Valuation τ sig (Elt F)) : V12 V (Proc.devRef .tc main_arg3) = V (Proc.devRef .tc main_arg3) :=
  (chunk12_frame (r := main_arg3) (V11 V) (by decide)).trans (V11_main_arg3 V)
theorem V12_main_arg4 (V : Valuation τ sig (Elt F)) : V12 V (Proc.devRef .tc main_arg4) = V (Proc.devRef .tc main_arg4) :=
  (chunk12_frame (r := main_arg4) (V11 V) (by decide)).trans (V11_main_arg4 V)
theorem V12_main_arg5 (V : Valuation τ sig (Elt F)) : V12 V (Proc.devRef .tc main_arg5) = V (Proc.devRef .tc main_arg5) :=
  (chunk12_frame (r := main_arg5) (V11 V) (by decide)).trans (V11_main_arg5 V)
theorem V12_main_arg6 (V : Valuation τ sig (Elt F)) : V12 V (Proc.devRef .tc main_arg6) = V (Proc.devRef .tc main_arg6) :=
  (chunk12_frame (r := main_arg6) (V11 V) (by decide)).trans (V11_main_arg6 V)
theorem V12_main_arg7 (V : Valuation τ sig (Elt F)) : V12 V (Proc.devRef .tc main_arg7) = V (Proc.devRef .tc main_arg7) :=
  (chunk12_frame (r := main_arg7) (V11 V) (by decide)).trans (V11_main_arg7 V)
theorem V12_main_arg8 (V : Valuation τ sig (Elt F)) : V12 V (Proc.devRef .tc main_arg8) = V (Proc.devRef .tc main_arg8) :=
  (chunk12_frame (r := main_arg8) (V11 V) (by decide)).trans (V11_main_arg8 V)
theorem V12_main_arg9 (V : Valuation τ sig (Elt F)) : V12 V (Proc.devRef .tc main_arg9) = V (Proc.devRef .tc main_arg9) :=
  (chunk12_frame (r := main_arg9) (V11 V) (by decide)).trans (V11_main_arg9 V)
theorem V12_main_arg10 (V : Valuation τ sig (Elt F)) : V12 V (Proc.devRef .tc main_arg10) = V (Proc.devRef .tc main_arg10) :=
  (chunk12_frame (r := main_arg10) (V11 V) (by decide)).trans (V11_main_arg10 V)
theorem V12_main_arg11 (V : Valuation τ sig (Elt F)) : V12 V (Proc.devRef .tc main_arg11) = V (Proc.devRef .tc main_arg11) :=
  (chunk12_frame (r := main_arg11) (V11 V) (by decide)).trans (V11_main_arg11 V)
theorem V12_main_arg12 (V : Valuation τ sig (Elt F)) : V12 V (Proc.devRef .tc main_arg12) = V (Proc.devRef .tc main_arg12) :=
  (chunk12_frame (r := main_arg12) (V11 V) (by decide)).trans (V11_main_arg12 V)
theorem V12_main_arg13 (V : Valuation τ sig (Elt F)) : V12 V (Proc.devRef .tc main_arg13) = V (Proc.devRef .tc main_arg13) :=
  (chunk12_frame (r := main_arg13) (V11 V) (by decide)).trans (V11_main_arg13 V)
theorem V12_main_arg14 (V : Valuation τ sig (Elt F)) : V12 V (Proc.devRef .tc main_arg14) = V (Proc.devRef .tc main_arg14) :=
  (chunk12_frame (r := main_arg14) (V11 V) (by decide)).trans (V11_main_arg14 V)
theorem V12_main_arg15 (V : Valuation τ sig (Elt F)) : V12 V (Proc.devRef .tc main_arg15) = V (Proc.devRef .tc main_arg15) :=
  (chunk12_frame (r := main_arg15) (V11 V) (by decide)).trans (V11_main_arg15 V)
theorem V12_main_arg16 (V : Valuation τ sig (Elt F)) : V12 V (Proc.devRef .tc main_arg16) = V (Proc.devRef .tc main_arg16) :=
  (chunk12_frame (r := main_arg16) (V11 V) (by decide)).trans (V11_main_arg16 V)
theorem V12_main_arg17 (V : Valuation τ sig (Elt F)) : V12 V (Proc.devRef .tc main_arg17) = V (Proc.devRef .tc main_arg17) :=
  (chunk12_frame (r := main_arg17) (V11 V) (by decide)).trans (V11_main_arg17 V)
theorem V12_main_arg18 (V : Valuation τ sig (Elt F)) : V12 V (Proc.devRef .tc main_arg18) = V (Proc.devRef .tc main_arg18) :=
  (chunk12_frame (r := main_arg18) (V11 V) (by decide)).trans (V11_main_arg18 V)
theorem V12_main_arg19 (V : Valuation τ sig (Elt F)) : V12 V (Proc.devRef .tc main_arg19) = V (Proc.devRef .tc main_arg19) :=
  (chunk12_frame (r := main_arg19) (V11 V) (by decide)).trans (V11_main_arg19 V)
theorem V12_main_v3 (V : Valuation τ sig (Elt F)) : V12 V (Proc.devRef .tc main_v3) = ReadP.val_main_v3 (F := F) (V (Proc.devRef .tc main_arg1)) :=
  (chunk12_frame (r := main_v3) (V11 V) (by decide)).trans (V11_main_v3 V)
theorem V12_main_v7 (V : Valuation τ sig (Elt F)) : V12 V (Proc.devRef .tc main_v7) = ReadP.val_main_v7 (F := F) (V (Proc.devRef .tc main_arg1)) :=
  (chunk12_frame (r := main_v7) (V11 V) (by decide)).trans (V11_main_v7 V)
theorem V12_main_v30 (V : Valuation τ sig (Elt F)) : V12 V (Proc.devRef .tc main_v30) = ReadP.val_main_v30 (F := F) (V (Proc.devRef .tc main_arg1)) :=
  (chunk12_frame (r := main_v30) (V11 V) (by decide)).trans (V11_main_v30 V)
theorem V12_main_v91 (V : Valuation τ sig (Elt F)) : V12 V (Proc.devRef .tc main_v91) = ReadP.val_main_v91 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg12)) (V (Proc.devRef .tc main_arg13)) :=
  c12_main_v91 (V11 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg12)) (V (Proc.devRef .tc main_arg13)) (V11_main_v90 V) (V11_main_call2_cst V)
theorem V12_main_v94 (V : Valuation τ sig (Elt F)) : V12 V (Proc.devRef .tc main_v94) = ReadP.val_main_v94 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg12)) (V (Proc.devRef .tc main_arg13)) :=
  c12_main_v94 (V11 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg12)) (V (Proc.devRef .tc main_arg13)) (V11_main_v90 V) (V11_main_call2_cst V)
theorem V12_main_v98 (V : Valuation τ sig (Elt F)) : V12 V (Proc.devRef .tc main_v98) = ReadP.val_main_v98 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg12)) (V (Proc.devRef .tc main_arg13)) :=
  c12_main_v98 (V11 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg12)) (V (Proc.devRef .tc main_arg13)) (V11_main_v90 V) (V11_main_call2_cst V)
theorem V12_main_cst_19 (V : Valuation τ sig (Elt F)) : V12 V (Proc.devRef .tc main_cst_19) = ReadP.val_main_cst_19 (F := F) :=
  c12_main_cst_19 (V11 V)

/-! ### After list 13 -/

theorem V13_main_arg0 (V : Valuation τ sig (Elt F)) : V13 V (Proc.devRef .tc main_arg0) = V (Proc.devRef .tc main_arg0) :=
  (chunk13_frame (r := main_arg0) (V12 V) (by decide)).trans (V12_main_arg0 V)
theorem V13_main_arg1 (V : Valuation τ sig (Elt F)) : V13 V (Proc.devRef .tc main_arg1) = V (Proc.devRef .tc main_arg1) :=
  (chunk13_frame (r := main_arg1) (V12 V) (by decide)).trans (V12_main_arg1 V)
theorem V13_main_arg2 (V : Valuation τ sig (Elt F)) : V13 V (Proc.devRef .tc main_arg2) = V (Proc.devRef .tc main_arg2) :=
  (chunk13_frame (r := main_arg2) (V12 V) (by decide)).trans (V12_main_arg2 V)
theorem V13_main_arg3 (V : Valuation τ sig (Elt F)) : V13 V (Proc.devRef .tc main_arg3) = V (Proc.devRef .tc main_arg3) :=
  (chunk13_frame (r := main_arg3) (V12 V) (by decide)).trans (V12_main_arg3 V)
theorem V13_main_arg4 (V : Valuation τ sig (Elt F)) : V13 V (Proc.devRef .tc main_arg4) = V (Proc.devRef .tc main_arg4) :=
  (chunk13_frame (r := main_arg4) (V12 V) (by decide)).trans (V12_main_arg4 V)
theorem V13_main_arg5 (V : Valuation τ sig (Elt F)) : V13 V (Proc.devRef .tc main_arg5) = V (Proc.devRef .tc main_arg5) :=
  (chunk13_frame (r := main_arg5) (V12 V) (by decide)).trans (V12_main_arg5 V)
theorem V13_main_arg6 (V : Valuation τ sig (Elt F)) : V13 V (Proc.devRef .tc main_arg6) = V (Proc.devRef .tc main_arg6) :=
  (chunk13_frame (r := main_arg6) (V12 V) (by decide)).trans (V12_main_arg6 V)
theorem V13_main_arg7 (V : Valuation τ sig (Elt F)) : V13 V (Proc.devRef .tc main_arg7) = V (Proc.devRef .tc main_arg7) :=
  (chunk13_frame (r := main_arg7) (V12 V) (by decide)).trans (V12_main_arg7 V)
theorem V13_main_arg8 (V : Valuation τ sig (Elt F)) : V13 V (Proc.devRef .tc main_arg8) = V (Proc.devRef .tc main_arg8) :=
  (chunk13_frame (r := main_arg8) (V12 V) (by decide)).trans (V12_main_arg8 V)
theorem V13_main_arg9 (V : Valuation τ sig (Elt F)) : V13 V (Proc.devRef .tc main_arg9) = V (Proc.devRef .tc main_arg9) :=
  (chunk13_frame (r := main_arg9) (V12 V) (by decide)).trans (V12_main_arg9 V)
theorem V13_main_arg10 (V : Valuation τ sig (Elt F)) : V13 V (Proc.devRef .tc main_arg10) = V (Proc.devRef .tc main_arg10) :=
  (chunk13_frame (r := main_arg10) (V12 V) (by decide)).trans (V12_main_arg10 V)
theorem V13_main_arg11 (V : Valuation τ sig (Elt F)) : V13 V (Proc.devRef .tc main_arg11) = V (Proc.devRef .tc main_arg11) :=
  (chunk13_frame (r := main_arg11) (V12 V) (by decide)).trans (V12_main_arg11 V)
theorem V13_main_arg12 (V : Valuation τ sig (Elt F)) : V13 V (Proc.devRef .tc main_arg12) = V (Proc.devRef .tc main_arg12) :=
  (chunk13_frame (r := main_arg12) (V12 V) (by decide)).trans (V12_main_arg12 V)
theorem V13_main_arg13 (V : Valuation τ sig (Elt F)) : V13 V (Proc.devRef .tc main_arg13) = V (Proc.devRef .tc main_arg13) :=
  (chunk13_frame (r := main_arg13) (V12 V) (by decide)).trans (V12_main_arg13 V)
theorem V13_main_arg14 (V : Valuation τ sig (Elt F)) : V13 V (Proc.devRef .tc main_arg14) = V (Proc.devRef .tc main_arg14) :=
  (chunk13_frame (r := main_arg14) (V12 V) (by decide)).trans (V12_main_arg14 V)
theorem V13_main_arg15 (V : Valuation τ sig (Elt F)) : V13 V (Proc.devRef .tc main_arg15) = V (Proc.devRef .tc main_arg15) :=
  (chunk13_frame (r := main_arg15) (V12 V) (by decide)).trans (V12_main_arg15 V)
theorem V13_main_arg16 (V : Valuation τ sig (Elt F)) : V13 V (Proc.devRef .tc main_arg16) = V (Proc.devRef .tc main_arg16) :=
  (chunk13_frame (r := main_arg16) (V12 V) (by decide)).trans (V12_main_arg16 V)
theorem V13_main_arg17 (V : Valuation τ sig (Elt F)) : V13 V (Proc.devRef .tc main_arg17) = V (Proc.devRef .tc main_arg17) :=
  (chunk13_frame (r := main_arg17) (V12 V) (by decide)).trans (V12_main_arg17 V)
theorem V13_main_arg18 (V : Valuation τ sig (Elt F)) : V13 V (Proc.devRef .tc main_arg18) = V (Proc.devRef .tc main_arg18) :=
  (chunk13_frame (r := main_arg18) (V12 V) (by decide)).trans (V12_main_arg18 V)
theorem V13_main_arg19 (V : Valuation τ sig (Elt F)) : V13 V (Proc.devRef .tc main_arg19) = V (Proc.devRef .tc main_arg19) :=
  (chunk13_frame (r := main_arg19) (V12 V) (by decide)).trans (V12_main_arg19 V)
theorem V13_main_v3 (V : Valuation τ sig (Elt F)) : V13 V (Proc.devRef .tc main_v3) = ReadP.val_main_v3 (F := F) (V (Proc.devRef .tc main_arg1)) :=
  (chunk13_frame (r := main_v3) (V12 V) (by decide)).trans (V12_main_v3 V)
theorem V13_main_v7 (V : Valuation τ sig (Elt F)) : V13 V (Proc.devRef .tc main_v7) = ReadP.val_main_v7 (F := F) (V (Proc.devRef .tc main_arg1)) :=
  (chunk13_frame (r := main_v7) (V12 V) (by decide)).trans (V12_main_v7 V)
theorem V13_main_v30 (V : Valuation τ sig (Elt F)) : V13 V (Proc.devRef .tc main_v30) = ReadP.val_main_v30 (F := F) (V (Proc.devRef .tc main_arg1)) :=
  (chunk13_frame (r := main_v30) (V12 V) (by decide)).trans (V12_main_v30 V)
theorem V13_main_v104 (V : Valuation τ sig (Elt F)) : V13 V (Proc.devRef .tc main_v104) = ReadP.val_main_v104 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg12)) (V (Proc.devRef .tc main_arg13)) :=
  c13_main_v104 (V12 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg12)) (V (Proc.devRef .tc main_arg13)) (V12_main_v91 V) (V12_main_v94 V)
theorem V13_main_v108 (V : Valuation τ sig (Elt F)) : V13 V (Proc.devRef .tc main_v108) = ReadP.val_main_v108 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg12)) (V (Proc.devRef .tc main_arg13)) :=
  c13_main_v108 (V12 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg12)) (V (Proc.devRef .tc main_arg13)) (V12_main_v98 V) (V12_main_cst_19 V)

/-! ### After list 14 -/

theorem V14_main_arg0 (V : Valuation τ sig (Elt F)) : V14 V (Proc.devRef .tc main_arg0) = V (Proc.devRef .tc main_arg0) :=
  (chunk14_frame (r := main_arg0) (V13 V) (by decide)).trans (V13_main_arg0 V)
theorem V14_main_arg1 (V : Valuation τ sig (Elt F)) : V14 V (Proc.devRef .tc main_arg1) = V (Proc.devRef .tc main_arg1) :=
  (chunk14_frame (r := main_arg1) (V13 V) (by decide)).trans (V13_main_arg1 V)
theorem V14_main_arg2 (V : Valuation τ sig (Elt F)) : V14 V (Proc.devRef .tc main_arg2) = V (Proc.devRef .tc main_arg2) :=
  (chunk14_frame (r := main_arg2) (V13 V) (by decide)).trans (V13_main_arg2 V)
theorem V14_main_arg3 (V : Valuation τ sig (Elt F)) : V14 V (Proc.devRef .tc main_arg3) = V (Proc.devRef .tc main_arg3) :=
  (chunk14_frame (r := main_arg3) (V13 V) (by decide)).trans (V13_main_arg3 V)
theorem V14_main_arg4 (V : Valuation τ sig (Elt F)) : V14 V (Proc.devRef .tc main_arg4) = V (Proc.devRef .tc main_arg4) :=
  (chunk14_frame (r := main_arg4) (V13 V) (by decide)).trans (V13_main_arg4 V)
theorem V14_main_arg5 (V : Valuation τ sig (Elt F)) : V14 V (Proc.devRef .tc main_arg5) = V (Proc.devRef .tc main_arg5) :=
  (chunk14_frame (r := main_arg5) (V13 V) (by decide)).trans (V13_main_arg5 V)
theorem V14_main_arg6 (V : Valuation τ sig (Elt F)) : V14 V (Proc.devRef .tc main_arg6) = V (Proc.devRef .tc main_arg6) :=
  (chunk14_frame (r := main_arg6) (V13 V) (by decide)).trans (V13_main_arg6 V)
theorem V14_main_arg7 (V : Valuation τ sig (Elt F)) : V14 V (Proc.devRef .tc main_arg7) = V (Proc.devRef .tc main_arg7) :=
  (chunk14_frame (r := main_arg7) (V13 V) (by decide)).trans (V13_main_arg7 V)
theorem V14_main_arg8 (V : Valuation τ sig (Elt F)) : V14 V (Proc.devRef .tc main_arg8) = V (Proc.devRef .tc main_arg8) :=
  (chunk14_frame (r := main_arg8) (V13 V) (by decide)).trans (V13_main_arg8 V)
theorem V14_main_arg9 (V : Valuation τ sig (Elt F)) : V14 V (Proc.devRef .tc main_arg9) = V (Proc.devRef .tc main_arg9) :=
  (chunk14_frame (r := main_arg9) (V13 V) (by decide)).trans (V13_main_arg9 V)
theorem V14_main_arg10 (V : Valuation τ sig (Elt F)) : V14 V (Proc.devRef .tc main_arg10) = V (Proc.devRef .tc main_arg10) :=
  (chunk14_frame (r := main_arg10) (V13 V) (by decide)).trans (V13_main_arg10 V)
theorem V14_main_arg11 (V : Valuation τ sig (Elt F)) : V14 V (Proc.devRef .tc main_arg11) = V (Proc.devRef .tc main_arg11) :=
  (chunk14_frame (r := main_arg11) (V13 V) (by decide)).trans (V13_main_arg11 V)
theorem V14_main_arg12 (V : Valuation τ sig (Elt F)) : V14 V (Proc.devRef .tc main_arg12) = V (Proc.devRef .tc main_arg12) :=
  (chunk14_frame (r := main_arg12) (V13 V) (by decide)).trans (V13_main_arg12 V)
theorem V14_main_arg13 (V : Valuation τ sig (Elt F)) : V14 V (Proc.devRef .tc main_arg13) = V (Proc.devRef .tc main_arg13) :=
  (chunk14_frame (r := main_arg13) (V13 V) (by decide)).trans (V13_main_arg13 V)
theorem V14_main_arg14 (V : Valuation τ sig (Elt F)) : V14 V (Proc.devRef .tc main_arg14) = V (Proc.devRef .tc main_arg14) :=
  (chunk14_frame (r := main_arg14) (V13 V) (by decide)).trans (V13_main_arg14 V)
theorem V14_main_arg15 (V : Valuation τ sig (Elt F)) : V14 V (Proc.devRef .tc main_arg15) = V (Proc.devRef .tc main_arg15) :=
  (chunk14_frame (r := main_arg15) (V13 V) (by decide)).trans (V13_main_arg15 V)
theorem V14_main_arg16 (V : Valuation τ sig (Elt F)) : V14 V (Proc.devRef .tc main_arg16) = V (Proc.devRef .tc main_arg16) :=
  (chunk14_frame (r := main_arg16) (V13 V) (by decide)).trans (V13_main_arg16 V)
theorem V14_main_arg17 (V : Valuation τ sig (Elt F)) : V14 V (Proc.devRef .tc main_arg17) = V (Proc.devRef .tc main_arg17) :=
  (chunk14_frame (r := main_arg17) (V13 V) (by decide)).trans (V13_main_arg17 V)
theorem V14_main_arg18 (V : Valuation τ sig (Elt F)) : V14 V (Proc.devRef .tc main_arg18) = V (Proc.devRef .tc main_arg18) :=
  (chunk14_frame (r := main_arg18) (V13 V) (by decide)).trans (V13_main_arg18 V)
theorem V14_main_arg19 (V : Valuation τ sig (Elt F)) : V14 V (Proc.devRef .tc main_arg19) = V (Proc.devRef .tc main_arg19) :=
  (chunk14_frame (r := main_arg19) (V13 V) (by decide)).trans (V13_main_arg19 V)
theorem V14_main_v3 (V : Valuation τ sig (Elt F)) : V14 V (Proc.devRef .tc main_v3) = ReadP.val_main_v3 (F := F) (V (Proc.devRef .tc main_arg1)) :=
  (chunk14_frame (r := main_v3) (V13 V) (by decide)).trans (V13_main_v3 V)
theorem V14_main_v7 (V : Valuation τ sig (Elt F)) : V14 V (Proc.devRef .tc main_v7) = ReadP.val_main_v7 (F := F) (V (Proc.devRef .tc main_arg1)) :=
  (chunk14_frame (r := main_v7) (V13 V) (by decide)).trans (V13_main_v7 V)
theorem V14_main_v30 (V : Valuation τ sig (Elt F)) : V14 V (Proc.devRef .tc main_v30) = ReadP.val_main_v30 (F := F) (V (Proc.devRef .tc main_arg1)) :=
  (chunk14_frame (r := main_v30) (V13 V) (by decide)).trans (V13_main_v30 V)
theorem V14_main_v117 (V : Valuation τ sig (Elt F)) : V14 V (Proc.devRef .tc main_v117) = ReadP.val_main_v117 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg12)) (V (Proc.devRef .tc main_arg13)) (V (Proc.devRef .tc main_arg14)) (V (Proc.devRef .tc main_arg15)) :=
  c14_main_v117 (V13 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg12)) (V (Proc.devRef .tc main_arg13)) (V (Proc.devRef .tc main_arg14)) (V (Proc.devRef .tc main_arg15)) (V13_main_v104 V) (V13_main_v108 V) (V13_main_arg14 V) (V13_main_arg15 V) (V13_main_arg6 V)
theorem V14_main_v119 (V : Valuation τ sig (Elt F)) : V14 V (Proc.devRef .tc main_v119) = ReadP.val_main_v119 (F := F) (V (Proc.devRef .tc main_arg1)) :=
  c14_main_v119 (V13 V) (V (Proc.devRef .tc main_arg1)) (V13_main_v3 V)

/-! ### After list 15 -/

theorem V15_main_arg0 (V : Valuation τ sig (Elt F)) : V15 V (Proc.devRef .tc main_arg0) = V (Proc.devRef .tc main_arg0) :=
  (chunk15_frame (r := main_arg0) (V14 V) (by decide)).trans (V14_main_arg0 V)
theorem V15_main_arg1 (V : Valuation τ sig (Elt F)) : V15 V (Proc.devRef .tc main_arg1) = V (Proc.devRef .tc main_arg1) :=
  (chunk15_frame (r := main_arg1) (V14 V) (by decide)).trans (V14_main_arg1 V)
theorem V15_main_arg2 (V : Valuation τ sig (Elt F)) : V15 V (Proc.devRef .tc main_arg2) = V (Proc.devRef .tc main_arg2) :=
  (chunk15_frame (r := main_arg2) (V14 V) (by decide)).trans (V14_main_arg2 V)
theorem V15_main_arg3 (V : Valuation τ sig (Elt F)) : V15 V (Proc.devRef .tc main_arg3) = V (Proc.devRef .tc main_arg3) :=
  (chunk15_frame (r := main_arg3) (V14 V) (by decide)).trans (V14_main_arg3 V)
theorem V15_main_arg4 (V : Valuation τ sig (Elt F)) : V15 V (Proc.devRef .tc main_arg4) = V (Proc.devRef .tc main_arg4) :=
  (chunk15_frame (r := main_arg4) (V14 V) (by decide)).trans (V14_main_arg4 V)
theorem V15_main_arg5 (V : Valuation τ sig (Elt F)) : V15 V (Proc.devRef .tc main_arg5) = V (Proc.devRef .tc main_arg5) :=
  (chunk15_frame (r := main_arg5) (V14 V) (by decide)).trans (V14_main_arg5 V)
theorem V15_main_arg6 (V : Valuation τ sig (Elt F)) : V15 V (Proc.devRef .tc main_arg6) = V (Proc.devRef .tc main_arg6) :=
  (chunk15_frame (r := main_arg6) (V14 V) (by decide)).trans (V14_main_arg6 V)
theorem V15_main_arg7 (V : Valuation τ sig (Elt F)) : V15 V (Proc.devRef .tc main_arg7) = V (Proc.devRef .tc main_arg7) :=
  (chunk15_frame (r := main_arg7) (V14 V) (by decide)).trans (V14_main_arg7 V)
theorem V15_main_arg8 (V : Valuation τ sig (Elt F)) : V15 V (Proc.devRef .tc main_arg8) = V (Proc.devRef .tc main_arg8) :=
  (chunk15_frame (r := main_arg8) (V14 V) (by decide)).trans (V14_main_arg8 V)
theorem V15_main_arg9 (V : Valuation τ sig (Elt F)) : V15 V (Proc.devRef .tc main_arg9) = V (Proc.devRef .tc main_arg9) :=
  (chunk15_frame (r := main_arg9) (V14 V) (by decide)).trans (V14_main_arg9 V)
theorem V15_main_arg10 (V : Valuation τ sig (Elt F)) : V15 V (Proc.devRef .tc main_arg10) = V (Proc.devRef .tc main_arg10) :=
  (chunk15_frame (r := main_arg10) (V14 V) (by decide)).trans (V14_main_arg10 V)
theorem V15_main_arg11 (V : Valuation τ sig (Elt F)) : V15 V (Proc.devRef .tc main_arg11) = V (Proc.devRef .tc main_arg11) :=
  (chunk15_frame (r := main_arg11) (V14 V) (by decide)).trans (V14_main_arg11 V)
theorem V15_main_arg12 (V : Valuation τ sig (Elt F)) : V15 V (Proc.devRef .tc main_arg12) = V (Proc.devRef .tc main_arg12) :=
  (chunk15_frame (r := main_arg12) (V14 V) (by decide)).trans (V14_main_arg12 V)
theorem V15_main_arg13 (V : Valuation τ sig (Elt F)) : V15 V (Proc.devRef .tc main_arg13) = V (Proc.devRef .tc main_arg13) :=
  (chunk15_frame (r := main_arg13) (V14 V) (by decide)).trans (V14_main_arg13 V)
theorem V15_main_arg14 (V : Valuation τ sig (Elt F)) : V15 V (Proc.devRef .tc main_arg14) = V (Proc.devRef .tc main_arg14) :=
  (chunk15_frame (r := main_arg14) (V14 V) (by decide)).trans (V14_main_arg14 V)
theorem V15_main_arg15 (V : Valuation τ sig (Elt F)) : V15 V (Proc.devRef .tc main_arg15) = V (Proc.devRef .tc main_arg15) :=
  (chunk15_frame (r := main_arg15) (V14 V) (by decide)).trans (V14_main_arg15 V)
theorem V15_main_arg16 (V : Valuation τ sig (Elt F)) : V15 V (Proc.devRef .tc main_arg16) = V (Proc.devRef .tc main_arg16) :=
  (chunk15_frame (r := main_arg16) (V14 V) (by decide)).trans (V14_main_arg16 V)
theorem V15_main_arg17 (V : Valuation τ sig (Elt F)) : V15 V (Proc.devRef .tc main_arg17) = V (Proc.devRef .tc main_arg17) :=
  (chunk15_frame (r := main_arg17) (V14 V) (by decide)).trans (V14_main_arg17 V)
theorem V15_main_arg18 (V : Valuation τ sig (Elt F)) : V15 V (Proc.devRef .tc main_arg18) = V (Proc.devRef .tc main_arg18) :=
  (chunk15_frame (r := main_arg18) (V14 V) (by decide)).trans (V14_main_arg18 V)
theorem V15_main_arg19 (V : Valuation τ sig (Elt F)) : V15 V (Proc.devRef .tc main_arg19) = V (Proc.devRef .tc main_arg19) :=
  (chunk15_frame (r := main_arg19) (V14 V) (by decide)).trans (V14_main_arg19 V)
theorem V15_main_v3 (V : Valuation τ sig (Elt F)) : V15 V (Proc.devRef .tc main_v3) = ReadP.val_main_v3 (F := F) (V (Proc.devRef .tc main_arg1)) :=
  (chunk15_frame (r := main_v3) (V14 V) (by decide)).trans (V14_main_v3 V)
theorem V15_main_v7 (V : Valuation τ sig (Elt F)) : V15 V (Proc.devRef .tc main_v7) = ReadP.val_main_v7 (F := F) (V (Proc.devRef .tc main_arg1)) :=
  (chunk15_frame (r := main_v7) (V14 V) (by decide)).trans (V14_main_v7 V)
theorem V15_main_v30 (V : Valuation τ sig (Elt F)) : V15 V (Proc.devRef .tc main_v30) = ReadP.val_main_v30 (F := F) (V (Proc.devRef .tc main_arg1)) :=
  (chunk15_frame (r := main_v30) (V14 V) (by decide)).trans (V14_main_v30 V)
theorem V15_main_v127 (V : Valuation τ sig (Elt F)) : V15 V (Proc.devRef .tc main_v127) = ReadP.val_main_v127 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg12)) (V (Proc.devRef .tc main_arg13)) (V (Proc.devRef .tc main_arg14)) (V (Proc.devRef .tc main_arg15)) :=
  c15_main_v127 (V14 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg12)) (V (Proc.devRef .tc main_arg13)) (V (Proc.devRef .tc main_arg14)) (V (Proc.devRef .tc main_arg15)) (V14_main_v117 V) (V14_main_v119 V) (V14_main_v3 V) (V14_main_v30 V)
theorem V15_main_v128 (V : Valuation τ sig (Elt F)) : V15 V (Proc.devRef .tc main_v128) = ReadP.val_main_v128 (F := F) :=
  c15_main_v128 (V14 V)
theorem V15_main_v129 (V : Valuation τ sig (Elt F)) : V15 V (Proc.devRef .tc main_v129) = ReadP.val_main_v129 (F := F) (V (Proc.devRef .tc main_arg1)) :=
  c15_main_v129 (V14 V) (V (Proc.devRef .tc main_arg1)) (V14_main_v7 V)

/-! ### After list 16 -/

theorem V16_main_arg0 (V : Valuation τ sig (Elt F)) : V16 V (Proc.devRef .tc main_arg0) = V (Proc.devRef .tc main_arg0) :=
  (chunk16_frame (r := main_arg0) (V15 V) (by decide)).trans (V15_main_arg0 V)
theorem V16_main_arg1 (V : Valuation τ sig (Elt F)) : V16 V (Proc.devRef .tc main_arg1) = V (Proc.devRef .tc main_arg1) :=
  (chunk16_frame (r := main_arg1) (V15 V) (by decide)).trans (V15_main_arg1 V)
theorem V16_main_arg2 (V : Valuation τ sig (Elt F)) : V16 V (Proc.devRef .tc main_arg2) = V (Proc.devRef .tc main_arg2) :=
  (chunk16_frame (r := main_arg2) (V15 V) (by decide)).trans (V15_main_arg2 V)
theorem V16_main_arg3 (V : Valuation τ sig (Elt F)) : V16 V (Proc.devRef .tc main_arg3) = V (Proc.devRef .tc main_arg3) :=
  (chunk16_frame (r := main_arg3) (V15 V) (by decide)).trans (V15_main_arg3 V)
theorem V16_main_arg4 (V : Valuation τ sig (Elt F)) : V16 V (Proc.devRef .tc main_arg4) = V (Proc.devRef .tc main_arg4) :=
  (chunk16_frame (r := main_arg4) (V15 V) (by decide)).trans (V15_main_arg4 V)
theorem V16_main_arg5 (V : Valuation τ sig (Elt F)) : V16 V (Proc.devRef .tc main_arg5) = V (Proc.devRef .tc main_arg5) :=
  (chunk16_frame (r := main_arg5) (V15 V) (by decide)).trans (V15_main_arg5 V)
theorem V16_main_arg6 (V : Valuation τ sig (Elt F)) : V16 V (Proc.devRef .tc main_arg6) = V (Proc.devRef .tc main_arg6) :=
  (chunk16_frame (r := main_arg6) (V15 V) (by decide)).trans (V15_main_arg6 V)
theorem V16_main_arg7 (V : Valuation τ sig (Elt F)) : V16 V (Proc.devRef .tc main_arg7) = V (Proc.devRef .tc main_arg7) :=
  (chunk16_frame (r := main_arg7) (V15 V) (by decide)).trans (V15_main_arg7 V)
theorem V16_main_arg8 (V : Valuation τ sig (Elt F)) : V16 V (Proc.devRef .tc main_arg8) = V (Proc.devRef .tc main_arg8) :=
  (chunk16_frame (r := main_arg8) (V15 V) (by decide)).trans (V15_main_arg8 V)
theorem V16_main_arg9 (V : Valuation τ sig (Elt F)) : V16 V (Proc.devRef .tc main_arg9) = V (Proc.devRef .tc main_arg9) :=
  (chunk16_frame (r := main_arg9) (V15 V) (by decide)).trans (V15_main_arg9 V)
theorem V16_main_arg10 (V : Valuation τ sig (Elt F)) : V16 V (Proc.devRef .tc main_arg10) = V (Proc.devRef .tc main_arg10) :=
  (chunk16_frame (r := main_arg10) (V15 V) (by decide)).trans (V15_main_arg10 V)
theorem V16_main_arg11 (V : Valuation τ sig (Elt F)) : V16 V (Proc.devRef .tc main_arg11) = V (Proc.devRef .tc main_arg11) :=
  (chunk16_frame (r := main_arg11) (V15 V) (by decide)).trans (V15_main_arg11 V)
theorem V16_main_arg12 (V : Valuation τ sig (Elt F)) : V16 V (Proc.devRef .tc main_arg12) = V (Proc.devRef .tc main_arg12) :=
  (chunk16_frame (r := main_arg12) (V15 V) (by decide)).trans (V15_main_arg12 V)
theorem V16_main_arg13 (V : Valuation τ sig (Elt F)) : V16 V (Proc.devRef .tc main_arg13) = V (Proc.devRef .tc main_arg13) :=
  (chunk16_frame (r := main_arg13) (V15 V) (by decide)).trans (V15_main_arg13 V)
theorem V16_main_arg14 (V : Valuation τ sig (Elt F)) : V16 V (Proc.devRef .tc main_arg14) = V (Proc.devRef .tc main_arg14) :=
  (chunk16_frame (r := main_arg14) (V15 V) (by decide)).trans (V15_main_arg14 V)
theorem V16_main_arg15 (V : Valuation τ sig (Elt F)) : V16 V (Proc.devRef .tc main_arg15) = V (Proc.devRef .tc main_arg15) :=
  (chunk16_frame (r := main_arg15) (V15 V) (by decide)).trans (V15_main_arg15 V)
theorem V16_main_arg16 (V : Valuation τ sig (Elt F)) : V16 V (Proc.devRef .tc main_arg16) = V (Proc.devRef .tc main_arg16) :=
  (chunk16_frame (r := main_arg16) (V15 V) (by decide)).trans (V15_main_arg16 V)
theorem V16_main_arg17 (V : Valuation τ sig (Elt F)) : V16 V (Proc.devRef .tc main_arg17) = V (Proc.devRef .tc main_arg17) :=
  (chunk16_frame (r := main_arg17) (V15 V) (by decide)).trans (V15_main_arg17 V)
theorem V16_main_arg18 (V : Valuation τ sig (Elt F)) : V16 V (Proc.devRef .tc main_arg18) = V (Proc.devRef .tc main_arg18) :=
  (chunk16_frame (r := main_arg18) (V15 V) (by decide)).trans (V15_main_arg18 V)
theorem V16_main_arg19 (V : Valuation τ sig (Elt F)) : V16 V (Proc.devRef .tc main_arg19) = V (Proc.devRef .tc main_arg19) :=
  (chunk16_frame (r := main_arg19) (V15 V) (by decide)).trans (V15_main_arg19 V)
theorem V16_main_v3 (V : Valuation τ sig (Elt F)) : V16 V (Proc.devRef .tc main_v3) = ReadP.val_main_v3 (F := F) (V (Proc.devRef .tc main_arg1)) :=
  (chunk16_frame (r := main_v3) (V15 V) (by decide)).trans (V15_main_v3 V)
theorem V16_main_v7 (V : Valuation τ sig (Elt F)) : V16 V (Proc.devRef .tc main_v7) = ReadP.val_main_v7 (F := F) (V (Proc.devRef .tc main_arg1)) :=
  (chunk16_frame (r := main_v7) (V15 V) (by decide)).trans (V15_main_v7 V)
theorem V16_main_v30 (V : Valuation τ sig (Elt F)) : V16 V (Proc.devRef .tc main_v30) = ReadP.val_main_v30 (F := F) (V (Proc.devRef .tc main_arg1)) :=
  (chunk16_frame (r := main_v30) (V15 V) (by decide)).trans (V15_main_v30 V)
theorem V16_main_v134 (V : Valuation τ sig (Elt F)) : V16 V (Proc.devRef .tc main_v134) = ReadP.val_main_v134 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg12)) (V (Proc.devRef .tc main_arg13)) (V (Proc.devRef .tc main_arg14)) (V (Proc.devRef .tc main_arg15)) :=
  c16_main_v134 (V15 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg12)) (V (Proc.devRef .tc main_arg13)) (V (Proc.devRef .tc main_arg14)) (V (Proc.devRef .tc main_arg15)) (V15_main_v128 V) (V15_main_v129 V) (V15_main_v127 V) (V15_main_arg7 V)
theorem V16_main_v137 (V : Valuation τ sig (Elt F)) : V16 V (Proc.devRef .tc main_v137) = ReadP.val_main_v137 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg12)) (V (Proc.devRef .tc main_arg13)) (V (Proc.devRef .tc main_arg14)) (V (Proc.devRef .tc main_arg15)) :=
  c16_main_v137 (V15 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg12)) (V (Proc.devRef .tc main_arg13)) (V (Proc.devRef .tc main_arg14)) (V (Proc.devRef .tc main_arg15)) (V15_main_v128 V) (V15_main_v129 V) (V15_main_v127 V) (V15_main_arg7 V)

/-! ### After list 17 -/

theorem V17_main_arg0 (V : Valuation τ sig (Elt F)) : V17 V (Proc.devRef .tc main_arg0) = V (Proc.devRef .tc main_arg0) :=
  (chunk17_frame (r := main_arg0) (V16 V) (by decide)).trans (V16_main_arg0 V)
theorem V17_main_arg1 (V : Valuation τ sig (Elt F)) : V17 V (Proc.devRef .tc main_arg1) = V (Proc.devRef .tc main_arg1) :=
  (chunk17_frame (r := main_arg1) (V16 V) (by decide)).trans (V16_main_arg1 V)
theorem V17_main_arg2 (V : Valuation τ sig (Elt F)) : V17 V (Proc.devRef .tc main_arg2) = V (Proc.devRef .tc main_arg2) :=
  (chunk17_frame (r := main_arg2) (V16 V) (by decide)).trans (V16_main_arg2 V)
theorem V17_main_arg3 (V : Valuation τ sig (Elt F)) : V17 V (Proc.devRef .tc main_arg3) = V (Proc.devRef .tc main_arg3) :=
  (chunk17_frame (r := main_arg3) (V16 V) (by decide)).trans (V16_main_arg3 V)
theorem V17_main_arg4 (V : Valuation τ sig (Elt F)) : V17 V (Proc.devRef .tc main_arg4) = V (Proc.devRef .tc main_arg4) :=
  (chunk17_frame (r := main_arg4) (V16 V) (by decide)).trans (V16_main_arg4 V)
theorem V17_main_arg5 (V : Valuation τ sig (Elt F)) : V17 V (Proc.devRef .tc main_arg5) = V (Proc.devRef .tc main_arg5) :=
  (chunk17_frame (r := main_arg5) (V16 V) (by decide)).trans (V16_main_arg5 V)
theorem V17_main_arg6 (V : Valuation τ sig (Elt F)) : V17 V (Proc.devRef .tc main_arg6) = V (Proc.devRef .tc main_arg6) :=
  (chunk17_frame (r := main_arg6) (V16 V) (by decide)).trans (V16_main_arg6 V)
theorem V17_main_arg7 (V : Valuation τ sig (Elt F)) : V17 V (Proc.devRef .tc main_arg7) = V (Proc.devRef .tc main_arg7) :=
  (chunk17_frame (r := main_arg7) (V16 V) (by decide)).trans (V16_main_arg7 V)
theorem V17_main_arg8 (V : Valuation τ sig (Elt F)) : V17 V (Proc.devRef .tc main_arg8) = V (Proc.devRef .tc main_arg8) :=
  (chunk17_frame (r := main_arg8) (V16 V) (by decide)).trans (V16_main_arg8 V)
theorem V17_main_arg9 (V : Valuation τ sig (Elt F)) : V17 V (Proc.devRef .tc main_arg9) = V (Proc.devRef .tc main_arg9) :=
  (chunk17_frame (r := main_arg9) (V16 V) (by decide)).trans (V16_main_arg9 V)
theorem V17_main_arg10 (V : Valuation τ sig (Elt F)) : V17 V (Proc.devRef .tc main_arg10) = V (Proc.devRef .tc main_arg10) :=
  (chunk17_frame (r := main_arg10) (V16 V) (by decide)).trans (V16_main_arg10 V)
theorem V17_main_arg11 (V : Valuation τ sig (Elt F)) : V17 V (Proc.devRef .tc main_arg11) = V (Proc.devRef .tc main_arg11) :=
  (chunk17_frame (r := main_arg11) (V16 V) (by decide)).trans (V16_main_arg11 V)
theorem V17_main_arg12 (V : Valuation τ sig (Elt F)) : V17 V (Proc.devRef .tc main_arg12) = V (Proc.devRef .tc main_arg12) :=
  (chunk17_frame (r := main_arg12) (V16 V) (by decide)).trans (V16_main_arg12 V)
theorem V17_main_arg13 (V : Valuation τ sig (Elt F)) : V17 V (Proc.devRef .tc main_arg13) = V (Proc.devRef .tc main_arg13) :=
  (chunk17_frame (r := main_arg13) (V16 V) (by decide)).trans (V16_main_arg13 V)
theorem V17_main_arg14 (V : Valuation τ sig (Elt F)) : V17 V (Proc.devRef .tc main_arg14) = V (Proc.devRef .tc main_arg14) :=
  (chunk17_frame (r := main_arg14) (V16 V) (by decide)).trans (V16_main_arg14 V)
theorem V17_main_arg15 (V : Valuation τ sig (Elt F)) : V17 V (Proc.devRef .tc main_arg15) = V (Proc.devRef .tc main_arg15) :=
  (chunk17_frame (r := main_arg15) (V16 V) (by decide)).trans (V16_main_arg15 V)
theorem V17_main_arg16 (V : Valuation τ sig (Elt F)) : V17 V (Proc.devRef .tc main_arg16) = V (Proc.devRef .tc main_arg16) :=
  (chunk17_frame (r := main_arg16) (V16 V) (by decide)).trans (V16_main_arg16 V)
theorem V17_main_arg17 (V : Valuation τ sig (Elt F)) : V17 V (Proc.devRef .tc main_arg17) = V (Proc.devRef .tc main_arg17) :=
  (chunk17_frame (r := main_arg17) (V16 V) (by decide)).trans (V16_main_arg17 V)
theorem V17_main_arg18 (V : Valuation τ sig (Elt F)) : V17 V (Proc.devRef .tc main_arg18) = V (Proc.devRef .tc main_arg18) :=
  (chunk17_frame (r := main_arg18) (V16 V) (by decide)).trans (V16_main_arg18 V)
theorem V17_main_arg19 (V : Valuation τ sig (Elt F)) : V17 V (Proc.devRef .tc main_arg19) = V (Proc.devRef .tc main_arg19) :=
  (chunk17_frame (r := main_arg19) (V16 V) (by decide)).trans (V16_main_arg19 V)
theorem V17_main_v3 (V : Valuation τ sig (Elt F)) : V17 V (Proc.devRef .tc main_v3) = ReadP.val_main_v3 (F := F) (V (Proc.devRef .tc main_arg1)) :=
  (chunk17_frame (r := main_v3) (V16 V) (by decide)).trans (V16_main_v3 V)
theorem V17_main_v7 (V : Valuation τ sig (Elt F)) : V17 V (Proc.devRef .tc main_v7) = ReadP.val_main_v7 (F := F) (V (Proc.devRef .tc main_arg1)) :=
  (chunk17_frame (r := main_v7) (V16 V) (by decide)).trans (V16_main_v7 V)
theorem V17_main_v30 (V : Valuation τ sig (Elt F)) : V17 V (Proc.devRef .tc main_v30) = ReadP.val_main_v30 (F := F) (V (Proc.devRef .tc main_arg1)) :=
  (chunk17_frame (r := main_v30) (V16 V) (by decide)).trans (V16_main_v30 V)
theorem V17_main_v144 (V : Valuation τ sig (Elt F)) : V17 V (Proc.devRef .tc main_v144) = ReadP.val_main_v144 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg12)) (V (Proc.devRef .tc main_arg13)) (V (Proc.devRef .tc main_arg14)) (V (Proc.devRef .tc main_arg15)) :=
  c17_main_v144 (V16 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg12)) (V (Proc.devRef .tc main_arg13)) (V (Proc.devRef .tc main_arg14)) (V (Proc.devRef .tc main_arg15)) (V16_main_v134 V) (V16_main_v137 V)
theorem V17_main_v147 (V : Valuation τ sig (Elt F)) : V17 V (Proc.devRef .tc main_v147) = ReadP.val_main_v147 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg12)) (V (Proc.devRef .tc main_arg13)) (V (Proc.devRef .tc main_arg14)) (V (Proc.devRef .tc main_arg15)) :=
  c17_main_v147 (V16 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg12)) (V (Proc.devRef .tc main_arg13)) (V (Proc.devRef .tc main_arg14)) (V (Proc.devRef .tc main_arg15)) (V16_main_v134 V) (V16_main_v137 V)

/-! ### After list 18 -/

theorem V18_main_arg0 (V : Valuation τ sig (Elt F)) : V18 V (Proc.devRef .tc main_arg0) = V (Proc.devRef .tc main_arg0) :=
  (chunk18_frame (r := main_arg0) (V17 V) (by decide)).trans (V17_main_arg0 V)
theorem V18_main_arg1 (V : Valuation τ sig (Elt F)) : V18 V (Proc.devRef .tc main_arg1) = V (Proc.devRef .tc main_arg1) :=
  (chunk18_frame (r := main_arg1) (V17 V) (by decide)).trans (V17_main_arg1 V)
theorem V18_main_arg2 (V : Valuation τ sig (Elt F)) : V18 V (Proc.devRef .tc main_arg2) = V (Proc.devRef .tc main_arg2) :=
  (chunk18_frame (r := main_arg2) (V17 V) (by decide)).trans (V17_main_arg2 V)
theorem V18_main_arg3 (V : Valuation τ sig (Elt F)) : V18 V (Proc.devRef .tc main_arg3) = V (Proc.devRef .tc main_arg3) :=
  (chunk18_frame (r := main_arg3) (V17 V) (by decide)).trans (V17_main_arg3 V)
theorem V18_main_arg4 (V : Valuation τ sig (Elt F)) : V18 V (Proc.devRef .tc main_arg4) = V (Proc.devRef .tc main_arg4) :=
  (chunk18_frame (r := main_arg4) (V17 V) (by decide)).trans (V17_main_arg4 V)
theorem V18_main_arg5 (V : Valuation τ sig (Elt F)) : V18 V (Proc.devRef .tc main_arg5) = V (Proc.devRef .tc main_arg5) :=
  (chunk18_frame (r := main_arg5) (V17 V) (by decide)).trans (V17_main_arg5 V)
theorem V18_main_arg6 (V : Valuation τ sig (Elt F)) : V18 V (Proc.devRef .tc main_arg6) = V (Proc.devRef .tc main_arg6) :=
  (chunk18_frame (r := main_arg6) (V17 V) (by decide)).trans (V17_main_arg6 V)
theorem V18_main_arg7 (V : Valuation τ sig (Elt F)) : V18 V (Proc.devRef .tc main_arg7) = V (Proc.devRef .tc main_arg7) :=
  (chunk18_frame (r := main_arg7) (V17 V) (by decide)).trans (V17_main_arg7 V)
theorem V18_main_arg8 (V : Valuation τ sig (Elt F)) : V18 V (Proc.devRef .tc main_arg8) = V (Proc.devRef .tc main_arg8) :=
  (chunk18_frame (r := main_arg8) (V17 V) (by decide)).trans (V17_main_arg8 V)
theorem V18_main_arg9 (V : Valuation τ sig (Elt F)) : V18 V (Proc.devRef .tc main_arg9) = V (Proc.devRef .tc main_arg9) :=
  (chunk18_frame (r := main_arg9) (V17 V) (by decide)).trans (V17_main_arg9 V)
theorem V18_main_arg10 (V : Valuation τ sig (Elt F)) : V18 V (Proc.devRef .tc main_arg10) = V (Proc.devRef .tc main_arg10) :=
  (chunk18_frame (r := main_arg10) (V17 V) (by decide)).trans (V17_main_arg10 V)
theorem V18_main_arg11 (V : Valuation τ sig (Elt F)) : V18 V (Proc.devRef .tc main_arg11) = V (Proc.devRef .tc main_arg11) :=
  (chunk18_frame (r := main_arg11) (V17 V) (by decide)).trans (V17_main_arg11 V)
theorem V18_main_arg12 (V : Valuation τ sig (Elt F)) : V18 V (Proc.devRef .tc main_arg12) = V (Proc.devRef .tc main_arg12) :=
  (chunk18_frame (r := main_arg12) (V17 V) (by decide)).trans (V17_main_arg12 V)
theorem V18_main_arg13 (V : Valuation τ sig (Elt F)) : V18 V (Proc.devRef .tc main_arg13) = V (Proc.devRef .tc main_arg13) :=
  (chunk18_frame (r := main_arg13) (V17 V) (by decide)).trans (V17_main_arg13 V)
theorem V18_main_arg14 (V : Valuation τ sig (Elt F)) : V18 V (Proc.devRef .tc main_arg14) = V (Proc.devRef .tc main_arg14) :=
  (chunk18_frame (r := main_arg14) (V17 V) (by decide)).trans (V17_main_arg14 V)
theorem V18_main_arg15 (V : Valuation τ sig (Elt F)) : V18 V (Proc.devRef .tc main_arg15) = V (Proc.devRef .tc main_arg15) :=
  (chunk18_frame (r := main_arg15) (V17 V) (by decide)).trans (V17_main_arg15 V)
theorem V18_main_arg16 (V : Valuation τ sig (Elt F)) : V18 V (Proc.devRef .tc main_arg16) = V (Proc.devRef .tc main_arg16) :=
  (chunk18_frame (r := main_arg16) (V17 V) (by decide)).trans (V17_main_arg16 V)
theorem V18_main_arg17 (V : Valuation τ sig (Elt F)) : V18 V (Proc.devRef .tc main_arg17) = V (Proc.devRef .tc main_arg17) :=
  (chunk18_frame (r := main_arg17) (V17 V) (by decide)).trans (V17_main_arg17 V)
theorem V18_main_arg18 (V : Valuation τ sig (Elt F)) : V18 V (Proc.devRef .tc main_arg18) = V (Proc.devRef .tc main_arg18) :=
  (chunk18_frame (r := main_arg18) (V17 V) (by decide)).trans (V17_main_arg18 V)
theorem V18_main_arg19 (V : Valuation τ sig (Elt F)) : V18 V (Proc.devRef .tc main_arg19) = V (Proc.devRef .tc main_arg19) :=
  (chunk18_frame (r := main_arg19) (V17 V) (by decide)).trans (V17_main_arg19 V)
theorem V18_main_v3 (V : Valuation τ sig (Elt F)) : V18 V (Proc.devRef .tc main_v3) = ReadP.val_main_v3 (F := F) (V (Proc.devRef .tc main_arg1)) :=
  (chunk18_frame (r := main_v3) (V17 V) (by decide)).trans (V17_main_v3 V)
theorem V18_main_v7 (V : Valuation τ sig (Elt F)) : V18 V (Proc.devRef .tc main_v7) = ReadP.val_main_v7 (F := F) (V (Proc.devRef .tc main_arg1)) :=
  (chunk18_frame (r := main_v7) (V17 V) (by decide)).trans (V17_main_v7 V)
theorem V18_main_v30 (V : Valuation τ sig (Elt F)) : V18 V (Proc.devRef .tc main_v30) = ReadP.val_main_v30 (F := F) (V (Proc.devRef .tc main_arg1)) :=
  (chunk18_frame (r := main_v30) (V17 V) (by decide)).trans (V17_main_v30 V)
theorem V18_main_v156 (V : Valuation τ sig (Elt F)) : V18 V (Proc.devRef .tc main_v156) = ReadP.val_main_v156 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg12)) (V (Proc.devRef .tc main_arg13)) (V (Proc.devRef .tc main_arg14)) (V (Proc.devRef .tc main_arg15)) (V (Proc.devRef .tc main_arg16)) :=
  c18_main_v156 (V17 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg12)) (V (Proc.devRef .tc main_arg13)) (V (Proc.devRef .tc main_arg14)) (V (Proc.devRef .tc main_arg15)) (V (Proc.devRef .tc main_arg16)) (V17_main_v147 V) (V17_main_v144 V) (V17_main_arg16 V)
theorem V18_main_v158 (V : Valuation τ sig (Elt F)) : V18 V (Proc.devRef .tc main_v158) = ReadP.val_main_v158 (F := F) (V (Proc.devRef .tc main_arg17)) :=
  c18_main_v158 (V17 V) (V (Proc.devRef .tc main_arg17)) (V17_main_arg17 V)

/-! ### After list 19 -/

theorem V19_main_arg0 (V : Valuation τ sig (Elt F)) : V19 V (Proc.devRef .tc main_arg0) = V (Proc.devRef .tc main_arg0) :=
  (chunk19_frame (r := main_arg0) (V18 V) (by decide)).trans (V18_main_arg0 V)
theorem V19_main_arg1 (V : Valuation τ sig (Elt F)) : V19 V (Proc.devRef .tc main_arg1) = V (Proc.devRef .tc main_arg1) :=
  (chunk19_frame (r := main_arg1) (V18 V) (by decide)).trans (V18_main_arg1 V)
theorem V19_main_arg2 (V : Valuation τ sig (Elt F)) : V19 V (Proc.devRef .tc main_arg2) = V (Proc.devRef .tc main_arg2) :=
  (chunk19_frame (r := main_arg2) (V18 V) (by decide)).trans (V18_main_arg2 V)
theorem V19_main_arg3 (V : Valuation τ sig (Elt F)) : V19 V (Proc.devRef .tc main_arg3) = V (Proc.devRef .tc main_arg3) :=
  (chunk19_frame (r := main_arg3) (V18 V) (by decide)).trans (V18_main_arg3 V)
theorem V19_main_arg4 (V : Valuation τ sig (Elt F)) : V19 V (Proc.devRef .tc main_arg4) = V (Proc.devRef .tc main_arg4) :=
  (chunk19_frame (r := main_arg4) (V18 V) (by decide)).trans (V18_main_arg4 V)
theorem V19_main_arg5 (V : Valuation τ sig (Elt F)) : V19 V (Proc.devRef .tc main_arg5) = V (Proc.devRef .tc main_arg5) :=
  (chunk19_frame (r := main_arg5) (V18 V) (by decide)).trans (V18_main_arg5 V)
theorem V19_main_arg6 (V : Valuation τ sig (Elt F)) : V19 V (Proc.devRef .tc main_arg6) = V (Proc.devRef .tc main_arg6) :=
  (chunk19_frame (r := main_arg6) (V18 V) (by decide)).trans (V18_main_arg6 V)
theorem V19_main_arg7 (V : Valuation τ sig (Elt F)) : V19 V (Proc.devRef .tc main_arg7) = V (Proc.devRef .tc main_arg7) :=
  (chunk19_frame (r := main_arg7) (V18 V) (by decide)).trans (V18_main_arg7 V)
theorem V19_main_arg8 (V : Valuation τ sig (Elt F)) : V19 V (Proc.devRef .tc main_arg8) = V (Proc.devRef .tc main_arg8) :=
  (chunk19_frame (r := main_arg8) (V18 V) (by decide)).trans (V18_main_arg8 V)
theorem V19_main_arg9 (V : Valuation τ sig (Elt F)) : V19 V (Proc.devRef .tc main_arg9) = V (Proc.devRef .tc main_arg9) :=
  (chunk19_frame (r := main_arg9) (V18 V) (by decide)).trans (V18_main_arg9 V)
theorem V19_main_arg10 (V : Valuation τ sig (Elt F)) : V19 V (Proc.devRef .tc main_arg10) = V (Proc.devRef .tc main_arg10) :=
  (chunk19_frame (r := main_arg10) (V18 V) (by decide)).trans (V18_main_arg10 V)
theorem V19_main_arg11 (V : Valuation τ sig (Elt F)) : V19 V (Proc.devRef .tc main_arg11) = V (Proc.devRef .tc main_arg11) :=
  (chunk19_frame (r := main_arg11) (V18 V) (by decide)).trans (V18_main_arg11 V)
theorem V19_main_arg12 (V : Valuation τ sig (Elt F)) : V19 V (Proc.devRef .tc main_arg12) = V (Proc.devRef .tc main_arg12) :=
  (chunk19_frame (r := main_arg12) (V18 V) (by decide)).trans (V18_main_arg12 V)
theorem V19_main_arg13 (V : Valuation τ sig (Elt F)) : V19 V (Proc.devRef .tc main_arg13) = V (Proc.devRef .tc main_arg13) :=
  (chunk19_frame (r := main_arg13) (V18 V) (by decide)).trans (V18_main_arg13 V)
theorem V19_main_arg14 (V : Valuation τ sig (Elt F)) : V19 V (Proc.devRef .tc main_arg14) = V (Proc.devRef .tc main_arg14) :=
  (chunk19_frame (r := main_arg14) (V18 V) (by decide)).trans (V18_main_arg14 V)
theorem V19_main_arg15 (V : Valuation τ sig (Elt F)) : V19 V (Proc.devRef .tc main_arg15) = V (Proc.devRef .tc main_arg15) :=
  (chunk19_frame (r := main_arg15) (V18 V) (by decide)).trans (V18_main_arg15 V)
theorem V19_main_arg16 (V : Valuation τ sig (Elt F)) : V19 V (Proc.devRef .tc main_arg16) = V (Proc.devRef .tc main_arg16) :=
  (chunk19_frame (r := main_arg16) (V18 V) (by decide)).trans (V18_main_arg16 V)
theorem V19_main_arg17 (V : Valuation τ sig (Elt F)) : V19 V (Proc.devRef .tc main_arg17) = V (Proc.devRef .tc main_arg17) :=
  (chunk19_frame (r := main_arg17) (V18 V) (by decide)).trans (V18_main_arg17 V)
theorem V19_main_arg18 (V : Valuation τ sig (Elt F)) : V19 V (Proc.devRef .tc main_arg18) = V (Proc.devRef .tc main_arg18) :=
  (chunk19_frame (r := main_arg18) (V18 V) (by decide)).trans (V18_main_arg18 V)
theorem V19_main_arg19 (V : Valuation τ sig (Elt F)) : V19 V (Proc.devRef .tc main_arg19) = V (Proc.devRef .tc main_arg19) :=
  (chunk19_frame (r := main_arg19) (V18 V) (by decide)).trans (V18_main_arg19 V)
theorem V19_main_v3 (V : Valuation τ sig (Elt F)) : V19 V (Proc.devRef .tc main_v3) = ReadP.val_main_v3 (F := F) (V (Proc.devRef .tc main_arg1)) :=
  (chunk19_frame (r := main_v3) (V18 V) (by decide)).trans (V18_main_v3 V)
theorem V19_main_v7 (V : Valuation τ sig (Elt F)) : V19 V (Proc.devRef .tc main_v7) = ReadP.val_main_v7 (F := F) (V (Proc.devRef .tc main_arg1)) :=
  (chunk19_frame (r := main_v7) (V18 V) (by decide)).trans (V18_main_v7 V)
theorem V19_main_v30 (V : Valuation τ sig (Elt F)) : V19 V (Proc.devRef .tc main_v30) = ReadP.val_main_v30 (F := F) (V (Proc.devRef .tc main_arg1)) :=
  (chunk19_frame (r := main_v30) (V18 V) (by decide)).trans (V18_main_v30 V)
theorem V19_main_v167 (V : Valuation τ sig (Elt F)) : V19 V (Proc.devRef .tc main_v167) = ReadP.val_main_v167 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg12)) (V (Proc.devRef .tc main_arg13)) (V (Proc.devRef .tc main_arg14)) (V (Proc.devRef .tc main_arg15)) (V (Proc.devRef .tc main_arg16)) (V (Proc.devRef .tc main_arg17)) :=
  c19_main_v167 (V18 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg12)) (V (Proc.devRef .tc main_arg13)) (V (Proc.devRef .tc main_arg14)) (V (Proc.devRef .tc main_arg15)) (V (Proc.devRef .tc main_arg16)) (V (Proc.devRef .tc main_arg17)) (V18_main_v156 V) (V18_main_v158 V) (V18_main_arg8 V) (V18_main_v3 V)
theorem V19_main_v168 (V : Valuation τ sig (Elt F)) : V19 V (Proc.devRef .tc main_v168) = ReadP.val_main_v168 (F := F) (V (Proc.devRef .tc main_arg1)) :=
  c19_main_v168 (V18 V) (V (Proc.devRef .tc main_arg1)) (V18_main_v30 V)

/-! ### After list 20 -/

theorem V20_main_arg0 (V : Valuation τ sig (Elt F)) : V20 V (Proc.devRef .tc main_arg0) = V (Proc.devRef .tc main_arg0) :=
  (chunk20_frame (r := main_arg0) (V19 V) (by decide)).trans (V19_main_arg0 V)
theorem V20_main_arg1 (V : Valuation τ sig (Elt F)) : V20 V (Proc.devRef .tc main_arg1) = V (Proc.devRef .tc main_arg1) :=
  (chunk20_frame (r := main_arg1) (V19 V) (by decide)).trans (V19_main_arg1 V)
theorem V20_main_arg2 (V : Valuation τ sig (Elt F)) : V20 V (Proc.devRef .tc main_arg2) = V (Proc.devRef .tc main_arg2) :=
  (chunk20_frame (r := main_arg2) (V19 V) (by decide)).trans (V19_main_arg2 V)
theorem V20_main_arg3 (V : Valuation τ sig (Elt F)) : V20 V (Proc.devRef .tc main_arg3) = V (Proc.devRef .tc main_arg3) :=
  (chunk20_frame (r := main_arg3) (V19 V) (by decide)).trans (V19_main_arg3 V)
theorem V20_main_arg4 (V : Valuation τ sig (Elt F)) : V20 V (Proc.devRef .tc main_arg4) = V (Proc.devRef .tc main_arg4) :=
  (chunk20_frame (r := main_arg4) (V19 V) (by decide)).trans (V19_main_arg4 V)
theorem V20_main_arg5 (V : Valuation τ sig (Elt F)) : V20 V (Proc.devRef .tc main_arg5) = V (Proc.devRef .tc main_arg5) :=
  (chunk20_frame (r := main_arg5) (V19 V) (by decide)).trans (V19_main_arg5 V)
theorem V20_main_arg6 (V : Valuation τ sig (Elt F)) : V20 V (Proc.devRef .tc main_arg6) = V (Proc.devRef .tc main_arg6) :=
  (chunk20_frame (r := main_arg6) (V19 V) (by decide)).trans (V19_main_arg6 V)
theorem V20_main_arg7 (V : Valuation τ sig (Elt F)) : V20 V (Proc.devRef .tc main_arg7) = V (Proc.devRef .tc main_arg7) :=
  (chunk20_frame (r := main_arg7) (V19 V) (by decide)).trans (V19_main_arg7 V)
theorem V20_main_arg8 (V : Valuation τ sig (Elt F)) : V20 V (Proc.devRef .tc main_arg8) = V (Proc.devRef .tc main_arg8) :=
  (chunk20_frame (r := main_arg8) (V19 V) (by decide)).trans (V19_main_arg8 V)
theorem V20_main_arg9 (V : Valuation τ sig (Elt F)) : V20 V (Proc.devRef .tc main_arg9) = V (Proc.devRef .tc main_arg9) :=
  (chunk20_frame (r := main_arg9) (V19 V) (by decide)).trans (V19_main_arg9 V)
theorem V20_main_arg10 (V : Valuation τ sig (Elt F)) : V20 V (Proc.devRef .tc main_arg10) = V (Proc.devRef .tc main_arg10) :=
  (chunk20_frame (r := main_arg10) (V19 V) (by decide)).trans (V19_main_arg10 V)
theorem V20_main_arg11 (V : Valuation τ sig (Elt F)) : V20 V (Proc.devRef .tc main_arg11) = V (Proc.devRef .tc main_arg11) :=
  (chunk20_frame (r := main_arg11) (V19 V) (by decide)).trans (V19_main_arg11 V)
theorem V20_main_arg12 (V : Valuation τ sig (Elt F)) : V20 V (Proc.devRef .tc main_arg12) = V (Proc.devRef .tc main_arg12) :=
  (chunk20_frame (r := main_arg12) (V19 V) (by decide)).trans (V19_main_arg12 V)
theorem V20_main_arg13 (V : Valuation τ sig (Elt F)) : V20 V (Proc.devRef .tc main_arg13) = V (Proc.devRef .tc main_arg13) :=
  (chunk20_frame (r := main_arg13) (V19 V) (by decide)).trans (V19_main_arg13 V)
theorem V20_main_arg14 (V : Valuation τ sig (Elt F)) : V20 V (Proc.devRef .tc main_arg14) = V (Proc.devRef .tc main_arg14) :=
  (chunk20_frame (r := main_arg14) (V19 V) (by decide)).trans (V19_main_arg14 V)
theorem V20_main_arg15 (V : Valuation τ sig (Elt F)) : V20 V (Proc.devRef .tc main_arg15) = V (Proc.devRef .tc main_arg15) :=
  (chunk20_frame (r := main_arg15) (V19 V) (by decide)).trans (V19_main_arg15 V)
theorem V20_main_arg16 (V : Valuation τ sig (Elt F)) : V20 V (Proc.devRef .tc main_arg16) = V (Proc.devRef .tc main_arg16) :=
  (chunk20_frame (r := main_arg16) (V19 V) (by decide)).trans (V19_main_arg16 V)
theorem V20_main_arg17 (V : Valuation τ sig (Elt F)) : V20 V (Proc.devRef .tc main_arg17) = V (Proc.devRef .tc main_arg17) :=
  (chunk20_frame (r := main_arg17) (V19 V) (by decide)).trans (V19_main_arg17 V)
theorem V20_main_arg18 (V : Valuation τ sig (Elt F)) : V20 V (Proc.devRef .tc main_arg18) = V (Proc.devRef .tc main_arg18) :=
  (chunk20_frame (r := main_arg18) (V19 V) (by decide)).trans (V19_main_arg18 V)
theorem V20_main_arg19 (V : Valuation τ sig (Elt F)) : V20 V (Proc.devRef .tc main_arg19) = V (Proc.devRef .tc main_arg19) :=
  (chunk20_frame (r := main_arg19) (V19 V) (by decide)).trans (V19_main_arg19 V)
theorem V20_main_v3 (V : Valuation τ sig (Elt F)) : V20 V (Proc.devRef .tc main_v3) = ReadP.val_main_v3 (F := F) (V (Proc.devRef .tc main_arg1)) :=
  (chunk20_frame (r := main_v3) (V19 V) (by decide)).trans (V19_main_v3 V)
theorem V20_main_v7 (V : Valuation τ sig (Elt F)) : V20 V (Proc.devRef .tc main_v7) = ReadP.val_main_v7 (F := F) (V (Proc.devRef .tc main_arg1)) :=
  (chunk20_frame (r := main_v7) (V19 V) (by decide)).trans (V19_main_v7 V)
theorem V20_main_v30 (V : Valuation τ sig (Elt F)) : V20 V (Proc.devRef .tc main_v30) = ReadP.val_main_v30 (F := F) (V (Proc.devRef .tc main_arg1)) :=
  (chunk20_frame (r := main_v30) (V19 V) (by decide)).trans (V19_main_v30 V)
theorem V20_main_v177 (V : Valuation τ sig (Elt F)) : V20 V (Proc.devRef .tc main_v177) = ReadP.val_main_v177 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg14)) (V (Proc.devRef .tc main_arg15)) (V (Proc.devRef .tc main_arg16)) (V (Proc.devRef .tc main_arg17)) :=
  c20_main_v177 (V19 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg14)) (V (Proc.devRef .tc main_arg15)) (V (Proc.devRef .tc main_arg16)) (V (Proc.devRef .tc main_arg17)) (V19_main_v7 V) (V19_main_v167 V) (V19_main_v168 V) (V19_main_arg9 V)

/-! ### After list 21 -/

theorem V21_main_arg0 (V : Valuation τ sig (Elt F)) : V21 V (Proc.devRef .tc main_arg0) = V (Proc.devRef .tc main_arg0) :=
  (chunk21_frame (r := main_arg0) (V20 V) (by decide)).trans (V20_main_arg0 V)
theorem V21_main_arg1 (V : Valuation τ sig (Elt F)) : V21 V (Proc.devRef .tc main_arg1) = V (Proc.devRef .tc main_arg1) :=
  (chunk21_frame (r := main_arg1) (V20 V) (by decide)).trans (V20_main_arg1 V)
theorem V21_main_arg2 (V : Valuation τ sig (Elt F)) : V21 V (Proc.devRef .tc main_arg2) = V (Proc.devRef .tc main_arg2) :=
  (chunk21_frame (r := main_arg2) (V20 V) (by decide)).trans (V20_main_arg2 V)
theorem V21_main_arg3 (V : Valuation τ sig (Elt F)) : V21 V (Proc.devRef .tc main_arg3) = V (Proc.devRef .tc main_arg3) :=
  (chunk21_frame (r := main_arg3) (V20 V) (by decide)).trans (V20_main_arg3 V)
theorem V21_main_arg4 (V : Valuation τ sig (Elt F)) : V21 V (Proc.devRef .tc main_arg4) = V (Proc.devRef .tc main_arg4) :=
  (chunk21_frame (r := main_arg4) (V20 V) (by decide)).trans (V20_main_arg4 V)
theorem V21_main_arg5 (V : Valuation τ sig (Elt F)) : V21 V (Proc.devRef .tc main_arg5) = V (Proc.devRef .tc main_arg5) :=
  (chunk21_frame (r := main_arg5) (V20 V) (by decide)).trans (V20_main_arg5 V)
theorem V21_main_arg6 (V : Valuation τ sig (Elt F)) : V21 V (Proc.devRef .tc main_arg6) = V (Proc.devRef .tc main_arg6) :=
  (chunk21_frame (r := main_arg6) (V20 V) (by decide)).trans (V20_main_arg6 V)
theorem V21_main_arg7 (V : Valuation τ sig (Elt F)) : V21 V (Proc.devRef .tc main_arg7) = V (Proc.devRef .tc main_arg7) :=
  (chunk21_frame (r := main_arg7) (V20 V) (by decide)).trans (V20_main_arg7 V)
theorem V21_main_arg8 (V : Valuation τ sig (Elt F)) : V21 V (Proc.devRef .tc main_arg8) = V (Proc.devRef .tc main_arg8) :=
  (chunk21_frame (r := main_arg8) (V20 V) (by decide)).trans (V20_main_arg8 V)
theorem V21_main_arg9 (V : Valuation τ sig (Elt F)) : V21 V (Proc.devRef .tc main_arg9) = V (Proc.devRef .tc main_arg9) :=
  (chunk21_frame (r := main_arg9) (V20 V) (by decide)).trans (V20_main_arg9 V)
theorem V21_main_arg10 (V : Valuation τ sig (Elt F)) : V21 V (Proc.devRef .tc main_arg10) = V (Proc.devRef .tc main_arg10) :=
  (chunk21_frame (r := main_arg10) (V20 V) (by decide)).trans (V20_main_arg10 V)
theorem V21_main_arg11 (V : Valuation τ sig (Elt F)) : V21 V (Proc.devRef .tc main_arg11) = V (Proc.devRef .tc main_arg11) :=
  (chunk21_frame (r := main_arg11) (V20 V) (by decide)).trans (V20_main_arg11 V)
theorem V21_main_arg12 (V : Valuation τ sig (Elt F)) : V21 V (Proc.devRef .tc main_arg12) = V (Proc.devRef .tc main_arg12) :=
  (chunk21_frame (r := main_arg12) (V20 V) (by decide)).trans (V20_main_arg12 V)
theorem V21_main_arg13 (V : Valuation τ sig (Elt F)) : V21 V (Proc.devRef .tc main_arg13) = V (Proc.devRef .tc main_arg13) :=
  (chunk21_frame (r := main_arg13) (V20 V) (by decide)).trans (V20_main_arg13 V)
theorem V21_main_arg14 (V : Valuation τ sig (Elt F)) : V21 V (Proc.devRef .tc main_arg14) = V (Proc.devRef .tc main_arg14) :=
  (chunk21_frame (r := main_arg14) (V20 V) (by decide)).trans (V20_main_arg14 V)
theorem V21_main_arg15 (V : Valuation τ sig (Elt F)) : V21 V (Proc.devRef .tc main_arg15) = V (Proc.devRef .tc main_arg15) :=
  (chunk21_frame (r := main_arg15) (V20 V) (by decide)).trans (V20_main_arg15 V)
theorem V21_main_arg16 (V : Valuation τ sig (Elt F)) : V21 V (Proc.devRef .tc main_arg16) = V (Proc.devRef .tc main_arg16) :=
  (chunk21_frame (r := main_arg16) (V20 V) (by decide)).trans (V20_main_arg16 V)
theorem V21_main_arg17 (V : Valuation τ sig (Elt F)) : V21 V (Proc.devRef .tc main_arg17) = V (Proc.devRef .tc main_arg17) :=
  (chunk21_frame (r := main_arg17) (V20 V) (by decide)).trans (V20_main_arg17 V)
theorem V21_main_arg18 (V : Valuation τ sig (Elt F)) : V21 V (Proc.devRef .tc main_arg18) = V (Proc.devRef .tc main_arg18) :=
  (chunk21_frame (r := main_arg18) (V20 V) (by decide)).trans (V20_main_arg18 V)
theorem V21_main_arg19 (V : Valuation τ sig (Elt F)) : V21 V (Proc.devRef .tc main_arg19) = V (Proc.devRef .tc main_arg19) :=
  (chunk21_frame (r := main_arg19) (V20 V) (by decide)).trans (V20_main_arg19 V)
theorem V21_main_v3 (V : Valuation τ sig (Elt F)) : V21 V (Proc.devRef .tc main_v3) = ReadP.val_main_v3 (F := F) (V (Proc.devRef .tc main_arg1)) :=
  (chunk21_frame (r := main_v3) (V20 V) (by decide)).trans (V20_main_v3 V)
theorem V21_main_v7 (V : Valuation τ sig (Elt F)) : V21 V (Proc.devRef .tc main_v7) = ReadP.val_main_v7 (F := F) (V (Proc.devRef .tc main_arg1)) :=
  (chunk21_frame (r := main_v7) (V20 V) (by decide)).trans (V20_main_v7 V)
theorem V21_main_v30 (V : Valuation τ sig (Elt F)) : V21 V (Proc.devRef .tc main_v30) = ReadP.val_main_v30 (F := F) (V (Proc.devRef .tc main_arg1)) :=
  (chunk21_frame (r := main_v30) (V20 V) (by decide)).trans (V20_main_v30 V)
theorem V21_main_v177 (V : Valuation τ sig (Elt F)) : V21 V (Proc.devRef .tc main_v177) = ReadP.val_main_v177 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg14)) (V (Proc.devRef .tc main_arg15)) (V (Proc.devRef .tc main_arg16)) (V (Proc.devRef .tc main_arg17)) :=
  (chunk21_frame (r := main_v177) (V20 V) (by decide)).trans (V20_main_v177 V)
theorem V21_main_v180 (V : Valuation τ sig (Elt F)) : V21 V (Proc.devRef .tc main_v180) = ReadP.val_main_v180 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg14)) (V (Proc.devRef .tc main_arg15)) (V (Proc.devRef .tc main_arg16)) (V (Proc.devRef .tc main_arg17)) :=
  c21_main_v180 (V20 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg14)) (V (Proc.devRef .tc main_arg15)) (V (Proc.devRef .tc main_arg16)) (V (Proc.devRef .tc main_arg17)) (V20_main_v177 V)
theorem V21_main_v185 (V : Valuation τ sig (Elt F)) : V21 V (Proc.devRef .tc main_v185) = ReadP.val_main_v185 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg14)) (V (Proc.devRef .tc main_arg15)) (V (Proc.devRef .tc main_arg16)) (V (Proc.devRef .tc main_arg17)) :=
  c21_main_v185 (V20 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg14)) (V (Proc.devRef .tc main_arg15)) (V (Proc.devRef .tc main_arg16)) (V (Proc.devRef .tc main_arg17)) (V20_main_v177 V)
theorem V21_main_cst_36 (V : Valuation τ sig (Elt F)) : V21 V (Proc.devRef .tc main_cst_36) = ReadP.val_main_cst_36 (F := F) :=
  c21_main_cst_36 (V20 V)

/-! ### After list 22 -/

theorem V22_main_arg0 (V : Valuation τ sig (Elt F)) : V22 V (Proc.devRef .tc main_arg0) = V (Proc.devRef .tc main_arg0) :=
  (chunk22_frame (r := main_arg0) (V21 V) (by decide)).trans (V21_main_arg0 V)
theorem V22_main_arg1 (V : Valuation τ sig (Elt F)) : V22 V (Proc.devRef .tc main_arg1) = V (Proc.devRef .tc main_arg1) :=
  (chunk22_frame (r := main_arg1) (V21 V) (by decide)).trans (V21_main_arg1 V)
theorem V22_main_arg2 (V : Valuation τ sig (Elt F)) : V22 V (Proc.devRef .tc main_arg2) = V (Proc.devRef .tc main_arg2) :=
  (chunk22_frame (r := main_arg2) (V21 V) (by decide)).trans (V21_main_arg2 V)
theorem V22_main_arg3 (V : Valuation τ sig (Elt F)) : V22 V (Proc.devRef .tc main_arg3) = V (Proc.devRef .tc main_arg3) :=
  (chunk22_frame (r := main_arg3) (V21 V) (by decide)).trans (V21_main_arg3 V)
theorem V22_main_arg4 (V : Valuation τ sig (Elt F)) : V22 V (Proc.devRef .tc main_arg4) = V (Proc.devRef .tc main_arg4) :=
  (chunk22_frame (r := main_arg4) (V21 V) (by decide)).trans (V21_main_arg4 V)
theorem V22_main_arg5 (V : Valuation τ sig (Elt F)) : V22 V (Proc.devRef .tc main_arg5) = V (Proc.devRef .tc main_arg5) :=
  (chunk22_frame (r := main_arg5) (V21 V) (by decide)).trans (V21_main_arg5 V)
theorem V22_main_arg6 (V : Valuation τ sig (Elt F)) : V22 V (Proc.devRef .tc main_arg6) = V (Proc.devRef .tc main_arg6) :=
  (chunk22_frame (r := main_arg6) (V21 V) (by decide)).trans (V21_main_arg6 V)
theorem V22_main_arg7 (V : Valuation τ sig (Elt F)) : V22 V (Proc.devRef .tc main_arg7) = V (Proc.devRef .tc main_arg7) :=
  (chunk22_frame (r := main_arg7) (V21 V) (by decide)).trans (V21_main_arg7 V)
theorem V22_main_arg8 (V : Valuation τ sig (Elt F)) : V22 V (Proc.devRef .tc main_arg8) = V (Proc.devRef .tc main_arg8) :=
  (chunk22_frame (r := main_arg8) (V21 V) (by decide)).trans (V21_main_arg8 V)
theorem V22_main_arg9 (V : Valuation τ sig (Elt F)) : V22 V (Proc.devRef .tc main_arg9) = V (Proc.devRef .tc main_arg9) :=
  (chunk22_frame (r := main_arg9) (V21 V) (by decide)).trans (V21_main_arg9 V)
theorem V22_main_arg10 (V : Valuation τ sig (Elt F)) : V22 V (Proc.devRef .tc main_arg10) = V (Proc.devRef .tc main_arg10) :=
  (chunk22_frame (r := main_arg10) (V21 V) (by decide)).trans (V21_main_arg10 V)
theorem V22_main_arg11 (V : Valuation τ sig (Elt F)) : V22 V (Proc.devRef .tc main_arg11) = V (Proc.devRef .tc main_arg11) :=
  (chunk22_frame (r := main_arg11) (V21 V) (by decide)).trans (V21_main_arg11 V)
theorem V22_main_arg12 (V : Valuation τ sig (Elt F)) : V22 V (Proc.devRef .tc main_arg12) = V (Proc.devRef .tc main_arg12) :=
  (chunk22_frame (r := main_arg12) (V21 V) (by decide)).trans (V21_main_arg12 V)
theorem V22_main_arg13 (V : Valuation τ sig (Elt F)) : V22 V (Proc.devRef .tc main_arg13) = V (Proc.devRef .tc main_arg13) :=
  (chunk22_frame (r := main_arg13) (V21 V) (by decide)).trans (V21_main_arg13 V)
theorem V22_main_arg14 (V : Valuation τ sig (Elt F)) : V22 V (Proc.devRef .tc main_arg14) = V (Proc.devRef .tc main_arg14) :=
  (chunk22_frame (r := main_arg14) (V21 V) (by decide)).trans (V21_main_arg14 V)
theorem V22_main_arg15 (V : Valuation τ sig (Elt F)) : V22 V (Proc.devRef .tc main_arg15) = V (Proc.devRef .tc main_arg15) :=
  (chunk22_frame (r := main_arg15) (V21 V) (by decide)).trans (V21_main_arg15 V)
theorem V22_main_arg16 (V : Valuation τ sig (Elt F)) : V22 V (Proc.devRef .tc main_arg16) = V (Proc.devRef .tc main_arg16) :=
  (chunk22_frame (r := main_arg16) (V21 V) (by decide)).trans (V21_main_arg16 V)
theorem V22_main_arg17 (V : Valuation τ sig (Elt F)) : V22 V (Proc.devRef .tc main_arg17) = V (Proc.devRef .tc main_arg17) :=
  (chunk22_frame (r := main_arg17) (V21 V) (by decide)).trans (V21_main_arg17 V)
theorem V22_main_arg18 (V : Valuation τ sig (Elt F)) : V22 V (Proc.devRef .tc main_arg18) = V (Proc.devRef .tc main_arg18) :=
  (chunk22_frame (r := main_arg18) (V21 V) (by decide)).trans (V21_main_arg18 V)
theorem V22_main_arg19 (V : Valuation τ sig (Elt F)) : V22 V (Proc.devRef .tc main_arg19) = V (Proc.devRef .tc main_arg19) :=
  (chunk22_frame (r := main_arg19) (V21 V) (by decide)).trans (V21_main_arg19 V)
theorem V22_main_v3 (V : Valuation τ sig (Elt F)) : V22 V (Proc.devRef .tc main_v3) = ReadP.val_main_v3 (F := F) (V (Proc.devRef .tc main_arg1)) :=
  (chunk22_frame (r := main_v3) (V21 V) (by decide)).trans (V21_main_v3 V)
theorem V22_main_v7 (V : Valuation τ sig (Elt F)) : V22 V (Proc.devRef .tc main_v7) = ReadP.val_main_v7 (F := F) (V (Proc.devRef .tc main_arg1)) :=
  (chunk22_frame (r := main_v7) (V21 V) (by decide)).trans (V21_main_v7 V)
theorem V22_main_v30 (V : Valuation τ sig (Elt F)) : V22 V (Proc.devRef .tc main_v30) = ReadP.val_main_v30 (F := F) (V (Proc.devRef .tc main_arg1)) :=
  (chunk22_frame (r := main_v30) (V21 V) (by decide)).trans (V21_main_v30 V)
theorem V22_main_v196 (V : Valuation τ sig (Elt F)) : V22 V (Proc.devRef .tc main_v196) = ReadP.val_main_v196 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg14)) (V (Proc.devRef .tc main_arg15)) (V (Proc.devRef .tc main_arg16)) (V (Proc.devRef .tc main_arg17)) :=
  c22_main_v196 (V21 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg14)) (V (Proc.devRef .tc main_arg15)) (V (Proc.devRef .tc main_arg16)) (V (Proc.devRef .tc main_arg17)) (V21_main_v177 V) (V21_main_v180 V) (V21_main_v185 V) (V21_main_cst_36 V)

/-! ### After list 23 -/

theorem V23_main_arg0 (V : Valuation τ sig (Elt F)) : V23 V (Proc.devRef .tc main_arg0) = V (Proc.devRef .tc main_arg0) :=
  (chunk23_frame (r := main_arg0) (V22 V) (by decide)).trans (V22_main_arg0 V)
theorem V23_main_arg1 (V : Valuation τ sig (Elt F)) : V23 V (Proc.devRef .tc main_arg1) = V (Proc.devRef .tc main_arg1) :=
  (chunk23_frame (r := main_arg1) (V22 V) (by decide)).trans (V22_main_arg1 V)
theorem V23_main_arg2 (V : Valuation τ sig (Elt F)) : V23 V (Proc.devRef .tc main_arg2) = V (Proc.devRef .tc main_arg2) :=
  (chunk23_frame (r := main_arg2) (V22 V) (by decide)).trans (V22_main_arg2 V)
theorem V23_main_arg3 (V : Valuation τ sig (Elt F)) : V23 V (Proc.devRef .tc main_arg3) = V (Proc.devRef .tc main_arg3) :=
  (chunk23_frame (r := main_arg3) (V22 V) (by decide)).trans (V22_main_arg3 V)
theorem V23_main_arg4 (V : Valuation τ sig (Elt F)) : V23 V (Proc.devRef .tc main_arg4) = V (Proc.devRef .tc main_arg4) :=
  (chunk23_frame (r := main_arg4) (V22 V) (by decide)).trans (V22_main_arg4 V)
theorem V23_main_arg5 (V : Valuation τ sig (Elt F)) : V23 V (Proc.devRef .tc main_arg5) = V (Proc.devRef .tc main_arg5) :=
  (chunk23_frame (r := main_arg5) (V22 V) (by decide)).trans (V22_main_arg5 V)
theorem V23_main_arg6 (V : Valuation τ sig (Elt F)) : V23 V (Proc.devRef .tc main_arg6) = V (Proc.devRef .tc main_arg6) :=
  (chunk23_frame (r := main_arg6) (V22 V) (by decide)).trans (V22_main_arg6 V)
theorem V23_main_arg7 (V : Valuation τ sig (Elt F)) : V23 V (Proc.devRef .tc main_arg7) = V (Proc.devRef .tc main_arg7) :=
  (chunk23_frame (r := main_arg7) (V22 V) (by decide)).trans (V22_main_arg7 V)
theorem V23_main_arg8 (V : Valuation τ sig (Elt F)) : V23 V (Proc.devRef .tc main_arg8) = V (Proc.devRef .tc main_arg8) :=
  (chunk23_frame (r := main_arg8) (V22 V) (by decide)).trans (V22_main_arg8 V)
theorem V23_main_arg9 (V : Valuation τ sig (Elt F)) : V23 V (Proc.devRef .tc main_arg9) = V (Proc.devRef .tc main_arg9) :=
  (chunk23_frame (r := main_arg9) (V22 V) (by decide)).trans (V22_main_arg9 V)
theorem V23_main_arg10 (V : Valuation τ sig (Elt F)) : V23 V (Proc.devRef .tc main_arg10) = V (Proc.devRef .tc main_arg10) :=
  (chunk23_frame (r := main_arg10) (V22 V) (by decide)).trans (V22_main_arg10 V)
theorem V23_main_arg11 (V : Valuation τ sig (Elt F)) : V23 V (Proc.devRef .tc main_arg11) = V (Proc.devRef .tc main_arg11) :=
  (chunk23_frame (r := main_arg11) (V22 V) (by decide)).trans (V22_main_arg11 V)
theorem V23_main_arg12 (V : Valuation τ sig (Elt F)) : V23 V (Proc.devRef .tc main_arg12) = V (Proc.devRef .tc main_arg12) :=
  (chunk23_frame (r := main_arg12) (V22 V) (by decide)).trans (V22_main_arg12 V)
theorem V23_main_arg13 (V : Valuation τ sig (Elt F)) : V23 V (Proc.devRef .tc main_arg13) = V (Proc.devRef .tc main_arg13) :=
  (chunk23_frame (r := main_arg13) (V22 V) (by decide)).trans (V22_main_arg13 V)
theorem V23_main_arg14 (V : Valuation τ sig (Elt F)) : V23 V (Proc.devRef .tc main_arg14) = V (Proc.devRef .tc main_arg14) :=
  (chunk23_frame (r := main_arg14) (V22 V) (by decide)).trans (V22_main_arg14 V)
theorem V23_main_arg15 (V : Valuation τ sig (Elt F)) : V23 V (Proc.devRef .tc main_arg15) = V (Proc.devRef .tc main_arg15) :=
  (chunk23_frame (r := main_arg15) (V22 V) (by decide)).trans (V22_main_arg15 V)
theorem V23_main_arg16 (V : Valuation τ sig (Elt F)) : V23 V (Proc.devRef .tc main_arg16) = V (Proc.devRef .tc main_arg16) :=
  (chunk23_frame (r := main_arg16) (V22 V) (by decide)).trans (V22_main_arg16 V)
theorem V23_main_arg17 (V : Valuation τ sig (Elt F)) : V23 V (Proc.devRef .tc main_arg17) = V (Proc.devRef .tc main_arg17) :=
  (chunk23_frame (r := main_arg17) (V22 V) (by decide)).trans (V22_main_arg17 V)
theorem V23_main_arg18 (V : Valuation τ sig (Elt F)) : V23 V (Proc.devRef .tc main_arg18) = V (Proc.devRef .tc main_arg18) :=
  (chunk23_frame (r := main_arg18) (V22 V) (by decide)).trans (V22_main_arg18 V)
theorem V23_main_arg19 (V : Valuation τ sig (Elt F)) : V23 V (Proc.devRef .tc main_arg19) = V (Proc.devRef .tc main_arg19) :=
  (chunk23_frame (r := main_arg19) (V22 V) (by decide)).trans (V22_main_arg19 V)
theorem V23_main_v3 (V : Valuation τ sig (Elt F)) : V23 V (Proc.devRef .tc main_v3) = ReadP.val_main_v3 (F := F) (V (Proc.devRef .tc main_arg1)) :=
  (chunk23_frame (r := main_v3) (V22 V) (by decide)).trans (V22_main_v3 V)
theorem V23_main_v7 (V : Valuation τ sig (Elt F)) : V23 V (Proc.devRef .tc main_v7) = ReadP.val_main_v7 (F := F) (V (Proc.devRef .tc main_arg1)) :=
  (chunk23_frame (r := main_v7) (V22 V) (by decide)).trans (V22_main_v7 V)
theorem V23_main_v30 (V : Valuation τ sig (Elt F)) : V23 V (Proc.devRef .tc main_v30) = ReadP.val_main_v30 (F := F) (V (Proc.devRef .tc main_arg1)) :=
  (chunk23_frame (r := main_v30) (V22 V) (by decide)).trans (V22_main_v30 V)
theorem V23_main_v203 (V : Valuation τ sig (Elt F)) : V23 V (Proc.devRef .tc main_v203) = ReadP.val_main_v203 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) :=
  c23_main_v203 (V22 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V22_main_v196 V) (V22_main_arg18 V) (V22_main_arg19 V) (V22_main_arg10 V)
theorem V23_main_v205 (V : Valuation τ sig (Elt F)) : V23 V (Proc.devRef .tc main_v205) = ReadP.val_main_v205 (F := F) (V (Proc.devRef .tc main_arg1)) :=
  c23_main_v205 (V22 V) (V (Proc.devRef .tc main_arg1)) (V22_main_v3 V)
theorem V23_main_v206 (V : Valuation τ sig (Elt F)) : V23 V (Proc.devRef .tc main_v206) = ReadP.val_main_v206 (F := F) :=
  c23_main_v206 (V22 V)

/-! ### After list 24 -/

theorem V24_main_arg0 (V : Valuation τ sig (Elt F)) : V24 V (Proc.devRef .tc main_arg0) = V (Proc.devRef .tc main_arg0) :=
  (chunk24_frame (r := main_arg0) (V23 V) (by decide)).trans (V23_main_arg0 V)
theorem V24_main_arg1 (V : Valuation τ sig (Elt F)) : V24 V (Proc.devRef .tc main_arg1) = V (Proc.devRef .tc main_arg1) :=
  (chunk24_frame (r := main_arg1) (V23 V) (by decide)).trans (V23_main_arg1 V)
theorem V24_main_arg2 (V : Valuation τ sig (Elt F)) : V24 V (Proc.devRef .tc main_arg2) = V (Proc.devRef .tc main_arg2) :=
  (chunk24_frame (r := main_arg2) (V23 V) (by decide)).trans (V23_main_arg2 V)
theorem V24_main_arg3 (V : Valuation τ sig (Elt F)) : V24 V (Proc.devRef .tc main_arg3) = V (Proc.devRef .tc main_arg3) :=
  (chunk24_frame (r := main_arg3) (V23 V) (by decide)).trans (V23_main_arg3 V)
theorem V24_main_arg4 (V : Valuation τ sig (Elt F)) : V24 V (Proc.devRef .tc main_arg4) = V (Proc.devRef .tc main_arg4) :=
  (chunk24_frame (r := main_arg4) (V23 V) (by decide)).trans (V23_main_arg4 V)
theorem V24_main_arg5 (V : Valuation τ sig (Elt F)) : V24 V (Proc.devRef .tc main_arg5) = V (Proc.devRef .tc main_arg5) :=
  (chunk24_frame (r := main_arg5) (V23 V) (by decide)).trans (V23_main_arg5 V)
theorem V24_main_arg6 (V : Valuation τ sig (Elt F)) : V24 V (Proc.devRef .tc main_arg6) = V (Proc.devRef .tc main_arg6) :=
  (chunk24_frame (r := main_arg6) (V23 V) (by decide)).trans (V23_main_arg6 V)
theorem V24_main_arg7 (V : Valuation τ sig (Elt F)) : V24 V (Proc.devRef .tc main_arg7) = V (Proc.devRef .tc main_arg7) :=
  (chunk24_frame (r := main_arg7) (V23 V) (by decide)).trans (V23_main_arg7 V)
theorem V24_main_arg8 (V : Valuation τ sig (Elt F)) : V24 V (Proc.devRef .tc main_arg8) = V (Proc.devRef .tc main_arg8) :=
  (chunk24_frame (r := main_arg8) (V23 V) (by decide)).trans (V23_main_arg8 V)
theorem V24_main_arg9 (V : Valuation τ sig (Elt F)) : V24 V (Proc.devRef .tc main_arg9) = V (Proc.devRef .tc main_arg9) :=
  (chunk24_frame (r := main_arg9) (V23 V) (by decide)).trans (V23_main_arg9 V)
theorem V24_main_arg10 (V : Valuation τ sig (Elt F)) : V24 V (Proc.devRef .tc main_arg10) = V (Proc.devRef .tc main_arg10) :=
  (chunk24_frame (r := main_arg10) (V23 V) (by decide)).trans (V23_main_arg10 V)
theorem V24_main_arg11 (V : Valuation τ sig (Elt F)) : V24 V (Proc.devRef .tc main_arg11) = V (Proc.devRef .tc main_arg11) :=
  (chunk24_frame (r := main_arg11) (V23 V) (by decide)).trans (V23_main_arg11 V)
theorem V24_main_arg12 (V : Valuation τ sig (Elt F)) : V24 V (Proc.devRef .tc main_arg12) = V (Proc.devRef .tc main_arg12) :=
  (chunk24_frame (r := main_arg12) (V23 V) (by decide)).trans (V23_main_arg12 V)
theorem V24_main_arg13 (V : Valuation τ sig (Elt F)) : V24 V (Proc.devRef .tc main_arg13) = V (Proc.devRef .tc main_arg13) :=
  (chunk24_frame (r := main_arg13) (V23 V) (by decide)).trans (V23_main_arg13 V)
theorem V24_main_arg14 (V : Valuation τ sig (Elt F)) : V24 V (Proc.devRef .tc main_arg14) = V (Proc.devRef .tc main_arg14) :=
  (chunk24_frame (r := main_arg14) (V23 V) (by decide)).trans (V23_main_arg14 V)
theorem V24_main_arg15 (V : Valuation τ sig (Elt F)) : V24 V (Proc.devRef .tc main_arg15) = V (Proc.devRef .tc main_arg15) :=
  (chunk24_frame (r := main_arg15) (V23 V) (by decide)).trans (V23_main_arg15 V)
theorem V24_main_arg16 (V : Valuation τ sig (Elt F)) : V24 V (Proc.devRef .tc main_arg16) = V (Proc.devRef .tc main_arg16) :=
  (chunk24_frame (r := main_arg16) (V23 V) (by decide)).trans (V23_main_arg16 V)
theorem V24_main_arg17 (V : Valuation τ sig (Elt F)) : V24 V (Proc.devRef .tc main_arg17) = V (Proc.devRef .tc main_arg17) :=
  (chunk24_frame (r := main_arg17) (V23 V) (by decide)).trans (V23_main_arg17 V)
theorem V24_main_arg18 (V : Valuation τ sig (Elt F)) : V24 V (Proc.devRef .tc main_arg18) = V (Proc.devRef .tc main_arg18) :=
  (chunk24_frame (r := main_arg18) (V23 V) (by decide)).trans (V23_main_arg18 V)
theorem V24_main_arg19 (V : Valuation τ sig (Elt F)) : V24 V (Proc.devRef .tc main_arg19) = V (Proc.devRef .tc main_arg19) :=
  (chunk24_frame (r := main_arg19) (V23 V) (by decide)).trans (V23_main_arg19 V)
theorem V24_main_v216 (V : Valuation τ sig (Elt F)) : V24 V (Proc.devRef .tc main_v216) = ReadP.val_main_v216 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) :=
  c24_main_v216 (V23 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V23_main_v7 V) (V23_main_v203 V) (V23_main_v205 V) (V23_main_v3 V) (V23_main_v206 V) (V23_main_v30 V)
theorem V24_main_v217 (V : Valuation τ sig (Elt F)) : V24 V (Proc.devRef .tc main_v217) = ReadP.val_main_v217 (F := F) (V (Proc.devRef .tc main_arg11)) :=
  c24_main_v217 (V23 V) (V (Proc.devRef .tc main_arg11)) (V23_main_arg11 V)

/-! ### After list 25 -/

theorem V25_main_arg0 (V : Valuation τ sig (Elt F)) : V25 V (Proc.devRef .tc main_arg0) = V (Proc.devRef .tc main_arg0) :=
  (chunk25_frame (r := main_arg0) (V24 V) (by decide)).trans (V24_main_arg0 V)
theorem V25_main_arg1 (V : Valuation τ sig (Elt F)) : V25 V (Proc.devRef .tc main_arg1) = V (Proc.devRef .tc main_arg1) :=
  (chunk25_frame (r := main_arg1) (V24 V) (by decide)).trans (V24_main_arg1 V)
theorem V25_main_arg2 (V : Valuation τ sig (Elt F)) : V25 V (Proc.devRef .tc main_arg2) = V (Proc.devRef .tc main_arg2) :=
  (chunk25_frame (r := main_arg2) (V24 V) (by decide)).trans (V24_main_arg2 V)
theorem V25_main_arg3 (V : Valuation τ sig (Elt F)) : V25 V (Proc.devRef .tc main_arg3) = V (Proc.devRef .tc main_arg3) :=
  (chunk25_frame (r := main_arg3) (V24 V) (by decide)).trans (V24_main_arg3 V)
theorem V25_main_arg4 (V : Valuation τ sig (Elt F)) : V25 V (Proc.devRef .tc main_arg4) = V (Proc.devRef .tc main_arg4) :=
  (chunk25_frame (r := main_arg4) (V24 V) (by decide)).trans (V24_main_arg4 V)
theorem V25_main_arg5 (V : Valuation τ sig (Elt F)) : V25 V (Proc.devRef .tc main_arg5) = V (Proc.devRef .tc main_arg5) :=
  (chunk25_frame (r := main_arg5) (V24 V) (by decide)).trans (V24_main_arg5 V)
theorem V25_main_arg6 (V : Valuation τ sig (Elt F)) : V25 V (Proc.devRef .tc main_arg6) = V (Proc.devRef .tc main_arg6) :=
  (chunk25_frame (r := main_arg6) (V24 V) (by decide)).trans (V24_main_arg6 V)
theorem V25_main_arg7 (V : Valuation τ sig (Elt F)) : V25 V (Proc.devRef .tc main_arg7) = V (Proc.devRef .tc main_arg7) :=
  (chunk25_frame (r := main_arg7) (V24 V) (by decide)).trans (V24_main_arg7 V)
theorem V25_main_arg8 (V : Valuation τ sig (Elt F)) : V25 V (Proc.devRef .tc main_arg8) = V (Proc.devRef .tc main_arg8) :=
  (chunk25_frame (r := main_arg8) (V24 V) (by decide)).trans (V24_main_arg8 V)
theorem V25_main_arg9 (V : Valuation τ sig (Elt F)) : V25 V (Proc.devRef .tc main_arg9) = V (Proc.devRef .tc main_arg9) :=
  (chunk25_frame (r := main_arg9) (V24 V) (by decide)).trans (V24_main_arg9 V)
theorem V25_main_arg10 (V : Valuation τ sig (Elt F)) : V25 V (Proc.devRef .tc main_arg10) = V (Proc.devRef .tc main_arg10) :=
  (chunk25_frame (r := main_arg10) (V24 V) (by decide)).trans (V24_main_arg10 V)
theorem V25_main_arg11 (V : Valuation τ sig (Elt F)) : V25 V (Proc.devRef .tc main_arg11) = V (Proc.devRef .tc main_arg11) :=
  (chunk25_frame (r := main_arg11) (V24 V) (by decide)).trans (V24_main_arg11 V)
theorem V25_main_arg12 (V : Valuation τ sig (Elt F)) : V25 V (Proc.devRef .tc main_arg12) = V (Proc.devRef .tc main_arg12) :=
  (chunk25_frame (r := main_arg12) (V24 V) (by decide)).trans (V24_main_arg12 V)
theorem V25_main_arg13 (V : Valuation τ sig (Elt F)) : V25 V (Proc.devRef .tc main_arg13) = V (Proc.devRef .tc main_arg13) :=
  (chunk25_frame (r := main_arg13) (V24 V) (by decide)).trans (V24_main_arg13 V)
theorem V25_main_arg14 (V : Valuation τ sig (Elt F)) : V25 V (Proc.devRef .tc main_arg14) = V (Proc.devRef .tc main_arg14) :=
  (chunk25_frame (r := main_arg14) (V24 V) (by decide)).trans (V24_main_arg14 V)
theorem V25_main_arg15 (V : Valuation τ sig (Elt F)) : V25 V (Proc.devRef .tc main_arg15) = V (Proc.devRef .tc main_arg15) :=
  (chunk25_frame (r := main_arg15) (V24 V) (by decide)).trans (V24_main_arg15 V)
theorem V25_main_arg16 (V : Valuation τ sig (Elt F)) : V25 V (Proc.devRef .tc main_arg16) = V (Proc.devRef .tc main_arg16) :=
  (chunk25_frame (r := main_arg16) (V24 V) (by decide)).trans (V24_main_arg16 V)
theorem V25_main_arg17 (V : Valuation τ sig (Elt F)) : V25 V (Proc.devRef .tc main_arg17) = V (Proc.devRef .tc main_arg17) :=
  (chunk25_frame (r := main_arg17) (V24 V) (by decide)).trans (V24_main_arg17 V)
theorem V25_main_arg18 (V : Valuation τ sig (Elt F)) : V25 V (Proc.devRef .tc main_arg18) = V (Proc.devRef .tc main_arg18) :=
  (chunk25_frame (r := main_arg18) (V24 V) (by decide)).trans (V24_main_arg18 V)
theorem V25_main_arg19 (V : Valuation τ sig (Elt F)) : V25 V (Proc.devRef .tc main_arg19) = V (Proc.devRef .tc main_arg19) :=
  (chunk25_frame (r := main_arg19) (V24 V) (by decide)).trans (V24_main_arg19 V)
theorem V25_main_call5_v5 (V : Valuation τ sig (Elt F)) : V25 V (Proc.devRef .tc main_call5_v5) = ReadP.val_main_call5_v5 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) :=
  c25_main_call5_v5 (V24 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V24_main_v216 V) (V24_main_v217 V)
theorem V25_main_call5_v6 (V : Valuation τ sig (Elt F)) : V25 V (Proc.devRef .tc main_call5_v6) = ReadP.val_main_call5_v6 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) :=
  c25_main_call5_v6 (V24 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V24_main_v216 V) (V24_main_v217 V)
theorem V25_main_call5_cst_1 (V : Valuation τ sig (Elt F)) : V25 V (Proc.devRef .tc main_call5_cst_1) = ReadP.val_main_call5_cst_1 (F := F) :=
  c25_main_call5_cst_1 (V24 V)

/-! ### After list 26 -/

theorem V26_main_arg0 (V : Valuation τ sig (Elt F)) : V26 V (Proc.devRef .tc main_arg0) = V (Proc.devRef .tc main_arg0) :=
  (chunk26_frame (r := main_arg0) (V25 V) (by decide)).trans (V25_main_arg0 V)
theorem V26_main_arg1 (V : Valuation τ sig (Elt F)) : V26 V (Proc.devRef .tc main_arg1) = V (Proc.devRef .tc main_arg1) :=
  (chunk26_frame (r := main_arg1) (V25 V) (by decide)).trans (V25_main_arg1 V)
theorem V26_main_arg2 (V : Valuation τ sig (Elt F)) : V26 V (Proc.devRef .tc main_arg2) = V (Proc.devRef .tc main_arg2) :=
  (chunk26_frame (r := main_arg2) (V25 V) (by decide)).trans (V25_main_arg2 V)
theorem V26_main_arg3 (V : Valuation τ sig (Elt F)) : V26 V (Proc.devRef .tc main_arg3) = V (Proc.devRef .tc main_arg3) :=
  (chunk26_frame (r := main_arg3) (V25 V) (by decide)).trans (V25_main_arg3 V)
theorem V26_main_arg4 (V : Valuation τ sig (Elt F)) : V26 V (Proc.devRef .tc main_arg4) = V (Proc.devRef .tc main_arg4) :=
  (chunk26_frame (r := main_arg4) (V25 V) (by decide)).trans (V25_main_arg4 V)
theorem V26_main_arg5 (V : Valuation τ sig (Elt F)) : V26 V (Proc.devRef .tc main_arg5) = V (Proc.devRef .tc main_arg5) :=
  (chunk26_frame (r := main_arg5) (V25 V) (by decide)).trans (V25_main_arg5 V)
theorem V26_main_arg6 (V : Valuation τ sig (Elt F)) : V26 V (Proc.devRef .tc main_arg6) = V (Proc.devRef .tc main_arg6) :=
  (chunk26_frame (r := main_arg6) (V25 V) (by decide)).trans (V25_main_arg6 V)
theorem V26_main_arg7 (V : Valuation τ sig (Elt F)) : V26 V (Proc.devRef .tc main_arg7) = V (Proc.devRef .tc main_arg7) :=
  (chunk26_frame (r := main_arg7) (V25 V) (by decide)).trans (V25_main_arg7 V)
theorem V26_main_arg8 (V : Valuation τ sig (Elt F)) : V26 V (Proc.devRef .tc main_arg8) = V (Proc.devRef .tc main_arg8) :=
  (chunk26_frame (r := main_arg8) (V25 V) (by decide)).trans (V25_main_arg8 V)
theorem V26_main_arg9 (V : Valuation τ sig (Elt F)) : V26 V (Proc.devRef .tc main_arg9) = V (Proc.devRef .tc main_arg9) :=
  (chunk26_frame (r := main_arg9) (V25 V) (by decide)).trans (V25_main_arg9 V)
theorem V26_main_arg10 (V : Valuation τ sig (Elt F)) : V26 V (Proc.devRef .tc main_arg10) = V (Proc.devRef .tc main_arg10) :=
  (chunk26_frame (r := main_arg10) (V25 V) (by decide)).trans (V25_main_arg10 V)
theorem V26_main_arg11 (V : Valuation τ sig (Elt F)) : V26 V (Proc.devRef .tc main_arg11) = V (Proc.devRef .tc main_arg11) :=
  (chunk26_frame (r := main_arg11) (V25 V) (by decide)).trans (V25_main_arg11 V)
theorem V26_main_arg12 (V : Valuation τ sig (Elt F)) : V26 V (Proc.devRef .tc main_arg12) = V (Proc.devRef .tc main_arg12) :=
  (chunk26_frame (r := main_arg12) (V25 V) (by decide)).trans (V25_main_arg12 V)
theorem V26_main_arg13 (V : Valuation τ sig (Elt F)) : V26 V (Proc.devRef .tc main_arg13) = V (Proc.devRef .tc main_arg13) :=
  (chunk26_frame (r := main_arg13) (V25 V) (by decide)).trans (V25_main_arg13 V)
theorem V26_main_arg14 (V : Valuation τ sig (Elt F)) : V26 V (Proc.devRef .tc main_arg14) = V (Proc.devRef .tc main_arg14) :=
  (chunk26_frame (r := main_arg14) (V25 V) (by decide)).trans (V25_main_arg14 V)
theorem V26_main_arg15 (V : Valuation τ sig (Elt F)) : V26 V (Proc.devRef .tc main_arg15) = V (Proc.devRef .tc main_arg15) :=
  (chunk26_frame (r := main_arg15) (V25 V) (by decide)).trans (V25_main_arg15 V)
theorem V26_main_arg16 (V : Valuation τ sig (Elt F)) : V26 V (Proc.devRef .tc main_arg16) = V (Proc.devRef .tc main_arg16) :=
  (chunk26_frame (r := main_arg16) (V25 V) (by decide)).trans (V25_main_arg16 V)
theorem V26_main_arg17 (V : Valuation τ sig (Elt F)) : V26 V (Proc.devRef .tc main_arg17) = V (Proc.devRef .tc main_arg17) :=
  (chunk26_frame (r := main_arg17) (V25 V) (by decide)).trans (V25_main_arg17 V)
theorem V26_main_arg18 (V : Valuation τ sig (Elt F)) : V26 V (Proc.devRef .tc main_arg18) = V (Proc.devRef .tc main_arg18) :=
  (chunk26_frame (r := main_arg18) (V25 V) (by decide)).trans (V25_main_arg18 V)
theorem V26_main_arg19 (V : Valuation τ sig (Elt F)) : V26 V (Proc.devRef .tc main_arg19) = V (Proc.devRef .tc main_arg19) :=
  (chunk26_frame (r := main_arg19) (V25 V) (by decide)).trans (V25_main_arg19 V)
theorem V26_main_v220 (V : Valuation τ sig (Elt F)) : V26 V (Proc.devRef .tc main_v220) = ReadP.val_main_v220 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) :=
  c26_main_v220 (V25 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V25_main_call5_v5 V) (V25_main_call5_v6 V) (V25_main_call5_cst_1 V)

/-! ### The whole program -/

/-- After all of @main's operations the result's buffer holds the last stage's value of what the arguments' buffers held. -/
theorem after_result (V : Valuation τ sig (Elt F)) :
    after (ValueP.ops (F := F)) V (Proc.devRef .tc main_v220) = ReadP.val_main_v220 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) := by
  rw [after_ops]
  exact V26_main_v220 V

/-- No operation writes argument 0. -/
theorem after_arg0 (V : Valuation τ sig (Elt F)) : after (ValueP.ops (F := F)) V (Proc.devRef .tc main_arg0) = V (Proc.devRef .tc main_arg0) := by
  rw [after_ops]
  exact V26_main_arg0 V

/-- No operation writes argument 1. -/
theorem after_arg1 (V : Valuation τ sig (Elt F)) : after (ValueP.ops (F := F)) V (Proc.devRef .tc main_arg1) = V (Proc.devRef .tc main_arg1) := by
  rw [after_ops]
  exact V26_main_arg1 V

/-- No operation writes argument 2. -/
theorem after_arg2 (V : Valuation τ sig (Elt F)) : after (ValueP.ops (F := F)) V (Proc.devRef .tc main_arg2) = V (Proc.devRef .tc main_arg2) := by
  rw [after_ops]
  exact V26_main_arg2 V

/-- No operation writes argument 3. -/
theorem after_arg3 (V : Valuation τ sig (Elt F)) : after (ValueP.ops (F := F)) V (Proc.devRef .tc main_arg3) = V (Proc.devRef .tc main_arg3) := by
  rw [after_ops]
  exact V26_main_arg3 V

/-- No operation writes argument 4. -/
theorem after_arg4 (V : Valuation τ sig (Elt F)) : after (ValueP.ops (F := F)) V (Proc.devRef .tc main_arg4) = V (Proc.devRef .tc main_arg4) := by
  rw [after_ops]
  exact V26_main_arg4 V

/-- No operation writes argument 5. -/
theorem after_arg5 (V : Valuation τ sig (Elt F)) : after (ValueP.ops (F := F)) V (Proc.devRef .tc main_arg5) = V (Proc.devRef .tc main_arg5) := by
  rw [after_ops]
  exact V26_main_arg5 V

/-- No operation writes argument 6. -/
theorem after_arg6 (V : Valuation τ sig (Elt F)) : after (ValueP.ops (F := F)) V (Proc.devRef .tc main_arg6) = V (Proc.devRef .tc main_arg6) := by
  rw [after_ops]
  exact V26_main_arg6 V

/-- No operation writes argument 7. -/
theorem after_arg7 (V : Valuation τ sig (Elt F)) : after (ValueP.ops (F := F)) V (Proc.devRef .tc main_arg7) = V (Proc.devRef .tc main_arg7) := by
  rw [after_ops]
  exact V26_main_arg7 V

/-- No operation writes argument 8. -/
theorem after_arg8 (V : Valuation τ sig (Elt F)) : after (ValueP.ops (F := F)) V (Proc.devRef .tc main_arg8) = V (Proc.devRef .tc main_arg8) := by
  rw [after_ops]
  exact V26_main_arg8 V

/-- No operation writes argument 9. -/
theorem after_arg9 (V : Valuation τ sig (Elt F)) : after (ValueP.ops (F := F)) V (Proc.devRef .tc main_arg9) = V (Proc.devRef .tc main_arg9) := by
  rw [after_ops]
  exact V26_main_arg9 V

/-- No operation writes argument 10. -/
theorem after_arg10 (V : Valuation τ sig (Elt F)) : after (ValueP.ops (F := F)) V (Proc.devRef .tc main_arg10) = V (Proc.devRef .tc main_arg10) := by
  rw [after_ops]
  exact V26_main_arg10 V

/-- No operation writes argument 11. -/
theorem after_arg11 (V : Valuation τ sig (Elt F)) : after (ValueP.ops (F := F)) V (Proc.devRef .tc main_arg11) = V (Proc.devRef .tc main_arg11) := by
  rw [after_ops]
  exact V26_main_arg11 V

/-- No operation writes argument 12. -/
theorem after_arg12 (V : Valuation τ sig (Elt F)) : after (ValueP.ops (F := F)) V (Proc.devRef .tc main_arg12) = V (Proc.devRef .tc main_arg12) := by
  rw [after_ops]
  exact V26_main_arg12 V

/-- No operation writes argument 13. -/
theorem after_arg13 (V : Valuation τ sig (Elt F)) : after (ValueP.ops (F := F)) V (Proc.devRef .tc main_arg13) = V (Proc.devRef .tc main_arg13) := by
  rw [after_ops]
  exact V26_main_arg13 V

/-- No operation writes argument 14. -/
theorem after_arg14 (V : Valuation τ sig (Elt F)) : after (ValueP.ops (F := F)) V (Proc.devRef .tc main_arg14) = V (Proc.devRef .tc main_arg14) := by
  rw [after_ops]
  exact V26_main_arg14 V

/-- No operation writes argument 15. -/
theorem after_arg15 (V : Valuation τ sig (Elt F)) : after (ValueP.ops (F := F)) V (Proc.devRef .tc main_arg15) = V (Proc.devRef .tc main_arg15) := by
  rw [after_ops]
  exact V26_main_arg15 V

/-- No operation writes argument 16. -/
theorem after_arg16 (V : Valuation τ sig (Elt F)) : after (ValueP.ops (F := F)) V (Proc.devRef .tc main_arg16) = V (Proc.devRef .tc main_arg16) := by
  rw [after_ops]
  exact V26_main_arg16 V

/-- No operation writes argument 17. -/
theorem after_arg17 (V : Valuation τ sig (Elt F)) : after (ValueP.ops (F := F)) V (Proc.devRef .tc main_arg17) = V (Proc.devRef .tc main_arg17) := by
  rw [after_ops]
  exact V26_main_arg17 V

/-- No operation writes argument 18. -/
theorem after_arg18 (V : Valuation τ sig (Elt F)) : after (ValueP.ops (F := F)) V (Proc.devRef .tc main_arg18) = V (Proc.devRef .tc main_arg18) := by
  rw [after_ops]
  exact V26_main_arg18 V

/-- No operation writes argument 19. -/
theorem after_arg19 (V : Valuation τ sig (Elt F)) : after (ValueP.ops (F := F)) V (Proc.devRef .tc main_arg19) = V (Proc.devRef .tc main_arg19) := by
  rw [after_ops]
  exact V26_main_arg19 V

/-- On every device, for any float values, from any memory with zero counters: every weakly fair execution of @main
    terminates with the result's buffer at the last stage's value of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v220) = ReadP.val_main_v220 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v220).trans (after_result (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c)),
      (h c main_arg5).trans (after_arg5 (launchContents m c)),
      (h c main_arg6).trans (after_arg6 (launchContents m c)),
      (h c main_arg7).trans (after_arg7 (launchContents m c)),
      (h c main_arg8).trans (after_arg8 (launchContents m c)),
      (h c main_arg9).trans (after_arg9 (launchContents m c)),
      (h c main_arg10).trans (after_arg10 (launchContents m c)),
      (h c main_arg11).trans (after_arg11 (launchContents m c)),
      (h c main_arg12).trans (after_arg12 (launchContents m c)),
      (h c main_arg13).trans (after_arg13 (launchContents m c)),
      (h c main_arg14).trans (after_arg14 (launchContents m c)),
      (h c main_arg15).trans (after_arg15 (launchContents m c)),
      (h c main_arg16).trans (after_arg16 (launchContents m c)),
      (h c main_arg17).trans (after_arg17 (launchContents m c)),
      (h c main_arg18).trans (after_arg18 (launchContents m c)),
      (h c main_arg19).trans (after_arg19 (launchContents m c))⟩)
    (ValueP.run_after m ρ)

end Cert.ReferenceIdeal.HandR

end
-- ==== Proof.RefRows.lean ====
/-
  Two index-driven operations of a graph convolution, read at one element.

  * GATHER OF ROWS. From a table of N rows and C columns and a column of E row numbers, the array whose row e
    is the table's row number e: element (e, f) is the table's element (r, f), where r is the e-th row number
    read as a signed integer and clamped into [0, N − 1].
  * SCATTER-ADD OF ROWS, over the extended reals. Into an array of N rows and C columns, add row e of an array
    of E rows to the row whose number is the e-th entry of a column of E row numbers. When every row number
    is in range, element (i, f) of the result is the old element plus the sum, over the rows e sent to i, of
    element (e, f) of the added array.
-/
import Idealize.ShloMosaic.Lib.ValueIdx
import Idealize.ShloMosaic.PureOps.Ideal
import Mathlib.Algebra.BigOperators.Group.Finset.Basic
import Mathlib.Algebra.BigOperators.Group.Finset.Piecewise

noncomputable section

namespace Cert.Rows

open Idealize.ShloMosaic Idealize.ShloMosaic.ValueIdx
open Finset BigOperators

/-! ### Gather of rows -/

/-- The dimension numbers of a gather of rows: the row axis collapsed and indexed, the column axis an offset
    axis of full width, the row numbers a column (index vector on axis 1). -/
abbrev gatherRows (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Element (e, f) of a gather of rows is the table at (r, f), r the e-th row number read signed and clamped. -/
theorem gatherRows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (gatherRows N E C wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ =>
    show (gatherRows N E C wf).start (ix2 e f) idx 0 + (gatherRows N E C wf).batchCoord (ix2 e f) 0
        + (gatherRows N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows N E C wf).startIndexMap from List.mem_singleton.mpr rfl)]
    have hsi : (gatherRows N E C wf).siIdx (ix2 e f) ⟨List.idxOf (0 : Fin 2) (gatherRows N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRows N E C wf).start (ix2 e f) idx 1 + (gatherRows N E C wf).batchCoord (ix2 e f) 1
        + (gatherRows N E C wf).offCoord (ix2 e f) 1 = f.val
    rw [GatherDims.batchCoord_eq_zero _ _ _ List.not_mem_nil]
    unfold GatherDims.start
    rw [dif_neg (show ¬ (1 : Fin 2) ∈ (gatherRows N E C wf).startIndexMap from
      fun h => absurd (List.mem_singleton.mp h) (show ¬ ((1 : Fin 2) = 0) by decide))]
    unfold GatherDims.offCoord
    rw [dif_pos (show (1 : Fin 2) ∈ (gatherRows N E C wf).sKept from (GatherDims.mem_sKept _ _).mpr
      ⟨fun h => absurd (List.mem_singleton.mp h) (show ¬ ((1 : Fin 2) = 0) by decide), List.not_mem_nil⟩)]
    simp only [Nat.zero_add]
    rfl

/-- When the e-th row number, read signed, is the row `r` of the table, element (e, f) is the table's (r, f). -/
theorem gatherRows_apply_of_eq {α : Type} {N E C w : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) (r : Fin N)
    (hr : (idx (ix2 e (0 : Fin 1))).toInt = (r.val : Int)) :
    Host.gather (gatherRows N E C wf) x idx (ix2 e f) = x (ix2 r f) := by
  have hN : 0 < N := Nat.lt_of_le_of_lt (Nat.zero_le _) r.isLt
  rw [gatherRows_apply hN]
  congr 1
  funext a
  match a with
  | ⟨0, _⟩ =>
    refine Fin.ext ?_
    show min (idx (ix2 e (0 : Fin 1))).toInt.toNat (N - 1) = r.val
    rw [hr]
    have := r.isLt
    omega
  | ⟨1, _⟩ => rfl

/-! ### Scatter-add of rows -/

/-- The dimension numbers of a scatter of rows: the row axis inserted and indexed, the column axis a window
    axis, the row numbers a column (index vector on axis 1). -/
abbrev scatterRows (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- When the e-th row number, read signed, is the row `tgt e`, element (e, f) of the added array lands at
    (tgt e, f). -/
theorem scatterRows_resultIdx {N E C w : Nat}
    (wf : ScatterDims.WF ⟨2, ![N, C]⟩ ⟨2, ![E, 1]⟩ ⟨2, ![E, C]⟩ [1] [0] [0] 1)
    (idx : IVec ⟨2, ![E, 1]⟩ w) (tgt : Fin E → Fin N)
    (hidx : ∀ e, (idx (ix2 e (0 : Fin 1))).toInt = ((tgt e).val : Int)) (e : Fin E) (f : Fin C) :
    (scatterRows N E C wf).resultIdx? (ix2 e f) idx = some (ix2 (tgt e) f) := by
  have h0 : (0 : Fin 2) ∈ (scatterRows N E C wf).scatterDimsToOperandDims := List.mem_singleton.mpr rfl
  have hstart0 : (scatterRows N E C wf).start (ix2 e f) idx 0 = ((tgt e).val : Int) := by
    unfold ScatterDims.start
    rw [dif_pos h0]
    have hsi : (scatterRows N E C wf).siIdx (ix2 e f)
        ⟨List.idxOf (0 : Fin 2) (scatterRows N E C wf).scatterDimsToOperandDims,
          List.idxOf_lt_length_iff.2 h0⟩ = ix2 e (0 : Fin 1) := by
      funext b; refine Fin.ext ?_
      match b with
      | ⟨0, _⟩ => rfl
      | ⟨1, _⟩ => rfl
    rw [hsi, hidx]
  have hstart1 : (scatterRows N E C wf).start (ix2 e f) idx 1 = 0 := by
    unfold ScatterDims.start
    rw [dif_neg (fun h => absurd (List.mem_singleton.mp h) (show ¬ ((1 : Fin 2) = 0) by decide))]
  have hwin0 : (scatterRows N E C wf).window (ix2 e f) 0 = 0 := by
    unfold ScatterDims.window
    rw [dif_neg (fun h => by
      have := (List.mem_filter.mp h).2
      simp at this)]
  have hwin1 : (scatterRows N E C wf).window (ix2 e f) 1 = f.val := by
    unfold ScatterDims.window
    rw [dif_pos (show (1 : Fin 2) ∈ (scatterRows N E C wf).sKept from
      List.mem_filter.mpr ⟨List.mem_finRange _, by simp⟩)]
    rfl
  unfold ScatterDims.resultIdx?
  have hall : ∀ a : Fin 2, 0 ≤ (scatterRows N E C wf).start (ix2 e f) idx a + ((scatterRows N E C wf).window (ix2 e f) a : Int)
      ∧ (scatterRows N E C wf).start (ix2 e f) idx a + ((scatterRows N E C wf).window (ix2 e f) a : Int)
        < ((⟨2, ![N, C]⟩ : Shape).size a : Int) := by
    intro a
    match a with
    | ⟨0, _⟩ =>
      show 0 ≤ (scatterRows N E C wf).start (ix2 e f) idx 0 + ((scatterRows N E C wf).window (ix2 e f) 0 : Int)
        ∧ (scatterRows N E C wf).start (ix2 e f) idx 0 + ((scatterRows N E C wf).window (ix2 e f) 0 : Int) < (N : Int)
      rw [hstart0, hwin0]
      have := (tgt e).isLt
      omega
    | ⟨1, _⟩ =>
      show 0 ≤ (scatterRows N E C wf).start (ix2 e f) idx 1 + ((scatterRows N E C wf).window (ix2 e f) 1 : Int)
        ∧ (scatterRows N E C wf).start (ix2 e f) idx 1 + ((scatterRows N E C wf).window (ix2 e f) 1 : Int) < (C : Int)
      rw [hstart1, hwin1]
      have := f.isLt
      omega
  rw [dif_pos hall]
  congr 1
  funext a
  refine Fin.ext ?_
  match a with
  | ⟨0, _⟩ =>
    show ((scatterRows N E C wf).start (ix2 e f) idx 0 + ((scatterRows N E C wf).window (ix2 e f) 0 : Int)).toNat = (tgt e).val
    rw [hstart0, hwin0]; omega
  | ⟨1, _⟩ =>
    show ((scatterRows N E C wf).start (ix2 e f) idx 1 + ((scatterRows N E C wf).window (ix2 e f) 1 : Int)).toNat = f.val
    rw [hstart1, hwin1]; omega

/-- Element (i, f) after a scatter-add of rows whose row numbers are all in range: the old element plus the sum,
    over the rows sent to i, of their element in column f. -/
theorem scatterRows_add_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (tgt : Fin E → Fin N)
    (hidx : ∀ e, (idx (ix2 e (0 : Fin 1))).toInt = ((tgt e).val : Int)) (i : Fin N) (f : Fin C) :
    Ideal.hostScatterAdd (scatterRows N E C wf) x idx upd (ix2 i f)
      = x (ix2 i f) + ∑ e : Fin E, if tgt e = i then upd (ix2 e f) else 0 := by
  unfold Ideal.hostScatterAdd
  congr 1
  rw [Finset.sum_filter, sum_idx2]
  refine Finset.sum_congr rfl fun e _ => ?_
  simp only [scatterRows_resultIdx wf idx tgt hidx]
  by_cases h : tgt e = i
  · rw [if_pos h, Finset.sum_eq_single f]
    · rw [if_pos (by rw [h])]
    · intro b _ hb
      rw [if_neg]
      intro h'
      exact hb (congrFun (Option.some.inj h') 1)
    · intro hf; exact absurd (Finset.mem_univ f) hf
  · rw [if_neg h]
    refine Finset.sum_eq_zero fun b _ => ?_
    rw [if_neg]
    intro h'
    exact h (congrFun (Option.some.inj h') 0)

end Cert.Rows

end
-- ==== Proof.RefLast.lean ====
/-
  The last layer of the reference network and its result, read at one element on real inputs.

  The reference's fifth graph convolution and its row-wise log-softmax, operation by operation:

    z   = y · W5                          (dense product, 60 → 17 columns)
    g   = rows of z at the source nodes   (one row per edge)
    u   = g scaled by the edge weight     (row e times nrm e)
    s   = zeros, plus row e of u added into the row of e's destination node
    c   = s + b5                          (the convolution's output, conv src dst y W5 b5)
    M   = row maximum of c, started from −∞, then max with −∞ once more
    d   = c − M
    S   = row sum of exp d, started from 0
    out = d − log S                       (lsm c)

  Every stage is read at an index as the coercion of a real number: the inputs are coerced reals, the index
  arrays name nodes in range, and no operation meets a corner of the extended reals (the sum of exponentials is
  positive, so its logarithm is a real). The end statement chains the earlier layers' readings into this one.
-/
import proofs.«408066_j62380105008311_2_alg».proof.Proof.RefRead
import proofs.«408066_j62380105008311_2_alg».proof.Proof.RefRows
import proofs.«408066_j62380105008311_2_alg».proof.Proof.Spec
import proofs.«408066_j62380105008311_2_alg».proof.Proof.LibCoe
import proofs.«408066_j62380105008311_2_alg».proof.Proof.LibCoe2
import proofs.«408066_j62380105008311_2_alg».proof.Proof.Inputs
import Idealize.ShloMosaic.Lib.ValueIdx
import Idealize.ShloMosaic.Lib.Affine
import Idealize.ShloMosaic.PureOps.Reduce
import Idealize.ShloMosaic.PureOps.Ideal.Laws

noncomputable section

namespace Cert.ReferenceIdeal.HandV.Last

open Cert.ReferenceIdeal Cert.ReferenceIdeal.Gen Cert.ReferenceIdeal.ReadP
open Idealize.ShloMosaic Idealize.ShloMosaic.ValueIdx
open Finset BigOperators

/-- The seventeen columns reduce along axis 1 (the witness the row folds are indexed by). -/
theorem reduces_rows17 : S10000x17.Reduces [1] S10000 := by decide

/-! ### The dense product -/

/-- %203: the product of the normalised features with the last weight matrix. -/
theorem v203_read (x0 : (⟨S10000x256, .f32⟩ : BufTy).Contents (Elt Ideal)) (x1 : (⟨S2x320000, .i32⟩ : BufTy).Contents (Elt Ideal)) (x2 : (⟨S256x220, .f32⟩ : BufTy).Contents (Elt Ideal)) (x3 : (⟨S220, .f32⟩ : BufTy).Contents (Elt Ideal)) (x4 : (⟨S220x150, .f32⟩ : BufTy).Contents (Elt Ideal)) (x5 : (⟨S150, .f32⟩ : BufTy).Contents (Elt Ideal)) (x6 : (⟨S150x100, .f32⟩ : BufTy).Contents (Elt Ideal)) (x7 : (⟨S100, .f32⟩ : BufTy).Contents (Elt Ideal)) (x8 : (⟨S100x60, .f32⟩ : BufTy).Contents (Elt Ideal)) (x9 : (⟨S60, .f32⟩ : BufTy).Contents (Elt Ideal)) (x10 : (⟨S60x17, .f32⟩ : BufTy).Contents (Elt Ideal)) (x12 : (⟨S220, .f32⟩ : BufTy).Contents (Elt Ideal)) (x13 : (⟨S220, .f32⟩ : BufTy).Contents (Elt Ideal)) (x14 : (⟨S150, .f32⟩ : BufTy).Contents (Elt Ideal)) (x15 : (⟨S150, .f32⟩ : BufTy).Contents (Elt Ideal)) (x16 : (⟨S100, .f32⟩ : BufTy).Contents (Elt Ideal)) (x17 : (⟨S100, .f32⟩ : BufTy).Contents (Elt Ideal)) (x18 : (⟨S60, .f32⟩ : BufTy).Contents (Elt Ideal)) (x19 : (⟨S60, .f32⟩ : BufTy).Contents (Elt Ideal)) (y : Fin 10000 → Fin 60 → ℝ) (W5 : Fin 60 → Fin 17 → ℝ)
    (hy : ∀ i k, val_main_v202 (F := Ideal) x0 x1 x2 x3 x4 x5 x6 x7 x8 x9 x12 x13 x14 x15 x16 x17 x18 x19 (ix2 i k) = ((y i k : ℝ) : EReal))
    (hW5 : ∀ k f, x10 (ix2 k f) = ((W5 k f : ℝ) : EReal)) (i : Fin 10000) (f : Fin 17) :
    val_main_v203 (F := Ideal) x0 x1 x2 x3 x4 x5 x6 x7 x8 x9 x10 x12 x13 x14 x15 x16 x17 x18 x19 (ix2 i f) = ((Cert.Spec.lin y W5 i f : ℝ) : EReal) := by
  rw [val_main_v203_apply]
  have hl : ∀ k : Fin 60, lidx_main_v203 (ix2 i f) k = ix2 i k := fun k => funext fun a => by
    match a with
    | ⟨0, _⟩ => rfl
    | ⟨1, _⟩ => rfl
  have hr : ∀ k : Fin 60, ridx_main_v203 (ix2 i f) k = ix2 k f := fun k => funext fun a => by
    match a with
    | ⟨0, _⟩ => rfl
    | ⟨1, _⟩ => rfl
  refine (Finset.sum_congr rfl fun k _ => by rw [hl, hr, hy, hW5, Cert.LibCoe.mul_coe]).trans ?_
  rw [Cert.LibCoe.sum_coe]
  rfl

/-! ### The source indices, normalised -/

/-- A word that names a node is not negative: the comparison with zero clears its bit. -/
theorem slt_zero_of_node (v : BitVec 32) (r : Fin 10000) (hv : v.toInt = (r.val : Int)) :
    IntOp.cmpi .slt v 0#32 = 0#1 := by
  refine eq_zero_of_ne_one fun h => ?_
  have h' := IntOp.cmpi_slt.mp h
  have e0 : (0#32 : BitVec 32).toInt = 0 := by decide
  rw [hv, e0] at h'
  omega

/-- %208: the source index with a negative value shifted by the node count is the source index itself. -/
theorem v208_read (x1 : (⟨S2x320000, .i32⟩ : BufTy).Contents (Elt Ideal)) (src : Fin 330000 → Fin 10000)
    (hv3 : ∀ e : Fin 330000, (val_main_v3 (F := Ideal) x1 (ix1 e)).toInt = ((src e).val : Int))
    (e : Fin 330000) :
    val_main_v208 (F := Ideal) x1 (ix1 e) = val_main_v3 (F := Ideal) x1 (ix1 e) := by
  rw [val_main_v208_apply, val_main_v205_apply, val_main_v204_apply, val_main_c_38_apply,
    slt_zero_of_node _ (src e) (hv3 e), select_zero]

/-- %209: the same, as a column. -/
theorem v209_read (x1 : (⟨S2x320000, .i32⟩ : BufTy).Contents (Elt Ideal)) (src : Fin 330000 → Fin 10000)
    (hv3 : ∀ e : Fin 330000, (val_main_v3 (F := Ideal) x1 (ix1 e)).toInt = ((src e).val : Int))
    (e : Fin 330000) :
    (val_main_v209 (F := Ideal) x1 (ix2 e (0 : Fin 1))).toInt = ((src e).val : Int) := by
  rw [val_main_v209_apply,
    show idx_main_v209 (ix2 e (0 : Fin 1)) = ix1 e from funext fun a => by
      match a with
      | ⟨0, _⟩ => rfl,
    v208_read x1 src hv3, hv3]

/-! ### Gather, scale, scatter-add, bias -/

/-- %210: row e is the product's row at e's source node. -/
theorem v210_read (x0 : (⟨S10000x256, .f32⟩ : BufTy).Contents (Elt Ideal)) (x1 : (⟨S2x320000, .i32⟩ : BufTy).Contents (Elt Ideal)) (x2 : (⟨S256x220, .f32⟩ : BufTy).Contents (Elt Ideal)) (x3 : (⟨S220, .f32⟩ : BufTy).Contents (Elt Ideal)) (x4 : (⟨S220x150, .f32⟩ : BufTy).Contents (Elt Ideal)) (x5 : (⟨S150, .f32⟩ : BufTy).Contents (Elt Ideal)) (x6 : (⟨S150x100, .f32⟩ : BufTy).Contents (Elt Ideal)) (x7 : (⟨S100, .f32⟩ : BufTy).Contents (Elt Ideal)) (x8 : (⟨S100x60, .f32⟩ : BufTy).Contents (Elt Ideal)) (x9 : (⟨S60, .f32⟩ : BufTy).Contents (Elt Ideal)) (x10 : (⟨S60x17, .f32⟩ : BufTy).Contents (Elt Ideal)) (x12 : (⟨S220, .f32⟩ : BufTy).Contents (Elt Ideal)) (x13 : (⟨S220, .f32⟩ : BufTy).Contents (Elt Ideal)) (x14 : (⟨S150, .f32⟩ : BufTy).Contents (Elt Ideal)) (x15 : (⟨S150, .f32⟩ : BufTy).Contents (Elt Ideal)) (x16 : (⟨S100, .f32⟩ : BufTy).Contents (Elt Ideal)) (x17 : (⟨S100, .f32⟩ : BufTy).Contents (Elt Ideal)) (x18 : (⟨S60, .f32⟩ : BufTy).Contents (Elt Ideal)) (x19 : (⟨S60, .f32⟩ : BufTy).Contents (Elt Ideal)) (src : Fin 330000 → Fin 10000) (y : Fin 10000 → Fin 60 → ℝ) (W5 : Fin 60 → Fin 17 → ℝ)
    (hy : ∀ i k, val_main_v202 (F := Ideal) x0 x1 x2 x3 x4 x5 x6 x7 x8 x9 x12 x13 x14 x15 x16 x17 x18 x19 (ix2 i k) = ((y i k : ℝ) : EReal))
    (hW5 : ∀ k f, x10 (ix2 k f) = ((W5 k f : ℝ) : EReal))
    (hv3 : ∀ e : Fin 330000, (val_main_v3 (F := Ideal) x1 (ix1 e)).toInt = ((src e).val : Int))
    (e : Fin 330000) (f : Fin 17) :
    val_main_v210 (F := Ideal) x0 x1 x2 x3 x4 x5 x6 x7 x8 x9 x10 x12 x13 x14 x15 x16 x17 x18 x19 (ix2 e f) = ((Cert.Spec.lin y W5 (src e) f : ℝ) : EReal) := by
  unfold val_main_v210
  rw [show gather_S10000x17_S330000x1_S330000x17_1_0_n_n_0_1_117
      = Cert.Rows.gatherRows 10000 330000 17 gather_S10000x17_S330000x1_S330000x17_1_0_n_n_0_1_117_wf from rfl,
    Cert.Rows.gatherRows_apply_of_eq _ _ _ e f (src e) (v209_read x1 src hv3 e)]
  exact v203_read x0 x1 x2 x3 x4 x5 x6 x7 x8 x9 x10 x12 x13 x14 x15 x16 x17 x18 x19 y W5 hy hW5 (src e) f

/-- %212: the edge weight, repeated along the row. -/
theorem v212_read (x1 : (⟨S2x320000, .i32⟩ : BufTy).Contents (Elt Ideal)) (e : Fin 330000) (f : Fin 17) :
    val_main_v212 (F := Ideal) x1 (ix2 e f) = val_main_v30 (F := Ideal) x1 (ix1 e) := by
  rw [val_main_v212_apply, val_main_v211_apply]
  exact congrArg _ (funext fun a => by
    match a with
    | ⟨0, _⟩ => rfl)

/-- %213: the gathered row scaled by the edge weight. -/
theorem v213_read (x0 : (⟨S10000x256, .f32⟩ : BufTy).Contents (Elt Ideal)) (x1 : (⟨S2x320000, .i32⟩ : BufTy).Contents (Elt Ideal)) (x2 : (⟨S256x220, .f32⟩ : BufTy).Contents (Elt Ideal)) (x3 : (⟨S220, .f32⟩ : BufTy).Contents (Elt Ideal)) (x4 : (⟨S220x150, .f32⟩ : BufTy).Contents (Elt Ideal)) (x5 : (⟨S150, .f32⟩ : BufTy).Contents (Elt Ideal)) (x6 : (⟨S150x100, .f32⟩ : BufTy).Contents (Elt Ideal)) (x7 : (⟨S100, .f32⟩ : BufTy).Contents (Elt Ideal)) (x8 : (⟨S100x60, .f32⟩ : BufTy).Contents (Elt Ideal)) (x9 : (⟨S60, .f32⟩ : BufTy).Contents (Elt Ideal)) (x10 : (⟨S60x17, .f32⟩ : BufTy).Contents (Elt Ideal)) (x12 : (⟨S220, .f32⟩ : BufTy).Contents (Elt Ideal)) (x13 : (⟨S220, .f32⟩ : BufTy).Contents (Elt Ideal)) (x14 : (⟨S150, .f32⟩ : BufTy).Contents (Elt Ideal)) (x15 : (⟨S150, .f32⟩ : BufTy).Contents (Elt Ideal)) (x16 : (⟨S100, .f32⟩ : BufTy).Contents (Elt Ideal)) (x17 : (⟨S100, .f32⟩ : BufTy).Contents (Elt Ideal)) (x18 : (⟨S60, .f32⟩ : BufTy).Contents (Elt Ideal)) (x19 : (⟨S60, .f32⟩ : BufTy).Contents (Elt Ideal)) (src dst : Fin 330000 → Fin 10000) (y : Fin 10000 → Fin 60 → ℝ) (W5 : Fin 60 → Fin 17 → ℝ)
    (hy : ∀ i k, val_main_v202 (F := Ideal) x0 x1 x2 x3 x4 x5 x6 x7 x8 x9 x12 x13 x14 x15 x16 x17 x18 x19 (ix2 i k) = ((y i k : ℝ) : EReal))
    (hW5 : ∀ k f, x10 (ix2 k f) = ((W5 k f : ℝ) : EReal))
    (hv3 : ∀ e : Fin 330000, (val_main_v3 (F := Ideal) x1 (ix1 e)).toInt = ((src e).val : Int))
    (hv30 : ∀ e : Fin 330000, val_main_v30 (F := Ideal) x1 (ix1 e) = ((Cert.Spec.nrm src dst e : ℝ) : EReal))
    (e : Fin 330000) (f : Fin 17) :
    val_main_v213 (F := Ideal) x0 x1 x2 x3 x4 x5 x6 x7 x8 x9 x10 x12 x13 x14 x15 x16 x17 x18 x19 (ix2 e f)
      = ((Cert.Spec.lin y W5 (src e) f * Cert.Spec.nrm src dst e : ℝ) : EReal) := by
  rw [val_main_v213_apply, v210_read x0 x1 x2 x3 x4 x5 x6 x7 x8 x9 x10 x12 x13 x14 x15 x16 x17 x18 x19 src y W5 hy hW5 hv3, v212_read, hv30, Ideal.mulf_def,
    Cert.LibCoe.mul_coe]

/-- %215: the destination index as a column. -/
theorem v215_read (x1 : (⟨S2x320000, .i32⟩ : BufTy).Contents (Elt Ideal)) (dst : Fin 330000 → Fin 10000)
    (hv7 : ∀ e : Fin 330000, (val_main_v7 (F := Ideal) x1 (ix1 e)).toInt = ((dst e).val : Int))
    (e : Fin 330000) :
    (val_main_v215 (F := Ideal) x1 (ix2 e (0 : Fin 1))).toInt = ((dst e).val : Int) := by
  rw [val_main_v215_apply,
    show idx_main_v215 (ix2 e (0 : Fin 1)) = ix1 e from funext fun a => by
      match a with
      | ⟨0, _⟩ => rfl,
    hv7]

/-- %216: the scaled rows added into their destination nodes' rows, from zero: the edge-by-edge aggregation. -/
theorem v216_read (x0 : (⟨S10000x256, .f32⟩ : BufTy).Contents (Elt Ideal)) (x1 : (⟨S2x320000, .i32⟩ : BufTy).Contents (Elt Ideal)) (x2 : (⟨S256x220, .f32⟩ : BufTy).Contents (Elt Ideal)) (x3 : (⟨S220, .f32⟩ : BufTy).Contents (Elt Ideal)) (x4 : (⟨S220x150, .f32⟩ : BufTy).Contents (Elt Ideal)) (x5 : (⟨S150, .f32⟩ : BufTy).Contents (Elt Ideal)) (x6 : (⟨S150x100, .f32⟩ : BufTy).Contents (Elt Ideal)) (x7 : (⟨S100, .f32⟩ : BufTy).Contents (Elt Ideal)) (x8 : (⟨S100x60, .f32⟩ : BufTy).Contents (Elt Ideal)) (x9 : (⟨S60, .f32⟩ : BufTy).Contents (Elt Ideal)) (x10 : (⟨S60x17, .f32⟩ : BufTy).Contents (Elt Ideal)) (x12 : (⟨S220, .f32⟩ : BufTy).Contents (Elt Ideal)) (x13 : (⟨S220, .f32⟩ : BufTy).Contents (Elt Ideal)) (x14 : (⟨S150, .f32⟩ : BufTy).Contents (Elt Ideal)) (x15 : (⟨S150, .f32⟩ : BufTy).Contents (Elt Ideal)) (x16 : (⟨S100, .f32⟩ : BufTy).Contents (Elt Ideal)) (x17 : (⟨S100, .f32⟩ : BufTy).Contents (Elt Ideal)) (x18 : (⟨S60, .f32⟩ : BufTy).Contents (Elt Ideal)) (x19 : (⟨S60, .f32⟩ : BufTy).Contents (Elt Ideal)) (src dst : Fin 330000 → Fin 10000) (y : Fin 10000 → Fin 60 → ℝ) (W5 : Fin 60 → Fin 17 → ℝ)
    (hy : ∀ i k, val_main_v202 (F := Ideal) x0 x1 x2 x3 x4 x5 x6 x7 x8 x9 x12 x13 x14 x15 x16 x17 x18 x19 (ix2 i k) = ((y i k : ℝ) : EReal))
    (hW5 : ∀ k f, x10 (ix2 k f) = ((W5 k f : ℝ) : EReal))
    (hv3 : ∀ e : Fin 330000, (val_main_v3 (F := Ideal) x1 (ix1 e)).toInt = ((src e).val : Int))
    (hv7 : ∀ e : Fin 330000, (val_main_v7 (F := Ideal) x1 (ix1 e)).toInt = ((dst e).val : Int))
    (hv30 : ∀ e : Fin 330000, val_main_v30 (F := Ideal) x1 (ix1 e) = ((Cert.Spec.nrm src dst e : ℝ) : EReal))
    (i : Fin 10000) (f : Fin 17) :
    val_main_v216 (F := Ideal) x0 x1 x2 x3 x4 x5 x6 x7 x8 x9 x10 x12 x13 x14 x15 x16 x17 x18 x19 (ix2 i f)
      = ((Cert.Spec.aggS src dst (Cert.Spec.lin y W5) i f : ℝ) : EReal) := by
  unfold val_main_v216 Host.scatterAdd
  rw [Ideal.hostScatterAdd_def,
    show scatter_S10000x17_S330000x1_S330000x17_1_0_0_1
      = Cert.Rows.scatterRows 10000 330000 17 scatter_S10000x17_S330000x1_S330000x17_1_0_0_1_wf from rfl,
    Cert.Rows.scatterRows_add_apply _ _ _ _ dst (v215_read x1 dst hv7) i f,
    val_main_v214_apply, val_main_cst_40_apply]
  have hsum : (∑ e : Fin 330000, if dst e = i then
        val_main_v213 (F := Ideal) x0 x1 x2 x3 x4 x5 x6 x7 x8 x9 x10 x12 x13 x14 x15 x16 x17 x18 x19 (ix2 e f) else 0)
      = ∑ e : Fin 330000, (((if dst e = i then Cert.Spec.lin y W5 (src e) f * Cert.Spec.nrm src dst e else 0 : ℝ)) : EReal) :=
    Finset.sum_congr rfl fun e _ => by
      rw [v213_read x0 x1 x2 x3 x4 x5 x6 x7 x8 x9 x10 x12 x13 x14 x15 x16 x17 x18 x19 src dst y W5 hy hW5 hv3 hv30]
      by_cases h : dst e = i
      · rw [if_pos h, if_pos h]
      · rw [if_neg h, if_neg h]
        exact EReal.coe_zero.symm
  rw [hsum, Cert.LibCoe.sum_coe, Ideal.ofBits_def, Cert.LibCoe.ofBits_zero, Cert.LibCoe.add_coe, zero_add]
  rfl

/-- %219: the convolution's output, bias added. -/
theorem v219_read (x0 : (⟨S10000x256, .f32⟩ : BufTy).Contents (Elt Ideal)) (x1 : (⟨S2x320000, .i32⟩ : BufTy).Contents (Elt Ideal)) (x2 : (⟨S256x220, .f32⟩ : BufTy).Contents (Elt Ideal)) (x3 : (⟨S220, .f32⟩ : BufTy).Contents (Elt Ideal)) (x4 : (⟨S220x150, .f32⟩ : BufTy).Contents (Elt Ideal)) (x5 : (⟨S150, .f32⟩ : BufTy).Contents (Elt Ideal)) (x6 : (⟨S150x100, .f32⟩ : BufTy).Contents (Elt Ideal)) (x7 : (⟨S100, .f32⟩ : BufTy).Contents (Elt Ideal)) (x8 : (⟨S100x60, .f32⟩ : BufTy).Contents (Elt Ideal)) (x9 : (⟨S60, .f32⟩ : BufTy).Contents (Elt Ideal)) (x10 : (⟨S60x17, .f32⟩ : BufTy).Contents (Elt Ideal)) (x11 : (⟨S17, .f32⟩ : BufTy).Contents (Elt Ideal)) (x12 : (⟨S220, .f32⟩ : BufTy).Contents (Elt Ideal)) (x13 : (⟨S220, .f32⟩ : BufTy).Contents (Elt Ideal)) (x14 : (⟨S150, .f32⟩ : BufTy).Contents (Elt Ideal)) (x15 : (⟨S150, .f32⟩ : BufTy).Contents (Elt Ideal)) (x16 : (⟨S100, .f32⟩ : BufTy).Contents (Elt Ideal)) (x17 : (⟨S100, .f32⟩ : BufTy).Contents (Elt Ideal)) (x18 : (⟨S60, .f32⟩ : BufTy).Contents (Elt Ideal)) (x19 : (⟨S60, .f32⟩ : BufTy).Contents (Elt Ideal)) (src dst : Fin 330000 → Fin 10000) (y : Fin 10000 → Fin 60 → ℝ) (W5 : Fin 60 → Fin 17 → ℝ) (b5 : Fin 17 → ℝ)
    (hy : ∀ i k, val_main_v202 (F := Ideal) x0 x1 x2 x3 x4 x5 x6 x7 x8 x9 x12 x13 x14 x15 x16 x17 x18 x19 (ix2 i k) = ((y i k : ℝ) : EReal))
    (hW5 : ∀ k f, x10 (ix2 k f) = ((W5 k f : ℝ) : EReal))
    (hb5 : ∀ f, x11 (ix1 f) = ((b5 f : ℝ) : EReal))
    (hv3 : ∀ e : Fin 330000, (val_main_v3 (F := Ideal) x1 (ix1 e)).toInt = ((src e).val : Int))
    (hv7 : ∀ e : Fin 330000, (val_main_v7 (F := Ideal) x1 (ix1 e)).toInt = ((dst e).val : Int))
    (hv30 : ∀ e : Fin 330000, val_main_v30 (F := Ideal) x1 (ix1 e) = ((Cert.Spec.nrm src dst e : ℝ) : EReal))
    (i : Fin 10000) (f : Fin 17) :
    val_main_v219 (F := Ideal) x0 x1 x2 x3 x4 x5 x6 x7 x8 x9 x10 x11 x12 x13 x14 x15 x16 x17 x18 x19 (ix2 i f)
      = ((Cert.Spec.conv src dst y W5 b5 i f : ℝ) : EReal) := by
  rw [val_main_v219_apply, v216_read x0 x1 x2 x3 x4 x5 x6 x7 x8 x9 x10 x12 x13 x14 x15 x16 x17 x18 x19 src dst y W5 hy hW5 hv3 hv7 hv30, val_main_v218_apply, val_main_v217_apply,
    show idx_main_v217 (idx_main_v218 (ix2 i f)) = ix1 f from funext fun a => by
      match a with
      | ⟨0, _⟩ => rfl,
    hb5, Ideal.addf_def, Cert.LibCoe.add_coe]
  rfl

/-! ### The log-softmax -/

/-- The row maximum, folded from −∞. -/
theorem call5_v0_read (x0 : (⟨S10000x256, .f32⟩ : BufTy).Contents (Elt Ideal)) (x1 : (⟨S2x320000, .i32⟩ : BufTy).Contents (Elt Ideal)) (x2 : (⟨S256x220, .f32⟩ : BufTy).Contents (Elt Ideal)) (x3 : (⟨S220, .f32⟩ : BufTy).Contents (Elt Ideal)) (x4 : (⟨S220x150, .f32⟩ : BufTy).Contents (Elt Ideal)) (x5 : (⟨S150, .f32⟩ : BufTy).Contents (Elt Ideal)) (x6 : (⟨S150x100, .f32⟩ : BufTy).Contents (Elt Ideal)) (x7 : (⟨S100, .f32⟩ : BufTy).Contents (Elt Ideal)) (x8 : (⟨S100x60, .f32⟩ : BufTy).Contents (Elt Ideal)) (x9 : (⟨S60, .f32⟩ : BufTy).Contents (Elt Ideal)) (x10 : (⟨S60x17, .f32⟩ : BufTy).Contents (Elt Ideal)) (x11 : (⟨S17, .f32⟩ : BufTy).Contents (Elt Ideal)) (x12 : (⟨S220, .f32⟩ : BufTy).Contents (Elt Ideal)) (x13 : (⟨S220, .f32⟩ : BufTy).Contents (Elt Ideal)) (x14 : (⟨S150, .f32⟩ : BufTy).Contents (Elt Ideal)) (x15 : (⟨S150, .f32⟩ : BufTy).Contents (Elt Ideal)) (x16 : (⟨S100, .f32⟩ : BufTy).Contents (Elt Ideal)) (x17 : (⟨S100, .f32⟩ : BufTy).Contents (Elt Ideal)) (x18 : (⟨S60, .f32⟩ : BufTy).Contents (Elt Ideal)) (x19 : (⟨S60, .f32⟩ : BufTy).Contents (Elt Ideal)) (src dst : Fin 330000 → Fin 10000) (y : Fin 10000 → Fin 60 → ℝ) (W5 : Fin 60 → Fin 17 → ℝ) (b5 : Fin 17 → ℝ)
    (hy : ∀ i k, val_main_v202 (F := Ideal) x0 x1 x2 x3 x4 x5 x6 x7 x8 x9 x12 x13 x14 x15 x16 x17 x18 x19 (ix2 i k) = ((y i k : ℝ) : EReal))
    (hW5 : ∀ k f, x10 (ix2 k f) = ((W5 k f : ℝ) : EReal))
    (hb5 : ∀ f, x11 (ix1 f) = ((b5 f : ℝ) : EReal))
    (hv3 : ∀ e : Fin 330000, (val_main_v3 (F := Ideal) x1 (ix1 e)).toInt = ((src e).val : Int))
    (hv7 : ∀ e : Fin 330000, (val_main_v7 (F := Ideal) x1 (ix1 e)).toInt = ((dst e).val : Int))
    (hv30 : ∀ e : Fin 330000, val_main_v30 (F := Ideal) x1 (ix1 e) = ((Cert.Spec.nrm src dst e : ℝ) : EReal))
    (i : Fin 10000) :
    val_main_call5_v0 (F := Ideal) x0 x1 x2 x3 x4 x5 x6 x7 x8 x9 x10 x11 x12 x13 x14 x15 x16 x17 x18 x19 (ix1 i)
      = ((Cert.Spec.rowMax (b := 16) (Cert.Spec.conv src dst y W5 b5) i : ℝ) : EReal) := by
  unfold val_main_call5_v0
  rw [Host.reduce_eq_fold_single FloatOps.maximumf _ _ _ reduces_rows17 _ (ix1 i), val_main_call5_cst_apply]
  have hfun : (val_main_v219 (F := Ideal) x0 x1 x2 x3 x4 x5 x6 x7 x8 x9 x10 x11 x12 x13 x14 x15 x16 x17 x18 x19 ∘ reduces_rows17.lift (ix1 i))
      = fun k : Fin 17 => ((Cert.Spec.conv src dst y W5 b5 i k : ℝ) : EReal) :=
    funext fun k => by
      show val_main_v219 (F := Ideal) x0 x1 x2 x3 x4 x5 x6 x7 x8 x9 x10 x11 x12 x13 x14 x15 x16 x17 x18 x19 (reduces_rows17.lift (ix1 i) k) = _
      rw [show reduces_rows17.lift (ix1 i) k = ix2 i k from funext fun a => Fin.ext (by
        match a with
        | ⟨0, _⟩ => rfl
        | ⟨1, _⟩ => rfl)]
      exact v219_read x0 x1 x2 x3 x4 x5 x6 x7 x8 x9 x10 x11 x12 x13 x14 x15 x16 x17 x18 x19 src dst y W5 b5 hy hW5 hb5 hv3 hv7 hv30 i k
  rw [hfun, Ideal.ofBits_def, Cert.LibCoe.ofBits_neg_inf]
  exact Cert.LibCoe.fold_max_bot_row (b := 16) (Cert.Spec.conv src dst y W5 b5) i

/-- The maximum with −∞ once more changes nothing. -/
theorem call5_v2_read (x0 : (⟨S10000x256, .f32⟩ : BufTy).Contents (Elt Ideal)) (x1 : (⟨S2x320000, .i32⟩ : BufTy).Contents (Elt Ideal)) (x2 : (⟨S256x220, .f32⟩ : BufTy).Contents (Elt Ideal)) (x3 : (⟨S220, .f32⟩ : BufTy).Contents (Elt Ideal)) (x4 : (⟨S220x150, .f32⟩ : BufTy).Contents (Elt Ideal)) (x5 : (⟨S150, .f32⟩ : BufTy).Contents (Elt Ideal)) (x6 : (⟨S150x100, .f32⟩ : BufTy).Contents (Elt Ideal)) (x7 : (⟨S100, .f32⟩ : BufTy).Contents (Elt Ideal)) (x8 : (⟨S100x60, .f32⟩ : BufTy).Contents (Elt Ideal)) (x9 : (⟨S60, .f32⟩ : BufTy).Contents (Elt Ideal)) (x10 : (⟨S60x17, .f32⟩ : BufTy).Contents (Elt Ideal)) (x11 : (⟨S17, .f32⟩ : BufTy).Contents (Elt Ideal)) (x12 : (⟨S220, .f32⟩ : BufTy).Contents (Elt Ideal)) (x13 : (⟨S220, .f32⟩ : BufTy).Contents (Elt Ideal)) (x14 : (⟨S150, .f32⟩ : BufTy).Contents (Elt Ideal)) (x15 : (⟨S150, .f32⟩ : BufTy).Contents (Elt Ideal)) (x16 : (⟨S100, .f32⟩ : BufTy).Contents (Elt Ideal)) (x17 : (⟨S100, .f32⟩ : BufTy).Contents (Elt Ideal)) (x18 : (⟨S60, .f32⟩ : BufTy).Contents (Elt Ideal)) (x19 : (⟨S60, .f32⟩ : BufTy).Contents (Elt Ideal)) (src dst : Fin 330000 → Fin 10000) (y : Fin 10000 → Fin 60 → ℝ) (W5 : Fin 60 → Fin 17 → ℝ) (b5 : Fin 17 → ℝ)
    (hy : ∀ i k, val_main_v202 (F := Ideal) x0 x1 x2 x3 x4 x5 x6 x7 x8 x9 x12 x13 x14 x15 x16 x17 x18 x19 (ix2 i k) = ((y i k : ℝ) : EReal))
    (hW5 : ∀ k f, x10 (ix2 k f) = ((W5 k f : ℝ) : EReal))
    (hb5 : ∀ f, x11 (ix1 f) = ((b5 f : ℝ) : EReal))
    (hv3 : ∀ e : Fin 330000, (val_main_v3 (F := Ideal) x1 (ix1 e)).toInt = ((src e).val : Int))
    (hv7 : ∀ e : Fin 330000, (val_main_v7 (F := Ideal) x1 (ix1 e)).toInt = ((dst e).val : Int))
    (hv30 : ∀ e : Fin 330000, val_main_v30 (F := Ideal) x1 (ix1 e) = ((Cert.Spec.nrm src dst e : ℝ) : EReal))
    (i : Fin 10000) :
    val_main_call5_v2 (F := Ideal) x0 x1 x2 x3 x4 x5 x6 x7 x8 x9 x10 x11 x12 x13 x14 x15 x16 x17 x18 x19 (ix1 i)
      = ((Cert.Spec.rowMax (b := 16) (Cert.Spec.conv src dst y W5 b5) i : ℝ) : EReal) := by
  rw [val_main_call5_v2_apply, val_main_call5_v1_apply, val_main_call5_cst_0_apply,
    call5_v0_read x0 x1 x2 x3 x4 x5 x6 x7 x8 x9 x10 x11 x12 x13 x14 x15 x16 x17 x18 x19 src dst y W5 b5 hy hW5 hb5 hv3 hv7 hv30, Ideal.maximumf_def, Ideal.ofBits_def, Cert.LibCoe.ofBits_neg_inf]
  exact Cert.LibCoe.max_bot_coe _

/-- The row shifted by its maximum. -/
theorem call5_v5_read (x0 : (⟨S10000x256, .f32⟩ : BufTy).Contents (Elt Ideal)) (x1 : (⟨S2x320000, .i32⟩ : BufTy).Contents (Elt Ideal)) (x2 : (⟨S256x220, .f32⟩ : BufTy).Contents (Elt Ideal)) (x3 : (⟨S220, .f32⟩ : BufTy).Contents (Elt Ideal)) (x4 : (⟨S220x150, .f32⟩ : BufTy).Contents (Elt Ideal)) (x5 : (⟨S150, .f32⟩ : BufTy).Contents (Elt Ideal)) (x6 : (⟨S150x100, .f32⟩ : BufTy).Contents (Elt Ideal)) (x7 : (⟨S100, .f32⟩ : BufTy).Contents (Elt Ideal)) (x8 : (⟨S100x60, .f32⟩ : BufTy).Contents (Elt Ideal)) (x9 : (⟨S60, .f32⟩ : BufTy).Contents (Elt Ideal)) (x10 : (⟨S60x17, .f32⟩ : BufTy).Contents (Elt Ideal)) (x11 : (⟨S17, .f32⟩ : BufTy).Contents (Elt Ideal)) (x12 : (⟨S220, .f32⟩ : BufTy).Contents (Elt Ideal)) (x13 : (⟨S220, .f32⟩ : BufTy).Contents (Elt Ideal)) (x14 : (⟨S150, .f32⟩ : BufTy).Contents (Elt Ideal)) (x15 : (⟨S150, .f32⟩ : BufTy).Contents (Elt Ideal)) (x16 : (⟨S100, .f32⟩ : BufTy).Contents (Elt Ideal)) (x17 : (⟨S100, .f32⟩ : BufTy).Contents (Elt Ideal)) (x18 : (⟨S60, .f32⟩ : BufTy).Contents (Elt Ideal)) (x19 : (⟨S60, .f32⟩ : BufTy).Contents (Elt Ideal)) (src dst : Fin 330000 → Fin 10000) (y : Fin 10000 → Fin 60 → ℝ) (W5 : Fin 60 → Fin 17 → ℝ) (b5 : Fin 17 → ℝ)
    (hy : ∀ i k, val_main_v202 (F := Ideal) x0 x1 x2 x3 x4 x5 x6 x7 x8 x9 x12 x13 x14 x15 x16 x17 x18 x19 (ix2 i k) = ((y i k : ℝ) : EReal))
    (hW5 : ∀ k f, x10 (ix2 k f) = ((W5 k f : ℝ) : EReal))
    (hb5 : ∀ f, x11 (ix1 f) = ((b5 f : ℝ) : EReal))
    (hv3 : ∀ e : Fin 330000, (val_main_v3 (F := Ideal) x1 (ix1 e)).toInt = ((src e).val : Int))
    (hv7 : ∀ e : Fin 330000, (val_main_v7 (F := Ideal) x1 (ix1 e)).toInt = ((dst e).val : Int))
    (hv30 : ∀ e : Fin 330000, val_main_v30 (F := Ideal) x1 (ix1 e) = ((Cert.Spec.nrm src dst e : ℝ) : EReal))
    (i : Fin 10000) (f : Fin 17) :
    val_main_call5_v5 (F := Ideal) x0 x1 x2 x3 x4 x5 x6 x7 x8 x9 x10 x11 x12 x13 x14 x15 x16 x17 x18 x19 (ix2 i f)
      = ((Cert.Spec.conv src dst y W5 b5 i f - Cert.Spec.rowMax (b := 16) (Cert.Spec.conv src dst y W5 b5) i : ℝ) : EReal) := by
  rw [val_main_call5_v5_apply, v219_read x0 x1 x2 x3 x4 x5 x6 x7 x8 x9 x10 x11 x12 x13 x14 x15 x16 x17 x18 x19 src dst y W5 b5 hy hW5 hb5 hv3 hv7 hv30, val_main_call5_v4_apply, val_main_call5_v3_apply,
    show idx_main_call5_v3 (idx_main_call5_v4 (ix2 i f)) = ix1 i from funext fun a => by
      match a with
      | ⟨0, _⟩ => rfl,
    call5_v2_read x0 x1 x2 x3 x4 x5 x6 x7 x8 x9 x10 x11 x12 x13 x14 x15 x16 x17 x18 x19 src dst y W5 b5 hy hW5 hb5 hv3 hv7 hv30, Ideal.subf_def, Cert.LibCoe.sub_coe]

/-- Its exponential. -/
theorem call5_v6_read (x0 : (⟨S10000x256, .f32⟩ : BufTy).Contents (Elt Ideal)) (x1 : (⟨S2x320000, .i32⟩ : BufTy).Contents (Elt Ideal)) (x2 : (⟨S256x220, .f32⟩ : BufTy).Contents (Elt Ideal)) (x3 : (⟨S220, .f32⟩ : BufTy).Contents (Elt Ideal)) (x4 : (⟨S220x150, .f32⟩ : BufTy).Contents (Elt Ideal)) (x5 : (⟨S150, .f32⟩ : BufTy).Contents (Elt Ideal)) (x6 : (⟨S150x100, .f32⟩ : BufTy).Contents (Elt Ideal)) (x7 : (⟨S100, .f32⟩ : BufTy).Contents (Elt Ideal)) (x8 : (⟨S100x60, .f32⟩ : BufTy).Contents (Elt Ideal)) (x9 : (⟨S60, .f32⟩ : BufTy).Contents (Elt Ideal)) (x10 : (⟨S60x17, .f32⟩ : BufTy).Contents (Elt Ideal)) (x11 : (⟨S17, .f32⟩ : BufTy).Contents (Elt Ideal)) (x12 : (⟨S220, .f32⟩ : BufTy).Contents (Elt Ideal)) (x13 : (⟨S220, .f32⟩ : BufTy).Contents (Elt Ideal)) (x14 : (⟨S150, .f32⟩ : BufTy).Contents (Elt Ideal)) (x15 : (⟨S150, .f32⟩ : BufTy).Contents (Elt Ideal)) (x16 : (⟨S100, .f32⟩ : BufTy).Contents (Elt Ideal)) (x17 : (⟨S100, .f32⟩ : BufTy).Contents (Elt Ideal)) (x18 : (⟨S60, .f32⟩ : BufTy).Contents (Elt Ideal)) (x19 : (⟨S60, .f32⟩ : BufTy).Contents (Elt Ideal)) (src dst : Fin 330000 → Fin 10000) (y : Fin 10000 → Fin 60 → ℝ) (W5 : Fin 60 → Fin 17 → ℝ) (b5 : Fin 17 → ℝ)
    (hy : ∀ i k, val_main_v202 (F := Ideal) x0 x1 x2 x3 x4 x5 x6 x7 x8 x9 x12 x13 x14 x15 x16 x17 x18 x19 (ix2 i k) = ((y i k : ℝ) : EReal))
    (hW5 : ∀ k f, x10 (ix2 k f) = ((W5 k f : ℝ) : EReal))
    (hb5 : ∀ f, x11 (ix1 f) = ((b5 f : ℝ) : EReal))
    (hv3 : ∀ e : Fin 330000, (val_main_v3 (F := Ideal) x1 (ix1 e)).toInt = ((src e).val : Int))
    (hv7 : ∀ e : Fin 330000, (val_main_v7 (F := Ideal) x1 (ix1 e)).toInt = ((dst e).val : Int))
    (hv30 : ∀ e : Fin 330000, val_main_v30 (F := Ideal) x1 (ix1 e) = ((Cert.Spec.nrm src dst e : ℝ) : EReal))
    (i : Fin 10000) (f : Fin 17) :
    val_main_call5_v6 (F := Ideal) x0 x1 x2 x3 x4 x5 x6 x7 x8 x9 x10 x11 x12 x13 x14 x15 x16 x17 x18 x19 (ix2 i f)
      = ((Real.exp (Cert.Spec.conv src dst y W5 b5 i f - Cert.Spec.rowMax (b := 16) (Cert.Spec.conv src dst y W5 b5) i) : ℝ) : EReal) := by
  rw [val_main_call5_v6_apply, call5_v5_read x0 x1 x2 x3 x4 x5 x6 x7 x8 x9 x10 x11 x12 x13 x14 x15 x16 x17 x18 x19 src dst y W5 b5 hy hW5 hb5 hv3 hv7 hv30, Ideal.hostUnary_exp_def, Cert.LibCoe.exp_coe]

/-- The row sum of the exponentials, from zero. -/
theorem call5_v7_read (x0 : (⟨S10000x256, .f32⟩ : BufTy).Contents (Elt Ideal)) (x1 : (⟨S2x320000, .i32⟩ : BufTy).Contents (Elt Ideal)) (x2 : (⟨S256x220, .f32⟩ : BufTy).Contents (Elt Ideal)) (x3 : (⟨S220, .f32⟩ : BufTy).Contents (Elt Ideal)) (x4 : (⟨S220x150, .f32⟩ : BufTy).Contents (Elt Ideal)) (x5 : (⟨S150, .f32⟩ : BufTy).Contents (Elt Ideal)) (x6 : (⟨S150x100, .f32⟩ : BufTy).Contents (Elt Ideal)) (x7 : (⟨S100, .f32⟩ : BufTy).Contents (Elt Ideal)) (x8 : (⟨S100x60, .f32⟩ : BufTy).Contents (Elt Ideal)) (x9 : (⟨S60, .f32⟩ : BufTy).Contents (Elt Ideal)) (x10 : (⟨S60x17, .f32⟩ : BufTy).Contents (Elt Ideal)) (x11 : (⟨S17, .f32⟩ : BufTy).Contents (Elt Ideal)) (x12 : (⟨S220, .f32⟩ : BufTy).Contents (Elt Ideal)) (x13 : (⟨S220, .f32⟩ : BufTy).Contents (Elt Ideal)) (x14 : (⟨S150, .f32⟩ : BufTy).Contents (Elt Ideal)) (x15 : (⟨S150, .f32⟩ : BufTy).Contents (Elt Ideal)) (x16 : (⟨S100, .f32⟩ : BufTy).Contents (Elt Ideal)) (x17 : (⟨S100, .f32⟩ : BufTy).Contents (Elt Ideal)) (x18 : (⟨S60, .f32⟩ : BufTy).Contents (Elt Ideal)) (x19 : (⟨S60, .f32⟩ : BufTy).Contents (Elt Ideal)) (src dst : Fin 330000 → Fin 10000) (y : Fin 10000 → Fin 60 → ℝ) (W5 : Fin 60 → Fin 17 → ℝ) (b5 : Fin 17 → ℝ)
    (hy : ∀ i k, val_main_v202 (F := Ideal) x0 x1 x2 x3 x4 x5 x6 x7 x8 x9 x12 x13 x14 x15 x16 x17 x18 x19 (ix2 i k) = ((y i k : ℝ) : EReal))
    (hW5 : ∀ k f, x10 (ix2 k f) = ((W5 k f : ℝ) : EReal))
    (hb5 : ∀ f, x11 (ix1 f) = ((b5 f : ℝ) : EReal))
    (hv3 : ∀ e : Fin 330000, (val_main_v3 (F := Ideal) x1 (ix1 e)).toInt = ((src e).val : Int))
    (hv7 : ∀ e : Fin 330000, (val_main_v7 (F := Ideal) x1 (ix1 e)).toInt = ((dst e).val : Int))
    (hv30 : ∀ e : Fin 330000, val_main_v30 (F := Ideal) x1 (ix1 e) = ((Cert.Spec.nrm src dst e : ℝ) : EReal))
    (i : Fin 10000) :
    val_main_call5_v7 (F := Ideal) x0 x1 x2 x3 x4 x5 x6 x7 x8 x9 x10 x11 x12 x13 x14 x15 x16 x17 x18 x19 (ix1 i)
      = ((∑ k : Fin 17, Real.exp (Cert.Spec.conv src dst y W5 b5 i k - Cert.Spec.rowMax (b := 16) (Cert.Spec.conv src dst y W5 b5) i) : ℝ) : EReal) := by
  rw [val_main_call5_v7_apply, val_main_call5_cst_1_apply]
  have hs : (∑ k : Fin 17, val_main_call5_v6 (F := Ideal) x0 x1 x2 x3 x4 x5 x6 x7 x8 x9 x10 x11 x12 x13 x14 x15 x16 x17 x18 x19 (idx_main_call5_v7 (ix1 i) k))
      = ∑ k : Fin 17, ((Real.exp (Cert.Spec.conv src dst y W5 b5 i k - Cert.Spec.rowMax (b := 16) (Cert.Spec.conv src dst y W5 b5) i) : ℝ) : EReal) :=
    Finset.sum_congr rfl fun k _ => by
      rw [show idx_main_call5_v7 (ix1 i) k = ix2 i k from funext fun a => by
        match a with
        | ⟨0, _⟩ => rfl
        | ⟨1, _⟩ => rfl]
      exact call5_v6_read x0 x1 x2 x3 x4 x5 x6 x7 x8 x9 x10 x11 x12 x13 x14 x15 x16 x17 x18 x19 src dst y W5 b5 hy hW5 hb5 hv3 hv7 hv30 i k
  rw [hs, Cert.LibCoe.sum_coe, Ideal.ofBits_def, Cert.LibCoe.ofBits_zero, Cert.LibCoe.add_coe, zero_add]

/-- %220, the result: the shifted row minus the logarithm of the row sum, which is positive. -/
theorem v220_read (x0 : (⟨S10000x256, .f32⟩ : BufTy).Contents (Elt Ideal)) (x1 : (⟨S2x320000, .i32⟩ : BufTy).Contents (Elt Ideal)) (x2 : (⟨S256x220, .f32⟩ : BufTy).Contents (Elt Ideal)) (x3 : (⟨S220, .f32⟩ : BufTy).Contents (Elt Ideal)) (x4 : (⟨S220x150, .f32⟩ : BufTy).Contents (Elt Ideal)) (x5 : (⟨S150, .f32⟩ : BufTy).Contents (Elt Ideal)) (x6 : (⟨S150x100, .f32⟩ : BufTy).Contents (Elt Ideal)) (x7 : (⟨S100, .f32⟩ : BufTy).Contents (Elt Ideal)) (x8 : (⟨S100x60, .f32⟩ : BufTy).Contents (Elt Ideal)) (x9 : (⟨S60, .f32⟩ : BufTy).Contents (Elt Ideal)) (x10 : (⟨S60x17, .f32⟩ : BufTy).Contents (Elt Ideal)) (x11 : (⟨S17, .f32⟩ : BufTy).Contents (Elt Ideal)) (x12 : (⟨S220, .f32⟩ : BufTy).Contents (Elt Ideal)) (x13 : (⟨S220, .f32⟩ : BufTy).Contents (Elt Ideal)) (x14 : (⟨S150, .f32⟩ : BufTy).Contents (Elt Ideal)) (x15 : (⟨S150, .f32⟩ : BufTy).Contents (Elt Ideal)) (x16 : (⟨S100, .f32⟩ : BufTy).Contents (Elt Ideal)) (x17 : (⟨S100, .f32⟩ : BufTy).Contents (Elt Ideal)) (x18 : (⟨S60, .f32⟩ : BufTy).Contents (Elt Ideal)) (x19 : (⟨S60, .f32⟩ : BufTy).Contents (Elt Ideal)) (src dst : Fin 330000 → Fin 10000) (y : Fin 10000 → Fin 60 → ℝ) (W5 : Fin 60 → Fin 17 → ℝ) (b5 : Fin 17 → ℝ)
    (hy : ∀ i k, val_main_v202 (F := Ideal) x0 x1 x2 x3 x4 x5 x6 x7 x8 x9 x12 x13 x14 x15 x16 x17 x18 x19 (ix2 i k) = ((y i k : ℝ) : EReal))
    (hW5 : ∀ k f, x10 (ix2 k f) = ((W5 k f : ℝ) : EReal))
    (hb5 : ∀ f, x11 (ix1 f) = ((b5 f : ℝ) : EReal))
    (hv3 : ∀ e : Fin 330000, (val_main_v3 (F := Ideal) x1 (ix1 e)).toInt = ((src e).val : Int))
    (hv7 : ∀ e : Fin 330000, (val_main_v7 (F := Ideal) x1 (ix1 e)).toInt = ((dst e).val : Int))
    (hv30 : ∀ e : Fin 330000, val_main_v30 (F := Ideal) x1 (ix1 e) = ((Cert.Spec.nrm src dst e : ℝ) : EReal))
    (i : Fin 10000) (f : Fin 17) :
    val_main_v220 (F := Ideal) x0 x1 x2 x3 x4 x5 x6 x7 x8 x9 x10 x11 x12 x13 x14 x15 x16 x17 x18 x19 (ix2 i f)
      = ((Cert.Spec.lsm (b := 16) (Cert.Spec.conv src dst y W5 b5) i f : ℝ) : EReal) := by
  rw [val_main_v220_apply, call5_v5_read x0 x1 x2 x3 x4 x5 x6 x7 x8 x9 x10 x11 x12 x13 x14 x15 x16 x17 x18 x19 src dst y W5 b5 hy hW5 hb5 hv3 hv7 hv30, val_main_call5_v10_apply, val_main_call5_v9_apply,
    val_main_call5_v8_apply,
    show idx_main_call5_v8 (idx_main_call5_v10 (ix2 i f)) = ix1 i from funext fun a => by
      match a with
      | ⟨0, _⟩ => rfl,
    call5_v7_read x0 x1 x2 x3 x4 x5 x6 x7 x8 x9 x10 x11 x12 x13 x14 x15 x16 x17 x18 x19 src dst y W5 b5 hy hW5 hb5 hv3 hv7 hv30, Ideal.hostUnary_log_def,
    Cert.LibCoe.log_coe_pos (Cert.LibCoe.sum_exp_pos (b := 16) (Cert.Spec.conv src dst y W5 b5 i) (Cert.Spec.rowMax (b := 16) (Cert.Spec.conv src dst y W5 b5) i)),
    Ideal.subf_def, Cert.LibCoe.sub_coe]
  rfl

end Cert.ReferenceIdeal.HandV.Last

namespace Cert.ReferenceIdeal.HandV

open Cert.ReferenceIdeal Cert.ReferenceIdeal.Gen Cert.ReferenceIdeal.ReadP
open Idealize.ShloMosaic Idealize.ShloMosaic.ValueIdx

/-! ### The whole reference on real inputs -/

/-- The reference's result from the earlier layers' readings: if the fourth normalisation's output reads as the
    real network's, and the index stages name the edges' ends and weights, the result is the real network. -/
theorem ref_value_of (x0 : (⟨S10000x256, .f32⟩ : BufTy).Contents (Elt Ideal)) (x1 : (⟨S2x320000, .i32⟩ : BufTy).Contents (Elt Ideal)) (x2 : (⟨S256x220, .f32⟩ : BufTy).Contents (Elt Ideal)) (x3 : (⟨S220, .f32⟩ : BufTy).Contents (Elt Ideal)) (x4 : (⟨S220x150, .f32⟩ : BufTy).Contents (Elt Ideal)) (x5 : (⟨S150, .f32⟩ : BufTy).Contents (Elt Ideal)) (x6 : (⟨S150x100, .f32⟩ : BufTy).Contents (Elt Ideal)) (x7 : (⟨S100, .f32⟩ : BufTy).Contents (Elt Ideal)) (x8 : (⟨S100x60, .f32⟩ : BufTy).Contents (Elt Ideal)) (x9 : (⟨S60, .f32⟩ : BufTy).Contents (Elt Ideal)) (x10 : (⟨S60x17, .f32⟩ : BufTy).Contents (Elt Ideal)) (x11 : (⟨S17, .f32⟩ : BufTy).Contents (Elt Ideal)) (x12 : (⟨S220, .f32⟩ : BufTy).Contents (Elt Ideal)) (x13 : (⟨S220, .f32⟩ : BufTy).Contents (Elt Ideal)) (x14 : (⟨S150, .f32⟩ : BufTy).Contents (Elt Ideal)) (x15 : (⟨S150, .f32⟩ : BufTy).Contents (Elt Ideal)) (x16 : (⟨S100, .f32⟩ : BufTy).Contents (Elt Ideal)) (x17 : (⟨S100, .f32⟩ : BufTy).Contents (Elt Ideal)) (x18 : (⟨S60, .f32⟩ : BufTy).Contents (Elt Ideal)) (x19 : (⟨S60, .f32⟩ : BufTy).Contents (Elt Ideal)) (R : Cert.Inputs.RealArgs)
    (hR : Cert.Inputs.Reads x0 x1 x2 x3 x4 x5 x6 x7 x8 x9 x10 x11 x12 x13 x14 x15 x16 x17 x18 x19 R)
    (h202 : ∀ i k, val_main_v202 (F := Ideal) x0 x1 x2 x3 x4 x5 x6 x7 x8 x9 x12 x13 x14 x15 x16 x17 x18 x19 (ix2 i k)
      = ((Cert.Spec.bn (10000 : ℝ) Cert.LibCoe.epsR (Cert.Spec.r4 (10000 : ℝ) Cert.LibCoe.epsR (Cert.Inputs.srcOf R.ei)
          (Cert.Inputs.dstOf R.ei) R.X R.P) R.P.g4 R.P.be4 i k : ℝ) : EReal))
    (hv3 : ∀ e : Fin 330000, (val_main_v3 (F := Ideal) x1 (ix1 e)).toInt = ((Cert.Inputs.srcOf R.ei e).val : Int))
    (hv7 : ∀ e : Fin 330000, (val_main_v7 (F := Ideal) x1 (ix1 e)).toInt = ((Cert.Inputs.dstOf R.ei e).val : Int))
    (hv30 : ∀ e : Fin 330000, val_main_v30 (F := Ideal) x1 (ix1 e)
      = ((Cert.Spec.nrm (Cert.Inputs.srcOf R.ei) (Cert.Inputs.dstOf R.ei) e : ℝ) : EReal)) :
    val_main_v220 (F := Ideal) x0 x1 x2 x3 x4 x5 x6 x7 x8 x9 x10 x11 x12 x13 x14 x15 x16 x17 x18 x19
      = fun j => ((Cert.Spec.refNet (10000 : ℝ) Cert.LibCoe.epsR (Cert.Inputs.srcOf R.ei) (Cert.Inputs.dstOf R.ei)
          R.X R.P (j 0) (j 1) : ℝ) : EReal) := by
  funext j
  obtain ⟨i, f, rfl⟩ : ∃ (i : Fin 10000) (f : Fin 17), j = ix2 i f := ⟨j 0, j 1, eq_ix2 j⟩
  exact Last.v220_read x0 x1 x2 x3 x4 x5 x6 x7 x8 x9 x10 x11 x12 x13 x14 x15 x16 x17 x18 x19 (Cert.Inputs.srcOf R.ei) (Cert.Inputs.dstOf R.ei) _ R.P.W5 R.P.b5
    h202 hR.hW5 hR.hb5 hv3 hv7 hv30 i f

end Cert.ReferenceIdeal.HandV

end
-- ==== Proof.RefNorm.lean ====
/-
  The reference network's edge normalisation, read at the ideal instance against the real specification.

  The graph has 330000 directed edges: the 320000 listed ones followed by one self loop per node. The program builds
  the source and destination vectors by joining each row of the edge list with the node numbers 0 … 9999, counts the
  edges that end at each node (a scatter of ones), takes the reciprocal square root of the positive counts, and weighs
  edge e by the product of the two values at its ends.

  Part A: facts about words, the two-piece join, and the scatter of a vector at a column of start indices, at any extent.
  Part B: the program's values at an index.
-/
import proofs.«408066_j62380105008311_2_alg».proof.Proof.RefRead
import proofs.«408066_j62380105008311_2_alg».proof.Proof.Inputs
import proofs.«408066_j62380105008311_2_alg».proof.Proof.LibCoe
import Idealize.ShloMosaic.Lib.ValueIdx
import Idealize.ShloMosaic.Lib.ValueIdxRank1
import Idealize.ShloMosaic.Lib.StableHlo.Predicate
import Idealize.ShloMosaic.Lib.Pipeline.Value
import Idealize.ShloMosaic.Lib.Affine
import Idealize.ShloMosaic.PureOps.Ideal.Laws

noncomputable section

namespace Cert.ReferenceIdeal.HandV

open Idealize.ShloMosaic Idealize.ShloMosaic.ValueIdx

/-! ## Words -/

/-- A 32-bit word whose unsigned value is the small number n is the numeral n. -/
theorem word_eq_ofNat (w : BitVec 32) (n : Nat) (hn : n < 2 ^ 32) (h : w.toNat = n) : w = BitVec.ofNat 32 n := by
  apply BitVec.eq_of_toNat_eq
  rw [BitVec.toNat_ofNat, Nat.mod_eq_of_lt hn]
  exact h

/-- The numeral of a number below 2³¹ reads the same signed. -/
theorem toInt_ofNat_small (n : Nat) (hn : n < 2 ^ 31) : (BitVec.ofNat 32 n).toInt = (n : Int) := by
  have h : (BitVec.ofNat 32 n).toNat = n := by rw [BitVec.toNat_ofNat]; exact Nat.mod_eq_of_lt (by omega)
  rw [StableHlo.Predicate.toInt_eq_toNat_of_lt (by rw [h]; exact hn), h]

/-- THE INDEX NORMALISATION IS THE IDENTITY ON A NON-NEGATIVE WORD. Indexing first turns a negative index i into
    i + n: it compares the word with 0 (signed), and selects i + n where the comparison holds, i where it does
    not. A non-negative word is not below 0, so the comparison's bit is clear and the select takes its third operand. -/
theorem select_slt_zero (w c : BitVec 32) (hw : 0 ≤ w.toInt) :
    Scalar.select (IntOp.cmpi .slt w 0#32) (IntOp.addi w c) w = w := by
  have h : IntOp.cmpi .slt w 0#32 = 0#1 := by
    apply eq_zero_of_ne_one
    rw [IntOp.cmpi_slt]
    have e0 : (0#32 : BitVec 32).toInt = 0 := by decide
    rw [e0]
    omega
  rw [h, select_zero]

/-- The same for whole vectors: where every word of v is non-negative and z is all zeros, normalising v gives v back. -/
theorem normalise_eq {s : Shape} (v z c : IVec s 32) (hz : ∀ i, z i = 0#32) (hv : ∀ i, 0 ≤ (v i).toInt) :
    select (cmpi .slt v z) (addi v c) v = v := by
  funext i
  show Scalar.select (IntOp.cmpi .slt (v i) (z i)) (IntOp.addi (v i) (c i)) (v i) = v i
  rw [hz i]
  exact select_slt_zero (v i) (c i) (hv i)

/-! ## The scatter of a vector at a column of start indices

Adding updates into a vector at given positions: operand [N], start indices the [n × 1] column, updates [n]; the
operand's one axis is inserted and start-indexed, there is no window axis, the index vector lies on axis 1. Update p
lands on operand element q exactly when its start index, read signed, is q. -/

/-- Update p's start on the operand's axis is the column's entry at row p, read signed. -/
theorem scatter1_start {N n w : Nat} (d : ScatterDims ⟨1, ![N]⟩ ⟨2, ![n, 1]⟩ ⟨1, ![n]⟩)
    (hsd : d.scatterDimsToOperandDims = [0]) (hivd : d.indexVectorDim = 1)
    (idx : IVec ⟨2, ![n, 1]⟩ w) (p : Fin n) (a : Fin 1) :
    d.start (ix1 p) idx a = (idx (ix2 p 0)).toInt := by
  obtain rfl : a = 0 := Subsingleton.elim _ _
  have hm : (0 : Fin 1) ∈ d.scatterDimsToOperandDims := by rw [hsd]; exact List.mem_singleton.mpr rfl
  unfold ScatterDims.start
  rw [dif_pos hm]
  refine congrArg (fun j => (idx j).toInt) ?_
  funext b
  match b with
  | ⟨0, _⟩ =>
    unfold ScatterDims.siIdx
    rw [dif_neg (by rw [hivd]; exact Nat.zero_ne_one)]
    unfold ScatterDims.siCoord
    apply Fin.ext
    simp only [Fin.val_cast]
    have e : ∀ X : Fin 1, ((ix1 p : (⟨1, ![n]⟩ : Shape).Idx) X).val = p.val := fun X => by
      have hX : X = 0 := Subsingleton.elim _ _
      subst hX; rfl
    exact e _
  | ⟨1, _⟩ =>
    unfold ScatterDims.siIdx
    rw [dif_pos (by rw [hivd])]
    apply Fin.ext
    show List.idxOf (0 : Fin 1) d.scatterDimsToOperandDims = 0
    rw [hsd]; simp

/-- With the operand's one axis inserted there is no window coordinate. -/
theorem scatter1_window {N n : Nat} (d : ScatterDims ⟨1, ![N]⟩ ⟨2, ![n, 1]⟩ ⟨1, ![n]⟩)
    (hiw : d.insertedWindowDims = [0]) (p : Fin n) (a : Fin 1) :
    d.window (ix1 p) a = 0 := by
  obtain rfl : a = 0 := Subsingleton.elim _ _
  unfold ScatterDims.window
  rw [dif_neg]
  intro h
  simp [ScatterDims.sKept, Shape.kept, hiw] at h

/-- WHERE AN UPDATE LANDS: update p lands on operand element q exactly when its start index, read signed, is q. -/
theorem scatter1_resultIdx_iff {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (p : Fin n) (q : Fin N) :
    d.resultIdx? (ix1 p) idx = some (ix1 q) ↔ (idx (ix2 p 0)).toInt = (q.val : Int) := by
  unfold ScatterDims.resultIdx?
  constructor
  · intro h
    split at h
    · next hin =>
      have h' := congrFun (Option.some.inj h) 0
      have h'' := congrArg Fin.val h'
      have := hin 0
      rw [scatter1_start d hsd hivd, scatter1_window d hiw] at this
      change (d.start (ix1 p) idx 0 + (d.window (ix1 p) 0 : Int)).toNat = q.val at h''
      rw [scatter1_start d hsd hivd, scatter1_window d hiw] at h''
      omega
    · exact absurd h (by simp)
  · intro h
    have hin : ∀ a, 0 ≤ d.start (ix1 p) idx a + d.window (ix1 p) a ∧ d.start (ix1 p) idx a + d.window (ix1 p) a < (⟨1, ![N]⟩ : Shape).size a := by
      intro a
      obtain rfl : a = 0 := Subsingleton.elim _ _
      rw [scatter1_start d hsd hivd, scatter1_window d hiw, h]
      have := q.isLt
      show 0 ≤ (q.val : Int) + ((0 : Nat) : Int) ∧ (q.val : Int) + ((0 : Nat) : Int) < (N : Int)
      omega
    rw [dif_pos hin]
    congr 1
    funext a
    obtain rfl : a = 0 := Subsingleton.elim _ _
    apply Fin.ext
    show (d.start (ix1 p) idx 0 + (d.window (ix1 p) 0 : Int)).toNat = q.val
    rw [scatter1_start d hsd hivd, scatter1_window d hiw, h]
    omega

/-- THE SCATTER-ADD AT AN ELEMENT, at the ideal instance: the operand's element plus, over all updates, the update where it
    lands on that element and 0 where it does not. -/
theorem hostScatterAdd_at {s si su : Shape} (d : ScatterDims s si su) {w : Nat} (x : FVec Ideal s .f32) (idx : IVec si w)
    (upd : FVec Ideal su .f32) (i : s.Idx) :
    Host.scatterAdd d x idx upd i = x i + ∑ j, if d.resultIdx? j idx = some i then upd j else 0 := by
  simp only [Host.scatterAdd, Ideal.hostScatterAdd_def, Ideal.hostScatterAdd, Finset.sum_filter]

/-- A sum over the indices of a vector is the sum over its coordinate range. -/
theorem sum_idx1 {M : Type*} [AddCommMonoid M] {n : Nat} (g : (⟨1, ![n]⟩ : Shape).Idx → M) :
    ∑ j, g j = ∑ e : Fin n, g (ix1 e) :=
  (Equiv.sum_comp idxEquiv1.symm g).symm

/-! ## Reads: a vector kept as a column, and the take -/

/-- A vector kept as an [n × 1] column reads, at row p, the vector at p. -/
theorem bcast_col_at {α : Type} {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  have e2 : (StableHlo.Predicate.ixP p) = ix2 p (0 : Fin 1) := by
    funext b
    match b with
    | ⟨0, _⟩ => rfl
    | ⟨1, _⟩ => rfl
  have e1 : (ix1 p : (⟨1, ![n]⟩ : Shape).Idx) = Shape.Idx.ofFin p := Shape.Idx.eq_ofFin (ix1 p)
  rw [← e2, e1]
  exact StableHlo.Predicate.bcast_col1 h₁ v p

/-- THE TAKE AT AN IN-RANGE POSITION. Reading a table of N entries at a column of positions: where row p's position, read
    signed, is the number q < N, the clamp does nothing and the result at p is the table's entry q. -/
theorem gather1_at {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (p : Fin n) (q : Fin N)
    (hq : (idx (ix2 p (0 : Fin 1))).toInt = (q.val : Int)) :
    Host.gather d x idx (ix1 p) = x (ix1 q) := by
  have hN : 0 < N := by have := q.isLt; omega
  have e1 : (ix1 p : (⟨1, ![n]⟩ : Shape).Idx) = Shape.Idx.ofFin p := Shape.Idx.eq_ofFin (ix1 p)
  have e2 : (StableHlo.Predicate.ixP p) = ix2 p (0 : Fin 1) := by
    funext b
    match b with
    | ⟨0, _⟩ => rfl
    | ⟨1, _⟩ => rfl
  rw [e1, StableHlo.Predicate.gather_take d hcoll hob hsim hivd x idx p hN]
  refine congrArg x ?_
  funext a
  obtain rfl : a = 0 := Subsingleton.elim _ _
  apply Fin.ext
  show min (idx (StableHlo.Predicate.ixP p)).toInt.toNat (N - 1) = q.val
  rw [e2, hq]
  have := q.isLt
  omega

/-! ## Part B: the program's values

The edge list is read through ei : Fin 2 → Fin 320000 → Fin 10000, the array's words being its entries
(hei : every word's unsigned value is the entry). src e and dst e are the source and destination of edge e of the
330000: the listed ones, then node e - 320000 for the self loops. -/

section Program

open Cert.ReferenceIdeal Cert.ReferenceIdeal.Gen Cert.ReferenceIdeal.ReadP Cert.Inputs

variable (x1 : IVec S2x320000 32) (ei : Fin 2 → Fin 320000 → Fin 10000)

/-- A word of the edge list is the numeral of its entry. -/
theorem edge_word (hei : ∀ r j, (x1 (ix2 r j)).toNat = (ei r j).val) (r : Fin 2) (j : Fin 320000) :
    x1 (ix2 r j) = BitVec.ofNat 32 (ei r j).val :=
  word_eq_ofNat _ _ (by have := (ei r j).isLt; omega) (hei r j)

/-! ### The source and destination vectors: each row of the edge list joined with the node numbers -/

/-- THE SOURCE VECTOR AT EDGE e is the numeral of src e: below 320000 the join reads row 0 of the edge list at e, from there
    on the node numbers at e - 320000. -/
theorem val_main_v3_at (hei : ∀ r j, (x1 (ix2 r j)).toNat = (ei r j).val) (e : Fin 330000) :
    val_main_v3 (F := Ideal) x1 (ix1 e) = BitVec.ofNat 32 (srcOf ei e).val := by
  unfold val_main_v3
  by_cases h : e.val < 320000
  · rw [concatenate_pair_apply_left (t := S330000) (s₁ := S320000) (s₂ := S10000) (0 : Fin 1) _ _ concatenates_S320000_S10000_S330000_d0 (ix1 e) rfl
      (ix1 (⟨e.val, h⟩ : Fin 320000)) (fun b => by obtain rfl : b = 0 := Subsingleton.elim _ _; rfl)]
    rw [val_main_v1_apply, val_main_v0_apply]
    have hidx : idx_main_v0 (idx_main_v1 (ix1 (⟨e.val, h⟩ : Fin 320000))) = ix2 (0 : Fin 2) (⟨e.val, h⟩ : Fin 320000) := by
      funext a
      match a with
      | ⟨0, _⟩ => exact Fin.ext rfl
      | ⟨1, _⟩ => exact Fin.ext (Nat.mod_eq_of_lt h)
    rw [hidx, edge_word x1 ei hei, srcOf, dif_pos h]
  · have h' : 320000 ≤ e.val := Nat.le_of_not_lt h
    have he := e.isLt
    rw [concatenate_pair_apply_right (t := S330000) (s₁ := S320000) (s₂ := S10000) (0 : Fin 1) _ _ concatenates_S320000_S10000_S330000_d0 (ix1 e) rfl rfl
      (ix1 (⟨e.val - 320000, by omega⟩ : Fin 10000)) (fun b hb => absurd (Subsingleton.elim _ _) hb)
      (by show (e.val - 320000) + 320000 = e.val; omega)]
    rw [val_main_v2_apply, srcOf, dif_neg h]

/-- THE DESTINATION VECTOR AT EDGE e is the numeral of dst e (row 1 of the edge list, then the node numbers). -/
theorem val_main_v7_at (hei : ∀ r j, (x1 (ix2 r j)).toNat = (ei r j).val) (e : Fin 330000) :
    val_main_v7 (F := Ideal) x1 (ix1 e) = BitVec.ofNat 32 (dstOf ei e).val := by
  unfold val_main_v7
  by_cases h : e.val < 320000
  · rw [concatenate_pair_apply_left (t := S330000) (s₁ := S320000) (s₂ := S10000) (0 : Fin 1) _ _ concatenates_S320000_S10000_S330000_d0 (ix1 e) rfl
      (ix1 (⟨e.val, h⟩ : Fin 320000)) (fun b => by obtain rfl : b = 0 := Subsingleton.elim _ _; rfl)]
    rw [val_main_v5_apply, val_main_v4_apply]
    have hidx : idx_main_v4 (idx_main_v5 (ix1 (⟨e.val, h⟩ : Fin 320000))) = ix2 (1 : Fin 2) (⟨e.val, h⟩ : Fin 320000) := by
      funext a
      match a with
      | ⟨0, _⟩ => exact Fin.ext rfl
      | ⟨1, _⟩ => exact Fin.ext (Nat.mod_eq_of_lt h)
    rw [hidx, edge_word x1 ei hei, dstOf, dif_pos h]
  · have h' : 320000 ≤ e.val := Nat.le_of_not_lt h
    have he := e.isLt
    rw [concatenate_pair_apply_right (t := S330000) (s₁ := S320000) (s₂ := S10000) (0 : Fin 1) _ _ concatenates_S320000_S10000_S330000_d0 (ix1 e) rfl rfl
      (ix1 (⟨e.val - 320000, by omega⟩ : Fin 10000)) (fun b hb => absurd (Subsingleton.elim _ _) hb)
      (by show (e.val - 320000) + 320000 = e.val; omega)]
    rw [val_main_v6_apply, dstOf, dif_neg h]

/-- The source word read signed is src e. -/
theorem val_main_v3_toInt (hei : ∀ r j, (x1 (ix2 r j)).toNat = (ei r j).val) (e : Fin 330000) :
    (val_main_v3 (F := Ideal) x1 (ix1 e)).toInt = ((srcOf ei e).val : Int) := by
  rw [val_main_v3_at x1 ei hei e]
  exact toInt_ofNat_small _ (by have := (srcOf ei e).isLt; omega)

/-- The destination word read signed is dst e. -/
theorem val_main_v7_toInt (hei : ∀ r j, (x1 (ix2 r j)).toNat = (ei r j).val) (e : Fin 330000) :
    (val_main_v7 (F := Ideal) x1 (ix1 e)).toInt = ((dstOf ei e).val : Int) := by
  rw [val_main_v7_at x1 ei hei e]
  exact toInt_ofNat_small _ (by have := (dstOf ei e).isLt; omega)

/-- The source word read unsigned is src e. -/
theorem val_main_v3_toNat (hei : ∀ r j, (x1 (ix2 r j)).toNat = (ei r j).val) (e : Fin 330000) :
    (val_main_v3 (F := Ideal) x1 (ix1 e)).toNat = (srcOf ei e).val := by
  rw [val_main_v3_at x1 ei hei e, BitVec.toNat_ofNat]
  exact Nat.mod_eq_of_lt (by have := (srcOf ei e).isLt; omega)

/-- The destination word read unsigned is dst e. -/
theorem val_main_v7_toNat (hei : ∀ r j, (x1 (ix2 r j)).toNat = (ei r j).val) (e : Fin 330000) :
    (val_main_v7 (F := Ideal) x1 (ix1 e)).toNat = (dstOf ei e).val := by
  rw [val_main_v7_at x1 ei hei e, BitVec.toNat_ofNat]
  exact Nat.mod_eq_of_lt (by have := (dstOf ei e).isLt; omega)

/-- Every source word is non-negative. -/
theorem val_main_v3_nonneg (hei : ∀ r j, (x1 (ix2 r j)).toNat = (ei r j).val) (i : S330000.Idx) :
    0 ≤ (val_main_v3 (F := Ideal) x1 i).toInt := by
  obtain ⟨e, rfl⟩ : ∃ e : Fin 330000, i = ix1 e := ⟨i 0, eq_ix1 i⟩
  rw [val_main_v3_toInt x1 ei hei]
  exact Int.natCast_nonneg _

/-- Every destination word is non-negative. -/
theorem val_main_v7_nonneg (hei : ∀ r j, (x1 (ix2 r j)).toNat = (ei r j).val) (i : S330000.Idx) :
    0 ≤ (val_main_v7 (F := Ideal) x1 i).toInt := by
  obtain ⟨e, rfl⟩ : ∃ e : Fin 330000, i = ix1 e := ⟨i 0, eq_ix1 i⟩
  rw [val_main_v7_toInt x1 ei hei]
  exact Int.natCast_nonneg _

/-! ### The normalised copies are the vectors themselves

Each gather is preceded by the index normalisation of its positions (compare with 0, add 10000, select). The positions
are node numbers, so non-negative: every normalised copy IS the source (or destination) vector (normalise_eq). -/

theorem val_main_v20_eq (hei : ∀ r j, (x1 (ix2 r j)).toNat = (ei r j).val) :
    val_main_v20 (F := Ideal) x1 = val_main_v3 (F := Ideal) x1 := by
  unfold val_main_v20 val_main_v17 val_main_v19
  exact normalise_eq _ _ _ (fun i => by rw [val_main_v16_apply, val_main_c_apply]) (val_main_v3_nonneg x1 ei hei)

theorem val_main_v27_eq (hei : ∀ r j, (x1 (ix2 r j)).toNat = (ei r j).val) :
    val_main_v27 (F := Ideal) x1 = val_main_v7 (F := Ideal) x1 := by
  unfold val_main_v27 val_main_v24 val_main_v26
  exact normalise_eq _ _ _ (fun i => by rw [val_main_v23_apply, val_main_c_4_apply]) (val_main_v7_nonneg x1 ei hei)

theorem val_main_v36_eq (hei : ∀ r j, (x1 (ix2 r j)).toNat = (ei r j).val) :
    val_main_v36 (F := Ideal) x1 = val_main_v3 (F := Ideal) x1 := by
  unfold val_main_v36 val_main_v33 val_main_v35
  exact normalise_eq _ _ _ (fun i => by rw [val_main_v32_apply, val_main_c_6_apply]) (val_main_v3_nonneg x1 ei hei)

theorem val_main_v79_eq (hei : ∀ r j, (x1 (ix2 r j)).toNat = (ei r j).val) :
    val_main_v79 (F := Ideal) x1 = val_main_v3 (F := Ideal) x1 := by
  unfold val_main_v79 val_main_v76 val_main_v78
  exact normalise_eq _ _ _ (fun i => by rw [val_main_v75_apply, val_main_c_14_apply]) (val_main_v3_nonneg x1 ei hei)

theorem val_main_v122_eq (hei : ∀ r j, (x1 (ix2 r j)).toNat = (ei r j).val) :
    val_main_v122 (F := Ideal) x1 = val_main_v3 (F := Ideal) x1 := by
  unfold val_main_v122 val_main_v119 val_main_v121
  exact normalise_eq _ _ _ (fun i => by rw [val_main_v118_apply, val_main_c_22_apply]) (val_main_v3_nonneg x1 ei hei)

theorem val_main_v165_eq (hei : ∀ r j, (x1 (ix2 r j)).toNat = (ei r j).val) :
    val_main_v165 (F := Ideal) x1 = val_main_v3 (F := Ideal) x1 := by
  unfold val_main_v165 val_main_v162 val_main_v164
  exact normalise_eq _ _ _ (fun i => by rw [val_main_v161_apply, val_main_c_30_apply]) (val_main_v3_nonneg x1 ei hei)

theorem val_main_v208_eq (hei : ∀ r j, (x1 (ix2 r j)).toNat = (ei r j).val) :
    val_main_v208 (F := Ideal) x1 = val_main_v3 (F := Ideal) x1 := by
  unfold val_main_v208 val_main_v205 val_main_v207
  exact normalise_eq _ _ _ (fun i => by rw [val_main_v204_apply, val_main_c_38_apply]) (val_main_v3_nonneg x1 ei hei)

/-! ### The degree: a scatter of ones at the destinations -/

/-- The column of destinations at row e is the destination word of e. -/
theorem val_main_v10_at (e : Fin 330000) :
    val_main_v10 (F := Ideal) x1 (ix2 e (0 : Fin 1)) = val_main_v7 (F := Ideal) x1 (ix1 e) := by
  rw [val_main_v10_apply]
  refine congrArg (val_main_v7 (F := Ideal) x1) ?_
  funext a
  match a with
  | ⟨0, _⟩ => rfl

/-- THE DEGREE. Node d's count: 0, plus a 1 from every edge whose destination is d. -/
theorem val_main_v11_at (hei : ∀ r j, (x1 (ix2 r j)).toNat = (ei r j).val) (d : Fin 10000) :
    val_main_v11 (F := Ideal) x1 (ix1 d) = ((Cert.Spec.deg (dstOf ei) d : ℝ) : EReal) := by
  unfold val_main_v11
  rw [hostScatterAdd_at, sum_idx1]
  have hterm : ∀ e : Fin 330000,
      (if scatter_S10000_S330000x1_S330000_n_0_0_1.resultIdx? (ix1 e) (val_main_v10 (F := Ideal) x1) = some (ix1 d)
        then val_main_v8 (F := Ideal) (ix1 e) else 0)
      = (((if dstOf ei e = d then (1 : ℝ) else 0 : ℝ)) : EReal) := by
    intro e
    have hiff := scatter1_resultIdx_iff scatter_S10000_S330000x1_S330000_n_0_0_1 rfl rfl rfl (val_main_v10 (F := Ideal) x1) e d
    rw [val_main_v10_at, val_main_v7_toInt x1 ei hei] at hiff
    by_cases hc : dstOf ei e = d
    · rw [if_pos (hiff.mpr (by rw [hc])), if_pos hc, val_main_v8_apply, val_main_cst_apply, Ideal.ofBits_def,
        Cert.LibCoe.ofBits_one]
    · have hn : ¬ scatter_S10000_S330000x1_S330000_n_0_0_1.resultIdx? (ix1 e) (val_main_v10 (F := Ideal) x1) = some (ix1 d) :=
        fun h => hc (Fin.ext (by have := hiff.mp h; omega))
      rw [if_neg hn, if_neg hc, EReal.coe_zero]
  rw [Finset.sum_congr rfl (fun e _ => hterm e), Cert.LibCoe.sum_coe, val_main_v9_apply, val_main_cst_0_apply,
    Ideal.ofBits_def, Cert.LibCoe.ofBits_zero, Cert.LibCoe.add_coe, zero_add]
  rfl

/-! ### deg^(-1/2), 0 at an isolated node -/

/-- THE INVERSE SQUARE ROOT OF THE DEGREE: where the count is positive its reciprocal square root, else 0. -/
theorem val_main_v15_at (hei : ∀ r j, (x1 (ix2 r j)).toNat = (ei r j).val) (d : Fin 10000) :
    val_main_v15 (F := Ideal) x1 (ix1 d) = ((Cert.Spec.dinv (dstOf ei) d : ℝ) : EReal) := by
  rw [val_main_v15_apply, val_main_v13_apply, val_main_v14_apply, val_main_v11_at x1 ei hei d, val_main_v12_apply,
    val_main_cst_1_apply, val_main_call0_v1_apply, val_main_call0_v0_apply, val_main_cst_2_apply, Ideal.ofBits_def,
    Cert.LibCoe.ofBits_zero, Ideal.cmpf_def, Ideal.hostUnary_rsqrt_def]
  unfold Cert.Spec.dinv
  by_cases hpos : 0 < Cert.Spec.deg (dstOf ei) d
  · rw [Cert.LibCoe.cmp_ogt_coe_zero_of_pos hpos, select_one, Cert.LibCoe.rsqrt_coe_pos hpos, if_pos hpos]
    rfl
  · rw [Cert.LibCoe.cmp_ogt_coe_zero_of_nonpos (not_lt.mp hpos), select_zero, if_neg hpos]

/-! ### The edge weights: the two gathers and their product -/

/-- The column of normalised sources at row e is the source word of e. -/
theorem val_main_v21_at (hei : ∀ r j, (x1 (ix2 r j)).toNat = (ei r j).val) (e : Fin 330000) :
    val_main_v21 (F := Ideal) x1 (ix2 e (0 : Fin 1)) = val_main_v3 (F := Ideal) x1 (ix1 e) := by
  rw [val_main_v21_apply, val_main_v20_eq x1 ei hei]
  refine congrArg (val_main_v3 (F := Ideal) x1) ?_
  funext a
  match a with
  | ⟨0, _⟩ => rfl

/-- The column of normalised destinations at row e is the destination word of e. -/
theorem val_main_v28_at (hei : ∀ r j, (x1 (ix2 r j)).toNat = (ei r j).val) (e : Fin 330000) :
    val_main_v28 (F := Ideal) x1 (ix2 e (0 : Fin 1)) = val_main_v7 (F := Ideal) x1 (ix1 e) := by
  rw [val_main_v28_apply, val_main_v27_eq x1 ei hei]
  refine congrArg (val_main_v7 (F := Ideal) x1) ?_
  funext a
  match a with
  | ⟨0, _⟩ => rfl

/-- The gather at the sources: edge e reads dinv at src e. -/
theorem val_main_v22_at (hei : ∀ r j, (x1 (ix2 r j)).toNat = (ei r j).val) (e : Fin 330000) :
    val_main_v22 (F := Ideal) x1 (ix1 e) = ((Cert.Spec.dinv (dstOf ei) (srcOf ei e) : ℝ) : EReal) := by
  unfold val_main_v22
  rw [gather1_at gather_S10000_S330000x1_S330000_n_0_n_n_0_1_1 rfl rfl rfl rfl _ _ e (srcOf ei e)
    (by rw [val_main_v21_at x1 ei hei, val_main_v3_toInt x1 ei hei])]
  exact val_main_v15_at x1 ei hei _

/-- The gather at the destinations: edge e reads dinv at dst e. -/
theorem val_main_v29_at (hei : ∀ r j, (x1 (ix2 r j)).toNat = (ei r j).val) (e : Fin 330000) :
    val_main_v29 (F := Ideal) x1 (ix1 e) = ((Cert.Spec.dinv (dstOf ei) (dstOf ei e) : ℝ) : EReal) := by
  unfold val_main_v29
  rw [gather1_at gather_S10000_S330000x1_S330000_n_0_n_n_0_1_1 rfl rfl rfl rfl _ _ e (dstOf ei e)
    (by rw [val_main_v28_at x1 ei hei, val_main_v7_toInt x1 ei hei])]
  exact val_main_v15_at x1 ei hei _

/-- THE WEIGHT OF EDGE e: dinv at its source times dinv at its destination. -/
theorem val_main_v30_at (hei : ∀ r j, (x1 (ix2 r j)).toNat = (ei r j).val) (e : Fin 330000) :
    val_main_v30 (F := Ideal) x1 (ix1 e) = ((Cert.Spec.nrm (srcOf ei) (dstOf ei) e : ℝ) : EReal) := by
  rw [val_main_v30_apply, val_main_v22_at x1 ei hei, val_main_v29_at x1 ei hei, Ideal.mulf_def, Cert.LibCoe.mul_coe]
  rfl

end Program

/-! ## The same under the decoded precondition

R holds the inputs as mathematics and hR says the twenty argument arrays are its coercions; the edge list is the second
array. src = srcOf R.ei, dst = dstOf R.ei. -/

section Reads

open Cert.ReferenceIdeal Cert.ReferenceIdeal.Gen Cert.ReferenceIdeal.ReadP Cert.Inputs

variable {x0 : FVec Ideal S10000x256 .f32} {x1 : IVec S2x320000 32}
  {x2 : FVec Ideal S256x220 .f32} {x3 : FVec Ideal S220 .f32}
  {x4 : FVec Ideal S220x150 .f32} {x5 : FVec Ideal S150 .f32}
  {x6 : FVec Ideal S150x100 .f32} {x7 : FVec Ideal S100 .f32}
  {x8 : FVec Ideal S100x60 .f32} {x9 : FVec Ideal S60 .f32}
  {x10 : FVec Ideal S60x17 .f32} {x11 : FVec Ideal S17 .f32}
  {x12 : FVec Ideal S220 .f32} {x13 : FVec Ideal S220 .f32}
  {x14 : FVec Ideal S150 .f32} {x15 : FVec Ideal S150 .f32}
  {x16 : FVec Ideal S100 .f32} {x17 : FVec Ideal S100 .f32}
  {x18 : FVec Ideal S60 .f32} {x19 : FVec Ideal S60 .f32}
  {R : RealArgs}

/-- The source word of edge e, read signed, is src e. -/
theorem hv3 (hR : Reads x0 x1 x2 x3 x4 x5 x6 x7 x8 x9 x10 x11 x12 x13 x14 x15 x16 x17 x18 x19 R) (e : Fin 330000) :
    (val_main_v3 (F := Ideal) x1 (ix1 e)).toInt = ((srcOf R.ei e).val : Int) :=
  val_main_v3_toInt x1 R.ei hR.hei e

/-- The destination word of edge e, read signed, is dst e. -/
theorem hv7 (hR : Reads x0 x1 x2 x3 x4 x5 x6 x7 x8 x9 x10 x11 x12 x13 x14 x15 x16 x17 x18 x19 R) (e : Fin 330000) :
    (val_main_v7 (F := Ideal) x1 (ix1 e)).toInt = ((dstOf R.ei e).val : Int) :=
  val_main_v7_toInt x1 R.ei hR.hei e

/-- The source word of edge e is the numeral of src e. -/
theorem hv3_word (hR : Reads x0 x1 x2 x3 x4 x5 x6 x7 x8 x9 x10 x11 x12 x13 x14 x15 x16 x17 x18 x19 R) (e : Fin 330000) :
    val_main_v3 (F := Ideal) x1 (ix1 e) = BitVec.ofNat 32 (srcOf R.ei e).val :=
  val_main_v3_at x1 R.ei hR.hei e

/-- The destination word of edge e is the numeral of dst e. -/
theorem hv7_word (hR : Reads x0 x1 x2 x3 x4 x5 x6 x7 x8 x9 x10 x11 x12 x13 x14 x15 x16 x17 x18 x19 R) (e : Fin 330000) :
    val_main_v7 (F := Ideal) x1 (ix1 e) = BitVec.ofNat 32 (dstOf R.ei e).val :=
  val_main_v7_at x1 R.ei hR.hei e

/-- Every normalised copy of the source vector is the source vector; of the destination vector, the destination vector. -/
theorem hv20_eq (hR : Reads x0 x1 x2 x3 x4 x5 x6 x7 x8 x9 x10 x11 x12 x13 x14 x15 x16 x17 x18 x19 R) :
    val_main_v20 (F := Ideal) x1 = val_main_v3 (F := Ideal) x1 := val_main_v20_eq x1 R.ei hR.hei
theorem hv27_eq (hR : Reads x0 x1 x2 x3 x4 x5 x6 x7 x8 x9 x10 x11 x12 x13 x14 x15 x16 x17 x18 x19 R) :
    val_main_v27 (F := Ideal) x1 = val_main_v7 (F := Ideal) x1 := val_main_v27_eq x1 R.ei hR.hei
theorem hv36_eq (hR : Reads x0 x1 x2 x3 x4 x5 x6 x7 x8 x9 x10 x11 x12 x13 x14 x15 x16 x17 x18 x19 R) :
    val_main_v36 (F := Ideal) x1 = val_main_v3 (F := Ideal) x1 := val_main_v36_eq x1 R.ei hR.hei
theorem hv79_eq (hR : Reads x0 x1 x2 x3 x4 x5 x6 x7 x8 x9 x10 x11 x12 x13 x14 x15 x16 x17 x18 x19 R) :
    val_main_v79 (F := Ideal) x1 = val_main_v3 (F := Ideal) x1 := val_main_v79_eq x1 R.ei hR.hei
theorem hv122_eq (hR : Reads x0 x1 x2 x3 x4 x5 x6 x7 x8 x9 x10 x11 x12 x13 x14 x15 x16 x17 x18 x19 R) :
    val_main_v122 (F := Ideal) x1 = val_main_v3 (F := Ideal) x1 := val_main_v122_eq x1 R.ei hR.hei
theorem hv165_eq (hR : Reads x0 x1 x2 x3 x4 x5 x6 x7 x8 x9 x10 x11 x12 x13 x14 x15 x16 x17 x18 x19 R) :
    val_main_v165 (F := Ideal) x1 = val_main_v3 (F := Ideal) x1 := val_main_v165_eq x1 R.ei hR.hei
theorem hv208_eq (hR : Reads x0 x1 x2 x3 x4 x5 x6 x7 x8 x9 x10 x11 x12 x13 x14 x15 x16 x17 x18 x19 R) :
    val_main_v208 (F := Ideal) x1 = val_main_v3 (F := Ideal) x1 := val_main_v208_eq x1 R.ei hR.hei

/-- The normalised copies at edge e, read signed: src e (dst e for the destination's copy). -/
theorem hv20 (hR : Reads x0 x1 x2 x3 x4 x5 x6 x7 x8 x9 x10 x11 x12 x13 x14 x15 x16 x17 x18 x19 R) (e : Fin 330000) :
    (val_main_v20 (F := Ideal) x1 (ix1 e)).toInt = ((srcOf R.ei e).val : Int) := by rw [hv20_eq hR]; exact hv3 hR e
theorem hv27 (hR : Reads x0 x1 x2 x3 x4 x5 x6 x7 x8 x9 x10 x11 x12 x13 x14 x15 x16 x17 x18 x19 R) (e : Fin 330000) :
    (val_main_v27 (F := Ideal) x1 (ix1 e)).toInt = ((dstOf R.ei e).val : Int) := by rw [hv27_eq hR]; exact hv7 hR e
theorem hv36 (hR : Reads x0 x1 x2 x3 x4 x5 x6 x7 x8 x9 x10 x11 x12 x13 x14 x15 x16 x17 x18 x19 R) (e : Fin 330000) :
    (val_main_v36 (F := Ideal) x1 (ix1 e)).toInt = ((srcOf R.ei e).val : Int) := by rw [hv36_eq hR]; exact hv3 hR e
theorem hv79 (hR : Reads x0 x1 x2 x3 x4 x5 x6 x7 x8 x9 x10 x11 x12 x13 x14 x15 x16 x17 x18 x19 R) (e : Fin 330000) :
    (val_main_v79 (F := Ideal) x1 (ix1 e)).toInt = ((srcOf R.ei e).val : Int) := by rw [hv79_eq hR]; exact hv3 hR e
theorem hv122 (hR : Reads x0 x1 x2 x3 x4 x5 x6 x7 x8 x9 x10 x11 x12 x13 x14 x15 x16 x17 x18 x19 R) (e : Fin 330000) :
    (val_main_v122 (F := Ideal) x1 (ix1 e)).toInt = ((srcOf R.ei e).val : Int) := by rw [hv122_eq hR]; exact hv3 hR e
theorem hv165 (hR : Reads x0 x1 x2 x3 x4 x5 x6 x7 x8 x9 x10 x11 x12 x13 x14 x15 x16 x17 x18 x19 R) (e : Fin 330000) :
    (val_main_v165 (F := Ideal) x1 (ix1 e)).toInt = ((srcOf R.ei e).val : Int) := by rw [hv165_eq hR]; exact hv3 hR e
theorem hv208 (hR : Reads x0 x1 x2 x3 x4 x5 x6 x7 x8 x9 x10 x11 x12 x13 x14 x15 x16 x17 x18 x19 R) (e : Fin 330000) :
    (val_main_v208 (F := Ideal) x1 (ix1 e)).toInt = ((srcOf R.ei e).val : Int) := by rw [hv208_eq hR]; exact hv3 hR e

/-- The degree of node d. -/
theorem hv11 (hR : Reads x0 x1 x2 x3 x4 x5 x6 x7 x8 x9 x10 x11 x12 x13 x14 x15 x16 x17 x18 x19 R) (d : Fin 10000) :
    val_main_v11 (F := Ideal) x1 (ix1 d) = ((Cert.Spec.deg (dstOf R.ei) d : ℝ) : EReal) :=
  val_main_v11_at x1 R.ei hR.hei d

/-- deg^(-1/2) of node d, 0 at an isolated node. -/
theorem hv15 (hR : Reads x0 x1 x2 x3 x4 x5 x6 x7 x8 x9 x10 x11 x12 x13 x14 x15 x16 x17 x18 x19 R) (d : Fin 10000) :
    val_main_v15 (F := Ideal) x1 (ix1 d) = ((Cert.Spec.dinv (dstOf R.ei) d : ℝ) : EReal) :=
  val_main_v15_at x1 R.ei hR.hei d

/-- The weight of edge e. -/
theorem hv30 (hR : Reads x0 x1 x2 x3 x4 x5 x6 x7 x8 x9 x10 x11 x12 x13 x14 x15 x16 x17 x18 x19 R) (e : Fin 330000) :
    val_main_v30 (F := Ideal) x1 (ix1 e) = ((Cert.Spec.nrm (srcOf R.ei) (dstOf R.ei) e : ℝ) : EReal) :=
  val_main_v30_at x1 R.ei hR.hei e

end Reads

end Cert.ReferenceIdeal.HandV

end
-- ==== Proof.RefLayer1.lean ====
/-
  The reference network's first layer, read element by element on real inputs.

  The layer is: a dense product `x · W`; for every edge `e` the product's row at the edge's source, scaled by the
  edge's weight; the scaled rows added into the rows of their destinations; a bias row; the rectifier; then the
  batch normalisation over the nodes (column mean, variance as the mean of squared deviations, the reciprocal
  square root of the variance plus a small constant, a scale row and a shift row).

  Two statements. Where the layer's input, the weights and the bias are coercions of reals, the edge index arrays
  read (signed) as nodes `src e` and `dst e`, and the edge weights are the coerced `Spec.nrm`, the rectifier's result
  is the coerced `Spec.relu (Spec.conv …)`. Where the rectifier's result is the coercion of a real matrix `r` and the
  scale and shift rows are coercions of reals, the normalisation's result is the coerced `Spec.bn 10000 epsR r g be`.

  Nothing is evaluated at the arrays' extents: each stage is read at one index from its operands at an index; the two
  stages whose read index depends on an operand's values — the gather of rows and the scatter with addition — are
  read by the two lemmas on rows stated for operands and indices left as variables.
-/
import proofs.«408066_j62380105008311_2_alg».proof.Proof.RefRead
import proofs.«408066_j62380105008311_2_alg».proof.Proof.RefRows
import proofs.«408066_j62380105008311_2_alg».proof.Proof.LibCoe
import proofs.«408066_j62380105008311_2_alg».proof.Proof.Spec
import Idealize.ShloMosaic.Lib.ValueIdx
import Idealize.ShloMosaic.PureOps.Ideal.Laws

noncomputable section

namespace Cert.ReferenceIdeal.HandV

open Cert.ReferenceIdeal Cert.ReferenceIdeal.Gen Cert.ReferenceIdeal.ReadP Idealize.ShloMosaic Idealize.ShloMosaic.ValueIdx
open Cert.LibCoe (epsR)
open scoped BigOperators

/-- Two index functions into a rank-1 shape agree: by the coordinate. -/
local macro "idx_ext1" : tactic => `(tactic| (funext a; match a with | ⟨0, _⟩ => rfl))
/-- Two index functions into a rank-2 shape agree: by the coordinates. -/
local macro "idx_ext2" : tactic => `(tactic| (funext a; match a with | ⟨0, _⟩ => rfl | ⟨1, _⟩ => rfl))

variable (x0 : (⟨S10000x256, .f32⟩ : BufTy).Contents (Elt Ideal)) (x1 : (⟨S2x320000, .i32⟩ : BufTy).Contents (Elt Ideal)) (x2 : (⟨S256x220, .f32⟩ : BufTy).Contents (Elt Ideal)) (x3 x12 x13 : (⟨S220, .f32⟩ : BufTy).Contents (Elt Ideal))

/-- THE CONVOLUTION AND THE RECTIFIER. `xr` is the layer's input, `W` and `bias` its weights, as reals; `src` and `dst`
    the edges' end nodes; the stage of edge weights holds `Spec.nrm src dst`. -/
theorem v48_read_L1 (src dst : Fin 330000 → Fin 10000) (xr : Fin 10000 → Fin 256 → ℝ) (W : Fin 256 → Fin 220 → ℝ)
    (bias : Fin 220 → ℝ)
    (h3 : ∀ e : Fin 330000, (val_main_v3 (F := Ideal) x1 (ix1 e)).toInt = (((src e).val : Nat) : Int))
    (h7 : ∀ e : Fin 330000, (val_main_v7 (F := Ideal) x1 (ix1 e)).toInt = (((dst e).val : Nat) : Int))
    (hnrm : ∀ e : Fin 330000, val_main_v30 (F := Ideal) x1 (ix1 e) = ((Cert.Spec.nrm src dst e : ℝ) : EReal))
    (hin : ∀ (i : Fin 10000) (k : Fin 256), x0 (ix2 i k) = ((xr i k : ℝ) : EReal))
    (hW : ∀ (k : Fin 256) (j : Fin 220), x2 (ix2 k j) = ((W k j : ℝ) : EReal))
    (hb : ∀ j : Fin 220, x3 (ix1 j) = ((bias j : ℝ) : EReal))
    (i : Fin 10000) (f : Fin 220) :
    val_main_v48 (F := Ideal) x0 x1 x2 x3 (ix2 i f)
      = ((Cert.Spec.relu (Cert.Spec.conv src dst xr W bias) i f : ℝ) : EReal) := by
  -- the dense product
  have h31 : ∀ (i : Fin 10000) (j : Fin 220),
      val_main_v31 (F := Ideal) x0 x2 (ix2 i j) = ((Cert.Spec.lin xr W i j : ℝ) : EReal) := by
    intro i j
    rw [val_main_v31_apply]
    have hl : ∀ k : Fin 256, lidx_main_v31 (ix2 i j) k = ix2 i k := fun k => by idx_ext2
    have hr : ∀ k : Fin 256, ridx_main_v31 (ix2 i j) k = ix2 k j := fun k => by idx_ext2
    simp only [hl, hr, hin, hW, Cert.LibCoe.mul_coe]
    rw [Cert.LibCoe.sum_coe]
    rfl
  -- a source index is not negative: the select that shifts negative indices keeps it
  have h36 : ∀ e : Fin 330000, (val_main_v36 (F := Ideal) x1 (ix1 e)).toInt = (((src e).val : Nat) : Int) := by
    intro e
    rw [val_main_v36_apply, val_main_v33_apply, val_main_v32_apply, val_main_c_6_apply]
    have h := h3 e
    generalize val_main_v3 (F := Ideal) x1 (ix1 e) = w at h ⊢
    have hlt : w.slt 0#32 = false := by
      simp only [BitVec.slt, BitVec.toInt_zero, decide_eq_false_iff_not, Int.not_lt]
      rw [h]; omega
    have hz : IntOp.cmpi .slt w 0#32 = 0#1 := by
      show BitVec.ofBool (w.slt 0#32) = 0#1
      rw [hlt]; rfl
    rw [hz, select_zero]
    exact h
  -- the gathered row of edge `e` is the product's row at `src e`
  have h38 : ∀ (e : Fin 330000) (f : Fin 220),
      val_main_v38 (F := Ideal) x0 x1 x2 (ix2 e f) = ((Cert.Spec.lin xr W (src e) f : ℝ) : EReal) := by
    intro e f
    unfold val_main_v38
    have h37 : (val_main_v37 (F := Ideal) x1 (ix2 e 0)).toInt = (((src e).val : Nat) : Int) := by
      rw [val_main_v37_apply, show idx_main_v37 (ix2 e 0) = ix1 e from by idx_ext1]
      exact h36 e
    rw [show gather_S10000x220_S330000x1_S330000x220_1_0_n_n_0_1_1220 = Cert.Rows.gatherRows 10000 330000 220 Facts₀.gather_S10000x220_S330000x1_S330000x220_1_0_n_n_0_1_1220_wf from rfl,
      Cert.Rows.gatherRows_apply_of_eq _ _ _ e f (src e) h37]
    exact h31 (src e) f
  -- scaled by the edge's weight
  have h41 : ∀ (e : Fin 330000) (f : Fin 220), val_main_v41 (F := Ideal) x0 x1 x2 (ix2 e f)
      = ((Cert.Spec.lin xr W (src e) f * Cert.Spec.nrm src dst e : ℝ) : EReal) := by
    intro e f
    rw [val_main_v41_apply, val_main_v40_apply, val_main_v39_apply,
      show idx_main_v39 (idx_main_v40 (ix2 e f)) = ix1 e from by idx_ext1, hnrm e, h38 e f, Ideal.mulf_def,
      Cert.LibCoe.mul_coe]
  -- added into the destinations' rows
  have h44 : ∀ (d : Fin 10000) (f : Fin 220), val_main_v44 (F := Ideal) x0 x1 x2 (ix2 d f)
      = ((Cert.Spec.aggS src dst (Cert.Spec.lin xr W) d f : ℝ) : EReal) := by
    intro d f
    unfold val_main_v44
    generalize hA : val_main_v42 (F := Ideal) = A
    generalize hI : val_main_v43 (F := Ideal) x1 = I
    generalize hU : val_main_v41 (F := Ideal) x0 x1 x2 = U
    simp only [Host.scatterAdd, Ideal.hostScatterAdd_def]
    rw [show scatter_S10000x220_S330000x1_S330000x220_1_0_0_1 = Cert.Rows.scatterRows 10000 330000 220 Facts₀.scatter_S10000x220_S330000x1_S330000x220_1_0_0_1_wf from rfl,
      Cert.Rows.scatterRows_add_apply _ A I U dst (fun e => by
      rw [← hI, val_main_v43_apply, show idx_main_v43 (ix2 e 0) = ix1 e from by idx_ext1]
      exact h7 e)]
    subst hA hU
    rw [val_main_v42_apply, val_main_cst_8_apply, Ideal.ofBits_def, Cert.LibCoe.ofBits_zero]
    simp only [h41]
    have hite : ∀ e : Fin 330000,
        (if dst e = d then ((Cert.Spec.lin xr W (src e) f * Cert.Spec.nrm src dst e : ℝ) : EReal) else 0)
          = (((if dst e = d then Cert.Spec.lin xr W (src e) f * Cert.Spec.nrm src dst e else 0 : ℝ)) : EReal) := by
      intro e
      by_cases hd : dst e = d
      · rw [if_pos hd, if_pos hd]
      · rw [if_neg hd, if_neg hd, EReal.coe_zero]
    simp only [hite]
    rw [Cert.LibCoe.sum_coe, Cert.LibCoe.add_coe, zero_add]
    rfl
  -- the bias row
  have h47 : ∀ (d : Fin 10000) (f : Fin 220), val_main_v47 (F := Ideal) x0 x1 x2 x3 (ix2 d f)
      = ((Cert.Spec.conv src dst xr W bias d f : ℝ) : EReal) := by
    intro d f
    rw [val_main_v47_apply, val_main_v46_apply, val_main_v45_apply,
      show idx_main_v45 (idx_main_v46 (ix2 d f)) = ix1 f from by idx_ext1, hb f, h44 d f, Ideal.addf_def,
      Cert.LibCoe.add_coe]
    rfl
  -- the rectifier
  rw [val_main_v48_apply, val_main_call1_v0_apply, val_main_call1_cst_apply, Ideal.ofBits_def, Cert.LibCoe.ofBits_zero,
    h47 i f, Ideal.maximumf_def, Cert.LibCoe.max_coe]
  rfl

/-- The variance of a real column is not negative. -/
theorem var_nonneg_L1 (r : Fin 10000 → Fin 220 → ℝ) (f : Fin 220) : 0 ≤ Cert.Spec.var 10000 r f := by
  unfold Cert.Spec.var
  exact div_nonneg (Finset.sum_nonneg fun i _ => mul_self_nonneg _) (by norm_num)

/-- THE BATCH NORMALISATION. `r` is the rectifier's result, `g` and `be` the scale and shift rows, as reals. -/
theorem v73_read_L1 (r : Fin 10000 → Fin 220 → ℝ) (g be : Fin 220 → ℝ)
    (h48 : ∀ (i : Fin 10000) (f : Fin 220), val_main_v48 (F := Ideal) x0 x1 x2 x3 (ix2 i f) = ((r i f : ℝ) : EReal))
    (hg : ∀ j : Fin 220, x12 (ix1 j) = ((g j : ℝ) : EReal))
    (hbe : ∀ j : Fin 220, x13 (ix1 j) = ((be j : ℝ) : EReal))
    (i : Fin 10000) (f : Fin 220) :
    val_main_v73 (F := Ideal) x0 x1 x2 x3 x12 x13 (ix2 i f)
      = ((Cert.Spec.bn 10000 epsR r g be i f : ℝ) : EReal) := by
  -- the column mean
  have h49 : ∀ f : Fin 220, val_main_v49 (F := Ideal) x0 x1 x2 x3 (ix1 f) = ((Cert.Spec.colSum r f : ℝ) : EReal) := by
    intro f
    rw [val_main_v49_apply, val_main_cst_9_apply, Ideal.ofBits_def, Cert.LibCoe.ofBits_zero]
    have hk : ∀ k : Fin 10000, idx_main_v49 (ix1 f) k = ix2 k f := fun k => by idx_ext2
    simp only [hk, h48]
    rw [Cert.LibCoe.sum_coe, Cert.LibCoe.add_coe, zero_add]
    rfl
  have h51 : ∀ f : Fin 220, val_main_v51 (F := Ideal) x0 x1 x2 x3 (ix1 f) = ((Cert.Spec.mean 10000 r f : ℝ) : EReal) := by
    intro f
    rw [val_main_v51_apply, val_main_v50_apply, val_main_cst_10_apply, Ideal.ofBits_def, Cert.LibCoe.ofBits_10000, h49 f,
      Ideal.hostDivf_def, Cert.LibCoe.div_coe_coe _ (by norm_num)]
    rfl
  -- the variance, by deviations
  have h54 : ∀ (i : Fin 10000) (f : Fin 220), val_main_v54 (F := Ideal) x0 x1 x2 x3 (ix2 i f)
      = ((r i f - Cert.Spec.mean 10000 r f : ℝ) : EReal) := by
    intro i f
    rw [val_main_v54_apply, val_main_v53_apply, val_main_v52_apply,
      show idx_main_v52 (idx_main_v53 (ix2 i f)) = ix1 f from by idx_ext1, h51 f, h48 i f, Ideal.subf_def,
      Cert.LibCoe.sub_coe]
  have h58 : ∀ f : Fin 220, val_main_v58 (F := Ideal) x0 x1 x2 x3 (ix1 f) = ((Cert.Spec.var 10000 r f : ℝ) : EReal) := by
    intro f
    rw [val_main_v58_apply, val_main_v57_apply, val_main_cst_12_apply, Ideal.ofBits_def, Cert.LibCoe.ofBits_10000,
      val_main_v56_apply, val_main_cst_11_apply, Ideal.ofBits_def, Cert.LibCoe.ofBits_zero]
    have hk : ∀ k : Fin 10000, idx_main_v56 (ix1 f) k = ix2 k f := fun k => by idx_ext2
    simp only [hk, val_main_v55_apply, h54, Ideal.mulf_def, Cert.LibCoe.mul_coe]
    rw [Cert.LibCoe.sum_coe, Cert.LibCoe.add_coe, zero_add, Ideal.hostDivf_def, Cert.LibCoe.div_coe_coe _ (by norm_num)]
    rfl
  -- the reciprocal square root of the variance plus the constant, which is positive
  have h64 : ∀ f : Fin 220, val_main_v64 (F := Ideal) x0 x1 x2 x3 (ix1 f)
      = ((Cert.Spec.rsq (Cert.Spec.var 10000 r f + epsR) : ℝ) : EReal) := by
    intro f
    have hpos : 0 < Cert.Spec.var 10000 r f + epsR := add_pos_of_nonneg_of_pos (var_nonneg_L1 r f) Cert.LibCoe.epsR_pos
    rw [val_main_v64_apply, val_main_v63_apply, val_main_v62_apply, val_main_cst_13_apply, Ideal.ofBits_def,
      Cert.LibCoe.ofBits_eps, h58 f, Ideal.addf_def, Cert.LibCoe.add_coe, Ideal.hostUnary_rsqrt_def,
      Cert.LibCoe.rsqrt_coe_pos hpos]
    rfl
  -- the deviation, scaled and shifted
  have h61 : val_main_v61 (F := Ideal) x0 x1 x2 x3 (ix2 i f) = ((r i f - Cert.Spec.mean 10000 r f : ℝ) : EReal) := by
    rw [val_main_v61_apply, val_main_v60_apply, val_main_v59_apply,
      show idx_main_v59 (idx_main_v60 (ix2 i f)) = ix1 f from by idx_ext1, h51 f, h48 i f, Ideal.subf_def,
      Cert.LibCoe.sub_coe]
  rw [val_main_v73_apply, val_main_v72_apply, val_main_v71_apply,
    show idx_main_v71 (idx_main_v72 (ix2 i f)) = ix1 f from by idx_ext1, hbe f,
    val_main_v70_apply, val_main_v69_apply, val_main_v68_apply,
    show idx_main_v68 (idx_main_v69 (ix2 i f)) = ix1 f from by idx_ext1, hg f,
    val_main_v67_apply, val_main_v66_apply, val_main_v65_apply,
    show idx_main_v65 (idx_main_v66 (ix2 i f)) = ix1 f from by idx_ext1, h64 f, h61]
  simp only [Ideal.mulf_def, Ideal.addf_def, Cert.LibCoe.mul_coe, Cert.LibCoe.add_coe]
  rfl

end Cert.ReferenceIdeal.HandV

end
-- ==== Proof.RefLayer2.lean ====
/-
  The reference network's second layer, read element by element on real inputs.

  The layer is: a dense product `x · W`; for every edge `e` the product's row at the edge's source, scaled by the
  edge's weight; the scaled rows added into the rows of their destinations; a bias row; the rectifier; then the
  batch normalisation over the nodes (column mean, variance as the mean of squared deviations, the reciprocal
  square root of the variance plus a small constant, a scale row and a shift row).

  Two statements. Where the layer's input, the weights and the bias are coercions of reals, the edge index arrays
  read (signed) as nodes `src e` and `dst e`, and the edge weights are the coerced `Spec.nrm`, the rectifier's result
  is the coerced `Spec.relu (Spec.conv …)`. Where the rectifier's result is the coercion of a real matrix `r` and the
  scale and shift rows are coercions of reals, the normalisation's result is the coerced `Spec.bn 10000 epsR r g be`.

  Nothing is evaluated at the arrays' extents: each stage is read at one index from its operands at an index; the two
  stages whose read index depends on an operand's values — the gather of rows and the scatter with addition — are
  read by the two lemmas on rows stated for operands and indices left as variables.
-/
import proofs.«408066_j62380105008311_2_alg».proof.Proof.RefRead
import proofs.«408066_j62380105008311_2_alg».proof.Proof.RefRows
import proofs.«408066_j62380105008311_2_alg».proof.Proof.LibCoe
import proofs.«408066_j62380105008311_2_alg».proof.Proof.Spec
import Idealize.ShloMosaic.Lib.ValueIdx
import Idealize.ShloMosaic.PureOps.Ideal.Laws

noncomputable section

namespace Cert.ReferenceIdeal.HandV

open Cert.ReferenceIdeal Cert.ReferenceIdeal.Gen Cert.ReferenceIdeal.ReadP Idealize.ShloMosaic Idealize.ShloMosaic.ValueIdx
open Cert.LibCoe (epsR)
open scoped BigOperators

/-- Two index functions into a rank-1 shape agree: by the coordinate. -/
local macro "idx_ext1" : tactic => `(tactic| (funext a; match a with | ⟨0, _⟩ => rfl))
/-- Two index functions into a rank-2 shape agree: by the coordinates. -/
local macro "idx_ext2" : tactic => `(tactic| (funext a; match a with | ⟨0, _⟩ => rfl | ⟨1, _⟩ => rfl))

variable (x0 : (⟨S10000x256, .f32⟩ : BufTy).Contents (Elt Ideal)) (x1 : (⟨S2x320000, .i32⟩ : BufTy).Contents (Elt Ideal)) (x2 : (⟨S256x220, .f32⟩ : BufTy).Contents (Elt Ideal)) (x3 : (⟨S220, .f32⟩ : BufTy).Contents (Elt Ideal)) (x4 : (⟨S220x150, .f32⟩ : BufTy).Contents (Elt Ideal)) (x5 : (⟨S150, .f32⟩ : BufTy).Contents (Elt Ideal)) (x12 : (⟨S220, .f32⟩ : BufTy).Contents (Elt Ideal)) (x13 : (⟨S220, .f32⟩ : BufTy).Contents (Elt Ideal)) (x14 : (⟨S150, .f32⟩ : BufTy).Contents (Elt Ideal)) (x15 : (⟨S150, .f32⟩ : BufTy).Contents (Elt Ideal))

/-- THE CONVOLUTION AND THE RECTIFIER. `xr` is the layer's input, `W` and `bias` its weights, as reals; `src` and `dst`
    the edges' end nodes; the stage of edge weights holds `Spec.nrm src dst`. -/
theorem v91_read_L2 (src dst : Fin 330000 → Fin 10000) (xr : Fin 10000 → Fin 220 → ℝ) (W : Fin 220 → Fin 150 → ℝ)
    (bias : Fin 150 → ℝ)
    (h3 : ∀ e : Fin 330000, (val_main_v3 (F := Ideal) x1 (ix1 e)).toInt = (((src e).val : Nat) : Int))
    (h7 : ∀ e : Fin 330000, (val_main_v7 (F := Ideal) x1 (ix1 e)).toInt = (((dst e).val : Nat) : Int))
    (hnrm : ∀ e : Fin 330000, val_main_v30 (F := Ideal) x1 (ix1 e) = ((Cert.Spec.nrm src dst e : ℝ) : EReal))
    (hin : ∀ (i : Fin 10000) (k : Fin 220), (val_main_v73 (F := Ideal) x0 x1 x2 x3 x12 x13) (ix2 i k) = ((xr i k : ℝ) : EReal))
    (hW : ∀ (k : Fin 220) (j : Fin 150), x4 (ix2 k j) = ((W k j : ℝ) : EReal))
    (hb : ∀ j : Fin 150, x5 (ix1 j) = ((bias j : ℝ) : EReal))
    (i : Fin 10000) (f : Fin 150) :
    val_main_v91 (F := Ideal) x0 x1 x2 x3 x4 x5 x12 x13 (ix2 i f)
      = ((Cert.Spec.relu (Cert.Spec.conv src dst xr W bias) i f : ℝ) : EReal) := by
  -- the dense product
  have h74 : ∀ (i : Fin 10000) (j : Fin 150),
      val_main_v74 (F := Ideal) x0 x1 x2 x3 x4 x12 x13 (ix2 i j) = ((Cert.Spec.lin xr W i j : ℝ) : EReal) := by
    intro i j
    rw [val_main_v74_apply]
    have hl : ∀ k : Fin 220, lidx_main_v74 (ix2 i j) k = ix2 i k := fun k => by idx_ext2
    have hr : ∀ k : Fin 220, ridx_main_v74 (ix2 i j) k = ix2 k j := fun k => by idx_ext2
    simp only [hl, hr, hin, hW, Cert.LibCoe.mul_coe]
    rw [Cert.LibCoe.sum_coe]
    rfl
  -- a source index is not negative: the select that shifts negative indices keeps it
  have h79 : ∀ e : Fin 330000, (val_main_v79 (F := Ideal) x1 (ix1 e)).toInt = (((src e).val : Nat) : Int) := by
    intro e
    rw [val_main_v79_apply, val_main_v76_apply, val_main_v75_apply, val_main_c_14_apply]
    have h := h3 e
    generalize val_main_v3 (F := Ideal) x1 (ix1 e) = w at h ⊢
    have hlt : w.slt 0#32 = false := by
      simp only [BitVec.slt, BitVec.toInt_zero, decide_eq_false_iff_not, Int.not_lt]
      rw [h]; omega
    have hz : IntOp.cmpi .slt w 0#32 = 0#1 := by
      show BitVec.ofBool (w.slt 0#32) = 0#1
      rw [hlt]; rfl
    rw [hz, select_zero]
    exact h
  -- the gathered row of edge `e` is the product's row at `src e`
  have h81 : ∀ (e : Fin 330000) (f : Fin 150),
      val_main_v81 (F := Ideal) x0 x1 x2 x3 x4 x12 x13 (ix2 e f) = ((Cert.Spec.lin xr W (src e) f : ℝ) : EReal) := by
    intro e f
    unfold val_main_v81
    have h80 : (val_main_v80 (F := Ideal) x1 (ix2 e 0)).toInt = (((src e).val : Nat) : Int) := by
      rw [val_main_v80_apply, show idx_main_v80 (ix2 e 0) = ix1 e from by idx_ext1]
      exact h79 e
    rw [show gather_S10000x150_S330000x1_S330000x150_1_0_n_n_0_1_1150 = Cert.Rows.gatherRows 10000 330000 150 Facts₀.gather_S10000x150_S330000x1_S330000x150_1_0_n_n_0_1_1150_wf from rfl,
      Cert.Rows.gatherRows_apply_of_eq _ _ _ e f (src e) h80]
    exact h74 (src e) f
  -- scaled by the edge's weight
  have h84 : ∀ (e : Fin 330000) (f : Fin 150), val_main_v84 (F := Ideal) x0 x1 x2 x3 x4 x12 x13 (ix2 e f)
      = ((Cert.Spec.lin xr W (src e) f * Cert.Spec.nrm src dst e : ℝ) : EReal) := by
    intro e f
    rw [val_main_v84_apply, val_main_v83_apply, val_main_v82_apply,
      show idx_main_v82 (idx_main_v83 (ix2 e f)) = ix1 e from by idx_ext1, hnrm e, h81 e f, Ideal.mulf_def,
      Cert.LibCoe.mul_coe]
  -- added into the destinations' rows
  have h87 : ∀ (d : Fin 10000) (f : Fin 150), val_main_v87 (F := Ideal) x0 x1 x2 x3 x4 x12 x13 (ix2 d f)
      = ((Cert.Spec.aggS src dst (Cert.Spec.lin xr W) d f : ℝ) : EReal) := by
    intro d f
    unfold val_main_v87
    generalize hA : val_main_v85 (F := Ideal) = A
    generalize hI : val_main_v86 (F := Ideal) x1 = I
    generalize hU : val_main_v84 (F := Ideal) x0 x1 x2 x3 x4 x12 x13 = U
    simp only [Host.scatterAdd, Ideal.hostScatterAdd_def]
    rw [show scatter_S10000x150_S330000x1_S330000x150_1_0_0_1 = Cert.Rows.scatterRows 10000 330000 150 Facts₀.scatter_S10000x150_S330000x1_S330000x150_1_0_0_1_wf from rfl,
      Cert.Rows.scatterRows_add_apply _ A I U dst (fun e => by
      rw [← hI, val_main_v86_apply, show idx_main_v86 (ix2 e 0) = ix1 e from by idx_ext1]
      exact h7 e)]
    subst hA hU
    rw [val_main_v85_apply, val_main_cst_16_apply, Ideal.ofBits_def, Cert.LibCoe.ofBits_zero]
    simp only [h84]
    have hite : ∀ e : Fin 330000,
        (if dst e = d then ((Cert.Spec.lin xr W (src e) f * Cert.Spec.nrm src dst e : ℝ) : EReal) else 0)
          = (((if dst e = d then Cert.Spec.lin xr W (src e) f * Cert.Spec.nrm src dst e else 0 : ℝ)) : EReal) := by
      intro e
      by_cases hd : dst e = d
      · rw [if_pos hd, if_pos hd]
      · rw [if_neg hd, if_neg hd, EReal.coe_zero]
    simp only [hite]
    rw [Cert.LibCoe.sum_coe, Cert.LibCoe.add_coe, zero_add]
    rfl
  -- the bias row
  have h90 : ∀ (d : Fin 10000) (f : Fin 150), val_main_v90 (F := Ideal) x0 x1 x2 x3 x4 x5 x12 x13 (ix2 d f)
      = ((Cert.Spec.conv src dst xr W bias d f : ℝ) : EReal) := by
    intro d f
    rw [val_main_v90_apply, val_main_v89_apply, val_main_v88_apply,
      show idx_main_v88 (idx_main_v89 (ix2 d f)) = ix1 f from by idx_ext1, hb f, h87 d f, Ideal.addf_def,
      Cert.LibCoe.add_coe]
    rfl
  -- the rectifier
  rw [val_main_v91_apply, val_main_call2_v0_apply, val_main_call2_cst_apply, Ideal.ofBits_def, Cert.LibCoe.ofBits_zero,
    h90 i f, Ideal.maximumf_def, Cert.LibCoe.max_coe]
  rfl

/-- The variance of a real column is not negative. -/
theorem var_nonneg_L2 (r : Fin 10000 → Fin 150 → ℝ) (f : Fin 150) : 0 ≤ Cert.Spec.var 10000 r f := by
  unfold Cert.Spec.var
  exact div_nonneg (Finset.sum_nonneg fun i _ => mul_self_nonneg _) (by norm_num)

/-- THE BATCH NORMALISATION. `r` is the rectifier's result, `g` and `be` the scale and shift rows, as reals. -/
theorem v116_read_L2 (r : Fin 10000 → Fin 150 → ℝ) (g be : Fin 150 → ℝ)
    (h91 : ∀ (i : Fin 10000) (f : Fin 150), val_main_v91 (F := Ideal) x0 x1 x2 x3 x4 x5 x12 x13 (ix2 i f) = ((r i f : ℝ) : EReal))
    (hg : ∀ j : Fin 150, x14 (ix1 j) = ((g j : ℝ) : EReal))
    (hbe : ∀ j : Fin 150, x15 (ix1 j) = ((be j : ℝ) : EReal))
    (i : Fin 10000) (f : Fin 150) :
    val_main_v116 (F := Ideal) x0 x1 x2 x3 x4 x5 x12 x13 x14 x15 (ix2 i f)
      = ((Cert.Spec.bn 10000 epsR r g be i f : ℝ) : EReal) := by
  -- the column mean
  have h92 : ∀ f : Fin 150, val_main_v92 (F := Ideal) x0 x1 x2 x3 x4 x5 x12 x13 (ix1 f) = ((Cert.Spec.colSum r f : ℝ) : EReal) := by
    intro f
    rw [val_main_v92_apply, val_main_cst_17_apply, Ideal.ofBits_def, Cert.LibCoe.ofBits_zero]
    have hk : ∀ k : Fin 10000, idx_main_v92 (ix1 f) k = ix2 k f := fun k => by idx_ext2
    simp only [hk, h91]
    rw [Cert.LibCoe.sum_coe, Cert.LibCoe.add_coe, zero_add]
    rfl
  have h94 : ∀ f : Fin 150, val_main_v94 (F := Ideal) x0 x1 x2 x3 x4 x5 x12 x13 (ix1 f) = ((Cert.Spec.mean 10000 r f : ℝ) : EReal) := by
    intro f
    rw [val_main_v94_apply, val_main_v93_apply, val_main_cst_18_apply, Ideal.ofBits_def, Cert.LibCoe.ofBits_10000, h92 f,
      Ideal.hostDivf_def, Cert.LibCoe.div_coe_coe _ (by norm_num)]
    rfl
  -- the variance, by deviations
  have h97 : ∀ (i : Fin 10000) (f : Fin 150), val_main_v97 (F := Ideal) x0 x1 x2 x3 x4 x5 x12 x13 (ix2 i f)
      = ((r i f - Cert.Spec.mean 10000 r f : ℝ) : EReal) := by
    intro i f
    rw [val_main_v97_apply, val_main_v96_apply, val_main_v95_apply,
      show idx_main_v95 (idx_main_v96 (ix2 i f)) = ix1 f from by idx_ext1, h94 f, h91 i f, Ideal.subf_def,
      Cert.LibCoe.sub_coe]
  have h101 : ∀ f : Fin 150, val_main_v101 (F := Ideal) x0 x1 x2 x3 x4 x5 x12 x13 (ix1 f) = ((Cert.Spec.var 10000 r f : ℝ) : EReal) := by
    intro f
    rw [val_main_v101_apply, val_main_v100_apply, val_main_cst_20_apply, Ideal.ofBits_def, Cert.LibCoe.ofBits_10000,
      val_main_v99_apply, val_main_cst_19_apply, Ideal.ofBits_def, Cert.LibCoe.ofBits_zero]
    have hk : ∀ k : Fin 10000, idx_main_v99 (ix1 f) k = ix2 k f := fun k => by idx_ext2
    simp only [hk, val_main_v98_apply, h97, Ideal.mulf_def, Cert.LibCoe.mul_coe]
    rw [Cert.LibCoe.sum_coe, Cert.LibCoe.add_coe, zero_add, Ideal.hostDivf_def, Cert.LibCoe.div_coe_coe _ (by norm_num)]
    rfl
  -- the reciprocal square root of the variance plus the constant, which is positive
  have h107 : ∀ f : Fin 150, val_main_v107 (F := Ideal) x0 x1 x2 x3 x4 x5 x12 x13 (ix1 f)
      = ((Cert.Spec.rsq (Cert.Spec.var 10000 r f + epsR) : ℝ) : EReal) := by
    intro f
    have hpos : 0 < Cert.Spec.var 10000 r f + epsR := add_pos_of_nonneg_of_pos (var_nonneg_L2 r f) Cert.LibCoe.epsR_pos
    rw [val_main_v107_apply, val_main_v106_apply, val_main_v105_apply, val_main_cst_21_apply, Ideal.ofBits_def,
      Cert.LibCoe.ofBits_eps, h101 f, Ideal.addf_def, Cert.LibCoe.add_coe, Ideal.hostUnary_rsqrt_def,
      Cert.LibCoe.rsqrt_coe_pos hpos]
    rfl
  -- the deviation, scaled and shifted
  have h104 : val_main_v104 (F := Ideal) x0 x1 x2 x3 x4 x5 x12 x13 (ix2 i f) = ((r i f - Cert.Spec.mean 10000 r f : ℝ) : EReal) := by
    rw [val_main_v104_apply, val_main_v103_apply, val_main_v102_apply,
      show idx_main_v102 (idx_main_v103 (ix2 i f)) = ix1 f from by idx_ext1, h94 f, h91 i f, Ideal.subf_def,
      Cert.LibCoe.sub_coe]
  rw [val_main_v116_apply, val_main_v115_apply, val_main_v114_apply,
    show idx_main_v114 (idx_main_v115 (ix2 i f)) = ix1 f from by idx_ext1, hbe f,
    val_main_v113_apply, val_main_v112_apply, val_main_v111_apply,
    show idx_main_v111 (idx_main_v112 (ix2 i f)) = ix1 f from by idx_ext1, hg f,
    val_main_v110_apply, val_main_v109_apply, val_main_v108_apply,
    show idx_main_v108 (idx_main_v109 (ix2 i f)) = ix1 f from by idx_ext1, h107 f, h104]
  simp only [Ideal.mulf_def, Ideal.addf_def, Cert.LibCoe.mul_coe, Cert.LibCoe.add_coe]
  rfl

end Cert.ReferenceIdeal.HandV

end
-- ==== Proof.RefLayer3.lean ====
/-
  The reference network's third layer, read element by element on real inputs.

  The layer is: a dense product `x · W`; for every edge `e` the product's row at the edge's source, scaled by the
  edge's weight; the scaled rows added into the rows of their destinations; a bias row; the rectifier; then the
  batch normalisation over the nodes (column mean, variance as the mean of squared deviations, the reciprocal
  square root of the variance plus a small constant, a scale row and a shift row).

  Two statements. Where the layer's input, the weights and the bias are coercions of reals, the edge index arrays
  read (signed) as nodes `src e` and `dst e`, and the edge weights are the coerced `Spec.nrm`, the rectifier's result
  is the coerced `Spec.relu (Spec.conv …)`. Where the rectifier's result is the coercion of a real matrix `r` and the
  scale and shift rows are coercions of reals, the normalisation's result is the coerced `Spec.bn 10000 epsR r g be`.

  Nothing is evaluated at the arrays' extents: each stage is read at one index from its operands at an index; the two
  stages whose read index depends on an operand's values — the gather of rows and the scatter with addition — are
  read by the two lemmas on rows stated for operands and indices left as variables.
-/
import proofs.«408066_j62380105008311_2_alg».proof.Proof.RefRead
import proofs.«408066_j62380105008311_2_alg».proof.Proof.RefRows
import proofs.«408066_j62380105008311_2_alg».proof.Proof.LibCoe
import proofs.«408066_j62380105008311_2_alg».proof.Proof.Spec
import Idealize.ShloMosaic.Lib.ValueIdx
import Idealize.ShloMosaic.PureOps.Ideal.Laws

noncomputable section

namespace Cert.ReferenceIdeal.HandV

open Cert.ReferenceIdeal Cert.ReferenceIdeal.Gen Cert.ReferenceIdeal.ReadP Idealize.ShloMosaic Idealize.ShloMosaic.ValueIdx
open Cert.LibCoe (epsR)
open scoped BigOperators

/-- Two index functions into a rank-1 shape agree: by the coordinate. -/
local macro "idx_ext1" : tactic => `(tactic| (funext a; match a with | ⟨0, _⟩ => rfl))
/-- Two index functions into a rank-2 shape agree: by the coordinates. -/
local macro "idx_ext2" : tactic => `(tactic| (funext a; match a with | ⟨0, _⟩ => rfl | ⟨1, _⟩ => rfl))

variable (x0 : (⟨S10000x256, .f32⟩ : BufTy).Contents (Elt Ideal)) (x1 : (⟨S2x320000, .i32⟩ : BufTy).Contents (Elt Ideal)) (x2 : (⟨S256x220, .f32⟩ : BufTy).Contents (Elt Ideal)) (x3 : (⟨S220, .f32⟩ : BufTy).Contents (Elt Ideal)) (x4 : (⟨S220x150, .f32⟩ : BufTy).Contents (Elt Ideal)) (x5 : (⟨S150, .f32⟩ : BufTy).Contents (Elt Ideal)) (x6 : (⟨S150x100, .f32⟩ : BufTy).Contents (Elt Ideal)) (x7 : (⟨S100, .f32⟩ : BufTy).Contents (Elt Ideal)) (x12 : (⟨S220, .f32⟩ : BufTy).Contents (Elt Ideal)) (x13 : (⟨S220, .f32⟩ : BufTy).Contents (Elt Ideal)) (x14 : (⟨S150, .f32⟩ : BufTy).Contents (Elt Ideal)) (x15 : (⟨S150, .f32⟩ : BufTy).Contents (Elt Ideal)) (x16 : (⟨S100, .f32⟩ : BufTy).Contents (Elt Ideal)) (x17 : (⟨S100, .f32⟩ : BufTy).Contents (Elt Ideal))

/-- THE CONVOLUTION AND THE RECTIFIER. `xr` is the layer's input, `W` and `bias` its weights, as reals; `src` and `dst`
    the edges' end nodes; the stage of edge weights holds `Spec.nrm src dst`. -/
theorem v134_read_L3 (src dst : Fin 330000 → Fin 10000) (xr : Fin 10000 → Fin 150 → ℝ) (W : Fin 150 → Fin 100 → ℝ)
    (bias : Fin 100 → ℝ)
    (h3 : ∀ e : Fin 330000, (val_main_v3 (F := Ideal) x1 (ix1 e)).toInt = (((src e).val : Nat) : Int))
    (h7 : ∀ e : Fin 330000, (val_main_v7 (F := Ideal) x1 (ix1 e)).toInt = (((dst e).val : Nat) : Int))
    (hnrm : ∀ e : Fin 330000, val_main_v30 (F := Ideal) x1 (ix1 e) = ((Cert.Spec.nrm src dst e : ℝ) : EReal))
    (hin : ∀ (i : Fin 10000) (k : Fin 150), (val_main_v116 (F := Ideal) x0 x1 x2 x3 x4 x5 x12 x13 x14 x15) (ix2 i k) = ((xr i k : ℝ) : EReal))
    (hW : ∀ (k : Fin 150) (j : Fin 100), x6 (ix2 k j) = ((W k j : ℝ) : EReal))
    (hb : ∀ j : Fin 100, x7 (ix1 j) = ((bias j : ℝ) : EReal))
    (i : Fin 10000) (f : Fin 100) :
    val_main_v134 (F := Ideal) x0 x1 x2 x3 x4 x5 x6 x7 x12 x13 x14 x15 (ix2 i f)
      = ((Cert.Spec.relu (Cert.Spec.conv src dst xr W bias) i f : ℝ) : EReal) := by
  -- the dense product
  have h117 : ∀ (i : Fin 10000) (j : Fin 100),
      val_main_v117 (F := Ideal) x0 x1 x2 x3 x4 x5 x6 x12 x13 x14 x15 (ix2 i j) = ((Cert.Spec.lin xr W i j : ℝ) : EReal) := by
    intro i j
    rw [val_main_v117_apply]
    have hl : ∀ k : Fin 150, lidx_main_v117 (ix2 i j) k = ix2 i k := fun k => by idx_ext2
    have hr : ∀ k : Fin 150, ridx_main_v117 (ix2 i j) k = ix2 k j := fun k => by idx_ext2
    simp only [hl, hr, hin, hW, Cert.LibCoe.mul_coe]
    rw [Cert.LibCoe.sum_coe]
    rfl
  -- a source index is not negative: the select that shifts negative indices keeps it
  have h122 : ∀ e : Fin 330000, (val_main_v122 (F := Ideal) x1 (ix1 e)).toInt = (((src e).val : Nat) : Int) := by
    intro e
    rw [val_main_v122_apply, val_main_v119_apply, val_main_v118_apply, val_main_c_22_apply]
    have h := h3 e
    generalize val_main_v3 (F := Ideal) x1 (ix1 e) = w at h ⊢
    have hlt : w.slt 0#32 = false := by
      simp only [BitVec.slt, BitVec.toInt_zero, decide_eq_false_iff_not, Int.not_lt]
      rw [h]; omega
    have hz : IntOp.cmpi .slt w 0#32 = 0#1 := by
      show BitVec.ofBool (w.slt 0#32) = 0#1
      rw [hlt]; rfl
    rw [hz, select_zero]
    exact h
  -- the gathered row of edge `e` is the product's row at `src e`
  have h124 : ∀ (e : Fin 330000) (f : Fin 100),
      val_main_v124 (F := Ideal) x0 x1 x2 x3 x4 x5 x6 x12 x13 x14 x15 (ix2 e f) = ((Cert.Spec.lin xr W (src e) f : ℝ) : EReal) := by
    intro e f
    unfold val_main_v124
    have h123 : (val_main_v123 (F := Ideal) x1 (ix2 e 0)).toInt = (((src e).val : Nat) : Int) := by
      rw [val_main_v123_apply, show idx_main_v123 (ix2 e 0) = ix1 e from by idx_ext1]
      exact h122 e
    rw [show gather_S10000x100_S330000x1_S330000x100_1_0_n_n_0_1_1100 = Cert.Rows.gatherRows 10000 330000 100 Facts₀.gather_S10000x100_S330000x1_S330000x100_1_0_n_n_0_1_1100_wf from rfl,
      Cert.Rows.gatherRows_apply_of_eq _ _ _ e f (src e) h123]
    exact h117 (src e) f
  -- scaled by the edge's weight
  have h127 : ∀ (e : Fin 330000) (f : Fin 100), val_main_v127 (F := Ideal) x0 x1 x2 x3 x4 x5 x6 x12 x13 x14 x15 (ix2 e f)
      = ((Cert.Spec.lin xr W (src e) f * Cert.Spec.nrm src dst e : ℝ) : EReal) := by
    intro e f
    rw [val_main_v127_apply, val_main_v126_apply, val_main_v125_apply,
      show idx_main_v125 (idx_main_v126 (ix2 e f)) = ix1 e from by idx_ext1, hnrm e, h124 e f, Ideal.mulf_def,
      Cert.LibCoe.mul_coe]
  -- added into the destinations' rows
  have h130 : ∀ (d : Fin 10000) (f : Fin 100), val_main_v130 (F := Ideal) x0 x1 x2 x3 x4 x5 x6 x12 x13 x14 x15 (ix2 d f)
      = ((Cert.Spec.aggS src dst (Cert.Spec.lin xr W) d f : ℝ) : EReal) := by
    intro d f
    unfold val_main_v130
    generalize hA : val_main_v128 (F := Ideal) = A
    generalize hI : val_main_v129 (F := Ideal) x1 = I
    generalize hU : val_main_v127 (F := Ideal) x0 x1 x2 x3 x4 x5 x6 x12 x13 x14 x15 = U
    simp only [Host.scatterAdd, Ideal.hostScatterAdd_def]
    rw [show scatter_S10000x100_S330000x1_S330000x100_1_0_0_1 = Cert.Rows.scatterRows 10000 330000 100 Facts₀.scatter_S10000x100_S330000x1_S330000x100_1_0_0_1_wf from rfl,
      Cert.Rows.scatterRows_add_apply _ A I U dst (fun e => by
      rw [← hI, val_main_v129_apply, show idx_main_v129 (ix2 e 0) = ix1 e from by idx_ext1]
      exact h7 e)]
    subst hA hU
    rw [val_main_v128_apply, val_main_cst_24_apply, Ideal.ofBits_def, Cert.LibCoe.ofBits_zero]
    simp only [h127]
    have hite : ∀ e : Fin 330000,
        (if dst e = d then ((Cert.Spec.lin xr W (src e) f * Cert.Spec.nrm src dst e : ℝ) : EReal) else 0)
          = (((if dst e = d then Cert.Spec.lin xr W (src e) f * Cert.Spec.nrm src dst e else 0 : ℝ)) : EReal) := by
      intro e
      by_cases hd : dst e = d
      · rw [if_pos hd, if_pos hd]
      · rw [if_neg hd, if_neg hd, EReal.coe_zero]
    simp only [hite]
    rw [Cert.LibCoe.sum_coe, Cert.LibCoe.add_coe, zero_add]
    rfl
  -- the bias row
  have h133 : ∀ (d : Fin 10000) (f : Fin 100), val_main_v133 (F := Ideal) x0 x1 x2 x3 x4 x5 x6 x7 x12 x13 x14 x15 (ix2 d f)
      = ((Cert.Spec.conv src dst xr W bias d f : ℝ) : EReal) := by
    intro d f
    rw [val_main_v133_apply, val_main_v132_apply, val_main_v131_apply,
      show idx_main_v131 (idx_main_v132 (ix2 d f)) = ix1 f from by idx_ext1, hb f, h130 d f, Ideal.addf_def,
      Cert.LibCoe.add_coe]
    rfl
  -- the rectifier
  rw [val_main_v134_apply, val_main_call3_v0_apply, val_main_call3_cst_apply, Ideal.ofBits_def, Cert.LibCoe.ofBits_zero,
    h133 i f, Ideal.maximumf_def, Cert.LibCoe.max_coe]
  rfl

/-- The variance of a real column is not negative. -/
theorem var_nonneg_L3 (r : Fin 10000 → Fin 100 → ℝ) (f : Fin 100) : 0 ≤ Cert.Spec.var 10000 r f := by
  unfold Cert.Spec.var
  exact div_nonneg (Finset.sum_nonneg fun i _ => mul_self_nonneg _) (by norm_num)

/-- THE BATCH NORMALISATION. `r` is the rectifier's result, `g` and `be` the scale and shift rows, as reals. -/
theorem v159_read_L3 (r : Fin 10000 → Fin 100 → ℝ) (g be : Fin 100 → ℝ)
    (h134 : ∀ (i : Fin 10000) (f : Fin 100), val_main_v134 (F := Ideal) x0 x1 x2 x3 x4 x5 x6 x7 x12 x13 x14 x15 (ix2 i f) = ((r i f : ℝ) : EReal))
    (hg : ∀ j : Fin 100, x16 (ix1 j) = ((g j : ℝ) : EReal))
    (hbe : ∀ j : Fin 100, x17 (ix1 j) = ((be j : ℝ) : EReal))
    (i : Fin 10000) (f : Fin 100) :
    val_main_v159 (F := Ideal) x0 x1 x2 x3 x4 x5 x6 x7 x12 x13 x14 x15 x16 x17 (ix2 i f)
      = ((Cert.Spec.bn 10000 epsR r g be i f : ℝ) : EReal) := by
  -- the column mean
  have h135 : ∀ f : Fin 100, val_main_v135 (F := Ideal) x0 x1 x2 x3 x4 x5 x6 x7 x12 x13 x14 x15 (ix1 f) = ((Cert.Spec.colSum r f : ℝ) : EReal) := by
    intro f
    rw [val_main_v135_apply, val_main_cst_25_apply, Ideal.ofBits_def, Cert.LibCoe.ofBits_zero]
    have hk : ∀ k : Fin 10000, idx_main_v135 (ix1 f) k = ix2 k f := fun k => by idx_ext2
    simp only [hk, h134]
    rw [Cert.LibCoe.sum_coe, Cert.LibCoe.add_coe, zero_add]
    rfl
  have h137 : ∀ f : Fin 100, val_main_v137 (F := Ideal) x0 x1 x2 x3 x4 x5 x6 x7 x12 x13 x14 x15 (ix1 f) = ((Cert.Spec.mean 10000 r f : ℝ) : EReal) := by
    intro f
    rw [val_main_v137_apply, val_main_v136_apply, val_main_cst_26_apply, Ideal.ofBits_def, Cert.LibCoe.ofBits_10000, h135 f,
      Ideal.hostDivf_def, Cert.LibCoe.div_coe_coe _ (by norm_num)]
    rfl
  -- the variance, by deviations
  have h140 : ∀ (i : Fin 10000) (f : Fin 100), val_main_v140 (F := Ideal) x0 x1 x2 x3 x4 x5 x6 x7 x12 x13 x14 x15 (ix2 i f)
      = ((r i f - Cert.Spec.mean 10000 r f : ℝ) : EReal) := by
    intro i f
    rw [val_main_v140_apply, val_main_v139_apply, val_main_v138_apply,
      show idx_main_v138 (idx_main_v139 (ix2 i f)) = ix1 f from by idx_ext1, h137 f, h134 i f, Ideal.subf_def,
      Cert.LibCoe.sub_coe]
  have h144 : ∀ f : Fin 100, val_main_v144 (F := Ideal) x0 x1 x2 x3 x4 x5 x6 x7 x12 x13 x14 x15 (ix1 f) = ((Cert.Spec.var 10000 r f : ℝ) : EReal) := by
    intro f
    rw [val_main_v144_apply, val_main_v143_apply, val_main_cst_28_apply, Ideal.ofBits_def, Cert.LibCoe.ofBits_10000,
      val_main_v142_apply, val_main_cst_27_apply, Ideal.ofBits_def, Cert.LibCoe.ofBits_zero]
    have hk : ∀ k : Fin 10000, idx_main_v142 (ix1 f) k = ix2 k f := fun k => by idx_ext2
    simp only [hk, val_main_v141_apply, h140, Ideal.mulf_def, Cert.LibCoe.mul_coe]
    rw [Cert.LibCoe.sum_coe, Cert.LibCoe.add_coe, zero_add, Ideal.hostDivf_def, Cert.LibCoe.div_coe_coe _ (by norm_num)]
    rfl
  -- the reciprocal square root of the variance plus the constant, which is positive
  have h150 : ∀ f : Fin 100, val_main_v150 (F := Ideal) x0 x1 x2 x3 x4 x5 x6 x7 x12 x13 x14 x15 (ix1 f)
      = ((Cert.Spec.rsq (Cert.Spec.var 10000 r f + epsR) : ℝ) : EReal) := by
    intro f
    have hpos : 0 < Cert.Spec.var 10000 r f + epsR := add_pos_of_nonneg_of_pos (var_nonneg_L3 r f) Cert.LibCoe.epsR_pos
    rw [val_main_v150_apply, val_main_v149_apply, val_main_v148_apply, val_main_cst_29_apply, Ideal.ofBits_def,
      Cert.LibCoe.ofBits_eps, h144 f, Ideal.addf_def, Cert.LibCoe.add_coe, Ideal.hostUnary_rsqrt_def,
      Cert.LibCoe.rsqrt_coe_pos hpos]
    rfl
  -- the deviation, scaled and shifted
  have h147 : val_main_v147 (F := Ideal) x0 x1 x2 x3 x4 x5 x6 x7 x12 x13 x14 x15 (ix2 i f) = ((r i f - Cert.Spec.mean 10000 r f : ℝ) : EReal) := by
    rw [val_main_v147_apply, val_main_v146_apply, val_main_v145_apply,
      show idx_main_v145 (idx_main_v146 (ix2 i f)) = ix1 f from by idx_ext1, h137 f, h134 i f, Ideal.subf_def,
      Cert.LibCoe.sub_coe]
  rw [val_main_v159_apply, val_main_v158_apply, val_main_v157_apply,
    show idx_main_v157 (idx_main_v158 (ix2 i f)) = ix1 f from by idx_ext1, hbe f,
    val_main_v156_apply, val_main_v155_apply, val_main_v154_apply,
    show idx_main_v154 (idx_main_v155 (ix2 i f)) = ix1 f from by idx_ext1, hg f,
    val_main_v153_apply, val_main_v152_apply, val_main_v151_apply,
    show idx_main_v151 (idx_main_v152 (ix2 i f)) = ix1 f from by idx_ext1, h150 f, h147]
  simp only [Ideal.mulf_def, Ideal.addf_def, Cert.LibCoe.mul_coe, Cert.LibCoe.add_coe]
  rfl

end Cert.ReferenceIdeal.HandV

end
-- ==== Proof.RefLayer4.lean ====
/-
  The reference network's fourth layer, read element by element on real inputs.

  The layer is: a dense product `x · W`; for every edge `e` the product's row at the edge's source, scaled by the
  edge's weight; the scaled rows added into the rows of their destinations; a bias row; the rectifier; then the
  batch normalisation over the nodes (column mean, variance as the mean of squared deviations, the reciprocal
  square root of the variance plus a small constant, a scale row and a shift row).

  Two statements. Where the layer's input, the weights and the bias are coercions of reals, the edge index arrays
  read (signed) as nodes `src e` and `dst e`, and the edge weights are the coerced `Spec.nrm`, the rectifier's result
  is the coerced `Spec.relu (Spec.conv …)`. Where the rectifier's result is the coercion of a real matrix `r` and the
  scale and shift rows are coercions of reals, the normalisation's result is the coerced `Spec.bn 10000 epsR r g be`.

  Nothing is evaluated at the arrays' extents: each stage is read at one index from its operands at an index; the two
  stages whose read index depends on an operand's values — the gather of rows and the scatter with addition — are
  read by the two lemmas on rows stated for operands and indices left as variables.
-/
import proofs.«408066_j62380105008311_2_alg».proof.Proof.RefRead
import proofs.«408066_j62380105008311_2_alg».proof.Proof.RefRows
import proofs.«408066_j62380105008311_2_alg».proof.Proof.LibCoe
import proofs.«408066_j62380105008311_2_alg».proof.Proof.Spec
import Idealize.ShloMosaic.Lib.ValueIdx
import Idealize.ShloMosaic.PureOps.Ideal.Laws

noncomputable section

namespace Cert.ReferenceIdeal.HandV

open Cert.ReferenceIdeal Cert.ReferenceIdeal.Gen Cert.ReferenceIdeal.ReadP Idealize.ShloMosaic Idealize.ShloMosaic.ValueIdx
open Cert.LibCoe (epsR)
open scoped BigOperators

/-- Two index functions into a rank-1 shape agree: by the coordinate. -/
local macro "idx_ext1" : tactic => `(tactic| (funext a; match a with | ⟨0, _⟩ => rfl))
/-- Two index functions into a rank-2 shape agree: by the coordinates. -/
local macro "idx_ext2" : tactic => `(tactic| (funext a; match a with | ⟨0, _⟩ => rfl | ⟨1, _⟩ => rfl))

variable (x0 : (⟨S10000x256, .f32⟩ : BufTy).Contents (Elt Ideal)) (x1 : (⟨S2x320000, .i32⟩ : BufTy).Contents (Elt Ideal)) (x2 : (⟨S256x220, .f32⟩ : BufTy).Contents (Elt Ideal)) (x3 : (⟨S220, .f32⟩ : BufTy).Contents (Elt Ideal)) (x4 : (⟨S220x150, .f32⟩ : BufTy).Contents (Elt Ideal)) (x5 : (⟨S150, .f32⟩ : BufTy).Contents (Elt Ideal)) (x6 : (⟨S150x100, .f32⟩ : BufTy).Contents (Elt Ideal)) (x7 : (⟨S100, .f32⟩ : BufTy).Contents (Elt Ideal)) (x8 : (⟨S100x60, .f32⟩ : BufTy).Contents (Elt Ideal)) (x9 : (⟨S60, .f32⟩ : BufTy).Contents (Elt Ideal)) (x12 : (⟨S220, .f32⟩ : BufTy).Contents (Elt Ideal)) (x13 : (⟨S220, .f32⟩ : BufTy).Contents (Elt Ideal)) (x14 : (⟨S150, .f32⟩ : BufTy).Contents (Elt Ideal)) (x15 : (⟨S150, .f32⟩ : BufTy).Contents (Elt Ideal)) (x16 : (⟨S100, .f32⟩ : BufTy).Contents (Elt Ideal)) (x17 : (⟨S100, .f32⟩ : BufTy).Contents (Elt Ideal)) (x18 : (⟨S60, .f32⟩ : BufTy).Contents (Elt Ideal)) (x19 : (⟨S60, .f32⟩ : BufTy).Contents (Elt Ideal))

/-- THE CONVOLUTION AND THE RECTIFIER. `xr` is the layer's input, `W` and `bias` its weights, as reals; `src` and `dst`
    the edges' end nodes; the stage of edge weights holds `Spec.nrm src dst`. -/
theorem v177_read_L4 (src dst : Fin 330000 → Fin 10000) (xr : Fin 10000 → Fin 100 → ℝ) (W : Fin 100 → Fin 60 → ℝ)
    (bias : Fin 60 → ℝ)
    (h3 : ∀ e : Fin 330000, (val_main_v3 (F := Ideal) x1 (ix1 e)).toInt = (((src e).val : Nat) : Int))
    (h7 : ∀ e : Fin 330000, (val_main_v7 (F := Ideal) x1 (ix1 e)).toInt = (((dst e).val : Nat) : Int))
    (hnrm : ∀ e : Fin 330000, val_main_v30 (F := Ideal) x1 (ix1 e) = ((Cert.Spec.nrm src dst e : ℝ) : EReal))
    (hin : ∀ (i : Fin 10000) (k : Fin 100), (val_main_v159 (F := Ideal) x0 x1 x2 x3 x4 x5 x6 x7 x12 x13 x14 x15 x16 x17) (ix2 i k) = ((xr i k : ℝ) : EReal))
    (hW : ∀ (k : Fin 100) (j : Fin 60), x8 (ix2 k j) = ((W k j : ℝ) : EReal))
    (hb : ∀ j : Fin 60, x9 (ix1 j) = ((bias j : ℝ) : EReal))
    (i : Fin 10000) (f : Fin 60) :
    val_main_v177 (F := Ideal) x0 x1 x2 x3 x4 x5 x6 x7 x8 x9 x12 x13 x14 x15 x16 x17 (ix2 i f)
      = ((Cert.Spec.relu (Cert.Spec.conv src dst xr W bias) i f : ℝ) : EReal) := by
  -- the dense product
  have h160 : ∀ (i : Fin 10000) (j : Fin 60),
      val_main_v160 (F := Ideal) x0 x1 x2 x3 x4 x5 x6 x7 x8 x12 x13 x14 x15 x16 x17 (ix2 i j) = ((Cert.Spec.lin xr W i j : ℝ) : EReal) := by
    intro i j
    rw [val_main_v160_apply]
    have hl : ∀ k : Fin 100, lidx_main_v160 (ix2 i j) k = ix2 i k := fun k => by idx_ext2
    have hr : ∀ k : Fin 100, ridx_main_v160 (ix2 i j) k = ix2 k j := fun k => by idx_ext2
    simp only [hl, hr, hin, hW, Cert.LibCoe.mul_coe]
    rw [Cert.LibCoe.sum_coe]
    rfl
  -- a source index is not negative: the select that shifts negative indices keeps it
  have h165 : ∀ e : Fin 330000, (val_main_v165 (F := Ideal) x1 (ix1 e)).toInt = (((src e).val : Nat) : Int) := by
    intro e
    rw [val_main_v165_apply, val_main_v162_apply, val_main_v161_apply, val_main_c_30_apply]
    have h := h3 e
    generalize val_main_v3 (F := Ideal) x1 (ix1 e) = w at h ⊢
    have hlt : w.slt 0#32 = false := by
      simp only [BitVec.slt, BitVec.toInt_zero, decide_eq_false_iff_not, Int.not_lt]
      rw [h]; omega
    have hz : IntOp.cmpi .slt w 0#32 = 0#1 := by
      show BitVec.ofBool (w.slt 0#32) = 0#1
      rw [hlt]; rfl
    rw [hz, select_zero]
    exact h
  -- the gathered row of edge `e` is the product's row at `src e`
  have h167 : ∀ (e : Fin 330000) (f : Fin 60),
      val_main_v167 (F := Ideal) x0 x1 x2 x3 x4 x5 x6 x7 x8 x12 x13 x14 x15 x16 x17 (ix2 e f) = ((Cert.Spec.lin xr W (src e) f : ℝ) : EReal) := by
    intro e f
    unfold val_main_v167
    have h166 : (val_main_v166 (F := Ideal) x1 (ix2 e 0)).toInt = (((src e).val : Nat) : Int) := by
      rw [val_main_v166_apply, show idx_main_v166 (ix2 e 0) = ix1 e from by idx_ext1]
      exact h165 e
    rw [show gather_S10000x60_S330000x1_S330000x60_1_0_n_n_0_1_160 = Cert.Rows.gatherRows 10000 330000 60 Facts₀.gather_S10000x60_S330000x1_S330000x60_1_0_n_n_0_1_160_wf from rfl,
      Cert.Rows.gatherRows_apply_of_eq _ _ _ e f (src e) h166]
    exact h160 (src e) f
  -- scaled by the edge's weight
  have h170 : ∀ (e : Fin 330000) (f : Fin 60), val_main_v170 (F := Ideal) x0 x1 x2 x3 x4 x5 x6 x7 x8 x12 x13 x14 x15 x16 x17 (ix2 e f)
      = ((Cert.Spec.lin xr W (src e) f * Cert.Spec.nrm src dst e : ℝ) : EReal) := by
    intro e f
    rw [val_main_v170_apply, val_main_v169_apply, val_main_v168_apply,
      show idx_main_v168 (idx_main_v169 (ix2 e f)) = ix1 e from by idx_ext1, hnrm e, h167 e f, Ideal.mulf_def,
      Cert.LibCoe.mul_coe]
  -- added into the destinations' rows
  have h173 : ∀ (d : Fin 10000) (f : Fin 60), val_main_v173 (F := Ideal) x0 x1 x2 x3 x4 x5 x6 x7 x8 x12 x13 x14 x15 x16 x17 (ix2 d f)
      = ((Cert.Spec.aggS src dst (Cert.Spec.lin xr W) d f : ℝ) : EReal) := by
    intro d f
    unfold val_main_v173
    generalize hA : val_main_v171 (F := Ideal) = A
    generalize hI : val_main_v172 (F := Ideal) x1 = I
    generalize hU : val_main_v170 (F := Ideal) x0 x1 x2 x3 x4 x5 x6 x7 x8 x12 x13 x14 x15 x16 x17 = U
    simp only [Host.scatterAdd, Ideal.hostScatterAdd_def]
    rw [show scatter_S10000x60_S330000x1_S330000x60_1_0_0_1 = Cert.Rows.scatterRows 10000 330000 60 Facts₀.scatter_S10000x60_S330000x1_S330000x60_1_0_0_1_wf from rfl,
      Cert.Rows.scatterRows_add_apply _ A I U dst (fun e => by
      rw [← hI, val_main_v172_apply, show idx_main_v172 (ix2 e 0) = ix1 e from by idx_ext1]
      exact h7 e)]
    subst hA hU
    rw [val_main_v171_apply, val_main_cst_32_apply, Ideal.ofBits_def, Cert.LibCoe.ofBits_zero]
    simp only [h170]
    have hite : ∀ e : Fin 330000,
        (if dst e = d then ((Cert.Spec.lin xr W (src e) f * Cert.Spec.nrm src dst e : ℝ) : EReal) else 0)
          = (((if dst e = d then Cert.Spec.lin xr W (src e) f * Cert.Spec.nrm src dst e else 0 : ℝ)) : EReal) := by
      intro e
      by_cases hd : dst e = d
      · rw [if_pos hd, if_pos hd]
      · rw [if_neg hd, if_neg hd, EReal.coe_zero]
    simp only [hite]
    rw [Cert.LibCoe.sum_coe, Cert.LibCoe.add_coe, zero_add]
    rfl
  -- the bias row
  have h176 : ∀ (d : Fin 10000) (f : Fin 60), val_main_v176 (F := Ideal) x0 x1 x2 x3 x4 x5 x6 x7 x8 x9 x12 x13 x14 x15 x16 x17 (ix2 d f)
      = ((Cert.Spec.conv src dst xr W bias d f : ℝ) : EReal) := by
    intro d f
    rw [val_main_v176_apply, val_main_v175_apply, val_main_v174_apply,
      show idx_main_v174 (idx_main_v175 (ix2 d f)) = ix1 f from by idx_ext1, hb f, h173 d f, Ideal.addf_def,
      Cert.LibCoe.add_coe]
    rfl
  -- the rectifier
  rw [val_main_v177_apply, val_main_call4_v0_apply, val_main_call4_cst_apply, Ideal.ofBits_def, Cert.LibCoe.ofBits_zero,
    h176 i f, Ideal.maximumf_def, Cert.LibCoe.max_coe]
  rfl

/-- The variance of a real column is not negative. -/
theorem var_nonneg_L4 (r : Fin 10000 → Fin 60 → ℝ) (f : Fin 60) : 0 ≤ Cert.Spec.var 10000 r f := by
  unfold Cert.Spec.var
  exact div_nonneg (Finset.sum_nonneg fun i _ => mul_self_nonneg _) (by norm_num)

/-- THE BATCH NORMALISATION. `r` is the rectifier's result, `g` and `be` the scale and shift rows, as reals. -/
theorem v202_read_L4 (r : Fin 10000 → Fin 60 → ℝ) (g be : Fin 60 → ℝ)
    (h177 : ∀ (i : Fin 10000) (f : Fin 60), val_main_v177 (F := Ideal) x0 x1 x2 x3 x4 x5 x6 x7 x8 x9 x12 x13 x14 x15 x16 x17 (ix2 i f) = ((r i f : ℝ) : EReal))
    (hg : ∀ j : Fin 60, x18 (ix1 j) = ((g j : ℝ) : EReal))
    (hbe : ∀ j : Fin 60, x19 (ix1 j) = ((be j : ℝ) : EReal))
    (i : Fin 10000) (f : Fin 60) :
    val_main_v202 (F := Ideal) x0 x1 x2 x3 x4 x5 x6 x7 x8 x9 x12 x13 x14 x15 x16 x17 x18 x19 (ix2 i f)
      = ((Cert.Spec.bn 10000 epsR r g be i f : ℝ) : EReal) := by
  -- the column mean
  have h178 : ∀ f : Fin 60, val_main_v178 (F := Ideal) x0 x1 x2 x3 x4 x5 x6 x7 x8 x9 x12 x13 x14 x15 x16 x17 (ix1 f) = ((Cert.Spec.colSum r f : ℝ) : EReal) := by
    intro f
    rw [val_main_v178_apply, val_main_cst_33_apply, Ideal.ofBits_def, Cert.LibCoe.ofBits_zero]
    have hk : ∀ k : Fin 10000, idx_main_v178 (ix1 f) k = ix2 k f := fun k => by idx_ext2
    simp only [hk, h177]
    rw [Cert.LibCoe.sum_coe, Cert.LibCoe.add_coe, zero_add]
    rfl
  have h180 : ∀ f : Fin 60, val_main_v180 (F := Ideal) x0 x1 x2 x3 x4 x5 x6 x7 x8 x9 x12 x13 x14 x15 x16 x17 (ix1 f) = ((Cert.Spec.mean 10000 r f : ℝ) : EReal) := by
    intro f
    rw [val_main_v180_apply, val_main_v179_apply, val_main_cst_34_apply, Ideal.ofBits_def, Cert.LibCoe.ofBits_10000, h178 f,
      Ideal.hostDivf_def, Cert.LibCoe.div_coe_coe _ (by norm_num)]
    rfl
  -- the variance, by deviations
  have h183 : ∀ (i : Fin 10000) (f : Fin 60), val_main_v183 (F := Ideal) x0 x1 x2 x3 x4 x5 x6 x7 x8 x9 x12 x13 x14 x15 x16 x17 (ix2 i f)
      = ((r i f - Cert.Spec.mean 10000 r f : ℝ) : EReal) := by
    intro i f
    rw [val_main_v183_apply, val_main_v182_apply, val_main_v181_apply,
      show idx_main_v181 (idx_main_v182 (ix2 i f)) = ix1 f from by idx_ext1, h180 f, h177 i f, Ideal.subf_def,
      Cert.LibCoe.sub_coe]
  have h187 : ∀ f : Fin 60, val_main_v187 (F := Ideal) x0 x1 x2 x3 x4 x5 x6 x7 x8 x9 x12 x13 x14 x15 x16 x17 (ix1 f) = ((Cert.Spec.var 10000 r f : ℝ) : EReal) := by
    intro f
    rw [val_main_v187_apply, val_main_v186_apply, val_main_cst_36_apply, Ideal.ofBits_def, Cert.LibCoe.ofBits_10000,
      val_main_v185_apply, val_main_cst_35_apply, Ideal.ofBits_def, Cert.LibCoe.ofBits_zero]
    have hk : ∀ k : Fin 10000, idx_main_v185 (ix1 f) k = ix2 k f := fun k => by idx_ext2
    simp only [hk, val_main_v184_apply, h183, Ideal.mulf_def, Cert.LibCoe.mul_coe]
    rw [Cert.LibCoe.sum_coe, Cert.LibCoe.add_coe, zero_add, Ideal.hostDivf_def, Cert.LibCoe.div_coe_coe _ (by norm_num)]
    rfl
  -- the reciprocal square root of the variance plus the constant, which is positive
  have h193 : ∀ f : Fin 60, val_main_v193 (F := Ideal) x0 x1 x2 x3 x4 x5 x6 x7 x8 x9 x12 x13 x14 x15 x16 x17 (ix1 f)
      = ((Cert.Spec.rsq (Cert.Spec.var 10000 r f + epsR) : ℝ) : EReal) := by
    intro f
    have hpos : 0 < Cert.Spec.var 10000 r f + epsR := add_pos_of_nonneg_of_pos (var_nonneg_L4 r f) Cert.LibCoe.epsR_pos
    rw [val_main_v193_apply, val_main_v192_apply, val_main_v191_apply, val_main_cst_37_apply, Ideal.ofBits_def,
      Cert.LibCoe.ofBits_eps, h187 f, Ideal.addf_def, Cert.LibCoe.add_coe, Ideal.hostUnary_rsqrt_def,
      Cert.LibCoe.rsqrt_coe_pos hpos]
    rfl
  -- the deviation, scaled and shifted
  have h190 : val_main_v190 (F := Ideal) x0 x1 x2 x3 x4 x5 x6 x7 x8 x9 x12 x13 x14 x15 x16 x17 (ix2 i f) = ((r i f - Cert.Spec.mean 10000 r f : ℝ) : EReal) := by
    rw [val_main_v190_apply, val_main_v189_apply, val_main_v188_apply,
      show idx_main_v188 (idx_main_v189 (ix2 i f)) = ix1 f from by idx_ext1, h180 f, h177 i f, Ideal.subf_def,
      Cert.LibCoe.sub_coe]
  rw [val_main_v202_apply, val_main_v201_apply, val_main_v200_apply,
    show idx_main_v200 (idx_main_v201 (ix2 i f)) = ix1 f from by idx_ext1, hbe f,
    val_main_v199_apply, val_main_v198_apply, val_main_v197_apply,
    show idx_main_v197 (idx_main_v198 (ix2 i f)) = ix1 f from by idx_ext1, hg f,
    val_main_v196_apply, val_main_v195_apply, val_main_v194_apply,
    show idx_main_v194 (idx_main_v195 (ix2 i f)) = ix1 f from by idx_ext1, h193 f, h190]
  simp only [Ideal.mulf_def, Ideal.addf_def, Cert.LibCoe.mul_coe, Cert.LibCoe.add_coe]
  rfl

end Cert.ReferenceIdeal.HandV

end
-- ==== Proof.RefValue.lean ====
/-
  The reference program's result on real inputs: the whole chain.

  The five layers' readings are composed: the first layer reads the node features and its weights off the
  inputs; each later layer reads its input off the previous layer's normalised output; the last layer's
  log-softmax is the result. The index stages (the edges' end nodes, in range under the precondition) and the
  edge weights are the same for every layer. The composite is the real network `Spec.refNet`, coerced.
-/
import proofs.«408066_j62380105008311_2_alg».proof.Proof.RefLast
import proofs.«408066_j62380105008311_2_alg».proof.Proof.RefNorm
import proofs.«408066_j62380105008311_2_alg».proof.Proof.RefLayer1
import proofs.«408066_j62380105008311_2_alg».proof.Proof.RefLayer2
import proofs.«408066_j62380105008311_2_alg».proof.Proof.RefLayer3
import proofs.«408066_j62380105008311_2_alg».proof.Proof.RefLayer4

noncomputable section

namespace Cert.ReferenceIdeal.HandV

open Cert.ReferenceIdeal Cert.ReferenceIdeal.Gen Cert.ReferenceIdeal.ReadP
open Idealize.ShloMosaic Idealize.ShloMosaic.ValueIdx
open Cert.LibCoe (epsR)

/-- THE REFERENCE ON REAL INPUTS. Where the twenty argument arrays are the coercions of real inputs `R` (and of an
    in-range edge list), the reference's result is, element by element, the coerced real network. -/
theorem ref_value (x0 : (⟨S10000x256, .f32⟩ : BufTy).Contents (Elt Ideal)) (x1 : (⟨S2x320000, .i32⟩ : BufTy).Contents (Elt Ideal)) (x2 : (⟨S256x220, .f32⟩ : BufTy).Contents (Elt Ideal)) (x3 : (⟨S220, .f32⟩ : BufTy).Contents (Elt Ideal)) (x4 : (⟨S220x150, .f32⟩ : BufTy).Contents (Elt Ideal)) (x5 : (⟨S150, .f32⟩ : BufTy).Contents (Elt Ideal)) (x6 : (⟨S150x100, .f32⟩ : BufTy).Contents (Elt Ideal)) (x7 : (⟨S100, .f32⟩ : BufTy).Contents (Elt Ideal)) (x8 : (⟨S100x60, .f32⟩ : BufTy).Contents (Elt Ideal)) (x9 : (⟨S60, .f32⟩ : BufTy).Contents (Elt Ideal)) (x10 : (⟨S60x17, .f32⟩ : BufTy).Contents (Elt Ideal)) (x11 : (⟨S17, .f32⟩ : BufTy).Contents (Elt Ideal)) (x12 : (⟨S220, .f32⟩ : BufTy).Contents (Elt Ideal)) (x13 : (⟨S220, .f32⟩ : BufTy).Contents (Elt Ideal)) (x14 : (⟨S150, .f32⟩ : BufTy).Contents (Elt Ideal)) (x15 : (⟨S150, .f32⟩ : BufTy).Contents (Elt Ideal)) (x16 : (⟨S100, .f32⟩ : BufTy).Contents (Elt Ideal)) (x17 : (⟨S100, .f32⟩ : BufTy).Contents (Elt Ideal)) (x18 : (⟨S60, .f32⟩ : BufTy).Contents (Elt Ideal)) (x19 : (⟨S60, .f32⟩ : BufTy).Contents (Elt Ideal)) (R : Cert.Inputs.RealArgs)
    (hR : Cert.Inputs.Reads x0 x1 x2 x3 x4 x5 x6 x7 x8 x9 x10 x11 x12 x13 x14 x15 x16 x17 x18 x19 R) :
    val_main_v220 (F := Ideal) x0 x1 x2 x3 x4 x5 x6 x7 x8 x9 x10 x11 x12 x13 x14 x15 x16 x17 x18 x19
      = fun j => ((Cert.Spec.refNet (10000 : ℝ) epsR (Cert.Inputs.srcOf R.ei) (Cert.Inputs.dstOf R.ei)
          R.X R.P (j 0) (j 1) : ℝ) : EReal) := by
  have h3 : ∀ e : Fin 330000, (val_main_v3 (F := Ideal) x1 (ix1 e)).toInt = (((Cert.Inputs.srcOf R.ei) e).val : Int) :=
    fun e => hv3 hR e
  have h7 : ∀ e : Fin 330000, (val_main_v7 (F := Ideal) x1 (ix1 e)).toInt = (((Cert.Inputs.dstOf R.ei) e).val : Int) :=
    fun e => hv7 hR e
  have hn : ∀ e : Fin 330000, val_main_v30 (F := Ideal) x1 (ix1 e)
      = ((Cert.Spec.nrm (Cert.Inputs.srcOf R.ei) (Cert.Inputs.dstOf R.ei) e : ℝ) : EReal) :=
    fun e => hv30 hR e
  -- layer 1
  have c1 : ∀ (i : Fin 10000) (f : Fin 220), val_main_v48 (F := Ideal) x0 x1 x2 x3 (ix2 i f)
      = ((Cert.Spec.r1 (Cert.Inputs.srcOf R.ei) (Cert.Inputs.dstOf R.ei) R.X R.P i f : ℝ) : EReal) :=
    fun i f => v48_read_L1 x0 x1 x2 x3 (Cert.Inputs.srcOf R.ei) (Cert.Inputs.dstOf R.ei) R.X R.P.W1 R.P.b1 h3 h7 hn hR.hX hR.hW1 hR.hb1 i f
  have n1 : ∀ (i : Fin 10000) (f : Fin 220), val_main_v73 (F := Ideal) x0 x1 x2 x3 x12 x13 (ix2 i f)
      = ((Cert.Spec.bn (10000 : ℝ) epsR (Cert.Spec.r1 (Cert.Inputs.srcOf R.ei) (Cert.Inputs.dstOf R.ei) R.X R.P) R.P.g1 R.P.be1 i f : ℝ) : EReal) :=
    fun i f => v73_read_L1 x0 x1 x2 x3 x12 x13 _ R.P.g1 R.P.be1 c1 hR.hg1 hR.hbe1 i f
  -- layer 2
  have c2 : ∀ (i : Fin 10000) (f : Fin 150), val_main_v91 (F := Ideal) x0 x1 x2 x3 x4 x5 x12 x13 (ix2 i f)
      = ((Cert.Spec.r2 (10000 : ℝ) epsR (Cert.Inputs.srcOf R.ei) (Cert.Inputs.dstOf R.ei) R.X R.P i f : ℝ) : EReal) :=
    fun i f => v91_read_L2 x0 x1 x2 x3 x4 x5 x12 x13 (Cert.Inputs.srcOf R.ei) (Cert.Inputs.dstOf R.ei) _ R.P.W2 R.P.b2 h3 h7 hn n1 hR.hW2 hR.hb2 i f
  have n2 : ∀ (i : Fin 10000) (f : Fin 150), val_main_v116 (F := Ideal) x0 x1 x2 x3 x4 x5 x12 x13 x14 x15 (ix2 i f)
      = ((Cert.Spec.bn (10000 : ℝ) epsR (Cert.Spec.r2 (10000 : ℝ) epsR (Cert.Inputs.srcOf R.ei) (Cert.Inputs.dstOf R.ei) R.X R.P) R.P.g2 R.P.be2 i f : ℝ) : EReal) :=
    fun i f => v116_read_L2 x0 x1 x2 x3 x4 x5 x12 x13 x14 x15 _ R.P.g2 R.P.be2 c2 hR.hg2 hR.hbe2 i f
  -- layer 3
  have c3 : ∀ (i : Fin 10000) (f : Fin 100), val_main_v134 (F := Ideal) x0 x1 x2 x3 x4 x5 x6 x7 x12 x13 x14 x15 (ix2 i f)
      = ((Cert.Spec.r3 (10000 : ℝ) epsR (Cert.Inputs.srcOf R.ei) (Cert.Inputs.dstOf R.ei) R.X R.P i f : ℝ) : EReal) :=
    fun i f => v134_read_L3 x0 x1 x2 x3 x4 x5 x6 x7 x12 x13 x14 x15 (Cert.Inputs.srcOf R.ei) (Cert.Inputs.dstOf R.ei) _ R.P.W3 R.P.b3 h3 h7 hn n2 hR.hW3 hR.hb3 i f
  have n3 : ∀ (i : Fin 10000) (f : Fin 100), val_main_v159 (F := Ideal) x0 x1 x2 x3 x4 x5 x6 x7 x12 x13 x14 x15 x16 x17 (ix2 i f)
      = ((Cert.Spec.bn (10000 : ℝ) epsR (Cert.Spec.r3 (10000 : ℝ) epsR (Cert.Inputs.srcOf R.ei) (Cert.Inputs.dstOf R.ei) R.X R.P) R.P.g3 R.P.be3 i f : ℝ) : EReal) :=
    fun i f => v159_read_L3 x0 x1 x2 x3 x4 x5 x6 x7 x12 x13 x14 x15 x16 x17 _ R.P.g3 R.P.be3 c3 hR.hg3 hR.hbe3 i f
  -- layer 4
  have c4 : ∀ (i : Fin 10000) (f : Fin 60), val_main_v177 (F := Ideal) x0 x1 x2 x3 x4 x5 x6 x7 x8 x9 x12 x13 x14 x15 x16 x17 (ix2 i f)
      = ((Cert.Spec.r4 (10000 : ℝ) epsR (Cert.Inputs.srcOf R.ei) (Cert.Inputs.dstOf R.ei) R.X R.P i f : ℝ) : EReal) :=
    fun i f => v177_read_L4 x0 x1 x2 x3 x4 x5 x6 x7 x8 x9 x12 x13 x14 x15 x16 x17 (Cert.Inputs.srcOf R.ei) (Cert.Inputs.dstOf R.ei) _ R.P.W4 R.P.b4 h3 h7 hn n3 hR.hW4 hR.hb4 i f
  have n4 : ∀ (i : Fin 10000) (f : Fin 60), val_main_v202 (F := Ideal) x0 x1 x2 x3 x4 x5 x6 x7 x8 x9 x12 x13 x14 x15 x16 x17 x18 x19 (ix2 i f)
      = ((Cert.Spec.bn (10000 : ℝ) epsR (Cert.Spec.r4 (10000 : ℝ) epsR (Cert.Inputs.srcOf R.ei) (Cert.Inputs.dstOf R.ei) R.X R.P) R.P.g4 R.P.be4 i f : ℝ) : EReal) :=
    fun i f => v202_read_L4 x0 x1 x2 x3 x4 x5 x6 x7 x8 x9 x12 x13 x14 x15 x16 x17 x18 x19 _ R.P.g4 R.P.be4 c4 hR.hg4 hR.hbe4 i f
  -- layer 5 and the log-softmax
  exact ref_value_of x0 x1 x2 x3 x4 x5 x6 x7 x8 x9 x10 x11 x12 x13 x14 x15 x16 x17 x18 x19 R hR n4 h3 h7 hn

end Cert.ReferenceIdeal.HandV

end
-- ==== Proof.Claims.lean ====
/-
  The certificate's five claims, assembled.

  * The two frames of the kernel (its text read at the bit level and over the extended reals) are the hand frame.
  * The reference's frame is its run with the result's value dropped.
  * Nothing was rewritten between the kernel's two readings.
  * The value claim: under the precondition the twenty argument arrays are real inputs R (features, weights, an
    in-range edge list); the kernel's result array is the kernel's network of R (dense aggregation, variance by moments),
    the reference's is the reference network of R (edge-by-edge aggregation, variance by deviations), and over the reals
    the two networks are one function.
-/
import proofs.«408066_j62380105008311_2_alg».proof.Defs
import proofs.«408066_j62380105008311_2_alg».proof.Proof.Gen.Kernel
import proofs.«408066_j62380105008311_2_alg».proof.Proof.Gen.KernelIdeal
import proofs.«408066_j62380105008311_2_alg».proof.Proof.Gen.ReferenceIdeal
import proofs.«408066_j62380105008311_2_alg».proof.Proof.Gen.Pre_finite_inputs
import proofs.«408066_j62380105008311_2_alg».proof.Proof.Inputs
import proofs.«408066_j62380105008311_2_alg».proof.Proof.LibCoe
import proofs.«408066_j62380105008311_2_alg».proof.Proof.SpecLaws
import proofs.«408066_j62380105008311_2_alg».proof.Proof.Assembly
import proofs.«408066_j62380105008311_2_alg».proof.Proof.BAssembly
import proofs.«408066_j62380105008311_2_alg».proof.Proof.KernelValue
import proofs.«408066_j62380105008311_2_alg».proof.Proof.RefStages
import proofs.«408066_j62380105008311_2_alg».proof.Proof.RefValue
import Idealize.ShloMosaic.Lib.Pipeline.Frame
import Idealize.ShloMosaic.Lib.ValueIdx

noncomputable section

namespace Cert.Proof.Claims

open Idealize.ShloMosaic Idealize.ShloMosaic.TcCoe Idealize.SL.Sem

/-- The bit-level program runs and leaves its arguments as they were. -/
theorem frame_k : Cert.frame_Kernel := fun m ρ _ => Cert.Kernel.Hand.frame m ρ

/-- So does the program read over the extended reals. -/
theorem frame_ki : Cert.frame_KernelIdeal := fun m ρ _ => Cert.KernelIdeal.Hand.frame m ρ

/-- The reference runs and leaves its arguments as they were: its run says more (the result's value), dropped here. -/
theorem frame_ri : Cert.frame_ReferenceIdeal := fun m ρ _ =>
  (θ_run Cert.ReferenceIdeal.defs _ _).mono (fun _ h c => (h c).2) (Cert.ReferenceIdeal.HandR.run (F := Ideal) m ρ)

/-- Nothing was rewritten between the two readings of the kernel. -/
theorem preserves : Cert.preserves_Kernel_KernelIdeal := trivial

/-- The two networks over the reals, at 10000 nodes, are one function. -/
theorem nets_eq (src dst : Fin 330000 → Fin 10000) (X : Fin 10000 → Fin 256 → ℝ) (P : Cert.Spec.Params) :
    Cert.Spec.kerNet (10000 : ℝ) Cert.LibCoe.epsR src dst X P = Cert.Spec.refNet (10000 : ℝ) Cert.LibCoe.epsR src dst X P := by
  have h := Cert.Spec.kerNet_eq_refNet (n := 10000) (by norm_num) Cert.LibCoe.epsR src dst X P
  simpa only [Nat.cast_ofNat] using h

/-- A rank-2 array that reads `net i f` at every `(i, f)` is the array `j ↦ net (j 0) (j 1)`. -/
theorem fun_eq_of_ix2 {n0 n1 : ℕ} (W : (⟨2, ![n0, n1]⟩ : Shape).Idx → EReal) (net : Fin n0 → Fin n1 → ℝ)
    (h : ∀ i f, W (ValueIdx.ix2 i f) = ((net i f : ℝ) : EReal)) :
    (fun j : (⟨2, ![n0, n1]⟩ : Shape).Idx => ((net (j 0) (j 1) : ℝ) : EReal)) = W :=
  funext fun j => ((congrArg W (ValueIdx.eq_ix2 j)).trans (h (j 0) (j 1))).symm

/-- Over the extended reals, from memories that agree on the arguments, the kernel's result array and the reference's are
    equal: under the precondition the arguments are real inputs R; the kernel's result is the kernel's network of R, the
    reference's is the reference network of R, and the two networks are one function. -/
theorem algebraic : Cert.algebraic_KernelIdeal_ReferenceIdeal := by
  intro m ρ m' ρ' hpre hagree
  -- the arguments as mathematics, on each device
  have hex : ∀ c : Dev Cert.KernelIdeal.nD, ∃ R : Cert.Inputs.RealArgs, Cert.Inputs.Reads (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) R :=
    fun c => Cert.Inputs.reads_of_pre _ _ _ _ _ _ _ _ _ _ _ _ _ _ _ _ _ _ _ _ (hpre c)
  choose R hR using hex
  refine ⟨fun c => Cert.KernelIdeal.Hand.W37 (F := Ideal) m c (Proc.devRef .tc Cert.KernelIdeal.main_v127), ?_, ?_⟩
  · -- the kernel: every unscoped array ends at the valuation; the arguments' entries there are the launch memory's
    refine (θ_run (Cert.KernelIdeal.defs (F := Ideal)) _ _).mono (fun r h c => ?_) (Cert.KernelIdeal.Hand.run_all (F := Ideal) m ρ)
    have hb : ∀ (b : Ref Cert.KernelIdeal.sig .tc), ¬ (Proc.devRef .tc b : DevRef Cert.KernelIdeal.τ Cert.KernelIdeal.sig).isScoped →
        r.2.mem ((c.tc : Thread Cert.KernelIdeal.nD Cert.KernelIdeal.τ).loc b) = Cert.KernelIdeal.Hand.W37 (F := Ideal) m c (Proc.devRef .tc b) :=
      fun b hs => h c _ (Cert.KernelIdeal.Hand.mem_uc b hs)
    exact ⟨hb Cert.KernelIdeal.main_v127 (by decide),
      (hb Cert.KernelIdeal.main_arg0 (by decide)).trans (Cert.KernelIdeal.Hand.W37_main_arg0 m c),
      (hb Cert.KernelIdeal.main_arg1 (by decide)).trans (Cert.KernelIdeal.Hand.W37_main_arg1 m c),
      (hb Cert.KernelIdeal.main_arg2 (by decide)).trans (Cert.KernelIdeal.Hand.W37_main_arg2 m c),
      (hb Cert.KernelIdeal.main_arg3 (by decide)).trans (Cert.KernelIdeal.Hand.W37_main_arg3 m c),
      (hb Cert.KernelIdeal.main_arg4 (by decide)).trans (Cert.KernelIdeal.Hand.W37_main_arg4 m c),
      (hb Cert.KernelIdeal.main_arg5 (by decide)).trans (Cert.KernelIdeal.Hand.W37_main_arg5 m c),
      (hb Cert.KernelIdeal.main_arg6 (by decide)).trans (Cert.KernelIdeal.Hand.W37_main_arg6 m c),
      (hb Cert.KernelIdeal.main_arg7 (by decide)).trans (Cert.KernelIdeal.Hand.W37_main_arg7 m c),
      (hb Cert.KernelIdeal.main_arg8 (by decide)).trans (Cert.KernelIdeal.Hand.W37_main_arg8 m c),
      (hb Cert.KernelIdeal.main_arg9 (by decide)).trans (Cert.KernelIdeal.Hand.W37_main_arg9 m c),
      (hb Cert.KernelIdeal.main_arg10 (by decide)).trans (Cert.KernelIdeal.Hand.W37_main_arg10 m c),
      (hb Cert.KernelIdeal.main_arg11 (by decide)).trans (Cert.KernelIdeal.Hand.W37_main_arg11 m c),
      (hb Cert.KernelIdeal.main_arg12 (by decide)).trans (Cert.KernelIdeal.Hand.W37_main_arg12 m c),
      (hb Cert.KernelIdeal.main_arg13 (by decide)).trans (Cert.KernelIdeal.Hand.W37_main_arg13 m c),
      (hb Cert.KernelIdeal.main_arg14 (by decide)).trans (Cert.KernelIdeal.Hand.W37_main_arg14 m c),
      (hb Cert.KernelIdeal.main_arg15 (by decide)).trans (Cert.KernelIdeal.Hand.W37_main_arg15 m c),
      (hb Cert.KernelIdeal.main_arg16 (by decide)).trans (Cert.KernelIdeal.Hand.W37_main_arg16 m c),
      (hb Cert.KernelIdeal.main_arg17 (by decide)).trans (Cert.KernelIdeal.Hand.W37_main_arg17 m c),
      (hb Cert.KernelIdeal.main_arg18 (by decide)).trans (Cert.KernelIdeal.Hand.W37_main_arg18 m c),
      (hb Cert.KernelIdeal.main_arg19 (by decide)).trans (Cert.KernelIdeal.Hand.W37_main_arg19 m c)⟩
  · -- the reference: its result is the reference network of R, which is the kernel's network of R
    refine (θ_run (Cert.ReferenceIdeal.defs (F := Ideal)) _ _).mono (fun r h c => ⟨(h c).1.trans ?_, (h c).2⟩)
      (Cert.ReferenceIdeal.HandR.run (F := Ideal) m' ρ')
    obtain ⟨a0, a1, a2, a3, a4, a5, a6, a7, a8, a9, a10, a11, a12, a13, a14, a15, a16, a17, a18, a19⟩ := hagree c
    rw [a0, a1, a2, a3, a4, a5, a6, a7, a8, a9, a10, a11, a12, a13, a14, a15, a16, a17, a18, a19]
    refine (Cert.ReferenceIdeal.HandV.ref_value _ _ _ _ _ _ _ _ _ _ _ _ _ _ _ _ _ _ _ _ (R c) (hR c)).trans ?_
    exact fun_eq_of_ix2 (Cert.KernelIdeal.Hand.W37 (F := Ideal) m c (Proc.devRef .tc Cert.KernelIdeal.main_v127))
      (Cert.Spec.refNet (10000 : ℝ) Cert.LibCoe.epsR (Cert.Inputs.srcOf (R c).ei) (Cert.Inputs.dstOf (R c).ei) (R c).X (R c).P)
      (fun i f => by rw [← nets_eq]; exact Cert.KernelIdeal.HandV.kernel_value m c (R c) (hR c) i f)

/-- The five claims together, at the generated witnesses of the programs' stated facts. -/
theorem claim_body :
    Cert.frame_Kernel (hKernel := Cert.Kernel.Gen.facts) (hPre_finite_inputs := Cert.Pre_finite_inputs.Gen.facts)
    ∧ Cert.frame_KernelIdeal (hKernelIdeal := Cert.KernelIdeal.Gen.facts) (hPre_finite_inputs := Cert.Pre_finite_inputs.Gen.facts)
    ∧ Cert.frame_ReferenceIdeal (hReferenceIdeal := Cert.ReferenceIdeal.Gen.facts) (hPre_finite_inputs := Cert.Pre_finite_inputs.Gen.facts)
    ∧ Cert.preserves_Kernel_KernelIdeal
    ∧ Cert.algebraic_KernelIdeal_ReferenceIdeal (hKernelIdeal := Cert.KernelIdeal.Gen.facts) (hReferenceIdeal := Cert.ReferenceIdeal.Gen.facts)
        (hPre_finite_inputs := Cert.Pre_finite_inputs.Gen.facts) :=
  ⟨frame_k, frame_ki, frame_ri, preserves, algebraic⟩

end Cert.Proof.Claims

end
-- ==== Proof.lean ====
/-
  A five-layer graph convolution network on 10000 nodes: per layer `Â · (x · W) + b` with the symmetrically
  normalised adjacency `Â[d, s] = ∑_{e : s → d} deg(s)^(-1/2) · deg(d)^(-1/2)` (self loops included), a rectifier and a
  batch normalisation over the nodes between layers, a row-wise log-softmax at the end.

  The kernel builds `Â` ONCE as a dense 10000 × 10240 matrix (zero beyond column 10000) and computes each
  aggregation as a blocked matrix product with the features padded by 240 zero rows, the products accumulated over
  ten column blocks; it takes the batch statistics from running column sums and sums of squares, the variance as
  `max(E[x²] − E[x]², 0)`, and folds the normalisation into the next layer's dense product. The reference gathers the
  source row of every edge, scales it by the edge's weight and adds it into the destination row, and takes the variance
  as the mean of squared deviations. Over the reals the two agree: exchanging the two finite sums turns the dense
  product into the sum over edges (`Cert.Spec.aggD_eq_aggS`), and `∑(x − μ)²/n = ∑x²/n − μ²`, which is non-negative, so the
  maximum with zero changes nothing (`Cert.Spec.varK_eq_var`); every other step is the same operation on both sides.
  Finite inputs keep every intermediate value a real number (the square roots are taken of positive numbers: a degree
  of at least one where it is used, a variance plus a positive constant), so the extended-real operations of the ideal
  instance are the real ones throughout; the edge indices are taken in range `0 ≤ e < 10000`, where both programs
  index the same rows.

  The frames: each of the kernel program's fifteen launches runs its body at every grid point from the blocks the
  pipeline staged — a single pass for the dense products, the normalisation and the log-softmax; a scratch accumulator
  carried across the ten column blocks for the aggregation; two output rows carried across the ten row blocks for the
  statistics — and @main's host operations between the launches write only their own results, so the twenty argument
  arrays end as they were launched. The reference is a line of host operations, run one stretch at a time.
-/
import proofs.«408066_j62380105008311_2_alg».proof.Defs
import proofs.«408066_j62380105008311_2_alg».proof.Proof.Gen.Kernel
import proofs.«408066_j62380105008311_2_alg».proof.Proof.Gen.KernelIdeal
import proofs.«408066_j62380105008311_2_alg».proof.Proof.Gen.ReferenceIdeal
import proofs.«408066_j62380105008311_2_alg».proof.Proof.Gen.Pre_finite_inputs
import proofs.«408066_j62380105008311_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.claim_body⟩

end Cert.Proof

end
